-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S500000x4 : Shape := ⟨2, ![500000, 4]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S500000x4 : S_.BroadcastsInDim S500000x4 (![] : Fin 0 → Fin S500000x4.rank)
  reducesTo_S500000x4_S_d0_1 : S500000x4.ReducesTo [0, 1] S_

variable [Facts]

def fn {F : FTy → Type} [FloatOps F] (main_arg0 : FVec F S100000x64 .f32) (main_arg1 : IVec S500000x4 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_c_0 : IVec S_ 32 := constantI S_ 32 0#32
  let main_v4 : IVec S500000x4 32 := broadcastInDim S500000x4 ![] bcast_S_S500000x4 main_c_0
  let main_v5 : IVec S500000x4 1 := cmpi .sge main_arg1 main_v4
  let main_c_1 : IVec S_ 32 := constantI S_ 32 100000#32
  let main_v6 : IVec S500000x4 32 := broadcastInDim S500000x4 ![] bcast_S_S500000x4 main_c_1
  let main_v7 : IVec S500000x4 1 := cmpi .slt main_arg1 main_v6
  let main_v8 : IVec S500000x4 1 := andi main_v5 main_v7
  let main_c_2 : IVec S_ 1 := constantI S_ 1 1#1
  let main_v9 : IVec S_ 1 := (fun x v => Host.reduce IntOp.andi x v reducesTo_S500000x4_S_d0_1 h_S_) main_v8 main_c_2
  let main_v10 : IVec S_ 1 := andi main_v3 main_v9
  main_v10
-- ==== Kernel.lean ====
abbrev S100000x64 : Shape := ⟨2, ![100000, 64]⟩
abbrev S500000x4 : Shape := ⟨2, ![500000, 4]⟩
abbrev S500000x1 : Shape := ⟨2, ![500000, 1]⟩
abbrev S500000 : Shape := ⟨1, ![500000]⟩
abbrev S100000x1x64 : Shape := ⟨3, ![100000, 1, 64]⟩
abbrev S25000 : Shape := ⟨1, ![25000]⟩
abbrev S25000x1x2 : Shape := ⟨3, ![25000, 1, 2]⟩
abbrev S1x1x64 : Shape := ⟨3, ![1, 1, 64]⟩
abbrev S1 : Shape := ⟨1, ![1]⟩
abbrev S1x1x2 : Shape := ⟨3, ![1, 1, 2]⟩
abbrev S1x1 : Shape := ⟨2, ![1, 1]⟩
abbrev S1x1x1 : Shape := ⟨3, ![1, 1, 1]⟩
abbrev S400000x1x2 : Shape := ⟨3, ![400000, 1, 2]⟩
abbrev S100000x1x2 : Shape := ⟨3, ![100000, 1, 2]⟩
abbrev S500000x1x2 : Shape := ⟨3, ![500000, 1, 2]⟩
abbrev S500000x2 : Shape := ⟨2, ![500000, 2]⟩

abbrev nBuf : Space → Nat
  | .hbm => 35
  | .vmem => 200
  | .smem => 80
  | _ => 0

abbrev vmemTy0_0 (i : Nat) : BufTy := match i % 128 with
  | 0 => ⟨S1x1x64, .f32⟩
  | 1 => ⟨S1x1x64, .f32⟩
  | 2 => ⟨S1x1x64, .f32⟩
  | 3 => ⟨S1x1x64, .f32⟩
  | 4 => ⟨S1x1x64, .f32⟩
  | 5 => ⟨S1x1x64, .f32⟩
  | 6 => ⟨S1x1x64, .f32⟩
  | 7 => ⟨S1x1x64, .f32⟩
  | 8 => ⟨S1x1x2, .f32⟩
  | 9 => ⟨S1x1x2, .f32⟩
  | 10 => ⟨S1x1x64, .f32⟩
  | 11 => ⟨S1x1x64, .f32⟩
  | 12 => ⟨S1x1x64, .f32⟩
  | 13 => ⟨S1x1x64, .f32⟩
  | 14 => ⟨S1x1x64, .f32⟩
  | 15 => ⟨S1x1x64, .f32⟩
  | 16 => ⟨S1x1x64, .f32⟩
  | 17 => ⟨S1x1x64, .f32⟩
  | 18 => ⟨S1x1x2, .f32⟩
  | 19 => ⟨S1x1x2, .f32⟩
  | 20 => ⟨S1x1x64, .f32⟩
  | 21 => ⟨S1x1x64, .f32⟩
  | 22 => ⟨S1x1x64, .f32⟩
  | 23 => ⟨S1x1x64, .f32⟩
  | 24 => ⟨S1x1x64, .f32⟩
  | 25 => ⟨S1x1x64, .f32⟩
  | 26 => ⟨S1x1x64, .f32⟩
  | 27 => ⟨S1x1x64, .f32⟩
  | 28 => ⟨S1x1x2, .f32⟩
  | 29 => ⟨S1x1x2, .f32⟩
  | 30 => ⟨S1x1x64, .f32⟩
  | 31 => ⟨S1x1x64, .f32⟩
  | 32 => ⟨S1x1x64, .f32⟩
  | 33 => ⟨S1x1x64, .f32⟩
  | 34 => ⟨S1x1x64, .f32⟩
  | 35 => ⟨S1x1x64, .f32⟩
  | 36 => ⟨S1x1x64, .f32⟩
  | 37 => ⟨S1x1x64, .f32⟩
  | 38 => ⟨S1x1x2, .f32⟩
  | 39 => ⟨S1x1x2, .f32⟩
  | 40 => ⟨S1x1x64, .f32⟩
  | 41 => ⟨S1x1x64, .f32⟩
  | 42 => ⟨S1x1x64, .f32⟩
  | 43 => ⟨S1x1x64, .f32⟩
  | 44 => ⟨S1x1x64, .f32⟩
  | 45 => ⟨S1x1x64, .f32⟩
  | 46 => ⟨S1x1x64, .f32⟩
  | 47 => ⟨S1x1x64, .f32⟩
  | 48 => ⟨S1x1x2, .f32⟩
  | 49 => ⟨S1x1x2, .f32⟩
  | 50 => ⟨S1x1x64, .f32⟩
  | 51 => ⟨S1x1x64, .f32⟩
  | 52 => ⟨S1x1x64, .f32⟩
  | 53 => ⟨S1x1x64, .f32⟩
  | 54 => ⟨S1x1x64, .f32⟩
  | 55 => ⟨S1x1x64, .f32⟩
  | 56 => ⟨S1x1x64, .f32⟩
  | 57 => ⟨S1x1x64, .f32⟩
  | 58 => ⟨S1x1x2, .f32⟩
  | 59 => ⟨S1x1x2, .f32⟩
  | 60 => ⟨S1x1x64, .f32⟩
  | 61 => ⟨S1x1x64, .f32⟩
  | 62 => ⟨S1x1x64, .f32⟩
  | 63 => ⟨S1x1x64, .f32⟩
  | 64 => ⟨S1x1x64, .f32⟩
  | 65 => ⟨S1x1x64, .f32⟩
  | 66 => ⟨S1x1x64, .f32⟩
  | 67 => ⟨S1x1x64, .f32⟩
  | 68 => ⟨S1x1x2, .f32⟩
  | 69 => ⟨S1x1x2, .f32⟩
  | 70 => ⟨S1x1x64, .f32⟩
  | 71 => ⟨S1x1x64, .f32⟩
  | 72 => ⟨S1x1x64, .f32⟩
  | 73 => ⟨S1x1x64, .f32⟩
  | 74 => ⟨S1x1x64, .f32⟩
  | 75 => ⟨S1x1x64, .f32⟩
  | 76 => ⟨S1x1x64, .f32⟩
  | 77 => ⟨S1x1x64, .f32⟩
  | 78 => ⟨S1x1x2, .f32⟩
  | 79 => ⟨S1x1x2, .f32⟩
  | 80 => ⟨S1x1x64, .f32⟩
  | 81 => ⟨S1x1x64, .f32⟩
  | 82 => ⟨S1x1x64, .f32⟩
  | 83 => ⟨S1x1x64, .f32⟩
  | 84 => ⟨S1x1x64, .f32⟩
  | 85 => ⟨S1x1x64, .f32⟩
  | 86 => ⟨S1x1x64, .f32⟩
  | 87 => ⟨S1x1x64, .f32⟩
  | 88 => ⟨S1x1x2, .f32⟩
  | 89 => ⟨S1x1x2, .f32⟩
  | 90 => ⟨S1x1x64, .f32⟩
  | 91 => ⟨S1x1x64, .f32⟩
  | 92 => ⟨S1x1x64, .f32⟩
  | 93 => ⟨S1x1x64, .f32⟩
  | 94 => ⟨S1x1x64, .f32⟩
  | 95 => ⟨S1x1x64, .f32⟩
  | 96 => ⟨S1x1x64, .f32⟩
  | 97 => ⟨S1x1x64, .f32⟩
  | 98 => ⟨S1x1x2, .f32⟩
  | 99 => ⟨S1x1x2, .f32⟩
  | 100 => ⟨S1x1x64, .f32⟩
  | 101 => ⟨S1x1x64, .f32⟩
  | 102 => ⟨S1x1x64, .f32⟩
  | 103 => ⟨S1x1x64, .f32⟩
  | 104 => ⟨S1x1x64, .f32⟩
  | 105 => ⟨S1x1x64, .f32⟩
  | 106 => ⟨S1x1x64, .f32⟩
  | 107 => ⟨S1x1x64, .f32⟩
  | 108 => ⟨S1x1x2, .f32⟩
  | 109 => ⟨S1x1x2, .f32⟩
  | 110 => ⟨S1x1x64, .f32⟩
  | 111 => ⟨S1x1x64, .f32⟩
  | 112 => ⟨S1x1x64, .f32⟩
  | 113 => ⟨S1x1x64, .f32⟩
  | 114 => ⟨S1x1x64, .f32⟩
  | 115 => ⟨S1x1x64, .f32⟩
  | 116 => ⟨S1x1x64, .f32⟩
  | 117 => ⟨S1x1x64, .f32⟩
  | 118 => ⟨S1x1x2, .f32⟩
  | 119 => ⟨S1x1x2, .f32⟩
  | 120 => ⟨S1x1x64, .f32⟩
  | 121 => ⟨S1x1x64, .f32⟩
  | 122 => ⟨S1x1x64, .f32⟩
  | 123 => ⟨S1x1x64, .f32⟩
  | 124 => ⟨S1x1x64, .f32⟩
  | 125 => ⟨S1x1x64, .f32⟩
  | 126 => ⟨S1x1x64, .f32⟩
  | 127 => ⟨S1x1x64, .f32⟩
  | _ => ⟨S100000x64, .f32⟩

abbrev vmemTy0_1 (i : Nat) : BufTy := match i % 128 with
  | 0 => ⟨S1x1x2, .f32⟩
  | 1 => ⟨S1x1x2, .f32⟩
  | 2 => ⟨S1x1x64, .f32⟩
  | 3 => ⟨S1x1x64, .f32⟩
  | 4 => ⟨S1x1x64, .f32⟩
  | 5 => ⟨S1x1x64, .f32⟩
  | 6 => ⟨S1x1x64, .f32⟩
  | 7 => ⟨S1x1x64, .f32⟩
  | 8 => ⟨S1x1x64, .f32⟩
  | 9 => ⟨S1x1x64, .f32⟩
  | 10 => ⟨S1x1x2, .f32⟩
  | 11 => ⟨S1x1x2, .f32⟩
  | 12 => ⟨S1x1x64, .f32⟩
  | 13 => ⟨S1x1x64, .f32⟩
  | 14 => ⟨S1x1x64, .f32⟩
  | 15 => ⟨S1x1x64, .f32⟩
  | 16 => ⟨S1x1x64, .f32⟩
  | 17 => ⟨S1x1x64, .f32⟩
  | 18 => ⟨S1x1x64, .f32⟩
  | 19 => ⟨S1x1x64, .f32⟩
  | 20 => ⟨S1x1x2, .f32⟩
  | 21 => ⟨S1x1x2, .f32⟩
  | 22 => ⟨S1x1x64, .f32⟩
  | 23 => ⟨S1x1x64, .f32⟩
  | 24 => ⟨S1x1x64, .f32⟩
  | 25 => ⟨S1x1x64, .f32⟩
  | 26 => ⟨S1x1x64, .f32⟩
  | 27 => ⟨S1x1x64, .f32⟩
  | 28 => ⟨S1x1x64, .f32⟩
  | 29 => ⟨S1x1x64, .f32⟩
  | 30 => ⟨S1x1x2, .f32⟩
  | 31 => ⟨S1x1x2, .f32⟩
  | 32 => ⟨S1x1x64, .f32⟩
  | 33 => ⟨S1x1x64, .f32⟩
  | 34 => ⟨S1x1x64, .f32⟩
  | 35 => ⟨S1x1x64, .f32⟩
  | 36 => ⟨S1x1x64, .f32⟩
  | 37 => ⟨S1x1x64, .f32⟩
  | 38 => ⟨S1x1x64, .f32⟩
  | 39 => ⟨S1x1x64, .f32⟩
  | 40 => ⟨S1x1x2, .f32⟩
  | 41 => ⟨S1x1x2, .f32⟩
  | 42 => ⟨S1x1x64, .f32⟩
  | 43 => ⟨S1x1x64, .f32⟩
  | 44 => ⟨S1x1x64, .f32⟩
  | 45 => ⟨S1x1x64, .f32⟩
  | 46 => ⟨S1x1x64, .f32⟩
  | 47 => ⟨S1x1x64, .f32⟩
  | 48 => ⟨S1x1x64, .f32⟩
  | 49 => ⟨S1x1x64, .f32⟩
  | 50 => ⟨S1x1x2, .f32⟩
  | 51 => ⟨S1x1x2, .f32⟩
  | 52 => ⟨S1x1x64, .f32⟩
  | 53 => ⟨S1x1x64, .f32⟩
  | 54 => ⟨S1x1x64, .f32⟩
  | 55 => ⟨S1x1x64, .f32⟩
  | 56 => ⟨S1x1x64, .f32⟩
  | 57 => ⟨S1x1x64, .f32⟩
  | 58 => ⟨S1x1x64, .f32⟩
  | 59 => ⟨S1x1x64, .f32⟩
  | 60 => ⟨S1x1x2, .f32⟩
  | 61 => ⟨S1x1x2, .f32⟩
  | 62 => ⟨S1x1x64, .f32⟩
  | 63 => ⟨S1x1x64, .f32⟩
  | 64 => ⟨S1x1x64, .f32⟩
  | 65 => ⟨S1x1x64, .f32⟩
  | 66 => ⟨S1x1x64, .f32⟩
  | 67 => ⟨S1x1x64, .f32⟩
  | 68 => ⟨S1x1x64, .f32⟩
  | 69 => ⟨S1x1x64, .f32⟩
  | 70 => ⟨S1x1x2, .f32⟩
  | 71 => ⟨S1x1x2, .f32⟩
  | _ => ⟨S100000x64, .f32⟩

abbrev vmemTy (i : Nat) : BufTy := match i / 128 with
  | 0 => vmemTy0_0 i
  | 1 => vmemTy0_1 i
  | _ => ⟨S100000x64, .f32⟩

abbrev bufTy : (tb : Table) → Fin (tcTables nBuf tb) → BufTy
  | .hbm, ⟨0, _⟩ => ⟨S100000x64, .f32⟩
  | .hbm, ⟨1, _⟩ => ⟨S500000x4, .i32⟩
  | .hbm, ⟨2, _⟩ => ⟨S500000x1, .i32⟩
  | .hbm, ⟨3, _⟩ => ⟨S500000, .i32⟩
  | .hbm, ⟨4, _⟩ => ⟨S500000x1, .i32⟩
  | .hbm, ⟨5, _⟩ => ⟨S500000, .i32⟩
  | .hbm, ⟨6, _⟩ => ⟨S500000x1, .i32⟩
  | .hbm, ⟨7, _⟩ => ⟨S500000, .i32⟩
  | .hbm, ⟨8, _⟩ => ⟨S500000x1, .i32⟩
  | .hbm, ⟨9, _⟩ => ⟨S500000, .i32⟩
  | .hbm, ⟨10, _⟩ => ⟨S100000x1x64, .f32⟩
  | .hbm, ⟨11, _⟩ => ⟨S25000x1x2, .f32⟩
  | .hbm, ⟨12, _⟩ => ⟨S25000x1x2, .f32⟩
  | .hbm, ⟨13, _⟩ => ⟨S25000x1x2, .f32⟩
  | .hbm, ⟨14, _⟩ => ⟨S25000x1x2, .f32⟩
  | .hbm, ⟨15, _⟩ => ⟨S25000x1x2, .f32⟩
  | .hbm, ⟨16, _⟩ => ⟨S25000x1x2, .f32⟩
  | .hbm, ⟨17, _⟩ => ⟨S25000x1x2, .f32⟩
  | .hbm, ⟨18, _⟩ => ⟨S25000x1x2, .f32⟩
  | .hbm, ⟨19, _⟩ => ⟨S25000x1x2, .f32⟩
  | .hbm, ⟨20, _⟩ => ⟨S25000x1x2, .f32⟩
  | .hbm, ⟨21, _⟩ => ⟨S25000x1x2, .f32⟩
  | .hbm, ⟨22, _⟩ => ⟨S25000x1x2, .f32⟩
  | .hbm, ⟨23, _⟩ => ⟨S25000x1x2, .f32⟩
  | .hbm, ⟨24, _⟩ => ⟨S25000x1x2, .f32⟩
  | .hbm, ⟨25, _⟩ => ⟨S25000x1x2, .f32⟩
  | .hbm, ⟨26, _⟩ => ⟨S25000x1x2, .f32⟩
  | .hbm, ⟨27, _⟩ => ⟨S25000x1x2, .f32⟩
  | .hbm, ⟨28, _⟩ => ⟨S25000x1x2, .f32⟩
  | .hbm, ⟨29, _⟩ => ⟨S25000x1x2, .f32⟩
  | .hbm, ⟨30, _⟩ => ⟨S25000x1x2, .f32⟩
  | .hbm, ⟨31, _⟩ => ⟨S400000x1x2, .f32⟩
  | .hbm, ⟨32, _⟩ => ⟨S100000x1x2, .f32⟩
  | .hbm, ⟨33, _⟩ => ⟨S500000x1x2, .f32⟩
  | .hbm, ⟨34, _⟩ => ⟨S500000x2, .f32⟩
  | .local _ .vmem, ⟨i, _⟩ => vmemTy i
  | .local _ .smem, ⟨0, _⟩ => ⟨S25000, .i32⟩
  | .local _ .smem, ⟨1, _⟩ => ⟨S25000, .i32⟩
  | .local _ .smem, ⟨2, _⟩ => ⟨S25000, .i32⟩
  | .local _ .smem, ⟨3, _⟩ => ⟨S25000, .i32⟩
  | .local _ .smem, ⟨4, _⟩ => ⟨S25000, .i32⟩
  | .local _ .smem, ⟨5, _⟩ => ⟨S25000, .i32⟩
  | .local _ .smem, ⟨6, _⟩ => ⟨S25000, .i32⟩
  | .local _ .smem, ⟨7, _⟩ => ⟨S25000, .i32⟩
  | .local _ .smem, ⟨8, _⟩ => ⟨S25000, .i32⟩
  | .local _ .smem, ⟨9, _⟩ => ⟨S25000, .i32⟩
  | .local _ .smem, ⟨10, _⟩ => ⟨S25000, .i32⟩
  | .local _ .smem, ⟨11, _⟩ => ⟨S25000, .i32⟩
  | .local _ .smem, ⟨12, _⟩ => ⟨S25000, .i32⟩
  | .local _ .smem, ⟨13, _⟩ => ⟨S25000, .i32⟩
  | .local _ .smem, ⟨14, _⟩ => ⟨S25000, .i32⟩
  | .local _ .smem, ⟨15, _⟩ => ⟨S25000, .i32⟩
  | .local _ .smem, ⟨16, _⟩ => ⟨S25000, .i32⟩
  | .local _ .smem, ⟨17, _⟩ => ⟨S25000, .i32⟩
  | .local _ .smem, ⟨18, _⟩ => ⟨S25000, .i32⟩
  | .local _ .smem, ⟨19, _⟩ => ⟨S25000, .i32⟩
  | .local _ .smem, ⟨20, _⟩ => ⟨S25000, .i32⟩
  | .local _ .smem, ⟨21, _⟩ => ⟨S25000, .i32⟩
  | .local _ .smem, ⟨22, _⟩ => ⟨S25000, .i32⟩
  | .local _ .smem, ⟨23, _⟩ => ⟨S25000, .i32⟩
  | .local _ .smem, ⟨24, _⟩ => ⟨S25000, .i32⟩
  | .local _ .smem, ⟨25, _⟩ => ⟨S25000, .i32⟩
  | .local _ .smem, ⟨26, _⟩ => ⟨S25000, .i32⟩
  | .local _ .smem, ⟨27, _⟩ => ⟨S25000, .i32⟩
  | .local _ .smem, ⟨28, _⟩ => ⟨S25000, .i32⟩
  | .local _ .smem, ⟨29, _⟩ => ⟨S25000, .i32⟩
  | .local _ .smem, ⟨30, _⟩ => ⟨S25000, .i32⟩
  | .local _ .smem, ⟨31, _⟩ => ⟨S25000, .i32⟩
  | .local _ .smem, ⟨32, _⟩ => ⟨S25000, .i32⟩
  | .local _ .smem, ⟨33, _⟩ => ⟨S25000, .i32⟩
  | .local _ .smem, ⟨34, _⟩ => ⟨S25000, .i32⟩
  | .local _ .smem, ⟨35, _⟩ => ⟨S25000, .i32⟩
  | .local _ .smem, ⟨36, _⟩ => ⟨S25000, .i32⟩
  | .local _ .smem, ⟨37, _⟩ => ⟨S25000, .i32⟩
  | .local _ .smem, ⟨38, _⟩ => ⟨S25000, .i32⟩
  | .local _ .smem, ⟨39, _⟩ => ⟨S25000, .i32⟩
  | .local _ .smem, ⟨40, _⟩ => ⟨S25000, .i32⟩
  | .local _ .smem, ⟨41, _⟩ => ⟨S25000, .i32⟩
  | .local _ .smem, ⟨42, _⟩ => ⟨S25000, .i32⟩
  | .local _ .smem, ⟨43, _⟩ => ⟨S25000, .i32⟩
  | .local _ .smem, ⟨44, _⟩ => ⟨S25000, .i32⟩
  | .local _ .smem, ⟨45, _⟩ => ⟨S25000, .i32⟩
  | .local _ .smem, ⟨46, _⟩ => ⟨S25000, .i32⟩
  | .local _ .smem, ⟨47, _⟩ => ⟨S25000, .i32⟩
  | .local _ .smem, ⟨48, _⟩ => ⟨S25000, .i32⟩
  | .local _ .smem, ⟨49, _⟩ => ⟨S25000, .i32⟩
  | .local _ .smem, ⟨50, _⟩ => ⟨S25000, .i32⟩
  | .local _ .smem, ⟨51, _⟩ => ⟨S25000, .i32⟩
  | .local _ .smem, ⟨52, _⟩ => ⟨S25000, .i32⟩
  | .local _ .smem, ⟨53, _⟩ => ⟨S25000, .i32⟩
  | .local _ .smem, ⟨54, _⟩ => ⟨S25000, .i32⟩
  | .local _ .smem, ⟨55, _⟩ => ⟨S25000, .i32⟩
  | .local _ .smem, ⟨56, _⟩ => ⟨S25000, .i32⟩
  | .local _ .smem, ⟨57, _⟩ => ⟨S25000, .i32⟩
  | .local _ .smem, ⟨58, _⟩ => ⟨S25000, .i32⟩
  | .local _ .smem, ⟨59, _⟩ => ⟨S25000, .i32⟩
  | .local _ .smem, ⟨60, _⟩ => ⟨S25000, .i32⟩
  | .local _ .smem, ⟨61, _⟩ => ⟨S25000, .i32⟩
  | .local _ .smem, ⟨62, _⟩ => ⟨S25000, .i32⟩
  | .local _ .smem, ⟨63, _⟩ => ⟨S25000, .i32⟩
  | .local _ .smem, ⟨64, _⟩ => ⟨S25000, .i32⟩
  | .local _ .smem, ⟨65, _⟩ => ⟨S25000, .i32⟩
  | .local _ .smem, ⟨66, _⟩ => ⟨S25000, .i32⟩
  | .local _ .smem, ⟨67, _⟩ => ⟨S25000, .i32⟩
  | .local _ .smem, ⟨68, _⟩ => ⟨S25000, .i32⟩
  | .local _ .smem, ⟨69, _⟩ => ⟨S25000, .i32⟩
  | .local _ .smem, ⟨70, _⟩ => ⟨S25000, .i32⟩
  | .local _ .smem, ⟨71, _⟩ => ⟨S25000, .i32⟩
  | .local _ .smem, ⟨72, _⟩ => ⟨S25000, .i32⟩
  | .local _ .smem, ⟨73, _⟩ => ⟨S25000, .i32⟩
  | .local _ .smem, ⟨74, _⟩ => ⟨S25000, .i32⟩
  | .local _ .smem, ⟨75, _⟩ => ⟨S25000, .i32⟩
  | .local _ .smem, ⟨76, _⟩ => ⟨S25000, .i32⟩
  | .local _ .smem, ⟨77, _⟩ => ⟨S25000, .i32⟩
  | .local _ .smem, ⟨78, _⟩ => ⟨S25000, .i32⟩
  | .local _ .smem, ⟨79, _⟩ => ⟨S25000, .i32⟩
  | _, _ => ⟨S100000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 200 → Bool
  | ⟨i, _⟩ => dmaSemScopedAt i

abbrev sig : RefSig :=
  ofTc nBuf bufTy 0 200 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v13 : Ref sig .tc := ⟨.hbm, 11, rfl⟩
abbrev main_v18 : Ref sig .tc := ⟨.hbm, 12, rfl⟩
abbrev main_v23 : Ref sig .tc := ⟨.hbm, 13, rfl⟩
abbrev main_v28 : Ref sig .tc := ⟨.hbm, 14, rfl⟩
abbrev main_v33 : Ref sig .tc := ⟨.hbm, 15, rfl⟩
abbrev main_v38 : Ref sig .tc := ⟨.hbm, 16, rfl⟩
abbrev main_v43 : Ref sig .tc := ⟨.hbm, 17, rfl⟩
abbrev main_v48 : Ref sig .tc := ⟨.hbm, 18, rfl⟩
abbrev main_v53 : Ref sig .tc := ⟨.hbm, 19, rfl⟩
abbrev main_v58 : Ref sig .tc := ⟨.hbm, 20, rfl⟩
abbrev main_v63 : Ref sig .tc := ⟨.hbm, 21, rfl⟩
abbrev main_v68 : Ref sig .tc := ⟨.hbm, 22, rfl⟩
abbrev main_v73 : Ref sig .tc := ⟨.hbm, 23, rfl⟩
abbrev main_v78 : Ref sig .tc := ⟨.hbm, 24, rfl⟩
abbrev main_v83 : Ref sig .tc := ⟨.hbm, 25, rfl⟩
abbrev main_v88 : Ref sig .tc := ⟨.hbm, 26, rfl⟩
abbrev main_v93 : Ref sig .tc := ⟨.hbm, 27, rfl⟩
abbrev main_v98 : Ref sig .tc := ⟨.hbm, 28, rfl⟩
abbrev main_v103 : Ref sig .tc := ⟨.hbm, 29, rfl⟩
abbrev main_v108 : Ref sig .tc := ⟨.hbm, 30, rfl⟩
abbrev main_v109 : Ref sig .tc := ⟨.hbm, 31, rfl⟩
abbrev main_v110 : Ref sig .tc := ⟨.hbm, 32, rfl⟩
abbrev main_v111 : Ref sig .tc := ⟨.hbm, 33, rfl⟩
abbrev main_v112 : Ref sig .tc := ⟨.hbm, 34, rfl⟩
abbrev main_v9 : Ref sig .tc := ⟨.smem, 0, rfl⟩
abbrev main_v10 : Ref sig .tc := ⟨.smem, 1, rfl⟩
abbrev main_v11 : Ref sig .tc := ⟨.smem, 2, rfl⟩
abbrev main_v12 : Ref sig .tc := ⟨.smem, 3, rfl⟩
abbrev main_v14 : Ref sig .tc := ⟨.smem, 4, rfl⟩
abbrev main_v15 : Ref sig .tc := ⟨.smem, 5, rfl⟩
abbrev main_v16 : Ref sig .tc := ⟨.smem, 6, rfl⟩
abbrev main_v17 : Ref sig .tc := ⟨.smem, 7, rfl⟩
abbrev main_v19 : Ref sig .tc := ⟨.smem, 8, rfl⟩
abbrev main_v20 : Ref sig .tc := ⟨.smem, 9, rfl⟩
abbrev main_v21 : Ref sig .tc := ⟨.smem, 10, rfl⟩
abbrev main_v22 : Ref sig .tc := ⟨.smem, 11, rfl⟩
abbrev main_v24 : Ref sig .tc := ⟨.smem, 12, rfl⟩
abbrev main_v25 : Ref sig .tc := ⟨.smem, 13, rfl⟩
abbrev main_v26 : Ref sig .tc := ⟨.smem, 14, rfl⟩
abbrev main_v27 : Ref sig .tc := ⟨.smem, 15, rfl⟩
abbrev main_v29 : Ref sig .tc := ⟨.smem, 16, rfl⟩
abbrev main_v30 : Ref sig .tc := ⟨.smem, 17, rfl⟩
abbrev main_v31 : Ref sig .tc := ⟨.smem, 18, rfl⟩
abbrev main_v32 : Ref sig .tc := ⟨.smem, 19, rfl⟩
abbrev main_v34 : Ref sig .tc := ⟨.smem, 20, rfl⟩
abbrev main_v35 : Ref sig .tc := ⟨.smem, 21, rfl⟩
abbrev main_v36 : Ref sig .tc := ⟨.smem, 22, rfl⟩
abbrev main_v37 : Ref sig .tc := ⟨.smem, 23, rfl⟩
abbrev main_v39 : Ref sig .tc := ⟨.smem, 24, rfl⟩
abbrev main_v40 : Ref sig .tc := ⟨.smem, 25, rfl⟩
abbrev main_v41 : Ref sig .tc := ⟨.smem, 26, rfl⟩
abbrev main_v42 : Ref sig .tc := ⟨.smem, 27, rfl⟩
abbrev main_v44 : Ref sig .tc := ⟨.smem, 28, rfl⟩
abbrev main_v45 : Ref sig .tc := ⟨.smem, 29, rfl⟩
abbrev main_v46 : Ref sig .tc := ⟨.smem, 30, rfl⟩
abbrev main_v47 : Ref sig .tc := ⟨.smem, 31, rfl⟩
abbrev main_v49 : Ref sig .tc := ⟨.smem, 32, rfl⟩
abbrev main_v50 : Ref sig .tc := ⟨.smem, 33, rfl⟩
abbrev main_v51 : Ref sig .tc := ⟨.smem, 34, rfl⟩
abbrev main_v52 : Ref sig .tc := ⟨.smem, 35, rfl⟩
abbrev main_v54 : Ref sig .tc := ⟨.smem, 36, rfl⟩
abbrev main_v55 : Ref sig .tc := ⟨.smem, 37, rfl⟩
abbrev main_v56 : Ref sig .tc := ⟨.smem, 38, rfl⟩
abbrev main_v57 : Ref sig .tc := ⟨.smem, 39, rfl⟩
abbrev main_v59 : Ref sig .tc := ⟨.smem, 40, rfl⟩
abbrev main_v60 : Ref sig .tc := ⟨.smem, 41, rfl⟩
abbrev main_v61 : Ref sig .tc := ⟨.smem, 42, rfl⟩
abbrev main_v62 : Ref sig .tc := ⟨.smem, 43, rfl⟩
abbrev main_v64 : Ref sig .tc := ⟨.smem, 44, rfl⟩
abbrev main_v65 : Ref sig .tc := ⟨.smem, 45, rfl⟩
abbrev main_v66 : Ref sig .tc := ⟨.smem, 46, rfl⟩
abbrev main_v67 : Ref sig .tc := ⟨.smem, 47, rfl⟩
abbrev main_v69 : Ref sig .tc := ⟨.smem, 48, rfl⟩
abbrev main_v70 : Ref sig .tc := ⟨.smem, 49, rfl⟩
abbrev main_v71 : Ref sig .tc := ⟨.smem, 50, rfl⟩
abbrev main_v72 : Ref sig .tc := ⟨.smem, 51, rfl⟩
abbrev main_v74 : Ref sig .tc := ⟨.smem, 52, rfl⟩
abbrev main_v75 : Ref sig .tc := ⟨.smem, 53, rfl⟩
abbrev main_v76 : Ref sig .tc := ⟨.smem, 54, rfl⟩
abbrev main_v77 : Ref sig .tc := ⟨.smem, 55, rfl⟩
abbrev main_v79 : Ref sig .tc := ⟨.smem, 56, rfl⟩
abbrev main_v80 : Ref sig .tc := ⟨.smem, 57, rfl⟩
abbrev main_v81 : Ref sig .tc := ⟨.smem, 58, rfl⟩
abbrev main_v82 : Ref sig .tc := ⟨.smem, 59, rfl⟩
abbrev main_v84 : Ref sig .tc := ⟨.smem, 60, rfl⟩
abbrev main_v85 : Ref sig .tc := ⟨.smem, 61, rfl⟩
abbrev main_v86 : Ref sig .tc := ⟨.smem, 62, rfl⟩
abbrev main_v87 : Ref sig .tc := ⟨.smem, 63, rfl⟩
abbrev main_v89 : Ref sig .tc := ⟨.smem, 64, rfl⟩
abbrev main_v90 : Ref sig .tc := ⟨.smem, 65, rfl⟩
abbrev main_v91 : Ref sig .tc := ⟨.smem, 66, rfl⟩
abbrev main_v92 : Ref sig .tc := ⟨.smem, 67, rfl⟩
abbrev main_v94 : Ref sig .tc := ⟨.smem, 68, rfl⟩
abbrev main_v95 : Ref sig .tc := ⟨.smem, 69, rfl⟩
abbrev main_v96 : Ref sig .tc := ⟨.smem, 70, rfl⟩
abbrev main_v97 : Ref sig .tc := ⟨.smem, 71, rfl⟩
abbrev main_v99 : Ref sig .tc := ⟨.smem, 72, rfl⟩
abbrev main_v100 : Ref sig .tc := ⟨.smem, 73, rfl⟩
abbrev main_v101 : Ref sig .tc := ⟨.smem, 74, rfl⟩
abbrev main_v102 : Ref sig .tc := ⟨.smem, 75, rfl⟩
abbrev main_v104 : Ref sig .tc := ⟨.smem, 76, rfl⟩
abbrev main_v105 : Ref sig .tc := ⟨.smem, 77, rfl⟩
abbrev main_v106 : Ref sig .tc := ⟨.smem, 78, rfl⟩
abbrev main_v107 : Ref sig .tc := ⟨.smem, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg4_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg3_1 : Ref sig .tc := ⟨.vmem, 57, rfl⟩
abbrev cc5_stg4_0 : Ref sig .tc := ⟨.vmem, 58, rfl⟩
abbrev cc5_stg4_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc6_stg3_0 : Ref sig .tc := ⟨.vmem, 66, rfl⟩
abbrev cc6_stg3_1 : Ref sig .tc := ⟨.vmem, 67, rfl⟩
abbrev cc6_stg4_0 : Ref sig .tc := ⟨.vmem, 68, rfl⟩
abbrev cc6_stg4_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg2_1 : Ref sig .tc := ⟨.vmem, 75, rfl⟩
abbrev cc7_stg3_0 : Ref sig .tc := ⟨.vmem, 76, rfl⟩
abbrev cc7_stg3_1 : Ref sig .tc := ⟨.vmem, 77, rfl⟩
abbrev cc7_stg4_0 : Ref sig .tc := ⟨.vmem, 78, rfl⟩
abbrev cc7_stg4_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg2_1 : Ref sig .tc := ⟨.vmem, 85, rfl⟩
abbrev cc8_stg3_0 : Ref sig .tc := ⟨.vmem, 86, rfl⟩
abbrev cc8_stg3_1 : Ref sig .tc := ⟨.vmem, 87, rfl⟩
abbrev cc8_stg4_0 : Ref sig .tc := ⟨.vmem, 88, rfl⟩
abbrev cc8_stg4_1 : Ref sig .tc := ⟨.vmem, 89, rfl⟩
abbrev cc9_stg0_0 : Ref sig .tc := ⟨.vmem, 90, rfl⟩
abbrev cc9_stg0_1 : Ref sig .tc := ⟨.vmem, 91, rfl⟩
abbrev cc9_stg1_0 : Ref sig .tc := ⟨.vmem, 92, rfl⟩
abbrev cc9_stg1_1 : Ref sig .tc := ⟨.vmem, 93, rfl⟩
abbrev cc9_stg2_0 : Ref sig .tc := ⟨.vmem, 94, rfl⟩
abbrev cc9_stg2_1 : Ref sig .tc := ⟨.vmem, 95, rfl⟩
abbrev cc9_stg3_0 : Ref sig .tc := ⟨.vmem, 96, rfl⟩
abbrev cc9_stg3_1 : Ref sig .tc := ⟨.vmem, 97, rfl⟩
abbrev cc9_stg4_0 : Ref sig .tc := ⟨.vmem, 98, rfl⟩
abbrev cc9_stg4_1 : Ref sig .tc := ⟨.vmem, 99, rfl⟩
abbrev cc10_stg0_0 : Ref sig .tc := ⟨.vmem, 100, rfl⟩
abbrev cc10_stg0_1 : Ref sig .tc := ⟨.vmem, 101, rfl⟩
abbrev cc10_stg1_0 : Ref sig .tc := ⟨.vmem, 102, rfl⟩
abbrev cc10_stg1_1 : Ref sig .tc := ⟨.vmem, 103, rfl⟩
abbrev cc10_stg2_0 : Ref sig .tc := ⟨.vmem, 104, rfl⟩
abbrev cc10_stg2_1 : Ref sig .tc := ⟨.vmem, 105, rfl⟩
abbrev cc10_stg3_0 : Ref sig .tc := ⟨.vmem, 106, rfl⟩
abbrev cc10_stg3_1 : Ref sig .tc := ⟨.vmem, 107, rfl⟩
abbrev cc10_stg4_0 : Ref sig .tc := ⟨.vmem, 108, rfl⟩
abbrev cc10_stg4_1 : Ref sig .tc := ⟨.vmem, 109, rfl⟩
abbrev cc11_stg0_0 : Ref sig .tc := ⟨.vmem, 110, rfl⟩
abbrev cc11_stg0_1 : Ref sig .tc := ⟨.vmem, 111, rfl⟩
abbrev cc11_stg1_0 : Ref sig .tc := ⟨.vmem, 112, rfl⟩
abbrev cc11_stg1_1 : Ref sig .tc := ⟨.vmem, 113, rfl⟩
abbrev cc11_stg2_0 : Ref sig .tc := ⟨.vmem, 114, rfl⟩
abbrev cc11_stg2_1 : Ref sig .tc := ⟨.vmem, 115, rfl⟩
abbrev cc11_stg3_0 : Ref sig .tc := ⟨.vmem, 116, rfl⟩
abbrev cc11_stg3_1 : Ref sig .tc := ⟨.vmem, 117, rfl⟩
abbrev cc11_stg4_0 : Ref sig .tc := ⟨.vmem, 118, rfl⟩
abbrev cc11_stg4_1 : Ref sig .tc := ⟨.vmem, 119, rfl⟩
abbrev cc12_stg0_0 : Ref sig .tc := ⟨.vmem, 120, rfl⟩
abbrev cc12_stg0_1 : Ref sig .tc := ⟨.vmem, 121, rfl⟩
abbrev cc12_stg1_0 : Ref sig .tc := ⟨.vmem, 122, rfl⟩
abbrev cc12_stg1_1 : Ref sig .tc := ⟨.vmem, 123, rfl⟩
abbrev cc12_stg2_0 : Ref sig .tc := ⟨.vmem, 124, rfl⟩
abbrev cc12_stg2_1 : Ref sig .tc := ⟨.vmem, 125, rfl⟩
abbrev cc12_stg3_0 : Ref sig .tc := ⟨.vmem, 126, rfl⟩
abbrev cc12_stg3_1 : Ref sig .tc := ⟨.vmem, 127, rfl⟩
abbrev cc12_stg4_0 : Ref sig .tc := ⟨.vmem, 128, rfl⟩
abbrev cc12_stg4_1 : Ref sig .tc := ⟨.vmem, 129, rfl⟩
abbrev cc13_stg0_0 : Ref sig .tc := ⟨.vmem, 130, rfl⟩
abbrev cc13_stg0_1 : Ref sig .tc := ⟨.vmem, 131, rfl⟩
abbrev cc13_stg1_0 : Ref sig .tc := ⟨.vmem, 132, rfl⟩
abbrev cc13_stg1_1 : Ref sig .tc := ⟨.vmem, 133, rfl⟩
abbrev cc13_stg2_0 : Ref sig .tc := ⟨.vmem, 134, rfl⟩
abbrev cc13_stg2_1 : Ref sig .tc := ⟨.vmem, 135, rfl⟩
abbrev cc13_stg3_0 : Ref sig .tc := ⟨.vmem, 136, rfl⟩
abbrev cc13_stg3_1 : Ref sig .tc := ⟨.vmem, 137, rfl⟩
abbrev cc13_stg4_0 : Ref sig .tc := ⟨.vmem, 138, rfl⟩
abbrev cc13_stg4_1 : Ref sig .tc := ⟨.vmem, 139, rfl⟩
abbrev cc14_stg0_0 : Ref sig .tc := ⟨.vmem, 140, rfl⟩
abbrev cc14_stg0_1 : Ref sig .tc := ⟨.vmem, 141, rfl⟩
abbrev cc14_stg1_0 : Ref sig .tc := ⟨.vmem, 142, rfl⟩
abbrev cc14_stg1_1 : Ref sig .tc := ⟨.vmem, 143, rfl⟩
abbrev cc14_stg2_0 : Ref sig .tc := ⟨.vmem, 144, rfl⟩
abbrev cc14_stg2_1 : Ref sig .tc := ⟨.vmem, 145, rfl⟩
abbrev cc14_stg3_0 : Ref sig .tc := ⟨.vmem, 146, rfl⟩
abbrev cc14_stg3_1 : Ref sig .tc := ⟨.vmem, 147, rfl⟩
abbrev cc14_stg4_0 : Ref sig .tc := ⟨.vmem, 148, rfl⟩
abbrev cc14_stg4_1 : Ref sig .tc := ⟨.vmem, 149, rfl⟩
abbrev cc15_stg0_0 : Ref sig .tc := ⟨.vmem, 150, rfl⟩
abbrev cc15_stg0_1 : Ref sig .tc := ⟨.vmem, 151, rfl⟩
abbrev cc15_stg1_0 : Ref sig .tc := ⟨.vmem, 152, rfl⟩
abbrev cc15_stg1_1 : Ref sig .tc := ⟨.vmem, 153, rfl⟩
abbrev cc15_stg2_0 : Ref sig .tc := ⟨.vmem, 154, rfl⟩
abbrev cc15_stg2_1 : Ref sig .tc := ⟨.vmem, 155, rfl⟩
abbrev cc15_stg3_0 : Ref sig .tc := ⟨.vmem, 156, rfl⟩
abbrev cc15_stg3_1 : Ref sig .tc := ⟨.vmem, 157, rfl⟩
abbrev cc15_stg4_0 : Ref sig .tc := ⟨.vmem, 158, rfl⟩
abbrev cc15_stg4_1 : Ref sig .tc := ⟨.vmem, 159, rfl⟩
abbrev cc16_stg0_0 : Ref sig .tc := ⟨.vmem, 160, rfl⟩
abbrev cc16_stg0_1 : Ref sig .tc := ⟨.vmem, 161, rfl⟩
abbrev cc16_stg1_0 : Ref sig .tc := ⟨.vmem, 162, rfl⟩
abbrev cc16_stg1_1 : Ref sig .tc := ⟨.vmem, 163, rfl⟩
abbrev cc16_stg2_0 : Ref sig .tc := ⟨.vmem, 164, rfl⟩
abbrev cc16_stg2_1 : Ref sig .tc := ⟨.vmem, 165, rfl⟩
abbrev cc16_stg3_0 : Ref sig .tc := ⟨.vmem, 166, rfl⟩
abbrev cc16_stg3_1 : Ref sig .tc := ⟨.vmem, 167, rfl⟩
abbrev cc16_stg4_0 : Ref sig .tc := ⟨.vmem, 168, rfl⟩
abbrev cc16_stg4_1 : Ref sig .tc := ⟨.vmem, 169, rfl⟩
abbrev cc17_stg0_0 : Ref sig .tc := ⟨.vmem, 170, rfl⟩
abbrev cc17_stg0_1 : Ref sig .tc := ⟨.vmem, 171, rfl⟩
abbrev cc17_stg1_0 : Ref sig .tc := ⟨.vmem, 172, rfl⟩
abbrev cc17_stg1_1 : Ref sig .tc := ⟨.vmem, 173, rfl⟩
abbrev cc17_stg2_0 : Ref sig .tc := ⟨.vmem, 174, rfl⟩
abbrev cc17_stg2_1 : Ref sig .tc := ⟨.vmem, 175, rfl⟩
abbrev cc17_stg3_0 : Ref sig .tc := ⟨.vmem, 176, rfl⟩
abbrev cc17_stg3_1 : Ref sig .tc := ⟨.vmem, 177, rfl⟩
abbrev cc17_stg4_0 : Ref sig .tc := ⟨.vmem, 178, rfl⟩
abbrev cc17_stg4_1 : Ref sig .tc := ⟨.vmem, 179, rfl⟩
abbrev cc18_stg0_0 : Ref sig .tc := ⟨.vmem, 180, rfl⟩
abbrev cc18_stg0_1 : Ref sig .tc := ⟨.vmem, 181, rfl⟩
abbrev cc18_stg1_0 : Ref sig .tc := ⟨.vmem, 182, rfl⟩
abbrev cc18_stg1_1 : Ref sig .tc := ⟨.vmem, 183, rfl⟩
abbrev cc18_stg2_0 : Ref sig .tc := ⟨.vmem, 184, rfl⟩
abbrev cc18_stg2_1 : Ref sig .tc := ⟨.vmem, 185, rfl⟩
abbrev cc18_stg3_0 : Ref sig .tc := ⟨.vmem, 186, rfl⟩
abbrev cc18_stg3_1 : Ref sig .tc := ⟨.vmem, 187, rfl⟩
abbrev cc18_stg4_0 : Ref sig .tc := ⟨.vmem, 188, rfl⟩
abbrev cc18_stg4_1 : Ref sig .tc := ⟨.vmem, 189, rfl⟩
abbrev cc19_stg0_0 : Ref sig .tc := ⟨.vmem, 190, rfl⟩
abbrev cc19_stg0_1 : Ref sig .tc := ⟨.vmem, 191, rfl⟩
abbrev cc19_stg1_0 : Ref sig .tc := ⟨.vmem, 192, rfl⟩
abbrev cc19_stg1_1 : Ref sig .tc := ⟨.vmem, 193, rfl⟩
abbrev cc19_stg2_0 : Ref sig .tc := ⟨.vmem, 194, rfl⟩
abbrev cc19_stg2_1 : Ref sig .tc := ⟨.vmem, 195, rfl⟩
abbrev cc19_stg3_0 : Ref sig .tc := ⟨.vmem, 196, rfl⟩
abbrev cc19_stg3_1 : Ref sig .tc := ⟨.vmem, 197, rfl⟩
abbrev cc19_stg4_0 : Ref sig .tc := ⟨.vmem, 198, rfl⟩
abbrev cc19_stg4_1 : Ref sig .tc := ⟨.vmem, 199, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem3_1 : DmaSem sig := 57
abbrev cc5_sem4_0 : DmaSem sig := 58
abbrev cc5_sem4_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem3_1 : DmaSem sig := 67
abbrev cc6_sem4_0 : DmaSem sig := 68
abbrev cc6_sem4_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem2_1 : DmaSem sig := 75
abbrev cc7_sem3_0 : DmaSem sig := 76
abbrev cc7_sem3_1 : DmaSem sig := 77
abbrev cc7_sem4_0 : DmaSem sig := 78
abbrev cc7_sem4_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem2_1 : DmaSem sig := 85
abbrev cc8_sem3_0 : DmaSem sig := 86
abbrev cc8_sem3_1 : DmaSem sig := 87
abbrev cc8_sem4_0 : DmaSem sig := 88
abbrev cc8_sem4_1 : DmaSem sig := 89
abbrev cc9_sem0_0 : DmaSem sig := 90
abbrev cc9_sem0_1 : DmaSem sig := 91
abbrev cc9_sem1_0 : DmaSem sig := 92
abbrev cc9_sem1_1 : DmaSem sig := 93
abbrev cc9_sem2_0 : DmaSem sig := 94
abbrev cc9_sem2_1 : DmaSem sig := 95
abbrev cc9_sem3_0 : DmaSem sig := 96
abbrev cc9_sem3_1 : DmaSem sig := 97
abbrev cc9_sem4_0 : DmaSem sig := 98
abbrev cc9_sem4_1 : DmaSem sig := 99
abbrev cc10_sem0_0 : DmaSem sig := 100
abbrev cc10_sem0_1 : DmaSem sig := 101
abbrev cc10_sem1_0 : DmaSem sig := 102
abbrev cc10_sem1_1 : DmaSem sig := 103
abbrev cc10_sem2_0 : DmaSem sig := 104
abbrev cc10_sem2_1 : DmaSem sig := 105
abbrev cc10_sem3_0 : DmaSem sig := 106
abbrev cc10_sem3_1 : DmaSem sig := 107
abbrev cc10_sem4_0 : DmaSem sig := 108
abbrev cc10_sem4_1 : DmaSem sig := 109
abbrev cc11_sem0_0 : DmaSem sig := 110
abbrev cc11_sem0_1 : DmaSem sig := 111
abbrev cc11_sem1_0 : DmaSem sig := 112
abbrev cc11_sem1_1 : DmaSem sig := 113
abbrev cc11_sem2_0 : DmaSem sig := 114
abbrev cc11_sem2_1 : DmaSem sig := 115
abbrev cc11_sem3_0 : DmaSem sig := 116
abbrev cc11_sem3_1 : DmaSem sig := 117
abbrev cc11_sem4_0 : DmaSem sig := 118
abbrev cc11_sem4_1 : DmaSem sig := 119
abbrev cc12_sem0_0 : DmaSem sig := 120
abbrev cc12_sem0_1 : DmaSem sig := 121
abbrev cc12_sem1_0 : DmaSem sig := 122
abbrev cc12_sem1_1 : DmaSem sig := 123
abbrev cc12_sem2_0 : DmaSem sig := 124
abbrev cc12_sem2_1 : DmaSem sig := 125
abbrev cc12_sem3_0 : DmaSem sig := 126
abbrev cc12_sem3_1 : DmaSem sig := 127
abbrev cc12_sem4_0 : DmaSem sig := 128
abbrev cc12_sem4_1 : DmaSem sig := 129
abbrev cc13_sem0_0 : DmaSem sig := 130
abbrev cc13_sem0_1 : DmaSem sig := 131
abbrev cc13_sem1_0 : DmaSem sig := 132
abbrev cc13_sem1_1 : DmaSem sig := 133
abbrev cc13_sem2_0 : DmaSem sig := 134
abbrev cc13_sem2_1 : DmaSem sig := 135
abbrev cc13_sem3_0 : DmaSem sig := 136
abbrev cc13_sem3_1 : DmaSem sig := 137
abbrev cc13_sem4_0 : DmaSem sig := 138
abbrev cc13_sem4_1 : DmaSem sig := 139
abbrev cc14_sem0_0 : DmaSem sig := 140
abbrev cc14_sem0_1 : DmaSem sig := 141
abbrev cc14_sem1_0 : DmaSem sig := 142
abbrev cc14_sem1_1 : DmaSem sig := 143
abbrev cc14_sem2_0 : DmaSem sig := 144
abbrev cc14_sem2_1 : DmaSem sig := 145
abbrev cc14_sem3_0 : DmaSem sig := 146
abbrev cc14_sem3_1 : DmaSem sig := 147
abbrev cc14_sem4_0 : DmaSem sig := 148
abbrev cc14_sem4_1 : DmaSem sig := 149
abbrev cc15_sem0_0 : DmaSem sig := 150
abbrev cc15_sem0_1 : DmaSem sig := 151
abbrev cc15_sem1_0 : DmaSem sig := 152
abbrev cc15_sem1_1 : DmaSem sig := 153
abbrev cc15_sem2_0 : DmaSem sig := 154
abbrev cc15_sem2_1 : DmaSem sig := 155
abbrev cc15_sem3_0 : DmaSem sig := 156
abbrev cc15_sem3_1 : DmaSem sig := 157
abbrev cc15_sem4_0 : DmaSem sig := 158
abbrev cc15_sem4_1 : DmaSem sig := 159
abbrev cc16_sem0_0 : DmaSem sig := 160
abbrev cc16_sem0_1 : DmaSem sig := 161
abbrev cc16_sem1_0 : DmaSem sig := 162
abbrev cc16_sem1_1 : DmaSem sig := 163
abbrev cc16_sem2_0 : DmaSem sig := 164
abbrev cc16_sem2_1 : DmaSem sig := 165
abbrev cc16_sem3_0 : DmaSem sig := 166
abbrev cc16_sem3_1 : DmaSem sig := 167
abbrev cc16_sem4_0 : DmaSem sig := 168
abbrev cc16_sem4_1 : DmaSem sig := 169
abbrev cc17_sem0_0 : DmaSem sig := 170
abbrev cc17_sem0_1 : DmaSem sig := 171
abbrev cc17_sem1_0 : DmaSem sig := 172
abbrev cc17_sem1_1 : DmaSem sig := 173
abbrev cc17_sem2_0 : DmaSem sig := 174
abbrev cc17_sem2_1 : DmaSem sig := 175
abbrev cc17_sem3_0 : DmaSem sig := 176
abbrev cc17_sem3_1 : DmaSem sig := 177
abbrev cc17_sem4_0 : DmaSem sig := 178
abbrev cc17_sem4_1 : DmaSem sig := 179
abbrev cc18_sem0_0 : DmaSem sig := 180
abbrev cc18_sem0_1 : DmaSem sig := 181
abbrev cc18_sem1_0 : DmaSem sig := 182
abbrev cc18_sem1_1 : DmaSem sig := 183
abbrev cc18_sem2_0 : DmaSem sig := 184
abbrev cc18_sem2_1 : DmaSem sig := 185
abbrev cc18_sem3_0 : DmaSem sig := 186
abbrev cc18_sem3_1 : DmaSem sig := 187
abbrev cc18_sem4_0 : DmaSem sig := 188
abbrev cc18_sem4_1 : DmaSem sig := 189
abbrev cc19_sem0_0 : DmaSem sig := 190
abbrev cc19_sem0_1 : DmaSem sig := 191
abbrev cc19_sem1_0 : DmaSem sig := 192
abbrev cc19_sem1_1 : DmaSem sig := 193
abbrev cc19_sem2_0 : DmaSem sig := 194
abbrev cc19_sem2_1 : DmaSem sig := 195
abbrev cc19_sem3_0 : DmaSem sig := 196
abbrev cc19_sem3_1 : DmaSem sig := 197
abbrev cc19_sem4_0 : DmaSem sig := 198
abbrev cc19_sem4_1 : DmaSem sig := 199

abbrev nD : Nat := 1
abbrev τ : Topo := Topo.v7x

variable {F : FTy → Type} [FloatOps F]

abbrev grid0 : Pipeline.Grid := ⟨1, ![25000], ![false]⟩

abbrev pre0 : Pipeline.Prefetch sig := ⟨4, ![main_v9.idx, main_v10.idx, main_v11.idx, main_v12.idx], fun | 0 => main_v9.names | 1 => main_v10.names | 2 => main_v11.names | 3 => main_v12.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S25000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S25000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S25000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S25000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25000], ![false]⟩

abbrev pre1 : Pipeline.Prefetch sig := ⟨4, ![main_v14.idx, main_v15.idx, main_v16.idx, main_v17.idx], fun | 0 => main_v14.names | 1 => main_v15.names | 2 => main_v16.names | 3 => main_v17.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S25000.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S25000.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S25000.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S25000.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25000], ![false]⟩

abbrev pre2 : Pipeline.Prefetch sig := ⟨4, ![main_v19.idx, main_v20.idx, main_v21.idx, main_v22.idx], fun | 0 => main_v19.names | 1 => main_v20.names | 2 => main_v21.names | 3 => main_v22.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S25000.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (k2_off1_inb : ∀ i : grid2.Coords, ∀ a, (k2_off1 i) a + S1.size a ≤ S25000.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (k2_off1_inb : ∀ i : grid2.Coords, ∀ a, (k2_off1 i) a + S1.size a ≤ S25000.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_3 (k2_off1_inb : ∀ i : grid2.Coords, ∀ a, (k2_off1 i) a + S1.size a ≤ S25000.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25000], ![false]⟩

abbrev pre3 : Pipeline.Prefetch sig := ⟨4, ![main_v24.idx, main_v25.idx, main_v26.idx, main_v27.idx], fun | 0 => main_v24.names | 1 => main_v25.names | 2 => main_v26.names | 3 => main_v27.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S25000.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (k3_off1_inb : ∀ i : grid3.Coords, ∀ a, (k3_off1 i) a + S1.size a ≤ S25000.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (k3_off1_inb : ∀ i : grid3.Coords, ∀ a, (k3_off1 i) a + S1.size a ≤ S25000.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_3 (k3_off1_inb : ∀ i : grid3.Coords, ∀ a, (k3_off1 i) a + S1.size a ≤ S25000.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25000], ![false]⟩

abbrev pre4 : Pipeline.Prefetch sig := ⟨4, ![main_v29.idx, main_v30.idx, main_v31.idx, main_v32.idx], fun | 0 => main_v29.names | 1 => main_v30.names | 2 => main_v31.names | 3 => main_v32.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (k4_off1_inb : ∀ i : grid4.Coords, ∀ a, (k4_off1 i) a + S1.size a ≤ S25000.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_1 (k4_off1_inb : ∀ i : grid4.Coords, ∀ a, (k4_off1 i) a + S1.size a ≤ S25000.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_2 (k4_off1_inb : ∀ i : grid4.Coords, ∀ a, (k4_off1 i) a + S1.size a ≤ S25000.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_3 (k4_off1_inb : ∀ i : grid4.Coords, ∀ a, (k4_off1 i) a + S1.size a ≤ S25000.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x1x2 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25000], ![false]⟩

abbrev pre5 : Pipeline.Prefetch sig := ⟨4, ![main_v34.idx, main_v35.idx, main_v36.idx, main_v37.idx], fun | 0 => main_v34.names | 1 => main_v35.names | 2 => main_v36.names | 3 => main_v37.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k5_off1 (i : grid5.Coords) : Fin 1 → Nat :=
  let arg0 : BitVec 32 := BitVec.ofNat 32 (i 0).val
  let v0 : Index := Scalar.indexCast arg0
  ![v0.toNat]
def cc5_transform_0 (k5_off1_inb : ∀ i : grid5.Coords, ∀ a, (k5_off1 i) a + S1.size a ≤ S25000.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_1 (k5_off1_inb : ∀ i : grid5.Coords, ∀ a, (k5_off1 i) a + S1.size a ≤ S25000.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_2 (k5_off1_inb : ∀ i : grid5.Coords, ∀ a, (k5_off1 i) a + S1.size a ≤ S25000.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_3 (k5_off1_inb : ∀ i : grid5.Coords, ∀ a, (k5_off1 i) a + S1.size a ≤ S25000.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x1x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x1x2 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25000], ![false]⟩

abbrev pre6 : Pipeline.Prefetch sig := ⟨4, ![main_v39.idx, main_v40.idx, main_v41.idx, main_v42.idx], fun | 0 => main_v39.names | 1 => main_v40.names | 2 => main_v41.names | 3 => main_v42.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k6_off1 (i : grid6.Coords) : Fin 1 → Nat :=
  let arg0 : BitVec 32 := BitVec.ofNat 32 (i 0).val
  let v0 : Index := Scalar.indexCast arg0
  ![v0.toNat]
def cc6_transform_0 (k6_off1_inb : ∀ i : grid6.Coords, ∀ a, (k6_off1 i) a + S1.size a ≤ S25000.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_1 (k6_off1_inb : ∀ i : grid6.Coords, ∀ a, (k6_off1 i) a + S1.size a ≤ S25000.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_2 (k6_off1_inb : ∀ i : grid6.Coords, ∀ a, (k6_off1 i) a + S1.size a ≤ S25000.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_3 (k6_off1_inb : ∀ i : grid6.Coords, ∀ a, (k6_off1 i) a + S1.size a ≤ S25000.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x1x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x1x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1x1x2 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25000], ![false]⟩

abbrev pre7 : Pipeline.Prefetch sig := ⟨4, ![main_v44.idx, main_v45.idx, main_v46.idx, main_v47.idx], fun | 0 => main_v44.names | 1 => main_v45.names | 2 => main_v46.names | 3 => main_v47.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k7_off1 (i : grid7.Coords) : Fin 1 → Nat :=
  let arg0 : BitVec 32 := BitVec.ofNat 32 (i 0).val
  let v0 : Index := Scalar.indexCast arg0
  ![v0.toNat]
def cc7_transform_0 (k7_off1_inb : ∀ i : grid7.Coords, ∀ a, (k7_off1 i) a + S1.size a ≤ S25000.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_1 (k7_off1_inb : ∀ i : grid7.Coords, ∀ a, (k7_off1 i) a + S1.size a ≤ S25000.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_2 (k7_off1_inb : ∀ i : grid7.Coords, ∀ a, (k7_off1 i) a + S1.size a ≤ S25000.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_3 (k7_off1_inb : ∀ i : grid7.Coords, ∀ a, (k7_off1 i) a + S1.size a ≤ S25000.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_4 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x1x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1x1x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1x1x2 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![25000], ![false]⟩

abbrev pre8 : Pipeline.Prefetch sig := ⟨4, ![main_v49.idx, main_v50.idx, main_v51.idx, main_v52.idx], fun | 0 => main_v49.names | 1 => main_v50.names | 2 => main_v51.names | 3 => main_v52.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k8_off1 (i : grid8.Coords) : Fin 1 → Nat :=
  let arg0 : BitVec 32 := BitVec.ofNat 32 (i 0).val
  let v0 : Index := Scalar.indexCast arg0
  ![v0.toNat]
def cc8_transform_0 (k8_off1_inb : ∀ i : grid8.Coords, ∀ a, (k8_off1 i) a + S1.size a ≤ S25000.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_1 (k8_off1_inb : ∀ i : grid8.Coords, ∀ a, (k8_off1 i) a + S1.size a ≤ S25000.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_2 (k8_off1_inb : ∀ i : grid8.Coords, ∀ a, (k8_off1 i) a + S1.size a ≤ S25000.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_3 (k8_off1_inb : ∀ i : grid8.Coords, ∀ a, (k8_off1 i) a + S1.size a ≤ S25000.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_4 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x1x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x1x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1x1x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S1x1x2 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![25000], ![false]⟩

abbrev pre9 : Pipeline.Prefetch sig := ⟨4, ![main_v54.idx, main_v55.idx, main_v56.idx, main_v57.idx], fun | 0 => main_v54.names | 1 => main_v55.names | 2 => main_v56.names | 3 => main_v57.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k9_off1 (i : grid9.Coords) : Fin 1 → Nat :=
  let arg0 : BitVec 32 := BitVec.ofNat 32 (i 0).val
  let v0 : Index := Scalar.indexCast arg0
  ![v0.toNat]
def cc9_transform_0 (k9_off1_inb : ∀ i : grid9.Coords, ∀ a, (k9_off1 i) a + S1.size a ≤ S25000.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_1 (k9_off1_inb : ∀ i : grid9.Coords, ∀ a, (k9_off1 i) a + S1.size a ≤ S25000.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_2 (k9_off1_inb : ∀ i : grid9.Coords, ∀ a, (k9_off1 i) a + S1.size a ≤ S25000.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_3 (k9_off1_inb : ∀ i : grid9.Coords, ∀ a, (k9_off1 i) a + S1.size a ≤ S25000.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_4 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x1x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x1x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1x1x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S1x1x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S1x1x2 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![25000], ![false]⟩

abbrev pre10 : Pipeline.Prefetch sig := ⟨4, ![main_v59.idx, main_v60.idx, main_v61.idx, main_v62.idx], fun | 0 => main_v59.names | 1 => main_v60.names | 2 => main_v61.names | 3 => main_v62.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k10_off1 (i : grid10.Coords) : Fin 1 → Nat :=
  let arg0 : BitVec 32 := BitVec.ofNat 32 (i 0).val
  let v0 : Index := Scalar.indexCast arg0
  ![v0.toNat]
def cc10_transform_0 (k10_off1_inb : ∀ i : grid10.Coords, ∀ a, (k10_off1 i) a + S1.size a ≤ S25000.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_1 (k10_off1_inb : ∀ i : grid10.Coords, ∀ a, (k10_off1 i) a + S1.size a ≤ S25000.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_2 (k10_off1_inb : ∀ i : grid10.Coords, ∀ a, (k10_off1 i) a + S1.size a ≤ S25000.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_3 (k10_off1_inb : ∀ i : grid10.Coords, ∀ a, (k10_off1 i) a + S1.size a ≤ S25000.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_4 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x1x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x1x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S1x1x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S1x1x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S1x1x2 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![25000], ![false]⟩

abbrev pre11 : Pipeline.Prefetch sig := ⟨4, ![main_v64.idx, main_v65.idx, main_v66.idx, main_v67.idx], fun | 0 => main_v64.names | 1 => main_v65.names | 2 => main_v66.names | 3 => main_v67.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k11_off1 (i : grid11.Coords) : Fin 1 → Nat :=
  let arg0 : BitVec 32 := BitVec.ofNat 32 (i 0).val
  let v0 : Index := Scalar.indexCast arg0
  ![v0.toNat]
def cc11_transform_0 (k11_off1_inb : ∀ i : grid11.Coords, ∀ a, (k11_off1 i) a + S1.size a ≤ S25000.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_1 (k11_off1_inb : ∀ i : grid11.Coords, ∀ a, (k11_off1 i) a + S1.size a ≤ S25000.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_2 (k11_off1_inb : ∀ i : grid11.Coords, ∀ a, (k11_off1 i) a + S1.size a ≤ S25000.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_3 (k11_off1_inb : ∀ i : grid11.Coords, ∀ a, (k11_off1 i) a + S1.size a ≤ S25000.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_4 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x1x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1x1x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S1x1x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S1x1x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S1x1x2 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![25000], ![false]⟩

abbrev pre12 : Pipeline.Prefetch sig := ⟨4, ![main_v69.idx, main_v70.idx, main_v71.idx, main_v72.idx], fun | 0 => main_v69.names | 1 => main_v70.names | 2 => main_v71.names | 3 => main_v72.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k12_off1 (i : grid12.Coords) : Fin 1 → Nat :=
  let arg0 : BitVec 32 := BitVec.ofNat 32 (i 0).val
  let v0 : Index := Scalar.indexCast arg0
  ![v0.toNat]
def cc12_transform_0 (k12_off1_inb : ∀ i : grid12.Coords, ∀ a, (k12_off1 i) a + S1.size a ≤ S25000.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_1 (k12_off1_inb : ∀ i : grid12.Coords, ∀ a, (k12_off1 i) a + S1.size a ≤ S25000.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_2 (k12_off1_inb : ∀ i : grid12.Coords, ∀ a, (k12_off1 i) a + S1.size a ≤ S25000.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_3 (k12_off1_inb : ∀ i : grid12.Coords, ∀ a, (k12_off1 i) a + S1.size a ≤ S25000.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_4 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S1x1x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1x1x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S1x1x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S1x1x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S1x1x2 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![25000], ![false]⟩

abbrev pre13 : Pipeline.Prefetch sig := ⟨4, ![main_v74.idx, main_v75.idx, main_v76.idx, main_v77.idx], fun | 0 => main_v74.names | 1 => main_v75.names | 2 => main_v76.names | 3 => main_v77.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k13_off1 (i : grid13.Coords) : Fin 1 → Nat :=
  let arg0 : BitVec 32 := BitVec.ofNat 32 (i 0).val
  let v0 : Index := Scalar.indexCast arg0
  ![v0.toNat]
def cc13_transform_0 (k13_off1_inb : ∀ i : grid13.Coords, ∀ a, (k13_off1 i) a + S1.size a ≤ S25000.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_1 (k13_off1_inb : ∀ i : grid13.Coords, ∀ a, (k13_off1 i) a + S1.size a ≤ S25000.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_2 (k13_off1_inb : ∀ i : grid13.Coords, ∀ a, (k13_off1 i) a + S1.size a ≤ S25000.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_3 (k13_off1_inb : ∀ i : grid13.Coords, ∀ a, (k13_off1 i) a + S1.size a ≤ S25000.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_4 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S1x1x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1x1x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S1x1x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S1x1x64 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 2 → Memref sig .tc .vmem S1x1x2 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![25000], ![false]⟩

abbrev pre14 : Pipeline.Prefetch sig := ⟨4, ![main_v79.idx, main_v80.idx, main_v81.idx, main_v82.idx], fun | 0 => main_v79.names | 1 => main_v80.names | 2 => main_v81.names | 3 => main_v82.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k14_off1 (i : grid14.Coords) : Fin 1 → Nat :=
  let arg0 : BitVec 32 := BitVec.ofNat 32 (i 0).val
  let v0 : Index := Scalar.indexCast arg0
  ![v0.toNat]
def cc14_transform_0 (k14_off1_inb : ∀ i : grid14.Coords, ∀ a, (k14_off1 i) a + S1.size a ≤ S25000.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_1 (k14_off1_inb : ∀ i : grid14.Coords, ∀ a, (k14_off1 i) a + S1.size a ≤ S25000.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_2 (k14_off1_inb : ∀ i : grid14.Coords, ∀ a, (k14_off1 i) a + S1.size a ≤ S25000.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_3 (k14_off1_inb : ∀ i : grid14.Coords, ∀ a, (k14_off1 i) a + S1.size a ≤ S25000.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_4 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S1x1x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S1x1x64 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S1x1x64 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 2 → Memref sig .tc .vmem S1x1x64 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S1x1x2 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev grid15 : Pipeline.Grid := ⟨1, ![25000], ![false]⟩

abbrev pre15 : Pipeline.Prefetch sig := ⟨4, ![main_v84.idx, main_v85.idx, main_v86.idx, main_v87.idx], fun | 0 => main_v84.names | 1 => main_v85.names | 2 => main_v86.names | 3 => main_v87.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k15_off1 (i : grid15.Coords) : Fin 1 → Nat :=
  let arg0 : BitVec 32 := BitVec.ofNat 32 (i 0).val
  let v0 : Index := Scalar.indexCast arg0
  ![v0.toNat]
def cc15_transform_0 (k15_off1_inb : ∀ i : grid15.Coords, ∀ a, (k15_off1 i) a + S1.size a ≤ S25000.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_1 (k15_off1_inb : ∀ i : grid15.Coords, ∀ a, (k15_off1 i) a + S1.size a ≤ S25000.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_2 (k15_off1_inb : ∀ i : grid15.Coords, ∀ a, (k15_off1 i) a + S1.size a ≤ S25000.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_3 (k15_off1_inb : ∀ i : grid15.Coords, ∀ a, (k15_off1 i) a + S1.size a ≤ S25000.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_4 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S1x1x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1x1x64 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S1x1x64 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 2 → Memref sig .tc .vmem S1x1x64 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev stage15_4 : Fin 2 → Memref sig .tc .vmem S1x1x2 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev grid16 : Pipeline.Grid := ⟨1, ![25000], ![false]⟩

abbrev pre16 : Pipeline.Prefetch sig := ⟨4, ![main_v89.idx, main_v90.idx, main_v91.idx, main_v92.idx], fun | 0 => main_v89.names | 1 => main_v90.names | 2 => main_v91.names | 3 => main_v92.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k16_off1 (i : grid16.Coords) : Fin 1 → Nat :=
  let arg0 : BitVec 32 := BitVec.ofNat 32 (i 0).val
  let v0 : Index := Scalar.indexCast arg0
  ![v0.toNat]
def cc16_transform_0 (k16_off1_inb : ∀ i : grid16.Coords, ∀ a, (k16_off1 i) a + S1.size a ≤ S25000.size a) (numel1_S1 : S1.numel = 1) (pf : pre16.Contents (Elt F)) (i : grid16.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k16_off1_inb i)) numel1_S1
  let c0_i32 : BitVec 32 := 0#32
  let c0_i32_0 : BitVec 32 := 0#32
  let c0_i32_1 : BitVec 32 := 0#32
  ![v1.toNat, c0_i32.toNat, c0_i32_0.toNat]

def cc16_transform_1 (k16_off1_inb : ∀ i : grid16.Coords, ∀ a, (k16_off1 i) a + S1.size a ≤ S25000.size a) (numel1_S1 : S1.numel = 1) (pf : pre16.Contents (Elt F)) (i : grid16.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k16_off1_inb i)) numel1_S1
  let c0_i32 : BitVec 32 := 0#32
  let c0_i32_0 : BitVec 32 := 0#32
  let c0_i32_1 : BitVec 32 := 0#32
  ![v1.toNat, c0_i32.toNat, c0_i32_0.toNat]

def cc16_transform_2 (k16_off1_inb : ∀ i : grid16.Coords, ∀ a, (k16_off1 i) a + S1.size a ≤ S25000.size a) (numel1_S1 : S1.numel = 1) (pf : pre16.Contents (Elt F)) (i : grid16.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k16_off1_inb i)) numel1_S1
  let c0_i32 : BitVec 32 := 0#32
  let c0_i32_0 : BitVec 32 := 0#32
  let c0_i32_1 : BitVec 32 := 0#32
  ![v1.toNat, c0_i32.toNat, c0_i32_0.toNat]

def cc16_transform_3 (k16_off1_inb : ∀ i : grid16.Coords, ∀ a, (k16_off1 i) a + S1.size a ≤ S25000.size a) (numel1_S1 : S1.numel = 1) (pf : pre16.Contents (Elt F)) (i : grid16.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k16_off1_inb i)) numel1_S1
  let c0_i32 : BitVec 32 := 0#32
  let c0_i32_0 : BitVec 32 := 0#32
  let c0_i32_1 : BitVec 32 := 0#32
  ![v1.toNat, c0_i32.toNat, c0_i32_0.toNat]

def cc16_transform_4 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage16_0 : Fin 2 → Memref sig .tc .vmem S1x1x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S1x1x64 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S1x1x64 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 2 → Memref sig .tc .vmem S1x1x64 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 2 → Memref sig .tc .vmem S1x1x2 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev grid17 : Pipeline.Grid := ⟨1, ![25000], ![false]⟩

abbrev pre17 : Pipeline.Prefetch sig := ⟨4, ![main_v94.idx, main_v95.idx, main_v96.idx, main_v97.idx], fun | 0 => main_v94.names | 1 => main_v95.names | 2 => main_v96.names | 3 => main_v97.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k17_off1 (i : grid17.Coords) : Fin 1 → Nat :=
  let arg0 : BitVec 32 := BitVec.ofNat 32 (i 0).val
  let v0 : Index := Scalar.indexCast arg0
  ![v0.toNat]
def cc17_transform_0 (k17_off1_inb : ∀ i : grid17.Coords, ∀ a, (k17_off1 i) a + S1.size a ≤ S25000.size a) (numel1_S1 : S1.numel = 1) (pf : pre17.Contents (Elt F)) (i : grid17.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k17_off1_inb i)) numel1_S1
  let c0_i32 : BitVec 32 := 0#32
  let c0_i32_0 : BitVec 32 := 0#32
  let c0_i32_1 : BitVec 32 := 0#32
  ![v1.toNat, c0_i32.toNat, c0_i32_0.toNat]

def cc17_transform_1 (k17_off1_inb : ∀ i : grid17.Coords, ∀ a, (k17_off1 i) a + S1.size a ≤ S25000.size a) (numel1_S1 : S1.numel = 1) (pf : pre17.Contents (Elt F)) (i : grid17.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k17_off1_inb i)) numel1_S1
  let c0_i32 : BitVec 32 := 0#32
  let c0_i32_0 : BitVec 32 := 0#32
  let c0_i32_1 : BitVec 32 := 0#32
  ![v1.toNat, c0_i32.toNat, c0_i32_0.toNat]

def cc17_transform_2 (k17_off1_inb : ∀ i : grid17.Coords, ∀ a, (k17_off1 i) a + S1.size a ≤ S25000.size a) (numel1_S1 : S1.numel = 1) (pf : pre17.Contents (Elt F)) (i : grid17.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k17_off1_inb i)) numel1_S1
  let c0_i32 : BitVec 32 := 0#32
  let c0_i32_0 : BitVec 32 := 0#32
  let c0_i32_1 : BitVec 32 := 0#32
  ![v1.toNat, c0_i32.toNat, c0_i32_0.toNat]

def cc17_transform_3 (k17_off1_inb : ∀ i : grid17.Coords, ∀ a, (k17_off1 i) a + S1.size a ≤ S25000.size a) (numel1_S1 : S1.numel = 1) (pf : pre17.Contents (Elt F)) (i : grid17.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k17_off1_inb i)) numel1_S1
  let c0_i32 : BitVec 32 := 0#32
  let c0_i32_0 : BitVec 32 := 0#32
  let c0_i32_1 : BitVec 32 := 0#32
  ![v1.toNat, c0_i32.toNat, c0_i32_0.toNat]

def cc17_transform_4 (i : grid17.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage17_0 : Fin 2 → Memref sig .tc .vmem S1x1x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S1x1x64 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S1x1x64 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev stage17_3 : Fin 2 → Memref sig .tc .vmem S1x1x64 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev stage17_4 : Fin 2 → Memref sig .tc .vmem S1x1x2 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true]

abbrev grid18 : Pipeline.Grid := ⟨1, ![25000], ![false]⟩

abbrev pre18 : Pipeline.Prefetch sig := ⟨4, ![main_v99.idx, main_v100.idx, main_v101.idx, main_v102.idx], fun | 0 => main_v99.names | 1 => main_v100.names | 2 => main_v101.names | 3 => main_v102.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k18_off1 (i : grid18.Coords) : Fin 1 → Nat :=
  let arg0 : BitVec 32 := BitVec.ofNat 32 (i 0).val
  let v0 : Index := Scalar.indexCast arg0
  ![v0.toNat]
def cc18_transform_0 (k18_off1_inb : ∀ i : grid18.Coords, ∀ a, (k18_off1 i) a + S1.size a ≤ S25000.size a) (numel1_S1 : S1.numel = 1) (pf : pre18.Contents (Elt F)) (i : grid18.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k18_off1_inb i)) numel1_S1
  let c0_i32 : BitVec 32 := 0#32
  let c0_i32_0 : BitVec 32 := 0#32
  let c0_i32_1 : BitVec 32 := 0#32
  ![v1.toNat, c0_i32.toNat, c0_i32_0.toNat]

def cc18_transform_1 (k18_off1_inb : ∀ i : grid18.Coords, ∀ a, (k18_off1 i) a + S1.size a ≤ S25000.size a) (numel1_S1 : S1.numel = 1) (pf : pre18.Contents (Elt F)) (i : grid18.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k18_off1_inb i)) numel1_S1
  let c0_i32 : BitVec 32 := 0#32
  let c0_i32_0 : BitVec 32 := 0#32
  let c0_i32_1 : BitVec 32 := 0#32
  ![v1.toNat, c0_i32.toNat, c0_i32_0.toNat]

def cc18_transform_2 (k18_off1_inb : ∀ i : grid18.Coords, ∀ a, (k18_off1 i) a + S1.size a ≤ S25000.size a) (numel1_S1 : S1.numel = 1) (pf : pre18.Contents (Elt F)) (i : grid18.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k18_off1_inb i)) numel1_S1
  let c0_i32 : BitVec 32 := 0#32
  let c0_i32_0 : BitVec 32 := 0#32
  let c0_i32_1 : BitVec 32 := 0#32
  ![v1.toNat, c0_i32.toNat, c0_i32_0.toNat]

def cc18_transform_3 (k18_off1_inb : ∀ i : grid18.Coords, ∀ a, (k18_off1 i) a + S1.size a ≤ S25000.size a) (numel1_S1 : S1.numel = 1) (pf : pre18.Contents (Elt F)) (i : grid18.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k18_off1_inb i)) numel1_S1
  let c0_i32 : BitVec 32 := 0#32
  let c0_i32_0 : BitVec 32 := 0#32
  let c0_i32_1 : BitVec 32 := 0#32
  ![v1.toNat, c0_i32.toNat, c0_i32_0.toNat]

def cc18_transform_4 (i : grid18.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage18_0 : Fin 2 → Memref sig .tc .vmem S1x1x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S1x1x64 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S1x1x64 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev stage18_3 : Fin 2 → Memref sig .tc .vmem S1x1x64 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev stage18_4 : Fin 2 → Memref sig .tc .vmem S1x1x2 .f32 := fun | 0 => Memref.whole cc18_stg4_0 | 1 => Memref.whole cc18_stg4_1 | ⟨_ + 2, h⟩ => absurd h (Nat.not_lt.2 (Nat.le_add_left _ _))
abbrev sem18_4 : Fin 2 → DmaSem sig := fun | 0 => cc18_sem4_0 | 1 => cc18_sem4_1 | ⟨_ + 2, h⟩ => absurd h (Nat.not_lt.2 (Nat.le_add_left _ _))
abbrev reads18_4 : Fin grid18.rank → Bool := ![true]

abbrev grid19 : Pipeline.Grid := ⟨1, ![25000], ![false]⟩

abbrev pre19 : Pipeline.Prefetch sig := ⟨4, ![main_v104.idx, main_v105.idx, main_v106.idx, main_v107.idx], fun | 0 => main_v104.names | 1 => main_v105.names | 2 => main_v106.names | 3 => main_v107.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k19_off1 (i : grid19.Coords) : Fin 1 → Nat :=
  let arg0 : BitVec 32 := BitVec.ofNat 32 (i 0).val
  let v0 : Index := Scalar.indexCast arg0
  ![v0.toNat]
def cc19_transform_0 (k19_off1_inb : ∀ i : grid19.Coords, ∀ a, (k19_off1 i) a + S1.size a ≤ S25000.size a) (numel1_S1 : S1.numel = 1) (pf : pre19.Contents (Elt F)) (i : grid19.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k19_off1_inb i)) numel1_S1
  let c0_i32 : BitVec 32 := 0#32
  let c0_i32_0 : BitVec 32 := 0#32
  let c0_i32_1 : BitVec 32 := 0#32
  ![v1.toNat, c0_i32.toNat, c0_i32_0.toNat]

def cc19_transform_1 (k19_off1_inb : ∀ i : grid19.Coords, ∀ a, (k19_off1 i) a + S1.size a ≤ S25000.size a) (numel1_S1 : S1.numel = 1) (pf : pre19.Contents (Elt F)) (i : grid19.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k19_off1_inb i)) numel1_S1
  let c0_i32 : BitVec 32 := 0#32
  let c0_i32_0 : BitVec 32 := 0#32
  let c0_i32_1 : BitVec 32 := 0#32
  ![v1.toNat, c0_i32.toNat, c0_i32_0.toNat]

def cc19_transform_2 (k19_off1_inb : ∀ i : grid19.Coords, ∀ a, (k19_off1 i) a + S1.size a ≤ S25000.size a) (numel1_S1 : S1.numel = 1) (pf : pre19.Contents (Elt F)) (i : grid19.Coords) : Fin 3 → Nat :=
  let arg0 : BitVec 32 := BitVec.ofNat 32 (i 0).val
  let v0 : Index := Scalar.indexCast arg0
  let v1 : BitVec 32 := pf.at 2 (Rect.unit (s := S25000) ![v0.toNat] S1.size (k19_off1_inb i)) numel1_S1
  let c0_i32 : BitVec 32 := 0#32
  let c0_i32_0 : BitVec 32 := 0#32
  let c0_i32_1 : BitVec 32 := 0#32
  ![v1.toNat, c0_i32.toNat, c0_i32_0.toNat]

def cc19_transform_3 (k19_off1_inb : ∀ i : grid19.Coords, ∀ a, (k19_off1 i) a + S1.size a ≤ S25000.size a) (numel1_S1 : S1.numel = 1) (pf : pre19.Contents (Elt F)) (i : grid19.Coords) : Fin 3 → Nat :=
  let arg0 : BitVec 32 := BitVec.ofNat 32 (i 0).val
  let v0 : Index := Scalar.indexCast arg0
  let v1 : BitVec 32 := pf.at 3 (Rect.unit (s := S25000) ![v0.toNat] S1.size (k19_off1_inb i)) numel1_S1
  let c0_i32 : BitVec 32 := 0#32
  let c0_i32_0 : BitVec 32 := 0#32
  let c0_i32_1 : BitVec 32 := 0#32
  ![v1.toNat, c0_i32.toNat, c0_i32_0.toNat]

def cc19_transform_4 (i : grid19.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage19_0 : Fin 2 → Memref sig .tc .vmem S1x1x64 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S1x1x64 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S1x1x64 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev stage19_3 : Fin 2 → Memref sig .tc .vmem S1x1x64 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev stage19_4 : Fin 2 → Memref sig .tc .vmem S1x1x2 .f32 := fun | 0 => Memref.whole cc19_stg4_0 | 1 => Memref.whole cc19_stg4_1 | ⟨_ + 2, h⟩ => absurd h (Nat.not_lt.2 (Nat.le_add_left _ _))
abbrev sem19_4 : Fin 2 → DmaSem sig := fun | 0 => cc19_sem4_0 | 1 => cc19_sem4_1 | ⟨_ + 2, h⟩ => absurd h (Nat.not_lt.2 (Nat.le_add_left _ _))
abbrev reads19_4 : Fin grid19.rank → Bool := ![true]

class Facts₀ : Prop where
  slices_S500000x4_S500000x1_0_0 : S500000x4.Slices ![0, 0] S500000x1
  shapeCasts_S500000x1_S500000 : S500000x1.ShapeCasts S500000
  slices_S500000x4_S500000x1_0_1 : S500000x4.Slices ![0, 1] S500000x1
  slices_S500000x4_S500000x1_0_2 : S500000x4.Slices ![0, 2] S500000x1
  slices_S500000x4_S500000x1_0_3 : S500000x4.Slices ![0, 3] S500000x1
  shapeCasts_S100000x64_S100000x1x64 : S100000x64.ShapeCasts S100000x1x64
  slices_S500000_S25000_0 : S500000.Slices ![0] S25000
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  reduces_S1x1x64_S1x1 : S1x1x64.Reduces [2] S1x1
  shapeCasts_S1x1_S1x1x1 : S1x1.ShapeCasts S1x1x1
  inb_S1x1x2_S1x1x1_0_0_0 : ∀ a, (![0, 0, 0] : Fin 3 → Nat) a + S1x1x1.size a ≤ S1x1x2.size a
  h_S1x1x1 : 0 < S1x1x1.numel
  inb_S1x1x2_S1x1x1_0_0_1 : ∀ a, (![0, 0, 1] : Fin 3 → Nat) a + S1x1x1.size a ≤ S1x1x2.size a
  slices_S500000_S25000_25000 : S500000.Slices ![25000] S25000
  slices_S500000_S25000_50000 : S500000.Slices ![50000] S25000
  slices_S500000_S25000_75000 : S500000.Slices ![75000] S25000
  slices_S500000_S25000_100000 : S500000.Slices ![100000] S25000
  slices_S500000_S25000_125000 : S500000.Slices ![125000] S25000
  slices_S500000_S25000_150000 : S500000.Slices ![150000] S25000
  slices_S500000_S25000_175000 : S500000.Slices ![175000] S25000
  slices_S500000_S25000_200000 : S500000.Slices ![200000] S25000
  slices_S500000_S25000_225000 : S500000.Slices ![225000] S25000
  slices_S500000_S25000_250000 : S500000.Slices ![250000] S25000
  slices_S500000_S25000_275000 : S500000.Slices ![275000] S25000
  slices_S500000_S25000_300000 : S500000.Slices ![300000] S25000
  slices_S500000_S25000_325000 : S500000.Slices ![325000] S25000
  slices_S500000_S25000_350000 : S500000.Slices ![350000] S25000
  slices_S500000_S25000_375000 : S500000.Slices ![375000] S25000
  slices_S500000_S25000_400000 : S500000.Slices ![400000] S25000
  slices_S500000_S25000_425000 : S500000.Slices ![425000] S25000
  slices_S500000_S25000_450000 : S500000.Slices ![450000] S25000
  slices_S500000_S25000_475000 : S500000.Slices ![475000] S25000
  concatenates_S25000x1x2_S25000x1x2_S25000x1x2_S25000x1x2_S25000x1x2_S25000x1x2_S25000x1x2_S25000x1x2_S25000x1x2_S25000x1x2_S25000x1x2_S25000x1x2_S25000x1x2_S25000x1x2_S25000x1x2_S25000x1x2_S400000x1x2_d0 : Shape.Concatenates [S25000x1x2, S25000x1x2, S25000x1x2, S25000x1x2, S25000x1x2, S25000x1x2, S25000x1x2, S25000x1x2, S25000x1x2, S25000x1x2, S25000x1x2, S25000x1x2, S25000x1x2, S25000x1x2, S25000x1x2, S25000x1x2] S400000x1x2 0
  concatenates_S25000x1x2_S25000x1x2_S25000x1x2_S25000x1x2_S100000x1x2_d0 : Shape.Concatenates [S25000x1x2, S25000x1x2, S25000x1x2, S25000x1x2] S100000x1x2 0
  concatenates_S400000x1x2_S100000x1x2_S500000x1x2_d0 : Shape.Concatenates [S400000x1x2, S100000x1x2] S500000x1x2 0
  shapeCasts_S500000x1x2_S500000x2 : S500000x1x2.ShapeCasts S500000x2
  hrank0 : 0 < grid0.rank
  k0_off1_inb : ∀ i : grid0.Coords, ∀ a, (k0_off1 i) a + S1.size a ≤ S25000.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2.size a ≤ S25000x1x2.size a
  hwx0_4 : ∀ i : grid0.Coords, EltTy.bits .f32 = 32 ∨ (Rect.block (s := S25000x1x2) S1x1x2.size (cc0_transform_4 i) (hinb0_4 i)).WholeWords (EltTy.packing .f32)
  hrank1 : 0 < grid1.rank
  k1_off1_inb : ∀ i : grid1.Coords, ∀ a, (k1_off1 i) a + S1.size a ≤ S25000.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x2.size a ≤ S25000x1x2.size a
  hwx1_4 : ∀ i : grid1.Coords, EltTy.bits .f32 = 32 ∨ (Rect.block (s := S25000x1x2) S1x1x2.size (cc1_transform_4 i) (hinb1_4 i)).WholeWords (EltTy.packing .f32)
  hrank2 : 0 < grid2.rank
  k2_off1_inb : ∀ i : grid2.Coords, ∀ a, (k2_off1 i) a + S1.size a ≤ S25000.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off1_inb numel1_S1 pf i = cc2_transform_1 k2_off1_inb numel1_S1 pf i'
  hstage2_2 : ∀ j, (stage2_2 j).IsWhole
  nbuf2_2 : grid2.bufCount reads2_2 false = 2
  hreads2_2 : ∀ {F : FTy → Type} [FloatOps F] (pf : pre2.Contents (Elt F)) (i i' : grid2.Coords), (∀ a, reads2_2 a = true → i a = i' a) → cc2_transform_2 k2_off1_inb numel1_S1 pf i = cc2_transform_2 k2_off1_inb numel1_S1 pf i'
  hstage2_3 : ∀ j, (stage2_3 j).IsWhole
  nbuf2_3 : grid2.bufCount reads2_3 false = 2
  hreads2_3 : ∀ {F : FTy → Type} [FloatOps F] (pf : pre2.Contents (Elt F)) (i i' : grid2.Coords), (∀ a, reads2_3 a = true → i a = i' a) → cc2_transform_3 k2_off1_inb numel1_S1 pf i = cc2_transform_3 k2_off1_inb numel1_S1 pf i'
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x2.size a ≤ S25000x1x2.size a
  hwx2_4 : ∀ i : grid2.Coords, EltTy.bits .f32 = 32 ∨ (Rect.block (s := S25000x1x2) S1x1x2.size (cc2_transform_4 i) (hinb2_4 i)).WholeWords (EltTy.packing .f32)
  hrank3 : 0 < grid3.rank
  k3_off1_inb : ∀ i : grid3.Coords, ∀ a, (k3_off1 i) a + S1.size a ≤ S25000.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off1_inb numel1_S1 pf i = cc3_transform_1 k3_off1_inb numel1_S1 pf i'
  hstage3_2 : ∀ j, (stage3_2 j).IsWhole
  nbuf3_2 : grid3.bufCount reads3_2 false = 2
  hreads3_2 : ∀ {F : FTy → Type} [FloatOps F] (pf : pre3.Contents (Elt F)) (i i' : grid3.Coords), (∀ a, reads3_2 a = true → i a = i' a) → cc3_transform_2 k3_off1_inb numel1_S1 pf i = cc3_transform_2 k3_off1_inb numel1_S1 pf i'
  hstage3_3 : ∀ j, (stage3_3 j).IsWhole
  nbuf3_3 : grid3.bufCount reads3_3 false = 2
  hreads3_3 : ∀ {F : FTy → Type} [FloatOps F] (pf : pre3.Contents (Elt F)) (i i' : grid3.Coords), (∀ a, reads3_3 a = true → i a = i' a) → cc3_transform_3 k3_off1_inb numel1_S1 pf i = cc3_transform_3 k3_off1_inb numel1_S1 pf i'
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x2.size a ≤ S25000x1x2.size a
  hwx3_4 : ∀ i : grid3.Coords, EltTy.bits .f32 = 32 ∨ (Rect.block (s := S25000x1x2) S1x1x2.size (cc3_transform_4 i) (hinb3_4 i)).WholeWords (EltTy.packing .f32)
  hrank4 : 0 < grid4.rank
  k4_off1_inb : ∀ i : grid4.Coords, ∀ a, (k4_off1 i) a + S1.size a ≤ S25000.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ {F : FTy → Type} [FloatOps F] (pf : pre4.Contents (Elt F)) (i i' : grid4.Coords), (∀ a, reads4_1 a = true → i a = i' a) → cc4_transform_1 k4_off1_inb numel1_S1 pf i = cc4_transform_1 k4_off1_inb numel1_S1 pf i'
  hstage4_2 : ∀ j, (stage4_2 j).IsWhole
  nbuf4_2 : grid4.bufCount reads4_2 false = 2
  hreads4_2 : ∀ {F : FTy → Type} [FloatOps F] (pf : pre4.Contents (Elt F)) (i i' : grid4.Coords), (∀ a, reads4_2 a = true → i a = i' a) → cc4_transform_2 k4_off1_inb numel1_S1 pf i = cc4_transform_2 k4_off1_inb numel1_S1 pf i'
  hstage4_3 : ∀ j, (stage4_3 j).IsWhole
  nbuf4_3 : grid4.bufCount reads4_3 false = 2
  hreads4_3 : ∀ {F : FTy → Type} [FloatOps F] (pf : pre4.Contents (Elt F)) (i i' : grid4.Coords), (∀ a, reads4_3 a = true → i a = i' a) → cc4_transform_3 k4_off1_inb numel1_S1 pf i = cc4_transform_3 k4_off1_inb numel1_S1 pf i'
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1x2.size a ≤ S25000x1x2.size a
  hwx4_4 : ∀ i : grid4.Coords, EltTy.bits .f32 = 32 ∨ (Rect.block (s := S25000x1x2) S1x1x2.size (cc4_transform_4 i) (hinb4_4 i)).WholeWords (EltTy.packing .f32)
  hrank5 : 0 < grid5.rank
  k5_off1_inb : ∀ i : grid5.Coords, ∀ a, (k5_off1 i) a + S1.size a ≤ S25000.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ {F : FTy → Type} [FloatOps F] (pf : pre5.Contents (Elt F)) (i i' : grid5.Coords), (∀ a, reads5_1 a = true → i a = i' a) → cc5_transform_1 k5_off1_inb numel1_S1 pf i = cc5_transform_1 k5_off1_inb numel1_S1 pf i'
  hstage5_2 : ∀ j, (stage5_2 j).IsWhole
  nbuf5_2 : grid5.bufCount reads5_2 false = 2
  hreads5_2 : ∀ {F : FTy → Type} [FloatOps F] (pf : pre5.Contents (Elt F)) (i i' : grid5.Coords), (∀ a, reads5_2 a = true → i a = i' a) → cc5_transform_2 k5_off1_inb numel1_S1 pf i = cc5_transform_2 k5_off1_inb numel1_S1 pf i'
  hstage5_3 : ∀ j, (stage5_3 j).IsWhole
  nbuf5_3 : grid5.bufCount reads5_3 false = 2
  hreads5_3 : ∀ {F : FTy → Type} [FloatOps F] (pf : pre5.Contents (Elt F)) (i i' : grid5.Coords), (∀ a, reads5_3 a = true → i a = i' a) → cc5_transform_3 k5_off1_inb numel1_S1 pf i = cc5_transform_3 k5_off1_inb numel1_S1 pf i'
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x1x2.size a ≤ S25000x1x2.size a
  hwx5_4 : ∀ i : grid5.Coords, EltTy.bits .f32 = 32 ∨ (Rect.block (s := S25000x1x2) S1x1x2.size (cc5_transform_4 i) (hinb5_4 i)).WholeWords (EltTy.packing .f32)
  hrank6 : 0 < grid6.rank
  k6_off1_inb : ∀ i : grid6.Coords, ∀ a, (k6_off1 i) a + S1.size a ≤ S25000.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ {F : FTy → Type} [FloatOps F] (pf : pre6.Contents (Elt F)) (i i' : grid6.Coords), (∀ a, reads6_1 a = true → i a = i' a) → cc6_transform_1 k6_off1_inb numel1_S1 pf i = cc6_transform_1 k6_off1_inb numel1_S1 pf i'
  hstage6_2 : ∀ j, (stage6_2 j).IsWhole
  nbuf6_2 : grid6.bufCount reads6_2 false = 2
  hreads6_2 : ∀ {F : FTy → Type} [FloatOps F] (pf : pre6.Contents (Elt F)) (i i' : grid6.Coords), (∀ a, reads6_2 a = true → i a = i' a) → cc6_transform_2 k6_off1_inb numel1_S1 pf i = cc6_transform_2 k6_off1_inb numel1_S1 pf i'
  hstage6_3 : ∀ j, (stage6_3 j).IsWhole
  nbuf6_3 : grid6.bufCount reads6_3 false = 2
  hreads6_3 : ∀ {F : FTy → Type} [FloatOps F] (pf : pre6.Contents (Elt F)) (i i' : grid6.Coords), (∀ a, reads6_3 a = true → i a = i' a) → cc6_transform_3 k6_off1_inb numel1_S1 pf i = cc6_transform_3 k6_off1_inb numel1_S1 pf i'
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x1x2.size a ≤ S25000x1x2.size a
  hwx6_4 : ∀ i : grid6.Coords, EltTy.bits .f32 = 32 ∨ (Rect.block (s := S25000x1x2) S1x1x2.size (cc6_transform_4 i) (hinb6_4 i)).WholeWords (EltTy.packing .f32)
  hrank7 : 0 < grid7.rank
  k7_off1_inb : ∀ i : grid7.Coords, ∀ a, (k7_off1 i) a + S1.size a ≤ S25000.size a
  hstage7_0 : ∀ j, (stage7_0 j).IsWhole
  nbuf7_0 : grid7.bufCount reads7_0 false = 2
  hreads7_0 : ∀ {F : FTy → Type} [FloatOps F] (pf : pre7.Contents (Elt F)) (i i' : grid7.Coords), (∀ a, reads7_0 a = true → i a = i' a) → cc7_transform_0 k7_off1_inb numel1_S1 pf i = cc7_transform_0 k7_off1_inb numel1_S1 pf i'
  hstage7_1 : ∀ j, (stage7_1 j).IsWhole
  nbuf7_1 : grid7.bufCount reads7_1 false = 2
  hreads7_1 : ∀ {F : FTy → Type} [FloatOps F] (pf : pre7.Contents (Elt F)) (i i' : grid7.Coords), (∀ a, reads7_1 a = true → i a = i' a) → cc7_transform_1 k7_off1_inb numel1_S1 pf i = cc7_transform_1 k7_off1_inb numel1_S1 pf i'
  hstage7_2 : ∀ j, (stage7_2 j).IsWhole
  nbuf7_2 : grid7.bufCount reads7_2 false = 2
  hreads7_2 : ∀ {F : FTy → Type} [FloatOps F] (pf : pre7.Contents (Elt F)) (i i' : grid7.Coords), (∀ a, reads7_2 a = true → i a = i' a) → cc7_transform_2 k7_off1_inb numel1_S1 pf i = cc7_transform_2 k7_off1_inb numel1_S1 pf i'
  hstage7_3 : ∀ j, (stage7_3 j).IsWhole
  nbuf7_3 : grid7.bufCount reads7_3 false = 2
  hreads7_3 : ∀ {F : FTy → Type} [FloatOps F] (pf : pre7.Contents (Elt F)) (i i' : grid7.Coords), (∀ a, reads7_3 a = true → i a = i' a) → cc7_transform_3 k7_off1_inb numel1_S1 pf i = cc7_transform_3 k7_off1_inb numel1_S1 pf i'
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x1x2.size a ≤ S25000x1x2.size a
  hwx7_4 : ∀ i : grid7.Coords, EltTy.bits .f32 = 32 ∨ (Rect.block (s := S25000x1x2) S1x1x2.size (cc7_transform_4 i) (hinb7_4 i)).WholeWords (EltTy.packing .f32)
  hrank8 : 0 < grid8.rank
  k8_off1_inb : ∀ i : grid8.Coords, ∀ a, (k8_off1 i) a + S1.size a ≤ S25000.size a
  hstage8_0 : ∀ j, (stage8_0 j).IsWhole
  nbuf8_0 : grid8.bufCount reads8_0 false = 2
  hreads8_0 : ∀ {F : FTy → Type} [FloatOps F] (pf : pre8.Contents (Elt F)) (i i' : grid8.Coords), (∀ a, reads8_0 a = true → i a = i' a) → cc8_transform_0 k8_off1_inb numel1_S1 pf i = cc8_transform_0 k8_off1_inb numel1_S1 pf i'
  hstage8_1 : ∀ j, (stage8_1 j).IsWhole
  nbuf8_1 : grid8.bufCount reads8_1 false = 2
  hreads8_1 : ∀ {F : FTy → Type} [FloatOps F] (pf : pre8.Contents (Elt F)) (i i' : grid8.Coords), (∀ a, reads8_1 a = true → i a = i' a) → cc8_transform_1 k8_off1_inb numel1_S1 pf i = cc8_transform_1 k8_off1_inb numel1_S1 pf i'
  hstage8_2 : ∀ j, (stage8_2 j).IsWhole
  nbuf8_2 : grid8.bufCount reads8_2 false = 2
  hreads8_2 : ∀ {F : FTy → Type} [FloatOps F] (pf : pre8.Contents (Elt F)) (i i' : grid8.Coords), (∀ a, reads8_2 a = true → i a = i' a) → cc8_transform_2 k8_off1_inb numel1_S1 pf i = cc8_transform_2 k8_off1_inb numel1_S1 pf i'
  hstage8_3 : ∀ j, (stage8_3 j).IsWhole
  nbuf8_3 : grid8.bufCount reads8_3 false = 2
  hreads8_3 : ∀ {F : FTy → Type} [FloatOps F] (pf : pre8.Contents (Elt F)) (i i' : grid8.Coords), (∀ a, reads8_3 a = true → i a = i' a) → cc8_transform_3 k8_off1_inb numel1_S1 pf i = cc8_transform_3 k8_off1_inb numel1_S1 pf i'
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1x1x2.size a ≤ S25000x1x2.size a
  hwx8_4 : ∀ i : grid8.Coords, EltTy.bits .f32 = 32 ∨ (Rect.block (s := S25000x1x2) S1x1x2.size (cc8_transform_4 i) (hinb8_4 i)).WholeWords (EltTy.packing .f32)
  hrank9 : 0 < grid9.rank
  k9_off1_inb : ∀ i : grid9.Coords, ∀ a, (k9_off1 i) a + S1.size a ≤ S25000.size a
  hstage9_0 : ∀ j, (stage9_0 j).IsWhole
  nbuf9_0 : grid9.bufCount reads9_0 false = 2
  hreads9_0 : ∀ {F : FTy → Type} [FloatOps F] (pf : pre9.Contents (Elt F)) (i i' : grid9.Coords), (∀ a, reads9_0 a = true → i a = i' a) → cc9_transform_0 k9_off1_inb numel1_S1 pf i = cc9_transform_0 k9_off1_inb numel1_S1 pf i'
  hstage9_1 : ∀ j, (stage9_1 j).IsWhole
  nbuf9_1 : grid9.bufCount reads9_1 false = 2
  hreads9_1 : ∀ {F : FTy → Type} [FloatOps F] (pf : pre9.Contents (Elt F)) (i i' : grid9.Coords), (∀ a, reads9_1 a = true → i a = i' a) → cc9_transform_1 k9_off1_inb numel1_S1 pf i = cc9_transform_1 k9_off1_inb numel1_S1 pf i'
  hstage9_2 : ∀ j, (stage9_2 j).IsWhole
  nbuf9_2 : grid9.bufCount reads9_2 false = 2
  hreads9_2 : ∀ {F : FTy → Type} [FloatOps F] (pf : pre9.Contents (Elt F)) (i i' : grid9.Coords), (∀ a, reads9_2 a = true → i a = i' a) → cc9_transform_2 k9_off1_inb numel1_S1 pf i = cc9_transform_2 k9_off1_inb numel1_S1 pf i'
  hstage9_3 : ∀ j, (stage9_3 j).IsWhole
  nbuf9_3 : grid9.bufCount reads9_3 false = 2
  hreads9_3 : ∀ {F : FTy → Type} [FloatOps F] (pf : pre9.Contents (Elt F)) (i i' : grid9.Coords), (∀ a, reads9_3 a = true → i a = i' a) → cc9_transform_3 k9_off1_inb numel1_S1 pf i = cc9_transform_3 k9_off1_inb numel1_S1 pf i'
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S1x1x2.size a ≤ S25000x1x2.size a
  hwx9_4 : ∀ i : grid9.Coords, EltTy.bits .f32 = 32 ∨ (Rect.block (s := S25000x1x2) S1x1x2.size (cc9_transform_4 i) (hinb9_4 i)).WholeWords (EltTy.packing .f32)
  hrank10 : 0 < grid10.rank
  k10_off1_inb : ∀ i : grid10.Coords, ∀ a, (k10_off1 i) a + S1.size a ≤ S25000.size a
  hstage10_0 : ∀ j, (stage10_0 j).IsWhole
  nbuf10_0 : grid10.bufCount reads10_0 false = 2
  hreads10_0 : ∀ {F : FTy → Type} [FloatOps F] (pf : pre10.Contents (Elt F)) (i i' : grid10.Coords), (∀ a, reads10_0 a = true → i a = i' a) → cc10_transform_0 k10_off1_inb numel1_S1 pf i = cc10_transform_0 k10_off1_inb numel1_S1 pf i'
  hstage10_1 : ∀ j, (stage10_1 j).IsWhole
  nbuf10_1 : grid10.bufCount reads10_1 false = 2
  hreads10_1 : ∀ {F : FTy → Type} [FloatOps F] (pf : pre10.Contents (Elt F)) (i i' : grid10.Coords), (∀ a, reads10_1 a = true → i a = i' a) → cc10_transform_1 k10_off1_inb numel1_S1 pf i = cc10_transform_1 k10_off1_inb numel1_S1 pf i'
  hstage10_2 : ∀ j, (stage10_2 j).IsWhole
  nbuf10_2 : grid10.bufCount reads10_2 false = 2
  hreads10_2 : ∀ {F : FTy → Type} [FloatOps F] (pf : pre10.Contents (Elt F)) (i i' : grid10.Coords), (∀ a, reads10_2 a = true → i a = i' a) → cc10_transform_2 k10_off1_inb numel1_S1 pf i = cc10_transform_2 k10_off1_inb numel1_S1 pf i'
  hstage10_3 : ∀ j, (stage10_3 j).IsWhole
  nbuf10_3 : grid10.bufCount reads10_3 false = 2
  hreads10_3 : ∀ {F : FTy → Type} [FloatOps F] (pf : pre10.Contents (Elt F)) (i i' : grid10.Coords), (∀ a, reads10_3 a = true → i a = i' a) → cc10_transform_3 k10_off1_inb numel1_S1 pf i = cc10_transform_3 k10_off1_inb numel1_S1 pf i'
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1x1x2.size a ≤ S25000x1x2.size a
  hwx10_4 : ∀ i : grid10.Coords, EltTy.bits .f32 = 32 ∨ (Rect.block (s := S25000x1x2) S1x1x2.size (cc10_transform_4 i) (hinb10_4 i)).WholeWords (EltTy.packing .f32)
  hrank11 : 0 < grid11.rank
  k11_off1_inb : ∀ i : grid11.Coords, ∀ a, (k11_off1 i) a + S1.size a ≤ S25000.size a
  hstage11_0 : ∀ j, (stage11_0 j).IsWhole
  nbuf11_0 : grid11.bufCount reads11_0 false = 2
  hreads11_0 : ∀ {F : FTy → Type} [FloatOps F] (pf : pre11.Contents (Elt F)) (i i' : grid11.Coords), (∀ a, reads11_0 a = true → i a = i' a) → cc11_transform_0 k11_off1_inb numel1_S1 pf i = cc11_transform_0 k11_off1_inb numel1_S1 pf i'
  hstage11_1 : ∀ j, (stage11_1 j).IsWhole
  nbuf11_1 : grid11.bufCount reads11_1 false = 2
  hreads11_1 : ∀ {F : FTy → Type} [FloatOps F] (pf : pre11.Contents (Elt F)) (i i' : grid11.Coords), (∀ a, reads11_1 a = true → i a = i' a) → cc11_transform_1 k11_off1_inb numel1_S1 pf i = cc11_transform_1 k11_off1_inb numel1_S1 pf i'
  hstage11_2 : ∀ j, (stage11_2 j).IsWhole
  nbuf11_2 : grid11.bufCount reads11_2 false = 2
  hreads11_2 : ∀ {F : FTy → Type} [FloatOps F] (pf : pre11.Contents (Elt F)) (i i' : grid11.Coords), (∀ a, reads11_2 a = true → i a = i' a) → cc11_transform_2 k11_off1_inb numel1_S1 pf i = cc11_transform_2 k11_off1_inb numel1_S1 pf i'
  hstage11_3 : ∀ j, (stage11_3 j).IsWhole
  nbuf11_3 : grid11.bufCount reads11_3 false = 2
  hreads11_3 : ∀ {F : FTy → Type} [FloatOps F] (pf : pre11.Contents (Elt F)) (i i' : grid11.Coords), (∀ a, reads11_3 a = true → i a = i' a) → cc11_transform_3 k11_off1_inb numel1_S1 pf i = cc11_transform_3 k11_off1_inb numel1_S1 pf i'
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S1x1x2.size a ≤ S25000x1x2.size a
  hwx11_4 : ∀ i : grid11.Coords, EltTy.bits .f32 = 32 ∨ (Rect.block (s := S25000x1x2) S1x1x2.size (cc11_transform_4 i) (hinb11_4 i)).WholeWords (EltTy.packing .f32)
  hrank12 : 0 < grid12.rank
  k12_off1_inb : ∀ i : grid12.Coords, ∀ a, (k12_off1 i) a + S1.size a ≤ S25000.size a
  hstage12_0 : ∀ j, (stage12_0 j).IsWhole
  nbuf12_0 : grid12.bufCount reads12_0 false = 2
  hreads12_0 : ∀ {F : FTy → Type} [FloatOps F] (pf : pre12.Contents (Elt F)) (i i' : grid12.Coords), (∀ a, reads12_0 a = true → i a = i' a) → cc12_transform_0 k12_off1_inb numel1_S1 pf i = cc12_transform_0 k12_off1_inb numel1_S1 pf i'
  hstage12_1 : ∀ j, (stage12_1 j).IsWhole
  nbuf12_1 : grid12.bufCount reads12_1 false = 2
  hreads12_1 : ∀ {F : FTy → Type} [FloatOps F] (pf : pre12.Contents (Elt F)) (i i' : grid12.Coords), (∀ a, reads12_1 a = true → i a = i' a) → cc12_transform_1 k12_off1_inb numel1_S1 pf i = cc12_transform_1 k12_off1_inb numel1_S1 pf i'
  hstage12_2 : ∀ j, (stage12_2 j).IsWhole
  nbuf12_2 : grid12.bufCount reads12_2 false = 2
  hreads12_2 : ∀ {F : FTy → Type} [FloatOps F] (pf : pre12.Contents (Elt F)) (i i' : grid12.Coords), (∀ a, reads12_2 a = true → i a = i' a) → cc12_transform_2 k12_off1_inb numel1_S1 pf i = cc12_transform_2 k12_off1_inb numel1_S1 pf i'
  hstage12_3 : ∀ j, (stage12_3 j).IsWhole
  nbuf12_3 : grid12.bufCount reads12_3 false = 2
  hreads12_3 : ∀ {F : FTy → Type} [FloatOps F] (pf : pre12.Contents (Elt F)) (i i' : grid12.Coords), (∀ a, reads12_3 a = true → i a = i' a) → cc12_transform_3 k12_off1_inb numel1_S1 pf i = cc12_transform_3 k12_off1_inb numel1_S1 pf i'
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S1x1x2.size a ≤ S25000x1x2.size a
  hwx12_4 : ∀ i : grid12.Coords, EltTy.bits .f32 = 32 ∨ (Rect.block (s := S25000x1x2) S1x1x2.size (cc12_transform_4 i) (hinb12_4 i)).WholeWords (EltTy.packing .f32)
  hrank13 : 0 < grid13.rank
  k13_off1_inb : ∀ i : grid13.Coords, ∀ a, (k13_off1 i) a + S1.size a ≤ S25000.size a
  hstage13_0 : ∀ j, (stage13_0 j).IsWhole
  nbuf13_0 : grid13.bufCount reads13_0 false = 2
  hreads13_0 : ∀ {F : FTy → Type} [FloatOps F] (pf : pre13.Contents (Elt F)) (i i' : grid13.Coords), (∀ a, reads13_0 a = true → i a = i' a) → cc13_transform_0 k13_off1_inb numel1_S1 pf i = cc13_transform_0 k13_off1_inb numel1_S1 pf i'
  hstage13_1 : ∀ j, (stage13_1 j).IsWhole
  nbuf13_1 : grid13.bufCount reads13_1 false = 2
  hreads13_1 : ∀ {F : FTy → Type} [FloatOps F] (pf : pre13.Contents (Elt F)) (i i' : grid13.Coords), (∀ a, reads13_1 a = true → i a = i' a) → cc13_transform_1 k13_off1_inb numel1_S1 pf i = cc13_transform_1 k13_off1_inb numel1_S1 pf i'
  hstage13_2 : ∀ j, (stage13_2 j).IsWhole
  nbuf13_2 : grid13.bufCount reads13_2 false = 2
  hreads13_2 : ∀ {F : FTy → Type} [FloatOps F] (pf : pre13.Contents (Elt F)) (i i' : grid13.Coords), (∀ a, reads13_2 a = true → i a = i' a) → cc13_transform_2 k13_off1_inb numel1_S1 pf i = cc13_transform_2 k13_off1_inb numel1_S1 pf i'
  hstage13_3 : ∀ j, (stage13_3 j).IsWhole
  nbuf13_3 : grid13.bufCount reads13_3 false = 2
  hreads13_3 : ∀ {F : FTy → Type} [FloatOps F] (pf : pre13.Contents (Elt F)) (i i' : grid13.Coords), (∀ a, reads13_3 a = true → i a = i' a) → cc13_transform_3 k13_off1_inb numel1_S1 pf i = cc13_transform_3 k13_off1_inb numel1_S1 pf i'
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S1x1x2.size a ≤ S25000x1x2.size a
  hwx13_4 : ∀ i : grid13.Coords, EltTy.bits .f32 = 32 ∨ (Rect.block (s := S25000x1x2) S1x1x2.size (cc13_transform_4 i) (hinb13_4 i)).WholeWords (EltTy.packing .f32)
  hrank14 : 0 < grid14.rank
  k14_off1_inb : ∀ i : grid14.Coords, ∀ a, (k14_off1 i) a + S1.size a ≤ S25000.size a
  hstage14_0 : ∀ j, (stage14_0 j).IsWhole
  nbuf14_0 : grid14.bufCount reads14_0 false = 2
  hreads14_0 : ∀ {F : FTy → Type} [FloatOps F] (pf : pre14.Contents (Elt F)) (i i' : grid14.Coords), (∀ a, reads14_0 a = true → i a = i' a) → cc14_transform_0 k14_off1_inb numel1_S1 pf i = cc14_transform_0 k14_off1_inb numel1_S1 pf i'
  hstage14_1 : ∀ j, (stage14_1 j).IsWhole
  nbuf14_1 : grid14.bufCount reads14_1 false = 2
  hreads14_1 : ∀ {F : FTy → Type} [FloatOps F] (pf : pre14.Contents (Elt F)) (i i' : grid14.Coords), (∀ a, reads14_1 a = true → i a = i' a) → cc14_transform_1 k14_off1_inb numel1_S1 pf i = cc14_transform_1 k14_off1_inb numel1_S1 pf i'
  hstage14_2 : ∀ j, (stage14_2 j).IsWhole
  nbuf14_2 : grid14.bufCount reads14_2 false = 2
  hreads14_2 : ∀ {F : FTy → Type} [FloatOps F] (pf : pre14.Contents (Elt F)) (i i' : grid14.Coords), (∀ a, reads14_2 a = true → i a = i' a) → cc14_transform_2 k14_off1_inb numel1_S1 pf i = cc14_transform_2 k14_off1_inb numel1_S1 pf i'
  hstage14_3 : ∀ j, (stage14_3 j).IsWhole
  nbuf14_3 : grid14.bufCount reads14_3 false = 2
  hreads14_3 : ∀ {F : FTy → Type} [FloatOps F] (pf : pre14.Contents (Elt F)) (i i' : grid14.Coords), (∀ a, reads14_3 a = true → i a = i' a) → cc14_transform_3 k14_off1_inb numel1_S1 pf i = cc14_transform_3 k14_off1_inb numel1_S1 pf i'
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S1x1x2.size a ≤ S25000x1x2.size a
  hwx14_4 : ∀ i : grid14.Coords, EltTy.bits .f32 = 32 ∨ (Rect.block (s := S25000x1x2) S1x1x2.size (cc14_transform_4 i) (hinb14_4 i)).WholeWords (EltTy.packing .f32)
  hrank15 : 0 < grid15.rank
  k15_off1_inb : ∀ i : grid15.Coords, ∀ a, (k15_off1 i) a + S1.size a ≤ S25000.size a
  hstage15_0 : ∀ j, (stage15_0 j).IsWhole
  nbuf15_0 : grid15.bufCount reads15_0 false = 2
  hreads15_0 : ∀ {F : FTy → Type} [FloatOps F] (pf : pre15.Contents (Elt F)) (i i' : grid15.Coords), (∀ a, reads15_0 a = true → i a = i' a) → cc15_transform_0 k15_off1_inb numel1_S1 pf i = cc15_transform_0 k15_off1_inb numel1_S1 pf i'
  hstage15_1 : ∀ j, (stage15_1 j).IsWhole
  nbuf15_1 : grid15.bufCount reads15_1 false = 2
  hreads15_1 : ∀ {F : FTy → Type} [FloatOps F] (pf : pre15.Contents (Elt F)) (i i' : grid15.Coords), (∀ a, reads15_1 a = true → i a = i' a) → cc15_transform_1 k15_off1_inb numel1_S1 pf i = cc15_transform_1 k15_off1_inb numel1_S1 pf i'
  hstage15_2 : ∀ j, (stage15_2 j).IsWhole
  nbuf15_2 : grid15.bufCount reads15_2 false = 2
  hreads15_2 : ∀ {F : FTy → Type} [FloatOps F] (pf : pre15.Contents (Elt F)) (i i' : grid15.Coords), (∀ a, reads15_2 a = true → i a = i' a) → cc15_transform_2 k15_off1_inb numel1_S1 pf i = cc15_transform_2 k15_off1_inb numel1_S1 pf i'
  hstage15_3 : ∀ j, (stage15_3 j).IsWhole
  nbuf15_3 : grid15.bufCount reads15_3 false = 2
  hreads15_3 : ∀ {F : FTy → Type} [FloatOps F] (pf : pre15.Contents (Elt F)) (i i' : grid15.Coords), (∀ a, reads15_3 a = true → i a = i' a) → cc15_transform_3 k15_off1_inb numel1_S1 pf i = cc15_transform_3 k15_off1_inb numel1_S1 pf i'
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S1x1x2.size a ≤ S25000x1x2.size a
  hwx15_4 : ∀ i : grid15.Coords, EltTy.bits .f32 = 32 ∨ (Rect.block (s := S25000x1x2) S1x1x2.size (cc15_transform_4 i) (hinb15_4 i)).WholeWords (EltTy.packing .f32)
  hrank16 : 0 < grid16.rank
  k16_off1_inb : ∀ i : grid16.Coords, ∀ a, (k16_off1 i) a + S1.size a ≤ S25000.size a
  hstage16_0 : ∀ j, (stage16_0 j).IsWhole
  nbuf16_0 : grid16.bufCount reads16_0 false = 2
  hreads16_0 : ∀ {F : FTy → Type} [FloatOps F] (pf : pre16.Contents (Elt F)) (i i' : grid16.Coords), (∀ a, reads16_0 a = true → i a = i' a) → cc16_transform_0 k16_off1_inb numel1_S1 pf i = cc16_transform_0 k16_off1_inb numel1_S1 pf i'
  hstage16_1 : ∀ j, (stage16_1 j).IsWhole
  nbuf16_1 : grid16.bufCount reads16_1 false = 2
  hreads16_1 : ∀ {F : FTy → Type} [FloatOps F] (pf : pre16.Contents (Elt F)) (i i' : grid16.Coords), (∀ a, reads16_1 a = true → i a = i' a) → cc16_transform_1 k16_off1_inb numel1_S1 pf i = cc16_transform_1 k16_off1_inb numel1_S1 pf i'
  hstage16_2 : ∀ j, (stage16_2 j).IsWhole
  nbuf16_2 : grid16.bufCount reads16_2 false = 2
  hreads16_2 : ∀ {F : FTy → Type} [FloatOps F] (pf : pre16.Contents (Elt F)) (i i' : grid16.Coords), (∀ a, reads16_2 a = true → i a = i' a) → cc16_transform_2 k16_off1_inb numel1_S1 pf i = cc16_transform_2 k16_off1_inb numel1_S1 pf i'
  hstage16_3 : ∀ j, (stage16_3 j).IsWhole
  nbuf16_3 : grid16.bufCount reads16_3 false = 2
  hreads16_3 : ∀ {F : FTy → Type} [FloatOps F] (pf : pre16.Contents (Elt F)) (i i' : grid16.Coords), (∀ a, reads16_3 a = true → i a = i' a) → cc16_transform_3 k16_off1_inb numel1_S1 pf i = cc16_transform_3 k16_off1_inb numel1_S1 pf i'
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S1x1x2.size a ≤ S25000x1x2.size a
  hwx16_4 : ∀ i : grid16.Coords, EltTy.bits .f32 = 32 ∨ (Rect.block (s := S25000x1x2) S1x1x2.size (cc16_transform_4 i) (hinb16_4 i)).WholeWords (EltTy.packing .f32)
  hrank17 : 0 < grid17.rank
  k17_off1_inb : ∀ i : grid17.Coords, ∀ a, (k17_off1 i) a + S1.size a ≤ S25000.size a
  hstage17_0 : ∀ j, (stage17_0 j).IsWhole
  nbuf17_0 : grid17.bufCount reads17_0 false = 2
  hreads17_0 : ∀ {F : FTy → Type} [FloatOps F] (pf : pre17.Contents (Elt F)) (i i' : grid17.Coords), (∀ a, reads17_0 a = true → i a = i' a) → cc17_transform_0 k17_off1_inb numel1_S1 pf i = cc17_transform_0 k17_off1_inb numel1_S1 pf i'
  hstage17_1 : ∀ j, (stage17_1 j).IsWhole
  nbuf17_1 : grid17.bufCount reads17_1 false = 2
  hreads17_1 : ∀ {F : FTy → Type} [FloatOps F] (pf : pre17.Contents (Elt F)) (i i' : grid17.Coords), (∀ a, reads17_1 a = true → i a = i' a) → cc17_transform_1 k17_off1_inb numel1_S1 pf i = cc17_transform_1 k17_off1_inb numel1_S1 pf i'
  hstage17_2 : ∀ j, (stage17_2 j).IsWhole
  nbuf17_2 : grid17.bufCount reads17_2 false = 2
  hreads17_2 : ∀ {F : FTy → Type} [FloatOps F] (pf : pre17.Contents (Elt F)) (i i' : grid17.Coords), (∀ a, reads17_2 a = true → i a = i' a) → cc17_transform_2 k17_off1_inb numel1_S1 pf i = cc17_transform_2 k17_off1_inb numel1_S1 pf i'
  hstage17_3 : ∀ j, (stage17_3 j).IsWhole
  nbuf17_3 : grid17.bufCount reads17_3 false = 2
  hreads17_3 : ∀ {F : FTy → Type} [FloatOps F] (pf : pre17.Contents (Elt F)) (i i' : grid17.Coords), (∀ a, reads17_3 a = true → i a = i' a) → cc17_transform_3 k17_off1_inb numel1_S1 pf i = cc17_transform_3 k17_off1_inb numel1_S1 pf i'
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S1x1x2.size a ≤ S25000x1x2.size a
  hwx17_4 : ∀ i : grid17.Coords, EltTy.bits .f32 = 32 ∨ (Rect.block (s := S25000x1x2) S1x1x2.size (cc17_transform_4 i) (hinb17_4 i)).WholeWords (EltTy.packing .f32)
  hrank18 : 0 < grid18.rank
  k18_off1_inb : ∀ i : grid18.Coords, ∀ a, (k18_off1 i) a + S1.size a ≤ S25000.size a
  hstage18_0 : ∀ j, (stage18_0 j).IsWhole
  nbuf18_0 : grid18.bufCount reads18_0 false = 2
  hreads18_0 : ∀ {F : FTy → Type} [FloatOps F] (pf : pre18.Contents (Elt F)) (i i' : grid18.Coords), (∀ a, reads18_0 a = true → i a = i' a) → cc18_transform_0 k18_off1_inb numel1_S1 pf i = cc18_transform_0 k18_off1_inb numel1_S1 pf i'
  hstage18_1 : ∀ j, (stage18_1 j).IsWhole
  nbuf18_1 : grid18.bufCount reads18_1 false = 2
  hreads18_1 : ∀ {F : FTy → Type} [FloatOps F] (pf : pre18.Contents (Elt F)) (i i' : grid18.Coords), (∀ a, reads18_1 a = true → i a = i' a) → cc18_transform_1 k18_off1_inb numel1_S1 pf i = cc18_transform_1 k18_off1_inb numel1_S1 pf i'
  hstage18_2 : ∀ j, (stage18_2 j).IsWhole
  nbuf18_2 : grid18.bufCount reads18_2 false = 2
  hreads18_2 : ∀ {F : FTy → Type} [FloatOps F] (pf : pre18.Contents (Elt F)) (i i' : grid18.Coords), (∀ a, reads18_2 a = true → i a = i' a) → cc18_transform_2 k18_off1_inb numel1_S1 pf i = cc18_transform_2 k18_off1_inb numel1_S1 pf i'
  hstage18_3 : ∀ j, (stage18_3 j).IsWhole
  nbuf18_3 : grid18.bufCount reads18_3 false = 2
  hreads18_3 : ∀ {F : FTy → Type} [FloatOps F] (pf : pre18.Contents (Elt F)) (i i' : grid18.Coords), (∀ a, reads18_3 a = true → i a = i' a) → cc18_transform_3 k18_off1_inb numel1_S1 pf i = cc18_transform_3 k18_off1_inb numel1_S1 pf i'
  hstage18_4 : ∀ j, (stage18_4 j).IsWhole
  nbuf18_4 : grid18.bufCount reads18_4 false = 2
  hreads18_4 : ∀ i i' : grid18.Coords, (∀ a, reads18_4 a = true → i a = i' a) → cc18_transform_4 i = cc18_transform_4 i'
  hinb18_4 : ∀ (i : grid18.Coords) a, (cc18_transform_4 i a + 1) * S1x1x2.size a ≤ S25000x1x2.size a
  hwx18_4 : ∀ i : grid18.Coords, EltTy.bits .f32 = 32 ∨ (Rect.block (s := S25000x1x2) S1x1x2.size (cc18_transform_4 i) (hinb18_4 i)).WholeWords (EltTy.packing .f32)
  hrank19 : 0 < grid19.rank
  k19_off1_inb : ∀ i : grid19.Coords, ∀ a, (k19_off1 i) a + S1.size a ≤ S25000.size a
  hstage19_0 : ∀ j, (stage19_0 j).IsWhole
  nbuf19_0 : grid19.bufCount reads19_0 false = 2
  hreads19_0 : ∀ {F : FTy → Type} [FloatOps F] (pf : pre19.Contents (Elt F)) (i i' : grid19.Coords), (∀ a, reads19_0 a = true → i a = i' a) → cc19_transform_0 k19_off1_inb numel1_S1 pf i = cc19_transform_0 k19_off1_inb numel1_S1 pf i'
  hstage19_1 : ∀ j, (stage19_1 j).IsWhole
  nbuf19_1 : grid19.bufCount reads19_1 false = 2
  hreads19_1 : ∀ {F : FTy → Type} [FloatOps F] (pf : pre19.Contents (Elt F)) (i i' : grid19.Coords), (∀ a, reads19_1 a = true → i a = i' a) → cc19_transform_1 k19_off1_inb numel1_S1 pf i = cc19_transform_1 k19_off1_inb numel1_S1 pf i'
  hstage19_2 : ∀ j, (stage19_2 j).IsWhole
  nbuf19_2 : grid19.bufCount reads19_2 false = 2
  hreads19_2 : ∀ {F : FTy → Type} [FloatOps F] (pf : pre19.Contents (Elt F)) (i i' : grid19.Coords), (∀ a, reads19_2 a = true → i a = i' a) → cc19_transform_2 k19_off1_inb numel1_S1 pf i = cc19_transform_2 k19_off1_inb numel1_S1 pf i'
  hstage19_3 : ∀ j, (stage19_3 j).IsWhole
  nbuf19_3 : grid19.bufCount reads19_3 false = 2
  hreads19_3 : ∀ {F : FTy → Type} [FloatOps F] (pf : pre19.Contents (Elt F)) (i i' : grid19.Coords), (∀ a, reads19_3 a = true → i a = i' a) → cc19_transform_3 k19_off1_inb numel1_S1 pf i = cc19_transform_3 k19_off1_inb numel1_S1 pf i'
  hstage19_4 : ∀ j, (stage19_4 j).IsWhole
  nbuf19_4 : grid19.bufCount reads19_4 false = 2
  hreads19_4 : ∀ i i' : grid19.Coords, (∀ a, reads19_4 a = true → i a = i' a) → cc19_transform_4 i = cc19_transform_4 i'
  hinb19_4 : ∀ (i : grid19.Coords) a, (cc19_transform_4 i a + 1) * S1x1x2.size a ≤ S25000x1x2.size a
  hwx19_4 : ∀ i : grid19.Coords, EltTy.bits .f32 = 32 ∨ (Rect.block (s := S25000x1x2) S1x1x2.size (cc19_transform_4 i) (hinb19_4 i)).WholeWords (EltTy.packing .f32)

variable [Facts₀]

abbrev spec0_0 : Pipeline.WinSpec sig grid0.rank :=
  Pipeline.WinSpec.ofSpec (Memref.whole main_v8) S1x1x64.size reads0_0 false false 2 stage0_0 sem0_0 nbuf0_0 hstage0_0

abbrev spec0_1 : Pipeline.WinSpec sig grid0.rank :=
  Pipeline.WinSpec.ofSpec (Memref.whole main_v8) S1x1x64.size reads0_1 false false 2 stage0_1 sem0_1 nbuf0_1 hstage0_1

abbrev spec0_2 : Pipeline.WinSpec sig grid0.rank :=
  Pipeline.WinSpec.ofSpec (Memref.whole main_v8) S1x1x64.size reads0_2 false false 2 stage0_2 sem0_2 nbuf0_2 hstage0_2

abbrev spec0_3 : Pipeline.WinSpec sig grid0.rank :=
  Pipeline.WinSpec.ofSpec (Memref.whole main_v8) S1x1x64.size reads0_3 false false 2 stage0_3 sem0_3 nbuf0_3 hstage0_3

abbrev spec0_4 : Pipeline.WinSpec sig grid0.rank :=
  Pipeline.WinSpec.ofSpec (Memref.whole main_v13) S1x1x2.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x64.size a ≤ S100000x1x64.size a), EltTy.bits .f32 = 32 ∨ (Rect.block (s := S100000x1x64) S1x1x64.size (cc0_transform_0 k0_off1_inb numel1_S1 pf i) h).WholeWords (EltTy.packing .f32)) ∧
  (∀ i : grid0.Coords, ∃ h : (∀ a, (cc0_transform_1 k0_off1_inb numel1_S1 pf i a + 1) * S1x1x64.size a ≤ S100000x1x64.size a), EltTy.bits .f32 = 32 ∨ (Rect.block (s := S100000x1x64) S1x1x64.size (cc0_transform_1 k0_off1_inb numel1_S1 pf i) h).WholeWords (EltTy.packing .f32)) ∧
  (∀ i : grid0.Coords, ∃ h : (∀ a, (cc0_transform_2 k0_off1_inb numel1_S1 pf i a + 1) * S1x1x64.size a ≤ S100000x1x64.size a), EltTy.bits .f32 = 32 ∨ (Rect.block (s := S100000x1x64) S1x1x64.size (cc0_transform_2 k0_off1_inb numel1_S1 pf i) h).WholeWords (EltTy.packing .f32)) ∧
  (∀ i : grid0.Coords, ∃ h : (∀ a, (cc0_transform_3 k0_off1_inb numel1_S1 pf i a + 1) * S1x1x64.size a ≤ S100000x1x64.size a), EltTy.bits .f32 = 32 ∨ (Rect.block (s := S100000x1x64) S1x1x64.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx0_4 | ⟨_ + 5, h⟩ => absurd h (Nat.not_lt.2 (Nat.le_add_left _ _))
abbrev spec1_0 : Pipeline.WinSpec sig grid1.rank :=
  Pipeline.WinSpec.ofSpec (Memref.whole main_v8) S1x1x64.size reads1_0 false false 2 stage1_0 sem1_0 nbuf1_0 hstage1_0

abbrev spec1_1 : Pipeline.WinSpec sig grid1.rank :=
  Pipeline.WinSpec.ofSpec (Memref.whole main_v8) S1x1x64.size reads1_1 false false 2 stage1_1 sem1_1 nbuf1_1 hstage1_1

abbrev spec1_2 : Pipeline.WinSpec sig grid1.rank :=
  Pipeline.WinSpec.ofSpec (Memref.whole main_v8) S1x1x64.size reads1_2 false false 2 stage1_2 sem1_2 nbuf1_2 hstage1_2

abbrev spec1_3 : Pipeline.WinSpec sig grid1.rank :=
  Pipeline.WinSpec.ofSpec (Memref.whole main_v8) S1x1x64.size reads1_3 false false 2 stage1_3 sem1_3 nbuf1_3 hstage1_3

abbrev spec1_4 : Pipeline.WinSpec sig grid1.rank :=
  Pipeline.WinSpec.ofSpec (Memref.whole main_v18) S1x1x2.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | 4 => cc1_transform_4 | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | 4 => hreads1_4 | ⟨_ + 5, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x64.size a ≤ S100000x1x64.size a), EltTy.bits .f32 = 32 ∨ (Rect.block (s := S100000x1x64) S1x1x64.size (cc1_transform_0 k1_off1_inb numel1_S1 pf i) h).WholeWords (EltTy.packing .f32)) ∧
  (∀ i : grid1.Coords, ∃ h : (∀ a, (cc1_transform_1 k1_off1_inb numel1_S1 pf i a + 1) * S1x1x64.size a ≤ S100000x1x64.size a), EltTy.bits .f32 = 32 ∨ (Rect.block (s := S100000x1x64) S1x1x64.size (cc1_transform_1 k1_off1_inb numel1_S1 pf i) h).WholeWords (EltTy.packing .f32)) ∧
  (∀ i : grid1.Coords, ∃ h : (∀ a, (cc1_transform_2 k1_off1_inb numel1_S1 pf i a + 1) * S1x1x64.size a ≤ S100000x1x64.size a), EltTy.bits .f32 = 32 ∨ (Rect.block (s := S100000x1x64) S1x1x64.size (cc1_transform_2 k1_off1_inb numel1_S1 pf i) h).WholeWords (EltTy.packing .f32)) ∧
  (∀ i : grid1.Coords, ∃ h : (∀ a, (cc1_transform_3 k1_off1_inb numel1_S1 pf i a + 1) * S1x1x64.size a ≤ S100000x1x64.size a), EltTy.bits .f32 = 32 ∨ (Rect.block (s := S100000x1x64) S1x1x64.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb1_4 | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx1_4 | ⟨_ + 5, h⟩ => absurd h (Nat.not_lt.2 (Nat.le_add_left _ _))
abbrev spec2_0 : Pipeline.WinSpec sig grid2.rank :=
  Pipeline.WinSpec.ofSpec (Memref.whole main_v8) S1x1x64.size reads2_0 false false 2 stage2_0 sem2_0 nbuf2_0 hstage2_0

abbrev spec2_1 : Pipeline.WinSpec sig grid2.rank :=
  Pipeline.WinSpec.ofSpec (Memref.whole main_v8) S1x1x64.size reads2_1 false false 2 stage2_1 sem2_1 nbuf2_1 hstage2_1

abbrev spec2_2 : Pipeline.WinSpec sig grid2.rank :=
  Pipeline.WinSpec.ofSpec (Memref.whole main_v8) S1x1x64.size reads2_2 false false 2 stage2_2 sem2_2 nbuf2_2 hstage2_2

abbrev spec2_3 : Pipeline.WinSpec sig grid2.rank :=
  Pipeline.WinSpec.ofSpec (Memref.whole main_v8) S1x1x64.size reads2_3 false false 2 stage2_3 sem2_3 nbuf2_3 hstage2_3

abbrev spec2_4 : Pipeline.WinSpec sig grid2.rank :=
  Pipeline.WinSpec.ofSpec (Memref.whole main_v23) S1x1x2.size reads2_4 true false 2 stage2_4 sem2_4 nbuf2_4 hstage2_4

abbrev spec2 : Fin 5 → Pipeline.WinSpec sig grid2.rank := fun | 0 => spec2_0 | 1 => spec2_1 | 2 => spec2_2 | 3 => spec2_3 | 4 => spec2_4 | ⟨_ + 5, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | 4 => nbuf2_4 | ⟨_ + 5, h⟩ => absurd h (Nat.not_lt.2 (Nat.le_add_left _ _))
abbrev ix2 (pf : pre2.Contents (Elt F)) : (w : Fin 5) → grid2.Coords → Fin (spec2 w).shape.rank → Nat := fun | 0 => cc2_transform_0 k2_off1_inb numel1_S1 pf | 1 => cc2_transform_1 k2_off1_inb numel1_S1 pf | 2 => cc2_transform_2 k2_off1_inb numel1_S1 pf | 3 => cc2_transform_3 k2_off1_inb numel1_S1 pf | 4 => cc2_transform_4 | ⟨_ + 5, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 pf | 3 => hreads2_3 pf | 4 => hreads2_4 | ⟨_ + 5, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x64.size a ≤ S100000x1x64.size a), EltTy.bits .f32 = 32 ∨ (Rect.block (s := S100000x1x64) S1x1x64.size (cc2_transform_0 k2_off1_inb numel1_S1 pf i) h).WholeWords (EltTy.packing .f32)) ∧
  (∀ i : grid2.Coords, ∃ h : (∀ a, (cc2_transform_1 k2_off1_inb numel1_S1 pf i a + 1) * S1x1x64.size a ≤ S100000x1x64.size a), EltTy.bits .f32 = 32 ∨ (Rect.block (s := S100000x1x64) S1x1x64.size (cc2_transform_1 k2_off1_inb numel1_S1 pf i) h).WholeWords (EltTy.packing .f32)) ∧
  (∀ i : grid2.Coords, ∃ h : (∀ a, (cc2_transform_2 k2_off1_inb numel1_S1 pf i a + 1) * S1x1x64.size a ≤ S100000x1x64.size a), EltTy.bits .f32 = 32 ∨ (Rect.block (s := S100000x1x64) S1x1x64.size (cc2_transform_2 k2_off1_inb numel1_S1 pf i) h).WholeWords (EltTy.packing .f32)) ∧
  (∀ i : grid2.Coords, ∃ h : (∀ a, (cc2_transform_3 k2_off1_inb numel1_S1 pf i a + 1) * S1x1x64.size a ≤ S100000x1x64.size a), EltTy.bits .f32 = 32 ∨ (Rect.block (s := S100000x1x64) S1x1x64.size (cc2_transform_3 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb2_4 | ⟨_ + 5, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx2_4 | ⟨_ + 5, h⟩ => absurd h (Nat.not_lt.2 (Nat.le_add_left _ _))
abbrev spec3_0 : Pipeline.WinSpec sig grid3.rank :=
  Pipeline.WinSpec.ofSpec (Memref.whole main_v8) S1x1x64.size reads3_0 false false 2 stage3_0 sem3_0 nbuf3_0 hstage3_0

abbrev spec3_1 : Pipeline.WinSpec sig grid3.rank :=
  Pipeline.WinSpec.ofSpec (Memref.whole main_v8) S1x1x64.size reads3_1 false false 2 stage3_1 sem3_1 nbuf3_1 hstage3_1

abbrev spec3_2 : Pipeline.WinSpec sig grid3.rank :=
  Pipeline.WinSpec.ofSpec (Memref.whole main_v8) S1x1x64.size reads3_2 false false 2 stage3_2 sem3_2 nbuf3_2 hstage3_2

abbrev spec3_3 : Pipeline.WinSpec sig grid3.rank :=
  Pipeline.WinSpec.ofSpec (Memref.whole main_v8) S1x1x64.size reads3_3 false false 2 stage3_3 sem3_3 nbuf3_3 hstage3_3

abbrev spec3_4 : Pipeline.WinSpec sig grid3.rank :=
  Pipeline.WinSpec.ofSpec (Memref.whole main_v28) S1x1x2.size reads3_4 true false 2 stage3_4 sem3_4 nbuf3_4 hstage3_4

abbrev spec3 : Fin 5 → Pipeline.WinSpec sig grid3.rank := fun | 0 => spec3_0 | 1 => spec3_1 | 2 => spec3_2 | 3 => spec3_3 | 4 => spec3_4 | ⟨_ + 5, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | 4 => nbuf3_4 | ⟨_ + 5, h⟩ => absurd h (Nat.not_lt.2 (Nat.le_add_left _ _))
abbrev ix3 (pf : pre3.Contents (Elt F)) : (w : Fin 5) → grid3.Coords → Fin (spec3 w).shape.rank → Nat := fun | 0 => cc3_transform_0 k3_off1_inb numel1_S1 pf | 1 => cc3_transform_1 k3_off1_inb numel1_S1 pf | 2 => cc3_transform_2 k3_off1_inb numel1_S1 pf | 3 => cc3_transform_3 k3_off1_inb numel1_S1 pf | 4 => cc3_transform_4 | ⟨_ + 5, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 pf | 2 => hreads3_2 pf | 3 => hreads3_3 pf | 4 => hreads3_4 | ⟨_ + 5, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x64.size a ≤ S100000x1x64.size a), EltTy.bits .f32 = 32 ∨ (Rect.block (s := S100000x1x64) S1x1x64.size (cc3_transform_0 k3_off1_inb numel1_S1 pf i) h).WholeWords (EltTy.packing .f32)) ∧
  (∀ i : grid3.Coords, ∃ h : (∀ a, (cc3_transform_1 k3_off1_inb numel1_S1 pf i a + 1) * S1x1x64.size a ≤ S100000x1x64.size a), EltTy.bits .f32 = 32 ∨ (Rect.block (s := S100000x1x64) S1x1x64.size (cc3_transform_1 k3_off1_inb numel1_S1 pf i) h).WholeWords (EltTy.packing .f32)) ∧
  (∀ i : grid3.Coords, ∃ h : (∀ a, (cc3_transform_2 k3_off1_inb numel1_S1 pf i a + 1) * S1x1x64.size a ≤ S100000x1x64.size a), EltTy.bits .f32 = 32 ∨ (Rect.block (s := S100000x1x64) S1x1x64.size (cc3_transform_2 k3_off1_inb numel1_S1 pf i) h).WholeWords (EltTy.packing .f32)) ∧
  (∀ i : grid3.Coords, ∃ h : (∀ a, (cc3_transform_3 k3_off1_inb numel1_S1 pf i a + 1) * S1x1x64.size a ≤ S100000x1x64.size a), EltTy.bits .f32 = 32 ∨ (Rect.block (s := S100000x1x64) S1x1x64.size (cc3_transform_3 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb3_4 | ⟨_ + 5, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx3_4 | ⟨_ + 5, h⟩ => absurd h (Nat.not_lt.2 (Nat.le_add_left _ _))
abbrev spec4_0 : Pipeline.WinSpec sig grid4.rank :=
  Pipeline.WinSpec.ofSpec (Memref.whole main_v8) S1x1x64.size reads4_0 false false 2 stage4_0 sem4_0 nbuf4_0 hstage4_0

abbrev spec4_1 : Pipeline.WinSpec sig grid4.rank :=
  Pipeline.WinSpec.ofSpec (Memref.whole main_v8) S1x1x64.size reads4_1 false false 2 stage4_1 sem4_1 nbuf4_1 hstage4_1

abbrev spec4_2 : Pipeline.WinSpec sig grid4.rank :=
  Pipeline.WinSpec.ofSpec (Memref.whole main_v8) S1x1x64.size reads4_2 false false 2 stage4_2 sem4_2 nbuf4_2 hstage4_2

abbrev spec4_3 : Pipeline.WinSpec sig grid4.rank :=
  Pipeline.WinSpec.ofSpec (Memref.whole main_v8) S1x1x64.size reads4_3 false false 2 stage4_3 sem4_3 nbuf4_3 hstage4_3

abbrev spec4_4 : Pipeline.WinSpec sig grid4.rank :=
  Pipeline.WinSpec.ofSpec (Memref.whole main_v33) S1x1x2.size reads4_4 true false 2 stage4_4 sem4_4 nbuf4_4 hstage4_4

abbrev spec4 : Fin 5 → Pipeline.WinSpec sig grid4.rank := fun | 0 => spec4_0 | 1 => spec4_1 | 2 => spec4_2 | 3 => spec4_3 | 4 => spec4_4 | ⟨_ + 5, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | 3 => nbuf4_3 | 4 => nbuf4_4 | ⟨_ + 5, h⟩ => absurd h (Nat.not_lt.2 (Nat.le_add_left _ _))
abbrev ix4 (pf : pre4.Contents (Elt F)) : (w : Fin 5) → grid4.Coords → Fin (spec4 w).shape.rank → Nat := fun | 0 => cc4_transform_0 k4_off1_inb numel1_S1 pf | 1 => cc4_transform_1 k4_off1_inb numel1_S1 pf | 2 => cc4_transform_2 k4_off1_inb numel1_S1 pf | 3 => cc4_transform_3 k4_off1_inb numel1_S1 pf | 4 => cc4_transform_4 | ⟨_ + 5, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 pf | 2 => hreads4_2 pf | 3 => hreads4_3 pf | 4 => hreads4_4 | ⟨_ + 5, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x64.size a ≤ S100000x1x64.size a), EltTy.bits .f32 = 32 ∨ (Rect.block (s := S100000x1x64) S1x1x64.size (cc4_transform_0 k4_off1_inb numel1_S1 pf i) h).WholeWords (EltTy.packing .f32)) ∧
  (∀ i : grid4.Coords, ∃ h : (∀ a, (cc4_transform_1 k4_off1_inb numel1_S1 pf i a + 1) * S1x1x64.size a ≤ S100000x1x64.size a), EltTy.bits .f32 = 32 ∨ (Rect.block (s := S100000x1x64) S1x1x64.size (cc4_transform_1 k4_off1_inb numel1_S1 pf i) h).WholeWords (EltTy.packing .f32)) ∧
  (∀ i : grid4.Coords, ∃ h : (∀ a, (cc4_transform_2 k4_off1_inb numel1_S1 pf i a + 1) * S1x1x64.size a ≤ S100000x1x64.size a), EltTy.bits .f32 = 32 ∨ (Rect.block (s := S100000x1x64) S1x1x64.size (cc4_transform_2 k4_off1_inb numel1_S1 pf i) h).WholeWords (EltTy.packing .f32)) ∧
  (∀ i : grid4.Coords, ∃ h : (∀ a, (cc4_transform_3 k4_off1_inb numel1_S1 pf i a + 1) * S1x1x64.size a ≤ S100000x1x64.size a), EltTy.bits .f32 = 32 ∨ (Rect.block (s := S100000x1x64) S1x1x64.size (cc4_transform_3 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb4_4 | ⟨_ + 5, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx4_4 | ⟨_ + 5, h⟩ => absurd h (Nat.not_lt.2 (Nat.le_add_left _ _))
abbrev spec5_0 : Pipeline.WinSpec sig grid5.rank :=
  Pipeline.WinSpec.ofSpec (Memref.whole main_v8) S1x1x64.size reads5_0 false false 2 stage5_0 sem5_0 nbuf5_0 hstage5_0

abbrev spec5_1 : Pipeline.WinSpec sig grid5.rank :=
  Pipeline.WinSpec.ofSpec (Memref.whole main_v8) S1x1x64.size reads5_1 false false 2 stage5_1 sem5_1 nbuf5_1 hstage5_1

abbrev spec5_2 : Pipeline.WinSpec sig grid5.rank :=
  Pipeline.WinSpec.ofSpec (Memref.whole main_v8) S1x1x64.size reads5_2 false false 2 stage5_2 sem5_2 nbuf5_2 hstage5_2

abbrev spec5_3 : Pipeline.WinSpec sig grid5.rank :=
  Pipeline.WinSpec.ofSpec (Memref.whole main_v8) S1x1x64.size reads5_3 false false 2 stage5_3 sem5_3 nbuf5_3 hstage5_3

abbrev spec5_4 : Pipeline.WinSpec sig grid5.rank :=
  Pipeline.WinSpec.ofSpec (Memref.whole main_v38) S1x1x2.size reads5_4 true false 2 stage5_4 sem5_4 nbuf5_4 hstage5_4

abbrev spec5 : Fin 5 → Pipeline.WinSpec sig grid5.rank := fun | 0 => spec5_0 | 1 => spec5_1 | 2 => spec5_2 | 3 => spec5_3 | 4 => spec5_4 | ⟨_ + 5, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | 3 => nbuf5_3 | 4 => nbuf5_4 | ⟨_ + 5, h⟩ => absurd h (Nat.not_lt.2 (Nat.le_add_left _ _))
abbrev ix5 (pf : pre5.Contents (Elt F)) : (w : Fin 5) → grid5.Coords → Fin (spec5 w).shape.rank → Nat := fun | 0 => cc5_transform_0 k5_off1_inb numel1_S1 pf | 1 => cc5_transform_1 k5_off1_inb numel1_S1 pf | 2 => cc5_transform_2 k5_off1_inb numel1_S1 pf | 3 => cc5_transform_3 k5_off1_inb numel1_S1 pf | 4 => cc5_transform_4 | ⟨_ + 5, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 pf | 2 => hreads5_2 pf | 3 => hreads5_3 pf | 4 => hreads5_4 | ⟨_ + 5, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x64.size a ≤ S100000x1x64.size a), EltTy.bits .f32 = 32 ∨ (Rect.block (s := S100000x1x64) S1x1x64.size (cc5_transform_0 k5_off1_inb numel1_S1 pf i) h).WholeWords (EltTy.packing .f32)) ∧
  (∀ i : grid5.Coords, ∃ h : (∀ a, (cc5_transform_1 k5_off1_inb numel1_S1 pf i a + 1) * S1x1x64.size a ≤ S100000x1x64.size a), EltTy.bits .f32 = 32 ∨ (Rect.block (s := S100000x1x64) S1x1x64.size (cc5_transform_1 k5_off1_inb numel1_S1 pf i) h).WholeWords (EltTy.packing .f32)) ∧
  (∀ i : grid5.Coords, ∃ h : (∀ a, (cc5_transform_2 k5_off1_inb numel1_S1 pf i a + 1) * S1x1x64.size a ≤ S100000x1x64.size a), EltTy.bits .f32 = 32 ∨ (Rect.block (s := S100000x1x64) S1x1x64.size (cc5_transform_2 k5_off1_inb numel1_S1 pf i) h).WholeWords (EltTy.packing .f32)) ∧
  (∀ i : grid5.Coords, ∃ h : (∀ a, (cc5_transform_3 k5_off1_inb numel1_S1 pf i a + 1) * S1x1x64.size a ≤ S100000x1x64.size a), EltTy.bits .f32 = 32 ∨ (Rect.block (s := S100000x1x64) S1x1x64.size (cc5_transform_3 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb5_4 | ⟨_ + 5, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx5_4 | ⟨_ + 5, h⟩ => absurd h (Nat.not_lt.2 (Nat.le_add_left _ _))
abbrev spec6_0 : Pipeline.WinSpec sig grid6.rank :=
  Pipeline.WinSpec.ofSpec (Memref.whole main_v8) S1x1x64.size reads6_0 false false 2 stage6_0 sem6_0 nbuf6_0 hstage6_0

abbrev spec6_1 : Pipeline.WinSpec sig grid6.rank :=
  Pipeline.WinSpec.ofSpec (Memref.whole main_v8) S1x1x64.size reads6_1 false false 2 stage6_1 sem6_1 nbuf6_1 hstage6_1

abbrev spec6_2 : Pipeline.WinSpec sig grid6.rank :=
  Pipeline.WinSpec.ofSpec (Memref.whole main_v8) S1x1x64.size reads6_2 false false 2 stage6_2 sem6_2 nbuf6_2 hstage6_2

abbrev spec6_3 : Pipeline.WinSpec sig grid6.rank :=
  Pipeline.WinSpec.ofSpec (Memref.whole main_v8) S1x1x64.size reads6_3 false false 2 stage6_3 sem6_3 nbuf6_3 hstage6_3

abbrev spec6_4 : Pipeline.WinSpec sig grid6.rank :=
  Pipeline.WinSpec.ofSpec (Memref.whole main_v43) S1x1x2.size reads6_4 true false 2 stage6_4 sem6_4 nbuf6_4 hstage6_4

abbrev spec6 : Fin 5 → Pipeline.WinSpec sig grid6.rank := fun | 0 => spec6_0 | 1 => spec6_1 | 2 => spec6_2 | 3 => spec6_3 | 4 => spec6_4 | ⟨_ + 5, h⟩ => absurd h (Nat.not_lt.2 (Nat.le_add_left _ _))
theorem hcount6 : ∀ w, grid6.bufCount (spec6 w).reads (spec6 w).sync = (spec6 w).nbuf := fun | 0 => nbuf6_0 | 1 => nbuf6_1 | 2 => nbuf6_2 | 3 => nbuf6_3 | 4 => nbuf6_4 | ⟨_ + 5, h⟩ => absurd h (Nat.not_lt.2 (Nat.le_add_left _ _))
abbrev ix6 (pf : pre6.Contents (Elt F)) : (w : Fin 5) → grid6.Coords → Fin (spec6 w).shape.rank → Nat := fun | 0 => cc6_transform_0 k6_off1_inb numel1_S1 pf | 1 => cc6_transform_1 k6_off1_inb numel1_S1 pf | 2 => cc6_transform_2 k6_off1_inb numel1_S1 pf | 3 => cc6_transform_3 k6_off1_inb numel1_S1 pf | 4 => cc6_transform_4 | ⟨_ + 5, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 pf | 2 => hreads6_2 pf | 3 => hreads6_3 pf | 4 => hreads6_4 | ⟨_ + 5, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x64.size a ≤ S100000x1x64.size a), EltTy.bits .f32 = 32 ∨ (Rect.block (s := S100000x1x64) S1x1x64.size (cc6_transform_0 k6_off1_inb numel1_S1 pf i) h).WholeWords (EltTy.packing .f32)) ∧
  (∀ i : grid6.Coords, ∃ h : (∀ a, (cc6_transform_1 k6_off1_inb numel1_S1 pf i a + 1) * S1x1x64.size a ≤ S100000x1x64.size a), EltTy.bits .f32 = 32 ∨ (Rect.block (s := S100000x1x64) S1x1x64.size (cc6_transform_1 k6_off1_inb numel1_S1 pf i) h).WholeWords (EltTy.packing .f32)) ∧
  (∀ i : grid6.Coords, ∃ h : (∀ a, (cc6_transform_2 k6_off1_inb numel1_S1 pf i a + 1) * S1x1x64.size a ≤ S100000x1x64.size a), EltTy.bits .f32 = 32 ∨ (Rect.block (s := S100000x1x64) S1x1x64.size (cc6_transform_2 k6_off1_inb numel1_S1 pf i) h).WholeWords (EltTy.packing .f32)) ∧
  (∀ i : grid6.Coords, ∃ h : (∀ a, (cc6_transform_3 k6_off1_inb numel1_S1 pf i a + 1) * S1x1x64.size a ≤ S100000x1x64.size a), EltTy.bits .f32 = 32 ∨ (Rect.block (s := S100000x1x64) S1x1x64.size (cc6_transform_3 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb6_4 | ⟨_ + 5, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx6_4 | ⟨_ + 5, h⟩ => absurd h (Nat.not_lt.2 (Nat.le_add_left _ _))
abbrev spec7_0 : Pipeline.WinSpec sig grid7.rank :=
  Pipeline.WinSpec.ofSpec (Memref.whole main_v8) S1x1x64.size reads7_0 false false 2 stage7_0 sem7_0 nbuf7_0 hstage7_0

abbrev spec7_1 : Pipeline.WinSpec sig grid7.rank :=
  Pipeline.WinSpec.ofSpec (Memref.whole main_v8) S1x1x64.size reads7_1 false false 2 stage7_1 sem7_1 nbuf7_1 hstage7_1

abbrev spec7_2 : Pipeline.WinSpec sig grid7.rank :=
  Pipeline.WinSpec.ofSpec (Memref.whole main_v8) S1x1x64.size reads7_2 false false 2 stage7_2 sem7_2 nbuf7_2 hstage7_2

abbrev spec7_3 : Pipeline.WinSpec sig grid7.rank :=
  Pipeline.WinSpec.ofSpec (Memref.whole main_v8) S1x1x64.size reads7_3 false false 2 stage7_3 sem7_3 nbuf7_3 hstage7_3

abbrev spec7_4 : Pipeline.WinSpec sig grid7.rank :=
  Pipeline.WinSpec.ofSpec (Memref.whole main_v48) S1x1x2.size reads7_4 true false 2 stage7_4 sem7_4 nbuf7_4 hstage7_4

abbrev spec7 : Fin 5 → Pipeline.WinSpec sig grid7.rank := fun | 0 => spec7_0 | 1 => spec7_1 | 2 => spec7_2 | 3 => spec7_3 | 4 => spec7_4 | ⟨_ + 5, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | 3 => nbuf7_3 | 4 => nbuf7_4 | ⟨_ + 5, h⟩ => absurd h (Nat.not_lt.2 (Nat.le_add_left _ _))
abbrev ix7 (pf : pre7.Contents (Elt F)) : (w : Fin 5) → grid7.Coords → Fin (spec7 w).shape.rank → Nat := fun | 0 => cc7_transform_0 k7_off1_inb numel1_S1 pf | 1 => cc7_transform_1 k7_off1_inb numel1_S1 pf | 2 => cc7_transform_2 k7_off1_inb numel1_S1 pf | 3 => cc7_transform_3 k7_off1_inb numel1_S1 pf | 4 => cc7_transform_4 | ⟨_ + 5, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 pf | 1 => hreads7_1 pf | 2 => hreads7_2 pf | 3 => hreads7_3 pf | 4 => hreads7_4 | ⟨_ + 5, h⟩ => absurd h (Nat.not_lt.2 (Nat.le_add_left _ _))
def ok7 (pf : pre7.Contents (Elt F)) : Prop :=
  (∀ i : grid7.Coords, ∃ h : (∀ a, (cc7_transform_0 k7_off1_inb numel1_S1 pf i a + 1) * S1x1x64.size a ≤ S100000x1x64.size a), EltTy.bits .f32 = 32 ∨ (Rect.block (s := S100000x1x64) S1x1x64.size (cc7_transform_0 k7_off1_inb numel1_S1 pf i) h).WholeWords (EltTy.packing .f32)) ∧
  (∀ i : grid7.Coords, ∃ h : (∀ a, (cc7_transform_1 k7_off1_inb numel1_S1 pf i a + 1) * S1x1x64.size a ≤ S100000x1x64.size a), EltTy.bits .f32 = 32 ∨ (Rect.block (s := S100000x1x64) S1x1x64.size (cc7_transform_1 k7_off1_inb numel1_S1 pf i) h).WholeWords (EltTy.packing .f32)) ∧
  (∀ i : grid7.Coords, ∃ h : (∀ a, (cc7_transform_2 k7_off1_inb numel1_S1 pf i a + 1) * S1x1x64.size a ≤ S100000x1x64.size a), EltTy.bits .f32 = 32 ∨ (Rect.block (s := S100000x1x64) S1x1x64.size (cc7_transform_2 k7_off1_inb numel1_S1 pf i) h).WholeWords (EltTy.packing .f32)) ∧
  (∀ i : grid7.Coords, ∃ h : (∀ a, (cc7_transform_3 k7_off1_inb numel1_S1 pf i a + 1) * S1x1x64.size a ≤ S100000x1x64.size a), EltTy.bits .f32 = 32 ∨ (Rect.block (s := S100000x1x64) S1x1x64.size (cc7_transform_3 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb7_4 | ⟨_ + 5, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx7_4 | ⟨_ + 5, h⟩ => absurd h (Nat.not_lt.2 (Nat.le_add_left _ _))
abbrev spec8_0 : Pipeline.WinSpec sig grid8.rank :=
  Pipeline.WinSpec.ofSpec (Memref.whole main_v8) S1x1x64.size reads8_0 false false 2 stage8_0 sem8_0 nbuf8_0 hstage8_0

abbrev spec8_1 : Pipeline.WinSpec sig grid8.rank :=
  Pipeline.WinSpec.ofSpec (Memref.whole main_v8) S1x1x64.size reads8_1 false false 2 stage8_1 sem8_1 nbuf8_1 hstage8_1

abbrev spec8_2 : Pipeline.WinSpec sig grid8.rank :=
  Pipeline.WinSpec.ofSpec (Memref.whole main_v8) S1x1x64.size reads8_2 false false 2 stage8_2 sem8_2 nbuf8_2 hstage8_2

abbrev spec8_3 : Pipeline.WinSpec sig grid8.rank :=
  Pipeline.WinSpec.ofSpec (Memref.whole main_v8) S1x1x64.size reads8_3 false false 2 stage8_3 sem8_3 nbuf8_3 hstage8_3

abbrev spec8_4 : Pipeline.WinSpec sig grid8.rank :=
  Pipeline.WinSpec.ofSpec (Memref.whole main_v53) S1x1x2.size reads8_4 true false 2 stage8_4 sem8_4 nbuf8_4 hstage8_4

abbrev spec8 : Fin 5 → Pipeline.WinSpec sig grid8.rank := fun | 0 => spec8_0 | 1 => spec8_1 | 2 => spec8_2 | 3 => spec8_3 | 4 => spec8_4 | ⟨_ + 5, h⟩ => absurd h (Nat.not_lt.2 (Nat.le_add_left _ _))
theorem hcount8 : ∀ w, grid8.bufCount (spec8 w).reads (spec8 w).sync = (spec8 w).nbuf := fun | 0 => nbuf8_0 | 1 => nbuf8_1 | 2 => nbuf8_2 | 3 => nbuf8_3 | 4 => nbuf8_4 | ⟨_ + 5, h⟩ => absurd h (Nat.not_lt.2 (Nat.le_add_left _ _))
abbrev ix8 (pf : pre8.Contents (Elt F)) : (w : Fin 5) → grid8.Coords → Fin (spec8 w).shape.rank → Nat := fun | 0 => cc8_transform_0 k8_off1_inb numel1_S1 pf | 1 => cc8_transform_1 k8_off1_inb numel1_S1 pf | 2 => cc8_transform_2 k8_off1_inb numel1_S1 pf | 3 => cc8_transform_3 k8_off1_inb numel1_S1 pf | 4 => cc8_transform_4 | ⟨_ + 5, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 pf | 1 => hreads8_1 pf | 2 => hreads8_2 pf | 3 => hreads8_3 pf | 4 => hreads8_4 | ⟨_ + 5, h⟩ => absurd h (Nat.not_lt.2 (Nat.le_add_left _ _))
def ok8 (pf : pre8.Contents (Elt F)) : Prop :=
  (∀ i : grid8.Coords, ∃ h : (∀ a, (cc8_transform_0 k8_off1_inb numel1_S1 pf i a + 1) * S1x1x64.size a ≤ S100000x1x64.size a), EltTy.bits .f32 = 32 ∨ (Rect.block (s := S100000x1x64) S1x1x64.size (cc8_transform_0 k8_off1_inb numel1_S1 pf i) h).WholeWords (EltTy.packing .f32)) ∧
  (∀ i : grid8.Coords, ∃ h : (∀ a, (cc8_transform_1 k8_off1_inb numel1_S1 pf i a + 1) * S1x1x64.size a ≤ S100000x1x64.size a), EltTy.bits .f32 = 32 ∨ (Rect.block (s := S100000x1x64) S1x1x64.size (cc8_transform_1 k8_off1_inb numel1_S1 pf i) h).WholeWords (EltTy.packing .f32)) ∧
  (∀ i : grid8.Coords, ∃ h : (∀ a, (cc8_transform_2 k8_off1_inb numel1_S1 pf i a + 1) * S1x1x64.size a ≤ S100000x1x64.size a), EltTy.bits .f32 = 32 ∨ (Rect.block (s := S100000x1x64) S1x1x64.size (cc8_transform_2 k8_off1_inb numel1_S1 pf i) h).WholeWords (EltTy.packing .f32)) ∧
  (∀ i : grid8.Coords, ∃ h : (∀ a, (cc8_transform_3 k8_off1_inb numel1_S1 pf i a + 1) * S1x1x64.size a ≤ S100000x1x64.size a), EltTy.bits .f32 = 32 ∨ (Rect.block (s := S100000x1x64) S1x1x64.size (cc8_transform_3 k8_off1_inb numel1_S1 pf i) h).WholeWords (EltTy.packing .f32))
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb8_4 | ⟨_ + 5, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx8_4 | ⟨_ + 5, h⟩ => absurd h (Nat.not_lt.2 (Nat.le_add_left _ _))
abbrev spec9_0 : Pipeline.WinSpec sig grid9.rank :=
  Pipeline.WinSpec.ofSpec (Memref.whole main_v8) S1x1x64.size reads9_0 false false 2 stage9_0 sem9_0 nbuf9_0 hstage9_0

abbrev spec9_1 : Pipeline.WinSpec sig grid9.rank :=
  Pipeline.WinSpec.ofSpec (Memref.whole main_v8) S1x1x64.size reads9_1 false false 2 stage9_1 sem9_1 nbuf9_1 hstage9_1

abbrev spec9_2 : Pipeline.WinSpec sig grid9.rank :=
  Pipeline.WinSpec.ofSpec (Memref.whole main_v8) S1x1x64.size reads9_2 false false 2 stage9_2 sem9_2 nbuf9_2 hstage9_2

abbrev spec9_3 : Pipeline.WinSpec sig grid9.rank :=
  Pipeline.WinSpec.ofSpec (Memref.whole main_v8) S1x1x64.size reads9_3 false false 2 stage9_3 sem9_3 nbuf9_3 hstage9_3

abbrev spec9_4 : Pipeline.WinSpec sig grid9.rank :=
  Pipeline.WinSpec.ofSpec (Memref.whole main_v58) S1x1x2.size reads9_4 true false 2 stage9_4 sem9_4 nbuf9_4 hstage9_4

abbrev spec9 : Fin 5 → Pipeline.WinSpec sig grid9.rank := fun | 0 => spec9_0 | 1 => spec9_1 | 2 => spec9_2 | 3 => spec9_3 | 4 => spec9_4 | ⟨_ + 5, h⟩ => absurd h (Nat.not_lt.2 (Nat.le_add_left _ _))
theorem hcount9 : ∀ w, grid9.bufCount (spec9 w).reads (spec9 w).sync = (spec9 w).nbuf := fun | 0 => nbuf9_0 | 1 => nbuf9_1 | 2 => nbuf9_2 | 3 => nbuf9_3 | 4 => nbuf9_4 | ⟨_ + 5, h⟩ => absurd h (Nat.not_lt.2 (Nat.le_add_left _ _))
abbrev ix9 (pf : pre9.Contents (Elt F)) : (w : Fin 5) → grid9.Coords → Fin (spec9 w).shape.rank → Nat := fun | 0 => cc9_transform_0 k9_off1_inb numel1_S1 pf | 1 => cc9_transform_1 k9_off1_inb numel1_S1 pf | 2 => cc9_transform_2 k9_off1_inb numel1_S1 pf | 3 => cc9_transform_3 k9_off1_inb numel1_S1 pf | 4 => cc9_transform_4 | ⟨_ + 5, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 pf | 1 => hreads9_1 pf | 2 => hreads9_2 pf | 3 => hreads9_3 pf | 4 => hreads9_4 | ⟨_ + 5, h⟩ => absurd h (Nat.not_lt.2 (Nat.le_add_left _ _))
def ok9 (pf : pre9.Contents (Elt F)) : Prop :=
  (∀ i : grid9.Coords, ∃ h : (∀ a, (cc9_transform_0 k9_off1_inb numel1_S1 pf i a + 1) * S1x1x64.size a ≤ S100000x1x64.size a), EltTy.bits .f32 = 32 ∨ (Rect.block (s := S100000x1x64) S1x1x64.size (cc9_transform_0 k9_off1_inb numel1_S1 pf i) h).WholeWords (EltTy.packing .f32)) ∧
  (∀ i : grid9.Coords, ∃ h : (∀ a, (cc9_transform_1 k9_off1_inb numel1_S1 pf i a + 1) * S1x1x64.size a ≤ S100000x1x64.size a), EltTy.bits .f32 = 32 ∨ (Rect.block (s := S100000x1x64) S1x1x64.size (cc9_transform_1 k9_off1_inb numel1_S1 pf i) h).WholeWords (EltTy.packing .f32)) ∧
  (∀ i : grid9.Coords, ∃ h : (∀ a, (cc9_transform_2 k9_off1_inb numel1_S1 pf i a + 1) * S1x1x64.size a ≤ S100000x1x64.size a), EltTy.bits .f32 = 32 ∨ (Rect.block (s := S100000x1x64) S1x1x64.size (cc9_transform_2 k9_off1_inb numel1_S1 pf i) h).WholeWords (EltTy.packing .f32)) ∧
  (∀ i : grid9.Coords, ∃ h : (∀ a, (cc9_transform_3 k9_off1_inb numel1_S1 pf i a + 1) * S1x1x64.size a ≤ S100000x1x64.size a), EltTy.bits .f32 = 32 ∨ (Rect.block (s := S100000x1x64) S1x1x64.size (cc9_transform_3 k9_off1_inb numel1_S1 pf i) h).WholeWords (EltTy.packing .f32))
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb9_4 | ⟨_ + 5, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx9_4 | ⟨_ + 5, h⟩ => absurd h (Nat.not_lt.2 (Nat.le_add_left _ _))
abbrev spec10_0 : Pipeline.WinSpec sig grid10.rank :=
  Pipeline.WinSpec.ofSpec (Memref.whole main_v8) S1x1x64.size reads10_0 false false 2 stage10_0 sem10_0 nbuf10_0 hstage10_0

abbrev spec10_1 : Pipeline.WinSpec sig grid10.rank :=
  Pipeline.WinSpec.ofSpec (Memref.whole main_v8) S1x1x64.size reads10_1 false false 2 stage10_1 sem10_1 nbuf10_1 hstage10_1

abbrev spec10_2 : Pipeline.WinSpec sig grid10.rank :=
  Pipeline.WinSpec.ofSpec (Memref.whole main_v8) S1x1x64.size reads10_2 false false 2 stage10_2 sem10_2 nbuf10_2 hstage10_2

abbrev spec10_3 : Pipeline.WinSpec sig grid10.rank :=
  Pipeline.WinSpec.ofSpec (Memref.whole main_v8) S1x1x64.size reads10_3 false false 2 stage10_3 sem10_3 nbuf10_3 hstage10_3

abbrev spec10_4 : Pipeline.WinSpec sig grid10.rank :=
  Pipeline.WinSpec.ofSpec (Memref.whole main_v63) S1x1x2.size reads10_4 true false 2 stage10_4 sem10_4 nbuf10_4 hstage10_4

abbrev spec10 : Fin 5 → Pipeline.WinSpec sig grid10.rank := fun | 0 => spec10_0 | 1 => spec10_1 | 2 => spec10_2 | 3 => spec10_3 | 4 => spec10_4 | ⟨_ + 5, h⟩ => absurd h (Nat.not_lt.2 (Nat.le_add_left _ _))
theorem hcount10 : ∀ w, grid10.bufCount (spec10 w).reads (spec10 w).sync = (spec10 w).nbuf := fun | 0 => nbuf10_0 | 1 => nbuf10_1 | 2 => nbuf10_2 | 3 => nbuf10_3 | 4 => nbuf10_4 | ⟨_ + 5, h⟩ => absurd h (Nat.not_lt.2 (Nat.le_add_left _ _))
abbrev ix10 (pf : pre10.Contents (Elt F)) : (w : Fin 5) → grid10.Coords → Fin (spec10 w).shape.rank → Nat := fun | 0 => cc10_transform_0 k10_off1_inb numel1_S1 pf | 1 => cc10_transform_1 k10_off1_inb numel1_S1 pf | 2 => cc10_transform_2 k10_off1_inb numel1_S1 pf | 3 => cc10_transform_3 k10_off1_inb numel1_S1 pf | 4 => cc10_transform_4 | ⟨_ + 5, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 pf | 1 => hreads10_1 pf | 2 => hreads10_2 pf | 3 => hreads10_3 pf | 4 => hreads10_4 | ⟨_ + 5, h⟩ => absurd h (Nat.not_lt.2 (Nat.le_add_left _ _))
def ok10 (pf : pre10.Contents (Elt F)) : Prop :=
  (∀ i : grid10.Coords, ∃ h : (∀ a, (cc10_transform_0 k10_off1_inb numel1_S1 pf i a + 1) * S1x1x64.size a ≤ S100000x1x64.size a), EltTy.bits .f32 = 32 ∨ (Rect.block (s := S100000x1x64) S1x1x64.size (cc10_transform_0 k10_off1_inb numel1_S1 pf i) h).WholeWords (EltTy.packing .f32)) ∧
  (∀ i : grid10.Coords, ∃ h : (∀ a, (cc10_transform_1 k10_off1_inb numel1_S1 pf i a + 1) * S1x1x64.size a ≤ S100000x1x64.size a), EltTy.bits .f32 = 32 ∨ (Rect.block (s := S100000x1x64) S1x1x64.size (cc10_transform_1 k10_off1_inb numel1_S1 pf i) h).WholeWords (EltTy.packing .f32)) ∧
  (∀ i : grid10.Coords, ∃ h : (∀ a, (cc10_transform_2 k10_off1_inb numel1_S1 pf i a + 1) * S1x1x64.size a ≤ S100000x1x64.size a), EltTy.bits .f32 = 32 ∨ (Rect.block (s := S100000x1x64) S1x1x64.size (cc10_transform_2 k10_off1_inb numel1_S1 pf i) h).WholeWords (EltTy.packing .f32)) ∧
  (∀ i : grid10.Coords, ∃ h : (∀ a, (cc10_transform_3 k10_off1_inb numel1_S1 pf i a + 1) * S1x1x64.size a ≤ S100000x1x64.size a), EltTy.bits .f32 = 32 ∨ (Rect.block (s := S100000x1x64) S1x1x64.size (cc10_transform_3 k10_off1_inb numel1_S1 pf i) h).WholeWords (EltTy.packing .f32))
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb10_4 | ⟨_ + 5, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx10_4 | ⟨_ + 5, h⟩ => absurd h (Nat.not_lt.2 (Nat.le_add_left _ _))
abbrev spec11_0 : Pipeline.WinSpec sig grid11.rank :=
  Pipeline.WinSpec.ofSpec (Memref.whole main_v8) S1x1x64.size reads11_0 false false 2 stage11_0 sem11_0 nbuf11_0 hstage11_0

abbrev spec11_1 : Pipeline.WinSpec sig grid11.rank :=
  Pipeline.WinSpec.ofSpec (Memref.whole main_v8) S1x1x64.size reads11_1 false false 2 stage11_1 sem11_1 nbuf11_1 hstage11_1

abbrev spec11_2 : Pipeline.WinSpec sig grid11.rank :=
  Pipeline.WinSpec.ofSpec (Memref.whole main_v8) S1x1x64.size reads11_2 false false 2 stage11_2 sem11_2 nbuf11_2 hstage11_2

abbrev spec11_3 : Pipeline.WinSpec sig grid11.rank :=
  Pipeline.WinSpec.ofSpec (Memref.whole main_v8) S1x1x64.size reads11_3 false false 2 stage11_3 sem11_3 nbuf11_3 hstage11_3

abbrev spec11_4 : Pipeline.WinSpec sig grid11.rank :=
  Pipeline.WinSpec.ofSpec (Memref.whole main_v68) S1x1x2.size reads11_4 true false 2 stage11_4 sem11_4 nbuf11_4 hstage11_4

abbrev spec11 : Fin 5 → Pipeline.WinSpec sig grid11.rank := fun | 0 => spec11_0 | 1 => spec11_1 | 2 => spec11_2 | 3 => spec11_3 | 4 => spec11_4 | ⟨_ + 5, h⟩ => absurd h (Nat.not_lt.2 (Nat.le_add_left _ _))
theorem hcount11 : ∀ w, grid11.bufCount (spec11 w).reads (spec11 w).sync = (spec11 w).nbuf := fun | 0 => nbuf11_0 | 1 => nbuf11_1 | 2 => nbuf11_2 | 3 => nbuf11_3 | 4 => nbuf11_4 | ⟨_ + 5, h⟩ => absurd h (Nat.not_lt.2 (Nat.le_add_left _ _))
abbrev ix11 (pf : pre11.Contents (Elt F)) : (w : Fin 5) → grid11.Coords → Fin (spec11 w).shape.rank → Nat := fun | 0 => cc11_transform_0 k11_off1_inb numel1_S1 pf | 1 => cc11_transform_1 k11_off1_inb numel1_S1 pf | 2 => cc11_transform_2 k11_off1_inb numel1_S1 pf | 3 => cc11_transform_3 k11_off1_inb numel1_S1 pf | 4 => cc11_transform_4 | ⟨_ + 5, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 pf | 1 => hreads11_1 pf | 2 => hreads11_2 pf | 3 => hreads11_3 pf | 4 => hreads11_4 | ⟨_ + 5, h⟩ => absurd h (Nat.not_lt.2 (Nat.le_add_left _ _))
def ok11 (pf : pre11.Contents (Elt F)) : Prop :=
  (∀ i : grid11.Coords, ∃ h : (∀ a, (cc11_transform_0 k11_off1_inb numel1_S1 pf i a + 1) * S1x1x64.size a ≤ S100000x1x64.size a), EltTy.bits .f32 = 32 ∨ (Rect.block (s := S100000x1x64) S1x1x64.size (cc11_transform_0 k11_off1_inb numel1_S1 pf i) h).WholeWords (EltTy.packing .f32)) ∧
  (∀ i : grid11.Coords, ∃ h : (∀ a, (cc11_transform_1 k11_off1_inb numel1_S1 pf i a + 1) * S1x1x64.size a ≤ S100000x1x64.size a), EltTy.bits .f32 = 32 ∨ (Rect.block (s := S100000x1x64) S1x1x64.size (cc11_transform_1 k11_off1_inb numel1_S1 pf i) h).WholeWords (EltTy.packing .f32)) ∧
  (∀ i : grid11.Coords, ∃ h : (∀ a, (cc11_transform_2 k11_off1_inb numel1_S1 pf i a + 1) * S1x1x64.size a ≤ S100000x1x64.size a), EltTy.bits .f32 = 32 ∨ (Rect.block (s := S100000x1x64) S1x1x64.size (cc11_transform_2 k11_off1_inb numel1_S1 pf i) h).WholeWords (EltTy.packing .f32)) ∧
  (∀ i : grid11.Coords, ∃ h : (∀ a, (cc11_transform_3 k11_off1_inb numel1_S1 pf i a + 1) * S1x1x64.size a ≤ S100000x1x64.size a), EltTy.bits .f32 = 32 ∨ (Rect.block (s := S100000x1x64) S1x1x64.size (cc11_transform_3 k11_off1_inb numel1_S1 pf i) h).WholeWords (EltTy.packing .f32))
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb11_4 | ⟨_ + 5, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx11_4 | ⟨_ + 5, h⟩ => absurd h (Nat.not_lt.2 (Nat.le_add_left _ _))
abbrev spec12_0 : Pipeline.WinSpec sig grid12.rank :=
  Pipeline.WinSpec.ofSpec (Memref.whole main_v8) S1x1x64.size reads12_0 false false 2 stage12_0 sem12_0 nbuf12_0 hstage12_0

abbrev spec12_1 : Pipeline.WinSpec sig grid12.rank :=
  Pipeline.WinSpec.ofSpec (Memref.whole main_v8) S1x1x64.size reads12_1 false false 2 stage12_1 sem12_1 nbuf12_1 hstage12_1

abbrev spec12_2 : Pipeline.WinSpec sig grid12.rank :=
  Pipeline.WinSpec.ofSpec (Memref.whole main_v8) S1x1x64.size reads12_2 false false 2 stage12_2 sem12_2 nbuf12_2 hstage12_2

abbrev spec12_3 : Pipeline.WinSpec sig grid12.rank :=
  Pipeline.WinSpec.ofSpec (Memref.whole main_v8) S1x1x64.size reads12_3 false false 2 stage12_3 sem12_3 nbuf12_3 hstage12_3

abbrev spec12_4 : Pipeline.WinSpec sig grid12.rank :=
  Pipeline.WinSpec.ofSpec (Memref.whole main_v73) S1x1x2.size reads12_4 true false 2 stage12_4 sem12_4 nbuf12_4 hstage12_4

abbrev spec12 : Fin 5 → Pipeline.WinSpec sig grid12.rank := fun | 0 => spec12_0 | 1 => spec12_1 | 2 => spec12_2 | 3 => spec12_3 | 4 => spec12_4 | ⟨_ + 5, h⟩ => absurd h (Nat.not_lt.2 (Nat.le_add_left _ _))
theorem hcount12 : ∀ w, grid12.bufCount (spec12 w).reads (spec12 w).sync = (spec12 w).nbuf := fun | 0 => nbuf12_0 | 1 => nbuf12_1 | 2 => nbuf12_2 | 3 => nbuf12_3 | 4 => nbuf12_4 | ⟨_ + 5, h⟩ => absurd h (Nat.not_lt.2 (Nat.le_add_left _ _))
abbrev ix12 (pf : pre12.Contents (Elt F)) : (w : Fin 5) → grid12.Coords → Fin (spec12 w).shape.rank → Nat := fun | 0 => cc12_transform_0 k12_off1_inb numel1_S1 pf | 1 => cc12_transform_1 k12_off1_inb numel1_S1 pf | 2 => cc12_transform_2 k12_off1_inb numel1_S1 pf | 3 => cc12_transform_3 k12_off1_inb numel1_S1 pf | 4 => cc12_transform_4 | ⟨_ + 5, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 pf | 1 => hreads12_1 pf | 2 => hreads12_2 pf | 3 => hreads12_3 pf | 4 => hreads12_4 | ⟨_ + 5, h⟩ => absurd h (Nat.not_lt.2 (Nat.le_add_left _ _))
def ok12 (pf : pre12.Contents (Elt F)) : Prop :=
  (∀ i : grid12.Coords, ∃ h : (∀ a, (cc12_transform_0 k12_off1_inb numel1_S1 pf i a + 1) * S1x1x64.size a ≤ S100000x1x64.size a), EltTy.bits .f32 = 32 ∨ (Rect.block (s := S100000x1x64) S1x1x64.size (cc12_transform_0 k12_off1_inb numel1_S1 pf i) h).WholeWords (EltTy.packing .f32)) ∧
  (∀ i : grid12.Coords, ∃ h : (∀ a, (cc12_transform_1 k12_off1_inb numel1_S1 pf i a + 1) * S1x1x64.size a ≤ S100000x1x64.size a), EltTy.bits .f32 = 32 ∨ (Rect.block (s := S100000x1x64) S1x1x64.size (cc12_transform_1 k12_off1_inb numel1_S1 pf i) h).WholeWords (EltTy.packing .f32)) ∧
  (∀ i : grid12.Coords, ∃ h : (∀ a, (cc12_transform_2 k12_off1_inb numel1_S1 pf i a + 1) * S1x1x64.size a ≤ S100000x1x64.size a), EltTy.bits .f32 = 32 ∨ (Rect.block (s := S100000x1x64) S1x1x64.size (cc12_transform_2 k12_off1_inb numel1_S1 pf i) h).WholeWords (EltTy.packing .f32)) ∧
  (∀ i : grid12.Coords, ∃ h : (∀ a, (cc12_transform_3 k12_off1_inb numel1_S1 pf i a + 1) * S1x1x64.size a ≤ S100000x1x64.size a), EltTy.bits .f32 = 32 ∨ (Rect.block (s := S100000x1x64) S1x1x64.size (cc12_transform_3 k12_off1_inb numel1_S1 pf i) h).WholeWords (EltTy.packing .f32))
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb12_4 | ⟨_ + 5, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx12_4 | ⟨_ + 5, h⟩ => absurd h (Nat.not_lt.2 (Nat.le_add_left _ _))
abbrev spec13_0 : Pipeline.WinSpec sig grid13.rank :=
  Pipeline.WinSpec.ofSpec (Memref.whole main_v8) S1x1x64.size reads13_0 false false 2 stage13_0 sem13_0 nbuf13_0 hstage13_0

abbrev spec13_1 : Pipeline.WinSpec sig grid13.rank :=
  Pipeline.WinSpec.ofSpec (Memref.whole main_v8) S1x1x64.size reads13_1 false false 2 stage13_1 sem13_1 nbuf13_1 hstage13_1

abbrev spec13_2 : Pipeline.WinSpec sig grid13.rank :=
  Pipeline.WinSpec.ofSpec (Memref.whole main_v8) S1x1x64.size reads13_2 false false 2 stage13_2 sem13_2 nbuf13_2 hstage13_2

abbrev spec13_3 : Pipeline.WinSpec sig grid13.rank :=
  Pipeline.WinSpec.ofSpec (Memref.whole main_v8) S1x1x64.size reads13_3 false false 2 stage13_3 sem13_3 nbuf13_3 hstage13_3

abbrev spec13_4 : Pipeline.WinSpec sig grid13.rank :=
  Pipeline.WinSpec.ofSpec (Memref.whole main_v78) S1x1x2.size reads13_4 true false 2 stage13_4 sem13_4 nbuf13_4 hstage13_4

abbrev spec13 : Fin 5 → Pipeline.WinSpec sig grid13.rank := fun | 0 => spec13_0 | 1 => spec13_1 | 2 => spec13_2 | 3 => spec13_3 | 4 => spec13_4 | ⟨_ + 5, h⟩ => absurd h (Nat.not_lt.2 (Nat.le_add_left _ _))
theorem hcount13 : ∀ w, grid13.bufCount (spec13 w).reads (spec13 w).sync = (spec13 w).nbuf := fun | 0 => nbuf13_0 | 1 => nbuf13_1 | 2 => nbuf13_2 | 3 => nbuf13_3 | 4 => nbuf13_4 | ⟨_ + 5, h⟩ => absurd h (Nat.not_lt.2 (Nat.le_add_left _ _))
abbrev ix13 (pf : pre13.Contents (Elt F)) : (w : Fin 5) → grid13.Coords → Fin (spec13 w).shape.rank → Nat := fun | 0 => cc13_transform_0 k13_off1_inb numel1_S1 pf | 1 => cc13_transform_1 k13_off1_inb numel1_S1 pf | 2 => cc13_transform_2 k13_off1_inb numel1_S1 pf | 3 => cc13_transform_3 k13_off1_inb numel1_S1 pf | 4 => cc13_transform_4 | ⟨_ + 5, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 pf | 1 => hreads13_1 pf | 2 => hreads13_2 pf | 3 => hreads13_3 pf | 4 => hreads13_4 | ⟨_ + 5, h⟩ => absurd h (Nat.not_lt.2 (Nat.le_add_left _ _))
def ok13 (pf : pre13.Contents (Elt F)) : Prop :=
  (∀ i : grid13.Coords, ∃ h : (∀ a, (cc13_transform_0 k13_off1_inb numel1_S1 pf i a + 1) * S1x1x64.size a ≤ S100000x1x64.size a), EltTy.bits .f32 = 32 ∨ (Rect.block (s := S100000x1x64) S1x1x64.size (cc13_transform_0 k13_off1_inb numel1_S1 pf i) h).WholeWords (EltTy.packing .f32)) ∧
  (∀ i : grid13.Coords, ∃ h : (∀ a, (cc13_transform_1 k13_off1_inb numel1_S1 pf i a + 1) * S1x1x64.size a ≤ S100000x1x64.size a), EltTy.bits .f32 = 32 ∨ (Rect.block (s := S100000x1x64) S1x1x64.size (cc13_transform_1 k13_off1_inb numel1_S1 pf i) h).WholeWords (EltTy.packing .f32)) ∧
  (∀ i : grid13.Coords, ∃ h : (∀ a, (cc13_transform_2 k13_off1_inb numel1_S1 pf i a + 1) * S1x1x64.size a ≤ S100000x1x64.size a), EltTy.bits .f32 = 32 ∨ (Rect.block (s := S100000x1x64) S1x1x64.size (cc13_transform_2 k13_off1_inb numel1_S1 pf i) h).WholeWords (EltTy.packing .f32)) ∧
  (∀ i : grid13.Coords, ∃ h : (∀ a, (cc13_transform_3 k13_off1_inb numel1_S1 pf i a + 1) * S1x1x64.size a ≤ S100000x1x64.size a), EltTy.bits .f32 = 32 ∨ (Rect.block (s := S100000x1x64) S1x1x64.size (cc13_transform_3 k13_off1_inb numel1_S1 pf i) h).WholeWords (EltTy.packing .f32))
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb13_4 | ⟨_ + 5, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx13_4 | ⟨_ + 5, h⟩ => absurd h (Nat.not_lt.2 (Nat.le_add_left _ _))
abbrev spec14_0 : Pipeline.WinSpec sig grid14.rank :=
  Pipeline.WinSpec.ofSpec (Memref.whole main_v8) S1x1x64.size reads14_0 false false 2 stage14_0 sem14_0 nbuf14_0 hstage14_0

abbrev spec14_1 : Pipeline.WinSpec sig grid14.rank :=
  Pipeline.WinSpec.ofSpec (Memref.whole main_v8) S1x1x64.size reads14_1 false false 2 stage14_1 sem14_1 nbuf14_1 hstage14_1

abbrev spec14_2 : Pipeline.WinSpec sig grid14.rank :=
  Pipeline.WinSpec.ofSpec (Memref.whole main_v8) S1x1x64.size reads14_2 false false 2 stage14_2 sem14_2 nbuf14_2 hstage14_2

abbrev spec14_3 : Pipeline.WinSpec sig grid14.rank :=
  Pipeline.WinSpec.ofSpec (Memref.whole main_v8) S1x1x64.size reads14_3 false false 2 stage14_3 sem14_3 nbuf14_3 hstage14_3

abbrev spec14_4 : Pipeline.WinSpec sig grid14.rank :=
  Pipeline.WinSpec.ofSpec (Memref.whole main_v83) S1x1x2.size reads14_4 true false 2 stage14_4 sem14_4 nbuf14_4 hstage14_4

abbrev spec14 : Fin 5 → Pipeline.WinSpec sig grid14.rank := fun | 0 => spec14_0 | 1 => spec14_1 | 2 => spec14_2 | 3 => spec14_3 | 4 => spec14_4 | ⟨_ + 5, h⟩ => absurd h (Nat.not_lt.2 (Nat.le_add_left _ _))
theorem hcount14 : ∀ w, grid14.bufCount (spec14 w).reads (spec14 w).sync = (spec14 w).nbuf := fun | 0 => nbuf14_0 | 1 => nbuf14_1 | 2 => nbuf14_2 | 3 => nbuf14_3 | 4 => nbuf14_4 | ⟨_ + 5, h⟩ => absurd h (Nat.not_lt.2 (Nat.le_add_left _ _))
abbrev ix14 (pf : pre14.Contents (Elt F)) : (w : Fin 5) → grid14.Coords → Fin (spec14 w).shape.rank → Nat := fun | 0 => cc14_transform_0 k14_off1_inb numel1_S1 pf | 1 => cc14_transform_1 k14_off1_inb numel1_S1 pf | 2 => cc14_transform_2 k14_off1_inb numel1_S1 pf | 3 => cc14_transform_3 k14_off1_inb numel1_S1 pf | 4 => cc14_transform_4 | ⟨_ + 5, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 pf | 1 => hreads14_1 pf | 2 => hreads14_2 pf | 3 => hreads14_3 pf | 4 => hreads14_4 | ⟨_ + 5, h⟩ => absurd h (Nat.not_lt.2 (Nat.le_add_left _ _))
def ok14 (pf : pre14.Contents (Elt F)) : Prop :=
  (∀ i : grid14.Coords, ∃ h : (∀ a, (cc14_transform_0 k14_off1_inb numel1_S1 pf i a + 1) * S1x1x64.size a ≤ S100000x1x64.size a), EltTy.bits .f32 = 32 ∨ (Rect.block (s := S100000x1x64) S1x1x64.size (cc14_transform_0 k14_off1_inb numel1_S1 pf i) h).WholeWords (EltTy.packing .f32)) ∧
  (∀ i : grid14.Coords, ∃ h : (∀ a, (cc14_transform_1 k14_off1_inb numel1_S1 pf i a + 1) * S1x1x64.size a ≤ S100000x1x64.size a), EltTy.bits .f32 = 32 ∨ (Rect.block (s := S100000x1x64) S1x1x64.size (cc14_transform_1 k14_off1_inb numel1_S1 pf i) h).WholeWords (EltTy.packing .f32)) ∧
  (∀ i : grid14.Coords, ∃ h : (∀ a, (cc14_transform_2 k14_off1_inb numel1_S1 pf i a + 1) * S1x1x64.size a ≤ S100000x1x64.size a), EltTy.bits .f32 = 32 ∨ (Rect.block (s := S100000x1x64) S1x1x64.size (cc14_transform_2 k14_off1_inb numel1_S1 pf i) h).WholeWords (EltTy.packing .f32)) ∧
  (∀ i : grid14.Coords, ∃ h : (∀ a, (cc14_transform_3 k14_off1_inb numel1_S1 pf i a + 1) * S1x1x64.size a ≤ S100000x1x64.size a), EltTy.bits .f32 = 32 ∨ (Rect.block (s := S100000x1x64) S1x1x64.size (cc14_transform_3 k14_off1_inb numel1_S1 pf i) h).WholeWords (EltTy.packing .f32))
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb14_4 | ⟨_ + 5, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx14_4 | ⟨_ + 5, h⟩ => absurd h (Nat.not_lt.2 (Nat.le_add_left _ _))
abbrev spec15_0 : Pipeline.WinSpec sig grid15.rank :=
  Pipeline.WinSpec.ofSpec (Memref.whole main_v8) S1x1x64.size reads15_0 false false 2 stage15_0 sem15_0 nbuf15_0 hstage15_0

abbrev spec15_1 : Pipeline.WinSpec sig grid15.rank :=
  Pipeline.WinSpec.ofSpec (Memref.whole main_v8) S1x1x64.size reads15_1 false false 2 stage15_1 sem15_1 nbuf15_1 hstage15_1

abbrev spec15_2 : Pipeline.WinSpec sig grid15.rank :=
  Pipeline.WinSpec.ofSpec (Memref.whole main_v8) S1x1x64.size reads15_2 false false 2 stage15_2 sem15_2 nbuf15_2 hstage15_2

abbrev spec15_3 : Pipeline.WinSpec sig grid15.rank :=
  Pipeline.WinSpec.ofSpec (Memref.whole main_v8) S1x1x64.size reads15_3 false false 2 stage15_3 sem15_3 nbuf15_3 hstage15_3

abbrev spec15_4 : Pipeline.WinSpec sig grid15.rank :=
  Pipeline.WinSpec.ofSpec (Memref.whole main_v88) S1x1x2.size reads15_4 true false 2 stage15_4 sem15_4 nbuf15_4 hstage15_4

abbrev spec15 : Fin 5 → Pipeline.WinSpec sig grid15.rank := fun | 0 => spec15_0 | 1 => spec15_1 | 2 => spec15_2 | 3 => spec15_3 | 4 => spec15_4 | ⟨_ + 5, h⟩ => absurd h (Nat.not_lt.2 (Nat.le_add_left _ _))
theorem hcount15 : ∀ w, grid15.bufCount (spec15 w).reads (spec15 w).sync = (spec15 w).nbuf := fun | 0 => nbuf15_0 | 1 => nbuf15_1 | 2 => nbuf15_2 | 3 => nbuf15_3 | 4 => nbuf15_4 | ⟨_ + 5, h⟩ => absurd h (Nat.not_lt.2 (Nat.le_add_left _ _))
abbrev ix15 (pf : pre15.Contents (Elt F)) : (w : Fin 5) → grid15.Coords → Fin (spec15 w).shape.rank → Nat := fun | 0 => cc15_transform_0 k15_off1_inb numel1_S1 pf | 1 => cc15_transform_1 k15_off1_inb numel1_S1 pf | 2 => cc15_transform_2 k15_off1_inb numel1_S1 pf | 3 => cc15_transform_3 k15_off1_inb numel1_S1 pf | 4 => cc15_transform_4 | ⟨_ + 5, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 pf | 1 => hreads15_1 pf | 2 => hreads15_2 pf | 3 => hreads15_3 pf | 4 => hreads15_4 | ⟨_ + 5, h⟩ => absurd h (Nat.not_lt.2 (Nat.le_add_left _ _))
def ok15 (pf : pre15.Contents (Elt F)) : Prop :=
  (∀ i : grid15.Coords, ∃ h : (∀ a, (cc15_transform_0 k15_off1_inb numel1_S1 pf i a + 1) * S1x1x64.size a ≤ S100000x1x64.size a), EltTy.bits .f32 = 32 ∨ (Rect.block (s := S100000x1x64) S1x1x64.size (cc15_transform_0 k15_off1_inb numel1_S1 pf i) h).WholeWords (EltTy.packing .f32)) ∧
  (∀ i : grid15.Coords, ∃ h : (∀ a, (cc15_transform_1 k15_off1_inb numel1_S1 pf i a + 1) * S1x1x64.size a ≤ S100000x1x64.size a), EltTy.bits .f32 = 32 ∨ (Rect.block (s := S100000x1x64) S1x1x64.size (cc15_transform_1 k15_off1_inb numel1_S1 pf i) h).WholeWords (EltTy.packing .f32)) ∧
  (∀ i : grid15.Coords, ∃ h : (∀ a, (cc15_transform_2 k15_off1_inb numel1_S1 pf i a + 1) * S1x1x64.size a ≤ S100000x1x64.size a), EltTy.bits .f32 = 32 ∨ (Rect.block (s := S100000x1x64) S1x1x64.size (cc15_transform_2 k15_off1_inb numel1_S1 pf i) h).WholeWords (EltTy.packing .f32)) ∧
  (∀ i : grid15.Coords, ∃ h : (∀ a, (cc15_transform_3 k15_off1_inb numel1_S1 pf i a + 1) * S1x1x64.size a ≤ S100000x1x64.size a), EltTy.bits .f32 = 32 ∨ (Rect.block (s := S100000x1x64) S1x1x64.size (cc15_transform_3 k15_off1_inb numel1_S1 pf i) h).WholeWords (EltTy.packing .f32))
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb15_4 | ⟨_ + 5, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx15_4 | ⟨_ + 5, h⟩ => absurd h (Nat.not_lt.2 (Nat.le_add_left _ _))
abbrev spec16_0 : Pipeline.WinSpec sig grid16.rank :=
  Pipeline.WinSpec.ofSpec (Memref.whole main_v8) S1x1x64.size reads16_0 false false 2 stage16_0 sem16_0 nbuf16_0 hstage16_0

abbrev spec16_1 : Pipeline.WinSpec sig grid16.rank :=
  Pipeline.WinSpec.ofSpec (Memref.whole main_v8) S1x1x64.size reads16_1 false false 2 stage16_1 sem16_1 nbuf16_1 hstage16_1

abbrev spec16_2 : Pipeline.WinSpec sig grid16.rank :=
  Pipeline.WinSpec.ofSpec (Memref.whole main_v8) S1x1x64.size reads16_2 false false 2 stage16_2 sem16_2 nbuf16_2 hstage16_2

abbrev spec16_3 : Pipeline.WinSpec sig grid16.rank :=
  Pipeline.WinSpec.ofSpec (Memref.whole main_v8) S1x1x64.size reads16_3 false false 2 stage16_3 sem16_3 nbuf16_3 hstage16_3

abbrev spec16_4 : Pipeline.WinSpec sig grid16.rank :=
  Pipeline.WinSpec.ofSpec (Memref.whole main_v93) S1x1x2.size reads16_4 true false 2 stage16_4 sem16_4 nbuf16_4 hstage16_4

abbrev spec16 : Fin 5 → Pipeline.WinSpec sig grid16.rank := fun | 0 => spec16_0 | 1 => spec16_1 | 2 => spec16_2 | 3 => spec16_3 | 4 => spec16_4 | ⟨_ + 5, h⟩ => absurd h (Nat.not_lt.2 (Nat.le_add_left _ _))
theorem hcount16 : ∀ w, grid16.bufCount (spec16 w).reads (spec16 w).sync = (spec16 w).nbuf := fun | 0 => nbuf16_0 | 1 => nbuf16_1 | 2 => nbuf16_2 | 3 => nbuf16_3 | 4 => nbuf16_4 | ⟨_ + 5, h⟩ => absurd h (Nat.not_lt.2 (Nat.le_add_left _ _))
abbrev ix16 (pf : pre16.Contents (Elt F)) : (w : Fin 5) → grid16.Coords → Fin (spec16 w).shape.rank → Nat := fun | 0 => cc16_transform_0 k16_off1_inb numel1_S1 pf | 1 => cc16_transform_1 k16_off1_inb numel1_S1 pf | 2 => cc16_transform_2 k16_off1_inb numel1_S1 pf | 3 => cc16_transform_3 k16_off1_inb numel1_S1 pf | 4 => cc16_transform_4 | ⟨_ + 5, h⟩ => absurd h (Nat.not_lt.2 (Nat.le_add_left _ _))
theorem hreads16 : ∀ (pf : pre16.Contents (Elt F)) w (i i' : grid16.Coords), (∀ a, (spec16 w).reads a = true → i a = i' a) → ix16 pf w i = ix16 pf w i' := fun pf => fun | 0 => hreads16_0 pf | 1 => hreads16_1 pf | 2 => hreads16_2 pf | 3 => hreads16_3 pf | 4 => hreads16_4 | ⟨_ + 5, h⟩ => absurd h (Nat.not_lt.2 (Nat.le_add_left _ _))
def ok16 (pf : pre16.Contents (Elt F)) : Prop :=
  (∀ i : grid16.Coords, ∃ h : (∀ a, (cc16_transform_0 k16_off1_inb numel1_S1 pf i a + 1) * S1x1x64.size a ≤ S100000x1x64.size a), EltTy.bits .f32 = 32 ∨ (Rect.block (s := S100000x1x64) S1x1x64.size (cc16_transform_0 k16_off1_inb numel1_S1 pf i) h).WholeWords (EltTy.packing .f32)) ∧
  (∀ i : grid16.Coords, ∃ h : (∀ a, (cc16_transform_1 k16_off1_inb numel1_S1 pf i a + 1) * S1x1x64.size a ≤ S100000x1x64.size a), EltTy.bits .f32 = 32 ∨ (Rect.block (s := S100000x1x64) S1x1x64.size (cc16_transform_1 k16_off1_inb numel1_S1 pf i) h).WholeWords (EltTy.packing .f32)) ∧
  (∀ i : grid16.Coords, ∃ h : (∀ a, (cc16_transform_2 k16_off1_inb numel1_S1 pf i a + 1) * S1x1x64.size a ≤ S100000x1x64.size a), EltTy.bits .f32 = 32 ∨ (Rect.block (s := S100000x1x64) S1x1x64.size (cc16_transform_2 k16_off1_inb numel1_S1 pf i) h).WholeWords (EltTy.packing .f32)) ∧
  (∀ i : grid16.Coords, ∃ h : (∀ a, (cc16_transform_3 k16_off1_inb numel1_S1 pf i a + 1) * S1x1x64.size a ≤ S100000x1x64.size a), EltTy.bits .f32 = 32 ∨ (Rect.block (s := S100000x1x64) S1x1x64.size (cc16_transform_3 k16_off1_inb numel1_S1 pf i) h).WholeWords (EltTy.packing .f32))
instance (pf : pre16.Contents (Elt F)) : Decidable (ok16 pf) := decidable_of_iff' _ (Iff.of_eq (ok16.eq_1 pf))
theorem hinb16 : ∀ (pf : pre16.Contents (Elt F)), ok16 pf → ∀ w (i : grid16.Coords) a, (ix16 pf w i a + 1) * (spec16 w).size a ≤ (spec16 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb16_4 | ⟨_ + 5, h⟩ => absurd h (Nat.not_lt.2 (Nat.le_add_left _ _))
theorem hwx16 : ∀ (pf : pre16.Contents (Elt F)) (hok : ok16 pf) w (i : grid16.Coords), (spec16 w).elt.bits = 32 ∨ (Rect.block (spec16 w).size (ix16 pf w i) (hinb16 pf hok w i)).WholeWords (spec16 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx16_4 | ⟨_ + 5, h⟩ => absurd h (Nat.not_lt.2 (Nat.le_add_left _ _))
abbrev spec17_0 : Pipeline.WinSpec sig grid17.rank :=
  Pipeline.WinSpec.ofSpec (Memref.whole main_v8) S1x1x64.size reads17_0 false false 2 stage17_0 sem17_0 nbuf17_0 hstage17_0

abbrev spec17_1 : Pipeline.WinSpec sig grid17.rank :=
  Pipeline.WinSpec.ofSpec (Memref.whole main_v8) S1x1x64.size reads17_1 false false 2 stage17_1 sem17_1 nbuf17_1 hstage17_1

abbrev spec17_2 : Pipeline.WinSpec sig grid17.rank :=
  Pipeline.WinSpec.ofSpec (Memref.whole main_v8) S1x1x64.size reads17_2 false false 2 stage17_2 sem17_2 nbuf17_2 hstage17_2

abbrev spec17_3 : Pipeline.WinSpec sig grid17.rank :=
  Pipeline.WinSpec.ofSpec (Memref.whole main_v8) S1x1x64.size reads17_3 false false 2 stage17_3 sem17_3 nbuf17_3 hstage17_3

abbrev spec17_4 : Pipeline.WinSpec sig grid17.rank :=
  Pipeline.WinSpec.ofSpec (Memref.whole main_v98) S1x1x2.size reads17_4 true false 2 stage17_4 sem17_4 nbuf17_4 hstage17_4

abbrev spec17 : Fin 5 → Pipeline.WinSpec sig grid17.rank := fun | 0 => spec17_0 | 1 => spec17_1 | 2 => spec17_2 | 3 => spec17_3 | 4 => spec17_4 | ⟨_ + 5, h⟩ => absurd h (Nat.not_lt.2 (Nat.le_add_left _ _))
theorem hcount17 : ∀ w, grid17.bufCount (spec17 w).reads (spec17 w).sync = (spec17 w).nbuf := fun | 0 => nbuf17_0 | 1 => nbuf17_1 | 2 => nbuf17_2 | 3 => nbuf17_3 | 4 => nbuf17_4 | ⟨_ + 5, h⟩ => absurd h (Nat.not_lt.2 (Nat.le_add_left _ _))
abbrev ix17 (pf : pre17.Contents (Elt F)) : (w : Fin 5) → grid17.Coords → Fin (spec17 w).shape.rank → Nat := fun | 0 => cc17_transform_0 k17_off1_inb numel1_S1 pf | 1 => cc17_transform_1 k17_off1_inb numel1_S1 pf | 2 => cc17_transform_2 k17_off1_inb numel1_S1 pf | 3 => cc17_transform_3 k17_off1_inb numel1_S1 pf | 4 => cc17_transform_4 | ⟨_ + 5, h⟩ => absurd h (Nat.not_lt.2 (Nat.le_add_left _ _))
theorem hreads17 : ∀ (pf : pre17.Contents (Elt F)) w (i i' : grid17.Coords), (∀ a, (spec17 w).reads a = true → i a = i' a) → ix17 pf w i = ix17 pf w i' := fun pf => fun | 0 => hreads17_0 pf | 1 => hreads17_1 pf | 2 => hreads17_2 pf | 3 => hreads17_3 pf | 4 => hreads17_4 | ⟨_ + 5, h⟩ => absurd h (Nat.not_lt.2 (Nat.le_add_left _ _))
def ok17 (pf : pre17.Contents (Elt F)) : Prop :=
  (∀ i : grid17.Coords, ∃ h : (∀ a, (cc17_transform_0 k17_off1_inb numel1_S1 pf i a + 1) * S1x1x64.size a ≤ S100000x1x64.size a), EltTy.bits .f32 = 32 ∨ (Rect.block (s := S100000x1x64) S1x1x64.size (cc17_transform_0 k17_off1_inb numel1_S1 pf i) h).WholeWords (EltTy.packing .f32)) ∧
  (∀ i : grid17.Coords, ∃ h : (∀ a, (cc17_transform_1 k17_off1_inb numel1_S1 pf i a + 1) * S1x1x64.size a ≤ S100000x1x64.size a), EltTy.bits .f32 = 32 ∨ (Rect.block (s := S100000x1x64) S1x1x64.size (cc17_transform_1 k17_off1_inb numel1_S1 pf i) h).WholeWords (EltTy.packing .f32)) ∧
  (∀ i : grid17.Coords, ∃ h : (∀ a, (cc17_transform_2 k17_off1_inb numel1_S1 pf i a + 1) * S1x1x64.size a ≤ S100000x1x64.size a), EltTy.bits .f32 = 32 ∨ (Rect.block (s := S100000x1x64) S1x1x64.size (cc17_transform_2 k17_off1_inb numel1_S1 pf i) h).WholeWords (EltTy.packing .f32)) ∧
  (∀ i : grid17.Coords, ∃ h : (∀ a, (cc17_transform_3 k17_off1_inb numel1_S1 pf i a + 1) * S1x1x64.size a ≤ S100000x1x64.size a), EltTy.bits .f32 = 32 ∨ (Rect.block (s := S100000x1x64) S1x1x64.size (cc17_transform_3 k17_off1_inb numel1_S1 pf i) h).WholeWords (EltTy.packing .f32))
instance (pf : pre17.Contents (Elt F)) : Decidable (ok17 pf) := decidable_of_iff' _ (Iff.of_eq (ok17.eq_1 pf))
theorem hinb17 : ∀ (pf : pre17.Contents (Elt F)), ok17 pf → ∀ w (i : grid17.Coords) a, (ix17 pf w i a + 1) * (spec17 w).size a ≤ (spec17 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb17_4 | ⟨_ + 5, h⟩ => absurd h (Nat.not_lt.2 (Nat.le_add_left _ _))
theorem hwx17 : ∀ (pf : pre17.Contents (Elt F)) (hok : ok17 pf) w (i : grid17.Coords), (spec17 w).elt.bits = 32 ∨ (Rect.block (spec17 w).size (ix17 pf w i) (hinb17 pf hok w i)).WholeWords (spec17 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx17_4 | ⟨_ + 5, h⟩ => absurd h (Nat.not_lt.2 (Nat.le_add_left _ _))
abbrev spec18_0 : Pipeline.WinSpec sig grid18.rank :=
  Pipeline.WinSpec.ofSpec (Memref.whole main_v8) S1x1x64.size reads18_0 false false 2 stage18_0 sem18_0 nbuf18_0 hstage18_0

abbrev spec18_1 : Pipeline.WinSpec sig grid18.rank :=
  Pipeline.WinSpec.ofSpec (Memref.whole main_v8) S1x1x64.size reads18_1 false false 2 stage18_1 sem18_1 nbuf18_1 hstage18_1

abbrev spec18_2 : Pipeline.WinSpec sig grid18.rank :=
  Pipeline.WinSpec.ofSpec (Memref.whole main_v8) S1x1x64.size reads18_2 false false 2 stage18_2 sem18_2 nbuf18_2 hstage18_2

abbrev spec18_3 : Pipeline.WinSpec sig grid18.rank :=
  Pipeline.WinSpec.ofSpec (Memref.whole main_v8) S1x1x64.size reads18_3 false false 2 stage18_3 sem18_3 nbuf18_3 hstage18_3

abbrev spec18_4 : Pipeline.WinSpec sig grid18.rank :=
  Pipeline.WinSpec.ofSpec (Memref.whole main_v103) S1x1x2.size reads18_4 true false 2 stage18_4 sem18_4 nbuf18_4 hstage18_4

abbrev spec18 : Fin 5 → Pipeline.WinSpec sig grid18.rank := fun | 0 => spec18_0 | 1 => spec18_1 | 2 => spec18_2 | 3 => spec18_3 | 4 => spec18_4 | ⟨_ + 5, h⟩ => absurd h (Nat.not_lt.2 (Nat.le_add_left _ _))
theorem hcount18 : ∀ w, grid18.bufCount (spec18 w).reads (spec18 w).sync = (spec18 w).nbuf := fun | 0 => nbuf18_0 | 1 => nbuf18_1 | 2 => nbuf18_2 | 3 => nbuf18_3 | 4 => nbuf18_4 | ⟨_ + 5, h⟩ => absurd h (Nat.not_lt.2 (Nat.le_add_left _ _))
abbrev ix18 (pf : pre18.Contents (Elt F)) : (w : Fin 5) → grid18.Coords → Fin (spec18 w).shape.rank → Nat := fun | 0 => cc18_transform_0 k18_off1_inb numel1_S1 pf | 1 => cc18_transform_1 k18_off1_inb numel1_S1 pf | 2 => cc18_transform_2 k18_off1_inb numel1_S1 pf | 3 => cc18_transform_3 k18_off1_inb numel1_S1 pf | 4 => cc18_transform_4 | ⟨_ + 5, h⟩ => absurd h (Nat.not_lt.2 (Nat.le_add_left _ _))
theorem hreads18 : ∀ (pf : pre18.Contents (Elt F)) w (i i' : grid18.Coords), (∀ a, (spec18 w).reads a = true → i a = i' a) → ix18 pf w i = ix18 pf w i' := fun pf => fun | 0 => hreads18_0 pf | 1 => hreads18_1 pf | 2 => hreads18_2 pf | 3 => hreads18_3 pf | 4 => hreads18_4 | ⟨_ + 5, h⟩ => absurd h (Nat.not_lt.2 (Nat.le_add_left _ _))
def ok18 (pf : pre18.Contents (Elt F)) : Prop :=
  (∀ i : grid18.Coords, ∃ h : (∀ a, (cc18_transform_0 k18_off1_inb numel1_S1 pf i a + 1) * S1x1x64.size a ≤ S100000x1x64.size a), EltTy.bits .f32 = 32 ∨ (Rect.block (s := S100000x1x64) S1x1x64.size (cc18_transform_0 k18_off1_inb numel1_S1 pf i) h).WholeWords (EltTy.packing .f32)) ∧
  (∀ i : grid18.Coords, ∃ h : (∀ a, (cc18_transform_1 k18_off1_inb numel1_S1 pf i a + 1) * S1x1x64.size a ≤ S100000x1x64.size a), EltTy.bits .f32 = 32 ∨ (Rect.block (s := S100000x1x64) S1x1x64.size (cc18_transform_1 k18_off1_inb numel1_S1 pf i) h).WholeWords (EltTy.packing .f32)) ∧
  (∀ i : grid18.Coords, ∃ h : (∀ a, (cc18_transform_2 k18_off1_inb numel1_S1 pf i a + 1) * S1x1x64.size a ≤ S100000x1x64.size a), EltTy.bits .f32 = 32 ∨ (Rect.block (s := S100000x1x64) S1x1x64.size (cc18_transform_2 k18_off1_inb numel1_S1 pf i) h).WholeWords (EltTy.packing .f32)) ∧
  (∀ i : grid18.Coords, ∃ h : (∀ a, (cc18_transform_3 k18_off1_inb numel1_S1 pf i a + 1) * S1x1x64.size a ≤ S100000x1x64.size a), EltTy.bits .f32 = 32 ∨ (Rect.block (s := S100000x1x64) S1x1x64.size (cc18_transform_3 k18_off1_inb numel1_S1 pf i) h).WholeWords (EltTy.packing .f32))
instance (pf : pre18.Contents (Elt F)) : Decidable (ok18 pf) := decidable_of_iff' _ (Iff.of_eq (ok18.eq_1 pf))
theorem hinb18 : ∀ (pf : pre18.Contents (Elt F)), ok18 pf → ∀ w (i : grid18.Coords) a, (ix18 pf w i a + 1) * (spec18 w).size a ≤ (spec18 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb18_4 | ⟨_ + 5, h⟩ => absurd h (Nat.not_lt.2 (Nat.le_add_left _ _))
theorem hwx18 : ∀ (pf : pre18.Contents (Elt F)) (hok : ok18 pf) w (i : grid18.Coords), (spec18 w).elt.bits = 32 ∨ (Rect.block (spec18 w).size (ix18 pf w i) (hinb18 pf hok w i)).WholeWords (spec18 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx18_4 | ⟨_ + 5, h⟩ => absurd h (Nat.not_lt.2 (Nat.le_add_left _ _))
abbrev spec19_0 : Pipeline.WinSpec sig grid19.rank :=
  Pipeline.WinSpec.ofSpec (Memref.whole main_v8) S1x1x64.size reads19_0 false false 2 stage19_0 sem19_0 nbuf19_0 hstage19_0

abbrev spec19_1 : Pipeline.WinSpec sig grid19.rank :=
  Pipeline.WinSpec.ofSpec (Memref.whole main_v8) S1x1x64.size reads19_1 false false 2 stage19_1 sem19_1 nbuf19_1 hstage19_1

abbrev spec19_2 : Pipeline.WinSpec sig grid19.rank :=
  Pipeline.WinSpec.ofSpec (Memref.whole main_v8) S1x1x64.size reads19_2 false false 2 stage19_2 sem19_2 nbuf19_2 hstage19_2

abbrev spec19_3 : Pipeline.WinSpec sig grid19.rank :=
  Pipeline.WinSpec.ofSpec (Memref.whole main_v8) S1x1x64.size reads19_3 false false 2 stage19_3 sem19_3 nbuf19_3 hstage19_3

abbrev spec19_4 : Pipeline.WinSpec sig grid19.rank :=
  Pipeline.WinSpec.ofSpec (Memref.whole main_v108) S1x1x2.size reads19_4 true false 2 stage19_4 sem19_4 nbuf19_4 hstage19_4

abbrev spec19 : Fin 5 → Pipeline.WinSpec sig grid19.rank := fun | 0 => spec19_0 | 1 => spec19_1 | 2 => spec19_2 | 3 => spec19_3 | 4 => spec19_4 | ⟨_ + 5, h⟩ => absurd h (Nat.not_lt.2 (Nat.le_add_left _ _))
theorem hcount19 : ∀ w, grid19.bufCount (spec19 w).reads (spec19 w).sync = (spec19 w).nbuf := fun | 0 => nbuf19_0 | 1 => nbuf19_1 | 2 => nbuf19_2 | 3 => nbuf19_3 | 4 => nbuf19_4 | ⟨_ + 5, h⟩ => absurd h (Nat.not_lt.2 (Nat.le_add_left _ _))
abbrev ix19 (pf : pre19.Contents (Elt F)) : (w : Fin 5) → grid19.Coords → Fin (spec19 w).shape.rank → Nat := fun | 0 => cc19_transform_0 k19_off1_inb numel1_S1 pf | 1 => cc19_transform_1 k19_off1_inb numel1_S1 pf | 2 => cc19_transform_2 k19_off1_inb numel1_S1 pf | 3 => cc19_transform_3 k19_off1_inb numel1_S1 pf | 4 => cc19_transform_4 | ⟨_ + 5, h⟩ => absurd h (Nat.not_lt.2 (Nat.le_add_left _ _))
theorem hreads19 : ∀ (pf : pre19.Contents (Elt F)) w (i i' : grid19.Coords), (∀ a, (spec19 w).reads a = true → i a = i' a) → ix19 pf w i = ix19 pf w i' := fun pf => fun | 0 => hreads19_0 pf | 1 => hreads19_1 pf | 2 => hreads19_2 pf | 3 => hreads19_3 pf | 4 => hreads19_4 | ⟨_ + 5, h⟩ => absurd h (Nat.not_lt.2 (Nat.le_add_left _ _))
def ok19 (pf : pre19.Contents (Elt F)) : Prop :=
  (∀ i : grid19.Coords, ∃ h : (∀ a, (cc19_transform_0 k19_off1_inb numel1_S1 pf i a + 1) * S1x1x64.size a ≤ S100000x1x64.size a), EltTy.bits .f32 = 32 ∨ (Rect.block (s := S100000x1x64) S1x1x64.size (cc19_transform_0 k19_off1_inb numel1_S1 pf i) h).WholeWords (EltTy.packing .f32)) ∧
  (∀ i : grid19.Coords, ∃ h : (∀ a, (cc19_transform_1 k19_off1_inb numel1_S1 pf i a + 1) * S1x1x64.size a ≤ S100000x1x64.size a), EltTy.bits .f32 = 32 ∨ (Rect.block (s := S100000x1x64) S1x1x64.size (cc19_transform_1 k19_off1_inb numel1_S1 pf i) h).WholeWords (EltTy.packing .f32)) ∧
  (∀ i : grid19.Coords, ∃ h : (∀ a, (cc19_transform_2 k19_off1_inb numel1_S1 pf i a + 1) * S1x1x64.size a ≤ S100000x1x64.size a), EltTy.bits .f32 = 32 ∨ (Rect.block (s := S100000x1x64) S1x1x64.size (cc19_transform_2 k19_off1_inb numel1_S1 pf i) h).WholeWords (EltTy.packing .f32)) ∧
  (∀ i : grid19.Coords, ∃ h : (∀ a, (cc19_transform_3 k19_off1_inb numel1_S1 pf i a + 1) * S1x1x64.size a ≤ S100000x1x64.size a), EltTy.bits .f32 = 32 ∨ (Rect.block (s := S100000x1x64) S1x1x64.size (cc19_transform_3 k19_off1_inb numel1_S1 pf i) h).WholeWords (EltTy.packing .f32))
instance (pf : pre19.Contents (Elt F)) : Decidable (ok19 pf) := decidable_of_iff' _ (Iff.of_eq (ok19.eq_1 pf))
theorem hinb19 : ∀ (pf : pre19.Contents (Elt F)), ok19 pf → ∀ w (i : grid19.Coords) a, (ix19 pf w i a + 1) * (spec19 w).size a ≤ (spec19 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb19_4 | ⟨_ + 5, h⟩ => absurd h (Nat.not_lt.2 (Nat.le_add_left _ _))
theorem hwx19 : ∀ (pf : pre19.Contents (Elt F)) (hok : ok19 pf) w (i : grid19.Coords), (spec19 w).elt.bits = 32 ∨ (Rect.block (spec19 w).size (ix19 pf w i) (hinb19 pf hok w i)).WholeWords (spec19 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx19_4 | ⟨_ + 5, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole
  harr16 : ∀ w, (spec16 w).arr.IsWhole
  harr17 : ∀ w, (spec17 w).arr.IsWhole
  harr18 : ∀ w, (spec18 w).arr.IsWhole
  harr19 : ∀ w, (spec19 w).arr.IsWhole

variable [Facts]
-- ==== ReferenceIdeal.lean ====
abbrev S100000x64 : Shape := ⟨2, ![100000, 64]⟩
abbrev S500000x4 : Shape := ⟨2, ![500000, 4]⟩
abbrev S2 : Shape := ⟨1, ![2]⟩
abbrev S_ : Shape := ⟨0, ![]⟩
abbrev S2x1 : Shape := ⟨2, ![2, 1]⟩
abbrev S500000x2 : Shape := ⟨2, ![500000, 2]⟩
abbrev S500000x2x1 : Shape := ⟨3, ![500000, 2, 1]⟩
abbrev S500000x2x64 : Shape := ⟨3, ![500000, 2, 64]⟩

abbrev nBuf : Space → Nat
  | .hbm => 45
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S500000x4, .i32⟩
  | .hbm, ⟨2, _⟩ => ⟨S2, .i32⟩
  | .hbm, ⟨3, _⟩ => ⟨S2, .i32⟩
  | .hbm, ⟨4, _⟩ => ⟨S_, .i32⟩
  | .hbm, ⟨5, _⟩ => ⟨S2, .i32⟩
  | .hbm, ⟨6, _⟩ => ⟨S2, .i1⟩
  | .hbm, ⟨7, _⟩ => ⟨S_, .i32⟩
  | .hbm, ⟨8, _⟩ => ⟨S2, .i32⟩
  | .hbm, ⟨9, _⟩ => ⟨S2, .i32⟩
  | .hbm, ⟨10, _⟩ => ⟨S2, .i32⟩
  | .hbm, ⟨11, _⟩ => ⟨S2x1, .i32⟩
  | .hbm, ⟨12, _⟩ => ⟨S500000x2, .i32⟩
  | .hbm, ⟨13, _⟩ => ⟨S_, .i32⟩
  | .hbm, ⟨14, _⟩ => ⟨S500000x2, .i32⟩
  | .hbm, ⟨15, _⟩ => ⟨S500000x2, .i1⟩
  | .hbm, ⟨16, _⟩ => ⟨S_, .i32⟩
  | .hbm, ⟨17, _⟩ => ⟨S500000x2, .i32⟩
  | .hbm, ⟨18, _⟩ => ⟨S500000x2, .i32⟩
  | .hbm, ⟨19, _⟩ => ⟨S500000x2, .i32⟩
  | .hbm, ⟨20, _⟩ => ⟨S500000x2x1, .i32⟩
  | .hbm, ⟨21, _⟩ => ⟨S500000x2x64, .f32⟩
  | .hbm, ⟨22, _⟩ => ⟨S_, .i32⟩
  | .hbm, ⟨23, _⟩ => ⟨S2, .i32⟩
  | .hbm, ⟨24, _⟩ => ⟨S2, .i1⟩
  | .hbm, ⟨25, _⟩ => ⟨S_, .i32⟩
  | .hbm, ⟨26, _⟩ => ⟨S2, .i32⟩
  | .hbm, ⟨27, _⟩ => ⟨S2, .i32⟩
  | .hbm, ⟨28, _⟩ => ⟨S2, .i32⟩
  | .hbm, ⟨29, _⟩ => ⟨S2x1, .i32⟩
  | .hbm, ⟨30, _⟩ => ⟨S500000x2, .i32⟩
  | .hbm, ⟨31, _⟩ => ⟨S_, .i32⟩
  | .hbm, ⟨32, _⟩ => ⟨S500000x2, .i32⟩
  | .hbm, ⟨33, _⟩ => ⟨S500000x2, .i1⟩
  | .hbm, ⟨34, _⟩ => ⟨S_, .i32⟩
  | .hbm, ⟨35, _⟩ => ⟨S500000x2, .i32⟩
  | .hbm, ⟨36, _⟩ => ⟨S500000x2, .i32⟩
  | .hbm, ⟨37, _⟩ => ⟨S500000x2, .i32⟩
  | .hbm, ⟨38, _⟩ => ⟨S500000x2x1, .i32⟩
  | .hbm, ⟨39, _⟩ => ⟨S500000x2x64, .f32⟩
  | .hbm, ⟨40, _⟩ => ⟨S500000x2x64, .f32⟩
  | .hbm, ⟨41, _⟩ => ⟨S500000x2x64, .f32⟩
  | .hbm, ⟨42, _⟩ => ⟨S_, .f32⟩
  | .hbm, ⟨43, _⟩ => ⟨S500000x2, .f32⟩
  | .hbm, ⟨44, _⟩ => ⟨S500000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_c_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_3 : Ref sig .tc := ⟨.hbm, 13, rfl⟩
abbrev main_v7 : Ref sig .tc := ⟨.hbm, 14, rfl⟩
abbrev main_v8 : Ref sig .tc := ⟨.hbm, 15, rfl⟩
abbrev main_c_4 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_5 : Ref sig .tc := ⟨.hbm, 22, rfl⟩
abbrev main_v14 : Ref sig .tc := ⟨.hbm, 23, rfl⟩
abbrev main_v15 : Ref sig .tc := ⟨.hbm, 24, rfl⟩
abbrev main_c_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_7 : Ref sig .tc := ⟨.hbm, 31, rfl⟩
abbrev main_v21 : Ref sig .tc := ⟨.hbm, 32, rfl⟩
abbrev main_v22 : Ref sig .tc := ⟨.hbm, 33, rfl⟩
abbrev main_c_8 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S2_S2x1_0 : S2.BroadcastsInDim S2x1 (![0] : Fin 1 → Fin S2x1.rank)
  bcast_S_S500000x2 : S_.BroadcastsInDim S500000x2 (![] : Fin 0 → Fin S500000x2.rank)
  bcast_S500000x2_S500000x2x1_0_1 : S500000x2.BroadcastsInDim S500000x2x1 (![0, 1] : Fin 2 → Fin S500000x2x1.rank)
  reducesTo_S500000x2x64_S500000x2_d2 : S500000x2x64.ReducesTo [2] S500000x2
  h_S_ : 0 < S_.numel
  gather_S500000x4_S2x1_S500000x2_0_1_n_n_1_1_5000001_wf : GatherDims.WF S500000x4 S2x1 S500000x2 [0] [1] [] [1] [] 1 ![500000, 1]
  gather_S100000x64_S500000x2x1_S500000x2x64_2_0_n_n_0_2_164_wf : GatherDims.WF S100000x64 S500000x2x1 S500000x2x64 [2] [0] [] [0] [] 2 ![1, 64]

variable [Facts₀]

def gather_S500000x4_S2x1_S500000x2_0_1_n_n_1_1_5000001 : GatherDims S500000x4 S2x1 S500000x2 where
  offsetDims := [0]
  collapsedSliceDims := [1]
  operandBatchingDims := []
  startIndicesBatchingDims := []
  startIndexMap := [1]
  indexVectorDim := 1
  sliceSizes := ![500000, 1]
  wf := gather_S500000x4_S2x1_S500000x2_0_1_n_n_1_1_5000001_wf
def gather_S100000x64_S500000x2x1_S500000x2x64_2_0_n_n_0_2_164 : GatherDims S100000x64 S500000x2x1 S500000x2x64 where
  offsetDims := [2]
  collapsedSliceDims := [0]
  operandBatchingDims := []
  startIndicesBatchingDims := []
  startIndexMap := [0]
  indexVectorDim := 2
  sliceSizes := ![1, 64]
  wf := gather_S100000x64_S500000x2x1_S500000x2x64_2_0_n_n_0_2_164_wf

class Facts : Prop extends Facts₀ where

variable [Facts]
-- ==== Proof.EdgeLengths.lean ====
/-
  The mathematics both programs compute, stated once and over no program.

  A point table `x` has 100000 rows of 64 coordinates. Each of 500000 generators carries four vertex words
  (b0, b1, d0, d1): the end points of its birth edge and of its death edge. The result has two entries per
  generator: the Euclidean length of the birth edge, ‖x[b0] − x[b1]‖, and of the death edge, ‖x[d0] − x[d1]‖.
  Over the extended reals a length is the square root of the sum, over the 64 coordinates, of the squared
  differences; no rounding, no order of summation.

  A vertex word names a row only when, read as a natural number, it is below 100000 (`InRange`). The row a word
  names is taken inside the table (`vtx`, the word's value capped at the last row), so that `lengths` is a total
  function; under `InRange` the cap never binds (`vtx_val`).
-/
import Idealize.ShloMosaic.PureOps.Ideal
import Idealize.ShloMosaic.Lib.ValueIdx

noncomputable section

namespace Cert.EdgeLengths

open Idealize.ShloMosaic Idealize.ShloMosaic.ValueIdx

/-- The point table: 100000 points in 64 dimensions. -/
abbrev SPts : Shape := ⟨2, ![100000, 64]⟩
/-- The generators' vertex words: four per generator. -/
abbrev SVerts : Shape := ⟨2, ![500000, 4]⟩
/-- The result: two lengths per generator. -/
abbrev SLens : Shape := ⟨2, ![500000, 2]⟩

/-- Every vertex word, read as a natural number, names a row of the point table. -/
def InRange (v : SVerts.Idx → BitVec 32) : Prop := ∀ i : SVerts.Idx, (v i).toNat < 100000

/-- The row of the point table that vertex word `q` of generator `p` names (capped at the last row). -/
def vtx (v : SVerts.Idx → BitVec 32) (p : Fin 500000) (q : Fin 4) : Fin 100000 :=
  ⟨min (v (ix2 p q)).toNat 99999, by omega⟩

/-- In range, the row a word names is the word's value. -/
theorem vtx_val (v : SVerts.Idx → BitVec 32) (h : InRange v) (p : Fin 500000) (q : Fin 4) :
    (vtx v p q).val = (v (ix2 p q)).toNat := by
  have := h (ix2 p q)
  show min _ _ = _
  omega

/-- The Euclidean distance between rows `r` and `s` of the table, over the extended reals. -/
def dist (x : SPts.Idx → EReal) (r s : Fin 100000) : EReal :=
  Ideal.sqrt (∑ k : Fin 64, (x (ix2 r k) - x (ix2 s k)) * (x (ix2 r k) - x (ix2 s k)))

/-- Edge `e` of generator `p` (0 the birth edge, 1 the death edge) joins vertex words `2e` and `2e + 1`. -/
def lengthAt (x : SPts.Idx → EReal) (v : SVerts.Idx → BitVec 32) (p : Fin 500000) (e : Fin 2) : EReal :=
  dist x (vtx v p ⟨2 * e.val, by omega⟩) (vtx v p ⟨2 * e.val + 1, by omega⟩)

/-- The whole result: both edge lengths of every generator. -/
def lengths (x : SPts.Idx → EReal) (v : SVerts.Idx → BitVec 32) : SLens.Idx → EReal :=
  fun j => lengthAt x v (j 0) (j 1)

theorem lengths_apply (x : SPts.Idx → EReal) (v : SVerts.Idx → BitVec 32) (p : Fin 500000) (e : Fin 2) :
    lengths x v (ix2 p e) = lengthAt x v p e := rfl

end Cert.EdgeLengths

end
-- ==== Proof.PreRange.lean ====
/-
  The precondition gives the range.

  The precondition is the conjunction of two "for all" statements: every entry of the point table is finite, and
  every vertex word w satisfies 0 ≤ w and w < 100000, both read as SIGNED 32-bit integers. A word that is
  nonnegative when read signed has its top bit clear, so it reads the same signed and unsigned; hence its unsigned
  value is below 100000, which is what `InRange` asks of every vertex word. Only the second conjunct is used.
-/
import proofs.«401090_j62775241999084_2_alg».proof.Pre_finite_inputs
import proofs.«401090_j62775241999084_2_alg».proof.Proof.EdgeLengths
import Idealize.ShloMosaic.Lib.ReduceAll
import Idealize.ShloMosaic.Lib.ValueIdx

noncomputable section

namespace Cert.PreRange

open Idealize.ShloMosaic

/-- The rank-0 shape has exactly one index. -/
instance : Subsingleton Cert.Pre_finite_inputs.S_.Idx := ⟨fun a b => funext fun d => d.elim0⟩

/-- A 32-bit word w with 0 ≤ w and w < 100000, both signed, is below 100000 read unsigned. -/
theorem toNat_lt_of_signed (w : BitVec 32) (h0 : IntOp.cmpi .sge w 0#32 = 1#1)
    (h1 : IntOp.cmpi .slt w 100000#32 = 1#1) : w.toNat < 100000 := by
  rw [IntOp.cmpi_sge, show (0#32 : BitVec 32).toInt = 0 from by decide] at h0
  rw [IntOp.cmpi_slt, show (100000#32 : BitVec 32).toInt = 100000 from by decide] at h1
  have hlt := w.isLt
  unfold BitVec.toInt at h0 h1
  split at h0 <;> omega

/-- Under the precondition every vertex word names a row of the point table. -/
theorem inRange_of_pre {F : FTy → Type} [FloatOps F] [Cert.Pre_finite_inputs.Facts]
    (x : FVec F Cert.Pre_finite_inputs.S100000x64 .f32) (v : IVec Cert.Pre_finite_inputs.S500000x4 32)
    (h : Cert.Pre_finite_inputs.fn (F := F) x v = fun _ => 1#1) : Cert.EdgeLengths.InRange v := by
  intro i
  have e := congrFun h ValueIdx.ix0
  dsimp only [Cert.Pre_finite_inputs.fn] at e
  -- the outer conjunction: keep the half about the vertex words
  obtain ⟨_, e2⟩ := IntOp.andi_eq_one.1 e
  -- "for all": the conjunction over every word holds at word i
  have e3 := Host.reduce_andi_all _ _ _ _ _ e2 i
  -- the inner conjunction: 0 ≤ w and w < 100000, signed
  obtain ⟨h0, h1⟩ := IntOp.andi_eq_one.1 e3
  exact toNat_lt_of_signed _ h0 h1

end Cert.PreRange

end
-- ==== Proof.RefOps.lean ====
/-
  The reference's steps, named.

  The reference is a straight line of 41 host operations. Twice over (once for the columns 0 and 2 of the vertex words,
  once for the columns 1 and 3) it wraps two literal column numbers the way a negative index is wrapped (a number
  below zero has the axis's extent added), picks those two columns of the words, wraps each picked word the same way
  against the table's 100000 rows, and picks the table's rows the wrapped words name; then it subtracts the two stacks
  of rows, squares the differences, sums each row's 64 squares from zero, and takes square roots.

  Here each of those steps is one definition, for any float values, and `edges` is their composition: the function of
  the two argument arrays that the reference's result buffer ends at.
-/
import proofs.«401090_j62775241999084_2_alg».proof.Proof.Gen.ReferenceIdeal

noncomputable section

namespace Cert.ReferenceIdeal.RefOps

open Cert.ReferenceIdeal Cert.ReferenceIdeal.Gen Idealize.ShloMosaic

variable {F : FTy → Type} [FloatOps F]

/-- Two literal column numbers, each wrapped as a negative index is (`c < 0 ? c + 4 : c`), as a column of two start
    indices. -/
def colStarts (lit : Fin 2 → BitVec 32) : IVec S2x1 32 :=
  broadcastInDim S2x1 ![0] bcast_S2_S2x1_0
    (select (cmpi .slt (fun i => lit (S2.rowMajor i)) (broadcastInDim S2 ![] bcast_S_S2 (constantI S_ 32 0#32)))
      (addi (fun i => lit (S2.rowMajor i)) (broadcastInDim S2 ![] bcast_S_S2 (constantI S_ 32 4#32)))
      (fun i => lit (S2.rowMajor i)))

/-- The two columns of the vertex words that `lit` names. -/
def colsOf (v : IVec S500000x4 32) (lit : Fin 2 → BitVec 32) : IVec S500000x2 32 :=
  Host.gather gather_S500000x4_S2x1_S500000x2_0_1_n_n_1_1_5000001 v (colStarts lit)

/-- Picked words, each wrapped against the table's 100000 rows (`w < 0 ? w + 100000 : w`), as the start indices of a
    row gather. -/
def rowStarts (w : IVec S500000x2 32) : IVec S500000x2x1 32 :=
  broadcastInDim S500000x2x1 ![0, 1] bcast_S500000x2_S500000x2x1_0_1
    (select (cmpi .slt w (broadcastInDim S500000x2 ![] bcast_S_S500000x2 (constantI S_ 32 0#32)))
      (addi w (broadcastInDim S500000x2 ![] bcast_S_S500000x2 (constantI S_ 32 100000#32)))
      w)

/-- The table's rows that the words `w` name. -/
def rowsOf (x : FVec F S100000x64 .f32) (w : IVec S500000x2 32) : FVec F S500000x2x64 .f32 :=
  Host.gather gather_S100000x64_S500000x2x1_S500000x2x64_2_0_n_n_0_2_164 x (rowStarts w)

/-- Coordinate by coordinate, the difference between the rows named by columns 0, 2 and by columns 1, 3. -/
def diffs (x : FVec F S100000x64 .f32) (v : IVec S500000x4 32) : FVec F S500000x2x64 .f32 :=
  subf (rowsOf x (colsOf v lit0)) (rowsOf x (colsOf v lit1))

/-- The reference's result: per generator and edge, the square root of the sum from zero of the 64 squared
    differences. -/
def edges (x : FVec F S100000x64 .f32) (v : IVec S500000x4 32) : FVec F S500000x2 .f32 :=
  Host.sqrt (Host.reduceAdd (mulf (diffs x v) (diffs x v)) (constant S_ .f32 0x00000000#32)
    reducesTo_S500000x2x64_S500000x2_d2 h_S_)

end Cert.ReferenceIdeal.RefOps

end
-- ==== Proof.RefRun.lean ====
/-
  The reference's run, read back as one function of its two arguments.

  The reference is a straight line of 41 host operations, each writing one buffer of its own. The program is shown to
  be the sequence of those operations, and every weakly fair execution is shown to terminate with the result buffer
  at `edges` of the two argument arrays (the composition of the named steps) and the arguments unchanged. What
  `edges` is at one index is read elsewhere, without the run.
-/
import proofs.«401090_j62775241999084_2_alg».proof.Proof.RefOps
import Idealize.ShloMosaic.Lib.StableHlo.Run

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-! ## The program is the sequence of its operations -/

/-- @main's 41 operations, in order. -/
abbrev ops : List (HloOp τ sig (Elt F)) :=
  [ nullary main_c (fun i => lit0 (S2.rowMajor i)),
    nullary main_c_0 (fun i => lit1 (S2.rowMajor i)),
    nullary main_c_1 (constantI S_ 32 0#32),
    unary main_c_1 main_v0 (broadcastInDim S2 ![] bcast_S_S2 : (⟨S_, .i32⟩ : BufTy).Contents (Elt F) → (⟨S2, .i32⟩ : BufTy).Contents (Elt F)),
    binary main_c main_v0 main_v1 (cmpi .slt : (⟨S2, .i32⟩ : BufTy).Contents (Elt F) → (⟨S2, .i32⟩ : BufTy).Contents (Elt F) → (⟨S2, .i1⟩ : BufTy).Contents (Elt F)),
    nullary main_c_2 (constantI S_ 32 4#32),
    unary main_c_2 main_v2 (broadcastInDim S2 ![] bcast_S_S2 : (⟨S_, .i32⟩ : BufTy).Contents (Elt F) → (⟨S2, .i32⟩ : BufTy).Contents (Elt F)),
    binary main_c main_v2 main_v3 (addi : (⟨S2, .i32⟩ : BufTy).Contents (Elt F) → (⟨S2, .i32⟩ : BufTy).Contents (Elt F) → (⟨S2, .i32⟩ : BufTy).Contents (Elt F)),
    ternary main_v1 main_v3 main_c main_v4 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v4 main_v5 (broadcastInDim S2x1 ![0] bcast_S2_S2x1_0 : (⟨S2, .i32⟩ : BufTy).Contents (Elt F) → (⟨S2x1, .i32⟩ : BufTy).Contents (Elt F)),
    binary main_arg1 main_v5 main_v6 ((fun x i => Host.gather gather_S500000x4_S2x1_S500000x2_0_1_n_n_1_1_5000001 x i) : (⟨S500000x4, .i32⟩ : BufTy).Contents (Elt F) → (⟨S2x1, .i32⟩ : BufTy).Contents (Elt F) → (⟨S500000x2, .i32⟩ : BufTy).Contents (Elt F)),
    nullary main_c_3 (constantI S_ 32 0#32),
    unary main_c_3 main_v7 (broadcastInDim S500000x2 ![] bcast_S_S500000x2 : (⟨S_, .i32⟩ : BufTy).Contents (Elt F) → (⟨S500000x2, .i32⟩ : BufTy).Contents (Elt F)),
    binary main_v6 main_v7 main_v8 (cmpi .slt : (⟨S500000x2, .i32⟩ : BufTy).Contents (Elt F) → (⟨S500000x2, .i32⟩ : BufTy).Contents (Elt F) → (⟨S500000x2, .i1⟩ : BufTy).Contents (Elt F)),
    nullary main_c_4 (constantI S_ 32 100000#32),
    unary main_c_4 main_v9 (broadcastInDim S500000x2 ![] bcast_S_S500000x2 : (⟨S_, .i32⟩ : BufTy).Contents (Elt F) → (⟨S500000x2, .i32⟩ : BufTy).Contents (Elt F)),
    binary main_v6 main_v9 main_v10 (addi : (⟨S500000x2, .i32⟩ : BufTy).Contents (Elt F) → (⟨S500000x2, .i32⟩ : BufTy).Contents (Elt F) → (⟨S500000x2, .i32⟩ : BufTy).Contents (Elt F)),
    ternary main_v8 main_v10 main_v6 main_v11 (select : (⟨S500000x2, .i1⟩ : BufTy).Contents (Elt F) → (⟨S500000x2, .i32⟩ : BufTy).Contents (Elt F) → (⟨S500000x2, .i32⟩ : BufTy).Contents (Elt F) → (⟨S500000x2, .i32⟩ : BufTy).Contents (Elt F)),
    unary main_v11 main_v12 (broadcastInDim S500000x2x1 ![0, 1] bcast_S500000x2_S500000x2x1_0_1 : (⟨S500000x2, .i32⟩ : BufTy).Contents (Elt F) → (⟨S500000x2x1, .i32⟩ : BufTy).Contents (Elt F)),
    binary main_arg0 main_v12 main_v13 ((fun x i => Host.gather gather_S100000x64_S500000x2x1_S500000x2x64_2_0_n_n_0_2_164 x i) : (⟨S100000x64, .f32⟩ : BufTy).Contents (Elt F) → (⟨S500000x2x1, .i32⟩ : BufTy).Contents (Elt F) → (⟨S500000x2x64, .f32⟩ : BufTy).Contents (Elt F)),
    nullary main_c_5 (constantI S_ 32 0#32),
    unary main_c_5 main_v14 (broadcastInDim S2 ![] bcast_S_S2 : (⟨S_, .i32⟩ : BufTy).Contents (Elt F) → (⟨S2, .i32⟩ : BufTy).Contents (Elt F)),
    binary main_c_0 main_v14 main_v15 (cmpi .slt : (⟨S2, .i32⟩ : BufTy).Contents (Elt F) → (⟨S2, .i32⟩ : BufTy).Contents (Elt F) → (⟨S2, .i1⟩ : BufTy).Contents (Elt F)),
    nullary main_c_6 (constantI S_ 32 4#32),
    unary main_c_6 main_v16 (broadcastInDim S2 ![] bcast_S_S2 : (⟨S_, .i32⟩ : BufTy).Contents (Elt F) → (⟨S2, .i32⟩ : BufTy).Contents (Elt F)),
    binary main_c_0 main_v16 main_v17 (addi : (⟨S2, .i32⟩ : BufTy).Contents (Elt F) → (⟨S2, .i32⟩ : BufTy).Contents (Elt F) → (⟨S2, .i32⟩ : BufTy).Contents (Elt F)),
    ternary main_v15 main_v17 main_c_0 main_v18 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v18 main_v19 (broadcastInDim S2x1 ![0] bcast_S2_S2x1_0 : (⟨S2, .i32⟩ : BufTy).Contents (Elt F) → (⟨S2x1, .i32⟩ : BufTy).Contents (Elt F)),
    binary main_arg1 main_v19 main_v20 ((fun x i => Host.gather gather_S500000x4_S2x1_S500000x2_0_1_n_n_1_1_5000001 x i) : (⟨S500000x4, .i32⟩ : BufTy).Contents (Elt F) → (⟨S2x1, .i32⟩ : BufTy).Contents (Elt F) → (⟨S500000x2, .i32⟩ : BufTy).Contents (Elt F)),
    nullary main_c_7 (constantI S_ 32 0#32),
    unary main_c_7 main_v21 (broadcastInDim S500000x2 ![] bcast_S_S500000x2 : (⟨S_, .i32⟩ : BufTy).Contents (Elt F) → (⟨S500000x2, .i32⟩ : BufTy).Contents (Elt F)),
    binary main_v20 main_v21 main_v22 (cmpi .slt : (⟨S500000x2, .i32⟩ : BufTy).Contents (Elt F) → (⟨S500000x2, .i32⟩ : BufTy).Contents (Elt F) → (⟨S500000x2, .i1⟩ : BufTy).Contents (Elt F)),
    nullary main_c_8 (constantI S_ 32 100000#32),
    unary main_c_8 main_v23 (broadcastInDim S500000x2 ![] bcast_S_S500000x2 : (⟨S_, .i32⟩ : BufTy).Contents (Elt F) → (⟨S500000x2, .i32⟩ : BufTy).Contents (Elt F)),
    binary main_v20 main_v23 main_v24 (addi : (⟨S500000x2, .i32⟩ : BufTy).Contents (Elt F) → (⟨S500000x2, .i32⟩ : BufTy).Contents (Elt F) → (⟨S500000x2, .i32⟩ : BufTy).Contents (Elt F)),
    ternary main_v22 main_v24 main_v20 main_v25 (select : (⟨S500000x2, .i1⟩ : BufTy).Contents (Elt F) → (⟨S500000x2, .i32⟩ : BufTy).Contents (Elt F) → (⟨S500000x2, .i32⟩ : BufTy).Contents (Elt F) → (⟨S500000x2, .i32⟩ : BufTy).Contents (Elt F)),
    unary main_v25 main_v26 (broadcastInDim S500000x2x1 ![0, 1] bcast_S500000x2_S500000x2x1_0_1 : (⟨S500000x2, .i32⟩ : BufTy).Contents (Elt F) → (⟨S500000x2x1, .i32⟩ : BufTy).Contents (Elt F)),
    binary main_arg0 main_v26 main_v27 ((fun x i => Host.gather gather_S100000x64_S500000x2x1_S500000x2x64_2_0_n_n_0_2_164 x i) : (⟨S100000x64, .f32⟩ : BufTy).Contents (Elt F) → (⟨S500000x2x1, .i32⟩ : BufTy).Contents (Elt F) → (⟨S500000x2x64, .f32⟩ : BufTy).Contents (Elt F)),
    binary main_v13 main_v27 main_v28 (subf : (⟨S500000x2x64, .f32⟩ : BufTy).Contents (Elt F) → (⟨S500000x2x64, .f32⟩ : BufTy).Contents (Elt F) → (⟨S500000x2x64, .f32⟩ : BufTy).Contents (Elt F)),
    binary main_v28 main_v28 main_v29 (mulf : (⟨S500000x2x64, .f32⟩ : BufTy).Contents (Elt F) → (⟨S500000x2x64, .f32⟩ : BufTy).Contents (Elt F) → (⟨S500000x2x64, .f32⟩ : BufTy).Contents (Elt F)),
    nullary main_cst (constant S_ .f32 0x00000000#32),
    binary main_v29 main_cst main_v30 ((fun x v => Host.reduceAdd x v reducesTo_S500000x2x64_S500000x2_d2 h_S_) : (⟨S500000x2x64, .f32⟩ : BufTy).Contents (Elt F) → (⟨S_, .f32⟩ : BufTy).Contents (Elt F) → (⟨S500000x2, .f32⟩ : BufTy).Contents (Elt F)),
    unary main_v30 main_v31 (Host.sqrt : (⟨S500000x2, .f32⟩ : BufTy).Contents (Elt F) → (⟨S500000x2, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., binary_bufs_sub ..,
   nullary_bufs_sub .., unary_bufs_sub .., binary_bufs_sub .., ternary_bufs_sub .., unary_bufs_sub ..,
   binary_bufs_sub .., nullary_bufs_sub .., unary_bufs_sub .., binary_bufs_sub .., nullary_bufs_sub ..,
   unary_bufs_sub .., binary_bufs_sub .., ternary_bufs_sub .., unary_bufs_sub .., binary_bufs_sub ..,
   nullary_bufs_sub .., unary_bufs_sub .., binary_bufs_sub .., nullary_bufs_sub .., unary_bufs_sub ..,
   binary_bufs_sub .., ternary_bufs_sub .., unary_bufs_sub .., binary_bufs_sub .., nullary_bufs_sub ..,
   unary_bufs_sub .., binary_bufs_sub .., nullary_bufs_sub .., unary_bufs_sub .., binary_bufs_sub ..,
   ternary_bufs_sub .., unary_bufs_sub .., binary_bufs_sub .., binary_bufs_sub .., binary_bufs_sub ..,
   nullary_bufs_sub .., binary_bufs_sub .., unary_bufs_sub ..⟩

/-! ## The run -/

/-- On every device, for any float values, from any memory with zero counters: every weakly fair execution of @main
    terminates with the result buffer at `edges` of the two argument arrays, and the arguments unchanged. -/
theorem run_edges (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = edges (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v31).trans (by after_results_simp; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.RefRun

end
-- ==== Proof.LibGatherCol.lean ====
/-
  A gather that picks columns of a matrix, read at one element.

  The operand is an `R × N` array, the start indices a column of `M` words, the result `R × M`: result column `p` is the
  operand's column named by word `p`. The result's axis 0 is the one offset axis (a slice is a whole column, `R` long and
  one wide), the operand's axis 1 is collapsed and start-indexed, there are no batching axes, and the index vector lies
  on axis 1 of the column of words. StableHLO reads a start index signed and clamps it so that the slice fits: here into
  `[0, N - 1]`.

  `gather_cols_apply`: element `(r, p)` of the result is the operand at row `r`, column "word `p`, read signed and clamped
  into `[0, N - 1]`".
-/
import Idealize.ShloMosaic.Lib.ValueIdx

noncomputable section

namespace Cert.LibGatherCol

open Idealize.ShloMosaic Idealize.ShloMosaic.ValueIdx

/-- The column gather's dimension numbers: the result's axis 0 the offset axis, the operand's axis 1 collapsed and
    start-indexed, no batching axes, the index vector on axis 1 of the column of words, slices one column wide. -/
abbrev colGatherDims (R N M : Nat)
    (wf : GatherDims.WF ⟨2, ![R, N]⟩ ⟨2, ![M, 1]⟩ ⟨2, ![R, M]⟩ [0] [1] [] [1] [] 1 ![R, 1]) :
    GatherDims ⟨2, ![R, N]⟩ ⟨2, ![M, 1]⟩ ⟨2, ![R, M]⟩ where
  offsetDims := [0]
  collapsedSliceDims := [1]
  operandBatchingDims := []
  startIndicesBatchingDims := []
  startIndexMap := [1]
  indexVectorDim := 1
  sliceSizes := ![R, 1]
  wf := wf

/-- On the offset axis the operand index is the result's row: the start is 0 (the axis is not start-indexed), there is
    no batching coordinate, and the offset coordinate is the result's coordinate on its one offset axis. -/
theorem colGather_axis0 {R N M w : Nat}
    (wf : GatherDims.WF ⟨2, ![R, N]⟩ ⟨2, ![M, 1]⟩ ⟨2, ![R, M]⟩ [0] [1] [] [1] [] 1 ![R, 1])
    (idx : IVec ⟨2, ![M, 1]⟩ w) (r : Fin R) (p : Fin M) :
    ((colGatherDims R N M wf).operandIdx (ix2 r p) idx 0).val = r.val := by
  show (colGatherDims R N M wf).start (ix2 r p) idx 0 + (colGatherDims R N M wf).batchCoord (ix2 r p) 0
    + (colGatherDims R N M wf).offCoord (ix2 r p) 0 = _
  rw [GatherDims.batchCoord_eq_zero _ _ _ List.not_mem_nil, Nat.add_zero]
  unfold GatherDims.start
  rw [dif_neg (show (0 : Fin 2) ∉ (colGatherDims R N M wf).startIndexMap by
    show (0 : Fin 2) ∉ [(1 : Fin 2)]; decide), Nat.zero_add]
  unfold GatherDims.offCoord
  rw [dif_pos (show (0 : Fin 2) ∈ (colGatherDims R N M wf).sKept by
    show (0 : Fin 2) ∈ (List.finRange 2).filter (· ∉ [(1 : Fin 2)] ++ []); decide)]
  rfl

/-- On the collapsed axis the operand index is the clamped start: the word at row `p` of the column of words (the
    result's axis 1 is its one batch axis and reads the words' axis 0), read signed and cut into `[0, N - 1]`; no batching
    or offset coordinate. -/
theorem colGather_axis1 {R N M w : Nat}
    (wf : GatherDims.WF ⟨2, ![R, N]⟩ ⟨2, ![M, 1]⟩ ⟨2, ![R, M]⟩ [0] [1] [] [1] [] 1 ![R, 1])
    (idx : IVec ⟨2, ![M, 1]⟩ w) (r : Fin R) (p : Fin M) :
    ((colGatherDims R N M wf).operandIdx (ix2 r p) idx 1).val = min (idx (ix2 p (0 : Fin 1))).toInt.toNat (N - 1) := by
  show (colGatherDims R N M wf).start (ix2 r p) idx 1 + (colGatherDims R N M wf).batchCoord (ix2 r p) 1
    + (colGatherDims R N M wf).offCoord (ix2 r p) 1 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (1 : Fin 2) ∈ (colGatherDims R N M wf).startIndexMap from List.mem_singleton.mpr rfl)]
  have hsi : (colGatherDims R N M wf).siIdx (ix2 r p) ⟨List.idxOf (1 : Fin 2) (colGatherDims R N M wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

/-- THE COLUMN GATHER READ AT `(r, p)`: the array at row `r`, column "word `p`, read signed and clamped into
    `[0, N - 1]`". -/
theorem gather_cols_apply {α : Type} {R N M w : Nat} (d : GatherDims ⟨2, ![R, N]⟩ ⟨2, ![M, 1]⟩ ⟨2, ![R, M]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![R, 1])
    (x : (⟨2, ![R, N]⟩ : Shape).Idx → α) (idx : IVec ⟨2, ![M, 1]⟩ w) (r : Fin R) (p : Fin M) (hN : 0 < N) :
    Host.gather d x idx (ix2 r p)
      = x (ix2 r (⟨min (idx (ix2 p (0 : Fin 1))).toInt.toNat (N - 1), by omega⟩ : Fin N)) := by
  obtain ⟨od, cd, ob, sb, sm, ivd, ss, wf⟩ := d
  simp only at hoff hcoll hob hsb hsim hivd hss
  subst hoff hcoll hob hsb hsim hivd hss
  show x ((colGatherDims R N M wf).operandIdx (ix2 r p) idx) = _
  congr 1
  funext a
  refine Fin.ext ?_
  match a with
  | ⟨0, _⟩ => exact colGather_axis0 wf idx r p
  | ⟨1, _⟩ => exact colGather_axis1 wf idx r p

end Cert.LibGatherCol

end
-- ==== Proof.LibGatherRows.lean ====
/-
  A gather that picks rows of a matrix, read at one element.

  The operand is an `N × C` table, the start indices an `A × B × 1` array of words, the result `A × B × C`: result
  row `(a, b)` is the table's row named by word `(a, b)`. The result's last axis is the one offset axis (a slice is a
  whole row, one high and `C` long), the operand's axis 0 is collapsed and start-indexed, there are no batching axes,
  and the index vector lies on the last axis of the array of words. A start index is read signed and clamped so that
  the slice fits: here into `[0, N - 1]`.

  `gather_rows_clamp`: element `(a, b, c)` of the result is the table at row "word `(a, b)`, read signed and clamped
  into `[0, N - 1]`", column `c`. `gather_rows`: when the word's unsigned value is below `N` and `N` is at most half
  the word range, the sign bit is clear, the clamp does nothing, and the row is the word's value.

  The lemmas hold for any dimension-number record whose fields are the stated lists, so they apply to a record with
  literal fields by `rfl` on each hypothesis.
-/
import Idealize.ShloMosaic.Lib.ValueIdx

namespace Cert.LibGatherRows

open Idealize.ShloMosaic Idealize.ShloMosaic.ValueIdx

variable {α : Type}

/-- Reading a list at a position, once the list and the position are known and the known list has `v` there. -/
theorem getElem_of_eq {β : Type} {l l' : List β} {k k' : Nat} {v : β} (h : k < l.length) (hl : l = l') (hk : k = k')
    (hv : l'[k']? = some v) : l[k]'h = v := by
  subst hl hk
  obtain ⟨_, e⟩ := List.getElem?_eq_some_iff.mp hv
  exact e

/-- The two axes of the table. -/
theorem axis2_cases (b : Fin 2) : b = 0 ∨ b = 1 := by revert b; decide
/-- The three axes of the array of words. -/
theorem axis3_cases (b : Fin 3) : b = 0 ∨ b = 1 ∨ b = 2 := by revert b; decide

/-- A word whose unsigned value is below `N`, with `N` at most half the word range, reads the same signed. -/
theorem toInt_toNat_of_lt {w : Nat} (v : BitVec w) (N : Nat) (hlt : v.toNat < N) (hw : 2 * N ≤ 2 ^ w) :
    v.toInt.toNat = v.toNat := by
  rw [BitVec.toInt_eq_toNat_of_lt (by omega)]
  exact Int.toNat_natCast _

/-- Element `(a, b, c)` of the row gather is the table at `(r, c)`, `r` the start index at `(a, b)` read signed and
    clamped into `[0, N - 1]`. -/
theorem gather_rows_clamp {N C A B w : Nat}
    (d : GatherDims ⟨2, ![N, C]⟩ ⟨3, ![A, B, 1]⟩ ⟨3, ![A, B, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![A, B, 1]⟩ w)
    (a : Fin A) (b : Fin B) (c : Fin C) (hN : 0 < N) :
    Host.gather d x idx (ix3 a b c)
      = x (ix2 (⟨min (idx (ix3 a b (0 : Fin 1))).toInt.toNat (N - 1), by omega⟩ : Fin N) c) := by
  unfold Host.gather
  congr 1
  funext e
  apply Fin.ext
  show d.start (ix3 a b c) idx e + d.batchCoord (ix3 a b c) e + d.offCoord (ix3 a b c) e = _
  -- no batching axes: the batching coordinate vanishes on every axis
  have hb : ∀ e, e ∉ d.operandBatchingDims := fun e => by rw [hob]; exact List.not_mem_nil
  rw [GatherDims.batchCoord_eq_zero _ _ _ (hb e), Nat.add_zero]
  -- the table's kept axis is 1, the result's batch axes are 0 and 1, the words' kept axes are 0 and 1
  have hsk : d.sKept = [(1 : Fin 2)] := by
    show Shape.kept _ (d.collapsedSliceDims ++ d.operandBatchingDims) = _
    rw [hcoll, hob]; rfl
  have hbd : d.batchDims = [(0 : Fin 3), 1] := by
    show Shape.kept _ d.offsetDims = _
    rw [hoff]; rfl
  have hsik : d.siKept = [(0 : Fin 3), 1] := by
    show (List.finRange 3).filter (·.val ≠ d.indexVectorDim) = _
    rw [hivd]; rfl
  have key0 : ∀ k : Fin 3, k = 0 → ((ix3 a b c : (⟨3, ![A, B, C]⟩ : Shape).Idx) k).val = a.val := by
    rintro _ rfl; rfl
  have key1 : ∀ k : Fin 3, k = 1 → ((ix3 a b c : (⟨3, ![A, B, C]⟩ : Shape).Idx) k).val = b.val := by
    rintro _ rfl; rfl
  have key2 : ∀ k : Fin 3, k = 2 → ((ix3 a b c : (⟨3, ![A, B, C]⟩ : Shape).Idx) k).val = c.val := by
    rintro _ rfl; rfl
  rcases axis2_cases e with rfl | rfl
  · -- axis 0: collapsed and start-indexed, the clamped start index, no offset
    have hm : (0 : Fin 2) ∈ d.startIndexMap := by rw [hsim]; exact List.mem_singleton.mpr rfl
    have hk : (0 : Fin 2) ∉ d.sKept := by rw [hsk]; exact (by decide : (0 : Fin 2) ∉ [(1 : Fin 2)])
    have hsl : d.sliceSizes (0 : Fin 2) = 1 := d.slice_collapsed 0 (by rw [hcoll]; exact List.mem_singleton.mpr rfl)
    rw [GatherDims.offCoord_eq_zero _ _ _ hk, Nat.add_zero]
    unfold GatherDims.start
    rw [dif_pos hm]
    -- the start index is read at (a, b, 0): the result's batch coordinates are its coordinates on axes 0 and 1
    have hsi : ∀ kk, d.siIdx (ix3 a b c) kk = ix3 a b (0 : Fin 1) := by
      intro kk; funext b'
      rcases axis3_cases b' with rfl | rfl | rfl
      · have hidx : d.siKept.idxOf (0 : Fin 3) = 0 := by rw [hsik]; rfl
        unfold GatherDims.siIdx
        rw [dif_neg (by rw [hivd]; exact (by decide : ((0 : Fin 3) : Nat) ≠ 2))]
        unfold GatherDims.siCoord
        apply Fin.ext
        simp only [Fin.val_cast]
        refine key0 _ ?_
        exact getElem_of_eq _ hbd hidx rfl
      · have hidx : d.siKept.idxOf (1 : Fin 3) = 1 := by rw [hsik]; rfl
        unfold GatherDims.siIdx
        rw [dif_neg (by rw [hivd]; exact (by decide : ((1 : Fin 3) : Nat) ≠ 2))]
        unfold GatherDims.siCoord
        apply Fin.ext
        simp only [Fin.val_cast]
        refine key1 _ ?_
        exact getElem_of_eq _ hbd hidx rfl
      · apply Fin.ext
        have h1 := (d.siIdx (ix3 a b c) kk (2 : Fin 3)).isLt
        change _ < 1 at h1
        show _ = 0
        omega
    rw [hsi]
    show min (idx _).toInt.toNat (N - d.sliceSizes (0 : Fin 2)) = min (idx (ix3 a b 0)).toInt.toNat (N - 1)
    rw [hsl]
  · -- axis 1: the offset axis, start 0, the result's coordinate on its offset axis 2
    have hm : (1 : Fin 2) ∉ d.startIndexMap := by rw [hsim]; exact (by decide : (1 : Fin 2) ∉ [(0 : Fin 2)])
    have hk : (1 : Fin 2) ∈ d.sKept := by rw [hsk]; exact List.mem_singleton.mpr rfl
    have hidx : d.sKept.idxOf (1 : Fin 2) = 0 := by rw [hsk]; rfl
    unfold GatherDims.start GatherDims.offCoord
    rw [dif_neg hm, dif_pos hk, Nat.zero_add]
    refine key2 _ ?_
    exact getElem_of_eq _ hoff hidx rfl

/-- Element `(a, b, c)` of the row gather, when the word at `(a, b)` is below `N` (and `N` is at most half the word
    range): the table at (that word, c). -/
theorem gather_rows {N C A B w : Nat}
    (d : GatherDims ⟨2, ![N, C]⟩ ⟨3, ![A, B, 1]⟩ ⟨3, ![A, B, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![A, B, 1]⟩ w)
    (a : Fin A) (b : Fin B) (c : Fin C) (hw : 2 * N ≤ 2 ^ w) (hlt : (idx (ix3 a b (0 : Fin 1))).toNat < N) :
    Host.gather d x idx (ix3 a b c) = x (ix2 (⟨(idx (ix3 a b (0 : Fin 1))).toNat, hlt⟩ : Fin N) c) := by
  rw [gather_rows_clamp d hoff hcoll hob hsim hivd x idx a b c (by omega)]
  have e : min (idx (ix3 a b (0 : Fin 1))).toInt.toNat (N - 1) = (idx (ix3 a b (0 : Fin 1))).toNat := by
    rw [toInt_toNat_of_lt _ N hlt hw]; omega
  exact congrArg x (congrArg (fun r => ix2 r c) (Fin.ext e))

end Cert.LibGatherRows
-- ==== Proof.RefEdges.lean ====
/-
  The reference's result, read at one index: it is the two edge lengths.

  `edges` is the composition of the reference's steps. Read at generator `p` and edge `e`, under the hypothesis that
  every vertex word names a row of the table:
  * the wrapped literal column numbers are 0, 2 (and 1, 3): none is negative, so the wrap leaves them, and they lie
    inside the four columns, so the gather's clamp leaves them too — the picked word is word `2e` (and `2e + 1`) of
    generator `p`;
  * a word below 100000 has its sign bit clear, so it is not negative, the wrap leaves it, and the row gather's clamp
    does not bind — the picked row is the row the word names;
  * the sum from zero over the last axis is the sum over the 64 coordinates, and the host's square root is the
    extended reals' square root.
  So the entry is the square root of the sum of the 64 squared coordinate differences of the two named rows.
-/
import proofs.«401090_j62775241999084_2_alg».proof.Proof.RefOps
import proofs.«401090_j62775241999084_2_alg».proof.Proof.EdgeLengths
import proofs.«401090_j62775241999084_2_alg».proof.Proof.LibGatherCol
import proofs.«401090_j62775241999084_2_alg».proof.Proof.LibGatherRows
import Idealize.ShloMosaic.Lib.IdealHost
import Idealize.ShloMosaic.Lib.StableHlo.Predicate

noncomputable section

namespace Cert.ReferenceIdeal.RefEdges

open Cert.ReferenceIdeal Cert.ReferenceIdeal.Gen Cert.ReferenceIdeal.RefOps Idealize.ShloMosaic Idealize.ShloMosaic.ValueIdx
open Cert.EdgeLengths (InRange vtx vtx_val lengthAt lengths)

/-! ## The column numbers -/

/-- The wrapped and clamped column numbers of the first pair are 0 and 2: column `2e` for edge `e`. -/
theorem col_lit0 : ∀ e : Fin 2, min (colStarts lit0 (ix2 e (0 : Fin 1))).toInt.toNat (4 - 1) = 2 * e.val := by
  decide

/-- The wrapped and clamped column numbers of the second pair are 1 and 3: column `2e + 1` for edge `e`. -/
theorem col_lit1 : ∀ e : Fin 2, min (colStarts lit1 (ix2 e (0 : Fin 1))).toInt.toNat (4 - 1) = 2 * e.val + 1 := by
  decide

/-- The first pair of picked words: word `2e` of generator `p`. -/
theorem colsOf_lit0 (v : IVec S500000x4 32) (p : Fin 500000) (e : Fin 2) :
    colsOf v lit0 (ix2 p e) = v (ix2 p (⟨2 * e.val, by omega⟩ : Fin 4)) := by
  unfold colsOf
  refine (Cert.LibGatherCol.gather_cols_apply (R := 500000) (N := 4) (M := 2)
    gather_S500000x4_S2x1_S500000x2_0_1_n_n_1_1_5000001 rfl rfl rfl rfl rfl rfl rfl v (colStarts lit0) p e (by omega)).trans ?_
  exact congrArg (fun q : Fin 4 => v (ix2 p q)) (Fin.ext (col_lit0 e))

/-- The second pair of picked words: word `2e + 1` of generator `p`. -/
theorem colsOf_lit1 (v : IVec S500000x4 32) (p : Fin 500000) (e : Fin 2) :
    colsOf v lit1 (ix2 p e) = v (ix2 p (⟨2 * e.val + 1, by omega⟩ : Fin 4)) := by
  unfold colsOf
  refine (Cert.LibGatherCol.gather_cols_apply (R := 500000) (N := 4) (M := 2)
    gather_S500000x4_S2x1_S500000x2_0_1_n_n_1_1_5000001 rfl rfl rfl rfl rfl rfl rfl v (colStarts lit1) p e (by omega)).trans ?_
  exact congrArg (fun q : Fin 4 => v (ix2 p q)) (Fin.ext (col_lit1 e))

/-! ## The rows -/

/-- A word with its sign bit clear is not negative: the wrap leaves it. -/
theorem rowStarts_apply (w : IVec S500000x2 32) (p : Fin 500000) (e : Fin 2) (h : (w (ix2 p e)).toNat < 2 ^ 31) :
    rowStarts w (ix3 p e (0 : Fin 1)) = w (ix2 p e) := by
  have hc : IntOp.cmpi .slt (w (ix2 p e)) 0#32 = 0#1 :=
    eq_zero_of_ne_one fun h1 => Nat.not_lt_zero _ ((StableHlo.Predicate.slt_iff_toNat h (by decide)).mp h1)
  -- the start index at (p, e, 0) is the wrapped word at (p, e)
  have hb : rowStarts w (ix3 p e (0 : Fin 1))
      = Scalar.select (IntOp.cmpi .slt (w (ix2 p e)) 0#32) (IntOp.addi (w (ix2 p e)) 100000#32) (w (ix2 p e)) := by
    unfold rowStarts broadcastInDim
    refine congrArg (select (cmpi .slt w (broadcastInDim S500000x2 ![] bcast_S_S500000x2 (constantI S_ 32 0#32)))
      (addi w (broadcastInDim S500000x2 ![] bcast_S_S500000x2 (constantI S_ 32 100000#32))) w) (funext fun a => Fin.ext ?_)
    match a with
    | ⟨0, _⟩ => rfl
    | ⟨1, _⟩ => rfl
  rw [hb, hc, select_zero]

/-- The picked row of a word below 100000 is the row the word names, whatever the float values. -/
theorem rowsOf_apply {F : FTy → Type} [FloatOps F] (x : FVec F S100000x64 .f32) (w : IVec S500000x2 32)
    (p : Fin 500000) (e : Fin 2) (k : Fin 64) (h : (w (ix2 p e)).toNat < 100000) :
    rowsOf x w (ix3 p e k) = x (ix2 (⟨(w (ix2 p e)).toNat, h⟩ : Fin 100000) k) := by
  have hs : rowStarts w (ix3 p e (0 : Fin 1)) = w (ix2 p e) := rowStarts_apply w p e (by omega)
  unfold rowsOf
  refine (Cert.LibGatherRows.gather_rows (N := 100000) (C := 64) (A := 500000) (B := 2)
    gather_S100000x64_S500000x2x1_S500000x2x64_2_0_n_n_0_2_164 rfl rfl rfl rfl rfl x (rowStarts w) p e k (by decide)
    (by rw [hs]; exact h)).trans ?_
  exact congrArg (fun r : Fin 100000 => x (ix2 r k)) (Fin.ext (congrArg BitVec.toNat hs))

/-! ## The differences, the sum and the root -/

/-- The difference at generator `p`, edge `e`, coordinate `k`: between the rows that words `2e` and `2e + 1` name. -/
theorem diffs_apply (x : FVec Ideal S100000x64 .f32) (v : IVec S500000x4 32) (hv : InRange v)
    (p : Fin 500000) (e : Fin 2) (k : Fin 64) :
    diffs x v (ix3 p e k)
      = x (ix2 (vtx v p ⟨2 * e.val, by omega⟩) k) - x (ix2 (vtx v p ⟨2 * e.val + 1, by omega⟩) k) := by
  have h0 : (colsOf v lit0 (ix2 p e)).toNat < 100000 := by rw [colsOf_lit0]; exact hv _
  have h1 : (colsOf v lit1 (ix2 p e)).toNat < 100000 := by rw [colsOf_lit1]; exact hv _
  have r0 : (⟨(colsOf v lit0 (ix2 p e)).toNat, h0⟩ : Fin 100000) = vtx v p ⟨2 * e.val, by omega⟩ :=
    Fin.ext ((congrArg BitVec.toNat (colsOf_lit0 v p e)).trans (vtx_val v hv p _).symm)
  have r1 : (⟨(colsOf v lit1 (ix2 p e)).toNat, h1⟩ : Fin 100000) = vtx v p ⟨2 * e.val + 1, by omega⟩ :=
    Fin.ext ((congrArg BitVec.toNat (colsOf_lit1 v p e)).trans (vtx_val v hv p _).symm)
  show rowsOf x (colsOf v lit0) (ix3 p e k) - rowsOf x (colsOf v lit1) (ix3 p e k) = _
  rw [rowsOf_apply x _ p e k h0, rowsOf_apply x _ p e k h1, r0, r1]

/-- The host's square root at an index is the extended reals' square root of the entry. -/
theorem hostSqrt_apply {s : Shape} {φ : FTy} (y : FVec Ideal s φ) (i : s.Idx) : Host.sqrt y i = Ideal.sqrt (y i) := rfl

/-- The reference's result at generator `p`, edge `e` is that edge's length. -/
theorem edges_apply (x : FVec Ideal S100000x64 .f32) (v : IVec S500000x4 32) (hv : InRange v)
    (p : Fin 500000) (e : Fin 2) :
    edges (F := Ideal) x v (ix2 p e) = lengthAt x v p e := by
  have hR : S500000x2x64.Reduces [2] S500000x2 := by decide
  -- the source index over (p, e) with coordinate k on the summed axis is (p, e, k)
  have hl : ∀ k : Fin 64, hR.lift (ix2 p e) k = ix3 p e k := fun k => by
    funext a; apply Fin.ext
    match a with
    | ⟨0, _⟩ => rfl
    | ⟨1, _⟩ => rfl
    | ⟨2, _⟩ => rfl
  unfold edges lengthAt Cert.EdgeLengths.dist
  -- the root of the sum, from the initial value zero, over the 64 coordinates
  rw [hostSqrt_apply, hostReduceAdd_apply, Ideal.hostReduceAdd_single reducesTo_S500000x2x64_S500000x2_d2 hR,
    constant_apply, Ideal.ofBits_zero_f32, zero_add]
  refine congrArg Ideal.sqrt (Finset.sum_congr rfl fun k _ => ?_)
  rw [hl k, mulf_apply, diffs_apply x v hv p e k]

/-- The reference's whole result is the array of edge lengths. -/
theorem edges_eq (x : FVec Ideal S100000x64 .f32) (v : IVec S500000x4 32) (hv : InRange v) :
    edges (F := Ideal) x v = lengths x v := by
  funext j
  obtain ⟨p, e, rfl⟩ : ∃ (p : Fin 500000) (e : Fin 2), j = ix2 p e := ⟨j 0, j 1, eq_ix2 j⟩
  exact edges_apply x v hv p e

end Cert.ReferenceIdeal.RefEdges

end
-- ==== Proof.RefValue.lean ====
/-
  The reference's half of the equivalence.

  From any memory with zero counters in which every vertex word names a row of the point table, every weakly fair
  execution of the reference terminates; its result buffer then holds, for each generator, the Euclidean lengths of
  its birth edge and of its death edge, and the two argument arrays are unchanged. This joins the run (the result
  buffer ends at the composition of the reference's steps) with the reading of that composition at every index.
-/
import proofs.«401090_j62775241999084_2_alg».proof.Proof.RefRun
import proofs.«401090_j62775241999084_2_alg».proof.Proof.RefEdges

noncomputable section

namespace Cert.ReferenceIdeal.RefValue

open Cert.ReferenceIdeal Idealize.ShloMosaic Idealize.ShloMosaic.TcCoe Idealize.SL.Sem

/-- On every device, at the ideal values, from any memory with zero counters whose vertex words are all in range:
    every weakly fair execution of @main terminates with the result buffer at the array of edge lengths of the two
    argument arrays, and the arguments unchanged. -/
theorem run (m : (ℓ : Loc nD τ sig) → Buf (Elt Ideal) ℓ) (ρ : Dev nD → PrngReg)
    (hR : ∀ c : Dev nD, Cert.EdgeLengths.InRange (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v31) = Cert.EdgeLengths.lengths (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun _ h c => ⟨(h c).1.trans (RefEdges.edges_eq _ _ (hR c)), (h c).2⟩)
    (RefRun.run_edges (F := Ideal) m ρ)

end Cert.ReferenceIdeal.RefValue

end
-- ==== Proof.KI.BodyCommon.lean ====
/-
  What every region of the gather-and-norm program shares: the three rectangles its body reads and writes through,
  and how one array read by four input windows is dealt among them.
-/
import proofs.«401090_j62775241999084_2_alg».proof.Proof.RegionsKernelIdeal
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole input block: one row of the table. -/
abbrev rowRect : Rect S1x1x64 := Rect.unit (s := S1x1x64) ![0, 0, 0] S1x1x64.size inb_S1x1x64_S1x1x64_0_0_0
/-- Position 0 of the output block: the birth edge's length. -/
abbrev outRectB : Rect S1x1x2 := Rect.unit (s := S1x1x2) ![0, 0, 0] S1x1x1.size inb_S1x1x2_S1x1x1_0_0_0
/-- Position 1 of the output block: the death edge's length. -/
abbrev outRectD : Rect S1x1x2 := Rect.unit (s := S1x1x2) ![0, 0, 1] S1x1x1.size inb_S1x1x2_S1x1x1_0_0_1

/-- The four input windows read ONE array, the point table: each holds a quarter of it; the rest is not needed. -/
def inShare (w : Fin 5) : PosShare TreeShare :=
  if h : w.val < 4 then Transfers.shareTok fullShare 4 ⟨w.val, h⟩ else fullShare

end Cert.KernelIdeal.Gen

end
-- ==== Proof.KI.Region0.lean ====
/-
  Region 0 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk0`),
  whatever it held before.

  The region's proof data then says: at every grid point each input window's buffer holds the table row its index
  table names there, and the output window's buffer is left at `outBlk0` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk0 (x0 x1 x2 x3 : Vec F S1x1x64 .f32) : Vec F S1x1x2 .f32 :=
  View.canon [⟨outRectD, k0_pay2 (View.ld x2 rowRect) (View.ld x3 rowRect)⟩,
              ⟨outRectB, k0_pay1 (View.ld x0 rowRect) (View.ld x1 rowRect)⟩]

/-- The two one-element stores tile the two-element block. -/
theorem outCover0 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk0` of the inputs. The index tables are not
    touched by the body (only the index maps read them), so nothing is asked of them. -/
theorem sound_kernel0 (c : Dev nD) (E : Set ℕ) (i : grid0.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk0 x0 x1 x2 x3)) -∗ K ⟨⟩))
      ⊢ wp frame (wpE (defs₀ (F := F)) Variants.none c none) E
          (cc0__gather_norm_kernel i a1 h1 a2 h2 a3 h3 a4 h4 a5 h5 a6 h6 a7 h7 a8 h8 a9 h9) K := by
  simp only [cc0__gather_norm_kernel_eq_skeleton]; unfold cc0__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover0 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg0 (F := F)).Adm)

/-- Window `w`'s block at point `t`, read off its array as the region finds it: for an input window the table row
    its index table names at `t`, for the output window the two-element row `t` of the result. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The proof data of region 0 on core `c`: the arrays as the region finds them; after the body at point `t` each
    input block as it was and the output block the two lengths; the invariant carries the untouched scoped
    buffers, the generator register and the four index tables, which only the index maps read. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => outBlk0 (iblk0 V a c 0 t) (iblk0 V a c 1 t) (iblk0 V a c 2 t) (iblk0 V a c 3 t)
  Φ _ := iprop(Pipeline.ΦA spec0 c ∗ Pipeline.prefHeld pre0 c (fun _ => fullShare) a.1)
  q w := inShare w
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after 0 t = iblk0 V a c 0 t := by dsimp only [dat0]; rfl
theorem after0_1 (c : Dev nD) (t : Fin (cfg0 a).N) : (dat0 V a c).after 1 t = iblk0 V a c 1 t := by dsimp only [dat0]; rfl
theorem after0_2 (c : Dev nD) (t : Fin (cfg0 a).N) : (dat0 V a c).after 2 t = iblk0 V a c 2 t := by dsimp only [dat0]; rfl
theorem after0_3 (c : Dev nD) (t : Fin (cfg0 a).N) : (dat0 V a c).after 3 t = iblk0 V a c 3 t := by dsimp only [dat0]; rfl
theorem after0_4 (c : Dev nD) (t : Fin (cfg0 a).N) : (dat0 V a c).after 4 t
    = outBlk0 (iblk0 V a c 0 t) (iblk0 V a c 1 t) (iblk0 V a c 2 t) (iblk0 V a c 3 t) := by dsimp only [dat0]; rfl

/-- Input window 0 holds its row at every point, fetched there or not: the body never writes an input block, the
    window is never idle and its blocks are whole rows. -/
theorem before0_0 (c : Dev nD) (t : Fin (cfg0 a).N) (d) : (dat0 V a c).before 0 t d = iblk0 V a c 0 t :=
  ((dat0 V a c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1 holds its row at every point, fetched there or not: the body never writes an input block, the
    window is never idle and its blocks are whole rows. -/
theorem before0_1 (c : Dev nD) (t : Fin (cfg0 a).N) (d) : (dat0 V a c).before 1 t d = iblk0 V a c 1 t :=
  ((dat0 V a c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2 holds its row at every point, fetched there or not: the body never writes an input block, the
    window is never idle and its blocks are whole rows. -/
theorem before0_2 (c : Dev nD) (t : Fin (cfg0 a).N) (d) : (dat0 V a c).before 2 t d = iblk0 V a c 2 t :=
  ((dat0 V a c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Input window 3 holds its row at every point, fetched there or not: the body never writes an input block, the
    window is never idle and its blocks are whole rows. -/
theorem before0_3 (c : Dev nD) (t : Fin (cfg0 a).N) (d) : (dat0 V a c).before 3 t d = iblk0 V a c 3 t :=
  ((dat0 V a c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The body at a generic point -/

/-- The kernel body as region 0 calls it at point `t`: the point's coordinates, the four index tables whole, and each
    window's current staging buffer. -/
abbrev bodyAt0 (t : Fin (cfg0 a).N) : Prog (TpuEff nD τ sig (Elt F) Λ₀ .tc) PUnit :=
  cc0__gather_norm_kernel (grid0.coords t) (Memref.whole main_v9) (Memref.isWhole_whole _) (Memref.whole main_v10) (Memref.isWhole_whole _)
    (Memref.whole main_v11) (Memref.isWhole_whole _) (Memref.whole main_v12) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))

/-- The body at any point: each input buffer holds its row (`before0_w`), so `sound_kernel0` applies; the invariant
    (with the index tables in it) and what the core owes pass through unread. -/
theorem sound_body0 (c : Dev nD) (t : Fin (cfg0 a).N) :
    iprop((dat0 V a c).Φ t.castSucc ∗ (dat0 V a c).owesAt () t.castSucc
      ∗ (∃ d, owns (c : Thread nD τ) (((cfg0 a).win 0).stage ((cfg0 a).slots t 0)) fullShare ((dat0 V a c).before 0 t d))
      ∗ (∃ d, owns (c : Thread nD τ) (((cfg0 a).win 1).stage ((cfg0 a).slots t 1)) fullShare ((dat0 V a c).before 1 t d))
      ∗ (∃ d, owns (c : Thread nD τ) (((cfg0 a).win 2).stage ((cfg0 a).slots t 2)) fullShare ((dat0 V a c).before 2 t d))
      ∗ (∃ d, owns (c : Thread nD τ) (((cfg0 a).win 3).stage ((cfg0 a).slots t 3)) fullShare ((dat0 V a c).before 3 t d))
      ∗ (∃ d, owns (c : Thread nD τ) (((cfg0 a).win 4).stage ((cfg0 a).slots t 4)) fullShare ((dat0 V a c).before 4 t d)))
    ⊢ wp frame (wpE (defs₀ (F := F)) Variants.none c none) Set.univ
        (bodyAt0 a t)
        (fun _ => iprop((dat0 V a c).Φ t.succ ∗ (dat0 V a c).owesAt () t.succ
          ∗ owns (c : Thread nD τ) (((cfg0 a).win 0).stage ((cfg0 a).slots t 0)) fullShare ((dat0 V a c).after 0 t)
          ∗ owns (c : Thread nD τ) (((cfg0 a).win 1).stage ((cfg0 a).slots t 1)) fullShare ((dat0 V a c).after 1 t)
          ∗ owns (c : Thread nD τ) (((cfg0 a).win 2).stage ((cfg0 a).slots t 2)) fullShare ((dat0 V a c).after 2 t)
          ∗ owns (c : Thread nD τ) (((cfg0 a).win 3).stage ((cfg0 a).slots t 3)) fullShare ((dat0 V a c).after 3 t)
          ∗ owns (c : Thread nD τ) (((cfg0 a).win 4).stage ((cfg0 a).slots t 4)) fullShare ((dat0 V a c).after 4 t))) := by
  simp only [before0_0, before0_1, before0_2, before0_3]
  rw [show (dat0 V a c).Φ t.succ = (dat0 V a c).Φ t.castSucc from rfl,
    show (dat0 V a c).owesAt () t.succ = (dat0 V a c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  unfold bodyAt0
  iapply (sound_kernel0 c Set.univ _ _ _ _ _ _ _ _ _ _ _ _ _ _ _ _ _ _ _ (iblk0 V a c 0 t) (iblk0 V a c 1 t) (iblk0 V a c 2 t) (iblk0 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 0, at every point. -/
theorem body_obligation0 (c : Dev nD) : BodyObligation (dat0 (F := F) V a c) (defs₀ (F := F)) Variants.none () Set.univ := fun t => by
  rw [bigSep_W0, bigSep_W0]
  exact sound_body0 V a c t

end Region0

end Cert.KernelIdeal.Gen

end
-- ==== Proof.KI.Tables.lean ====
/-
  The index tables in closed form. Region K (K = 0 … 19) handles generators 25000·K … 25000·K + 24999, and its table j
  (j = 0 … 3) is column j of the vertex words restricted to those rows. Under the range hypothesis every table
  word names a row of the point table.
-/
import proofs.«401090_j62775241999084_2_alg».proof.Proof.Gen.KernelIdeal
import proofs.«401090_j62775241999084_2_alg».proof.Proof.EdgeLengths

noncomputable section

namespace Cert.KernelIdeal.Gen

open Idealize.ShloMosaic Idealize.ShloMosaic.TcCoe Idealize.SL.Sem

variable {F : FTy → Type} [FloatOps F]

/-- The generator that entry `i` of a table of region `K` belongs to. -/
def genOf (K : Fin 20) (i : Fin 25000) : Fin 500000 := ⟨25000 * K.val + i.val, by have := K.isLt; have := i.isLt; omega⟩

/-- Table `j` of region `K`, read off the launch memory `m` on core `c`: vertex word `j` of generator `25000·K + i`. -/
def tbl (m : (ℓ : Loc nD τ sig) → Buf (Elt F) ℓ) (c : Dev nD) (K : Fin 20) (j : Fin 4) : S25000.Idx → BitVec 32 :=
  fun i => (m ((c.tc : Thread nD τ).loc main_arg1) : S500000x4.Idx → BitVec 32) (ValueIdx.ix2 (genOf K (i 0)) j)

/-- In range, every table word names a row of the point table. -/
theorem tbl_lt (m : (ℓ : Loc nD τ sig) → Buf (Elt F) ℓ) (c : Dev nD)
    (hR : Cert.EdgeLengths.InRange (m ((c.tc : Thread nD τ).loc main_arg1))) (K : Fin 20) (j : Fin 4) (i : S25000.Idx) :
    (tbl m c K j i).toNat < 100000 := hR _

end Cert.KernelIdeal.Gen

end
-- ==== Proof.KI.Ok0.lean ====
/-
  The index tables of region 0 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok0_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 0's side condition. -/
theorem ok0_of_lt (pf : pre0.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok0 pf := by
  unfold ok0
  refine ⟨fun i => ⟨?_, Or.inl rfl⟩, fun i => ⟨?_, Or.inl rfl⟩, fun i => ⟨?_, Or.inl rfl⟩, fun i => ⟨?_, Or.inl rfl⟩⟩
  · exact ok0_fits _ (h0 _)
  · exact ok0_fits _ (h1 _)
  · exact ok0_fits _ (h2 _)
  · exact ok0_fits _ (h3 _)

/-- The four index tables of region 0 as the launch memory holds them on core `c`. -/
def pf0 (m : (ℓ : Loc nD τ sig) → Buf (Elt F) ℓ) (c : Dev nD) : pre0.Contents (Elt F) :=
  fun | 0 => tbl m c (0 : Fin 20) 0 | 1 => tbl m c (0 : Fin 20) 1 | 2 => tbl m c (0 : Fin 20) 2 | 3 => tbl m c (0 : Fin 20) 3
      | ⟨_ + 4, h⟩ => absurd h (Nat.not_lt.2 (Nat.le_add_left _ _))

/-- In range, those tables are admissible contents of region 0's pipeline. -/
def adm0 (m : (ℓ : Loc nD τ sig) → Buf (Elt F) ℓ) (c : Dev nD)
    (hR : Cert.EdgeLengths.InRange (m ((c.tc : Thread nD τ).loc main_arg1))) : (pcfg0 (F := F)).Adm :=
  ⟨pf0 m c, ok0_of_lt _ (tbl_lt m c hR _ _) (tbl_lt m c hR _ _) (tbl_lt m c hR _ _) (tbl_lt m c hR _ _)⟩

theorem adm0_0 (m : (ℓ : Loc nD τ sig) → Buf (Elt F) ℓ) (c : Dev nD)
    (hR : Cert.EdgeLengths.InRange (m ((c.tc : Thread nD τ).loc main_arg1))) :
    (adm0 m c hR).1 0 = tbl m c (0 : Fin 20) 0 := rfl
theorem adm0_1 (m : (ℓ : Loc nD τ sig) → Buf (Elt F) ℓ) (c : Dev nD)
    (hR : Cert.EdgeLengths.InRange (m ((c.tc : Thread nD τ).loc main_arg1))) :
    (adm0 m c hR).1 1 = tbl m c (0 : Fin 20) 1 := rfl
theorem adm0_2 (m : (ℓ : Loc nD τ sig) → Buf (Elt F) ℓ) (c : Dev nD)
    (hR : Cert.EdgeLengths.InRange (m ((c.tc : Thread nD τ).loc main_arg1))) :
    (adm0 m c hR).1 2 = tbl m c (0 : Fin 20) 2 := rfl
theorem adm0_3 (m : (ℓ : Loc nD τ sig) → Buf (Elt F) ℓ) (c : Dev nD)
    (hR : Cert.EdgeLengths.InRange (m ((c.tc : Thread nD τ).loc main_arg1))) :
    (adm0 m c hR).1 3 = tbl m c (0 : Fin 20) 3 := rfl

end Cert.KernelIdeal.Gen

end
-- ==== Proof.KI.Region1.lean ====
/-
  Region 1 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk1`),
  whatever it held before.

  The region's proof data then says: at every grid point each input window's buffer holds the table row its index
  table names there, and the output window's buffer is left at `outBlk1` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk1 (x0 x1 x2 x3 : Vec F S1x1x64 .f32) : Vec F S1x1x2 .f32 :=
  View.canon [⟨outRectD, k1_pay2 (View.ld x2 rowRect) (View.ld x3 rowRect)⟩,
              ⟨outRectB, k1_pay1 (View.ld x0 rowRect) (View.ld x1 rowRect)⟩]

/-- The two one-element stores tile the two-element block. -/
theorem outCover1 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk1` of the inputs. The index tables are not
    touched by the body (only the index maps read them), so nothing is asked of them. -/
theorem sound_kernel1 (c : Dev nD) (E : Set ℕ) (i : grid1.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk1 x0 x1 x2 x3)) -∗ K ⟨⟩))
      ⊢ wp frame (wpE (defs₀ (F := F)) Variants.none c none) E
          (cc1__gather_norm_kernel i a1 h1 a2 h2 a3 h3 a4 h4 a5 h5 a6 h6 a7 h7 a8 h8 a9 h9) K := by
  simp only [cc1__gather_norm_kernel_eq_skeleton]; unfold cc1__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover1 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg1 (F := F)).Adm)

/-- Window `w`'s block at point `t`, read off its array as the region finds it: for an input window the table row
    its index table names at `t`, for the output window the two-element row `t` of the result. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The proof data of region 1 on core `c`: the arrays as the region finds them; after the body at point `t` each
    input block as it was and the output block the two lengths; the invariant carries the untouched scoped
    buffers, the generator register and the four index tables, which only the index maps read. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => outBlk1 (iblk1 V a c 0 t) (iblk1 V a c 1 t) (iblk1 V a c 2 t) (iblk1 V a c 3 t)
  Φ _ := iprop(Pipeline.ΦA spec1 c ∗ Pipeline.prefHeld pre1 c (fun _ => fullShare) a.1)
  q w := inShare w
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = iblk1 V a c 1 t := by dsimp only [dat1]; rfl
theorem after1_2 (c : Dev nD) (t : Fin (cfg1 a).N) : (dat1 V a c).after 2 t = iblk1 V a c 2 t := by dsimp only [dat1]; rfl
theorem after1_3 (c : Dev nD) (t : Fin (cfg1 a).N) : (dat1 V a c).after 3 t = iblk1 V a c 3 t := by dsimp only [dat1]; rfl
theorem after1_4 (c : Dev nD) (t : Fin (cfg1 a).N) : (dat1 V a c).after 4 t
    = outBlk1 (iblk1 V a c 0 t) (iblk1 V a c 1 t) (iblk1 V a c 2 t) (iblk1 V a c 3 t) := by dsimp only [dat1]; rfl

/-- Input window 0 holds its row at every point, fetched there or not: the body never writes an input block, the
    window is never idle and its blocks are whole rows. -/
theorem before1_0 (c : Dev nD) (t : Fin (cfg1 a).N) (d) : (dat1 V a c).before 0 t d = iblk1 V a c 0 t :=
  ((dat1 V a c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Input window 1 holds its row at every point, fetched there or not: the body never writes an input block, the
    window is never idle and its blocks are whole rows. -/
theorem before1_1 (c : Dev nD) (t : Fin (cfg1 a).N) (d) : (dat1 V a c).before 1 t d = iblk1 V a c 1 t :=
  ((dat1 V a c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Input window 2 holds its row at every point, fetched there or not: the body never writes an input block, the
    window is never idle and its blocks are whole rows. -/
theorem before1_2 (c : Dev nD) (t : Fin (cfg1 a).N) (d) : (dat1 V a c).before 2 t d = iblk1 V a c 2 t :=
  ((dat1 V a c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- Input window 3 holds its row at every point, fetched there or not: the body never writes an input block, the
    window is never idle and its blocks are whole rows. -/
theorem before1_3 (c : Dev nD) (t : Fin (cfg1 a).N) (d) : (dat1 V a c).before 3 t d = iblk1 V a c 3 t :=
  ((dat1 V a c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body at a generic point -/

/-- The kernel body as region 1 calls it at point `t`: the point's coordinates, the four index tables whole, and each
    window's current staging buffer. -/
abbrev bodyAt1 (t : Fin (cfg1 a).N) : Prog (TpuEff nD τ sig (Elt F) Λ₀ .tc) PUnit :=
  cc1__gather_norm_kernel (grid1.coords t) (Memref.whole main_v14) (Memref.isWhole_whole _) (Memref.whole main_v15) (Memref.isWhole_whole _)
    (Memref.whole main_v16) (Memref.isWhole_whole _) (Memref.whole main_v17) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))

/-- The body at any point: each input buffer holds its row (`before1_w`), so `sound_kernel1` applies; the invariant
    (with the index tables in it) and what the core owes pass through unread. -/
theorem sound_body1 (c : Dev nD) (t : Fin (cfg1 a).N) :
    iprop((dat1 V a c).Φ t.castSucc ∗ (dat1 V a c).owesAt () t.castSucc
      ∗ (∃ d, owns (c : Thread nD τ) (((cfg1 a).win 0).stage ((cfg1 a).slots t 0)) fullShare ((dat1 V a c).before 0 t d))
      ∗ (∃ d, owns (c : Thread nD τ) (((cfg1 a).win 1).stage ((cfg1 a).slots t 1)) fullShare ((dat1 V a c).before 1 t d))
      ∗ (∃ d, owns (c : Thread nD τ) (((cfg1 a).win 2).stage ((cfg1 a).slots t 2)) fullShare ((dat1 V a c).before 2 t d))
      ∗ (∃ d, owns (c : Thread nD τ) (((cfg1 a).win 3).stage ((cfg1 a).slots t 3)) fullShare ((dat1 V a c).before 3 t d))
      ∗ (∃ d, owns (c : Thread nD τ) (((cfg1 a).win 4).stage ((cfg1 a).slots t 4)) fullShare ((dat1 V a c).before 4 t d)))
    ⊢ wp frame (wpE (defs₀ (F := F)) Variants.none c none) Set.univ
        (bodyAt1 a t)
        (fun _ => iprop((dat1 V a c).Φ t.succ ∗ (dat1 V a c).owesAt () t.succ
          ∗ owns (c : Thread nD τ) (((cfg1 a).win 0).stage ((cfg1 a).slots t 0)) fullShare ((dat1 V a c).after 0 t)
          ∗ owns (c : Thread nD τ) (((cfg1 a).win 1).stage ((cfg1 a).slots t 1)) fullShare ((dat1 V a c).after 1 t)
          ∗ owns (c : Thread nD τ) (((cfg1 a).win 2).stage ((cfg1 a).slots t 2)) fullShare ((dat1 V a c).after 2 t)
          ∗ owns (c : Thread nD τ) (((cfg1 a).win 3).stage ((cfg1 a).slots t 3)) fullShare ((dat1 V a c).after 3 t)
          ∗ owns (c : Thread nD τ) (((cfg1 a).win 4).stage ((cfg1 a).slots t 4)) fullShare ((dat1 V a c).after 4 t))) := by
  simp only [before1_0, before1_1, before1_2, before1_3]
  rw [show (dat1 V a c).Φ t.succ = (dat1 V a c).Φ t.castSucc from rfl,
    show (dat1 V a c).owesAt () t.succ = (dat1 V a c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  unfold bodyAt1
  iapply (sound_kernel1 c Set.univ _ _ _ _ _ _ _ _ _ _ _ _ _ _ _ _ _ _ _ (iblk1 V a c 0 t) (iblk1 V a c 1 t) (iblk1 V a c 2 t) (iblk1 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 1, at every point. -/
theorem body_obligation1 (c : Dev nD) : BodyObligation (dat1 (F := F) V a c) (defs₀ (F := F)) Variants.none () Set.univ := fun t => by
  rw [bigSep_W1, bigSep_W1]
  exact sound_body1 V a c t

end Region0

end Cert.KernelIdeal.Gen

end
-- ==== Proof.KI.Ok1.lean ====
/-
  The index tables of region 1 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok1_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 1's side condition. -/
theorem ok1_of_lt (pf : pre1.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok1 pf := by
  unfold ok1
  refine ⟨fun i => ⟨?_, Or.inl rfl⟩, fun i => ⟨?_, Or.inl rfl⟩, fun i => ⟨?_, Or.inl rfl⟩, fun i => ⟨?_, Or.inl rfl⟩⟩
  · exact ok1_fits _ (h0 _)
  · exact ok1_fits _ (h1 _)
  · exact ok1_fits _ (h2 _)
  · exact ok1_fits _ (h3 _)

/-- The four index tables of region 1 as the launch memory holds them on core `c`. -/
def pf1 (m : (ℓ : Loc nD τ sig) → Buf (Elt F) ℓ) (c : Dev nD) : pre1.Contents (Elt F) :=
  fun | 0 => tbl m c (1 : Fin 20) 0 | 1 => tbl m c (1 : Fin 20) 1 | 2 => tbl m c (1 : Fin 20) 2 | 3 => tbl m c (1 : Fin 20) 3
      | ⟨_ + 4, h⟩ => absurd h (Nat.not_lt.2 (Nat.le_add_left _ _))

/-- In range, those tables are admissible contents of region 1's pipeline. -/
def adm1 (m : (ℓ : Loc nD τ sig) → Buf (Elt F) ℓ) (c : Dev nD)
    (hR : Cert.EdgeLengths.InRange (m ((c.tc : Thread nD τ).loc main_arg1))) : (pcfg1 (F := F)).Adm :=
  ⟨pf1 m c, ok1_of_lt _ (tbl_lt m c hR _ _) (tbl_lt m c hR _ _) (tbl_lt m c hR _ _) (tbl_lt m c hR _ _)⟩

theorem adm1_0 (m : (ℓ : Loc nD τ sig) → Buf (Elt F) ℓ) (c : Dev nD)
    (hR : Cert.EdgeLengths.InRange (m ((c.tc : Thread nD τ).loc main_arg1))) :
    (adm1 m c hR).1 0 = tbl m c (1 : Fin 20) 0 := rfl
theorem adm1_1 (m : (ℓ : Loc nD τ sig) → Buf (Elt F) ℓ) (c : Dev nD)
    (hR : Cert.EdgeLengths.InRange (m ((c.tc : Thread nD τ).loc main_arg1))) :
    (adm1 m c hR).1 1 = tbl m c (1 : Fin 20) 1 := rfl
theorem adm1_2 (m : (ℓ : Loc nD τ sig) → Buf (Elt F) ℓ) (c : Dev nD)
    (hR : Cert.EdgeLengths.InRange (m ((c.tc : Thread nD τ).loc main_arg1))) :
    (adm1 m c hR).1 2 = tbl m c (1 : Fin 20) 2 := rfl
theorem adm1_3 (m : (ℓ : Loc nD τ sig) → Buf (Elt F) ℓ) (c : Dev nD)
    (hR : Cert.EdgeLengths.InRange (m ((c.tc : Thread nD τ).loc main_arg1))) :
    (adm1 m c hR).1 3 = tbl m c (1 : Fin 20) 3 := rfl

end Cert.KernelIdeal.Gen

end
-- ==== Proof.KI.Region2.lean ====
/-
  Region 2 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk2`),
  whatever it held before.

  The region's proof data then says: at every grid point each input window's buffer holds the table row its index
  table names there, and the output window's buffer is left at `outBlk2` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk2 (x0 x1 x2 x3 : Vec F S1x1x64 .f32) : Vec F S1x1x2 .f32 :=
  View.canon [⟨outRectD, k2_pay2 (View.ld x2 rowRect) (View.ld x3 rowRect)⟩,
              ⟨outRectB, k2_pay1 (View.ld x0 rowRect) (View.ld x1 rowRect)⟩]

/-- The two one-element stores tile the two-element block. -/
theorem outCover2 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk2` of the inputs. The index tables are not
    touched by the body (only the index maps read them), so nothing is asked of them. -/
theorem sound_kernel2 (c : Dev nD) (E : Set ℕ) (i : grid2.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk2 x0 x1 x2 x3)) -∗ K ⟨⟩))
      ⊢ wp frame (wpE (defs₀ (F := F)) Variants.none c none) E
          (cc2__gather_norm_kernel i a1 h1 a2 h2 a3 h3 a4 h4 a5 h5 a6 h6 a7 h7 a8 h8 a9 h9) K := by
  simp only [cc2__gather_norm_kernel_eq_skeleton]; unfold cc2__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover2 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg2 (F := F)).Adm)

/-- Window `w`'s block at point `t`, read off its array as the region finds it: for an input window the table row
    its index table names at `t`, for the output window the two-element row `t` of the result. -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- The proof data of region 2 on core `c`: the arrays as the region finds them; after the body at point `t` each
    input block as it was and the output block the two lengths; the invariant carries the untouched scoped
    buffers, the generator register and the four index tables, which only the index maps read. -/
def dat2 (c : Dev nD) : Dat τ (Elt F) Unit ℕ (UR sig nD τ) ℕ (cfg2 a) c where
  A w := V c (Pipeline.arrRef spec2 w)
  after w t := match w with
    | ⟨0, _⟩ => iblk2 V a c 0 t
    | ⟨1, _⟩ => iblk2 V a c 1 t
    | ⟨2, _⟩ => iblk2 V a c 2 t
    | ⟨3, _⟩ => iblk2 V a c 3 t
    | ⟨4, _⟩ => outBlk2 (iblk2 V a c 0 t) (iblk2 V a c 1 t) (iblk2 V a c 2 t) (iblk2 V a c 3 t)
  Φ _ := iprop(Pipeline.ΦA spec2 c ∗ Pipeline.prefHeld pre2 c (fun _ => fullShare) a.1)
  q w := inShare w
  owed _ := 0

theorem A_eq2 (c : Dev nD) (w : Fin (cfg2 a).W) : (dat2 V a c).A w = V c (Pipeline.arrRef spec2 w) := by
  dsimp only [dat2]

theorem after2_0 (c : Dev nD) (t : Fin (cfg2 a).N) : (dat2 V a c).after 0 t = iblk2 V a c 0 t := by dsimp only [dat2]; rfl
theorem after2_1 (c : Dev nD) (t : Fin (cfg2 a).N) : (dat2 V a c).after 1 t = iblk2 V a c 1 t := by dsimp only [dat2]; rfl
theorem after2_2 (c : Dev nD) (t : Fin (cfg2 a).N) : (dat2 V a c).after 2 t = iblk2 V a c 2 t := by dsimp only [dat2]; rfl
theorem after2_3 (c : Dev nD) (t : Fin (cfg2 a).N) : (dat2 V a c).after 3 t = iblk2 V a c 3 t := by dsimp only [dat2]; rfl
theorem after2_4 (c : Dev nD) (t : Fin (cfg2 a).N) : (dat2 V a c).after 4 t
    = outBlk2 (iblk2 V a c 0 t) (iblk2 V a c 1 t) (iblk2 V a c 2 t) (iblk2 V a c 3 t) := by dsimp only [dat2]; rfl

/-- Input window 0 holds its row at every point, fetched there or not: the body never writes an input block, the
    window is never idle and its blocks are whole rows. -/
theorem before2_0 (c : Dev nD) (t : Fin (cfg2 a).N) (d) : (dat2 V a c).before 0 t d = iblk2 V a c 0 t :=
  ((dat2 V a c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- Input window 1 holds its row at every point, fetched there or not: the body never writes an input block, the
    window is never idle and its blocks are whole rows. -/
theorem before2_1 (c : Dev nD) (t : Fin (cfg2 a).N) (d) : (dat2 V a c).before 1 t d = iblk2 V a c 1 t :=
  ((dat2 V a c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- Input window 2 holds its row at every point, fetched there or not: the body never writes an input block, the
    window is never idle and its blocks are whole rows. -/
theorem before2_2 (c : Dev nD) (t : Fin (cfg2 a).N) (d) : (dat2 V a c).before 2 t d = iblk2 V a c 2 t :=
  ((dat2 V a c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-- Input window 3 holds its row at every point, fetched there or not: the body never writes an input block, the
    window is never idle and its blocks are whole rows. -/
theorem before2_3 (c : Dev nD) (t : Fin (cfg2 a).N) (d) : (dat2 V a c).before 3 t d = iblk2 V a c 3 t :=
  ((dat2 V a c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-! ## The body at a generic point -/

/-- The kernel body as region 2 calls it at point `t`: the point's coordinates, the four index tables whole, and each
    window's current staging buffer. -/
abbrev bodyAt2 (t : Fin (cfg2 a).N) : Prog (TpuEff nD τ sig (Elt F) Λ₀ .tc) PUnit :=
  cc2__gather_norm_kernel (grid2.coords t) (Memref.whole main_v19) (Memref.isWhole_whole _) (Memref.whole main_v20) (Memref.isWhole_whole _)
    (Memref.whole main_v21) (Memref.isWhole_whole _) (Memref.whole main_v22) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))
    (spec2_3.stage ((cfg2 a).slots t 3)) (hstage2_3 (((cfg2 a).slots t 3).cast nbuf2_3))
    (spec2_4.stage ((cfg2 a).slots t 4)) (hstage2_4 (((cfg2 a).slots t 4).cast nbuf2_4))

/-- The body at any point: each input buffer holds its row (`before2_w`), so `sound_kernel2` applies; the invariant
    (with the index tables in it) and what the core owes pass through unread. -/
theorem sound_body2 (c : Dev nD) (t : Fin (cfg2 a).N) :
    iprop((dat2 V a c).Φ t.castSucc ∗ (dat2 V a c).owesAt () t.castSucc
      ∗ (∃ d, owns (c : Thread nD τ) (((cfg2 a).win 0).stage ((cfg2 a).slots t 0)) fullShare ((dat2 V a c).before 0 t d))
      ∗ (∃ d, owns (c : Thread nD τ) (((cfg2 a).win 1).stage ((cfg2 a).slots t 1)) fullShare ((dat2 V a c).before 1 t d))
      ∗ (∃ d, owns (c : Thread nD τ) (((cfg2 a).win 2).stage ((cfg2 a).slots t 2)) fullShare ((dat2 V a c).before 2 t d))
      ∗ (∃ d, owns (c : Thread nD τ) (((cfg2 a).win 3).stage ((cfg2 a).slots t 3)) fullShare ((dat2 V a c).before 3 t d))
      ∗ (∃ d, owns (c : Thread nD τ) (((cfg2 a).win 4).stage ((cfg2 a).slots t 4)) fullShare ((dat2 V a c).before 4 t d)))
    ⊢ wp frame (wpE (defs₀ (F := F)) Variants.none c none) Set.univ
        (bodyAt2 a t)
        (fun _ => iprop((dat2 V a c).Φ t.succ ∗ (dat2 V a c).owesAt () t.succ
          ∗ owns (c : Thread nD τ) (((cfg2 a).win 0).stage ((cfg2 a).slots t 0)) fullShare ((dat2 V a c).after 0 t)
          ∗ owns (c : Thread nD τ) (((cfg2 a).win 1).stage ((cfg2 a).slots t 1)) fullShare ((dat2 V a c).after 1 t)
          ∗ owns (c : Thread nD τ) (((cfg2 a).win 2).stage ((cfg2 a).slots t 2)) fullShare ((dat2 V a c).after 2 t)
          ∗ owns (c : Thread nD τ) (((cfg2 a).win 3).stage ((cfg2 a).slots t 3)) fullShare ((dat2 V a c).after 3 t)
          ∗ owns (c : Thread nD τ) (((cfg2 a).win 4).stage ((cfg2 a).slots t 4)) fullShare ((dat2 V a c).after 4 t))) := by
  simp only [before2_0, before2_1, before2_2, before2_3]
  rw [show (dat2 V a c).Φ t.succ = (dat2 V a c).Φ t.castSucc from rfl,
    show (dat2 V a c).owesAt () t.succ = (dat2 V a c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  unfold bodyAt2
  iapply (sound_kernel2 c Set.univ _ _ _ _ _ _ _ _ _ _ _ _ _ _ _ _ _ _ _ (iblk2 V a c 0 t) (iblk2 V a c 1 t) (iblk2 V a c 2 t) (iblk2 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 2, at every point. -/
theorem body_obligation2 (c : Dev nD) : BodyObligation (dat2 (F := F) V a c) (defs₀ (F := F)) Variants.none () Set.univ := fun t => by
  rw [bigSep_W2, bigSep_W2]
  exact sound_body2 V a c t

end Region0

end Cert.KernelIdeal.Gen

end
-- ==== Proof.KI.Ok2.lean ====
/-
  The index tables of region 2 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok2_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 2's side condition. -/
theorem ok2_of_lt (pf : pre2.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok2 pf := by
  unfold ok2
  refine ⟨fun i => ⟨?_, Or.inl rfl⟩, fun i => ⟨?_, Or.inl rfl⟩, fun i => ⟨?_, Or.inl rfl⟩, fun i => ⟨?_, Or.inl rfl⟩⟩
  · exact ok2_fits _ (h0 _)
  · exact ok2_fits _ (h1 _)
  · exact ok2_fits _ (h2 _)
  · exact ok2_fits _ (h3 _)

/-- The four index tables of region 2 as the launch memory holds them on core `c`. -/
def pf2 (m : (ℓ : Loc nD τ sig) → Buf (Elt F) ℓ) (c : Dev nD) : pre2.Contents (Elt F) :=
  fun | 0 => tbl m c (2 : Fin 20) 0 | 1 => tbl m c (2 : Fin 20) 1 | 2 => tbl m c (2 : Fin 20) 2 | 3 => tbl m c (2 : Fin 20) 3
      | ⟨_ + 4, h⟩ => absurd h (Nat.not_lt.2 (Nat.le_add_left _ _))

/-- In range, those tables are admissible contents of region 2's pipeline. -/
def adm2 (m : (ℓ : Loc nD τ sig) → Buf (Elt F) ℓ) (c : Dev nD)
    (hR : Cert.EdgeLengths.InRange (m ((c.tc : Thread nD τ).loc main_arg1))) : (pcfg2 (F := F)).Adm :=
  ⟨pf2 m c, ok2_of_lt _ (tbl_lt m c hR _ _) (tbl_lt m c hR _ _) (tbl_lt m c hR _ _) (tbl_lt m c hR _ _)⟩

theorem adm2_0 (m : (ℓ : Loc nD τ sig) → Buf (Elt F) ℓ) (c : Dev nD)
    (hR : Cert.EdgeLengths.InRange (m ((c.tc : Thread nD τ).loc main_arg1))) :
    (adm2 m c hR).1 0 = tbl m c (2 : Fin 20) 0 := rfl
theorem adm2_1 (m : (ℓ : Loc nD τ sig) → Buf (Elt F) ℓ) (c : Dev nD)
    (hR : Cert.EdgeLengths.InRange (m ((c.tc : Thread nD τ).loc main_arg1))) :
    (adm2 m c hR).1 1 = tbl m c (2 : Fin 20) 1 := rfl
theorem adm2_2 (m : (ℓ : Loc nD τ sig) → Buf (Elt F) ℓ) (c : Dev nD)
    (hR : Cert.EdgeLengths.InRange (m ((c.tc : Thread nD τ).loc main_arg1))) :
    (adm2 m c hR).1 2 = tbl m c (2 : Fin 20) 2 := rfl
theorem adm2_3 (m : (ℓ : Loc nD τ sig) → Buf (Elt F) ℓ) (c : Dev nD)
    (hR : Cert.EdgeLengths.InRange (m ((c.tc : Thread nD τ).loc main_arg1))) :
    (adm2 m c hR).1 3 = tbl m c (2 : Fin 20) 3 := rfl

end Cert.KernelIdeal.Gen

end
-- ==== Proof.KI.Region3.lean ====
/-
  Region 3 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk3`),
  whatever it held before.

  The region's proof data then says: at every grid point each input window's buffer holds the table row its index
  table names there, and the output window's buffer is left at `outBlk3` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk3 (x0 x1 x2 x3 : Vec F S1x1x64 .f32) : Vec F S1x1x2 .f32 :=
  View.canon [⟨outRectD, k3_pay2 (View.ld x2 rowRect) (View.ld x3 rowRect)⟩,
              ⟨outRectB, k3_pay1 (View.ld x0 rowRect) (View.ld x1 rowRect)⟩]

/-- The two one-element stores tile the two-element block. -/
theorem outCover3 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk3` of the inputs. The index tables are not
    touched by the body (only the index maps read them), so nothing is asked of them. -/
theorem sound_kernel3 (c : Dev nD) (E : Set ℕ) (i : grid3.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk3 x0 x1 x2 x3)) -∗ K ⟨⟩))
      ⊢ wp frame (wpE (defs₀ (F := F)) Variants.none c none) E
          (cc3__gather_norm_kernel i a1 h1 a2 h2 a3 h3 a4 h4 a5 h5 a6 h6 a7 h7 a8 h8 a9 h9) K := by
  simp only [cc3__gather_norm_kernel_eq_skeleton]; unfold cc3__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover3 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg3 (F := F)).Adm)

/-- Window `w`'s block at point `t`, read off its array as the region finds it: for an input window the table row
    its index table names at `t`, for the output window the two-element row `t` of the result. -/
def iblk3 (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-- The proof data of region 3 on core `c`: the arrays as the region finds them; after the body at point `t` each
    input block as it was and the output block the two lengths; the invariant carries the untouched scoped
    buffers, the generator register and the four index tables, which only the index maps read. -/
def dat3 (c : Dev nD) : Dat τ (Elt F) Unit ℕ (UR sig nD τ) ℕ (cfg3 a) c where
  A w := V c (Pipeline.arrRef spec3 w)
  after w t := match w with
    | ⟨0, _⟩ => iblk3 V a c 0 t
    | ⟨1, _⟩ => iblk3 V a c 1 t
    | ⟨2, _⟩ => iblk3 V a c 2 t
    | ⟨3, _⟩ => iblk3 V a c 3 t
    | ⟨4, _⟩ => outBlk3 (iblk3 V a c 0 t) (iblk3 V a c 1 t) (iblk3 V a c 2 t) (iblk3 V a c 3 t)
  Φ _ := iprop(Pipeline.ΦA spec3 c ∗ Pipeline.prefHeld pre3 c (fun _ => fullShare) a.1)
  q w := inShare w
  owed _ := 0

theorem A_eq3 (c : Dev nD) (w : Fin (cfg3 a).W) : (dat3 V a c).A w = V c (Pipeline.arrRef spec3 w) := by
  dsimp only [dat3]

theorem after3_0 (c : Dev nD) (t : Fin (cfg3 a).N) : (dat3 V a c).after 0 t = iblk3 V a c 0 t := by dsimp only [dat3]; rfl
theorem after3_1 (c : Dev nD) (t : Fin (cfg3 a).N) : (dat3 V a c).after 1 t = iblk3 V a c 1 t := by dsimp only [dat3]; rfl
theorem after3_2 (c : Dev nD) (t : Fin (cfg3 a).N) : (dat3 V a c).after 2 t = iblk3 V a c 2 t := by dsimp only [dat3]; rfl
theorem after3_3 (c : Dev nD) (t : Fin (cfg3 a).N) : (dat3 V a c).after 3 t = iblk3 V a c 3 t := by dsimp only [dat3]; rfl
theorem after3_4 (c : Dev nD) (t : Fin (cfg3 a).N) : (dat3 V a c).after 4 t
    = outBlk3 (iblk3 V a c 0 t) (iblk3 V a c 1 t) (iblk3 V a c 2 t) (iblk3 V a c 3 t) := by dsimp only [dat3]; rfl

/-- Input window 0 holds its row at every point, fetched there or not: the body never writes an input block, the
    window is never idle and its blocks are whole rows. -/
theorem before3_0 (c : Dev nD) (t : Fin (cfg3 a).N) (d) : (dat3 V a c).before 0 t d = iblk3 V a c 0 t :=
  ((dat3 V a c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- Input window 1 holds its row at every point, fetched there or not: the body never writes an input block, the
    window is never idle and its blocks are whole rows. -/
theorem before3_1 (c : Dev nD) (t : Fin (cfg3 a).N) (d) : (dat3 V a c).before 1 t d = iblk3 V a c 1 t :=
  ((dat3 V a c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-- Input window 2 holds its row at every point, fetched there or not: the body never writes an input block, the
    window is never idle and its blocks are whole rows. -/
theorem before3_2 (c : Dev nD) (t : Fin (cfg3 a).N) (d) : (dat3 V a c).before 2 t d = iblk3 V a c 2 t :=
  ((dat3 V a c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

/-- Input window 3 holds its row at every point, fetched there or not: the body never writes an input block, the
    window is never idle and its blocks are whole rows. -/
theorem before3_3 (c : Dev nD) (t : Fin (cfg3 a).N) (d) : (dat3 V a c).before 3 t d = iblk3 V a c 3 t :=
  ((dat3 V a c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)

/-! ## The body at a generic point -/

/-- The kernel body as region 3 calls it at point `t`: the point's coordinates, the four index tables whole, and each
    window's current staging buffer. -/
abbrev bodyAt3 (t : Fin (cfg3 a).N) : Prog (TpuEff nD τ sig (Elt F) Λ₀ .tc) PUnit :=
  cc3__gather_norm_kernel (grid3.coords t) (Memref.whole main_v24) (Memref.isWhole_whole _) (Memref.whole main_v25) (Memref.isWhole_whole _)
    (Memref.whole main_v26) (Memref.isWhole_whole _) (Memref.whole main_v27) (Memref.isWhole_whole _)
    (spec3_0.stage ((cfg3 a).slots t 0)) (hstage3_0 (((cfg3 a).slots t 0).cast nbuf3_0))
    (spec3_1.stage ((cfg3 a).slots t 1)) (hstage3_1 (((cfg3 a).slots t 1).cast nbuf3_1))
    (spec3_2.stage ((cfg3 a).slots t 2)) (hstage3_2 (((cfg3 a).slots t 2).cast nbuf3_2))
    (spec3_3.stage ((cfg3 a).slots t 3)) (hstage3_3 (((cfg3 a).slots t 3).cast nbuf3_3))
    (spec3_4.stage ((cfg3 a).slots t 4)) (hstage3_4 (((cfg3 a).slots t 4).cast nbuf3_4))

/-- The body at any point: each input buffer holds its row (`before3_w`), so `sound_kernel3` applies; the invariant
    (with the index tables in it) and what the core owes pass through unread. -/
theorem sound_body3 (c : Dev nD) (t : Fin (cfg3 a).N) :
    iprop((dat3 V a c).Φ t.castSucc ∗ (dat3 V a c).owesAt () t.castSucc
      ∗ (∃ d, owns (c : Thread nD τ) (((cfg3 a).win 0).stage ((cfg3 a).slots t 0)) fullShare ((dat3 V a c).before 0 t d))
      ∗ (∃ d, owns (c : Thread nD τ) (((cfg3 a).win 1).stage ((cfg3 a).slots t 1)) fullShare ((dat3 V a c).before 1 t d))
      ∗ (∃ d, owns (c : Thread nD τ) (((cfg3 a).win 2).stage ((cfg3 a).slots t 2)) fullShare ((dat3 V a c).before 2 t d))
      ∗ (∃ d, owns (c : Thread nD τ) (((cfg3 a).win 3).stage ((cfg3 a).slots t 3)) fullShare ((dat3 V a c).before 3 t d))
      ∗ (∃ d, owns (c : Thread nD τ) (((cfg3 a).win 4).stage ((cfg3 a).slots t 4)) fullShare ((dat3 V a c).before 4 t d)))
    ⊢ wp frame (wpE (defs₀ (F := F)) Variants.none c none) Set.univ
        (bodyAt3 a t)
        (fun _ => iprop((dat3 V a c).Φ t.succ ∗ (dat3 V a c).owesAt () t.succ
          ∗ owns (c : Thread nD τ) (((cfg3 a).win 0).stage ((cfg3 a).slots t 0)) fullShare ((dat3 V a c).after 0 t)
          ∗ owns (c : Thread nD τ) (((cfg3 a).win 1).stage ((cfg3 a).slots t 1)) fullShare ((dat3 V a c).after 1 t)
          ∗ owns (c : Thread nD τ) (((cfg3 a).win 2).stage ((cfg3 a).slots t 2)) fullShare ((dat3 V a c).after 2 t)
          ∗ owns (c : Thread nD τ) (((cfg3 a).win 3).stage ((cfg3 a).slots t 3)) fullShare ((dat3 V a c).after 3 t)
          ∗ owns (c : Thread nD τ) (((cfg3 a).win 4).stage ((cfg3 a).slots t 4)) fullShare ((dat3 V a c).after 4 t))) := by
  simp only [before3_0, before3_1, before3_2, before3_3]
  rw [show (dat3 V a c).Φ t.succ = (dat3 V a c).Φ t.castSucc from rfl,
    show (dat3 V a c).owesAt () t.succ = (dat3 V a c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  unfold bodyAt3
  iapply (sound_kernel3 c Set.univ _ _ _ _ _ _ _ _ _ _ _ _ _ _ _ _ _ _ _ (iblk3 V a c 0 t) (iblk3 V a c 1 t) (iblk3 V a c 2 t) (iblk3 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 3, at every point. -/
theorem body_obligation3 (c : Dev nD) : BodyObligation (dat3 (F := F) V a c) (defs₀ (F := F)) Variants.none () Set.univ := fun t => by
  rw [bigSep_W3, bigSep_W3]
  exact sound_body3 V a c t

end Region0

end Cert.KernelIdeal.Gen

end
-- ==== Proof.KI.Ok3.lean ====
/-
  The index tables of region 3 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok3_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 3's side condition. -/
theorem ok3_of_lt (pf : pre3.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok3 pf := by
  unfold ok3
  refine ⟨fun i => ⟨?_, Or.inl rfl⟩, fun i => ⟨?_, Or.inl rfl⟩, fun i => ⟨?_, Or.inl rfl⟩, fun i => ⟨?_, Or.inl rfl⟩⟩
  · exact ok3_fits _ (h0 _)
  · exact ok3_fits _ (h1 _)
  · exact ok3_fits _ (h2 _)
  · exact ok3_fits _ (h3 _)

/-- The four index tables of region 3 as the launch memory holds them on core `c`. -/
def pf3 (m : (ℓ : Loc nD τ sig) → Buf (Elt F) ℓ) (c : Dev nD) : pre3.Contents (Elt F) :=
  fun | 0 => tbl m c (3 : Fin 20) 0 | 1 => tbl m c (3 : Fin 20) 1 | 2 => tbl m c (3 : Fin 20) 2 | 3 => tbl m c (3 : Fin 20) 3
      | ⟨_ + 4, h⟩ => absurd h (Nat.not_lt.2 (Nat.le_add_left _ _))

/-- In range, those tables are admissible contents of region 3's pipeline. -/
def adm3 (m : (ℓ : Loc nD τ sig) → Buf (Elt F) ℓ) (c : Dev nD)
    (hR : Cert.EdgeLengths.InRange (m ((c.tc : Thread nD τ).loc main_arg1))) : (pcfg3 (F := F)).Adm :=
  ⟨pf3 m c, ok3_of_lt _ (tbl_lt m c hR _ _) (tbl_lt m c hR _ _) (tbl_lt m c hR _ _) (tbl_lt m c hR _ _)⟩

theorem adm3_0 (m : (ℓ : Loc nD τ sig) → Buf (Elt F) ℓ) (c : Dev nD)
    (hR : Cert.EdgeLengths.InRange (m ((c.tc : Thread nD τ).loc main_arg1))) :
    (adm3 m c hR).1 0 = tbl m c (3 : Fin 20) 0 := rfl
theorem adm3_1 (m : (ℓ : Loc nD τ sig) → Buf (Elt F) ℓ) (c : Dev nD)
    (hR : Cert.EdgeLengths.InRange (m ((c.tc : Thread nD τ).loc main_arg1))) :
    (adm3 m c hR).1 1 = tbl m c (3 : Fin 20) 1 := rfl
theorem adm3_2 (m : (ℓ : Loc nD τ sig) → Buf (Elt F) ℓ) (c : Dev nD)
    (hR : Cert.EdgeLengths.InRange (m ((c.tc : Thread nD τ).loc main_arg1))) :
    (adm3 m c hR).1 2 = tbl m c (3 : Fin 20) 2 := rfl
theorem adm3_3 (m : (ℓ : Loc nD τ sig) → Buf (Elt F) ℓ) (c : Dev nD)
    (hR : Cert.EdgeLengths.InRange (m ((c.tc : Thread nD τ).loc main_arg1))) :
    (adm3 m c hR).1 3 = tbl m c (3 : Fin 20) 3 := rfl

end Cert.KernelIdeal.Gen

end
-- ==== Proof.KI.Region4.lean ====
/-
  Region 4 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk4`),
  whatever it held before.

  The region's proof data then says: at every grid point each input window's buffer holds the table row its index
  table names there, and the output window's buffer is left at `outBlk4` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk4 (x0 x1 x2 x3 : Vec F S1x1x64 .f32) : Vec F S1x1x2 .f32 :=
  View.canon [⟨outRectD, k4_pay2 (View.ld x2 rowRect) (View.ld x3 rowRect)⟩,
              ⟨outRectB, k4_pay1 (View.ld x0 rowRect) (View.ld x1 rowRect)⟩]

/-- The two one-element stores tile the two-element block. -/
theorem outCover4 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk4` of the inputs. The index tables are not
    touched by the body (only the index maps read them), so nothing is asked of them. -/
theorem sound_kernel4 (c : Dev nD) (E : Set ℕ) (i : grid4.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk4 x0 x1 x2 x3)) -∗ K ⟨⟩))
      ⊢ wp frame (wpE (defs₀ (F := F)) Variants.none c none) E
          (cc4__gather_norm_kernel i a1 h1 a2 h2 a3 h3 a4 h4 a5 h5 a6 h6 a7 h7 a8 h8 a9 h9) K := by
  simp only [cc4__gather_norm_kernel_eq_skeleton]; unfold cc4__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover4 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg4 (F := F)).Adm)

/-- Window `w`'s block at point `t`, read off its array as the region finds it: for an input window the table row
    its index table names at `t`, for the output window the two-element row `t` of the result. -/
def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-- The proof data of region 4 on core `c`: the arrays as the region finds them; after the body at point `t` each
    input block as it was and the output block the two lengths; the invariant carries the untouched scoped
    buffers, the generator register and the four index tables, which only the index maps read. -/
def dat4 (c : Dev nD) : Dat τ (Elt F) Unit ℕ (UR sig nD τ) ℕ (cfg4 a) c where
  A w := V c (Pipeline.arrRef spec4 w)
  after w t := match w with
    | ⟨0, _⟩ => iblk4 V a c 0 t
    | ⟨1, _⟩ => iblk4 V a c 1 t
    | ⟨2, _⟩ => iblk4 V a c 2 t
    | ⟨3, _⟩ => iblk4 V a c 3 t
    | ⟨4, _⟩ => outBlk4 (iblk4 V a c 0 t) (iblk4 V a c 1 t) (iblk4 V a c 2 t) (iblk4 V a c 3 t)
  Φ _ := iprop(Pipeline.ΦA spec4 c ∗ Pipeline.prefHeld pre4 c (fun _ => fullShare) a.1)
  q w := inShare w
  owed _ := 0

theorem A_eq4 (c : Dev nD) (w : Fin (cfg4 a).W) : (dat4 V a c).A w = V c (Pipeline.arrRef spec4 w) := by
  dsimp only [dat4]

theorem after4_0 (c : Dev nD) (t : Fin (cfg4 a).N) : (dat4 V a c).after 0 t = iblk4 V a c 0 t := by dsimp only [dat4]; rfl
theorem after4_1 (c : Dev nD) (t : Fin (cfg4 a).N) : (dat4 V a c).after 1 t = iblk4 V a c 1 t := by dsimp only [dat4]; rfl
theorem after4_2 (c : Dev nD) (t : Fin (cfg4 a).N) : (dat4 V a c).after 2 t = iblk4 V a c 2 t := by dsimp only [dat4]; rfl
theorem after4_3 (c : Dev nD) (t : Fin (cfg4 a).N) : (dat4 V a c).after 3 t = iblk4 V a c 3 t := by dsimp only [dat4]; rfl
theorem after4_4 (c : Dev nD) (t : Fin (cfg4 a).N) : (dat4 V a c).after 4 t
    = outBlk4 (iblk4 V a c 0 t) (iblk4 V a c 1 t) (iblk4 V a c 2 t) (iblk4 V a c 3 t) := by dsimp only [dat4]; rfl

/-- Input window 0 holds its row at every point, fetched there or not: the body never writes an input block, the
    window is never idle and its blocks are whole rows. -/
theorem before4_0 (c : Dev nD) (t : Fin (cfg4 a).N) (d) : (dat4 V a c).before 0 t d = iblk4 V a c 0 t :=
  ((dat4 V a c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-- Input window 1 holds its row at every point, fetched there or not: the body never writes an input block, the
    window is never idle and its blocks are whole rows. -/
theorem before4_1 (c : Dev nD) (t : Fin (cfg4 a).N) (d) : (dat4 V a c).before 1 t d = iblk4 V a c 1 t :=
  ((dat4 V a c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-- Input window 2 holds its row at every point, fetched there or not: the body never writes an input block, the
    window is never idle and its blocks are whole rows. -/
theorem before4_2 (c : Dev nD) (t : Fin (cfg4 a).N) (d) : (dat4 V a c).before 2 t d = iblk4 V a c 2 t :=
  ((dat4 V a c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)

/-- Input window 3 holds its row at every point, fetched there or not: the body never writes an input block, the
    window is never idle and its blocks are whole rows. -/
theorem before4_3 (c : Dev nD) (t : Fin (cfg4 a).N) (d) : (dat4 V a c).before 3 t d = iblk4 V a c 3 t :=
  ((dat4 V a c).before_in_eq_fetched 3 rfl (fun _ => rfl) (fun _ _ _ => rfl)
      (fun t => by rw [after4_3]; unfold Dat.blockOf iblk4; rw [A_eq4]; try rfl) t d).trans
    (by unfold Dat.fetched Dat.blockOf iblk4; rw [A_eq4]; try rfl)

/-! ## The body at a generic point -/

/-- The kernel body as region 4 calls it at point `t`: the point's coordinates, the four index tables whole, and each
    window's current staging buffer. -/
abbrev bodyAt4 (t : Fin (cfg4 a).N) : Prog (TpuEff nD τ sig (Elt F) Λ₀ .tc) PUnit :=
  cc4__gather_norm_kernel (grid4.coords t) (Memref.whole main_v29) (Memref.isWhole_whole _) (Memref.whole main_v30) (Memref.isWhole_whole _)
    (Memref.whole main_v31) (Memref.isWhole_whole _) (Memref.whole main_v32) (Memref.isWhole_whole _)
    (spec4_0.stage ((cfg4 a).slots t 0)) (hstage4_0 (((cfg4 a).slots t 0).cast nbuf4_0))
    (spec4_1.stage ((cfg4 a).slots t 1)) (hstage4_1 (((cfg4 a).slots t 1).cast nbuf4_1))
    (spec4_2.stage ((cfg4 a).slots t 2)) (hstage4_2 (((cfg4 a).slots t 2).cast nbuf4_2))
    (spec4_3.stage ((cfg4 a).slots t 3)) (hstage4_3 (((cfg4 a).slots t 3).cast nbuf4_3))
    (spec4_4.stage ((cfg4 a).slots t 4)) (hstage4_4 (((cfg4 a).slots t 4).cast nbuf4_4))

/-- The body at any point: each input buffer holds its row (`before4_w`), so `sound_kernel4` applies; the invariant
    (with the index tables in it) and what the core owes pass through unread. -/
theorem sound_body4 (c : Dev nD) (t : Fin (cfg4 a).N) :
    iprop((dat4 V a c).Φ t.castSucc ∗ (dat4 V a c).owesAt () t.castSucc
      ∗ (∃ d, owns (c : Thread nD τ) (((cfg4 a).win 0).stage ((cfg4 a).slots t 0)) fullShare ((dat4 V a c).before 0 t d))
      ∗ (∃ d, owns (c : Thread nD τ) (((cfg4 a).win 1).stage ((cfg4 a).slots t 1)) fullShare ((dat4 V a c).before 1 t d))
      ∗ (∃ d, owns (c : Thread nD τ) (((cfg4 a).win 2).stage ((cfg4 a).slots t 2)) fullShare ((dat4 V a c).before 2 t d))
      ∗ (∃ d, owns (c : Thread nD τ) (((cfg4 a).win 3).stage ((cfg4 a).slots t 3)) fullShare ((dat4 V a c).before 3 t d))
      ∗ (∃ d, owns (c : Thread nD τ) (((cfg4 a).win 4).stage ((cfg4 a).slots t 4)) fullShare ((dat4 V a c).before 4 t d)))
    ⊢ wp frame (wpE (defs₀ (F := F)) Variants.none c none) Set.univ
        (bodyAt4 a t)
        (fun _ => iprop((dat4 V a c).Φ t.succ ∗ (dat4 V a c).owesAt () t.succ
          ∗ owns (c : Thread nD τ) (((cfg4 a).win 0).stage ((cfg4 a).slots t 0)) fullShare ((dat4 V a c).after 0 t)
          ∗ owns (c : Thread nD τ) (((cfg4 a).win 1).stage ((cfg4 a).slots t 1)) fullShare ((dat4 V a c).after 1 t)
          ∗ owns (c : Thread nD τ) (((cfg4 a).win 2).stage ((cfg4 a).slots t 2)) fullShare ((dat4 V a c).after 2 t)
          ∗ owns (c : Thread nD τ) (((cfg4 a).win 3).stage ((cfg4 a).slots t 3)) fullShare ((dat4 V a c).after 3 t)
          ∗ owns (c : Thread nD τ) (((cfg4 a).win 4).stage ((cfg4 a).slots t 4)) fullShare ((dat4 V a c).after 4 t))) := by
  simp only [before4_0, before4_1, before4_2, before4_3]
  rw [show (dat4 V a c).Φ t.succ = (dat4 V a c).Φ t.castSucc from rfl,
    show (dat4 V a c).owesAt () t.succ = (dat4 V a c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  unfold bodyAt4
  iapply (sound_kernel4 c Set.univ _ _ _ _ _ _ _ _ _ _ _ _ _ _ _ _ _ _ _ (iblk4 V a c 0 t) (iblk4 V a c 1 t) (iblk4 V a c 2 t) (iblk4 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 4, at every point. -/
theorem body_obligation4 (c : Dev nD) : BodyObligation (dat4 (F := F) V a c) (defs₀ (F := F)) Variants.none () Set.univ := fun t => by
  rw [bigSep_W4, bigSep_W4]
  exact sound_body4 V a c t

end Region0

end Cert.KernelIdeal.Gen

end
-- ==== Proof.KI.Ok4.lean ====
/-
  The index tables of region 4 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok4_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 4's side condition. -/
theorem ok4_of_lt (pf : pre4.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok4 pf := by
  unfold ok4
  refine ⟨fun i => ⟨?_, Or.inl rfl⟩, fun i => ⟨?_, Or.inl rfl⟩, fun i => ⟨?_, Or.inl rfl⟩, fun i => ⟨?_, Or.inl rfl⟩⟩
  · exact ok4_fits _ (h0 _)
  · exact ok4_fits _ (h1 _)
  · exact ok4_fits _ (h2 _)
  · exact ok4_fits _ (h3 _)

/-- The four index tables of region 4 as the launch memory holds them on core `c`. -/
def pf4 (m : (ℓ : Loc nD τ sig) → Buf (Elt F) ℓ) (c : Dev nD) : pre4.Contents (Elt F) :=
  fun | 0 => tbl m c (4 : Fin 20) 0 | 1 => tbl m c (4 : Fin 20) 1 | 2 => tbl m c (4 : Fin 20) 2 | 3 => tbl m c (4 : Fin 20) 3
      | ⟨_ + 4, h⟩ => absurd h (Nat.not_lt.2 (Nat.le_add_left _ _))

/-- In range, those tables are admissible contents of region 4's pipeline. -/
def adm4 (m : (ℓ : Loc nD τ sig) → Buf (Elt F) ℓ) (c : Dev nD)
    (hR : Cert.EdgeLengths.InRange (m ((c.tc : Thread nD τ).loc main_arg1))) : (pcfg4 (F := F)).Adm :=
  ⟨pf4 m c, ok4_of_lt _ (tbl_lt m c hR _ _) (tbl_lt m c hR _ _) (tbl_lt m c hR _ _) (tbl_lt m c hR _ _)⟩

theorem adm4_0 (m : (ℓ : Loc nD τ sig) → Buf (Elt F) ℓ) (c : Dev nD)
    (hR : Cert.EdgeLengths.InRange (m ((c.tc : Thread nD τ).loc main_arg1))) :
    (adm4 m c hR).1 0 = tbl m c (4 : Fin 20) 0 := rfl
theorem adm4_1 (m : (ℓ : Loc nD τ sig) → Buf (Elt F) ℓ) (c : Dev nD)
    (hR : Cert.EdgeLengths.InRange (m ((c.tc : Thread nD τ).loc main_arg1))) :
    (adm4 m c hR).1 1 = tbl m c (4 : Fin 20) 1 := rfl
theorem adm4_2 (m : (ℓ : Loc nD τ sig) → Buf (Elt F) ℓ) (c : Dev nD)
    (hR : Cert.EdgeLengths.InRange (m ((c.tc : Thread nD τ).loc main_arg1))) :
    (adm4 m c hR).1 2 = tbl m c (4 : Fin 20) 2 := rfl
theorem adm4_3 (m : (ℓ : Loc nD τ sig) → Buf (Elt F) ℓ) (c : Dev nD)
    (hR : Cert.EdgeLengths.InRange (m ((c.tc : Thread nD τ).loc main_arg1))) :
    (adm4 m c hR).1 3 = tbl m c (4 : Fin 20) 3 := rfl

end Cert.KernelIdeal.Gen

end
-- ==== Proof.KI.Region5.lean ====
/-
  Region 5 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk5`),
  whatever it held before.

  The region's proof data then says: at every grid point each input window's buffer holds the table row its index
  table names there, and the output window's buffer is left at `outBlk5` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk5 (x0 x1 x2 x3 : Vec F S1x1x64 .f32) : Vec F S1x1x2 .f32 :=
  View.canon [⟨outRectD, k5_pay2 (View.ld x2 rowRect) (View.ld x3 rowRect)⟩,
              ⟨outRectB, k5_pay1 (View.ld x0 rowRect) (View.ld x1 rowRect)⟩]

/-- The two one-element stores tile the two-element block. -/
theorem outCover5 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk5` of the inputs. The index tables are not
    touched by the body (only the index maps read them), so nothing is asked of them. -/
theorem sound_kernel5 (c : Dev nD) (E : Set ℕ) (i : grid5.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk5 x0 x1 x2 x3)) -∗ K ⟨⟩))
      ⊢ wp frame (wpE (defs₀ (F := F)) Variants.none c none) E
          (cc5__gather_norm_kernel i a1 h1 a2 h2 a3 h3 a4 h4 a5 h5 a6 h6 a7 h7 a8 h8 a9 h9) K := by
  simp only [cc5__gather_norm_kernel_eq_skeleton]; unfold cc5__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover5 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg5 (F := F)).Adm)

/-- Window `w`'s block at point `t`, read off its array as the region finds it: for an input window the table row
    its index table names at `t`, for the output window the two-element row `t` of the result. -/
def iblk5 (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

/-- The proof data of region 5 on core `c`: the arrays as the region finds them; after the body at point `t` each
    input block as it was and the output block the two lengths; the invariant carries the untouched scoped
    buffers, the generator register and the four index tables, which only the index maps read. -/
def dat5 (c : Dev nD) : Dat τ (Elt F) Unit ℕ (UR sig nD τ) ℕ (cfg5 a) c where
  A w := V c (Pipeline.arrRef spec5 w)
  after w t := match w with
    | ⟨0, _⟩ => iblk5 V a c 0 t
    | ⟨1, _⟩ => iblk5 V a c 1 t
    | ⟨2, _⟩ => iblk5 V a c 2 t
    | ⟨3, _⟩ => iblk5 V a c 3 t
    | ⟨4, _⟩ => outBlk5 (iblk5 V a c 0 t) (iblk5 V a c 1 t) (iblk5 V a c 2 t) (iblk5 V a c 3 t)
  Φ _ := iprop(Pipeline.ΦA spec5 c ∗ Pipeline.prefHeld pre5 c (fun _ => fullShare) a.1)
  q w := inShare w
  owed _ := 0

theorem A_eq5 (c : Dev nD) (w : Fin (cfg5 a).W) : (dat5 V a c).A w = V c (Pipeline.arrRef spec5 w) := by
  dsimp only [dat5]

theorem after5_0 (c : Dev nD) (t : Fin (cfg5 a).N) : (dat5 V a c).after 0 t = iblk5 V a c 0 t := by dsimp only [dat5]; rfl
theorem after5_1 (c : Dev nD) (t : Fin (cfg5 a).N) : (dat5 V a c).after 1 t = iblk5 V a c 1 t := by dsimp only [dat5]; rfl
theorem after5_2 (c : Dev nD) (t : Fin (cfg5 a).N) : (dat5 V a c).after 2 t = iblk5 V a c 2 t := by dsimp only [dat5]; rfl
theorem after5_3 (c : Dev nD) (t : Fin (cfg5 a).N) : (dat5 V a c).after 3 t = iblk5 V a c 3 t := by dsimp only [dat5]; rfl
theorem after5_4 (c : Dev nD) (t : Fin (cfg5 a).N) : (dat5 V a c).after 4 t
    = outBlk5 (iblk5 V a c 0 t) (iblk5 V a c 1 t) (iblk5 V a c 2 t) (iblk5 V a c 3 t) := by dsimp only [dat5]; rfl

/-- Input window 0 holds its row at every point, fetched there or not: the body never writes an input block, the
    window is never idle and its blocks are whole rows. -/
theorem before5_0 (c : Dev nD) (t : Fin (cfg5 a).N) (d) : (dat5 V a c).before 0 t d = iblk5 V a c 0 t :=
  ((dat5 V a c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)

/-- Input window 1 holds its row at every point, fetched there or not: the body never writes an input block, the
    window is never idle and its blocks are whole rows. -/
theorem before5_1 (c : Dev nD) (t : Fin (cfg5 a).N) (d) : (dat5 V a c).before 1 t d = iblk5 V a c 1 t :=
  ((dat5 V a c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

/-- Input window 2 holds its row at every point, fetched there or not: the body never writes an input block, the
    window is never idle and its blocks are whole rows. -/
theorem before5_2 (c : Dev nD) (t : Fin (cfg5 a).N) (d) : (dat5 V a c).before 2 t d = iblk5 V a c 2 t :=
  ((dat5 V a c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)

/-- Input window 3 holds its row at every point, fetched there or not: the body never writes an input block, the
    window is never idle and its blocks are whole rows. -/
theorem before5_3 (c : Dev nD) (t : Fin (cfg5 a).N) (d) : (dat5 V a c).before 3 t d = iblk5 V a c 3 t :=
  ((dat5 V a c).before_in_eq_fetched 3 rfl (fun _ => rfl) (fun _ _ _ => rfl)
      (fun t => by rw [after5_3]; unfold Dat.blockOf iblk5; rw [A_eq5]; try rfl) t d).trans
    (by unfold Dat.fetched Dat.blockOf iblk5; rw [A_eq5]; try rfl)

/-! ## The body at a generic point -/

/-- The kernel body as region 5 calls it at point `t`: the point's coordinates, the four index tables whole, and each
    window's current staging buffer. -/
abbrev bodyAt5 (t : Fin (cfg5 a).N) : Prog (TpuEff nD τ sig (Elt F) Λ₀ .tc) PUnit :=
  cc5__gather_norm_kernel (grid5.coords t) (Memref.whole main_v34) (Memref.isWhole_whole _) (Memref.whole main_v35) (Memref.isWhole_whole _)
    (Memref.whole main_v36) (Memref.isWhole_whole _) (Memref.whole main_v37) (Memref.isWhole_whole _)
    (spec5_0.stage ((cfg5 a).slots t 0)) (hstage5_0 (((cfg5 a).slots t 0).cast nbuf5_0))
    (spec5_1.stage ((cfg5 a).slots t 1)) (hstage5_1 (((cfg5 a).slots t 1).cast nbuf5_1))
    (spec5_2.stage ((cfg5 a).slots t 2)) (hstage5_2 (((cfg5 a).slots t 2).cast nbuf5_2))
    (spec5_3.stage ((cfg5 a).slots t 3)) (hstage5_3 (((cfg5 a).slots t 3).cast nbuf5_3))
    (spec5_4.stage ((cfg5 a).slots t 4)) (hstage5_4 (((cfg5 a).slots t 4).cast nbuf5_4))

/-- The body at any point: each input buffer holds its row (`before5_w`), so `sound_kernel5` applies; the invariant
    (with the index tables in it) and what the core owes pass through unread. -/
theorem sound_body5 (c : Dev nD) (t : Fin (cfg5 a).N) :
    iprop((dat5 V a c).Φ t.castSucc ∗ (dat5 V a c).owesAt () t.castSucc
      ∗ (∃ d, owns (c : Thread nD τ) (((cfg5 a).win 0).stage ((cfg5 a).slots t 0)) fullShare ((dat5 V a c).before 0 t d))
      ∗ (∃ d, owns (c : Thread nD τ) (((cfg5 a).win 1).stage ((cfg5 a).slots t 1)) fullShare ((dat5 V a c).before 1 t d))
      ∗ (∃ d, owns (c : Thread nD τ) (((cfg5 a).win 2).stage ((cfg5 a).slots t 2)) fullShare ((dat5 V a c).before 2 t d))
      ∗ (∃ d, owns (c : Thread nD τ) (((cfg5 a).win 3).stage ((cfg5 a).slots t 3)) fullShare ((dat5 V a c).before 3 t d))
      ∗ (∃ d, owns (c : Thread nD τ) (((cfg5 a).win 4).stage ((cfg5 a).slots t 4)) fullShare ((dat5 V a c).before 4 t d)))
    ⊢ wp frame (wpE (defs₀ (F := F)) Variants.none c none) Set.univ
        (bodyAt5 a t)
        (fun _ => iprop((dat5 V a c).Φ t.succ ∗ (dat5 V a c).owesAt () t.succ
          ∗ owns (c : Thread nD τ) (((cfg5 a).win 0).stage ((cfg5 a).slots t 0)) fullShare ((dat5 V a c).after 0 t)
          ∗ owns (c : Thread nD τ) (((cfg5 a).win 1).stage ((cfg5 a).slots t 1)) fullShare ((dat5 V a c).after 1 t)
          ∗ owns (c : Thread nD τ) (((cfg5 a).win 2).stage ((cfg5 a).slots t 2)) fullShare ((dat5 V a c).after 2 t)
          ∗ owns (c : Thread nD τ) (((cfg5 a).win 3).stage ((cfg5 a).slots t 3)) fullShare ((dat5 V a c).after 3 t)
          ∗ owns (c : Thread nD τ) (((cfg5 a).win 4).stage ((cfg5 a).slots t 4)) fullShare ((dat5 V a c).after 4 t))) := by
  simp only [before5_0, before5_1, before5_2, before5_3]
  rw [show (dat5 V a c).Φ t.succ = (dat5 V a c).Φ t.castSucc from rfl,
    show (dat5 V a c).owesAt () t.succ = (dat5 V a c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  unfold bodyAt5
  iapply (sound_kernel5 c Set.univ _ _ _ _ _ _ _ _ _ _ _ _ _ _ _ _ _ _ _ (iblk5 V a c 0 t) (iblk5 V a c 1 t) (iblk5 V a c 2 t) (iblk5 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 5, at every point. -/
theorem body_obligation5 (c : Dev nD) : BodyObligation (dat5 (F := F) V a c) (defs₀ (F := F)) Variants.none () Set.univ := fun t => by
  rw [bigSep_W5, bigSep_W5]
  exact sound_body5 V a c t

end Region0

end Cert.KernelIdeal.Gen

end
-- ==== Proof.KI.Ok5.lean ====
/-
  The index tables of region 5 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok5_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 5's side condition. -/
theorem ok5_of_lt (pf : pre5.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok5 pf := by
  unfold ok5
  refine ⟨fun i => ⟨?_, Or.inl rfl⟩, fun i => ⟨?_, Or.inl rfl⟩, fun i => ⟨?_, Or.inl rfl⟩, fun i => ⟨?_, Or.inl rfl⟩⟩
  · exact ok5_fits _ (h0 _)
  · exact ok5_fits _ (h1 _)
  · exact ok5_fits _ (h2 _)
  · exact ok5_fits _ (h3 _)

/-- The four index tables of region 5 as the launch memory holds them on core `c`. -/
def pf5 (m : (ℓ : Loc nD τ sig) → Buf (Elt F) ℓ) (c : Dev nD) : pre5.Contents (Elt F) :=
  fun | 0 => tbl m c (5 : Fin 20) 0 | 1 => tbl m c (5 : Fin 20) 1 | 2 => tbl m c (5 : Fin 20) 2 | 3 => tbl m c (5 : Fin 20) 3
      | ⟨_ + 4, h⟩ => absurd h (Nat.not_lt.2 (Nat.le_add_left _ _))

/-- In range, those tables are admissible contents of region 5's pipeline. -/
def adm5 (m : (ℓ : Loc nD τ sig) → Buf (Elt F) ℓ) (c : Dev nD)
    (hR : Cert.EdgeLengths.InRange (m ((c.tc : Thread nD τ).loc main_arg1))) : (pcfg5 (F := F)).Adm :=
  ⟨pf5 m c, ok5_of_lt _ (tbl_lt m c hR _ _) (tbl_lt m c hR _ _) (tbl_lt m c hR _ _) (tbl_lt m c hR _ _)⟩

theorem adm5_0 (m : (ℓ : Loc nD τ sig) → Buf (Elt F) ℓ) (c : Dev nD)
    (hR : Cert.EdgeLengths.InRange (m ((c.tc : Thread nD τ).loc main_arg1))) :
    (adm5 m c hR).1 0 = tbl m c (5 : Fin 20) 0 := rfl
theorem adm5_1 (m : (ℓ : Loc nD τ sig) → Buf (Elt F) ℓ) (c : Dev nD)
    (hR : Cert.EdgeLengths.InRange (m ((c.tc : Thread nD τ).loc main_arg1))) :
    (adm5 m c hR).1 1 = tbl m c (5 : Fin 20) 1 := rfl
theorem adm5_2 (m : (ℓ : Loc nD τ sig) → Buf (Elt F) ℓ) (c : Dev nD)
    (hR : Cert.EdgeLengths.InRange (m ((c.tc : Thread nD τ).loc main_arg1))) :
    (adm5 m c hR).1 2 = tbl m c (5 : Fin 20) 2 := rfl
theorem adm5_3 (m : (ℓ : Loc nD τ sig) → Buf (Elt F) ℓ) (c : Dev nD)
    (hR : Cert.EdgeLengths.InRange (m ((c.tc : Thread nD τ).loc main_arg1))) :
    (adm5 m c hR).1 3 = tbl m c (5 : Fin 20) 3 := rfl

end Cert.KernelIdeal.Gen

end
-- ==== Proof.KI.Region6.lean ====
/-
  Region 6 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk6`),
  whatever it held before.

  The region's proof data then says: at every grid point each input window's buffer holds the table row its index
  table names there, and the output window's buffer is left at `outBlk6` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk6 (x0 x1 x2 x3 : Vec F S1x1x64 .f32) : Vec F S1x1x2 .f32 :=
  View.canon [⟨outRectD, k6_pay2 (View.ld x2 rowRect) (View.ld x3 rowRect)⟩,
              ⟨outRectB, k6_pay1 (View.ld x0 rowRect) (View.ld x1 rowRect)⟩]

/-- The two one-element stores tile the two-element block. -/
theorem outCover6 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk6` of the inputs. The index tables are not
    touched by the body (only the index maps read them), so nothing is asked of them. -/
theorem sound_kernel6 (c : Dev nD) (E : Set ℕ) (i : grid6.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk6 x0 x1 x2 x3)) -∗ K ⟨⟩))
      ⊢ wp frame (wpE (defs₀ (F := F)) Variants.none c none) E
          (cc6__gather_norm_kernel i a1 h1 a2 h2 a3 h3 a4 h4 a5 h5 a6 h6 a7 h7 a8 h8 a9 h9) K := by
  simp only [cc6__gather_norm_kernel_eq_skeleton]; unfold cc6__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover6 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg6 (F := F)).Adm)

/-- Window `w`'s block at point `t`, read off its array as the region finds it: for an input window the table row
    its index table names at `t`, for the output window the two-element row `t` of the result. -/
def iblk6 (c : Dev nD) (w : Fin (cfg6 a).W) (t : Fin (cfg6 a).N) :
    (((cfg6 a).win w).xblock ((cfg6 a).grid.coords t)).Idx → Elt F ((cfg6 a).win w).elt :=
  (((cfg6 a).win w).blk t).view.read (Elt F) (V c (Pipeline.arrRef spec6 w))

/-- The proof data of region 6 on core `c`: the arrays as the region finds them; after the body at point `t` each
    input block as it was and the output block the two lengths; the invariant carries the untouched scoped
    buffers, the generator register and the four index tables, which only the index maps read. -/
def dat6 (c : Dev nD) : Dat τ (Elt F) Unit ℕ (UR sig nD τ) ℕ (cfg6 a) c where
  A w := V c (Pipeline.arrRef spec6 w)
  after w t := match w with
    | ⟨0, _⟩ => iblk6 V a c 0 t
    | ⟨1, _⟩ => iblk6 V a c 1 t
    | ⟨2, _⟩ => iblk6 V a c 2 t
    | ⟨3, _⟩ => iblk6 V a c 3 t
    | ⟨4, _⟩ => outBlk6 (iblk6 V a c 0 t) (iblk6 V a c 1 t) (iblk6 V a c 2 t) (iblk6 V a c 3 t)
  Φ _ := iprop(Pipeline.ΦA spec6 c ∗ Pipeline.prefHeld pre6 c (fun _ => fullShare) a.1)
  q w := inShare w
  owed _ := 0

theorem A_eq6 (c : Dev nD) (w : Fin (cfg6 a).W) : (dat6 V a c).A w = V c (Pipeline.arrRef spec6 w) := by
  dsimp only [dat6]

theorem after6_0 (c : Dev nD) (t : Fin (cfg6 a).N) : (dat6 V a c).after 0 t = iblk6 V a c 0 t := by dsimp only [dat6]; rfl
theorem after6_1 (c : Dev nD) (t : Fin (cfg6 a).N) : (dat6 V a c).after 1 t = iblk6 V a c 1 t := by dsimp only [dat6]; rfl
theorem after6_2 (c : Dev nD) (t : Fin (cfg6 a).N) : (dat6 V a c).after 2 t = iblk6 V a c 2 t := by dsimp only [dat6]; rfl
theorem after6_3 (c : Dev nD) (t : Fin (cfg6 a).N) : (dat6 V a c).after 3 t = iblk6 V a c 3 t := by dsimp only [dat6]; rfl
theorem after6_4 (c : Dev nD) (t : Fin (cfg6 a).N) : (dat6 V a c).after 4 t
    = outBlk6 (iblk6 V a c 0 t) (iblk6 V a c 1 t) (iblk6 V a c 2 t) (iblk6 V a c 3 t) := by dsimp only [dat6]; rfl

/-- Input window 0 holds its row at every point, fetched there or not: the body never writes an input block, the
    window is never idle and its blocks are whole rows. -/
theorem before6_0 (c : Dev nD) (t : Fin (cfg6 a).N) (d) : (dat6 V a c).before 0 t d = iblk6 V a c 0 t :=
  ((dat6 V a c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)

/-- Input window 1 holds its row at every point, fetched there or not: the body never writes an input block, the
    window is never idle and its blocks are whole rows. -/
theorem before6_1 (c : Dev nD) (t : Fin (cfg6 a).N) (d) : (dat6 V a c).before 1 t d = iblk6 V a c 1 t :=
  ((dat6 V a c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

/-- Input window 2 holds its row at every point, fetched there or not: the body never writes an input block, the
    window is never idle and its blocks are whole rows. -/
theorem before6_2 (c : Dev nD) (t : Fin (cfg6 a).N) (d) : (dat6 V a c).before 2 t d = iblk6 V a c 2 t :=
  ((dat6 V a c).before_in_eq_fetched 2 rfl (fun _ => rfl) (fun _ _ _ => rfl)
      (fun t => by rw [after6_2]; unfold Dat.blockOf iblk6; rw [A_eq6]; try rfl) t d).trans
    (by unfold Dat.fetched Dat.blockOf iblk6; rw [A_eq6]; try rfl)

/-- Input window 3 holds its row at every point, fetched there or not: the body never writes an input block, the
    window is never idle and its blocks are whole rows. -/
theorem before6_3 (c : Dev nD) (t : Fin (cfg6 a).N) (d) : (dat6 V a c).before 3 t d = iblk6 V a c 3 t :=
  ((dat6 V a c).before_in_eq_fetched 3 rfl (fun _ => rfl) (fun _ _ _ => rfl)
      (fun t => by rw [after6_3]; unfold Dat.blockOf iblk6; rw [A_eq6]; try rfl) t d).trans
    (by unfold Dat.fetched Dat.blockOf iblk6; rw [A_eq6]; try rfl)

/-! ## The body at a generic point -/

/-- The kernel body as region 6 calls it at point `t`: the point's coordinates, the four index tables whole, and each
    window's current staging buffer. -/
abbrev bodyAt6 (t : Fin (cfg6 a).N) : Prog (TpuEff nD τ sig (Elt F) Λ₀ .tc) PUnit :=
  cc6__gather_norm_kernel (grid6.coords t) (Memref.whole main_v39) (Memref.isWhole_whole _) (Memref.whole main_v40) (Memref.isWhole_whole _)
    (Memref.whole main_v41) (Memref.isWhole_whole _) (Memref.whole main_v42) (Memref.isWhole_whole _)
    (spec6_0.stage ((cfg6 a).slots t 0)) (hstage6_0 (((cfg6 a).slots t 0).cast nbuf6_0))
    (spec6_1.stage ((cfg6 a).slots t 1)) (hstage6_1 (((cfg6 a).slots t 1).cast nbuf6_1))
    (spec6_2.stage ((cfg6 a).slots t 2)) (hstage6_2 (((cfg6 a).slots t 2).cast nbuf6_2))
    (spec6_3.stage ((cfg6 a).slots t 3)) (hstage6_3 (((cfg6 a).slots t 3).cast nbuf6_3))
    (spec6_4.stage ((cfg6 a).slots t 4)) (hstage6_4 (((cfg6 a).slots t 4).cast nbuf6_4))

/-- The body at any point: each input buffer holds its row (`before6_w`), so `sound_kernel6` applies; the invariant
    (with the index tables in it) and what the core owes pass through unread. -/
theorem sound_body6 (c : Dev nD) (t : Fin (cfg6 a).N) :
    iprop((dat6 V a c).Φ t.castSucc ∗ (dat6 V a c).owesAt () t.castSucc
      ∗ (∃ d, owns (c : Thread nD τ) (((cfg6 a).win 0).stage ((cfg6 a).slots t 0)) fullShare ((dat6 V a c).before 0 t d))
      ∗ (∃ d, owns (c : Thread nD τ) (((cfg6 a).win 1).stage ((cfg6 a).slots t 1)) fullShare ((dat6 V a c).before 1 t d))
      ∗ (∃ d, owns (c : Thread nD τ) (((cfg6 a).win 2).stage ((cfg6 a).slots t 2)) fullShare ((dat6 V a c).before 2 t d))
      ∗ (∃ d, owns (c : Thread nD τ) (((cfg6 a).win 3).stage ((cfg6 a).slots t 3)) fullShare ((dat6 V a c).before 3 t d))
      ∗ (∃ d, owns (c : Thread nD τ) (((cfg6 a).win 4).stage ((cfg6 a).slots t 4)) fullShare ((dat6 V a c).before 4 t d)))
    ⊢ wp frame (wpE (defs₀ (F := F)) Variants.none c none) Set.univ
        (bodyAt6 a t)
        (fun _ => iprop((dat6 V a c).Φ t.succ ∗ (dat6 V a c).owesAt () t.succ
          ∗ owns (c : Thread nD τ) (((cfg6 a).win 0).stage ((cfg6 a).slots t 0)) fullShare ((dat6 V a c).after 0 t)
          ∗ owns (c : Thread nD τ) (((cfg6 a).win 1).stage ((cfg6 a).slots t 1)) fullShare ((dat6 V a c).after 1 t)
          ∗ owns (c : Thread nD τ) (((cfg6 a).win 2).stage ((cfg6 a).slots t 2)) fullShare ((dat6 V a c).after 2 t)
          ∗ owns (c : Thread nD τ) (((cfg6 a).win 3).stage ((cfg6 a).slots t 3)) fullShare ((dat6 V a c).after 3 t)
          ∗ owns (c : Thread nD τ) (((cfg6 a).win 4).stage ((cfg6 a).slots t 4)) fullShare ((dat6 V a c).after 4 t))) := by
  simp only [before6_0, before6_1, before6_2, before6_3]
  rw [show (dat6 V a c).Φ t.succ = (dat6 V a c).Φ t.castSucc from rfl,
    show (dat6 V a c).owesAt () t.succ = (dat6 V a c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  unfold bodyAt6
  iapply (sound_kernel6 c Set.univ _ _ _ _ _ _ _ _ _ _ _ _ _ _ _ _ _ _ _ (iblk6 V a c 0 t) (iblk6 V a c 1 t) (iblk6 V a c 2 t) (iblk6 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 6, at every point. -/
theorem body_obligation6 (c : Dev nD) : BodyObligation (dat6 (F := F) V a c) (defs₀ (F := F)) Variants.none () Set.univ := fun t => by
  rw [bigSep_W6, bigSep_W6]
  exact sound_body6 V a c t

end Region0

end Cert.KernelIdeal.Gen

end
-- ==== Proof.KI.Ok6.lean ====
/-
  The index tables of region 6 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok6_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 6's side condition. -/
theorem ok6_of_lt (pf : pre6.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok6 pf := by
  unfold ok6
  refine ⟨fun i => ⟨?_, Or.inl rfl⟩, fun i => ⟨?_, Or.inl rfl⟩, fun i => ⟨?_, Or.inl rfl⟩, fun i => ⟨?_, Or.inl rfl⟩⟩
  · exact ok6_fits _ (h0 _)
  · exact ok6_fits _ (h1 _)
  · exact ok6_fits _ (h2 _)
  · exact ok6_fits _ (h3 _)

/-- The four index tables of region 6 as the launch memory holds them on core `c`. -/
def pf6 (m : (ℓ : Loc nD τ sig) → Buf (Elt F) ℓ) (c : Dev nD) : pre6.Contents (Elt F) :=
  fun | 0 => tbl m c (6 : Fin 20) 0 | 1 => tbl m c (6 : Fin 20) 1 | 2 => tbl m c (6 : Fin 20) 2 | 3 => tbl m c (6 : Fin 20) 3
      | ⟨_ + 4, h⟩ => absurd h (Nat.not_lt.2 (Nat.le_add_left _ _))

/-- In range, those tables are admissible contents of region 6's pipeline. -/
def adm6 (m : (ℓ : Loc nD τ sig) → Buf (Elt F) ℓ) (c : Dev nD)
    (hR : Cert.EdgeLengths.InRange (m ((c.tc : Thread nD τ).loc main_arg1))) : (pcfg6 (F := F)).Adm :=
  ⟨pf6 m c, ok6_of_lt _ (tbl_lt m c hR _ _) (tbl_lt m c hR _ _) (tbl_lt m c hR _ _) (tbl_lt m c hR _ _)⟩

theorem adm6_0 (m : (ℓ : Loc nD τ sig) → Buf (Elt F) ℓ) (c : Dev nD)
    (hR : Cert.EdgeLengths.InRange (m ((c.tc : Thread nD τ).loc main_arg1))) :
    (adm6 m c hR).1 0 = tbl m c (6 : Fin 20) 0 := rfl
theorem adm6_1 (m : (ℓ : Loc nD τ sig) → Buf (Elt F) ℓ) (c : Dev nD)
    (hR : Cert.EdgeLengths.InRange (m ((c.tc : Thread nD τ).loc main_arg1))) :
    (adm6 m c hR).1 1 = tbl m c (6 : Fin 20) 1 := rfl
theorem adm6_2 (m : (ℓ : Loc nD τ sig) → Buf (Elt F) ℓ) (c : Dev nD)
    (hR : Cert.EdgeLengths.InRange (m ((c.tc : Thread nD τ).loc main_arg1))) :
    (adm6 m c hR).1 2 = tbl m c (6 : Fin 20) 2 := rfl
theorem adm6_3 (m : (ℓ : Loc nD τ sig) → Buf (Elt F) ℓ) (c : Dev nD)
    (hR : Cert.EdgeLengths.InRange (m ((c.tc : Thread nD τ).loc main_arg1))) :
    (adm6 m c hR).1 3 = tbl m c (6 : Fin 20) 3 := rfl

end Cert.KernelIdeal.Gen

end
-- ==== Proof.KI.Region7.lean ====
/-
  Region 7 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk7`),
  whatever it held before.

  The region's proof data then says: at every grid point each input window's buffer holds the table row its index
  table names there, and the output window's buffer is left at `outBlk7` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk7 (x0 x1 x2 x3 : Vec F S1x1x64 .f32) : Vec F S1x1x2 .f32 :=
  View.canon [⟨outRectD, k7_pay2 (View.ld x2 rowRect) (View.ld x3 rowRect)⟩,
              ⟨outRectB, k7_pay1 (View.ld x0 rowRect) (View.ld x1 rowRect)⟩]

/-- The two one-element stores tile the two-element block. -/
theorem outCover7 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk7` of the inputs. The index tables are not
    touched by the body (only the index maps read them), so nothing is asked of them. -/
theorem sound_kernel7 (c : Dev nD) (E : Set ℕ) (i : grid7.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk7 x0 x1 x2 x3)) -∗ K ⟨⟩))
      ⊢ wp frame (wpE (defs₀ (F := F)) Variants.none c none) E
          (cc7__gather_norm_kernel i a1 h1 a2 h2 a3 h3 a4 h4 a5 h5 a6 h6 a7 h7 a8 h8 a9 h9) K := by
  simp only [cc7__gather_norm_kernel_eq_skeleton]; unfold cc7__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover7 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg7 (F := F)).Adm)

/-- Window `w`'s block at point `t`, read off its array as the region finds it: for an input window the table row
    its index table names at `t`, for the output window the two-element row `t` of the result. -/
def iblk7 (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

/-- The proof data of region 7 on core `c`: the arrays as the region finds them; after the body at point `t` each
    input block as it was and the output block the two lengths; the invariant carries the untouched scoped
    buffers, the generator register and the four index tables, which only the index maps read. -/
def dat7 (c : Dev nD) : Dat τ (Elt F) Unit ℕ (UR sig nD τ) ℕ (cfg7 a) c where
  A w := V c (Pipeline.arrRef spec7 w)
  after w t := match w with
    | ⟨0, _⟩ => iblk7 V a c 0 t
    | ⟨1, _⟩ => iblk7 V a c 1 t
    | ⟨2, _⟩ => iblk7 V a c 2 t
    | ⟨3, _⟩ => iblk7 V a c 3 t
    | ⟨4, _⟩ => outBlk7 (iblk7 V a c 0 t) (iblk7 V a c 1 t) (iblk7 V a c 2 t) (iblk7 V a c 3 t)
  Φ _ := iprop(Pipeline.ΦA spec7 c ∗ Pipeline.prefHeld pre7 c (fun _ => fullShare) a.1)
  q w := inShare w
  owed _ := 0

theorem A_eq7 (c : Dev nD) (w : Fin (cfg7 a).W) : (dat7 V a c).A w = V c (Pipeline.arrRef spec7 w) := by
  dsimp only [dat7]

theorem after7_0 (c : Dev nD) (t : Fin (cfg7 a).N) : (dat7 V a c).after 0 t = iblk7 V a c 0 t := by dsimp only [dat7]; rfl
theorem after7_1 (c : Dev nD) (t : Fin (cfg7 a).N) : (dat7 V a c).after 1 t = iblk7 V a c 1 t := by dsimp only [dat7]; rfl
theorem after7_2 (c : Dev nD) (t : Fin (cfg7 a).N) : (dat7 V a c).after 2 t = iblk7 V a c 2 t := by dsimp only [dat7]; rfl
theorem after7_3 (c : Dev nD) (t : Fin (cfg7 a).N) : (dat7 V a c).after 3 t = iblk7 V a c 3 t := by dsimp only [dat7]; rfl
theorem after7_4 (c : Dev nD) (t : Fin (cfg7 a).N) : (dat7 V a c).after 4 t
    = outBlk7 (iblk7 V a c 0 t) (iblk7 V a c 1 t) (iblk7 V a c 2 t) (iblk7 V a c 3 t) := by dsimp only [dat7]; rfl

/-- Input window 0 holds its row at every point, fetched there or not: the body never writes an input block, the
    window is never idle and its blocks are whole rows. -/
theorem before7_0 (c : Dev nD) (t : Fin (cfg7 a).N) (d) : (dat7 V a c).before 0 t d = iblk7 V a c 0 t :=
  ((dat7 V a c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)

/-- Input window 1 holds its row at every point, fetched there or not: the body never writes an input block, the
    window is never idle and its blocks are whole rows. -/
theorem before7_1 (c : Dev nD) (t : Fin (cfg7 a).N) (d) : (dat7 V a c).before 1 t d = iblk7 V a c 1 t :=
  ((dat7 V a c).before_in_eq_fetched 1 rfl (fun _ => rfl) (fun _ _ _ => rfl)
      (fun t => by rw [after7_1]; unfold Dat.blockOf iblk7; rw [A_eq7]; try rfl) t d).trans
    (by unfold Dat.fetched Dat.blockOf iblk7; rw [A_eq7]; try rfl)

/-- Input window 2 holds its row at every point, fetched there or not: the body never writes an input block, the
    window is never idle and its blocks are whole rows. -/
theorem before7_2 (c : Dev nD) (t : Fin (cfg7 a).N) (d) : (dat7 V a c).before 2 t d = iblk7 V a c 2 t :=
  ((dat7 V a c).before_in_eq_fetched 2 rfl (fun _ => rfl) (fun _ _ _ => rfl)
      (fun t => by rw [after7_2]; unfold Dat.blockOf iblk7; rw [A_eq7]; try rfl) t d).trans
    (by unfold Dat.fetched Dat.blockOf iblk7; rw [A_eq7]; try rfl)

/-- Input window 3 holds its row at every point, fetched there or not: the body never writes an input block, the
    window is never idle and its blocks are whole rows. -/
theorem before7_3 (c : Dev nD) (t : Fin (cfg7 a).N) (d) : (dat7 V a c).before 3 t d = iblk7 V a c 3 t :=
  ((dat7 V a c).before_in_eq_fetched 3 rfl (fun _ => rfl) (fun _ _ _ => rfl)
      (fun t => by rw [after7_3]; unfold Dat.blockOf iblk7; rw [A_eq7]; try rfl) t d).trans
    (by unfold Dat.fetched Dat.blockOf iblk7; rw [A_eq7]; try rfl)

/-! ## The body at a generic point -/

/-- The kernel body as region 7 calls it at point `t`: the point's coordinates, the four index tables whole, and each
    window's current staging buffer. -/
abbrev bodyAt7 (t : Fin (cfg7 a).N) : Prog (TpuEff nD τ sig (Elt F) Λ₀ .tc) PUnit :=
  cc7__gather_norm_kernel (grid7.coords t) (Memref.whole main_v44) (Memref.isWhole_whole _) (Memref.whole main_v45) (Memref.isWhole_whole _)
    (Memref.whole main_v46) (Memref.isWhole_whole _) (Memref.whole main_v47) (Memref.isWhole_whole _)
    (spec7_0.stage ((cfg7 a).slots t 0)) (hstage7_0 (((cfg7 a).slots t 0).cast nbuf7_0))
    (spec7_1.stage ((cfg7 a).slots t 1)) (hstage7_1 (((cfg7 a).slots t 1).cast nbuf7_1))
    (spec7_2.stage ((cfg7 a).slots t 2)) (hstage7_2 (((cfg7 a).slots t 2).cast nbuf7_2))
    (spec7_3.stage ((cfg7 a).slots t 3)) (hstage7_3 (((cfg7 a).slots t 3).cast nbuf7_3))
    (spec7_4.stage ((cfg7 a).slots t 4)) (hstage7_4 (((cfg7 a).slots t 4).cast nbuf7_4))

/-- The body at any point: each input buffer holds its row (`before7_w`), so `sound_kernel7` applies; the invariant
    (with the index tables in it) and what the core owes pass through unread. -/
theorem sound_body7 (c : Dev nD) (t : Fin (cfg7 a).N) :
    iprop((dat7 V a c).Φ t.castSucc ∗ (dat7 V a c).owesAt () t.castSucc
      ∗ (∃ d, owns (c : Thread nD τ) (((cfg7 a).win 0).stage ((cfg7 a).slots t 0)) fullShare ((dat7 V a c).before 0 t d))
      ∗ (∃ d, owns (c : Thread nD τ) (((cfg7 a).win 1).stage ((cfg7 a).slots t 1)) fullShare ((dat7 V a c).before 1 t d))
      ∗ (∃ d, owns (c : Thread nD τ) (((cfg7 a).win 2).stage ((cfg7 a).slots t 2)) fullShare ((dat7 V a c).before 2 t d))
      ∗ (∃ d, owns (c : Thread nD τ) (((cfg7 a).win 3).stage ((cfg7 a).slots t 3)) fullShare ((dat7 V a c).before 3 t d))
      ∗ (∃ d, owns (c : Thread nD τ) (((cfg7 a).win 4).stage ((cfg7 a).slots t 4)) fullShare ((dat7 V a c).before 4 t d)))
    ⊢ wp frame (wpE (defs₀ (F := F)) Variants.none c none) Set.univ
        (bodyAt7 a t)
        (fun _ => iprop((dat7 V a c).Φ t.succ ∗ (dat7 V a c).owesAt () t.succ
          ∗ owns (c : Thread nD τ) (((cfg7 a).win 0).stage ((cfg7 a).slots t 0)) fullShare ((dat7 V a c).after 0 t)
          ∗ owns (c : Thread nD τ) (((cfg7 a).win 1).stage ((cfg7 a).slots t 1)) fullShare ((dat7 V a c).after 1 t)
          ∗ owns (c : Thread nD τ) (((cfg7 a).win 2).stage ((cfg7 a).slots t 2)) fullShare ((dat7 V a c).after 2 t)
          ∗ owns (c : Thread nD τ) (((cfg7 a).win 3).stage ((cfg7 a).slots t 3)) fullShare ((dat7 V a c).after 3 t)
          ∗ owns (c : Thread nD τ) (((cfg7 a).win 4).stage ((cfg7 a).slots t 4)) fullShare ((dat7 V a c).after 4 t))) := by
  simp only [before7_0, before7_1, before7_2, before7_3]
  rw [show (dat7 V a c).Φ t.succ = (dat7 V a c).Φ t.castSucc from rfl,
    show (dat7 V a c).owesAt () t.succ = (dat7 V a c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  unfold bodyAt7
  iapply (sound_kernel7 c Set.univ _ _ _ _ _ _ _ _ _ _ _ _ _ _ _ _ _ _ _ (iblk7 V a c 0 t) (iblk7 V a c 1 t) (iblk7 V a c 2 t) (iblk7 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 7, at every point. -/
theorem body_obligation7 (c : Dev nD) : BodyObligation (dat7 (F := F) V a c) (defs₀ (F := F)) Variants.none () Set.univ := fun t => by
  rw [bigSep_W7, bigSep_W7]
  exact sound_body7 V a c t

end Region0

end Cert.KernelIdeal.Gen

end
-- ==== Proof.KI.Ok7.lean ====
/-
  The index tables of region 7 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok7_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 7's side condition. -/
theorem ok7_of_lt (pf : pre7.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok7 pf := by
  unfold ok7
  refine ⟨fun i => ⟨?_, Or.inl rfl⟩, fun i => ⟨?_, Or.inl rfl⟩, fun i => ⟨?_, Or.inl rfl⟩, fun i => ⟨?_, Or.inl rfl⟩⟩
  · exact ok7_fits _ (h0 _)
  · exact ok7_fits _ (h1 _)
  · exact ok7_fits _ (h2 _)
  · exact ok7_fits _ (h3 _)

/-- The four index tables of region 7 as the launch memory holds them on core `c`. -/
def pf7 (m : (ℓ : Loc nD τ sig) → Buf (Elt F) ℓ) (c : Dev nD) : pre7.Contents (Elt F) :=
  fun | 0 => tbl m c (7 : Fin 20) 0 | 1 => tbl m c (7 : Fin 20) 1 | 2 => tbl m c (7 : Fin 20) 2 | 3 => tbl m c (7 : Fin 20) 3
      | ⟨_ + 4, h⟩ => absurd h (Nat.not_lt.2 (Nat.le_add_left _ _))

/-- In range, those tables are admissible contents of region 7's pipeline. -/
def adm7 (m : (ℓ : Loc nD τ sig) → Buf (Elt F) ℓ) (c : Dev nD)
    (hR : Cert.EdgeLengths.InRange (m ((c.tc : Thread nD τ).loc main_arg1))) : (pcfg7 (F := F)).Adm :=
  ⟨pf7 m c, ok7_of_lt _ (tbl_lt m c hR _ _) (tbl_lt m c hR _ _) (tbl_lt m c hR _ _) (tbl_lt m c hR _ _)⟩

theorem adm7_0 (m : (ℓ : Loc nD τ sig) → Buf (Elt F) ℓ) (c : Dev nD)
    (hR : Cert.EdgeLengths.InRange (m ((c.tc : Thread nD τ).loc main_arg1))) :
    (adm7 m c hR).1 0 = tbl m c (7 : Fin 20) 0 := rfl
theorem adm7_1 (m : (ℓ : Loc nD τ sig) → Buf (Elt F) ℓ) (c : Dev nD)
    (hR : Cert.EdgeLengths.InRange (m ((c.tc : Thread nD τ).loc main_arg1))) :
    (adm7 m c hR).1 1 = tbl m c (7 : Fin 20) 1 := rfl
theorem adm7_2 (m : (ℓ : Loc nD τ sig) → Buf (Elt F) ℓ) (c : Dev nD)
    (hR : Cert.EdgeLengths.InRange (m ((c.tc : Thread nD τ).loc main_arg1))) :
    (adm7 m c hR).1 2 = tbl m c (7 : Fin 20) 2 := rfl
theorem adm7_3 (m : (ℓ : Loc nD τ sig) → Buf (Elt F) ℓ) (c : Dev nD)
    (hR : Cert.EdgeLengths.InRange (m ((c.tc : Thread nD τ).loc main_arg1))) :
    (adm7 m c hR).1 3 = tbl m c (7 : Fin 20) 3 := rfl

end Cert.KernelIdeal.Gen

end
-- ==== Proof.KI.Region8.lean ====
/-
  Region 8 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk8`),
  whatever it held before.

  The region's proof data then says: at every grid point each input window's buffer holds the table row its index
  table names there, and the output window's buffer is left at `outBlk8` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk8 (x0 x1 x2 x3 : Vec F S1x1x64 .f32) : Vec F S1x1x2 .f32 :=
  View.canon [⟨outRectD, k8_pay2 (View.ld x2 rowRect) (View.ld x3 rowRect)⟩,
              ⟨outRectB, k8_pay1 (View.ld x0 rowRect) (View.ld x1 rowRect)⟩]

/-- The two one-element stores tile the two-element block. -/
theorem outCover8 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk8` of the inputs. The index tables are not
    touched by the body (only the index maps read them), so nothing is asked of them. -/
theorem sound_kernel8 (c : Dev nD) (E : Set ℕ) (i : grid8.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk8 x0 x1 x2 x3)) -∗ K ⟨⟩))
      ⊢ wp frame (wpE (defs₀ (F := F)) Variants.none c none) E
          (cc8__gather_norm_kernel i a1 h1 a2 h2 a3 h3 a4 h4 a5 h5 a6 h6 a7 h7 a8 h8 a9 h9) K := by
  simp only [cc8__gather_norm_kernel_eq_skeleton]; unfold cc8__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover8 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg8 (F := F)).Adm)

/-- Window `w`'s block at point `t`, read off its array as the region finds it: for an input window the table row
    its index table names at `t`, for the output window the two-element row `t` of the result. -/
def iblk8 (c : Dev nD) (w : Fin (cfg8 a).W) (t : Fin (cfg8 a).N) :
    (((cfg8 a).win w).xblock ((cfg8 a).grid.coords t)).Idx → Elt F ((cfg8 a).win w).elt :=
  (((cfg8 a).win w).blk t).view.read (Elt F) (V c (Pipeline.arrRef spec8 w))

/-- The proof data of region 8 on core `c`: the arrays as the region finds them; after the body at point `t` each
    input block as it was and the output block the two lengths; the invariant carries the untouched scoped
    buffers, the generator register and the four index tables, which only the index maps read. -/
def dat8 (c : Dev nD) : Dat τ (Elt F) Unit ℕ (UR sig nD τ) ℕ (cfg8 a) c where
  A w := V c (Pipeline.arrRef spec8 w)
  after w t := match w with
    | ⟨0, _⟩ => iblk8 V a c 0 t
    | ⟨1, _⟩ => iblk8 V a c 1 t
    | ⟨2, _⟩ => iblk8 V a c 2 t
    | ⟨3, _⟩ => iblk8 V a c 3 t
    | ⟨4, _⟩ => outBlk8 (iblk8 V a c 0 t) (iblk8 V a c 1 t) (iblk8 V a c 2 t) (iblk8 V a c 3 t)
  Φ _ := iprop(Pipeline.ΦA spec8 c ∗ Pipeline.prefHeld pre8 c (fun _ => fullShare) a.1)
  q w := inShare w
  owed _ := 0

theorem A_eq8 (c : Dev nD) (w : Fin (cfg8 a).W) : (dat8 V a c).A w = V c (Pipeline.arrRef spec8 w) := by
  dsimp only [dat8]

theorem after8_0 (c : Dev nD) (t : Fin (cfg8 a).N) : (dat8 V a c).after 0 t = iblk8 V a c 0 t := by dsimp only [dat8]; rfl
theorem after8_1 (c : Dev nD) (t : Fin (cfg8 a).N) : (dat8 V a c).after 1 t = iblk8 V a c 1 t := by dsimp only [dat8]; rfl
theorem after8_2 (c : Dev nD) (t : Fin (cfg8 a).N) : (dat8 V a c).after 2 t = iblk8 V a c 2 t := by dsimp only [dat8]; rfl
theorem after8_3 (c : Dev nD) (t : Fin (cfg8 a).N) : (dat8 V a c).after 3 t = iblk8 V a c 3 t := by dsimp only [dat8]; rfl
theorem after8_4 (c : Dev nD) (t : Fin (cfg8 a).N) : (dat8 V a c).after 4 t
    = outBlk8 (iblk8 V a c 0 t) (iblk8 V a c 1 t) (iblk8 V a c 2 t) (iblk8 V a c 3 t) := by dsimp only [dat8]; rfl

/-- Input window 0 holds its row at every point, fetched there or not: the body never writes an input block, the
    window is never idle and its blocks are whole rows. -/
theorem before8_0 (c : Dev nD) (t : Fin (cfg8 a).N) (d) : (dat8 V a c).before 0 t d = iblk8 V a c 0 t :=
  ((dat8 V a c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)

/-- Input window 1 holds its row at every point, fetched there or not: the body never writes an input block, the
    window is never idle and its blocks are whole rows. -/
theorem before8_1 (c : Dev nD) (t : Fin (cfg8 a).N) (d) : (dat8 V a c).before 1 t d = iblk8 V a c 1 t :=
  ((dat8 V a c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)

/-- Input window 2 holds its row at every point, fetched there or not: the body never writes an input block, the
    window is never idle and its blocks are whole rows. -/
theorem before8_2 (c : Dev nD) (t : Fin (cfg8 a).N) (d) : (dat8 V a c).before 2 t d = iblk8 V a c 2 t :=
  ((dat8 V a c).before_in_eq_fetched 2 rfl (fun _ => rfl) (fun _ _ _ => rfl)
      (fun t => by rw [after8_2]; unfold Dat.blockOf iblk8; rw [A_eq8]; try rfl) t d).trans
    (by unfold Dat.fetched Dat.blockOf iblk8; rw [A_eq8]; try rfl)

/-- Input window 3 holds its row at every point, fetched there or not: the body never writes an input block, the
    window is never idle and its blocks are whole rows. -/
theorem before8_3 (c : Dev nD) (t : Fin (cfg8 a).N) (d) : (dat8 V a c).before 3 t d = iblk8 V a c 3 t :=
  ((dat8 V a c).before_in_eq_fetched 3 rfl (fun _ => rfl) (fun _ _ _ => rfl)
      (fun t => by rw [after8_3]; unfold Dat.blockOf iblk8; rw [A_eq8]; try rfl) t d).trans
    (by unfold Dat.fetched Dat.blockOf iblk8; rw [A_eq8]; try rfl)

/-! ## The body at a generic point -/

/-- The kernel body as region 8 calls it at point `t`: the point's coordinates, the four index tables whole, and each
    window's current staging buffer. -/
abbrev bodyAt8 (t : Fin (cfg8 a).N) : Prog (TpuEff nD τ sig (Elt F) Λ₀ .tc) PUnit :=
  cc8__gather_norm_kernel (grid8.coords t) (Memref.whole main_v49) (Memref.isWhole_whole _) (Memref.whole main_v50) (Memref.isWhole_whole _)
    (Memref.whole main_v51) (Memref.isWhole_whole _) (Memref.whole main_v52) (Memref.isWhole_whole _)
    (spec8_0.stage ((cfg8 a).slots t 0)) (hstage8_0 (((cfg8 a).slots t 0).cast nbuf8_0))
    (spec8_1.stage ((cfg8 a).slots t 1)) (hstage8_1 (((cfg8 a).slots t 1).cast nbuf8_1))
    (spec8_2.stage ((cfg8 a).slots t 2)) (hstage8_2 (((cfg8 a).slots t 2).cast nbuf8_2))
    (spec8_3.stage ((cfg8 a).slots t 3)) (hstage8_3 (((cfg8 a).slots t 3).cast nbuf8_3))
    (spec8_4.stage ((cfg8 a).slots t 4)) (hstage8_4 (((cfg8 a).slots t 4).cast nbuf8_4))

/-- The body at any point: each input buffer holds its row (`before8_w`), so `sound_kernel8` applies; the invariant
    (with the index tables in it) and what the core owes pass through unread. -/
theorem sound_body8 (c : Dev nD) (t : Fin (cfg8 a).N) :
    iprop((dat8 V a c).Φ t.castSucc ∗ (dat8 V a c).owesAt () t.castSucc
      ∗ (∃ d, owns (c : Thread nD τ) (((cfg8 a).win 0).stage ((cfg8 a).slots t 0)) fullShare ((dat8 V a c).before 0 t d))
      ∗ (∃ d, owns (c : Thread nD τ) (((cfg8 a).win 1).stage ((cfg8 a).slots t 1)) fullShare ((dat8 V a c).before 1 t d))
      ∗ (∃ d, owns (c : Thread nD τ) (((cfg8 a).win 2).stage ((cfg8 a).slots t 2)) fullShare ((dat8 V a c).before 2 t d))
      ∗ (∃ d, owns (c : Thread nD τ) (((cfg8 a).win 3).stage ((cfg8 a).slots t 3)) fullShare ((dat8 V a c).before 3 t d))
      ∗ (∃ d, owns (c : Thread nD τ) (((cfg8 a).win 4).stage ((cfg8 a).slots t 4)) fullShare ((dat8 V a c).before 4 t d)))
    ⊢ wp frame (wpE (defs₀ (F := F)) Variants.none c none) Set.univ
        (bodyAt8 a t)
        (fun _ => iprop((dat8 V a c).Φ t.succ ∗ (dat8 V a c).owesAt () t.succ
          ∗ owns (c : Thread nD τ) (((cfg8 a).win 0).stage ((cfg8 a).slots t 0)) fullShare ((dat8 V a c).after 0 t)
          ∗ owns (c : Thread nD τ) (((cfg8 a).win 1).stage ((cfg8 a).slots t 1)) fullShare ((dat8 V a c).after 1 t)
          ∗ owns (c : Thread nD τ) (((cfg8 a).win 2).stage ((cfg8 a).slots t 2)) fullShare ((dat8 V a c).after 2 t)
          ∗ owns (c : Thread nD τ) (((cfg8 a).win 3).stage ((cfg8 a).slots t 3)) fullShare ((dat8 V a c).after 3 t)
          ∗ owns (c : Thread nD τ) (((cfg8 a).win 4).stage ((cfg8 a).slots t 4)) fullShare ((dat8 V a c).after 4 t))) := by
  simp only [before8_0, before8_1, before8_2, before8_3]
  rw [show (dat8 V a c).Φ t.succ = (dat8 V a c).Φ t.castSucc from rfl,
    show (dat8 V a c).owesAt () t.succ = (dat8 V a c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  unfold bodyAt8
  iapply (sound_kernel8 c Set.univ _ _ _ _ _ _ _ _ _ _ _ _ _ _ _ _ _ _ _ (iblk8 V a c 0 t) (iblk8 V a c 1 t) (iblk8 V a c 2 t) (iblk8 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 8, at every point. -/
theorem body_obligation8 (c : Dev nD) : BodyObligation (dat8 (F := F) V a c) (defs₀ (F := F)) Variants.none () Set.univ := fun t => by
  rw [bigSep_W8, bigSep_W8]
  exact sound_body8 V a c t

end Region0

end Cert.KernelIdeal.Gen

end
-- ==== Proof.KI.Ok8.lean ====
/-
  The index tables of region 8 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok8_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 8's side condition. -/
theorem ok8_of_lt (pf : pre8.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok8 pf := by
  unfold ok8
  refine ⟨fun i => ⟨?_, Or.inl rfl⟩, fun i => ⟨?_, Or.inl rfl⟩, fun i => ⟨?_, Or.inl rfl⟩, fun i => ⟨?_, Or.inl rfl⟩⟩
  · exact ok8_fits _ (h0 _)
  · exact ok8_fits _ (h1 _)
  · exact ok8_fits _ (h2 _)
  · exact ok8_fits _ (h3 _)

/-- The four index tables of region 8 as the launch memory holds them on core `c`. -/
def pf8 (m : (ℓ : Loc nD τ sig) → Buf (Elt F) ℓ) (c : Dev nD) : pre8.Contents (Elt F) :=
  fun | 0 => tbl m c (8 : Fin 20) 0 | 1 => tbl m c (8 : Fin 20) 1 | 2 => tbl m c (8 : Fin 20) 2 | 3 => tbl m c (8 : Fin 20) 3
      | ⟨_ + 4, h⟩ => absurd h (Nat.not_lt.2 (Nat.le_add_left _ _))

/-- In range, those tables are admissible contents of region 8's pipeline. -/
def adm8 (m : (ℓ : Loc nD τ sig) → Buf (Elt F) ℓ) (c : Dev nD)
    (hR : Cert.EdgeLengths.InRange (m ((c.tc : Thread nD τ).loc main_arg1))) : (pcfg8 (F := F)).Adm :=
  ⟨pf8 m c, ok8_of_lt _ (tbl_lt m c hR _ _) (tbl_lt m c hR _ _) (tbl_lt m c hR _ _) (tbl_lt m c hR _ _)⟩

theorem adm8_0 (m : (ℓ : Loc nD τ sig) → Buf (Elt F) ℓ) (c : Dev nD)
    (hR : Cert.EdgeLengths.InRange (m ((c.tc : Thread nD τ).loc main_arg1))) :
    (adm8 m c hR).1 0 = tbl m c (8 : Fin 20) 0 := rfl
theorem adm8_1 (m : (ℓ : Loc nD τ sig) → Buf (Elt F) ℓ) (c : Dev nD)
    (hR : Cert.EdgeLengths.InRange (m ((c.tc : Thread nD τ).loc main_arg1))) :
    (adm8 m c hR).1 1 = tbl m c (8 : Fin 20) 1 := rfl
theorem adm8_2 (m : (ℓ : Loc nD τ sig) → Buf (Elt F) ℓ) (c : Dev nD)
    (hR : Cert.EdgeLengths.InRange (m ((c.tc : Thread nD τ).loc main_arg1))) :
    (adm8 m c hR).1 2 = tbl m c (8 : Fin 20) 2 := rfl
theorem adm8_3 (m : (ℓ : Loc nD τ sig) → Buf (Elt F) ℓ) (c : Dev nD)
    (hR : Cert.EdgeLengths.InRange (m ((c.tc : Thread nD τ).loc main_arg1))) :
    (adm8 m c hR).1 3 = tbl m c (8 : Fin 20) 3 := rfl

end Cert.KernelIdeal.Gen

end
-- ==== Proof.KI.Region9.lean ====
/-
  Region 9 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk9`),
  whatever it held before.

  The region's proof data then says: at every grid point each input window's buffer holds the table row its index
  table names there, and the output window's buffer is left at `outBlk9` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk9 (x0 x1 x2 x3 : Vec F S1x1x64 .f32) : Vec F S1x1x2 .f32 :=
  View.canon [⟨outRectD, k9_pay2 (View.ld x2 rowRect) (View.ld x3 rowRect)⟩,
              ⟨outRectB, k9_pay1 (View.ld x0 rowRect) (View.ld x1 rowRect)⟩]

/-- The two one-element stores tile the two-element block. -/
theorem outCover9 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk9` of the inputs. The index tables are not
    touched by the body (only the index maps read them), so nothing is asked of them. -/
theorem sound_kernel9 (c : Dev nD) (E : Set ℕ) (i : grid9.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk9 x0 x1 x2 x3)) -∗ K ⟨⟩))
      ⊢ wp frame (wpE (defs₀ (F := F)) Variants.none c none) E
          (cc9__gather_norm_kernel i a1 h1 a2 h2 a3 h3 a4 h4 a5 h5 a6 h6 a7 h7 a8 h8 a9 h9) K := by
  simp only [cc9__gather_norm_kernel_eq_skeleton]; unfold cc9__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover9 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg9 (F := F)).Adm)

/-- Window `w`'s block at point `t`, read off its array as the region finds it: for an input window the table row
    its index table names at `t`, for the output window the two-element row `t` of the result. -/
def iblk9 (c : Dev nD) (w : Fin (cfg9 a).W) (t : Fin (cfg9 a).N) :
    (((cfg9 a).win w).xblock ((cfg9 a).grid.coords t)).Idx → Elt F ((cfg9 a).win w).elt :=
  (((cfg9 a).win w).blk t).view.read (Elt F) (V c (Pipeline.arrRef spec9 w))

/-- The proof data of region 9 on core `c`: the arrays as the region finds them; after the body at point `t` each
    input block as it was and the output block the two lengths; the invariant carries the untouched scoped
    buffers, the generator register and the four index tables, which only the index maps read. -/
def dat9 (c : Dev nD) : Dat τ (Elt F) Unit ℕ (UR sig nD τ) ℕ (cfg9 a) c where
  A w := V c (Pipeline.arrRef spec9 w)
  after w t := match w with
    | ⟨0, _⟩ => iblk9 V a c 0 t
    | ⟨1, _⟩ => iblk9 V a c 1 t
    | ⟨2, _⟩ => iblk9 V a c 2 t
    | ⟨3, _⟩ => iblk9 V a c 3 t
    | ⟨4, _⟩ => outBlk9 (iblk9 V a c 0 t) (iblk9 V a c 1 t) (iblk9 V a c 2 t) (iblk9 V a c 3 t)
  Φ _ := iprop(Pipeline.ΦA spec9 c ∗ Pipeline.prefHeld pre9 c (fun _ => fullShare) a.1)
  q w := inShare w
  owed _ := 0

theorem A_eq9 (c : Dev nD) (w : Fin (cfg9 a).W) : (dat9 V a c).A w = V c (Pipeline.arrRef spec9 w) := by
  dsimp only [dat9]

theorem after9_0 (c : Dev nD) (t : Fin (cfg9 a).N) : (dat9 V a c).after 0 t = iblk9 V a c 0 t := by dsimp only [dat9]; rfl
theorem after9_1 (c : Dev nD) (t : Fin (cfg9 a).N) : (dat9 V a c).after 1 t = iblk9 V a c 1 t := by dsimp only [dat9]; rfl
theorem after9_2 (c : Dev nD) (t : Fin (cfg9 a).N) : (dat9 V a c).after 2 t = iblk9 V a c 2 t := by dsimp only [dat9]; rfl
theorem after9_3 (c : Dev nD) (t : Fin (cfg9 a).N) : (dat9 V a c).after 3 t = iblk9 V a c 3 t := by dsimp only [dat9]; rfl
theorem after9_4 (c : Dev nD) (t : Fin (cfg9 a).N) : (dat9 V a c).after 4 t
    = outBlk9 (iblk9 V a c 0 t) (iblk9 V a c 1 t) (iblk9 V a c 2 t) (iblk9 V a c 3 t) := by dsimp only [dat9]; rfl

/-- Input window 0 holds its row at every point, fetched there or not: the body never writes an input block, the
    window is never idle and its blocks are whole rows. -/
theorem before9_0 (c : Dev nD) (t : Fin (cfg9 a).N) (d) : (dat9 V a c).before 0 t d = iblk9 V a c 0 t :=
  ((dat9 V a c).before_in_eq_fetched 0 rfl (fun _ => rfl) (fun _ _ _ => rfl)
      (fun t => by rw [after9_0]; unfold Dat.blockOf iblk9; rw [A_eq9]; try rfl) t d).trans
    (by unfold Dat.fetched Dat.blockOf iblk9; rw [A_eq9]; try rfl)

/-- Input window 1 holds its row at every point, fetched there or not: the body never writes an input block, the
    window is never idle and its blocks are whole rows. -/
theorem before9_1 (c : Dev nD) (t : Fin (cfg9 a).N) (d) : (dat9 V a c).before 1 t d = iblk9 V a c 1 t :=
  ((dat9 V a c).before_in_eq_fetched 1 rfl (fun _ => rfl) (fun _ _ _ => rfl)
      (fun t => by rw [after9_1]; unfold Dat.blockOf iblk9; rw [A_eq9]; try rfl) t d).trans
    (by unfold Dat.fetched Dat.blockOf iblk9; rw [A_eq9]; try rfl)

/-- Input window 2 holds its row at every point, fetched there or not: the body never writes an input block, the
    window is never idle and its blocks are whole rows. -/
theorem before9_2 (c : Dev nD) (t : Fin (cfg9 a).N) (d) : (dat9 V a c).before 2 t d = iblk9 V a c 2 t :=
  ((dat9 V a c).before_in_eq_fetched 2 rfl (fun _ => rfl) (fun _ _ _ => rfl)
      (fun t => by rw [after9_2]; unfold Dat.blockOf iblk9; rw [A_eq9]; try rfl) t d).trans
    (by unfold Dat.fetched Dat.blockOf iblk9; rw [A_eq9]; try rfl)

/-- Input window 3 holds its row at every point, fetched there or not: the body never writes an input block, the
    window is never idle and its blocks are whole rows. -/
theorem before9_3 (c : Dev nD) (t : Fin (cfg9 a).N) (d) : (dat9 V a c).before 3 t d = iblk9 V a c 3 t :=
  ((dat9 V a c).before_in_eq_fetched 3 rfl (fun _ => rfl) (fun _ _ _ => rfl)
      (fun t => by rw [after9_3]; unfold Dat.blockOf iblk9; rw [A_eq9]; try rfl) t d).trans
    (by unfold Dat.fetched Dat.blockOf iblk9; rw [A_eq9]; try rfl)

/-! ## The body at a generic point -/

/-- The kernel body as region 9 calls it at point `t`: the point's coordinates, the four index tables whole, and each
    window's current staging buffer. -/
abbrev bodyAt9 (t : Fin (cfg9 a).N) : Prog (TpuEff nD τ sig (Elt F) Λ₀ .tc) PUnit :=
  cc9__gather_norm_kernel (grid9.coords t) (Memref.whole main_v54) (Memref.isWhole_whole _) (Memref.whole main_v55) (Memref.isWhole_whole _)
    (Memref.whole main_v56) (Memref.isWhole_whole _) (Memref.whole main_v57) (Memref.isWhole_whole _)
    (spec9_0.stage ((cfg9 a).slots t 0)) (hstage9_0 (((cfg9 a).slots t 0).cast nbuf9_0))
    (spec9_1.stage ((cfg9 a).slots t 1)) (hstage9_1 (((cfg9 a).slots t 1).cast nbuf9_1))
    (spec9_2.stage ((cfg9 a).slots t 2)) (hstage9_2 (((cfg9 a).slots t 2).cast nbuf9_2))
    (spec9_3.stage ((cfg9 a).slots t 3)) (hstage9_3 (((cfg9 a).slots t 3).cast nbuf9_3))
    (spec9_4.stage ((cfg9 a).slots t 4)) (hstage9_4 (((cfg9 a).slots t 4).cast nbuf9_4))

/-- The body at any point: each input buffer holds its row (`before9_w`), so `sound_kernel9` applies; the invariant
    (with the index tables in it) and what the core owes pass through unread. -/
theorem sound_body9 (c : Dev nD) (t : Fin (cfg9 a).N) :
    iprop((dat9 V a c).Φ t.castSucc ∗ (dat9 V a c).owesAt () t.castSucc
      ∗ (∃ d, owns (c : Thread nD τ) (((cfg9 a).win 0).stage ((cfg9 a).slots t 0)) fullShare ((dat9 V a c).before 0 t d))
      ∗ (∃ d, owns (c : Thread nD τ) (((cfg9 a).win 1).stage ((cfg9 a).slots t 1)) fullShare ((dat9 V a c).before 1 t d))
      ∗ (∃ d, owns (c : Thread nD τ) (((cfg9 a).win 2).stage ((cfg9 a).slots t 2)) fullShare ((dat9 V a c).before 2 t d))
      ∗ (∃ d, owns (c : Thread nD τ) (((cfg9 a).win 3).stage ((cfg9 a).slots t 3)) fullShare ((dat9 V a c).before 3 t d))
      ∗ (∃ d, owns (c : Thread nD τ) (((cfg9 a).win 4).stage ((cfg9 a).slots t 4)) fullShare ((dat9 V a c).before 4 t d)))
    ⊢ wp frame (wpE (defs₀ (F := F)) Variants.none c none) Set.univ
        (bodyAt9 a t)
        (fun _ => iprop((dat9 V a c).Φ t.succ ∗ (dat9 V a c).owesAt () t.succ
          ∗ owns (c : Thread nD τ) (((cfg9 a).win 0).stage ((cfg9 a).slots t 0)) fullShare ((dat9 V a c).after 0 t)
          ∗ owns (c : Thread nD τ) (((cfg9 a).win 1).stage ((cfg9 a).slots t 1)) fullShare ((dat9 V a c).after 1 t)
          ∗ owns (c : Thread nD τ) (((cfg9 a).win 2).stage ((cfg9 a).slots t 2)) fullShare ((dat9 V a c).after 2 t)
          ∗ owns (c : Thread nD τ) (((cfg9 a).win 3).stage ((cfg9 a).slots t 3)) fullShare ((dat9 V a c).after 3 t)
          ∗ owns (c : Thread nD τ) (((cfg9 a).win 4).stage ((cfg9 a).slots t 4)) fullShare ((dat9 V a c).after 4 t))) := by
  simp only [before9_0, before9_1, before9_2, before9_3]
  rw [show (dat9 V a c).Φ t.succ = (dat9 V a c).Φ t.castSucc from rfl,
    show (dat9 V a c).owesAt () t.succ = (dat9 V a c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  unfold bodyAt9
  iapply (sound_kernel9 c Set.univ _ _ _ _ _ _ _ _ _ _ _ _ _ _ _ _ _ _ _ (iblk9 V a c 0 t) (iblk9 V a c 1 t) (iblk9 V a c 2 t) (iblk9 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 9, at every point. -/
theorem body_obligation9 (c : Dev nD) : BodyObligation (dat9 (F := F) V a c) (defs₀ (F := F)) Variants.none () Set.univ := fun t => by
  rw [bigSep_W9, bigSep_W9]
  exact sound_body9 V a c t

end Region0

end Cert.KernelIdeal.Gen

end
-- ==== Proof.KI.Ok9.lean ====
/-
  The index tables of region 9 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok9_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 9's side condition. -/
theorem ok9_of_lt (pf : pre9.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok9 pf := by
  unfold ok9
  refine ⟨fun i => ⟨?_, Or.inl rfl⟩, fun i => ⟨?_, Or.inl rfl⟩, fun i => ⟨?_, Or.inl rfl⟩, fun i => ⟨?_, Or.inl rfl⟩⟩
  · exact ok9_fits _ (h0 _)
  · exact ok9_fits _ (h1 _)
  · exact ok9_fits _ (h2 _)
  · exact ok9_fits _ (h3 _)

/-- The four index tables of region 9 as the launch memory holds them on core `c`. -/
def pf9 (m : (ℓ : Loc nD τ sig) → Buf (Elt F) ℓ) (c : Dev nD) : pre9.Contents (Elt F) :=
  fun | 0 => tbl m c (9 : Fin 20) 0 | 1 => tbl m c (9 : Fin 20) 1 | 2 => tbl m c (9 : Fin 20) 2 | 3 => tbl m c (9 : Fin 20) 3
      | ⟨_ + 4, h⟩ => absurd h (Nat.not_lt.2 (Nat.le_add_left _ _))

/-- In range, those tables are admissible contents of region 9's pipeline. -/
def adm9 (m : (ℓ : Loc nD τ sig) → Buf (Elt F) ℓ) (c : Dev nD)
    (hR : Cert.EdgeLengths.InRange (m ((c.tc : Thread nD τ).loc main_arg1))) : (pcfg9 (F := F)).Adm :=
  ⟨pf9 m c, ok9_of_lt _ (tbl_lt m c hR _ _) (tbl_lt m c hR _ _) (tbl_lt m c hR _ _) (tbl_lt m c hR _ _)⟩

theorem adm9_0 (m : (ℓ : Loc nD τ sig) → Buf (Elt F) ℓ) (c : Dev nD)
    (hR : Cert.EdgeLengths.InRange (m ((c.tc : Thread nD τ).loc main_arg1))) :
    (adm9 m c hR).1 0 = tbl m c (9 : Fin 20) 0 := rfl
theorem adm9_1 (m : (ℓ : Loc nD τ sig) → Buf (Elt F) ℓ) (c : Dev nD)
    (hR : Cert.EdgeLengths.InRange (m ((c.tc : Thread nD τ).loc main_arg1))) :
    (adm9 m c hR).1 1 = tbl m c (9 : Fin 20) 1 := rfl
theorem adm9_2 (m : (ℓ : Loc nD τ sig) → Buf (Elt F) ℓ) (c : Dev nD)
    (hR : Cert.EdgeLengths.InRange (m ((c.tc : Thread nD τ).loc main_arg1))) :
    (adm9 m c hR).1 2 = tbl m c (9 : Fin 20) 2 := rfl
theorem adm9_3 (m : (ℓ : Loc nD τ sig) → Buf (Elt F) ℓ) (c : Dev nD)
    (hR : Cert.EdgeLengths.InRange (m ((c.tc : Thread nD τ).loc main_arg1))) :
    (adm9 m c hR).1 3 = tbl m c (9 : Fin 20) 3 := rfl

end Cert.KernelIdeal.Gen

end
-- ==== Proof.KI.Region10.lean ====
/-
  Region 10 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk10`),
  whatever it held before.

  The region's proof data then says: at every grid point each input window's buffer holds the table row its index
  table names there, and the output window's buffer is left at `outBlk10` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk10 (x0 x1 x2 x3 : Vec F S1x1x64 .f32) : Vec F S1x1x2 .f32 :=
  View.canon [⟨outRectD, k10_pay2 (View.ld x2 rowRect) (View.ld x3 rowRect)⟩,
              ⟨outRectB, k10_pay1 (View.ld x0 rowRect) (View.ld x1 rowRect)⟩]

/-- The two one-element stores tile the two-element block. -/
theorem outCover10 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk10` of the inputs. The index tables are not
    touched by the body (only the index maps read them), so nothing is asked of them. -/
theorem sound_kernel10 (c : Dev nD) (E : Set ℕ) (i : grid10.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk10 x0 x1 x2 x3)) -∗ K ⟨⟩))
      ⊢ wp frame (wpE (defs₀ (F := F)) Variants.none c none) E
          (cc10__gather_norm_kernel i a1 h1 a2 h2 a3 h3 a4 h4 a5 h5 a6 h6 a7 h7 a8 h8 a9 h9) K := by
  simp only [cc10__gather_norm_kernel_eq_skeleton]; unfold cc10__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover10 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg10 (F := F)).Adm)

/-- Window `w`'s block at point `t`, read off its array as the region finds it: for an input window the table row
    its index table names at `t`, for the output window the two-element row `t` of the result. -/
def iblk10 (c : Dev nD) (w : Fin (cfg10 a).W) (t : Fin (cfg10 a).N) :
    (((cfg10 a).win w).xblock ((cfg10 a).grid.coords t)).Idx → Elt F ((cfg10 a).win w).elt :=
  (((cfg10 a).win w).blk t).view.read (Elt F) (V c (Pipeline.arrRef spec10 w))

/-- The proof data of region 10 on core `c`: the arrays as the region finds them; after the body at point `t` each
    input block as it was and the output block the two lengths; the invariant carries the untouched scoped
    buffers, the generator register and the four index tables, which only the index maps read. -/
def dat10 (c : Dev nD) : Dat τ (Elt F) Unit ℕ (UR sig nD τ) ℕ (cfg10 a) c where
  A w := V c (Pipeline.arrRef spec10 w)
  after w t := match w with
    | ⟨0, _⟩ => iblk10 V a c 0 t
    | ⟨1, _⟩ => iblk10 V a c 1 t
    | ⟨2, _⟩ => iblk10 V a c 2 t
    | ⟨3, _⟩ => iblk10 V a c 3 t
    | ⟨4, _⟩ => outBlk10 (iblk10 V a c 0 t) (iblk10 V a c 1 t) (iblk10 V a c 2 t) (iblk10 V a c 3 t)
  Φ _ := iprop(Pipeline.ΦA spec10 c ∗ Pipeline.prefHeld pre10 c (fun _ => fullShare) a.1)
  q w := inShare w
  owed _ := 0

theorem A_eq10 (c : Dev nD) (w : Fin (cfg10 a).W) : (dat10 V a c).A w = V c (Pipeline.arrRef spec10 w) := by
  dsimp only [dat10]

theorem after10_0 (c : Dev nD) (t : Fin (cfg10 a).N) : (dat10 V a c).after 0 t = iblk10 V a c 0 t := by dsimp only [dat10]; rfl
theorem after10_1 (c : Dev nD) (t : Fin (cfg10 a).N) : (dat10 V a c).after 1 t = iblk10 V a c 1 t := by dsimp only [dat10]; rfl
theorem after10_2 (c : Dev nD) (t : Fin (cfg10 a).N) : (dat10 V a c).after 2 t = iblk10 V a c 2 t := by dsimp only [dat10]; rfl
theorem after10_3 (c : Dev nD) (t : Fin (cfg10 a).N) : (dat10 V a c).after 3 t = iblk10 V a c 3 t := by dsimp only [dat10]; rfl
theorem after10_4 (c : Dev nD) (t : Fin (cfg10 a).N) : (dat10 V a c).after 4 t
    = outBlk10 (iblk10 V a c 0 t) (iblk10 V a c 1 t) (iblk10 V a c 2 t) (iblk10 V a c 3 t) := by dsimp only [dat10]; rfl

/-- Input window 0 holds its row at every point, fetched there or not: the body never writes an input block, the
    window is never idle and its blocks are whole rows. -/
theorem before10_0 (c : Dev nD) (t : Fin (cfg10 a).N) (d) : (dat10 V a c).before 0 t d = iblk10 V a c 0 t :=
  ((dat10 V a c).before_in_eq_fetched 0 rfl (fun _ => rfl) (fun _ _ _ => rfl)
      (fun t => by rw [after10_0]; unfold Dat.blockOf iblk10; rw [A_eq10]; try rfl) t d).trans
    (by unfold Dat.fetched Dat.blockOf iblk10; rw [A_eq10]; try rfl)

/-- Input window 1 holds its row at every point, fetched there or not: the body never writes an input block, the
    window is never idle and its blocks are whole rows. -/
theorem before10_1 (c : Dev nD) (t : Fin (cfg10 a).N) (d) : (dat10 V a c).before 1 t d = iblk10 V a c 1 t :=
  ((dat10 V a c).before_in_eq_fetched 1 rfl (fun _ => rfl) (fun _ _ _ => rfl)
      (fun t => by rw [after10_1]; unfold Dat.blockOf iblk10; rw [A_eq10]; try rfl) t d).trans
    (by unfold Dat.fetched Dat.blockOf iblk10; rw [A_eq10]; try rfl)

/-- Input window 2 holds its row at every point, fetched there or not: the body never writes an input block, the
    window is never idle and its blocks are whole rows. -/
theorem before10_2 (c : Dev nD) (t : Fin (cfg10 a).N) (d) : (dat10 V a c).before 2 t d = iblk10 V a c 2 t :=
  ((dat10 V a c).before_in_eq_fetched 2 rfl (fun _ => rfl) (fun _ _ _ => rfl)
      (fun t => by rw [after10_2]; unfold Dat.blockOf iblk10; rw [A_eq10]; try rfl) t d).trans
    (by unfold Dat.fetched Dat.blockOf iblk10; rw [A_eq10]; try rfl)

/-- Input window 3 holds its row at every point, fetched there or not: the body never writes an input block, the
    window is never idle and its blocks are whole rows. -/
theorem before10_3 (c : Dev nD) (t : Fin (cfg10 a).N) (d) : (dat10 V a c).before 3 t d = iblk10 V a c 3 t :=
  ((dat10 V a c).before_in_eq_fetched 3 rfl (fun _ => rfl) (fun _ _ _ => rfl)
      (fun t => by rw [after10_3]; unfold Dat.blockOf iblk10; rw [A_eq10]; try rfl) t d).trans
    (by unfold Dat.fetched Dat.blockOf iblk10; rw [A_eq10]; try rfl)

/-! ## The body at a generic point -/

/-- The kernel body as region 10 calls it at point `t`: the point's coordinates, the four index tables whole, and each
    window's current staging buffer. -/
abbrev bodyAt10 (t : Fin (cfg10 a).N) : Prog (TpuEff nD τ sig (Elt F) Λ₀ .tc) PUnit :=
  cc10__gather_norm_kernel (grid10.coords t) (Memref.whole main_v59) (Memref.isWhole_whole _) (Memref.whole main_v60) (Memref.isWhole_whole _)
    (Memref.whole main_v61) (Memref.isWhole_whole _) (Memref.whole main_v62) (Memref.isWhole_whole _)
    (spec10_0.stage ((cfg10 a).slots t 0)) (hstage10_0 (((cfg10 a).slots t 0).cast nbuf10_0))
    (spec10_1.stage ((cfg10 a).slots t 1)) (hstage10_1 (((cfg10 a).slots t 1).cast nbuf10_1))
    (spec10_2.stage ((cfg10 a).slots t 2)) (hstage10_2 (((cfg10 a).slots t 2).cast nbuf10_2))
    (spec10_3.stage ((cfg10 a).slots t 3)) (hstage10_3 (((cfg10 a).slots t 3).cast nbuf10_3))
    (spec10_4.stage ((cfg10 a).slots t 4)) (hstage10_4 (((cfg10 a).slots t 4).cast nbuf10_4))

/-- The body at any point: each input buffer holds its row (`before10_w`), so `sound_kernel10` applies; the invariant
    (with the index tables in it) and what the core owes pass through unread. -/
theorem sound_body10 (c : Dev nD) (t : Fin (cfg10 a).N) :
    iprop((dat10 V a c).Φ t.castSucc ∗ (dat10 V a c).owesAt () t.castSucc
      ∗ (∃ d, owns (c : Thread nD τ) (((cfg10 a).win 0).stage ((cfg10 a).slots t 0)) fullShare ((dat10 V a c).before 0 t d))
      ∗ (∃ d, owns (c : Thread nD τ) (((cfg10 a).win 1).stage ((cfg10 a).slots t 1)) fullShare ((dat10 V a c).before 1 t d))
      ∗ (∃ d, owns (c : Thread nD τ) (((cfg10 a).win 2).stage ((cfg10 a).slots t 2)) fullShare ((dat10 V a c).before 2 t d))
      ∗ (∃ d, owns (c : Thread nD τ) (((cfg10 a).win 3).stage ((cfg10 a).slots t 3)) fullShare ((dat10 V a c).before 3 t d))
      ∗ (∃ d, owns (c : Thread nD τ) (((cfg10 a).win 4).stage ((cfg10 a).slots t 4)) fullShare ((dat10 V a c).before 4 t d)))
    ⊢ wp frame (wpE (defs₀ (F := F)) Variants.none c none) Set.univ
        (bodyAt10 a t)
        (fun _ => iprop((dat10 V a c).Φ t.succ ∗ (dat10 V a c).owesAt () t.succ
          ∗ owns (c : Thread nD τ) (((cfg10 a).win 0).stage ((cfg10 a).slots t 0)) fullShare ((dat10 V a c).after 0 t)
          ∗ owns (c : Thread nD τ) (((cfg10 a).win 1).stage ((cfg10 a).slots t 1)) fullShare ((dat10 V a c).after 1 t)
          ∗ owns (c : Thread nD τ) (((cfg10 a).win 2).stage ((cfg10 a).slots t 2)) fullShare ((dat10 V a c).after 2 t)
          ∗ owns (c : Thread nD τ) (((cfg10 a).win 3).stage ((cfg10 a).slots t 3)) fullShare ((dat10 V a c).after 3 t)
          ∗ owns (c : Thread nD τ) (((cfg10 a).win 4).stage ((cfg10 a).slots t 4)) fullShare ((dat10 V a c).after 4 t))) := by
  simp only [before10_0, before10_1, before10_2, before10_3]
  rw [show (dat10 V a c).Φ t.succ = (dat10 V a c).Φ t.castSucc from rfl,
    show (dat10 V a c).owesAt () t.succ = (dat10 V a c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  unfold bodyAt10
  iapply (sound_kernel10 c Set.univ _ _ _ _ _ _ _ _ _ _ _ _ _ _ _ _ _ _ _ (iblk10 V a c 0 t) (iblk10 V a c 1 t) (iblk10 V a c 2 t) (iblk10 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 10, at every point. -/
theorem body_obligation10 (c : Dev nD) : BodyObligation (dat10 (F := F) V a c) (defs₀ (F := F)) Variants.none () Set.univ := fun t => by
  rw [bigSep_W10, bigSep_W10]
  exact sound_body10 V a c t

end Region0

end Cert.KernelIdeal.Gen

end
-- ==== Proof.KI.Ok10.lean ====
/-
  The index tables of region 10 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok10_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 10's side condition. -/
theorem ok10_of_lt (pf : pre10.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok10 pf := by
  unfold ok10
  refine ⟨fun i => ⟨?_, Or.inl rfl⟩, fun i => ⟨?_, Or.inl rfl⟩, fun i => ⟨?_, Or.inl rfl⟩, fun i => ⟨?_, Or.inl rfl⟩⟩
  · exact ok10_fits _ (h0 _)
  · exact ok10_fits _ (h1 _)
  · exact ok10_fits _ (h2 _)
  · exact ok10_fits _ (h3 _)

/-- The four index tables of region 10 as the launch memory holds them on core `c`. -/
def pf10 (m : (ℓ : Loc nD τ sig) → Buf (Elt F) ℓ) (c : Dev nD) : pre10.Contents (Elt F) :=
  fun | 0 => tbl m c (10 : Fin 20) 0 | 1 => tbl m c (10 : Fin 20) 1 | 2 => tbl m c (10 : Fin 20) 2 | 3 => tbl m c (10 : Fin 20) 3
      | ⟨_ + 4, h⟩ => absurd h (Nat.not_lt.2 (Nat.le_add_left _ _))

/-- In range, those tables are admissible contents of region 10's pipeline. -/
def adm10 (m : (ℓ : Loc nD τ sig) → Buf (Elt F) ℓ) (c : Dev nD)
    (hR : Cert.EdgeLengths.InRange (m ((c.tc : Thread nD τ).loc main_arg1))) : (pcfg10 (F := F)).Adm :=
  ⟨pf10 m c, ok10_of_lt _ (tbl_lt m c hR _ _) (tbl_lt m c hR _ _) (tbl_lt m c hR _ _) (tbl_lt m c hR _ _)⟩

theorem adm10_0 (m : (ℓ : Loc nD τ sig) → Buf (Elt F) ℓ) (c : Dev nD)
    (hR : Cert.EdgeLengths.InRange (m ((c.tc : Thread nD τ).loc main_arg1))) :
    (adm10 m c hR).1 0 = tbl m c (10 : Fin 20) 0 := rfl
theorem adm10_1 (m : (ℓ : Loc nD τ sig) → Buf (Elt F) ℓ) (c : Dev nD)
    (hR : Cert.EdgeLengths.InRange (m ((c.tc : Thread nD τ).loc main_arg1))) :
    (adm10 m c hR).1 1 = tbl m c (10 : Fin 20) 1 := rfl
theorem adm10_2 (m : (ℓ : Loc nD τ sig) → Buf (Elt F) ℓ) (c : Dev nD)
    (hR : Cert.EdgeLengths.InRange (m ((c.tc : Thread nD τ).loc main_arg1))) :
    (adm10 m c hR).1 2 = tbl m c (10 : Fin 20) 2 := rfl
theorem adm10_3 (m : (ℓ : Loc nD τ sig) → Buf (Elt F) ℓ) (c : Dev nD)
    (hR : Cert.EdgeLengths.InRange (m ((c.tc : Thread nD τ).loc main_arg1))) :
    (adm10 m c hR).1 3 = tbl m c (10 : Fin 20) 3 := rfl

end Cert.KernelIdeal.Gen

end
-- ==== Proof.KI.Region11.lean ====
/-
  Region 11 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk11`),
  whatever it held before.

  The region's proof data then says: at every grid point each input window's buffer holds the table row its index
  table names there, and the output window's buffer is left at `outBlk11` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk11 (x0 x1 x2 x3 : Vec F S1x1x64 .f32) : Vec F S1x1x2 .f32 :=
  View.canon [⟨outRectD, k11_pay2 (View.ld x2 rowRect) (View.ld x3 rowRect)⟩,
              ⟨outRectB, k11_pay1 (View.ld x0 rowRect) (View.ld x1 rowRect)⟩]

/-- The two one-element stores tile the two-element block. -/
theorem outCover11 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk11` of the inputs. The index tables are not
    touched by the body (only the index maps read them), so nothing is asked of them. -/
theorem sound_kernel11 (c : Dev nD) (E : Set ℕ) (i : grid11.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk11 x0 x1 x2 x3)) -∗ K ⟨⟩))
      ⊢ wp frame (wpE (defs₀ (F := F)) Variants.none c none) E
          (cc11__gather_norm_kernel i a1 h1 a2 h2 a3 h3 a4 h4 a5 h5 a6 h6 a7 h7 a8 h8 a9 h9) K := by
  simp only [cc11__gather_norm_kernel_eq_skeleton]; unfold cc11__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover11 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg11 (F := F)).Adm)

/-- Window `w`'s block at point `t`, read off its array as the region finds it: for an input window the table row
    its index table names at `t`, for the output window the two-element row `t` of the result. -/
def iblk11 (c : Dev nD) (w : Fin (cfg11 a).W) (t : Fin (cfg11 a).N) :
    (((cfg11 a).win w).xblock ((cfg11 a).grid.coords t)).Idx → Elt F ((cfg11 a).win w).elt :=
  (((cfg11 a).win w).blk t).view.read (Elt F) (V c (Pipeline.arrRef spec11 w))

/-- The proof data of region 11 on core `c`: the arrays as the region finds them; after the body at point `t` each
    input block as it was and the output block the two lengths; the invariant carries the untouched scoped
    buffers, the generator register and the four index tables, which only the index maps read. -/
def dat11 (c : Dev nD) : Dat τ (Elt F) Unit ℕ (UR sig nD τ) ℕ (cfg11 a) c where
  A w := V c (Pipeline.arrRef spec11 w)
  after w t := match w with
    | ⟨0, _⟩ => iblk11 V a c 0 t
    | ⟨1, _⟩ => iblk11 V a c 1 t
    | ⟨2, _⟩ => iblk11 V a c 2 t
    | ⟨3, _⟩ => iblk11 V a c 3 t
    | ⟨4, _⟩ => outBlk11 (iblk11 V a c 0 t) (iblk11 V a c 1 t) (iblk11 V a c 2 t) (iblk11 V a c 3 t)
  Φ _ := iprop(Pipeline.ΦA spec11 c ∗ Pipeline.prefHeld pre11 c (fun _ => fullShare) a.1)
  q w := inShare w
  owed _ := 0

theorem A_eq11 (c : Dev nD) (w : Fin (cfg11 a).W) : (dat11 V a c).A w = V c (Pipeline.arrRef spec11 w) := by
  dsimp only [dat11]

theorem after11_0 (c : Dev nD) (t : Fin (cfg11 a).N) : (dat11 V a c).after 0 t = iblk11 V a c 0 t := by dsimp only [dat11]; rfl
theorem after11_1 (c : Dev nD) (t : Fin (cfg11 a).N) : (dat11 V a c).after 1 t = iblk11 V a c 1 t := by dsimp only [dat11]; rfl
theorem after11_2 (c : Dev nD) (t : Fin (cfg11 a).N) : (dat11 V a c).after 2 t = iblk11 V a c 2 t := by dsimp only [dat11]; rfl
theorem after11_3 (c : Dev nD) (t : Fin (cfg11 a).N) : (dat11 V a c).after 3 t = iblk11 V a c 3 t := by dsimp only [dat11]; rfl
theorem after11_4 (c : Dev nD) (t : Fin (cfg11 a).N) : (dat11 V a c).after 4 t
    = outBlk11 (iblk11 V a c 0 t) (iblk11 V a c 1 t) (iblk11 V a c 2 t) (iblk11 V a c 3 t) := by dsimp only [dat11]; rfl

/-- Input window 0 holds its row at every point, fetched there or not: the body never writes an input block, the
    window is never idle and its blocks are whole rows. -/
theorem before11_0 (c : Dev nD) (t : Fin (cfg11 a).N) (d) : (dat11 V a c).before 0 t d = iblk11 V a c 0 t :=
  ((dat11 V a c).before_in_eq_fetched 0 rfl (fun _ => rfl) (fun _ _ _ => rfl)
      (fun t => by rw [after11_0]; unfold Dat.blockOf iblk11; rw [A_eq11]; try rfl) t d).trans
    (by unfold Dat.fetched Dat.blockOf iblk11; rw [A_eq11]; try rfl)

/-- Input window 1 holds its row at every point, fetched there or not: the body never writes an input block, the
    window is never idle and its blocks are whole rows. -/
theorem before11_1 (c : Dev nD) (t : Fin (cfg11 a).N) (d) : (dat11 V a c).before 1 t d = iblk11 V a c 1 t :=
  ((dat11 V a c).before_in_eq_fetched 1 rfl (fun _ => rfl) (fun _ _ _ => rfl)
      (fun t => by rw [after11_1]; unfold Dat.blockOf iblk11; rw [A_eq11]; try rfl) t d).trans
    (by unfold Dat.fetched Dat.blockOf iblk11; rw [A_eq11]; try rfl)

/-- Input window 2 holds its row at every point, fetched there or not: the body never writes an input block, the
    window is never idle and its blocks are whole rows. -/
theorem before11_2 (c : Dev nD) (t : Fin (cfg11 a).N) (d) : (dat11 V a c).before 2 t d = iblk11 V a c 2 t :=
  ((dat11 V a c).before_in_eq_fetched 2 rfl (fun _ => rfl) (fun _ _ _ => rfl)
      (fun t => by rw [after11_2]; unfold Dat.blockOf iblk11; rw [A_eq11]; try rfl) t d).trans
    (by unfold Dat.fetched Dat.blockOf iblk11; rw [A_eq11]; try rfl)

/-- Input window 3 holds its row at every point, fetched there or not: the body never writes an input block, the
    window is never idle and its blocks are whole rows. -/
theorem before11_3 (c : Dev nD) (t : Fin (cfg11 a).N) (d) : (dat11 V a c).before 3 t d = iblk11 V a c 3 t :=
  ((dat11 V a c).before_in_eq_fetched 3 rfl (fun _ => rfl) (fun _ _ _ => rfl)
      (fun t => by rw [after11_3]; unfold Dat.blockOf iblk11; rw [A_eq11]; try rfl) t d).trans
    (by unfold Dat.fetched Dat.blockOf iblk11; rw [A_eq11]; try rfl)

/-! ## The body at a generic point -/

/-- The kernel body as region 11 calls it at point `t`: the point's coordinates, the four index tables whole, and each
    window's current staging buffer. -/
abbrev bodyAt11 (t : Fin (cfg11 a).N) : Prog (TpuEff nD τ sig (Elt F) Λ₀ .tc) PUnit :=
  cc11__gather_norm_kernel (grid11.coords t) (Memref.whole main_v64) (Memref.isWhole_whole _) (Memref.whole main_v65) (Memref.isWhole_whole _)
    (Memref.whole main_v66) (Memref.isWhole_whole _) (Memref.whole main_v67) (Memref.isWhole_whole _)
    (spec11_0.stage ((cfg11 a).slots t 0)) (hstage11_0 (((cfg11 a).slots t 0).cast nbuf11_0))
    (spec11_1.stage ((cfg11 a).slots t 1)) (hstage11_1 (((cfg11 a).slots t 1).cast nbuf11_1))
    (spec11_2.stage ((cfg11 a).slots t 2)) (hstage11_2 (((cfg11 a).slots t 2).cast nbuf11_2))
    (spec11_3.stage ((cfg11 a).slots t 3)) (hstage11_3 (((cfg11 a).slots t 3).cast nbuf11_3))
    (spec11_4.stage ((cfg11 a).slots t 4)) (hstage11_4 (((cfg11 a).slots t 4).cast nbuf11_4))

/-- The body at any point: each input buffer holds its row (`before11_w`), so `sound_kernel11` applies; the invariant
    (with the index tables in it) and what the core owes pass through unread. -/
theorem sound_body11 (c : Dev nD) (t : Fin (cfg11 a).N) :
    iprop((dat11 V a c).Φ t.castSucc ∗ (dat11 V a c).owesAt () t.castSucc
      ∗ (∃ d, owns (c : Thread nD τ) (((cfg11 a).win 0).stage ((cfg11 a).slots t 0)) fullShare ((dat11 V a c).before 0 t d))
      ∗ (∃ d, owns (c : Thread nD τ) (((cfg11 a).win 1).stage ((cfg11 a).slots t 1)) fullShare ((dat11 V a c).before 1 t d))
      ∗ (∃ d, owns (c : Thread nD τ) (((cfg11 a).win 2).stage ((cfg11 a).slots t 2)) fullShare ((dat11 V a c).before 2 t d))
      ∗ (∃ d, owns (c : Thread nD τ) (((cfg11 a).win 3).stage ((cfg11 a).slots t 3)) fullShare ((dat11 V a c).before 3 t d))
      ∗ (∃ d, owns (c : Thread nD τ) (((cfg11 a).win 4).stage ((cfg11 a).slots t 4)) fullShare ((dat11 V a c).before 4 t d)))
    ⊢ wp frame (wpE (defs₀ (F := F)) Variants.none c none) Set.univ
        (bodyAt11 a t)
        (fun _ => iprop((dat11 V a c).Φ t.succ ∗ (dat11 V a c).owesAt () t.succ
          ∗ owns (c : Thread nD τ) (((cfg11 a).win 0).stage ((cfg11 a).slots t 0)) fullShare ((dat11 V a c).after 0 t)
          ∗ owns (c : Thread nD τ) (((cfg11 a).win 1).stage ((cfg11 a).slots t 1)) fullShare ((dat11 V a c).after 1 t)
          ∗ owns (c : Thread nD τ) (((cfg11 a).win 2).stage ((cfg11 a).slots t 2)) fullShare ((dat11 V a c).after 2 t)
          ∗ owns (c : Thread nD τ) (((cfg11 a).win 3).stage ((cfg11 a).slots t 3)) fullShare ((dat11 V a c).after 3 t)
          ∗ owns (c : Thread nD τ) (((cfg11 a).win 4).stage ((cfg11 a).slots t 4)) fullShare ((dat11 V a c).after 4 t))) := by
  simp only [before11_0, before11_1, before11_2, before11_3]
  rw [show (dat11 V a c).Φ t.succ = (dat11 V a c).Φ t.castSucc from rfl,
    show (dat11 V a c).owesAt () t.succ = (dat11 V a c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  unfold bodyAt11
  iapply (sound_kernel11 c Set.univ _ _ _ _ _ _ _ _ _ _ _ _ _ _ _ _ _ _ _ (iblk11 V a c 0 t) (iblk11 V a c 1 t) (iblk11 V a c 2 t) (iblk11 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 11, at every point. -/
theorem body_obligation11 (c : Dev nD) : BodyObligation (dat11 (F := F) V a c) (defs₀ (F := F)) Variants.none () Set.univ := fun t => by
  rw [bigSep_W11, bigSep_W11]
  exact sound_body11 V a c t

end Region0

end Cert.KernelIdeal.Gen

end
-- ==== Proof.KI.Ok11.lean ====
/-
  The index tables of region 11 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok11_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 11's side condition. -/
theorem ok11_of_lt (pf : pre11.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok11 pf := by
  unfold ok11
  refine ⟨fun i => ⟨?_, Or.inl rfl⟩, fun i => ⟨?_, Or.inl rfl⟩, fun i => ⟨?_, Or.inl rfl⟩, fun i => ⟨?_, Or.inl rfl⟩⟩
  · exact ok11_fits _ (h0 _)
  · exact ok11_fits _ (h1 _)
  · exact ok11_fits _ (h2 _)
  · exact ok11_fits _ (h3 _)

/-- The four index tables of region 11 as the launch memory holds them on core `c`. -/
def pf11 (m : (ℓ : Loc nD τ sig) → Buf (Elt F) ℓ) (c : Dev nD) : pre11.Contents (Elt F) :=
  fun | 0 => tbl m c (11 : Fin 20) 0 | 1 => tbl m c (11 : Fin 20) 1 | 2 => tbl m c (11 : Fin 20) 2 | 3 => tbl m c (11 : Fin 20) 3
      | ⟨_ + 4, h⟩ => absurd h (Nat.not_lt.2 (Nat.le_add_left _ _))

/-- In range, those tables are admissible contents of region 11's pipeline. -/
def adm11 (m : (ℓ : Loc nD τ sig) → Buf (Elt F) ℓ) (c : Dev nD)
    (hR : Cert.EdgeLengths.InRange (m ((c.tc : Thread nD τ).loc main_arg1))) : (pcfg11 (F := F)).Adm :=
  ⟨pf11 m c, ok11_of_lt _ (tbl_lt m c hR _ _) (tbl_lt m c hR _ _) (tbl_lt m c hR _ _) (tbl_lt m c hR _ _)⟩

theorem adm11_0 (m : (ℓ : Loc nD τ sig) → Buf (Elt F) ℓ) (c : Dev nD)
    (hR : Cert.EdgeLengths.InRange (m ((c.tc : Thread nD τ).loc main_arg1))) :
    (adm11 m c hR).1 0 = tbl m c (11 : Fin 20) 0 := rfl
theorem adm11_1 (m : (ℓ : Loc nD τ sig) → Buf (Elt F) ℓ) (c : Dev nD)
    (hR : Cert.EdgeLengths.InRange (m ((c.tc : Thread nD τ).loc main_arg1))) :
    (adm11 m c hR).1 1 = tbl m c (11 : Fin 20) 1 := rfl
theorem adm11_2 (m : (ℓ : Loc nD τ sig) → Buf (Elt F) ℓ) (c : Dev nD)
    (hR : Cert.EdgeLengths.InRange (m ((c.tc : Thread nD τ).loc main_arg1))) :
    (adm11 m c hR).1 2 = tbl m c (11 : Fin 20) 2 := rfl
theorem adm11_3 (m : (ℓ : Loc nD τ sig) → Buf (Elt F) ℓ) (c : Dev nD)
    (hR : Cert.EdgeLengths.InRange (m ((c.tc : Thread nD τ).loc main_arg1))) :
    (adm11 m c hR).1 3 = tbl m c (11 : Fin 20) 3 := rfl

end Cert.KernelIdeal.Gen

end
-- ==== Proof.KI.Region12.lean ====
/-
  Region 12 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk12`),
  whatever it held before.

  The region's proof data then says: at every grid point each input window's buffer holds the table row its index
  table names there, and the output window's buffer is left at `outBlk12` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk12 (x0 x1 x2 x3 : Vec F S1x1x64 .f32) : Vec F S1x1x2 .f32 :=
  View.canon [⟨outRectD, k12_pay2 (View.ld x2 rowRect) (View.ld x3 rowRect)⟩,
              ⟨outRectB, k12_pay1 (View.ld x0 rowRect) (View.ld x1 rowRect)⟩]

/-- The two one-element stores tile the two-element block. -/
theorem outCover12 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk12` of the inputs. The index tables are not
    touched by the body (only the index maps read them), so nothing is asked of them. -/
theorem sound_kernel12 (c : Dev nD) (E : Set ℕ) (i : grid12.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk12 x0 x1 x2 x3)) -∗ K ⟨⟩))
      ⊢ wp frame (wpE (defs₀ (F := F)) Variants.none c none) E
          (cc12__gather_norm_kernel i a1 h1 a2 h2 a3 h3 a4 h4 a5 h5 a6 h6 a7 h7 a8 h8 a9 h9) K := by
  simp only [cc12__gather_norm_kernel_eq_skeleton]; unfold cc12__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover12 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg12 (F := F)).Adm)

/-- Window `w`'s block at point `t`, read off its array as the region finds it: for an input window the table row
    its index table names at `t`, for the output window the two-element row `t` of the result. -/
def iblk12 (c : Dev nD) (w : Fin (cfg12 a).W) (t : Fin (cfg12 a).N) :
    (((cfg12 a).win w).xblock ((cfg12 a).grid.coords t)).Idx → Elt F ((cfg12 a).win w).elt :=
  (((cfg12 a).win w).blk t).view.read (Elt F) (V c (Pipeline.arrRef spec12 w))

/-- The proof data of region 12 on core `c`: the arrays as the region finds them; after the body at point `t` each
    input block as it was and the output block the two lengths; the invariant carries the untouched scoped
    buffers, the generator register and the four index tables, which only the index maps read. -/
def dat12 (c : Dev nD) : Dat τ (Elt F) Unit ℕ (UR sig nD τ) ℕ (cfg12 a) c where
  A w := V c (Pipeline.arrRef spec12 w)
  after w t := match w with
    | ⟨0, _⟩ => iblk12 V a c 0 t
    | ⟨1, _⟩ => iblk12 V a c 1 t
    | ⟨2, _⟩ => iblk12 V a c 2 t
    | ⟨3, _⟩ => iblk12 V a c 3 t
    | ⟨4, _⟩ => outBlk12 (iblk12 V a c 0 t) (iblk12 V a c 1 t) (iblk12 V a c 2 t) (iblk12 V a c 3 t)
  Φ _ := iprop(Pipeline.ΦA spec12 c ∗ Pipeline.prefHeld pre12 c (fun _ => fullShare) a.1)
  q w := inShare w
  owed _ := 0

theorem A_eq12 (c : Dev nD) (w : Fin (cfg12 a).W) : (dat12 V a c).A w = V c (Pipeline.arrRef spec12 w) := by
  dsimp only [dat12]

theorem after12_0 (c : Dev nD) (t : Fin (cfg12 a).N) : (dat12 V a c).after 0 t = iblk12 V a c 0 t := by dsimp only [dat12]; rfl
theorem after12_1 (c : Dev nD) (t : Fin (cfg12 a).N) : (dat12 V a c).after 1 t = iblk12 V a c 1 t := by dsimp only [dat12]; rfl
theorem after12_2 (c : Dev nD) (t : Fin (cfg12 a).N) : (dat12 V a c).after 2 t = iblk12 V a c 2 t := by dsimp only [dat12]; rfl
theorem after12_3 (c : Dev nD) (t : Fin (cfg12 a).N) : (dat12 V a c).after 3 t = iblk12 V a c 3 t := by dsimp only [dat12]; rfl
theorem after12_4 (c : Dev nD) (t : Fin (cfg12 a).N) : (dat12 V a c).after 4 t
    = outBlk12 (iblk12 V a c 0 t) (iblk12 V a c 1 t) (iblk12 V a c 2 t) (iblk12 V a c 3 t) := by dsimp only [dat12]; rfl

/-- Input window 0 holds its row at every point, fetched there or not: the body never writes an input block, the
    window is never idle and its blocks are whole rows. -/
theorem before12_0 (c : Dev nD) (t : Fin (cfg12 a).N) (d) : (dat12 V a c).before 0 t d = iblk12 V a c 0 t :=
  ((dat12 V a c).before_in_eq_fetched 0 rfl (fun _ => rfl) (fun _ _ _ => rfl)
      (fun t => by rw [after12_0]; unfold Dat.blockOf iblk12; rw [A_eq12]; try rfl) t d).trans
    (by unfold Dat.fetched Dat.blockOf iblk12; rw [A_eq12]; try rfl)

/-- Input window 1 holds its row at every point, fetched there or not: the body never writes an input block, the
    window is never idle and its blocks are whole rows. -/
theorem before12_1 (c : Dev nD) (t : Fin (cfg12 a).N) (d) : (dat12 V a c).before 1 t d = iblk12 V a c 1 t :=
  ((dat12 V a c).before_in_eq_fetched 1 rfl (fun _ => rfl) (fun _ _ _ => rfl)
      (fun t => by rw [after12_1]; unfold Dat.blockOf iblk12; rw [A_eq12]; try rfl) t d).trans
    (by unfold Dat.fetched Dat.blockOf iblk12; rw [A_eq12]; try rfl)

/-- Input window 2 holds its row at every point, fetched there or not: the body never writes an input block, the
    window is never idle and its blocks are whole rows. -/
theorem before12_2 (c : Dev nD) (t : Fin (cfg12 a).N) (d) : (dat12 V a c).before 2 t d = iblk12 V a c 2 t :=
  ((dat12 V a c).before_in_eq_fetched 2 rfl (fun _ => rfl) (fun _ _ _ => rfl)
      (fun t => by rw [after12_2]; unfold Dat.blockOf iblk12; rw [A_eq12]; try rfl) t d).trans
    (by unfold Dat.fetched Dat.blockOf iblk12; rw [A_eq12]; try rfl)

/-- Input window 3 holds its row at every point, fetched there or not: the body never writes an input block, the
    window is never idle and its blocks are whole rows. -/
theorem before12_3 (c : Dev nD) (t : Fin (cfg12 a).N) (d) : (dat12 V a c).before 3 t d = iblk12 V a c 3 t :=
  ((dat12 V a c).before_in_eq_fetched 3 rfl (fun _ => rfl) (fun _ _ _ => rfl)
      (fun t => by rw [after12_3]; unfold Dat.blockOf iblk12; rw [A_eq12]; try rfl) t d).trans
    (by unfold Dat.fetched Dat.blockOf iblk12; rw [A_eq12]; try rfl)

/-! ## The body at a generic point -/

/-- The kernel body as region 12 calls it at point `t`: the point's coordinates, the four index tables whole, and each
    window's current staging buffer. -/
abbrev bodyAt12 (t : Fin (cfg12 a).N) : Prog (TpuEff nD τ sig (Elt F) Λ₀ .tc) PUnit :=
  cc12__gather_norm_kernel (grid12.coords t) (Memref.whole main_v69) (Memref.isWhole_whole _) (Memref.whole main_v70) (Memref.isWhole_whole _)
    (Memref.whole main_v71) (Memref.isWhole_whole _) (Memref.whole main_v72) (Memref.isWhole_whole _)
    (spec12_0.stage ((cfg12 a).slots t 0)) (hstage12_0 (((cfg12 a).slots t 0).cast nbuf12_0))
    (spec12_1.stage ((cfg12 a).slots t 1)) (hstage12_1 (((cfg12 a).slots t 1).cast nbuf12_1))
    (spec12_2.stage ((cfg12 a).slots t 2)) (hstage12_2 (((cfg12 a).slots t 2).cast nbuf12_2))
    (spec12_3.stage ((cfg12 a).slots t 3)) (hstage12_3 (((cfg12 a).slots t 3).cast nbuf12_3))
    (spec12_4.stage ((cfg12 a).slots t 4)) (hstage12_4 (((cfg12 a).slots t 4).cast nbuf12_4))

/-- The body at any point: each input buffer holds its row (`before12_w`), so `sound_kernel12` applies; the invariant
    (with the index tables in it) and what the core owes pass through unread. -/
theorem sound_body12 (c : Dev nD) (t : Fin (cfg12 a).N) :
    iprop((dat12 V a c).Φ t.castSucc ∗ (dat12 V a c).owesAt () t.castSucc
      ∗ (∃ d, owns (c : Thread nD τ) (((cfg12 a).win 0).stage ((cfg12 a).slots t 0)) fullShare ((dat12 V a c).before 0 t d))
      ∗ (∃ d, owns (c : Thread nD τ) (((cfg12 a).win 1).stage ((cfg12 a).slots t 1)) fullShare ((dat12 V a c).before 1 t d))
      ∗ (∃ d, owns (c : Thread nD τ) (((cfg12 a).win 2).stage ((cfg12 a).slots t 2)) fullShare ((dat12 V a c).before 2 t d))
      ∗ (∃ d, owns (c : Thread nD τ) (((cfg12 a).win 3).stage ((cfg12 a).slots t 3)) fullShare ((dat12 V a c).before 3 t d))
      ∗ (∃ d, owns (c : Thread nD τ) (((cfg12 a).win 4).stage ((cfg12 a).slots t 4)) fullShare ((dat12 V a c).before 4 t d)))
    ⊢ wp frame (wpE (defs₀ (F := F)) Variants.none c none) Set.univ
        (bodyAt12 a t)
        (fun _ => iprop((dat12 V a c).Φ t.succ ∗ (dat12 V a c).owesAt () t.succ
          ∗ owns (c : Thread nD τ) (((cfg12 a).win 0).stage ((cfg12 a).slots t 0)) fullShare ((dat12 V a c).after 0 t)
          ∗ owns (c : Thread nD τ) (((cfg12 a).win 1).stage ((cfg12 a).slots t 1)) fullShare ((dat12 V a c).after 1 t)
          ∗ owns (c : Thread nD τ) (((cfg12 a).win 2).stage ((cfg12 a).slots t 2)) fullShare ((dat12 V a c).after 2 t)
          ∗ owns (c : Thread nD τ) (((cfg12 a).win 3).stage ((cfg12 a).slots t 3)) fullShare ((dat12 V a c).after 3 t)
          ∗ owns (c : Thread nD τ) (((cfg12 a).win 4).stage ((cfg12 a).slots t 4)) fullShare ((dat12 V a c).after 4 t))) := by
  simp only [before12_0, before12_1, before12_2, before12_3]
  rw [show (dat12 V a c).Φ t.succ = (dat12 V a c).Φ t.castSucc from rfl,
    show (dat12 V a c).owesAt () t.succ = (dat12 V a c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  unfold bodyAt12
  iapply (sound_kernel12 c Set.univ _ _ _ _ _ _ _ _ _ _ _ _ _ _ _ _ _ _ _ (iblk12 V a c 0 t) (iblk12 V a c 1 t) (iblk12 V a c 2 t) (iblk12 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 12, at every point. -/
theorem body_obligation12 (c : Dev nD) : BodyObligation (dat12 (F := F) V a c) (defs₀ (F := F)) Variants.none () Set.univ := fun t => by
  rw [bigSep_W12, bigSep_W12]
  exact sound_body12 V a c t

end Region0

end Cert.KernelIdeal.Gen

end
-- ==== Proof.KI.Ok12.lean ====
/-
  The index tables of region 12 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok12_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 12's side condition. -/
theorem ok12_of_lt (pf : pre12.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok12 pf := by
  unfold ok12
  refine ⟨fun i => ⟨?_, Or.inl rfl⟩, fun i => ⟨?_, Or.inl rfl⟩, fun i => ⟨?_, Or.inl rfl⟩, fun i => ⟨?_, Or.inl rfl⟩⟩
  · exact ok12_fits _ (h0 _)
  · exact ok12_fits _ (h1 _)
  · exact ok12_fits _ (h2 _)
  · exact ok12_fits _ (h3 _)

/-- The four index tables of region 12 as the launch memory holds them on core `c`. -/
def pf12 (m : (ℓ : Loc nD τ sig) → Buf (Elt F) ℓ) (c : Dev nD) : pre12.Contents (Elt F) :=
  fun | 0 => tbl m c (12 : Fin 20) 0 | 1 => tbl m c (12 : Fin 20) 1 | 2 => tbl m c (12 : Fin 20) 2 | 3 => tbl m c (12 : Fin 20) 3
      | ⟨_ + 4, h⟩ => absurd h (Nat.not_lt.2 (Nat.le_add_left _ _))

/-- In range, those tables are admissible contents of region 12's pipeline. -/
def adm12 (m : (ℓ : Loc nD τ sig) → Buf (Elt F) ℓ) (c : Dev nD)
    (hR : Cert.EdgeLengths.InRange (m ((c.tc : Thread nD τ).loc main_arg1))) : (pcfg12 (F := F)).Adm :=
  ⟨pf12 m c, ok12_of_lt _ (tbl_lt m c hR _ _) (tbl_lt m c hR _ _) (tbl_lt m c hR _ _) (tbl_lt m c hR _ _)⟩

theorem adm12_0 (m : (ℓ : Loc nD τ sig) → Buf (Elt F) ℓ) (c : Dev nD)
    (hR : Cert.EdgeLengths.InRange (m ((c.tc : Thread nD τ).loc main_arg1))) :
    (adm12 m c hR).1 0 = tbl m c (12 : Fin 20) 0 := rfl
theorem adm12_1 (m : (ℓ : Loc nD τ sig) → Buf (Elt F) ℓ) (c : Dev nD)
    (hR : Cert.EdgeLengths.InRange (m ((c.tc : Thread nD τ).loc main_arg1))) :
    (adm12 m c hR).1 1 = tbl m c (12 : Fin 20) 1 := rfl
theorem adm12_2 (m : (ℓ : Loc nD τ sig) → Buf (Elt F) ℓ) (c : Dev nD)
    (hR : Cert.EdgeLengths.InRange (m ((c.tc : Thread nD τ).loc main_arg1))) :
    (adm12 m c hR).1 2 = tbl m c (12 : Fin 20) 2 := rfl
theorem adm12_3 (m : (ℓ : Loc nD τ sig) → Buf (Elt F) ℓ) (c : Dev nD)
    (hR : Cert.EdgeLengths.InRange (m ((c.tc : Thread nD τ).loc main_arg1))) :
    (adm12 m c hR).1 3 = tbl m c (12 : Fin 20) 3 := rfl

end Cert.KernelIdeal.Gen

end
-- ==== Proof.KI.Region13.lean ====
/-
  Region 13 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk13`),
  whatever it held before.

  The region's proof data then says: at every grid point each input window's buffer holds the table row its index
  table names there, and the output window's buffer is left at `outBlk13` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk13 (x0 x1 x2 x3 : Vec F S1x1x64 .f32) : Vec F S1x1x2 .f32 :=
  View.canon [⟨outRectD, k13_pay2 (View.ld x2 rowRect) (View.ld x3 rowRect)⟩,
              ⟨outRectB, k13_pay1 (View.ld x0 rowRect) (View.ld x1 rowRect)⟩]

/-- The two one-element stores tile the two-element block. -/
theorem outCover13 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk13` of the inputs. The index tables are not
    touched by the body (only the index maps read them), so nothing is asked of them. -/
theorem sound_kernel13 (c : Dev nD) (E : Set ℕ) (i : grid13.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk13 x0 x1 x2 x3)) -∗ K ⟨⟩))
      ⊢ wp frame (wpE (defs₀ (F := F)) Variants.none c none) E
          (cc13__gather_norm_kernel i a1 h1 a2 h2 a3 h3 a4 h4 a5 h5 a6 h6 a7 h7 a8 h8 a9 h9) K := by
  simp only [cc13__gather_norm_kernel_eq_skeleton]; unfold cc13__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover13 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg13 (F := F)).Adm)

/-- Window `w`'s block at point `t`, read off its array as the region finds it: for an input window the table row
    its index table names at `t`, for the output window the two-element row `t` of the result. -/
def iblk13 (c : Dev nD) (w : Fin (cfg13 a).W) (t : Fin (cfg13 a).N) :
    (((cfg13 a).win w).xblock ((cfg13 a).grid.coords t)).Idx → Elt F ((cfg13 a).win w).elt :=
  (((cfg13 a).win w).blk t).view.read (Elt F) (V c (Pipeline.arrRef spec13 w))

/-- The proof data of region 13 on core `c`: the arrays as the region finds them; after the body at point `t` each
    input block as it was and the output block the two lengths; the invariant carries the untouched scoped
    buffers, the generator register and the four index tables, which only the index maps read. -/
def dat13 (c : Dev nD) : Dat τ (Elt F) Unit ℕ (UR sig nD τ) ℕ (cfg13 a) c where
  A w := V c (Pipeline.arrRef spec13 w)
  after w t := match w with
    | ⟨0, _⟩ => iblk13 V a c 0 t
    | ⟨1, _⟩ => iblk13 V a c 1 t
    | ⟨2, _⟩ => iblk13 V a c 2 t
    | ⟨3, _⟩ => iblk13 V a c 3 t
    | ⟨4, _⟩ => outBlk13 (iblk13 V a c 0 t) (iblk13 V a c 1 t) (iblk13 V a c 2 t) (iblk13 V a c 3 t)
  Φ _ := iprop(Pipeline.ΦA spec13 c ∗ Pipeline.prefHeld pre13 c (fun _ => fullShare) a.1)
  q w := inShare w
  owed _ := 0

theorem A_eq13 (c : Dev nD) (w : Fin (cfg13 a).W) : (dat13 V a c).A w = V c (Pipeline.arrRef spec13 w) := by
  dsimp only [dat13]

theorem after13_0 (c : Dev nD) (t : Fin (cfg13 a).N) : (dat13 V a c).after 0 t = iblk13 V a c 0 t := by dsimp only [dat13]; rfl
theorem after13_1 (c : Dev nD) (t : Fin (cfg13 a).N) : (dat13 V a c).after 1 t = iblk13 V a c 1 t := by dsimp only [dat13]; rfl
theorem after13_2 (c : Dev nD) (t : Fin (cfg13 a).N) : (dat13 V a c).after 2 t = iblk13 V a c 2 t := by dsimp only [dat13]; rfl
theorem after13_3 (c : Dev nD) (t : Fin (cfg13 a).N) : (dat13 V a c).after 3 t = iblk13 V a c 3 t := by dsimp only [dat13]; rfl
theorem after13_4 (c : Dev nD) (t : Fin (cfg13 a).N) : (dat13 V a c).after 4 t
    = outBlk13 (iblk13 V a c 0 t) (iblk13 V a c 1 t) (iblk13 V a c 2 t) (iblk13 V a c 3 t) := by dsimp only [dat13]; rfl

/-- Input window 0 holds its row at every point, fetched there or not: the body never writes an input block, the
    window is never idle and its blocks are whole rows. -/
theorem before13_0 (c : Dev nD) (t : Fin (cfg13 a).N) (d) : (dat13 V a c).before 0 t d = iblk13 V a c 0 t :=
  ((dat13 V a c).before_in_eq_fetched 0 rfl (fun _ => rfl) (fun _ _ _ => rfl)
      (fun t => by rw [after13_0]; unfold Dat.blockOf iblk13; rw [A_eq13]; try rfl) t d).trans
    (by unfold Dat.fetched Dat.blockOf iblk13; rw [A_eq13]; try rfl)

/-- Input window 1 holds its row at every point, fetched there or not: the body never writes an input block, the
    window is never idle and its blocks are whole rows. -/
theorem before13_1 (c : Dev nD) (t : Fin (cfg13 a).N) (d) : (dat13 V a c).before 1 t d = iblk13 V a c 1 t :=
  ((dat13 V a c).before_in_eq_fetched 1 rfl (fun _ => rfl) (fun _ _ _ => rfl)
      (fun t => by rw [after13_1]; unfold Dat.blockOf iblk13; rw [A_eq13]; try rfl) t d).trans
    (by unfold Dat.fetched Dat.blockOf iblk13; rw [A_eq13]; try rfl)

/-- Input window 2 holds its row at every point, fetched there or not: the body never writes an input block, the
    window is never idle and its blocks are whole rows. -/
theorem before13_2 (c : Dev nD) (t : Fin (cfg13 a).N) (d) : (dat13 V a c).before 2 t d = iblk13 V a c 2 t :=
  ((dat13 V a c).before_in_eq_fetched 2 rfl (fun _ => rfl) (fun _ _ _ => rfl)
      (fun t => by rw [after13_2]; unfold Dat.blockOf iblk13; rw [A_eq13]; try rfl) t d).trans
    (by unfold Dat.fetched Dat.blockOf iblk13; rw [A_eq13]; try rfl)

/-- Input window 3 holds its row at every point, fetched there or not: the body never writes an input block, the
    window is never idle and its blocks are whole rows. -/
theorem before13_3 (c : Dev nD) (t : Fin (cfg13 a).N) (d) : (dat13 V a c).before 3 t d = iblk13 V a c 3 t :=
  ((dat13 V a c).before_in_eq_fetched 3 rfl (fun _ => rfl) (fun _ _ _ => rfl)
      (fun t => by rw [after13_3]; unfold Dat.blockOf iblk13; rw [A_eq13]; try rfl) t d).trans
    (by unfold Dat.fetched Dat.blockOf iblk13; rw [A_eq13]; try rfl)

/-! ## The body at a generic point -/

/-- The kernel body as region 13 calls it at point `t`: the point's coordinates, the four index tables whole, and each
    window's current staging buffer. -/
abbrev bodyAt13 (t : Fin (cfg13 a).N) : Prog (TpuEff nD τ sig (Elt F) Λ₀ .tc) PUnit :=
  cc13__gather_norm_kernel (grid13.coords t) (Memref.whole main_v74) (Memref.isWhole_whole _) (Memref.whole main_v75) (Memref.isWhole_whole _)
    (Memref.whole main_v76) (Memref.isWhole_whole _) (Memref.whole main_v77) (Memref.isWhole_whole _)
    (spec13_0.stage ((cfg13 a).slots t 0)) (hstage13_0 (((cfg13 a).slots t 0).cast nbuf13_0))
    (spec13_1.stage ((cfg13 a).slots t 1)) (hstage13_1 (((cfg13 a).slots t 1).cast nbuf13_1))
    (spec13_2.stage ((cfg13 a).slots t 2)) (hstage13_2 (((cfg13 a).slots t 2).cast nbuf13_2))
    (spec13_3.stage ((cfg13 a).slots t 3)) (hstage13_3 (((cfg13 a).slots t 3).cast nbuf13_3))
    (spec13_4.stage ((cfg13 a).slots t 4)) (hstage13_4 (((cfg13 a).slots t 4).cast nbuf13_4))

/-- The body at any point: each input buffer holds its row (`before13_w`), so `sound_kernel13` applies; the invariant
    (with the index tables in it) and what the core owes pass through unread. -/
theorem sound_body13 (c : Dev nD) (t : Fin (cfg13 a).N) :
    iprop((dat13 V a c).Φ t.castSucc ∗ (dat13 V a c).owesAt () t.castSucc
      ∗ (∃ d, owns (c : Thread nD τ) (((cfg13 a).win 0).stage ((cfg13 a).slots t 0)) fullShare ((dat13 V a c).before 0 t d))
      ∗ (∃ d, owns (c : Thread nD τ) (((cfg13 a).win 1).stage ((cfg13 a).slots t 1)) fullShare ((dat13 V a c).before 1 t d))
      ∗ (∃ d, owns (c : Thread nD τ) (((cfg13 a).win 2).stage ((cfg13 a).slots t 2)) fullShare ((dat13 V a c).before 2 t d))
      ∗ (∃ d, owns (c : Thread nD τ) (((cfg13 a).win 3).stage ((cfg13 a).slots t 3)) fullShare ((dat13 V a c).before 3 t d))
      ∗ (∃ d, owns (c : Thread nD τ) (((cfg13 a).win 4).stage ((cfg13 a).slots t 4)) fullShare ((dat13 V a c).before 4 t d)))
    ⊢ wp frame (wpE (defs₀ (F := F)) Variants.none c none) Set.univ
        (bodyAt13 a t)
        (fun _ => iprop((dat13 V a c).Φ t.succ ∗ (dat13 V a c).owesAt () t.succ
          ∗ owns (c : Thread nD τ) (((cfg13 a).win 0).stage ((cfg13 a).slots t 0)) fullShare ((dat13 V a c).after 0 t)
          ∗ owns (c : Thread nD τ) (((cfg13 a).win 1).stage ((cfg13 a).slots t 1)) fullShare ((dat13 V a c).after 1 t)
          ∗ owns (c : Thread nD τ) (((cfg13 a).win 2).stage ((cfg13 a).slots t 2)) fullShare ((dat13 V a c).after 2 t)
          ∗ owns (c : Thread nD τ) (((cfg13 a).win 3).stage ((cfg13 a).slots t 3)) fullShare ((dat13 V a c).after 3 t)
          ∗ owns (c : Thread nD τ) (((cfg13 a).win 4).stage ((cfg13 a).slots t 4)) fullShare ((dat13 V a c).after 4 t))) := by
  simp only [before13_0, before13_1, before13_2, before13_3]
  rw [show (dat13 V a c).Φ t.succ = (dat13 V a c).Φ t.castSucc from rfl,
    show (dat13 V a c).owesAt () t.succ = (dat13 V a c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  unfold bodyAt13
  iapply (sound_kernel13 c Set.univ _ _ _ _ _ _ _ _ _ _ _ _ _ _ _ _ _ _ _ (iblk13 V a c 0 t) (iblk13 V a c 1 t) (iblk13 V a c 2 t) (iblk13 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 13, at every point. -/
theorem body_obligation13 (c : Dev nD) : BodyObligation (dat13 (F := F) V a c) (defs₀ (F := F)) Variants.none () Set.univ := fun t => by
  rw [bigSep_W13, bigSep_W13]
  exact sound_body13 V a c t

end Region0

end Cert.KernelIdeal.Gen

end
-- ==== Proof.KI.Ok13.lean ====
/-
  The index tables of region 13 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok13_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 13's side condition. -/
theorem ok13_of_lt (pf : pre13.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok13 pf := by
  unfold ok13
  refine ⟨fun i => ⟨?_, Or.inl rfl⟩, fun i => ⟨?_, Or.inl rfl⟩, fun i => ⟨?_, Or.inl rfl⟩, fun i => ⟨?_, Or.inl rfl⟩⟩
  · exact ok13_fits _ (h0 _)
  · exact ok13_fits _ (h1 _)
  · exact ok13_fits _ (h2 _)
  · exact ok13_fits _ (h3 _)

/-- The four index tables of region 13 as the launch memory holds them on core `c`. -/
def pf13 (m : (ℓ : Loc nD τ sig) → Buf (Elt F) ℓ) (c : Dev nD) : pre13.Contents (Elt F) :=
  fun | 0 => tbl m c (13 : Fin 20) 0 | 1 => tbl m c (13 : Fin 20) 1 | 2 => tbl m c (13 : Fin 20) 2 | 3 => tbl m c (13 : Fin 20) 3
      | ⟨_ + 4, h⟩ => absurd h (Nat.not_lt.2 (Nat.le_add_left _ _))

/-- In range, those tables are admissible contents of region 13's pipeline. -/
def adm13 (m : (ℓ : Loc nD τ sig) → Buf (Elt F) ℓ) (c : Dev nD)
    (hR : Cert.EdgeLengths.InRange (m ((c.tc : Thread nD τ).loc main_arg1))) : (pcfg13 (F := F)).Adm :=
  ⟨pf13 m c, ok13_of_lt _ (tbl_lt m c hR _ _) (tbl_lt m c hR _ _) (tbl_lt m c hR _ _) (tbl_lt m c hR _ _)⟩

theorem adm13_0 (m : (ℓ : Loc nD τ sig) → Buf (Elt F) ℓ) (c : Dev nD)
    (hR : Cert.EdgeLengths.InRange (m ((c.tc : Thread nD τ).loc main_arg1))) :
    (adm13 m c hR).1 0 = tbl m c (13 : Fin 20) 0 := rfl
theorem adm13_1 (m : (ℓ : Loc nD τ sig) → Buf (Elt F) ℓ) (c : Dev nD)
    (hR : Cert.EdgeLengths.InRange (m ((c.tc : Thread nD τ).loc main_arg1))) :
    (adm13 m c hR).1 1 = tbl m c (13 : Fin 20) 1 := rfl
theorem adm13_2 (m : (ℓ : Loc nD τ sig) → Buf (Elt F) ℓ) (c : Dev nD)
    (hR : Cert.EdgeLengths.InRange (m ((c.tc : Thread nD τ).loc main_arg1))) :
    (adm13 m c hR).1 2 = tbl m c (13 : Fin 20) 2 := rfl
theorem adm13_3 (m : (ℓ : Loc nD τ sig) → Buf (Elt F) ℓ) (c : Dev nD)
    (hR : Cert.EdgeLengths.InRange (m ((c.tc : Thread nD τ).loc main_arg1))) :
    (adm13 m c hR).1 3 = tbl m c (13 : Fin 20) 3 := rfl

end Cert.KernelIdeal.Gen

end
-- ==== Proof.KI.Region14.lean ====
/-
  Region 14 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk14`),
  whatever it held before.

  The region's proof data then says: at every grid point each input window's buffer holds the table row its index
  table names there, and the output window's buffer is left at `outBlk14` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk14 (x0 x1 x2 x3 : Vec F S1x1x64 .f32) : Vec F S1x1x2 .f32 :=
  View.canon [⟨outRectD, k14_pay2 (View.ld x2 rowRect) (View.ld x3 rowRect)⟩,
              ⟨outRectB, k14_pay1 (View.ld x0 rowRect) (View.ld x1 rowRect)⟩]

/-- The two one-element stores tile the two-element block. -/
theorem outCover14 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk14` of the inputs. The index tables are not
    touched by the body (only the index maps read them), so nothing is asked of them. -/
theorem sound_kernel14 (c : Dev nD) (E : Set ℕ) (i : grid14.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk14 x0 x1 x2 x3)) -∗ K ⟨⟩))
      ⊢ wp frame (wpE (defs₀ (F := F)) Variants.none c none) E
          (cc14__gather_norm_kernel i a1 h1 a2 h2 a3 h3 a4 h4 a5 h5 a6 h6 a7 h7 a8 h8 a9 h9) K := by
  simp only [cc14__gather_norm_kernel_eq_skeleton]; unfold cc14__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover14 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg14 (F := F)).Adm)

/-- Window `w`'s block at point `t`, read off its array as the region finds it: for an input window the table row
    its index table names at `t`, for the output window the two-element row `t` of the result. -/
def iblk14 (c : Dev nD) (w : Fin (cfg14 a).W) (t : Fin (cfg14 a).N) :
    (((cfg14 a).win w).xblock ((cfg14 a).grid.coords t)).Idx → Elt F ((cfg14 a).win w).elt :=
  (((cfg14 a).win w).blk t).view.read (Elt F) (V c (Pipeline.arrRef spec14 w))

/-- The proof data of region 14 on core `c`: the arrays as the region finds them; after the body at point `t` each
    input block as it was and the output block the two lengths; the invariant carries the untouched scoped
    buffers, the generator register and the four index tables, which only the index maps read. -/
def dat14 (c : Dev nD) : Dat τ (Elt F) Unit ℕ (UR sig nD τ) ℕ (cfg14 a) c where
  A w := V c (Pipeline.arrRef spec14 w)
  after w t := match w with
    | ⟨0, _⟩ => iblk14 V a c 0 t
    | ⟨1, _⟩ => iblk14 V a c 1 t
    | ⟨2, _⟩ => iblk14 V a c 2 t
    | ⟨3, _⟩ => iblk14 V a c 3 t
    | ⟨4, _⟩ => outBlk14 (iblk14 V a c 0 t) (iblk14 V a c 1 t) (iblk14 V a c 2 t) (iblk14 V a c 3 t)
  Φ _ := iprop(Pipeline.ΦA spec14 c ∗ Pipeline.prefHeld pre14 c (fun _ => fullShare) a.1)
  q w := inShare w
  owed _ := 0

theorem A_eq14 (c : Dev nD) (w : Fin (cfg14 a).W) : (dat14 V a c).A w = V c (Pipeline.arrRef spec14 w) := by
  dsimp only [dat14]

theorem after14_0 (c : Dev nD) (t : Fin (cfg14 a).N) : (dat14 V a c).after 0 t = iblk14 V a c 0 t := by dsimp only [dat14]; rfl
theorem after14_1 (c : Dev nD) (t : Fin (cfg14 a).N) : (dat14 V a c).after 1 t = iblk14 V a c 1 t := by dsimp only [dat14]; rfl
theorem after14_2 (c : Dev nD) (t : Fin (cfg14 a).N) : (dat14 V a c).after 2 t = iblk14 V a c 2 t := by dsimp only [dat14]; rfl
theorem after14_3 (c : Dev nD) (t : Fin (cfg14 a).N) : (dat14 V a c).after 3 t = iblk14 V a c 3 t := by dsimp only [dat14]; rfl
theorem after14_4 (c : Dev nD) (t : Fin (cfg14 a).N) : (dat14 V a c).after 4 t
    = outBlk14 (iblk14 V a c 0 t) (iblk14 V a c 1 t) (iblk14 V a c 2 t) (iblk14 V a c 3 t) := by dsimp only [dat14]; rfl

/-- Input window 0 holds its row at every point, fetched there or not: the body never writes an input block, the
    window is never idle and its blocks are whole rows. -/
theorem before14_0 (c : Dev nD) (t : Fin (cfg14 a).N) (d) : (dat14 V a c).before 0 t d = iblk14 V a c 0 t :=
  ((dat14 V a c).before_in_eq_fetched 0 rfl (fun _ => rfl) (fun _ _ _ => rfl)
      (fun t => by rw [after14_0]; unfold Dat.blockOf iblk14; rw [A_eq14]; try rfl) t d).trans
    (by unfold Dat.fetched Dat.blockOf iblk14; rw [A_eq14]; try rfl)

/-- Input window 1 holds its row at every point, fetched there or not: the body never writes an input block, the
    window is never idle and its blocks are whole rows. -/
theorem before14_1 (c : Dev nD) (t : Fin (cfg14 a).N) (d) : (dat14 V a c).before 1 t d = iblk14 V a c 1 t :=
  ((dat14 V a c).before_in_eq_fetched 1 rfl (fun _ => rfl) (fun _ _ _ => rfl)
      (fun t => by rw [after14_1]; unfold Dat.blockOf iblk14; rw [A_eq14]; try rfl) t d).trans
    (by unfold Dat.fetched Dat.blockOf iblk14; rw [A_eq14]; try rfl)

/-- Input window 2 holds its row at every point, fetched there or not: the body never writes an input block, the
    window is never idle and its blocks are whole rows. -/
theorem before14_2 (c : Dev nD) (t : Fin (cfg14 a).N) (d) : (dat14 V a c).before 2 t d = iblk14 V a c 2 t :=
  ((dat14 V a c).before_in_eq_fetched 2 rfl (fun _ => rfl) (fun _ _ _ => rfl)
      (fun t => by rw [after14_2]; unfold Dat.blockOf iblk14; rw [A_eq14]; try rfl) t d).trans
    (by unfold Dat.fetched Dat.blockOf iblk14; rw [A_eq14]; try rfl)

/-- Input window 3 holds its row at every point, fetched there or not: the body never writes an input block, the
    window is never idle and its blocks are whole rows. -/
theorem before14_3 (c : Dev nD) (t : Fin (cfg14 a).N) (d) : (dat14 V a c).before 3 t d = iblk14 V a c 3 t :=
  ((dat14 V a c).before_in_eq_fetched 3 rfl (fun _ => rfl) (fun _ _ _ => rfl)
      (fun t => by rw [after14_3]; unfold Dat.blockOf iblk14; rw [A_eq14]; try rfl) t d).trans
    (by unfold Dat.fetched Dat.blockOf iblk14; rw [A_eq14]; try rfl)

/-! ## The body at a generic point -/

/-- The kernel body as region 14 calls it at point `t`: the point's coordinates, the four index tables whole, and each
    window's current staging buffer. -/
abbrev bodyAt14 (t : Fin (cfg14 a).N) : Prog (TpuEff nD τ sig (Elt F) Λ₀ .tc) PUnit :=
  cc14__gather_norm_kernel (grid14.coords t) (Memref.whole main_v79) (Memref.isWhole_whole _) (Memref.whole main_v80) (Memref.isWhole_whole _)
    (Memref.whole main_v81) (Memref.isWhole_whole _) (Memref.whole main_v82) (Memref.isWhole_whole _)
    (spec14_0.stage ((cfg14 a).slots t 0)) (hstage14_0 (((cfg14 a).slots t 0).cast nbuf14_0))
    (spec14_1.stage ((cfg14 a).slots t 1)) (hstage14_1 (((cfg14 a).slots t 1).cast nbuf14_1))
    (spec14_2.stage ((cfg14 a).slots t 2)) (hstage14_2 (((cfg14 a).slots t 2).cast nbuf14_2))
    (spec14_3.stage ((cfg14 a).slots t 3)) (hstage14_3 (((cfg14 a).slots t 3).cast nbuf14_3))
    (spec14_4.stage ((cfg14 a).slots t 4)) (hstage14_4 (((cfg14 a).slots t 4).cast nbuf14_4))

/-- The body at any point: each input buffer holds its row (`before14_w`), so `sound_kernel14` applies; the invariant
    (with the index tables in it) and what the core owes pass through unread. -/
theorem sound_body14 (c : Dev nD) (t : Fin (cfg14 a).N) :
    iprop((dat14 V a c).Φ t.castSucc ∗ (dat14 V a c).owesAt () t.castSucc
      ∗ (∃ d, owns (c : Thread nD τ) (((cfg14 a).win 0).stage ((cfg14 a).slots t 0)) fullShare ((dat14 V a c).before 0 t d))
      ∗ (∃ d, owns (c : Thread nD τ) (((cfg14 a).win 1).stage ((cfg14 a).slots t 1)) fullShare ((dat14 V a c).before 1 t d))
      ∗ (∃ d, owns (c : Thread nD τ) (((cfg14 a).win 2).stage ((cfg14 a).slots t 2)) fullShare ((dat14 V a c).before 2 t d))
      ∗ (∃ d, owns (c : Thread nD τ) (((cfg14 a).win 3).stage ((cfg14 a).slots t 3)) fullShare ((dat14 V a c).before 3 t d))
      ∗ (∃ d, owns (c : Thread nD τ) (((cfg14 a).win 4).stage ((cfg14 a).slots t 4)) fullShare ((dat14 V a c).before 4 t d)))
    ⊢ wp frame (wpE (defs₀ (F := F)) Variants.none c none) Set.univ
        (bodyAt14 a t)
        (fun _ => iprop((dat14 V a c).Φ t.succ ∗ (dat14 V a c).owesAt () t.succ
          ∗ owns (c : Thread nD τ) (((cfg14 a).win 0).stage ((cfg14 a).slots t 0)) fullShare ((dat14 V a c).after 0 t)
          ∗ owns (c : Thread nD τ) (((cfg14 a).win 1).stage ((cfg14 a).slots t 1)) fullShare ((dat14 V a c).after 1 t)
          ∗ owns (c : Thread nD τ) (((cfg14 a).win 2).stage ((cfg14 a).slots t 2)) fullShare ((dat14 V a c).after 2 t)
          ∗ owns (c : Thread nD τ) (((cfg14 a).win 3).stage ((cfg14 a).slots t 3)) fullShare ((dat14 V a c).after 3 t)
          ∗ owns (c : Thread nD τ) (((cfg14 a).win 4).stage ((cfg14 a).slots t 4)) fullShare ((dat14 V a c).after 4 t))) := by
  simp only [before14_0, before14_1, before14_2, before14_3]
  rw [show (dat14 V a c).Φ t.succ = (dat14 V a c).Φ t.castSucc from rfl,
    show (dat14 V a c).owesAt () t.succ = (dat14 V a c).owesAt () t.castSucc from rfl,
    after14_0, after14_1, after14_2, after14_3, after14_4]
  iintro ⟨HΦ, Ho, ⟨%d0, H0⟩, ⟨%d1, H1⟩, ⟨%d2, H2⟩, ⟨%d3, H3⟩, ⟨%d4, H4⟩⟩
  unfold bodyAt14
  iapply (sound_kernel14 c Set.univ _ _ _ _ _ _ _ _ _ _ _ _ _ _ _ _ _ _ _ (iblk14 V a c 0 t) (iblk14 V a c 1 t) (iblk14 V a c 2 t) (iblk14 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 14, at every point. -/
theorem body_obligation14 (c : Dev nD) : BodyObligation (dat14 (F := F) V a c) (defs₀ (F := F)) Variants.none () Set.univ := fun t => by
  rw [bigSep_W14, bigSep_W14]
  exact sound_body14 V a c t

end Region0

end Cert.KernelIdeal.Gen

end
-- ==== Proof.KI.Ok14.lean ====
/-
  The index tables of region 14 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok14_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 14's side condition. -/
theorem ok14_of_lt (pf : pre14.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok14 pf := by
  unfold ok14
  refine ⟨fun i => ⟨?_, Or.inl rfl⟩, fun i => ⟨?_, Or.inl rfl⟩, fun i => ⟨?_, Or.inl rfl⟩, fun i => ⟨?_, Or.inl rfl⟩⟩
  · exact ok14_fits _ (h0 _)
  · exact ok14_fits _ (h1 _)
  · exact ok14_fits _ (h2 _)
  · exact ok14_fits _ (h3 _)

/-- The four index tables of region 14 as the launch memory holds them on core `c`. -/
def pf14 (m : (ℓ : Loc nD τ sig) → Buf (Elt F) ℓ) (c : Dev nD) : pre14.Contents (Elt F) :=
  fun | 0 => tbl m c (14 : Fin 20) 0 | 1 => tbl m c (14 : Fin 20) 1 | 2 => tbl m c (14 : Fin 20) 2 | 3 => tbl m c (14 : Fin 20) 3
      | ⟨_ + 4, h⟩ => absurd h (Nat.not_lt.2 (Nat.le_add_left _ _))

/-- In range, those tables are admissible contents of region 14's pipeline. -/
def adm14 (m : (ℓ : Loc nD τ sig) → Buf (Elt F) ℓ) (c : Dev nD)
    (hR : Cert.EdgeLengths.InRange (m ((c.tc : Thread nD τ).loc main_arg1))) : (pcfg14 (F := F)).Adm :=
  ⟨pf14 m c, ok14_of_lt _ (tbl_lt m c hR _ _) (tbl_lt m c hR _ _) (tbl_lt m c hR _ _) (tbl_lt m c hR _ _)⟩

theorem adm14_0 (m : (ℓ : Loc nD τ sig) → Buf (Elt F) ℓ) (c : Dev nD)
    (hR : Cert.EdgeLengths.InRange (m ((c.tc : Thread nD τ).loc main_arg1))) :
    (adm14 m c hR).1 0 = tbl m c (14 : Fin 20) 0 := rfl
theorem adm14_1 (m : (ℓ : Loc nD τ sig) → Buf (Elt F) ℓ) (c : Dev nD)
    (hR : Cert.EdgeLengths.InRange (m ((c.tc : Thread nD τ).loc main_arg1))) :
    (adm14 m c hR).1 1 = tbl m c (14 : Fin 20) 1 := rfl
theorem adm14_2 (m : (ℓ : Loc nD τ sig) → Buf (Elt F) ℓ) (c : Dev nD)
    (hR : Cert.EdgeLengths.InRange (m ((c.tc : Thread nD τ).loc main_arg1))) :
    (adm14 m c hR).1 2 = tbl m c (14 : Fin 20) 2 := rfl
theorem adm14_3 (m : (ℓ : Loc nD τ sig) → Buf (Elt F) ℓ) (c : Dev nD)
    (hR : Cert.EdgeLengths.InRange (m ((c.tc : Thread nD τ).loc main_arg1))) :
    (adm14 m c hR).1 3 = tbl m c (14 : Fin 20) 3 := rfl

end Cert.KernelIdeal.Gen

end
-- ==== Proof.KI.Region15.lean ====
/-
  Region 15 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk15`),
  whatever it held before.

  The region's proof data then says: at every grid point each input window's buffer holds the table row its index
  table names there, and the output window's buffer is left at `outBlk15` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk15 (x0 x1 x2 x3 : Vec F S1x1x64 .f32) : Vec F S1x1x2 .f32 :=
  View.canon [⟨outRectD, k15_pay2 (View.ld x2 rowRect) (View.ld x3 rowRect)⟩,
              ⟨outRectB, k15_pay1 (View.ld x0 rowRect) (View.ld x1 rowRect)⟩]

/-- The two one-element stores tile the two-element block. -/
theorem outCover15 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk15` of the inputs. The index tables are not
    touched by the body (only the index maps read them), so nothing is asked of them. -/
theorem sound_kernel15 (c : Dev nD) (E : Set ℕ) (i : grid15.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk15 x0 x1 x2 x3)) -∗ K ⟨⟩))
      ⊢ wp frame (wpE (defs₀ (F := F)) Variants.none c none) E
          (cc15__gather_norm_kernel i a1 h1 a2 h2 a3 h3 a4 h4 a5 h5 a6 h6 a7 h7 a8 h8 a9 h9) K := by
  simp only [cc15__gather_norm_kernel_eq_skeleton]; unfold cc15__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover15 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg15 (F := F)).Adm)

/-- Window `w`'s block at point `t`, read off its array as the region finds it: for an input window the table row
    its index table names at `t`, for the output window the two-element row `t` of the result. -/
def iblk15 (c : Dev nD) (w : Fin (cfg15 a).W) (t : Fin (cfg15 a).N) :
    (((cfg15 a).win w).xblock ((cfg15 a).grid.coords t)).Idx → Elt F ((cfg15 a).win w).elt :=
  (((cfg15 a).win w).blk t).view.read (Elt F) (V c (Pipeline.arrRef spec15 w))

/-- The proof data of region 15 on core `c`: the arrays as the region finds them; after the body at point `t` each
    input block as it was and the output block the two lengths; the invariant carries the untouched scoped
    buffers, the generator register and the four index tables, which only the index maps read. -/
def dat15 (c : Dev nD) : Dat τ (Elt F) Unit ℕ (UR sig nD τ) ℕ (cfg15 a) c where
  A w := V c (Pipeline.arrRef spec15 w)
  after w t := match w with
    | ⟨0, _⟩ => iblk15 V a c 0 t
    | ⟨1, _⟩ => iblk15 V a c 1 t
    | ⟨2, _⟩ => iblk15 V a c 2 t
    | ⟨3, _⟩ => iblk15 V a c 3 t
    | ⟨4, _⟩ => outBlk15 (iblk15 V a c 0 t) (iblk15 V a c 1 t) (iblk15 V a c 2 t) (iblk15 V a c 3 t)
  Φ _ := iprop(Pipeline.ΦA spec15 c ∗ Pipeline.prefHeld pre15 c (fun _ => fullShare) a.1)
  q w := inShare w
  owed _ := 0

theorem A_eq15 (c : Dev nD) (w : Fin (cfg15 a).W) : (dat15 V a c).A w = V c (Pipeline.arrRef spec15 w) := by
  dsimp only [dat15]

theorem after15_0 (c : Dev nD) (t : Fin (cfg15 a).N) : (dat15 V a c).after 0 t = iblk15 V a c 0 t := by dsimp only [dat15]; rfl
theorem after15_1 (c : Dev nD) (t : Fin (cfg15 a).N) : (dat15 V a c).after 1 t = iblk15 V a c 1 t := by dsimp only [dat15]; rfl
theorem after15_2 (c : Dev nD) (t : Fin (cfg15 a).N) : (dat15 V a c).after 2 t = iblk15 V a c 2 t := by dsimp only [dat15]; rfl
theorem after15_3 (c : Dev nD) (t : Fin (cfg15 a).N) : (dat15 V a c).after 3 t = iblk15 V a c 3 t := by dsimp only [dat15]; rfl
theorem after15_4 (c : Dev nD) (t : Fin (cfg15 a).N) : (dat15 V a c).after 4 t
    = outBlk15 (iblk15 V a c 0 t) (iblk15 V a c 1 t) (iblk15 V a c 2 t) (iblk15 V a c 3 t) := by dsimp only [dat15]; rfl

/-- Input window 0 holds its row at every point, fetched there or not: the body never writes an input block, the
    window is never idle and its blocks are whole rows. -/
theorem before15_0 (c : Dev nD) (t : Fin (cfg15 a).N) (d) : (dat15 V a c).before 0 t d = iblk15 V a c 0 t :=
  ((dat15 V a c).before_in_eq_fetched 0 rfl (fun _ => rfl) (fun _ _ _ => rfl)
      (fun t => by rw [after15_0]; unfold Dat.blockOf iblk15; rw [A_eq15]; try rfl) t d).trans
    (by unfold Dat.fetched Dat.blockOf iblk15; rw [A_eq15]; try rfl)

/-- Input window 1 holds its row at every point, fetched there or not: the body never writes an input block, the
    window is never idle and its blocks are whole rows. -/
theorem before15_1 (c : Dev nD) (t : Fin (cfg15 a).N) (d) : (dat15 V a c).before 1 t d = iblk15 V a c 1 t :=
  ((dat15 V a c).before_in_eq_fetched 1 rfl (fun _ => rfl) (fun _ _ _ => rfl)
      (fun t => by rw [after15_1]; unfold Dat.blockOf iblk15; rw [A_eq15]; try rfl) t d).trans
    (by unfold Dat.fetched Dat.blockOf iblk15; rw [A_eq15]; try rfl)

/-- Input window 2 holds its row at every point, fetched there or not: the body never writes an input block, the
    window is never idle and its blocks are whole rows. -/
theorem before15_2 (c : Dev nD) (t : Fin (cfg15 a).N) (d) : (dat15 V a c).before 2 t d = iblk15 V a c 2 t :=
  ((dat15 V a c).before_in_eq_fetched 2 rfl (fun _ => rfl) (fun _ _ _ => rfl)
      (fun t => by rw [after15_2]; unfold Dat.blockOf iblk15; rw [A_eq15]; try rfl) t d).trans
    (by unfold Dat.fetched Dat.blockOf iblk15; rw [A_eq15]; try rfl)

/-- Input window 3 holds its row at every point, fetched there or not: the body never writes an input block, the
    window is never idle and its blocks are whole rows. -/
theorem before15_3 (c : Dev nD) (t : Fin (cfg15 a).N) (d) : (dat15 V a c).before 3 t d = iblk15 V a c 3 t :=
  ((dat15 V a c).before_in_eq_fetched 3 rfl (fun _ => rfl) (fun _ _ _ => rfl)
      (fun t => by rw [after15_3]; unfold Dat.blockOf iblk15; rw [A_eq15]; try rfl) t d).trans
    (by unfold Dat.fetched Dat.blockOf iblk15; rw [A_eq15]; try rfl)

/-! ## The body at a generic point -/

/-- The kernel body as region 15 calls it at point `t`: the point's coordinates, the four index tables whole, and each
    window's current staging buffer. -/
abbrev bodyAt15 (t : Fin (cfg15 a).N) : Prog (TpuEff nD τ sig (Elt F) Λ₀ .tc) PUnit :=
  cc15__gather_norm_kernel (grid15.coords t) (Memref.whole main_v84) (Memref.isWhole_whole _) (Memref.whole main_v85) (Memref.isWhole_whole _)
    (Memref.whole main_v86) (Memref.isWhole_whole _) (Memref.whole main_v87) (Memref.isWhole_whole _)
    (spec15_0.stage ((cfg15 a).slots t 0)) (hstage15_0 (((cfg15 a).slots t 0).cast nbuf15_0))
    (spec15_1.stage ((cfg15 a).slots t 1)) (hstage15_1 (((cfg15 a).slots t 1).cast nbuf15_1))
    (spec15_2.stage ((cfg15 a).slots t 2)) (hstage15_2 (((cfg15 a).slots t 2).cast nbuf15_2))
    (spec15_3.stage ((cfg15 a).slots t 3)) (hstage15_3 (((cfg15 a).slots t 3).cast nbuf15_3))
    (spec15_4.stage ((cfg15 a).slots t 4)) (hstage15_4 (((cfg15 a).slots t 4).cast nbuf15_4))

/-- The body at any point: each input buffer holds its row (`before15_w`), so `sound_kernel15` applies; the invariant
    (with the index tables in it) and what the core owes pass through unread. -/
theorem sound_body15 (c : Dev nD) (t : Fin (cfg15 a).N) :
    iprop((dat15 V a c).Φ t.castSucc ∗ (dat15 V a c).owesAt () t.castSucc
      ∗ (∃ d, owns (c : Thread nD τ) (((cfg15 a).win 0).stage ((cfg15 a).slots t 0)) fullShare ((dat15 V a c).before 0 t d))
      ∗ (∃ d, owns (c : Thread nD τ) (((cfg15 a).win 1).stage ((cfg15 a).slots t 1)) fullShare ((dat15 V a c).before 1 t d))
      ∗ (∃ d, owns (c : Thread nD τ) (((cfg15 a).win 2).stage ((cfg15 a).slots t 2)) fullShare ((dat15 V a c).before 2 t d))
      ∗ (∃ d, owns (c : Thread nD τ) (((cfg15 a).win 3).stage ((cfg15 a).slots t 3)) fullShare ((dat15 V a c).before 3 t d))
      ∗ (∃ d, owns (c : Thread nD τ) (((cfg15 a).win 4).stage ((cfg15 a).slots t 4)) fullShare ((dat15 V a c).before 4 t d)))
    ⊢ wp frame (wpE (defs₀ (F := F)) Variants.none c none) Set.univ
        (bodyAt15 a t)
        (fun _ => iprop((dat15 V a c).Φ t.succ ∗ (dat15 V a c).owesAt () t.succ
          ∗ owns (c : Thread nD τ) (((cfg15 a).win 0).stage ((cfg15 a).slots t 0)) fullShare ((dat15 V a c).after 0 t)
          ∗ owns (c : Thread nD τ) (((cfg15 a).win 1).stage ((cfg15 a).slots t 1)) fullShare ((dat15 V a c).after 1 t)
          ∗ owns (c : Thread nD τ) (((cfg15 a).win 2).stage ((cfg15 a).slots t 2)) fullShare ((dat15 V a c).after 2 t)
          ∗ owns (c : Thread nD τ) (((cfg15 a).win 3).stage ((cfg15 a).slots t 3)) fullShare ((dat15 V a c).after 3 t)
          ∗ owns (c : Thread nD τ) (((cfg15 a).win 4).stage ((cfg15 a).slots t 4)) fullShare ((dat15 V a c).after 4 t))) := by
  simp only [before15_0, before15_1, before15_2, before15_3]
  rw [show (dat15 V a c).Φ t.succ = (dat15 V a c).Φ t.castSucc from rfl,
    show (dat15 V a c).owesAt () t.succ = (dat15 V a c).owesAt () t.castSucc from rfl,
    after15_0, after15_1, after15_2, after15_3, after15_4]
  iintro ⟨HΦ, Ho, ⟨%d0, H0⟩, ⟨%d1, H1⟩, ⟨%d2, H2⟩, ⟨%d3, H3⟩, ⟨%d4, H4⟩⟩
  unfold bodyAt15
  iapply (sound_kernel15 c Set.univ _ _ _ _ _ _ _ _ _ _ _ _ _ _ _ _ _ _ _ (iblk15 V a c 0 t) (iblk15 V a c 1 t) (iblk15 V a c 2 t) (iblk15 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 15, at every point. -/
theorem body_obligation15 (c : Dev nD) : BodyObligation (dat15 (F := F) V a c) (defs₀ (F := F)) Variants.none () Set.univ := fun t => by
  rw [bigSep_W15, bigSep_W15]
  exact sound_body15 V a c t

end Region0

end Cert.KernelIdeal.Gen

end
-- ==== Proof.KI.Ok15.lean ====
/-
  The index tables of region 15 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok15_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 15's side condition. -/
theorem ok15_of_lt (pf : pre15.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok15 pf := by
  unfold ok15
  refine ⟨fun i => ⟨?_, Or.inl rfl⟩, fun i => ⟨?_, Or.inl rfl⟩, fun i => ⟨?_, Or.inl rfl⟩, fun i => ⟨?_, Or.inl rfl⟩⟩
  · exact ok15_fits _ (h0 _)
  · exact ok15_fits _ (h1 _)
  · exact ok15_fits _ (h2 _)
  · exact ok15_fits _ (h3 _)

/-- The four index tables of region 15 as the launch memory holds them on core `c`. -/
def pf15 (m : (ℓ : Loc nD τ sig) → Buf (Elt F) ℓ) (c : Dev nD) : pre15.Contents (Elt F) :=
  fun | 0 => tbl m c (15 : Fin 20) 0 | 1 => tbl m c (15 : Fin 20) 1 | 2 => tbl m c (15 : Fin 20) 2 | 3 => tbl m c (15 : Fin 20) 3
      | ⟨_ + 4, h⟩ => absurd h (Nat.not_lt.2 (Nat.le_add_left _ _))

/-- In range, those tables are admissible contents of region 15's pipeline. -/
def adm15 (m : (ℓ : Loc nD τ sig) → Buf (Elt F) ℓ) (c : Dev nD)
    (hR : Cert.EdgeLengths.InRange (m ((c.tc : Thread nD τ).loc main_arg1))) : (pcfg15 (F := F)).Adm :=
  ⟨pf15 m c, ok15_of_lt _ (tbl_lt m c hR _ _) (tbl_lt m c hR _ _) (tbl_lt m c hR _ _) (tbl_lt m c hR _ _)⟩

theorem adm15_0 (m : (ℓ : Loc nD τ sig) → Buf (Elt F) ℓ) (c : Dev nD)
    (hR : Cert.EdgeLengths.InRange (m ((c.tc : Thread nD τ).loc main_arg1))) :
    (adm15 m c hR).1 0 = tbl m c (15 : Fin 20) 0 := rfl
theorem adm15_1 (m : (ℓ : Loc nD τ sig) → Buf (Elt F) ℓ) (c : Dev nD)
    (hR : Cert.EdgeLengths.InRange (m ((c.tc : Thread nD τ).loc main_arg1))) :
    (adm15 m c hR).1 1 = tbl m c (15 : Fin 20) 1 := rfl
theorem adm15_2 (m : (ℓ : Loc nD τ sig) → Buf (Elt F) ℓ) (c : Dev nD)
    (hR : Cert.EdgeLengths.InRange (m ((c.tc : Thread nD τ).loc main_arg1))) :
    (adm15 m c hR).1 2 = tbl m c (15 : Fin 20) 2 := rfl
theorem adm15_3 (m : (ℓ : Loc nD τ sig) → Buf (Elt F) ℓ) (c : Dev nD)
    (hR : Cert.EdgeLengths.InRange (m ((c.tc : Thread nD τ).loc main_arg1))) :
    (adm15 m c hR).1 3 = tbl m c (15 : Fin 20) 3 := rfl

end Cert.KernelIdeal.Gen

end
-- ==== Proof.KI.Region16.lean ====
/-
  Region 16 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk16`),
  whatever it held before.

  The region's proof data then says: at every grid point each input window's buffer holds the table row its index
  table names there, and the output window's buffer is left at `outBlk16` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk16 (x0 x1 x2 x3 : Vec F S1x1x64 .f32) : Vec F S1x1x2 .f32 :=
  View.canon [⟨outRectD, k16_pay2 (View.ld x2 rowRect) (View.ld x3 rowRect)⟩,
              ⟨outRectB, k16_pay1 (View.ld x0 rowRect) (View.ld x1 rowRect)⟩]

/-- The two one-element stores tile the two-element block. -/
theorem outCover16 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk16` of the inputs. The index tables are not
    touched by the body (only the index maps read them), so nothing is asked of them. -/
theorem sound_kernel16 (c : Dev nD) (E : Set ℕ) (i : grid16.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk16 x0 x1 x2 x3)) -∗ K ⟨⟩))
      ⊢ wp frame (wpE (defs₀ (F := F)) Variants.none c none) E
          (cc16__gather_norm_kernel i a1 h1 a2 h2 a3 h3 a4 h4 a5 h5 a6 h6 a7 h7 a8 h8 a9 h9) K := by
  simp only [cc16__gather_norm_kernel_eq_skeleton]; unfold cc16__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover16 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg16 (F := F)).Adm)

/-- Window `w`'s block at point `t`, read off its array as the region finds it: for an input window the table row
    its index table names at `t`, for the output window the two-element row `t` of the result. -/
def iblk16 (c : Dev nD) (w : Fin (cfg16 a).W) (t : Fin (cfg16 a).N) :
    (((cfg16 a).win w).xblock ((cfg16 a).grid.coords t)).Idx → Elt F ((cfg16 a).win w).elt :=
  (((cfg16 a).win w).blk t).view.read (Elt F) (V c (Pipeline.arrRef spec16 w))

/-- The proof data of region 16 on core `c`: the arrays as the region finds them; after the body at point `t` each
    input block as it was and the output block the two lengths; the invariant carries the untouched scoped
    buffers, the generator register and the four index tables, which only the index maps read. -/
def dat16 (c : Dev nD) : Dat τ (Elt F) Unit ℕ (UR sig nD τ) ℕ (cfg16 a) c where
  A w := V c (Pipeline.arrRef spec16 w)
  after w t := match w with
    | ⟨0, _⟩ => iblk16 V a c 0 t
    | ⟨1, _⟩ => iblk16 V a c 1 t
    | ⟨2, _⟩ => iblk16 V a c 2 t
    | ⟨3, _⟩ => iblk16 V a c 3 t
    | ⟨4, _⟩ => outBlk16 (iblk16 V a c 0 t) (iblk16 V a c 1 t) (iblk16 V a c 2 t) (iblk16 V a c 3 t)
  Φ _ := iprop(Pipeline.ΦA spec16 c ∗ Pipeline.prefHeld pre16 c (fun _ => fullShare) a.1)
  q w := inShare w
  owed _ := 0

theorem A_eq16 (c : Dev nD) (w : Fin (cfg16 a).W) : (dat16 V a c).A w = V c (Pipeline.arrRef spec16 w) := by
  dsimp only [dat16]

theorem after16_0 (c : Dev nD) (t : Fin (cfg16 a).N) : (dat16 V a c).after 0 t = iblk16 V a c 0 t := by dsimp only [dat16]; rfl
theorem after16_1 (c : Dev nD) (t : Fin (cfg16 a).N) : (dat16 V a c).after 1 t = iblk16 V a c 1 t := by dsimp only [dat16]; rfl
theorem after16_2 (c : Dev nD) (t : Fin (cfg16 a).N) : (dat16 V a c).after 2 t = iblk16 V a c 2 t := by dsimp only [dat16]; rfl
theorem after16_3 (c : Dev nD) (t : Fin (cfg16 a).N) : (dat16 V a c).after 3 t = iblk16 V a c 3 t := by dsimp only [dat16]; rfl
theorem after16_4 (c : Dev nD) (t : Fin (cfg16 a).N) : (dat16 V a c).after 4 t
    = outBlk16 (iblk16 V a c 0 t) (iblk16 V a c 1 t) (iblk16 V a c 2 t) (iblk16 V a c 3 t) := by dsimp only [dat16]; rfl

/-- Input window 0 holds its row at every point, fetched there or not: the body never writes an input block, the
    window is never idle and its blocks are whole rows. -/
theorem before16_0 (c : Dev nD) (t : Fin (cfg16 a).N) (d) : (dat16 V a c).before 0 t d = iblk16 V a c 0 t :=
  ((dat16 V a c).before_in_eq_fetched 0 rfl (fun _ => rfl) (fun _ _ _ => rfl)
      (fun t => by rw [after16_0]; unfold Dat.blockOf iblk16; rw [A_eq16]; try rfl) t d).trans
    (by unfold Dat.fetched Dat.blockOf iblk16; rw [A_eq16]; try rfl)

/-- Input window 1 holds its row at every point, fetched there or not: the body never writes an input block, the
    window is never idle and its blocks are whole rows. -/
theorem before16_1 (c : Dev nD) (t : Fin (cfg16 a).N) (d) : (dat16 V a c).before 1 t d = iblk16 V a c 1 t :=
  ((dat16 V a c).before_in_eq_fetched 1 rfl (fun _ => rfl) (fun _ _ _ => rfl)
      (fun t => by rw [after16_1]; unfold Dat.blockOf iblk16; rw [A_eq16]; try rfl) t d).trans
    (by unfold Dat.fetched Dat.blockOf iblk16; rw [A_eq16]; try rfl)

/-- Input window 2 holds its row at every point, fetched there or not: the body never writes an input block, the
    window is never idle and its blocks are whole rows. -/
theorem before16_2 (c : Dev nD) (t : Fin (cfg16 a).N) (d) : (dat16 V a c).before 2 t d = iblk16 V a c 2 t :=
  ((dat16 V a c).before_in_eq_fetched 2 rfl (fun _ => rfl) (fun _ _ _ => rfl)
      (fun t => by rw [after16_2]; unfold Dat.blockOf iblk16; rw [A_eq16]; try rfl) t d).trans
    (by unfold Dat.fetched Dat.blockOf iblk16; rw [A_eq16]; try rfl)

/-- Input window 3 holds its row at every point, fetched there or not: the body never writes an input block, the
    window is never idle and its blocks are whole rows. -/
theorem before16_3 (c : Dev nD) (t : Fin (cfg16 a).N) (d) : (dat16 V a c).before 3 t d = iblk16 V a c 3 t :=
  ((dat16 V a c).before_in_eq_fetched 3 rfl (fun _ => rfl) (fun _ _ _ => rfl)
      (fun t => by rw [after16_3]; unfold Dat.blockOf iblk16; rw [A_eq16]; try rfl) t d).trans
    (by unfold Dat.fetched Dat.blockOf iblk16; rw [A_eq16]; try rfl)

/-! ## The body at a generic point -/

/-- The kernel body as region 16 calls it at point `t`: the point's coordinates, the four index tables whole, and each
    window's current staging buffer. -/
abbrev bodyAt16 (t : Fin (cfg16 a).N) : Prog (TpuEff nD τ sig (Elt F) Λ₀ .tc) PUnit :=
  cc16__gather_norm_kernel (grid16.coords t) (Memref.whole main_v89) (Memref.isWhole_whole _) (Memref.whole main_v90) (Memref.isWhole_whole _)
    (Memref.whole main_v91) (Memref.isWhole_whole _) (Memref.whole main_v92) (Memref.isWhole_whole _)
    (spec16_0.stage ((cfg16 a).slots t 0)) (hstage16_0 (((cfg16 a).slots t 0).cast nbuf16_0))
    (spec16_1.stage ((cfg16 a).slots t 1)) (hstage16_1 (((cfg16 a).slots t 1).cast nbuf16_1))
    (spec16_2.stage ((cfg16 a).slots t 2)) (hstage16_2 (((cfg16 a).slots t 2).cast nbuf16_2))
    (spec16_3.stage ((cfg16 a).slots t 3)) (hstage16_3 (((cfg16 a).slots t 3).cast nbuf16_3))
    (spec16_4.stage ((cfg16 a).slots t 4)) (hstage16_4 (((cfg16 a).slots t 4).cast nbuf16_4))

/-- The body at any point: each input buffer holds its row (`before16_w`), so `sound_kernel16` applies; the invariant
    (with the index tables in it) and what the core owes pass through unread. -/
theorem sound_body16 (c : Dev nD) (t : Fin (cfg16 a).N) :
    iprop((dat16 V a c).Φ t.castSucc ∗ (dat16 V a c).owesAt () t.castSucc
      ∗ (∃ d, owns (c : Thread nD τ) (((cfg16 a).win 0).stage ((cfg16 a).slots t 0)) fullShare ((dat16 V a c).before 0 t d))
      ∗ (∃ d, owns (c : Thread nD τ) (((cfg16 a).win 1).stage ((cfg16 a).slots t 1)) fullShare ((dat16 V a c).before 1 t d))
      ∗ (∃ d, owns (c : Thread nD τ) (((cfg16 a).win 2).stage ((cfg16 a).slots t 2)) fullShare ((dat16 V a c).before 2 t d))
      ∗ (∃ d, owns (c : Thread nD τ) (((cfg16 a).win 3).stage ((cfg16 a).slots t 3)) fullShare ((dat16 V a c).before 3 t d))
      ∗ (∃ d, owns (c : Thread nD τ) (((cfg16 a).win 4).stage ((cfg16 a).slots t 4)) fullShare ((dat16 V a c).before 4 t d)))
    ⊢ wp frame (wpE (defs₀ (F := F)) Variants.none c none) Set.univ
        (bodyAt16 a t)
        (fun _ => iprop((dat16 V a c).Φ t.succ ∗ (dat16 V a c).owesAt () t.succ
          ∗ owns (c : Thread nD τ) (((cfg16 a).win 0).stage ((cfg16 a).slots t 0)) fullShare ((dat16 V a c).after 0 t)
          ∗ owns (c : Thread nD τ) (((cfg16 a).win 1).stage ((cfg16 a).slots t 1)) fullShare ((dat16 V a c).after 1 t)
          ∗ owns (c : Thread nD τ) (((cfg16 a).win 2).stage ((cfg16 a).slots t 2)) fullShare ((dat16 V a c).after 2 t)
          ∗ owns (c : Thread nD τ) (((cfg16 a).win 3).stage ((cfg16 a).slots t 3)) fullShare ((dat16 V a c).after 3 t)
          ∗ owns (c : Thread nD τ) (((cfg16 a).win 4).stage ((cfg16 a).slots t 4)) fullShare ((dat16 V a c).after 4 t))) := by
  simp only [before16_0, before16_1, before16_2, before16_3]
  rw [show (dat16 V a c).Φ t.succ = (dat16 V a c).Φ t.castSucc from rfl,
    show (dat16 V a c).owesAt () t.succ = (dat16 V a c).owesAt () t.castSucc from rfl,
    after16_0, after16_1, after16_2, after16_3, after16_4]
  iintro ⟨HΦ, Ho, ⟨%d0, H0⟩, ⟨%d1, H1⟩, ⟨%d2, H2⟩, ⟨%d3, H3⟩, ⟨%d4, H4⟩⟩
  unfold bodyAt16
  iapply (sound_kernel16 c Set.univ _ _ _ _ _ _ _ _ _ _ _ _ _ _ _ _ _ _ _ (iblk16 V a c 0 t) (iblk16 V a c 1 t) (iblk16 V a c 2 t) (iblk16 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 16, at every point. -/
theorem body_obligation16 (c : Dev nD) : BodyObligation (dat16 (F := F) V a c) (defs₀ (F := F)) Variants.none () Set.univ := fun t => by
  rw [bigSep_W16, bigSep_W16]
  exact sound_body16 V a c t

end Region0

end Cert.KernelIdeal.Gen

end
-- ==== Proof.KI.Ok16.lean ====
/-
  The index tables of region 16 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok16_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 16's side condition. -/
theorem ok16_of_lt (pf : pre16.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok16 pf := by
  unfold ok16
  refine ⟨fun i => ⟨?_, Or.inl rfl⟩, fun i => ⟨?_, Or.inl rfl⟩, fun i => ⟨?_, Or.inl rfl⟩, fun i => ⟨?_, Or.inl rfl⟩⟩
  · exact ok16_fits _ (h0 _)
  · exact ok16_fits _ (h1 _)
  · exact ok16_fits _ (h2 _)
  · exact ok16_fits _ (h3 _)

/-- The four index tables of region 16 as the launch memory holds them on core `c`. -/
def pf16 (m : (ℓ : Loc nD τ sig) → Buf (Elt F) ℓ) (c : Dev nD) : pre16.Contents (Elt F) :=
  fun | 0 => tbl m c (16 : Fin 20) 0 | 1 => tbl m c (16 : Fin 20) 1 | 2 => tbl m c (16 : Fin 20) 2 | 3 => tbl m c (16 : Fin 20) 3
      | ⟨_ + 4, h⟩ => absurd h (Nat.not_lt.2 (Nat.le_add_left _ _))

/-- In range, those tables are admissible contents of region 16's pipeline. -/
def adm16 (m : (ℓ : Loc nD τ sig) → Buf (Elt F) ℓ) (c : Dev nD)
    (hR : Cert.EdgeLengths.InRange (m ((c.tc : Thread nD τ).loc main_arg1))) : (pcfg16 (F := F)).Adm :=
  ⟨pf16 m c, ok16_of_lt _ (tbl_lt m c hR _ _) (tbl_lt m c hR _ _) (tbl_lt m c hR _ _) (tbl_lt m c hR _ _)⟩

theorem adm16_0 (m : (ℓ : Loc nD τ sig) → Buf (Elt F) ℓ) (c : Dev nD)
    (hR : Cert.EdgeLengths.InRange (m ((c.tc : Thread nD τ).loc main_arg1))) :
    (adm16 m c hR).1 0 = tbl m c (16 : Fin 20) 0 := rfl
theorem adm16_1 (m : (ℓ : Loc nD τ sig) → Buf (Elt F) ℓ) (c : Dev nD)
    (hR : Cert.EdgeLengths.InRange (m ((c.tc : Thread nD τ).loc main_arg1))) :
    (adm16 m c hR).1 1 = tbl m c (16 : Fin 20) 1 := rfl
theorem adm16_2 (m : (ℓ : Loc nD τ sig) → Buf (Elt F) ℓ) (c : Dev nD)
    (hR : Cert.EdgeLengths.InRange (m ((c.tc : Thread nD τ).loc main_arg1))) :
    (adm16 m c hR).1 2 = tbl m c (16 : Fin 20) 2 := rfl
theorem adm16_3 (m : (ℓ : Loc nD τ sig) → Buf (Elt F) ℓ) (c : Dev nD)
    (hR : Cert.EdgeLengths.InRange (m ((c.tc : Thread nD τ).loc main_arg1))) :
    (adm16 m c hR).1 3 = tbl m c (16 : Fin 20) 3 := rfl

end Cert.KernelIdeal.Gen

end
-- ==== Proof.KI.Region17.lean ====
/-
  Region 17 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk17`),
  whatever it held before.

  The region's proof data then says: at every grid point each input window's buffer holds the table row its index
  table names there, and the output window's buffer is left at `outBlk17` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk17 (x0 x1 x2 x3 : Vec F S1x1x64 .f32) : Vec F S1x1x2 .f32 :=
  View.canon [⟨outRectD, k17_pay2 (View.ld x2 rowRect) (View.ld x3 rowRect)⟩,
              ⟨outRectB, k17_pay1 (View.ld x0 rowRect) (View.ld x1 rowRect)⟩]

/-- The two one-element stores tile the two-element block. -/
theorem outCover17 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk17` of the inputs. The index tables are not
    touched by the body (only the index maps read them), so nothing is asked of them. -/
theorem sound_kernel17 (c : Dev nD) (E : Set ℕ) (i : grid17.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk17 x0 x1 x2 x3)) -∗ K ⟨⟩))
      ⊢ wp frame (wpE (defs₀ (F := F)) Variants.none c none) E
          (cc17__gather_norm_kernel i a1 h1 a2 h2 a3 h3 a4 h4 a5 h5 a6 h6 a7 h7 a8 h8 a9 h9) K := by
  simp only [cc17__gather_norm_kernel_eq_skeleton]; unfold cc17__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover17 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg17 (F := F)).Adm)

/-- Window `w`'s block at point `t`, read off its array as the region finds it: for an input window the table row
    its index table names at `t`, for the output window the two-element row `t` of the result. -/
def iblk17 (c : Dev nD) (w : Fin (cfg17 a).W) (t : Fin (cfg17 a).N) :
    (((cfg17 a).win w).xblock ((cfg17 a).grid.coords t)).Idx → Elt F ((cfg17 a).win w).elt :=
  (((cfg17 a).win w).blk t).view.read (Elt F) (V c (Pipeline.arrRef spec17 w))

/-- The proof data of region 17 on core `c`: the arrays as the region finds them; after the body at point `t` each
    input block as it was and the output block the two lengths; the invariant carries the untouched scoped
    buffers, the generator register and the four index tables, which only the index maps read. -/
def dat17 (c : Dev nD) : Dat τ (Elt F) Unit ℕ (UR sig nD τ) ℕ (cfg17 a) c where
  A w := V c (Pipeline.arrRef spec17 w)
  after w t := match w with
    | ⟨0, _⟩ => iblk17 V a c 0 t
    | ⟨1, _⟩ => iblk17 V a c 1 t
    | ⟨2, _⟩ => iblk17 V a c 2 t
    | ⟨3, _⟩ => iblk17 V a c 3 t
    | ⟨4, _⟩ => outBlk17 (iblk17 V a c 0 t) (iblk17 V a c 1 t) (iblk17 V a c 2 t) (iblk17 V a c 3 t)
  Φ _ := iprop(Pipeline.ΦA spec17 c ∗ Pipeline.prefHeld pre17 c (fun _ => fullShare) a.1)
  q w := inShare w
  owed _ := 0

theorem A_eq17 (c : Dev nD) (w : Fin (cfg17 a).W) : (dat17 V a c).A w = V c (Pipeline.arrRef spec17 w) := by
  dsimp only [dat17]

theorem after17_0 (c : Dev nD) (t : Fin (cfg17 a).N) : (dat17 V a c).after 0 t = iblk17 V a c 0 t := by dsimp only [dat17]; rfl
theorem after17_1 (c : Dev nD) (t : Fin (cfg17 a).N) : (dat17 V a c).after 1 t = iblk17 V a c 1 t := by dsimp only [dat17]; rfl
theorem after17_2 (c : Dev nD) (t : Fin (cfg17 a).N) : (dat17 V a c).after 2 t = iblk17 V a c 2 t := by dsimp only [dat17]; rfl
theorem after17_3 (c : Dev nD) (t : Fin (cfg17 a).N) : (dat17 V a c).after 3 t = iblk17 V a c 3 t := by dsimp only [dat17]; rfl
theorem after17_4 (c : Dev nD) (t : Fin (cfg17 a).N) : (dat17 V a c).after 4 t
    = outBlk17 (iblk17 V a c 0 t) (iblk17 V a c 1 t) (iblk17 V a c 2 t) (iblk17 V a c 3 t) := by dsimp only [dat17]; rfl

/-- Input window 0 holds its row at every point, fetched there or not: the body never writes an input block, the
    window is never idle and its blocks are whole rows. -/
theorem before17_0 (c : Dev nD) (t : Fin (cfg17 a).N) (d) : (dat17 V a c).before 0 t d = iblk17 V a c 0 t :=
  ((dat17 V a c).before_in_eq_fetched 0 rfl (fun _ => rfl) (fun _ _ _ => rfl)
      (fun t => by rw [after17_0]; unfold Dat.blockOf iblk17; rw [A_eq17]; try rfl) t d).trans
    (by unfold Dat.fetched Dat.blockOf iblk17; rw [A_eq17]; try rfl)

/-- Input window 1 holds its row at every point, fetched there or not: the body never writes an input block, the
    window is never idle and its blocks are whole rows. -/
theorem before17_1 (c : Dev nD) (t : Fin (cfg17 a).N) (d) : (dat17 V a c).before 1 t d = iblk17 V a c 1 t :=
  ((dat17 V a c).before_in_eq_fetched 1 rfl (fun _ => rfl) (fun _ _ _ => rfl)
      (fun t => by rw [after17_1]; unfold Dat.blockOf iblk17; rw [A_eq17]; try rfl) t d).trans
    (by unfold Dat.fetched Dat.blockOf iblk17; rw [A_eq17]; try rfl)

/-- Input window 2 holds its row at every point, fetched there or not: the body never writes an input block, the
    window is never idle and its blocks are whole rows. -/
theorem before17_2 (c : Dev nD) (t : Fin (cfg17 a).N) (d) : (dat17 V a c).before 2 t d = iblk17 V a c 2 t :=
  ((dat17 V a c).before_in_eq_fetched 2 rfl (fun _ => rfl) (fun _ _ _ => rfl)
      (fun t => by rw [after17_2]; unfold Dat.blockOf iblk17; rw [A_eq17]; try rfl) t d).trans
    (by unfold Dat.fetched Dat.blockOf iblk17; rw [A_eq17]; try rfl)

/-- Input window 3 holds its row at every point, fetched there or not: the body never writes an input block, the
    window is never idle and its blocks are whole rows. -/
theorem before17_3 (c : Dev nD) (t : Fin (cfg17 a).N) (d) : (dat17 V a c).before 3 t d = iblk17 V a c 3 t :=
  ((dat17 V a c).before_in_eq_fetched 3 rfl (fun _ => rfl) (fun _ _ _ => rfl)
      (fun t => by rw [after17_3]; unfold Dat.blockOf iblk17; rw [A_eq17]; try rfl) t d).trans
    (by unfold Dat.fetched Dat.blockOf iblk17; rw [A_eq17]; try rfl)

/-! ## The body at a generic point -/

/-- The kernel body as region 17 calls it at point `t`: the point's coordinates, the four index tables whole, and each
    window's current staging buffer. -/
abbrev bodyAt17 (t : Fin (cfg17 a).N) : Prog (TpuEff nD τ sig (Elt F) Λ₀ .tc) PUnit :=
  cc17__gather_norm_kernel (grid17.coords t) (Memref.whole main_v94) (Memref.isWhole_whole _) (Memref.whole main_v95) (Memref.isWhole_whole _)
    (Memref.whole main_v96) (Memref.isWhole_whole _) (Memref.whole main_v97) (Memref.isWhole_whole _)
    (spec17_0.stage ((cfg17 a).slots t 0)) (hstage17_0 (((cfg17 a).slots t 0).cast nbuf17_0))
    (spec17_1.stage ((cfg17 a).slots t 1)) (hstage17_1 (((cfg17 a).slots t 1).cast nbuf17_1))
    (spec17_2.stage ((cfg17 a).slots t 2)) (hstage17_2 (((cfg17 a).slots t 2).cast nbuf17_2))
    (spec17_3.stage ((cfg17 a).slots t 3)) (hstage17_3 (((cfg17 a).slots t 3).cast nbuf17_3))
    (spec17_4.stage ((cfg17 a).slots t 4)) (hstage17_4 (((cfg17 a).slots t 4).cast nbuf17_4))

/-- The body at any point: each input buffer holds its row (`before17_w`), so `sound_kernel17` applies; the invariant
    (with the index tables in it) and what the core owes pass through unread. -/
theorem sound_body17 (c : Dev nD) (t : Fin (cfg17 a).N) :
    iprop((dat17 V a c).Φ t.castSucc ∗ (dat17 V a c).owesAt () t.castSucc
      ∗ (∃ d, owns (c : Thread nD τ) (((cfg17 a).win 0).stage ((cfg17 a).slots t 0)) fullShare ((dat17 V a c).before 0 t d))
      ∗ (∃ d, owns (c : Thread nD τ) (((cfg17 a).win 1).stage ((cfg17 a).slots t 1)) fullShare ((dat17 V a c).before 1 t d))
      ∗ (∃ d, owns (c : Thread nD τ) (((cfg17 a).win 2).stage ((cfg17 a).slots t 2)) fullShare ((dat17 V a c).before 2 t d))
      ∗ (∃ d, owns (c : Thread nD τ) (((cfg17 a).win 3).stage ((cfg17 a).slots t 3)) fullShare ((dat17 V a c).before 3 t d))
      ∗ (∃ d, owns (c : Thread nD τ) (((cfg17 a).win 4).stage ((cfg17 a).slots t 4)) fullShare ((dat17 V a c).before 4 t d)))
    ⊢ wp frame (wpE (defs₀ (F := F)) Variants.none c none) Set.univ
        (bodyAt17 a t)
        (fun _ => iprop((dat17 V a c).Φ t.succ ∗ (dat17 V a c).owesAt () t.succ
          ∗ owns (c : Thread nD τ) (((cfg17 a).win 0).stage ((cfg17 a).slots t 0)) fullShare ((dat17 V a c).after 0 t)
          ∗ owns (c : Thread nD τ) (((cfg17 a).win 1).stage ((cfg17 a).slots t 1)) fullShare ((dat17 V a c).after 1 t)
          ∗ owns (c : Thread nD τ) (((cfg17 a).win 2).stage ((cfg17 a).slots t 2)) fullShare ((dat17 V a c).after 2 t)
          ∗ owns (c : Thread nD τ) (((cfg17 a).win 3).stage ((cfg17 a).slots t 3)) fullShare ((dat17 V a c).after 3 t)
          ∗ owns (c : Thread nD τ) (((cfg17 a).win 4).stage ((cfg17 a).slots t 4)) fullShare ((dat17 V a c).after 4 t))) := by
  simp only [before17_0, before17_1, before17_2, before17_3]
  rw [show (dat17 V a c).Φ t.succ = (dat17 V a c).Φ t.castSucc from rfl,
    show (dat17 V a c).owesAt () t.succ = (dat17 V a c).owesAt () t.castSucc from rfl,
    after17_0, after17_1, after17_2, after17_3, after17_4]
  iintro ⟨HΦ, Ho, ⟨%d0, H0⟩, ⟨%d1, H1⟩, ⟨%d2, H2⟩, ⟨%d3, H3⟩, ⟨%d4, H4⟩⟩
  unfold bodyAt17
  iapply (sound_kernel17 c Set.univ _ _ _ _ _ _ _ _ _ _ _ _ _ _ _ _ _ _ _ (iblk17 V a c 0 t) (iblk17 V a c 1 t) (iblk17 V a c 2 t) (iblk17 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 17, at every point. -/
theorem body_obligation17 (c : Dev nD) : BodyObligation (dat17 (F := F) V a c) (defs₀ (F := F)) Variants.none () Set.univ := fun t => by
  rw [bigSep_W17, bigSep_W17]
  exact sound_body17 V a c t

end Region0

end Cert.KernelIdeal.Gen

end
-- ==== Proof.KI.Ok17.lean ====
/-
  The index tables of region 17 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok17_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 17's side condition. -/
theorem ok17_of_lt (pf : pre17.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok17 pf := by
  unfold ok17
  refine ⟨fun i => ⟨?_, Or.inl rfl⟩, fun i => ⟨?_, Or.inl rfl⟩, fun i => ⟨?_, Or.inl rfl⟩, fun i => ⟨?_, Or.inl rfl⟩⟩
  · exact ok17_fits _ (h0 _)
  · exact ok17_fits _ (h1 _)
  · exact ok17_fits _ (h2 _)
  · exact ok17_fits _ (h3 _)

/-- The four index tables of region 17 as the launch memory holds them on core `c`. -/
def pf17 (m : (ℓ : Loc nD τ sig) → Buf (Elt F) ℓ) (c : Dev nD) : pre17.Contents (Elt F) :=
  fun | 0 => tbl m c (17 : Fin 20) 0 | 1 => tbl m c (17 : Fin 20) 1 | 2 => tbl m c (17 : Fin 20) 2 | 3 => tbl m c (17 : Fin 20) 3
      | ⟨_ + 4, h⟩ => absurd h (Nat.not_lt.2 (Nat.le_add_left _ _))

/-- In range, those tables are admissible contents of region 17's pipeline. -/
def adm17 (m : (ℓ : Loc nD τ sig) → Buf (Elt F) ℓ) (c : Dev nD)
    (hR : Cert.EdgeLengths.InRange (m ((c.tc : Thread nD τ).loc main_arg1))) : (pcfg17 (F := F)).Adm :=
  ⟨pf17 m c, ok17_of_lt _ (tbl_lt m c hR _ _) (tbl_lt m c hR _ _) (tbl_lt m c hR _ _) (tbl_lt m c hR _ _)⟩

theorem adm17_0 (m : (ℓ : Loc nD τ sig) → Buf (Elt F) ℓ) (c : Dev nD)
    (hR : Cert.EdgeLengths.InRange (m ((c.tc : Thread nD τ).loc main_arg1))) :
    (adm17 m c hR).1 0 = tbl m c (17 : Fin 20) 0 := rfl
theorem adm17_1 (m : (ℓ : Loc nD τ sig) → Buf (Elt F) ℓ) (c : Dev nD)
    (hR : Cert.EdgeLengths.InRange (m ((c.tc : Thread nD τ).loc main_arg1))) :
    (adm17 m c hR).1 1 = tbl m c (17 : Fin 20) 1 := rfl
theorem adm17_2 (m : (ℓ : Loc nD τ sig) → Buf (Elt F) ℓ) (c : Dev nD)
    (hR : Cert.EdgeLengths.InRange (m ((c.tc : Thread nD τ).loc main_arg1))) :
    (adm17 m c hR).1 2 = tbl m c (17 : Fin 20) 2 := rfl
theorem adm17_3 (m : (ℓ : Loc nD τ sig) → Buf (Elt F) ℓ) (c : Dev nD)
    (hR : Cert.EdgeLengths.InRange (m ((c.tc : Thread nD τ).loc main_arg1))) :
    (adm17 m c hR).1 3 = tbl m c (17 : Fin 20) 3 := rfl

end Cert.KernelIdeal.Gen

end
-- ==== Proof.KI.Region18.lean ====
/-
  Region 18 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk18`),
  whatever it held before.

  The region's proof data then says: at every grid point each input window's buffer holds the table row its index
  table names there, and the output window's buffer is left at `outBlk18` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk18 (x0 x1 x2 x3 : Vec F S1x1x64 .f32) : Vec F S1x1x2 .f32 :=
  View.canon [⟨outRectD, k18_pay2 (View.ld x2 rowRect) (View.ld x3 rowRect)⟩,
              ⟨outRectB, k18_pay1 (View.ld x0 rowRect) (View.ld x1 rowRect)⟩]

/-- The two one-element stores tile the two-element block. -/
theorem outCover18 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk18` of the inputs. The index tables are not
    touched by the body (only the index maps read them), so nothing is asked of them. -/
theorem sound_kernel18 (c : Dev nD) (E : Set ℕ) (i : grid18.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk18 x0 x1 x2 x3)) -∗ K ⟨⟩))
      ⊢ wp frame (wpE (defs₀ (F := F)) Variants.none c none) E
          (cc18__gather_norm_kernel i a1 h1 a2 h2 a3 h3 a4 h4 a5 h5 a6 h6 a7 h7 a8 h8 a9 h9) K := by
  simp only [cc18__gather_norm_kernel_eq_skeleton]; unfold cc18__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover18 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg18 (F := F)).Adm)

/-- Window `w`'s block at point `t`, read off its array as the region finds it: for an input window the table row
    its index table names at `t`, for the output window the two-element row `t` of the result. -/
def iblk18 (c : Dev nD) (w : Fin (cfg18 a).W) (t : Fin (cfg18 a).N) :
    (((cfg18 a).win w).xblock ((cfg18 a).grid.coords t)).Idx → Elt F ((cfg18 a).win w).elt :=
  (((cfg18 a).win w).blk t).view.read (Elt F) (V c (Pipeline.arrRef spec18 w))

/-- The proof data of region 18 on core `c`: the arrays as the region finds them; after the body at point `t` each
    input block as it was and the output block the two lengths; the invariant carries the untouched scoped
    buffers, the generator register and the four index tables, which only the index maps read. -/
def dat18 (c : Dev nD) : Dat τ (Elt F) Unit ℕ (UR sig nD τ) ℕ (cfg18 a) c where
  A w := V c (Pipeline.arrRef spec18 w)
  after w t := match w with
    | ⟨0, _⟩ => iblk18 V a c 0 t
    | ⟨1, _⟩ => iblk18 V a c 1 t
    | ⟨2, _⟩ => iblk18 V a c 2 t
    | ⟨3, _⟩ => iblk18 V a c 3 t
    | ⟨4, _⟩ => outBlk18 (iblk18 V a c 0 t) (iblk18 V a c 1 t) (iblk18 V a c 2 t) (iblk18 V a c 3 t)
  Φ _ := iprop(Pipeline.ΦA spec18 c ∗ Pipeline.prefHeld pre18 c (fun _ => fullShare) a.1)
  q w := inShare w
  owed _ := 0

theorem A_eq18 (c : Dev nD) (w : Fin (cfg18 a).W) : (dat18 V a c).A w = V c (Pipeline.arrRef spec18 w) := by
  dsimp only [dat18]

theorem after18_0 (c : Dev nD) (t : Fin (cfg18 a).N) : (dat18 V a c).after 0 t = iblk18 V a c 0 t := by dsimp only [dat18]; rfl
theorem after18_1 (c : Dev nD) (t : Fin (cfg18 a).N) : (dat18 V a c).after 1 t = iblk18 V a c 1 t := by dsimp only [dat18]; rfl
theorem after18_2 (c : Dev nD) (t : Fin (cfg18 a).N) : (dat18 V a c).after 2 t = iblk18 V a c 2 t := by dsimp only [dat18]; rfl
theorem after18_3 (c : Dev nD) (t : Fin (cfg18 a).N) : (dat18 V a c).after 3 t = iblk18 V a c 3 t := by dsimp only [dat18]; rfl
theorem after18_4 (c : Dev nD) (t : Fin (cfg18 a).N) : (dat18 V a c).after 4 t
    = outBlk18 (iblk18 V a c 0 t) (iblk18 V a c 1 t) (iblk18 V a c 2 t) (iblk18 V a c 3 t) := by dsimp only [dat18]; rfl

/-- Input window 0 holds its row at every point, fetched there or not: the body never writes an input block, the
    window is never idle and its blocks are whole rows. -/
theorem before18_0 (c : Dev nD) (t : Fin (cfg18 a).N) (d) : (dat18 V a c).before 0 t d = iblk18 V a c 0 t :=
  ((dat18 V a c).before_in_eq_fetched 0 rfl (fun _ => rfl) (fun _ _ _ => rfl)
      (fun t => by rw [after18_0]; unfold Dat.blockOf iblk18; rw [A_eq18]; try rfl) t d).trans
    (by unfold Dat.fetched Dat.blockOf iblk18; rw [A_eq18]; try rfl)

/-- Input window 1 holds its row at every point, fetched there or not: the body never writes an input block, the
    window is never idle and its blocks are whole rows. -/
theorem before18_1 (c : Dev nD) (t : Fin (cfg18 a).N) (d) : (dat18 V a c).before 1 t d = iblk18 V a c 1 t :=
  ((dat18 V a c).before_in_eq_fetched 1 rfl (fun _ => rfl) (fun _ _ _ => rfl)
      (fun t => by rw [after18_1]; unfold Dat.blockOf iblk18; rw [A_eq18]; try rfl) t d).trans
    (by unfold Dat.fetched Dat.blockOf iblk18; rw [A_eq18]; try rfl)

/-- Input window 2 holds its row at every point, fetched there or not: the body never writes an input block, the
    window is never idle and its blocks are whole rows. -/
theorem before18_2 (c : Dev nD) (t : Fin (cfg18 a).N) (d) : (dat18 V a c).before 2 t d = iblk18 V a c 2 t :=
  ((dat18 V a c).before_in_eq_fetched 2 rfl (fun _ => rfl) (fun _ _ _ => rfl)
      (fun t => by rw [after18_2]; unfold Dat.blockOf iblk18; rw [A_eq18]; try rfl) t d).trans
    (by unfold Dat.fetched Dat.blockOf iblk18; rw [A_eq18]; try rfl)

/-- Input window 3 holds its row at every point, fetched there or not: the body never writes an input block, the
    window is never idle and its blocks are whole rows. -/
theorem before18_3 (c : Dev nD) (t : Fin (cfg18 a).N) (d) : (dat18 V a c).before 3 t d = iblk18 V a c 3 t :=
  ((dat18 V a c).before_in_eq_fetched 3 rfl (fun _ => rfl) (fun _ _ _ => rfl)
      (fun t => by rw [after18_3]; unfold Dat.blockOf iblk18; rw [A_eq18]; try rfl) t d).trans
    (by unfold Dat.fetched Dat.blockOf iblk18; rw [A_eq18]; try rfl)

/-! ## The body at a generic point -/

/-- The kernel body as region 18 calls it at point `t`: the point's coordinates, the four index tables whole, and each
    window's current staging buffer. -/
abbrev bodyAt18 (t : Fin (cfg18 a).N) : Prog (TpuEff nD τ sig (Elt F) Λ₀ .tc) PUnit :=
  cc18__gather_norm_kernel (grid18.coords t) (Memref.whole main_v99) (Memref.isWhole_whole _) (Memref.whole main_v100) (Memref.isWhole_whole _)
    (Memref.whole main_v101) (Memref.isWhole_whole _) (Memref.whole main_v102) (Memref.isWhole_whole _)
    (spec18_0.stage ((cfg18 a).slots t 0)) (hstage18_0 (((cfg18 a).slots t 0).cast nbuf18_0))
    (spec18_1.stage ((cfg18 a).slots t 1)) (hstage18_1 (((cfg18 a).slots t 1).cast nbuf18_1))
    (spec18_2.stage ((cfg18 a).slots t 2)) (hstage18_2 (((cfg18 a).slots t 2).cast nbuf18_2))
    (spec18_3.stage ((cfg18 a).slots t 3)) (hstage18_3 (((cfg18 a).slots t 3).cast nbuf18_3))
    (spec18_4.stage ((cfg18 a).slots t 4)) (hstage18_4 (((cfg18 a).slots t 4).cast nbuf18_4))

/-- The body at any point: each input buffer holds its row (`before18_w`), so `sound_kernel18` applies; the invariant
    (with the index tables in it) and what the core owes pass through unread. -/
theorem sound_body18 (c : Dev nD) (t : Fin (cfg18 a).N) :
    iprop((dat18 V a c).Φ t.castSucc ∗ (dat18 V a c).owesAt () t.castSucc
      ∗ (∃ d, owns (c : Thread nD τ) (((cfg18 a).win 0).stage ((cfg18 a).slots t 0)) fullShare ((dat18 V a c).before 0 t d))
      ∗ (∃ d, owns (c : Thread nD τ) (((cfg18 a).win 1).stage ((cfg18 a).slots t 1)) fullShare ((dat18 V a c).before 1 t d))
      ∗ (∃ d, owns (c : Thread nD τ) (((cfg18 a).win 2).stage ((cfg18 a).slots t 2)) fullShare ((dat18 V a c).before 2 t d))
      ∗ (∃ d, owns (c : Thread nD τ) (((cfg18 a).win 3).stage ((cfg18 a).slots t 3)) fullShare ((dat18 V a c).before 3 t d))
      ∗ (∃ d, owns (c : Thread nD τ) (((cfg18 a).win 4).stage ((cfg18 a).slots t 4)) fullShare ((dat18 V a c).before 4 t d)))
    ⊢ wp frame (wpE (defs₀ (F := F)) Variants.none c none) Set.univ
        (bodyAt18 a t)
        (fun _ => iprop((dat18 V a c).Φ t.succ ∗ (dat18 V a c).owesAt () t.succ
          ∗ owns (c : Thread nD τ) (((cfg18 a).win 0).stage ((cfg18 a).slots t 0)) fullShare ((dat18 V a c).after 0 t)
          ∗ owns (c : Thread nD τ) (((cfg18 a).win 1).stage ((cfg18 a).slots t 1)) fullShare ((dat18 V a c).after 1 t)
          ∗ owns (c : Thread nD τ) (((cfg18 a).win 2).stage ((cfg18 a).slots t 2)) fullShare ((dat18 V a c).after 2 t)
          ∗ owns (c : Thread nD τ) (((cfg18 a).win 3).stage ((cfg18 a).slots t 3)) fullShare ((dat18 V a c).after 3 t)
          ∗ owns (c : Thread nD τ) (((cfg18 a).win 4).stage ((cfg18 a).slots t 4)) fullShare ((dat18 V a c).after 4 t))) := by
  simp only [before18_0, before18_1, before18_2, before18_3]
  rw [show (dat18 V a c).Φ t.succ = (dat18 V a c).Φ t.castSucc from rfl,
    show (dat18 V a c).owesAt () t.succ = (dat18 V a c).owesAt () t.castSucc from rfl,
    after18_0, after18_1, after18_2, after18_3, after18_4]
  iintro ⟨HΦ, Ho, ⟨%d0, H0⟩, ⟨%d1, H1⟩, ⟨%d2, H2⟩, ⟨%d3, H3⟩, ⟨%d4, H4⟩⟩
  unfold bodyAt18
  iapply (sound_kernel18 c Set.univ _ _ _ _ _ _ _ _ _ _ _ _ _ _ _ _ _ _ _ (iblk18 V a c 0 t) (iblk18 V a c 1 t) (iblk18 V a c 2 t) (iblk18 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 18, at every point. -/
theorem body_obligation18 (c : Dev nD) : BodyObligation (dat18 (F := F) V a c) (defs₀ (F := F)) Variants.none () Set.univ := fun t => by
  rw [bigSep_W18, bigSep_W18]
  exact sound_body18 V a c t

end Region0

end Cert.KernelIdeal.Gen

end
-- ==== Proof.KI.Ok18.lean ====
/-
  The index tables of region 18 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok18_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 18's side condition. -/
theorem ok18_of_lt (pf : pre18.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok18 pf := by
  unfold ok18
  refine ⟨fun i => ⟨?_, Or.inl rfl⟩, fun i => ⟨?_, Or.inl rfl⟩, fun i => ⟨?_, Or.inl rfl⟩, fun i => ⟨?_, Or.inl rfl⟩⟩
  · exact ok18_fits _ (h0 _)
  · exact ok18_fits _ (h1 _)
  · exact ok18_fits _ (h2 _)
  · exact ok18_fits _ (h3 _)

/-- The four index tables of region 18 as the launch memory holds them on core `c`. -/
def pf18 (m : (ℓ : Loc nD τ sig) → Buf (Elt F) ℓ) (c : Dev nD) : pre18.Contents (Elt F) :=
  fun | 0 => tbl m c (18 : Fin 20) 0 | 1 => tbl m c (18 : Fin 20) 1 | 2 => tbl m c (18 : Fin 20) 2 | 3 => tbl m c (18 : Fin 20) 3
      | ⟨_ + 4, h⟩ => absurd h (Nat.not_lt.2 (Nat.le_add_left _ _))

/-- In range, those tables are admissible contents of region 18's pipeline. -/
def adm18 (m : (ℓ : Loc nD τ sig) → Buf (Elt F) ℓ) (c : Dev nD)
    (hR : Cert.EdgeLengths.InRange (m ((c.tc : Thread nD τ).loc main_arg1))) : (pcfg18 (F := F)).Adm :=
  ⟨pf18 m c, ok18_of_lt _ (tbl_lt m c hR _ _) (tbl_lt m c hR _ _) (tbl_lt m c hR _ _) (tbl_lt m c hR _ _)⟩

theorem adm18_0 (m : (ℓ : Loc nD τ sig) → Buf (Elt F) ℓ) (c : Dev nD)
    (hR : Cert.EdgeLengths.InRange (m ((c.tc : Thread nD τ).loc main_arg1))) :
    (adm18 m c hR).1 0 = tbl m c (18 : Fin 20) 0 := rfl
theorem adm18_1 (m : (ℓ : Loc nD τ sig) → Buf (Elt F) ℓ) (c : Dev nD)
    (hR : Cert.EdgeLengths.InRange (m ((c.tc : Thread nD τ).loc main_arg1))) :
    (adm18 m c hR).1 1 = tbl m c (18 : Fin 20) 1 := rfl
theorem adm18_2 (m : (ℓ : Loc nD τ sig) → Buf (Elt F) ℓ) (c : Dev nD)
    (hR : Cert.EdgeLengths.InRange (m ((c.tc : Thread nD τ).loc main_arg1))) :
    (adm18 m c hR).1 2 = tbl m c (18 : Fin 20) 2 := rfl
theorem adm18_3 (m : (ℓ : Loc nD τ sig) → Buf (Elt F) ℓ) (c : Dev nD)
    (hR : Cert.EdgeLengths.InRange (m ((c.tc : Thread nD τ).loc main_arg1))) :
    (adm18 m c hR).1 3 = tbl m c (18 : Fin 20) 3 := rfl

end Cert.KernelIdeal.Gen

end
-- ==== Proof.KI.Region19.lean ====
/-
  Region 19 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk19`),
  whatever it held before.

  The region's proof data then says: at every grid point each input window's buffer holds the table row its index
  table names there, and the output window's buffer is left at `outBlk19` of those four rows.
-/
import proofs.«401090_j62775241999084_2_alg».proof.Proof.KI.BodyCommon
import proofs.«401090_j62775241999084_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk19 (x0 x1 x2 x3 : Vec F S1x1x64 .f32) : Vec F S1x1x2 .f32 :=
  View.canon [⟨outRectD, k19_pay2 (View.ld x2 rowRect) (View.ld x3 rowRect)⟩,
              ⟨outRectB, k19_pay1 (View.ld x0 rowRect) (View.ld x1 rowRect)⟩]

/-- The two one-element stores tile the two-element block. -/
theorem outCover19 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk19` of the inputs. The index tables are not
    touched by the body (only the index maps read them), so nothing is asked of them. -/
theorem sound_kernel19 (c : Dev nD) (E : Set ℕ) (i : grid19.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk19 x0 x1 x2 x3)) -∗ K ⟨⟩))
      ⊢ wp frame (wpE (defs₀ (F := F)) Variants.none c none) E
          (cc19__gather_norm_kernel i a1 h1 a2 h2 a3 h3 a4 h4 a5 h5 a6 h6 a7 h7 a8 h8 a9 h9) K := by
  simp only [cc19__gather_norm_kernel_eq_skeleton]; unfold cc19__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover19 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg19 (F := F)).Adm)

/-- Window `w`'s block at point `t`, read off its array as the region finds it: for an input window the table row
    its index table names at `t`, for the output window the two-element row `t` of the result. -/
def iblk19 (c : Dev nD) (w : Fin (cfg19 a).W) (t : Fin (cfg19 a).N) :
    (((cfg19 a).win w).xblock ((cfg19 a).grid.coords t)).Idx → Elt F ((cfg19 a).win w).elt :=
  (((cfg19 a).win w).blk t).view.read (Elt F) (V c (Pipeline.arrRef spec19 w))

/-- The proof data of region 19 on core `c`: the arrays as the region finds them; after the body at point `t` each
    input block as it was and the output block the two lengths; the invariant carries the untouched scoped
    buffers, the generator register and the four index tables, which only the index maps read. -/
def dat19 (c : Dev nD) : Dat τ (Elt F) Unit ℕ (UR sig nD τ) ℕ (cfg19 a) c where
  A w := V c (Pipeline.arrRef spec19 w)
  after w t := match w with
    | ⟨0, _⟩ => iblk19 V a c 0 t
    | ⟨1, _⟩ => iblk19 V a c 1 t
    | ⟨2, _⟩ => iblk19 V a c 2 t
    | ⟨3, _⟩ => iblk19 V a c 3 t
    | ⟨4, _⟩ => outBlk19 (iblk19 V a c 0 t) (iblk19 V a c 1 t) (iblk19 V a c 2 t) (iblk19 V a c 3 t)
  Φ _ := iprop(Pipeline.ΦA spec19 c ∗ Pipeline.prefHeld pre19 c (fun _ => fullShare) a.1)
  q w := inShare w
  owed _ := 0

theorem A_eq19 (c : Dev nD) (w : Fin (cfg19 a).W) : (dat19 V a c).A w = V c (Pipeline.arrRef spec19 w) := by
  dsimp only [dat19]

theorem after19_0 (c : Dev nD) (t : Fin (cfg19 a).N) : (dat19 V a c).after 0 t = iblk19 V a c 0 t := by dsimp only [dat19]; rfl
theorem after19_1 (c : Dev nD) (t : Fin (cfg19 a).N) : (dat19 V a c).after 1 t = iblk19 V a c 1 t := by dsimp only [dat19]; rfl
theorem after19_2 (c : Dev nD) (t : Fin (cfg19 a).N) : (dat19 V a c).after 2 t = iblk19 V a c 2 t := by dsimp only [dat19]; rfl
theorem after19_3 (c : Dev nD) (t : Fin (cfg19 a).N) : (dat19 V a c).after 3 t = iblk19 V a c 3 t := by dsimp only [dat19]; rfl
theorem after19_4 (c : Dev nD) (t : Fin (cfg19 a).N) : (dat19 V a c).after 4 t
    = outBlk19 (iblk19 V a c 0 t) (iblk19 V a c 1 t) (iblk19 V a c 2 t) (iblk19 V a c 3 t) := by dsimp only [dat19]; rfl

/-- Input window 0 holds its row at every point, fetched there or not: the body never writes an input block, the
    window is never idle and its blocks are whole rows. -/
theorem before19_0 (c : Dev nD) (t : Fin (cfg19 a).N) (d) : (dat19 V a c).before 0 t d = iblk19 V a c 0 t :=
  ((dat19 V a c).before_in_eq_fetched 0 rfl (fun _ => rfl) (fun _ _ _ => rfl)
      (fun t => by rw [after19_0]; unfold Dat.blockOf iblk19; rw [A_eq19]; try rfl) t d).trans
    (by unfold Dat.fetched Dat.blockOf iblk19; rw [A_eq19]; try rfl)

/-- Input window 1 holds its row at every point, fetched there or not: the body never writes an input block, the
    window is never idle and its blocks are whole rows. -/
theorem before19_1 (c : Dev nD) (t : Fin (cfg19 a).N) (d) : (dat19 V a c).before 1 t d = iblk19 V a c 1 t :=
  ((dat19 V a c).before_in_eq_fetched 1 rfl (fun _ => rfl) (fun _ _ _ => rfl)
      (fun t => by rw [after19_1]; unfold Dat.blockOf iblk19; rw [A_eq19]; try rfl) t d).trans
    (by unfold Dat.fetched Dat.blockOf iblk19; rw [A_eq19]; try rfl)

/-- Input window 2 holds its row at every point, fetched there or not: the body never writes an input block, the
    window is never idle and its blocks are whole rows. -/
theorem before19_2 (c : Dev nD) (t : Fin (cfg19 a).N) (d) : (dat19 V a c).before 2 t d = iblk19 V a c 2 t :=
  ((dat19 V a c).before_in_eq_fetched 2 rfl (fun _ => rfl) (fun _ _ _ => rfl)
      (fun t => by rw [after19_2]; unfold Dat.blockOf iblk19; rw [A_eq19]; try rfl) t d).trans
    (by unfold Dat.fetched Dat.blockOf iblk19; rw [A_eq19]; try rfl)

/-- Input window 3 holds its row at every point, fetched there or not: the body never writes an input block, the
    window is never idle and its blocks are whole rows. -/
theorem before19_3 (c : Dev nD) (t : Fin (cfg19 a).N) (d) : (dat19 V a c).before 3 t d = iblk19 V a c 3 t :=
  ((dat19 V a c).before_in_eq_fetched 3 rfl (fun _ => rfl) (fun _ _ _ => rfl)
      (fun t => by rw [after19_3]; unfold Dat.blockOf iblk19; rw [A_eq19]; try rfl) t d).trans
    (by unfold Dat.fetched Dat.blockOf iblk19; rw [A_eq19]; try rfl)

/-! ## The body at a generic point -/

/-- The kernel body as region 19 calls it at point `t`: the point's coordinates, the four index tables whole, and each
    window's current staging buffer. -/
abbrev bodyAt19 (t : Fin (cfg19 a).N) : Prog (TpuEff nD τ sig (Elt F) Λ₀ .tc) PUnit :=
  cc19__gather_norm_kernel (grid19.coords t) (Memref.whole main_v104) (Memref.isWhole_whole _) (Memref.whole main_v105) (Memref.isWhole_whole _)
    (Memref.whole main_v106) (Memref.isWhole_whole _) (Memref.whole main_v107) (Memref.isWhole_whole _)
    (spec19_0.stage ((cfg19 a).slots t 0)) (hstage19_0 (((cfg19 a).slots t 0).cast nbuf19_0))
    (spec19_1.stage ((cfg19 a).slots t 1)) (hstage19_1 (((cfg19 a).slots t 1).cast nbuf19_1))
    (spec19_2.stage ((cfg19 a).slots t 2)) (hstage19_2 (((cfg19 a).slots t 2).cast nbuf19_2))
    (spec19_3.stage ((cfg19 a).slots t 3)) (hstage19_3 (((cfg19 a).slots t 3).cast nbuf19_3))
    (spec19_4.stage ((cfg19 a).slots t 4)) (hstage19_4 (((cfg19 a).slots t 4).cast nbuf19_4))

/-- The body at any point: each input buffer holds its row (`before19_w`), so `sound_kernel19` applies; the invariant
    (with the index tables in it) and what the core owes pass through unread. -/
theorem sound_body19 (c : Dev nD) (t : Fin (cfg19 a).N) :
    iprop((dat19 V a c).Φ t.castSucc ∗ (dat19 V a c).owesAt () t.castSucc
      ∗ (∃ d, owns (c : Thread nD τ) (((cfg19 a).win 0).stage ((cfg19 a).slots t 0)) fullShare ((dat19 V a c).before 0 t d))
      ∗ (∃ d, owns (c : Thread nD τ) (((cfg19 a).win 1).stage ((cfg19 a).slots t 1)) fullShare ((dat19 V a c).before 1 t d))
      ∗ (∃ d, owns (c : Thread nD τ) (((cfg19 a).win 2).stage ((cfg19 a).slots t 2)) fullShare ((dat19 V a c).before 2 t d))
      ∗ (∃ d, owns (c : Thread nD τ) (((cfg19 a).win 3).stage ((cfg19 a).slots t 3)) fullShare ((dat19 V a c).before 3 t d))
      ∗ (∃ d, owns (c : Thread nD τ) (((cfg19 a).win 4).stage ((cfg19 a).slots t 4)) fullShare ((dat19 V a c).before 4 t d)))
    ⊢ wp frame (wpE (defs₀ (F := F)) Variants.none c none) Set.univ
        (bodyAt19 a t)
        (fun _ => iprop((dat19 V a c).Φ t.succ ∗ (dat19 V a c).owesAt () t.succ
          ∗ owns (c : Thread nD τ) (((cfg19 a).win 0).stage ((cfg19 a).slots t 0)) fullShare ((dat19 V a c).after 0 t)
          ∗ owns (c : Thread nD τ) (((cfg19 a).win 1).stage ((cfg19 a).slots t 1)) fullShare ((dat19 V a c).after 1 t)
          ∗ owns (c : Thread nD τ) (((cfg19 a).win 2).stage ((cfg19 a).slots t 2)) fullShare ((dat19 V a c).after 2 t)
          ∗ owns (c : Thread nD τ) (((cfg19 a).win 3).stage ((cfg19 a).slots t 3)) fullShare ((dat19 V a c).after 3 t)
          ∗ owns (c : Thread nD τ) (((cfg19 a).win 4).stage ((cfg19 a).slots t 4)) fullShare ((dat19 V a c).after 4 t))) := by
  simp only [before19_0, before19_1, before19_2, before19_3]
  rw [show (dat19 V a c).Φ t.succ = (dat19 V a c).Φ t.castSucc from rfl,
    show (dat19 V a c).owesAt () t.succ = (dat19 V a c).owesAt () t.castSucc from rfl,
    after19_0, after19_1, after19_2, after19_3, after19_4]
  iintro ⟨HΦ, Ho, ⟨%d0, H0⟩, ⟨%d1, H1⟩, ⟨%d2, H2⟩, ⟨%d3, H3⟩, ⟨%d4, H4⟩⟩
  unfold bodyAt19
  iapply (sound_kernel19 c Set.univ _ _ _ _ _ _ _ _ _ _ _ _ _ _ _ _ _ _ _ (iblk19 V a c 0 t) (iblk19 V a c 1 t) (iblk19 V a c 2 t) (iblk19 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 19, at every point. -/
theorem body_obligation19 (c : Dev nD) : BodyObligation (dat19 (F := F) V a c) (defs₀ (F := F)) Variants.none () Set.univ := fun t => by
  rw [bigSep_W19, bigSep_W19]
  exact sound_body19 V a c t

end Region0

end Cert.KernelIdeal.Gen

end
-- ==== Proof.KI.Ok19.lean ====
/-
  The index tables of region 19 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KI.Tables

noncomputable section

namespace Cert.KernelIdeal.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok19_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 19's side condition. -/
theorem ok19_of_lt (pf : pre19.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok19 pf := by
  unfold ok19
  refine ⟨fun i => ⟨?_, Or.inl rfl⟩, fun i => ⟨?_, Or.inl rfl⟩, fun i => ⟨?_, Or.inl rfl⟩, fun i => ⟨?_, Or.inl rfl⟩⟩
  · exact ok19_fits _ (h0 _)
  · exact ok19_fits _ (h1 _)
  · exact ok19_fits _ (h2 _)
  · exact ok19_fits _ (h3 _)

/-- The four index tables of region 19 as the launch memory holds them on core `c`. -/
def pf19 (m : (ℓ : Loc nD τ sig) → Buf (Elt F) ℓ) (c : Dev nD) : pre19.Contents (Elt F) :=
  fun | 0 => tbl m c (19 : Fin 20) 0 | 1 => tbl m c (19 : Fin 20) 1 | 2 => tbl m c (19 : Fin 20) 2 | 3 => tbl m c (19 : Fin 20) 3
      | ⟨_ + 4, h⟩ => absurd h (Nat.not_lt.2 (Nat.le_add_left _ _))

/-- In range, those tables are admissible contents of region 19's pipeline. -/
def adm19 (m : (ℓ : Loc nD τ sig) → Buf (Elt F) ℓ) (c : Dev nD)
    (hR : Cert.EdgeLengths.InRange (m ((c.tc : Thread nD τ).loc main_arg1))) : (pcfg19 (F := F)).Adm :=
  ⟨pf19 m c, ok19_of_lt _ (tbl_lt m c hR _ _) (tbl_lt m c hR _ _) (tbl_lt m c hR _ _) (tbl_lt m c hR _ _)⟩

theorem adm19_0 (m : (ℓ : Loc nD τ sig) → Buf (Elt F) ℓ) (c : Dev nD)
    (hR : Cert.EdgeLengths.InRange (m ((c.tc : Thread nD τ).loc main_arg1))) :
    (adm19 m c hR).1 0 = tbl m c (19 : Fin 20) 0 := rfl
theorem adm19_1 (m : (ℓ : Loc nD τ sig) → Buf (Elt F) ℓ) (c : Dev nD)
    (hR : Cert.EdgeLengths.InRange (m ((c.tc : Thread nD τ).loc main_arg1))) :
    (adm19 m c hR).1 1 = tbl m c (19 : Fin 20) 1 := rfl
theorem adm19_2 (m : (ℓ : Loc nD τ sig) → Buf (Elt F) ℓ) (c : Dev nD)
    (hR : Cert.EdgeLengths.InRange (m ((c.tc : Thread nD τ).loc main_arg1))) :
    (adm19 m c hR).1 2 = tbl m c (19 : Fin 20) 2 := rfl
theorem adm19_3 (m : (ℓ : Loc nD τ sig) → Buf (Elt F) ℓ) (c : Dev nD)
    (hR : Cert.EdgeLengths.InRange (m ((c.tc : Thread nD τ).loc main_arg1))) :
    (adm19 m c hR).1 3 = tbl m c (19 : Fin 20) 3 := rfl

end Cert.KernelIdeal.Gen

end
-- ==== Proof.KI.Families.lean ====
/-
  The 20 regions as families. Region K's index tables are read off the launch memory on the one core; its proof
  data take the buffers as the first host stretch leaves them (the point table is written there and never again, and
  an output array is untouched until its region); what region K leaves in its output array is the proof data's
  array after the last write-back; and the contents the regions leave, as one family over references, are the launch
  contents updated at the 20 output arrays.
-/
import proofs.«401090_j62775241999084_2_alg».proof.Proof.KI.Region0
import proofs.«401090_j62775241999084_2_alg».proof.Proof.KI.Ok0
import proofs.«401090_j62775241999084_2_alg».proof.Proof.KI.Region1
import proofs.«401090_j62775241999084_2_alg».proof.Proof.KI.Ok1
import proofs.«401090_j62775241999084_2_alg».proof.Proof.KI.Region2
import proofs.«401090_j62775241999084_2_alg».proof.Proof.KI.Ok2
import proofs.«401090_j62775241999084_2_alg».proof.Proof.KI.Region3
import proofs.«401090_j62775241999084_2_alg».proof.Proof.KI.Ok3
import proofs.«401090_j62775241999084_2_alg».proof.Proof.KI.Region4
import proofs.«401090_j62775241999084_2_alg».proof.Proof.KI.Ok4
import proofs.«401090_j62775241999084_2_alg».proof.Proof.KI.Region5
import proofs.«401090_j62775241999084_2_alg».proof.Proof.KI.Ok5
import proofs.«401090_j62775241999084_2_alg».proof.Proof.KI.Region6
import proofs.«401090_j62775241999084_2_alg».proof.Proof.KI.Ok6
import proofs.«401090_j62775241999084_2_alg».proof.Proof.KI.Region7
import proofs.«401090_j62775241999084_2_alg».proof.Proof.KI.Ok7
import proofs.«401090_j62775241999084_2_alg».proof.Proof.KI.Region8
import proofs.«401090_j62775241999084_2_alg».proof.Proof.KI.Ok8
import proofs.«401090_j62775241999084_2_alg».proof.Proof.KI.Region9
import proofs.«401090_j62775241999084_2_alg».proof.Proof.KI.Ok9
import proofs.«401090_j62775241999084_2_alg».proof.Proof.KI.Region10
import proofs.«401090_j62775241999084_2_alg».proof.Proof.KI.Ok10
import proofs.«401090_j62775241999084_2_alg».proof.Proof.KI.Region11
import proofs.«401090_j62775241999084_2_alg».proof.Proof.KI.Ok11
import proofs.«401090_j62775241999084_2_alg».proof.Proof.KI.Region12
import proofs.«401090_j62775241999084_2_alg».proof.Proof.KI.Ok12
import proofs.«401090_j62775241999084_2_alg».proof.Proof.KI.Region13
import proofs.«401090_j62775241999084_2_alg».proof.Proof.KI.Ok13
import proofs.«401090_j62775241999084_2_alg».proof.Proof.KI.Region14
import proofs.«401090_j62775241999084_2_alg».proof.Proof.KI.Ok14
import proofs.«401090_j62775241999084_2_alg».proof.Proof.KI.Region15
import proofs.«401090_j62775241999084_2_alg».proof.Proof.KI.Ok15
import proofs.«401090_j62775241999084_2_alg».proof.Proof.KI.Region16
import proofs.«401090_j62775241999084_2_alg».proof.Proof.KI.Ok16
import proofs.«401090_j62775241999084_2_alg».proof.Proof.KI.Region17
import proofs.«401090_j62775241999084_2_alg».proof.Proof.KI.Ok17
import proofs.«401090_j62775241999084_2_alg».proof.Proof.KI.Region18
import proofs.«401090_j62775241999084_2_alg».proof.Proof.KI.Ok18
import proofs.«401090_j62775241999084_2_alg».proof.Proof.KI.Region19
import proofs.«401090_j62775241999084_2_alg».proof.Proof.KI.Ok19

set_option maxRecDepth 16384

noncomputable section

namespace Cert.KernelIdeal.Gen

open Idealize.ShloMosaic Idealize.ShloMosaic.TcCoe Idealize.SL Idealize.SL.Sem
open Idealize.ShloMosaic.Pipeline (Dat)

variable {F : FTy → Type} [FloatOps F]
variable (m : (ℓ : Loc nD τ sig) → Buf (Elt F) ℓ)
variable (hR : ∀ c : Dev nD, Cert.EdgeLengths.InRange (m ((c.tc : Thread nD τ).loc main_arg1)))

/-- The one core of the mesh. -/
abbrev core0 : Dev nD := ⟨0, by decide⟩
theorem core_eq (c : Dev nD) : c = core0 := Fin.ext (by have h : c.val < 1 := c.isLt; show c.val = 0; omega)

/-- The buffers as the first host stretch leaves them: what every region's proof data read their arrays off. -/
abbrev Vfirst : (c : Dev nD) → (b : Ref sig .tc) → Buf (Elt F) ((c : Thread nD τ).loc b) := fun c b => V1 m c b

/-- Every region's admissible tables. -/
def adm : (p : Fin 20) → (pcfgs (F := F) p).Adm
  | ⟨0, _⟩ => adm0 m core0 (hR core0)
  | ⟨1, _⟩ => adm1 m core0 (hR core0)
  | ⟨2, _⟩ => adm2 m core0 (hR core0)
  | ⟨3, _⟩ => adm3 m core0 (hR core0)
  | ⟨4, _⟩ => adm4 m core0 (hR core0)
  | ⟨5, _⟩ => adm5 m core0 (hR core0)
  | ⟨6, _⟩ => adm6 m core0 (hR core0)
  | ⟨7, _⟩ => adm7 m core0 (hR core0)
  | ⟨8, _⟩ => adm8 m core0 (hR core0)
  | ⟨9, _⟩ => adm9 m core0 (hR core0)
  | ⟨10, _⟩ => adm10 m core0 (hR core0)
  | ⟨11, _⟩ => adm11 m core0 (hR core0)
  | ⟨12, _⟩ => adm12 m core0 (hR core0)
  | ⟨13, _⟩ => adm13 m core0 (hR core0)
  | ⟨14, _⟩ => adm14 m core0 (hR core0)
  | ⟨15, _⟩ => adm15 m core0 (hR core0)
  | ⟨16, _⟩ => adm16 m core0 (hR core0)
  | ⟨17, _⟩ => adm17 m core0 (hR core0)
  | ⟨18, _⟩ => adm18 m core0 (hR core0)
  | ⟨19, _⟩ => adm19 m core0 (hR core0)
  | ⟨_ + 20, h⟩ => absurd h (Nat.not_lt.2 (Nat.le_add_left _ _))

/-- Every region's proof data. -/
def pdats : (p : Fin 20) → (c : Dev nD) → Dat τ (Elt F) Unit ℕ (UR sig nD τ) ℕ (Pipeline.pin (pcfgs (F := F)) (adm m hR) p) c
  | ⟨0, _⟩ => fun c => dat0 (Vfirst m) (adm0 m core0 (hR core0)) c
  | ⟨1, _⟩ => fun c => dat1 (Vfirst m) (adm1 m core0 (hR core0)) c
  | ⟨2, _⟩ => fun c => dat2 (Vfirst m) (adm2 m core0 (hR core0)) c
  | ⟨3, _⟩ => fun c => dat3 (Vfirst m) (adm3 m core0 (hR core0)) c
  | ⟨4, _⟩ => fun c => dat4 (Vfirst m) (adm4 m core0 (hR core0)) c
  | ⟨5, _⟩ => fun c => dat5 (Vfirst m) (adm5 m core0 (hR core0)) c
  | ⟨6, _⟩ => fun c => dat6 (Vfirst m) (adm6 m core0 (hR core0)) c
  | ⟨7, _⟩ => fun c => dat7 (Vfirst m) (adm7 m core0 (hR core0)) c
  | ⟨8, _⟩ => fun c => dat8 (Vfirst m) (adm8 m core0 (hR core0)) c
  | ⟨9, _⟩ => fun c => dat9 (Vfirst m) (adm9 m core0 (hR core0)) c
  | ⟨10, _⟩ => fun c => dat10 (Vfirst m) (adm10 m core0 (hR core0)) c
  | ⟨11, _⟩ => fun c => dat11 (Vfirst m) (adm11 m core0 (hR core0)) c
  | ⟨12, _⟩ => fun c => dat12 (Vfirst m) (adm12 m core0 (hR core0)) c
  | ⟨13, _⟩ => fun c => dat13 (Vfirst m) (adm13 m core0 (hR core0)) c
  | ⟨14, _⟩ => fun c => dat14 (Vfirst m) (adm14 m core0 (hR core0)) c
  | ⟨15, _⟩ => fun c => dat15 (Vfirst m) (adm15 m core0 (hR core0)) c
  | ⟨16, _⟩ => fun c => dat16 (Vfirst m) (adm16 m core0 (hR core0)) c
  | ⟨17, _⟩ => fun c => dat17 (Vfirst m) (adm17 m core0 (hR core0)) c
  | ⟨18, _⟩ => fun c => dat18 (Vfirst m) (adm18 m core0 (hR core0)) c
  | ⟨19, _⟩ => fun c => dat19 (Vfirst m) (adm19 m core0 (hR core0)) c
  | ⟨_ + 20, h⟩ => absurd h (Nat.not_lt.2 (Nat.le_add_left _ _))

/-- What region 0 leaves in its output array. -/
abbrev res0 (c : Dev nD) : Buf (Elt F) ((c : Thread nD τ).loc main_v13) :=
  (dat0 (Vfirst m) (adm0 m core0 (hR core0)) c).arrAt 4 (cfg0 (adm0 (F := F) m core0 (hR core0))).N
/-- What region 1 leaves in its output array. -/
abbrev res1 (c : Dev nD) : Buf (Elt F) ((c : Thread nD τ).loc main_v18) :=
  (dat1 (Vfirst m) (adm1 m core0 (hR core0)) c).arrAt 4 (cfg1 (adm1 (F := F) m core0 (hR core0))).N
/-- What region 2 leaves in its output array. -/
abbrev res2 (c : Dev nD) : Buf (Elt F) ((c : Thread nD τ).loc main_v23) :=
  (dat2 (Vfirst m) (adm2 m core0 (hR core0)) c).arrAt 4 (cfg2 (adm2 (F := F) m core0 (hR core0))).N
/-- What region 3 leaves in its output array. -/
abbrev res3 (c : Dev nD) : Buf (Elt F) ((c : Thread nD τ).loc main_v28) :=
  (dat3 (Vfirst m) (adm3 m core0 (hR core0)) c).arrAt 4 (cfg3 (adm3 (F := F) m core0 (hR core0))).N
/-- What region 4 leaves in its output array. -/
abbrev res4 (c : Dev nD) : Buf (Elt F) ((c : Thread nD τ).loc main_v33) :=
  (dat4 (Vfirst m) (adm4 m core0 (hR core0)) c).arrAt 4 (cfg4 (adm4 (F := F) m core0 (hR core0))).N
/-- What region 5 leaves in its output array. -/
abbrev res5 (c : Dev nD) : Buf (Elt F) ((c : Thread nD τ).loc main_v38) :=
  (dat5 (Vfirst m) (adm5 m core0 (hR core0)) c).arrAt 4 (cfg5 (adm5 (F := F) m core0 (hR core0))).N
/-- What region 6 leaves in its output array. -/
abbrev res6 (c : Dev nD) : Buf (Elt F) ((c : Thread nD τ).loc main_v43) :=
  (dat6 (Vfirst m) (adm6 m core0 (hR core0)) c).arrAt 4 (cfg6 (adm6 (F := F) m core0 (hR core0))).N
/-- What region 7 leaves in its output array. -/
abbrev res7 (c : Dev nD) : Buf (Elt F) ((c : Thread nD τ).loc main_v48) :=
  (dat7 (Vfirst m) (adm7 m core0 (hR core0)) c).arrAt 4 (cfg7 (adm7 (F := F) m core0 (hR core0))).N
/-- What region 8 leaves in its output array. -/
abbrev res8 (c : Dev nD) : Buf (Elt F) ((c : Thread nD τ).loc main_v53) :=
  (dat8 (Vfirst m) (adm8 m core0 (hR core0)) c).arrAt 4 (cfg8 (adm8 (F := F) m core0 (hR core0))).N
/-- What region 9 leaves in its output array. -/
abbrev res9 (c : Dev nD) : Buf (Elt F) ((c : Thread nD τ).loc main_v58) :=
  (dat9 (Vfirst m) (adm9 m core0 (hR core0)) c).arrAt 4 (cfg9 (adm9 (F := F) m core0 (hR core0))).N
/-- What region 10 leaves in its output array. -/
abbrev res10 (c : Dev nD) : Buf (Elt F) ((c : Thread nD τ).loc main_v63) :=
  (dat10 (Vfirst m) (adm10 m core0 (hR core0)) c).arrAt 4 (cfg10 (adm10 (F := F) m core0 (hR core0))).N
/-- What region 11 leaves in its output array. -/
abbrev res11 (c : Dev nD) : Buf (Elt F) ((c : Thread nD τ).loc main_v68) :=
  (dat11 (Vfirst m) (adm11 m core0 (hR core0)) c).arrAt 4 (cfg11 (adm11 (F := F) m core0 (hR core0))).N
/-- What region 12 leaves in its output array. -/
abbrev res12 (c : Dev nD) : Buf (Elt F) ((c : Thread nD τ).loc main_v73) :=
  (dat12 (Vfirst m) (adm12 m core0 (hR core0)) c).arrAt 4 (cfg12 (adm12 (F := F) m core0 (hR core0))).N
/-- What region 13 leaves in its output array. -/
abbrev res13 (c : Dev nD) : Buf (Elt F) ((c : Thread nD τ).loc main_v78) :=
  (dat13 (Vfirst m) (adm13 m core0 (hR core0)) c).arrAt 4 (cfg13 (adm13 (F := F) m core0 (hR core0))).N
/-- What region 14 leaves in its output array. -/
abbrev res14 (c : Dev nD) : Buf (Elt F) ((c : Thread nD τ).loc main_v83) :=
  (dat14 (Vfirst m) (adm14 m core0 (hR core0)) c).arrAt 4 (cfg14 (adm14 (F := F) m core0 (hR core0))).N
/-- What region 15 leaves in its output array. -/
abbrev res15 (c : Dev nD) : Buf (Elt F) ((c : Thread nD τ).loc main_v88) :=
  (dat15 (Vfirst m) (adm15 m core0 (hR core0)) c).arrAt 4 (cfg15 (adm15 (F := F) m core0 (hR core0))).N
/-- What region 16 leaves in its output array. -/
abbrev res16 (c : Dev nD) : Buf (Elt F) ((c : Thread nD τ).loc main_v93) :=
  (dat16 (Vfirst m) (adm16 m core0 (hR core0)) c).arrAt 4 (cfg16 (adm16 (F := F) m core0 (hR core0))).N
/-- What region 17 leaves in its output array. -/
abbrev res17 (c : Dev nD) : Buf (Elt F) ((c : Thread nD τ).loc main_v98) :=
  (dat17 (Vfirst m) (adm17 m core0 (hR core0)) c).arrAt 4 (cfg17 (adm17 (F := F) m core0 (hR core0))).N
/-- What region 18 leaves in its output array. -/
abbrev res18 (c : Dev nD) : Buf (Elt F) ((c : Thread nD τ).loc main_v103) :=
  (dat18 (Vfirst m) (adm18 m core0 (hR core0)) c).arrAt 4 (cfg18 (adm18 (F := F) m core0 (hR core0))).N
/-- What region 19 leaves in its output array. -/
abbrev res19 (c : Dev nD) : Buf (Elt F) ((c : Thread nD τ).loc main_v108) :=
  (dat19 (Vfirst m) (adm19 m core0 (hR core0)) c).arrAt 4 (cfg19 (adm19 (F := F) m core0 (hR core0))).N

/-- The launch contents updated at the 20 output arrays. -/
def outsAll (c : Dev nD) : (r : Ref sig .tc) → Buf (Elt F) ((c : Thread nD τ).loc r) :=
  (Function.update (Function.update (Function.update (Function.update (Function.update (Function.update (Function.update (Function.update (Function.update (Function.update (Function.update (Function.update (Function.update (Function.update (Function.update (Function.update (Function.update (Function.update (Function.update (Function.update (fun r => m ((c : Thread nD τ).loc r)) main_v13 (res0 m hR c)) main_v18 (res1 m hR c)) main_v23 (res2 m hR c)) main_v28 (res3 m hR c)) main_v33 (res4 m hR c)) main_v38 (res5 m hR c)) main_v43 (res6 m hR c)) main_v48 (res7 m hR c)) main_v53 (res8 m hR c)) main_v58 (res9 m hR c)) main_v63 (res10 m hR c)) main_v68 (res11 m hR c)) main_v73 (res12 m hR c)) main_v78 (res13 m hR c)) main_v83 (res14 m hR c)) main_v88 (res15 m hR c)) main_v93 (res16 m hR c)) main_v98 (res17 m hR c)) main_v103 (res18 m hR c)) main_v108 (res19 m hR c))

/-- The contents the regions leave, in the form the program's valuations take them. -/
def outs : Outs (F := F) := fun _ r c => outsAll m hR c r

theorem outs_0 (c : Dev nD) : outs m hR 2 main_v13 c = res0 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_1 (c : Dev nD) : outs m hR 4 main_v18 c = res1 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_2 (c : Dev nD) : outs m hR 6 main_v23 c = res2 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_3 (c : Dev nD) : outs m hR 8 main_v28 c = res3 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_4 (c : Dev nD) : outs m hR 10 main_v33 c = res4 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_5 (c : Dev nD) : outs m hR 12 main_v38 c = res5 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_6 (c : Dev nD) : outs m hR 14 main_v43 c = res6 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_7 (c : Dev nD) : outs m hR 16 main_v48 c = res7 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_8 (c : Dev nD) : outs m hR 18 main_v53 c = res8 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_9 (c : Dev nD) : outs m hR 20 main_v58 c = res9 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_10 (c : Dev nD) : outs m hR 22 main_v63 c = res10 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_11 (c : Dev nD) : outs m hR 24 main_v68 c = res11 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_12 (c : Dev nD) : outs m hR 26 main_v73 c = res12 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_self]
theorem outs_13 (c : Dev nD) : outs m hR 28 main_v78 c = res13 m hR c := by
  unfold outs outsAll; rw [Function.update_of_ne (by decide), Function.update_of_ne (by decide), Function.update_of_ne (by decide), Function.update_of_ne (by decide), Function.update_of_ne (by decide), Function.update_of_ne (by decide), Function.update_self]
theorem outs_14 (c : Dev nD) : outs m hR 30 main_v83 c = res14 m hR c := by
  unfold outs outsAll; rw [Function.update_of_ne (by decide), Function.update_of_ne (by decide), Function.update_of_ne (by decide), Function.update_of_ne (by decide), Function.update_of_ne (by decide), Function.update_self]
theorem outs_15 (c : Dev nD) : outs m hR 32 main_v88 c = res15 m hR c := by
  unfold outs outsAll; rw [Function.update_of_ne (by decide), Function.update_of_ne (by decide), Function.update_of_ne (by decide), Function.update_of_ne (by decide), Function.update_self]
theorem outs_16 (c : Dev nD) : outs m hR 34 main_v93 c = res16 m hR c := by
  unfold outs outsAll; rw [Function.update_of_ne (by decide), Function.update_of_ne (by decide), Function.update_of_ne (by decide), Function.update_self]
theorem outs_17 (c : Dev nD) : outs m hR 36 main_v98 c = res17 m hR c := by
  unfold outs outsAll; rw [Function.update_of_ne (by decide), Function.update_of_ne (by decide), Function.update_self]
theorem outs_18 (c : Dev nD) : outs m hR 38 main_v103 c = res18 m hR c := by
  unfold outs outsAll; rw [Function.update_of_ne (by decide), Function.update_self]
theorem outs_19 (c : Dev nD) : outs m hR 40 main_v108 c = res19 m hR c := by
  unfold outs outsAll; rw [Function.update_self]

/-- The buffers as region 0 finds them, and as it leaves them. -/
abbrev VE0 (m : (ℓ : Loc nD τ sig) → Buf (Elt F) ℓ) (hR : ∀ c : Dev nD, Cert.EdgeLengths.InRange (m ((c.tc : Thread nD τ).loc main_arg1))) (c : Dev nD) : Valuation τ sig (Elt F) := V1 m c
abbrev VX0 (m : (ℓ : Loc nD τ sig) → Buf (Elt F) ℓ) (hR : ∀ c : Dev nD, Cert.EdgeLengths.InRange (m ((c.tc : Thread nD τ).loc main_arg1))) (c : Dev nD) : Valuation τ sig (Elt F) := V2 m (outs m hR) c
/-- The buffers as region 1 finds them, and as it leaves them. -/
abbrev VE1 (m : (ℓ : Loc nD τ sig) → Buf (Elt F) ℓ) (hR : ∀ c : Dev nD, Cert.EdgeLengths.InRange (m ((c.tc : Thread nD τ).loc main_arg1))) (c : Dev nD) : Valuation τ sig (Elt F) := V3 m (outs m hR) c
abbrev VX1 (m : (ℓ : Loc nD τ sig) → Buf (Elt F) ℓ) (hR : ∀ c : Dev nD, Cert.EdgeLengths.InRange (m ((c.tc : Thread nD τ).loc main_arg1))) (c : Dev nD) : Valuation τ sig (Elt F) := V4 m (outs m hR) c
/-- The buffers as region 2 finds them, and as it leaves them. -/
abbrev VE2 (m : (ℓ : Loc nD τ sig) → Buf (Elt F) ℓ) (hR : ∀ c : Dev nD, Cert.EdgeLengths.InRange (m ((c.tc : Thread nD τ).loc main_arg1))) (c : Dev nD) : Valuation τ sig (Elt F) := V5 m (outs m hR) c
abbrev VX2 (m : (ℓ : Loc nD τ sig) → Buf (Elt F) ℓ) (hR : ∀ c : Dev nD, Cert.EdgeLengths.InRange (m ((c.tc : Thread nD τ).loc main_arg1))) (c : Dev nD) : Valuation τ sig (Elt F) := V6 m (outs m hR) c
/-- The buffers as region 3 finds them, and as it leaves them. -/
abbrev VE3 (m : (ℓ : Loc nD τ sig) → Buf (Elt F) ℓ) (hR : ∀ c : Dev nD, Cert.EdgeLengths.InRange (m ((c.tc : Thread nD τ).loc main_arg1))) (c : Dev nD) : Valuation τ sig (Elt F) := V7 m (outs m hR) c
abbrev VX3 (m : (ℓ : Loc nD τ sig) → Buf (Elt F) ℓ) (hR : ∀ c : Dev nD, Cert.EdgeLengths.InRange (m ((c.tc : Thread nD τ).loc main_arg1))) (c : Dev nD) : Valuation τ sig (Elt F) := V8 m (outs m hR) c
/-- The buffers as region 4 finds them, and as it leaves them. -/
abbrev VE4 (m : (ℓ : Loc nD τ sig) → Buf (Elt F) ℓ) (hR : ∀ c : Dev nD, Cert.EdgeLengths.InRange (m ((c.tc : Thread nD τ).loc main_arg1))) (c : Dev nD) : Valuation τ sig (Elt F) := V9 m (outs m hR) c
abbrev VX4 (m : (ℓ : Loc nD τ sig) → Buf (Elt F) ℓ) (hR : ∀ c : Dev nD, Cert.EdgeLengths.InRange (m ((c.tc : Thread nD τ).loc main_arg1))) (c : Dev nD) : Valuation τ sig (Elt F) := V10 m (outs m hR) c
/-- The buffers as region 5 finds them, and as it leaves them. -/
abbrev VE5 (m : (ℓ : Loc nD τ sig) → Buf (Elt F) ℓ) (hR : ∀ c : Dev nD, Cert.EdgeLengths.InRange (m ((c.tc : Thread nD τ).loc main_arg1))) (c : Dev nD) : Valuation τ sig (Elt F) := V11 m (outs m hR) c
abbrev VX5 (m : (ℓ : Loc nD τ sig) → Buf (Elt F) ℓ) (hR : ∀ c : Dev nD, Cert.EdgeLengths.InRange (m ((c.tc : Thread nD τ).loc main_arg1))) (c : Dev nD) : Valuation τ sig (Elt F) := V12 m (outs m hR) c
/-- The buffers as region 6 finds them, and as it leaves them. -/
abbrev VE6 (m : (ℓ : Loc nD τ sig) → Buf (Elt F) ℓ) (hR : ∀ c : Dev nD, Cert.EdgeLengths.InRange (m ((c.tc : Thread nD τ).loc main_arg1))) (c : Dev nD) : Valuation τ sig (Elt F) := V13 m (outs m hR) c
abbrev VX6 (m : (ℓ : Loc nD τ sig) → Buf (Elt F) ℓ) (hR : ∀ c : Dev nD, Cert.EdgeLengths.InRange (m ((c.tc : Thread nD τ).loc main_arg1))) (c : Dev nD) : Valuation τ sig (Elt F) := V14 m (outs m hR) c
/-- The buffers as region 7 finds them, and as it leaves them. -/
abbrev VE7 (m : (ℓ : Loc nD τ sig) → Buf (Elt F) ℓ) (hR : ∀ c : Dev nD, Cert.EdgeLengths.InRange (m ((c.tc : Thread nD τ).loc main_arg1))) (c : Dev nD) : Valuation τ sig (Elt F) := V15 m (outs m hR) c
abbrev VX7 (m : (ℓ : Loc nD τ sig) → Buf (Elt F) ℓ) (hR : ∀ c : Dev nD, Cert.EdgeLengths.InRange (m ((c.tc : Thread nD τ).loc main_arg1))) (c : Dev nD) : Valuation τ sig (Elt F) := V16 m (outs m hR) c
/-- The buffers as region 8 finds them, and as it leaves them. -/
abbrev VE8 (m : (ℓ : Loc nD τ sig) → Buf (Elt F) ℓ) (hR : ∀ c : Dev nD, Cert.EdgeLengths.InRange (m ((c.tc : Thread nD τ).loc main_arg1))) (c : Dev nD) : Valuation τ sig (Elt F) := V17 m (outs m hR) c
abbrev VX8 (m : (ℓ : Loc nD τ sig) → Buf (Elt F) ℓ) (hR : ∀ c : Dev nD, Cert.EdgeLengths.InRange (m ((c.tc : Thread nD τ).loc main_arg1))) (c : Dev nD) : Valuation τ sig (Elt F) := V18 m (outs m hR) c
/-- The buffers as region 9 finds them, and as it leaves them. -/
abbrev VE9 (m : (ℓ : Loc nD τ sig) → Buf (Elt F) ℓ) (hR : ∀ c : Dev nD, Cert.EdgeLengths.InRange (m ((c.tc : Thread nD τ).loc main_arg1))) (c : Dev nD) : Valuation τ sig (Elt F) := V19 m (outs m hR) c
abbrev VX9 (m : (ℓ : Loc nD τ sig) → Buf (Elt F) ℓ) (hR : ∀ c : Dev nD, Cert.EdgeLengths.InRange (m ((c.tc : Thread nD τ).loc main_arg1))) (c : Dev nD) : Valuation τ sig (Elt F) := V20 m (outs m hR) c
/-- The buffers as region 10 finds them, and as it leaves them. -/
abbrev VE10 (m : (ℓ : Loc nD τ sig) → Buf (Elt F) ℓ) (hR : ∀ c : Dev nD, Cert.EdgeLengths.InRange (m ((c.tc : Thread nD τ).loc main_arg1))) (c : Dev nD) : Valuation τ sig (Elt F) := V21 m (outs m hR) c
abbrev VX10 (m : (ℓ : Loc nD τ sig) → Buf (Elt F) ℓ) (hR : ∀ c : Dev nD, Cert.EdgeLengths.InRange (m ((c.tc : Thread nD τ).loc main_arg1))) (c : Dev nD) : Valuation τ sig (Elt F) := V22 m (outs m hR) c
/-- The buffers as region 11 finds them, and as it leaves them. -/
abbrev VE11 (m : (ℓ : Loc nD τ sig) → Buf (Elt F) ℓ) (hR : ∀ c : Dev nD, Cert.EdgeLengths.InRange (m ((c.tc : Thread nD τ).loc main_arg1))) (c : Dev nD) : Valuation τ sig (Elt F) := V23 m (outs m hR) c
abbrev VX11 (m : (ℓ : Loc nD τ sig) → Buf (Elt F) ℓ) (hR : ∀ c : Dev nD, Cert.EdgeLengths.InRange (m ((c.tc : Thread nD τ).loc main_arg1))) (c : Dev nD) : Valuation τ sig (Elt F) := V24 m (outs m hR) c
/-- The buffers as region 12 finds them, and as it leaves them. -/
abbrev VE12 (m : (ℓ : Loc nD τ sig) → Buf (Elt F) ℓ) (hR : ∀ c : Dev nD, Cert.EdgeLengths.InRange (m ((c.tc : Thread nD τ).loc main_arg1))) (c : Dev nD) : Valuation τ sig (Elt F) := V25 m (outs m hR) c
abbrev VX12 (m : (ℓ : Loc nD τ sig) → Buf (Elt F) ℓ) (hR : ∀ c : Dev nD, Cert.EdgeLengths.InRange (m ((c.tc : Thread nD τ).loc main_arg1))) (c : Dev nD) : Valuation τ sig (Elt F) := V26 m (outs m hR) c
/-- The buffers as region 13 finds them, and as it leaves them. -/
abbrev VE13 (m : (ℓ : Loc nD τ sig) → Buf (Elt F) ℓ) (hR : ∀ c : Dev nD, Cert.EdgeLengths.InRange (m ((c.tc : Thread nD τ).loc main_arg1))) (c : Dev nD) : Valuation τ sig (Elt F) := V27 m (outs m hR) c
abbrev VX13 (m : (ℓ : Loc nD τ sig) → Buf (Elt F) ℓ) (hR : ∀ c : Dev nD, Cert.EdgeLengths.InRange (m ((c.tc : Thread nD τ).loc main_arg1))) (c : Dev nD) : Valuation τ sig (Elt F) := V28 m (outs m hR) c
/-- The buffers as region 14 finds them, and as it leaves them. -/
abbrev VE14 (m : (ℓ : Loc nD τ sig) → Buf (Elt F) ℓ) (hR : ∀ c : Dev nD, Cert.EdgeLengths.InRange (m ((c.tc : Thread nD τ).loc main_arg1))) (c : Dev nD) : Valuation τ sig (Elt F) := V29 m (outs m hR) c
abbrev VX14 (m : (ℓ : Loc nD τ sig) → Buf (Elt F) ℓ) (hR : ∀ c : Dev nD, Cert.EdgeLengths.InRange (m ((c.tc : Thread nD τ).loc main_arg1))) (c : Dev nD) : Valuation τ sig (Elt F) := V30 m (outs m hR) c
/-- The buffers as region 15 finds them, and as it leaves them. -/
abbrev VE15 (m : (ℓ : Loc nD τ sig) → Buf (Elt F) ℓ) (hR : ∀ c : Dev nD, Cert.EdgeLengths.InRange (m ((c.tc : Thread nD τ).loc main_arg1))) (c : Dev nD) : Valuation τ sig (Elt F) := V31 m (outs m hR) c
abbrev VX15 (m : (ℓ : Loc nD τ sig) → Buf (Elt F) ℓ) (hR : ∀ c : Dev nD, Cert.EdgeLengths.InRange (m ((c.tc : Thread nD τ).loc main_arg1))) (c : Dev nD) : Valuation τ sig (Elt F) := V32 m (outs m hR) c
/-- The buffers as region 16 finds them, and as it leaves them. -/
abbrev VE16 (m : (ℓ : Loc nD τ sig) → Buf (Elt F) ℓ) (hR : ∀ c : Dev nD, Cert.EdgeLengths.InRange (m ((c.tc : Thread nD τ).loc main_arg1))) (c : Dev nD) : Valuation τ sig (Elt F) := V33 m (outs m hR) c
abbrev VX16 (m : (ℓ : Loc nD τ sig) → Buf (Elt F) ℓ) (hR : ∀ c : Dev nD, Cert.EdgeLengths.InRange (m ((c.tc : Thread nD τ).loc main_arg1))) (c : Dev nD) : Valuation τ sig (Elt F) := V34 m (outs m hR) c
/-- The buffers as region 17 finds them, and as it leaves them. -/
abbrev VE17 (m : (ℓ : Loc nD τ sig) → Buf (Elt F) ℓ) (hR : ∀ c : Dev nD, Cert.EdgeLengths.InRange (m ((c.tc : Thread nD τ).loc main_arg1))) (c : Dev nD) : Valuation τ sig (Elt F) := V35 m (outs m hR) c
abbrev VX17 (m : (ℓ : Loc nD τ sig) → Buf (Elt F) ℓ) (hR : ∀ c : Dev nD, Cert.EdgeLengths.InRange (m ((c.tc : Thread nD τ).loc main_arg1))) (c : Dev nD) : Valuation τ sig (Elt F) := V36 m (outs m hR) c
/-- The buffers as region 18 finds them, and as it leaves them. -/
abbrev VE18 (m : (ℓ : Loc nD τ sig) → Buf (Elt F) ℓ) (hR : ∀ c : Dev nD, Cert.EdgeLengths.InRange (m ((c.tc : Thread nD τ).loc main_arg1))) (c : Dev nD) : Valuation τ sig (Elt F) := V37 m (outs m hR) c
abbrev VX18 (m : (ℓ : Loc nD τ sig) → Buf (Elt F) ℓ) (hR : ∀ c : Dev nD, Cert.EdgeLengths.InRange (m ((c.tc : Thread nD τ).loc main_arg1))) (c : Dev nD) : Valuation τ sig (Elt F) := V38 m (outs m hR) c
/-- The buffers as region 19 finds them, and as it leaves them. -/
abbrev VE19 (m : (ℓ : Loc nD τ sig) → Buf (Elt F) ℓ) (hR : ∀ c : Dev nD, Cert.EdgeLengths.InRange (m ((c.tc : Thread nD τ).loc main_arg1))) (c : Dev nD) : Valuation τ sig (Elt F) := V39 m (outs m hR) c
abbrev VX19 (m : (ℓ : Loc nD τ sig) → Buf (Elt F) ℓ) (hR : ∀ c : Dev nD, Cert.EdgeLengths.InRange (m ((c.tc : Thread nD τ).loc main_arg1))) (c : Dev nD) : Valuation τ sig (Elt F) := V40 m (outs m hR) c

end Cert.KernelIdeal.Gen

end
-- ==== Proof.KI.Cols.lean ====
/-
  The four columns of the vertex words. Before the first region column j (j = 0 … 3) of the [500000, 4] array of vertex
  words is cut out as a [500000, 1] slice and reshaped to a vector of 500000 words; no later item writes these four
  vectors. Entry p of column j is vertex word j of generator p. Table j of region K is the run of 25000 entries of
  column j that starts at entry 25000·K.
-/
import proofs.«401090_j62775241999084_2_alg».proof.Proof.RegionsKernelIdeal
import proofs.«401090_j62775241999084_2_alg».proof.Proof.KI.Tables
import Idealize.ShloMosaic.Lib.StableHlo.Run
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

/-- A width-one slice at column j of a [500000, 4] array, reshaped to a vector, read at p: the array at (p, j). The
    reshape keeps the row-major position p·1 + 0 = p; the slice shifts the column by j. -/
theorem col_read (x : S500000x4.Idx → BitVec 32) (j : Fin 4) (hs : S500000x4.Slices ![0, j.val] S500000x1)
    (hc : S500000x1.ShapeCasts S500000) (p : Fin 500000) :
    shapeCast S500000 (extractStridedSlice S500000x1 ![0, j.val] x hs) hc (ValueIdx.ix1 p) = x (ValueIdx.ix2 p j) := by
  refine (shapeCast_apply _ hc (ValueIdx.ix1 p) (ValueIdx.ix2 p (0 : Fin 1)) ?_).trans ?_
  · show (S500000x1.rowMajor (ValueIdx.ix2 p (0 : Fin 1))).val = (S500000.rowMajor (ValueIdx.ix1 p)).val
    rw [Shape.rowMajor_val_two, Shape.rowMajor_val_one]
    show p.val * 1 + 0 = p.val
    omega
  · exact extractStridedSlice_apply _ x hs (ValueIdx.ix2 p (0 : Fin 1)) (ValueIdx.ix2 p j) (fun a =>
      match a with
      | ⟨0, _⟩ => by show p.val = 0 + p.val; omega
      | ⟨1, _⟩ => by show j.val = j.val + 0; omega)

variable (m : (ℓ : Loc nD τ sig) → Buf (Elt F) ℓ)

/-- Column 0 of the vertex words as the first host stretch leaves it: a slice of width one, reshaped to a vector. -/
theorem col0_eq (c : Dev nD) :
    (V1 m c main_v1 : S500000.Idx → BitVec 32)
      = shapeCast S500000
          (extractStridedSlice S500000x1 ![0, 0] (m ((c.tc : Thread nD τ).loc main_arg1) : S500000x4.Idx → BitVec 32)
            slices_S500000x4_S500000x1_0_0)
          shapeCasts_S500000x1_S500000 := by
  show StableHlo.after hostOps0 _ (Proc.devRef .tc main_v1) = _
  after_results
  rfl

/-- Entry p of column 0 is vertex word 0 of generator p. -/
theorem col0_apply (c : Dev nD) (p : Fin 500000) :
    (V1 m c main_v1 : S500000.Idx → BitVec 32) (ValueIdx.ix1 p)
      = (m ((c.tc : Thread nD τ).loc main_arg1) : S500000x4.Idx → BitVec 32) (ValueIdx.ix2 p 0) := by
  rw [col0_eq]
  exact col_read _ 0 _ _ p

/-- Column 1 of the vertex words as the first host stretch leaves it: a slice of width one, reshaped to a vector. -/
theorem col1_eq (c : Dev nD) :
    (V1 m c main_v3 : S500000.Idx → BitVec 32)
      = shapeCast S500000
          (extractStridedSlice S500000x1 ![0, 1] (m ((c.tc : Thread nD τ).loc main_arg1) : S500000x4.Idx → BitVec 32)
            slices_S500000x4_S500000x1_0_1)
          shapeCasts_S500000x1_S500000 := by
  show StableHlo.after hostOps0 _ (Proc.devRef .tc main_v3) = _
  after_results
  rfl

/-- Entry p of column 1 is vertex word 1 of generator p. -/
theorem col1_apply (c : Dev nD) (p : Fin 500000) :
    (V1 m c main_v3 : S500000.Idx → BitVec 32) (ValueIdx.ix1 p)
      = (m ((c.tc : Thread nD τ).loc main_arg1) : S500000x4.Idx → BitVec 32) (ValueIdx.ix2 p 1) := by
  rw [col1_eq]
  exact col_read _ 1 _ _ p

/-- Column 2 of the vertex words as the first host stretch leaves it: a slice of width one, reshaped to a vector. -/
theorem col2_eq (c : Dev nD) :
    (V1 m c main_v5 : S500000.Idx → BitVec 32)
      = shapeCast S500000
          (extractStridedSlice S500000x1 ![0, 2] (m ((c.tc : Thread nD τ).loc main_arg1) : S500000x4.Idx → BitVec 32)
            slices_S500000x4_S500000x1_0_2)
          shapeCasts_S500000x1_S500000 := by
  show StableHlo.after hostOps0 _ (Proc.devRef .tc main_v5) = _
  after_results
  rfl

/-- Entry p of column 2 is vertex word 2 of generator p. -/
theorem col2_apply (c : Dev nD) (p : Fin 500000) :
    (V1 m c main_v5 : S500000.Idx → BitVec 32) (ValueIdx.ix1 p)
      = (m ((c.tc : Thread nD τ).loc main_arg1) : S500000x4.Idx → BitVec 32) (ValueIdx.ix2 p 2) := by
  rw [col2_eq]
  exact col_read _ 2 _ _ p

/-- Column 3 of the vertex words as the first host stretch leaves it: a slice of width one, reshaped to a vector. -/
theorem col3_eq (c : Dev nD) :
    (V1 m c main_v7 : S500000.Idx → BitVec 32)
      = shapeCast S500000
          (extractStridedSlice S500000x1 ![0, 3] (m ((c.tc : Thread nD τ).loc main_arg1) : S500000x4.Idx → BitVec 32)
            slices_S500000x4_S500000x1_0_3)
          shapeCasts_S500000x1_S500000 := by
  show StableHlo.after hostOps0 _ (Proc.devRef .tc main_v7) = _
  after_results
  rfl

/-- Entry p of column 3 is vertex word 3 of generator p. -/
theorem col3_apply (c : Dev nD) (p : Fin 500000) :
    (V1 m c main_v7 : S500000.Idx → BitVec 32) (ValueIdx.ix1 p)
      = (m ((c.tc : Thread nD τ).loc main_arg1) : S500000x4.Idx → BitVec 32) (ValueIdx.ix2 p 3) := by
  rw [col3_eq]
  exact col_read _ 3 _ _ p

/-- The run of 25000 entries of column j that starts at 25000·K is table j of region K: entry i of the run is entry
    25000·K + i of the column, vertex word j of generator 25000·K + i. -/
theorem tbl_of_col (c : Dev nD) (K : Fin 20) (j : Fin 4) (col : S500000.Idx → BitVec 32)
    (hcol : ∀ p : Fin 500000, col (ValueIdx.ix1 p)
      = (m ((c.tc : Thread nD τ).loc main_arg1) : S500000x4.Idx → BitVec 32) (ValueIdx.ix2 p j))
    (off : ℕ) (hoff : off = 25000 * K.val) (hs : S500000.Slices ![off] S25000) :
    extractStridedSlice S25000 ![off] col hs = tbl m c K j := by
  funext i
  refine (extractStridedSlice_apply _ col hs i (ValueIdx.ix1 (genOf K (i 0))) (fun a =>
    match a with
    | ⟨0, _⟩ => by show 25000 * K.val + (i 0).val = off + (i 0).val; omega)).trans ?_
  exact hcol _

end Cert.KernelIdeal.Gen

end
-- ==== Proof.KI.Entry0.lean ====
/-
  What region 0 finds when it is entered: only the first host stretch has run. That stretch reshapes the point table,
  cuts the four columns of the vertex words and, out of each column, entries 0 … 24999: region 0's four index tables,
  the vertex words of generators 0 … 24999. It does not write region 0's output array, which still holds its launch
  contents.
-/
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left: region 0 is entered right after it. -/
theorem entry_xtab0 (c : Dev nD) : V1 m c main_v8 = V1 m c main_v8 := rfl

/-- The first host stretch does not write the output array: it still holds its launch contents. -/
theorem entry_out0 (c : Dev nD) : V1 m c main_v13 = V0 m c main_v13 :=
  V1_of m c main_v13 (by decide)

/-- Table 0 holds vertex word 0 of generators 0 … 24999. -/
theorem entry_tbl0_0 (c : Dev nD) : (V1 m c main_v9 : S25000.Idx → BitVec 32) = tbl m c (0 : Fin 20) 0 := by
  have cut : (V1 m c main_v9 : S25000.Idx → BitVec 32)
      = extractStridedSlice S25000 ![0] (V1 m c main_v1 : S500000.Idx → BitVec 32) slices_S500000_S25000_0 := by
    rw [col0_eq]
    show StableHlo.after hostOps0 _ (Proc.devRef .tc main_v9) = _
    after_results
    rfl
  rw [cut]
  exact tbl_of_col m c (0 : Fin 20) 0 _ (col0_apply m c) 0 (by decide) _

/-- Table 1 holds vertex word 1 of generators 0 … 24999. -/
theorem entry_tbl0_1 (c : Dev nD) : (V1 m c main_v10 : S25000.Idx → BitVec 32) = tbl m c (0 : Fin 20) 1 := by
  have cut : (V1 m c main_v10 : S25000.Idx → BitVec 32)
      = extractStridedSlice S25000 ![0] (V1 m c main_v3 : S500000.Idx → BitVec 32) slices_S500000_S25000_0 := by
    rw [col1_eq]
    show StableHlo.after hostOps0 _ (Proc.devRef .tc main_v10) = _
    after_results
    rfl
  rw [cut]
  exact tbl_of_col m c (0 : Fin 20) 1 _ (col1_apply m c) 0 (by decide) _

/-- Table 2 holds vertex word 2 of generators 0 … 24999. -/
theorem entry_tbl0_2 (c : Dev nD) : (V1 m c main_v11 : S25000.Idx → BitVec 32) = tbl m c (0 : Fin 20) 2 := by
  have cut : (V1 m c main_v11 : S25000.Idx → BitVec 32)
      = extractStridedSlice S25000 ![0] (V1 m c main_v5 : S500000.Idx → BitVec 32) slices_S500000_S25000_0 := by
    rw [col2_eq]
    show StableHlo.after hostOps0 _ (Proc.devRef .tc main_v11) = _
    after_results
    rfl
  rw [cut]
  exact tbl_of_col m c (0 : Fin 20) 2 _ (col2_apply m c) 0 (by decide) _

/-- Table 3 holds vertex word 3 of generators 0 … 24999. -/
theorem entry_tbl0_3 (c : Dev nD) : (V1 m c main_v12 : S25000.Idx → BitVec 32) = tbl m c (0 : Fin 20) 3 := by
  have cut : (V1 m c main_v12 : S25000.Idx → BitVec 32)
      = extractStridedSlice S25000 ![0] (V1 m c main_v7 : S500000.Idx → BitVec 32) slices_S500000_S25000_0 := by
    rw [col3_eq]
    show StableHlo.after hostOps0 _ (Proc.devRef .tc main_v12) = _
    after_results
    rfl
  rw [cut]
  exact tbl_of_col m c (0 : Fin 20) 3 _ (col3_apply m c) 0 (by decide) _

end Cert.KernelIdeal.Gen

end
-- ==== Proof.KI.Keep.lean ====
/-
  After the first host stretch every item of the program writes only arrays of its own: a region writes its output
  array, and the host stretch before a region writes that region's four index tables (the last stretch writes the
  assembled result). So an array that none of the items up to some point writes holds, at that point, what the first
  host stretch left in it. The tactic below walks a valuation back item by item, for one named array.
-/
import proofs.«401090_j62775241999084_2_alg».proof.Proof.RegionsKernelIdeal

namespace Cert.KernelIdeal.Gen

open Idealize.ShloMosaic

/-- `unwritten m outs c r`: in the goal, the contents of array `r` after an item become its contents before that item,
    for every item (latest first) that does not write `r`, down to the valuation the first host stretch leaves. It stops
    at the first item that writes `r`. Whether an item writes `r` is decided on the item's list of written arrays. -/
macro "unwritten " m:term:max ppSpace outs:term:max ppSpace c:term:max ppSpace r:term:max : tactic => `(tactic| (
  try rw [V41_of $m $outs $c $r (by decide)]
  try rw [V40_of $m $outs $c $r (by decide)]
  try rw [V39_of $m $outs $c $r (by decide)]
  try rw [V38_of $m $outs $c $r (by decide)]
  try rw [V37_of $m $outs $c $r (by decide)]
  try rw [V36_of $m $outs $c $r (by decide)]
  try rw [V35_of $m $outs $c $r (by decide)]
  try rw [V34_of $m $outs $c $r (by decide)]
  try rw [V33_of $m $outs $c $r (by decide)]
  try rw [V32_of $m $outs $c $r (by decide)]
  try rw [V31_of $m $outs $c $r (by decide)]
  try rw [V30_of $m $outs $c $r (by decide)]
  try rw [V29_of $m $outs $c $r (by decide)]
  try rw [V28_of $m $outs $c $r (by decide)]
  try rw [V27_of $m $outs $c $r (by decide)]
  try rw [V26_of $m $outs $c $r (by decide)]
  try rw [V25_of $m $outs $c $r (by decide)]
  try rw [V24_of $m $outs $c $r (by decide)]
  try rw [V23_of $m $outs $c $r (by decide)]
  try rw [V22_of $m $outs $c $r (by decide)]
  try rw [V21_of $m $outs $c $r (by decide)]
  try rw [V20_of $m $outs $c $r (by decide)]
  try rw [V19_of $m $outs $c $r (by decide)]
  try rw [V18_of $m $outs $c $r (by decide)]
  try rw [V17_of $m $outs $c $r (by decide)]
  try rw [V16_of $m $outs $c $r (by decide)]
  try rw [V15_of $m $outs $c $r (by decide)]
  try rw [V14_of $m $outs $c $r (by decide)]
  try rw [V13_of $m $outs $c $r (by decide)]
  try rw [V12_of $m $outs $c $r (by decide)]
  try rw [V11_of $m $outs $c $r (by decide)]
  try rw [V10_of $m $outs $c $r (by decide)]
  try rw [V9_of $m $outs $c $r (by decide)]
  try rw [V8_of $m $outs $c $r (by decide)]
  try rw [V7_of $m $outs $c $r (by decide)]
  try rw [V6_of $m $outs $c $r (by decide)]
  try rw [V5_of $m $outs $c $r (by decide)]
  try rw [V4_of $m $outs $c $r (by decide)]
  try rw [V3_of $m $outs $c $r (by decide)]
  try rw [V2_of $m $outs $c $r (by decide)]))

end Cert.KernelIdeal.Gen
-- ==== Proof.KI.Entry1.lean ====
/-
  What region 1 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab1 (c : Dev nD) : V3 m outs c main_v8 = V1 m c main_v8 := by
  unwritten m outs c main_v8

/-- The output array still holds what it held after the first host stretch. -/
theorem entry_out1 (c : Dev nD) : V3 m outs c main_v18 = V1 m c main_v18 := by
  unwritten m outs c main_v18

/-- Table 0 holds vertex word 0 of this region's generators. -/
theorem entry_tbl1_0 (c : Dev nD) : (V3 m outs c main_v14 : S25000.Idx → BitVec 32) = tbl m c (1 : Fin 20) 0 := by
  have cut : (V3 m outs c main_v14 : S25000.Idx → BitVec 32)
      = extractStridedSlice S25000 ![25000] (V2 m outs c main_v1 : S500000.Idx → BitVec 32) slices_S500000_S25000_25000 := by
    show StableHlo.after hostOps1 _ (Proc.devRef .tc main_v14) = _
    after_results
  have col : V2 m outs c main_v1 = V1 m c main_v1 := by
    unwritten m outs c main_v1
  rw [cut, col]
  exact tbl_of_col m c (1 : Fin 20) 0 _ (col0_apply m c) 25000 (by decide) _

/-- Table 1 holds vertex word 1 of this region's generators. -/
theorem entry_tbl1_1 (c : Dev nD) : (V3 m outs c main_v15 : S25000.Idx → BitVec 32) = tbl m c (1 : Fin 20) 1 := by
  have cut : (V3 m outs c main_v15 : S25000.Idx → BitVec 32)
      = extractStridedSlice S25000 ![25000] (V2 m outs c main_v3 : S500000.Idx → BitVec 32) slices_S500000_S25000_25000 := by
    show StableHlo.after hostOps1 _ (Proc.devRef .tc main_v15) = _
    after_results
  have col : V2 m outs c main_v3 = V1 m c main_v3 := by
    unwritten m outs c main_v3
  rw [cut, col]
  exact tbl_of_col m c (1 : Fin 20) 1 _ (col1_apply m c) 25000 (by decide) _

/-- Table 2 holds vertex word 2 of this region's generators. -/
theorem entry_tbl1_2 (c : Dev nD) : (V3 m outs c main_v16 : S25000.Idx → BitVec 32) = tbl m c (1 : Fin 20) 2 := by
  have cut : (V3 m outs c main_v16 : S25000.Idx → BitVec 32)
      = extractStridedSlice S25000 ![25000] (V2 m outs c main_v5 : S500000.Idx → BitVec 32) slices_S500000_S25000_25000 := by
    show StableHlo.after hostOps1 _ (Proc.devRef .tc main_v16) = _
    after_results
  have col : V2 m outs c main_v5 = V1 m c main_v5 := by
    unwritten m outs c main_v5
  rw [cut, col]
  exact tbl_of_col m c (1 : Fin 20) 2 _ (col2_apply m c) 25000 (by decide) _

/-- Table 3 holds vertex word 3 of this region's generators. -/
theorem entry_tbl1_3 (c : Dev nD) : (V3 m outs c main_v17 : S25000.Idx → BitVec 32) = tbl m c (1 : Fin 20) 3 := by
  have cut : (V3 m outs c main_v17 : S25000.Idx → BitVec 32)
      = extractStridedSlice S25000 ![25000] (V2 m outs c main_v7 : S500000.Idx → BitVec 32) slices_S500000_S25000_25000 := by
    show StableHlo.after hostOps1 _ (Proc.devRef .tc main_v17) = _
    after_results
  have col : V2 m outs c main_v7 = V1 m c main_v7 := by
    unwritten m outs c main_v7
  rw [cut, col]
  exact tbl_of_col m c (1 : Fin 20) 3 _ (col3_apply m c) 25000 (by decide) _

end Cert.KernelIdeal.Gen

end
-- ==== Proof.KI.Entry2.lean ====
/-
  What region 2 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab2 (c : Dev nD) : V5 m outs c main_v8 = V1 m c main_v8 := by
  unwritten m outs c main_v8

/-- The output array still holds what it held after the first host stretch. -/
theorem entry_out2 (c : Dev nD) : V5 m outs c main_v23 = V1 m c main_v23 := by
  unwritten m outs c main_v23

/-- Table 0 holds vertex word 0 of this region's generators. -/
theorem entry_tbl2_0 (c : Dev nD) : (V5 m outs c main_v19 : S25000.Idx → BitVec 32) = tbl m c (2 : Fin 20) 0 := by
  have cut : (V5 m outs c main_v19 : S25000.Idx → BitVec 32)
      = extractStridedSlice S25000 ![50000] (V4 m outs c main_v1 : S500000.Idx → BitVec 32) slices_S500000_S25000_50000 := by
    show StableHlo.after hostOps2 _ (Proc.devRef .tc main_v19) = _
    after_results
  have col : V4 m outs c main_v1 = V1 m c main_v1 := by
    unwritten m outs c main_v1
  rw [cut, col]
  exact tbl_of_col m c (2 : Fin 20) 0 _ (col0_apply m c) 50000 (by decide) _

/-- Table 1 holds vertex word 1 of this region's generators. -/
theorem entry_tbl2_1 (c : Dev nD) : (V5 m outs c main_v20 : S25000.Idx → BitVec 32) = tbl m c (2 : Fin 20) 1 := by
  have cut : (V5 m outs c main_v20 : S25000.Idx → BitVec 32)
      = extractStridedSlice S25000 ![50000] (V4 m outs c main_v3 : S500000.Idx → BitVec 32) slices_S500000_S25000_50000 := by
    show StableHlo.after hostOps2 _ (Proc.devRef .tc main_v20) = _
    after_results
  have col : V4 m outs c main_v3 = V1 m c main_v3 := by
    unwritten m outs c main_v3
  rw [cut, col]
  exact tbl_of_col m c (2 : Fin 20) 1 _ (col1_apply m c) 50000 (by decide) _

/-- Table 2 holds vertex word 2 of this region's generators. -/
theorem entry_tbl2_2 (c : Dev nD) : (V5 m outs c main_v21 : S25000.Idx → BitVec 32) = tbl m c (2 : Fin 20) 2 := by
  have cut : (V5 m outs c main_v21 : S25000.Idx → BitVec 32)
      = extractStridedSlice S25000 ![50000] (V4 m outs c main_v5 : S500000.Idx → BitVec 32) slices_S500000_S25000_50000 := by
    show StableHlo.after hostOps2 _ (Proc.devRef .tc main_v21) = _
    after_results
  have col : V4 m outs c main_v5 = V1 m c main_v5 := by
    unwritten m outs c main_v5
  rw [cut, col]
  exact tbl_of_col m c (2 : Fin 20) 2 _ (col2_apply m c) 50000 (by decide) _

/-- Table 3 holds vertex word 3 of this region's generators. -/
theorem entry_tbl2_3 (c : Dev nD) : (V5 m outs c main_v22 : S25000.Idx → BitVec 32) = tbl m c (2 : Fin 20) 3 := by
  have cut : (V5 m outs c main_v22 : S25000.Idx → BitVec 32)
      = extractStridedSlice S25000 ![50000] (V4 m outs c main_v7 : S500000.Idx → BitVec 32) slices_S500000_S25000_50000 := by
    show StableHlo.after hostOps2 _ (Proc.devRef .tc main_v22) = _
    after_results
  have col : V4 m outs c main_v7 = V1 m c main_v7 := by
    unwritten m outs c main_v7
  rw [cut, col]
  exact tbl_of_col m c (2 : Fin 20) 3 _ (col3_apply m c) 50000 (by decide) _

end Cert.KernelIdeal.Gen

end
-- ==== Proof.KI.Entry3.lean ====
/-
  What region 3 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab3 (c : Dev nD) : V7 m outs c main_v8 = V1 m c main_v8 := by
  unwritten m outs c main_v8

/-- The output array still holds what it held after the first host stretch. -/
theorem entry_out3 (c : Dev nD) : V7 m outs c main_v28 = V1 m c main_v28 := by
  unwritten m outs c main_v28

/-- Table 0 holds vertex word 0 of this region's generators. -/
theorem entry_tbl3_0 (c : Dev nD) : (V7 m outs c main_v24 : S25000.Idx → BitVec 32) = tbl m c (3 : Fin 20) 0 := by
  have cut : (V7 m outs c main_v24 : S25000.Idx → BitVec 32)
      = extractStridedSlice S25000 ![75000] (V6 m outs c main_v1 : S500000.Idx → BitVec 32) slices_S500000_S25000_75000 := by
    show StableHlo.after hostOps3 _ (Proc.devRef .tc main_v24) = _
    after_results
  have col : V6 m outs c main_v1 = V1 m c main_v1 := by
    unwritten m outs c main_v1
  rw [cut, col]
  exact tbl_of_col m c (3 : Fin 20) 0 _ (col0_apply m c) 75000 (by decide) _

/-- Table 1 holds vertex word 1 of this region's generators. -/
theorem entry_tbl3_1 (c : Dev nD) : (V7 m outs c main_v25 : S25000.Idx → BitVec 32) = tbl m c (3 : Fin 20) 1 := by
  have cut : (V7 m outs c main_v25 : S25000.Idx → BitVec 32)
      = extractStridedSlice S25000 ![75000] (V6 m outs c main_v3 : S500000.Idx → BitVec 32) slices_S500000_S25000_75000 := by
    show StableHlo.after hostOps3 _ (Proc.devRef .tc main_v25) = _
    after_results
  have col : V6 m outs c main_v3 = V1 m c main_v3 := by
    unwritten m outs c main_v3
  rw [cut, col]
  exact tbl_of_col m c (3 : Fin 20) 1 _ (col1_apply m c) 75000 (by decide) _

/-- Table 2 holds vertex word 2 of this region's generators. -/
theorem entry_tbl3_2 (c : Dev nD) : (V7 m outs c main_v26 : S25000.Idx → BitVec 32) = tbl m c (3 : Fin 20) 2 := by
  have cut : (V7 m outs c main_v26 : S25000.Idx → BitVec 32)
      = extractStridedSlice S25000 ![75000] (V6 m outs c main_v5 : S500000.Idx → BitVec 32) slices_S500000_S25000_75000 := by
    show StableHlo.after hostOps3 _ (Proc.devRef .tc main_v26) = _
    after_results
  have col : V6 m outs c main_v5 = V1 m c main_v5 := by
    unwritten m outs c main_v5
  rw [cut, col]
  exact tbl_of_col m c (3 : Fin 20) 2 _ (col2_apply m c) 75000 (by decide) _

/-- Table 3 holds vertex word 3 of this region's generators. -/
theorem entry_tbl3_3 (c : Dev nD) : (V7 m outs c main_v27 : S25000.Idx → BitVec 32) = tbl m c (3 : Fin 20) 3 := by
  have cut : (V7 m outs c main_v27 : S25000.Idx → BitVec 32)
      = extractStridedSlice S25000 ![75000] (V6 m outs c main_v7 : S500000.Idx → BitVec 32) slices_S500000_S25000_75000 := by
    show StableHlo.after hostOps3 _ (Proc.devRef .tc main_v27) = _
    after_results
  have col : V6 m outs c main_v7 = V1 m c main_v7 := by
    unwritten m outs c main_v7
  rw [cut, col]
  exact tbl_of_col m c (3 : Fin 20) 3 _ (col3_apply m c) 75000 (by decide) _

end Cert.KernelIdeal.Gen

end
-- ==== Proof.KI.Entry4.lean ====
/-
  What region 4 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab4 (c : Dev nD) : V9 m outs c main_v8 = V1 m c main_v8 := by
  unwritten m outs c main_v8

/-- The output array still holds what it held after the first host stretch. -/
theorem entry_out4 (c : Dev nD) : V9 m outs c main_v33 = V1 m c main_v33 := by
  unwritten m outs c main_v33

/-- Table 0 holds vertex word 0 of this region's generators. -/
theorem entry_tbl4_0 (c : Dev nD) : (V9 m outs c main_v29 : S25000.Idx → BitVec 32) = tbl m c (4 : Fin 20) 0 := by
  have cut : (V9 m outs c main_v29 : S25000.Idx → BitVec 32)
      = extractStridedSlice S25000 ![100000] (V8 m outs c main_v1 : S500000.Idx → BitVec 32) slices_S500000_S25000_100000 := by
    show StableHlo.after hostOps4 _ (Proc.devRef .tc main_v29) = _
    after_results
  have col : V8 m outs c main_v1 = V1 m c main_v1 := by
    unwritten m outs c main_v1
  rw [cut, col]
  exact tbl_of_col m c (4 : Fin 20) 0 _ (col0_apply m c) 100000 (by decide) _

/-- Table 1 holds vertex word 1 of this region's generators. -/
theorem entry_tbl4_1 (c : Dev nD) : (V9 m outs c main_v30 : S25000.Idx → BitVec 32) = tbl m c (4 : Fin 20) 1 := by
  have cut : (V9 m outs c main_v30 : S25000.Idx → BitVec 32)
      = extractStridedSlice S25000 ![100000] (V8 m outs c main_v3 : S500000.Idx → BitVec 32) slices_S500000_S25000_100000 := by
    show StableHlo.after hostOps4 _ (Proc.devRef .tc main_v30) = _
    after_results
  have col : V8 m outs c main_v3 = V1 m c main_v3 := by
    unwritten m outs c main_v3
  rw [cut, col]
  exact tbl_of_col m c (4 : Fin 20) 1 _ (col1_apply m c) 100000 (by decide) _

/-- Table 2 holds vertex word 2 of this region's generators. -/
theorem entry_tbl4_2 (c : Dev nD) : (V9 m outs c main_v31 : S25000.Idx → BitVec 32) = tbl m c (4 : Fin 20) 2 := by
  have cut : (V9 m outs c main_v31 : S25000.Idx → BitVec 32)
      = extractStridedSlice S25000 ![100000] (V8 m outs c main_v5 : S500000.Idx → BitVec 32) slices_S500000_S25000_100000 := by
    show StableHlo.after hostOps4 _ (Proc.devRef .tc main_v31) = _
    after_results
  have col : V8 m outs c main_v5 = V1 m c main_v5 := by
    unwritten m outs c main_v5
  rw [cut, col]
  exact tbl_of_col m c (4 : Fin 20) 2 _ (col2_apply m c) 100000 (by decide) _

/-- Table 3 holds vertex word 3 of this region's generators. -/
theorem entry_tbl4_3 (c : Dev nD) : (V9 m outs c main_v32 : S25000.Idx → BitVec 32) = tbl m c (4 : Fin 20) 3 := by
  have cut : (V9 m outs c main_v32 : S25000.Idx → BitVec 32)
      = extractStridedSlice S25000 ![100000] (V8 m outs c main_v7 : S500000.Idx → BitVec 32) slices_S500000_S25000_100000 := by
    show StableHlo.after hostOps4 _ (Proc.devRef .tc main_v32) = _
    after_results
  have col : V8 m outs c main_v7 = V1 m c main_v7 := by
    unwritten m outs c main_v7
  rw [cut, col]
  exact tbl_of_col m c (4 : Fin 20) 3 _ (col3_apply m c) 100000 (by decide) _

end Cert.KernelIdeal.Gen

end
-- ==== Proof.KI.Entry5.lean ====
/-
  What region 5 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab5 (c : Dev nD) : V11 m outs c main_v8 = V1 m c main_v8 := by
  unwritten m outs c main_v8

/-- The output array still holds what it held after the first host stretch. -/
theorem entry_out5 (c : Dev nD) : V11 m outs c main_v38 = V1 m c main_v38 := by
  unwritten m outs c main_v38

/-- Table 0 holds vertex word 0 of this region's generators. -/
theorem entry_tbl5_0 (c : Dev nD) : (V11 m outs c main_v34 : S25000.Idx → BitVec 32) = tbl m c (5 : Fin 20) 0 := by
  have cut : (V11 m outs c main_v34 : S25000.Idx → BitVec 32)
      = extractStridedSlice S25000 ![125000] (V10 m outs c main_v1 : S500000.Idx → BitVec 32) slices_S500000_S25000_125000 := by
    show StableHlo.after hostOps5 _ (Proc.devRef .tc main_v34) = _
    after_results
  have col : V10 m outs c main_v1 = V1 m c main_v1 := by
    unwritten m outs c main_v1
  rw [cut, col]
  exact tbl_of_col m c (5 : Fin 20) 0 _ (col0_apply m c) 125000 (by decide) _

/-- Table 1 holds vertex word 1 of this region's generators. -/
theorem entry_tbl5_1 (c : Dev nD) : (V11 m outs c main_v35 : S25000.Idx → BitVec 32) = tbl m c (5 : Fin 20) 1 := by
  have cut : (V11 m outs c main_v35 : S25000.Idx → BitVec 32)
      = extractStridedSlice S25000 ![125000] (V10 m outs c main_v3 : S500000.Idx → BitVec 32) slices_S500000_S25000_125000 := by
    show StableHlo.after hostOps5 _ (Proc.devRef .tc main_v35) = _
    after_results
  have col : V10 m outs c main_v3 = V1 m c main_v3 := by
    unwritten m outs c main_v3
  rw [cut, col]
  exact tbl_of_col m c (5 : Fin 20) 1 _ (col1_apply m c) 125000 (by decide) _

/-- Table 2 holds vertex word 2 of this region's generators. -/
theorem entry_tbl5_2 (c : Dev nD) : (V11 m outs c main_v36 : S25000.Idx → BitVec 32) = tbl m c (5 : Fin 20) 2 := by
  have cut : (V11 m outs c main_v36 : S25000.Idx → BitVec 32)
      = extractStridedSlice S25000 ![125000] (V10 m outs c main_v5 : S500000.Idx → BitVec 32) slices_S500000_S25000_125000 := by
    show StableHlo.after hostOps5 _ (Proc.devRef .tc main_v36) = _
    after_results
  have col : V10 m outs c main_v5 = V1 m c main_v5 := by
    unwritten m outs c main_v5
  rw [cut, col]
  exact tbl_of_col m c (5 : Fin 20) 2 _ (col2_apply m c) 125000 (by decide) _

/-- Table 3 holds vertex word 3 of this region's generators. -/
theorem entry_tbl5_3 (c : Dev nD) : (V11 m outs c main_v37 : S25000.Idx → BitVec 32) = tbl m c (5 : Fin 20) 3 := by
  have cut : (V11 m outs c main_v37 : S25000.Idx → BitVec 32)
      = extractStridedSlice S25000 ![125000] (V10 m outs c main_v7 : S500000.Idx → BitVec 32) slices_S500000_S25000_125000 := by
    show StableHlo.after hostOps5 _ (Proc.devRef .tc main_v37) = _
    after_results
  have col : V10 m outs c main_v7 = V1 m c main_v7 := by
    unwritten m outs c main_v7
  rw [cut, col]
  exact tbl_of_col m c (5 : Fin 20) 3 _ (col3_apply m c) 125000 (by decide) _

end Cert.KernelIdeal.Gen

end
-- ==== Proof.KI.Entry6.lean ====
/-
  What region 6 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab6 (c : Dev nD) : V13 m outs c main_v8 = V1 m c main_v8 := by
  unwritten m outs c main_v8

/-- The output array still holds what it held after the first host stretch. -/
theorem entry_out6 (c : Dev nD) : V13 m outs c main_v43 = V1 m c main_v43 := by
  unwritten m outs c main_v43

/-- Table 0 holds vertex word 0 of this region's generators. -/
theorem entry_tbl6_0 (c : Dev nD) : (V13 m outs c main_v39 : S25000.Idx → BitVec 32) = tbl m c (6 : Fin 20) 0 := by
  have cut : (V13 m outs c main_v39 : S25000.Idx → BitVec 32)
      = extractStridedSlice S25000 ![150000] (V12 m outs c main_v1 : S500000.Idx → BitVec 32) slices_S500000_S25000_150000 := by
    show StableHlo.after hostOps6 _ (Proc.devRef .tc main_v39) = _
    after_results
  have col : V12 m outs c main_v1 = V1 m c main_v1 := by
    unwritten m outs c main_v1
  rw [cut, col]
  exact tbl_of_col m c (6 : Fin 20) 0 _ (col0_apply m c) 150000 (by decide) _

/-- Table 1 holds vertex word 1 of this region's generators. -/
theorem entry_tbl6_1 (c : Dev nD) : (V13 m outs c main_v40 : S25000.Idx → BitVec 32) = tbl m c (6 : Fin 20) 1 := by
  have cut : (V13 m outs c main_v40 : S25000.Idx → BitVec 32)
      = extractStridedSlice S25000 ![150000] (V12 m outs c main_v3 : S500000.Idx → BitVec 32) slices_S500000_S25000_150000 := by
    show StableHlo.after hostOps6 _ (Proc.devRef .tc main_v40) = _
    after_results
  have col : V12 m outs c main_v3 = V1 m c main_v3 := by
    unwritten m outs c main_v3
  rw [cut, col]
  exact tbl_of_col m c (6 : Fin 20) 1 _ (col1_apply m c) 150000 (by decide) _

/-- Table 2 holds vertex word 2 of this region's generators. -/
theorem entry_tbl6_2 (c : Dev nD) : (V13 m outs c main_v41 : S25000.Idx → BitVec 32) = tbl m c (6 : Fin 20) 2 := by
  have cut : (V13 m outs c main_v41 : S25000.Idx → BitVec 32)
      = extractStridedSlice S25000 ![150000] (V12 m outs c main_v5 : S500000.Idx → BitVec 32) slices_S500000_S25000_150000 := by
    show StableHlo.after hostOps6 _ (Proc.devRef .tc main_v41) = _
    after_results
  have col : V12 m outs c main_v5 = V1 m c main_v5 := by
    unwritten m outs c main_v5
  rw [cut, col]
  exact tbl_of_col m c (6 : Fin 20) 2 _ (col2_apply m c) 150000 (by decide) _

/-- Table 3 holds vertex word 3 of this region's generators. -/
theorem entry_tbl6_3 (c : Dev nD) : (V13 m outs c main_v42 : S25000.Idx → BitVec 32) = tbl m c (6 : Fin 20) 3 := by
  have cut : (V13 m outs c main_v42 : S25000.Idx → BitVec 32)
      = extractStridedSlice S25000 ![150000] (V12 m outs c main_v7 : S500000.Idx → BitVec 32) slices_S500000_S25000_150000 := by
    show StableHlo.after hostOps6 _ (Proc.devRef .tc main_v42) = _
    after_results
  have col : V12 m outs c main_v7 = V1 m c main_v7 := by
    unwritten m outs c main_v7
  rw [cut, col]
  exact tbl_of_col m c (6 : Fin 20) 3 _ (col3_apply m c) 150000 (by decide) _

end Cert.KernelIdeal.Gen

end
-- ==== Proof.KI.Entry7.lean ====
/-
  What region 7 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab7 (c : Dev nD) : V15 m outs c main_v8 = V1 m c main_v8 := by
  unwritten m outs c main_v8

/-- The output array still holds what it held after the first host stretch. -/
theorem entry_out7 (c : Dev nD) : V15 m outs c main_v48 = V1 m c main_v48 := by
  unwritten m outs c main_v48

/-- Table 0 holds vertex word 0 of this region's generators. -/
theorem entry_tbl7_0 (c : Dev nD) : (V15 m outs c main_v44 : S25000.Idx → BitVec 32) = tbl m c (7 : Fin 20) 0 := by
  have cut : (V15 m outs c main_v44 : S25000.Idx → BitVec 32)
      = extractStridedSlice S25000 ![175000] (V14 m outs c main_v1 : S500000.Idx → BitVec 32) slices_S500000_S25000_175000 := by
    show StableHlo.after hostOps7 _ (Proc.devRef .tc main_v44) = _
    after_results
  have col : V14 m outs c main_v1 = V1 m c main_v1 := by
    unwritten m outs c main_v1
  rw [cut, col]
  exact tbl_of_col m c (7 : Fin 20) 0 _ (col0_apply m c) 175000 (by decide) _

/-- Table 1 holds vertex word 1 of this region's generators. -/
theorem entry_tbl7_1 (c : Dev nD) : (V15 m outs c main_v45 : S25000.Idx → BitVec 32) = tbl m c (7 : Fin 20) 1 := by
  have cut : (V15 m outs c main_v45 : S25000.Idx → BitVec 32)
      = extractStridedSlice S25000 ![175000] (V14 m outs c main_v3 : S500000.Idx → BitVec 32) slices_S500000_S25000_175000 := by
    show StableHlo.after hostOps7 _ (Proc.devRef .tc main_v45) = _
    after_results
  have col : V14 m outs c main_v3 = V1 m c main_v3 := by
    unwritten m outs c main_v3
  rw [cut, col]
  exact tbl_of_col m c (7 : Fin 20) 1 _ (col1_apply m c) 175000 (by decide) _

/-- Table 2 holds vertex word 2 of this region's generators. -/
theorem entry_tbl7_2 (c : Dev nD) : (V15 m outs c main_v46 : S25000.Idx → BitVec 32) = tbl m c (7 : Fin 20) 2 := by
  have cut : (V15 m outs c main_v46 : S25000.Idx → BitVec 32)
      = extractStridedSlice S25000 ![175000] (V14 m outs c main_v5 : S500000.Idx → BitVec 32) slices_S500000_S25000_175000 := by
    show StableHlo.after hostOps7 _ (Proc.devRef .tc main_v46) = _
    after_results
  have col : V14 m outs c main_v5 = V1 m c main_v5 := by
    unwritten m outs c main_v5
  rw [cut, col]
  exact tbl_of_col m c (7 : Fin 20) 2 _ (col2_apply m c) 175000 (by decide) _

/-- Table 3 holds vertex word 3 of this region's generators. -/
theorem entry_tbl7_3 (c : Dev nD) : (V15 m outs c main_v47 : S25000.Idx → BitVec 32) = tbl m c (7 : Fin 20) 3 := by
  have cut : (V15 m outs c main_v47 : S25000.Idx → BitVec 32)
      = extractStridedSlice S25000 ![175000] (V14 m outs c main_v7 : S500000.Idx → BitVec 32) slices_S500000_S25000_175000 := by
    show StableHlo.after hostOps7 _ (Proc.devRef .tc main_v47) = _
    after_results
  have col : V14 m outs c main_v7 = V1 m c main_v7 := by
    unwritten m outs c main_v7
  rw [cut, col]
  exact tbl_of_col m c (7 : Fin 20) 3 _ (col3_apply m c) 175000 (by decide) _

end Cert.KernelIdeal.Gen

end
-- ==== Proof.KI.Entry8.lean ====
/-
  What region 8 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab8 (c : Dev nD) : V17 m outs c main_v8 = V1 m c main_v8 := by
  unwritten m outs c main_v8

/-- The output array still holds what it held after the first host stretch. -/
theorem entry_out8 (c : Dev nD) : V17 m outs c main_v53 = V1 m c main_v53 := by
  unwritten m outs c main_v53

/-- Table 0 holds vertex word 0 of this region's generators. -/
theorem entry_tbl8_0 (c : Dev nD) : (V17 m outs c main_v49 : S25000.Idx → BitVec 32) = tbl m c (8 : Fin 20) 0 := by
  have cut : (V17 m outs c main_v49 : S25000.Idx → BitVec 32)
      = extractStridedSlice S25000 ![200000] (V16 m outs c main_v1 : S500000.Idx → BitVec 32) slices_S500000_S25000_200000 := by
    show StableHlo.after hostOps8 _ (Proc.devRef .tc main_v49) = _
    after_results
  have col : V16 m outs c main_v1 = V1 m c main_v1 := by
    unwritten m outs c main_v1
  rw [cut, col]
  exact tbl_of_col m c (8 : Fin 20) 0 _ (col0_apply m c) 200000 (by decide) _

/-- Table 1 holds vertex word 1 of this region's generators. -/
theorem entry_tbl8_1 (c : Dev nD) : (V17 m outs c main_v50 : S25000.Idx → BitVec 32) = tbl m c (8 : Fin 20) 1 := by
  have cut : (V17 m outs c main_v50 : S25000.Idx → BitVec 32)
      = extractStridedSlice S25000 ![200000] (V16 m outs c main_v3 : S500000.Idx → BitVec 32) slices_S500000_S25000_200000 := by
    show StableHlo.after hostOps8 _ (Proc.devRef .tc main_v50) = _
    after_results
  have col : V16 m outs c main_v3 = V1 m c main_v3 := by
    unwritten m outs c main_v3
  rw [cut, col]
  exact tbl_of_col m c (8 : Fin 20) 1 _ (col1_apply m c) 200000 (by decide) _

/-- Table 2 holds vertex word 2 of this region's generators. -/
theorem entry_tbl8_2 (c : Dev nD) : (V17 m outs c main_v51 : S25000.Idx → BitVec 32) = tbl m c (8 : Fin 20) 2 := by
  have cut : (V17 m outs c main_v51 : S25000.Idx → BitVec 32)
      = extractStridedSlice S25000 ![200000] (V16 m outs c main_v5 : S500000.Idx → BitVec 32) slices_S500000_S25000_200000 := by
    show StableHlo.after hostOps8 _ (Proc.devRef .tc main_v51) = _
    after_results
  have col : V16 m outs c main_v5 = V1 m c main_v5 := by
    unwritten m outs c main_v5
  rw [cut, col]
  exact tbl_of_col m c (8 : Fin 20) 2 _ (col2_apply m c) 200000 (by decide) _

/-- Table 3 holds vertex word 3 of this region's generators. -/
theorem entry_tbl8_3 (c : Dev nD) : (V17 m outs c main_v52 : S25000.Idx → BitVec 32) = tbl m c (8 : Fin 20) 3 := by
  have cut : (V17 m outs c main_v52 : S25000.Idx → BitVec 32)
      = extractStridedSlice S25000 ![200000] (V16 m outs c main_v7 : S500000.Idx → BitVec 32) slices_S500000_S25000_200000 := by
    show StableHlo.after hostOps8 _ (Proc.devRef .tc main_v52) = _
    after_results
  have col : V16 m outs c main_v7 = V1 m c main_v7 := by
    unwritten m outs c main_v7
  rw [cut, col]
  exact tbl_of_col m c (8 : Fin 20) 3 _ (col3_apply m c) 200000 (by decide) _

end Cert.KernelIdeal.Gen

end
-- ==== Proof.KI.Entry9.lean ====
/-
  What region 9 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab9 (c : Dev nD) : V19 m outs c main_v8 = V1 m c main_v8 := by
  unwritten m outs c main_v8

/-- The output array still holds what it held after the first host stretch. -/
theorem entry_out9 (c : Dev nD) : V19 m outs c main_v58 = V1 m c main_v58 := by
  unwritten m outs c main_v58

/-- Table 0 holds vertex word 0 of this region's generators. -/
theorem entry_tbl9_0 (c : Dev nD) : (V19 m outs c main_v54 : S25000.Idx → BitVec 32) = tbl m c (9 : Fin 20) 0 := by
  have cut : (V19 m outs c main_v54 : S25000.Idx → BitVec 32)
      = extractStridedSlice S25000 ![225000] (V18 m outs c main_v1 : S500000.Idx → BitVec 32) slices_S500000_S25000_225000 := by
    show StableHlo.after hostOps9 _ (Proc.devRef .tc main_v54) = _
    after_results
  have col : V18 m outs c main_v1 = V1 m c main_v1 := by
    unwritten m outs c main_v1
  rw [cut, col]
  exact tbl_of_col m c (9 : Fin 20) 0 _ (col0_apply m c) 225000 (by decide) _

/-- Table 1 holds vertex word 1 of this region's generators. -/
theorem entry_tbl9_1 (c : Dev nD) : (V19 m outs c main_v55 : S25000.Idx → BitVec 32) = tbl m c (9 : Fin 20) 1 := by
  have cut : (V19 m outs c main_v55 : S25000.Idx → BitVec 32)
      = extractStridedSlice S25000 ![225000] (V18 m outs c main_v3 : S500000.Idx → BitVec 32) slices_S500000_S25000_225000 := by
    show StableHlo.after hostOps9 _ (Proc.devRef .tc main_v55) = _
    after_results
  have col : V18 m outs c main_v3 = V1 m c main_v3 := by
    unwritten m outs c main_v3
  rw [cut, col]
  exact tbl_of_col m c (9 : Fin 20) 1 _ (col1_apply m c) 225000 (by decide) _

/-- Table 2 holds vertex word 2 of this region's generators. -/
theorem entry_tbl9_2 (c : Dev nD) : (V19 m outs c main_v56 : S25000.Idx → BitVec 32) = tbl m c (9 : Fin 20) 2 := by
  have cut : (V19 m outs c main_v56 : S25000.Idx → BitVec 32)
      = extractStridedSlice S25000 ![225000] (V18 m outs c main_v5 : S500000.Idx → BitVec 32) slices_S500000_S25000_225000 := by
    show StableHlo.after hostOps9 _ (Proc.devRef .tc main_v56) = _
    after_results
  have col : V18 m outs c main_v5 = V1 m c main_v5 := by
    unwritten m outs c main_v5
  rw [cut, col]
  exact tbl_of_col m c (9 : Fin 20) 2 _ (col2_apply m c) 225000 (by decide) _

/-- Table 3 holds vertex word 3 of this region's generators. -/
theorem entry_tbl9_3 (c : Dev nD) : (V19 m outs c main_v57 : S25000.Idx → BitVec 32) = tbl m c (9 : Fin 20) 3 := by
  have cut : (V19 m outs c main_v57 : S25000.Idx → BitVec 32)
      = extractStridedSlice S25000 ![225000] (V18 m outs c main_v7 : S500000.Idx → BitVec 32) slices_S500000_S25000_225000 := by
    show StableHlo.after hostOps9 _ (Proc.devRef .tc main_v57) = _
    after_results
  have col : V18 m outs c main_v7 = V1 m c main_v7 := by
    unwritten m outs c main_v7
  rw [cut, col]
  exact tbl_of_col m c (9 : Fin 20) 3 _ (col3_apply m c) 225000 (by decide) _

end Cert.KernelIdeal.Gen

end
-- ==== Proof.KI.Entry10.lean ====
/-
  What region 10 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab10 (c : Dev nD) : V21 m outs c main_v8 = V1 m c main_v8 := by
  unwritten m outs c main_v8

/-- The output array still holds what it held after the first host stretch. -/
theorem entry_out10 (c : Dev nD) : V21 m outs c main_v63 = V1 m c main_v63 := by
  unwritten m outs c main_v63

/-- Table 0 holds vertex word 0 of this region's generators. -/
theorem entry_tbl10_0 (c : Dev nD) : (V21 m outs c main_v59 : S25000.Idx → BitVec 32) = tbl m c (10 : Fin 20) 0 := by
  have cut : (V21 m outs c main_v59 : S25000.Idx → BitVec 32)
      = extractStridedSlice S25000 ![250000] (V20 m outs c main_v1 : S500000.Idx → BitVec 32) slices_S500000_S25000_250000 := by
    show StableHlo.after hostOps10 _ (Proc.devRef .tc main_v59) = _
    after_results
  have col : V20 m outs c main_v1 = V1 m c main_v1 := by
    unwritten m outs c main_v1
  rw [cut, col]
  exact tbl_of_col m c (10 : Fin 20) 0 _ (col0_apply m c) 250000 (by decide) _

/-- Table 1 holds vertex word 1 of this region's generators. -/
theorem entry_tbl10_1 (c : Dev nD) : (V21 m outs c main_v60 : S25000.Idx → BitVec 32) = tbl m c (10 : Fin 20) 1 := by
  have cut : (V21 m outs c main_v60 : S25000.Idx → BitVec 32)
      = extractStridedSlice S25000 ![250000] (V20 m outs c main_v3 : S500000.Idx → BitVec 32) slices_S500000_S25000_250000 := by
    show StableHlo.after hostOps10 _ (Proc.devRef .tc main_v60) = _
    after_results
  have col : V20 m outs c main_v3 = V1 m c main_v3 := by
    unwritten m outs c main_v3
  rw [cut, col]
  exact tbl_of_col m c (10 : Fin 20) 1 _ (col1_apply m c) 250000 (by decide) _

/-- Table 2 holds vertex word 2 of this region's generators. -/
theorem entry_tbl10_2 (c : Dev nD) : (V21 m outs c main_v61 : S25000.Idx → BitVec 32) = tbl m c (10 : Fin 20) 2 := by
  have cut : (V21 m outs c main_v61 : S25000.Idx → BitVec 32)
      = extractStridedSlice S25000 ![250000] (V20 m outs c main_v5 : S500000.Idx → BitVec 32) slices_S500000_S25000_250000 := by
    show StableHlo.after hostOps10 _ (Proc.devRef .tc main_v61) = _
    after_results
  have col : V20 m outs c main_v5 = V1 m c main_v5 := by
    unwritten m outs c main_v5
  rw [cut, col]
  exact tbl_of_col m c (10 : Fin 20) 2 _ (col2_apply m c) 250000 (by decide) _

/-- Table 3 holds vertex word 3 of this region's generators. -/
theorem entry_tbl10_3 (c : Dev nD) : (V21 m outs c main_v62 : S25000.Idx → BitVec 32) = tbl m c (10 : Fin 20) 3 := by
  have cut : (V21 m outs c main_v62 : S25000.Idx → BitVec 32)
      = extractStridedSlice S25000 ![250000] (V20 m outs c main_v7 : S500000.Idx → BitVec 32) slices_S500000_S25000_250000 := by
    show StableHlo.after hostOps10 _ (Proc.devRef .tc main_v62) = _
    after_results
  have col : V20 m outs c main_v7 = V1 m c main_v7 := by
    unwritten m outs c main_v7
  rw [cut, col]
  exact tbl_of_col m c (10 : Fin 20) 3 _ (col3_apply m c) 250000 (by decide) _

end Cert.KernelIdeal.Gen

end
-- ==== Proof.KI.Entry11.lean ====
/-
  What region 11 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab11 (c : Dev nD) : V23 m outs c main_v8 = V1 m c main_v8 := by
  unwritten m outs c main_v8

/-- The output array still holds what it held after the first host stretch. -/
theorem entry_out11 (c : Dev nD) : V23 m outs c main_v68 = V1 m c main_v68 := by
  unwritten m outs c main_v68

/-- Table 0 holds vertex word 0 of this region's generators. -/
theorem entry_tbl11_0 (c : Dev nD) : (V23 m outs c main_v64 : S25000.Idx → BitVec 32) = tbl m c (11 : Fin 20) 0 := by
  have cut : (V23 m outs c main_v64 : S25000.Idx → BitVec 32)
      = extractStridedSlice S25000 ![275000] (V22 m outs c main_v1 : S500000.Idx → BitVec 32) slices_S500000_S25000_275000 := by
    show StableHlo.after hostOps11 _ (Proc.devRef .tc main_v64) = _
    after_results
  have col : V22 m outs c main_v1 = V1 m c main_v1 := by
    unwritten m outs c main_v1
  rw [cut, col]
  exact tbl_of_col m c (11 : Fin 20) 0 _ (col0_apply m c) 275000 (by decide) _

/-- Table 1 holds vertex word 1 of this region's generators. -/
theorem entry_tbl11_1 (c : Dev nD) : (V23 m outs c main_v65 : S25000.Idx → BitVec 32) = tbl m c (11 : Fin 20) 1 := by
  have cut : (V23 m outs c main_v65 : S25000.Idx → BitVec 32)
      = extractStridedSlice S25000 ![275000] (V22 m outs c main_v3 : S500000.Idx → BitVec 32) slices_S500000_S25000_275000 := by
    show StableHlo.after hostOps11 _ (Proc.devRef .tc main_v65) = _
    after_results
  have col : V22 m outs c main_v3 = V1 m c main_v3 := by
    unwritten m outs c main_v3
  rw [cut, col]
  exact tbl_of_col m c (11 : Fin 20) 1 _ (col1_apply m c) 275000 (by decide) _

/-- Table 2 holds vertex word 2 of this region's generators. -/
theorem entry_tbl11_2 (c : Dev nD) : (V23 m outs c main_v66 : S25000.Idx → BitVec 32) = tbl m c (11 : Fin 20) 2 := by
  have cut : (V23 m outs c main_v66 : S25000.Idx → BitVec 32)
      = extractStridedSlice S25000 ![275000] (V22 m outs c main_v5 : S500000.Idx → BitVec 32) slices_S500000_S25000_275000 := by
    show StableHlo.after hostOps11 _ (Proc.devRef .tc main_v66) = _
    after_results
  have col : V22 m outs c main_v5 = V1 m c main_v5 := by
    unwritten m outs c main_v5
  rw [cut, col]
  exact tbl_of_col m c (11 : Fin 20) 2 _ (col2_apply m c) 275000 (by decide) _

/-- Table 3 holds vertex word 3 of this region's generators. -/
theorem entry_tbl11_3 (c : Dev nD) : (V23 m outs c main_v67 : S25000.Idx → BitVec 32) = tbl m c (11 : Fin 20) 3 := by
  have cut : (V23 m outs c main_v67 : S25000.Idx → BitVec 32)
      = extractStridedSlice S25000 ![275000] (V22 m outs c main_v7 : S500000.Idx → BitVec 32) slices_S500000_S25000_275000 := by
    show StableHlo.after hostOps11 _ (Proc.devRef .tc main_v67) = _
    after_results
  have col : V22 m outs c main_v7 = V1 m c main_v7 := by
    unwritten m outs c main_v7
  rw [cut, col]
  exact tbl_of_col m c (11 : Fin 20) 3 _ (col3_apply m c) 275000 (by decide) _

end Cert.KernelIdeal.Gen

end
-- ==== Proof.KI.Entry12.lean ====
/-
  What region 12 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab12 (c : Dev nD) : V25 m outs c main_v8 = V1 m c main_v8 := by
  unwritten m outs c main_v8

/-- The output array still holds what it held after the first host stretch. -/
theorem entry_out12 (c : Dev nD) : V25 m outs c main_v73 = V1 m c main_v73 := by
  unwritten m outs c main_v73

/-- Table 0 holds vertex word 0 of this region's generators. -/
theorem entry_tbl12_0 (c : Dev nD) : (V25 m outs c main_v69 : S25000.Idx → BitVec 32) = tbl m c (12 : Fin 20) 0 := by
  have cut : (V25 m outs c main_v69 : S25000.Idx → BitVec 32)
      = extractStridedSlice S25000 ![300000] (V24 m outs c main_v1 : S500000.Idx → BitVec 32) slices_S500000_S25000_300000 := by
    show StableHlo.after hostOps12 _ (Proc.devRef .tc main_v69) = _
    after_results
  have col : V24 m outs c main_v1 = V1 m c main_v1 := by
    unwritten m outs c main_v1
  rw [cut, col]
  exact tbl_of_col m c (12 : Fin 20) 0 _ (col0_apply m c) 300000 (by decide) _

/-- Table 1 holds vertex word 1 of this region's generators. -/
theorem entry_tbl12_1 (c : Dev nD) : (V25 m outs c main_v70 : S25000.Idx → BitVec 32) = tbl m c (12 : Fin 20) 1 := by
  have cut : (V25 m outs c main_v70 : S25000.Idx → BitVec 32)
      = extractStridedSlice S25000 ![300000] (V24 m outs c main_v3 : S500000.Idx → BitVec 32) slices_S500000_S25000_300000 := by
    show StableHlo.after hostOps12 _ (Proc.devRef .tc main_v70) = _
    after_results
  have col : V24 m outs c main_v3 = V1 m c main_v3 := by
    unwritten m outs c main_v3
  rw [cut, col]
  exact tbl_of_col m c (12 : Fin 20) 1 _ (col1_apply m c) 300000 (by decide) _

/-- Table 2 holds vertex word 2 of this region's generators. -/
theorem entry_tbl12_2 (c : Dev nD) : (V25 m outs c main_v71 : S25000.Idx → BitVec 32) = tbl m c (12 : Fin 20) 2 := by
  have cut : (V25 m outs c main_v71 : S25000.Idx → BitVec 32)
      = extractStridedSlice S25000 ![300000] (V24 m outs c main_v5 : S500000.Idx → BitVec 32) slices_S500000_S25000_300000 := by
    show StableHlo.after hostOps12 _ (Proc.devRef .tc main_v71) = _
    after_results
  have col : V24 m outs c main_v5 = V1 m c main_v5 := by
    unwritten m outs c main_v5
  rw [cut, col]
  exact tbl_of_col m c (12 : Fin 20) 2 _ (col2_apply m c) 300000 (by decide) _

/-- Table 3 holds vertex word 3 of this region's generators. -/
theorem entry_tbl12_3 (c : Dev nD) : (V25 m outs c main_v72 : S25000.Idx → BitVec 32) = tbl m c (12 : Fin 20) 3 := by
  have cut : (V25 m outs c main_v72 : S25000.Idx → BitVec 32)
      = extractStridedSlice S25000 ![300000] (V24 m outs c main_v7 : S500000.Idx → BitVec 32) slices_S500000_S25000_300000 := by
    show StableHlo.after hostOps12 _ (Proc.devRef .tc main_v72) = _
    after_results
  have col : V24 m outs c main_v7 = V1 m c main_v7 := by
    unwritten m outs c main_v7
  rw [cut, col]
  exact tbl_of_col m c (12 : Fin 20) 3 _ (col3_apply m c) 300000 (by decide) _

end Cert.KernelIdeal.Gen

end
-- ==== Proof.KI.Entry13.lean ====
/-
  What region 13 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab13 (c : Dev nD) : V27 m outs c main_v8 = V1 m c main_v8 := by
  unwritten m outs c main_v8

/-- The output array still holds what it held after the first host stretch. -/
theorem entry_out13 (c : Dev nD) : V27 m outs c main_v78 = V1 m c main_v78 := by
  unwritten m outs c main_v78

/-- Table 0 holds vertex word 0 of this region's generators. -/
theorem entry_tbl13_0 (c : Dev nD) : (V27 m outs c main_v74 : S25000.Idx → BitVec 32) = tbl m c (13 : Fin 20) 0 := by
  have cut : (V27 m outs c main_v74 : S25000.Idx → BitVec 32)
      = extractStridedSlice S25000 ![325000] (V26 m outs c main_v1 : S500000.Idx → BitVec 32) slices_S500000_S25000_325000 := by
    show StableHlo.after hostOps13 _ (Proc.devRef .tc main_v74) = _
    after_results
  have col : V26 m outs c main_v1 = V1 m c main_v1 := by
    unwritten m outs c main_v1
  rw [cut, col]
  exact tbl_of_col m c (13 : Fin 20) 0 _ (col0_apply m c) 325000 (by decide) _

/-- Table 1 holds vertex word 1 of this region's generators. -/
theorem entry_tbl13_1 (c : Dev nD) : (V27 m outs c main_v75 : S25000.Idx → BitVec 32) = tbl m c (13 : Fin 20) 1 := by
  have cut : (V27 m outs c main_v75 : S25000.Idx → BitVec 32)
      = extractStridedSlice S25000 ![325000] (V26 m outs c main_v3 : S500000.Idx → BitVec 32) slices_S500000_S25000_325000 := by
    show StableHlo.after hostOps13 _ (Proc.devRef .tc main_v75) = _
    after_results
  have col : V26 m outs c main_v3 = V1 m c main_v3 := by
    unwritten m outs c main_v3
  rw [cut, col]
  exact tbl_of_col m c (13 : Fin 20) 1 _ (col1_apply m c) 325000 (by decide) _

/-- Table 2 holds vertex word 2 of this region's generators. -/
theorem entry_tbl13_2 (c : Dev nD) : (V27 m outs c main_v76 : S25000.Idx → BitVec 32) = tbl m c (13 : Fin 20) 2 := by
  have cut : (V27 m outs c main_v76 : S25000.Idx → BitVec 32)
      = extractStridedSlice S25000 ![325000] (V26 m outs c main_v5 : S500000.Idx → BitVec 32) slices_S500000_S25000_325000 := by
    show StableHlo.after hostOps13 _ (Proc.devRef .tc main_v76) = _
    after_results
  have col : V26 m outs c main_v5 = V1 m c main_v5 := by
    unwritten m outs c main_v5
  rw [cut, col]
  exact tbl_of_col m c (13 : Fin 20) 2 _ (col2_apply m c) 325000 (by decide) _

/-- Table 3 holds vertex word 3 of this region's generators. -/
theorem entry_tbl13_3 (c : Dev nD) : (V27 m outs c main_v77 : S25000.Idx → BitVec 32) = tbl m c (13 : Fin 20) 3 := by
  have cut : (V27 m outs c main_v77 : S25000.Idx → BitVec 32)
      = extractStridedSlice S25000 ![325000] (V26 m outs c main_v7 : S500000.Idx → BitVec 32) slices_S500000_S25000_325000 := by
    show StableHlo.after hostOps13 _ (Proc.devRef .tc main_v77) = _
    after_results
  have col : V26 m outs c main_v7 = V1 m c main_v7 := by
    unwritten m outs c main_v7
  rw [cut, col]
  exact tbl_of_col m c (13 : Fin 20) 3 _ (col3_apply m c) 325000 (by decide) _

end Cert.KernelIdeal.Gen

end
-- ==== Proof.KI.Entry14.lean ====
/-
  What region 14 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab14 (c : Dev nD) : V29 m outs c main_v8 = V1 m c main_v8 := by
  unwritten m outs c main_v8

/-- The output array still holds what it held after the first host stretch. -/
theorem entry_out14 (c : Dev nD) : V29 m outs c main_v83 = V1 m c main_v83 := by
  unwritten m outs c main_v83

/-- Table 0 holds vertex word 0 of this region's generators. -/
theorem entry_tbl14_0 (c : Dev nD) : (V29 m outs c main_v79 : S25000.Idx → BitVec 32) = tbl m c (14 : Fin 20) 0 := by
  have cut : (V29 m outs c main_v79 : S25000.Idx → BitVec 32)
      = extractStridedSlice S25000 ![350000] (V28 m outs c main_v1 : S500000.Idx → BitVec 32) slices_S500000_S25000_350000 := by
    show StableHlo.after hostOps14 _ (Proc.devRef .tc main_v79) = _
    after_results
  have col : V28 m outs c main_v1 = V1 m c main_v1 := by
    unwritten m outs c main_v1
  rw [cut, col]
  exact tbl_of_col m c (14 : Fin 20) 0 _ (col0_apply m c) 350000 (by decide) _

/-- Table 1 holds vertex word 1 of this region's generators. -/
theorem entry_tbl14_1 (c : Dev nD) : (V29 m outs c main_v80 : S25000.Idx → BitVec 32) = tbl m c (14 : Fin 20) 1 := by
  have cut : (V29 m outs c main_v80 : S25000.Idx → BitVec 32)
      = extractStridedSlice S25000 ![350000] (V28 m outs c main_v3 : S500000.Idx → BitVec 32) slices_S500000_S25000_350000 := by
    show StableHlo.after hostOps14 _ (Proc.devRef .tc main_v80) = _
    after_results
  have col : V28 m outs c main_v3 = V1 m c main_v3 := by
    unwritten m outs c main_v3
  rw [cut, col]
  exact tbl_of_col m c (14 : Fin 20) 1 _ (col1_apply m c) 350000 (by decide) _

/-- Table 2 holds vertex word 2 of this region's generators. -/
theorem entry_tbl14_2 (c : Dev nD) : (V29 m outs c main_v81 : S25000.Idx → BitVec 32) = tbl m c (14 : Fin 20) 2 := by
  have cut : (V29 m outs c main_v81 : S25000.Idx → BitVec 32)
      = extractStridedSlice S25000 ![350000] (V28 m outs c main_v5 : S500000.Idx → BitVec 32) slices_S500000_S25000_350000 := by
    show StableHlo.after hostOps14 _ (Proc.devRef .tc main_v81) = _
    after_results
  have col : V28 m outs c main_v5 = V1 m c main_v5 := by
    unwritten m outs c main_v5
  rw [cut, col]
  exact tbl_of_col m c (14 : Fin 20) 2 _ (col2_apply m c) 350000 (by decide) _

/-- Table 3 holds vertex word 3 of this region's generators. -/
theorem entry_tbl14_3 (c : Dev nD) : (V29 m outs c main_v82 : S25000.Idx → BitVec 32) = tbl m c (14 : Fin 20) 3 := by
  have cut : (V29 m outs c main_v82 : S25000.Idx → BitVec 32)
      = extractStridedSlice S25000 ![350000] (V28 m outs c main_v7 : S500000.Idx → BitVec 32) slices_S500000_S25000_350000 := by
    show StableHlo.after hostOps14 _ (Proc.devRef .tc main_v82) = _
    after_results
  have col : V28 m outs c main_v7 = V1 m c main_v7 := by
    unwritten m outs c main_v7
  rw [cut, col]
  exact tbl_of_col m c (14 : Fin 20) 3 _ (col3_apply m c) 350000 (by decide) _

end Cert.KernelIdeal.Gen

end
-- ==== Proof.KI.Entry15.lean ====
/-
  What region 15 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab15 (c : Dev nD) : V31 m outs c main_v8 = V1 m c main_v8 := by
  unwritten m outs c main_v8

/-- The output array still holds what it held after the first host stretch. -/
theorem entry_out15 (c : Dev nD) : V31 m outs c main_v88 = V1 m c main_v88 := by
  unwritten m outs c main_v88

/-- Table 0 holds vertex word 0 of this region's generators. -/
theorem entry_tbl15_0 (c : Dev nD) : (V31 m outs c main_v84 : S25000.Idx → BitVec 32) = tbl m c (15 : Fin 20) 0 := by
  have cut : (V31 m outs c main_v84 : S25000.Idx → BitVec 32)
      = extractStridedSlice S25000 ![375000] (V30 m outs c main_v1 : S500000.Idx → BitVec 32) slices_S500000_S25000_375000 := by
    show StableHlo.after hostOps15 _ (Proc.devRef .tc main_v84) = _
    after_results
  have col : V30 m outs c main_v1 = V1 m c main_v1 := by
    unwritten m outs c main_v1
  rw [cut, col]
  exact tbl_of_col m c (15 : Fin 20) 0 _ (col0_apply m c) 375000 (by decide) _

/-- Table 1 holds vertex word 1 of this region's generators. -/
theorem entry_tbl15_1 (c : Dev nD) : (V31 m outs c main_v85 : S25000.Idx → BitVec 32) = tbl m c (15 : Fin 20) 1 := by
  have cut : (V31 m outs c main_v85 : S25000.Idx → BitVec 32)
      = extractStridedSlice S25000 ![375000] (V30 m outs c main_v3 : S500000.Idx → BitVec 32) slices_S500000_S25000_375000 := by
    show StableHlo.after hostOps15 _ (Proc.devRef .tc main_v85) = _
    after_results
  have col : V30 m outs c main_v3 = V1 m c main_v3 := by
    unwritten m outs c main_v3
  rw [cut, col]
  exact tbl_of_col m c (15 : Fin 20) 1 _ (col1_apply m c) 375000 (by decide) _

/-- Table 2 holds vertex word 2 of this region's generators. -/
theorem entry_tbl15_2 (c : Dev nD) : (V31 m outs c main_v86 : S25000.Idx → BitVec 32) = tbl m c (15 : Fin 20) 2 := by
  have cut : (V31 m outs c main_v86 : S25000.Idx → BitVec 32)
      = extractStridedSlice S25000 ![375000] (V30 m outs c main_v5 : S500000.Idx → BitVec 32) slices_S500000_S25000_375000 := by
    show StableHlo.after hostOps15 _ (Proc.devRef .tc main_v86) = _
    after_results
  have col : V30 m outs c main_v5 = V1 m c main_v5 := by
    unwritten m outs c main_v5
  rw [cut, col]
  exact tbl_of_col m c (15 : Fin 20) 2 _ (col2_apply m c) 375000 (by decide) _

/-- Table 3 holds vertex word 3 of this region's generators. -/
theorem entry_tbl15_3 (c : Dev nD) : (V31 m outs c main_v87 : S25000.Idx → BitVec 32) = tbl m c (15 : Fin 20) 3 := by
  have cut : (V31 m outs c main_v87 : S25000.Idx → BitVec 32)
      = extractStridedSlice S25000 ![375000] (V30 m outs c main_v7 : S500000.Idx → BitVec 32) slices_S500000_S25000_375000 := by
    show StableHlo.after hostOps15 _ (Proc.devRef .tc main_v87) = _
    after_results
  have col : V30 m outs c main_v7 = V1 m c main_v7 := by
    unwritten m outs c main_v7
  rw [cut, col]
  exact tbl_of_col m c (15 : Fin 20) 3 _ (col3_apply m c) 375000 (by decide) _

end Cert.KernelIdeal.Gen

end
-- ==== Proof.KI.Entry16.lean ====
/-
  What region 16 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab16 (c : Dev nD) : V33 m outs c main_v8 = V1 m c main_v8 := by
  unwritten m outs c main_v8

/-- The output array still holds what it held after the first host stretch. -/
theorem entry_out16 (c : Dev nD) : V33 m outs c main_v93 = V1 m c main_v93 := by
  unwritten m outs c main_v93

/-- Table 0 holds vertex word 0 of this region's generators. -/
theorem entry_tbl16_0 (c : Dev nD) : (V33 m outs c main_v89 : S25000.Idx → BitVec 32) = tbl m c (16 : Fin 20) 0 := by
  have cut : (V33 m outs c main_v89 : S25000.Idx → BitVec 32)
      = extractStridedSlice S25000 ![400000] (V32 m outs c main_v1 : S500000.Idx → BitVec 32) slices_S500000_S25000_400000 := by
    show StableHlo.after hostOps16 _ (Proc.devRef .tc main_v89) = _
    after_results
  have col : V32 m outs c main_v1 = V1 m c main_v1 := by
    unwritten m outs c main_v1
  rw [cut, col]
  exact tbl_of_col m c (16 : Fin 20) 0 _ (col0_apply m c) 400000 (by decide) _

/-- Table 1 holds vertex word 1 of this region's generators. -/
theorem entry_tbl16_1 (c : Dev nD) : (V33 m outs c main_v90 : S25000.Idx → BitVec 32) = tbl m c (16 : Fin 20) 1 := by
  have cut : (V33 m outs c main_v90 : S25000.Idx → BitVec 32)
      = extractStridedSlice S25000 ![400000] (V32 m outs c main_v3 : S500000.Idx → BitVec 32) slices_S500000_S25000_400000 := by
    show StableHlo.after hostOps16 _ (Proc.devRef .tc main_v90) = _
    after_results
  have col : V32 m outs c main_v3 = V1 m c main_v3 := by
    unwritten m outs c main_v3
  rw [cut, col]
  exact tbl_of_col m c (16 : Fin 20) 1 _ (col1_apply m c) 400000 (by decide) _

/-- Table 2 holds vertex word 2 of this region's generators. -/
theorem entry_tbl16_2 (c : Dev nD) : (V33 m outs c main_v91 : S25000.Idx → BitVec 32) = tbl m c (16 : Fin 20) 2 := by
  have cut : (V33 m outs c main_v91 : S25000.Idx → BitVec 32)
      = extractStridedSlice S25000 ![400000] (V32 m outs c main_v5 : S500000.Idx → BitVec 32) slices_S500000_S25000_400000 := by
    show StableHlo.after hostOps16 _ (Proc.devRef .tc main_v91) = _
    after_results
  have col : V32 m outs c main_v5 = V1 m c main_v5 := by
    unwritten m outs c main_v5
  rw [cut, col]
  exact tbl_of_col m c (16 : Fin 20) 2 _ (col2_apply m c) 400000 (by decide) _

/-- Table 3 holds vertex word 3 of this region's generators. -/
theorem entry_tbl16_3 (c : Dev nD) : (V33 m outs c main_v92 : S25000.Idx → BitVec 32) = tbl m c (16 : Fin 20) 3 := by
  have cut : (V33 m outs c main_v92 : S25000.Idx → BitVec 32)
      = extractStridedSlice S25000 ![400000] (V32 m outs c main_v7 : S500000.Idx → BitVec 32) slices_S500000_S25000_400000 := by
    show StableHlo.after hostOps16 _ (Proc.devRef .tc main_v92) = _
    after_results
  have col : V32 m outs c main_v7 = V1 m c main_v7 := by
    unwritten m outs c main_v7
  rw [cut, col]
  exact tbl_of_col m c (16 : Fin 20) 3 _ (col3_apply m c) 400000 (by decide) _

end Cert.KernelIdeal.Gen

end
-- ==== Proof.KI.Entry17.lean ====
/-
  What region 17 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab17 (c : Dev nD) : V35 m outs c main_v8 = V1 m c main_v8 := by
  unwritten m outs c main_v8

/-- The output array still holds what it held after the first host stretch. -/
theorem entry_out17 (c : Dev nD) : V35 m outs c main_v98 = V1 m c main_v98 := by
  unwritten m outs c main_v98

/-- Table 0 holds vertex word 0 of this region's generators. -/
theorem entry_tbl17_0 (c : Dev nD) : (V35 m outs c main_v94 : S25000.Idx → BitVec 32) = tbl m c (17 : Fin 20) 0 := by
  have cut : (V35 m outs c main_v94 : S25000.Idx → BitVec 32)
      = extractStridedSlice S25000 ![425000] (V34 m outs c main_v1 : S500000.Idx → BitVec 32) slices_S500000_S25000_425000 := by
    show StableHlo.after hostOps17 _ (Proc.devRef .tc main_v94) = _
    after_results
  have col : V34 m outs c main_v1 = V1 m c main_v1 := by
    unwritten m outs c main_v1
  rw [cut, col]
  exact tbl_of_col m c (17 : Fin 20) 0 _ (col0_apply m c) 425000 (by decide) _

/-- Table 1 holds vertex word 1 of this region's generators. -/
theorem entry_tbl17_1 (c : Dev nD) : (V35 m outs c main_v95 : S25000.Idx → BitVec 32) = tbl m c (17 : Fin 20) 1 := by
  have cut : (V35 m outs c main_v95 : S25000.Idx → BitVec 32)
      = extractStridedSlice S25000 ![425000] (V34 m outs c main_v3 : S500000.Idx → BitVec 32) slices_S500000_S25000_425000 := by
    show StableHlo.after hostOps17 _ (Proc.devRef .tc main_v95) = _
    after_results
  have col : V34 m outs c main_v3 = V1 m c main_v3 := by
    unwritten m outs c main_v3
  rw [cut, col]
  exact tbl_of_col m c (17 : Fin 20) 1 _ (col1_apply m c) 425000 (by decide) _

/-- Table 2 holds vertex word 2 of this region's generators. -/
theorem entry_tbl17_2 (c : Dev nD) : (V35 m outs c main_v96 : S25000.Idx → BitVec 32) = tbl m c (17 : Fin 20) 2 := by
  have cut : (V35 m outs c main_v96 : S25000.Idx → BitVec 32)
      = extractStridedSlice S25000 ![425000] (V34 m outs c main_v5 : S500000.Idx → BitVec 32) slices_S500000_S25000_425000 := by
    show StableHlo.after hostOps17 _ (Proc.devRef .tc main_v96) = _
    after_results
  have col : V34 m outs c main_v5 = V1 m c main_v5 := by
    unwritten m outs c main_v5
  rw [cut, col]
  exact tbl_of_col m c (17 : Fin 20) 2 _ (col2_apply m c) 425000 (by decide) _

/-- Table 3 holds vertex word 3 of this region's generators. -/
theorem entry_tbl17_3 (c : Dev nD) : (V35 m outs c main_v97 : S25000.Idx → BitVec 32) = tbl m c (17 : Fin 20) 3 := by
  have cut : (V35 m outs c main_v97 : S25000.Idx → BitVec 32)
      = extractStridedSlice S25000 ![425000] (V34 m outs c main_v7 : S500000.Idx → BitVec 32) slices_S500000_S25000_425000 := by
    show StableHlo.after hostOps17 _ (Proc.devRef .tc main_v97) = _
    after_results
  have col : V34 m outs c main_v7 = V1 m c main_v7 := by
    unwritten m outs c main_v7
  rw [cut, col]
  exact tbl_of_col m c (17 : Fin 20) 3 _ (col3_apply m c) 425000 (by decide) _

end Cert.KernelIdeal.Gen

end
-- ==== Proof.KI.Entry18.lean ====
/-
  What region 18 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab18 (c : Dev nD) : V37 m outs c main_v8 = V1 m c main_v8 := by
  unwritten m outs c main_v8

/-- The output array still holds what it held after the first host stretch. -/
theorem entry_out18 (c : Dev nD) : V37 m outs c main_v103 = V1 m c main_v103 := by
  unwritten m outs c main_v103

/-- Table 0 holds vertex word 0 of this region's generators. -/
theorem entry_tbl18_0 (c : Dev nD) : (V37 m outs c main_v99 : S25000.Idx → BitVec 32) = tbl m c (18 : Fin 20) 0 := by
  have cut : (V37 m outs c main_v99 : S25000.Idx → BitVec 32)
      = extractStridedSlice S25000 ![450000] (V36 m outs c main_v1 : S500000.Idx → BitVec 32) slices_S500000_S25000_450000 := by
    show StableHlo.after hostOps18 _ (Proc.devRef .tc main_v99) = _
    after_results
  have col : V36 m outs c main_v1 = V1 m c main_v1 := by
    unwritten m outs c main_v1
  rw [cut, col]
  exact tbl_of_col m c (18 : Fin 20) 0 _ (col0_apply m c) 450000 (by decide) _

/-- Table 1 holds vertex word 1 of this region's generators. -/
theorem entry_tbl18_1 (c : Dev nD) : (V37 m outs c main_v100 : S25000.Idx → BitVec 32) = tbl m c (18 : Fin 20) 1 := by
  have cut : (V37 m outs c main_v100 : S25000.Idx → BitVec 32)
      = extractStridedSlice S25000 ![450000] (V36 m outs c main_v3 : S500000.Idx → BitVec 32) slices_S500000_S25000_450000 := by
    show StableHlo.after hostOps18 _ (Proc.devRef .tc main_v100) = _
    after_results
  have col : V36 m outs c main_v3 = V1 m c main_v3 := by
    unwritten m outs c main_v3
  rw [cut, col]
  exact tbl_of_col m c (18 : Fin 20) 1 _ (col1_apply m c) 450000 (by decide) _

/-- Table 2 holds vertex word 2 of this region's generators. -/
theorem entry_tbl18_2 (c : Dev nD) : (V37 m outs c main_v101 : S25000.Idx → BitVec 32) = tbl m c (18 : Fin 20) 2 := by
  have cut : (V37 m outs c main_v101 : S25000.Idx → BitVec 32)
      = extractStridedSlice S25000 ![450000] (V36 m outs c main_v5 : S500000.Idx → BitVec 32) slices_S500000_S25000_450000 := by
    show StableHlo.after hostOps18 _ (Proc.devRef .tc main_v101) = _
    after_results
  have col : V36 m outs c main_v5 = V1 m c main_v5 := by
    unwritten m outs c main_v5
  rw [cut, col]
  exact tbl_of_col m c (18 : Fin 20) 2 _ (col2_apply m c) 450000 (by decide) _

/-- Table 3 holds vertex word 3 of this region's generators. -/
theorem entry_tbl18_3 (c : Dev nD) : (V37 m outs c main_v102 : S25000.Idx → BitVec 32) = tbl m c (18 : Fin 20) 3 := by
  have cut : (V37 m outs c main_v102 : S25000.Idx → BitVec 32)
      = extractStridedSlice S25000 ![450000] (V36 m outs c main_v7 : S500000.Idx → BitVec 32) slices_S500000_S25000_450000 := by
    show StableHlo.after hostOps18 _ (Proc.devRef .tc main_v102) = _
    after_results
  have col : V36 m outs c main_v7 = V1 m c main_v7 := by
    unwritten m outs c main_v7
  rw [cut, col]
  exact tbl_of_col m c (18 : Fin 20) 3 _ (col3_apply m c) 450000 (by decide) _

end Cert.KernelIdeal.Gen

end
-- ==== Proof.KI.Entry19.lean ====
/-
  What region 19 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KI.Keep
import proofs.«401090_j62775241999084_2_alg».proof.Proof.KI.Cols

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab19 (c : Dev nD) : V39 m outs c main_v8 = V1 m c main_v8 := by
  unwritten m outs c main_v8

/-- The output array still holds what it held after the first host stretch. -/
theorem entry_out19 (c : Dev nD) : V39 m outs c main_v108 = V1 m c main_v108 := by
  unwritten m outs c main_v108

/-- Table 0 holds vertex word 0 of this region's generators. -/
theorem entry_tbl19_0 (c : Dev nD) : (V39 m outs c main_v104 : S25000.Idx → BitVec 32) = tbl m c (19 : Fin 20) 0 := by
  have cut : (V39 m outs c main_v104 : S25000.Idx → BitVec 32)
      = extractStridedSlice S25000 ![475000] (V38 m outs c main_v1 : S500000.Idx → BitVec 32) slices_S500000_S25000_475000 := by
    show StableHlo.after hostOps19 _ (Proc.devRef .tc main_v104) = _
    after_results
  have col : V38 m outs c main_v1 = V1 m c main_v1 := by
    unwritten m outs c main_v1
  rw [cut, col]
  exact tbl_of_col m c (19 : Fin 20) 0 _ (col0_apply m c) 475000 (by decide) _

/-- Table 1 holds vertex word 1 of this region's generators. -/
theorem entry_tbl19_1 (c : Dev nD) : (V39 m outs c main_v105 : S25000.Idx → BitVec 32) = tbl m c (19 : Fin 20) 1 := by
  have cut : (V39 m outs c main_v105 : S25000.Idx → BitVec 32)
      = extractStridedSlice S25000 ![475000] (V38 m outs c main_v3 : S500000.Idx → BitVec 32) slices_S500000_S25000_475000 := by
    show StableHlo.after hostOps19 _ (Proc.devRef .tc main_v105) = _
    after_results
  have col : V38 m outs c main_v3 = V1 m c main_v3 := by
    unwritten m outs c main_v3
  rw [cut, col]
  exact tbl_of_col m c (19 : Fin 20) 1 _ (col1_apply m c) 475000 (by decide) _

/-- Table 2 holds vertex word 2 of this region's generators. -/
theorem entry_tbl19_2 (c : Dev nD) : (V39 m outs c main_v106 : S25000.Idx → BitVec 32) = tbl m c (19 : Fin 20) 2 := by
  have cut : (V39 m outs c main_v106 : S25000.Idx → BitVec 32)
      = extractStridedSlice S25000 ![475000] (V38 m outs c main_v5 : S500000.Idx → BitVec 32) slices_S500000_S25000_475000 := by
    show StableHlo.after hostOps19 _ (Proc.devRef .tc main_v106) = _
    after_results
  have col : V38 m outs c main_v5 = V1 m c main_v5 := by
    unwritten m outs c main_v5
  rw [cut, col]
  exact tbl_of_col m c (19 : Fin 20) 2 _ (col2_apply m c) 475000 (by decide) _

/-- Table 3 holds vertex word 3 of this region's generators. -/
theorem entry_tbl19_3 (c : Dev nD) : (V39 m outs c main_v107 : S25000.Idx → BitVec 32) = tbl m c (19 : Fin 20) 3 := by
  have cut : (V39 m outs c main_v107 : S25000.Idx → BitVec 32)
      = extractStridedSlice S25000 ![475000] (V38 m outs c main_v7 : S500000.Idx → BitVec 32) slices_S500000_S25000_475000 := by
    show StableHlo.after hostOps19 _ (Proc.devRef .tc main_v107) = _
    after_results
  have col : V38 m outs c main_v7 = V1 m c main_v7 := by
    unwritten m outs c main_v7
  rw [cut, col]
  exact tbl_of_col m c (19 : Fin 20) 3 _ (col3_apply m c) 475000 (by decide) _

end Cert.KernelIdeal.Gen

end
-- ==== Proof.KI.Entries.lean ====
/-
  Per region K: at ENTRY the point table is as the first host stretch left it, the region's output array holds what that
  stretch left there, and the four index tables hold the admissible contents; at EXIT the valuation is the entry one
  updated at the output array alone, so the point table and the tables are as at entry, the output array is what the
  region left, and every other buffer is untouched.
-/
import proofs.«401090_j62775241999084_2_alg».proof.Proof.KI.Families
import proofs.«401090_j62775241999084_2_alg».proof.Proof.KI.Entry0
import proofs.«401090_j62775241999084_2_alg».proof.Proof.KI.Entry1
import proofs.«401090_j62775241999084_2_alg».proof.Proof.KI.Entry2
import proofs.«401090_j62775241999084_2_alg».proof.Proof.KI.Entry3
import proofs.«401090_j62775241999084_2_alg».proof.Proof.KI.Entry4
import proofs.«401090_j62775241999084_2_alg».proof.Proof.KI.Entry5
import proofs.«401090_j62775241999084_2_alg».proof.Proof.KI.Entry6
import proofs.«401090_j62775241999084_2_alg».proof.Proof.KI.Entry7
import proofs.«401090_j62775241999084_2_alg».proof.Proof.KI.Entry8
import proofs.«401090_j62775241999084_2_alg».proof.Proof.KI.Entry9
import proofs.«401090_j62775241999084_2_alg».proof.Proof.KI.Entry10
import proofs.«401090_j62775241999084_2_alg».proof.Proof.KI.Entry11
import proofs.«401090_j62775241999084_2_alg».proof.Proof.KI.Entry12
import proofs.«401090_j62775241999084_2_alg».proof.Proof.KI.Entry13
import proofs.«401090_j62775241999084_2_alg».proof.Proof.KI.Entry14
import proofs.«401090_j62775241999084_2_alg».proof.Proof.KI.Entry15
import proofs.«401090_j62775241999084_2_alg».proof.Proof.KI.Entry16
import proofs.«401090_j62775241999084_2_alg».proof.Proof.KI.Entry17
import proofs.«401090_j62775241999084_2_alg».proof.Proof.KI.Entry18
import proofs.«401090_j62775241999084_2_alg».proof.Proof.KI.Entry19

set_option maxRecDepth 16384

noncomputable section

namespace Cert.KernelIdeal.Gen

open Idealize.ShloMosaic Idealize.ShloMosaic.TcCoe Idealize.SL Idealize.SL.Sem

variable {F : FTy → Type} [FloatOps F]
variable (m : (ℓ : Loc nD τ sig) → Buf (Elt F) ℓ)
variable (hR : ∀ c : Dev nD, Cert.EdgeLengths.InRange (m ((c.tc : Thread nD τ).loc main_arg1)))

/-! ## Region 0 -/
theorem ent_xtab0 (c : Dev nD) : VE0 m hR c main_v8 = Vfirst m c main_v8 := rfl
theorem ent_out0 (c : Dev nD) : VE0 m hR c main_v13 = Vfirst m c main_v13 := rfl
theorem ent_pf0 (c : Dev nD) : ∀ k, VE0 m hR c (pre0.ref k) = (adm0 (F := F) m core0 (hR core0)).1 k := by
  obtain rfl := core_eq c
  intro k
  match k with
  | ⟨0, _⟩ => exact entry_tbl0_0 m core0
  | ⟨1, _⟩ => exact entry_tbl0_1 m core0
  | ⟨2, _⟩ => exact entry_tbl0_2 m core0
  | ⟨3, _⟩ => exact entry_tbl0_3 m core0
theorem ext_xtab0 (c : Dev nD) : VX0 m hR c main_v8 = VE0 m hR c main_v8 := V2_of m (outs m hR) c main_v8 (by decide)
theorem ext_out0 (c : Dev nD) : VX0 m hR c main_v13 = res0 m hR c := by
  show Function.update _ _ _ _ = _
  rw [Function.update_self]; exact outs_0 m hR c
theorem ext_pf0 (c : Dev nD) : ∀ k, VX0 m hR c (pre0.ref k) = (adm0 (F := F) m core0 (hR core0)).1 k := fun k =>
  (V2_of m (outs m hR) c (pre0.ref k) ((by decide : ∀ k : Fin 4, pre0.ref k ∉ ([main_v13] : List (Ref sig .tc))) k)).trans (ent_pf0 m hR c k)
theorem ext_rest0 (c : Dev nD) : ∀ b : Ref sig .tc, b ≠ main_v13 → VX0 m hR c b = VE0 m hR c b := fun b hb =>
  V2_of m (outs m hR) c b (fun h => hb (List.mem_singleton.mp h))

/-! ## Region 1 -/
theorem ent_xtab1 (c : Dev nD) : VE1 m hR c main_v8 = Vfirst m c main_v8 := entry_xtab1 m (outs m hR) c
theorem ent_out1 (c : Dev nD) : VE1 m hR c main_v18 = Vfirst m c main_v18 := entry_out1 m (outs m hR) c
theorem ent_pf1 (c : Dev nD) : ∀ k, VE1 m hR c (pre1.ref k) = (adm1 (F := F) m core0 (hR core0)).1 k := by
  obtain rfl := core_eq c
  intro k
  match k with
  | ⟨0, _⟩ => exact entry_tbl1_0 m (outs m hR) core0
  | ⟨1, _⟩ => exact entry_tbl1_1 m (outs m hR) core0
  | ⟨2, _⟩ => exact entry_tbl1_2 m (outs m hR) core0
  | ⟨3, _⟩ => exact entry_tbl1_3 m (outs m hR) core0
theorem ext_xtab1 (c : Dev nD) : VX1 m hR c main_v8 = VE1 m hR c main_v8 := V4_of m (outs m hR) c main_v8 (by decide)
theorem ext_out1 (c : Dev nD) : VX1 m hR c main_v18 = res1 m hR c := by
  show Function.update _ _ _ _ = _
  rw [Function.update_self]; exact outs_1 m hR c
theorem ext_pf1 (c : Dev nD) : ∀ k, VX1 m hR c (pre1.ref k) = (adm1 (F := F) m core0 (hR core0)).1 k := fun k =>
  (V4_of m (outs m hR) c (pre1.ref k) ((by decide : ∀ k : Fin 4, pre1.ref k ∉ ([main_v18] : List (Ref sig .tc))) k)).trans (ent_pf1 m hR c k)
theorem ext_rest1 (c : Dev nD) : ∀ b : Ref sig .tc, b ≠ main_v18 → VX1 m hR c b = VE1 m hR c b := fun b hb =>
  V4_of m (outs m hR) c b (fun h => hb (List.mem_singleton.mp h))

/-! ## Region 2 -/
theorem ent_xtab2 (c : Dev nD) : VE2 m hR c main_v8 = Vfirst m c main_v8 := entry_xtab2 m (outs m hR) c
theorem ent_out2 (c : Dev nD) : VE2 m hR c main_v23 = Vfirst m c main_v23 := entry_out2 m (outs m hR) c
theorem ent_pf2 (c : Dev nD) : ∀ k, VE2 m hR c (pre2.ref k) = (adm2 (F := F) m core0 (hR core0)).1 k := by
  obtain rfl := core_eq c
  intro k
  match k with
  | ⟨0, _⟩ => exact entry_tbl2_0 m (outs m hR) core0
  | ⟨1, _⟩ => exact entry_tbl2_1 m (outs m hR) core0
  | ⟨2, _⟩ => exact entry_tbl2_2 m (outs m hR) core0
  | ⟨3, _⟩ => exact entry_tbl2_3 m (outs m hR) core0
theorem ext_xtab2 (c : Dev nD) : VX2 m hR c main_v8 = VE2 m hR c main_v8 := V6_of m (outs m hR) c main_v8 (by decide)
theorem ext_out2 (c : Dev nD) : VX2 m hR c main_v23 = res2 m hR c := by
  show Function.update _ _ _ _ = _
  rw [Function.update_self]; exact outs_2 m hR c
theorem ext_pf2 (c : Dev nD) : ∀ k, VX2 m hR c (pre2.ref k) = (adm2 (F := F) m core0 (hR core0)).1 k := fun k =>
  (V6_of m (outs m hR) c (pre2.ref k) ((by decide : ∀ k : Fin 4, pre2.ref k ∉ ([main_v23] : List (Ref sig .tc))) k)).trans (ent_pf2 m hR c k)
theorem ext_rest2 (c : Dev nD) : ∀ b : Ref sig .tc, b ≠ main_v23 → VX2 m hR c b = VE2 m hR c b := fun b hb =>
  V6_of m (outs m hR) c b (fun h => hb (List.mem_singleton.mp h))

/-! ## Region 3 -/
theorem ent_xtab3 (c : Dev nD) : VE3 m hR c main_v8 = Vfirst m c main_v8 := entry_xtab3 m (outs m hR) c
theorem ent_out3 (c : Dev nD) : VE3 m hR c main_v28 = Vfirst m c main_v28 := entry_out3 m (outs m hR) c
theorem ent_pf3 (c : Dev nD) : ∀ k, VE3 m hR c (pre3.ref k) = (adm3 (F := F) m core0 (hR core0)).1 k := by
  obtain rfl := core_eq c
  intro k
  match k with
  | ⟨0, _⟩ => exact entry_tbl3_0 m (outs m hR) core0
  | ⟨1, _⟩ => exact entry_tbl3_1 m (outs m hR) core0
  | ⟨2, _⟩ => exact entry_tbl3_2 m (outs m hR) core0
  | ⟨3, _⟩ => exact entry_tbl3_3 m (outs m hR) core0
theorem ext_xtab3 (c : Dev nD) : VX3 m hR c main_v8 = VE3 m hR c main_v8 := V8_of m (outs m hR) c main_v8 (by decide)
theorem ext_out3 (c : Dev nD) : VX3 m hR c main_v28 = res3 m hR c := by
  show Function.update _ _ _ _ = _
  rw [Function.update_self]; exact outs_3 m hR c
theorem ext_pf3 (c : Dev nD) : ∀ k, VX3 m hR c (pre3.ref k) = (adm3 (F := F) m core0 (hR core0)).1 k := fun k =>
  (V8_of m (outs m hR) c (pre3.ref k) ((by decide : ∀ k : Fin 4, pre3.ref k ∉ ([main_v28] : List (Ref sig .tc))) k)).trans (ent_pf3 m hR c k)
theorem ext_rest3 (c : Dev nD) : ∀ b : Ref sig .tc, b ≠ main_v28 → VX3 m hR c b = VE3 m hR c b := fun b hb =>
  V8_of m (outs m hR) c b (fun h => hb (List.mem_singleton.mp h))

/-! ## Region 4 -/
theorem ent_xtab4 (c : Dev nD) : VE4 m hR c main_v8 = Vfirst m c main_v8 := entry_xtab4 m (outs m hR) c
theorem ent_out4 (c : Dev nD) : VE4 m hR c main_v33 = Vfirst m c main_v33 := entry_out4 m (outs m hR) c
theorem ent_pf4 (c : Dev nD) : ∀ k, VE4 m hR c (pre4.ref k) = (adm4 (F := F) m core0 (hR core0)).1 k := by
  obtain rfl := core_eq c
  intro k
  match k with
  | ⟨0, _⟩ => exact entry_tbl4_0 m (outs m hR) core0
  | ⟨1, _⟩ => exact entry_tbl4_1 m (outs m hR) core0
  | ⟨2, _⟩ => exact entry_tbl4_2 m (outs m hR) core0
  | ⟨3, _⟩ => exact entry_tbl4_3 m (outs m hR) core0
theorem ext_xtab4 (c : Dev nD) : VX4 m hR c main_v8 = VE4 m hR c main_v8 := V10_of m (outs m hR) c main_v8 (by decide)
theorem ext_out4 (c : Dev nD) : VX4 m hR c main_v33 = res4 m hR c := by
  show Function.update _ _ _ _ = _
  rw [Function.update_self]; exact outs_4 m hR c
theorem ext_pf4 (c : Dev nD) : ∀ k, VX4 m hR c (pre4.ref k) = (adm4 (F := F) m core0 (hR core0)).1 k := fun k =>
  (V10_of m (outs m hR) c (pre4.ref k) ((by decide : ∀ k : Fin 4, pre4.ref k ∉ ([main_v33] : List (Ref sig .tc))) k)).trans (ent_pf4 m hR c k)
theorem ext_rest4 (c : Dev nD) : ∀ b : Ref sig .tc, b ≠ main_v33 → VX4 m hR c b = VE4 m hR c b := fun b hb =>
  V10_of m (outs m hR) c b (fun h => hb (List.mem_singleton.mp h))

/-! ## Region 5 -/
theorem ent_xtab5 (c : Dev nD) : VE5 m hR c main_v8 = Vfirst m c main_v8 := entry_xtab5 m (outs m hR) c
theorem ent_out5 (c : Dev nD) : VE5 m hR c main_v38 = Vfirst m c main_v38 := entry_out5 m (outs m hR) c
theorem ent_pf5 (c : Dev nD) : ∀ k, VE5 m hR c (pre5.ref k) = (adm5 (F := F) m core0 (hR core0)).1 k := by
  obtain rfl := core_eq c
  intro k
  match k with
  | ⟨0, _⟩ => exact entry_tbl5_0 m (outs m hR) core0
  | ⟨1, _⟩ => exact entry_tbl5_1 m (outs m hR) core0
  | ⟨2, _⟩ => exact entry_tbl5_2 m (outs m hR) core0
  | ⟨3, _⟩ => exact entry_tbl5_3 m (outs m hR) core0
theorem ext_xtab5 (c : Dev nD) : VX5 m hR c main_v8 = VE5 m hR c main_v8 := V12_of m (outs m hR) c main_v8 (by decide)
theorem ext_out5 (c : Dev nD) : VX5 m hR c main_v38 = res5 m hR c := by
  show Function.update _ _ _ _ = _
  rw [Function.update_self]; exact outs_5 m hR c
theorem ext_pf5 (c : Dev nD) : ∀ k, VX5 m hR c (pre5.ref k) = (adm5 (F := F) m core0 (hR core0)).1 k := fun k =>
  (V12_of m (outs m hR) c (pre5.ref k) ((by decide : ∀ k : Fin 4, pre5.ref k ∉ ([main_v38] : List (Ref sig .tc))) k)).trans (ent_pf5 m hR c k)
theorem ext_rest5 (c : Dev nD) : ∀ b : Ref sig .tc, b ≠ main_v38 → VX5 m hR c b = VE5 m hR c b := fun b hb =>
  V12_of m (outs m hR) c b (fun h => hb (List.mem_singleton.mp h))

/-! ## Region 6 -/
theorem ent_xtab6 (c : Dev nD) : VE6 m hR c main_v8 = Vfirst m c main_v8 := entry_xtab6 m (outs m hR) c
theorem ent_out6 (c : Dev nD) : VE6 m hR c main_v43 = Vfirst m c main_v43 := entry_out6 m (outs m hR) c
theorem ent_pf6 (c : Dev nD) : ∀ k, VE6 m hR c (pre6.ref k) = (adm6 (F := F) m core0 (hR core0)).1 k := by
  obtain rfl := core_eq c
  intro k
  match k with
  | ⟨0, _⟩ => exact entry_tbl6_0 m (outs m hR) core0
  | ⟨1, _⟩ => exact entry_tbl6_1 m (outs m hR) core0
  | ⟨2, _⟩ => exact entry_tbl6_2 m (outs m hR) core0
  | ⟨3, _⟩ => exact entry_tbl6_3 m (outs m hR) core0
theorem ext_xtab6 (c : Dev nD) : VX6 m hR c main_v8 = VE6 m hR c main_v8 := V14_of m (outs m hR) c main_v8 (by decide)
theorem ext_out6 (c : Dev nD) : VX6 m hR c main_v43 = res6 m hR c := by
  show Function.update _ _ _ _ = _
  rw [Function.update_self]; exact outs_6 m hR c
theorem ext_pf6 (c : Dev nD) : ∀ k, VX6 m hR c (pre6.ref k) = (adm6 (F := F) m core0 (hR core0)).1 k := fun k =>
  (V14_of m (outs m hR) c (pre6.ref k) ((by decide : ∀ k : Fin 4, pre6.ref k ∉ ([main_v43] : List (Ref sig .tc))) k)).trans (ent_pf6 m hR c k)
theorem ext_rest6 (c : Dev nD) : ∀ b : Ref sig .tc, b ≠ main_v43 → VX6 m hR c b = VE6 m hR c b := fun b hb =>
  V14_of m (outs m hR) c b (fun h => hb (List.mem_singleton.mp h))

/-! ## Region 7 -/
theorem ent_xtab7 (c : Dev nD) : VE7 m hR c main_v8 = Vfirst m c main_v8 := entry_xtab7 m (outs m hR) c
theorem ent_out7 (c : Dev nD) : VE7 m hR c main_v48 = Vfirst m c main_v48 := entry_out7 m (outs m hR) c
theorem ent_pf7 (c : Dev nD) : ∀ k, VE7 m hR c (pre7.ref k) = (adm7 (F := F) m core0 (hR core0)).1 k := by
  obtain rfl := core_eq c
  intro k
  match k with
  | ⟨0, _⟩ => exact entry_tbl7_0 m (outs m hR) core0
  | ⟨1, _⟩ => exact entry_tbl7_1 m (outs m hR) core0
  | ⟨2, _⟩ => exact entry_tbl7_2 m (outs m hR) core0
  | ⟨3, _⟩ => exact entry_tbl7_3 m (outs m hR) core0
theorem ext_xtab7 (c : Dev nD) : VX7 m hR c main_v8 = VE7 m hR c main_v8 := V16_of m (outs m hR) c main_v8 (by decide)
theorem ext_out7 (c : Dev nD) : VX7 m hR c main_v48 = res7 m hR c := by
  show Function.update _ _ _ _ = _
  rw [Function.update_self]; exact outs_7 m hR c
theorem ext_pf7 (c : Dev nD) : ∀ k, VX7 m hR c (pre7.ref k) = (adm7 (F := F) m core0 (hR core0)).1 k := fun k =>
  (V16_of m (outs m hR) c (pre7.ref k) ((by decide : ∀ k : Fin 4, pre7.ref k ∉ ([main_v48] : List (Ref sig .tc))) k)).trans (ent_pf7 m hR c k)
theorem ext_rest7 (c : Dev nD) : ∀ b : Ref sig .tc, b ≠ main_v48 → VX7 m hR c b = VE7 m hR c b := fun b hb =>
  V16_of m (outs m hR) c b (fun h => hb (List.mem_singleton.mp h))

/-! ## Region 8 -/
theorem ent_xtab8 (c : Dev nD) : VE8 m hR c main_v8 = Vfirst m c main_v8 := entry_xtab8 m (outs m hR) c
theorem ent_out8 (c : Dev nD) : VE8 m hR c main_v53 = Vfirst m c main_v53 := entry_out8 m (outs m hR) c
theorem ent_pf8 (c : Dev nD) : ∀ k, VE8 m hR c (pre8.ref k) = (adm8 (F := F) m core0 (hR core0)).1 k := by
  obtain rfl := core_eq c
  intro k
  match k with
  | ⟨0, _⟩ => exact entry_tbl8_0 m (outs m hR) core0
  | ⟨1, _⟩ => exact entry_tbl8_1 m (outs m hR) core0
  | ⟨2, _⟩ => exact entry_tbl8_2 m (outs m hR) core0
  | ⟨3, _⟩ => exact entry_tbl8_3 m (outs m hR) core0
theorem ext_xtab8 (c : Dev nD) : VX8 m hR c main_v8 = VE8 m hR c main_v8 := V18_of m (outs m hR) c main_v8 (by decide)
theorem ext_out8 (c : Dev nD) : VX8 m hR c main_v53 = res8 m hR c := by
  show Function.update _ _ _ _ = _
  rw [Function.update_self]; exact outs_8 m hR c
theorem ext_pf8 (c : Dev nD) : ∀ k, VX8 m hR c (pre8.ref k) = (adm8 (F := F) m core0 (hR core0)).1 k := fun k =>
  (V18_of m (outs m hR) c (pre8.ref k) ((by decide : ∀ k : Fin 4, pre8.ref k ∉ ([main_v53] : List (Ref sig .tc))) k)).trans (ent_pf8 m hR c k)
theorem ext_rest8 (c : Dev nD) : ∀ b : Ref sig .tc, b ≠ main_v53 → VX8 m hR c b = VE8 m hR c b := fun b hb =>
  V18_of m (outs m hR) c b (fun h => hb (List.mem_singleton.mp h))

/-! ## Region 9 -/
theorem ent_xtab9 (c : Dev nD) : VE9 m hR c main_v8 = Vfirst m c main_v8 := entry_xtab9 m (outs m hR) c
theorem ent_out9 (c : Dev nD) : VE9 m hR c main_v58 = Vfirst m c main_v58 := entry_out9 m (outs m hR) c
theorem ent_pf9 (c : Dev nD) : ∀ k, VE9 m hR c (pre9.ref k) = (adm9 (F := F) m core0 (hR core0)).1 k := by
  obtain rfl := core_eq c
  intro k
  match k with
  | ⟨0, _⟩ => exact entry_tbl9_0 m (outs m hR) core0
  | ⟨1, _⟩ => exact entry_tbl9_1 m (outs m hR) core0
  | ⟨2, _⟩ => exact entry_tbl9_2 m (outs m hR) core0
  | ⟨3, _⟩ => exact entry_tbl9_3 m (outs m hR) core0
theorem ext_xtab9 (c : Dev nD) : VX9 m hR c main_v8 = VE9 m hR c main_v8 := V20_of m (outs m hR) c main_v8 (by decide)
theorem ext_out9 (c : Dev nD) : VX9 m hR c main_v58 = res9 m hR c := by
  show Function.update _ _ _ _ = _
  rw [Function.update_self]; exact outs_9 m hR c
theorem ext_pf9 (c : Dev nD) : ∀ k, VX9 m hR c (pre9.ref k) = (adm9 (F := F) m core0 (hR core0)).1 k := fun k =>
  (V20_of m (outs m hR) c (pre9.ref k) ((by decide : ∀ k : Fin 4, pre9.ref k ∉ ([main_v58] : List (Ref sig .tc))) k)).trans (ent_pf9 m hR c k)
theorem ext_rest9 (c : Dev nD) : ∀ b : Ref sig .tc, b ≠ main_v58 → VX9 m hR c b = VE9 m hR c b := fun b hb =>
  V20_of m (outs m hR) c b (fun h => hb (List.mem_singleton.mp h))

/-! ## Region 10 -/
theorem ent_xtab10 (c : Dev nD) : VE10 m hR c main_v8 = Vfirst m c main_v8 := entry_xtab10 m (outs m hR) c
theorem ent_out10 (c : Dev nD) : VE10 m hR c main_v63 = Vfirst m c main_v63 := entry_out10 m (outs m hR) c
theorem ent_pf10 (c : Dev nD) : ∀ k, VE10 m hR c (pre10.ref k) = (adm10 (F := F) m core0 (hR core0)).1 k := by
  obtain rfl := core_eq c
  intro k
  match k with
  | ⟨0, _⟩ => exact entry_tbl10_0 m (outs m hR) core0
  | ⟨1, _⟩ => exact entry_tbl10_1 m (outs m hR) core0
  | ⟨2, _⟩ => exact entry_tbl10_2 m (outs m hR) core0
  | ⟨3, _⟩ => exact entry_tbl10_3 m (outs m hR) core0
theorem ext_xtab10 (c : Dev nD) : VX10 m hR c main_v8 = VE10 m hR c main_v8 := V22_of m (outs m hR) c main_v8 (by decide)
theorem ext_out10 (c : Dev nD) : VX10 m hR c main_v63 = res10 m hR c := by
  show Function.update _ _ _ _ = _
  rw [Function.update_self]; exact outs_10 m hR c
theorem ext_pf10 (c : Dev nD) : ∀ k, VX10 m hR c (pre10.ref k) = (adm10 (F := F) m core0 (hR core0)).1 k := fun k =>
  (V22_of m (outs m hR) c (pre10.ref k) ((by decide : ∀ k : Fin 4, pre10.ref k ∉ ([main_v63] : List (Ref sig .tc))) k)).trans (ent_pf10 m hR c k)
theorem ext_rest10 (c : Dev nD) : ∀ b : Ref sig .tc, b ≠ main_v63 → VX10 m hR c b = VE10 m hR c b := fun b hb =>
  V22_of m (outs m hR) c b (fun h => hb (List.mem_singleton.mp h))

/-! ## Region 11 -/
theorem ent_xtab11 (c : Dev nD) : VE11 m hR c main_v8 = Vfirst m c main_v8 := entry_xtab11 m (outs m hR) c
theorem ent_out11 (c : Dev nD) : VE11 m hR c main_v68 = Vfirst m c main_v68 := entry_out11 m (outs m hR) c
theorem ent_pf11 (c : Dev nD) : ∀ k, VE11 m hR c (pre11.ref k) = (adm11 (F := F) m core0 (hR core0)).1 k := by
  obtain rfl := core_eq c
  intro k
  match k with
  | ⟨0, _⟩ => exact entry_tbl11_0 m (outs m hR) core0
  | ⟨1, _⟩ => exact entry_tbl11_1 m (outs m hR) core0
  | ⟨2, _⟩ => exact entry_tbl11_2 m (outs m hR) core0
  | ⟨3, _⟩ => exact entry_tbl11_3 m (outs m hR) core0
theorem ext_xtab11 (c : Dev nD) : VX11 m hR c main_v8 = VE11 m hR c main_v8 := V24_of m (outs m hR) c main_v8 (by decide)
theorem ext_out11 (c : Dev nD) : VX11 m hR c main_v68 = res11 m hR c := by
  show Function.update _ _ _ _ = _
  rw [Function.update_self]; exact outs_11 m hR c
theorem ext_pf11 (c : Dev nD) : ∀ k, VX11 m hR c (pre11.ref k) = (adm11 (F := F) m core0 (hR core0)).1 k := fun k =>
  (V24_of m (outs m hR) c (pre11.ref k) ((by decide : ∀ k : Fin 4, pre11.ref k ∉ ([main_v68] : List (Ref sig .tc))) k)).trans (ent_pf11 m hR c k)
theorem ext_rest11 (c : Dev nD) : ∀ b : Ref sig .tc, b ≠ main_v68 → VX11 m hR c b = VE11 m hR c b := fun b hb =>
  V24_of m (outs m hR) c b (fun h => hb (List.mem_singleton.mp h))

/-! ## Region 12 -/
theorem ent_xtab12 (c : Dev nD) : VE12 m hR c main_v8 = Vfirst m c main_v8 := entry_xtab12 m (outs m hR) c
theorem ent_out12 (c : Dev nD) : VE12 m hR c main_v73 = Vfirst m c main_v73 := entry_out12 m (outs m hR) c
theorem ent_pf12 (c : Dev nD) : ∀ k, VE12 m hR c (pre12.ref k) = (adm12 (F := F) m core0 (hR core0)).1 k := by
  obtain rfl := core_eq c
  intro k
  match k with
  | ⟨0, _⟩ => exact entry_tbl12_0 m (outs m hR) core0
  | ⟨1, _⟩ => exact entry_tbl12_1 m (outs m hR) core0
  | ⟨2, _⟩ => exact entry_tbl12_2 m (outs m hR) core0
  | ⟨3, _⟩ => exact entry_tbl12_3 m (outs m hR) core0
theorem ext_xtab12 (c : Dev nD) : VX12 m hR c main_v8 = VE12 m hR c main_v8 := V26_of m (outs m hR) c main_v8 (by decide)
theorem ext_out12 (c : Dev nD) : VX12 m hR c main_v73 = res12 m hR c := by
  show Function.update _ _ _ _ = _
  rw [Function.update_self]; exact outs_12 m hR c
theorem ext_pf12 (c : Dev nD) : ∀ k, VX12 m hR c (pre12.ref k) = (adm12 (F := F) m core0 (hR core0)).1 k := fun k =>
  (V26_of m (outs m hR) c (pre12.ref k) ((by decide : ∀ k : Fin 4, pre12.ref k ∉ ([main_v73] : List (Ref sig .tc))) k)).trans (ent_pf12 m hR c k)
theorem ext_rest12 (c : Dev nD) : ∀ b : Ref sig .tc, b ≠ main_v73 → VX12 m hR c b = VE12 m hR c b := fun b hb =>
  V26_of m (outs m hR) c b (fun h => hb (List.mem_singleton.mp h))

/-! ## Region 13 -/
theorem ent_xtab13 (c : Dev nD) : VE13 m hR c main_v8 = Vfirst m c main_v8 := entry_xtab13 m (outs m hR) c
theorem ent_out13 (c : Dev nD) : VE13 m hR c main_v78 = Vfirst m c main_v78 := entry_out13 m (outs m hR) c
theorem ent_pf13 (c : Dev nD) : ∀ k, VE13 m hR c (pre13.ref k) = (adm13 (F := F) m core0 (hR core0)).1 k := by
  obtain rfl := core_eq c
  intro k
  match k with
  | ⟨0, _⟩ => exact entry_tbl13_0 m (outs m hR) core0
  | ⟨1, _⟩ => exact entry_tbl13_1 m (outs m hR) core0
  | ⟨2, _⟩ => exact entry_tbl13_2 m (outs m hR) core0
  | ⟨3, _⟩ => exact entry_tbl13_3 m (outs m hR) core0
theorem ext_xtab13 (c : Dev nD) : VX13 m hR c main_v8 = VE13 m hR c main_v8 := V28_of m (outs m hR) c main_v8 (by decide)
theorem ext_out13 (c : Dev nD) : VX13 m hR c main_v78 = res13 m hR c := by
  show Function.update _ _ _ _ = _
  rw [Function.update_self]; exact outs_13 m hR c
theorem ext_pf13 (c : Dev nD) : ∀ k, VX13 m hR c (pre13.ref k) = (adm13 (F := F) m core0 (hR core0)).1 k := fun k =>
  (V28_of m (outs m hR) c (pre13.ref k) ((by decide : ∀ k : Fin 4, pre13.ref k ∉ ([main_v78] : List (Ref sig .tc))) k)).trans (ent_pf13 m hR c k)
theorem ext_rest13 (c : Dev nD) : ∀ b : Ref sig .tc, b ≠ main_v78 → VX13 m hR c b = VE13 m hR c b := fun b hb =>
  V28_of m (outs m hR) c b (fun h => hb (List.mem_singleton.mp h))

/-! ## Region 14 -/
theorem ent_xtab14 (c : Dev nD) : VE14 m hR c main_v8 = Vfirst m c main_v8 := entry_xtab14 m (outs m hR) c
theorem ent_out14 (c : Dev nD) : VE14 m hR c main_v83 = Vfirst m c main_v83 := entry_out14 m (outs m hR) c
theorem ent_pf14 (c : Dev nD) : ∀ k, VE14 m hR c (pre14.ref k) = (adm14 (F := F) m core0 (hR core0)).1 k := by
  obtain rfl := core_eq c
  intro k
  match k with
  | ⟨0, _⟩ => exact entry_tbl14_0 m (outs m hR) core0
  | ⟨1, _⟩ => exact entry_tbl14_1 m (outs m hR) core0
  | ⟨2, _⟩ => exact entry_tbl14_2 m (outs m hR) core0
  | ⟨3, _⟩ => exact entry_tbl14_3 m (outs m hR) core0
theorem ext_xtab14 (c : Dev nD) : VX14 m hR c main_v8 = VE14 m hR c main_v8 := V30_of m (outs m hR) c main_v8 (by decide)
theorem ext_out14 (c : Dev nD) : VX14 m hR c main_v83 = res14 m hR c := by
  show Function.update _ _ _ _ = _
  rw [Function.update_self]; exact outs_14 m hR c
theorem ext_pf14 (c : Dev nD) : ∀ k, VX14 m hR c (pre14.ref k) = (adm14 (F := F) m core0 (hR core0)).1 k := fun k =>
  (V30_of m (outs m hR) c (pre14.ref k) ((by decide : ∀ k : Fin 4, pre14.ref k ∉ ([main_v83] : List (Ref sig .tc))) k)).trans (ent_pf14 m hR c k)
theorem ext_rest14 (c : Dev nD) : ∀ b : Ref sig .tc, b ≠ main_v83 → VX14 m hR c b = VE14 m hR c b := fun b hb =>
  V30_of m (outs m hR) c b (fun h => hb (List.mem_singleton.mp h))

/-! ## Region 15 -/
theorem ent_xtab15 (c : Dev nD) : VE15 m hR c main_v8 = Vfirst m c main_v8 := entry_xtab15 m (outs m hR) c
theorem ent_out15 (c : Dev nD) : VE15 m hR c main_v88 = Vfirst m c main_v88 := entry_out15 m (outs m hR) c
theorem ent_pf15 (c : Dev nD) : ∀ k, VE15 m hR c (pre15.ref k) = (adm15 (F := F) m core0 (hR core0)).1 k := by
  obtain rfl := core_eq c
  intro k
  match k with
  | ⟨0, _⟩ => exact entry_tbl15_0 m (outs m hR) core0
  | ⟨1, _⟩ => exact entry_tbl15_1 m (outs m hR) core0
  | ⟨2, _⟩ => exact entry_tbl15_2 m (outs m hR) core0
  | ⟨3, _⟩ => exact entry_tbl15_3 m (outs m hR) core0
theorem ext_xtab15 (c : Dev nD) : VX15 m hR c main_v8 = VE15 m hR c main_v8 := V32_of m (outs m hR) c main_v8 (by decide)
theorem ext_out15 (c : Dev nD) : VX15 m hR c main_v88 = res15 m hR c := by
  show Function.update _ _ _ _ = _
  rw [Function.update_self]; exact outs_15 m hR c
theorem ext_pf15 (c : Dev nD) : ∀ k, VX15 m hR c (pre15.ref k) = (adm15 (F := F) m core0 (hR core0)).1 k := fun k =>
  (V32_of m (outs m hR) c (pre15.ref k) ((by decide : ∀ k : Fin 4, pre15.ref k ∉ ([main_v88] : List (Ref sig .tc))) k)).trans (ent_pf15 m hR c k)
theorem ext_rest15 (c : Dev nD) : ∀ b : Ref sig .tc, b ≠ main_v88 → VX15 m hR c b = VE15 m hR c b := fun b hb =>
  V32_of m (outs m hR) c b (fun h => hb (List.mem_singleton.mp h))

/-! ## Region 16 -/
theorem ent_xtab16 (c : Dev nD) : VE16 m hR c main_v8 = Vfirst m c main_v8 := entry_xtab16 m (outs m hR) c
theorem ent_out16 (c : Dev nD) : VE16 m hR c main_v93 = Vfirst m c main_v93 := entry_out16 m (outs m hR) c
theorem ent_pf16 (c : Dev nD) : ∀ k, VE16 m hR c (pre16.ref k) = (adm16 (F := F) m core0 (hR core0)).1 k := by
  obtain rfl := core_eq c
  intro k
  match k with
  | ⟨0, _⟩ => exact entry_tbl16_0 m (outs m hR) core0
  | ⟨1, _⟩ => exact entry_tbl16_1 m (outs m hR) core0
  | ⟨2, _⟩ => exact entry_tbl16_2 m (outs m hR) core0
  | ⟨3, _⟩ => exact entry_tbl16_3 m (outs m hR) core0
theorem ext_xtab16 (c : Dev nD) : VX16 m hR c main_v8 = VE16 m hR c main_v8 := V34_of m (outs m hR) c main_v8 (by decide)
theorem ext_out16 (c : Dev nD) : VX16 m hR c main_v93 = res16 m hR c := by
  show Function.update _ _ _ _ = _
  rw [Function.update_self]; exact outs_16 m hR c
theorem ext_pf16 (c : Dev nD) : ∀ k, VX16 m hR c (pre16.ref k) = (adm16 (F := F) m core0 (hR core0)).1 k := fun k =>
  (V34_of m (outs m hR) c (pre16.ref k) ((by decide : ∀ k : Fin 4, pre16.ref k ∉ ([main_v93] : List (Ref sig .tc))) k)).trans (ent_pf16 m hR c k)
theorem ext_rest16 (c : Dev nD) : ∀ b : Ref sig .tc, b ≠ main_v93 → VX16 m hR c b = VE16 m hR c b := fun b hb =>
  V34_of m (outs m hR) c b (fun h => hb (List.mem_singleton.mp h))

/-! ## Region 17 -/
theorem ent_xtab17 (c : Dev nD) : VE17 m hR c main_v8 = Vfirst m c main_v8 := entry_xtab17 m (outs m hR) c
theorem ent_out17 (c : Dev nD) : VE17 m hR c main_v98 = Vfirst m c main_v98 := entry_out17 m (outs m hR) c
theorem ent_pf17 (c : Dev nD) : ∀ k, VE17 m hR c (pre17.ref k) = (adm17 (F := F) m core0 (hR core0)).1 k := by
  obtain rfl := core_eq c
  intro k
  match k with
  | ⟨0, _⟩ => exact entry_tbl17_0 m (outs m hR) core0
  | ⟨1, _⟩ => exact entry_tbl17_1 m (outs m hR) core0
  | ⟨2, _⟩ => exact entry_tbl17_2 m (outs m hR) core0
  | ⟨3, _⟩ => exact entry_tbl17_3 m (outs m hR) core0
theorem ext_xtab17 (c : Dev nD) : VX17 m hR c main_v8 = VE17 m hR c main_v8 := V36_of m (outs m hR) c main_v8 (by decide)
theorem ext_out17 (c : Dev nD) : VX17 m hR c main_v98 = res17 m hR c := by
  show Function.update _ _ _ _ = _
  rw [Function.update_self]; exact outs_17 m hR c
theorem ext_pf17 (c : Dev nD) : ∀ k, VX17 m hR c (pre17.ref k) = (adm17 (F := F) m core0 (hR core0)).1 k := fun k =>
  (V36_of m (outs m hR) c (pre17.ref k) ((by decide : ∀ k : Fin 4, pre17.ref k ∉ ([main_v98] : List (Ref sig .tc))) k)).trans (ent_pf17 m hR c k)
theorem ext_rest17 (c : Dev nD) : ∀ b : Ref sig .tc, b ≠ main_v98 → VX17 m hR c b = VE17 m hR c b := fun b hb =>
  V36_of m (outs m hR) c b (fun h => hb (List.mem_singleton.mp h))

/-! ## Region 18 -/
theorem ent_xtab18 (c : Dev nD) : VE18 m hR c main_v8 = Vfirst m c main_v8 := entry_xtab18 m (outs m hR) c
theorem ent_out18 (c : Dev nD) : VE18 m hR c main_v103 = Vfirst m c main_v103 := entry_out18 m (outs m hR) c
theorem ent_pf18 (c : Dev nD) : ∀ k, VE18 m hR c (pre18.ref k) = (adm18 (F := F) m core0 (hR core0)).1 k := by
  obtain rfl := core_eq c
  intro k
  match k with
  | ⟨0, _⟩ => exact entry_tbl18_0 m (outs m hR) core0
  | ⟨1, _⟩ => exact entry_tbl18_1 m (outs m hR) core0
  | ⟨2, _⟩ => exact entry_tbl18_2 m (outs m hR) core0
  | ⟨3, _⟩ => exact entry_tbl18_3 m (outs m hR) core0
theorem ext_xtab18 (c : Dev nD) : VX18 m hR c main_v8 = VE18 m hR c main_v8 := V38_of m (outs m hR) c main_v8 (by decide)
theorem ext_out18 (c : Dev nD) : VX18 m hR c main_v103 = res18 m hR c := by
  show Function.update _ _ _ _ = _
  rw [Function.update_self]; exact outs_18 m hR c
theorem ext_pf18 (c : Dev nD) : ∀ k, VX18 m hR c (pre18.ref k) = (adm18 (F := F) m core0 (hR core0)).1 k := fun k =>
  (V38_of m (outs m hR) c (pre18.ref k) ((by decide : ∀ k : Fin 4, pre18.ref k ∉ ([main_v103] : List (Ref sig .tc))) k)).trans (ent_pf18 m hR c k)
theorem ext_rest18 (c : Dev nD) : ∀ b : Ref sig .tc, b ≠ main_v103 → VX18 m hR c b = VE18 m hR c b := fun b hb =>
  V38_of m (outs m hR) c b (fun h => hb (List.mem_singleton.mp h))

/-! ## Region 19 -/
theorem ent_xtab19 (c : Dev nD) : VE19 m hR c main_v8 = Vfirst m c main_v8 := entry_xtab19 m (outs m hR) c
theorem ent_out19 (c : Dev nD) : VE19 m hR c main_v108 = Vfirst m c main_v108 := entry_out19 m (outs m hR) c
theorem ent_pf19 (c : Dev nD) : ∀ k, VE19 m hR c (pre19.ref k) = (adm19 (F := F) m core0 (hR core0)).1 k := by
  obtain rfl := core_eq c
  intro k
  match k with
  | ⟨0, _⟩ => exact entry_tbl19_0 m (outs m hR) core0
  | ⟨1, _⟩ => exact entry_tbl19_1 m (outs m hR) core0
  | ⟨2, _⟩ => exact entry_tbl19_2 m (outs m hR) core0
  | ⟨3, _⟩ => exact entry_tbl19_3 m (outs m hR) core0
theorem ext_xtab19 (c : Dev nD) : VX19 m hR c main_v8 = VE19 m hR c main_v8 := V40_of m (outs m hR) c main_v8 (by decide)
theorem ext_out19 (c : Dev nD) : VX19 m hR c main_v108 = res19 m hR c := by
  show Function.update _ _ _ _ = _
  rw [Function.update_self]; exact outs_19 m hR c
theorem ext_pf19 (c : Dev nD) : ∀ k, VX19 m hR c (pre19.ref k) = (adm19 (F := F) m core0 (hR core0)).1 k := fun k =>
  (V40_of m (outs m hR) c (pre19.ref k) ((by decide : ∀ k : Fin 4, pre19.ref k ∉ ([main_v108] : List (Ref sig .tc))) k)).trans (ent_pf19 m hR c k)
theorem ext_rest19 (c : Dev nD) : ∀ b : Ref sig .tc, b ≠ main_v108 → VX19 m hR c b = VE19 m hR c b := fun b hb =>
  V40_of m (outs m hR) c b (fun h => hb (List.mem_singleton.mp h))

end Cert.KernelIdeal.Gen

end
-- ==== Proof.KI.SegCommon.lean ====
/-
  What every region's entry and exit share: what rides beside the buffers from segment to segment, and two ways of
  writing a finite conjunction out.
-/
import proofs.«401090_j62775241999084_2_alg».proof.Proof.KI.BodyCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What rides beside the buffers through every segment: the generator register at some state, nothing owed. -/
abbrev Rside (c : Dev nD) : sProp 𝕄 :=
  iprop((∃ r, prngReg c r) ∗ ∃ W, owes (c : Thread nD τ) (0 : CellTallies nD τ sig Unit) W)

/-- Four-way conjunction over the four input windows. -/
theorem bigSep_F4 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-- A conjunction over two distinct buffers. -/
theorem bigSep_pair {M : Type} [URA M] (x y : Ref sig .tc) (h : x ∉ ({y} : Finset (Ref sig .tc))) (Φ : Ref sig .tc → sProp M) :
    bigSep ({x, y} : Finset (Ref sig .tc)) Φ = iprop(Φ x ∗ Φ y) := by
  rw [bigSep_insert h, bigSep_singleton]; rfl

end Cert.KernelIdeal.Gen

end
-- ==== Proof.KI.Seg0.lean ====
/-
  Region 0 of the gather-and-norm program, second half: how the region is entered and left.

  Between two segments of the program a core holds every unscoped buffer whole. Region 0 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region0
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg0 (F := F)).Adm)

/-- What bypasses region 0: every unscoped buffer that is neither one of its two arrays nor one of its four tables,
    and the part of the point table's share the four input windows do not need. -/
def Zrest0 (c : Dev nD) : sProp 𝕄 :=
  iprop(Pipeline.unscopedRestP (Ix := Unit) (Name := ℕ) (U := UR sig nD τ) (Lvl := ℕ) pre0 spec0 c (fun b => Vact c b)
    ∗ (((c.tc : Thread nD τ).loc main_v8) ↦{Transfers.shareDrop fullShare 4} Vact c main_v8))

/-- Region 0's arrays, window by window: the point table four times, at the four quarter shares, and the output
    array whole. -/
theorem arrays_eq0 (c : Dev nD)
    (G : (w : Fin (cfg0 a).W) → Buf (Elt F) (((cfg0 a).win w).arr.view.loc (c.tc : Thread nD τ))) :
    (dat0 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v13) ↦{fullShare} G 4)) : sProp 𝕄) := by
  unfold Dat.arrays
  rw [show (bigSep Finset.univ fun w : Fin (cfg0 a).W =>
          ((((cfg0 a).win w).arr.view.loc (c.tc : Thread nD τ)) ↦[((cfg0 a).win w).arr.view.set]{(dat0 V a c).share w} G w : sProp 𝕄))
        = bigSep Finset.univ fun w : Fin (cfg0 a).W =>
          ((((c.tc : Thread nD τ).loc (Pipeline.arrRef spec0 w)) ↦{(dat0 V a c).share w} G w : sProp 𝕄))
      from bigSep_congr fun w _ => by rw [(arr_whole0 w).set_eq_univ]]
  rw [bigSep_W0]
  have hs0 : (dat0 V a c).share 0 = Transfers.shareTok fullShare 4 0 := rfl
  have hs1 : (dat0 V a c).share 1 = Transfers.shareTok fullShare 4 1 := rfl
  have hs2 : (dat0 V a c).share 2 = Transfers.shareTok fullShare 4 2 := rfl
  have hs3 : (dat0 V a c).share 3 = Transfers.shareTok fullShare 4 3 := rfl
  have hs4 : (dat0 V a c).share 4 = fullShare := rfl
  rw [hs0, hs1, hs2, hs3, hs4]

theorem hentry0 (c : Dev nD) (L : GSem nD τ sig → Finset Unit) (lv : GSem nD τ sig → Unit → ℕ)
    (h8 : Vact c main_v8 = V c main_v8) (h13 : Vact c main_v13 = V c main_v13)
    (hpf : ∀ k, Vact c (pre0.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat0 V a c).arrays ((dat0 V a c).arrAt · 0)
          ∗ Pipeline.prefHeld pre0 c (fun _ => fullShare) a.1
          ∗ (dat0 V a c).owesAt () 0 ∗ (∃ r, prngReg c r) ∗ Zrest0 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec0 c (fun b => Vact c b) ∗ Pipeline.unscopedRest spec0 c (fun b => Vact c b)) :=
    Pipeline.PerCore.unscopedBufs_split₀ (fun (_ : Dev nD) (_ : Fin 1) => cfg0 a) (0 : Fin 1) c winFacts₀0.arr_unscoped _
  rw [e2, Pipeline.unscopedRest_split preFacts0 c _]
  have hImg : (Finset.univ.image (Pipeline.arrRef spec0) : Finset (Ref sig .tc)) = {main_v8, main_v13} := by decide
  unfold Pipeline.arrBufs
  rw [hImg, bigSep_pair main_v8 main_v13 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq0]
  have hA0 : (dat0 V a c).arrAt 0 0 = Vact c main_v8 := h8.symm
  have hA1 : (dat0 V a c).arrAt 1 0 = Vact c main_v8 := h8.symm
  have hA2 : (dat0 V a c).arrAt 2 0 = Vact c main_v8 := h8.symm
  have hA3 : (dat0 V a c).arrAt 3 0 = Vact c main_v8 := h8.symm
  have hA4 : (dat0 V a c).arrAt 4 0 = Vact c main_v13 := h13.symm
  rw [hA0, hA1, hA2, hA3, hA4]
  have hP : (fun k => Vact c (pre0.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest0
  isplitl [Hrest]; · iexact Hrest
  iexact Hdrop

/-- The invariant at the first point: the scoped buffers no window stages, the generator register, the four tables. -/
theorem hin0 (c : Dev nD) :
    iprop((∃ r, prngReg c r) ∗ Pipeline.prefHeld pre0 c (fun _ => fullShare) a.1
        ∗ Pipeline.scopedRest (Ix := Unit) (Name := ℕ) (U := UR sig nD τ) (Lvl := ℕ) (Val := Elt F) spec0 c)
      ⊢ ((dat0 V a c).Φ 0 : sProp 𝕄) := by
  rw [show (dat0 V a c).Φ 0 = iprop(Pipeline.ΦA spec0 c ∗ Pipeline.prefHeld pre0 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep0 (c : Dev nD) : sProp 𝕄 :=
  iprop((∃ r, prngReg c r) ∗ Pipeline.prefHeld pre0 c (fun _ => fullShare) a.1)

theorem hout0 (c : Dev nD) :
    ((dat0 V a c).Φ (Fin.last (cfg0 a).N) : sProp 𝕄)
      ⊢ iprop(Ykeep0 a c ∗ Pipeline.ownSems0 (fun k : PEmpty => k.elim) c
          ∗ Pipeline.scopedRest (Ix := Unit) (Name := ℕ) (U := UR sig nD τ) (Lvl := ℕ) (Val := Elt F) spec0 c) := by
  rw [Pipeline.ownSems0_none,
    show (dat0 V a c).Φ (Fin.last (cfg0 a).N) = iprop(Pipeline.ΦA spec0 c ∗ Pipeline.prefHeld pre0 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit0 (c : Dev nD) (Vact' : Dev nD → Valuation τ sig (Elt F))
    (h8 : Vact c main_v8 = V c main_v8)
    (h8' : Vact' c main_v8 = Vact c main_v8) (h13' : Vact' c main_v13 = (dat0 V a c).arrAt 4 (cfg0 a).N)
    (hpf : ∀ k, Vact' c (pre0.ref k) = a.1 k)
    (hrest : ∀ b : Ref sig .tc, b ≠ main_v13 → Vact' c b = Vact c b) :
    iprop((dat0 V a c).arrays ((dat0 V a c).arrAt · (cfg0 a).N) ∗ (dat0 V a c).owesAt () (Fin.last (cfg0 a).N)
        ∗ Ykeep0 a c ∗ Zrest0 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec0 c (fun b => Vact' c b) ∗ Pipeline.unscopedRest spec0 c (fun b => Vact' c b)) :=
    Pipeline.PerCore.unscopedBufs_split₀ (fun (_ : Dev nD) (_ : Fin 1) => cfg0 a) (0 : Fin 1) c winFacts₀0.arr_unscoped _
  rw [e2, Pipeline.unscopedRest_split preFacts0 c _]
  have hImg : (Finset.univ.image (Pipeline.arrRef spec0) : Finset (Ref sig .tc)) = {main_v8, main_v13} := by decide
  unfold Pipeline.arrBufs
  rw [hImg, bigSep_pair main_v8 main_v13 (by decide)]
  have hRP : (Pipeline.unscopedRestP (Ix := Unit) (Name := ℕ) (U := UR sig nD τ) (Lvl := ℕ) pre0 spec0 c (fun b => Vact' c b) : sProp 𝕄)
      = Pipeline.unscopedRestP pre0 spec0 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre0.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq0]
  have hB0 : (dat0 V a c).arrAt 0 (cfg0 a).N = Vact c main_v8 := ((dat0 V a c).arrAt_in 0 rfl _).trans h8.symm
  have hB1 : (dat0 V a c).arrAt 1 (cfg0 a).N = Vact c main_v8 := ((dat0 V a c).arrAt_in 1 rfl _).trans h8.symm
  have hB2 : (dat0 V a c).arrAt 2 (cfg0 a).N = Vact c main_v8 := ((dat0 V a c).arrAt_in 2 rfl _).trans h8.symm
  have hB3 : (dat0 V a c).arrAt 3 (cfg0 a).N = Vact c main_v8 := ((dat0 V a c).arrAt_in 3 rfl _).trans h8.symm
  rw [hB0, hB1, hB2, hB3, hRP]
  unfold Zrest0
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v13 = (dat0 V a c).arrAt 4 (cfg0 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Levels.lean ====
/-
  No core of this program ever owes another anything, so no level is assigned to any cell.
-/
import proofs.«401090_j62775241999084_2_alg».proof.Proof.Gen.KernelIdeal

noncomputable section

namespace Cert.KernelIdeal.Gen

open Idealize.ShloMosaic Idealize.SL.Sem

abbrev Lnone : GSem nD τ sig → Finset Unit := fun _ => ∅
abbrev lvnone : GSem nD τ sig → Unit → ℕ := fun _ _ => 0

end Cert.KernelIdeal.Gen

end
-- ==== Proof.KI.Reg0.lean ====
/-
  Region 0 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg0
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 0 over the thread state. -/
def reg0 : Pipeline.RegionSeg (pcfgs (F := F)) (adm m hR) (pdats m hR) () defs₀ Variants.none Lnone lvnone (0 : Fin 20) where
  win := winFacts₀0
  block_pos := block_pos0
  stage_whole := stage_whole0
  K := PEmpty
  osem k := k.elim
  ho := Pipeline.OwnSemFacts.none _
  hbody c := (body_obligation0 (Vfirst m) (adm0 m core0 (hR core0)) c).loose
  hwaits := Pipeline.hwaits_of_owed_zero _ _ _ _ Lnone lvnone (0 : Fin 20) fun _ _ => rfl
  pre c := iprop(StableHlo.held (c : Thread nD τ) (Pipeline.ucRefs τ sig) (VE0 m hR c) ∗ Rside c)
  post c := iprop(StableHlo.held (c : Thread nD τ) (Pipeline.ucRefs τ sig) (VX0 m hR c) ∗ Rside c)
  X c := iprop(∃ r, prngReg c r)
  Y c := Ykeep0 (adm0 m core0 (hR core0)) c
  Z c := Zrest0 (VE0 m hR) c
  hentry c := hentry0 (VE0 m hR) (Vfirst m) (adm0 m core0 (hR core0)) c Lnone lvnone (ent_xtab0 m hR c) (ent_out0 m hR c) (ent_pf0 m hR c)
  hin c := hin0 (Vfirst m) (adm0 m core0 (hR core0)) c
  hout c := hout0 (Vfirst m) (adm0 m core0 (hR core0)) c
  hexit c := hexit0 (VE0 m hR) (Vfirst m) (adm0 m core0 (hR core0)) c (VX0 m hR) (ent_xtab0 m hR c) (ext_xtab0 m hR c) (ext_out0 m hR c)
    (ext_pf0 m hR c) (ext_rest0 m hR c)

end Cert.KernelIdeal.Gen

end
-- ==== Proof.KI.Seg1.lean ====
/-
  Region 1 of the gather-and-norm program, second half: how the region is entered and left.

  Between two segments of the program a core holds every unscoped buffer whole. Region 1 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region1
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg1 (F := F)).Adm)

/-- What bypasses region 1: every unscoped buffer that is neither one of its two arrays nor one of its four tables,
    and the part of the point table's share the four input windows do not need. -/
def Zrest1 (c : Dev nD) : sProp 𝕄 :=
  iprop(Pipeline.unscopedRestP (Ix := Unit) (Name := ℕ) (U := UR sig nD τ) (Lvl := ℕ) pre1 spec1 c (fun b => Vact c b)
    ∗ (((c.tc : Thread nD τ).loc main_v8) ↦{Transfers.shareDrop fullShare 4} Vact c main_v8))

/-- Region 1's arrays, window by window: the point table four times, at the four quarter shares, and the output
    array whole. -/
theorem arrays_eq1 (c : Dev nD)
    (G : (w : Fin (cfg1 a).W) → Buf (Elt F) (((cfg1 a).win w).arr.view.loc (c.tc : Thread nD τ))) :
    (dat1 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v18) ↦{fullShare} G 4)) : sProp 𝕄) := by
  unfold Dat.arrays
  rw [show (bigSep Finset.univ fun w : Fin (cfg1 a).W =>
          ((((cfg1 a).win w).arr.view.loc (c.tc : Thread nD τ)) ↦[((cfg1 a).win w).arr.view.set]{(dat1 V a c).share w} G w : sProp 𝕄))
        = bigSep Finset.univ fun w : Fin (cfg1 a).W =>
          ((((c.tc : Thread nD τ).loc (Pipeline.arrRef spec1 w)) ↦{(dat1 V a c).share w} G w : sProp 𝕄))
      from bigSep_congr fun w _ => by rw [(arr_whole1 w).set_eq_univ]]
  rw [bigSep_W1]
  have hs0 : (dat1 V a c).share 0 = Transfers.shareTok fullShare 4 0 := rfl
  have hs1 : (dat1 V a c).share 1 = Transfers.shareTok fullShare 4 1 := rfl
  have hs2 : (dat1 V a c).share 2 = Transfers.shareTok fullShare 4 2 := rfl
  have hs3 : (dat1 V a c).share 3 = Transfers.shareTok fullShare 4 3 := rfl
  have hs4 : (dat1 V a c).share 4 = fullShare := rfl
  rw [hs0, hs1, hs2, hs3, hs4]

theorem hentry1 (c : Dev nD) (L : GSem nD τ sig → Finset Unit) (lv : GSem nD τ sig → Unit → ℕ)
    (h8 : Vact c main_v8 = V c main_v8) (h13 : Vact c main_v18 = V c main_v18)
    (hpf : ∀ k, Vact c (pre1.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat1 V a c).arrays ((dat1 V a c).arrAt · 0)
          ∗ Pipeline.prefHeld pre1 c (fun _ => fullShare) a.1
          ∗ (dat1 V a c).owesAt () 0 ∗ (∃ r, prngReg c r) ∗ Zrest1 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec1 c (fun b => Vact c b) ∗ Pipeline.unscopedRest spec1 c (fun b => Vact c b)) :=
    Pipeline.PerCore.unscopedBufs_split₀ (fun (_ : Dev nD) (_ : Fin 1) => cfg1 a) (0 : Fin 1) c winFacts₀1.arr_unscoped _
  rw [e2, Pipeline.unscopedRest_split preFacts1 c _]
  have hImg : (Finset.univ.image (Pipeline.arrRef spec1) : Finset (Ref sig .tc)) = {main_v8, main_v18} := by decide
  unfold Pipeline.arrBufs
  rw [hImg, bigSep_pair main_v8 main_v18 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq1]
  have hA0 : (dat1 V a c).arrAt 0 0 = Vact c main_v8 := h8.symm
  have hA1 : (dat1 V a c).arrAt 1 0 = Vact c main_v8 := h8.symm
  have hA2 : (dat1 V a c).arrAt 2 0 = Vact c main_v8 := h8.symm
  have hA3 : (dat1 V a c).arrAt 3 0 = Vact c main_v8 := h8.symm
  have hA4 : (dat1 V a c).arrAt 4 0 = Vact c main_v18 := h13.symm
  rw [hA0, hA1, hA2, hA3, hA4]
  have hP : (fun k => Vact c (pre1.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest1
  isplitl [Hrest]; · iexact Hrest
  iexact Hdrop

/-- The invariant at the first point: the scoped buffers no window stages, the generator register, the four tables. -/
theorem hin1 (c : Dev nD) :
    iprop((∃ r, prngReg c r) ∗ Pipeline.prefHeld pre1 c (fun _ => fullShare) a.1
        ∗ Pipeline.scopedRest (Ix := Unit) (Name := ℕ) (U := UR sig nD τ) (Lvl := ℕ) (Val := Elt F) spec1 c)
      ⊢ ((dat1 V a c).Φ 0 : sProp 𝕄) := by
  rw [show (dat1 V a c).Φ 0 = iprop(Pipeline.ΦA spec1 c ∗ Pipeline.prefHeld pre1 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep1 (c : Dev nD) : sProp 𝕄 :=
  iprop((∃ r, prngReg c r) ∗ Pipeline.prefHeld pre1 c (fun _ => fullShare) a.1)

theorem hout1 (c : Dev nD) :
    ((dat1 V a c).Φ (Fin.last (cfg1 a).N) : sProp 𝕄)
      ⊢ iprop(Ykeep1 a c ∗ Pipeline.ownSems0 (fun k : PEmpty => k.elim) c
          ∗ Pipeline.scopedRest (Ix := Unit) (Name := ℕ) (U := UR sig nD τ) (Lvl := ℕ) (Val := Elt F) spec1 c) := by
  rw [Pipeline.ownSems0_none,
    show (dat1 V a c).Φ (Fin.last (cfg1 a).N) = iprop(Pipeline.ΦA spec1 c ∗ Pipeline.prefHeld pre1 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit1 (c : Dev nD) (Vact' : Dev nD → Valuation τ sig (Elt F))
    (h8 : Vact c main_v8 = V c main_v8)
    (h8' : Vact' c main_v8 = Vact c main_v8) (h13' : Vact' c main_v18 = (dat1 V a c).arrAt 4 (cfg1 a).N)
    (hpf : ∀ k, Vact' c (pre1.ref k) = a.1 k)
    (hrest : ∀ b : Ref sig .tc, b ≠ main_v18 → Vact' c b = Vact c b) :
    iprop((dat1 V a c).arrays ((dat1 V a c).arrAt · (cfg1 a).N) ∗ (dat1 V a c).owesAt () (Fin.last (cfg1 a).N)
        ∗ Ykeep1 a c ∗ Zrest1 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec1 c (fun b => Vact' c b) ∗ Pipeline.unscopedRest spec1 c (fun b => Vact' c b)) :=
    Pipeline.PerCore.unscopedBufs_split₀ (fun (_ : Dev nD) (_ : Fin 1) => cfg1 a) (0 : Fin 1) c winFacts₀1.arr_unscoped _
  rw [e2, Pipeline.unscopedRest_split preFacts1 c _]
  have hImg : (Finset.univ.image (Pipeline.arrRef spec1) : Finset (Ref sig .tc)) = {main_v8, main_v18} := by decide
  unfold Pipeline.arrBufs
  rw [hImg, bigSep_pair main_v8 main_v18 (by decide)]
  have hRP : (Pipeline.unscopedRestP (Ix := Unit) (Name := ℕ) (U := UR sig nD τ) (Lvl := ℕ) pre1 spec1 c (fun b => Vact' c b) : sProp 𝕄)
      = Pipeline.unscopedRestP pre1 spec1 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre1.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq1]
  have hB0 : (dat1 V a c).arrAt 0 (cfg1 a).N = Vact c main_v8 := ((dat1 V a c).arrAt_in 0 rfl _).trans h8.symm
  have hB1 : (dat1 V a c).arrAt 1 (cfg1 a).N = Vact c main_v8 := ((dat1 V a c).arrAt_in 1 rfl _).trans h8.symm
  have hB2 : (dat1 V a c).arrAt 2 (cfg1 a).N = Vact c main_v8 := ((dat1 V a c).arrAt_in 2 rfl _).trans h8.symm
  have hB3 : (dat1 V a c).arrAt 3 (cfg1 a).N = Vact c main_v8 := ((dat1 V a c).arrAt_in 3 rfl _).trans h8.symm
  rw [hB0, hB1, hB2, hB3, hRP]
  unfold Zrest1
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v18 = (dat1 V a c).arrAt 4 (cfg1 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg1.lean ====
/-
  Region 1 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg1
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 1 over the thread state. -/
def reg1 : Pipeline.RegionSeg (pcfgs (F := F)) (adm m hR) (pdats m hR) () defs₀ Variants.none Lnone lvnone (1 : Fin 20) where
  win := winFacts₀1
  block_pos := block_pos1
  stage_whole := stage_whole1
  K := PEmpty
  osem k := k.elim
  ho := Pipeline.OwnSemFacts.none _
  hbody c := (body_obligation1 (Vfirst m) (adm1 m core0 (hR core0)) c).loose
  hwaits := Pipeline.hwaits_of_owed_zero _ _ _ _ Lnone lvnone (1 : Fin 20) fun _ _ => rfl
  pre c := iprop(StableHlo.held (c : Thread nD τ) (Pipeline.ucRefs τ sig) (VE1 m hR c) ∗ Rside c)
  post c := iprop(StableHlo.held (c : Thread nD τ) (Pipeline.ucRefs τ sig) (VX1 m hR c) ∗ Rside c)
  X c := iprop(∃ r, prngReg c r)
  Y c := Ykeep1 (adm1 m core0 (hR core0)) c
  Z c := Zrest1 (VE1 m hR) c
  hentry c := hentry1 (VE1 m hR) (Vfirst m) (adm1 m core0 (hR core0)) c Lnone lvnone (ent_xtab1 m hR c) (ent_out1 m hR c) (ent_pf1 m hR c)
  hin c := hin1 (Vfirst m) (adm1 m core0 (hR core0)) c
  hout c := hout1 (Vfirst m) (adm1 m core0 (hR core0)) c
  hexit c := hexit1 (VE1 m hR) (Vfirst m) (adm1 m core0 (hR core0)) c (VX1 m hR) (ent_xtab1 m hR c) (ext_xtab1 m hR c) (ext_out1 m hR c)
    (ext_pf1 m hR c) (ext_rest1 m hR c)

end Cert.KernelIdeal.Gen

end
-- ==== Proof.KI.Seg2.lean ====
/-
  Region 2 of the gather-and-norm program, second half: how the region is entered and left.

  Between two segments of the program a core holds every unscoped buffer whole. Region 2 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region2
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg2 (F := F)).Adm)

/-- What bypasses region 2: every unscoped buffer that is neither one of its two arrays nor one of its four tables,
    and the part of the point table's share the four input windows do not need. -/
def Zrest2 (c : Dev nD) : sProp 𝕄 :=
  iprop(Pipeline.unscopedRestP (Ix := Unit) (Name := ℕ) (U := UR sig nD τ) (Lvl := ℕ) pre2 spec2 c (fun b => Vact c b)
    ∗ (((c.tc : Thread nD τ).loc main_v8) ↦{Transfers.shareDrop fullShare 4} Vact c main_v8))

/-- Region 2's arrays, window by window: the point table four times, at the four quarter shares, and the output
    array whole. -/
theorem arrays_eq2 (c : Dev nD)
    (G : (w : Fin (cfg2 a).W) → Buf (Elt F) (((cfg2 a).win w).arr.view.loc (c.tc : Thread nD τ))) :
    (dat2 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v23) ↦{fullShare} G 4)) : sProp 𝕄) := by
  unfold Dat.arrays
  rw [show (bigSep Finset.univ fun w : Fin (cfg2 a).W =>
          ((((cfg2 a).win w).arr.view.loc (c.tc : Thread nD τ)) ↦[((cfg2 a).win w).arr.view.set]{(dat2 V a c).share w} G w : sProp 𝕄))
        = bigSep Finset.univ fun w : Fin (cfg2 a).W =>
          ((((c.tc : Thread nD τ).loc (Pipeline.arrRef spec2 w)) ↦{(dat2 V a c).share w} G w : sProp 𝕄))
      from bigSep_congr fun w _ => by rw [(arr_whole2 w).set_eq_univ]]
  rw [bigSep_W2]
  have hs0 : (dat2 V a c).share 0 = Transfers.shareTok fullShare 4 0 := rfl
  have hs1 : (dat2 V a c).share 1 = Transfers.shareTok fullShare 4 1 := rfl
  have hs2 : (dat2 V a c).share 2 = Transfers.shareTok fullShare 4 2 := rfl
  have hs3 : (dat2 V a c).share 3 = Transfers.shareTok fullShare 4 3 := rfl
  have hs4 : (dat2 V a c).share 4 = fullShare := rfl
  rw [hs0, hs1, hs2, hs3, hs4]

theorem hentry2 (c : Dev nD) (L : GSem nD τ sig → Finset Unit) (lv : GSem nD τ sig → Unit → ℕ)
    (h8 : Vact c main_v8 = V c main_v8) (h13 : Vact c main_v23 = V c main_v23)
    (hpf : ∀ k, Vact c (pre2.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat2 V a c).arrays ((dat2 V a c).arrAt · 0)
          ∗ Pipeline.prefHeld pre2 c (fun _ => fullShare) a.1
          ∗ (dat2 V a c).owesAt () 0 ∗ (∃ r, prngReg c r) ∗ Zrest2 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec2 c (fun b => Vact c b) ∗ Pipeline.unscopedRest spec2 c (fun b => Vact c b)) :=
    Pipeline.PerCore.unscopedBufs_split₀ (fun (_ : Dev nD) (_ : Fin 1) => cfg2 a) (0 : Fin 1) c winFacts₀2.arr_unscoped _
  rw [e2, Pipeline.unscopedRest_split preFacts2 c _]
  have hImg : (Finset.univ.image (Pipeline.arrRef spec2) : Finset (Ref sig .tc)) = {main_v8, main_v23} := by decide
  unfold Pipeline.arrBufs
  rw [hImg, bigSep_pair main_v8 main_v23 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq2]
  have hA0 : (dat2 V a c).arrAt 0 0 = Vact c main_v8 := h8.symm
  have hA1 : (dat2 V a c).arrAt 1 0 = Vact c main_v8 := h8.symm
  have hA2 : (dat2 V a c).arrAt 2 0 = Vact c main_v8 := h8.symm
  have hA3 : (dat2 V a c).arrAt 3 0 = Vact c main_v8 := h8.symm
  have hA4 : (dat2 V a c).arrAt 4 0 = Vact c main_v23 := h13.symm
  rw [hA0, hA1, hA2, hA3, hA4]
  have hP : (fun k => Vact c (pre2.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest2
  isplitl [Hrest]; · iexact Hrest
  iexact Hdrop

/-- The invariant at the first point: the scoped buffers no window stages, the generator register, the four tables. -/
theorem hin2 (c : Dev nD) :
    iprop((∃ r, prngReg c r) ∗ Pipeline.prefHeld pre2 c (fun _ => fullShare) a.1
        ∗ Pipeline.scopedRest (Ix := Unit) (Name := ℕ) (U := UR sig nD τ) (Lvl := ℕ) (Val := Elt F) spec2 c)
      ⊢ ((dat2 V a c).Φ 0 : sProp 𝕄) := by
  rw [show (dat2 V a c).Φ 0 = iprop(Pipeline.ΦA spec2 c ∗ Pipeline.prefHeld pre2 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep2 (c : Dev nD) : sProp 𝕄 :=
  iprop((∃ r, prngReg c r) ∗ Pipeline.prefHeld pre2 c (fun _ => fullShare) a.1)

theorem hout2 (c : Dev nD) :
    ((dat2 V a c).Φ (Fin.last (cfg2 a).N) : sProp 𝕄)
      ⊢ iprop(Ykeep2 a c ∗ Pipeline.ownSems0 (fun k : PEmpty => k.elim) c
          ∗ Pipeline.scopedRest (Ix := Unit) (Name := ℕ) (U := UR sig nD τ) (Lvl := ℕ) (Val := Elt F) spec2 c) := by
  rw [Pipeline.ownSems0_none,
    show (dat2 V a c).Φ (Fin.last (cfg2 a).N) = iprop(Pipeline.ΦA spec2 c ∗ Pipeline.prefHeld pre2 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit2 (c : Dev nD) (Vact' : Dev nD → Valuation τ sig (Elt F))
    (h8 : Vact c main_v8 = V c main_v8)
    (h8' : Vact' c main_v8 = Vact c main_v8) (h13' : Vact' c main_v23 = (dat2 V a c).arrAt 4 (cfg2 a).N)
    (hpf : ∀ k, Vact' c (pre2.ref k) = a.1 k)
    (hrest : ∀ b : Ref sig .tc, b ≠ main_v23 → Vact' c b = Vact c b) :
    iprop((dat2 V a c).arrays ((dat2 V a c).arrAt · (cfg2 a).N) ∗ (dat2 V a c).owesAt () (Fin.last (cfg2 a).N)
        ∗ Ykeep2 a c ∗ Zrest2 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec2 c (fun b => Vact' c b) ∗ Pipeline.unscopedRest spec2 c (fun b => Vact' c b)) :=
    Pipeline.PerCore.unscopedBufs_split₀ (fun (_ : Dev nD) (_ : Fin 1) => cfg2 a) (0 : Fin 1) c winFacts₀2.arr_unscoped _
  rw [e2, Pipeline.unscopedRest_split preFacts2 c _]
  have hImg : (Finset.univ.image (Pipeline.arrRef spec2) : Finset (Ref sig .tc)) = {main_v8, main_v23} := by decide
  unfold Pipeline.arrBufs
  rw [hImg, bigSep_pair main_v8 main_v23 (by decide)]
  have hRP : (Pipeline.unscopedRestP (Ix := Unit) (Name := ℕ) (U := UR sig nD τ) (Lvl := ℕ) pre2 spec2 c (fun b => Vact' c b) : sProp 𝕄)
      = Pipeline.unscopedRestP pre2 spec2 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre2.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq2]
  have hB0 : (dat2 V a c).arrAt 0 (cfg2 a).N = Vact c main_v8 := ((dat2 V a c).arrAt_in 0 rfl _).trans h8.symm
  have hB1 : (dat2 V a c).arrAt 1 (cfg2 a).N = Vact c main_v8 := ((dat2 V a c).arrAt_in 1 rfl _).trans h8.symm
  have hB2 : (dat2 V a c).arrAt 2 (cfg2 a).N = Vact c main_v8 := ((dat2 V a c).arrAt_in 2 rfl _).trans h8.symm
  have hB3 : (dat2 V a c).arrAt 3 (cfg2 a).N = Vact c main_v8 := ((dat2 V a c).arrAt_in 3 rfl _).trans h8.symm
  rw [hB0, hB1, hB2, hB3, hRP]
  unfold Zrest2
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v23 = (dat2 V a c).arrAt 4 (cfg2 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg2.lean ====
/-
  Region 2 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg2
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 2 over the thread state. -/
def reg2 : Pipeline.RegionSeg (pcfgs (F := F)) (adm m hR) (pdats m hR) () defs₀ Variants.none Lnone lvnone (2 : Fin 20) where
  win := winFacts₀2
  block_pos := block_pos2
  stage_whole := stage_whole2
  K := PEmpty
  osem k := k.elim
  ho := Pipeline.OwnSemFacts.none _
  hbody c := (body_obligation2 (Vfirst m) (adm2 m core0 (hR core0)) c).loose
  hwaits := Pipeline.hwaits_of_owed_zero _ _ _ _ Lnone lvnone (2 : Fin 20) fun _ _ => rfl
  pre c := iprop(StableHlo.held (c : Thread nD τ) (Pipeline.ucRefs τ sig) (VE2 m hR c) ∗ Rside c)
  post c := iprop(StableHlo.held (c : Thread nD τ) (Pipeline.ucRefs τ sig) (VX2 m hR c) ∗ Rside c)
  X c := iprop(∃ r, prngReg c r)
  Y c := Ykeep2 (adm2 m core0 (hR core0)) c
  Z c := Zrest2 (VE2 m hR) c
  hentry c := hentry2 (VE2 m hR) (Vfirst m) (adm2 m core0 (hR core0)) c Lnone lvnone (ent_xtab2 m hR c) (ent_out2 m hR c) (ent_pf2 m hR c)
  hin c := hin2 (Vfirst m) (adm2 m core0 (hR core0)) c
  hout c := hout2 (Vfirst m) (adm2 m core0 (hR core0)) c
  hexit c := hexit2 (VE2 m hR) (Vfirst m) (adm2 m core0 (hR core0)) c (VX2 m hR) (ent_xtab2 m hR c) (ext_xtab2 m hR c) (ext_out2 m hR c)
    (ext_pf2 m hR c) (ext_rest2 m hR c)

end Cert.KernelIdeal.Gen

end
-- ==== Proof.KI.Seg3.lean ====
/-
  Region 3 of the gather-and-norm program, second half: how the region is entered and left.

  Between two segments of the program a core holds every unscoped buffer whole. Region 3 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region3
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg3 (F := F)).Adm)

/-- What bypasses region 3: every unscoped buffer that is neither one of its two arrays nor one of its four tables,
    and the part of the point table's share the four input windows do not need. -/
def Zrest3 (c : Dev nD) : sProp 𝕄 :=
  iprop(Pipeline.unscopedRestP (Ix := Unit) (Name := ℕ) (U := UR sig nD τ) (Lvl := ℕ) pre3 spec3 c (fun b => Vact c b)
    ∗ (((c.tc : Thread nD τ).loc main_v8) ↦{Transfers.shareDrop fullShare 4} Vact c main_v8))

/-- Region 3's arrays, window by window: the point table four times, at the four quarter shares, and the output
    array whole. -/
theorem arrays_eq3 (c : Dev nD)
    (G : (w : Fin (cfg3 a).W) → Buf (Elt F) (((cfg3 a).win w).arr.view.loc (c.tc : Thread nD τ))) :
    (dat3 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v28) ↦{fullShare} G 4)) : sProp 𝕄) := by
  unfold Dat.arrays
  rw [show (bigSep Finset.univ fun w : Fin (cfg3 a).W =>
          ((((cfg3 a).win w).arr.view.loc (c.tc : Thread nD τ)) ↦[((cfg3 a).win w).arr.view.set]{(dat3 V a c).share w} G w : sProp 𝕄))
        = bigSep Finset.univ fun w : Fin (cfg3 a).W =>
          ((((c.tc : Thread nD τ).loc (Pipeline.arrRef spec3 w)) ↦{(dat3 V a c).share w} G w : sProp 𝕄))
      from bigSep_congr fun w _ => by rw [(arr_whole3 w).set_eq_univ]]
  rw [bigSep_W3]
  have hs0 : (dat3 V a c).share 0 = Transfers.shareTok fullShare 4 0 := rfl
  have hs1 : (dat3 V a c).share 1 = Transfers.shareTok fullShare 4 1 := rfl
  have hs2 : (dat3 V a c).share 2 = Transfers.shareTok fullShare 4 2 := rfl
  have hs3 : (dat3 V a c).share 3 = Transfers.shareTok fullShare 4 3 := rfl
  have hs4 : (dat3 V a c).share 4 = fullShare := rfl
  rw [hs0, hs1, hs2, hs3, hs4]

theorem hentry3 (c : Dev nD) (L : GSem nD τ sig → Finset Unit) (lv : GSem nD τ sig → Unit → ℕ)
    (h8 : Vact c main_v8 = V c main_v8) (h13 : Vact c main_v28 = V c main_v28)
    (hpf : ∀ k, Vact c (pre3.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat3 V a c).arrays ((dat3 V a c).arrAt · 0)
          ∗ Pipeline.prefHeld pre3 c (fun _ => fullShare) a.1
          ∗ (dat3 V a c).owesAt () 0 ∗ (∃ r, prngReg c r) ∗ Zrest3 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec3 c (fun b => Vact c b) ∗ Pipeline.unscopedRest spec3 c (fun b => Vact c b)) :=
    Pipeline.PerCore.unscopedBufs_split₀ (fun (_ : Dev nD) (_ : Fin 1) => cfg3 a) (0 : Fin 1) c winFacts₀3.arr_unscoped _
  rw [e2, Pipeline.unscopedRest_split preFacts3 c _]
  have hImg : (Finset.univ.image (Pipeline.arrRef spec3) : Finset (Ref sig .tc)) = {main_v8, main_v28} := by decide
  unfold Pipeline.arrBufs
  rw [hImg, bigSep_pair main_v8 main_v28 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq3]
  have hA0 : (dat3 V a c).arrAt 0 0 = Vact c main_v8 := h8.symm
  have hA1 : (dat3 V a c).arrAt 1 0 = Vact c main_v8 := h8.symm
  have hA2 : (dat3 V a c).arrAt 2 0 = Vact c main_v8 := h8.symm
  have hA3 : (dat3 V a c).arrAt 3 0 = Vact c main_v8 := h8.symm
  have hA4 : (dat3 V a c).arrAt 4 0 = Vact c main_v28 := h13.symm
  rw [hA0, hA1, hA2, hA3, hA4]
  have hP : (fun k => Vact c (pre3.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest3
  isplitl [Hrest]; · iexact Hrest
  iexact Hdrop

/-- The invariant at the first point: the scoped buffers no window stages, the generator register, the four tables. -/
theorem hin3 (c : Dev nD) :
    iprop((∃ r, prngReg c r) ∗ Pipeline.prefHeld pre3 c (fun _ => fullShare) a.1
        ∗ Pipeline.scopedRest (Ix := Unit) (Name := ℕ) (U := UR sig nD τ) (Lvl := ℕ) (Val := Elt F) spec3 c)
      ⊢ ((dat3 V a c).Φ 0 : sProp 𝕄) := by
  rw [show (dat3 V a c).Φ 0 = iprop(Pipeline.ΦA spec3 c ∗ Pipeline.prefHeld pre3 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep3 (c : Dev nD) : sProp 𝕄 :=
  iprop((∃ r, prngReg c r) ∗ Pipeline.prefHeld pre3 c (fun _ => fullShare) a.1)

theorem hout3 (c : Dev nD) :
    ((dat3 V a c).Φ (Fin.last (cfg3 a).N) : sProp 𝕄)
      ⊢ iprop(Ykeep3 a c ∗ Pipeline.ownSems0 (fun k : PEmpty => k.elim) c
          ∗ Pipeline.scopedRest (Ix := Unit) (Name := ℕ) (U := UR sig nD τ) (Lvl := ℕ) (Val := Elt F) spec3 c) := by
  rw [Pipeline.ownSems0_none,
    show (dat3 V a c).Φ (Fin.last (cfg3 a).N) = iprop(Pipeline.ΦA spec3 c ∗ Pipeline.prefHeld pre3 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit3 (c : Dev nD) (Vact' : Dev nD → Valuation τ sig (Elt F))
    (h8 : Vact c main_v8 = V c main_v8)
    (h8' : Vact' c main_v8 = Vact c main_v8) (h13' : Vact' c main_v28 = (dat3 V a c).arrAt 4 (cfg3 a).N)
    (hpf : ∀ k, Vact' c (pre3.ref k) = a.1 k)
    (hrest : ∀ b : Ref sig .tc, b ≠ main_v28 → Vact' c b = Vact c b) :
    iprop((dat3 V a c).arrays ((dat3 V a c).arrAt · (cfg3 a).N) ∗ (dat3 V a c).owesAt () (Fin.last (cfg3 a).N)
        ∗ Ykeep3 a c ∗ Zrest3 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec3 c (fun b => Vact' c b) ∗ Pipeline.unscopedRest spec3 c (fun b => Vact' c b)) :=
    Pipeline.PerCore.unscopedBufs_split₀ (fun (_ : Dev nD) (_ : Fin 1) => cfg3 a) (0 : Fin 1) c winFacts₀3.arr_unscoped _
  rw [e2, Pipeline.unscopedRest_split preFacts3 c _]
  have hImg : (Finset.univ.image (Pipeline.arrRef spec3) : Finset (Ref sig .tc)) = {main_v8, main_v28} := by decide
  unfold Pipeline.arrBufs
  rw [hImg, bigSep_pair main_v8 main_v28 (by decide)]
  have hRP : (Pipeline.unscopedRestP (Ix := Unit) (Name := ℕ) (U := UR sig nD τ) (Lvl := ℕ) pre3 spec3 c (fun b => Vact' c b) : sProp 𝕄)
      = Pipeline.unscopedRestP pre3 spec3 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre3.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq3]
  have hB0 : (dat3 V a c).arrAt 0 (cfg3 a).N = Vact c main_v8 := ((dat3 V a c).arrAt_in 0 rfl _).trans h8.symm
  have hB1 : (dat3 V a c).arrAt 1 (cfg3 a).N = Vact c main_v8 := ((dat3 V a c).arrAt_in 1 rfl _).trans h8.symm
  have hB2 : (dat3 V a c).arrAt 2 (cfg3 a).N = Vact c main_v8 := ((dat3 V a c).arrAt_in 2 rfl _).trans h8.symm
  have hB3 : (dat3 V a c).arrAt 3 (cfg3 a).N = Vact c main_v8 := ((dat3 V a c).arrAt_in 3 rfl _).trans h8.symm
  rw [hB0, hB1, hB2, hB3, hRP]
  unfold Zrest3
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v28 = (dat3 V a c).arrAt 4 (cfg3 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg3.lean ====
/-
  Region 3 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg3
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 3 over the thread state. -/
def reg3 : Pipeline.RegionSeg (pcfgs (F := F)) (adm m hR) (pdats m hR) () defs₀ Variants.none Lnone lvnone (3 : Fin 20) where
  win := winFacts₀3
  block_pos := block_pos3
  stage_whole := stage_whole3
  K := PEmpty
  osem k := k.elim
  ho := Pipeline.OwnSemFacts.none _
  hbody c := (body_obligation3 (Vfirst m) (adm3 m core0 (hR core0)) c).loose
  hwaits := Pipeline.hwaits_of_owed_zero _ _ _ _ Lnone lvnone (3 : Fin 20) fun _ _ => rfl
  pre c := iprop(StableHlo.held (c : Thread nD τ) (Pipeline.ucRefs τ sig) (VE3 m hR c) ∗ Rside c)
  post c := iprop(StableHlo.held (c : Thread nD τ) (Pipeline.ucRefs τ sig) (VX3 m hR c) ∗ Rside c)
  X c := iprop(∃ r, prngReg c r)
  Y c := Ykeep3 (adm3 m core0 (hR core0)) c
  Z c := Zrest3 (VE3 m hR) c
  hentry c := hentry3 (VE3 m hR) (Vfirst m) (adm3 m core0 (hR core0)) c Lnone lvnone (ent_xtab3 m hR c) (ent_out3 m hR c) (ent_pf3 m hR c)
  hin c := hin3 (Vfirst m) (adm3 m core0 (hR core0)) c
  hout c := hout3 (Vfirst m) (adm3 m core0 (hR core0)) c
  hexit c := hexit3 (VE3 m hR) (Vfirst m) (adm3 m core0 (hR core0)) c (VX3 m hR) (ent_xtab3 m hR c) (ext_xtab3 m hR c) (ext_out3 m hR c)
    (ext_pf3 m hR c) (ext_rest3 m hR c)

end Cert.KernelIdeal.Gen

end
-- ==== Proof.KI.Seg4.lean ====
/-
  Region 4 of the gather-and-norm program, second half: how the region is entered and left.

  Between two segments of the program a core holds every unscoped buffer whole. Region 4 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region4
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg4 (F := F)).Adm)

/-- What bypasses region 4: every unscoped buffer that is neither one of its two arrays nor one of its four tables,
    and the part of the point table's share the four input windows do not need. -/
def Zrest4 (c : Dev nD) : sProp 𝕄 :=
  iprop(Pipeline.unscopedRestP (Ix := Unit) (Name := ℕ) (U := UR sig nD τ) (Lvl := ℕ) pre4 spec4 c (fun b => Vact c b)
    ∗ (((c.tc : Thread nD τ).loc main_v8) ↦{Transfers.shareDrop fullShare 4} Vact c main_v8))

/-- Region 4's arrays, window by window: the point table four times, at the four quarter shares, and the output
    array whole. -/
theorem arrays_eq4 (c : Dev nD)
    (G : (w : Fin (cfg4 a).W) → Buf (Elt F) (((cfg4 a).win w).arr.view.loc (c.tc : Thread nD τ))) :
    (dat4 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v33) ↦{fullShare} G 4)) : sProp 𝕄) := by
  unfold Dat.arrays
  rw [show (bigSep Finset.univ fun w : Fin (cfg4 a).W =>
          ((((cfg4 a).win w).arr.view.loc (c.tc : Thread nD τ)) ↦[((cfg4 a).win w).arr.view.set]{(dat4 V a c).share w} G w : sProp 𝕄))
        = bigSep Finset.univ fun w : Fin (cfg4 a).W =>
          ((((c.tc : Thread nD τ).loc (Pipeline.arrRef spec4 w)) ↦{(dat4 V a c).share w} G w : sProp 𝕄))
      from bigSep_congr fun w _ => by rw [(arr_whole4 w).set_eq_univ]]
  rw [bigSep_W4]
  have hs0 : (dat4 V a c).share 0 = Transfers.shareTok fullShare 4 0 := rfl
  have hs1 : (dat4 V a c).share 1 = Transfers.shareTok fullShare 4 1 := rfl
  have hs2 : (dat4 V a c).share 2 = Transfers.shareTok fullShare 4 2 := rfl
  have hs3 : (dat4 V a c).share 3 = Transfers.shareTok fullShare 4 3 := rfl
  have hs4 : (dat4 V a c).share 4 = fullShare := rfl
  rw [hs0, hs1, hs2, hs3, hs4]

theorem hentry4 (c : Dev nD) (L : GSem nD τ sig → Finset Unit) (lv : GSem nD τ sig → Unit → ℕ)
    (h8 : Vact c main_v8 = V c main_v8) (h13 : Vact c main_v33 = V c main_v33)
    (hpf : ∀ k, Vact c (pre4.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat4 V a c).arrays ((dat4 V a c).arrAt · 0)
          ∗ Pipeline.prefHeld pre4 c (fun _ => fullShare) a.1
          ∗ (dat4 V a c).owesAt () 0 ∗ (∃ r, prngReg c r) ∗ Zrest4 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec4 c (fun b => Vact c b) ∗ Pipeline.unscopedRest spec4 c (fun b => Vact c b)) :=
    Pipeline.PerCore.unscopedBufs_split₀ (fun (_ : Dev nD) (_ : Fin 1) => cfg4 a) (0 : Fin 1) c winFacts₀4.arr_unscoped _
  rw [e2, Pipeline.unscopedRest_split preFacts4 c _]
  have hImg : (Finset.univ.image (Pipeline.arrRef spec4) : Finset (Ref sig .tc)) = {main_v8, main_v33} := by decide
  unfold Pipeline.arrBufs
  rw [hImg, bigSep_pair main_v8 main_v33 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq4]
  have hA0 : (dat4 V a c).arrAt 0 0 = Vact c main_v8 := h8.symm
  have hA1 : (dat4 V a c).arrAt 1 0 = Vact c main_v8 := h8.symm
  have hA2 : (dat4 V a c).arrAt 2 0 = Vact c main_v8 := h8.symm
  have hA3 : (dat4 V a c).arrAt 3 0 = Vact c main_v8 := h8.symm
  have hA4 : (dat4 V a c).arrAt 4 0 = Vact c main_v33 := h13.symm
  rw [hA0, hA1, hA2, hA3, hA4]
  have hP : (fun k => Vact c (pre4.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest4
  isplitl [Hrest]; · iexact Hrest
  iexact Hdrop

/-- The invariant at the first point: the scoped buffers no window stages, the generator register, the four tables. -/
theorem hin4 (c : Dev nD) :
    iprop((∃ r, prngReg c r) ∗ Pipeline.prefHeld pre4 c (fun _ => fullShare) a.1
        ∗ Pipeline.scopedRest (Ix := Unit) (Name := ℕ) (U := UR sig nD τ) (Lvl := ℕ) (Val := Elt F) spec4 c)
      ⊢ ((dat4 V a c).Φ 0 : sProp 𝕄) := by
  rw [show (dat4 V a c).Φ 0 = iprop(Pipeline.ΦA spec4 c ∗ Pipeline.prefHeld pre4 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep4 (c : Dev nD) : sProp 𝕄 :=
  iprop((∃ r, prngReg c r) ∗ Pipeline.prefHeld pre4 c (fun _ => fullShare) a.1)

theorem hout4 (c : Dev nD) :
    ((dat4 V a c).Φ (Fin.last (cfg4 a).N) : sProp 𝕄)
      ⊢ iprop(Ykeep4 a c ∗ Pipeline.ownSems0 (fun k : PEmpty => k.elim) c
          ∗ Pipeline.scopedRest (Ix := Unit) (Name := ℕ) (U := UR sig nD τ) (Lvl := ℕ) (Val := Elt F) spec4 c) := by
  rw [Pipeline.ownSems0_none,
    show (dat4 V a c).Φ (Fin.last (cfg4 a).N) = iprop(Pipeline.ΦA spec4 c ∗ Pipeline.prefHeld pre4 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit4 (c : Dev nD) (Vact' : Dev nD → Valuation τ sig (Elt F))
    (h8 : Vact c main_v8 = V c main_v8)
    (h8' : Vact' c main_v8 = Vact c main_v8) (h13' : Vact' c main_v33 = (dat4 V a c).arrAt 4 (cfg4 a).N)
    (hpf : ∀ k, Vact' c (pre4.ref k) = a.1 k)
    (hrest : ∀ b : Ref sig .tc, b ≠ main_v33 → Vact' c b = Vact c b) :
    iprop((dat4 V a c).arrays ((dat4 V a c).arrAt · (cfg4 a).N) ∗ (dat4 V a c).owesAt () (Fin.last (cfg4 a).N)
        ∗ Ykeep4 a c ∗ Zrest4 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec4 c (fun b => Vact' c b) ∗ Pipeline.unscopedRest spec4 c (fun b => Vact' c b)) :=
    Pipeline.PerCore.unscopedBufs_split₀ (fun (_ : Dev nD) (_ : Fin 1) => cfg4 a) (0 : Fin 1) c winFacts₀4.arr_unscoped _
  rw [e2, Pipeline.unscopedRest_split preFacts4 c _]
  have hImg : (Finset.univ.image (Pipeline.arrRef spec4) : Finset (Ref sig .tc)) = {main_v8, main_v33} := by decide
  unfold Pipeline.arrBufs
  rw [hImg, bigSep_pair main_v8 main_v33 (by decide)]
  have hRP : (Pipeline.unscopedRestP (Ix := Unit) (Name := ℕ) (U := UR sig nD τ) (Lvl := ℕ) pre4 spec4 c (fun b => Vact' c b) : sProp 𝕄)
      = Pipeline.unscopedRestP pre4 spec4 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre4.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq4]
  have hB0 : (dat4 V a c).arrAt 0 (cfg4 a).N = Vact c main_v8 := ((dat4 V a c).arrAt_in 0 rfl _).trans h8.symm
  have hB1 : (dat4 V a c).arrAt 1 (cfg4 a).N = Vact c main_v8 := ((dat4 V a c).arrAt_in 1 rfl _).trans h8.symm
  have hB2 : (dat4 V a c).arrAt 2 (cfg4 a).N = Vact c main_v8 := ((dat4 V a c).arrAt_in 2 rfl _).trans h8.symm
  have hB3 : (dat4 V a c).arrAt 3 (cfg4 a).N = Vact c main_v8 := ((dat4 V a c).arrAt_in 3 rfl _).trans h8.symm
  rw [hB0, hB1, hB2, hB3, hRP]
  unfold Zrest4
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v33 = (dat4 V a c).arrAt 4 (cfg4 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg4.lean ====
/-
  Region 4 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg4
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 4 over the thread state. -/
def reg4 : Pipeline.RegionSeg (pcfgs (F := F)) (adm m hR) (pdats m hR) () defs₀ Variants.none Lnone lvnone (4 : Fin 20) where
  win := winFacts₀4
  block_pos := block_pos4
  stage_whole := stage_whole4
  K := PEmpty
  osem k := k.elim
  ho := Pipeline.OwnSemFacts.none _
  hbody c := (body_obligation4 (Vfirst m) (adm4 m core0 (hR core0)) c).loose
  hwaits := Pipeline.hwaits_of_owed_zero _ _ _ _ Lnone lvnone (4 : Fin 20) fun _ _ => rfl
  pre c := iprop(StableHlo.held (c : Thread nD τ) (Pipeline.ucRefs τ sig) (VE4 m hR c) ∗ Rside c)
  post c := iprop(StableHlo.held (c : Thread nD τ) (Pipeline.ucRefs τ sig) (VX4 m hR c) ∗ Rside c)
  X c := iprop(∃ r, prngReg c r)
  Y c := Ykeep4 (adm4 m core0 (hR core0)) c
  Z c := Zrest4 (VE4 m hR) c
  hentry c := hentry4 (VE4 m hR) (Vfirst m) (adm4 m core0 (hR core0)) c Lnone lvnone (ent_xtab4 m hR c) (ent_out4 m hR c) (ent_pf4 m hR c)
  hin c := hin4 (Vfirst m) (adm4 m core0 (hR core0)) c
  hout c := hout4 (Vfirst m) (adm4 m core0 (hR core0)) c
  hexit c := hexit4 (VE4 m hR) (Vfirst m) (adm4 m core0 (hR core0)) c (VX4 m hR) (ent_xtab4 m hR c) (ext_xtab4 m hR c) (ext_out4 m hR c)
    (ext_pf4 m hR c) (ext_rest4 m hR c)

end Cert.KernelIdeal.Gen

end
-- ==== Proof.KI.Seg5.lean ====
/-
  Region 5 of the gather-and-norm program, second half: how the region is entered and left.

  Between two segments of the program a core holds every unscoped buffer whole. Region 5 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region5
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg5 (F := F)).Adm)

/-- What bypasses region 5: every unscoped buffer that is neither one of its two arrays nor one of its four tables,
    and the part of the point table's share the four input windows do not need. -/
def Zrest5 (c : Dev nD) : sProp 𝕄 :=
  iprop(Pipeline.unscopedRestP (Ix := Unit) (Name := ℕ) (U := UR sig nD τ) (Lvl := ℕ) pre5 spec5 c (fun b => Vact c b)
    ∗ (((c.tc : Thread nD τ).loc main_v8) ↦{Transfers.shareDrop fullShare 4} Vact c main_v8))

/-- Region 5's arrays, window by window: the point table four times, at the four quarter shares, and the output
    array whole. -/
theorem arrays_eq5 (c : Dev nD)
    (G : (w : Fin (cfg5 a).W) → Buf (Elt F) (((cfg5 a).win w).arr.view.loc (c.tc : Thread nD τ))) :
    (dat5 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v38) ↦{fullShare} G 4)) : sProp 𝕄) := by
  unfold Dat.arrays
  rw [show (bigSep Finset.univ fun w : Fin (cfg5 a).W =>
          ((((cfg5 a).win w).arr.view.loc (c.tc : Thread nD τ)) ↦[((cfg5 a).win w).arr.view.set]{(dat5 V a c).share w} G w : sProp 𝕄))
        = bigSep Finset.univ fun w : Fin (cfg5 a).W =>
          ((((c.tc : Thread nD τ).loc (Pipeline.arrRef spec5 w)) ↦{(dat5 V a c).share w} G w : sProp 𝕄))
      from bigSep_congr fun w _ => by rw [(arr_whole5 w).set_eq_univ]]
  rw [bigSep_W5]
  have hs0 : (dat5 V a c).share 0 = Transfers.shareTok fullShare 4 0 := rfl
  have hs1 : (dat5 V a c).share 1 = Transfers.shareTok fullShare 4 1 := rfl
  have hs2 : (dat5 V a c).share 2 = Transfers.shareTok fullShare 4 2 := rfl
  have hs3 : (dat5 V a c).share 3 = Transfers.shareTok fullShare 4 3 := rfl
  have hs4 : (dat5 V a c).share 4 = fullShare := rfl
  rw [hs0, hs1, hs2, hs3, hs4]

theorem hentry5 (c : Dev nD) (L : GSem nD τ sig → Finset Unit) (lv : GSem nD τ sig → Unit → ℕ)
    (h8 : Vact c main_v8 = V c main_v8) (h13 : Vact c main_v38 = V c main_v38)
    (hpf : ∀ k, Vact c (pre5.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat5 V a c).arrays ((dat5 V a c).arrAt · 0)
          ∗ Pipeline.prefHeld pre5 c (fun _ => fullShare) a.1
          ∗ (dat5 V a c).owesAt () 0 ∗ (∃ r, prngReg c r) ∗ Zrest5 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec5 c (fun b => Vact c b) ∗ Pipeline.unscopedRest spec5 c (fun b => Vact c b)) :=
    Pipeline.PerCore.unscopedBufs_split₀ (fun (_ : Dev nD) (_ : Fin 1) => cfg5 a) (0 : Fin 1) c winFacts₀5.arr_unscoped _
  rw [e2, Pipeline.unscopedRest_split preFacts5 c _]
  have hImg : (Finset.univ.image (Pipeline.arrRef spec5) : Finset (Ref sig .tc)) = {main_v8, main_v38} := by decide
  unfold Pipeline.arrBufs
  rw [hImg, bigSep_pair main_v8 main_v38 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq5]
  have hA0 : (dat5 V a c).arrAt 0 0 = Vact c main_v8 := h8.symm
  have hA1 : (dat5 V a c).arrAt 1 0 = Vact c main_v8 := h8.symm
  have hA2 : (dat5 V a c).arrAt 2 0 = Vact c main_v8 := h8.symm
  have hA3 : (dat5 V a c).arrAt 3 0 = Vact c main_v8 := h8.symm
  have hA4 : (dat5 V a c).arrAt 4 0 = Vact c main_v38 := h13.symm
  rw [hA0, hA1, hA2, hA3, hA4]
  have hP : (fun k => Vact c (pre5.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest5
  isplitl [Hrest]; · iexact Hrest
  iexact Hdrop

/-- The invariant at the first point: the scoped buffers no window stages, the generator register, the four tables. -/
theorem hin5 (c : Dev nD) :
    iprop((∃ r, prngReg c r) ∗ Pipeline.prefHeld pre5 c (fun _ => fullShare) a.1
        ∗ Pipeline.scopedRest (Ix := Unit) (Name := ℕ) (U := UR sig nD τ) (Lvl := ℕ) (Val := Elt F) spec5 c)
      ⊢ ((dat5 V a c).Φ 0 : sProp 𝕄) := by
  rw [show (dat5 V a c).Φ 0 = iprop(Pipeline.ΦA spec5 c ∗ Pipeline.prefHeld pre5 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep5 (c : Dev nD) : sProp 𝕄 :=
  iprop((∃ r, prngReg c r) ∗ Pipeline.prefHeld pre5 c (fun _ => fullShare) a.1)

theorem hout5 (c : Dev nD) :
    ((dat5 V a c).Φ (Fin.last (cfg5 a).N) : sProp 𝕄)
      ⊢ iprop(Ykeep5 a c ∗ Pipeline.ownSems0 (fun k : PEmpty => k.elim) c
          ∗ Pipeline.scopedRest (Ix := Unit) (Name := ℕ) (U := UR sig nD τ) (Lvl := ℕ) (Val := Elt F) spec5 c) := by
  rw [Pipeline.ownSems0_none,
    show (dat5 V a c).Φ (Fin.last (cfg5 a).N) = iprop(Pipeline.ΦA spec5 c ∗ Pipeline.prefHeld pre5 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit5 (c : Dev nD) (Vact' : Dev nD → Valuation τ sig (Elt F))
    (h8 : Vact c main_v8 = V c main_v8)
    (h8' : Vact' c main_v8 = Vact c main_v8) (h13' : Vact' c main_v38 = (dat5 V a c).arrAt 4 (cfg5 a).N)
    (hpf : ∀ k, Vact' c (pre5.ref k) = a.1 k)
    (hrest : ∀ b : Ref sig .tc, b ≠ main_v38 → Vact' c b = Vact c b) :
    iprop((dat5 V a c).arrays ((dat5 V a c).arrAt · (cfg5 a).N) ∗ (dat5 V a c).owesAt () (Fin.last (cfg5 a).N)
        ∗ Ykeep5 a c ∗ Zrest5 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec5 c (fun b => Vact' c b) ∗ Pipeline.unscopedRest spec5 c (fun b => Vact' c b)) :=
    Pipeline.PerCore.unscopedBufs_split₀ (fun (_ : Dev nD) (_ : Fin 1) => cfg5 a) (0 : Fin 1) c winFacts₀5.arr_unscoped _
  rw [e2, Pipeline.unscopedRest_split preFacts5 c _]
  have hImg : (Finset.univ.image (Pipeline.arrRef spec5) : Finset (Ref sig .tc)) = {main_v8, main_v38} := by decide
  unfold Pipeline.arrBufs
  rw [hImg, bigSep_pair main_v8 main_v38 (by decide)]
  have hRP : (Pipeline.unscopedRestP (Ix := Unit) (Name := ℕ) (U := UR sig nD τ) (Lvl := ℕ) pre5 spec5 c (fun b => Vact' c b) : sProp 𝕄)
      = Pipeline.unscopedRestP pre5 spec5 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre5.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq5]
  have hB0 : (dat5 V a c).arrAt 0 (cfg5 a).N = Vact c main_v8 := ((dat5 V a c).arrAt_in 0 rfl _).trans h8.symm
  have hB1 : (dat5 V a c).arrAt 1 (cfg5 a).N = Vact c main_v8 := ((dat5 V a c).arrAt_in 1 rfl _).trans h8.symm
  have hB2 : (dat5 V a c).arrAt 2 (cfg5 a).N = Vact c main_v8 := ((dat5 V a c).arrAt_in 2 rfl _).trans h8.symm
  have hB3 : (dat5 V a c).arrAt 3 (cfg5 a).N = Vact c main_v8 := ((dat5 V a c).arrAt_in 3 rfl _).trans h8.symm
  rw [hB0, hB1, hB2, hB3, hRP]
  unfold Zrest5
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v38 = (dat5 V a c).arrAt 4 (cfg5 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg5.lean ====
/-
  Region 5 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg5
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 5 over the thread state. -/
def reg5 : Pipeline.RegionSeg (pcfgs (F := F)) (adm m hR) (pdats m hR) () defs₀ Variants.none Lnone lvnone (5 : Fin 20) where
  win := winFacts₀5
  block_pos := block_pos5
  stage_whole := stage_whole5
  K := PEmpty
  osem k := k.elim
  ho := Pipeline.OwnSemFacts.none _
  hbody c := (body_obligation5 (Vfirst m) (adm5 m core0 (hR core0)) c).loose
  hwaits := Pipeline.hwaits_of_owed_zero _ _ _ _ Lnone lvnone (5 : Fin 20) fun _ _ => rfl
  pre c := iprop(StableHlo.held (c : Thread nD τ) (Pipeline.ucRefs τ sig) (VE5 m hR c) ∗ Rside c)
  post c := iprop(StableHlo.held (c : Thread nD τ) (Pipeline.ucRefs τ sig) (VX5 m hR c) ∗ Rside c)
  X c := iprop(∃ r, prngReg c r)
  Y c := Ykeep5 (adm5 m core0 (hR core0)) c
  Z c := Zrest5 (VE5 m hR) c
  hentry c := hentry5 (VE5 m hR) (Vfirst m) (adm5 m core0 (hR core0)) c Lnone lvnone (ent_xtab5 m hR c) (ent_out5 m hR c) (ent_pf5 m hR c)
  hin c := hin5 (Vfirst m) (adm5 m core0 (hR core0)) c
  hout c := hout5 (Vfirst m) (adm5 m core0 (hR core0)) c
  hexit c := hexit5 (VE5 m hR) (Vfirst m) (adm5 m core0 (hR core0)) c (VX5 m hR) (ent_xtab5 m hR c) (ext_xtab5 m hR c) (ext_out5 m hR c)
    (ext_pf5 m hR c) (ext_rest5 m hR c)

end Cert.KernelIdeal.Gen

end
-- ==== Proof.KI.Seg6.lean ====
/-
  Region 6 of the gather-and-norm program, second half: how the region is entered and left.

  Between two segments of the program a core holds every unscoped buffer whole. Region 6 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region6
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg6 (F := F)).Adm)

/-- What bypasses region 6: every unscoped buffer that is neither one of its two arrays nor one of its four tables,
    and the part of the point table's share the four input windows do not need. -/
def Zrest6 (c : Dev nD) : sProp 𝕄 :=
  iprop(Pipeline.unscopedRestP (Ix := Unit) (Name := ℕ) (U := UR sig nD τ) (Lvl := ℕ) pre6 spec6 c (fun b => Vact c b)
    ∗ (((c.tc : Thread nD τ).loc main_v8) ↦{Transfers.shareDrop fullShare 4} Vact c main_v8))

/-- Region 6's arrays, window by window: the point table four times, at the four quarter shares, and the output
    array whole. -/
theorem arrays_eq6 (c : Dev nD)
    (G : (w : Fin (cfg6 a).W) → Buf (Elt F) (((cfg6 a).win w).arr.view.loc (c.tc : Thread nD τ))) :
    (dat6 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v43) ↦{fullShare} G 4)) : sProp 𝕄) := by
  unfold Dat.arrays
  rw [show (bigSep Finset.univ fun w : Fin (cfg6 a).W =>
          ((((cfg6 a).win w).arr.view.loc (c.tc : Thread nD τ)) ↦[((cfg6 a).win w).arr.view.set]{(dat6 V a c).share w} G w : sProp 𝕄))
        = bigSep Finset.univ fun w : Fin (cfg6 a).W =>
          ((((c.tc : Thread nD τ).loc (Pipeline.arrRef spec6 w)) ↦{(dat6 V a c).share w} G w : sProp 𝕄))
      from bigSep_congr fun w _ => by rw [(arr_whole6 w).set_eq_univ]]
  rw [bigSep_W6]
  have hs0 : (dat6 V a c).share 0 = Transfers.shareTok fullShare 4 0 := rfl
  have hs1 : (dat6 V a c).share 1 = Transfers.shareTok fullShare 4 1 := rfl
  have hs2 : (dat6 V a c).share 2 = Transfers.shareTok fullShare 4 2 := rfl
  have hs3 : (dat6 V a c).share 3 = Transfers.shareTok fullShare 4 3 := rfl
  have hs4 : (dat6 V a c).share 4 = fullShare := rfl
  rw [hs0, hs1, hs2, hs3, hs4]

theorem hentry6 (c : Dev nD) (L : GSem nD τ sig → Finset Unit) (lv : GSem nD τ sig → Unit → ℕ)
    (h8 : Vact c main_v8 = V c main_v8) (h13 : Vact c main_v43 = V c main_v43)
    (hpf : ∀ k, Vact c (pre6.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat6 V a c).arrays ((dat6 V a c).arrAt · 0)
          ∗ Pipeline.prefHeld pre6 c (fun _ => fullShare) a.1
          ∗ (dat6 V a c).owesAt () 0 ∗ (∃ r, prngReg c r) ∗ Zrest6 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec6 c (fun b => Vact c b) ∗ Pipeline.unscopedRest spec6 c (fun b => Vact c b)) :=
    Pipeline.PerCore.unscopedBufs_split₀ (fun (_ : Dev nD) (_ : Fin 1) => cfg6 a) (0 : Fin 1) c winFacts₀6.arr_unscoped _
  rw [e2, Pipeline.unscopedRest_split preFacts6 c _]
  have hImg : (Finset.univ.image (Pipeline.arrRef spec6) : Finset (Ref sig .tc)) = {main_v8, main_v43} := by decide
  unfold Pipeline.arrBufs
  rw [hImg, bigSep_pair main_v8 main_v43 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq6]
  have hA0 : (dat6 V a c).arrAt 0 0 = Vact c main_v8 := h8.symm
  have hA1 : (dat6 V a c).arrAt 1 0 = Vact c main_v8 := h8.symm
  have hA2 : (dat6 V a c).arrAt 2 0 = Vact c main_v8 := h8.symm
  have hA3 : (dat6 V a c).arrAt 3 0 = Vact c main_v8 := h8.symm
  have hA4 : (dat6 V a c).arrAt 4 0 = Vact c main_v43 := h13.symm
  rw [hA0, hA1, hA2, hA3, hA4]
  have hP : (fun k => Vact c (pre6.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest6
  isplitl [Hrest]; · iexact Hrest
  iexact Hdrop

/-- The invariant at the first point: the scoped buffers no window stages, the generator register, the four tables. -/
theorem hin6 (c : Dev nD) :
    iprop((∃ r, prngReg c r) ∗ Pipeline.prefHeld pre6 c (fun _ => fullShare) a.1
        ∗ Pipeline.scopedRest (Ix := Unit) (Name := ℕ) (U := UR sig nD τ) (Lvl := ℕ) (Val := Elt F) spec6 c)
      ⊢ ((dat6 V a c).Φ 0 : sProp 𝕄) := by
  rw [show (dat6 V a c).Φ 0 = iprop(Pipeline.ΦA spec6 c ∗ Pipeline.prefHeld pre6 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep6 (c : Dev nD) : sProp 𝕄 :=
  iprop((∃ r, prngReg c r) ∗ Pipeline.prefHeld pre6 c (fun _ => fullShare) a.1)

theorem hout6 (c : Dev nD) :
    ((dat6 V a c).Φ (Fin.last (cfg6 a).N) : sProp 𝕄)
      ⊢ iprop(Ykeep6 a c ∗ Pipeline.ownSems0 (fun k : PEmpty => k.elim) c
          ∗ Pipeline.scopedRest (Ix := Unit) (Name := ℕ) (U := UR sig nD τ) (Lvl := ℕ) (Val := Elt F) spec6 c) := by
  rw [Pipeline.ownSems0_none,
    show (dat6 V a c).Φ (Fin.last (cfg6 a).N) = iprop(Pipeline.ΦA spec6 c ∗ Pipeline.prefHeld pre6 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit6 (c : Dev nD) (Vact' : Dev nD → Valuation τ sig (Elt F))
    (h8 : Vact c main_v8 = V c main_v8)
    (h8' : Vact' c main_v8 = Vact c main_v8) (h13' : Vact' c main_v43 = (dat6 V a c).arrAt 4 (cfg6 a).N)
    (hpf : ∀ k, Vact' c (pre6.ref k) = a.1 k)
    (hrest : ∀ b : Ref sig .tc, b ≠ main_v43 → Vact' c b = Vact c b) :
    iprop((dat6 V a c).arrays ((dat6 V a c).arrAt · (cfg6 a).N) ∗ (dat6 V a c).owesAt () (Fin.last (cfg6 a).N)
        ∗ Ykeep6 a c ∗ Zrest6 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec6 c (fun b => Vact' c b) ∗ Pipeline.unscopedRest spec6 c (fun b => Vact' c b)) :=
    Pipeline.PerCore.unscopedBufs_split₀ (fun (_ : Dev nD) (_ : Fin 1) => cfg6 a) (0 : Fin 1) c winFacts₀6.arr_unscoped _
  rw [e2, Pipeline.unscopedRest_split preFacts6 c _]
  have hImg : (Finset.univ.image (Pipeline.arrRef spec6) : Finset (Ref sig .tc)) = {main_v8, main_v43} := by decide
  unfold Pipeline.arrBufs
  rw [hImg, bigSep_pair main_v8 main_v43 (by decide)]
  have hRP : (Pipeline.unscopedRestP (Ix := Unit) (Name := ℕ) (U := UR sig nD τ) (Lvl := ℕ) pre6 spec6 c (fun b => Vact' c b) : sProp 𝕄)
      = Pipeline.unscopedRestP pre6 spec6 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre6.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq6]
  have hB0 : (dat6 V a c).arrAt 0 (cfg6 a).N = Vact c main_v8 := ((dat6 V a c).arrAt_in 0 rfl _).trans h8.symm
  have hB1 : (dat6 V a c).arrAt 1 (cfg6 a).N = Vact c main_v8 := ((dat6 V a c).arrAt_in 1 rfl _).trans h8.symm
  have hB2 : (dat6 V a c).arrAt 2 (cfg6 a).N = Vact c main_v8 := ((dat6 V a c).arrAt_in 2 rfl _).trans h8.symm
  have hB3 : (dat6 V a c).arrAt 3 (cfg6 a).N = Vact c main_v8 := ((dat6 V a c).arrAt_in 3 rfl _).trans h8.symm
  rw [hB0, hB1, hB2, hB3, hRP]
  unfold Zrest6
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v43 = (dat6 V a c).arrAt 4 (cfg6 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg6.lean ====
/-
  Region 6 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg6
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 6 over the thread state. -/
def reg6 : Pipeline.RegionSeg (pcfgs (F := F)) (adm m hR) (pdats m hR) () defs₀ Variants.none Lnone lvnone (6 : Fin 20) where
  win := winFacts₀6
  block_pos := block_pos6
  stage_whole := stage_whole6
  K := PEmpty
  osem k := k.elim
  ho := Pipeline.OwnSemFacts.none _
  hbody c := (body_obligation6 (Vfirst m) (adm6 m core0 (hR core0)) c).loose
  hwaits := Pipeline.hwaits_of_owed_zero _ _ _ _ Lnone lvnone (6 : Fin 20) fun _ _ => rfl
  pre c := iprop(StableHlo.held (c : Thread nD τ) (Pipeline.ucRefs τ sig) (VE6 m hR c) ∗ Rside c)
  post c := iprop(StableHlo.held (c : Thread nD τ) (Pipeline.ucRefs τ sig) (VX6 m hR c) ∗ Rside c)
  X c := iprop(∃ r, prngReg c r)
  Y c := Ykeep6 (adm6 m core0 (hR core0)) c
  Z c := Zrest6 (VE6 m hR) c
  hentry c := hentry6 (VE6 m hR) (Vfirst m) (adm6 m core0 (hR core0)) c Lnone lvnone (ent_xtab6 m hR c) (ent_out6 m hR c) (ent_pf6 m hR c)
  hin c := hin6 (Vfirst m) (adm6 m core0 (hR core0)) c
  hout c := hout6 (Vfirst m) (adm6 m core0 (hR core0)) c
  hexit c := hexit6 (VE6 m hR) (Vfirst m) (adm6 m core0 (hR core0)) c (VX6 m hR) (ent_xtab6 m hR c) (ext_xtab6 m hR c) (ext_out6 m hR c)
    (ext_pf6 m hR c) (ext_rest6 m hR c)

end Cert.KernelIdeal.Gen

end
-- ==== Proof.KI.Seg7.lean ====
/-
  Region 7 of the gather-and-norm program, second half: how the region is entered and left.

  Between two segments of the program a core holds every unscoped buffer whole. Region 7 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region7
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg7 (F := F)).Adm)

/-- What bypasses region 7: every unscoped buffer that is neither one of its two arrays nor one of its four tables,
    and the part of the point table's share the four input windows do not need. -/
def Zrest7 (c : Dev nD) : sProp 𝕄 :=
  iprop(Pipeline.unscopedRestP (Ix := Unit) (Name := ℕ) (U := UR sig nD τ) (Lvl := ℕ) pre7 spec7 c (fun b => Vact c b)
    ∗ (((c.tc : Thread nD τ).loc main_v8) ↦{Transfers.shareDrop fullShare 4} Vact c main_v8))

/-- Region 7's arrays, window by window: the point table four times, at the four quarter shares, and the output
    array whole. -/
theorem arrays_eq7 (c : Dev nD)
    (G : (w : Fin (cfg7 a).W) → Buf (Elt F) (((cfg7 a).win w).arr.view.loc (c.tc : Thread nD τ))) :
    (dat7 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v48) ↦{fullShare} G 4)) : sProp 𝕄) := by
  unfold Dat.arrays
  rw [show (bigSep Finset.univ fun w : Fin (cfg7 a).W =>
          ((((cfg7 a).win w).arr.view.loc (c.tc : Thread nD τ)) ↦[((cfg7 a).win w).arr.view.set]{(dat7 V a c).share w} G w : sProp 𝕄))
        = bigSep Finset.univ fun w : Fin (cfg7 a).W =>
          ((((c.tc : Thread nD τ).loc (Pipeline.arrRef spec7 w)) ↦{(dat7 V a c).share w} G w : sProp 𝕄))
      from bigSep_congr fun w _ => by rw [(arr_whole7 w).set_eq_univ]]
  rw [bigSep_W7]
  have hs0 : (dat7 V a c).share 0 = Transfers.shareTok fullShare 4 0 := rfl
  have hs1 : (dat7 V a c).share 1 = Transfers.shareTok fullShare 4 1 := rfl
  have hs2 : (dat7 V a c).share 2 = Transfers.shareTok fullShare 4 2 := rfl
  have hs3 : (dat7 V a c).share 3 = Transfers.shareTok fullShare 4 3 := rfl
  have hs4 : (dat7 V a c).share 4 = fullShare := rfl
  rw [hs0, hs1, hs2, hs3, hs4]

theorem hentry7 (c : Dev nD) (L : GSem nD τ sig → Finset Unit) (lv : GSem nD τ sig → Unit → ℕ)
    (h8 : Vact c main_v8 = V c main_v8) (h13 : Vact c main_v48 = V c main_v48)
    (hpf : ∀ k, Vact c (pre7.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat7 V a c).arrays ((dat7 V a c).arrAt · 0)
          ∗ Pipeline.prefHeld pre7 c (fun _ => fullShare) a.1
          ∗ (dat7 V a c).owesAt () 0 ∗ (∃ r, prngReg c r) ∗ Zrest7 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec7 c (fun b => Vact c b) ∗ Pipeline.unscopedRest spec7 c (fun b => Vact c b)) :=
    Pipeline.PerCore.unscopedBufs_split₀ (fun (_ : Dev nD) (_ : Fin 1) => cfg7 a) (0 : Fin 1) c winFacts₀7.arr_unscoped _
  rw [e2, Pipeline.unscopedRest_split preFacts7 c _]
  have hImg : (Finset.univ.image (Pipeline.arrRef spec7) : Finset (Ref sig .tc)) = {main_v8, main_v48} := by decide
  unfold Pipeline.arrBufs
  rw [hImg, bigSep_pair main_v8 main_v48 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq7]
  have hA0 : (dat7 V a c).arrAt 0 0 = Vact c main_v8 := h8.symm
  have hA1 : (dat7 V a c).arrAt 1 0 = Vact c main_v8 := h8.symm
  have hA2 : (dat7 V a c).arrAt 2 0 = Vact c main_v8 := h8.symm
  have hA3 : (dat7 V a c).arrAt 3 0 = Vact c main_v8 := h8.symm
  have hA4 : (dat7 V a c).arrAt 4 0 = Vact c main_v48 := h13.symm
  rw [hA0, hA1, hA2, hA3, hA4]
  have hP : (fun k => Vact c (pre7.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest7
  isplitl [Hrest]; · iexact Hrest
  iexact Hdrop

/-- The invariant at the first point: the scoped buffers no window stages, the generator register, the four tables. -/
theorem hin7 (c : Dev nD) :
    iprop((∃ r, prngReg c r) ∗ Pipeline.prefHeld pre7 c (fun _ => fullShare) a.1
        ∗ Pipeline.scopedRest (Ix := Unit) (Name := ℕ) (U := UR sig nD τ) (Lvl := ℕ) (Val := Elt F) spec7 c)
      ⊢ ((dat7 V a c).Φ 0 : sProp 𝕄) := by
  rw [show (dat7 V a c).Φ 0 = iprop(Pipeline.ΦA spec7 c ∗ Pipeline.prefHeld pre7 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep7 (c : Dev nD) : sProp 𝕄 :=
  iprop((∃ r, prngReg c r) ∗ Pipeline.prefHeld pre7 c (fun _ => fullShare) a.1)

theorem hout7 (c : Dev nD) :
    ((dat7 V a c).Φ (Fin.last (cfg7 a).N) : sProp 𝕄)
      ⊢ iprop(Ykeep7 a c ∗ Pipeline.ownSems0 (fun k : PEmpty => k.elim) c
          ∗ Pipeline.scopedRest (Ix := Unit) (Name := ℕ) (U := UR sig nD τ) (Lvl := ℕ) (Val := Elt F) spec7 c) := by
  rw [Pipeline.ownSems0_none,
    show (dat7 V a c).Φ (Fin.last (cfg7 a).N) = iprop(Pipeline.ΦA spec7 c ∗ Pipeline.prefHeld pre7 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit7 (c : Dev nD) (Vact' : Dev nD → Valuation τ sig (Elt F))
    (h8 : Vact c main_v8 = V c main_v8)
    (h8' : Vact' c main_v8 = Vact c main_v8) (h13' : Vact' c main_v48 = (dat7 V a c).arrAt 4 (cfg7 a).N)
    (hpf : ∀ k, Vact' c (pre7.ref k) = a.1 k)
    (hrest : ∀ b : Ref sig .tc, b ≠ main_v48 → Vact' c b = Vact c b) :
    iprop((dat7 V a c).arrays ((dat7 V a c).arrAt · (cfg7 a).N) ∗ (dat7 V a c).owesAt () (Fin.last (cfg7 a).N)
        ∗ Ykeep7 a c ∗ Zrest7 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec7 c (fun b => Vact' c b) ∗ Pipeline.unscopedRest spec7 c (fun b => Vact' c b)) :=
    Pipeline.PerCore.unscopedBufs_split₀ (fun (_ : Dev nD) (_ : Fin 1) => cfg7 a) (0 : Fin 1) c winFacts₀7.arr_unscoped _
  rw [e2, Pipeline.unscopedRest_split preFacts7 c _]
  have hImg : (Finset.univ.image (Pipeline.arrRef spec7) : Finset (Ref sig .tc)) = {main_v8, main_v48} := by decide
  unfold Pipeline.arrBufs
  rw [hImg, bigSep_pair main_v8 main_v48 (by decide)]
  have hRP : (Pipeline.unscopedRestP (Ix := Unit) (Name := ℕ) (U := UR sig nD τ) (Lvl := ℕ) pre7 spec7 c (fun b => Vact' c b) : sProp 𝕄)
      = Pipeline.unscopedRestP pre7 spec7 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre7.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq7]
  have hB0 : (dat7 V a c).arrAt 0 (cfg7 a).N = Vact c main_v8 := ((dat7 V a c).arrAt_in 0 rfl _).trans h8.symm
  have hB1 : (dat7 V a c).arrAt 1 (cfg7 a).N = Vact c main_v8 := ((dat7 V a c).arrAt_in 1 rfl _).trans h8.symm
  have hB2 : (dat7 V a c).arrAt 2 (cfg7 a).N = Vact c main_v8 := ((dat7 V a c).arrAt_in 2 rfl _).trans h8.symm
  have hB3 : (dat7 V a c).arrAt 3 (cfg7 a).N = Vact c main_v8 := ((dat7 V a c).arrAt_in 3 rfl _).trans h8.symm
  rw [hB0, hB1, hB2, hB3, hRP]
  unfold Zrest7
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v48 = (dat7 V a c).arrAt 4 (cfg7 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg7.lean ====
/-
  Region 7 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg7
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 7 over the thread state. -/
def reg7 : Pipeline.RegionSeg (pcfgs (F := F)) (adm m hR) (pdats m hR) () defs₀ Variants.none Lnone lvnone (7 : Fin 20) where
  win := winFacts₀7
  block_pos := block_pos7
  stage_whole := stage_whole7
  K := PEmpty
  osem k := k.elim
  ho := Pipeline.OwnSemFacts.none _
  hbody c := (body_obligation7 (Vfirst m) (adm7 m core0 (hR core0)) c).loose
  hwaits := Pipeline.hwaits_of_owed_zero _ _ _ _ Lnone lvnone (7 : Fin 20) fun _ _ => rfl
  pre c := iprop(StableHlo.held (c : Thread nD τ) (Pipeline.ucRefs τ sig) (VE7 m hR c) ∗ Rside c)
  post c := iprop(StableHlo.held (c : Thread nD τ) (Pipeline.ucRefs τ sig) (VX7 m hR c) ∗ Rside c)
  X c := iprop(∃ r, prngReg c r)
  Y c := Ykeep7 (adm7 m core0 (hR core0)) c
  Z c := Zrest7 (VE7 m hR) c
  hentry c := hentry7 (VE7 m hR) (Vfirst m) (adm7 m core0 (hR core0)) c Lnone lvnone (ent_xtab7 m hR c) (ent_out7 m hR c) (ent_pf7 m hR c)
  hin c := hin7 (Vfirst m) (adm7 m core0 (hR core0)) c
  hout c := hout7 (Vfirst m) (adm7 m core0 (hR core0)) c
  hexit c := hexit7 (VE7 m hR) (Vfirst m) (adm7 m core0 (hR core0)) c (VX7 m hR) (ent_xtab7 m hR c) (ext_xtab7 m hR c) (ext_out7 m hR c)
    (ext_pf7 m hR c) (ext_rest7 m hR c)

end Cert.KernelIdeal.Gen

end
-- ==== Proof.KI.Seg8.lean ====
/-
  Region 8 of the gather-and-norm program, second half: how the region is entered and left.

  Between two segments of the program a core holds every unscoped buffer whole. Region 8 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region8
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg8 (F := F)).Adm)

/-- What bypasses region 8: every unscoped buffer that is neither one of its two arrays nor one of its four tables,
    and the part of the point table's share the four input windows do not need. -/
def Zrest8 (c : Dev nD) : sProp 𝕄 :=
  iprop(Pipeline.unscopedRestP (Ix := Unit) (Name := ℕ) (U := UR sig nD τ) (Lvl := ℕ) pre8 spec8 c (fun b => Vact c b)
    ∗ (((c.tc : Thread nD τ).loc main_v8) ↦{Transfers.shareDrop fullShare 4} Vact c main_v8))

/-- Region 8's arrays, window by window: the point table four times, at the four quarter shares, and the output
    array whole. -/
theorem arrays_eq8 (c : Dev nD)
    (G : (w : Fin (cfg8 a).W) → Buf (Elt F) (((cfg8 a).win w).arr.view.loc (c.tc : Thread nD τ))) :
    (dat8 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v53) ↦{fullShare} G 4)) : sProp 𝕄) := by
  unfold Dat.arrays
  rw [show (bigSep Finset.univ fun w : Fin (cfg8 a).W =>
          ((((cfg8 a).win w).arr.view.loc (c.tc : Thread nD τ)) ↦[((cfg8 a).win w).arr.view.set]{(dat8 V a c).share w} G w : sProp 𝕄))
        = bigSep Finset.univ fun w : Fin (cfg8 a).W =>
          ((((c.tc : Thread nD τ).loc (Pipeline.arrRef spec8 w)) ↦{(dat8 V a c).share w} G w : sProp 𝕄))
      from bigSep_congr fun w _ => by rw [(arr_whole8 w).set_eq_univ]]
  rw [bigSep_W8]
  have hs0 : (dat8 V a c).share 0 = Transfers.shareTok fullShare 4 0 := rfl
  have hs1 : (dat8 V a c).share 1 = Transfers.shareTok fullShare 4 1 := rfl
  have hs2 : (dat8 V a c).share 2 = Transfers.shareTok fullShare 4 2 := rfl
  have hs3 : (dat8 V a c).share 3 = Transfers.shareTok fullShare 4 3 := rfl
  have hs4 : (dat8 V a c).share 4 = fullShare := rfl
  rw [hs0, hs1, hs2, hs3, hs4]

theorem hentry8 (c : Dev nD) (L : GSem nD τ sig → Finset Unit) (lv : GSem nD τ sig → Unit → ℕ)
    (h8 : Vact c main_v8 = V c main_v8) (h13 : Vact c main_v53 = V c main_v53)
    (hpf : ∀ k, Vact c (pre8.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat8 V a c).arrays ((dat8 V a c).arrAt · 0)
          ∗ Pipeline.prefHeld pre8 c (fun _ => fullShare) a.1
          ∗ (dat8 V a c).owesAt () 0 ∗ (∃ r, prngReg c r) ∗ Zrest8 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec8 c (fun b => Vact c b) ∗ Pipeline.unscopedRest spec8 c (fun b => Vact c b)) :=
    Pipeline.PerCore.unscopedBufs_split₀ (fun (_ : Dev nD) (_ : Fin 1) => cfg8 a) (0 : Fin 1) c winFacts₀8.arr_unscoped _
  rw [e2, Pipeline.unscopedRest_split preFacts8 c _]
  have hImg : (Finset.univ.image (Pipeline.arrRef spec8) : Finset (Ref sig .tc)) = {main_v8, main_v53} := by decide
  unfold Pipeline.arrBufs
  rw [hImg, bigSep_pair main_v8 main_v53 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq8]
  have hA0 : (dat8 V a c).arrAt 0 0 = Vact c main_v8 := h8.symm
  have hA1 : (dat8 V a c).arrAt 1 0 = Vact c main_v8 := h8.symm
  have hA2 : (dat8 V a c).arrAt 2 0 = Vact c main_v8 := h8.symm
  have hA3 : (dat8 V a c).arrAt 3 0 = Vact c main_v8 := h8.symm
  have hA4 : (dat8 V a c).arrAt 4 0 = Vact c main_v53 := h13.symm
  rw [hA0, hA1, hA2, hA3, hA4]
  have hP : (fun k => Vact c (pre8.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest8
  isplitl [Hrest]; · iexact Hrest
  iexact Hdrop

/-- The invariant at the first point: the scoped buffers no window stages, the generator register, the four tables. -/
theorem hin8 (c : Dev nD) :
    iprop((∃ r, prngReg c r) ∗ Pipeline.prefHeld pre8 c (fun _ => fullShare) a.1
        ∗ Pipeline.scopedRest (Ix := Unit) (Name := ℕ) (U := UR sig nD τ) (Lvl := ℕ) (Val := Elt F) spec8 c)
      ⊢ ((dat8 V a c).Φ 0 : sProp 𝕄) := by
  rw [show (dat8 V a c).Φ 0 = iprop(Pipeline.ΦA spec8 c ∗ Pipeline.prefHeld pre8 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep8 (c : Dev nD) : sProp 𝕄 :=
  iprop((∃ r, prngReg c r) ∗ Pipeline.prefHeld pre8 c (fun _ => fullShare) a.1)

theorem hout8 (c : Dev nD) :
    ((dat8 V a c).Φ (Fin.last (cfg8 a).N) : sProp 𝕄)
      ⊢ iprop(Ykeep8 a c ∗ Pipeline.ownSems0 (fun k : PEmpty => k.elim) c
          ∗ Pipeline.scopedRest (Ix := Unit) (Name := ℕ) (U := UR sig nD τ) (Lvl := ℕ) (Val := Elt F) spec8 c) := by
  rw [Pipeline.ownSems0_none,
    show (dat8 V a c).Φ (Fin.last (cfg8 a).N) = iprop(Pipeline.ΦA spec8 c ∗ Pipeline.prefHeld pre8 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit8 (c : Dev nD) (Vact' : Dev nD → Valuation τ sig (Elt F))
    (h8 : Vact c main_v8 = V c main_v8)
    (h8' : Vact' c main_v8 = Vact c main_v8) (h13' : Vact' c main_v53 = (dat8 V a c).arrAt 4 (cfg8 a).N)
    (hpf : ∀ k, Vact' c (pre8.ref k) = a.1 k)
    (hrest : ∀ b : Ref sig .tc, b ≠ main_v53 → Vact' c b = Vact c b) :
    iprop((dat8 V a c).arrays ((dat8 V a c).arrAt · (cfg8 a).N) ∗ (dat8 V a c).owesAt () (Fin.last (cfg8 a).N)
        ∗ Ykeep8 a c ∗ Zrest8 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec8 c (fun b => Vact' c b) ∗ Pipeline.unscopedRest spec8 c (fun b => Vact' c b)) :=
    Pipeline.PerCore.unscopedBufs_split₀ (fun (_ : Dev nD) (_ : Fin 1) => cfg8 a) (0 : Fin 1) c winFacts₀8.arr_unscoped _
  rw [e2, Pipeline.unscopedRest_split preFacts8 c _]
  have hImg : (Finset.univ.image (Pipeline.arrRef spec8) : Finset (Ref sig .tc)) = {main_v8, main_v53} := by decide
  unfold Pipeline.arrBufs
  rw [hImg, bigSep_pair main_v8 main_v53 (by decide)]
  have hRP : (Pipeline.unscopedRestP (Ix := Unit) (Name := ℕ) (U := UR sig nD τ) (Lvl := ℕ) pre8 spec8 c (fun b => Vact' c b) : sProp 𝕄)
      = Pipeline.unscopedRestP pre8 spec8 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre8.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq8]
  have hB0 : (dat8 V a c).arrAt 0 (cfg8 a).N = Vact c main_v8 := ((dat8 V a c).arrAt_in 0 rfl _).trans h8.symm
  have hB1 : (dat8 V a c).arrAt 1 (cfg8 a).N = Vact c main_v8 := ((dat8 V a c).arrAt_in 1 rfl _).trans h8.symm
  have hB2 : (dat8 V a c).arrAt 2 (cfg8 a).N = Vact c main_v8 := ((dat8 V a c).arrAt_in 2 rfl _).trans h8.symm
  have hB3 : (dat8 V a c).arrAt 3 (cfg8 a).N = Vact c main_v8 := ((dat8 V a c).arrAt_in 3 rfl _).trans h8.symm
  rw [hB0, hB1, hB2, hB3, hRP]
  unfold Zrest8
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v53 = (dat8 V a c).arrAt 4 (cfg8 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg8.lean ====
/-
  Region 8 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg8
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 8 over the thread state. -/
def reg8 : Pipeline.RegionSeg (pcfgs (F := F)) (adm m hR) (pdats m hR) () defs₀ Variants.none Lnone lvnone (8 : Fin 20) where
  win := winFacts₀8
  block_pos := block_pos8
  stage_whole := stage_whole8
  K := PEmpty
  osem k := k.elim
  ho := Pipeline.OwnSemFacts.none _
  hbody c := (body_obligation8 (Vfirst m) (adm8 m core0 (hR core0)) c).loose
  hwaits := Pipeline.hwaits_of_owed_zero _ _ _ _ Lnone lvnone (8 : Fin 20) fun _ _ => rfl
  pre c := iprop(StableHlo.held (c : Thread nD τ) (Pipeline.ucRefs τ sig) (VE8 m hR c) ∗ Rside c)
  post c := iprop(StableHlo.held (c : Thread nD τ) (Pipeline.ucRefs τ sig) (VX8 m hR c) ∗ Rside c)
  X c := iprop(∃ r, prngReg c r)
  Y c := Ykeep8 (adm8 m core0 (hR core0)) c
  Z c := Zrest8 (VE8 m hR) c
  hentry c := hentry8 (VE8 m hR) (Vfirst m) (adm8 m core0 (hR core0)) c Lnone lvnone (ent_xtab8 m hR c) (ent_out8 m hR c) (ent_pf8 m hR c)
  hin c := hin8 (Vfirst m) (adm8 m core0 (hR core0)) c
  hout c := hout8 (Vfirst m) (adm8 m core0 (hR core0)) c
  hexit c := hexit8 (VE8 m hR) (Vfirst m) (adm8 m core0 (hR core0)) c (VX8 m hR) (ent_xtab8 m hR c) (ext_xtab8 m hR c) (ext_out8 m hR c)
    (ext_pf8 m hR c) (ext_rest8 m hR c)

end Cert.KernelIdeal.Gen

end
-- ==== Proof.KI.Seg9.lean ====
/-
  Region 9 of the gather-and-norm program, second half: how the region is entered and left.

  Between two segments of the program a core holds every unscoped buffer whole. Region 9 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region9
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg9 (F := F)).Adm)

/-- What bypasses region 9: every unscoped buffer that is neither one of its two arrays nor one of its four tables,
    and the part of the point table's share the four input windows do not need. -/
def Zrest9 (c : Dev nD) : sProp 𝕄 :=
  iprop(Pipeline.unscopedRestP (Ix := Unit) (Name := ℕ) (U := UR sig nD τ) (Lvl := ℕ) pre9 spec9 c (fun b => Vact c b)
    ∗ (((c.tc : Thread nD τ).loc main_v8) ↦{Transfers.shareDrop fullShare 4} Vact c main_v8))

/-- Region 9's arrays, window by window: the point table four times, at the four quarter shares, and the output
    array whole. -/
theorem arrays_eq9 (c : Dev nD)
    (G : (w : Fin (cfg9 a).W) → Buf (Elt F) (((cfg9 a).win w).arr.view.loc (c.tc : Thread nD τ))) :
    (dat9 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v58) ↦{fullShare} G 4)) : sProp 𝕄) := by
  unfold Dat.arrays
  rw [show (bigSep Finset.univ fun w : Fin (cfg9 a).W =>
          ((((cfg9 a).win w).arr.view.loc (c.tc : Thread nD τ)) ↦[((cfg9 a).win w).arr.view.set]{(dat9 V a c).share w} G w : sProp 𝕄))
        = bigSep Finset.univ fun w : Fin (cfg9 a).W =>
          ((((c.tc : Thread nD τ).loc (Pipeline.arrRef spec9 w)) ↦{(dat9 V a c).share w} G w : sProp 𝕄))
      from bigSep_congr fun w _ => by rw [(arr_whole9 w).set_eq_univ]]
  rw [bigSep_W9]
  have hs0 : (dat9 V a c).share 0 = Transfers.shareTok fullShare 4 0 := rfl
  have hs1 : (dat9 V a c).share 1 = Transfers.shareTok fullShare 4 1 := rfl
  have hs2 : (dat9 V a c).share 2 = Transfers.shareTok fullShare 4 2 := rfl
  have hs3 : (dat9 V a c).share 3 = Transfers.shareTok fullShare 4 3 := rfl
  have hs4 : (dat9 V a c).share 4 = fullShare := rfl
  rw [hs0, hs1, hs2, hs3, hs4]

theorem hentry9 (c : Dev nD) (L : GSem nD τ sig → Finset Unit) (lv : GSem nD τ sig → Unit → ℕ)
    (h8 : Vact c main_v8 = V c main_v8) (h13 : Vact c main_v58 = V c main_v58)
    (hpf : ∀ k, Vact c (pre9.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat9 V a c).arrays ((dat9 V a c).arrAt · 0)
          ∗ Pipeline.prefHeld pre9 c (fun _ => fullShare) a.1
          ∗ (dat9 V a c).owesAt () 0 ∗ (∃ r, prngReg c r) ∗ Zrest9 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec9 c (fun b => Vact c b) ∗ Pipeline.unscopedRest spec9 c (fun b => Vact c b)) :=
    Pipeline.PerCore.unscopedBufs_split₀ (fun (_ : Dev nD) (_ : Fin 1) => cfg9 a) (0 : Fin 1) c winFacts₀9.arr_unscoped _
  rw [e2, Pipeline.unscopedRest_split preFacts9 c _]
  have hImg : (Finset.univ.image (Pipeline.arrRef spec9) : Finset (Ref sig .tc)) = {main_v8, main_v58} := by decide
  unfold Pipeline.arrBufs
  rw [hImg, bigSep_pair main_v8 main_v58 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq9]
  have hA0 : (dat9 V a c).arrAt 0 0 = Vact c main_v8 := h8.symm
  have hA1 : (dat9 V a c).arrAt 1 0 = Vact c main_v8 := h8.symm
  have hA2 : (dat9 V a c).arrAt 2 0 = Vact c main_v8 := h8.symm
  have hA3 : (dat9 V a c).arrAt 3 0 = Vact c main_v8 := h8.symm
  have hA4 : (dat9 V a c).arrAt 4 0 = Vact c main_v58 := h13.symm
  rw [hA0, hA1, hA2, hA3, hA4]
  have hP : (fun k => Vact c (pre9.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest9
  isplitl [Hrest]; · iexact Hrest
  iexact Hdrop

/-- The invariant at the first point: the scoped buffers no window stages, the generator register, the four tables. -/
theorem hin9 (c : Dev nD) :
    iprop((∃ r, prngReg c r) ∗ Pipeline.prefHeld pre9 c (fun _ => fullShare) a.1
        ∗ Pipeline.scopedRest (Ix := Unit) (Name := ℕ) (U := UR sig nD τ) (Lvl := ℕ) (Val := Elt F) spec9 c)
      ⊢ ((dat9 V a c).Φ 0 : sProp 𝕄) := by
  rw [show (dat9 V a c).Φ 0 = iprop(Pipeline.ΦA spec9 c ∗ Pipeline.prefHeld pre9 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep9 (c : Dev nD) : sProp 𝕄 :=
  iprop((∃ r, prngReg c r) ∗ Pipeline.prefHeld pre9 c (fun _ => fullShare) a.1)

theorem hout9 (c : Dev nD) :
    ((dat9 V a c).Φ (Fin.last (cfg9 a).N) : sProp 𝕄)
      ⊢ iprop(Ykeep9 a c ∗ Pipeline.ownSems0 (fun k : PEmpty => k.elim) c
          ∗ Pipeline.scopedRest (Ix := Unit) (Name := ℕ) (U := UR sig nD τ) (Lvl := ℕ) (Val := Elt F) spec9 c) := by
  rw [Pipeline.ownSems0_none,
    show (dat9 V a c).Φ (Fin.last (cfg9 a).N) = iprop(Pipeline.ΦA spec9 c ∗ Pipeline.prefHeld pre9 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit9 (c : Dev nD) (Vact' : Dev nD → Valuation τ sig (Elt F))
    (h8 : Vact c main_v8 = V c main_v8)
    (h8' : Vact' c main_v8 = Vact c main_v8) (h13' : Vact' c main_v58 = (dat9 V a c).arrAt 4 (cfg9 a).N)
    (hpf : ∀ k, Vact' c (pre9.ref k) = a.1 k)
    (hrest : ∀ b : Ref sig .tc, b ≠ main_v58 → Vact' c b = Vact c b) :
    iprop((dat9 V a c).arrays ((dat9 V a c).arrAt · (cfg9 a).N) ∗ (dat9 V a c).owesAt () (Fin.last (cfg9 a).N)
        ∗ Ykeep9 a c ∗ Zrest9 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec9 c (fun b => Vact' c b) ∗ Pipeline.unscopedRest spec9 c (fun b => Vact' c b)) :=
    Pipeline.PerCore.unscopedBufs_split₀ (fun (_ : Dev nD) (_ : Fin 1) => cfg9 a) (0 : Fin 1) c winFacts₀9.arr_unscoped _
  rw [e2, Pipeline.unscopedRest_split preFacts9 c _]
  have hImg : (Finset.univ.image (Pipeline.arrRef spec9) : Finset (Ref sig .tc)) = {main_v8, main_v58} := by decide
  unfold Pipeline.arrBufs
  rw [hImg, bigSep_pair main_v8 main_v58 (by decide)]
  have hRP : (Pipeline.unscopedRestP (Ix := Unit) (Name := ℕ) (U := UR sig nD τ) (Lvl := ℕ) pre9 spec9 c (fun b => Vact' c b) : sProp 𝕄)
      = Pipeline.unscopedRestP pre9 spec9 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre9.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq9]
  have hB0 : (dat9 V a c).arrAt 0 (cfg9 a).N = Vact c main_v8 := ((dat9 V a c).arrAt_in 0 rfl _).trans h8.symm
  have hB1 : (dat9 V a c).arrAt 1 (cfg9 a).N = Vact c main_v8 := ((dat9 V a c).arrAt_in 1 rfl _).trans h8.symm
  have hB2 : (dat9 V a c).arrAt 2 (cfg9 a).N = Vact c main_v8 := ((dat9 V a c).arrAt_in 2 rfl _).trans h8.symm
  have hB3 : (dat9 V a c).arrAt 3 (cfg9 a).N = Vact c main_v8 := ((dat9 V a c).arrAt_in 3 rfl _).trans h8.symm
  rw [hB0, hB1, hB2, hB3, hRP]
  unfold Zrest9
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v58 = (dat9 V a c).arrAt 4 (cfg9 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg9.lean ====
/-
  Region 9 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg9
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 9 over the thread state. -/
def reg9 : Pipeline.RegionSeg (pcfgs (F := F)) (adm m hR) (pdats m hR) () defs₀ Variants.none Lnone lvnone (9 : Fin 20) where
  win := winFacts₀9
  block_pos := block_pos9
  stage_whole := stage_whole9
  K := PEmpty
  osem k := k.elim
  ho := Pipeline.OwnSemFacts.none _
  hbody c := (body_obligation9 (Vfirst m) (adm9 m core0 (hR core0)) c).loose
  hwaits := Pipeline.hwaits_of_owed_zero _ _ _ _ Lnone lvnone (9 : Fin 20) fun _ _ => rfl
  pre c := iprop(StableHlo.held (c : Thread nD τ) (Pipeline.ucRefs τ sig) (VE9 m hR c) ∗ Rside c)
  post c := iprop(StableHlo.held (c : Thread nD τ) (Pipeline.ucRefs τ sig) (VX9 m hR c) ∗ Rside c)
  X c := iprop(∃ r, prngReg c r)
  Y c := Ykeep9 (adm9 m core0 (hR core0)) c
  Z c := Zrest9 (VE9 m hR) c
  hentry c := hentry9 (VE9 m hR) (Vfirst m) (adm9 m core0 (hR core0)) c Lnone lvnone (ent_xtab9 m hR c) (ent_out9 m hR c) (ent_pf9 m hR c)
  hin c := hin9 (Vfirst m) (adm9 m core0 (hR core0)) c
  hout c := hout9 (Vfirst m) (adm9 m core0 (hR core0)) c
  hexit c := hexit9 (VE9 m hR) (Vfirst m) (adm9 m core0 (hR core0)) c (VX9 m hR) (ent_xtab9 m hR c) (ext_xtab9 m hR c) (ext_out9 m hR c)
    (ext_pf9 m hR c) (ext_rest9 m hR c)

end Cert.KernelIdeal.Gen

end
-- ==== Proof.KI.Seg10.lean ====
/-
  Region 10 of the gather-and-norm program, second half: how the region is entered and left.

  Between two segments of the program a core holds every unscoped buffer whole. Region 10 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region10
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg10 (F := F)).Adm)

/-- What bypasses region 10: every unscoped buffer that is neither one of its two arrays nor one of its four tables,
    and the part of the point table's share the four input windows do not need. -/
def Zrest10 (c : Dev nD) : sProp 𝕄 :=
  iprop(Pipeline.unscopedRestP (Ix := Unit) (Name := ℕ) (U := UR sig nD τ) (Lvl := ℕ) pre10 spec10 c (fun b => Vact c b)
    ∗ (((c.tc : Thread nD τ).loc main_v8) ↦{Transfers.shareDrop fullShare 4} Vact c main_v8))

/-- Region 10's arrays, window by window: the point table four times, at the four quarter shares, and the output
    array whole. -/
theorem arrays_eq10 (c : Dev nD)
    (G : (w : Fin (cfg10 a).W) → Buf (Elt F) (((cfg10 a).win w).arr.view.loc (c.tc : Thread nD τ))) :
    (dat10 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v63) ↦{fullShare} G 4)) : sProp 𝕄) := by
  unfold Dat.arrays
  rw [show (bigSep Finset.univ fun w : Fin (cfg10 a).W =>
          ((((cfg10 a).win w).arr.view.loc (c.tc : Thread nD τ)) ↦[((cfg10 a).win w).arr.view.set]{(dat10 V a c).share w} G w : sProp 𝕄))
        = bigSep Finset.univ fun w : Fin (cfg10 a).W =>
          ((((c.tc : Thread nD τ).loc (Pipeline.arrRef spec10 w)) ↦{(dat10 V a c).share w} G w : sProp 𝕄))
      from bigSep_congr fun w _ => by rw [(arr_whole10 w).set_eq_univ]]
  rw [bigSep_W10]
  have hs0 : (dat10 V a c).share 0 = Transfers.shareTok fullShare 4 0 := rfl
  have hs1 : (dat10 V a c).share 1 = Transfers.shareTok fullShare 4 1 := rfl
  have hs2 : (dat10 V a c).share 2 = Transfers.shareTok fullShare 4 2 := rfl
  have hs3 : (dat10 V a c).share 3 = Transfers.shareTok fullShare 4 3 := rfl
  have hs4 : (dat10 V a c).share 4 = fullShare := rfl
  rw [hs0, hs1, hs2, hs3, hs4]

theorem hentry10 (c : Dev nD) (L : GSem nD τ sig → Finset Unit) (lv : GSem nD τ sig → Unit → ℕ)
    (h8 : Vact c main_v8 = V c main_v8) (h13 : Vact c main_v63 = V c main_v63)
    (hpf : ∀ k, Vact c (pre10.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat10 V a c).arrays ((dat10 V a c).arrAt · 0)
          ∗ Pipeline.prefHeld pre10 c (fun _ => fullShare) a.1
          ∗ (dat10 V a c).owesAt () 0 ∗ (∃ r, prngReg c r) ∗ Zrest10 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec10 c (fun b => Vact c b) ∗ Pipeline.unscopedRest spec10 c (fun b => Vact c b)) :=
    Pipeline.PerCore.unscopedBufs_split₀ (fun (_ : Dev nD) (_ : Fin 1) => cfg10 a) (0 : Fin 1) c winFacts₀10.arr_unscoped _
  rw [e2, Pipeline.unscopedRest_split preFacts10 c _]
  have hImg : (Finset.univ.image (Pipeline.arrRef spec10) : Finset (Ref sig .tc)) = {main_v8, main_v63} := by decide
  unfold Pipeline.arrBufs
  rw [hImg, bigSep_pair main_v8 main_v63 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq10]
  have hA0 : (dat10 V a c).arrAt 0 0 = Vact c main_v8 := h8.symm
  have hA1 : (dat10 V a c).arrAt 1 0 = Vact c main_v8 := h8.symm
  have hA2 : (dat10 V a c).arrAt 2 0 = Vact c main_v8 := h8.symm
  have hA3 : (dat10 V a c).arrAt 3 0 = Vact c main_v8 := h8.symm
  have hA4 : (dat10 V a c).arrAt 4 0 = Vact c main_v63 := h13.symm
  rw [hA0, hA1, hA2, hA3, hA4]
  have hP : (fun k => Vact c (pre10.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest10
  isplitl [Hrest]; · iexact Hrest
  iexact Hdrop

/-- The invariant at the first point: the scoped buffers no window stages, the generator register, the four tables. -/
theorem hin10 (c : Dev nD) :
    iprop((∃ r, prngReg c r) ∗ Pipeline.prefHeld pre10 c (fun _ => fullShare) a.1
        ∗ Pipeline.scopedRest (Ix := Unit) (Name := ℕ) (U := UR sig nD τ) (Lvl := ℕ) (Val := Elt F) spec10 c)
      ⊢ ((dat10 V a c).Φ 0 : sProp 𝕄) := by
  rw [show (dat10 V a c).Φ 0 = iprop(Pipeline.ΦA spec10 c ∗ Pipeline.prefHeld pre10 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep10 (c : Dev nD) : sProp 𝕄 :=
  iprop((∃ r, prngReg c r) ∗ Pipeline.prefHeld pre10 c (fun _ => fullShare) a.1)

theorem hout10 (c : Dev nD) :
    ((dat10 V a c).Φ (Fin.last (cfg10 a).N) : sProp 𝕄)
      ⊢ iprop(Ykeep10 a c ∗ Pipeline.ownSems0 (fun k : PEmpty => k.elim) c
          ∗ Pipeline.scopedRest (Ix := Unit) (Name := ℕ) (U := UR sig nD τ) (Lvl := ℕ) (Val := Elt F) spec10 c) := by
  rw [Pipeline.ownSems0_none,
    show (dat10 V a c).Φ (Fin.last (cfg10 a).N) = iprop(Pipeline.ΦA spec10 c ∗ Pipeline.prefHeld pre10 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit10 (c : Dev nD) (Vact' : Dev nD → Valuation τ sig (Elt F))
    (h8 : Vact c main_v8 = V c main_v8)
    (h8' : Vact' c main_v8 = Vact c main_v8) (h13' : Vact' c main_v63 = (dat10 V a c).arrAt 4 (cfg10 a).N)
    (hpf : ∀ k, Vact' c (pre10.ref k) = a.1 k)
    (hrest : ∀ b : Ref sig .tc, b ≠ main_v63 → Vact' c b = Vact c b) :
    iprop((dat10 V a c).arrays ((dat10 V a c).arrAt · (cfg10 a).N) ∗ (dat10 V a c).owesAt () (Fin.last (cfg10 a).N)
        ∗ Ykeep10 a c ∗ Zrest10 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec10 c (fun b => Vact' c b) ∗ Pipeline.unscopedRest spec10 c (fun b => Vact' c b)) :=
    Pipeline.PerCore.unscopedBufs_split₀ (fun (_ : Dev nD) (_ : Fin 1) => cfg10 a) (0 : Fin 1) c winFacts₀10.arr_unscoped _
  rw [e2, Pipeline.unscopedRest_split preFacts10 c _]
  have hImg : (Finset.univ.image (Pipeline.arrRef spec10) : Finset (Ref sig .tc)) = {main_v8, main_v63} := by decide
  unfold Pipeline.arrBufs
  rw [hImg, bigSep_pair main_v8 main_v63 (by decide)]
  have hRP : (Pipeline.unscopedRestP (Ix := Unit) (Name := ℕ) (U := UR sig nD τ) (Lvl := ℕ) pre10 spec10 c (fun b => Vact' c b) : sProp 𝕄)
      = Pipeline.unscopedRestP pre10 spec10 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre10.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq10]
  have hB0 : (dat10 V a c).arrAt 0 (cfg10 a).N = Vact c main_v8 := ((dat10 V a c).arrAt_in 0 rfl _).trans h8.symm
  have hB1 : (dat10 V a c).arrAt 1 (cfg10 a).N = Vact c main_v8 := ((dat10 V a c).arrAt_in 1 rfl _).trans h8.symm
  have hB2 : (dat10 V a c).arrAt 2 (cfg10 a).N = Vact c main_v8 := ((dat10 V a c).arrAt_in 2 rfl _).trans h8.symm
  have hB3 : (dat10 V a c).arrAt 3 (cfg10 a).N = Vact c main_v8 := ((dat10 V a c).arrAt_in 3 rfl _).trans h8.symm
  rw [hB0, hB1, hB2, hB3, hRP]
  unfold Zrest10
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v63 = (dat10 V a c).arrAt 4 (cfg10 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg10.lean ====
/-
  Region 10 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg10
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 10 over the thread state. -/
def reg10 : Pipeline.RegionSeg (pcfgs (F := F)) (adm m hR) (pdats m hR) () defs₀ Variants.none Lnone lvnone (10 : Fin 20) where
  win := winFacts₀10
  block_pos := block_pos10
  stage_whole := stage_whole10
  K := PEmpty
  osem k := k.elim
  ho := Pipeline.OwnSemFacts.none _
  hbody c := (body_obligation10 (Vfirst m) (adm10 m core0 (hR core0)) c).loose
  hwaits := Pipeline.hwaits_of_owed_zero _ _ _ _ Lnone lvnone (10 : Fin 20) fun _ _ => rfl
  pre c := iprop(StableHlo.held (c : Thread nD τ) (Pipeline.ucRefs τ sig) (VE10 m hR c) ∗ Rside c)
  post c := iprop(StableHlo.held (c : Thread nD τ) (Pipeline.ucRefs τ sig) (VX10 m hR c) ∗ Rside c)
  X c := iprop(∃ r, prngReg c r)
  Y c := Ykeep10 (adm10 m core0 (hR core0)) c
  Z c := Zrest10 (VE10 m hR) c
  hentry c := hentry10 (VE10 m hR) (Vfirst m) (adm10 m core0 (hR core0)) c Lnone lvnone (ent_xtab10 m hR c) (ent_out10 m hR c) (ent_pf10 m hR c)
  hin c := hin10 (Vfirst m) (adm10 m core0 (hR core0)) c
  hout c := hout10 (Vfirst m) (adm10 m core0 (hR core0)) c
  hexit c := hexit10 (VE10 m hR) (Vfirst m) (adm10 m core0 (hR core0)) c (VX10 m hR) (ent_xtab10 m hR c) (ext_xtab10 m hR c) (ext_out10 m hR c)
    (ext_pf10 m hR c) (ext_rest10 m hR c)

end Cert.KernelIdeal.Gen

end
-- ==== Proof.KI.Seg11.lean ====
/-
  Region 11 of the gather-and-norm program, second half: how the region is entered and left.

  Between two segments of the program a core holds every unscoped buffer whole. Region 11 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region11
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg11 (F := F)).Adm)

/-- What bypasses region 11: every unscoped buffer that is neither one of its two arrays nor one of its four tables,
    and the part of the point table's share the four input windows do not need. -/
def Zrest11 (c : Dev nD) : sProp 𝕄 :=
  iprop(Pipeline.unscopedRestP (Ix := Unit) (Name := ℕ) (U := UR sig nD τ) (Lvl := ℕ) pre11 spec11 c (fun b => Vact c b)
    ∗ (((c.tc : Thread nD τ).loc main_v8) ↦{Transfers.shareDrop fullShare 4} Vact c main_v8))

/-- Region 11's arrays, window by window: the point table four times, at the four quarter shares, and the output
    array whole. -/
theorem arrays_eq11 (c : Dev nD)
    (G : (w : Fin (cfg11 a).W) → Buf (Elt F) (((cfg11 a).win w).arr.view.loc (c.tc : Thread nD τ))) :
    (dat11 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v68) ↦{fullShare} G 4)) : sProp 𝕄) := by
  unfold Dat.arrays
  rw [show (bigSep Finset.univ fun w : Fin (cfg11 a).W =>
          ((((cfg11 a).win w).arr.view.loc (c.tc : Thread nD τ)) ↦[((cfg11 a).win w).arr.view.set]{(dat11 V a c).share w} G w : sProp 𝕄))
        = bigSep Finset.univ fun w : Fin (cfg11 a).W =>
          ((((c.tc : Thread nD τ).loc (Pipeline.arrRef spec11 w)) ↦{(dat11 V a c).share w} G w : sProp 𝕄))
      from bigSep_congr fun w _ => by rw [(arr_whole11 w).set_eq_univ]]
  rw [bigSep_W11]
  have hs0 : (dat11 V a c).share 0 = Transfers.shareTok fullShare 4 0 := rfl
  have hs1 : (dat11 V a c).share 1 = Transfers.shareTok fullShare 4 1 := rfl
  have hs2 : (dat11 V a c).share 2 = Transfers.shareTok fullShare 4 2 := rfl
  have hs3 : (dat11 V a c).share 3 = Transfers.shareTok fullShare 4 3 := rfl
  have hs4 : (dat11 V a c).share 4 = fullShare := rfl
  rw [hs0, hs1, hs2, hs3, hs4]

theorem hentry11 (c : Dev nD) (L : GSem nD τ sig → Finset Unit) (lv : GSem nD τ sig → Unit → ℕ)
    (h8 : Vact c main_v8 = V c main_v8) (h13 : Vact c main_v68 = V c main_v68)
    (hpf : ∀ k, Vact c (pre11.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat11 V a c).arrays ((dat11 V a c).arrAt · 0)
          ∗ Pipeline.prefHeld pre11 c (fun _ => fullShare) a.1
          ∗ (dat11 V a c).owesAt () 0 ∗ (∃ r, prngReg c r) ∗ Zrest11 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec11 c (fun b => Vact c b) ∗ Pipeline.unscopedRest spec11 c (fun b => Vact c b)) :=
    Pipeline.PerCore.unscopedBufs_split₀ (fun (_ : Dev nD) (_ : Fin 1) => cfg11 a) (0 : Fin 1) c winFacts₀11.arr_unscoped _
  rw [e2, Pipeline.unscopedRest_split preFacts11 c _]
  have hImg : (Finset.univ.image (Pipeline.arrRef spec11) : Finset (Ref sig .tc)) = {main_v8, main_v68} := by decide
  unfold Pipeline.arrBufs
  rw [hImg, bigSep_pair main_v8 main_v68 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq11]
  have hA0 : (dat11 V a c).arrAt 0 0 = Vact c main_v8 := h8.symm
  have hA1 : (dat11 V a c).arrAt 1 0 = Vact c main_v8 := h8.symm
  have hA2 : (dat11 V a c).arrAt 2 0 = Vact c main_v8 := h8.symm
  have hA3 : (dat11 V a c).arrAt 3 0 = Vact c main_v8 := h8.symm
  have hA4 : (dat11 V a c).arrAt 4 0 = Vact c main_v68 := h13.symm
  rw [hA0, hA1, hA2, hA3, hA4]
  have hP : (fun k => Vact c (pre11.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest11
  isplitl [Hrest]; · iexact Hrest
  iexact Hdrop

/-- The invariant at the first point: the scoped buffers no window stages, the generator register, the four tables. -/
theorem hin11 (c : Dev nD) :
    iprop((∃ r, prngReg c r) ∗ Pipeline.prefHeld pre11 c (fun _ => fullShare) a.1
        ∗ Pipeline.scopedRest (Ix := Unit) (Name := ℕ) (U := UR sig nD τ) (Lvl := ℕ) (Val := Elt F) spec11 c)
      ⊢ ((dat11 V a c).Φ 0 : sProp 𝕄) := by
  rw [show (dat11 V a c).Φ 0 = iprop(Pipeline.ΦA spec11 c ∗ Pipeline.prefHeld pre11 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep11 (c : Dev nD) : sProp 𝕄 :=
  iprop((∃ r, prngReg c r) ∗ Pipeline.prefHeld pre11 c (fun _ => fullShare) a.1)

theorem hout11 (c : Dev nD) :
    ((dat11 V a c).Φ (Fin.last (cfg11 a).N) : sProp 𝕄)
      ⊢ iprop(Ykeep11 a c ∗ Pipeline.ownSems0 (fun k : PEmpty => k.elim) c
          ∗ Pipeline.scopedRest (Ix := Unit) (Name := ℕ) (U := UR sig nD τ) (Lvl := ℕ) (Val := Elt F) spec11 c) := by
  rw [Pipeline.ownSems0_none,
    show (dat11 V a c).Φ (Fin.last (cfg11 a).N) = iprop(Pipeline.ΦA spec11 c ∗ Pipeline.prefHeld pre11 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit11 (c : Dev nD) (Vact' : Dev nD → Valuation τ sig (Elt F))
    (h8 : Vact c main_v8 = V c main_v8)
    (h8' : Vact' c main_v8 = Vact c main_v8) (h13' : Vact' c main_v68 = (dat11 V a c).arrAt 4 (cfg11 a).N)
    (hpf : ∀ k, Vact' c (pre11.ref k) = a.1 k)
    (hrest : ∀ b : Ref sig .tc, b ≠ main_v68 → Vact' c b = Vact c b) :
    iprop((dat11 V a c).arrays ((dat11 V a c).arrAt · (cfg11 a).N) ∗ (dat11 V a c).owesAt () (Fin.last (cfg11 a).N)
        ∗ Ykeep11 a c ∗ Zrest11 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec11 c (fun b => Vact' c b) ∗ Pipeline.unscopedRest spec11 c (fun b => Vact' c b)) :=
    Pipeline.PerCore.unscopedBufs_split₀ (fun (_ : Dev nD) (_ : Fin 1) => cfg11 a) (0 : Fin 1) c winFacts₀11.arr_unscoped _
  rw [e2, Pipeline.unscopedRest_split preFacts11 c _]
  have hImg : (Finset.univ.image (Pipeline.arrRef spec11) : Finset (Ref sig .tc)) = {main_v8, main_v68} := by decide
  unfold Pipeline.arrBufs
  rw [hImg, bigSep_pair main_v8 main_v68 (by decide)]
  have hRP : (Pipeline.unscopedRestP (Ix := Unit) (Name := ℕ) (U := UR sig nD τ) (Lvl := ℕ) pre11 spec11 c (fun b => Vact' c b) : sProp 𝕄)
      = Pipeline.unscopedRestP pre11 spec11 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre11.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq11]
  have hB0 : (dat11 V a c).arrAt 0 (cfg11 a).N = Vact c main_v8 := ((dat11 V a c).arrAt_in 0 rfl _).trans h8.symm
  have hB1 : (dat11 V a c).arrAt 1 (cfg11 a).N = Vact c main_v8 := ((dat11 V a c).arrAt_in 1 rfl _).trans h8.symm
  have hB2 : (dat11 V a c).arrAt 2 (cfg11 a).N = Vact c main_v8 := ((dat11 V a c).arrAt_in 2 rfl _).trans h8.symm
  have hB3 : (dat11 V a c).arrAt 3 (cfg11 a).N = Vact c main_v8 := ((dat11 V a c).arrAt_in 3 rfl _).trans h8.symm
  rw [hB0, hB1, hB2, hB3, hRP]
  unfold Zrest11
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v68 = (dat11 V a c).arrAt 4 (cfg11 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg11.lean ====
/-
  Region 11 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg11
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 11 over the thread state. -/
def reg11 : Pipeline.RegionSeg (pcfgs (F := F)) (adm m hR) (pdats m hR) () defs₀ Variants.none Lnone lvnone (11 : Fin 20) where
  win := winFacts₀11
  block_pos := block_pos11
  stage_whole := stage_whole11
  K := PEmpty
  osem k := k.elim
  ho := Pipeline.OwnSemFacts.none _
  hbody c := (body_obligation11 (Vfirst m) (adm11 m core0 (hR core0)) c).loose
  hwaits := Pipeline.hwaits_of_owed_zero _ _ _ _ Lnone lvnone (11 : Fin 20) fun _ _ => rfl
  pre c := iprop(StableHlo.held (c : Thread nD τ) (Pipeline.ucRefs τ sig) (VE11 m hR c) ∗ Rside c)
  post c := iprop(StableHlo.held (c : Thread nD τ) (Pipeline.ucRefs τ sig) (VX11 m hR c) ∗ Rside c)
  X c := iprop(∃ r, prngReg c r)
  Y c := Ykeep11 (adm11 m core0 (hR core0)) c
  Z c := Zrest11 (VE11 m hR) c
  hentry c := hentry11 (VE11 m hR) (Vfirst m) (adm11 m core0 (hR core0)) c Lnone lvnone (ent_xtab11 m hR c) (ent_out11 m hR c) (ent_pf11 m hR c)
  hin c := hin11 (Vfirst m) (adm11 m core0 (hR core0)) c
  hout c := hout11 (Vfirst m) (adm11 m core0 (hR core0)) c
  hexit c := hexit11 (VE11 m hR) (Vfirst m) (adm11 m core0 (hR core0)) c (VX11 m hR) (ent_xtab11 m hR c) (ext_xtab11 m hR c) (ext_out11 m hR c)
    (ext_pf11 m hR c) (ext_rest11 m hR c)

end Cert.KernelIdeal.Gen

end
-- ==== Proof.KI.Seg12.lean ====
/-
  Region 12 of the gather-and-norm program, second half: how the region is entered and left.

  Between two segments of the program a core holds every unscoped buffer whole. Region 12 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region12
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg12 (F := F)).Adm)

/-- What bypasses region 12: every unscoped buffer that is neither one of its two arrays nor one of its four tables,
    and the part of the point table's share the four input windows do not need. -/
def Zrest12 (c : Dev nD) : sProp 𝕄 :=
  iprop(Pipeline.unscopedRestP (Ix := Unit) (Name := ℕ) (U := UR sig nD τ) (Lvl := ℕ) pre12 spec12 c (fun b => Vact c b)
    ∗ (((c.tc : Thread nD τ).loc main_v8) ↦{Transfers.shareDrop fullShare 4} Vact c main_v8))

/-- Region 12's arrays, window by window: the point table four times, at the four quarter shares, and the output
    array whole. -/
theorem arrays_eq12 (c : Dev nD)
    (G : (w : Fin (cfg12 a).W) → Buf (Elt F) (((cfg12 a).win w).arr.view.loc (c.tc : Thread nD τ))) :
    (dat12 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v73) ↦{fullShare} G 4)) : sProp 𝕄) := by
  unfold Dat.arrays
  rw [show (bigSep Finset.univ fun w : Fin (cfg12 a).W =>
          ((((cfg12 a).win w).arr.view.loc (c.tc : Thread nD τ)) ↦[((cfg12 a).win w).arr.view.set]{(dat12 V a c).share w} G w : sProp 𝕄))
        = bigSep Finset.univ fun w : Fin (cfg12 a).W =>
          ((((c.tc : Thread nD τ).loc (Pipeline.arrRef spec12 w)) ↦{(dat12 V a c).share w} G w : sProp 𝕄))
      from bigSep_congr fun w _ => by rw [(arr_whole12 w).set_eq_univ]]
  rw [bigSep_W12]
  have hs0 : (dat12 V a c).share 0 = Transfers.shareTok fullShare 4 0 := rfl
  have hs1 : (dat12 V a c).share 1 = Transfers.shareTok fullShare 4 1 := rfl
  have hs2 : (dat12 V a c).share 2 = Transfers.shareTok fullShare 4 2 := rfl
  have hs3 : (dat12 V a c).share 3 = Transfers.shareTok fullShare 4 3 := rfl
  have hs4 : (dat12 V a c).share 4 = fullShare := rfl
  rw [hs0, hs1, hs2, hs3, hs4]

theorem hentry12 (c : Dev nD) (L : GSem nD τ sig → Finset Unit) (lv : GSem nD τ sig → Unit → ℕ)
    (h8 : Vact c main_v8 = V c main_v8) (h13 : Vact c main_v73 = V c main_v73)
    (hpf : ∀ k, Vact c (pre12.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat12 V a c).arrays ((dat12 V a c).arrAt · 0)
          ∗ Pipeline.prefHeld pre12 c (fun _ => fullShare) a.1
          ∗ (dat12 V a c).owesAt () 0 ∗ (∃ r, prngReg c r) ∗ Zrest12 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec12 c (fun b => Vact c b) ∗ Pipeline.unscopedRest spec12 c (fun b => Vact c b)) :=
    Pipeline.PerCore.unscopedBufs_split₀ (fun (_ : Dev nD) (_ : Fin 1) => cfg12 a) (0 : Fin 1) c winFacts₀12.arr_unscoped _
  rw [e2, Pipeline.unscopedRest_split preFacts12 c _]
  have hImg : (Finset.univ.image (Pipeline.arrRef spec12) : Finset (Ref sig .tc)) = {main_v8, main_v73} := by decide
  unfold Pipeline.arrBufs
  rw [hImg, bigSep_pair main_v8 main_v73 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq12]
  have hA0 : (dat12 V a c).arrAt 0 0 = Vact c main_v8 := h8.symm
  have hA1 : (dat12 V a c).arrAt 1 0 = Vact c main_v8 := h8.symm
  have hA2 : (dat12 V a c).arrAt 2 0 = Vact c main_v8 := h8.symm
  have hA3 : (dat12 V a c).arrAt 3 0 = Vact c main_v8 := h8.symm
  have hA4 : (dat12 V a c).arrAt 4 0 = Vact c main_v73 := h13.symm
  rw [hA0, hA1, hA2, hA3, hA4]
  have hP : (fun k => Vact c (pre12.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest12
  isplitl [Hrest]; · iexact Hrest
  iexact Hdrop

/-- The invariant at the first point: the scoped buffers no window stages, the generator register, the four tables. -/
theorem hin12 (c : Dev nD) :
    iprop((∃ r, prngReg c r) ∗ Pipeline.prefHeld pre12 c (fun _ => fullShare) a.1
        ∗ Pipeline.scopedRest (Ix := Unit) (Name := ℕ) (U := UR sig nD τ) (Lvl := ℕ) (Val := Elt F) spec12 c)
      ⊢ ((dat12 V a c).Φ 0 : sProp 𝕄) := by
  rw [show (dat12 V a c).Φ 0 = iprop(Pipeline.ΦA spec12 c ∗ Pipeline.prefHeld pre12 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep12 (c : Dev nD) : sProp 𝕄 :=
  iprop((∃ r, prngReg c r) ∗ Pipeline.prefHeld pre12 c (fun _ => fullShare) a.1)

theorem hout12 (c : Dev nD) :
    ((dat12 V a c).Φ (Fin.last (cfg12 a).N) : sProp 𝕄)
      ⊢ iprop(Ykeep12 a c ∗ Pipeline.ownSems0 (fun k : PEmpty => k.elim) c
          ∗ Pipeline.scopedRest (Ix := Unit) (Name := ℕ) (U := UR sig nD τ) (Lvl := ℕ) (Val := Elt F) spec12 c) := by
  rw [Pipeline.ownSems0_none,
    show (dat12 V a c).Φ (Fin.last (cfg12 a).N) = iprop(Pipeline.ΦA spec12 c ∗ Pipeline.prefHeld pre12 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit12 (c : Dev nD) (Vact' : Dev nD → Valuation τ sig (Elt F))
    (h8 : Vact c main_v8 = V c main_v8)
    (h8' : Vact' c main_v8 = Vact c main_v8) (h13' : Vact' c main_v73 = (dat12 V a c).arrAt 4 (cfg12 a).N)
    (hpf : ∀ k, Vact' c (pre12.ref k) = a.1 k)
    (hrest : ∀ b : Ref sig .tc, b ≠ main_v73 → Vact' c b = Vact c b) :
    iprop((dat12 V a c).arrays ((dat12 V a c).arrAt · (cfg12 a).N) ∗ (dat12 V a c).owesAt () (Fin.last (cfg12 a).N)
        ∗ Ykeep12 a c ∗ Zrest12 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec12 c (fun b => Vact' c b) ∗ Pipeline.unscopedRest spec12 c (fun b => Vact' c b)) :=
    Pipeline.PerCore.unscopedBufs_split₀ (fun (_ : Dev nD) (_ : Fin 1) => cfg12 a) (0 : Fin 1) c winFacts₀12.arr_unscoped _
  rw [e2, Pipeline.unscopedRest_split preFacts12 c _]
  have hImg : (Finset.univ.image (Pipeline.arrRef spec12) : Finset (Ref sig .tc)) = {main_v8, main_v73} := by decide
  unfold Pipeline.arrBufs
  rw [hImg, bigSep_pair main_v8 main_v73 (by decide)]
  have hRP : (Pipeline.unscopedRestP (Ix := Unit) (Name := ℕ) (U := UR sig nD τ) (Lvl := ℕ) pre12 spec12 c (fun b => Vact' c b) : sProp 𝕄)
      = Pipeline.unscopedRestP pre12 spec12 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre12.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq12]
  have hB0 : (dat12 V a c).arrAt 0 (cfg12 a).N = Vact c main_v8 := ((dat12 V a c).arrAt_in 0 rfl _).trans h8.symm
  have hB1 : (dat12 V a c).arrAt 1 (cfg12 a).N = Vact c main_v8 := ((dat12 V a c).arrAt_in 1 rfl _).trans h8.symm
  have hB2 : (dat12 V a c).arrAt 2 (cfg12 a).N = Vact c main_v8 := ((dat12 V a c).arrAt_in 2 rfl _).trans h8.symm
  have hB3 : (dat12 V a c).arrAt 3 (cfg12 a).N = Vact c main_v8 := ((dat12 V a c).arrAt_in 3 rfl _).trans h8.symm
  rw [hB0, hB1, hB2, hB3, hRP]
  unfold Zrest12
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v73 = (dat12 V a c).arrAt 4 (cfg12 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg12.lean ====
/-
  Region 12 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg12
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 12 over the thread state. -/
def reg12 : Pipeline.RegionSeg (pcfgs (F := F)) (adm m hR) (pdats m hR) () defs₀ Variants.none Lnone lvnone (12 : Fin 20) where
  win := winFacts₀12
  block_pos := block_pos12
  stage_whole := stage_whole12
  K := PEmpty
  osem k := k.elim
  ho := Pipeline.OwnSemFacts.none _
  hbody c := (body_obligation12 (Vfirst m) (adm12 m core0 (hR core0)) c).loose
  hwaits := Pipeline.hwaits_of_owed_zero _ _ _ _ Lnone lvnone (12 : Fin 20) fun _ _ => rfl
  pre c := iprop(StableHlo.held (c : Thread nD τ) (Pipeline.ucRefs τ sig) (VE12 m hR c) ∗ Rside c)
  post c := iprop(StableHlo.held (c : Thread nD τ) (Pipeline.ucRefs τ sig) (VX12 m hR c) ∗ Rside c)
  X c := iprop(∃ r, prngReg c r)
  Y c := Ykeep12 (adm12 m core0 (hR core0)) c
  Z c := Zrest12 (VE12 m hR) c
  hentry c := hentry12 (VE12 m hR) (Vfirst m) (adm12 m core0 (hR core0)) c Lnone lvnone (ent_xtab12 m hR c) (ent_out12 m hR c) (ent_pf12 m hR c)
  hin c := hin12 (Vfirst m) (adm12 m core0 (hR core0)) c
  hout c := hout12 (Vfirst m) (adm12 m core0 (hR core0)) c
  hexit c := hexit12 (VE12 m hR) (Vfirst m) (adm12 m core0 (hR core0)) c (VX12 m hR) (ent_xtab12 m hR c) (ext_xtab12 m hR c) (ext_out12 m hR c)
    (ext_pf12 m hR c) (ext_rest12 m hR c)

end Cert.KernelIdeal.Gen

end
-- ==== Proof.KI.Seg13.lean ====
/-
  Region 13 of the gather-and-norm program, second half: how the region is entered and left.

  Between two segments of the program a core holds every unscoped buffer whole. Region 13 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region13
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg13 (F := F)).Adm)

/-- What bypasses region 13: every unscoped buffer that is neither one of its two arrays nor one of its four tables,
    and the part of the point table's share the four input windows do not need. -/
def Zrest13 (c : Dev nD) : sProp 𝕄 :=
  iprop(Pipeline.unscopedRestP (Ix := Unit) (Name := ℕ) (U := UR sig nD τ) (Lvl := ℕ) pre13 spec13 c (fun b => Vact c b)
    ∗ (((c.tc : Thread nD τ).loc main_v8) ↦{Transfers.shareDrop fullShare 4} Vact c main_v8))

/-- Region 13's arrays, window by window: the point table four times, at the four quarter shares, and the output
    array whole. -/
theorem arrays_eq13 (c : Dev nD)
    (G : (w : Fin (cfg13 a).W) → Buf (Elt F) (((cfg13 a).win w).arr.view.loc (c.tc : Thread nD τ))) :
    (dat13 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v78) ↦{fullShare} G 4)) : sProp 𝕄) := by
  unfold Dat.arrays
  rw [show (bigSep Finset.univ fun w : Fin (cfg13 a).W =>
          ((((cfg13 a).win w).arr.view.loc (c.tc : Thread nD τ)) ↦[((cfg13 a).win w).arr.view.set]{(dat13 V a c).share w} G w : sProp 𝕄))
        = bigSep Finset.univ fun w : Fin (cfg13 a).W =>
          ((((c.tc : Thread nD τ).loc (Pipeline.arrRef spec13 w)) ↦{(dat13 V a c).share w} G w : sProp 𝕄))
      from bigSep_congr fun w _ => by rw [(arr_whole13 w).set_eq_univ]]
  rw [bigSep_W13]
  have hs0 : (dat13 V a c).share 0 = Transfers.shareTok fullShare 4 0 := rfl
  have hs1 : (dat13 V a c).share 1 = Transfers.shareTok fullShare 4 1 := rfl
  have hs2 : (dat13 V a c).share 2 = Transfers.shareTok fullShare 4 2 := rfl
  have hs3 : (dat13 V a c).share 3 = Transfers.shareTok fullShare 4 3 := rfl
  have hs4 : (dat13 V a c).share 4 = fullShare := rfl
  rw [hs0, hs1, hs2, hs3, hs4]

theorem hentry13 (c : Dev nD) (L : GSem nD τ sig → Finset Unit) (lv : GSem nD τ sig → Unit → ℕ)
    (h8 : Vact c main_v8 = V c main_v8) (h13 : Vact c main_v78 = V c main_v78)
    (hpf : ∀ k, Vact c (pre13.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat13 V a c).arrays ((dat13 V a c).arrAt · 0)
          ∗ Pipeline.prefHeld pre13 c (fun _ => fullShare) a.1
          ∗ (dat13 V a c).owesAt () 0 ∗ (∃ r, prngReg c r) ∗ Zrest13 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec13 c (fun b => Vact c b) ∗ Pipeline.unscopedRest spec13 c (fun b => Vact c b)) :=
    Pipeline.PerCore.unscopedBufs_split₀ (fun (_ : Dev nD) (_ : Fin 1) => cfg13 a) (0 : Fin 1) c winFacts₀13.arr_unscoped _
  rw [e2, Pipeline.unscopedRest_split preFacts13 c _]
  have hImg : (Finset.univ.image (Pipeline.arrRef spec13) : Finset (Ref sig .tc)) = {main_v8, main_v78} := by decide
  unfold Pipeline.arrBufs
  rw [hImg, bigSep_pair main_v8 main_v78 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq13]
  have hA0 : (dat13 V a c).arrAt 0 0 = Vact c main_v8 := h8.symm
  have hA1 : (dat13 V a c).arrAt 1 0 = Vact c main_v8 := h8.symm
  have hA2 : (dat13 V a c).arrAt 2 0 = Vact c main_v8 := h8.symm
  have hA3 : (dat13 V a c).arrAt 3 0 = Vact c main_v8 := h8.symm
  have hA4 : (dat13 V a c).arrAt 4 0 = Vact c main_v78 := h13.symm
  rw [hA0, hA1, hA2, hA3, hA4]
  have hP : (fun k => Vact c (pre13.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest13
  isplitl [Hrest]; · iexact Hrest
  iexact Hdrop

/-- The invariant at the first point: the scoped buffers no window stages, the generator register, the four tables. -/
theorem hin13 (c : Dev nD) :
    iprop((∃ r, prngReg c r) ∗ Pipeline.prefHeld pre13 c (fun _ => fullShare) a.1
        ∗ Pipeline.scopedRest (Ix := Unit) (Name := ℕ) (U := UR sig nD τ) (Lvl := ℕ) (Val := Elt F) spec13 c)
      ⊢ ((dat13 V a c).Φ 0 : sProp 𝕄) := by
  rw [show (dat13 V a c).Φ 0 = iprop(Pipeline.ΦA spec13 c ∗ Pipeline.prefHeld pre13 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep13 (c : Dev nD) : sProp 𝕄 :=
  iprop((∃ r, prngReg c r) ∗ Pipeline.prefHeld pre13 c (fun _ => fullShare) a.1)

theorem hout13 (c : Dev nD) :
    ((dat13 V a c).Φ (Fin.last (cfg13 a).N) : sProp 𝕄)
      ⊢ iprop(Ykeep13 a c ∗ Pipeline.ownSems0 (fun k : PEmpty => k.elim) c
          ∗ Pipeline.scopedRest (Ix := Unit) (Name := ℕ) (U := UR sig nD τ) (Lvl := ℕ) (Val := Elt F) spec13 c) := by
  rw [Pipeline.ownSems0_none,
    show (dat13 V a c).Φ (Fin.last (cfg13 a).N) = iprop(Pipeline.ΦA spec13 c ∗ Pipeline.prefHeld pre13 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit13 (c : Dev nD) (Vact' : Dev nD → Valuation τ sig (Elt F))
    (h8 : Vact c main_v8 = V c main_v8)
    (h8' : Vact' c main_v8 = Vact c main_v8) (h13' : Vact' c main_v78 = (dat13 V a c).arrAt 4 (cfg13 a).N)
    (hpf : ∀ k, Vact' c (pre13.ref k) = a.1 k)
    (hrest : ∀ b : Ref sig .tc, b ≠ main_v78 → Vact' c b = Vact c b) :
    iprop((dat13 V a c).arrays ((dat13 V a c).arrAt · (cfg13 a).N) ∗ (dat13 V a c).owesAt () (Fin.last (cfg13 a).N)
        ∗ Ykeep13 a c ∗ Zrest13 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec13 c (fun b => Vact' c b) ∗ Pipeline.unscopedRest spec13 c (fun b => Vact' c b)) :=
    Pipeline.PerCore.unscopedBufs_split₀ (fun (_ : Dev nD) (_ : Fin 1) => cfg13 a) (0 : Fin 1) c winFacts₀13.arr_unscoped _
  rw [e2, Pipeline.unscopedRest_split preFacts13 c _]
  have hImg : (Finset.univ.image (Pipeline.arrRef spec13) : Finset (Ref sig .tc)) = {main_v8, main_v78} := by decide
  unfold Pipeline.arrBufs
  rw [hImg, bigSep_pair main_v8 main_v78 (by decide)]
  have hRP : (Pipeline.unscopedRestP (Ix := Unit) (Name := ℕ) (U := UR sig nD τ) (Lvl := ℕ) pre13 spec13 c (fun b => Vact' c b) : sProp 𝕄)
      = Pipeline.unscopedRestP pre13 spec13 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre13.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq13]
  have hB0 : (dat13 V a c).arrAt 0 (cfg13 a).N = Vact c main_v8 := ((dat13 V a c).arrAt_in 0 rfl _).trans h8.symm
  have hB1 : (dat13 V a c).arrAt 1 (cfg13 a).N = Vact c main_v8 := ((dat13 V a c).arrAt_in 1 rfl _).trans h8.symm
  have hB2 : (dat13 V a c).arrAt 2 (cfg13 a).N = Vact c main_v8 := ((dat13 V a c).arrAt_in 2 rfl _).trans h8.symm
  have hB3 : (dat13 V a c).arrAt 3 (cfg13 a).N = Vact c main_v8 := ((dat13 V a c).arrAt_in 3 rfl _).trans h8.symm
  rw [hB0, hB1, hB2, hB3, hRP]
  unfold Zrest13
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v78 = (dat13 V a c).arrAt 4 (cfg13 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg13.lean ====
/-
  Region 13 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg13
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 13 over the thread state. -/
def reg13 : Pipeline.RegionSeg (pcfgs (F := F)) (adm m hR) (pdats m hR) () defs₀ Variants.none Lnone lvnone (13 : Fin 20) where
  win := winFacts₀13
  block_pos := block_pos13
  stage_whole := stage_whole13
  K := PEmpty
  osem k := k.elim
  ho := Pipeline.OwnSemFacts.none _
  hbody c := (body_obligation13 (Vfirst m) (adm13 m core0 (hR core0)) c).loose
  hwaits := Pipeline.hwaits_of_owed_zero _ _ _ _ Lnone lvnone (13 : Fin 20) fun _ _ => rfl
  pre c := iprop(StableHlo.held (c : Thread nD τ) (Pipeline.ucRefs τ sig) (VE13 m hR c) ∗ Rside c)
  post c := iprop(StableHlo.held (c : Thread nD τ) (Pipeline.ucRefs τ sig) (VX13 m hR c) ∗ Rside c)
  X c := iprop(∃ r, prngReg c r)
  Y c := Ykeep13 (adm13 m core0 (hR core0)) c
  Z c := Zrest13 (VE13 m hR) c
  hentry c := hentry13 (VE13 m hR) (Vfirst m) (adm13 m core0 (hR core0)) c Lnone lvnone (ent_xtab13 m hR c) (ent_out13 m hR c) (ent_pf13 m hR c)
  hin c := hin13 (Vfirst m) (adm13 m core0 (hR core0)) c
  hout c := hout13 (Vfirst m) (adm13 m core0 (hR core0)) c
  hexit c := hexit13 (VE13 m hR) (Vfirst m) (adm13 m core0 (hR core0)) c (VX13 m hR) (ent_xtab13 m hR c) (ext_xtab13 m hR c) (ext_out13 m hR c)
    (ext_pf13 m hR c) (ext_rest13 m hR c)

end Cert.KernelIdeal.Gen

end
-- ==== Proof.KI.Seg14.lean ====
/-
  Region 14 of the gather-and-norm program, second half: how the region is entered and left.

  Between two segments of the program a core holds every unscoped buffer whole. Region 14 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region14
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg14 (F := F)).Adm)

/-- What bypasses region 14: every unscoped buffer that is neither one of its two arrays nor one of its four tables,
    and the part of the point table's share the four input windows do not need. -/
def Zrest14 (c : Dev nD) : sProp 𝕄 :=
  iprop(Pipeline.unscopedRestP (Ix := Unit) (Name := ℕ) (U := UR sig nD τ) (Lvl := ℕ) pre14 spec14 c (fun b => Vact c b)
    ∗ (((c.tc : Thread nD τ).loc main_v8) ↦{Transfers.shareDrop fullShare 4} Vact c main_v8))

/-- Region 14's arrays, window by window: the point table four times, at the four quarter shares, and the output
    array whole. -/
theorem arrays_eq14 (c : Dev nD)
    (G : (w : Fin (cfg14 a).W) → Buf (Elt F) (((cfg14 a).win w).arr.view.loc (c.tc : Thread nD τ))) :
    (dat14 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v83) ↦{fullShare} G 4)) : sProp 𝕄) := by
  unfold Dat.arrays
  rw [show (bigSep Finset.univ fun w : Fin (cfg14 a).W =>
          ((((cfg14 a).win w).arr.view.loc (c.tc : Thread nD τ)) ↦[((cfg14 a).win w).arr.view.set]{(dat14 V a c).share w} G w : sProp 𝕄))
        = bigSep Finset.univ fun w : Fin (cfg14 a).W =>
          ((((c.tc : Thread nD τ).loc (Pipeline.arrRef spec14 w)) ↦{(dat14 V a c).share w} G w : sProp 𝕄))
      from bigSep_congr fun w _ => by rw [(arr_whole14 w).set_eq_univ]]
  rw [bigSep_W14]
  have hs0 : (dat14 V a c).share 0 = Transfers.shareTok fullShare 4 0 := rfl
  have hs1 : (dat14 V a c).share 1 = Transfers.shareTok fullShare 4 1 := rfl
  have hs2 : (dat14 V a c).share 2 = Transfers.shareTok fullShare 4 2 := rfl
  have hs3 : (dat14 V a c).share 3 = Transfers.shareTok fullShare 4 3 := rfl
  have hs4 : (dat14 V a c).share 4 = fullShare := rfl
  rw [hs0, hs1, hs2, hs3, hs4]

theorem hentry14 (c : Dev nD) (L : GSem nD τ sig → Finset Unit) (lv : GSem nD τ sig → Unit → ℕ)
    (h8 : Vact c main_v8 = V c main_v8) (h13 : Vact c main_v83 = V c main_v83)
    (hpf : ∀ k, Vact c (pre14.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat14 V a c).arrays ((dat14 V a c).arrAt · 0)
          ∗ Pipeline.prefHeld pre14 c (fun _ => fullShare) a.1
          ∗ (dat14 V a c).owesAt () 0 ∗ (∃ r, prngReg c r) ∗ Zrest14 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec14 c (fun b => Vact c b) ∗ Pipeline.unscopedRest spec14 c (fun b => Vact c b)) :=
    Pipeline.PerCore.unscopedBufs_split₀ (fun (_ : Dev nD) (_ : Fin 1) => cfg14 a) (0 : Fin 1) c winFacts₀14.arr_unscoped _
  rw [e2, Pipeline.unscopedRest_split preFacts14 c _]
  have hImg : (Finset.univ.image (Pipeline.arrRef spec14) : Finset (Ref sig .tc)) = {main_v8, main_v83} := by decide
  unfold Pipeline.arrBufs
  rw [hImg, bigSep_pair main_v8 main_v83 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq14]
  have hA0 : (dat14 V a c).arrAt 0 0 = Vact c main_v8 := h8.symm
  have hA1 : (dat14 V a c).arrAt 1 0 = Vact c main_v8 := h8.symm
  have hA2 : (dat14 V a c).arrAt 2 0 = Vact c main_v8 := h8.symm
  have hA3 : (dat14 V a c).arrAt 3 0 = Vact c main_v8 := h8.symm
  have hA4 : (dat14 V a c).arrAt 4 0 = Vact c main_v83 := h13.symm
  rw [hA0, hA1, hA2, hA3, hA4]
  have hP : (fun k => Vact c (pre14.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest14
  isplitl [Hrest]; · iexact Hrest
  iexact Hdrop

/-- The invariant at the first point: the scoped buffers no window stages, the generator register, the four tables. -/
theorem hin14 (c : Dev nD) :
    iprop((∃ r, prngReg c r) ∗ Pipeline.prefHeld pre14 c (fun _ => fullShare) a.1
        ∗ Pipeline.scopedRest (Ix := Unit) (Name := ℕ) (U := UR sig nD τ) (Lvl := ℕ) (Val := Elt F) spec14 c)
      ⊢ ((dat14 V a c).Φ 0 : sProp 𝕄) := by
  rw [show (dat14 V a c).Φ 0 = iprop(Pipeline.ΦA spec14 c ∗ Pipeline.prefHeld pre14 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep14 (c : Dev nD) : sProp 𝕄 :=
  iprop((∃ r, prngReg c r) ∗ Pipeline.prefHeld pre14 c (fun _ => fullShare) a.1)

theorem hout14 (c : Dev nD) :
    ((dat14 V a c).Φ (Fin.last (cfg14 a).N) : sProp 𝕄)
      ⊢ iprop(Ykeep14 a c ∗ Pipeline.ownSems0 (fun k : PEmpty => k.elim) c
          ∗ Pipeline.scopedRest (Ix := Unit) (Name := ℕ) (U := UR sig nD τ) (Lvl := ℕ) (Val := Elt F) spec14 c) := by
  rw [Pipeline.ownSems0_none,
    show (dat14 V a c).Φ (Fin.last (cfg14 a).N) = iprop(Pipeline.ΦA spec14 c ∗ Pipeline.prefHeld pre14 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit14 (c : Dev nD) (Vact' : Dev nD → Valuation τ sig (Elt F))
    (h8 : Vact c main_v8 = V c main_v8)
    (h8' : Vact' c main_v8 = Vact c main_v8) (h13' : Vact' c main_v83 = (dat14 V a c).arrAt 4 (cfg14 a).N)
    (hpf : ∀ k, Vact' c (pre14.ref k) = a.1 k)
    (hrest : ∀ b : Ref sig .tc, b ≠ main_v83 → Vact' c b = Vact c b) :
    iprop((dat14 V a c).arrays ((dat14 V a c).arrAt · (cfg14 a).N) ∗ (dat14 V a c).owesAt () (Fin.last (cfg14 a).N)
        ∗ Ykeep14 a c ∗ Zrest14 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec14 c (fun b => Vact' c b) ∗ Pipeline.unscopedRest spec14 c (fun b => Vact' c b)) :=
    Pipeline.PerCore.unscopedBufs_split₀ (fun (_ : Dev nD) (_ : Fin 1) => cfg14 a) (0 : Fin 1) c winFacts₀14.arr_unscoped _
  rw [e2, Pipeline.unscopedRest_split preFacts14 c _]
  have hImg : (Finset.univ.image (Pipeline.arrRef spec14) : Finset (Ref sig .tc)) = {main_v8, main_v83} := by decide
  unfold Pipeline.arrBufs
  rw [hImg, bigSep_pair main_v8 main_v83 (by decide)]
  have hRP : (Pipeline.unscopedRestP (Ix := Unit) (Name := ℕ) (U := UR sig nD τ) (Lvl := ℕ) pre14 spec14 c (fun b => Vact' c b) : sProp 𝕄)
      = Pipeline.unscopedRestP pre14 spec14 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre14.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq14]
  have hB0 : (dat14 V a c).arrAt 0 (cfg14 a).N = Vact c main_v8 := ((dat14 V a c).arrAt_in 0 rfl _).trans h8.symm
  have hB1 : (dat14 V a c).arrAt 1 (cfg14 a).N = Vact c main_v8 := ((dat14 V a c).arrAt_in 1 rfl _).trans h8.symm
  have hB2 : (dat14 V a c).arrAt 2 (cfg14 a).N = Vact c main_v8 := ((dat14 V a c).arrAt_in 2 rfl _).trans h8.symm
  have hB3 : (dat14 V a c).arrAt 3 (cfg14 a).N = Vact c main_v8 := ((dat14 V a c).arrAt_in 3 rfl _).trans h8.symm
  rw [hB0, hB1, hB2, hB3, hRP]
  unfold Zrest14
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v83 = (dat14 V a c).arrAt 4 (cfg14 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg14.lean ====
/-
  Region 14 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg14
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 14 over the thread state. -/
def reg14 : Pipeline.RegionSeg (pcfgs (F := F)) (adm m hR) (pdats m hR) () defs₀ Variants.none Lnone lvnone (14 : Fin 20) where
  win := winFacts₀14
  block_pos := block_pos14
  stage_whole := stage_whole14
  K := PEmpty
  osem k := k.elim
  ho := Pipeline.OwnSemFacts.none _
  hbody c := (body_obligation14 (Vfirst m) (adm14 m core0 (hR core0)) c).loose
  hwaits := Pipeline.hwaits_of_owed_zero _ _ _ _ Lnone lvnone (14 : Fin 20) fun _ _ => rfl
  pre c := iprop(StableHlo.held (c : Thread nD τ) (Pipeline.ucRefs τ sig) (VE14 m hR c) ∗ Rside c)
  post c := iprop(StableHlo.held (c : Thread nD τ) (Pipeline.ucRefs τ sig) (VX14 m hR c) ∗ Rside c)
  X c := iprop(∃ r, prngReg c r)
  Y c := Ykeep14 (adm14 m core0 (hR core0)) c
  Z c := Zrest14 (VE14 m hR) c
  hentry c := hentry14 (VE14 m hR) (Vfirst m) (adm14 m core0 (hR core0)) c Lnone lvnone (ent_xtab14 m hR c) (ent_out14 m hR c) (ent_pf14 m hR c)
  hin c := hin14 (Vfirst m) (adm14 m core0 (hR core0)) c
  hout c := hout14 (Vfirst m) (adm14 m core0 (hR core0)) c
  hexit c := hexit14 (VE14 m hR) (Vfirst m) (adm14 m core0 (hR core0)) c (VX14 m hR) (ent_xtab14 m hR c) (ext_xtab14 m hR c) (ext_out14 m hR c)
    (ext_pf14 m hR c) (ext_rest14 m hR c)

end Cert.KernelIdeal.Gen

end
-- ==== Proof.KI.Seg15.lean ====
/-
  Region 15 of the gather-and-norm program, second half: how the region is entered and left.

  Between two segments of the program a core holds every unscoped buffer whole. Region 15 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region15
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg15 (F := F)).Adm)

/-- What bypasses region 15: every unscoped buffer that is neither one of its two arrays nor one of its four tables,
    and the part of the point table's share the four input windows do not need. -/
def Zrest15 (c : Dev nD) : sProp 𝕄 :=
  iprop(Pipeline.unscopedRestP (Ix := Unit) (Name := ℕ) (U := UR sig nD τ) (Lvl := ℕ) pre15 spec15 c (fun b => Vact c b)
    ∗ (((c.tc : Thread nD τ).loc main_v8) ↦{Transfers.shareDrop fullShare 4} Vact c main_v8))

/-- Region 15's arrays, window by window: the point table four times, at the four quarter shares, and the output
    array whole. -/
theorem arrays_eq15 (c : Dev nD)
    (G : (w : Fin (cfg15 a).W) → Buf (Elt F) (((cfg15 a).win w).arr.view.loc (c.tc : Thread nD τ))) :
    (dat15 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v88) ↦{fullShare} G 4)) : sProp 𝕄) := by
  unfold Dat.arrays
  rw [show (bigSep Finset.univ fun w : Fin (cfg15 a).W =>
          ((((cfg15 a).win w).arr.view.loc (c.tc : Thread nD τ)) ↦[((cfg15 a).win w).arr.view.set]{(dat15 V a c).share w} G w : sProp 𝕄))
        = bigSep Finset.univ fun w : Fin (cfg15 a).W =>
          ((((c.tc : Thread nD τ).loc (Pipeline.arrRef spec15 w)) ↦{(dat15 V a c).share w} G w : sProp 𝕄))
      from bigSep_congr fun w _ => by rw [(arr_whole15 w).set_eq_univ]]
  rw [bigSep_W15]
  have hs0 : (dat15 V a c).share 0 = Transfers.shareTok fullShare 4 0 := rfl
  have hs1 : (dat15 V a c).share 1 = Transfers.shareTok fullShare 4 1 := rfl
  have hs2 : (dat15 V a c).share 2 = Transfers.shareTok fullShare 4 2 := rfl
  have hs3 : (dat15 V a c).share 3 = Transfers.shareTok fullShare 4 3 := rfl
  have hs4 : (dat15 V a c).share 4 = fullShare := rfl
  rw [hs0, hs1, hs2, hs3, hs4]

theorem hentry15 (c : Dev nD) (L : GSem nD τ sig → Finset Unit) (lv : GSem nD τ sig → Unit → ℕ)
    (h8 : Vact c main_v8 = V c main_v8) (h13 : Vact c main_v88 = V c main_v88)
    (hpf : ∀ k, Vact c (pre15.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat15 V a c).arrays ((dat15 V a c).arrAt · 0)
          ∗ Pipeline.prefHeld pre15 c (fun _ => fullShare) a.1
          ∗ (dat15 V a c).owesAt () 0 ∗ (∃ r, prngReg c r) ∗ Zrest15 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec15 c (fun b => Vact c b) ∗ Pipeline.unscopedRest spec15 c (fun b => Vact c b)) :=
    Pipeline.PerCore.unscopedBufs_split₀ (fun (_ : Dev nD) (_ : Fin 1) => cfg15 a) (0 : Fin 1) c winFacts₀15.arr_unscoped _
  rw [e2, Pipeline.unscopedRest_split preFacts15 c _]
  have hImg : (Finset.univ.image (Pipeline.arrRef spec15) : Finset (Ref sig .tc)) = {main_v8, main_v88} := by decide
  unfold Pipeline.arrBufs
  rw [hImg, bigSep_pair main_v8 main_v88 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq15]
  have hA0 : (dat15 V a c).arrAt 0 0 = Vact c main_v8 := h8.symm
  have hA1 : (dat15 V a c).arrAt 1 0 = Vact c main_v8 := h8.symm
  have hA2 : (dat15 V a c).arrAt 2 0 = Vact c main_v8 := h8.symm
  have hA3 : (dat15 V a c).arrAt 3 0 = Vact c main_v8 := h8.symm
  have hA4 : (dat15 V a c).arrAt 4 0 = Vact c main_v88 := h13.symm
  rw [hA0, hA1, hA2, hA3, hA4]
  have hP : (fun k => Vact c (pre15.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest15
  isplitl [Hrest]; · iexact Hrest
  iexact Hdrop

/-- The invariant at the first point: the scoped buffers no window stages, the generator register, the four tables. -/
theorem hin15 (c : Dev nD) :
    iprop((∃ r, prngReg c r) ∗ Pipeline.prefHeld pre15 c (fun _ => fullShare) a.1
        ∗ Pipeline.scopedRest (Ix := Unit) (Name := ℕ) (U := UR sig nD τ) (Lvl := ℕ) (Val := Elt F) spec15 c)
      ⊢ ((dat15 V a c).Φ 0 : sProp 𝕄) := by
  rw [show (dat15 V a c).Φ 0 = iprop(Pipeline.ΦA spec15 c ∗ Pipeline.prefHeld pre15 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep15 (c : Dev nD) : sProp 𝕄 :=
  iprop((∃ r, prngReg c r) ∗ Pipeline.prefHeld pre15 c (fun _ => fullShare) a.1)

theorem hout15 (c : Dev nD) :
    ((dat15 V a c).Φ (Fin.last (cfg15 a).N) : sProp 𝕄)
      ⊢ iprop(Ykeep15 a c ∗ Pipeline.ownSems0 (fun k : PEmpty => k.elim) c
          ∗ Pipeline.scopedRest (Ix := Unit) (Name := ℕ) (U := UR sig nD τ) (Lvl := ℕ) (Val := Elt F) spec15 c) := by
  rw [Pipeline.ownSems0_none,
    show (dat15 V a c).Φ (Fin.last (cfg15 a).N) = iprop(Pipeline.ΦA spec15 c ∗ Pipeline.prefHeld pre15 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit15 (c : Dev nD) (Vact' : Dev nD → Valuation τ sig (Elt F))
    (h8 : Vact c main_v8 = V c main_v8)
    (h8' : Vact' c main_v8 = Vact c main_v8) (h13' : Vact' c main_v88 = (dat15 V a c).arrAt 4 (cfg15 a).N)
    (hpf : ∀ k, Vact' c (pre15.ref k) = a.1 k)
    (hrest : ∀ b : Ref sig .tc, b ≠ main_v88 → Vact' c b = Vact c b) :
    iprop((dat15 V a c).arrays ((dat15 V a c).arrAt · (cfg15 a).N) ∗ (dat15 V a c).owesAt () (Fin.last (cfg15 a).N)
        ∗ Ykeep15 a c ∗ Zrest15 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec15 c (fun b => Vact' c b) ∗ Pipeline.unscopedRest spec15 c (fun b => Vact' c b)) :=
    Pipeline.PerCore.unscopedBufs_split₀ (fun (_ : Dev nD) (_ : Fin 1) => cfg15 a) (0 : Fin 1) c winFacts₀15.arr_unscoped _
  rw [e2, Pipeline.unscopedRest_split preFacts15 c _]
  have hImg : (Finset.univ.image (Pipeline.arrRef spec15) : Finset (Ref sig .tc)) = {main_v8, main_v88} := by decide
  unfold Pipeline.arrBufs
  rw [hImg, bigSep_pair main_v8 main_v88 (by decide)]
  have hRP : (Pipeline.unscopedRestP (Ix := Unit) (Name := ℕ) (U := UR sig nD τ) (Lvl := ℕ) pre15 spec15 c (fun b => Vact' c b) : sProp 𝕄)
      = Pipeline.unscopedRestP pre15 spec15 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre15.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq15]
  have hB0 : (dat15 V a c).arrAt 0 (cfg15 a).N = Vact c main_v8 := ((dat15 V a c).arrAt_in 0 rfl _).trans h8.symm
  have hB1 : (dat15 V a c).arrAt 1 (cfg15 a).N = Vact c main_v8 := ((dat15 V a c).arrAt_in 1 rfl _).trans h8.symm
  have hB2 : (dat15 V a c).arrAt 2 (cfg15 a).N = Vact c main_v8 := ((dat15 V a c).arrAt_in 2 rfl _).trans h8.symm
  have hB3 : (dat15 V a c).arrAt 3 (cfg15 a).N = Vact c main_v8 := ((dat15 V a c).arrAt_in 3 rfl _).trans h8.symm
  rw [hB0, hB1, hB2, hB3, hRP]
  unfold Zrest15
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v88 = (dat15 V a c).arrAt 4 (cfg15 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg15.lean ====
/-
  Region 15 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg15
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 15 over the thread state. -/
def reg15 : Pipeline.RegionSeg (pcfgs (F := F)) (adm m hR) (pdats m hR) () defs₀ Variants.none Lnone lvnone (15 : Fin 20) where
  win := winFacts₀15
  block_pos := block_pos15
  stage_whole := stage_whole15
  K := PEmpty
  osem k := k.elim
  ho := Pipeline.OwnSemFacts.none _
  hbody c := (body_obligation15 (Vfirst m) (adm15 m core0 (hR core0)) c).loose
  hwaits := Pipeline.hwaits_of_owed_zero _ _ _ _ Lnone lvnone (15 : Fin 20) fun _ _ => rfl
  pre c := iprop(StableHlo.held (c : Thread nD τ) (Pipeline.ucRefs τ sig) (VE15 m hR c) ∗ Rside c)
  post c := iprop(StableHlo.held (c : Thread nD τ) (Pipeline.ucRefs τ sig) (VX15 m hR c) ∗ Rside c)
  X c := iprop(∃ r, prngReg c r)
  Y c := Ykeep15 (adm15 m core0 (hR core0)) c
  Z c := Zrest15 (VE15 m hR) c
  hentry c := hentry15 (VE15 m hR) (Vfirst m) (adm15 m core0 (hR core0)) c Lnone lvnone (ent_xtab15 m hR c) (ent_out15 m hR c) (ent_pf15 m hR c)
  hin c := hin15 (Vfirst m) (adm15 m core0 (hR core0)) c
  hout c := hout15 (Vfirst m) (adm15 m core0 (hR core0)) c
  hexit c := hexit15 (VE15 m hR) (Vfirst m) (adm15 m core0 (hR core0)) c (VX15 m hR) (ent_xtab15 m hR c) (ext_xtab15 m hR c) (ext_out15 m hR c)
    (ext_pf15 m hR c) (ext_rest15 m hR c)

end Cert.KernelIdeal.Gen

end
-- ==== Proof.KI.Seg16.lean ====
/-
  Region 16 of the gather-and-norm program, second half: how the region is entered and left.

  Between two segments of the program a core holds every unscoped buffer whole. Region 16 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region16
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg16 (F := F)).Adm)

/-- What bypasses region 16: every unscoped buffer that is neither one of its two arrays nor one of its four tables,
    and the part of the point table's share the four input windows do not need. -/
def Zrest16 (c : Dev nD) : sProp 𝕄 :=
  iprop(Pipeline.unscopedRestP (Ix := Unit) (Name := ℕ) (U := UR sig nD τ) (Lvl := ℕ) pre16 spec16 c (fun b => Vact c b)
    ∗ (((c.tc : Thread nD τ).loc main_v8) ↦{Transfers.shareDrop fullShare 4} Vact c main_v8))

/-- Region 16's arrays, window by window: the point table four times, at the four quarter shares, and the output
    array whole. -/
theorem arrays_eq16 (c : Dev nD)
    (G : (w : Fin (cfg16 a).W) → Buf (Elt F) (((cfg16 a).win w).arr.view.loc (c.tc : Thread nD τ))) :
    (dat16 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v93) ↦{fullShare} G 4)) : sProp 𝕄) := by
  unfold Dat.arrays
  rw [show (bigSep Finset.univ fun w : Fin (cfg16 a).W =>
          ((((cfg16 a).win w).arr.view.loc (c.tc : Thread nD τ)) ↦[((cfg16 a).win w).arr.view.set]{(dat16 V a c).share w} G w : sProp 𝕄))
        = bigSep Finset.univ fun w : Fin (cfg16 a).W =>
          ((((c.tc : Thread nD τ).loc (Pipeline.arrRef spec16 w)) ↦{(dat16 V a c).share w} G w : sProp 𝕄))
      from bigSep_congr fun w _ => by rw [(arr_whole16 w).set_eq_univ]]
  rw [bigSep_W16]
  have hs0 : (dat16 V a c).share 0 = Transfers.shareTok fullShare 4 0 := rfl
  have hs1 : (dat16 V a c).share 1 = Transfers.shareTok fullShare 4 1 := rfl
  have hs2 : (dat16 V a c).share 2 = Transfers.shareTok fullShare 4 2 := rfl
  have hs3 : (dat16 V a c).share 3 = Transfers.shareTok fullShare 4 3 := rfl
  have hs4 : (dat16 V a c).share 4 = fullShare := rfl
  rw [hs0, hs1, hs2, hs3, hs4]

theorem hentry16 (c : Dev nD) (L : GSem nD τ sig → Finset Unit) (lv : GSem nD τ sig → Unit → ℕ)
    (h8 : Vact c main_v8 = V c main_v8) (h13 : Vact c main_v93 = V c main_v93)
    (hpf : ∀ k, Vact c (pre16.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat16 V a c).arrays ((dat16 V a c).arrAt · 0)
          ∗ Pipeline.prefHeld pre16 c (fun _ => fullShare) a.1
          ∗ (dat16 V a c).owesAt () 0 ∗ (∃ r, prngReg c r) ∗ Zrest16 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec16 c (fun b => Vact c b) ∗ Pipeline.unscopedRest spec16 c (fun b => Vact c b)) :=
    Pipeline.PerCore.unscopedBufs_split₀ (fun (_ : Dev nD) (_ : Fin 1) => cfg16 a) (0 : Fin 1) c winFacts₀16.arr_unscoped _
  rw [e2, Pipeline.unscopedRest_split preFacts16 c _]
  have hImg : (Finset.univ.image (Pipeline.arrRef spec16) : Finset (Ref sig .tc)) = {main_v8, main_v93} := by decide
  unfold Pipeline.arrBufs
  rw [hImg, bigSep_pair main_v8 main_v93 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq16]
  have hA0 : (dat16 V a c).arrAt 0 0 = Vact c main_v8 := h8.symm
  have hA1 : (dat16 V a c).arrAt 1 0 = Vact c main_v8 := h8.symm
  have hA2 : (dat16 V a c).arrAt 2 0 = Vact c main_v8 := h8.symm
  have hA3 : (dat16 V a c).arrAt 3 0 = Vact c main_v8 := h8.symm
  have hA4 : (dat16 V a c).arrAt 4 0 = Vact c main_v93 := h13.symm
  rw [hA0, hA1, hA2, hA3, hA4]
  have hP : (fun k => Vact c (pre16.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest16
  isplitl [Hrest]; · iexact Hrest
  iexact Hdrop

/-- The invariant at the first point: the scoped buffers no window stages, the generator register, the four tables. -/
theorem hin16 (c : Dev nD) :
    iprop((∃ r, prngReg c r) ∗ Pipeline.prefHeld pre16 c (fun _ => fullShare) a.1
        ∗ Pipeline.scopedRest (Ix := Unit) (Name := ℕ) (U := UR sig nD τ) (Lvl := ℕ) (Val := Elt F) spec16 c)
      ⊢ ((dat16 V a c).Φ 0 : sProp 𝕄) := by
  rw [show (dat16 V a c).Φ 0 = iprop(Pipeline.ΦA spec16 c ∗ Pipeline.prefHeld pre16 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep16 (c : Dev nD) : sProp 𝕄 :=
  iprop((∃ r, prngReg c r) ∗ Pipeline.prefHeld pre16 c (fun _ => fullShare) a.1)

theorem hout16 (c : Dev nD) :
    ((dat16 V a c).Φ (Fin.last (cfg16 a).N) : sProp 𝕄)
      ⊢ iprop(Ykeep16 a c ∗ Pipeline.ownSems0 (fun k : PEmpty => k.elim) c
          ∗ Pipeline.scopedRest (Ix := Unit) (Name := ℕ) (U := UR sig nD τ) (Lvl := ℕ) (Val := Elt F) spec16 c) := by
  rw [Pipeline.ownSems0_none,
    show (dat16 V a c).Φ (Fin.last (cfg16 a).N) = iprop(Pipeline.ΦA spec16 c ∗ Pipeline.prefHeld pre16 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit16 (c : Dev nD) (Vact' : Dev nD → Valuation τ sig (Elt F))
    (h8 : Vact c main_v8 = V c main_v8)
    (h8' : Vact' c main_v8 = Vact c main_v8) (h13' : Vact' c main_v93 = (dat16 V a c).arrAt 4 (cfg16 a).N)
    (hpf : ∀ k, Vact' c (pre16.ref k) = a.1 k)
    (hrest : ∀ b : Ref sig .tc, b ≠ main_v93 → Vact' c b = Vact c b) :
    iprop((dat16 V a c).arrays ((dat16 V a c).arrAt · (cfg16 a).N) ∗ (dat16 V a c).owesAt () (Fin.last (cfg16 a).N)
        ∗ Ykeep16 a c ∗ Zrest16 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec16 c (fun b => Vact' c b) ∗ Pipeline.unscopedRest spec16 c (fun b => Vact' c b)) :=
    Pipeline.PerCore.unscopedBufs_split₀ (fun (_ : Dev nD) (_ : Fin 1) => cfg16 a) (0 : Fin 1) c winFacts₀16.arr_unscoped _
  rw [e2, Pipeline.unscopedRest_split preFacts16 c _]
  have hImg : (Finset.univ.image (Pipeline.arrRef spec16) : Finset (Ref sig .tc)) = {main_v8, main_v93} := by decide
  unfold Pipeline.arrBufs
  rw [hImg, bigSep_pair main_v8 main_v93 (by decide)]
  have hRP : (Pipeline.unscopedRestP (Ix := Unit) (Name := ℕ) (U := UR sig nD τ) (Lvl := ℕ) pre16 spec16 c (fun b => Vact' c b) : sProp 𝕄)
      = Pipeline.unscopedRestP pre16 spec16 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre16.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq16]
  have hB0 : (dat16 V a c).arrAt 0 (cfg16 a).N = Vact c main_v8 := ((dat16 V a c).arrAt_in 0 rfl _).trans h8.symm
  have hB1 : (dat16 V a c).arrAt 1 (cfg16 a).N = Vact c main_v8 := ((dat16 V a c).arrAt_in 1 rfl _).trans h8.symm
  have hB2 : (dat16 V a c).arrAt 2 (cfg16 a).N = Vact c main_v8 := ((dat16 V a c).arrAt_in 2 rfl _).trans h8.symm
  have hB3 : (dat16 V a c).arrAt 3 (cfg16 a).N = Vact c main_v8 := ((dat16 V a c).arrAt_in 3 rfl _).trans h8.symm
  rw [hB0, hB1, hB2, hB3, hRP]
  unfold Zrest16
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v93 = (dat16 V a c).arrAt 4 (cfg16 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg16.lean ====
/-
  Region 16 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg16
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 16 over the thread state. -/
def reg16 : Pipeline.RegionSeg (pcfgs (F := F)) (adm m hR) (pdats m hR) () defs₀ Variants.none Lnone lvnone (16 : Fin 20) where
  win := winFacts₀16
  block_pos := block_pos16
  stage_whole := stage_whole16
  K := PEmpty
  osem k := k.elim
  ho := Pipeline.OwnSemFacts.none _
  hbody c := (body_obligation16 (Vfirst m) (adm16 m core0 (hR core0)) c).loose
  hwaits := Pipeline.hwaits_of_owed_zero _ _ _ _ Lnone lvnone (16 : Fin 20) fun _ _ => rfl
  pre c := iprop(StableHlo.held (c : Thread nD τ) (Pipeline.ucRefs τ sig) (VE16 m hR c) ∗ Rside c)
  post c := iprop(StableHlo.held (c : Thread nD τ) (Pipeline.ucRefs τ sig) (VX16 m hR c) ∗ Rside c)
  X c := iprop(∃ r, prngReg c r)
  Y c := Ykeep16 (adm16 m core0 (hR core0)) c
  Z c := Zrest16 (VE16 m hR) c
  hentry c := hentry16 (VE16 m hR) (Vfirst m) (adm16 m core0 (hR core0)) c Lnone lvnone (ent_xtab16 m hR c) (ent_out16 m hR c) (ent_pf16 m hR c)
  hin c := hin16 (Vfirst m) (adm16 m core0 (hR core0)) c
  hout c := hout16 (Vfirst m) (adm16 m core0 (hR core0)) c
  hexit c := hexit16 (VE16 m hR) (Vfirst m) (adm16 m core0 (hR core0)) c (VX16 m hR) (ent_xtab16 m hR c) (ext_xtab16 m hR c) (ext_out16 m hR c)
    (ext_pf16 m hR c) (ext_rest16 m hR c)

end Cert.KernelIdeal.Gen

end
-- ==== Proof.KI.Seg17.lean ====
/-
  Region 17 of the gather-and-norm program, second half: how the region is entered and left.

  Between two segments of the program a core holds every unscoped buffer whole. Region 17 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region17
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg17 (F := F)).Adm)

/-- What bypasses region 17: every unscoped buffer that is neither one of its two arrays nor one of its four tables,
    and the part of the point table's share the four input windows do not need. -/
def Zrest17 (c : Dev nD) : sProp 𝕄 :=
  iprop(Pipeline.unscopedRestP (Ix := Unit) (Name := ℕ) (U := UR sig nD τ) (Lvl := ℕ) pre17 spec17 c (fun b => Vact c b)
    ∗ (((c.tc : Thread nD τ).loc main_v8) ↦{Transfers.shareDrop fullShare 4} Vact c main_v8))

/-- Region 17's arrays, window by window: the point table four times, at the four quarter shares, and the output
    array whole. -/
theorem arrays_eq17 (c : Dev nD)
    (G : (w : Fin (cfg17 a).W) → Buf (Elt F) (((cfg17 a).win w).arr.view.loc (c.tc : Thread nD τ))) :
    (dat17 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v98) ↦{fullShare} G 4)) : sProp 𝕄) := by
  unfold Dat.arrays
  rw [show (bigSep Finset.univ fun w : Fin (cfg17 a).W =>
          ((((cfg17 a).win w).arr.view.loc (c.tc : Thread nD τ)) ↦[((cfg17 a).win w).arr.view.set]{(dat17 V a c).share w} G w : sProp 𝕄))
        = bigSep Finset.univ fun w : Fin (cfg17 a).W =>
          ((((c.tc : Thread nD τ).loc (Pipeline.arrRef spec17 w)) ↦{(dat17 V a c).share w} G w : sProp 𝕄))
      from bigSep_congr fun w _ => by rw [(arr_whole17 w).set_eq_univ]]
  rw [bigSep_W17]
  have hs0 : (dat17 V a c).share 0 = Transfers.shareTok fullShare 4 0 := rfl
  have hs1 : (dat17 V a c).share 1 = Transfers.shareTok fullShare 4 1 := rfl
  have hs2 : (dat17 V a c).share 2 = Transfers.shareTok fullShare 4 2 := rfl
  have hs3 : (dat17 V a c).share 3 = Transfers.shareTok fullShare 4 3 := rfl
  have hs4 : (dat17 V a c).share 4 = fullShare := rfl
  rw [hs0, hs1, hs2, hs3, hs4]

theorem hentry17 (c : Dev nD) (L : GSem nD τ sig → Finset Unit) (lv : GSem nD τ sig → Unit → ℕ)
    (h8 : Vact c main_v8 = V c main_v8) (h13 : Vact c main_v98 = V c main_v98)
    (hpf : ∀ k, Vact c (pre17.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat17 V a c).arrays ((dat17 V a c).arrAt · 0)
          ∗ Pipeline.prefHeld pre17 c (fun _ => fullShare) a.1
          ∗ (dat17 V a c).owesAt () 0 ∗ (∃ r, prngReg c r) ∗ Zrest17 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec17 c (fun b => Vact c b) ∗ Pipeline.unscopedRest spec17 c (fun b => Vact c b)) :=
    Pipeline.PerCore.unscopedBufs_split₀ (fun (_ : Dev nD) (_ : Fin 1) => cfg17 a) (0 : Fin 1) c winFacts₀17.arr_unscoped _
  rw [e2, Pipeline.unscopedRest_split preFacts17 c _]
  have hImg : (Finset.univ.image (Pipeline.arrRef spec17) : Finset (Ref sig .tc)) = {main_v8, main_v98} := by decide
  unfold Pipeline.arrBufs
  rw [hImg, bigSep_pair main_v8 main_v98 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq17]
  have hA0 : (dat17 V a c).arrAt 0 0 = Vact c main_v8 := h8.symm
  have hA1 : (dat17 V a c).arrAt 1 0 = Vact c main_v8 := h8.symm
  have hA2 : (dat17 V a c).arrAt 2 0 = Vact c main_v8 := h8.symm
  have hA3 : (dat17 V a c).arrAt 3 0 = Vact c main_v8 := h8.symm
  have hA4 : (dat17 V a c).arrAt 4 0 = Vact c main_v98 := h13.symm
  rw [hA0, hA1, hA2, hA3, hA4]
  have hP : (fun k => Vact c (pre17.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest17
  isplitl [Hrest]; · iexact Hrest
  iexact Hdrop

/-- The invariant at the first point: the scoped buffers no window stages, the generator register, the four tables. -/
theorem hin17 (c : Dev nD) :
    iprop((∃ r, prngReg c r) ∗ Pipeline.prefHeld pre17 c (fun _ => fullShare) a.1
        ∗ Pipeline.scopedRest (Ix := Unit) (Name := ℕ) (U := UR sig nD τ) (Lvl := ℕ) (Val := Elt F) spec17 c)
      ⊢ ((dat17 V a c).Φ 0 : sProp 𝕄) := by
  rw [show (dat17 V a c).Φ 0 = iprop(Pipeline.ΦA spec17 c ∗ Pipeline.prefHeld pre17 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep17 (c : Dev nD) : sProp 𝕄 :=
  iprop((∃ r, prngReg c r) ∗ Pipeline.prefHeld pre17 c (fun _ => fullShare) a.1)

theorem hout17 (c : Dev nD) :
    ((dat17 V a c).Φ (Fin.last (cfg17 a).N) : sProp 𝕄)
      ⊢ iprop(Ykeep17 a c ∗ Pipeline.ownSems0 (fun k : PEmpty => k.elim) c
          ∗ Pipeline.scopedRest (Ix := Unit) (Name := ℕ) (U := UR sig nD τ) (Lvl := ℕ) (Val := Elt F) spec17 c) := by
  rw [Pipeline.ownSems0_none,
    show (dat17 V a c).Φ (Fin.last (cfg17 a).N) = iprop(Pipeline.ΦA spec17 c ∗ Pipeline.prefHeld pre17 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit17 (c : Dev nD) (Vact' : Dev nD → Valuation τ sig (Elt F))
    (h8 : Vact c main_v8 = V c main_v8)
    (h8' : Vact' c main_v8 = Vact c main_v8) (h13' : Vact' c main_v98 = (dat17 V a c).arrAt 4 (cfg17 a).N)
    (hpf : ∀ k, Vact' c (pre17.ref k) = a.1 k)
    (hrest : ∀ b : Ref sig .tc, b ≠ main_v98 → Vact' c b = Vact c b) :
    iprop((dat17 V a c).arrays ((dat17 V a c).arrAt · (cfg17 a).N) ∗ (dat17 V a c).owesAt () (Fin.last (cfg17 a).N)
        ∗ Ykeep17 a c ∗ Zrest17 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec17 c (fun b => Vact' c b) ∗ Pipeline.unscopedRest spec17 c (fun b => Vact' c b)) :=
    Pipeline.PerCore.unscopedBufs_split₀ (fun (_ : Dev nD) (_ : Fin 1) => cfg17 a) (0 : Fin 1) c winFacts₀17.arr_unscoped _
  rw [e2, Pipeline.unscopedRest_split preFacts17 c _]
  have hImg : (Finset.univ.image (Pipeline.arrRef spec17) : Finset (Ref sig .tc)) = {main_v8, main_v98} := by decide
  unfold Pipeline.arrBufs
  rw [hImg, bigSep_pair main_v8 main_v98 (by decide)]
  have hRP : (Pipeline.unscopedRestP (Ix := Unit) (Name := ℕ) (U := UR sig nD τ) (Lvl := ℕ) pre17 spec17 c (fun b => Vact' c b) : sProp 𝕄)
      = Pipeline.unscopedRestP pre17 spec17 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre17.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq17]
  have hB0 : (dat17 V a c).arrAt 0 (cfg17 a).N = Vact c main_v8 := ((dat17 V a c).arrAt_in 0 rfl _).trans h8.symm
  have hB1 : (dat17 V a c).arrAt 1 (cfg17 a).N = Vact c main_v8 := ((dat17 V a c).arrAt_in 1 rfl _).trans h8.symm
  have hB2 : (dat17 V a c).arrAt 2 (cfg17 a).N = Vact c main_v8 := ((dat17 V a c).arrAt_in 2 rfl _).trans h8.symm
  have hB3 : (dat17 V a c).arrAt 3 (cfg17 a).N = Vact c main_v8 := ((dat17 V a c).arrAt_in 3 rfl _).trans h8.symm
  rw [hB0, hB1, hB2, hB3, hRP]
  unfold Zrest17
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v98 = (dat17 V a c).arrAt 4 (cfg17 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg17.lean ====
/-
  Region 17 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg17
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 17 over the thread state. -/
def reg17 : Pipeline.RegionSeg (pcfgs (F := F)) (adm m hR) (pdats m hR) () defs₀ Variants.none Lnone lvnone (17 : Fin 20) where
  win := winFacts₀17
  block_pos := block_pos17
  stage_whole := stage_whole17
  K := PEmpty
  osem k := k.elim
  ho := Pipeline.OwnSemFacts.none _
  hbody c := (body_obligation17 (Vfirst m) (adm17 m core0 (hR core0)) c).loose
  hwaits := Pipeline.hwaits_of_owed_zero _ _ _ _ Lnone lvnone (17 : Fin 20) fun _ _ => rfl
  pre c := iprop(StableHlo.held (c : Thread nD τ) (Pipeline.ucRefs τ sig) (VE17 m hR c) ∗ Rside c)
  post c := iprop(StableHlo.held (c : Thread nD τ) (Pipeline.ucRefs τ sig) (VX17 m hR c) ∗ Rside c)
  X c := iprop(∃ r, prngReg c r)
  Y c := Ykeep17 (adm17 m core0 (hR core0)) c
  Z c := Zrest17 (VE17 m hR) c
  hentry c := hentry17 (VE17 m hR) (Vfirst m) (adm17 m core0 (hR core0)) c Lnone lvnone (ent_xtab17 m hR c) (ent_out17 m hR c) (ent_pf17 m hR c)
  hin c := hin17 (Vfirst m) (adm17 m core0 (hR core0)) c
  hout c := hout17 (Vfirst m) (adm17 m core0 (hR core0)) c
  hexit c := hexit17 (VE17 m hR) (Vfirst m) (adm17 m core0 (hR core0)) c (VX17 m hR) (ent_xtab17 m hR c) (ext_xtab17 m hR c) (ext_out17 m hR c)
    (ext_pf17 m hR c) (ext_rest17 m hR c)

end Cert.KernelIdeal.Gen

end
-- ==== Proof.KI.Seg18.lean ====
/-
  Region 18 of the gather-and-norm program, second half: how the region is entered and left.

  Between two segments of the program a core holds every unscoped buffer whole. Region 18 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region18
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg18 (F := F)).Adm)

/-- What bypasses region 18: every unscoped buffer that is neither one of its two arrays nor one of its four tables,
    and the part of the point table's share the four input windows do not need. -/
def Zrest18 (c : Dev nD) : sProp 𝕄 :=
  iprop(Pipeline.unscopedRestP (Ix := Unit) (Name := ℕ) (U := UR sig nD τ) (Lvl := ℕ) pre18 spec18 c (fun b => Vact c b)
    ∗ (((c.tc : Thread nD τ).loc main_v8) ↦{Transfers.shareDrop fullShare 4} Vact c main_v8))

/-- Region 18's arrays, window by window: the point table four times, at the four quarter shares, and the output
    array whole. -/
theorem arrays_eq18 (c : Dev nD)
    (G : (w : Fin (cfg18 a).W) → Buf (Elt F) (((cfg18 a).win w).arr.view.loc (c.tc : Thread nD τ))) :
    (dat18 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v103) ↦{fullShare} G 4)) : sProp 𝕄) := by
  unfold Dat.arrays
  rw [show (bigSep Finset.univ fun w : Fin (cfg18 a).W =>
          ((((cfg18 a).win w).arr.view.loc (c.tc : Thread nD τ)) ↦[((cfg18 a).win w).arr.view.set]{(dat18 V a c).share w} G w : sProp 𝕄))
        = bigSep Finset.univ fun w : Fin (cfg18 a).W =>
          ((((c.tc : Thread nD τ).loc (Pipeline.arrRef spec18 w)) ↦{(dat18 V a c).share w} G w : sProp 𝕄))
      from bigSep_congr fun w _ => by rw [(arr_whole18 w).set_eq_univ]]
  rw [bigSep_W18]
  have hs0 : (dat18 V a c).share 0 = Transfers.shareTok fullShare 4 0 := rfl
  have hs1 : (dat18 V a c).share 1 = Transfers.shareTok fullShare 4 1 := rfl
  have hs2 : (dat18 V a c).share 2 = Transfers.shareTok fullShare 4 2 := rfl
  have hs3 : (dat18 V a c).share 3 = Transfers.shareTok fullShare 4 3 := rfl
  have hs4 : (dat18 V a c).share 4 = fullShare := rfl
  rw [hs0, hs1, hs2, hs3, hs4]

theorem hentry18 (c : Dev nD) (L : GSem nD τ sig → Finset Unit) (lv : GSem nD τ sig → Unit → ℕ)
    (h8 : Vact c main_v8 = V c main_v8) (h13 : Vact c main_v103 = V c main_v103)
    (hpf : ∀ k, Vact c (pre18.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat18 V a c).arrays ((dat18 V a c).arrAt · 0)
          ∗ Pipeline.prefHeld pre18 c (fun _ => fullShare) a.1
          ∗ (dat18 V a c).owesAt () 0 ∗ (∃ r, prngReg c r) ∗ Zrest18 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec18 c (fun b => Vact c b) ∗ Pipeline.unscopedRest spec18 c (fun b => Vact c b)) :=
    Pipeline.PerCore.unscopedBufs_split₀ (fun (_ : Dev nD) (_ : Fin 1) => cfg18 a) (0 : Fin 1) c winFacts₀18.arr_unscoped _
  rw [e2, Pipeline.unscopedRest_split preFacts18 c _]
  have hImg : (Finset.univ.image (Pipeline.arrRef spec18) : Finset (Ref sig .tc)) = {main_v8, main_v103} := by decide
  unfold Pipeline.arrBufs
  rw [hImg, bigSep_pair main_v8 main_v103 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq18]
  have hA0 : (dat18 V a c).arrAt 0 0 = Vact c main_v8 := h8.symm
  have hA1 : (dat18 V a c).arrAt 1 0 = Vact c main_v8 := h8.symm
  have hA2 : (dat18 V a c).arrAt 2 0 = Vact c main_v8 := h8.symm
  have hA3 : (dat18 V a c).arrAt 3 0 = Vact c main_v8 := h8.symm
  have hA4 : (dat18 V a c).arrAt 4 0 = Vact c main_v103 := h13.symm
  rw [hA0, hA1, hA2, hA3, hA4]
  have hP : (fun k => Vact c (pre18.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest18
  isplitl [Hrest]; · iexact Hrest
  iexact Hdrop

/-- The invariant at the first point: the scoped buffers no window stages, the generator register, the four tables. -/
theorem hin18 (c : Dev nD) :
    iprop((∃ r, prngReg c r) ∗ Pipeline.prefHeld pre18 c (fun _ => fullShare) a.1
        ∗ Pipeline.scopedRest (Ix := Unit) (Name := ℕ) (U := UR sig nD τ) (Lvl := ℕ) (Val := Elt F) spec18 c)
      ⊢ ((dat18 V a c).Φ 0 : sProp 𝕄) := by
  rw [show (dat18 V a c).Φ 0 = iprop(Pipeline.ΦA spec18 c ∗ Pipeline.prefHeld pre18 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep18 (c : Dev nD) : sProp 𝕄 :=
  iprop((∃ r, prngReg c r) ∗ Pipeline.prefHeld pre18 c (fun _ => fullShare) a.1)

theorem hout18 (c : Dev nD) :
    ((dat18 V a c).Φ (Fin.last (cfg18 a).N) : sProp 𝕄)
      ⊢ iprop(Ykeep18 a c ∗ Pipeline.ownSems0 (fun k : PEmpty => k.elim) c
          ∗ Pipeline.scopedRest (Ix := Unit) (Name := ℕ) (U := UR sig nD τ) (Lvl := ℕ) (Val := Elt F) spec18 c) := by
  rw [Pipeline.ownSems0_none,
    show (dat18 V a c).Φ (Fin.last (cfg18 a).N) = iprop(Pipeline.ΦA spec18 c ∗ Pipeline.prefHeld pre18 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit18 (c : Dev nD) (Vact' : Dev nD → Valuation τ sig (Elt F))
    (h8 : Vact c main_v8 = V c main_v8)
    (h8' : Vact' c main_v8 = Vact c main_v8) (h13' : Vact' c main_v103 = (dat18 V a c).arrAt 4 (cfg18 a).N)
    (hpf : ∀ k, Vact' c (pre18.ref k) = a.1 k)
    (hrest : ∀ b : Ref sig .tc, b ≠ main_v103 → Vact' c b = Vact c b) :
    iprop((dat18 V a c).arrays ((dat18 V a c).arrAt · (cfg18 a).N) ∗ (dat18 V a c).owesAt () (Fin.last (cfg18 a).N)
        ∗ Ykeep18 a c ∗ Zrest18 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec18 c (fun b => Vact' c b) ∗ Pipeline.unscopedRest spec18 c (fun b => Vact' c b)) :=
    Pipeline.PerCore.unscopedBufs_split₀ (fun (_ : Dev nD) (_ : Fin 1) => cfg18 a) (0 : Fin 1) c winFacts₀18.arr_unscoped _
  rw [e2, Pipeline.unscopedRest_split preFacts18 c _]
  have hImg : (Finset.univ.image (Pipeline.arrRef spec18) : Finset (Ref sig .tc)) = {main_v8, main_v103} := by decide
  unfold Pipeline.arrBufs
  rw [hImg, bigSep_pair main_v8 main_v103 (by decide)]
  have hRP : (Pipeline.unscopedRestP (Ix := Unit) (Name := ℕ) (U := UR sig nD τ) (Lvl := ℕ) pre18 spec18 c (fun b => Vact' c b) : sProp 𝕄)
      = Pipeline.unscopedRestP pre18 spec18 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre18.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq18]
  have hB0 : (dat18 V a c).arrAt 0 (cfg18 a).N = Vact c main_v8 := ((dat18 V a c).arrAt_in 0 rfl _).trans h8.symm
  have hB1 : (dat18 V a c).arrAt 1 (cfg18 a).N = Vact c main_v8 := ((dat18 V a c).arrAt_in 1 rfl _).trans h8.symm
  have hB2 : (dat18 V a c).arrAt 2 (cfg18 a).N = Vact c main_v8 := ((dat18 V a c).arrAt_in 2 rfl _).trans h8.symm
  have hB3 : (dat18 V a c).arrAt 3 (cfg18 a).N = Vact c main_v8 := ((dat18 V a c).arrAt_in 3 rfl _).trans h8.symm
  rw [hB0, hB1, hB2, hB3, hRP]
  unfold Zrest18
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v103 = (dat18 V a c).arrAt 4 (cfg18 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg18.lean ====
/-
  Region 18 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg18
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 18 over the thread state. -/
def reg18 : Pipeline.RegionSeg (pcfgs (F := F)) (adm m hR) (pdats m hR) () defs₀ Variants.none Lnone lvnone (18 : Fin 20) where
  win := winFacts₀18
  block_pos := block_pos18
  stage_whole := stage_whole18
  K := PEmpty
  osem k := k.elim
  ho := Pipeline.OwnSemFacts.none _
  hbody c := (body_obligation18 (Vfirst m) (adm18 m core0 (hR core0)) c).loose
  hwaits := Pipeline.hwaits_of_owed_zero _ _ _ _ Lnone lvnone (18 : Fin 20) fun _ _ => rfl
  pre c := iprop(StableHlo.held (c : Thread nD τ) (Pipeline.ucRefs τ sig) (VE18 m hR c) ∗ Rside c)
  post c := iprop(StableHlo.held (c : Thread nD τ) (Pipeline.ucRefs τ sig) (VX18 m hR c) ∗ Rside c)
  X c := iprop(∃ r, prngReg c r)
  Y c := Ykeep18 (adm18 m core0 (hR core0)) c
  Z c := Zrest18 (VE18 m hR) c
  hentry c := hentry18 (VE18 m hR) (Vfirst m) (adm18 m core0 (hR core0)) c Lnone lvnone (ent_xtab18 m hR c) (ent_out18 m hR c) (ent_pf18 m hR c)
  hin c := hin18 (Vfirst m) (adm18 m core0 (hR core0)) c
  hout c := hout18 (Vfirst m) (adm18 m core0 (hR core0)) c
  hexit c := hexit18 (VE18 m hR) (Vfirst m) (adm18 m core0 (hR core0)) c (VX18 m hR) (ent_xtab18 m hR c) (ext_xtab18 m hR c) (ext_out18 m hR c)
    (ext_pf18 m hR c) (ext_rest18 m hR c)

end Cert.KernelIdeal.Gen

end
-- ==== Proof.KI.Seg19.lean ====
/-
  Region 19 of the gather-and-norm program, second half: how the region is entered and left.

  Between two segments of the program a core holds every unscoped buffer whole. Region 19 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KI.Region19
import proofs.«401090_j62775241999084_2_alg».proof.Proof.KI.SegCommon

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg19 (F := F)).Adm)

/-- What bypasses region 19: every unscoped buffer that is neither one of its two arrays nor one of its four tables,
    and the part of the point table's share the four input windows do not need. -/
def Zrest19 (c : Dev nD) : sProp 𝕄 :=
  iprop(Pipeline.unscopedRestP (Ix := Unit) (Name := ℕ) (U := UR sig nD τ) (Lvl := ℕ) pre19 spec19 c (fun b => Vact c b)
    ∗ (((c.tc : Thread nD τ).loc main_v8) ↦{Transfers.shareDrop fullShare 4} Vact c main_v8))

/-- Region 19's arrays, window by window: the point table four times, at the four quarter shares, and the output
    array whole. -/
theorem arrays_eq19 (c : Dev nD)
    (G : (w : Fin (cfg19 a).W) → Buf (Elt F) (((cfg19 a).win w).arr.view.loc (c.tc : Thread nD τ))) :
    (dat19 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v108) ↦{fullShare} G 4)) : sProp 𝕄) := by
  unfold Dat.arrays
  rw [show (bigSep Finset.univ fun w : Fin (cfg19 a).W =>
          ((((cfg19 a).win w).arr.view.loc (c.tc : Thread nD τ)) ↦[((cfg19 a).win w).arr.view.set]{(dat19 V a c).share w} G w : sProp 𝕄))
        = bigSep Finset.univ fun w : Fin (cfg19 a).W =>
          ((((c.tc : Thread nD τ).loc (Pipeline.arrRef spec19 w)) ↦{(dat19 V a c).share w} G w : sProp 𝕄))
      from bigSep_congr fun w _ => by rw [(arr_whole19 w).set_eq_univ]]
  rw [bigSep_W19]
  have hs0 : (dat19 V a c).share 0 = Transfers.shareTok fullShare 4 0 := rfl
  have hs1 : (dat19 V a c).share 1 = Transfers.shareTok fullShare 4 1 := rfl
  have hs2 : (dat19 V a c).share 2 = Transfers.shareTok fullShare 4 2 := rfl
  have hs3 : (dat19 V a c).share 3 = Transfers.shareTok fullShare 4 3 := rfl
  have hs4 : (dat19 V a c).share 4 = fullShare := rfl
  rw [hs0, hs1, hs2, hs3, hs4]

theorem hentry19 (c : Dev nD) (L : GSem nD τ sig → Finset Unit) (lv : GSem nD τ sig → Unit → ℕ)
    (h8 : Vact c main_v8 = V c main_v8) (h13 : Vact c main_v108 = V c main_v108)
    (hpf : ∀ k, Vact c (pre19.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat19 V a c).arrays ((dat19 V a c).arrAt · 0)
          ∗ Pipeline.prefHeld pre19 c (fun _ => fullShare) a.1
          ∗ (dat19 V a c).owesAt () 0 ∗ (∃ r, prngReg c r) ∗ Zrest19 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec19 c (fun b => Vact c b) ∗ Pipeline.unscopedRest spec19 c (fun b => Vact c b)) :=
    Pipeline.PerCore.unscopedBufs_split₀ (fun (_ : Dev nD) (_ : Fin 1) => cfg19 a) (0 : Fin 1) c winFacts₀19.arr_unscoped _
  rw [e2, Pipeline.unscopedRest_split preFacts19 c _]
  have hImg : (Finset.univ.image (Pipeline.arrRef spec19) : Finset (Ref sig .tc)) = {main_v8, main_v108} := by decide
  unfold Pipeline.arrBufs
  rw [hImg, bigSep_pair main_v8 main_v108 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq19]
  have hA0 : (dat19 V a c).arrAt 0 0 = Vact c main_v8 := h8.symm
  have hA1 : (dat19 V a c).arrAt 1 0 = Vact c main_v8 := h8.symm
  have hA2 : (dat19 V a c).arrAt 2 0 = Vact c main_v8 := h8.symm
  have hA3 : (dat19 V a c).arrAt 3 0 = Vact c main_v8 := h8.symm
  have hA4 : (dat19 V a c).arrAt 4 0 = Vact c main_v108 := h13.symm
  rw [hA0, hA1, hA2, hA3, hA4]
  have hP : (fun k => Vact c (pre19.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest19
  isplitl [Hrest]; · iexact Hrest
  iexact Hdrop

/-- The invariant at the first point: the scoped buffers no window stages, the generator register, the four tables. -/
theorem hin19 (c : Dev nD) :
    iprop((∃ r, prngReg c r) ∗ Pipeline.prefHeld pre19 c (fun _ => fullShare) a.1
        ∗ Pipeline.scopedRest (Ix := Unit) (Name := ℕ) (U := UR sig nD τ) (Lvl := ℕ) (Val := Elt F) spec19 c)
      ⊢ ((dat19 V a c).Φ 0 : sProp 𝕄) := by
  rw [show (dat19 V a c).Φ 0 = iprop(Pipeline.ΦA spec19 c ∗ Pipeline.prefHeld pre19 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep19 (c : Dev nD) : sProp 𝕄 :=
  iprop((∃ r, prngReg c r) ∗ Pipeline.prefHeld pre19 c (fun _ => fullShare) a.1)

theorem hout19 (c : Dev nD) :
    ((dat19 V a c).Φ (Fin.last (cfg19 a).N) : sProp 𝕄)
      ⊢ iprop(Ykeep19 a c ∗ Pipeline.ownSems0 (fun k : PEmpty => k.elim) c
          ∗ Pipeline.scopedRest (Ix := Unit) (Name := ℕ) (U := UR sig nD τ) (Lvl := ℕ) (Val := Elt F) spec19 c) := by
  rw [Pipeline.ownSems0_none,
    show (dat19 V a c).Φ (Fin.last (cfg19 a).N) = iprop(Pipeline.ΦA spec19 c ∗ Pipeline.prefHeld pre19 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit19 (c : Dev nD) (Vact' : Dev nD → Valuation τ sig (Elt F))
    (h8 : Vact c main_v8 = V c main_v8)
    (h8' : Vact' c main_v8 = Vact c main_v8) (h13' : Vact' c main_v108 = (dat19 V a c).arrAt 4 (cfg19 a).N)
    (hpf : ∀ k, Vact' c (pre19.ref k) = a.1 k)
    (hrest : ∀ b : Ref sig .tc, b ≠ main_v108 → Vact' c b = Vact c b) :
    iprop((dat19 V a c).arrays ((dat19 V a c).arrAt · (cfg19 a).N) ∗ (dat19 V a c).owesAt () (Fin.last (cfg19 a).N)
        ∗ Ykeep19 a c ∗ Zrest19 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec19 c (fun b => Vact' c b) ∗ Pipeline.unscopedRest spec19 c (fun b => Vact' c b)) :=
    Pipeline.PerCore.unscopedBufs_split₀ (fun (_ : Dev nD) (_ : Fin 1) => cfg19 a) (0 : Fin 1) c winFacts₀19.arr_unscoped _
  rw [e2, Pipeline.unscopedRest_split preFacts19 c _]
  have hImg : (Finset.univ.image (Pipeline.arrRef spec19) : Finset (Ref sig .tc)) = {main_v8, main_v108} := by decide
  unfold Pipeline.arrBufs
  rw [hImg, bigSep_pair main_v8 main_v108 (by decide)]
  have hRP : (Pipeline.unscopedRestP (Ix := Unit) (Name := ℕ) (U := UR sig nD τ) (Lvl := ℕ) pre19 spec19 c (fun b => Vact' c b) : sProp 𝕄)
      = Pipeline.unscopedRestP pre19 spec19 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre19.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq19]
  have hB0 : (dat19 V a c).arrAt 0 (cfg19 a).N = Vact c main_v8 := ((dat19 V a c).arrAt_in 0 rfl _).trans h8.symm
  have hB1 : (dat19 V a c).arrAt 1 (cfg19 a).N = Vact c main_v8 := ((dat19 V a c).arrAt_in 1 rfl _).trans h8.symm
  have hB2 : (dat19 V a c).arrAt 2 (cfg19 a).N = Vact c main_v8 := ((dat19 V a c).arrAt_in 2 rfl _).trans h8.symm
  have hB3 : (dat19 V a c).arrAt 3 (cfg19 a).N = Vact c main_v8 := ((dat19 V a c).arrAt_in 3 rfl _).trans h8.symm
  rw [hB0, hB1, hB2, hB3, hRP]
  unfold Zrest19
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v108 = (dat19 V a c).arrAt 4 (cfg19 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.KernelIdeal.Gen

end
-- ==== Proof.KI.Reg19.lean ====
/-
  Region 19 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KI.Entries
import proofs.«401090_j62775241999084_2_alg».proof.Proof.KI.Seg19
import proofs.«401090_j62775241999084_2_alg».proof.Proof.KI.Levels

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 19 over the thread state. -/
def reg19 : Pipeline.RegionSeg (pcfgs (F := F)) (adm m hR) (pdats m hR) () defs₀ Variants.none Lnone lvnone (19 : Fin 20) where
  win := winFacts₀19
  block_pos := block_pos19
  stage_whole := stage_whole19
  K := PEmpty
  osem k := k.elim
  ho := Pipeline.OwnSemFacts.none _
  hbody c := (body_obligation19 (Vfirst m) (adm19 m core0 (hR core0)) c).loose
  hwaits := Pipeline.hwaits_of_owed_zero _ _ _ _ Lnone lvnone (19 : Fin 20) fun _ _ => rfl
  pre c := iprop(StableHlo.held (c : Thread nD τ) (Pipeline.ucRefs τ sig) (VE19 m hR c) ∗ Rside c)
  post c := iprop(StableHlo.held (c : Thread nD τ) (Pipeline.ucRefs τ sig) (VX19 m hR c) ∗ Rside c)
  X c := iprop(∃ r, prngReg c r)
  Y c := Ykeep19 (adm19 m core0 (hR core0)) c
  Z c := Zrest19 (VE19 m hR) c
  hentry c := hentry19 (VE19 m hR) (Vfirst m) (adm19 m core0 (hR core0)) c Lnone lvnone (ent_xtab19 m hR c) (ent_out19 m hR c) (ent_pf19 m hR c)
  hin c := hin19 (Vfirst m) (adm19 m core0 (hR core0)) c
  hout c := hout19 (Vfirst m) (adm19 m core0 (hR core0)) c
  hexit c := hexit19 (VE19 m hR) (Vfirst m) (adm19 m core0 (hR core0)) c (VX19 m hR) (ent_xtab19 m hR c) (ext_xtab19 m hR c) (ext_out19 m hR c)
    (ext_pf19 m hR c) (ext_rest19 m hR c)

end Cert.KernelIdeal.Gen

end
-- ==== Proof.KI.ValueCond.lean ====
/-
  The program's run with its RESULT, conditional on the regions' segment records.

  The program is 21 host stretches alternating with 20 kernel regions. Between two items a core holds every unscoped
  buffer whole at a valuation: the launch contents, then each host stretch's operations applied, then each region's
  output array updated. Given a segment record per region that is entered and left at those valuations, the whole run
  terminates and the final memory agrees with the last valuation at the result array and holds the arguments unchanged.
-/
import proofs.«401090_j62775241999084_2_alg».proof.Proof.RegionsKernelIdeal
import Idealize.ShloMosaic.Lib.Pipeline.Frame
import Idealize.ShloMosaic.Lib.Pipeline.Regions

-- decided memberships and the launch kit's enumerations over 315 references recurse past the default depth
set_option maxRecDepth 1772

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE CONDITIONAL RUN WITH ITS RESULT. Under the same hypotheses as the conditional frame — per region a segment record
    entered from the thread state before it and left at the one after it — every weakly fair execution of the program
    from memory `m` with zero counters terminates, and every final memory holds the result array at what the LAST
    valuation has there (the host stretches' operations applied to what the regions left) and each argument as launched. -/
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 20) → (pcfgs (F := F) p).Adm)
    (pdats : (p : Fin 20) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 21 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE20 : ∀ c : Dev nD, E 20 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) a pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) a pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) a pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) a pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) a pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) a pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) a pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) a pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c))
    (R13 : RegionSeg (pcfgs (F := F)) a pdats ι defs₀ 𝒱₀ L lv 13)
    (hpre13 : ∀ c : Dev nD, iprop(StableHlo.held (c : Thread nD τ) (Pipeline.ucRefs τ sig) (V27 m outs c) ∗ E 13 c) ⊢ R13.pre c)
    (hpost13 : ∀ c : Dev nD, R13.post c ⊢ iprop(StableHlo.held (c : Thread nD τ) (Pipeline.ucRefs τ sig) (V28 m outs c) ∗ E 14 c))
    (R14 : RegionSeg (pcfgs (F := F)) a pdats ι defs₀ 𝒱₀ L lv 14)
    (hpre14 : ∀ c : Dev nD, iprop(StableHlo.held (c : Thread nD τ) (Pipeline.ucRefs τ sig) (V29 m outs c) ∗ E 14 c) ⊢ R14.pre c)
    (hpost14 : ∀ c : Dev nD, R14.post c ⊢ iprop(StableHlo.held (c : Thread nD τ) (Pipeline.ucRefs τ sig) (V30 m outs c) ∗ E 15 c))
    (R15 : RegionSeg (pcfgs (F := F)) a pdats ι defs₀ 𝒱₀ L lv 15)
    (hpre15 : ∀ c : Dev nD, iprop(StableHlo.held (c : Thread nD τ) (Pipeline.ucRefs τ sig) (V31 m outs c) ∗ E 15 c) ⊢ R15.pre c)
    (hpost15 : ∀ c : Dev nD, R15.post c ⊢ iprop(StableHlo.held (c : Thread nD τ) (Pipeline.ucRefs τ sig) (V32 m outs c) ∗ E 16 c))
    (R16 : RegionSeg (pcfgs (F := F)) a pdats ι defs₀ 𝒱₀ L lv 16)
    (hpre16 : ∀ c : Dev nD, iprop(StableHlo.held (c : Thread nD τ) (Pipeline.ucRefs τ sig) (V33 m outs c) ∗ E 16 c) ⊢ R16.pre c)
    (hpost16 : ∀ c : Dev nD, R16.post c ⊢ iprop(StableHlo.held (c : Thread nD τ) (Pipeline.ucRefs τ sig) (V34 m outs c) ∗ E 17 c))
    (R17 : RegionSeg (pcfgs (F := F)) a pdats ι defs₀ 𝒱₀ L lv 17)
    (hpre17 : ∀ c : Dev nD, iprop(StableHlo.held (c : Thread nD τ) (Pipeline.ucRefs τ sig) (V35 m outs c) ∗ E 17 c) ⊢ R17.pre c)
    (hpost17 : ∀ c : Dev nD, R17.post c ⊢ iprop(StableHlo.held (c : Thread nD τ) (Pipeline.ucRefs τ sig) (V36 m outs c) ∗ E 18 c))
    (R18 : RegionSeg (pcfgs (F := F)) a pdats ι defs₀ 𝒱₀ L lv 18)
    (hpre18 : ∀ c : Dev nD, iprop(StableHlo.held (c : Thread nD τ) (Pipeline.ucRefs τ sig) (V37 m outs c) ∗ E 18 c) ⊢ R18.pre c)
    (hpost18 : ∀ c : Dev nD, R18.post c ⊢ iprop(StableHlo.held (c : Thread nD τ) (Pipeline.ucRefs τ sig) (V38 m outs c) ∗ E 19 c))
    (R19 : RegionSeg (pcfgs (F := F)) a pdats ι defs₀ 𝒱₀ L lv 19)
    (hpre19 : ∀ c : Dev nD, iprop(StableHlo.held (c : Thread nD τ) (Pipeline.ucRefs τ sig) (V39 m outs c) ∗ E 19 c) ⊢ R19.pre c)
    (hpost19 : ∀ c : Dev nD, R19.post c ⊢ iprop(StableHlo.held (c : Thread nD τ) (Pipeline.ucRefs τ sig) (V40 m outs c) ∗ E 20 c)) :
    θ_run defs (onTc (τ := τ) (main (F := F))) ⟨m, fun _ => 0, ρ⟩ (fun r => ∀ c : Dev nD,
      r.2.mem ((c.tc : Thread nD τ).loc main_v112) = V41 m outs c main_v112
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) a pdats ι (cellOf_inj a) EP defs₀ 𝒱₀ L lv m ρ main
    (segs m outs 𝒱₀ L lv E ι a pdats R0 R1 R2 R3 R4 R5 R6 R7 R8 R9 R10 R11 R12 R13 R14 R15 R16 R17 R18 R19)
    (fun c Q => by
      rewrite [main_chain c, Seg.run_eq_chain,
        show (segs m outs 𝒱₀ L lv E ι a pdats R0 R1 R2 R3 R4 R5 R6 R7 R8 R9 R10 R11 R12 R13 R14 R15 R16 R17 R18 R19 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          Prog.lift (.customCall (Pipeline.entry 19) ()),
          StableHlo.seq hostOps20 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V41 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, hpost14 c, hpre15 c, hpost15 c, hpre16 c, hpost16 c, hpre17 c, hpost17 c, hpre18 c, hpost18 c, hpre19 c, hpost19 c, sep_mono .rfl (hE20 c)⟩)
    (hinit := ?_) (QY := fun c s => s.mem ((c.tc : Thread nD τ).loc main_v112) = V41 m outs c main_v112 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V41 m outs c) s') $$ [Hh HSI]
    · isplitl [Hh] <;> iassumption
    icases Hr with ⟨%h, HSI⟩
    imodintro
    isplitr
    · ipureintro
      exact ⟨h (Proc.devRef .tc main_v112) (Finset.mem_filter.mpr ⟨StableHlo.devRef_mem_tcRefs main_v112, by decide⟩),
        (h (Proc.devRef .tc main_arg0) (Finset.mem_filter.mpr ⟨StableHlo.devRef_mem_tcRefs main_arg0, by decide⟩)).trans (V41_main_arg0 m outs c),
        (h (Proc.devRef .tc main_arg1) (Finset.mem_filter.mpr ⟨StableHlo.devRef_mem_tcRefs main_arg1, by decide⟩)).trans (V41_main_arg1 m outs c)⟩
    · iexact HSI

end Cert.KernelIdeal.Gen

end
-- ==== Proof.KI.Run.lean ====
/-
  The gather-and-norm program's run: every weakly fair execution from a memory whose vertex words are in range
  terminates, nothing faulting, with both arguments unchanged and the result array at what the last valuation has there.

  The twenty regions' segment records are the hypotheses of the conditional run; what is left is the launch: the
  pipelines' cells are allocated from the launch's ghost state, every core starts with its generator register and
  nothing owed, which is what rides beside the buffers through every segment, and ends owing nothing.
-/
import proofs.«401090_j62775241999084_2_alg».proof.Proof.KI.Reg0
import proofs.«401090_j62775241999084_2_alg».proof.Proof.KI.Reg1
import proofs.«401090_j62775241999084_2_alg».proof.Proof.KI.Reg2
import proofs.«401090_j62775241999084_2_alg».proof.Proof.KI.Reg3
import proofs.«401090_j62775241999084_2_alg».proof.Proof.KI.Reg4
import proofs.«401090_j62775241999084_2_alg».proof.Proof.KI.Reg5
import proofs.«401090_j62775241999084_2_alg».proof.Proof.KI.Reg6
import proofs.«401090_j62775241999084_2_alg».proof.Proof.KI.Reg7
import proofs.«401090_j62775241999084_2_alg».proof.Proof.KI.Reg8
import proofs.«401090_j62775241999084_2_alg».proof.Proof.KI.Reg9
import proofs.«401090_j62775241999084_2_alg».proof.Proof.KI.Reg10
import proofs.«401090_j62775241999084_2_alg».proof.Proof.KI.Reg11
import proofs.«401090_j62775241999084_2_alg».proof.Proof.KI.Reg12
import proofs.«401090_j62775241999084_2_alg».proof.Proof.KI.Reg13
import proofs.«401090_j62775241999084_2_alg».proof.Proof.KI.Reg14
import proofs.«401090_j62775241999084_2_alg».proof.Proof.KI.Reg15
import proofs.«401090_j62775241999084_2_alg».proof.Proof.KI.Reg16
import proofs.«401090_j62775241999084_2_alg».proof.Proof.KI.Reg17
import proofs.«401090_j62775241999084_2_alg».proof.Proof.KI.Reg18
import proofs.«401090_j62775241999084_2_alg».proof.Proof.KI.Reg19
import proofs.«401090_j62775241999084_2_alg».proof.Proof.KI.ValueCond
import Idealize.ShloMosaic.Lib.Pipeline.Kit

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)
variable (hR : ∀ c : Dev nD, Cert.EdgeLengths.InRange (m ((c.tc : Thread nD τ).loc main_arg1)))

local notation "𝕄" => MT nD τ sig Unit (Elt F) ℕ (UR sig nD τ) ℕ

/-- The launch's ghost state: the twenty pipelines' cells and their launch tokens. -/
abbrev launchU : UR sig nD τ :=
  initOf (Pipeline.cells (Pipeline.pin (pcfgs (F := F)) (adm m hR)) (cellOf_inj (adm m hR)))
    (Pipeline.launchToks (Pipeline.pin (pcfgs (F := F)) (adm m hR)) (cellOf_inj (adm m hR)))

theorem launchU_own :
    (ownU (launchU m hR) : sProp 𝕄) ⊢ |={Set.univ}=> iprop(BI.own (emb₁ (launchU m hR)) ∗ bigSep Finset.univ fun _ : Dev nD => (BI.emp : sProp 𝕄)) := by
  iintro Hu; imodintro
  isplitl [Hu]
  · iapply (show (ownU (launchU m hR) : sProp 𝕄) ⊢ BI.own (emb₁ (launchU m hR)) from .rfl)
    iexact Hu
  iapply (show (BI.emp : sProp 𝕄) ⊢ bigSep Finset.univ (fun _ : Dev nD => (BI.emp : sProp 𝕄)) from by rw [BI.bigSep_emp_const])
  iempintro

/-- Every core starts with its generator register and nothing owed. -/
theorem start_side :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄))) ∗ levAts Lnone lvnone)
      ⊢ (|={Set.univ}=> bigSep Finset.univ (fun c : Dev nD => Rside (F := F) c) : sProp 𝕄) :=
  Pipeline.initEach Lnone lvnone fun c => by
    iintro ⟨⟨-, HO, -, Hp, -⟩, -⟩
    imodintro
    isplitl [Hp]; · iexists _; iexact Hp
    iexists ∅; iexact HO

/-- and ends owing nothing. -/
theorem end_side (c : Dev nD) : (Rside (F := F) c : sProp 𝕄) ⊢ iprop(∃ W, owes (c : Thread nD τ) (0 : CellTallies nD τ sig Unit) W) := by
  iintro ⟨-, HO⟩; iexact HO

/-- THE RUN WITH ITS RESULT. -/
theorem run_val : θ_run defs (onTc (τ := τ) (main (F := F))) ⟨m, fun _ => 0, ρ⟩ (fun r => ∀ c : Dev nD,
      r.2.mem ((c.tc : Thread nD τ).loc main_v112) = V41 m (outs m hR) c main_v112
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  value_cond m emb₁ () Variants.none Lnone lvnone (fun _ _ => rfl) ρ (outs m hR) (adm m hR) (pdats m hR)
    (fun _ => 0) (fun _ => iprop(emp)) (launchU m hR) (launchU_own m hR) (fun _ c => Rside c) (start_side ρ) (fun c => end_side c)
    (reg0 m hR) (fun _ => .rfl) (fun _ => .rfl)
    (reg1 m hR) (fun _ => .rfl) (fun _ => .rfl)
    (reg2 m hR) (fun _ => .rfl) (fun _ => .rfl)
    (reg3 m hR) (fun _ => .rfl) (fun _ => .rfl)
    (reg4 m hR) (fun _ => .rfl) (fun _ => .rfl)
    (reg5 m hR) (fun _ => .rfl) (fun _ => .rfl)
    (reg6 m hR) (fun _ => .rfl) (fun _ => .rfl)
    (reg7 m hR) (fun _ => .rfl) (fun _ => .rfl)
    (reg8 m hR) (fun _ => .rfl) (fun _ => .rfl)
    (reg9 m hR) (fun _ => .rfl) (fun _ => .rfl)
    (reg10 m hR) (fun _ => .rfl) (fun _ => .rfl)
    (reg11 m hR) (fun _ => .rfl) (fun _ => .rfl)
    (reg12 m hR) (fun _ => .rfl) (fun _ => .rfl)
    (reg13 m hR) (fun _ => .rfl) (fun _ => .rfl)
    (reg14 m hR) (fun _ => .rfl) (fun _ => .rfl)
    (reg15 m hR) (fun _ => .rfl) (fun _ => .rfl)
    (reg16 m hR) (fun _ => .rfl) (fun _ => .rfl)
    (reg17 m hR) (fun _ => .rfl) (fun _ => .rfl)
    (reg18 m hR) (fun _ => .rfl) (fun _ => .rfl)
    (reg19 m hR) (fun _ => .rfl) (fun _ => .rfl)

include hR in
/-- THE FRAME: the same run, keeping only that the arguments end unchanged. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_val m ρ hR)

end Cert.KernelIdeal.Gen

end
-- ==== Proof.KI.XTab.lean ====
/-
  The point table as every region reads it. Before the first region the [100000, 64] table is reshaped to
  [100000, 1, 64] (one row per block). A reshape keeps row-major positions, and position (r·1 + 0)·64 + k of the
  reshaped array is position r·64 + k of the table: entry (r, 0, k) of the reshaped array is entry (r, k) of the table.
-/
import proofs.«401090_j62775241999084_2_alg».proof.Proof.RegionsKernelIdeal
import Idealize.ShloMosaic.Lib.StableHlo.Run
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ)

/-- The reshaped table is the reshape of the launch table. -/
theorem xtab_eq (c : Dev nD) :
    (V1 m c main_v8 : S100000x1x64.Idx → Elt F .f32)
      = shapeCast S100000x1x64 (m ((c.tc : Thread nD τ).loc main_arg0) : S100000x64.Idx → Elt F .f32)
          shapeCasts_S100000x64_S100000x1x64 := by
  show StableHlo.after hostOps0 _ (Proc.devRef .tc main_v8) = _
  after_results
  rfl

/-- Entry (r, 0, k) of the reshaped table is entry (r, k) of the launch table. -/
theorem xtab_apply (c : Dev nD) (r : Fin 100000) (k : Fin 64) :
    (V1 m c main_v8 : S100000x1x64.Idx → Elt F .f32) (ValueIdx.ix3 r 0 k)
      = (m ((c.tc : Thread nD τ).loc main_arg0) : S100000x64.Idx → Elt F .f32) (ValueIdx.ix2 r k) := by
  rw [xtab_eq]
  refine shapeCast_apply _ _ _ _ ?_
  show (S100000x64.rowMajor (ValueIdx.ix2 r k)).val = (S100000x1x64.rowMajor (ValueIdx.ix3 r 0 k)).val
  rw [Shape.rowMajor_val_two, Shape.rowMajor_val_three]
  show r.val * 64 + k.val = (r.val * 1 + 0) * 64 + k.val
  omega

end Cert.KernelIdeal.Gen

end
-- ==== Proof.KI.Result.lean ====
/-
  The program's result read off the regions' outputs. After the last region the host lays the twenty output arrays
  end to end along the row axis (sixteen of them, then the last four, then the two runs together) and drops the unit
  middle axis. Row 25000·K + q of the result is therefore row q of region K's output: the quotient of the row by
  25000 names the piece, the remainder the row inside it. This holds whatever the regions left in their outputs.
-/
import proofs.«401090_j62775241999084_2_alg».proof.Proof.RegionsKernelIdeal
import proofs.«401090_j62775241999084_2_alg».proof.Proof.KI.Tables
import Idealize.ShloMosaic.Lib.Pipeline.Value
import Idealize.ShloMosaic.Lib.ValueIdx
import Idealize.ShloMosaic.Lib.StableHlo.Run

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (outs : Outs (F := F))

/-! ## The last host stretch as a term -/

/-- The sixteen output arrays of regions 0 … 15 as the last host stretch finds them, in order. -/
noncomputable def loPiece (c : Dev nD) : Fin 16 → (S25000x1x2.Idx → Elt F .f32)
  | ⟨0, _⟩ => V40 m outs c main_v13
  | ⟨1, _⟩ => V40 m outs c main_v18
  | ⟨2, _⟩ => V40 m outs c main_v23
  | ⟨3, _⟩ => V40 m outs c main_v28
  | ⟨4, _⟩ => V40 m outs c main_v33
  | ⟨5, _⟩ => V40 m outs c main_v38
  | ⟨6, _⟩ => V40 m outs c main_v43
  | ⟨7, _⟩ => V40 m outs c main_v48
  | ⟨8, _⟩ => V40 m outs c main_v53
  | ⟨9, _⟩ => V40 m outs c main_v58
  | ⟨10, _⟩ => V40 m outs c main_v63
  | ⟨11, _⟩ => V40 m outs c main_v68
  | ⟨12, _⟩ => V40 m outs c main_v73
  | ⟨13, _⟩ => V40 m outs c main_v78
  | ⟨14, _⟩ => V40 m outs c main_v83
  | ⟨15, _⟩ => V40 m outs c main_v88
  | ⟨n + 16, h⟩ => absurd h (by omega)

/-- The four output arrays of regions 16 … 19 as the last host stretch finds them, in order. -/
noncomputable def hiPiece (c : Dev nD) : Fin 4 → (S25000x1x2.Idx → Elt F .f32)
  | ⟨0, _⟩ => V40 m outs c main_v93
  | ⟨1, _⟩ => V40 m outs c main_v98
  | ⟨2, _⟩ => V40 m outs c main_v103
  | ⟨3, _⟩ => V40 m outs c main_v108
  | ⟨n + 4, h⟩ => absurd h (by omega)

/-- Sixteen pieces of 25000 rows make 400000 rows, whatever the pieces hold. -/
theorem cat_lo {α : Type} (f : Fin 16 → (S25000x1x2.Idx → α)) :
    Shape.Concatenates ((List.ofFn fun n : Fin 16 => (⟨S25000x1x2, f n⟩ : (s : Shape) × (s.Idx → α))).map (·.1))
      S400000x1x2 0 :=
  concatenates_S25000x1x2_S25000x1x2_S25000x1x2_S25000x1x2_S25000x1x2_S25000x1x2_S25000x1x2_S25000x1x2_S25000x1x2_S25000x1x2_S25000x1x2_S25000x1x2_S25000x1x2_S25000x1x2_S25000x1x2_S25000x1x2_S400000x1x2_d0

/-- Four pieces of 25000 rows make 100000 rows, whatever the pieces hold. -/
theorem cat_hi {α : Type} (f : Fin 4 → (S25000x1x2.Idx → α)) :
    Shape.Concatenates ((List.ofFn fun n : Fin 4 => (⟨S25000x1x2, f n⟩ : (s : Shape) × (s.Idx → α))).map (·.1))
      S100000x1x2 0 :=
  concatenates_S25000x1x2_S25000x1x2_S25000x1x2_S25000x1x2_S100000x1x2_d0

/-- The result array after the last host stretch: the two runs of pieces laid end to end, the unit axis dropped. -/
theorem v112_term (c : Dev nD) :
    (V41 m outs c main_v112 : S500000x2.Idx → Elt F .f32)
      = shapeCast S500000x2
          (concatenate S500000x1x2 0
            [⟨S400000x1x2, concatenate S400000x1x2 0
                (List.ofFn fun n : Fin 16 => (⟨S25000x1x2, loPiece m outs c n⟩ : (s : Shape) × (s.Idx → Elt F .f32)))
                (cat_lo (loPiece m outs c))⟩,
             ⟨S100000x1x2, concatenate S100000x1x2 0
                (List.ofFn fun n : Fin 4 => (⟨S25000x1x2, hiPiece m outs c n⟩ : (s : Shape) × (s.Idx → Elt F .f32)))
                (cat_hi (hiPiece m outs c))⟩]
            concatenates_S400000x1x2_S100000x1x2_S500000x1x2_d0)
          shapeCasts_S500000x1x2_S500000x2 := by
  show StableHlo.after hostOps20 _ (Proc.devRef .tc main_v112) = _
  after_results
  -- the operands of the four-piece run are still read through the sixteen-piece run's write: name them, then pass it
  dsimp only [Matrix.cons_val]
  repeat (rw [StableHlo.nary_result_ne]; rotate_left; decide)
  rfl

/-! ## The result at a row -/

/-- A row below 400000 lies in the first run: piece `n` at row `q` when the row is `25000 n + q`. -/
theorem v112_lo (c : Dev nD) (n : Fin 16) (q : Fin 25000) (e : Fin 2) (g : Fin 500000)
    (hg : g.val = 25000 * n.val + q.val) :
    (V41 m outs c main_v112 : S500000x2.Idx → Elt F .f32) (ValueIdx.ix2 g e)
      = loPiece m outs c n (ValueIdx.ix3 q 0 e) := by
  have hn := n.isLt
  have hq := q.isLt
  rw [v112_term]
  -- drop the unit axis
  rw [shapeCast_apply _ _ (ValueIdx.ix2 g e) (ValueIdx.ix3 g (0 : Fin 1) e)
    (by rw [Shape.rowMajor_val_three, Shape.rowMajor_val_two]; show (g.val * 1 + 0) * 2 + e.val = g.val * 2 + e.val; omega)]
  -- the first run
  rw [concatenate_pair_apply_left (t := S500000x1x2) (s₁ := S400000x1x2) (s₂ := S100000x1x2) 0 _ _ _
    (ValueIdx.ix3 g (0 : Fin 1) e) rfl (ValueIdx.ix3 (⟨g.val, by omega⟩ : Fin 400000) (0 : Fin 1) e)
    (fun b => match b with | ⟨0, _⟩ => rfl | ⟨1, _⟩ => rfl | ⟨2, _⟩ => rfl)]
  -- the piece: quotient and remainder by 25000
  exact concatenate_ofFn_apply (t := S400000x1x2) (s₁ := S25000x1x2) 0 (loPiece m outs c) _ rfl 25000 rfl
    (ValueIdx.ix3 (⟨g.val, by omega⟩ : Fin 400000) (0 : Fin 1) e) n
    (by show g.val / 25000 = n.val; omega) (ValueIdx.ix3 q 0 e)
    (by show q.val = g.val % 25000; omega)
    (fun b hb => match b, hb with | ⟨0, _⟩, hb => absurd rfl hb | ⟨1, _⟩, _ => rfl | ⟨2, _⟩, _ => rfl)

/-- A row from 400000 on lies in the second run: piece `n` at row `q` when the row is `400000 + 25000 n + q`. -/
theorem v112_hi (c : Dev nD) (n : Fin 4) (q : Fin 25000) (e : Fin 2) (g : Fin 500000)
    (hg : g.val = 400000 + 25000 * n.val + q.val) :
    (V41 m outs c main_v112 : S500000x2.Idx → Elt F .f32) (ValueIdx.ix2 g e)
      = hiPiece m outs c n (ValueIdx.ix3 q 0 e) := by
  have hn := n.isLt
  have hq := q.isLt
  rw [v112_term]
  rw [shapeCast_apply _ _ (ValueIdx.ix2 g e) (ValueIdx.ix3 g (0 : Fin 1) e)
    (by rw [Shape.rowMajor_val_three, Shape.rowMajor_val_two]; show (g.val * 1 + 0) * 2 + e.val = g.val * 2 + e.val; omega)]
  -- the second run, 400000 rows further on
  rw [concatenate_pair_apply_right (t := S500000x1x2) (s₁ := S400000x1x2) (s₂ := S100000x1x2) 0 _ _ _
    (ValueIdx.ix3 g (0 : Fin 1) e) rfl rfl (ValueIdx.ix3 (⟨g.val - 400000, by omega⟩ : Fin 100000) (0 : Fin 1) e)
    (fun b hb => match b, hb with | ⟨0, _⟩, hb => absurd rfl hb | ⟨1, _⟩, _ => rfl | ⟨2, _⟩, _ => rfl)
    (by show g.val - 400000 + 400000 = g.val; omega)]
  exact concatenate_ofFn_apply (t := S100000x1x2) (s₁ := S25000x1x2) 0 (hiPiece m outs c) _ rfl 25000 rfl
    (ValueIdx.ix3 (⟨g.val - 400000, by omega⟩ : Fin 100000) (0 : Fin 1) e) n
    (by show (g.val - 400000) / 25000 = n.val; omega) (ValueIdx.ix3 q 0 e)
    (by show q.val = (g.val - 400000) % 25000; omega)
    (fun b hb => match b, hb with | ⟨0, _⟩, hb => absurd rfl hb | ⟨1, _⟩, _ => rfl | ⟨2, _⟩, _ => rfl)

end Cert.KernelIdeal.Gen

end
-- ==== Proof.KI.ResultRegionsA.lean ====
/-
  Per region K (here K = 0 … 5): its output array is written by region K alone (every later host stretch writes the
  next region's four index tables, every later region its own output array), so the last host stretch finds there
  what region K left; and row 25000·K + q of the result is row q of that array.
-/
import proofs.«401090_j62775241999084_2_alg».proof.Proof.KI.Result

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (outs : Outs (F := F))

/-- What the last host stretch finds in region 0's output array: what region 0 left there. -/
theorem piece_0 (c : Dev nD) : (V40 m outs c main_v13 : S25000x1x2.Idx → Elt F .f32) = outs 2 main_v13 c := by
  rw [V40_of m outs c main_v13 (by decide), V39_of m outs c main_v13 (by decide), V38_of m outs c main_v13 (by decide), V37_of m outs c main_v13 (by decide), V36_of m outs c main_v13 (by decide), V35_of m outs c main_v13 (by decide), V34_of m outs c main_v13 (by decide), V33_of m outs c main_v13 (by decide), V32_of m outs c main_v13 (by decide), V31_of m outs c main_v13 (by decide), V30_of m outs c main_v13 (by decide), V29_of m outs c main_v13 (by decide), V28_of m outs c main_v13 (by decide), V27_of m outs c main_v13 (by decide), V26_of m outs c main_v13 (by decide), V25_of m outs c main_v13 (by decide), V24_of m outs c main_v13 (by decide), V23_of m outs c main_v13 (by decide), V22_of m outs c main_v13 (by decide), V21_of m outs c main_v13 (by decide), V20_of m outs c main_v13 (by decide), V19_of m outs c main_v13 (by decide), V18_of m outs c main_v13 (by decide), V17_of m outs c main_v13 (by decide), V16_of m outs c main_v13 (by decide), V15_of m outs c main_v13 (by decide), V14_of m outs c main_v13 (by decide), V13_of m outs c main_v13 (by decide), V12_of m outs c main_v13 (by decide), V11_of m outs c main_v13 (by decide), V10_of m outs c main_v13 (by decide), V9_of m outs c main_v13 (by decide), V8_of m outs c main_v13 (by decide), V7_of m outs c main_v13 (by decide), V6_of m outs c main_v13 (by decide), V5_of m outs c main_v13 (by decide), V4_of m outs c main_v13 (by decide), V3_of m outs c main_v13 (by decide)]
  exact Function.update_self _ _ _
/-- Row 25000·0 + q of the result is row q of region 0's output array. -/
theorem result_0 (c : Dev nD) (q : Fin 25000) (e : Fin 2) :
    (V41 m outs c main_v112 : S500000x2.Idx → Elt F .f32) (ValueIdx.ix2 (genOf (0 : Fin 20) q) e)
      = (outs 2 main_v13 c : S25000x1x2.Idx → Elt F .f32) (ValueIdx.ix3 q 0 e) :=
  (v112_lo m outs c 0 q e (genOf (0 : Fin 20) q) rfl).trans (congrFun (piece_0 m outs c) _)

/-- What the last host stretch finds in region 1's output array: what region 1 left there. -/
theorem piece_1 (c : Dev nD) : (V40 m outs c main_v18 : S25000x1x2.Idx → Elt F .f32) = outs 4 main_v18 c := by
  rw [V40_of m outs c main_v18 (by decide), V39_of m outs c main_v18 (by decide), V38_of m outs c main_v18 (by decide), V37_of m outs c main_v18 (by decide), V36_of m outs c main_v18 (by decide), V35_of m outs c main_v18 (by decide), V34_of m outs c main_v18 (by decide), V33_of m outs c main_v18 (by decide), V32_of m outs c main_v18 (by decide), V31_of m outs c main_v18 (by decide), V30_of m outs c main_v18 (by decide), V29_of m outs c main_v18 (by decide), V28_of m outs c main_v18 (by decide), V27_of m outs c main_v18 (by decide), V26_of m outs c main_v18 (by decide), V25_of m outs c main_v18 (by decide), V24_of m outs c main_v18 (by decide), V23_of m outs c main_v18 (by decide), V22_of m outs c main_v18 (by decide), V21_of m outs c main_v18 (by decide), V20_of m outs c main_v18 (by decide), V19_of m outs c main_v18 (by decide), V18_of m outs c main_v18 (by decide), V17_of m outs c main_v18 (by decide), V16_of m outs c main_v18 (by decide), V15_of m outs c main_v18 (by decide), V14_of m outs c main_v18 (by decide), V13_of m outs c main_v18 (by decide), V12_of m outs c main_v18 (by decide), V11_of m outs c main_v18 (by decide), V10_of m outs c main_v18 (by decide), V9_of m outs c main_v18 (by decide), V8_of m outs c main_v18 (by decide), V7_of m outs c main_v18 (by decide), V6_of m outs c main_v18 (by decide), V5_of m outs c main_v18 (by decide)]
  exact Function.update_self _ _ _
/-- Row 25000·1 + q of the result is row q of region 1's output array. -/
theorem result_1 (c : Dev nD) (q : Fin 25000) (e : Fin 2) :
    (V41 m outs c main_v112 : S500000x2.Idx → Elt F .f32) (ValueIdx.ix2 (genOf (1 : Fin 20) q) e)
      = (outs 4 main_v18 c : S25000x1x2.Idx → Elt F .f32) (ValueIdx.ix3 q 0 e) :=
  (v112_lo m outs c 1 q e (genOf (1 : Fin 20) q) rfl).trans (congrFun (piece_1 m outs c) _)

/-- What the last host stretch finds in region 2's output array: what region 2 left there. -/
theorem piece_2 (c : Dev nD) : (V40 m outs c main_v23 : S25000x1x2.Idx → Elt F .f32) = outs 6 main_v23 c := by
  rw [V40_of m outs c main_v23 (by decide), V39_of m outs c main_v23 (by decide), V38_of m outs c main_v23 (by decide), V37_of m outs c main_v23 (by decide), V36_of m outs c main_v23 (by decide), V35_of m outs c main_v23 (by decide), V34_of m outs c main_v23 (by decide), V33_of m outs c main_v23 (by decide), V32_of m outs c main_v23 (by decide), V31_of m outs c main_v23 (by decide), V30_of m outs c main_v23 (by decide), V29_of m outs c main_v23 (by decide), V28_of m outs c main_v23 (by decide), V27_of m outs c main_v23 (by decide), V26_of m outs c main_v23 (by decide), V25_of m outs c main_v23 (by decide), V24_of m outs c main_v23 (by decide), V23_of m outs c main_v23 (by decide), V22_of m outs c main_v23 (by decide), V21_of m outs c main_v23 (by decide), V20_of m outs c main_v23 (by decide), V19_of m outs c main_v23 (by decide), V18_of m outs c main_v23 (by decide), V17_of m outs c main_v23 (by decide), V16_of m outs c main_v23 (by decide), V15_of m outs c main_v23 (by decide), V14_of m outs c main_v23 (by decide), V13_of m outs c main_v23 (by decide), V12_of m outs c main_v23 (by decide), V11_of m outs c main_v23 (by decide), V10_of m outs c main_v23 (by decide), V9_of m outs c main_v23 (by decide), V8_of m outs c main_v23 (by decide), V7_of m outs c main_v23 (by decide)]
  exact Function.update_self _ _ _
/-- Row 25000·2 + q of the result is row q of region 2's output array. -/
theorem result_2 (c : Dev nD) (q : Fin 25000) (e : Fin 2) :
    (V41 m outs c main_v112 : S500000x2.Idx → Elt F .f32) (ValueIdx.ix2 (genOf (2 : Fin 20) q) e)
      = (outs 6 main_v23 c : S25000x1x2.Idx → Elt F .f32) (ValueIdx.ix3 q 0 e) :=
  (v112_lo m outs c 2 q e (genOf (2 : Fin 20) q) rfl).trans (congrFun (piece_2 m outs c) _)

/-- What the last host stretch finds in region 3's output array: what region 3 left there. -/
theorem piece_3 (c : Dev nD) : (V40 m outs c main_v28 : S25000x1x2.Idx → Elt F .f32) = outs 8 main_v28 c := by
  rw [V40_of m outs c main_v28 (by decide), V39_of m outs c main_v28 (by decide), V38_of m outs c main_v28 (by decide), V37_of m outs c main_v28 (by decide), V36_of m outs c main_v28 (by decide), V35_of m outs c main_v28 (by decide), V34_of m outs c main_v28 (by decide), V33_of m outs c main_v28 (by decide), V32_of m outs c main_v28 (by decide), V31_of m outs c main_v28 (by decide), V30_of m outs c main_v28 (by decide), V29_of m outs c main_v28 (by decide), V28_of m outs c main_v28 (by decide), V27_of m outs c main_v28 (by decide), V26_of m outs c main_v28 (by decide), V25_of m outs c main_v28 (by decide), V24_of m outs c main_v28 (by decide), V23_of m outs c main_v28 (by decide), V22_of m outs c main_v28 (by decide), V21_of m outs c main_v28 (by decide), V20_of m outs c main_v28 (by decide), V19_of m outs c main_v28 (by decide), V18_of m outs c main_v28 (by decide), V17_of m outs c main_v28 (by decide), V16_of m outs c main_v28 (by decide), V15_of m outs c main_v28 (by decide), V14_of m outs c main_v28 (by decide), V13_of m outs c main_v28 (by decide), V12_of m outs c main_v28 (by decide), V11_of m outs c main_v28 (by decide), V10_of m outs c main_v28 (by decide), V9_of m outs c main_v28 (by decide)]
  exact Function.update_self _ _ _
/-- Row 25000·3 + q of the result is row q of region 3's output array. -/
theorem result_3 (c : Dev nD) (q : Fin 25000) (e : Fin 2) :
    (V41 m outs c main_v112 : S500000x2.Idx → Elt F .f32) (ValueIdx.ix2 (genOf (3 : Fin 20) q) e)
      = (outs 8 main_v28 c : S25000x1x2.Idx → Elt F .f32) (ValueIdx.ix3 q 0 e) :=
  (v112_lo m outs c 3 q e (genOf (3 : Fin 20) q) rfl).trans (congrFun (piece_3 m outs c) _)

/-- What the last host stretch finds in region 4's output array: what region 4 left there. -/
theorem piece_4 (c : Dev nD) : (V40 m outs c main_v33 : S25000x1x2.Idx → Elt F .f32) = outs 10 main_v33 c := by
  rw [V40_of m outs c main_v33 (by decide), V39_of m outs c main_v33 (by decide), V38_of m outs c main_v33 (by decide), V37_of m outs c main_v33 (by decide), V36_of m outs c main_v33 (by decide), V35_of m outs c main_v33 (by decide), V34_of m outs c main_v33 (by decide), V33_of m outs c main_v33 (by decide), V32_of m outs c main_v33 (by decide), V31_of m outs c main_v33 (by decide), V30_of m outs c main_v33 (by decide), V29_of m outs c main_v33 (by decide), V28_of m outs c main_v33 (by decide), V27_of m outs c main_v33 (by decide), V26_of m outs c main_v33 (by decide), V25_of m outs c main_v33 (by decide), V24_of m outs c main_v33 (by decide), V23_of m outs c main_v33 (by decide), V22_of m outs c main_v33 (by decide), V21_of m outs c main_v33 (by decide), V20_of m outs c main_v33 (by decide), V19_of m outs c main_v33 (by decide), V18_of m outs c main_v33 (by decide), V17_of m outs c main_v33 (by decide), V16_of m outs c main_v33 (by decide), V15_of m outs c main_v33 (by decide), V14_of m outs c main_v33 (by decide), V13_of m outs c main_v33 (by decide), V12_of m outs c main_v33 (by decide), V11_of m outs c main_v33 (by decide)]
  exact Function.update_self _ _ _
/-- Row 25000·4 + q of the result is row q of region 4's output array. -/
theorem result_4 (c : Dev nD) (q : Fin 25000) (e : Fin 2) :
    (V41 m outs c main_v112 : S500000x2.Idx → Elt F .f32) (ValueIdx.ix2 (genOf (4 : Fin 20) q) e)
      = (outs 10 main_v33 c : S25000x1x2.Idx → Elt F .f32) (ValueIdx.ix3 q 0 e) :=
  (v112_lo m outs c 4 q e (genOf (4 : Fin 20) q) rfl).trans (congrFun (piece_4 m outs c) _)

/-- What the last host stretch finds in region 5's output array: what region 5 left there. -/
theorem piece_5 (c : Dev nD) : (V40 m outs c main_v38 : S25000x1x2.Idx → Elt F .f32) = outs 12 main_v38 c := by
  rw [V40_of m outs c main_v38 (by decide), V39_of m outs c main_v38 (by decide), V38_of m outs c main_v38 (by decide), V37_of m outs c main_v38 (by decide), V36_of m outs c main_v38 (by decide), V35_of m outs c main_v38 (by decide), V34_of m outs c main_v38 (by decide), V33_of m outs c main_v38 (by decide), V32_of m outs c main_v38 (by decide), V31_of m outs c main_v38 (by decide), V30_of m outs c main_v38 (by decide), V29_of m outs c main_v38 (by decide), V28_of m outs c main_v38 (by decide), V27_of m outs c main_v38 (by decide), V26_of m outs c main_v38 (by decide), V25_of m outs c main_v38 (by decide), V24_of m outs c main_v38 (by decide), V23_of m outs c main_v38 (by decide), V22_of m outs c main_v38 (by decide), V21_of m outs c main_v38 (by decide), V20_of m outs c main_v38 (by decide), V19_of m outs c main_v38 (by decide), V18_of m outs c main_v38 (by decide), V17_of m outs c main_v38 (by decide), V16_of m outs c main_v38 (by decide), V15_of m outs c main_v38 (by decide), V14_of m outs c main_v38 (by decide), V13_of m outs c main_v38 (by decide)]
  exact Function.update_self _ _ _
/-- Row 25000·5 + q of the result is row q of region 5's output array. -/
theorem result_5 (c : Dev nD) (q : Fin 25000) (e : Fin 2) :
    (V41 m outs c main_v112 : S500000x2.Idx → Elt F .f32) (ValueIdx.ix2 (genOf (5 : Fin 20) q) e)
      = (outs 12 main_v38 c : S25000x1x2.Idx → Elt F .f32) (ValueIdx.ix3 q 0 e) :=
  (v112_lo m outs c 5 q e (genOf (5 : Fin 20) q) rfl).trans (congrFun (piece_5 m outs c) _)

end Cert.KernelIdeal.Gen

end
-- ==== Proof.KI.ResultRegionsB.lean ====
/-
  Per region K (here K = 6 … 19): its output array is written by region K alone (every later host stretch writes the
  next region's four index tables, every later region its own output array), so the last host stretch finds there
  what region K left; and row 25000·K + q of the result is row q of that array.
-/
import proofs.«401090_j62775241999084_2_alg».proof.Proof.KI.Result

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (outs : Outs (F := F))

/-- What the last host stretch finds in region 6's output array: what region 6 left there. -/
theorem piece_6 (c : Dev nD) : (V40 m outs c main_v43 : S25000x1x2.Idx → Elt F .f32) = outs 14 main_v43 c := by
  rw [V40_of m outs c main_v43 (by decide), V39_of m outs c main_v43 (by decide), V38_of m outs c main_v43 (by decide), V37_of m outs c main_v43 (by decide), V36_of m outs c main_v43 (by decide), V35_of m outs c main_v43 (by decide), V34_of m outs c main_v43 (by decide), V33_of m outs c main_v43 (by decide), V32_of m outs c main_v43 (by decide), V31_of m outs c main_v43 (by decide), V30_of m outs c main_v43 (by decide), V29_of m outs c main_v43 (by decide), V28_of m outs c main_v43 (by decide), V27_of m outs c main_v43 (by decide), V26_of m outs c main_v43 (by decide), V25_of m outs c main_v43 (by decide), V24_of m outs c main_v43 (by decide), V23_of m outs c main_v43 (by decide), V22_of m outs c main_v43 (by decide), V21_of m outs c main_v43 (by decide), V20_of m outs c main_v43 (by decide), V19_of m outs c main_v43 (by decide), V18_of m outs c main_v43 (by decide), V17_of m outs c main_v43 (by decide), V16_of m outs c main_v43 (by decide), V15_of m outs c main_v43 (by decide)]
  exact Function.update_self _ _ _
/-- Row 25000·6 + q of the result is row q of region 6's output array. -/
theorem result_6 (c : Dev nD) (q : Fin 25000) (e : Fin 2) :
    (V41 m outs c main_v112 : S500000x2.Idx → Elt F .f32) (ValueIdx.ix2 (genOf (6 : Fin 20) q) e)
      = (outs 14 main_v43 c : S25000x1x2.Idx → Elt F .f32) (ValueIdx.ix3 q 0 e) :=
  (v112_lo m outs c 6 q e (genOf (6 : Fin 20) q) rfl).trans (congrFun (piece_6 m outs c) _)

/-- What the last host stretch finds in region 7's output array: what region 7 left there. -/
theorem piece_7 (c : Dev nD) : (V40 m outs c main_v48 : S25000x1x2.Idx → Elt F .f32) = outs 16 main_v48 c := by
  rw [V40_of m outs c main_v48 (by decide), V39_of m outs c main_v48 (by decide), V38_of m outs c main_v48 (by decide), V37_of m outs c main_v48 (by decide), V36_of m outs c main_v48 (by decide), V35_of m outs c main_v48 (by decide), V34_of m outs c main_v48 (by decide), V33_of m outs c main_v48 (by decide), V32_of m outs c main_v48 (by decide), V31_of m outs c main_v48 (by decide), V30_of m outs c main_v48 (by decide), V29_of m outs c main_v48 (by decide), V28_of m outs c main_v48 (by decide), V27_of m outs c main_v48 (by decide), V26_of m outs c main_v48 (by decide), V25_of m outs c main_v48 (by decide), V24_of m outs c main_v48 (by decide), V23_of m outs c main_v48 (by decide), V22_of m outs c main_v48 (by decide), V21_of m outs c main_v48 (by decide), V20_of m outs c main_v48 (by decide), V19_of m outs c main_v48 (by decide), V18_of m outs c main_v48 (by decide), V17_of m outs c main_v48 (by decide)]
  exact Function.update_self _ _ _
/-- Row 25000·7 + q of the result is row q of region 7's output array. -/
theorem result_7 (c : Dev nD) (q : Fin 25000) (e : Fin 2) :
    (V41 m outs c main_v112 : S500000x2.Idx → Elt F .f32) (ValueIdx.ix2 (genOf (7 : Fin 20) q) e)
      = (outs 16 main_v48 c : S25000x1x2.Idx → Elt F .f32) (ValueIdx.ix3 q 0 e) :=
  (v112_lo m outs c 7 q e (genOf (7 : Fin 20) q) rfl).trans (congrFun (piece_7 m outs c) _)

/-- What the last host stretch finds in region 8's output array: what region 8 left there. -/
theorem piece_8 (c : Dev nD) : (V40 m outs c main_v53 : S25000x1x2.Idx → Elt F .f32) = outs 18 main_v53 c := by
  rw [V40_of m outs c main_v53 (by decide), V39_of m outs c main_v53 (by decide), V38_of m outs c main_v53 (by decide), V37_of m outs c main_v53 (by decide), V36_of m outs c main_v53 (by decide), V35_of m outs c main_v53 (by decide), V34_of m outs c main_v53 (by decide), V33_of m outs c main_v53 (by decide), V32_of m outs c main_v53 (by decide), V31_of m outs c main_v53 (by decide), V30_of m outs c main_v53 (by decide), V29_of m outs c main_v53 (by decide), V28_of m outs c main_v53 (by decide), V27_of m outs c main_v53 (by decide), V26_of m outs c main_v53 (by decide), V25_of m outs c main_v53 (by decide), V24_of m outs c main_v53 (by decide), V23_of m outs c main_v53 (by decide), V22_of m outs c main_v53 (by decide), V21_of m outs c main_v53 (by decide), V20_of m outs c main_v53 (by decide), V19_of m outs c main_v53 (by decide)]
  exact Function.update_self _ _ _
/-- Row 25000·8 + q of the result is row q of region 8's output array. -/
theorem result_8 (c : Dev nD) (q : Fin 25000) (e : Fin 2) :
    (V41 m outs c main_v112 : S500000x2.Idx → Elt F .f32) (ValueIdx.ix2 (genOf (8 : Fin 20) q) e)
      = (outs 18 main_v53 c : S25000x1x2.Idx → Elt F .f32) (ValueIdx.ix3 q 0 e) :=
  (v112_lo m outs c 8 q e (genOf (8 : Fin 20) q) rfl).trans (congrFun (piece_8 m outs c) _)

/-- What the last host stretch finds in region 9's output array: what region 9 left there. -/
theorem piece_9 (c : Dev nD) : (V40 m outs c main_v58 : S25000x1x2.Idx → Elt F .f32) = outs 20 main_v58 c := by
  rw [V40_of m outs c main_v58 (by decide), V39_of m outs c main_v58 (by decide), V38_of m outs c main_v58 (by decide), V37_of m outs c main_v58 (by decide), V36_of m outs c main_v58 (by decide), V35_of m outs c main_v58 (by decide), V34_of m outs c main_v58 (by decide), V33_of m outs c main_v58 (by decide), V32_of m outs c main_v58 (by decide), V31_of m outs c main_v58 (by decide), V30_of m outs c main_v58 (by decide), V29_of m outs c main_v58 (by decide), V28_of m outs c main_v58 (by decide), V27_of m outs c main_v58 (by decide), V26_of m outs c main_v58 (by decide), V25_of m outs c main_v58 (by decide), V24_of m outs c main_v58 (by decide), V23_of m outs c main_v58 (by decide), V22_of m outs c main_v58 (by decide), V21_of m outs c main_v58 (by decide)]
  exact Function.update_self _ _ _
/-- Row 25000·9 + q of the result is row q of region 9's output array. -/
theorem result_9 (c : Dev nD) (q : Fin 25000) (e : Fin 2) :
    (V41 m outs c main_v112 : S500000x2.Idx → Elt F .f32) (ValueIdx.ix2 (genOf (9 : Fin 20) q) e)
      = (outs 20 main_v58 c : S25000x1x2.Idx → Elt F .f32) (ValueIdx.ix3 q 0 e) :=
  (v112_lo m outs c 9 q e (genOf (9 : Fin 20) q) rfl).trans (congrFun (piece_9 m outs c) _)

/-- What the last host stretch finds in region 10's output array: what region 10 left there. -/
theorem piece_10 (c : Dev nD) : (V40 m outs c main_v63 : S25000x1x2.Idx → Elt F .f32) = outs 22 main_v63 c := by
  rw [V40_of m outs c main_v63 (by decide), V39_of m outs c main_v63 (by decide), V38_of m outs c main_v63 (by decide), V37_of m outs c main_v63 (by decide), V36_of m outs c main_v63 (by decide), V35_of m outs c main_v63 (by decide), V34_of m outs c main_v63 (by decide), V33_of m outs c main_v63 (by decide), V32_of m outs c main_v63 (by decide), V31_of m outs c main_v63 (by decide), V30_of m outs c main_v63 (by decide), V29_of m outs c main_v63 (by decide), V28_of m outs c main_v63 (by decide), V27_of m outs c main_v63 (by decide), V26_of m outs c main_v63 (by decide), V25_of m outs c main_v63 (by decide), V24_of m outs c main_v63 (by decide), V23_of m outs c main_v63 (by decide)]
  exact Function.update_self _ _ _
/-- Row 25000·10 + q of the result is row q of region 10's output array. -/
theorem result_10 (c : Dev nD) (q : Fin 25000) (e : Fin 2) :
    (V41 m outs c main_v112 : S500000x2.Idx → Elt F .f32) (ValueIdx.ix2 (genOf (10 : Fin 20) q) e)
      = (outs 22 main_v63 c : S25000x1x2.Idx → Elt F .f32) (ValueIdx.ix3 q 0 e) :=
  (v112_lo m outs c 10 q e (genOf (10 : Fin 20) q) rfl).trans (congrFun (piece_10 m outs c) _)

/-- What the last host stretch finds in region 11's output array: what region 11 left there. -/
theorem piece_11 (c : Dev nD) : (V40 m outs c main_v68 : S25000x1x2.Idx → Elt F .f32) = outs 24 main_v68 c := by
  rw [V40_of m outs c main_v68 (by decide), V39_of m outs c main_v68 (by decide), V38_of m outs c main_v68 (by decide), V37_of m outs c main_v68 (by decide), V36_of m outs c main_v68 (by decide), V35_of m outs c main_v68 (by decide), V34_of m outs c main_v68 (by decide), V33_of m outs c main_v68 (by decide), V32_of m outs c main_v68 (by decide), V31_of m outs c main_v68 (by decide), V30_of m outs c main_v68 (by decide), V29_of m outs c main_v68 (by decide), V28_of m outs c main_v68 (by decide), V27_of m outs c main_v68 (by decide), V26_of m outs c main_v68 (by decide), V25_of m outs c main_v68 (by decide)]
  exact Function.update_self _ _ _
/-- Row 25000·11 + q of the result is row q of region 11's output array. -/
theorem result_11 (c : Dev nD) (q : Fin 25000) (e : Fin 2) :
    (V41 m outs c main_v112 : S500000x2.Idx → Elt F .f32) (ValueIdx.ix2 (genOf (11 : Fin 20) q) e)
      = (outs 24 main_v68 c : S25000x1x2.Idx → Elt F .f32) (ValueIdx.ix3 q 0 e) :=
  (v112_lo m outs c 11 q e (genOf (11 : Fin 20) q) rfl).trans (congrFun (piece_11 m outs c) _)

/-- What the last host stretch finds in region 12's output array: what region 12 left there. -/
theorem piece_12 (c : Dev nD) : (V40 m outs c main_v73 : S25000x1x2.Idx → Elt F .f32) = outs 26 main_v73 c := by
  rw [V40_of m outs c main_v73 (by decide), V39_of m outs c main_v73 (by decide), V38_of m outs c main_v73 (by decide), V37_of m outs c main_v73 (by decide), V36_of m outs c main_v73 (by decide), V35_of m outs c main_v73 (by decide), V34_of m outs c main_v73 (by decide), V33_of m outs c main_v73 (by decide), V32_of m outs c main_v73 (by decide), V31_of m outs c main_v73 (by decide), V30_of m outs c main_v73 (by decide), V29_of m outs c main_v73 (by decide), V28_of m outs c main_v73 (by decide), V27_of m outs c main_v73 (by decide)]
  exact Function.update_self _ _ _
/-- Row 25000·12 + q of the result is row q of region 12's output array. -/
theorem result_12 (c : Dev nD) (q : Fin 25000) (e : Fin 2) :
    (V41 m outs c main_v112 : S500000x2.Idx → Elt F .f32) (ValueIdx.ix2 (genOf (12 : Fin 20) q) e)
      = (outs 26 main_v73 c : S25000x1x2.Idx → Elt F .f32) (ValueIdx.ix3 q 0 e) :=
  (v112_lo m outs c 12 q e (genOf (12 : Fin 20) q) rfl).trans (congrFun (piece_12 m outs c) _)

/-- What the last host stretch finds in region 13's output array: what region 13 left there. -/
theorem piece_13 (c : Dev nD) : (V40 m outs c main_v78 : S25000x1x2.Idx → Elt F .f32) = outs 28 main_v78 c := by
  rw [V40_of m outs c main_v78 (by decide), V39_of m outs c main_v78 (by decide), V38_of m outs c main_v78 (by decide), V37_of m outs c main_v78 (by decide), V36_of m outs c main_v78 (by decide), V35_of m outs c main_v78 (by decide), V34_of m outs c main_v78 (by decide), V33_of m outs c main_v78 (by decide), V32_of m outs c main_v78 (by decide), V31_of m outs c main_v78 (by decide), V30_of m outs c main_v78 (by decide), V29_of m outs c main_v78 (by decide)]
  exact Function.update_self _ _ _
/-- Row 25000·13 + q of the result is row q of region 13's output array. -/
theorem result_13 (c : Dev nD) (q : Fin 25000) (e : Fin 2) :
    (V41 m outs c main_v112 : S500000x2.Idx → Elt F .f32) (ValueIdx.ix2 (genOf (13 : Fin 20) q) e)
      = (outs 28 main_v78 c : S25000x1x2.Idx → Elt F .f32) (ValueIdx.ix3 q 0 e) :=
  (v112_lo m outs c 13 q e (genOf (13 : Fin 20) q) rfl).trans (congrFun (piece_13 m outs c) _)

/-- What the last host stretch finds in region 14's output array: what region 14 left there. -/
theorem piece_14 (c : Dev nD) : (V40 m outs c main_v83 : S25000x1x2.Idx → Elt F .f32) = outs 30 main_v83 c := by
  rw [V40_of m outs c main_v83 (by decide), V39_of m outs c main_v83 (by decide), V38_of m outs c main_v83 (by decide), V37_of m outs c main_v83 (by decide), V36_of m outs c main_v83 (by decide), V35_of m outs c main_v83 (by decide), V34_of m outs c main_v83 (by decide), V33_of m outs c main_v83 (by decide), V32_of m outs c main_v83 (by decide), V31_of m outs c main_v83 (by decide)]
  exact Function.update_self _ _ _
/-- Row 25000·14 + q of the result is row q of region 14's output array. -/
theorem result_14 (c : Dev nD) (q : Fin 25000) (e : Fin 2) :
    (V41 m outs c main_v112 : S500000x2.Idx → Elt F .f32) (ValueIdx.ix2 (genOf (14 : Fin 20) q) e)
      = (outs 30 main_v83 c : S25000x1x2.Idx → Elt F .f32) (ValueIdx.ix3 q 0 e) :=
  (v112_lo m outs c 14 q e (genOf (14 : Fin 20) q) rfl).trans (congrFun (piece_14 m outs c) _)

/-- What the last host stretch finds in region 15's output array: what region 15 left there. -/
theorem piece_15 (c : Dev nD) : (V40 m outs c main_v88 : S25000x1x2.Idx → Elt F .f32) = outs 32 main_v88 c := by
  rw [V40_of m outs c main_v88 (by decide), V39_of m outs c main_v88 (by decide), V38_of m outs c main_v88 (by decide), V37_of m outs c main_v88 (by decide), V36_of m outs c main_v88 (by decide), V35_of m outs c main_v88 (by decide), V34_of m outs c main_v88 (by decide), V33_of m outs c main_v88 (by decide)]
  exact Function.update_self _ _ _
/-- Row 25000·15 + q of the result is row q of region 15's output array. -/
theorem result_15 (c : Dev nD) (q : Fin 25000) (e : Fin 2) :
    (V41 m outs c main_v112 : S500000x2.Idx → Elt F .f32) (ValueIdx.ix2 (genOf (15 : Fin 20) q) e)
      = (outs 32 main_v88 c : S25000x1x2.Idx → Elt F .f32) (ValueIdx.ix3 q 0 e) :=
  (v112_lo m outs c 15 q e (genOf (15 : Fin 20) q) rfl).trans (congrFun (piece_15 m outs c) _)

/-- What the last host stretch finds in region 16's output array: what region 16 left there. -/
theorem piece_16 (c : Dev nD) : (V40 m outs c main_v93 : S25000x1x2.Idx → Elt F .f32) = outs 34 main_v93 c := by
  rw [V40_of m outs c main_v93 (by decide), V39_of m outs c main_v93 (by decide), V38_of m outs c main_v93 (by decide), V37_of m outs c main_v93 (by decide), V36_of m outs c main_v93 (by decide), V35_of m outs c main_v93 (by decide)]
  exact Function.update_self _ _ _
/-- Row 25000·16 + q of the result is row q of region 16's output array. -/
theorem result_16 (c : Dev nD) (q : Fin 25000) (e : Fin 2) :
    (V41 m outs c main_v112 : S500000x2.Idx → Elt F .f32) (ValueIdx.ix2 (genOf (16 : Fin 20) q) e)
      = (outs 34 main_v93 c : S25000x1x2.Idx → Elt F .f32) (ValueIdx.ix3 q 0 e) :=
  (v112_hi m outs c 0 q e (genOf (16 : Fin 20) q) rfl).trans (congrFun (piece_16 m outs c) _)

/-- What the last host stretch finds in region 17's output array: what region 17 left there. -/
theorem piece_17 (c : Dev nD) : (V40 m outs c main_v98 : S25000x1x2.Idx → Elt F .f32) = outs 36 main_v98 c := by
  rw [V40_of m outs c main_v98 (by decide), V39_of m outs c main_v98 (by decide), V38_of m outs c main_v98 (by decide), V37_of m outs c main_v98 (by decide)]
  exact Function.update_self _ _ _
/-- Row 25000·17 + q of the result is row q of region 17's output array. -/
theorem result_17 (c : Dev nD) (q : Fin 25000) (e : Fin 2) :
    (V41 m outs c main_v112 : S500000x2.Idx → Elt F .f32) (ValueIdx.ix2 (genOf (17 : Fin 20) q) e)
      = (outs 36 main_v98 c : S25000x1x2.Idx → Elt F .f32) (ValueIdx.ix3 q 0 e) :=
  (v112_hi m outs c 1 q e (genOf (17 : Fin 20) q) rfl).trans (congrFun (piece_17 m outs c) _)

/-- What the last host stretch finds in region 18's output array: what region 18 left there. -/
theorem piece_18 (c : Dev nD) : (V40 m outs c main_v103 : S25000x1x2.Idx → Elt F .f32) = outs 38 main_v103 c := by
  rw [V40_of m outs c main_v103 (by decide), V39_of m outs c main_v103 (by decide)]
  exact Function.update_self _ _ _
/-- Row 25000·18 + q of the result is row q of region 18's output array. -/
theorem result_18 (c : Dev nD) (q : Fin 25000) (e : Fin 2) :
    (V41 m outs c main_v112 : S500000x2.Idx → Elt F .f32) (ValueIdx.ix2 (genOf (18 : Fin 20) q) e)
      = (outs 38 main_v103 c : S25000x1x2.Idx → Elt F .f32) (ValueIdx.ix3 q 0 e) :=
  (v112_hi m outs c 2 q e (genOf (18 : Fin 20) q) rfl).trans (congrFun (piece_18 m outs c) _)

/-- What the last host stretch finds in region 19's output array: what region 19 left there. -/
theorem piece_19 (c : Dev nD) : (V40 m outs c main_v108 : S25000x1x2.Idx → Elt F .f32) = outs 40 main_v108 c := by
  exact Function.update_self _ _ _
/-- Row 25000·19 + q of the result is row q of region 19's output array. -/
theorem result_19 (c : Dev nD) (q : Fin 25000) (e : Fin 2) :
    (V41 m outs c main_v112 : S500000x2.Idx → Elt F .f32) (ValueIdx.ix2 (genOf (19 : Fin 20) q) e)
      = (outs 40 main_v108 c : S25000x1x2.Idx → Elt F .f32) (ValueIdx.ix3 q 0 e) :=
  (v112_hi m outs c 3 q e (genOf (19 : Fin 20) q) rfl).trans (congrFun (piece_19 m outs c) _)

end Cert.KernelIdeal.Gen

end
-- ==== Proof.KI.Value0.lean ====
/-
  The value region 0 of the gather-and-norm program leaves in its result array, over the extended reals.

  Region 0 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows0`), which each written-back
  block is a block of; and last, with the tables the four columns of the vertex words and every word in range, the
  row a word names is the vertex that word is, so the entry is the edge length of the specification.
-/
import proofs.«401090_j62775241999084_2_alg».proof.Proof.KI.Region0
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane0 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth0 (u v : Vec Ideal S1x1x64 .f32) (y : S1x1x1.Idx) :
    k0_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k0_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane0 k]
  rfl

/-- The death edge's payload: the same function of its two rows. -/
theorem payDeath0 (u v : Vec Ideal S1x1x64 .f32) (y : S1x1x1.Idx) :
    k0_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k0_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane0 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg0 (F := F)).Adm)

/-! ## The output block at its two positions -/

theorem hzThree0 : (![0, 0, 0] : Fin 3 → Nat) = fun _ => 0 := funext fun ax => by fin_cases ax <;> rfl

/-- Position 0 of the output block lies under the birth edge's store … -/
theorem embBirth0 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath0 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath0 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth0 (x0 x1 x2 x3 : Vec F S1x1x64 .f32) :
    outBlk0 x0 x1 x2 x3 (ValueIdx.ix3 (0 : Fin 1) (0 : Fin 1) (0 : Fin 2))
      = k0_pay1 x0 x1 (ValueIdx.ix3 (0 : Fin 1) (0 : Fin 1) (0 : Fin 1)) := by
  unfold outBlk0
  refine (View.canon_cons_of_not_mem
    (⟨outRectD, k0_pay2 (View.ld x2 rowRect) (View.ld x3 rowRect)⟩ : View.Piece (Elt F) S1x1x2 .f32)
    ([⟨outRectB, k0_pay1 (View.ld x0 rowRect) (View.ld x1 rowRect)⟩] : List (View.Piece (Elt F) S1x1x2 .f32)) notMemDeath0).trans ?_
  rw [← embBirth0]
  refine (View.canon_cons_emb (Val := Elt F) (e := .f32) outRectB (k0_pay1 (View.ld x0 rowRect) (View.ld x1 rowRect)) [] _).trans ?_
  rw [View.ld_unit_zero (S := S1x1x64) hzThree0, View.ld_unit_zero (S := S1x1x64) hzThree0]

/-- Position 1 holds the death edge's payload of the last two rows. -/
theorem outBlkDeath0 (x0 x1 x2 x3 : Vec F S1x1x64 .f32) :
    outBlk0 x0 x1 x2 x3 (ValueIdx.ix3 (0 : Fin 1) (0 : Fin 1) (1 : Fin 2))
      = k0_pay2 x2 x3 (ValueIdx.ix3 (0 : Fin 1) (0 : Fin 1) (0 : Fin 1)) := by
  unfold outBlk0
  rw [← embDeath0]
  refine (View.canon_cons_emb (Val := Elt F) (e := .f32) outRectD (k0_pay2 (View.ld x2 rowRect) (View.ld x3 rowRect))
    ([⟨outRectB, k0_pay1 (View.ld x0 rowRect) (View.ld x1 rowRect)⟩] : List (View.Piece (Elt F) S1x1x2 .f32)) _).trans ?_
  rw [View.ld_unit_zero (S := S1x1x64) hzThree0, View.ld_unit_zero (S := S1x1x64) hzThree0]

/-! ## The grid and the index maps, at any admissible contents of the index tables -/

/-- Region 0 has 25000 grid points, one per generator it handles. -/
theorem gridN0 : (cfg0 a).N = 25000 := N_0

/-- A point's one coordinate is the point's number. -/
theorem coords0 (t : Fin (cfg0 a).N) : (((cfg0 a).grid.coords t) 0).val = t.val := by
  have hN := gridN0 a
  have ht := t.isLt
  show t.val / 1 % 25000 = t.val
  omega

/-- The output window's block at point `t` is row `t` of the result: block index `(t, 0, 0)`. -/
theorem outIdxRow0 (t : Fin (cfg0 a).N) : ((cfg0 a).win 4).index t (0 : Fin 3) = t.val := by
  have hN := gridN0 a
  have ht := t.isLt
  show (BitVec.ofNat 32 (((cfg0 a).grid.coords t) 0).val).toNat = t.val
  rw [coords0 a t, BitVec.toNat_ofNat]
  omega
theorem outIdxMid0 (t : Fin (cfg0 a).N) : ((cfg0 a).win 4).index t (1 : Fin 3) = 0 := rfl
theorem outIdxLane0 (t : Fin (cfg0 a).N) : ((cfg0 a).win 4).index t (2 : Fin 3) = 0 := rfl

/-- The slot of an index table that point `t` reads: its own number. -/
abbrev slot0 (t : Fin (cfg0 a).N) : Fin 25000 := ⟨t.val, (gridN0 a) ▸ t.isLt⟩

/-- The grid point that writes row `q` of the result: point `q`. -/
abbrev pt0 (q : Fin 25000) : Fin (cfg0 a).N := ⟨q.val, (gridN0 a).symm ▸ q.isLt⟩

/-- Input window 0's block at point `t` is the table row that word `t` of index table 0 names: block index `(word, 0, 0)`. -/
theorem inIdxRowA0 (t : Fin (cfg0 a).N) (T : S25000.Idx → BitVec 32) (hT : a.1 0 = T) :
    ((cfg0 a).win 0).index t (0 : Fin 3) = (T (ValueIdx.ix1 (slot0 a t))).toNat := by
  subst hT
  show (a.1 0 _).toNat = (a.1 0 _).toNat
  refine congrArg BitVec.toNat (congrArg (a.1 0) ?_)
  funext d; apply Fin.ext
  match d with
  | ⟨0, _⟩ =>
    have hN := gridN0 a
    have ht := t.isLt
    show (BitVec.ofNat 32 (((cfg0 a).grid.coords t) 0).val).toNat + 1 * 0 = t.val
    rw [coords0 a t, BitVec.toNat_ofNat]
    omega
theorem inIdxMidA0 (t : Fin (cfg0 a).N) : ((cfg0 a).win 0).index t (1 : Fin 3) = 0 := rfl
theorem inIdxLaneA0 (t : Fin (cfg0 a).N) : ((cfg0 a).win 0).index t (2 : Fin 3) = 0 := rfl

/-- Input window 1's block at point `t` is the table row that word `t` of index table 1 names: block index `(word, 0, 0)`. -/
theorem inIdxRowB0 (t : Fin (cfg0 a).N) (T : S25000.Idx → BitVec 32) (hT : a.1 1 = T) :
    ((cfg0 a).win 1).index t (0 : Fin 3) = (T (ValueIdx.ix1 (slot0 a t))).toNat := by
  subst hT
  show (a.1 1 _).toNat = (a.1 1 _).toNat
  refine congrArg BitVec.toNat (congrArg (a.1 1) ?_)
  funext d; apply Fin.ext
  match d with
  | ⟨0, _⟩ =>
    have hN := gridN0 a
    have ht := t.isLt
    show (BitVec.ofNat 32 (((cfg0 a).grid.coords t) 0).val).toNat + 1 * 0 = t.val
    rw [coords0 a t, BitVec.toNat_ofNat]
    omega
theorem inIdxMidB0 (t : Fin (cfg0 a).N) : ((cfg0 a).win 1).index t (1 : Fin 3) = 0 := rfl
theorem inIdxLaneB0 (t : Fin (cfg0 a).N) : ((cfg0 a).win 1).index t (2 : Fin 3) = 0 := rfl

/-- Input window 2's block at point `t` is the table row that word `t` of index table 2 names: block index `(word, 0, 0)`. -/
theorem inIdxRowC0 (t : Fin (cfg0 a).N) (T : S25000.Idx → BitVec 32) (hT : a.1 2 = T) :
    ((cfg0 a).win 2).index t (0 : Fin 3) = (T (ValueIdx.ix1 (slot0 a t))).toNat := by
  subst hT
  show (a.1 2 _).toNat = (a.1 2 _).toNat
  refine congrArg BitVec.toNat (congrArg (a.1 2) ?_)
  funext d; apply Fin.ext
  match d with
  | ⟨0, _⟩ =>
    have hN := gridN0 a
    have ht := t.isLt
    show (BitVec.ofNat 32 (((cfg0 a).grid.coords t) 0).val).toNat + 1 * 0 = t.val
    rw [coords0 a t, BitVec.toNat_ofNat]
    omega
theorem inIdxMidC0 (t : Fin (cfg0 a).N) : ((cfg0 a).win 2).index t (1 : Fin 3) = 0 := rfl
theorem inIdxLaneC0 (t : Fin (cfg0 a).N) : ((cfg0 a).win 2).index t (2 : Fin 3) = 0 := rfl

/-- Input window 3's block at point `t` is the table row that word `t` of index table 3 names: block index `(word, 0, 0)`. -/
theorem inIdxRowD0 (t : Fin (cfg0 a).N) (T : S25000.Idx → BitVec 32) (hT : a.1 3 = T) :
    ((cfg0 a).win 3).index t (0 : Fin 3) = (T (ValueIdx.ix1 (slot0 a t))).toNat := by
  subst hT
  show (a.1 3 _).toNat = (a.1 3 _).toNat
  refine congrArg BitVec.toNat (congrArg (a.1 3) ?_)
  funext d; apply Fin.ext
  match d with
  | ⟨0, _⟩ =>
    have hN := gridN0 a
    have ht := t.isLt
    show (BitVec.ofNat 32 (((cfg0 a).grid.coords t) 0).val).toNat + 1 * 0 = t.val
    rw [coords0 a t, BitVec.toNat_ofNat]
    omega
theorem inIdxMidD0 (t : Fin (cfg0 a).N) : ((cfg0 a).win 3).index t (1 : Fin 3) = 0 := rfl
theorem inIdxLaneD0 (t : Fin (cfg0 a).N) : ((cfg0 a).win 3).index t (2 : Fin 3) = 0 := rfl

/-! ## The input blocks: rows of the point table -/

/-- Input window 0's block at point `t` is row `r` of the point table, `r` the row its index word names there. -/
theorem rowBlkA0 (c : Dev nD) (t : Fin (cfg0 a).N) (T : S25000.Idx → BitVec 32) (hT : a.1 0 = T)
    (r : Fin 100000) (hr : r.val = (T (ValueIdx.ix1 (slot0 a t))).toNat) (k : Fin 64) :
    (iblk0 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk0
  show (V c main_v8 : S100000x1x64.Idx → Elt F .f32) ((((cfg0 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg0 a).win 0).index t (0 : Fin 3) * 1 + 1 * 0 = r.val
    rw [inIdxRowA0 a t T hT, hr]
    generalize (T (ValueIdx.ix1 (slot0 a t))).toNat = n
    omega
  | ⟨1, _⟩ =>
    show ((cfg0 a).win 0).index t (1 : Fin 3) * 1 + 1 * 0 = 0
    rw [inIdxMidA0 a t]
  | ⟨2, _⟩ =>
    show ((cfg0 a).win 0).index t (2 : Fin 3) * 64 + 1 * k.val = k.val
    rw [inIdxLaneA0 a t]
    omega

/-- Input window 1's block at point `t` is row `r` of the point table, `r` the row its index word names there. -/
theorem rowBlkB0 (c : Dev nD) (t : Fin (cfg0 a).N) (T : S25000.Idx → BitVec 32) (hT : a.1 1 = T)
    (r : Fin 100000) (hr : r.val = (T (ValueIdx.ix1 (slot0 a t))).toNat) (k : Fin 64) :
    (iblk0 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk0
  show (V c main_v8 : S100000x1x64.Idx → Elt F .f32) ((((cfg0 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg0 a).win 1).index t (0 : Fin 3) * 1 + 1 * 0 = r.val
    rw [inIdxRowB0 a t T hT, hr]
    generalize (T (ValueIdx.ix1 (slot0 a t))).toNat = n
    omega
  | ⟨1, _⟩ =>
    show ((cfg0 a).win 1).index t (1 : Fin 3) * 1 + 1 * 0 = 0
    rw [inIdxMidB0 a t]
  | ⟨2, _⟩ =>
    show ((cfg0 a).win 1).index t (2 : Fin 3) * 64 + 1 * k.val = k.val
    rw [inIdxLaneB0 a t]
    omega

/-- Input window 2's block at point `t` is row `r` of the point table, `r` the row its index word names there. -/
theorem rowBlkC0 (c : Dev nD) (t : Fin (cfg0 a).N) (T : S25000.Idx → BitVec 32) (hT : a.1 2 = T)
    (r : Fin 100000) (hr : r.val = (T (ValueIdx.ix1 (slot0 a t))).toNat) (k : Fin 64) :
    (iblk0 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk0
  show (V c main_v8 : S100000x1x64.Idx → Elt F .f32) ((((cfg0 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg0 a).win 2).index t (0 : Fin 3) * 1 + 1 * 0 = r.val
    rw [inIdxRowC0 a t T hT, hr]
    generalize (T (ValueIdx.ix1 (slot0 a t))).toNat = n
    omega
  | ⟨1, _⟩ =>
    show ((cfg0 a).win 2).index t (1 : Fin 3) * 1 + 1 * 0 = 0
    rw [inIdxMidC0 a t]
  | ⟨2, _⟩ =>
    show ((cfg0 a).win 2).index t (2 : Fin 3) * 64 + 1 * k.val = k.val
    rw [inIdxLaneC0 a t]
    omega

/-- Input window 3's block at point `t` is row `r` of the point table, `r` the row its index word names there. -/
theorem rowBlkD0 (c : Dev nD) (t : Fin (cfg0 a).N) (T : S25000.Idx → BitVec 32) (hT : a.1 3 = T)
    (r : Fin 100000) (hr : r.val = (T (ValueIdx.ix1 (slot0 a t))).toNat) (k : Fin 64) :
    (iblk0 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk0
  show (V c main_v8 : S100000x1x64.Idx → Elt F .f32) ((((cfg0 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg0 a).win 3).index t (0 : Fin 3) * 1 + 1 * 0 = r.val
    rw [inIdxRowD0 a t T hT, hr]
    generalize (T (ValueIdx.ix1 (slot0 a t))).toNat = n
    omega
  | ⟨1, _⟩ =>
    show ((cfg0 a).win 3).index t (1 : Fin 3) * 1 + 1 * 0 = 0
    rw [inIdxMidD0 a t]
  | ⟨2, _⟩ =>
    show ((cfg0 a).win 3).index t (2 : Fin 3) * 64 + 1 * k.val = k.val
    rw [inIdxLaneD0 a t]
    omega

/-! ## The output window: every point writes its own row back -/

/-- Every point writes its output block back: the next point's block is another row. -/
theorem outFlush0 (t : Fin (cfg0 a).N) : ((cfg0 a).win 4).flush t = true := by
  unfold Window.flush
  have hout : ((cfg0 a).win 4).isOut = true := rfl
  rw [hout, Bool.true_and, Bool.or_eq_true, decide_eq_true_eq, decide_eq_true_eq]
  by_cases h : t.val + 1 = (cfg0 a).grid.N
  · exact Or.inl h
  · have hN : (cfg0 a).grid.N = 25000 := N_0
    have hN' := gridN0 a
    refine Or.inr ⟨by have := t.isLt; omega, fun e => ?_⟩
    have e0 := congrFun e (0 : Fin 3)
    rw [outIdxRow0, outIdxRow0] at e0
    exact absurd e0 (by simp)

set_option backward.isDefEq.respectTransparency.types false in
/-- An index of the result array is in point `t`'s block iff each coordinate is in the block's range on its axis. -/
theorem memOutBlk0 (t : Fin (cfg0 a).N) (i : S25000x1x2.Idx) :
    i ∈ (((cfg0 a).win 4).blk t).view.set ↔ ∀ ax : Fin 3, ((cfg0 a).win 4).index t ax * S1x1x2.size ax ≤ (i ax).val
      ∧ (i ax).val < ((cfg0 a).win 4).index t ax * S1x1x2.size ax + S1x1x2.size ax := by
  show i ∈ ((View.whole main_v13).slice (((cfg0 a).win 4).rect t)).set ↔ _
  rw [View.set_slice_whole]
  exact Rect.mem_set_unit

/-- What region 0 leaves in its result array, row by row: row `q` is the output block of the four table rows that
    the index words of point `q` name, position `e` of the block being edge `e`. -/
def rows0 (c : Dev nD) : S25000x1x2.Idx → Elt F .f32 := fun i =>
  outBlk0 (iblk0 V a c 0 (pt0 a ⟨(i 0).val, (i 0).isLt⟩)) (iblk0 V a c 1 (pt0 a ⟨(i 0).val, (i 0).isLt⟩))
    (iblk0 V a c 2 (pt0 a ⟨(i 0).val, (i 0).isLt⟩)) (iblk0 V a c 3 (pt0 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply0 (c : Dev nD) (t : Fin (cfg0 a).N) (e : Fin 2) (i : S25000x1x2.Idx)
    (h0 : (i 0).val = t.val) (h2 : (i 2).val = e.val) :
    rows0 V a c i
      = outBlk0 (iblk0 V a c 0 t) (iblk0 V a c 1 t) (iblk0 V a c 2 t) (iblk0 V a c 3 t) (ValueIdx.ix3 (0 : Fin 1) (0 : Fin 1) e) := by
  obtain rfl : t = pt0 a ⟨(i 0).val, (i 0).isLt⟩ := Fin.ext h0.symm
  obtain rfl : e = ⟨(i 2).val, (i 2).isLt⟩ := Fin.ext h2.symm
  rfl

/-- The same with the position given as an index of the block. -/
theorem rowsAt0 (c : Dev nD) (t : Fin (cfg0 a).N) (j : S1x1x2.Idx) (i : S25000x1x2.Idx)
    (h0 : (i 0).val = t.val) (h2 : (i 2).val = (j 2).val) :
    rows0 V a c i = outBlk0 (iblk0 V a c 0 t) (iblk0 V a c 1 t) (iblk0 V a c 2 t) (iblk0 V a c 3 t) j := by
  rw [rowsApply0 V a c t ⟨(j 2).val, (j 2).isLt⟩ i h0 h2]
  refine congrArg (outBlk0 (iblk0 V a c 0 t) (iblk0 V a c 1 t) (iblk0 V a c 2 t) (iblk0 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows0`. -/
theorem flushedRows0 (c : Dev nD) (t : Fin (cfg0 a).N) :
    (dat0 V a c).flushed 4 t = (((cfg0 a).win 4).blk t).view.read (Elt F) (rows0 V a c) := by
  show ((cfg0 a).win 4).cut ((cfg0 a).grid.coords t) ((dat0 V a c).after 4 t) = _
  rw [after0_4]
  funext j
  show outBlk0 (iblk0 V a c 0 t) (iblk0 V a c 1 t) (iblk0 V a c 2 t) (iblk0 V a c 3 t) (((cfg0 a).win 4).xinj ((cfg0 a).grid.coords t) j)
    = rows0 V a c ((((cfg0 a).win 4).blk t).view.emb j)
  refine (rowsAt0 V a c t _ _ ?_ ?_).symm
  · have hj : (j (0 : Fin 3)).val < 1 := (j (0 : Fin 3)).isLt
    show ((cfg0 a).win 4).index t (0 : Fin 3) * 1 + 1 * (j (0 : Fin 3)).val = t.val
    rw [outIdxRow0 a t]
    omega
  · show ((cfg0 a).win 4).index t (2 : Fin 3) * 2 + 1 * (j (2 : Fin 3)).val = (j (2 : Fin 3)).val
    rw [outIdxLane0 a t]
    omega

/-- After the run the result array holds `rows0`: row `q` was written by point `q`, and by no later point. -/
theorem arrRows0 (c : Dev nD) (q : Fin 25000) (e : Fin 2) :
    ((dat0 V a c).arrAt 4 (cfg0 a).N : S25000x1x2.Idx → Elt F .f32) (ValueIdx.ix3 q (0 : Fin 1) e)
      = rows0 V a c (ValueIdx.ix3 q (0 : Fin 1) e) := by
  refine (dat0 V a c).arrAt_apply_of_mem 4 (rows0 V a c) (fun t _ => flushedRows0 V a c t) (cfg0 a).N (pt0 a q)
    (ValueIdx.ix3 q (0 : Fin 1) e) (pt0 a q).isLt (outFlush0 a _) ((memOutBlk0 a _ _).mpr fun ax => ?_)
  match ax with
  | ⟨0, _⟩ =>
    show ((cfg0 a).win 4).index (pt0 a q) (0 : Fin 3) * 1 ≤ q.val ∧ q.val < ((cfg0 a).win 4).index (pt0 a q) (0 : Fin 3) * 1 + 1
    rw [outIdxRow0 a (pt0 a q)]
    show q.val * 1 ≤ q.val ∧ q.val < q.val * 1 + 1
    omega
  | ⟨1, _⟩ =>
    show ((cfg0 a).win 4).index (pt0 a q) (1 : Fin 3) * 1 ≤ 0 ∧ 0 < ((cfg0 a).win 4).index (pt0 a q) (1 : Fin 3) * 1 + 1
    rw [outIdxMid0 a (pt0 a q)]
    omega
  | ⟨2, _⟩ =>
    have he := e.isLt
    show ((cfg0 a).win 4).index (pt0 a q) (2 : Fin 3) * 2 ≤ e.val ∧ e.val < ((cfg0 a).win 4).index (pt0 a q) (2 : Fin 3) * 2 + 2
    rw [outIdxLane0 a (pt0 a q)]
    omega

/-! ## The value, over the extended reals -/

/-- Two blocks that are rows `r` and `s` of the table `X` have, as the body's payload, the distance between those rows. -/
theorem distOfRows0 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt0_apply (m : (ℓ : Loc nD τ sig) → Buf (Elt Ideal) ℓ) (a : (pcfg0 (F := Ideal)).Adm) (c : Dev nD)
    (ha0 : a.1 0 = tbl m c (0 : Fin 20) 0) (ha1 : a.1 1 = tbl m c (0 : Fin 20) 1)
    (ha2 : a.1 2 = tbl m c (0 : Fin 20) 2) (ha3 : a.1 3 = tbl m c (0 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat0 (F := Ideal) (fun c b => V1 m c b) a c).arrAt 4 (cfg0 a).N : S25000x1x2.Idx → EReal) (ValueIdx.ix3 q 0 e)
      = Cert.EdgeLengths.lengthAt (m ((c.tc : Thread nD τ).loc main_arg0)) (m ((c.tc : Thread nD τ).loc main_arg1))
          (genOf (0 : Fin 20) q) e := by
  refine (arrRows0 (fun c b => V1 m c b) a c q e).trans ?_
  refine (rowsApply0 (fun c b => V1 m c b) a c (pt0 a q) e _ rfl rfl).trans ?_
  -- the row each of the four index words of point `q` names is the vertex that word is
  have hv : ∀ j : Fin 4, (Cert.EdgeLengths.vtx (m ((c.tc : Thread nD τ).loc main_arg1)) (genOf (0 : Fin 20) q) j).val
      = (tbl m c (0 : Fin 20) j (ValueIdx.ix1 (slot0 a (pt0 a q)))).toNat :=
    fun j => Cert.EdgeLengths.vtx_val _ hR _ j
  match e with
  | ⟨0, _⟩ =>
    refine (outBlkBirth0 _ _ _ _).trans ?_
    refine (payBirth0 _ _ _).trans ?_
    exact distOfRows0 _ _ _ _ _
      (fun k => (rowBlkA0 (fun c b => V1 m c b) a c (pt0 a q) _ ha0 _ (hv 0) k).trans (hx _ k))
      (fun k => (rowBlkB0 (fun c b => V1 m c b) a c (pt0 a q) _ ha1 _ (hv 1) k).trans (hx _ k))
  | ⟨1, _⟩ =>
    refine (outBlkDeath0 _ _ _ _).trans ?_
    refine (payDeath0 _ _ _).trans ?_
    exact distOfRows0 _ _ _ _ _
      (fun k => (rowBlkC0 (fun c b => V1 m c b) a c (pt0 a q) _ ha2 _ (hv 2) k).trans (hx _ k))
      (fun k => (rowBlkD0 (fun c b => V1 m c b) a c (pt0 a q) _ ha3 _ (hv 3) k).trans (hx _ k))

end Cert.KernelIdeal.Gen

end
-- ==== Proof.KI.Value1.lean ====
/-
  The value region 1 of the gather-and-norm program leaves in its result array, over the extended reals.

  Region 1 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows1`), which each written-back
  block is a block of; and last, with the tables the four columns of the vertex words and every word in range, the
  row a word names is the vertex that word is, so the entry is the edge length of the specification.
-/
import proofs.«401090_j62775241999084_2_alg».proof.Proof.KI.Region1
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane1 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth1 (u v : Vec Ideal S1x1x64 .f32) (y : S1x1x1.Idx) :
    k1_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k1_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane1 k]
  rfl

/-- The death edge's payload: the same function of its two rows. -/
theorem payDeath1 (u v : Vec Ideal S1x1x64 .f32) (y : S1x1x1.Idx) :
    k1_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k1_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane1 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg1 (F := F)).Adm)

/-! ## The output block at its two positions -/

theorem hzThree1 : (![0, 0, 0] : Fin 3 → Nat) = fun _ => 0 := funext fun ax => by fin_cases ax <;> rfl

/-- Position 0 of the output block lies under the birth edge's store … -/
theorem embBirth1 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath1 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath1 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth1 (x0 x1 x2 x3 : Vec F S1x1x64 .f32) :
    outBlk1 x0 x1 x2 x3 (ValueIdx.ix3 (0 : Fin 1) (0 : Fin 1) (0 : Fin 2))
      = k1_pay1 x0 x1 (ValueIdx.ix3 (0 : Fin 1) (0 : Fin 1) (0 : Fin 1)) := by
  unfold outBlk1
  refine (View.canon_cons_of_not_mem
    (⟨outRectD, k1_pay2 (View.ld x2 rowRect) (View.ld x3 rowRect)⟩ : View.Piece (Elt F) S1x1x2 .f32)
    ([⟨outRectB, k1_pay1 (View.ld x0 rowRect) (View.ld x1 rowRect)⟩] : List (View.Piece (Elt F) S1x1x2 .f32)) notMemDeath1).trans ?_
  rw [← embBirth1]
  refine (View.canon_cons_emb (Val := Elt F) (e := .f32) outRectB (k1_pay1 (View.ld x0 rowRect) (View.ld x1 rowRect)) [] _).trans ?_
  rw [View.ld_unit_zero (S := S1x1x64) hzThree1, View.ld_unit_zero (S := S1x1x64) hzThree1]

/-- Position 1 holds the death edge's payload of the last two rows. -/
theorem outBlkDeath1 (x0 x1 x2 x3 : Vec F S1x1x64 .f32) :
    outBlk1 x0 x1 x2 x3 (ValueIdx.ix3 (0 : Fin 1) (0 : Fin 1) (1 : Fin 2))
      = k1_pay2 x2 x3 (ValueIdx.ix3 (0 : Fin 1) (0 : Fin 1) (0 : Fin 1)) := by
  unfold outBlk1
  rw [← embDeath1]
  refine (View.canon_cons_emb (Val := Elt F) (e := .f32) outRectD (k1_pay2 (View.ld x2 rowRect) (View.ld x3 rowRect))
    ([⟨outRectB, k1_pay1 (View.ld x0 rowRect) (View.ld x1 rowRect)⟩] : List (View.Piece (Elt F) S1x1x2 .f32)) _).trans ?_
  rw [View.ld_unit_zero (S := S1x1x64) hzThree1, View.ld_unit_zero (S := S1x1x64) hzThree1]

/-! ## The grid and the index maps, at any admissible contents of the index tables -/

/-- Region 1 has 25000 grid points, one per generator it handles. -/
theorem gridN1 : (cfg1 a).N = 25000 := N_1

/-- A point's one coordinate is the point's number. -/
theorem coords1 (t : Fin (cfg1 a).N) : (((cfg1 a).grid.coords t) 0).val = t.val := by
  have hN := gridN1 a
  have ht := t.isLt
  show t.val / 1 % 25000 = t.val
  omega

/-- The output window's block at point `t` is row `t` of the result: block index `(t, 0, 0)`. -/
theorem outIdxRow1 (t : Fin (cfg1 a).N) : ((cfg1 a).win 4).index t (0 : Fin 3) = t.val := by
  have hN := gridN1 a
  have ht := t.isLt
  show (BitVec.ofNat 32 (((cfg1 a).grid.coords t) 0).val).toNat = t.val
  rw [coords1 a t, BitVec.toNat_ofNat]
  omega
theorem outIdxMid1 (t : Fin (cfg1 a).N) : ((cfg1 a).win 4).index t (1 : Fin 3) = 0 := rfl
theorem outIdxLane1 (t : Fin (cfg1 a).N) : ((cfg1 a).win 4).index t (2 : Fin 3) = 0 := rfl

/-- The slot of an index table that point `t` reads: its own number. -/
abbrev slot1 (t : Fin (cfg1 a).N) : Fin 25000 := ⟨t.val, (gridN1 a) ▸ t.isLt⟩

/-- The grid point that writes row `q` of the result: point `q`. -/
abbrev pt1 (q : Fin 25000) : Fin (cfg1 a).N := ⟨q.val, (gridN1 a).symm ▸ q.isLt⟩

/-- Input window 0's block at point `t` is the table row that word `t` of index table 0 names: block index `(word, 0, 0)`. -/
theorem inIdxRowA1 (t : Fin (cfg1 a).N) (T : S25000.Idx → BitVec 32) (hT : a.1 0 = T) :
    ((cfg1 a).win 0).index t (0 : Fin 3) = (T (ValueIdx.ix1 (slot1 a t))).toNat := by
  subst hT
  show (a.1 0 _).toNat = (a.1 0 _).toNat
  refine congrArg BitVec.toNat (congrArg (a.1 0) ?_)
  funext d; apply Fin.ext
  match d with
  | ⟨0, _⟩ =>
    have hN := gridN1 a
    have ht := t.isLt
    show (BitVec.ofNat 32 (((cfg1 a).grid.coords t) 0).val).toNat + 1 * 0 = t.val
    rw [coords1 a t, BitVec.toNat_ofNat]
    omega
theorem inIdxMidA1 (t : Fin (cfg1 a).N) : ((cfg1 a).win 0).index t (1 : Fin 3) = 0 := rfl
theorem inIdxLaneA1 (t : Fin (cfg1 a).N) : ((cfg1 a).win 0).index t (2 : Fin 3) = 0 := rfl

/-- Input window 1's block at point `t` is the table row that word `t` of index table 1 names: block index `(word, 0, 0)`. -/
theorem inIdxRowB1 (t : Fin (cfg1 a).N) (T : S25000.Idx → BitVec 32) (hT : a.1 1 = T) :
    ((cfg1 a).win 1).index t (0 : Fin 3) = (T (ValueIdx.ix1 (slot1 a t))).toNat := by
  subst hT
  show (a.1 1 _).toNat = (a.1 1 _).toNat
  refine congrArg BitVec.toNat (congrArg (a.1 1) ?_)
  funext d; apply Fin.ext
  match d with
  | ⟨0, _⟩ =>
    have hN := gridN1 a
    have ht := t.isLt
    show (BitVec.ofNat 32 (((cfg1 a).grid.coords t) 0).val).toNat + 1 * 0 = t.val
    rw [coords1 a t, BitVec.toNat_ofNat]
    omega
theorem inIdxMidB1 (t : Fin (cfg1 a).N) : ((cfg1 a).win 1).index t (1 : Fin 3) = 0 := rfl
theorem inIdxLaneB1 (t : Fin (cfg1 a).N) : ((cfg1 a).win 1).index t (2 : Fin 3) = 0 := rfl

/-- Input window 2's block at point `t` is the table row that word `t` of index table 2 names: block index `(word, 0, 0)`. -/
theorem inIdxRowC1 (t : Fin (cfg1 a).N) (T : S25000.Idx → BitVec 32) (hT : a.1 2 = T) :
    ((cfg1 a).win 2).index t (0 : Fin 3) = (T (ValueIdx.ix1 (slot1 a t))).toNat := by
  subst hT
  show (a.1 2 _).toNat = (a.1 2 _).toNat
  refine congrArg BitVec.toNat (congrArg (a.1 2) ?_)
  funext d; apply Fin.ext
  match d with
  | ⟨0, _⟩ =>
    have hN := gridN1 a
    have ht := t.isLt
    show (BitVec.ofNat 32 (((cfg1 a).grid.coords t) 0).val).toNat + 1 * 0 = t.val
    rw [coords1 a t, BitVec.toNat_ofNat]
    omega
theorem inIdxMidC1 (t : Fin (cfg1 a).N) : ((cfg1 a).win 2).index t (1 : Fin 3) = 0 := rfl
theorem inIdxLaneC1 (t : Fin (cfg1 a).N) : ((cfg1 a).win 2).index t (2 : Fin 3) = 0 := rfl

/-- Input window 3's block at point `t` is the table row that word `t` of index table 3 names: block index `(word, 0, 0)`. -/
theorem inIdxRowD1 (t : Fin (cfg1 a).N) (T : S25000.Idx → BitVec 32) (hT : a.1 3 = T) :
    ((cfg1 a).win 3).index t (0 : Fin 3) = (T (ValueIdx.ix1 (slot1 a t))).toNat := by
  subst hT
  show (a.1 3 _).toNat = (a.1 3 _).toNat
  refine congrArg BitVec.toNat (congrArg (a.1 3) ?_)
  funext d; apply Fin.ext
  match d with
  | ⟨0, _⟩ =>
    have hN := gridN1 a
    have ht := t.isLt
    show (BitVec.ofNat 32 (((cfg1 a).grid.coords t) 0).val).toNat + 1 * 0 = t.val
    rw [coords1 a t, BitVec.toNat_ofNat]
    omega
theorem inIdxMidD1 (t : Fin (cfg1 a).N) : ((cfg1 a).win 3).index t (1 : Fin 3) = 0 := rfl
theorem inIdxLaneD1 (t : Fin (cfg1 a).N) : ((cfg1 a).win 3).index t (2 : Fin 3) = 0 := rfl

/-! ## The input blocks: rows of the point table -/

/-- Input window 0's block at point `t` is row `r` of the point table, `r` the row its index word names there. -/
theorem rowBlkA1 (c : Dev nD) (t : Fin (cfg1 a).N) (T : S25000.Idx → BitVec 32) (hT : a.1 0 = T)
    (r : Fin 100000) (hr : r.val = (T (ValueIdx.ix1 (slot1 a t))).toNat) (k : Fin 64) :
    (iblk1 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk1
  show (V c main_v8 : S100000x1x64.Idx → Elt F .f32) ((((cfg1 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg1 a).win 0).index t (0 : Fin 3) * 1 + 1 * 0 = r.val
    rw [inIdxRowA1 a t T hT, hr]
    generalize (T (ValueIdx.ix1 (slot1 a t))).toNat = n
    omega
  | ⟨1, _⟩ =>
    show ((cfg1 a).win 0).index t (1 : Fin 3) * 1 + 1 * 0 = 0
    rw [inIdxMidA1 a t]
  | ⟨2, _⟩ =>
    show ((cfg1 a).win 0).index t (2 : Fin 3) * 64 + 1 * k.val = k.val
    rw [inIdxLaneA1 a t]
    omega

/-- Input window 1's block at point `t` is row `r` of the point table, `r` the row its index word names there. -/
theorem rowBlkB1 (c : Dev nD) (t : Fin (cfg1 a).N) (T : S25000.Idx → BitVec 32) (hT : a.1 1 = T)
    (r : Fin 100000) (hr : r.val = (T (ValueIdx.ix1 (slot1 a t))).toNat) (k : Fin 64) :
    (iblk1 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk1
  show (V c main_v8 : S100000x1x64.Idx → Elt F .f32) ((((cfg1 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg1 a).win 1).index t (0 : Fin 3) * 1 + 1 * 0 = r.val
    rw [inIdxRowB1 a t T hT, hr]
    generalize (T (ValueIdx.ix1 (slot1 a t))).toNat = n
    omega
  | ⟨1, _⟩ =>
    show ((cfg1 a).win 1).index t (1 : Fin 3) * 1 + 1 * 0 = 0
    rw [inIdxMidB1 a t]
  | ⟨2, _⟩ =>
    show ((cfg1 a).win 1).index t (2 : Fin 3) * 64 + 1 * k.val = k.val
    rw [inIdxLaneB1 a t]
    omega

/-- Input window 2's block at point `t` is row `r` of the point table, `r` the row its index word names there. -/
theorem rowBlkC1 (c : Dev nD) (t : Fin (cfg1 a).N) (T : S25000.Idx → BitVec 32) (hT : a.1 2 = T)
    (r : Fin 100000) (hr : r.val = (T (ValueIdx.ix1 (slot1 a t))).toNat) (k : Fin 64) :
    (iblk1 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk1
  show (V c main_v8 : S100000x1x64.Idx → Elt F .f32) ((((cfg1 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg1 a).win 2).index t (0 : Fin 3) * 1 + 1 * 0 = r.val
    rw [inIdxRowC1 a t T hT, hr]
    generalize (T (ValueIdx.ix1 (slot1 a t))).toNat = n
    omega
  | ⟨1, _⟩ =>
    show ((cfg1 a).win 2).index t (1 : Fin 3) * 1 + 1 * 0 = 0
    rw [inIdxMidC1 a t]
  | ⟨2, _⟩ =>
    show ((cfg1 a).win 2).index t (2 : Fin 3) * 64 + 1 * k.val = k.val
    rw [inIdxLaneC1 a t]
    omega

/-- Input window 3's block at point `t` is row `r` of the point table, `r` the row its index word names there. -/
theorem rowBlkD1 (c : Dev nD) (t : Fin (cfg1 a).N) (T : S25000.Idx → BitVec 32) (hT : a.1 3 = T)
    (r : Fin 100000) (hr : r.val = (T (ValueIdx.ix1 (slot1 a t))).toNat) (k : Fin 64) :
    (iblk1 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk1
  show (V c main_v8 : S100000x1x64.Idx → Elt F .f32) ((((cfg1 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg1 a).win 3).index t (0 : Fin 3) * 1 + 1 * 0 = r.val
    rw [inIdxRowD1 a t T hT, hr]
    generalize (T (ValueIdx.ix1 (slot1 a t))).toNat = n
    omega
  | ⟨1, _⟩ =>
    show ((cfg1 a).win 3).index t (1 : Fin 3) * 1 + 1 * 0 = 0
    rw [inIdxMidD1 a t]
  | ⟨2, _⟩ =>
    show ((cfg1 a).win 3).index t (2 : Fin 3) * 64 + 1 * k.val = k.val
    rw [inIdxLaneD1 a t]
    omega

/-! ## The output window: every point writes its own row back -/

/-- Every point writes its output block back: the next point's block is another row. -/
theorem outFlush1 (t : Fin (cfg1 a).N) : ((cfg1 a).win 4).flush t = true := by
  unfold Window.flush
  have hout : ((cfg1 a).win 4).isOut = true := rfl
  rw [hout, Bool.true_and, Bool.or_eq_true, decide_eq_true_eq, decide_eq_true_eq]
  by_cases h : t.val + 1 = (cfg1 a).grid.N
  · exact Or.inl h
  · have hN : (cfg1 a).grid.N = 25000 := N_1
    have hN' := gridN1 a
    refine Or.inr ⟨by have := t.isLt; omega, fun e => ?_⟩
    have e0 := congrFun e (0 : Fin 3)
    rw [outIdxRow1, outIdxRow1] at e0
    exact absurd e0 (by simp)

set_option backward.isDefEq.respectTransparency.types false in
/-- An index of the result array is in point `t`'s block iff each coordinate is in the block's range on its axis. -/
theorem memOutBlk1 (t : Fin (cfg1 a).N) (i : S25000x1x2.Idx) :
    i ∈ (((cfg1 a).win 4).blk t).view.set ↔ ∀ ax : Fin 3, ((cfg1 a).win 4).index t ax * S1x1x2.size ax ≤ (i ax).val
      ∧ (i ax).val < ((cfg1 a).win 4).index t ax * S1x1x2.size ax + S1x1x2.size ax := by
  show i ∈ ((View.whole main_v18).slice (((cfg1 a).win 4).rect t)).set ↔ _
  rw [View.set_slice_whole]
  exact Rect.mem_set_unit

/-- What region 1 leaves in its result array, row by row: row `q` is the output block of the four table rows that
    the index words of point `q` name, position `e` of the block being edge `e`. -/
def rows1 (c : Dev nD) : S25000x1x2.Idx → Elt F .f32 := fun i =>
  outBlk1 (iblk1 V a c 0 (pt1 a ⟨(i 0).val, (i 0).isLt⟩)) (iblk1 V a c 1 (pt1 a ⟨(i 0).val, (i 0).isLt⟩))
    (iblk1 V a c 2 (pt1 a ⟨(i 0).val, (i 0).isLt⟩)) (iblk1 V a c 3 (pt1 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply1 (c : Dev nD) (t : Fin (cfg1 a).N) (e : Fin 2) (i : S25000x1x2.Idx)
    (h0 : (i 0).val = t.val) (h2 : (i 2).val = e.val) :
    rows1 V a c i
      = outBlk1 (iblk1 V a c 0 t) (iblk1 V a c 1 t) (iblk1 V a c 2 t) (iblk1 V a c 3 t) (ValueIdx.ix3 (0 : Fin 1) (0 : Fin 1) e) := by
  obtain rfl : t = pt1 a ⟨(i 0).val, (i 0).isLt⟩ := Fin.ext h0.symm
  obtain rfl : e = ⟨(i 2).val, (i 2).isLt⟩ := Fin.ext h2.symm
  rfl

/-- The same with the position given as an index of the block. -/
theorem rowsAt1 (c : Dev nD) (t : Fin (cfg1 a).N) (j : S1x1x2.Idx) (i : S25000x1x2.Idx)
    (h0 : (i 0).val = t.val) (h2 : (i 2).val = (j 2).val) :
    rows1 V a c i = outBlk1 (iblk1 V a c 0 t) (iblk1 V a c 1 t) (iblk1 V a c 2 t) (iblk1 V a c 3 t) j := by
  rw [rowsApply1 V a c t ⟨(j 2).val, (j 2).isLt⟩ i h0 h2]
  refine congrArg (outBlk1 (iblk1 V a c 0 t) (iblk1 V a c 1 t) (iblk1 V a c 2 t) (iblk1 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows1`. -/
theorem flushedRows1 (c : Dev nD) (t : Fin (cfg1 a).N) :
    (dat1 V a c).flushed 4 t = (((cfg1 a).win 4).blk t).view.read (Elt F) (rows1 V a c) := by
  show ((cfg1 a).win 4).cut ((cfg1 a).grid.coords t) ((dat1 V a c).after 4 t) = _
  rw [after1_4]
  funext j
  show outBlk1 (iblk1 V a c 0 t) (iblk1 V a c 1 t) (iblk1 V a c 2 t) (iblk1 V a c 3 t) (((cfg1 a).win 4).xinj ((cfg1 a).grid.coords t) j)
    = rows1 V a c ((((cfg1 a).win 4).blk t).view.emb j)
  refine (rowsAt1 V a c t _ _ ?_ ?_).symm
  · have hj : (j (0 : Fin 3)).val < 1 := (j (0 : Fin 3)).isLt
    show ((cfg1 a).win 4).index t (0 : Fin 3) * 1 + 1 * (j (0 : Fin 3)).val = t.val
    rw [outIdxRow1 a t]
    omega
  · show ((cfg1 a).win 4).index t (2 : Fin 3) * 2 + 1 * (j (2 : Fin 3)).val = (j (2 : Fin 3)).val
    rw [outIdxLane1 a t]
    omega

/-- After the run the result array holds `rows1`: row `q` was written by point `q`, and by no later point. -/
theorem arrRows1 (c : Dev nD) (q : Fin 25000) (e : Fin 2) :
    ((dat1 V a c).arrAt 4 (cfg1 a).N : S25000x1x2.Idx → Elt F .f32) (ValueIdx.ix3 q (0 : Fin 1) e)
      = rows1 V a c (ValueIdx.ix3 q (0 : Fin 1) e) := by
  refine (dat1 V a c).arrAt_apply_of_mem 4 (rows1 V a c) (fun t _ => flushedRows1 V a c t) (cfg1 a).N (pt1 a q)
    (ValueIdx.ix3 q (0 : Fin 1) e) (pt1 a q).isLt (outFlush1 a _) ((memOutBlk1 a _ _).mpr fun ax => ?_)
  match ax with
  | ⟨0, _⟩ =>
    show ((cfg1 a).win 4).index (pt1 a q) (0 : Fin 3) * 1 ≤ q.val ∧ q.val < ((cfg1 a).win 4).index (pt1 a q) (0 : Fin 3) * 1 + 1
    rw [outIdxRow1 a (pt1 a q)]
    show q.val * 1 ≤ q.val ∧ q.val < q.val * 1 + 1
    omega
  | ⟨1, _⟩ =>
    show ((cfg1 a).win 4).index (pt1 a q) (1 : Fin 3) * 1 ≤ 0 ∧ 0 < ((cfg1 a).win 4).index (pt1 a q) (1 : Fin 3) * 1 + 1
    rw [outIdxMid1 a (pt1 a q)]
    omega
  | ⟨2, _⟩ =>
    have he := e.isLt
    show ((cfg1 a).win 4).index (pt1 a q) (2 : Fin 3) * 2 ≤ e.val ∧ e.val < ((cfg1 a).win 4).index (pt1 a q) (2 : Fin 3) * 2 + 2
    rw [outIdxLane1 a (pt1 a q)]
    omega

/-! ## The value, over the extended reals -/

/-- Two blocks that are rows `r` and `s` of the table `X` have, as the body's payload, the distance between those rows. -/
theorem distOfRows1 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt1_apply (m : (ℓ : Loc nD τ sig) → Buf (Elt Ideal) ℓ) (a : (pcfg1 (F := Ideal)).Adm) (c : Dev nD)
    (ha0 : a.1 0 = tbl m c (1 : Fin 20) 0) (ha1 : a.1 1 = tbl m c (1 : Fin 20) 1)
    (ha2 : a.1 2 = tbl m c (1 : Fin 20) 2) (ha3 : a.1 3 = tbl m c (1 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat1 (F := Ideal) (fun c b => V1 m c b) a c).arrAt 4 (cfg1 a).N : S25000x1x2.Idx → EReal) (ValueIdx.ix3 q 0 e)
      = Cert.EdgeLengths.lengthAt (m ((c.tc : Thread nD τ).loc main_arg0)) (m ((c.tc : Thread nD τ).loc main_arg1))
          (genOf (1 : Fin 20) q) e := by
  refine (arrRows1 (fun c b => V1 m c b) a c q e).trans ?_
  refine (rowsApply1 (fun c b => V1 m c b) a c (pt1 a q) e _ rfl rfl).trans ?_
  -- the row each of the four index words of point `q` names is the vertex that word is
  have hv : ∀ j : Fin 4, (Cert.EdgeLengths.vtx (m ((c.tc : Thread nD τ).loc main_arg1)) (genOf (1 : Fin 20) q) j).val
      = (tbl m c (1 : Fin 20) j (ValueIdx.ix1 (slot1 a (pt1 a q)))).toNat :=
    fun j => Cert.EdgeLengths.vtx_val _ hR _ j
  match e with
  | ⟨0, _⟩ =>
    refine (outBlkBirth1 _ _ _ _).trans ?_
    refine (payBirth1 _ _ _).trans ?_
    exact distOfRows1 _ _ _ _ _
      (fun k => (rowBlkA1 (fun c b => V1 m c b) a c (pt1 a q) _ ha0 _ (hv 0) k).trans (hx _ k))
      (fun k => (rowBlkB1 (fun c b => V1 m c b) a c (pt1 a q) _ ha1 _ (hv 1) k).trans (hx _ k))
  | ⟨1, _⟩ =>
    refine (outBlkDeath1 _ _ _ _).trans ?_
    refine (payDeath1 _ _ _).trans ?_
    exact distOfRows1 _ _ _ _ _
      (fun k => (rowBlkC1 (fun c b => V1 m c b) a c (pt1 a q) _ ha2 _ (hv 2) k).trans (hx _ k))
      (fun k => (rowBlkD1 (fun c b => V1 m c b) a c (pt1 a q) _ ha3 _ (hv 3) k).trans (hx _ k))

end Cert.KernelIdeal.Gen

end
-- ==== Proof.KI.Value2.lean ====
/-
  The value region 2 of the gather-and-norm program leaves in its result array, over the extended reals.

  Region 2 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows2`), which each written-back
  block is a block of; and last, with the tables the four columns of the vertex words and every word in range, the
  row a word names is the vertex that word is, so the entry is the edge length of the specification.
-/
import proofs.«401090_j62775241999084_2_alg».proof.Proof.KI.Region2
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane2 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth2 (u v : Vec Ideal S1x1x64 .f32) (y : S1x1x1.Idx) :
    k2_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k2_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane2 k]
  rfl

/-- The death edge's payload: the same function of its two rows. -/
theorem payDeath2 (u v : Vec Ideal S1x1x64 .f32) (y : S1x1x1.Idx) :
    k2_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k2_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane2 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg2 (F := F)).Adm)

/-! ## The output block at its two positions -/

theorem hzThree2 : (![0, 0, 0] : Fin 3 → Nat) = fun _ => 0 := funext fun ax => by fin_cases ax <;> rfl

/-- Position 0 of the output block lies under the birth edge's store … -/
theorem embBirth2 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath2 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath2 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth2 (x0 x1 x2 x3 : Vec F S1x1x64 .f32) :
    outBlk2 x0 x1 x2 x3 (ValueIdx.ix3 (0 : Fin 1) (0 : Fin 1) (0 : Fin 2))
      = k2_pay1 x0 x1 (ValueIdx.ix3 (0 : Fin 1) (0 : Fin 1) (0 : Fin 1)) := by
  unfold outBlk2
  refine (View.canon_cons_of_not_mem
    (⟨outRectD, k2_pay2 (View.ld x2 rowRect) (View.ld x3 rowRect)⟩ : View.Piece (Elt F) S1x1x2 .f32)
    ([⟨outRectB, k2_pay1 (View.ld x0 rowRect) (View.ld x1 rowRect)⟩] : List (View.Piece (Elt F) S1x1x2 .f32)) notMemDeath2).trans ?_
  rw [← embBirth2]
  refine (View.canon_cons_emb (Val := Elt F) (e := .f32) outRectB (k2_pay1 (View.ld x0 rowRect) (View.ld x1 rowRect)) [] _).trans ?_
  rw [View.ld_unit_zero (S := S1x1x64) hzThree2, View.ld_unit_zero (S := S1x1x64) hzThree2]

/-- Position 1 holds the death edge's payload of the last two rows. -/
theorem outBlkDeath2 (x0 x1 x2 x3 : Vec F S1x1x64 .f32) :
    outBlk2 x0 x1 x2 x3 (ValueIdx.ix3 (0 : Fin 1) (0 : Fin 1) (1 : Fin 2))
      = k2_pay2 x2 x3 (ValueIdx.ix3 (0 : Fin 1) (0 : Fin 1) (0 : Fin 1)) := by
  unfold outBlk2
  rw [← embDeath2]
  refine (View.canon_cons_emb (Val := Elt F) (e := .f32) outRectD (k2_pay2 (View.ld x2 rowRect) (View.ld x3 rowRect))
    ([⟨outRectB, k2_pay1 (View.ld x0 rowRect) (View.ld x1 rowRect)⟩] : List (View.Piece (Elt F) S1x1x2 .f32)) _).trans ?_
  rw [View.ld_unit_zero (S := S1x1x64) hzThree2, View.ld_unit_zero (S := S1x1x64) hzThree2]

/-! ## The grid and the index maps, at any admissible contents of the index tables -/

/-- Region 2 has 25000 grid points, one per generator it handles. -/
theorem gridN2 : (cfg2 a).N = 25000 := N_2

/-- A point's one coordinate is the point's number. -/
theorem coords2 (t : Fin (cfg2 a).N) : (((cfg2 a).grid.coords t) 0).val = t.val := by
  have hN := gridN2 a
  have ht := t.isLt
  show t.val / 1 % 25000 = t.val
  omega

/-- The output window's block at point `t` is row `t` of the result: block index `(t, 0, 0)`. -/
theorem outIdxRow2 (t : Fin (cfg2 a).N) : ((cfg2 a).win 4).index t (0 : Fin 3) = t.val := by
  have hN := gridN2 a
  have ht := t.isLt
  show (BitVec.ofNat 32 (((cfg2 a).grid.coords t) 0).val).toNat = t.val
  rw [coords2 a t, BitVec.toNat_ofNat]
  omega
theorem outIdxMid2 (t : Fin (cfg2 a).N) : ((cfg2 a).win 4).index t (1 : Fin 3) = 0 := rfl
theorem outIdxLane2 (t : Fin (cfg2 a).N) : ((cfg2 a).win 4).index t (2 : Fin 3) = 0 := rfl

/-- The slot of an index table that point `t` reads: its own number. -/
abbrev slot2 (t : Fin (cfg2 a).N) : Fin 25000 := ⟨t.val, (gridN2 a) ▸ t.isLt⟩

/-- The grid point that writes row `q` of the result: point `q`. -/
abbrev pt2 (q : Fin 25000) : Fin (cfg2 a).N := ⟨q.val, (gridN2 a).symm ▸ q.isLt⟩

/-- Input window 0's block at point `t` is the table row that word `t` of index table 0 names: block index `(word, 0, 0)`. -/
theorem inIdxRowA2 (t : Fin (cfg2 a).N) (T : S25000.Idx → BitVec 32) (hT : a.1 0 = T) :
    ((cfg2 a).win 0).index t (0 : Fin 3) = (T (ValueIdx.ix1 (slot2 a t))).toNat := by
  subst hT
  show (a.1 0 _).toNat = (a.1 0 _).toNat
  refine congrArg BitVec.toNat (congrArg (a.1 0) ?_)
  funext d; apply Fin.ext
  match d with
  | ⟨0, _⟩ =>
    have hN := gridN2 a
    have ht := t.isLt
    show (BitVec.ofNat 32 (((cfg2 a).grid.coords t) 0).val).toNat + 1 * 0 = t.val
    rw [coords2 a t, BitVec.toNat_ofNat]
    omega
theorem inIdxMidA2 (t : Fin (cfg2 a).N) : ((cfg2 a).win 0).index t (1 : Fin 3) = 0 := rfl
theorem inIdxLaneA2 (t : Fin (cfg2 a).N) : ((cfg2 a).win 0).index t (2 : Fin 3) = 0 := rfl

/-- Input window 1's block at point `t` is the table row that word `t` of index table 1 names: block index `(word, 0, 0)`. -/
theorem inIdxRowB2 (t : Fin (cfg2 a).N) (T : S25000.Idx → BitVec 32) (hT : a.1 1 = T) :
    ((cfg2 a).win 1).index t (0 : Fin 3) = (T (ValueIdx.ix1 (slot2 a t))).toNat := by
  subst hT
  show (a.1 1 _).toNat = (a.1 1 _).toNat
  refine congrArg BitVec.toNat (congrArg (a.1 1) ?_)
  funext d; apply Fin.ext
  match d with
  | ⟨0, _⟩ =>
    have hN := gridN2 a
    have ht := t.isLt
    show (BitVec.ofNat 32 (((cfg2 a).grid.coords t) 0).val).toNat + 1 * 0 = t.val
    rw [coords2 a t, BitVec.toNat_ofNat]
    omega
theorem inIdxMidB2 (t : Fin (cfg2 a).N) : ((cfg2 a).win 1).index t (1 : Fin 3) = 0 := rfl
theorem inIdxLaneB2 (t : Fin (cfg2 a).N) : ((cfg2 a).win 1).index t (2 : Fin 3) = 0 := rfl

/-- Input window 2's block at point `t` is the table row that word `t` of index table 2 names: block index `(word, 0, 0)`. -/
theorem inIdxRowC2 (t : Fin (cfg2 a).N) (T : S25000.Idx → BitVec 32) (hT : a.1 2 = T) :
    ((cfg2 a).win 2).index t (0 : Fin 3) = (T (ValueIdx.ix1 (slot2 a t))).toNat := by
  subst hT
  show (a.1 2 _).toNat = (a.1 2 _).toNat
  refine congrArg BitVec.toNat (congrArg (a.1 2) ?_)
  funext d; apply Fin.ext
  match d with
  | ⟨0, _⟩ =>
    have hN := gridN2 a
    have ht := t.isLt
    show (BitVec.ofNat 32 (((cfg2 a).grid.coords t) 0).val).toNat + 1 * 0 = t.val
    rw [coords2 a t, BitVec.toNat_ofNat]
    omega
theorem inIdxMidC2 (t : Fin (cfg2 a).N) : ((cfg2 a).win 2).index t (1 : Fin 3) = 0 := rfl
theorem inIdxLaneC2 (t : Fin (cfg2 a).N) : ((cfg2 a).win 2).index t (2 : Fin 3) = 0 := rfl

/-- Input window 3's block at point `t` is the table row that word `t` of index table 3 names: block index `(word, 0, 0)`. -/
theorem inIdxRowD2 (t : Fin (cfg2 a).N) (T : S25000.Idx → BitVec 32) (hT : a.1 3 = T) :
    ((cfg2 a).win 3).index t (0 : Fin 3) = (T (ValueIdx.ix1 (slot2 a t))).toNat := by
  subst hT
  show (a.1 3 _).toNat = (a.1 3 _).toNat
  refine congrArg BitVec.toNat (congrArg (a.1 3) ?_)
  funext d; apply Fin.ext
  match d with
  | ⟨0, _⟩ =>
    have hN := gridN2 a
    have ht := t.isLt
    show (BitVec.ofNat 32 (((cfg2 a).grid.coords t) 0).val).toNat + 1 * 0 = t.val
    rw [coords2 a t, BitVec.toNat_ofNat]
    omega
theorem inIdxMidD2 (t : Fin (cfg2 a).N) : ((cfg2 a).win 3).index t (1 : Fin 3) = 0 := rfl
theorem inIdxLaneD2 (t : Fin (cfg2 a).N) : ((cfg2 a).win 3).index t (2 : Fin 3) = 0 := rfl

/-! ## The input blocks: rows of the point table -/

/-- Input window 0's block at point `t` is row `r` of the point table, `r` the row its index word names there. -/
theorem rowBlkA2 (c : Dev nD) (t : Fin (cfg2 a).N) (T : S25000.Idx → BitVec 32) (hT : a.1 0 = T)
    (r : Fin 100000) (hr : r.val = (T (ValueIdx.ix1 (slot2 a t))).toNat) (k : Fin 64) :
    (iblk2 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk2
  show (V c main_v8 : S100000x1x64.Idx → Elt F .f32) ((((cfg2 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg2 a).win 0).index t (0 : Fin 3) * 1 + 1 * 0 = r.val
    rw [inIdxRowA2 a t T hT, hr]
    generalize (T (ValueIdx.ix1 (slot2 a t))).toNat = n
    omega
  | ⟨1, _⟩ =>
    show ((cfg2 a).win 0).index t (1 : Fin 3) * 1 + 1 * 0 = 0
    rw [inIdxMidA2 a t]
  | ⟨2, _⟩ =>
    show ((cfg2 a).win 0).index t (2 : Fin 3) * 64 + 1 * k.val = k.val
    rw [inIdxLaneA2 a t]
    omega

/-- Input window 1's block at point `t` is row `r` of the point table, `r` the row its index word names there. -/
theorem rowBlkB2 (c : Dev nD) (t : Fin (cfg2 a).N) (T : S25000.Idx → BitVec 32) (hT : a.1 1 = T)
    (r : Fin 100000) (hr : r.val = (T (ValueIdx.ix1 (slot2 a t))).toNat) (k : Fin 64) :
    (iblk2 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk2
  show (V c main_v8 : S100000x1x64.Idx → Elt F .f32) ((((cfg2 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg2 a).win 1).index t (0 : Fin 3) * 1 + 1 * 0 = r.val
    rw [inIdxRowB2 a t T hT, hr]
    generalize (T (ValueIdx.ix1 (slot2 a t))).toNat = n
    omega
  | ⟨1, _⟩ =>
    show ((cfg2 a).win 1).index t (1 : Fin 3) * 1 + 1 * 0 = 0
    rw [inIdxMidB2 a t]
  | ⟨2, _⟩ =>
    show ((cfg2 a).win 1).index t (2 : Fin 3) * 64 + 1 * k.val = k.val
    rw [inIdxLaneB2 a t]
    omega

/-- Input window 2's block at point `t` is row `r` of the point table, `r` the row its index word names there. -/
theorem rowBlkC2 (c : Dev nD) (t : Fin (cfg2 a).N) (T : S25000.Idx → BitVec 32) (hT : a.1 2 = T)
    (r : Fin 100000) (hr : r.val = (T (ValueIdx.ix1 (slot2 a t))).toNat) (k : Fin 64) :
    (iblk2 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk2
  show (V c main_v8 : S100000x1x64.Idx → Elt F .f32) ((((cfg2 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg2 a).win 2).index t (0 : Fin 3) * 1 + 1 * 0 = r.val
    rw [inIdxRowC2 a t T hT, hr]
    generalize (T (ValueIdx.ix1 (slot2 a t))).toNat = n
    omega
  | ⟨1, _⟩ =>
    show ((cfg2 a).win 2).index t (1 : Fin 3) * 1 + 1 * 0 = 0
    rw [inIdxMidC2 a t]
  | ⟨2, _⟩ =>
    show ((cfg2 a).win 2).index t (2 : Fin 3) * 64 + 1 * k.val = k.val
    rw [inIdxLaneC2 a t]
    omega

/-- Input window 3's block at point `t` is row `r` of the point table, `r` the row its index word names there. -/
theorem rowBlkD2 (c : Dev nD) (t : Fin (cfg2 a).N) (T : S25000.Idx → BitVec 32) (hT : a.1 3 = T)
    (r : Fin 100000) (hr : r.val = (T (ValueIdx.ix1 (slot2 a t))).toNat) (k : Fin 64) :
    (iblk2 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk2
  show (V c main_v8 : S100000x1x64.Idx → Elt F .f32) ((((cfg2 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg2 a).win 3).index t (0 : Fin 3) * 1 + 1 * 0 = r.val
    rw [inIdxRowD2 a t T hT, hr]
    generalize (T (ValueIdx.ix1 (slot2 a t))).toNat = n
    omega
  | ⟨1, _⟩ =>
    show ((cfg2 a).win 3).index t (1 : Fin 3) * 1 + 1 * 0 = 0
    rw [inIdxMidD2 a t]
  | ⟨2, _⟩ =>
    show ((cfg2 a).win 3).index t (2 : Fin 3) * 64 + 1 * k.val = k.val
    rw [inIdxLaneD2 a t]
    omega

/-! ## The output window: every point writes its own row back -/

/-- Every point writes its output block back: the next point's block is another row. -/
theorem outFlush2 (t : Fin (cfg2 a).N) : ((cfg2 a).win 4).flush t = true := by
  unfold Window.flush
  have hout : ((cfg2 a).win 4).isOut = true := rfl
  rw [hout, Bool.true_and, Bool.or_eq_true, decide_eq_true_eq, decide_eq_true_eq]
  by_cases h : t.val + 1 = (cfg2 a).grid.N
  · exact Or.inl h
  · have hN : (cfg2 a).grid.N = 25000 := N_2
    have hN' := gridN2 a
    refine Or.inr ⟨by have := t.isLt; omega, fun e => ?_⟩
    have e0 := congrFun e (0 : Fin 3)
    rw [outIdxRow2, outIdxRow2] at e0
    exact absurd e0 (by simp)

set_option backward.isDefEq.respectTransparency.types false in
/-- An index of the result array is in point `t`'s block iff each coordinate is in the block's range on its axis. -/
theorem memOutBlk2 (t : Fin (cfg2 a).N) (i : S25000x1x2.Idx) :
    i ∈ (((cfg2 a).win 4).blk t).view.set ↔ ∀ ax : Fin 3, ((cfg2 a).win 4).index t ax * S1x1x2.size ax ≤ (i ax).val
      ∧ (i ax).val < ((cfg2 a).win 4).index t ax * S1x1x2.size ax + S1x1x2.size ax := by
  show i ∈ ((View.whole main_v23).slice (((cfg2 a).win 4).rect t)).set ↔ _
  rw [View.set_slice_whole]
  exact Rect.mem_set_unit

/-- What region 2 leaves in its result array, row by row: row `q` is the output block of the four table rows that
    the index words of point `q` name, position `e` of the block being edge `e`. -/
def rows2 (c : Dev nD) : S25000x1x2.Idx → Elt F .f32 := fun i =>
  outBlk2 (iblk2 V a c 0 (pt2 a ⟨(i 0).val, (i 0).isLt⟩)) (iblk2 V a c 1 (pt2 a ⟨(i 0).val, (i 0).isLt⟩))
    (iblk2 V a c 2 (pt2 a ⟨(i 0).val, (i 0).isLt⟩)) (iblk2 V a c 3 (pt2 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply2 (c : Dev nD) (t : Fin (cfg2 a).N) (e : Fin 2) (i : S25000x1x2.Idx)
    (h0 : (i 0).val = t.val) (h2 : (i 2).val = e.val) :
    rows2 V a c i
      = outBlk2 (iblk2 V a c 0 t) (iblk2 V a c 1 t) (iblk2 V a c 2 t) (iblk2 V a c 3 t) (ValueIdx.ix3 (0 : Fin 1) (0 : Fin 1) e) := by
  obtain rfl : t = pt2 a ⟨(i 0).val, (i 0).isLt⟩ := Fin.ext h0.symm
  obtain rfl : e = ⟨(i 2).val, (i 2).isLt⟩ := Fin.ext h2.symm
  rfl

/-- The same with the position given as an index of the block. -/
theorem rowsAt2 (c : Dev nD) (t : Fin (cfg2 a).N) (j : S1x1x2.Idx) (i : S25000x1x2.Idx)
    (h0 : (i 0).val = t.val) (h2 : (i 2).val = (j 2).val) :
    rows2 V a c i = outBlk2 (iblk2 V a c 0 t) (iblk2 V a c 1 t) (iblk2 V a c 2 t) (iblk2 V a c 3 t) j := by
  rw [rowsApply2 V a c t ⟨(j 2).val, (j 2).isLt⟩ i h0 h2]
  refine congrArg (outBlk2 (iblk2 V a c 0 t) (iblk2 V a c 1 t) (iblk2 V a c 2 t) (iblk2 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows2`. -/
theorem flushedRows2 (c : Dev nD) (t : Fin (cfg2 a).N) :
    (dat2 V a c).flushed 4 t = (((cfg2 a).win 4).blk t).view.read (Elt F) (rows2 V a c) := by
  show ((cfg2 a).win 4).cut ((cfg2 a).grid.coords t) ((dat2 V a c).after 4 t) = _
  rw [after2_4]
  funext j
  show outBlk2 (iblk2 V a c 0 t) (iblk2 V a c 1 t) (iblk2 V a c 2 t) (iblk2 V a c 3 t) (((cfg2 a).win 4).xinj ((cfg2 a).grid.coords t) j)
    = rows2 V a c ((((cfg2 a).win 4).blk t).view.emb j)
  refine (rowsAt2 V a c t _ _ ?_ ?_).symm
  · have hj : (j (0 : Fin 3)).val < 1 := (j (0 : Fin 3)).isLt
    show ((cfg2 a).win 4).index t (0 : Fin 3) * 1 + 1 * (j (0 : Fin 3)).val = t.val
    rw [outIdxRow2 a t]
    omega
  · show ((cfg2 a).win 4).index t (2 : Fin 3) * 2 + 1 * (j (2 : Fin 3)).val = (j (2 : Fin 3)).val
    rw [outIdxLane2 a t]
    omega

/-- After the run the result array holds `rows2`: row `q` was written by point `q`, and by no later point. -/
theorem arrRows2 (c : Dev nD) (q : Fin 25000) (e : Fin 2) :
    ((dat2 V a c).arrAt 4 (cfg2 a).N : S25000x1x2.Idx → Elt F .f32) (ValueIdx.ix3 q (0 : Fin 1) e)
      = rows2 V a c (ValueIdx.ix3 q (0 : Fin 1) e) := by
  refine (dat2 V a c).arrAt_apply_of_mem 4 (rows2 V a c) (fun t _ => flushedRows2 V a c t) (cfg2 a).N (pt2 a q)
    (ValueIdx.ix3 q (0 : Fin 1) e) (pt2 a q).isLt (outFlush2 a _) ((memOutBlk2 a _ _).mpr fun ax => ?_)
  match ax with
  | ⟨0, _⟩ =>
    show ((cfg2 a).win 4).index (pt2 a q) (0 : Fin 3) * 1 ≤ q.val ∧ q.val < ((cfg2 a).win 4).index (pt2 a q) (0 : Fin 3) * 1 + 1
    rw [outIdxRow2 a (pt2 a q)]
    show q.val * 1 ≤ q.val ∧ q.val < q.val * 1 + 1
    omega
  | ⟨1, _⟩ =>
    show ((cfg2 a).win 4).index (pt2 a q) (1 : Fin 3) * 1 ≤ 0 ∧ 0 < ((cfg2 a).win 4).index (pt2 a q) (1 : Fin 3) * 1 + 1
    rw [outIdxMid2 a (pt2 a q)]
    omega
  | ⟨2, _⟩ =>
    have he := e.isLt
    show ((cfg2 a).win 4).index (pt2 a q) (2 : Fin 3) * 2 ≤ e.val ∧ e.val < ((cfg2 a).win 4).index (pt2 a q) (2 : Fin 3) * 2 + 2
    rw [outIdxLane2 a (pt2 a q)]
    omega

/-! ## The value, over the extended reals -/

/-- Two blocks that are rows `r` and `s` of the table `X` have, as the body's payload, the distance between those rows. -/
theorem distOfRows2 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt2_apply (m : (ℓ : Loc nD τ sig) → Buf (Elt Ideal) ℓ) (a : (pcfg2 (F := Ideal)).Adm) (c : Dev nD)
    (ha0 : a.1 0 = tbl m c (2 : Fin 20) 0) (ha1 : a.1 1 = tbl m c (2 : Fin 20) 1)
    (ha2 : a.1 2 = tbl m c (2 : Fin 20) 2) (ha3 : a.1 3 = tbl m c (2 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat2 (F := Ideal) (fun c b => V1 m c b) a c).arrAt 4 (cfg2 a).N : S25000x1x2.Idx → EReal) (ValueIdx.ix3 q 0 e)
      = Cert.EdgeLengths.lengthAt (m ((c.tc : Thread nD τ).loc main_arg0)) (m ((c.tc : Thread nD τ).loc main_arg1))
          (genOf (2 : Fin 20) q) e := by
  refine (arrRows2 (fun c b => V1 m c b) a c q e).trans ?_
  refine (rowsApply2 (fun c b => V1 m c b) a c (pt2 a q) e _ rfl rfl).trans ?_
  -- the row each of the four index words of point `q` names is the vertex that word is
  have hv : ∀ j : Fin 4, (Cert.EdgeLengths.vtx (m ((c.tc : Thread nD τ).loc main_arg1)) (genOf (2 : Fin 20) q) j).val
      = (tbl m c (2 : Fin 20) j (ValueIdx.ix1 (slot2 a (pt2 a q)))).toNat :=
    fun j => Cert.EdgeLengths.vtx_val _ hR _ j
  match e with
  | ⟨0, _⟩ =>
    refine (outBlkBirth2 _ _ _ _).trans ?_
    refine (payBirth2 _ _ _).trans ?_
    exact distOfRows2 _ _ _ _ _
      (fun k => (rowBlkA2 (fun c b => V1 m c b) a c (pt2 a q) _ ha0 _ (hv 0) k).trans (hx _ k))
      (fun k => (rowBlkB2 (fun c b => V1 m c b) a c (pt2 a q) _ ha1 _ (hv 1) k).trans (hx _ k))
  | ⟨1, _⟩ =>
    refine (outBlkDeath2 _ _ _ _).trans ?_
    refine (payDeath2 _ _ _).trans ?_
    exact distOfRows2 _ _ _ _ _
      (fun k => (rowBlkC2 (fun c b => V1 m c b) a c (pt2 a q) _ ha2 _ (hv 2) k).trans (hx _ k))
      (fun k => (rowBlkD2 (fun c b => V1 m c b) a c (pt2 a q) _ ha3 _ (hv 3) k).trans (hx _ k))

end Cert.KernelIdeal.Gen

end
-- ==== Proof.KI.Value3.lean ====
/-
  The value region 3 of the gather-and-norm program leaves in its result array, over the extended reals.

  Region 3 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows3`), which each written-back
  block is a block of; and last, with the tables the four columns of the vertex words and every word in range, the
  row a word names is the vertex that word is, so the entry is the edge length of the specification.
-/
import proofs.«401090_j62775241999084_2_alg».proof.Proof.KI.Region3
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane3 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth3 (u v : Vec Ideal S1x1x64 .f32) (y : S1x1x1.Idx) :
    k3_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k3_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane3 k]
  rfl

/-- The death edge's payload: the same function of its two rows. -/
theorem payDeath3 (u v : Vec Ideal S1x1x64 .f32) (y : S1x1x1.Idx) :
    k3_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k3_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane3 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg3 (F := F)).Adm)

/-! ## The output block at its two positions -/

theorem hzThree3 : (![0, 0, 0] : Fin 3 → Nat) = fun _ => 0 := funext fun ax => by fin_cases ax <;> rfl

/-- Position 0 of the output block lies under the birth edge's store … -/
theorem embBirth3 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath3 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath3 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth3 (x0 x1 x2 x3 : Vec F S1x1x64 .f32) :
    outBlk3 x0 x1 x2 x3 (ValueIdx.ix3 (0 : Fin 1) (0 : Fin 1) (0 : Fin 2))
      = k3_pay1 x0 x1 (ValueIdx.ix3 (0 : Fin 1) (0 : Fin 1) (0 : Fin 1)) := by
  unfold outBlk3
  refine (View.canon_cons_of_not_mem
    (⟨outRectD, k3_pay2 (View.ld x2 rowRect) (View.ld x3 rowRect)⟩ : View.Piece (Elt F) S1x1x2 .f32)
    ([⟨outRectB, k3_pay1 (View.ld x0 rowRect) (View.ld x1 rowRect)⟩] : List (View.Piece (Elt F) S1x1x2 .f32)) notMemDeath3).trans ?_
  rw [← embBirth3]
  refine (View.canon_cons_emb (Val := Elt F) (e := .f32) outRectB (k3_pay1 (View.ld x0 rowRect) (View.ld x1 rowRect)) [] _).trans ?_
  rw [View.ld_unit_zero (S := S1x1x64) hzThree3, View.ld_unit_zero (S := S1x1x64) hzThree3]

/-- Position 1 holds the death edge's payload of the last two rows. -/
theorem outBlkDeath3 (x0 x1 x2 x3 : Vec F S1x1x64 .f32) :
    outBlk3 x0 x1 x2 x3 (ValueIdx.ix3 (0 : Fin 1) (0 : Fin 1) (1 : Fin 2))
      = k3_pay2 x2 x3 (ValueIdx.ix3 (0 : Fin 1) (0 : Fin 1) (0 : Fin 1)) := by
  unfold outBlk3
  rw [← embDeath3]
  refine (View.canon_cons_emb (Val := Elt F) (e := .f32) outRectD (k3_pay2 (View.ld x2 rowRect) (View.ld x3 rowRect))
    ([⟨outRectB, k3_pay1 (View.ld x0 rowRect) (View.ld x1 rowRect)⟩] : List (View.Piece (Elt F) S1x1x2 .f32)) _).trans ?_
  rw [View.ld_unit_zero (S := S1x1x64) hzThree3, View.ld_unit_zero (S := S1x1x64) hzThree3]

/-! ## The grid and the index maps, at any admissible contents of the index tables -/

/-- Region 3 has 25000 grid points, one per generator it handles. -/
theorem gridN3 : (cfg3 a).N = 25000 := N_3

/-- A point's one coordinate is the point's number. -/
theorem coords3 (t : Fin (cfg3 a).N) : (((cfg3 a).grid.coords t) 0).val = t.val := by
  have hN := gridN3 a
  have ht := t.isLt
  show t.val / 1 % 25000 = t.val
  omega

/-- The output window's block at point `t` is row `t` of the result: block index `(t, 0, 0)`. -/
theorem outIdxRow3 (t : Fin (cfg3 a).N) : ((cfg3 a).win 4).index t (0 : Fin 3) = t.val := by
  have hN := gridN3 a
  have ht := t.isLt
  show (BitVec.ofNat 32 (((cfg3 a).grid.coords t) 0).val).toNat = t.val
  rw [coords3 a t, BitVec.toNat_ofNat]
  omega
theorem outIdxMid3 (t : Fin (cfg3 a).N) : ((cfg3 a).win 4).index t (1 : Fin 3) = 0 := rfl
theorem outIdxLane3 (t : Fin (cfg3 a).N) : ((cfg3 a).win 4).index t (2 : Fin 3) = 0 := rfl

/-- The slot of an index table that point `t` reads: its own number. -/
abbrev slot3 (t : Fin (cfg3 a).N) : Fin 25000 := ⟨t.val, (gridN3 a) ▸ t.isLt⟩

/-- The grid point that writes row `q` of the result: point `q`. -/
abbrev pt3 (q : Fin 25000) : Fin (cfg3 a).N := ⟨q.val, (gridN3 a).symm ▸ q.isLt⟩

/-- Input window 0's block at point `t` is the table row that word `t` of index table 0 names: block index `(word, 0, 0)`. -/
theorem inIdxRowA3 (t : Fin (cfg3 a).N) (T : S25000.Idx → BitVec 32) (hT : a.1 0 = T) :
    ((cfg3 a).win 0).index t (0 : Fin 3) = (T (ValueIdx.ix1 (slot3 a t))).toNat := by
  subst hT
  show (a.1 0 _).toNat = (a.1 0 _).toNat
  refine congrArg BitVec.toNat (congrArg (a.1 0) ?_)
  funext d; apply Fin.ext
  match d with
  | ⟨0, _⟩ =>
    have hN := gridN3 a
    have ht := t.isLt
    show (BitVec.ofNat 32 (((cfg3 a).grid.coords t) 0).val).toNat + 1 * 0 = t.val
    rw [coords3 a t, BitVec.toNat_ofNat]
    omega
theorem inIdxMidA3 (t : Fin (cfg3 a).N) : ((cfg3 a).win 0).index t (1 : Fin 3) = 0 := rfl
theorem inIdxLaneA3 (t : Fin (cfg3 a).N) : ((cfg3 a).win 0).index t (2 : Fin 3) = 0 := rfl

/-- Input window 1's block at point `t` is the table row that word `t` of index table 1 names: block index `(word, 0, 0)`. -/
theorem inIdxRowB3 (t : Fin (cfg3 a).N) (T : S25000.Idx → BitVec 32) (hT : a.1 1 = T) :
    ((cfg3 a).win 1).index t (0 : Fin 3) = (T (ValueIdx.ix1 (slot3 a t))).toNat := by
  subst hT
  show (a.1 1 _).toNat = (a.1 1 _).toNat
  refine congrArg BitVec.toNat (congrArg (a.1 1) ?_)
  funext d; apply Fin.ext
  match d with
  | ⟨0, _⟩ =>
    have hN := gridN3 a
    have ht := t.isLt
    show (BitVec.ofNat 32 (((cfg3 a).grid.coords t) 0).val).toNat + 1 * 0 = t.val
    rw [coords3 a t, BitVec.toNat_ofNat]
    omega
theorem inIdxMidB3 (t : Fin (cfg3 a).N) : ((cfg3 a).win 1).index t (1 : Fin 3) = 0 := rfl
theorem inIdxLaneB3 (t : Fin (cfg3 a).N) : ((cfg3 a).win 1).index t (2 : Fin 3) = 0 := rfl

/-- Input window 2's block at point `t` is the table row that word `t` of index table 2 names: block index `(word, 0, 0)`. -/
theorem inIdxRowC3 (t : Fin (cfg3 a).N) (T : S25000.Idx → BitVec 32) (hT : a.1 2 = T) :
    ((cfg3 a).win 2).index t (0 : Fin 3) = (T (ValueIdx.ix1 (slot3 a t))).toNat := by
  subst hT
  show (a.1 2 _).toNat = (a.1 2 _).toNat
  refine congrArg BitVec.toNat (congrArg (a.1 2) ?_)
  funext d; apply Fin.ext
  match d with
  | ⟨0, _⟩ =>
    have hN := gridN3 a
    have ht := t.isLt
    show (BitVec.ofNat 32 (((cfg3 a).grid.coords t) 0).val).toNat + 1 * 0 = t.val
    rw [coords3 a t, BitVec.toNat_ofNat]
    omega
theorem inIdxMidC3 (t : Fin (cfg3 a).N) : ((cfg3 a).win 2).index t (1 : Fin 3) = 0 := rfl
theorem inIdxLaneC3 (t : Fin (cfg3 a).N) : ((cfg3 a).win 2).index t (2 : Fin 3) = 0 := rfl

/-- Input window 3's block at point `t` is the table row that word `t` of index table 3 names: block index `(word, 0, 0)`. -/
theorem inIdxRowD3 (t : Fin (cfg3 a).N) (T : S25000.Idx → BitVec 32) (hT : a.1 3 = T) :
    ((cfg3 a).win 3).index t (0 : Fin 3) = (T (ValueIdx.ix1 (slot3 a t))).toNat := by
  subst hT
  show (a.1 3 _).toNat = (a.1 3 _).toNat
  refine congrArg BitVec.toNat (congrArg (a.1 3) ?_)
  funext d; apply Fin.ext
  match d with
  | ⟨0, _⟩ =>
    have hN := gridN3 a
    have ht := t.isLt
    show (BitVec.ofNat 32 (((cfg3 a).grid.coords t) 0).val).toNat + 1 * 0 = t.val
    rw [coords3 a t, BitVec.toNat_ofNat]
    omega
theorem inIdxMidD3 (t : Fin (cfg3 a).N) : ((cfg3 a).win 3).index t (1 : Fin 3) = 0 := rfl
theorem inIdxLaneD3 (t : Fin (cfg3 a).N) : ((cfg3 a).win 3).index t (2 : Fin 3) = 0 := rfl

/-! ## The input blocks: rows of the point table -/

/-- Input window 0's block at point `t` is row `r` of the point table, `r` the row its index word names there. -/
theorem rowBlkA3 (c : Dev nD) (t : Fin (cfg3 a).N) (T : S25000.Idx → BitVec 32) (hT : a.1 0 = T)
    (r : Fin 100000) (hr : r.val = (T (ValueIdx.ix1 (slot3 a t))).toNat) (k : Fin 64) :
    (iblk3 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk3
  show (V c main_v8 : S100000x1x64.Idx → Elt F .f32) ((((cfg3 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg3 a).win 0).index t (0 : Fin 3) * 1 + 1 * 0 = r.val
    rw [inIdxRowA3 a t T hT, hr]
    generalize (T (ValueIdx.ix1 (slot3 a t))).toNat = n
    omega
  | ⟨1, _⟩ =>
    show ((cfg3 a).win 0).index t (1 : Fin 3) * 1 + 1 * 0 = 0
    rw [inIdxMidA3 a t]
  | ⟨2, _⟩ =>
    show ((cfg3 a).win 0).index t (2 : Fin 3) * 64 + 1 * k.val = k.val
    rw [inIdxLaneA3 a t]
    omega

/-- Input window 1's block at point `t` is row `r` of the point table, `r` the row its index word names there. -/
theorem rowBlkB3 (c : Dev nD) (t : Fin (cfg3 a).N) (T : S25000.Idx → BitVec 32) (hT : a.1 1 = T)
    (r : Fin 100000) (hr : r.val = (T (ValueIdx.ix1 (slot3 a t))).toNat) (k : Fin 64) :
    (iblk3 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk3
  show (V c main_v8 : S100000x1x64.Idx → Elt F .f32) ((((cfg3 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg3 a).win 1).index t (0 : Fin 3) * 1 + 1 * 0 = r.val
    rw [inIdxRowB3 a t T hT, hr]
    generalize (T (ValueIdx.ix1 (slot3 a t))).toNat = n
    omega
  | ⟨1, _⟩ =>
    show ((cfg3 a).win 1).index t (1 : Fin 3) * 1 + 1 * 0 = 0
    rw [inIdxMidB3 a t]
  | ⟨2, _⟩ =>
    show ((cfg3 a).win 1).index t (2 : Fin 3) * 64 + 1 * k.val = k.val
    rw [inIdxLaneB3 a t]
    omega

/-- Input window 2's block at point `t` is row `r` of the point table, `r` the row its index word names there. -/
theorem rowBlkC3 (c : Dev nD) (t : Fin (cfg3 a).N) (T : S25000.Idx → BitVec 32) (hT : a.1 2 = T)
    (r : Fin 100000) (hr : r.val = (T (ValueIdx.ix1 (slot3 a t))).toNat) (k : Fin 64) :
    (iblk3 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk3
  show (V c main_v8 : S100000x1x64.Idx → Elt F .f32) ((((cfg3 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg3 a).win 2).index t (0 : Fin 3) * 1 + 1 * 0 = r.val
    rw [inIdxRowC3 a t T hT, hr]
    generalize (T (ValueIdx.ix1 (slot3 a t))).toNat = n
    omega
  | ⟨1, _⟩ =>
    show ((cfg3 a).win 2).index t (1 : Fin 3) * 1 + 1 * 0 = 0
    rw [inIdxMidC3 a t]
  | ⟨2, _⟩ =>
    show ((cfg3 a).win 2).index t (2 : Fin 3) * 64 + 1 * k.val = k.val
    rw [inIdxLaneC3 a t]
    omega

/-- Input window 3's block at point `t` is row `r` of the point table, `r` the row its index word names there. -/
theorem rowBlkD3 (c : Dev nD) (t : Fin (cfg3 a).N) (T : S25000.Idx → BitVec 32) (hT : a.1 3 = T)
    (r : Fin 100000) (hr : r.val = (T (ValueIdx.ix1 (slot3 a t))).toNat) (k : Fin 64) :
    (iblk3 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk3
  show (V c main_v8 : S100000x1x64.Idx → Elt F .f32) ((((cfg3 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg3 a).win 3).index t (0 : Fin 3) * 1 + 1 * 0 = r.val
    rw [inIdxRowD3 a t T hT, hr]
    generalize (T (ValueIdx.ix1 (slot3 a t))).toNat = n
    omega
  | ⟨1, _⟩ =>
    show ((cfg3 a).win 3).index t (1 : Fin 3) * 1 + 1 * 0 = 0
    rw [inIdxMidD3 a t]
  | ⟨2, _⟩ =>
    show ((cfg3 a).win 3).index t (2 : Fin 3) * 64 + 1 * k.val = k.val
    rw [inIdxLaneD3 a t]
    omega

/-! ## The output window: every point writes its own row back -/

/-- Every point writes its output block back: the next point's block is another row. -/
theorem outFlush3 (t : Fin (cfg3 a).N) : ((cfg3 a).win 4).flush t = true := by
  unfold Window.flush
  have hout : ((cfg3 a).win 4).isOut = true := rfl
  rw [hout, Bool.true_and, Bool.or_eq_true, decide_eq_true_eq, decide_eq_true_eq]
  by_cases h : t.val + 1 = (cfg3 a).grid.N
  · exact Or.inl h
  · have hN : (cfg3 a).grid.N = 25000 := N_3
    have hN' := gridN3 a
    refine Or.inr ⟨by have := t.isLt; omega, fun e => ?_⟩
    have e0 := congrFun e (0 : Fin 3)
    rw [outIdxRow3, outIdxRow3] at e0
    exact absurd e0 (by simp)

set_option backward.isDefEq.respectTransparency.types false in
/-- An index of the result array is in point `t`'s block iff each coordinate is in the block's range on its axis. -/
theorem memOutBlk3 (t : Fin (cfg3 a).N) (i : S25000x1x2.Idx) :
    i ∈ (((cfg3 a).win 4).blk t).view.set ↔ ∀ ax : Fin 3, ((cfg3 a).win 4).index t ax * S1x1x2.size ax ≤ (i ax).val
      ∧ (i ax).val < ((cfg3 a).win 4).index t ax * S1x1x2.size ax + S1x1x2.size ax := by
  show i ∈ ((View.whole main_v28).slice (((cfg3 a).win 4).rect t)).set ↔ _
  rw [View.set_slice_whole]
  exact Rect.mem_set_unit

/-- What region 3 leaves in its result array, row by row: row `q` is the output block of the four table rows that
    the index words of point `q` name, position `e` of the block being edge `e`. -/
def rows3 (c : Dev nD) : S25000x1x2.Idx → Elt F .f32 := fun i =>
  outBlk3 (iblk3 V a c 0 (pt3 a ⟨(i 0).val, (i 0).isLt⟩)) (iblk3 V a c 1 (pt3 a ⟨(i 0).val, (i 0).isLt⟩))
    (iblk3 V a c 2 (pt3 a ⟨(i 0).val, (i 0).isLt⟩)) (iblk3 V a c 3 (pt3 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply3 (c : Dev nD) (t : Fin (cfg3 a).N) (e : Fin 2) (i : S25000x1x2.Idx)
    (h0 : (i 0).val = t.val) (h2 : (i 2).val = e.val) :
    rows3 V a c i
      = outBlk3 (iblk3 V a c 0 t) (iblk3 V a c 1 t) (iblk3 V a c 2 t) (iblk3 V a c 3 t) (ValueIdx.ix3 (0 : Fin 1) (0 : Fin 1) e) := by
  obtain rfl : t = pt3 a ⟨(i 0).val, (i 0).isLt⟩ := Fin.ext h0.symm
  obtain rfl : e = ⟨(i 2).val, (i 2).isLt⟩ := Fin.ext h2.symm
  rfl

/-- The same with the position given as an index of the block. -/
theorem rowsAt3 (c : Dev nD) (t : Fin (cfg3 a).N) (j : S1x1x2.Idx) (i : S25000x1x2.Idx)
    (h0 : (i 0).val = t.val) (h2 : (i 2).val = (j 2).val) :
    rows3 V a c i = outBlk3 (iblk3 V a c 0 t) (iblk3 V a c 1 t) (iblk3 V a c 2 t) (iblk3 V a c 3 t) j := by
  rw [rowsApply3 V a c t ⟨(j 2).val, (j 2).isLt⟩ i h0 h2]
  refine congrArg (outBlk3 (iblk3 V a c 0 t) (iblk3 V a c 1 t) (iblk3 V a c 2 t) (iblk3 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows3`. -/
theorem flushedRows3 (c : Dev nD) (t : Fin (cfg3 a).N) :
    (dat3 V a c).flushed 4 t = (((cfg3 a).win 4).blk t).view.read (Elt F) (rows3 V a c) := by
  show ((cfg3 a).win 4).cut ((cfg3 a).grid.coords t) ((dat3 V a c).after 4 t) = _
  rw [after3_4]
  funext j
  show outBlk3 (iblk3 V a c 0 t) (iblk3 V a c 1 t) (iblk3 V a c 2 t) (iblk3 V a c 3 t) (((cfg3 a).win 4).xinj ((cfg3 a).grid.coords t) j)
    = rows3 V a c ((((cfg3 a).win 4).blk t).view.emb j)
  refine (rowsAt3 V a c t _ _ ?_ ?_).symm
  · have hj : (j (0 : Fin 3)).val < 1 := (j (0 : Fin 3)).isLt
    show ((cfg3 a).win 4).index t (0 : Fin 3) * 1 + 1 * (j (0 : Fin 3)).val = t.val
    rw [outIdxRow3 a t]
    omega
  · show ((cfg3 a).win 4).index t (2 : Fin 3) * 2 + 1 * (j (2 : Fin 3)).val = (j (2 : Fin 3)).val
    rw [outIdxLane3 a t]
    omega

/-- After the run the result array holds `rows3`: row `q` was written by point `q`, and by no later point. -/
theorem arrRows3 (c : Dev nD) (q : Fin 25000) (e : Fin 2) :
    ((dat3 V a c).arrAt 4 (cfg3 a).N : S25000x1x2.Idx → Elt F .f32) (ValueIdx.ix3 q (0 : Fin 1) e)
      = rows3 V a c (ValueIdx.ix3 q (0 : Fin 1) e) := by
  refine (dat3 V a c).arrAt_apply_of_mem 4 (rows3 V a c) (fun t _ => flushedRows3 V a c t) (cfg3 a).N (pt3 a q)
    (ValueIdx.ix3 q (0 : Fin 1) e) (pt3 a q).isLt (outFlush3 a _) ((memOutBlk3 a _ _).mpr fun ax => ?_)
  match ax with
  | ⟨0, _⟩ =>
    show ((cfg3 a).win 4).index (pt3 a q) (0 : Fin 3) * 1 ≤ q.val ∧ q.val < ((cfg3 a).win 4).index (pt3 a q) (0 : Fin 3) * 1 + 1
    rw [outIdxRow3 a (pt3 a q)]
    show q.val * 1 ≤ q.val ∧ q.val < q.val * 1 + 1
    omega
  | ⟨1, _⟩ =>
    show ((cfg3 a).win 4).index (pt3 a q) (1 : Fin 3) * 1 ≤ 0 ∧ 0 < ((cfg3 a).win 4).index (pt3 a q) (1 : Fin 3) * 1 + 1
    rw [outIdxMid3 a (pt3 a q)]
    omega
  | ⟨2, _⟩ =>
    have he := e.isLt
    show ((cfg3 a).win 4).index (pt3 a q) (2 : Fin 3) * 2 ≤ e.val ∧ e.val < ((cfg3 a).win 4).index (pt3 a q) (2 : Fin 3) * 2 + 2
    rw [outIdxLane3 a (pt3 a q)]
    omega

/-! ## The value, over the extended reals -/

/-- Two blocks that are rows `r` and `s` of the table `X` have, as the body's payload, the distance between those rows. -/
theorem distOfRows3 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt3_apply (m : (ℓ : Loc nD τ sig) → Buf (Elt Ideal) ℓ) (a : (pcfg3 (F := Ideal)).Adm) (c : Dev nD)
    (ha0 : a.1 0 = tbl m c (3 : Fin 20) 0) (ha1 : a.1 1 = tbl m c (3 : Fin 20) 1)
    (ha2 : a.1 2 = tbl m c (3 : Fin 20) 2) (ha3 : a.1 3 = tbl m c (3 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat3 (F := Ideal) (fun c b => V1 m c b) a c).arrAt 4 (cfg3 a).N : S25000x1x2.Idx → EReal) (ValueIdx.ix3 q 0 e)
      = Cert.EdgeLengths.lengthAt (m ((c.tc : Thread nD τ).loc main_arg0)) (m ((c.tc : Thread nD τ).loc main_arg1))
          (genOf (3 : Fin 20) q) e := by
  refine (arrRows3 (fun c b => V1 m c b) a c q e).trans ?_
  refine (rowsApply3 (fun c b => V1 m c b) a c (pt3 a q) e _ rfl rfl).trans ?_
  -- the row each of the four index words of point `q` names is the vertex that word is
  have hv : ∀ j : Fin 4, (Cert.EdgeLengths.vtx (m ((c.tc : Thread nD τ).loc main_arg1)) (genOf (3 : Fin 20) q) j).val
      = (tbl m c (3 : Fin 20) j (ValueIdx.ix1 (slot3 a (pt3 a q)))).toNat :=
    fun j => Cert.EdgeLengths.vtx_val _ hR _ j
  match e with
  | ⟨0, _⟩ =>
    refine (outBlkBirth3 _ _ _ _).trans ?_
    refine (payBirth3 _ _ _).trans ?_
    exact distOfRows3 _ _ _ _ _
      (fun k => (rowBlkA3 (fun c b => V1 m c b) a c (pt3 a q) _ ha0 _ (hv 0) k).trans (hx _ k))
      (fun k => (rowBlkB3 (fun c b => V1 m c b) a c (pt3 a q) _ ha1 _ (hv 1) k).trans (hx _ k))
  | ⟨1, _⟩ =>
    refine (outBlkDeath3 _ _ _ _).trans ?_
    refine (payDeath3 _ _ _).trans ?_
    exact distOfRows3 _ _ _ _ _
      (fun k => (rowBlkC3 (fun c b => V1 m c b) a c (pt3 a q) _ ha2 _ (hv 2) k).trans (hx _ k))
      (fun k => (rowBlkD3 (fun c b => V1 m c b) a c (pt3 a q) _ ha3 _ (hv 3) k).trans (hx _ k))

end Cert.KernelIdeal.Gen

end
-- ==== Proof.KI.Value4.lean ====
/-
  The value region 4 of the gather-and-norm program leaves in its result array, over the extended reals.

  Region 4 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows4`), which each written-back
  block is a block of; and last, with the tables the four columns of the vertex words and every word in range, the
  row a word names is the vertex that word is, so the entry is the edge length of the specification.
-/
import proofs.«401090_j62775241999084_2_alg».proof.Proof.KI.Region4
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane4 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth4 (u v : Vec Ideal S1x1x64 .f32) (y : S1x1x1.Idx) :
    k4_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k4_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane4 k]
  rfl

/-- The death edge's payload: the same function of its two rows. -/
theorem payDeath4 (u v : Vec Ideal S1x1x64 .f32) (y : S1x1x1.Idx) :
    k4_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k4_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane4 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg4 (F := F)).Adm)

/-! ## The output block at its two positions -/

theorem hzThree4 : (![0, 0, 0] : Fin 3 → Nat) = fun _ => 0 := funext fun ax => by fin_cases ax <;> rfl

/-- Position 0 of the output block lies under the birth edge's store … -/
theorem embBirth4 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath4 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath4 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth4 (x0 x1 x2 x3 : Vec F S1x1x64 .f32) :
    outBlk4 x0 x1 x2 x3 (ValueIdx.ix3 (0 : Fin 1) (0 : Fin 1) (0 : Fin 2))
      = k4_pay1 x0 x1 (ValueIdx.ix3 (0 : Fin 1) (0 : Fin 1) (0 : Fin 1)) := by
  unfold outBlk4
  refine (View.canon_cons_of_not_mem
    (⟨outRectD, k4_pay2 (View.ld x2 rowRect) (View.ld x3 rowRect)⟩ : View.Piece (Elt F) S1x1x2 .f32)
    ([⟨outRectB, k4_pay1 (View.ld x0 rowRect) (View.ld x1 rowRect)⟩] : List (View.Piece (Elt F) S1x1x2 .f32)) notMemDeath4).trans ?_
  rw [← embBirth4]
  refine (View.canon_cons_emb (Val := Elt F) (e := .f32) outRectB (k4_pay1 (View.ld x0 rowRect) (View.ld x1 rowRect)) [] _).trans ?_
  rw [View.ld_unit_zero (S := S1x1x64) hzThree4, View.ld_unit_zero (S := S1x1x64) hzThree4]

/-- Position 1 holds the death edge's payload of the last two rows. -/
theorem outBlkDeath4 (x0 x1 x2 x3 : Vec F S1x1x64 .f32) :
    outBlk4 x0 x1 x2 x3 (ValueIdx.ix3 (0 : Fin 1) (0 : Fin 1) (1 : Fin 2))
      = k4_pay2 x2 x3 (ValueIdx.ix3 (0 : Fin 1) (0 : Fin 1) (0 : Fin 1)) := by
  unfold outBlk4
  rw [← embDeath4]
  refine (View.canon_cons_emb (Val := Elt F) (e := .f32) outRectD (k4_pay2 (View.ld x2 rowRect) (View.ld x3 rowRect))
    ([⟨outRectB, k4_pay1 (View.ld x0 rowRect) (View.ld x1 rowRect)⟩] : List (View.Piece (Elt F) S1x1x2 .f32)) _).trans ?_
  rw [View.ld_unit_zero (S := S1x1x64) hzThree4, View.ld_unit_zero (S := S1x1x64) hzThree4]

/-! ## The grid and the index maps, at any admissible contents of the index tables -/

/-- Region 4 has 25000 grid points, one per generator it handles. -/
theorem gridN4 : (cfg4 a).N = 25000 := N_4

/-- A point's one coordinate is the point's number. -/
theorem coords4 (t : Fin (cfg4 a).N) : (((cfg4 a).grid.coords t) 0).val = t.val := by
  have hN := gridN4 a
  have ht := t.isLt
  show t.val / 1 % 25000 = t.val
  omega

/-- The output window's block at point `t` is row `t` of the result: block index `(t, 0, 0)`. -/
theorem outIdxRow4 (t : Fin (cfg4 a).N) : ((cfg4 a).win 4).index t (0 : Fin 3) = t.val := by
  have hN := gridN4 a
  have ht := t.isLt
  show (BitVec.ofNat 32 (((cfg4 a).grid.coords t) 0).val).toNat = t.val
  rw [coords4 a t, BitVec.toNat_ofNat]
  omega
theorem outIdxMid4 (t : Fin (cfg4 a).N) : ((cfg4 a).win 4).index t (1 : Fin 3) = 0 := rfl
theorem outIdxLane4 (t : Fin (cfg4 a).N) : ((cfg4 a).win 4).index t (2 : Fin 3) = 0 := rfl

/-- The slot of an index table that point `t` reads: its own number. -/
abbrev slot4 (t : Fin (cfg4 a).N) : Fin 25000 := ⟨t.val, (gridN4 a) ▸ t.isLt⟩

/-- The grid point that writes row `q` of the result: point `q`. -/
abbrev pt4 (q : Fin 25000) : Fin (cfg4 a).N := ⟨q.val, (gridN4 a).symm ▸ q.isLt⟩

/-- Input window 0's block at point `t` is the table row that word `t` of index table 0 names: block index `(word, 0, 0)`. -/
theorem inIdxRowA4 (t : Fin (cfg4 a).N) (T : S25000.Idx → BitVec 32) (hT : a.1 0 = T) :
    ((cfg4 a).win 0).index t (0 : Fin 3) = (T (ValueIdx.ix1 (slot4 a t))).toNat := by
  subst hT
  show (a.1 0 _).toNat = (a.1 0 _).toNat
  refine congrArg BitVec.toNat (congrArg (a.1 0) ?_)
  funext d; apply Fin.ext
  match d with
  | ⟨0, _⟩ =>
    have hN := gridN4 a
    have ht := t.isLt
    show (BitVec.ofNat 32 (((cfg4 a).grid.coords t) 0).val).toNat + 1 * 0 = t.val
    rw [coords4 a t, BitVec.toNat_ofNat]
    omega
theorem inIdxMidA4 (t : Fin (cfg4 a).N) : ((cfg4 a).win 0).index t (1 : Fin 3) = 0 := rfl
theorem inIdxLaneA4 (t : Fin (cfg4 a).N) : ((cfg4 a).win 0).index t (2 : Fin 3) = 0 := rfl

/-- Input window 1's block at point `t` is the table row that word `t` of index table 1 names: block index `(word, 0, 0)`. -/
theorem inIdxRowB4 (t : Fin (cfg4 a).N) (T : S25000.Idx → BitVec 32) (hT : a.1 1 = T) :
    ((cfg4 a).win 1).index t (0 : Fin 3) = (T (ValueIdx.ix1 (slot4 a t))).toNat := by
  subst hT
  show (a.1 1 _).toNat = (a.1 1 _).toNat
  refine congrArg BitVec.toNat (congrArg (a.1 1) ?_)
  funext d; apply Fin.ext
  match d with
  | ⟨0, _⟩ =>
    have hN := gridN4 a
    have ht := t.isLt
    show (BitVec.ofNat 32 (((cfg4 a).grid.coords t) 0).val).toNat + 1 * 0 = t.val
    rw [coords4 a t, BitVec.toNat_ofNat]
    omega
theorem inIdxMidB4 (t : Fin (cfg4 a).N) : ((cfg4 a).win 1).index t (1 : Fin 3) = 0 := rfl
theorem inIdxLaneB4 (t : Fin (cfg4 a).N) : ((cfg4 a).win 1).index t (2 : Fin 3) = 0 := rfl

/-- Input window 2's block at point `t` is the table row that word `t` of index table 2 names: block index `(word, 0, 0)`. -/
theorem inIdxRowC4 (t : Fin (cfg4 a).N) (T : S25000.Idx → BitVec 32) (hT : a.1 2 = T) :
    ((cfg4 a).win 2).index t (0 : Fin 3) = (T (ValueIdx.ix1 (slot4 a t))).toNat := by
  subst hT
  show (a.1 2 _).toNat = (a.1 2 _).toNat
  refine congrArg BitVec.toNat (congrArg (a.1 2) ?_)
  funext d; apply Fin.ext
  match d with
  | ⟨0, _⟩ =>
    have hN := gridN4 a
    have ht := t.isLt
    show (BitVec.ofNat 32 (((cfg4 a).grid.coords t) 0).val).toNat + 1 * 0 = t.val
    rw [coords4 a t, BitVec.toNat_ofNat]
    omega
theorem inIdxMidC4 (t : Fin (cfg4 a).N) : ((cfg4 a).win 2).index t (1 : Fin 3) = 0 := rfl
theorem inIdxLaneC4 (t : Fin (cfg4 a).N) : ((cfg4 a).win 2).index t (2 : Fin 3) = 0 := rfl

/-- Input window 3's block at point `t` is the table row that word `t` of index table 3 names: block index `(word, 0, 0)`. -/
theorem inIdxRowD4 (t : Fin (cfg4 a).N) (T : S25000.Idx → BitVec 32) (hT : a.1 3 = T) :
    ((cfg4 a).win 3).index t (0 : Fin 3) = (T (ValueIdx.ix1 (slot4 a t))).toNat := by
  subst hT
  show (a.1 3 _).toNat = (a.1 3 _).toNat
  refine congrArg BitVec.toNat (congrArg (a.1 3) ?_)
  funext d; apply Fin.ext
  match d with
  | ⟨0, _⟩ =>
    have hN := gridN4 a
    have ht := t.isLt
    show (BitVec.ofNat 32 (((cfg4 a).grid.coords t) 0).val).toNat + 1 * 0 = t.val
    rw [coords4 a t, BitVec.toNat_ofNat]
    omega
theorem inIdxMidD4 (t : Fin (cfg4 a).N) : ((cfg4 a).win 3).index t (1 : Fin 3) = 0 := rfl
theorem inIdxLaneD4 (t : Fin (cfg4 a).N) : ((cfg4 a).win 3).index t (2 : Fin 3) = 0 := rfl

/-! ## The input blocks: rows of the point table -/

/-- Input window 0's block at point `t` is row `r` of the point table, `r` the row its index word names there. -/
theorem rowBlkA4 (c : Dev nD) (t : Fin (cfg4 a).N) (T : S25000.Idx → BitVec 32) (hT : a.1 0 = T)
    (r : Fin 100000) (hr : r.val = (T (ValueIdx.ix1 (slot4 a t))).toNat) (k : Fin 64) :
    (iblk4 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk4
  show (V c main_v8 : S100000x1x64.Idx → Elt F .f32) ((((cfg4 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg4 a).win 0).index t (0 : Fin 3) * 1 + 1 * 0 = r.val
    rw [inIdxRowA4 a t T hT, hr]
    generalize (T (ValueIdx.ix1 (slot4 a t))).toNat = n
    omega
  | ⟨1, _⟩ =>
    show ((cfg4 a).win 0).index t (1 : Fin 3) * 1 + 1 * 0 = 0
    rw [inIdxMidA4 a t]
  | ⟨2, _⟩ =>
    show ((cfg4 a).win 0).index t (2 : Fin 3) * 64 + 1 * k.val = k.val
    rw [inIdxLaneA4 a t]
    omega

/-- Input window 1's block at point `t` is row `r` of the point table, `r` the row its index word names there. -/
theorem rowBlkB4 (c : Dev nD) (t : Fin (cfg4 a).N) (T : S25000.Idx → BitVec 32) (hT : a.1 1 = T)
    (r : Fin 100000) (hr : r.val = (T (ValueIdx.ix1 (slot4 a t))).toNat) (k : Fin 64) :
    (iblk4 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk4
  show (V c main_v8 : S100000x1x64.Idx → Elt F .f32) ((((cfg4 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg4 a).win 1).index t (0 : Fin 3) * 1 + 1 * 0 = r.val
    rw [inIdxRowB4 a t T hT, hr]
    generalize (T (ValueIdx.ix1 (slot4 a t))).toNat = n
    omega
  | ⟨1, _⟩ =>
    show ((cfg4 a).win 1).index t (1 : Fin 3) * 1 + 1 * 0 = 0
    rw [inIdxMidB4 a t]
  | ⟨2, _⟩ =>
    show ((cfg4 a).win 1).index t (2 : Fin 3) * 64 + 1 * k.val = k.val
    rw [inIdxLaneB4 a t]
    omega

/-- Input window 2's block at point `t` is row `r` of the point table, `r` the row its index word names there. -/
theorem rowBlkC4 (c : Dev nD) (t : Fin (cfg4 a).N) (T : S25000.Idx → BitVec 32) (hT : a.1 2 = T)
    (r : Fin 100000) (hr : r.val = (T (ValueIdx.ix1 (slot4 a t))).toNat) (k : Fin 64) :
    (iblk4 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk4
  show (V c main_v8 : S100000x1x64.Idx → Elt F .f32) ((((cfg4 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg4 a).win 2).index t (0 : Fin 3) * 1 + 1 * 0 = r.val
    rw [inIdxRowC4 a t T hT, hr]
    generalize (T (ValueIdx.ix1 (slot4 a t))).toNat = n
    omega
  | ⟨1, _⟩ =>
    show ((cfg4 a).win 2).index t (1 : Fin 3) * 1 + 1 * 0 = 0
    rw [inIdxMidC4 a t]
  | ⟨2, _⟩ =>
    show ((cfg4 a).win 2).index t (2 : Fin 3) * 64 + 1 * k.val = k.val
    rw [inIdxLaneC4 a t]
    omega

/-- Input window 3's block at point `t` is row `r` of the point table, `r` the row its index word names there. -/
theorem rowBlkD4 (c : Dev nD) (t : Fin (cfg4 a).N) (T : S25000.Idx → BitVec 32) (hT : a.1 3 = T)
    (r : Fin 100000) (hr : r.val = (T (ValueIdx.ix1 (slot4 a t))).toNat) (k : Fin 64) :
    (iblk4 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk4
  show (V c main_v8 : S100000x1x64.Idx → Elt F .f32) ((((cfg4 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg4 a).win 3).index t (0 : Fin 3) * 1 + 1 * 0 = r.val
    rw [inIdxRowD4 a t T hT, hr]
    generalize (T (ValueIdx.ix1 (slot4 a t))).toNat = n
    omega
  | ⟨1, _⟩ =>
    show ((cfg4 a).win 3).index t (1 : Fin 3) * 1 + 1 * 0 = 0
    rw [inIdxMidD4 a t]
  | ⟨2, _⟩ =>
    show ((cfg4 a).win 3).index t (2 : Fin 3) * 64 + 1 * k.val = k.val
    rw [inIdxLaneD4 a t]
    omega

/-! ## The output window: every point writes its own row back -/

/-- Every point writes its output block back: the next point's block is another row. -/
theorem outFlush4 (t : Fin (cfg4 a).N) : ((cfg4 a).win 4).flush t = true := by
  unfold Window.flush
  have hout : ((cfg4 a).win 4).isOut = true := rfl
  rw [hout, Bool.true_and, Bool.or_eq_true, decide_eq_true_eq, decide_eq_true_eq]
  by_cases h : t.val + 1 = (cfg4 a).grid.N
  · exact Or.inl h
  · have hN : (cfg4 a).grid.N = 25000 := N_4
    have hN' := gridN4 a
    refine Or.inr ⟨by have := t.isLt; omega, fun e => ?_⟩
    have e0 := congrFun e (0 : Fin 3)
    rw [outIdxRow4, outIdxRow4] at e0
    exact absurd e0 (by simp)

set_option backward.isDefEq.respectTransparency.types false in
/-- An index of the result array is in point `t`'s block iff each coordinate is in the block's range on its axis. -/
theorem memOutBlk4 (t : Fin (cfg4 a).N) (i : S25000x1x2.Idx) :
    i ∈ (((cfg4 a).win 4).blk t).view.set ↔ ∀ ax : Fin 3, ((cfg4 a).win 4).index t ax * S1x1x2.size ax ≤ (i ax).val
      ∧ (i ax).val < ((cfg4 a).win 4).index t ax * S1x1x2.size ax + S1x1x2.size ax := by
  show i ∈ ((View.whole main_v33).slice (((cfg4 a).win 4).rect t)).set ↔ _
  rw [View.set_slice_whole]
  exact Rect.mem_set_unit

/-- What region 4 leaves in its result array, row by row: row `q` is the output block of the four table rows that
    the index words of point `q` name, position `e` of the block being edge `e`. -/
def rows4 (c : Dev nD) : S25000x1x2.Idx → Elt F .f32 := fun i =>
  outBlk4 (iblk4 V a c 0 (pt4 a ⟨(i 0).val, (i 0).isLt⟩)) (iblk4 V a c 1 (pt4 a ⟨(i 0).val, (i 0).isLt⟩))
    (iblk4 V a c 2 (pt4 a ⟨(i 0).val, (i 0).isLt⟩)) (iblk4 V a c 3 (pt4 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply4 (c : Dev nD) (t : Fin (cfg4 a).N) (e : Fin 2) (i : S25000x1x2.Idx)
    (h0 : (i 0).val = t.val) (h2 : (i 2).val = e.val) :
    rows4 V a c i
      = outBlk4 (iblk4 V a c 0 t) (iblk4 V a c 1 t) (iblk4 V a c 2 t) (iblk4 V a c 3 t) (ValueIdx.ix3 (0 : Fin 1) (0 : Fin 1) e) := by
  obtain rfl : t = pt4 a ⟨(i 0).val, (i 0).isLt⟩ := Fin.ext h0.symm
  obtain rfl : e = ⟨(i 2).val, (i 2).isLt⟩ := Fin.ext h2.symm
  rfl

/-- The same with the position given as an index of the block. -/
theorem rowsAt4 (c : Dev nD) (t : Fin (cfg4 a).N) (j : S1x1x2.Idx) (i : S25000x1x2.Idx)
    (h0 : (i 0).val = t.val) (h2 : (i 2).val = (j 2).val) :
    rows4 V a c i = outBlk4 (iblk4 V a c 0 t) (iblk4 V a c 1 t) (iblk4 V a c 2 t) (iblk4 V a c 3 t) j := by
  rw [rowsApply4 V a c t ⟨(j 2).val, (j 2).isLt⟩ i h0 h2]
  refine congrArg (outBlk4 (iblk4 V a c 0 t) (iblk4 V a c 1 t) (iblk4 V a c 2 t) (iblk4 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows4`. -/
theorem flushedRows4 (c : Dev nD) (t : Fin (cfg4 a).N) :
    (dat4 V a c).flushed 4 t = (((cfg4 a).win 4).blk t).view.read (Elt F) (rows4 V a c) := by
  show ((cfg4 a).win 4).cut ((cfg4 a).grid.coords t) ((dat4 V a c).after 4 t) = _
  rw [after4_4]
  funext j
  show outBlk4 (iblk4 V a c 0 t) (iblk4 V a c 1 t) (iblk4 V a c 2 t) (iblk4 V a c 3 t) (((cfg4 a).win 4).xinj ((cfg4 a).grid.coords t) j)
    = rows4 V a c ((((cfg4 a).win 4).blk t).view.emb j)
  refine (rowsAt4 V a c t _ _ ?_ ?_).symm
  · have hj : (j (0 : Fin 3)).val < 1 := (j (0 : Fin 3)).isLt
    show ((cfg4 a).win 4).index t (0 : Fin 3) * 1 + 1 * (j (0 : Fin 3)).val = t.val
    rw [outIdxRow4 a t]
    omega
  · show ((cfg4 a).win 4).index t (2 : Fin 3) * 2 + 1 * (j (2 : Fin 3)).val = (j (2 : Fin 3)).val
    rw [outIdxLane4 a t]
    omega

/-- After the run the result array holds `rows4`: row `q` was written by point `q`, and by no later point. -/
theorem arrRows4 (c : Dev nD) (q : Fin 25000) (e : Fin 2) :
    ((dat4 V a c).arrAt 4 (cfg4 a).N : S25000x1x2.Idx → Elt F .f32) (ValueIdx.ix3 q (0 : Fin 1) e)
      = rows4 V a c (ValueIdx.ix3 q (0 : Fin 1) e) := by
  refine (dat4 V a c).arrAt_apply_of_mem 4 (rows4 V a c) (fun t _ => flushedRows4 V a c t) (cfg4 a).N (pt4 a q)
    (ValueIdx.ix3 q (0 : Fin 1) e) (pt4 a q).isLt (outFlush4 a _) ((memOutBlk4 a _ _).mpr fun ax => ?_)
  match ax with
  | ⟨0, _⟩ =>
    show ((cfg4 a).win 4).index (pt4 a q) (0 : Fin 3) * 1 ≤ q.val ∧ q.val < ((cfg4 a).win 4).index (pt4 a q) (0 : Fin 3) * 1 + 1
    rw [outIdxRow4 a (pt4 a q)]
    show q.val * 1 ≤ q.val ∧ q.val < q.val * 1 + 1
    omega
  | ⟨1, _⟩ =>
    show ((cfg4 a).win 4).index (pt4 a q) (1 : Fin 3) * 1 ≤ 0 ∧ 0 < ((cfg4 a).win 4).index (pt4 a q) (1 : Fin 3) * 1 + 1
    rw [outIdxMid4 a (pt4 a q)]
    omega
  | ⟨2, _⟩ =>
    have he := e.isLt
    show ((cfg4 a).win 4).index (pt4 a q) (2 : Fin 3) * 2 ≤ e.val ∧ e.val < ((cfg4 a).win 4).index (pt4 a q) (2 : Fin 3) * 2 + 2
    rw [outIdxLane4 a (pt4 a q)]
    omega

/-! ## The value, over the extended reals -/

/-- Two blocks that are rows `r` and `s` of the table `X` have, as the body's payload, the distance between those rows. -/
theorem distOfRows4 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt4_apply (m : (ℓ : Loc nD τ sig) → Buf (Elt Ideal) ℓ) (a : (pcfg4 (F := Ideal)).Adm) (c : Dev nD)
    (ha0 : a.1 0 = tbl m c (4 : Fin 20) 0) (ha1 : a.1 1 = tbl m c (4 : Fin 20) 1)
    (ha2 : a.1 2 = tbl m c (4 : Fin 20) 2) (ha3 : a.1 3 = tbl m c (4 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat4 (F := Ideal) (fun c b => V1 m c b) a c).arrAt 4 (cfg4 a).N : S25000x1x2.Idx → EReal) (ValueIdx.ix3 q 0 e)
      = Cert.EdgeLengths.lengthAt (m ((c.tc : Thread nD τ).loc main_arg0)) (m ((c.tc : Thread nD τ).loc main_arg1))
          (genOf (4 : Fin 20) q) e := by
  refine (arrRows4 (fun c b => V1 m c b) a c q e).trans ?_
  refine (rowsApply4 (fun c b => V1 m c b) a c (pt4 a q) e _ rfl rfl).trans ?_
  -- the row each of the four index words of point `q` names is the vertex that word is
  have hv : ∀ j : Fin 4, (Cert.EdgeLengths.vtx (m ((c.tc : Thread nD τ).loc main_arg1)) (genOf (4 : Fin 20) q) j).val
      = (tbl m c (4 : Fin 20) j (ValueIdx.ix1 (slot4 a (pt4 a q)))).toNat :=
    fun j => Cert.EdgeLengths.vtx_val _ hR _ j
  match e with
  | ⟨0, _⟩ =>
    refine (outBlkBirth4 _ _ _ _).trans ?_
    refine (payBirth4 _ _ _).trans ?_
    exact distOfRows4 _ _ _ _ _
      (fun k => (rowBlkA4 (fun c b => V1 m c b) a c (pt4 a q) _ ha0 _ (hv 0) k).trans (hx _ k))
      (fun k => (rowBlkB4 (fun c b => V1 m c b) a c (pt4 a q) _ ha1 _ (hv 1) k).trans (hx _ k))
  | ⟨1, _⟩ =>
    refine (outBlkDeath4 _ _ _ _).trans ?_
    refine (payDeath4 _ _ _).trans ?_
    exact distOfRows4 _ _ _ _ _
      (fun k => (rowBlkC4 (fun c b => V1 m c b) a c (pt4 a q) _ ha2 _ (hv 2) k).trans (hx _ k))
      (fun k => (rowBlkD4 (fun c b => V1 m c b) a c (pt4 a q) _ ha3 _ (hv 3) k).trans (hx _ k))

end Cert.KernelIdeal.Gen

end
-- ==== Proof.KI.Value5.lean ====
/-
  The value region 5 of the gather-and-norm program leaves in its result array, over the extended reals.

  Region 5 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows5`), which each written-back
  block is a block of; and last, with the tables the four columns of the vertex words and every word in range, the
  row a word names is the vertex that word is, so the entry is the edge length of the specification.
-/
import proofs.«401090_j62775241999084_2_alg».proof.Proof.KI.Region5
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane5 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth5 (u v : Vec Ideal S1x1x64 .f32) (y : S1x1x1.Idx) :
    k5_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k5_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane5 k]
  rfl

/-- The death edge's payload: the same function of its two rows. -/
theorem payDeath5 (u v : Vec Ideal S1x1x64 .f32) (y : S1x1x1.Idx) :
    k5_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k5_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane5 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg5 (F := F)).Adm)

/-! ## The output block at its two positions -/

theorem hzThree5 : (![0, 0, 0] : Fin 3 → Nat) = fun _ => 0 := funext fun ax => by fin_cases ax <;> rfl

/-- Position 0 of the output block lies under the birth edge's store … -/
theorem embBirth5 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath5 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath5 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth5 (x0 x1 x2 x3 : Vec F S1x1x64 .f32) :
    outBlk5 x0 x1 x2 x3 (ValueIdx.ix3 (0 : Fin 1) (0 : Fin 1) (0 : Fin 2))
      = k5_pay1 x0 x1 (ValueIdx.ix3 (0 : Fin 1) (0 : Fin 1) (0 : Fin 1)) := by
  unfold outBlk5
  refine (View.canon_cons_of_not_mem
    (⟨outRectD, k5_pay2 (View.ld x2 rowRect) (View.ld x3 rowRect)⟩ : View.Piece (Elt F) S1x1x2 .f32)
    ([⟨outRectB, k5_pay1 (View.ld x0 rowRect) (View.ld x1 rowRect)⟩] : List (View.Piece (Elt F) S1x1x2 .f32)) notMemDeath5).trans ?_
  rw [← embBirth5]
  refine (View.canon_cons_emb (Val := Elt F) (e := .f32) outRectB (k5_pay1 (View.ld x0 rowRect) (View.ld x1 rowRect)) [] _).trans ?_
  rw [View.ld_unit_zero (S := S1x1x64) hzThree5, View.ld_unit_zero (S := S1x1x64) hzThree5]

/-- Position 1 holds the death edge's payload of the last two rows. -/
theorem outBlkDeath5 (x0 x1 x2 x3 : Vec F S1x1x64 .f32) :
    outBlk5 x0 x1 x2 x3 (ValueIdx.ix3 (0 : Fin 1) (0 : Fin 1) (1 : Fin 2))
      = k5_pay2 x2 x3 (ValueIdx.ix3 (0 : Fin 1) (0 : Fin 1) (0 : Fin 1)) := by
  unfold outBlk5
  rw [← embDeath5]
  refine (View.canon_cons_emb (Val := Elt F) (e := .f32) outRectD (k5_pay2 (View.ld x2 rowRect) (View.ld x3 rowRect))
    ([⟨outRectB, k5_pay1 (View.ld x0 rowRect) (View.ld x1 rowRect)⟩] : List (View.Piece (Elt F) S1x1x2 .f32)) _).trans ?_
  rw [View.ld_unit_zero (S := S1x1x64) hzThree5, View.ld_unit_zero (S := S1x1x64) hzThree5]

/-! ## The grid and the index maps, at any admissible contents of the index tables -/

/-- Region 5 has 25000 grid points, one per generator it handles. -/
theorem gridN5 : (cfg5 a).N = 25000 := N_5

/-- A point's one coordinate is the point's number. -/
theorem coords5 (t : Fin (cfg5 a).N) : (((cfg5 a).grid.coords t) 0).val = t.val := by
  have hN := gridN5 a
  have ht := t.isLt
  show t.val / 1 % 25000 = t.val
  omega

/-- The output window's block at point `t` is row `t` of the result: block index `(t, 0, 0)`. -/
theorem outIdxRow5 (t : Fin (cfg5 a).N) : ((cfg5 a).win 4).index t (0 : Fin 3) = t.val := by
  have hN := gridN5 a
  have ht := t.isLt
  show (BitVec.ofNat 32 (((cfg5 a).grid.coords t) 0).val).toNat = t.val
  rw [coords5 a t, BitVec.toNat_ofNat]
  omega
theorem outIdxMid5 (t : Fin (cfg5 a).N) : ((cfg5 a).win 4).index t (1 : Fin 3) = 0 := rfl
theorem outIdxLane5 (t : Fin (cfg5 a).N) : ((cfg5 a).win 4).index t (2 : Fin 3) = 0 := rfl

/-- The slot of an index table that point `t` reads: its own number. -/
abbrev slot5 (t : Fin (cfg5 a).N) : Fin 25000 := ⟨t.val, (gridN5 a) ▸ t.isLt⟩

/-- The grid point that writes row `q` of the result: point `q`. -/
abbrev pt5 (q : Fin 25000) : Fin (cfg5 a).N := ⟨q.val, (gridN5 a).symm ▸ q.isLt⟩

/-- Input window 0's block at point `t` is the table row that word `t` of index table 0 names: block index `(word, 0, 0)`. -/
theorem inIdxRowA5 (t : Fin (cfg5 a).N) (T : S25000.Idx → BitVec 32) (hT : a.1 0 = T) :
    ((cfg5 a).win 0).index t (0 : Fin 3) = (T (ValueIdx.ix1 (slot5 a t))).toNat := by
  subst hT
  show (a.1 0 _).toNat = (a.1 0 _).toNat
  refine congrArg BitVec.toNat (congrArg (a.1 0) ?_)
  funext d; apply Fin.ext
  match d with
  | ⟨0, _⟩ =>
    have hN := gridN5 a
    have ht := t.isLt
    show (BitVec.ofNat 32 (((cfg5 a).grid.coords t) 0).val).toNat + 1 * 0 = t.val
    rw [coords5 a t, BitVec.toNat_ofNat]
    omega
theorem inIdxMidA5 (t : Fin (cfg5 a).N) : ((cfg5 a).win 0).index t (1 : Fin 3) = 0 := rfl
theorem inIdxLaneA5 (t : Fin (cfg5 a).N) : ((cfg5 a).win 0).index t (2 : Fin 3) = 0 := rfl

/-- Input window 1's block at point `t` is the table row that word `t` of index table 1 names: block index `(word, 0, 0)`. -/
theorem inIdxRowB5 (t : Fin (cfg5 a).N) (T : S25000.Idx → BitVec 32) (hT : a.1 1 = T) :
    ((cfg5 a).win 1).index t (0 : Fin 3) = (T (ValueIdx.ix1 (slot5 a t))).toNat := by
  subst hT
  show (a.1 1 _).toNat = (a.1 1 _).toNat
  refine congrArg BitVec.toNat (congrArg (a.1 1) ?_)
  funext d; apply Fin.ext
  match d with
  | ⟨0, _⟩ =>
    have hN := gridN5 a
    have ht := t.isLt
    show (BitVec.ofNat 32 (((cfg5 a).grid.coords t) 0).val).toNat + 1 * 0 = t.val
    rw [coords5 a t, BitVec.toNat_ofNat]
    omega
theorem inIdxMidB5 (t : Fin (cfg5 a).N) : ((cfg5 a).win 1).index t (1 : Fin 3) = 0 := rfl
theorem inIdxLaneB5 (t : Fin (cfg5 a).N) : ((cfg5 a).win 1).index t (2 : Fin 3) = 0 := rfl

/-- Input window 2's block at point `t` is the table row that word `t` of index table 2 names: block index `(word, 0, 0)`. -/
theorem inIdxRowC5 (t : Fin (cfg5 a).N) (T : S25000.Idx → BitVec 32) (hT : a.1 2 = T) :
    ((cfg5 a).win 2).index t (0 : Fin 3) = (T (ValueIdx.ix1 (slot5 a t))).toNat := by
  subst hT
  show (a.1 2 _).toNat = (a.1 2 _).toNat
  refine congrArg BitVec.toNat (congrArg (a.1 2) ?_)
  funext d; apply Fin.ext
  match d with
  | ⟨0, _⟩ =>
    have hN := gridN5 a
    have ht := t.isLt
    show (BitVec.ofNat 32 (((cfg5 a).grid.coords t) 0).val).toNat + 1 * 0 = t.val
    rw [coords5 a t, BitVec.toNat_ofNat]
    omega
theorem inIdxMidC5 (t : Fin (cfg5 a).N) : ((cfg5 a).win 2).index t (1 : Fin 3) = 0 := rfl
theorem inIdxLaneC5 (t : Fin (cfg5 a).N) : ((cfg5 a).win 2).index t (2 : Fin 3) = 0 := rfl

/-- Input window 3's block at point `t` is the table row that word `t` of index table 3 names: block index `(word, 0, 0)`. -/
theorem inIdxRowD5 (t : Fin (cfg5 a).N) (T : S25000.Idx → BitVec 32) (hT : a.1 3 = T) :
    ((cfg5 a).win 3).index t (0 : Fin 3) = (T (ValueIdx.ix1 (slot5 a t))).toNat := by
  subst hT
  show (a.1 3 _).toNat = (a.1 3 _).toNat
  refine congrArg BitVec.toNat (congrArg (a.1 3) ?_)
  funext d; apply Fin.ext
  match d with
  | ⟨0, _⟩ =>
    have hN := gridN5 a
    have ht := t.isLt
    show (BitVec.ofNat 32 (((cfg5 a).grid.coords t) 0).val).toNat + 1 * 0 = t.val
    rw [coords5 a t, BitVec.toNat_ofNat]
    omega
theorem inIdxMidD5 (t : Fin (cfg5 a).N) : ((cfg5 a).win 3).index t (1 : Fin 3) = 0 := rfl
theorem inIdxLaneD5 (t : Fin (cfg5 a).N) : ((cfg5 a).win 3).index t (2 : Fin 3) = 0 := rfl

/-! ## The input blocks: rows of the point table -/

/-- Input window 0's block at point `t` is row `r` of the point table, `r` the row its index word names there. -/
theorem rowBlkA5 (c : Dev nD) (t : Fin (cfg5 a).N) (T : S25000.Idx → BitVec 32) (hT : a.1 0 = T)
    (r : Fin 100000) (hr : r.val = (T (ValueIdx.ix1 (slot5 a t))).toNat) (k : Fin 64) :
    (iblk5 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk5
  show (V c main_v8 : S100000x1x64.Idx → Elt F .f32) ((((cfg5 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg5 a).win 0).index t (0 : Fin 3) * 1 + 1 * 0 = r.val
    rw [inIdxRowA5 a t T hT, hr]
    generalize (T (ValueIdx.ix1 (slot5 a t))).toNat = n
    omega
  | ⟨1, _⟩ =>
    show ((cfg5 a).win 0).index t (1 : Fin 3) * 1 + 1 * 0 = 0
    rw [inIdxMidA5 a t]
  | ⟨2, _⟩ =>
    show ((cfg5 a).win 0).index t (2 : Fin 3) * 64 + 1 * k.val = k.val
    rw [inIdxLaneA5 a t]
    omega

/-- Input window 1's block at point `t` is row `r` of the point table, `r` the row its index word names there. -/
theorem rowBlkB5 (c : Dev nD) (t : Fin (cfg5 a).N) (T : S25000.Idx → BitVec 32) (hT : a.1 1 = T)
    (r : Fin 100000) (hr : r.val = (T (ValueIdx.ix1 (slot5 a t))).toNat) (k : Fin 64) :
    (iblk5 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk5
  show (V c main_v8 : S100000x1x64.Idx → Elt F .f32) ((((cfg5 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg5 a).win 1).index t (0 : Fin 3) * 1 + 1 * 0 = r.val
    rw [inIdxRowB5 a t T hT, hr]
    generalize (T (ValueIdx.ix1 (slot5 a t))).toNat = n
    omega
  | ⟨1, _⟩ =>
    show ((cfg5 a).win 1).index t (1 : Fin 3) * 1 + 1 * 0 = 0
    rw [inIdxMidB5 a t]
  | ⟨2, _⟩ =>
    show ((cfg5 a).win 1).index t (2 : Fin 3) * 64 + 1 * k.val = k.val
    rw [inIdxLaneB5 a t]
    omega

/-- Input window 2's block at point `t` is row `r` of the point table, `r` the row its index word names there. -/
theorem rowBlkC5 (c : Dev nD) (t : Fin (cfg5 a).N) (T : S25000.Idx → BitVec 32) (hT : a.1 2 = T)
    (r : Fin 100000) (hr : r.val = (T (ValueIdx.ix1 (slot5 a t))).toNat) (k : Fin 64) :
    (iblk5 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk5
  show (V c main_v8 : S100000x1x64.Idx → Elt F .f32) ((((cfg5 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg5 a).win 2).index t (0 : Fin 3) * 1 + 1 * 0 = r.val
    rw [inIdxRowC5 a t T hT, hr]
    generalize (T (ValueIdx.ix1 (slot5 a t))).toNat = n
    omega
  | ⟨1, _⟩ =>
    show ((cfg5 a).win 2).index t (1 : Fin 3) * 1 + 1 * 0 = 0
    rw [inIdxMidC5 a t]
  | ⟨2, _⟩ =>
    show ((cfg5 a).win 2).index t (2 : Fin 3) * 64 + 1 * k.val = k.val
    rw [inIdxLaneC5 a t]
    omega

/-- Input window 3's block at point `t` is row `r` of the point table, `r` the row its index word names there. -/
theorem rowBlkD5 (c : Dev nD) (t : Fin (cfg5 a).N) (T : S25000.Idx → BitVec 32) (hT : a.1 3 = T)
    (r : Fin 100000) (hr : r.val = (T (ValueIdx.ix1 (slot5 a t))).toNat) (k : Fin 64) :
    (iblk5 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk5
  show (V c main_v8 : S100000x1x64.Idx → Elt F .f32) ((((cfg5 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg5 a).win 3).index t (0 : Fin 3) * 1 + 1 * 0 = r.val
    rw [inIdxRowD5 a t T hT, hr]
    generalize (T (ValueIdx.ix1 (slot5 a t))).toNat = n
    omega
  | ⟨1, _⟩ =>
    show ((cfg5 a).win 3).index t (1 : Fin 3) * 1 + 1 * 0 = 0
    rw [inIdxMidD5 a t]
  | ⟨2, _⟩ =>
    show ((cfg5 a).win 3).index t (2 : Fin 3) * 64 + 1 * k.val = k.val
    rw [inIdxLaneD5 a t]
    omega

/-! ## The output window: every point writes its own row back -/

/-- Every point writes its output block back: the next point's block is another row. -/
theorem outFlush5 (t : Fin (cfg5 a).N) : ((cfg5 a).win 4).flush t = true := by
  unfold Window.flush
  have hout : ((cfg5 a).win 4).isOut = true := rfl
  rw [hout, Bool.true_and, Bool.or_eq_true, decide_eq_true_eq, decide_eq_true_eq]
  by_cases h : t.val + 1 = (cfg5 a).grid.N
  · exact Or.inl h
  · have hN : (cfg5 a).grid.N = 25000 := N_5
    have hN' := gridN5 a
    refine Or.inr ⟨by have := t.isLt; omega, fun e => ?_⟩
    have e0 := congrFun e (0 : Fin 3)
    rw [outIdxRow5, outIdxRow5] at e0
    exact absurd e0 (by simp)

set_option backward.isDefEq.respectTransparency.types false in
/-- An index of the result array is in point `t`'s block iff each coordinate is in the block's range on its axis. -/
theorem memOutBlk5 (t : Fin (cfg5 a).N) (i : S25000x1x2.Idx) :
    i ∈ (((cfg5 a).win 4).blk t).view.set ↔ ∀ ax : Fin 3, ((cfg5 a).win 4).index t ax * S1x1x2.size ax ≤ (i ax).val
      ∧ (i ax).val < ((cfg5 a).win 4).index t ax * S1x1x2.size ax + S1x1x2.size ax := by
  show i ∈ ((View.whole main_v38).slice (((cfg5 a).win 4).rect t)).set ↔ _
  rw [View.set_slice_whole]
  exact Rect.mem_set_unit

/-- What region 5 leaves in its result array, row by row: row `q` is the output block of the four table rows that
    the index words of point `q` name, position `e` of the block being edge `e`. -/
def rows5 (c : Dev nD) : S25000x1x2.Idx → Elt F .f32 := fun i =>
  outBlk5 (iblk5 V a c 0 (pt5 a ⟨(i 0).val, (i 0).isLt⟩)) (iblk5 V a c 1 (pt5 a ⟨(i 0).val, (i 0).isLt⟩))
    (iblk5 V a c 2 (pt5 a ⟨(i 0).val, (i 0).isLt⟩)) (iblk5 V a c 3 (pt5 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply5 (c : Dev nD) (t : Fin (cfg5 a).N) (e : Fin 2) (i : S25000x1x2.Idx)
    (h0 : (i 0).val = t.val) (h2 : (i 2).val = e.val) :
    rows5 V a c i
      = outBlk5 (iblk5 V a c 0 t) (iblk5 V a c 1 t) (iblk5 V a c 2 t) (iblk5 V a c 3 t) (ValueIdx.ix3 (0 : Fin 1) (0 : Fin 1) e) := by
  obtain rfl : t = pt5 a ⟨(i 0).val, (i 0).isLt⟩ := Fin.ext h0.symm
  obtain rfl : e = ⟨(i 2).val, (i 2).isLt⟩ := Fin.ext h2.symm
  rfl

/-- The same with the position given as an index of the block. -/
theorem rowsAt5 (c : Dev nD) (t : Fin (cfg5 a).N) (j : S1x1x2.Idx) (i : S25000x1x2.Idx)
    (h0 : (i 0).val = t.val) (h2 : (i 2).val = (j 2).val) :
    rows5 V a c i = outBlk5 (iblk5 V a c 0 t) (iblk5 V a c 1 t) (iblk5 V a c 2 t) (iblk5 V a c 3 t) j := by
  rw [rowsApply5 V a c t ⟨(j 2).val, (j 2).isLt⟩ i h0 h2]
  refine congrArg (outBlk5 (iblk5 V a c 0 t) (iblk5 V a c 1 t) (iblk5 V a c 2 t) (iblk5 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows5`. -/
theorem flushedRows5 (c : Dev nD) (t : Fin (cfg5 a).N) :
    (dat5 V a c).flushed 4 t = (((cfg5 a).win 4).blk t).view.read (Elt F) (rows5 V a c) := by
  show ((cfg5 a).win 4).cut ((cfg5 a).grid.coords t) ((dat5 V a c).after 4 t) = _
  rw [after5_4]
  funext j
  show outBlk5 (iblk5 V a c 0 t) (iblk5 V a c 1 t) (iblk5 V a c 2 t) (iblk5 V a c 3 t) (((cfg5 a).win 4).xinj ((cfg5 a).grid.coords t) j)
    = rows5 V a c ((((cfg5 a).win 4).blk t).view.emb j)
  refine (rowsAt5 V a c t _ _ ?_ ?_).symm
  · have hj : (j (0 : Fin 3)).val < 1 := (j (0 : Fin 3)).isLt
    show ((cfg5 a).win 4).index t (0 : Fin 3) * 1 + 1 * (j (0 : Fin 3)).val = t.val
    rw [outIdxRow5 a t]
    omega
  · show ((cfg5 a).win 4).index t (2 : Fin 3) * 2 + 1 * (j (2 : Fin 3)).val = (j (2 : Fin 3)).val
    rw [outIdxLane5 a t]
    omega

/-- After the run the result array holds `rows5`: row `q` was written by point `q`, and by no later point. -/
theorem arrRows5 (c : Dev nD) (q : Fin 25000) (e : Fin 2) :
    ((dat5 V a c).arrAt 4 (cfg5 a).N : S25000x1x2.Idx → Elt F .f32) (ValueIdx.ix3 q (0 : Fin 1) e)
      = rows5 V a c (ValueIdx.ix3 q (0 : Fin 1) e) := by
  refine (dat5 V a c).arrAt_apply_of_mem 4 (rows5 V a c) (fun t _ => flushedRows5 V a c t) (cfg5 a).N (pt5 a q)
    (ValueIdx.ix3 q (0 : Fin 1) e) (pt5 a q).isLt (outFlush5 a _) ((memOutBlk5 a _ _).mpr fun ax => ?_)
  match ax with
  | ⟨0, _⟩ =>
    show ((cfg5 a).win 4).index (pt5 a q) (0 : Fin 3) * 1 ≤ q.val ∧ q.val < ((cfg5 a).win 4).index (pt5 a q) (0 : Fin 3) * 1 + 1
    rw [outIdxRow5 a (pt5 a q)]
    show q.val * 1 ≤ q.val ∧ q.val < q.val * 1 + 1
    omega
  | ⟨1, _⟩ =>
    show ((cfg5 a).win 4).index (pt5 a q) (1 : Fin 3) * 1 ≤ 0 ∧ 0 < ((cfg5 a).win 4).index (pt5 a q) (1 : Fin 3) * 1 + 1
    rw [outIdxMid5 a (pt5 a q)]
    omega
  | ⟨2, _⟩ =>
    have he := e.isLt
    show ((cfg5 a).win 4).index (pt5 a q) (2 : Fin 3) * 2 ≤ e.val ∧ e.val < ((cfg5 a).win 4).index (pt5 a q) (2 : Fin 3) * 2 + 2
    rw [outIdxLane5 a (pt5 a q)]
    omega

/-! ## The value, over the extended reals -/

/-- Two blocks that are rows `r` and `s` of the table `X` have, as the body's payload, the distance between those rows. -/
theorem distOfRows5 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt5_apply (m : (ℓ : Loc nD τ sig) → Buf (Elt Ideal) ℓ) (a : (pcfg5 (F := Ideal)).Adm) (c : Dev nD)
    (ha0 : a.1 0 = tbl m c (5 : Fin 20) 0) (ha1 : a.1 1 = tbl m c (5 : Fin 20) 1)
    (ha2 : a.1 2 = tbl m c (5 : Fin 20) 2) (ha3 : a.1 3 = tbl m c (5 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat5 (F := Ideal) (fun c b => V1 m c b) a c).arrAt 4 (cfg5 a).N : S25000x1x2.Idx → EReal) (ValueIdx.ix3 q 0 e)
      = Cert.EdgeLengths.lengthAt (m ((c.tc : Thread nD τ).loc main_arg0)) (m ((c.tc : Thread nD τ).loc main_arg1))
          (genOf (5 : Fin 20) q) e := by
  refine (arrRows5 (fun c b => V1 m c b) a c q e).trans ?_
  refine (rowsApply5 (fun c b => V1 m c b) a c (pt5 a q) e _ rfl rfl).trans ?_
  -- the row each of the four index words of point `q` names is the vertex that word is
  have hv : ∀ j : Fin 4, (Cert.EdgeLengths.vtx (m ((c.tc : Thread nD τ).loc main_arg1)) (genOf (5 : Fin 20) q) j).val
      = (tbl m c (5 : Fin 20) j (ValueIdx.ix1 (slot5 a (pt5 a q)))).toNat :=
    fun j => Cert.EdgeLengths.vtx_val _ hR _ j
  match e with
  | ⟨0, _⟩ =>
    refine (outBlkBirth5 _ _ _ _).trans ?_
    refine (payBirth5 _ _ _).trans ?_
    exact distOfRows5 _ _ _ _ _
      (fun k => (rowBlkA5 (fun c b => V1 m c b) a c (pt5 a q) _ ha0 _ (hv 0) k).trans (hx _ k))
      (fun k => (rowBlkB5 (fun c b => V1 m c b) a c (pt5 a q) _ ha1 _ (hv 1) k).trans (hx _ k))
  | ⟨1, _⟩ =>
    refine (outBlkDeath5 _ _ _ _).trans ?_
    refine (payDeath5 _ _ _).trans ?_
    exact distOfRows5 _ _ _ _ _
      (fun k => (rowBlkC5 (fun c b => V1 m c b) a c (pt5 a q) _ ha2 _ (hv 2) k).trans (hx _ k))
      (fun k => (rowBlkD5 (fun c b => V1 m c b) a c (pt5 a q) _ ha3 _ (hv 3) k).trans (hx _ k))

end Cert.KernelIdeal.Gen

end
-- ==== Proof.KI.Value6.lean ====
/-
  The value region 6 of the gather-and-norm program leaves in its result array, over the extended reals.

  Region 6 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows6`), which each written-back
  block is a block of; and last, with the tables the four columns of the vertex words and every word in range, the
  row a word names is the vertex that word is, so the entry is the edge length of the specification.
-/
import proofs.«401090_j62775241999084_2_alg».proof.Proof.KI.Region6
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane6 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth6 (u v : Vec Ideal S1x1x64 .f32) (y : S1x1x1.Idx) :
    k6_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k6_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane6 k]
  rfl

/-- The death edge's payload: the same function of its two rows. -/
theorem payDeath6 (u v : Vec Ideal S1x1x64 .f32) (y : S1x1x1.Idx) :
    k6_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k6_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane6 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg6 (F := F)).Adm)

/-! ## The output block at its two positions -/

theorem hzThree6 : (![0, 0, 0] : Fin 3 → Nat) = fun _ => 0 := funext fun ax => by fin_cases ax <;> rfl

/-- Position 0 of the output block lies under the birth edge's store … -/
theorem embBirth6 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath6 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath6 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth6 (x0 x1 x2 x3 : Vec F S1x1x64 .f32) :
    outBlk6 x0 x1 x2 x3 (ValueIdx.ix3 (0 : Fin 1) (0 : Fin 1) (0 : Fin 2))
      = k6_pay1 x0 x1 (ValueIdx.ix3 (0 : Fin 1) (0 : Fin 1) (0 : Fin 1)) := by
  unfold outBlk6
  refine (View.canon_cons_of_not_mem
    (⟨outRectD, k6_pay2 (View.ld x2 rowRect) (View.ld x3 rowRect)⟩ : View.Piece (Elt F) S1x1x2 .f32)
    ([⟨outRectB, k6_pay1 (View.ld x0 rowRect) (View.ld x1 rowRect)⟩] : List (View.Piece (Elt F) S1x1x2 .f32)) notMemDeath6).trans ?_
  rw [← embBirth6]
  refine (View.canon_cons_emb (Val := Elt F) (e := .f32) outRectB (k6_pay1 (View.ld x0 rowRect) (View.ld x1 rowRect)) [] _).trans ?_
  rw [View.ld_unit_zero (S := S1x1x64) hzThree6, View.ld_unit_zero (S := S1x1x64) hzThree6]

/-- Position 1 holds the death edge's payload of the last two rows. -/
theorem outBlkDeath6 (x0 x1 x2 x3 : Vec F S1x1x64 .f32) :
    outBlk6 x0 x1 x2 x3 (ValueIdx.ix3 (0 : Fin 1) (0 : Fin 1) (1 : Fin 2))
      = k6_pay2 x2 x3 (ValueIdx.ix3 (0 : Fin 1) (0 : Fin 1) (0 : Fin 1)) := by
  unfold outBlk6
  rw [← embDeath6]
  refine (View.canon_cons_emb (Val := Elt F) (e := .f32) outRectD (k6_pay2 (View.ld x2 rowRect) (View.ld x3 rowRect))
    ([⟨outRectB, k6_pay1 (View.ld x0 rowRect) (View.ld x1 rowRect)⟩] : List (View.Piece (Elt F) S1x1x2 .f32)) _).trans ?_
  rw [View.ld_unit_zero (S := S1x1x64) hzThree6, View.ld_unit_zero (S := S1x1x64) hzThree6]

/-! ## The grid and the index maps, at any admissible contents of the index tables -/

/-- Region 6 has 25000 grid points, one per generator it handles. -/
theorem gridN6 : (cfg6 a).N = 25000 := N_6

/-- A point's one coordinate is the point's number. -/
theorem coords6 (t : Fin (cfg6 a).N) : (((cfg6 a).grid.coords t) 0).val = t.val := by
  have hN := gridN6 a
  have ht := t.isLt
  show t.val / 1 % 25000 = t.val
  omega

/-- The output window's block at point `t` is row `t` of the result: block index `(t, 0, 0)`. -/
theorem outIdxRow6 (t : Fin (cfg6 a).N) : ((cfg6 a).win 4).index t (0 : Fin 3) = t.val := by
  have hN := gridN6 a
  have ht := t.isLt
  show (BitVec.ofNat 32 (((cfg6 a).grid.coords t) 0).val).toNat = t.val
  rw [coords6 a t, BitVec.toNat_ofNat]
  omega
theorem outIdxMid6 (t : Fin (cfg6 a).N) : ((cfg6 a).win 4).index t (1 : Fin 3) = 0 := rfl
theorem outIdxLane6 (t : Fin (cfg6 a).N) : ((cfg6 a).win 4).index t (2 : Fin 3) = 0 := rfl

/-- The slot of an index table that point `t` reads: its own number. -/
abbrev slot6 (t : Fin (cfg6 a).N) : Fin 25000 := ⟨t.val, (gridN6 a) ▸ t.isLt⟩

/-- The grid point that writes row `q` of the result: point `q`. -/
abbrev pt6 (q : Fin 25000) : Fin (cfg6 a).N := ⟨q.val, (gridN6 a).symm ▸ q.isLt⟩

/-- Input window 0's block at point `t` is the table row that word `t` of index table 0 names: block index `(word, 0, 0)`. -/
theorem inIdxRowA6 (t : Fin (cfg6 a).N) (T : S25000.Idx → BitVec 32) (hT : a.1 0 = T) :
    ((cfg6 a).win 0).index t (0 : Fin 3) = (T (ValueIdx.ix1 (slot6 a t))).toNat := by
  subst hT
  show (a.1 0 _).toNat = (a.1 0 _).toNat
  refine congrArg BitVec.toNat (congrArg (a.1 0) ?_)
  funext d; apply Fin.ext
  match d with
  | ⟨0, _⟩ =>
    have hN := gridN6 a
    have ht := t.isLt
    show (BitVec.ofNat 32 (((cfg6 a).grid.coords t) 0).val).toNat + 1 * 0 = t.val
    rw [coords6 a t, BitVec.toNat_ofNat]
    omega
theorem inIdxMidA6 (t : Fin (cfg6 a).N) : ((cfg6 a).win 0).index t (1 : Fin 3) = 0 := rfl
theorem inIdxLaneA6 (t : Fin (cfg6 a).N) : ((cfg6 a).win 0).index t (2 : Fin 3) = 0 := rfl

/-- Input window 1's block at point `t` is the table row that word `t` of index table 1 names: block index `(word, 0, 0)`. -/
theorem inIdxRowB6 (t : Fin (cfg6 a).N) (T : S25000.Idx → BitVec 32) (hT : a.1 1 = T) :
    ((cfg6 a).win 1).index t (0 : Fin 3) = (T (ValueIdx.ix1 (slot6 a t))).toNat := by
  subst hT
  show (a.1 1 _).toNat = (a.1 1 _).toNat
  refine congrArg BitVec.toNat (congrArg (a.1 1) ?_)
  funext d; apply Fin.ext
  match d with
  | ⟨0, _⟩ =>
    have hN := gridN6 a
    have ht := t.isLt
    show (BitVec.ofNat 32 (((cfg6 a).grid.coords t) 0).val).toNat + 1 * 0 = t.val
    rw [coords6 a t, BitVec.toNat_ofNat]
    omega
theorem inIdxMidB6 (t : Fin (cfg6 a).N) : ((cfg6 a).win 1).index t (1 : Fin 3) = 0 := rfl
theorem inIdxLaneB6 (t : Fin (cfg6 a).N) : ((cfg6 a).win 1).index t (2 : Fin 3) = 0 := rfl

/-- Input window 2's block at point `t` is the table row that word `t` of index table 2 names: block index `(word, 0, 0)`. -/
theorem inIdxRowC6 (t : Fin (cfg6 a).N) (T : S25000.Idx → BitVec 32) (hT : a.1 2 = T) :
    ((cfg6 a).win 2).index t (0 : Fin 3) = (T (ValueIdx.ix1 (slot6 a t))).toNat := by
  subst hT
  show (a.1 2 _).toNat = (a.1 2 _).toNat
  refine congrArg BitVec.toNat (congrArg (a.1 2) ?_)
  funext d; apply Fin.ext
  match d with
  | ⟨0, _⟩ =>
    have hN := gridN6 a
    have ht := t.isLt
    show (BitVec.ofNat 32 (((cfg6 a).grid.coords t) 0).val).toNat + 1 * 0 = t.val
    rw [coords6 a t, BitVec.toNat_ofNat]
    omega
theorem inIdxMidC6 (t : Fin (cfg6 a).N) : ((cfg6 a).win 2).index t (1 : Fin 3) = 0 := rfl
theorem inIdxLaneC6 (t : Fin (cfg6 a).N) : ((cfg6 a).win 2).index t (2 : Fin 3) = 0 := rfl

/-- Input window 3's block at point `t` is the table row that word `t` of index table 3 names: block index `(word, 0, 0)`. -/
theorem inIdxRowD6 (t : Fin (cfg6 a).N) (T : S25000.Idx → BitVec 32) (hT : a.1 3 = T) :
    ((cfg6 a).win 3).index t (0 : Fin 3) = (T (ValueIdx.ix1 (slot6 a t))).toNat := by
  subst hT
  show (a.1 3 _).toNat = (a.1 3 _).toNat
  refine congrArg BitVec.toNat (congrArg (a.1 3) ?_)
  funext d; apply Fin.ext
  match d with
  | ⟨0, _⟩ =>
    have hN := gridN6 a
    have ht := t.isLt
    show (BitVec.ofNat 32 (((cfg6 a).grid.coords t) 0).val).toNat + 1 * 0 = t.val
    rw [coords6 a t, BitVec.toNat_ofNat]
    omega
theorem inIdxMidD6 (t : Fin (cfg6 a).N) : ((cfg6 a).win 3).index t (1 : Fin 3) = 0 := rfl
theorem inIdxLaneD6 (t : Fin (cfg6 a).N) : ((cfg6 a).win 3).index t (2 : Fin 3) = 0 := rfl

/-! ## The input blocks: rows of the point table -/

/-- Input window 0's block at point `t` is row `r` of the point table, `r` the row its index word names there. -/
theorem rowBlkA6 (c : Dev nD) (t : Fin (cfg6 a).N) (T : S25000.Idx → BitVec 32) (hT : a.1 0 = T)
    (r : Fin 100000) (hr : r.val = (T (ValueIdx.ix1 (slot6 a t))).toNat) (k : Fin 64) :
    (iblk6 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk6
  show (V c main_v8 : S100000x1x64.Idx → Elt F .f32) ((((cfg6 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg6 a).win 0).index t (0 : Fin 3) * 1 + 1 * 0 = r.val
    rw [inIdxRowA6 a t T hT, hr]
    generalize (T (ValueIdx.ix1 (slot6 a t))).toNat = n
    omega
  | ⟨1, _⟩ =>
    show ((cfg6 a).win 0).index t (1 : Fin 3) * 1 + 1 * 0 = 0
    rw [inIdxMidA6 a t]
  | ⟨2, _⟩ =>
    show ((cfg6 a).win 0).index t (2 : Fin 3) * 64 + 1 * k.val = k.val
    rw [inIdxLaneA6 a t]
    omega

/-- Input window 1's block at point `t` is row `r` of the point table, `r` the row its index word names there. -/
theorem rowBlkB6 (c : Dev nD) (t : Fin (cfg6 a).N) (T : S25000.Idx → BitVec 32) (hT : a.1 1 = T)
    (r : Fin 100000) (hr : r.val = (T (ValueIdx.ix1 (slot6 a t))).toNat) (k : Fin 64) :
    (iblk6 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk6
  show (V c main_v8 : S100000x1x64.Idx → Elt F .f32) ((((cfg6 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg6 a).win 1).index t (0 : Fin 3) * 1 + 1 * 0 = r.val
    rw [inIdxRowB6 a t T hT, hr]
    generalize (T (ValueIdx.ix1 (slot6 a t))).toNat = n
    omega
  | ⟨1, _⟩ =>
    show ((cfg6 a).win 1).index t (1 : Fin 3) * 1 + 1 * 0 = 0
    rw [inIdxMidB6 a t]
  | ⟨2, _⟩ =>
    show ((cfg6 a).win 1).index t (2 : Fin 3) * 64 + 1 * k.val = k.val
    rw [inIdxLaneB6 a t]
    omega

/-- Input window 2's block at point `t` is row `r` of the point table, `r` the row its index word names there. -/
theorem rowBlkC6 (c : Dev nD) (t : Fin (cfg6 a).N) (T : S25000.Idx → BitVec 32) (hT : a.1 2 = T)
    (r : Fin 100000) (hr : r.val = (T (ValueIdx.ix1 (slot6 a t))).toNat) (k : Fin 64) :
    (iblk6 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk6
  show (V c main_v8 : S100000x1x64.Idx → Elt F .f32) ((((cfg6 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg6 a).win 2).index t (0 : Fin 3) * 1 + 1 * 0 = r.val
    rw [inIdxRowC6 a t T hT, hr]
    generalize (T (ValueIdx.ix1 (slot6 a t))).toNat = n
    omega
  | ⟨1, _⟩ =>
    show ((cfg6 a).win 2).index t (1 : Fin 3) * 1 + 1 * 0 = 0
    rw [inIdxMidC6 a t]
  | ⟨2, _⟩ =>
    show ((cfg6 a).win 2).index t (2 : Fin 3) * 64 + 1 * k.val = k.val
    rw [inIdxLaneC6 a t]
    omega

/-- Input window 3's block at point `t` is row `r` of the point table, `r` the row its index word names there. -/
theorem rowBlkD6 (c : Dev nD) (t : Fin (cfg6 a).N) (T : S25000.Idx → BitVec 32) (hT : a.1 3 = T)
    (r : Fin 100000) (hr : r.val = (T (ValueIdx.ix1 (slot6 a t))).toNat) (k : Fin 64) :
    (iblk6 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk6
  show (V c main_v8 : S100000x1x64.Idx → Elt F .f32) ((((cfg6 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg6 a).win 3).index t (0 : Fin 3) * 1 + 1 * 0 = r.val
    rw [inIdxRowD6 a t T hT, hr]
    generalize (T (ValueIdx.ix1 (slot6 a t))).toNat = n
    omega
  | ⟨1, _⟩ =>
    show ((cfg6 a).win 3).index t (1 : Fin 3) * 1 + 1 * 0 = 0
    rw [inIdxMidD6 a t]
  | ⟨2, _⟩ =>
    show ((cfg6 a).win 3).index t (2 : Fin 3) * 64 + 1 * k.val = k.val
    rw [inIdxLaneD6 a t]
    omega

/-! ## The output window: every point writes its own row back -/

/-- Every point writes its output block back: the next point's block is another row. -/
theorem outFlush6 (t : Fin (cfg6 a).N) : ((cfg6 a).win 4).flush t = true := by
  unfold Window.flush
  have hout : ((cfg6 a).win 4).isOut = true := rfl
  rw [hout, Bool.true_and, Bool.or_eq_true, decide_eq_true_eq, decide_eq_true_eq]
  by_cases h : t.val + 1 = (cfg6 a).grid.N
  · exact Or.inl h
  · have hN : (cfg6 a).grid.N = 25000 := N_6
    have hN' := gridN6 a
    refine Or.inr ⟨by have := t.isLt; omega, fun e => ?_⟩
    have e0 := congrFun e (0 : Fin 3)
    rw [outIdxRow6, outIdxRow6] at e0
    exact absurd e0 (by simp)

set_option backward.isDefEq.respectTransparency.types false in
/-- An index of the result array is in point `t`'s block iff each coordinate is in the block's range on its axis. -/
theorem memOutBlk6 (t : Fin (cfg6 a).N) (i : S25000x1x2.Idx) :
    i ∈ (((cfg6 a).win 4).blk t).view.set ↔ ∀ ax : Fin 3, ((cfg6 a).win 4).index t ax * S1x1x2.size ax ≤ (i ax).val
      ∧ (i ax).val < ((cfg6 a).win 4).index t ax * S1x1x2.size ax + S1x1x2.size ax := by
  show i ∈ ((View.whole main_v43).slice (((cfg6 a).win 4).rect t)).set ↔ _
  rw [View.set_slice_whole]
  exact Rect.mem_set_unit

/-- What region 6 leaves in its result array, row by row: row `q` is the output block of the four table rows that
    the index words of point `q` name, position `e` of the block being edge `e`. -/
def rows6 (c : Dev nD) : S25000x1x2.Idx → Elt F .f32 := fun i =>
  outBlk6 (iblk6 V a c 0 (pt6 a ⟨(i 0).val, (i 0).isLt⟩)) (iblk6 V a c 1 (pt6 a ⟨(i 0).val, (i 0).isLt⟩))
    (iblk6 V a c 2 (pt6 a ⟨(i 0).val, (i 0).isLt⟩)) (iblk6 V a c 3 (pt6 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply6 (c : Dev nD) (t : Fin (cfg6 a).N) (e : Fin 2) (i : S25000x1x2.Idx)
    (h0 : (i 0).val = t.val) (h2 : (i 2).val = e.val) :
    rows6 V a c i
      = outBlk6 (iblk6 V a c 0 t) (iblk6 V a c 1 t) (iblk6 V a c 2 t) (iblk6 V a c 3 t) (ValueIdx.ix3 (0 : Fin 1) (0 : Fin 1) e) := by
  obtain rfl : t = pt6 a ⟨(i 0).val, (i 0).isLt⟩ := Fin.ext h0.symm
  obtain rfl : e = ⟨(i 2).val, (i 2).isLt⟩ := Fin.ext h2.symm
  rfl

/-- The same with the position given as an index of the block. -/
theorem rowsAt6 (c : Dev nD) (t : Fin (cfg6 a).N) (j : S1x1x2.Idx) (i : S25000x1x2.Idx)
    (h0 : (i 0).val = t.val) (h2 : (i 2).val = (j 2).val) :
    rows6 V a c i = outBlk6 (iblk6 V a c 0 t) (iblk6 V a c 1 t) (iblk6 V a c 2 t) (iblk6 V a c 3 t) j := by
  rw [rowsApply6 V a c t ⟨(j 2).val, (j 2).isLt⟩ i h0 h2]
  refine congrArg (outBlk6 (iblk6 V a c 0 t) (iblk6 V a c 1 t) (iblk6 V a c 2 t) (iblk6 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows6`. -/
theorem flushedRows6 (c : Dev nD) (t : Fin (cfg6 a).N) :
    (dat6 V a c).flushed 4 t = (((cfg6 a).win 4).blk t).view.read (Elt F) (rows6 V a c) := by
  show ((cfg6 a).win 4).cut ((cfg6 a).grid.coords t) ((dat6 V a c).after 4 t) = _
  rw [after6_4]
  funext j
  show outBlk6 (iblk6 V a c 0 t) (iblk6 V a c 1 t) (iblk6 V a c 2 t) (iblk6 V a c 3 t) (((cfg6 a).win 4).xinj ((cfg6 a).grid.coords t) j)
    = rows6 V a c ((((cfg6 a).win 4).blk t).view.emb j)
  refine (rowsAt6 V a c t _ _ ?_ ?_).symm
  · have hj : (j (0 : Fin 3)).val < 1 := (j (0 : Fin 3)).isLt
    show ((cfg6 a).win 4).index t (0 : Fin 3) * 1 + 1 * (j (0 : Fin 3)).val = t.val
    rw [outIdxRow6 a t]
    omega
  · show ((cfg6 a).win 4).index t (2 : Fin 3) * 2 + 1 * (j (2 : Fin 3)).val = (j (2 : Fin 3)).val
    rw [outIdxLane6 a t]
    omega

/-- After the run the result array holds `rows6`: row `q` was written by point `q`, and by no later point. -/
theorem arrRows6 (c : Dev nD) (q : Fin 25000) (e : Fin 2) :
    ((dat6 V a c).arrAt 4 (cfg6 a).N : S25000x1x2.Idx → Elt F .f32) (ValueIdx.ix3 q (0 : Fin 1) e)
      = rows6 V a c (ValueIdx.ix3 q (0 : Fin 1) e) := by
  refine (dat6 V a c).arrAt_apply_of_mem 4 (rows6 V a c) (fun t _ => flushedRows6 V a c t) (cfg6 a).N (pt6 a q)
    (ValueIdx.ix3 q (0 : Fin 1) e) (pt6 a q).isLt (outFlush6 a _) ((memOutBlk6 a _ _).mpr fun ax => ?_)
  match ax with
  | ⟨0, _⟩ =>
    show ((cfg6 a).win 4).index (pt6 a q) (0 : Fin 3) * 1 ≤ q.val ∧ q.val < ((cfg6 a).win 4).index (pt6 a q) (0 : Fin 3) * 1 + 1
    rw [outIdxRow6 a (pt6 a q)]
    show q.val * 1 ≤ q.val ∧ q.val < q.val * 1 + 1
    omega
  | ⟨1, _⟩ =>
    show ((cfg6 a).win 4).index (pt6 a q) (1 : Fin 3) * 1 ≤ 0 ∧ 0 < ((cfg6 a).win 4).index (pt6 a q) (1 : Fin 3) * 1 + 1
    rw [outIdxMid6 a (pt6 a q)]
    omega
  | ⟨2, _⟩ =>
    have he := e.isLt
    show ((cfg6 a).win 4).index (pt6 a q) (2 : Fin 3) * 2 ≤ e.val ∧ e.val < ((cfg6 a).win 4).index (pt6 a q) (2 : Fin 3) * 2 + 2
    rw [outIdxLane6 a (pt6 a q)]
    omega

/-! ## The value, over the extended reals -/

/-- Two blocks that are rows `r` and `s` of the table `X` have, as the body's payload, the distance between those rows. -/
theorem distOfRows6 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt6_apply (m : (ℓ : Loc nD τ sig) → Buf (Elt Ideal) ℓ) (a : (pcfg6 (F := Ideal)).Adm) (c : Dev nD)
    (ha0 : a.1 0 = tbl m c (6 : Fin 20) 0) (ha1 : a.1 1 = tbl m c (6 : Fin 20) 1)
    (ha2 : a.1 2 = tbl m c (6 : Fin 20) 2) (ha3 : a.1 3 = tbl m c (6 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat6 (F := Ideal) (fun c b => V1 m c b) a c).arrAt 4 (cfg6 a).N : S25000x1x2.Idx → EReal) (ValueIdx.ix3 q 0 e)
      = Cert.EdgeLengths.lengthAt (m ((c.tc : Thread nD τ).loc main_arg0)) (m ((c.tc : Thread nD τ).loc main_arg1))
          (genOf (6 : Fin 20) q) e := by
  refine (arrRows6 (fun c b => V1 m c b) a c q e).trans ?_
  refine (rowsApply6 (fun c b => V1 m c b) a c (pt6 a q) e _ rfl rfl).trans ?_
  -- the row each of the four index words of point `q` names is the vertex that word is
  have hv : ∀ j : Fin 4, (Cert.EdgeLengths.vtx (m ((c.tc : Thread nD τ).loc main_arg1)) (genOf (6 : Fin 20) q) j).val
      = (tbl m c (6 : Fin 20) j (ValueIdx.ix1 (slot6 a (pt6 a q)))).toNat :=
    fun j => Cert.EdgeLengths.vtx_val _ hR _ j
  match e with
  | ⟨0, _⟩ =>
    refine (outBlkBirth6 _ _ _ _).trans ?_
    refine (payBirth6 _ _ _).trans ?_
    exact distOfRows6 _ _ _ _ _
      (fun k => (rowBlkA6 (fun c b => V1 m c b) a c (pt6 a q) _ ha0 _ (hv 0) k).trans (hx _ k))
      (fun k => (rowBlkB6 (fun c b => V1 m c b) a c (pt6 a q) _ ha1 _ (hv 1) k).trans (hx _ k))
  | ⟨1, _⟩ =>
    refine (outBlkDeath6 _ _ _ _).trans ?_
    refine (payDeath6 _ _ _).trans ?_
    exact distOfRows6 _ _ _ _ _
      (fun k => (rowBlkC6 (fun c b => V1 m c b) a c (pt6 a q) _ ha2 _ (hv 2) k).trans (hx _ k))
      (fun k => (rowBlkD6 (fun c b => V1 m c b) a c (pt6 a q) _ ha3 _ (hv 3) k).trans (hx _ k))

end Cert.KernelIdeal.Gen

end
-- ==== Proof.KI.Value7.lean ====
/-
  The value region 7 of the gather-and-norm program leaves in its result array, over the extended reals.

  Region 7 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows7`), which each written-back
  block is a block of; and last, with the tables the four columns of the vertex words and every word in range, the
  row a word names is the vertex that word is, so the entry is the edge length of the specification.
-/
import proofs.«401090_j62775241999084_2_alg».proof.Proof.KI.Region7
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane7 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth7 (u v : Vec Ideal S1x1x64 .f32) (y : S1x1x1.Idx) :
    k7_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k7_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane7 k]
  rfl

/-- The death edge's payload: the same function of its two rows. -/
theorem payDeath7 (u v : Vec Ideal S1x1x64 .f32) (y : S1x1x1.Idx) :
    k7_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k7_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane7 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg7 (F := F)).Adm)

/-! ## The output block at its two positions -/

theorem hzThree7 : (![0, 0, 0] : Fin 3 → Nat) = fun _ => 0 := funext fun ax => by fin_cases ax <;> rfl

/-- Position 0 of the output block lies under the birth edge's store … -/
theorem embBirth7 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath7 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath7 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth7 (x0 x1 x2 x3 : Vec F S1x1x64 .f32) :
    outBlk7 x0 x1 x2 x3 (ValueIdx.ix3 (0 : Fin 1) (0 : Fin 1) (0 : Fin 2))
      = k7_pay1 x0 x1 (ValueIdx.ix3 (0 : Fin 1) (0 : Fin 1) (0 : Fin 1)) := by
  unfold outBlk7
  refine (View.canon_cons_of_not_mem
    (⟨outRectD, k7_pay2 (View.ld x2 rowRect) (View.ld x3 rowRect)⟩ : View.Piece (Elt F) S1x1x2 .f32)
    ([⟨outRectB, k7_pay1 (View.ld x0 rowRect) (View.ld x1 rowRect)⟩] : List (View.Piece (Elt F) S1x1x2 .f32)) notMemDeath7).trans ?_
  rw [← embBirth7]
  refine (View.canon_cons_emb (Val := Elt F) (e := .f32) outRectB (k7_pay1 (View.ld x0 rowRect) (View.ld x1 rowRect)) [] _).trans ?_
  rw [View.ld_unit_zero (S := S1x1x64) hzThree7, View.ld_unit_zero (S := S1x1x64) hzThree7]

/-- Position 1 holds the death edge's payload of the last two rows. -/
theorem outBlkDeath7 (x0 x1 x2 x3 : Vec F S1x1x64 .f32) :
    outBlk7 x0 x1 x2 x3 (ValueIdx.ix3 (0 : Fin 1) (0 : Fin 1) (1 : Fin 2))
      = k7_pay2 x2 x3 (ValueIdx.ix3 (0 : Fin 1) (0 : Fin 1) (0 : Fin 1)) := by
  unfold outBlk7
  rw [← embDeath7]
  refine (View.canon_cons_emb (Val := Elt F) (e := .f32) outRectD (k7_pay2 (View.ld x2 rowRect) (View.ld x3 rowRect))
    ([⟨outRectB, k7_pay1 (View.ld x0 rowRect) (View.ld x1 rowRect)⟩] : List (View.Piece (Elt F) S1x1x2 .f32)) _).trans ?_
  rw [View.ld_unit_zero (S := S1x1x64) hzThree7, View.ld_unit_zero (S := S1x1x64) hzThree7]

/-! ## The grid and the index maps, at any admissible contents of the index tables -/

/-- Region 7 has 25000 grid points, one per generator it handles. -/
theorem gridN7 : (cfg7 a).N = 25000 := N_7

/-- A point's one coordinate is the point's number. -/
theorem coords7 (t : Fin (cfg7 a).N) : (((cfg7 a).grid.coords t) 0).val = t.val := by
  have hN := gridN7 a
  have ht := t.isLt
  show t.val / 1 % 25000 = t.val
  omega

/-- The output window's block at point `t` is row `t` of the result: block index `(t, 0, 0)`. -/
theorem outIdxRow7 (t : Fin (cfg7 a).N) : ((cfg7 a).win 4).index t (0 : Fin 3) = t.val := by
  have hN := gridN7 a
  have ht := t.isLt
  show (BitVec.ofNat 32 (((cfg7 a).grid.coords t) 0).val).toNat = t.val
  rw [coords7 a t, BitVec.toNat_ofNat]
  omega
theorem outIdxMid7 (t : Fin (cfg7 a).N) : ((cfg7 a).win 4).index t (1 : Fin 3) = 0 := rfl
theorem outIdxLane7 (t : Fin (cfg7 a).N) : ((cfg7 a).win 4).index t (2 : Fin 3) = 0 := rfl

/-- The slot of an index table that point `t` reads: its own number. -/
abbrev slot7 (t : Fin (cfg7 a).N) : Fin 25000 := ⟨t.val, (gridN7 a) ▸ t.isLt⟩

/-- The grid point that writes row `q` of the result: point `q`. -/
abbrev pt7 (q : Fin 25000) : Fin (cfg7 a).N := ⟨q.val, (gridN7 a).symm ▸ q.isLt⟩

/-- Input window 0's block at point `t` is the table row that word `t` of index table 0 names: block index `(word, 0, 0)`. -/
theorem inIdxRowA7 (t : Fin (cfg7 a).N) (T : S25000.Idx → BitVec 32) (hT : a.1 0 = T) :
    ((cfg7 a).win 0).index t (0 : Fin 3) = (T (ValueIdx.ix1 (slot7 a t))).toNat := by
  subst hT
  show (a.1 0 _).toNat = (a.1 0 _).toNat
  refine congrArg BitVec.toNat (congrArg (a.1 0) ?_)
  funext d; apply Fin.ext
  match d with
  | ⟨0, _⟩ =>
    have hN := gridN7 a
    have ht := t.isLt
    show (BitVec.ofNat 32 (((cfg7 a).grid.coords t) 0).val).toNat + 1 * 0 = t.val
    rw [coords7 a t, BitVec.toNat_ofNat]
    omega
theorem inIdxMidA7 (t : Fin (cfg7 a).N) : ((cfg7 a).win 0).index t (1 : Fin 3) = 0 := rfl
theorem inIdxLaneA7 (t : Fin (cfg7 a).N) : ((cfg7 a).win 0).index t (2 : Fin 3) = 0 := rfl

/-- Input window 1's block at point `t` is the table row that word `t` of index table 1 names: block index `(word, 0, 0)`. -/
theorem inIdxRowB7 (t : Fin (cfg7 a).N) (T : S25000.Idx → BitVec 32) (hT : a.1 1 = T) :
    ((cfg7 a).win 1).index t (0 : Fin 3) = (T (ValueIdx.ix1 (slot7 a t))).toNat := by
  subst hT
  show (a.1 1 _).toNat = (a.1 1 _).toNat
  refine congrArg BitVec.toNat (congrArg (a.1 1) ?_)
  funext d; apply Fin.ext
  match d with
  | ⟨0, _⟩ =>
    have hN := gridN7 a
    have ht := t.isLt
    show (BitVec.ofNat 32 (((cfg7 a).grid.coords t) 0).val).toNat + 1 * 0 = t.val
    rw [coords7 a t, BitVec.toNat_ofNat]
    omega
theorem inIdxMidB7 (t : Fin (cfg7 a).N) : ((cfg7 a).win 1).index t (1 : Fin 3) = 0 := rfl
theorem inIdxLaneB7 (t : Fin (cfg7 a).N) : ((cfg7 a).win 1).index t (2 : Fin 3) = 0 := rfl

/-- Input window 2's block at point `t` is the table row that word `t` of index table 2 names: block index `(word, 0, 0)`. -/
theorem inIdxRowC7 (t : Fin (cfg7 a).N) (T : S25000.Idx → BitVec 32) (hT : a.1 2 = T) :
    ((cfg7 a).win 2).index t (0 : Fin 3) = (T (ValueIdx.ix1 (slot7 a t))).toNat := by
  subst hT
  show (a.1 2 _).toNat = (a.1 2 _).toNat
  refine congrArg BitVec.toNat (congrArg (a.1 2) ?_)
  funext d; apply Fin.ext
  match d with
  | ⟨0, _⟩ =>
    have hN := gridN7 a
    have ht := t.isLt
    show (BitVec.ofNat 32 (((cfg7 a).grid.coords t) 0).val).toNat + 1 * 0 = t.val
    rw [coords7 a t, BitVec.toNat_ofNat]
    omega
theorem inIdxMidC7 (t : Fin (cfg7 a).N) : ((cfg7 a).win 2).index t (1 : Fin 3) = 0 := rfl
theorem inIdxLaneC7 (t : Fin (cfg7 a).N) : ((cfg7 a).win 2).index t (2 : Fin 3) = 0 := rfl

/-- Input window 3's block at point `t` is the table row that word `t` of index table 3 names: block index `(word, 0, 0)`. -/
theorem inIdxRowD7 (t : Fin (cfg7 a).N) (T : S25000.Idx → BitVec 32) (hT : a.1 3 = T) :
    ((cfg7 a).win 3).index t (0 : Fin 3) = (T (ValueIdx.ix1 (slot7 a t))).toNat := by
  subst hT
  show (a.1 3 _).toNat = (a.1 3 _).toNat
  refine congrArg BitVec.toNat (congrArg (a.1 3) ?_)
  funext d; apply Fin.ext
  match d with
  | ⟨0, _⟩ =>
    have hN := gridN7 a
    have ht := t.isLt
    show (BitVec.ofNat 32 (((cfg7 a).grid.coords t) 0).val).toNat + 1 * 0 = t.val
    rw [coords7 a t, BitVec.toNat_ofNat]
    omega
theorem inIdxMidD7 (t : Fin (cfg7 a).N) : ((cfg7 a).win 3).index t (1 : Fin 3) = 0 := rfl
theorem inIdxLaneD7 (t : Fin (cfg7 a).N) : ((cfg7 a).win 3).index t (2 : Fin 3) = 0 := rfl

/-! ## The input blocks: rows of the point table -/

/-- Input window 0's block at point `t` is row `r` of the point table, `r` the row its index word names there. -/
theorem rowBlkA7 (c : Dev nD) (t : Fin (cfg7 a).N) (T : S25000.Idx → BitVec 32) (hT : a.1 0 = T)
    (r : Fin 100000) (hr : r.val = (T (ValueIdx.ix1 (slot7 a t))).toNat) (k : Fin 64) :
    (iblk7 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk7
  show (V c main_v8 : S100000x1x64.Idx → Elt F .f32) ((((cfg7 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg7 a).win 0).index t (0 : Fin 3) * 1 + 1 * 0 = r.val
    rw [inIdxRowA7 a t T hT, hr]
    generalize (T (ValueIdx.ix1 (slot7 a t))).toNat = n
    omega
  | ⟨1, _⟩ =>
    show ((cfg7 a).win 0).index t (1 : Fin 3) * 1 + 1 * 0 = 0
    rw [inIdxMidA7 a t]
  | ⟨2, _⟩ =>
    show ((cfg7 a).win 0).index t (2 : Fin 3) * 64 + 1 * k.val = k.val
    rw [inIdxLaneA7 a t]
    omega

/-- Input window 1's block at point `t` is row `r` of the point table, `r` the row its index word names there. -/
theorem rowBlkB7 (c : Dev nD) (t : Fin (cfg7 a).N) (T : S25000.Idx → BitVec 32) (hT : a.1 1 = T)
    (r : Fin 100000) (hr : r.val = (T (ValueIdx.ix1 (slot7 a t))).toNat) (k : Fin 64) :
    (iblk7 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk7
  show (V c main_v8 : S100000x1x64.Idx → Elt F .f32) ((((cfg7 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg7 a).win 1).index t (0 : Fin 3) * 1 + 1 * 0 = r.val
    rw [inIdxRowB7 a t T hT, hr]
    generalize (T (ValueIdx.ix1 (slot7 a t))).toNat = n
    omega
  | ⟨1, _⟩ =>
    show ((cfg7 a).win 1).index t (1 : Fin 3) * 1 + 1 * 0 = 0
    rw [inIdxMidB7 a t]
  | ⟨2, _⟩ =>
    show ((cfg7 a).win 1).index t (2 : Fin 3) * 64 + 1 * k.val = k.val
    rw [inIdxLaneB7 a t]
    omega

/-- Input window 2's block at point `t` is row `r` of the point table, `r` the row its index word names there. -/
theorem rowBlkC7 (c : Dev nD) (t : Fin (cfg7 a).N) (T : S25000.Idx → BitVec 32) (hT : a.1 2 = T)
    (r : Fin 100000) (hr : r.val = (T (ValueIdx.ix1 (slot7 a t))).toNat) (k : Fin 64) :
    (iblk7 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk7
  show (V c main_v8 : S100000x1x64.Idx → Elt F .f32) ((((cfg7 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg7 a).win 2).index t (0 : Fin 3) * 1 + 1 * 0 = r.val
    rw [inIdxRowC7 a t T hT, hr]
    generalize (T (ValueIdx.ix1 (slot7 a t))).toNat = n
    omega
  | ⟨1, _⟩ =>
    show ((cfg7 a).win 2).index t (1 : Fin 3) * 1 + 1 * 0 = 0
    rw [inIdxMidC7 a t]
  | ⟨2, _⟩ =>
    show ((cfg7 a).win 2).index t (2 : Fin 3) * 64 + 1 * k.val = k.val
    rw [inIdxLaneC7 a t]
    omega

/-- Input window 3's block at point `t` is row `r` of the point table, `r` the row its index word names there. -/
theorem rowBlkD7 (c : Dev nD) (t : Fin (cfg7 a).N) (T : S25000.Idx → BitVec 32) (hT : a.1 3 = T)
    (r : Fin 100000) (hr : r.val = (T (ValueIdx.ix1 (slot7 a t))).toNat) (k : Fin 64) :
    (iblk7 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk7
  show (V c main_v8 : S100000x1x64.Idx → Elt F .f32) ((((cfg7 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg7 a).win 3).index t (0 : Fin 3) * 1 + 1 * 0 = r.val
    rw [inIdxRowD7 a t T hT, hr]
    generalize (T (ValueIdx.ix1 (slot7 a t))).toNat = n
    omega
  | ⟨1, _⟩ =>
    show ((cfg7 a).win 3).index t (1 : Fin 3) * 1 + 1 * 0 = 0
    rw [inIdxMidD7 a t]
  | ⟨2, _⟩ =>
    show ((cfg7 a).win 3).index t (2 : Fin 3) * 64 + 1 * k.val = k.val
    rw [inIdxLaneD7 a t]
    omega

/-! ## The output window: every point writes its own row back -/

/-- Every point writes its output block back: the next point's block is another row. -/
theorem outFlush7 (t : Fin (cfg7 a).N) : ((cfg7 a).win 4).flush t = true := by
  unfold Window.flush
  have hout : ((cfg7 a).win 4).isOut = true := rfl
  rw [hout, Bool.true_and, Bool.or_eq_true, decide_eq_true_eq, decide_eq_true_eq]
  by_cases h : t.val + 1 = (cfg7 a).grid.N
  · exact Or.inl h
  · have hN : (cfg7 a).grid.N = 25000 := N_7
    have hN' := gridN7 a
    refine Or.inr ⟨by have := t.isLt; omega, fun e => ?_⟩
    have e0 := congrFun e (0 : Fin 3)
    rw [outIdxRow7, outIdxRow7] at e0
    exact absurd e0 (by simp)

set_option backward.isDefEq.respectTransparency.types false in
/-- An index of the result array is in point `t`'s block iff each coordinate is in the block's range on its axis. -/
theorem memOutBlk7 (t : Fin (cfg7 a).N) (i : S25000x1x2.Idx) :
    i ∈ (((cfg7 a).win 4).blk t).view.set ↔ ∀ ax : Fin 3, ((cfg7 a).win 4).index t ax * S1x1x2.size ax ≤ (i ax).val
      ∧ (i ax).val < ((cfg7 a).win 4).index t ax * S1x1x2.size ax + S1x1x2.size ax := by
  show i ∈ ((View.whole main_v48).slice (((cfg7 a).win 4).rect t)).set ↔ _
  rw [View.set_slice_whole]
  exact Rect.mem_set_unit

/-- What region 7 leaves in its result array, row by row: row `q` is the output block of the four table rows that
    the index words of point `q` name, position `e` of the block being edge `e`. -/
def rows7 (c : Dev nD) : S25000x1x2.Idx → Elt F .f32 := fun i =>
  outBlk7 (iblk7 V a c 0 (pt7 a ⟨(i 0).val, (i 0).isLt⟩)) (iblk7 V a c 1 (pt7 a ⟨(i 0).val, (i 0).isLt⟩))
    (iblk7 V a c 2 (pt7 a ⟨(i 0).val, (i 0).isLt⟩)) (iblk7 V a c 3 (pt7 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply7 (c : Dev nD) (t : Fin (cfg7 a).N) (e : Fin 2) (i : S25000x1x2.Idx)
    (h0 : (i 0).val = t.val) (h2 : (i 2).val = e.val) :
    rows7 V a c i
      = outBlk7 (iblk7 V a c 0 t) (iblk7 V a c 1 t) (iblk7 V a c 2 t) (iblk7 V a c 3 t) (ValueIdx.ix3 (0 : Fin 1) (0 : Fin 1) e) := by
  obtain rfl : t = pt7 a ⟨(i 0).val, (i 0).isLt⟩ := Fin.ext h0.symm
  obtain rfl : e = ⟨(i 2).val, (i 2).isLt⟩ := Fin.ext h2.symm
  rfl

/-- The same with the position given as an index of the block. -/
theorem rowsAt7 (c : Dev nD) (t : Fin (cfg7 a).N) (j : S1x1x2.Idx) (i : S25000x1x2.Idx)
    (h0 : (i 0).val = t.val) (h2 : (i 2).val = (j 2).val) :
    rows7 V a c i = outBlk7 (iblk7 V a c 0 t) (iblk7 V a c 1 t) (iblk7 V a c 2 t) (iblk7 V a c 3 t) j := by
  rw [rowsApply7 V a c t ⟨(j 2).val, (j 2).isLt⟩ i h0 h2]
  refine congrArg (outBlk7 (iblk7 V a c 0 t) (iblk7 V a c 1 t) (iblk7 V a c 2 t) (iblk7 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows7`. -/
theorem flushedRows7 (c : Dev nD) (t : Fin (cfg7 a).N) :
    (dat7 V a c).flushed 4 t = (((cfg7 a).win 4).blk t).view.read (Elt F) (rows7 V a c) := by
  show ((cfg7 a).win 4).cut ((cfg7 a).grid.coords t) ((dat7 V a c).after 4 t) = _
  rw [after7_4]
  funext j
  show outBlk7 (iblk7 V a c 0 t) (iblk7 V a c 1 t) (iblk7 V a c 2 t) (iblk7 V a c 3 t) (((cfg7 a).win 4).xinj ((cfg7 a).grid.coords t) j)
    = rows7 V a c ((((cfg7 a).win 4).blk t).view.emb j)
  refine (rowsAt7 V a c t _ _ ?_ ?_).symm
  · have hj : (j (0 : Fin 3)).val < 1 := (j (0 : Fin 3)).isLt
    show ((cfg7 a).win 4).index t (0 : Fin 3) * 1 + 1 * (j (0 : Fin 3)).val = t.val
    rw [outIdxRow7 a t]
    omega
  · show ((cfg7 a).win 4).index t (2 : Fin 3) * 2 + 1 * (j (2 : Fin 3)).val = (j (2 : Fin 3)).val
    rw [outIdxLane7 a t]
    omega

/-- After the run the result array holds `rows7`: row `q` was written by point `q`, and by no later point. -/
theorem arrRows7 (c : Dev nD) (q : Fin 25000) (e : Fin 2) :
    ((dat7 V a c).arrAt 4 (cfg7 a).N : S25000x1x2.Idx → Elt F .f32) (ValueIdx.ix3 q (0 : Fin 1) e)
      = rows7 V a c (ValueIdx.ix3 q (0 : Fin 1) e) := by
  refine (dat7 V a c).arrAt_apply_of_mem 4 (rows7 V a c) (fun t _ => flushedRows7 V a c t) (cfg7 a).N (pt7 a q)
    (ValueIdx.ix3 q (0 : Fin 1) e) (pt7 a q).isLt (outFlush7 a _) ((memOutBlk7 a _ _).mpr fun ax => ?_)
  match ax with
  | ⟨0, _⟩ =>
    show ((cfg7 a).win 4).index (pt7 a q) (0 : Fin 3) * 1 ≤ q.val ∧ q.val < ((cfg7 a).win 4).index (pt7 a q) (0 : Fin 3) * 1 + 1
    rw [outIdxRow7 a (pt7 a q)]
    show q.val * 1 ≤ q.val ∧ q.val < q.val * 1 + 1
    omega
  | ⟨1, _⟩ =>
    show ((cfg7 a).win 4).index (pt7 a q) (1 : Fin 3) * 1 ≤ 0 ∧ 0 < ((cfg7 a).win 4).index (pt7 a q) (1 : Fin 3) * 1 + 1
    rw [outIdxMid7 a (pt7 a q)]
    omega
  | ⟨2, _⟩ =>
    have he := e.isLt
    show ((cfg7 a).win 4).index (pt7 a q) (2 : Fin 3) * 2 ≤ e.val ∧ e.val < ((cfg7 a).win 4).index (pt7 a q) (2 : Fin 3) * 2 + 2
    rw [outIdxLane7 a (pt7 a q)]
    omega

/-! ## The value, over the extended reals -/

/-- Two blocks that are rows `r` and `s` of the table `X` have, as the body's payload, the distance between those rows. -/
theorem distOfRows7 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt7_apply (m : (ℓ : Loc nD τ sig) → Buf (Elt Ideal) ℓ) (a : (pcfg7 (F := Ideal)).Adm) (c : Dev nD)
    (ha0 : a.1 0 = tbl m c (7 : Fin 20) 0) (ha1 : a.1 1 = tbl m c (7 : Fin 20) 1)
    (ha2 : a.1 2 = tbl m c (7 : Fin 20) 2) (ha3 : a.1 3 = tbl m c (7 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat7 (F := Ideal) (fun c b => V1 m c b) a c).arrAt 4 (cfg7 a).N : S25000x1x2.Idx → EReal) (ValueIdx.ix3 q 0 e)
      = Cert.EdgeLengths.lengthAt (m ((c.tc : Thread nD τ).loc main_arg0)) (m ((c.tc : Thread nD τ).loc main_arg1))
          (genOf (7 : Fin 20) q) e := by
  refine (arrRows7 (fun c b => V1 m c b) a c q e).trans ?_
  refine (rowsApply7 (fun c b => V1 m c b) a c (pt7 a q) e _ rfl rfl).trans ?_
  -- the row each of the four index words of point `q` names is the vertex that word is
  have hv : ∀ j : Fin 4, (Cert.EdgeLengths.vtx (m ((c.tc : Thread nD τ).loc main_arg1)) (genOf (7 : Fin 20) q) j).val
      = (tbl m c (7 : Fin 20) j (ValueIdx.ix1 (slot7 a (pt7 a q)))).toNat :=
    fun j => Cert.EdgeLengths.vtx_val _ hR _ j
  match e with
  | ⟨0, _⟩ =>
    refine (outBlkBirth7 _ _ _ _).trans ?_
    refine (payBirth7 _ _ _).trans ?_
    exact distOfRows7 _ _ _ _ _
      (fun k => (rowBlkA7 (fun c b => V1 m c b) a c (pt7 a q) _ ha0 _ (hv 0) k).trans (hx _ k))
      (fun k => (rowBlkB7 (fun c b => V1 m c b) a c (pt7 a q) _ ha1 _ (hv 1) k).trans (hx _ k))
  | ⟨1, _⟩ =>
    refine (outBlkDeath7 _ _ _ _).trans ?_
    refine (payDeath7 _ _ _).trans ?_
    exact distOfRows7 _ _ _ _ _
      (fun k => (rowBlkC7 (fun c b => V1 m c b) a c (pt7 a q) _ ha2 _ (hv 2) k).trans (hx _ k))
      (fun k => (rowBlkD7 (fun c b => V1 m c b) a c (pt7 a q) _ ha3 _ (hv 3) k).trans (hx _ k))

end Cert.KernelIdeal.Gen

end
-- ==== Proof.KI.Value8.lean ====
/-
  The value region 8 of the gather-and-norm program leaves in its result array, over the extended reals.

  Region 8 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows8`), which each written-back
  block is a block of; and last, with the tables the four columns of the vertex words and every word in range, the
  row a word names is the vertex that word is, so the entry is the edge length of the specification.
-/
import proofs.«401090_j62775241999084_2_alg».proof.Proof.KI.Region8
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane8 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth8 (u v : Vec Ideal S1x1x64 .f32) (y : S1x1x1.Idx) :
    k8_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k8_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane8 k]
  rfl

/-- The death edge's payload: the same function of its two rows. -/
theorem payDeath8 (u v : Vec Ideal S1x1x64 .f32) (y : S1x1x1.Idx) :
    k8_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k8_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane8 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg8 (F := F)).Adm)

/-! ## The output block at its two positions -/

theorem hzThree8 : (![0, 0, 0] : Fin 3 → Nat) = fun _ => 0 := funext fun ax => by fin_cases ax <;> rfl

/-- Position 0 of the output block lies under the birth edge's store … -/
theorem embBirth8 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath8 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath8 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth8 (x0 x1 x2 x3 : Vec F S1x1x64 .f32) :
    outBlk8 x0 x1 x2 x3 (ValueIdx.ix3 (0 : Fin 1) (0 : Fin 1) (0 : Fin 2))
      = k8_pay1 x0 x1 (ValueIdx.ix3 (0 : Fin 1) (0 : Fin 1) (0 : Fin 1)) := by
  unfold outBlk8
  refine (View.canon_cons_of_not_mem
    (⟨outRectD, k8_pay2 (View.ld x2 rowRect) (View.ld x3 rowRect)⟩ : View.Piece (Elt F) S1x1x2 .f32)
    ([⟨outRectB, k8_pay1 (View.ld x0 rowRect) (View.ld x1 rowRect)⟩] : List (View.Piece (Elt F) S1x1x2 .f32)) notMemDeath8).trans ?_
  rw [← embBirth8]
  refine (View.canon_cons_emb (Val := Elt F) (e := .f32) outRectB (k8_pay1 (View.ld x0 rowRect) (View.ld x1 rowRect)) [] _).trans ?_
  rw [View.ld_unit_zero (S := S1x1x64) hzThree8, View.ld_unit_zero (S := S1x1x64) hzThree8]

/-- Position 1 holds the death edge's payload of the last two rows. -/
theorem outBlkDeath8 (x0 x1 x2 x3 : Vec F S1x1x64 .f32) :
    outBlk8 x0 x1 x2 x3 (ValueIdx.ix3 (0 : Fin 1) (0 : Fin 1) (1 : Fin 2))
      = k8_pay2 x2 x3 (ValueIdx.ix3 (0 : Fin 1) (0 : Fin 1) (0 : Fin 1)) := by
  unfold outBlk8
  rw [← embDeath8]
  refine (View.canon_cons_emb (Val := Elt F) (e := .f32) outRectD (k8_pay2 (View.ld x2 rowRect) (View.ld x3 rowRect))
    ([⟨outRectB, k8_pay1 (View.ld x0 rowRect) (View.ld x1 rowRect)⟩] : List (View.Piece (Elt F) S1x1x2 .f32)) _).trans ?_
  rw [View.ld_unit_zero (S := S1x1x64) hzThree8, View.ld_unit_zero (S := S1x1x64) hzThree8]

/-! ## The grid and the index maps, at any admissible contents of the index tables -/

/-- Region 8 has 25000 grid points, one per generator it handles. -/
theorem gridN8 : (cfg8 a).N = 25000 := N_8

/-- A point's one coordinate is the point's number. -/
theorem coords8 (t : Fin (cfg8 a).N) : (((cfg8 a).grid.coords t) 0).val = t.val := by
  have hN := gridN8 a
  have ht := t.isLt
  show t.val / 1 % 25000 = t.val
  omega

/-- The output window's block at point `t` is row `t` of the result: block index `(t, 0, 0)`. -/
theorem outIdxRow8 (t : Fin (cfg8 a).N) : ((cfg8 a).win 4).index t (0 : Fin 3) = t.val := by
  have hN := gridN8 a
  have ht := t.isLt
  show (BitVec.ofNat 32 (((cfg8 a).grid.coords t) 0).val).toNat = t.val
  rw [coords8 a t, BitVec.toNat_ofNat]
  omega
theorem outIdxMid8 (t : Fin (cfg8 a).N) : ((cfg8 a).win 4).index t (1 : Fin 3) = 0 := rfl
theorem outIdxLane8 (t : Fin (cfg8 a).N) : ((cfg8 a).win 4).index t (2 : Fin 3) = 0 := rfl

/-- The slot of an index table that point `t` reads: its own number. -/
abbrev slot8 (t : Fin (cfg8 a).N) : Fin 25000 := ⟨t.val, (gridN8 a) ▸ t.isLt⟩

/-- The grid point that writes row `q` of the result: point `q`. -/
abbrev pt8 (q : Fin 25000) : Fin (cfg8 a).N := ⟨q.val, (gridN8 a).symm ▸ q.isLt⟩

/-- Input window 0's block at point `t` is the table row that word `t` of index table 0 names: block index `(word, 0, 0)`. -/
theorem inIdxRowA8 (t : Fin (cfg8 a).N) (T : S25000.Idx → BitVec 32) (hT : a.1 0 = T) :
    ((cfg8 a).win 0).index t (0 : Fin 3) = (T (ValueIdx.ix1 (slot8 a t))).toNat := by
  subst hT
  show (a.1 0 _).toNat = (a.1 0 _).toNat
  refine congrArg BitVec.toNat (congrArg (a.1 0) ?_)
  funext d; apply Fin.ext
  match d with
  | ⟨0, _⟩ =>
    have hN := gridN8 a
    have ht := t.isLt
    show (BitVec.ofNat 32 (((cfg8 a).grid.coords t) 0).val).toNat + 1 * 0 = t.val
    rw [coords8 a t, BitVec.toNat_ofNat]
    omega
theorem inIdxMidA8 (t : Fin (cfg8 a).N) : ((cfg8 a).win 0).index t (1 : Fin 3) = 0 := rfl
theorem inIdxLaneA8 (t : Fin (cfg8 a).N) : ((cfg8 a).win 0).index t (2 : Fin 3) = 0 := rfl

/-- Input window 1's block at point `t` is the table row that word `t` of index table 1 names: block index `(word, 0, 0)`. -/
theorem inIdxRowB8 (t : Fin (cfg8 a).N) (T : S25000.Idx → BitVec 32) (hT : a.1 1 = T) :
    ((cfg8 a).win 1).index t (0 : Fin 3) = (T (ValueIdx.ix1 (slot8 a t))).toNat := by
  subst hT
  show (a.1 1 _).toNat = (a.1 1 _).toNat
  refine congrArg BitVec.toNat (congrArg (a.1 1) ?_)
  funext d; apply Fin.ext
  match d with
  | ⟨0, _⟩ =>
    have hN := gridN8 a
    have ht := t.isLt
    show (BitVec.ofNat 32 (((cfg8 a).grid.coords t) 0).val).toNat + 1 * 0 = t.val
    rw [coords8 a t, BitVec.toNat_ofNat]
    omega
theorem inIdxMidB8 (t : Fin (cfg8 a).N) : ((cfg8 a).win 1).index t (1 : Fin 3) = 0 := rfl
theorem inIdxLaneB8 (t : Fin (cfg8 a).N) : ((cfg8 a).win 1).index t (2 : Fin 3) = 0 := rfl

/-- Input window 2's block at point `t` is the table row that word `t` of index table 2 names: block index `(word, 0, 0)`. -/
theorem inIdxRowC8 (t : Fin (cfg8 a).N) (T : S25000.Idx → BitVec 32) (hT : a.1 2 = T) :
    ((cfg8 a).win 2).index t (0 : Fin 3) = (T (ValueIdx.ix1 (slot8 a t))).toNat := by
  subst hT
  show (a.1 2 _).toNat = (a.1 2 _).toNat
  refine congrArg BitVec.toNat (congrArg (a.1 2) ?_)
  funext d; apply Fin.ext
  match d with
  | ⟨0, _⟩ =>
    have hN := gridN8 a
    have ht := t.isLt
    show (BitVec.ofNat 32 (((cfg8 a).grid.coords t) 0).val).toNat + 1 * 0 = t.val
    rw [coords8 a t, BitVec.toNat_ofNat]
    omega
theorem inIdxMidC8 (t : Fin (cfg8 a).N) : ((cfg8 a).win 2).index t (1 : Fin 3) = 0 := rfl
theorem inIdxLaneC8 (t : Fin (cfg8 a).N) : ((cfg8 a).win 2).index t (2 : Fin 3) = 0 := rfl

/-- Input window 3's block at point `t` is the table row that word `t` of index table 3 names: block index `(word, 0, 0)`. -/
theorem inIdxRowD8 (t : Fin (cfg8 a).N) (T : S25000.Idx → BitVec 32) (hT : a.1 3 = T) :
    ((cfg8 a).win 3).index t (0 : Fin 3) = (T (ValueIdx.ix1 (slot8 a t))).toNat := by
  subst hT
  show (a.1 3 _).toNat = (a.1 3 _).toNat
  refine congrArg BitVec.toNat (congrArg (a.1 3) ?_)
  funext d; apply Fin.ext
  match d with
  | ⟨0, _⟩ =>
    have hN := gridN8 a
    have ht := t.isLt
    show (BitVec.ofNat 32 (((cfg8 a).grid.coords t) 0).val).toNat + 1 * 0 = t.val
    rw [coords8 a t, BitVec.toNat_ofNat]
    omega
theorem inIdxMidD8 (t : Fin (cfg8 a).N) : ((cfg8 a).win 3).index t (1 : Fin 3) = 0 := rfl
theorem inIdxLaneD8 (t : Fin (cfg8 a).N) : ((cfg8 a).win 3).index t (2 : Fin 3) = 0 := rfl

/-! ## The input blocks: rows of the point table -/

/-- Input window 0's block at point `t` is row `r` of the point table, `r` the row its index word names there. -/
theorem rowBlkA8 (c : Dev nD) (t : Fin (cfg8 a).N) (T : S25000.Idx → BitVec 32) (hT : a.1 0 = T)
    (r : Fin 100000) (hr : r.val = (T (ValueIdx.ix1 (slot8 a t))).toNat) (k : Fin 64) :
    (iblk8 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk8
  show (V c main_v8 : S100000x1x64.Idx → Elt F .f32) ((((cfg8 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg8 a).win 0).index t (0 : Fin 3) * 1 + 1 * 0 = r.val
    rw [inIdxRowA8 a t T hT, hr]
    generalize (T (ValueIdx.ix1 (slot8 a t))).toNat = n
    omega
  | ⟨1, _⟩ =>
    show ((cfg8 a).win 0).index t (1 : Fin 3) * 1 + 1 * 0 = 0
    rw [inIdxMidA8 a t]
  | ⟨2, _⟩ =>
    show ((cfg8 a).win 0).index t (2 : Fin 3) * 64 + 1 * k.val = k.val
    rw [inIdxLaneA8 a t]
    omega

/-- Input window 1's block at point `t` is row `r` of the point table, `r` the row its index word names there. -/
theorem rowBlkB8 (c : Dev nD) (t : Fin (cfg8 a).N) (T : S25000.Idx → BitVec 32) (hT : a.1 1 = T)
    (r : Fin 100000) (hr : r.val = (T (ValueIdx.ix1 (slot8 a t))).toNat) (k : Fin 64) :
    (iblk8 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk8
  show (V c main_v8 : S100000x1x64.Idx → Elt F .f32) ((((cfg8 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg8 a).win 1).index t (0 : Fin 3) * 1 + 1 * 0 = r.val
    rw [inIdxRowB8 a t T hT, hr]
    generalize (T (ValueIdx.ix1 (slot8 a t))).toNat = n
    omega
  | ⟨1, _⟩ =>
    show ((cfg8 a).win 1).index t (1 : Fin 3) * 1 + 1 * 0 = 0
    rw [inIdxMidB8 a t]
  | ⟨2, _⟩ =>
    show ((cfg8 a).win 1).index t (2 : Fin 3) * 64 + 1 * k.val = k.val
    rw [inIdxLaneB8 a t]
    omega

/-- Input window 2's block at point `t` is row `r` of the point table, `r` the row its index word names there. -/
theorem rowBlkC8 (c : Dev nD) (t : Fin (cfg8 a).N) (T : S25000.Idx → BitVec 32) (hT : a.1 2 = T)
    (r : Fin 100000) (hr : r.val = (T (ValueIdx.ix1 (slot8 a t))).toNat) (k : Fin 64) :
    (iblk8 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk8
  show (V c main_v8 : S100000x1x64.Idx → Elt F .f32) ((((cfg8 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg8 a).win 2).index t (0 : Fin 3) * 1 + 1 * 0 = r.val
    rw [inIdxRowC8 a t T hT, hr]
    generalize (T (ValueIdx.ix1 (slot8 a t))).toNat = n
    omega
  | ⟨1, _⟩ =>
    show ((cfg8 a).win 2).index t (1 : Fin 3) * 1 + 1 * 0 = 0
    rw [inIdxMidC8 a t]
  | ⟨2, _⟩ =>
    show ((cfg8 a).win 2).index t (2 : Fin 3) * 64 + 1 * k.val = k.val
    rw [inIdxLaneC8 a t]
    omega

/-- Input window 3's block at point `t` is row `r` of the point table, `r` the row its index word names there. -/
theorem rowBlkD8 (c : Dev nD) (t : Fin (cfg8 a).N) (T : S25000.Idx → BitVec 32) (hT : a.1 3 = T)
    (r : Fin 100000) (hr : r.val = (T (ValueIdx.ix1 (slot8 a t))).toNat) (k : Fin 64) :
    (iblk8 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk8
  show (V c main_v8 : S100000x1x64.Idx → Elt F .f32) ((((cfg8 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg8 a).win 3).index t (0 : Fin 3) * 1 + 1 * 0 = r.val
    rw [inIdxRowD8 a t T hT, hr]
    generalize (T (ValueIdx.ix1 (slot8 a t))).toNat = n
    omega
  | ⟨1, _⟩ =>
    show ((cfg8 a).win 3).index t (1 : Fin 3) * 1 + 1 * 0 = 0
    rw [inIdxMidD8 a t]
  | ⟨2, _⟩ =>
    show ((cfg8 a).win 3).index t (2 : Fin 3) * 64 + 1 * k.val = k.val
    rw [inIdxLaneD8 a t]
    omega

/-! ## The output window: every point writes its own row back -/

/-- Every point writes its output block back: the next point's block is another row. -/
theorem outFlush8 (t : Fin (cfg8 a).N) : ((cfg8 a).win 4).flush t = true := by
  unfold Window.flush
  have hout : ((cfg8 a).win 4).isOut = true := rfl
  rw [hout, Bool.true_and, Bool.or_eq_true, decide_eq_true_eq, decide_eq_true_eq]
  by_cases h : t.val + 1 = (cfg8 a).grid.N
  · exact Or.inl h
  · have hN : (cfg8 a).grid.N = 25000 := N_8
    have hN' := gridN8 a
    refine Or.inr ⟨by have := t.isLt; omega, fun e => ?_⟩
    have e0 := congrFun e (0 : Fin 3)
    rw [outIdxRow8, outIdxRow8] at e0
    exact absurd e0 (by simp)

set_option backward.isDefEq.respectTransparency.types false in
/-- An index of the result array is in point `t`'s block iff each coordinate is in the block's range on its axis. -/
theorem memOutBlk8 (t : Fin (cfg8 a).N) (i : S25000x1x2.Idx) :
    i ∈ (((cfg8 a).win 4).blk t).view.set ↔ ∀ ax : Fin 3, ((cfg8 a).win 4).index t ax * S1x1x2.size ax ≤ (i ax).val
      ∧ (i ax).val < ((cfg8 a).win 4).index t ax * S1x1x2.size ax + S1x1x2.size ax := by
  show i ∈ ((View.whole main_v53).slice (((cfg8 a).win 4).rect t)).set ↔ _
  rw [View.set_slice_whole]
  exact Rect.mem_set_unit

/-- What region 8 leaves in its result array, row by row: row `q` is the output block of the four table rows that
    the index words of point `q` name, position `e` of the block being edge `e`. -/
def rows8 (c : Dev nD) : S25000x1x2.Idx → Elt F .f32 := fun i =>
  outBlk8 (iblk8 V a c 0 (pt8 a ⟨(i 0).val, (i 0).isLt⟩)) (iblk8 V a c 1 (pt8 a ⟨(i 0).val, (i 0).isLt⟩))
    (iblk8 V a c 2 (pt8 a ⟨(i 0).val, (i 0).isLt⟩)) (iblk8 V a c 3 (pt8 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply8 (c : Dev nD) (t : Fin (cfg8 a).N) (e : Fin 2) (i : S25000x1x2.Idx)
    (h0 : (i 0).val = t.val) (h2 : (i 2).val = e.val) :
    rows8 V a c i
      = outBlk8 (iblk8 V a c 0 t) (iblk8 V a c 1 t) (iblk8 V a c 2 t) (iblk8 V a c 3 t) (ValueIdx.ix3 (0 : Fin 1) (0 : Fin 1) e) := by
  obtain rfl : t = pt8 a ⟨(i 0).val, (i 0).isLt⟩ := Fin.ext h0.symm
  obtain rfl : e = ⟨(i 2).val, (i 2).isLt⟩ := Fin.ext h2.symm
  rfl

/-- The same with the position given as an index of the block. -/
theorem rowsAt8 (c : Dev nD) (t : Fin (cfg8 a).N) (j : S1x1x2.Idx) (i : S25000x1x2.Idx)
    (h0 : (i 0).val = t.val) (h2 : (i 2).val = (j 2).val) :
    rows8 V a c i = outBlk8 (iblk8 V a c 0 t) (iblk8 V a c 1 t) (iblk8 V a c 2 t) (iblk8 V a c 3 t) j := by
  rw [rowsApply8 V a c t ⟨(j 2).val, (j 2).isLt⟩ i h0 h2]
  refine congrArg (outBlk8 (iblk8 V a c 0 t) (iblk8 V a c 1 t) (iblk8 V a c 2 t) (iblk8 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows8`. -/
theorem flushedRows8 (c : Dev nD) (t : Fin (cfg8 a).N) :
    (dat8 V a c).flushed 4 t = (((cfg8 a).win 4).blk t).view.read (Elt F) (rows8 V a c) := by
  show ((cfg8 a).win 4).cut ((cfg8 a).grid.coords t) ((dat8 V a c).after 4 t) = _
  rw [after8_4]
  funext j
  show outBlk8 (iblk8 V a c 0 t) (iblk8 V a c 1 t) (iblk8 V a c 2 t) (iblk8 V a c 3 t) (((cfg8 a).win 4).xinj ((cfg8 a).grid.coords t) j)
    = rows8 V a c ((((cfg8 a).win 4).blk t).view.emb j)
  refine (rowsAt8 V a c t _ _ ?_ ?_).symm
  · have hj : (j (0 : Fin 3)).val < 1 := (j (0 : Fin 3)).isLt
    show ((cfg8 a).win 4).index t (0 : Fin 3) * 1 + 1 * (j (0 : Fin 3)).val = t.val
    rw [outIdxRow8 a t]
    omega
  · show ((cfg8 a).win 4).index t (2 : Fin 3) * 2 + 1 * (j (2 : Fin 3)).val = (j (2 : Fin 3)).val
    rw [outIdxLane8 a t]
    omega

/-- After the run the result array holds `rows8`: row `q` was written by point `q`, and by no later point. -/
theorem arrRows8 (c : Dev nD) (q : Fin 25000) (e : Fin 2) :
    ((dat8 V a c).arrAt 4 (cfg8 a).N : S25000x1x2.Idx → Elt F .f32) (ValueIdx.ix3 q (0 : Fin 1) e)
      = rows8 V a c (ValueIdx.ix3 q (0 : Fin 1) e) := by
  refine (dat8 V a c).arrAt_apply_of_mem 4 (rows8 V a c) (fun t _ => flushedRows8 V a c t) (cfg8 a).N (pt8 a q)
    (ValueIdx.ix3 q (0 : Fin 1) e) (pt8 a q).isLt (outFlush8 a _) ((memOutBlk8 a _ _).mpr fun ax => ?_)
  match ax with
  | ⟨0, _⟩ =>
    show ((cfg8 a).win 4).index (pt8 a q) (0 : Fin 3) * 1 ≤ q.val ∧ q.val < ((cfg8 a).win 4).index (pt8 a q) (0 : Fin 3) * 1 + 1
    rw [outIdxRow8 a (pt8 a q)]
    show q.val * 1 ≤ q.val ∧ q.val < q.val * 1 + 1
    omega
  | ⟨1, _⟩ =>
    show ((cfg8 a).win 4).index (pt8 a q) (1 : Fin 3) * 1 ≤ 0 ∧ 0 < ((cfg8 a).win 4).index (pt8 a q) (1 : Fin 3) * 1 + 1
    rw [outIdxMid8 a (pt8 a q)]
    omega
  | ⟨2, _⟩ =>
    have he := e.isLt
    show ((cfg8 a).win 4).index (pt8 a q) (2 : Fin 3) * 2 ≤ e.val ∧ e.val < ((cfg8 a).win 4).index (pt8 a q) (2 : Fin 3) * 2 + 2
    rw [outIdxLane8 a (pt8 a q)]
    omega

/-! ## The value, over the extended reals -/

/-- Two blocks that are rows `r` and `s` of the table `X` have, as the body's payload, the distance between those rows. -/
theorem distOfRows8 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt8_apply (m : (ℓ : Loc nD τ sig) → Buf (Elt Ideal) ℓ) (a : (pcfg8 (F := Ideal)).Adm) (c : Dev nD)
    (ha0 : a.1 0 = tbl m c (8 : Fin 20) 0) (ha1 : a.1 1 = tbl m c (8 : Fin 20) 1)
    (ha2 : a.1 2 = tbl m c (8 : Fin 20) 2) (ha3 : a.1 3 = tbl m c (8 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat8 (F := Ideal) (fun c b => V1 m c b) a c).arrAt 4 (cfg8 a).N : S25000x1x2.Idx → EReal) (ValueIdx.ix3 q 0 e)
      = Cert.EdgeLengths.lengthAt (m ((c.tc : Thread nD τ).loc main_arg0)) (m ((c.tc : Thread nD τ).loc main_arg1))
          (genOf (8 : Fin 20) q) e := by
  refine (arrRows8 (fun c b => V1 m c b) a c q e).trans ?_
  refine (rowsApply8 (fun c b => V1 m c b) a c (pt8 a q) e _ rfl rfl).trans ?_
  -- the row each of the four index words of point `q` names is the vertex that word is
  have hv : ∀ j : Fin 4, (Cert.EdgeLengths.vtx (m ((c.tc : Thread nD τ).loc main_arg1)) (genOf (8 : Fin 20) q) j).val
      = (tbl m c (8 : Fin 20) j (ValueIdx.ix1 (slot8 a (pt8 a q)))).toNat :=
    fun j => Cert.EdgeLengths.vtx_val _ hR _ j
  match e with
  | ⟨0, _⟩ =>
    refine (outBlkBirth8 _ _ _ _).trans ?_
    refine (payBirth8 _ _ _).trans ?_
    exact distOfRows8 _ _ _ _ _
      (fun k => (rowBlkA8 (fun c b => V1 m c b) a c (pt8 a q) _ ha0 _ (hv 0) k).trans (hx _ k))
      (fun k => (rowBlkB8 (fun c b => V1 m c b) a c (pt8 a q) _ ha1 _ (hv 1) k).trans (hx _ k))
  | ⟨1, _⟩ =>
    refine (outBlkDeath8 _ _ _ _).trans ?_
    refine (payDeath8 _ _ _).trans ?_
    exact distOfRows8 _ _ _ _ _
      (fun k => (rowBlkC8 (fun c b => V1 m c b) a c (pt8 a q) _ ha2 _ (hv 2) k).trans (hx _ k))
      (fun k => (rowBlkD8 (fun c b => V1 m c b) a c (pt8 a q) _ ha3 _ (hv 3) k).trans (hx _ k))

end Cert.KernelIdeal.Gen

end
-- ==== Proof.KI.Value9.lean ====
/-
  The value region 9 of the gather-and-norm program leaves in its result array, over the extended reals.

  Region 9 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows9`), which each written-back
  block is a block of; and last, with the tables the four columns of the vertex words and every word in range, the
  row a word names is the vertex that word is, so the entry is the edge length of the specification.
-/
import proofs.«401090_j62775241999084_2_alg».proof.Proof.KI.Region9
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane9 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth9 (u v : Vec Ideal S1x1x64 .f32) (y : S1x1x1.Idx) :
    k9_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k9_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane9 k]
  rfl

/-- The death edge's payload: the same function of its two rows. -/
theorem payDeath9 (u v : Vec Ideal S1x1x64 .f32) (y : S1x1x1.Idx) :
    k9_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k9_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane9 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg9 (F := F)).Adm)

/-! ## The output block at its two positions -/

theorem hzThree9 : (![0, 0, 0] : Fin 3 → Nat) = fun _ => 0 := funext fun ax => by fin_cases ax <;> rfl

/-- Position 0 of the output block lies under the birth edge's store … -/
theorem embBirth9 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath9 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath9 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth9 (x0 x1 x2 x3 : Vec F S1x1x64 .f32) :
    outBlk9 x0 x1 x2 x3 (ValueIdx.ix3 (0 : Fin 1) (0 : Fin 1) (0 : Fin 2))
      = k9_pay1 x0 x1 (ValueIdx.ix3 (0 : Fin 1) (0 : Fin 1) (0 : Fin 1)) := by
  unfold outBlk9
  refine (View.canon_cons_of_not_mem
    (⟨outRectD, k9_pay2 (View.ld x2 rowRect) (View.ld x3 rowRect)⟩ : View.Piece (Elt F) S1x1x2 .f32)
    ([⟨outRectB, k9_pay1 (View.ld x0 rowRect) (View.ld x1 rowRect)⟩] : List (View.Piece (Elt F) S1x1x2 .f32)) notMemDeath9).trans ?_
  rw [← embBirth9]
  refine (View.canon_cons_emb (Val := Elt F) (e := .f32) outRectB (k9_pay1 (View.ld x0 rowRect) (View.ld x1 rowRect)) [] _).trans ?_
  rw [View.ld_unit_zero (S := S1x1x64) hzThree9, View.ld_unit_zero (S := S1x1x64) hzThree9]

/-- Position 1 holds the death edge's payload of the last two rows. -/
theorem outBlkDeath9 (x0 x1 x2 x3 : Vec F S1x1x64 .f32) :
    outBlk9 x0 x1 x2 x3 (ValueIdx.ix3 (0 : Fin 1) (0 : Fin 1) (1 : Fin 2))
      = k9_pay2 x2 x3 (ValueIdx.ix3 (0 : Fin 1) (0 : Fin 1) (0 : Fin 1)) := by
  unfold outBlk9
  rw [← embDeath9]
  refine (View.canon_cons_emb (Val := Elt F) (e := .f32) outRectD (k9_pay2 (View.ld x2 rowRect) (View.ld x3 rowRect))
    ([⟨outRectB, k9_pay1 (View.ld x0 rowRect) (View.ld x1 rowRect)⟩] : List (View.Piece (Elt F) S1x1x2 .f32)) _).trans ?_
  rw [View.ld_unit_zero (S := S1x1x64) hzThree9, View.ld_unit_zero (S := S1x1x64) hzThree9]

/-! ## The grid and the index maps, at any admissible contents of the index tables -/

/-- Region 9 has 25000 grid points, one per generator it handles. -/
theorem gridN9 : (cfg9 a).N = 25000 := N_9

/-- A point's one coordinate is the point's number. -/
theorem coords9 (t : Fin (cfg9 a).N) : (((cfg9 a).grid.coords t) 0).val = t.val := by
  have hN := gridN9 a
  have ht := t.isLt
  show t.val / 1 % 25000 = t.val
  omega

/-- The output window's block at point `t` is row `t` of the result: block index `(t, 0, 0)`. -/
theorem outIdxRow9 (t : Fin (cfg9 a).N) : ((cfg9 a).win 4).index t (0 : Fin 3) = t.val := by
  have hN := gridN9 a
  have ht := t.isLt
  show (BitVec.ofNat 32 (((cfg9 a).grid.coords t) 0).val).toNat = t.val
  rw [coords9 a t, BitVec.toNat_ofNat]
  omega
theorem outIdxMid9 (t : Fin (cfg9 a).N) : ((cfg9 a).win 4).index t (1 : Fin 3) = 0 := rfl
theorem outIdxLane9 (t : Fin (cfg9 a).N) : ((cfg9 a).win 4).index t (2 : Fin 3) = 0 := rfl

/-- The slot of an index table that point `t` reads: its own number. -/
abbrev slot9 (t : Fin (cfg9 a).N) : Fin 25000 := ⟨t.val, (gridN9 a) ▸ t.isLt⟩

/-- The grid point that writes row `q` of the result: point `q`. -/
abbrev pt9 (q : Fin 25000) : Fin (cfg9 a).N := ⟨q.val, (gridN9 a).symm ▸ q.isLt⟩

/-- Input window 0's block at point `t` is the table row that word `t` of index table 0 names: block index `(word, 0, 0)`. -/
theorem inIdxRowA9 (t : Fin (cfg9 a).N) (T : S25000.Idx → BitVec 32) (hT : a.1 0 = T) :
    ((cfg9 a).win 0).index t (0 : Fin 3) = (T (ValueIdx.ix1 (slot9 a t))).toNat := by
  subst hT
  show (a.1 0 _).toNat = (a.1 0 _).toNat
  refine congrArg BitVec.toNat (congrArg (a.1 0) ?_)
  funext d; apply Fin.ext
  match d with
  | ⟨0, _⟩ =>
    have hN := gridN9 a
    have ht := t.isLt
    show (BitVec.ofNat 32 (((cfg9 a).grid.coords t) 0).val).toNat + 1 * 0 = t.val
    rw [coords9 a t, BitVec.toNat_ofNat]
    omega
theorem inIdxMidA9 (t : Fin (cfg9 a).N) : ((cfg9 a).win 0).index t (1 : Fin 3) = 0 := rfl
theorem inIdxLaneA9 (t : Fin (cfg9 a).N) : ((cfg9 a).win 0).index t (2 : Fin 3) = 0 := rfl

/-- Input window 1's block at point `t` is the table row that word `t` of index table 1 names: block index `(word, 0, 0)`. -/
theorem inIdxRowB9 (t : Fin (cfg9 a).N) (T : S25000.Idx → BitVec 32) (hT : a.1 1 = T) :
    ((cfg9 a).win 1).index t (0 : Fin 3) = (T (ValueIdx.ix1 (slot9 a t))).toNat := by
  subst hT
  show (a.1 1 _).toNat = (a.1 1 _).toNat
  refine congrArg BitVec.toNat (congrArg (a.1 1) ?_)
  funext d; apply Fin.ext
  match d with
  | ⟨0, _⟩ =>
    have hN := gridN9 a
    have ht := t.isLt
    show (BitVec.ofNat 32 (((cfg9 a).grid.coords t) 0).val).toNat + 1 * 0 = t.val
    rw [coords9 a t, BitVec.toNat_ofNat]
    omega
theorem inIdxMidB9 (t : Fin (cfg9 a).N) : ((cfg9 a).win 1).index t (1 : Fin 3) = 0 := rfl
theorem inIdxLaneB9 (t : Fin (cfg9 a).N) : ((cfg9 a).win 1).index t (2 : Fin 3) = 0 := rfl

/-- Input window 2's block at point `t` is the table row that word `t` of index table 2 names: block index `(word, 0, 0)`. -/
theorem inIdxRowC9 (t : Fin (cfg9 a).N) (T : S25000.Idx → BitVec 32) (hT : a.1 2 = T) :
    ((cfg9 a).win 2).index t (0 : Fin 3) = (T (ValueIdx.ix1 (slot9 a t))).toNat := by
  subst hT
  show (a.1 2 _).toNat = (a.1 2 _).toNat
  refine congrArg BitVec.toNat (congrArg (a.1 2) ?_)
  funext d; apply Fin.ext
  match d with
  | ⟨0, _⟩ =>
    have hN := gridN9 a
    have ht := t.isLt
    show (BitVec.ofNat 32 (((cfg9 a).grid.coords t) 0).val).toNat + 1 * 0 = t.val
    rw [coords9 a t, BitVec.toNat_ofNat]
    omega
theorem inIdxMidC9 (t : Fin (cfg9 a).N) : ((cfg9 a).win 2).index t (1 : Fin 3) = 0 := rfl
theorem inIdxLaneC9 (t : Fin (cfg9 a).N) : ((cfg9 a).win 2).index t (2 : Fin 3) = 0 := rfl

/-- Input window 3's block at point `t` is the table row that word `t` of index table 3 names: block index `(word, 0, 0)`. -/
theorem inIdxRowD9 (t : Fin (cfg9 a).N) (T : S25000.Idx → BitVec 32) (hT : a.1 3 = T) :
    ((cfg9 a).win 3).index t (0 : Fin 3) = (T (ValueIdx.ix1 (slot9 a t))).toNat := by
  subst hT
  show (a.1 3 _).toNat = (a.1 3 _).toNat
  refine congrArg BitVec.toNat (congrArg (a.1 3) ?_)
  funext d; apply Fin.ext
  match d with
  | ⟨0, _⟩ =>
    have hN := gridN9 a
    have ht := t.isLt
    show (BitVec.ofNat 32 (((cfg9 a).grid.coords t) 0).val).toNat + 1 * 0 = t.val
    rw [coords9 a t, BitVec.toNat_ofNat]
    omega
theorem inIdxMidD9 (t : Fin (cfg9 a).N) : ((cfg9 a).win 3).index t (1 : Fin 3) = 0 := rfl
theorem inIdxLaneD9 (t : Fin (cfg9 a).N) : ((cfg9 a).win 3).index t (2 : Fin 3) = 0 := rfl

/-! ## The input blocks: rows of the point table -/

/-- Input window 0's block at point `t` is row `r` of the point table, `r` the row its index word names there. -/
theorem rowBlkA9 (c : Dev nD) (t : Fin (cfg9 a).N) (T : S25000.Idx → BitVec 32) (hT : a.1 0 = T)
    (r : Fin 100000) (hr : r.val = (T (ValueIdx.ix1 (slot9 a t))).toNat) (k : Fin 64) :
    (iblk9 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk9
  show (V c main_v8 : S100000x1x64.Idx → Elt F .f32) ((((cfg9 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg9 a).win 0).index t (0 : Fin 3) * 1 + 1 * 0 = r.val
    rw [inIdxRowA9 a t T hT, hr]
    generalize (T (ValueIdx.ix1 (slot9 a t))).toNat = n
    omega
  | ⟨1, _⟩ =>
    show ((cfg9 a).win 0).index t (1 : Fin 3) * 1 + 1 * 0 = 0
    rw [inIdxMidA9 a t]
  | ⟨2, _⟩ =>
    show ((cfg9 a).win 0).index t (2 : Fin 3) * 64 + 1 * k.val = k.val
    rw [inIdxLaneA9 a t]
    omega

/-- Input window 1's block at point `t` is row `r` of the point table, `r` the row its index word names there. -/
theorem rowBlkB9 (c : Dev nD) (t : Fin (cfg9 a).N) (T : S25000.Idx → BitVec 32) (hT : a.1 1 = T)
    (r : Fin 100000) (hr : r.val = (T (ValueIdx.ix1 (slot9 a t))).toNat) (k : Fin 64) :
    (iblk9 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk9
  show (V c main_v8 : S100000x1x64.Idx → Elt F .f32) ((((cfg9 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg9 a).win 1).index t (0 : Fin 3) * 1 + 1 * 0 = r.val
    rw [inIdxRowB9 a t T hT, hr]
    generalize (T (ValueIdx.ix1 (slot9 a t))).toNat = n
    omega
  | ⟨1, _⟩ =>
    show ((cfg9 a).win 1).index t (1 : Fin 3) * 1 + 1 * 0 = 0
    rw [inIdxMidB9 a t]
  | ⟨2, _⟩ =>
    show ((cfg9 a).win 1).index t (2 : Fin 3) * 64 + 1 * k.val = k.val
    rw [inIdxLaneB9 a t]
    omega

/-- Input window 2's block at point `t` is row `r` of the point table, `r` the row its index word names there. -/
theorem rowBlkC9 (c : Dev nD) (t : Fin (cfg9 a).N) (T : S25000.Idx → BitVec 32) (hT : a.1 2 = T)
    (r : Fin 100000) (hr : r.val = (T (ValueIdx.ix1 (slot9 a t))).toNat) (k : Fin 64) :
    (iblk9 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk9
  show (V c main_v8 : S100000x1x64.Idx → Elt F .f32) ((((cfg9 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg9 a).win 2).index t (0 : Fin 3) * 1 + 1 * 0 = r.val
    rw [inIdxRowC9 a t T hT, hr]
    generalize (T (ValueIdx.ix1 (slot9 a t))).toNat = n
    omega
  | ⟨1, _⟩ =>
    show ((cfg9 a).win 2).index t (1 : Fin 3) * 1 + 1 * 0 = 0
    rw [inIdxMidC9 a t]
  | ⟨2, _⟩ =>
    show ((cfg9 a).win 2).index t (2 : Fin 3) * 64 + 1 * k.val = k.val
    rw [inIdxLaneC9 a t]
    omega

/-- Input window 3's block at point `t` is row `r` of the point table, `r` the row its index word names there. -/
theorem rowBlkD9 (c : Dev nD) (t : Fin (cfg9 a).N) (T : S25000.Idx → BitVec 32) (hT : a.1 3 = T)
    (r : Fin 100000) (hr : r.val = (T (ValueIdx.ix1 (slot9 a t))).toNat) (k : Fin 64) :
    (iblk9 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk9
  show (V c main_v8 : S100000x1x64.Idx → Elt F .f32) ((((cfg9 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg9 a).win 3).index t (0 : Fin 3) * 1 + 1 * 0 = r.val
    rw [inIdxRowD9 a t T hT, hr]
    generalize (T (ValueIdx.ix1 (slot9 a t))).toNat = n
    omega
  | ⟨1, _⟩ =>
    show ((cfg9 a).win 3).index t (1 : Fin 3) * 1 + 1 * 0 = 0
    rw [inIdxMidD9 a t]
  | ⟨2, _⟩ =>
    show ((cfg9 a).win 3).index t (2 : Fin 3) * 64 + 1 * k.val = k.val
    rw [inIdxLaneD9 a t]
    omega

/-! ## The output window: every point writes its own row back -/

/-- Every point writes its output block back: the next point's block is another row. -/
theorem outFlush9 (t : Fin (cfg9 a).N) : ((cfg9 a).win 4).flush t = true := by
  unfold Window.flush
  have hout : ((cfg9 a).win 4).isOut = true := rfl
  rw [hout, Bool.true_and, Bool.or_eq_true, decide_eq_true_eq, decide_eq_true_eq]
  by_cases h : t.val + 1 = (cfg9 a).grid.N
  · exact Or.inl h
  · have hN : (cfg9 a).grid.N = 25000 := N_9
    have hN' := gridN9 a
    refine Or.inr ⟨by have := t.isLt; omega, fun e => ?_⟩
    have e0 := congrFun e (0 : Fin 3)
    rw [outIdxRow9, outIdxRow9] at e0
    exact absurd e0 (by simp)

set_option backward.isDefEq.respectTransparency.types false in
/-- An index of the result array is in point `t`'s block iff each coordinate is in the block's range on its axis. -/
theorem memOutBlk9 (t : Fin (cfg9 a).N) (i : S25000x1x2.Idx) :
    i ∈ (((cfg9 a).win 4).blk t).view.set ↔ ∀ ax : Fin 3, ((cfg9 a).win 4).index t ax * S1x1x2.size ax ≤ (i ax).val
      ∧ (i ax).val < ((cfg9 a).win 4).index t ax * S1x1x2.size ax + S1x1x2.size ax := by
  show i ∈ ((View.whole main_v58).slice (((cfg9 a).win 4).rect t)).set ↔ _
  rw [View.set_slice_whole]
  exact Rect.mem_set_unit

/-- What region 9 leaves in its result array, row by row: row `q` is the output block of the four table rows that
    the index words of point `q` name, position `e` of the block being edge `e`. -/
def rows9 (c : Dev nD) : S25000x1x2.Idx → Elt F .f32 := fun i =>
  outBlk9 (iblk9 V a c 0 (pt9 a ⟨(i 0).val, (i 0).isLt⟩)) (iblk9 V a c 1 (pt9 a ⟨(i 0).val, (i 0).isLt⟩))
    (iblk9 V a c 2 (pt9 a ⟨(i 0).val, (i 0).isLt⟩)) (iblk9 V a c 3 (pt9 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply9 (c : Dev nD) (t : Fin (cfg9 a).N) (e : Fin 2) (i : S25000x1x2.Idx)
    (h0 : (i 0).val = t.val) (h2 : (i 2).val = e.val) :
    rows9 V a c i
      = outBlk9 (iblk9 V a c 0 t) (iblk9 V a c 1 t) (iblk9 V a c 2 t) (iblk9 V a c 3 t) (ValueIdx.ix3 (0 : Fin 1) (0 : Fin 1) e) := by
  obtain rfl : t = pt9 a ⟨(i 0).val, (i 0).isLt⟩ := Fin.ext h0.symm
  obtain rfl : e = ⟨(i 2).val, (i 2).isLt⟩ := Fin.ext h2.symm
  rfl

/-- The same with the position given as an index of the block. -/
theorem rowsAt9 (c : Dev nD) (t : Fin (cfg9 a).N) (j : S1x1x2.Idx) (i : S25000x1x2.Idx)
    (h0 : (i 0).val = t.val) (h2 : (i 2).val = (j 2).val) :
    rows9 V a c i = outBlk9 (iblk9 V a c 0 t) (iblk9 V a c 1 t) (iblk9 V a c 2 t) (iblk9 V a c 3 t) j := by
  rw [rowsApply9 V a c t ⟨(j 2).val, (j 2).isLt⟩ i h0 h2]
  refine congrArg (outBlk9 (iblk9 V a c 0 t) (iblk9 V a c 1 t) (iblk9 V a c 2 t) (iblk9 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows9`. -/
theorem flushedRows9 (c : Dev nD) (t : Fin (cfg9 a).N) :
    (dat9 V a c).flushed 4 t = (((cfg9 a).win 4).blk t).view.read (Elt F) (rows9 V a c) := by
  show ((cfg9 a).win 4).cut ((cfg9 a).grid.coords t) ((dat9 V a c).after 4 t) = _
  rw [after9_4]
  funext j
  show outBlk9 (iblk9 V a c 0 t) (iblk9 V a c 1 t) (iblk9 V a c 2 t) (iblk9 V a c 3 t) (((cfg9 a).win 4).xinj ((cfg9 a).grid.coords t) j)
    = rows9 V a c ((((cfg9 a).win 4).blk t).view.emb j)
  refine (rowsAt9 V a c t _ _ ?_ ?_).symm
  · have hj : (j (0 : Fin 3)).val < 1 := (j (0 : Fin 3)).isLt
    show ((cfg9 a).win 4).index t (0 : Fin 3) * 1 + 1 * (j (0 : Fin 3)).val = t.val
    rw [outIdxRow9 a t]
    omega
  · show ((cfg9 a).win 4).index t (2 : Fin 3) * 2 + 1 * (j (2 : Fin 3)).val = (j (2 : Fin 3)).val
    rw [outIdxLane9 a t]
    omega

/-- After the run the result array holds `rows9`: row `q` was written by point `q`, and by no later point. -/
theorem arrRows9 (c : Dev nD) (q : Fin 25000) (e : Fin 2) :
    ((dat9 V a c).arrAt 4 (cfg9 a).N : S25000x1x2.Idx → Elt F .f32) (ValueIdx.ix3 q (0 : Fin 1) e)
      = rows9 V a c (ValueIdx.ix3 q (0 : Fin 1) e) := by
  refine (dat9 V a c).arrAt_apply_of_mem 4 (rows9 V a c) (fun t _ => flushedRows9 V a c t) (cfg9 a).N (pt9 a q)
    (ValueIdx.ix3 q (0 : Fin 1) e) (pt9 a q).isLt (outFlush9 a _) ((memOutBlk9 a _ _).mpr fun ax => ?_)
  match ax with
  | ⟨0, _⟩ =>
    show ((cfg9 a).win 4).index (pt9 a q) (0 : Fin 3) * 1 ≤ q.val ∧ q.val < ((cfg9 a).win 4).index (pt9 a q) (0 : Fin 3) * 1 + 1
    rw [outIdxRow9 a (pt9 a q)]
    show q.val * 1 ≤ q.val ∧ q.val < q.val * 1 + 1
    omega
  | ⟨1, _⟩ =>
    show ((cfg9 a).win 4).index (pt9 a q) (1 : Fin 3) * 1 ≤ 0 ∧ 0 < ((cfg9 a).win 4).index (pt9 a q) (1 : Fin 3) * 1 + 1
    rw [outIdxMid9 a (pt9 a q)]
    omega
  | ⟨2, _⟩ =>
    have he := e.isLt
    show ((cfg9 a).win 4).index (pt9 a q) (2 : Fin 3) * 2 ≤ e.val ∧ e.val < ((cfg9 a).win 4).index (pt9 a q) (2 : Fin 3) * 2 + 2
    rw [outIdxLane9 a (pt9 a q)]
    omega

/-! ## The value, over the extended reals -/

/-- Two blocks that are rows `r` and `s` of the table `X` have, as the body's payload, the distance between those rows. -/
theorem distOfRows9 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt9_apply (m : (ℓ : Loc nD τ sig) → Buf (Elt Ideal) ℓ) (a : (pcfg9 (F := Ideal)).Adm) (c : Dev nD)
    (ha0 : a.1 0 = tbl m c (9 : Fin 20) 0) (ha1 : a.1 1 = tbl m c (9 : Fin 20) 1)
    (ha2 : a.1 2 = tbl m c (9 : Fin 20) 2) (ha3 : a.1 3 = tbl m c (9 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat9 (F := Ideal) (fun c b => V1 m c b) a c).arrAt 4 (cfg9 a).N : S25000x1x2.Idx → EReal) (ValueIdx.ix3 q 0 e)
      = Cert.EdgeLengths.lengthAt (m ((c.tc : Thread nD τ).loc main_arg0)) (m ((c.tc : Thread nD τ).loc main_arg1))
          (genOf (9 : Fin 20) q) e := by
  refine (arrRows9 (fun c b => V1 m c b) a c q e).trans ?_
  refine (rowsApply9 (fun c b => V1 m c b) a c (pt9 a q) e _ rfl rfl).trans ?_
  -- the row each of the four index words of point `q` names is the vertex that word is
  have hv : ∀ j : Fin 4, (Cert.EdgeLengths.vtx (m ((c.tc : Thread nD τ).loc main_arg1)) (genOf (9 : Fin 20) q) j).val
      = (tbl m c (9 : Fin 20) j (ValueIdx.ix1 (slot9 a (pt9 a q)))).toNat :=
    fun j => Cert.EdgeLengths.vtx_val _ hR _ j
  match e with
  | ⟨0, _⟩ =>
    refine (outBlkBirth9 _ _ _ _).trans ?_
    refine (payBirth9 _ _ _).trans ?_
    exact distOfRows9 _ _ _ _ _
      (fun k => (rowBlkA9 (fun c b => V1 m c b) a c (pt9 a q) _ ha0 _ (hv 0) k).trans (hx _ k))
      (fun k => (rowBlkB9 (fun c b => V1 m c b) a c (pt9 a q) _ ha1 _ (hv 1) k).trans (hx _ k))
  | ⟨1, _⟩ =>
    refine (outBlkDeath9 _ _ _ _).trans ?_
    refine (payDeath9 _ _ _).trans ?_
    exact distOfRows9 _ _ _ _ _
      (fun k => (rowBlkC9 (fun c b => V1 m c b) a c (pt9 a q) _ ha2 _ (hv 2) k).trans (hx _ k))
      (fun k => (rowBlkD9 (fun c b => V1 m c b) a c (pt9 a q) _ ha3 _ (hv 3) k).trans (hx _ k))

end Cert.KernelIdeal.Gen

end
-- ==== Proof.KI.Value10.lean ====
/-
  The value region 10 of the gather-and-norm program leaves in its result array, over the extended reals.

  Region 10 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows10`), which each written-back
  block is a block of; and last, with the tables the four columns of the vertex words and every word in range, the
  row a word names is the vertex that word is, so the entry is the edge length of the specification.
-/
import proofs.«401090_j62775241999084_2_alg».proof.Proof.KI.Region10
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane10 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth10 (u v : Vec Ideal S1x1x64 .f32) (y : S1x1x1.Idx) :
    k10_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k10_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane10 k]
  rfl

/-- The death edge's payload: the same function of its two rows. -/
theorem payDeath10 (u v : Vec Ideal S1x1x64 .f32) (y : S1x1x1.Idx) :
    k10_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k10_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane10 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg10 (F := F)).Adm)

/-! ## The output block at its two positions -/

theorem hzThree10 : (![0, 0, 0] : Fin 3 → Nat) = fun _ => 0 := funext fun ax => by fin_cases ax <;> rfl

/-- Position 0 of the output block lies under the birth edge's store … -/
theorem embBirth10 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath10 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath10 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth10 (x0 x1 x2 x3 : Vec F S1x1x64 .f32) :
    outBlk10 x0 x1 x2 x3 (ValueIdx.ix3 (0 : Fin 1) (0 : Fin 1) (0 : Fin 2))
      = k10_pay1 x0 x1 (ValueIdx.ix3 (0 : Fin 1) (0 : Fin 1) (0 : Fin 1)) := by
  unfold outBlk10
  refine (View.canon_cons_of_not_mem
    (⟨outRectD, k10_pay2 (View.ld x2 rowRect) (View.ld x3 rowRect)⟩ : View.Piece (Elt F) S1x1x2 .f32)
    ([⟨outRectB, k10_pay1 (View.ld x0 rowRect) (View.ld x1 rowRect)⟩] : List (View.Piece (Elt F) S1x1x2 .f32)) notMemDeath10).trans ?_
  rw [← embBirth10]
  refine (View.canon_cons_emb (Val := Elt F) (e := .f32) outRectB (k10_pay1 (View.ld x0 rowRect) (View.ld x1 rowRect)) [] _).trans ?_
  rw [View.ld_unit_zero (S := S1x1x64) hzThree10, View.ld_unit_zero (S := S1x1x64) hzThree10]

/-- Position 1 holds the death edge's payload of the last two rows. -/
theorem outBlkDeath10 (x0 x1 x2 x3 : Vec F S1x1x64 .f32) :
    outBlk10 x0 x1 x2 x3 (ValueIdx.ix3 (0 : Fin 1) (0 : Fin 1) (1 : Fin 2))
      = k10_pay2 x2 x3 (ValueIdx.ix3 (0 : Fin 1) (0 : Fin 1) (0 : Fin 1)) := by
  unfold outBlk10
  rw [← embDeath10]
  refine (View.canon_cons_emb (Val := Elt F) (e := .f32) outRectD (k10_pay2 (View.ld x2 rowRect) (View.ld x3 rowRect))
    ([⟨outRectB, k10_pay1 (View.ld x0 rowRect) (View.ld x1 rowRect)⟩] : List (View.Piece (Elt F) S1x1x2 .f32)) _).trans ?_
  rw [View.ld_unit_zero (S := S1x1x64) hzThree10, View.ld_unit_zero (S := S1x1x64) hzThree10]

/-! ## The grid and the index maps, at any admissible contents of the index tables -/

/-- Region 10 has 25000 grid points, one per generator it handles. -/
theorem gridN10 : (cfg10 a).N = 25000 := N_10

/-- A point's one coordinate is the point's number. -/
theorem coords10 (t : Fin (cfg10 a).N) : (((cfg10 a).grid.coords t) 0).val = t.val := by
  have hN := gridN10 a
  have ht := t.isLt
  show t.val / 1 % 25000 = t.val
  omega

/-- The output window's block at point `t` is row `t` of the result: block index `(t, 0, 0)`. -/
theorem outIdxRow10 (t : Fin (cfg10 a).N) : ((cfg10 a).win 4).index t (0 : Fin 3) = t.val := by
  have hN := gridN10 a
  have ht := t.isLt
  show (BitVec.ofNat 32 (((cfg10 a).grid.coords t) 0).val).toNat = t.val
  rw [coords10 a t, BitVec.toNat_ofNat]
  omega
theorem outIdxMid10 (t : Fin (cfg10 a).N) : ((cfg10 a).win 4).index t (1 : Fin 3) = 0 := rfl
theorem outIdxLane10 (t : Fin (cfg10 a).N) : ((cfg10 a).win 4).index t (2 : Fin 3) = 0 := rfl

/-- The slot of an index table that point `t` reads: its own number. -/
abbrev slot10 (t : Fin (cfg10 a).N) : Fin 25000 := ⟨t.val, (gridN10 a) ▸ t.isLt⟩

/-- The grid point that writes row `q` of the result: point `q`. -/
abbrev pt10 (q : Fin 25000) : Fin (cfg10 a).N := ⟨q.val, (gridN10 a).symm ▸ q.isLt⟩

/-- Input window 0's block at point `t` is the table row that word `t` of index table 0 names: block index `(word, 0, 0)`. -/
theorem inIdxRowA10 (t : Fin (cfg10 a).N) (T : S25000.Idx → BitVec 32) (hT : a.1 0 = T) :
    ((cfg10 a).win 0).index t (0 : Fin 3) = (T (ValueIdx.ix1 (slot10 a t))).toNat := by
  subst hT
  show (a.1 0 _).toNat = (a.1 0 _).toNat
  refine congrArg BitVec.toNat (congrArg (a.1 0) ?_)
  funext d; apply Fin.ext
  match d with
  | ⟨0, _⟩ =>
    have hN := gridN10 a
    have ht := t.isLt
    show (BitVec.ofNat 32 (((cfg10 a).grid.coords t) 0).val).toNat + 1 * 0 = t.val
    rw [coords10 a t, BitVec.toNat_ofNat]
    omega
theorem inIdxMidA10 (t : Fin (cfg10 a).N) : ((cfg10 a).win 0).index t (1 : Fin 3) = 0 := rfl
theorem inIdxLaneA10 (t : Fin (cfg10 a).N) : ((cfg10 a).win 0).index t (2 : Fin 3) = 0 := rfl

/-- Input window 1's block at point `t` is the table row that word `t` of index table 1 names: block index `(word, 0, 0)`. -/
theorem inIdxRowB10 (t : Fin (cfg10 a).N) (T : S25000.Idx → BitVec 32) (hT : a.1 1 = T) :
    ((cfg10 a).win 1).index t (0 : Fin 3) = (T (ValueIdx.ix1 (slot10 a t))).toNat := by
  subst hT
  show (a.1 1 _).toNat = (a.1 1 _).toNat
  refine congrArg BitVec.toNat (congrArg (a.1 1) ?_)
  funext d; apply Fin.ext
  match d with
  | ⟨0, _⟩ =>
    have hN := gridN10 a
    have ht := t.isLt
    show (BitVec.ofNat 32 (((cfg10 a).grid.coords t) 0).val).toNat + 1 * 0 = t.val
    rw [coords10 a t, BitVec.toNat_ofNat]
    omega
theorem inIdxMidB10 (t : Fin (cfg10 a).N) : ((cfg10 a).win 1).index t (1 : Fin 3) = 0 := rfl
theorem inIdxLaneB10 (t : Fin (cfg10 a).N) : ((cfg10 a).win 1).index t (2 : Fin 3) = 0 := rfl

/-- Input window 2's block at point `t` is the table row that word `t` of index table 2 names: block index `(word, 0, 0)`. -/
theorem inIdxRowC10 (t : Fin (cfg10 a).N) (T : S25000.Idx → BitVec 32) (hT : a.1 2 = T) :
    ((cfg10 a).win 2).index t (0 : Fin 3) = (T (ValueIdx.ix1 (slot10 a t))).toNat := by
  subst hT
  show (a.1 2 _).toNat = (a.1 2 _).toNat
  refine congrArg BitVec.toNat (congrArg (a.1 2) ?_)
  funext d; apply Fin.ext
  match d with
  | ⟨0, _⟩ =>
    have hN := gridN10 a
    have ht := t.isLt
    show (BitVec.ofNat 32 (((cfg10 a).grid.coords t) 0).val).toNat + 1 * 0 = t.val
    rw [coords10 a t, BitVec.toNat_ofNat]
    omega
theorem inIdxMidC10 (t : Fin (cfg10 a).N) : ((cfg10 a).win 2).index t (1 : Fin 3) = 0 := rfl
theorem inIdxLaneC10 (t : Fin (cfg10 a).N) : ((cfg10 a).win 2).index t (2 : Fin 3) = 0 := rfl

/-- Input window 3's block at point `t` is the table row that word `t` of index table 3 names: block index `(word, 0, 0)`. -/
theorem inIdxRowD10 (t : Fin (cfg10 a).N) (T : S25000.Idx → BitVec 32) (hT : a.1 3 = T) :
    ((cfg10 a).win 3).index t (0 : Fin 3) = (T (ValueIdx.ix1 (slot10 a t))).toNat := by
  subst hT
  show (a.1 3 _).toNat = (a.1 3 _).toNat
  refine congrArg BitVec.toNat (congrArg (a.1 3) ?_)
  funext d; apply Fin.ext
  match d with
  | ⟨0, _⟩ =>
    have hN := gridN10 a
    have ht := t.isLt
    show (BitVec.ofNat 32 (((cfg10 a).grid.coords t) 0).val).toNat + 1 * 0 = t.val
    rw [coords10 a t, BitVec.toNat_ofNat]
    omega
theorem inIdxMidD10 (t : Fin (cfg10 a).N) : ((cfg10 a).win 3).index t (1 : Fin 3) = 0 := rfl
theorem inIdxLaneD10 (t : Fin (cfg10 a).N) : ((cfg10 a).win 3).index t (2 : Fin 3) = 0 := rfl

/-! ## The input blocks: rows of the point table -/

/-- Input window 0's block at point `t` is row `r` of the point table, `r` the row its index word names there. -/
theorem rowBlkA10 (c : Dev nD) (t : Fin (cfg10 a).N) (T : S25000.Idx → BitVec 32) (hT : a.1 0 = T)
    (r : Fin 100000) (hr : r.val = (T (ValueIdx.ix1 (slot10 a t))).toNat) (k : Fin 64) :
    (iblk10 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk10
  show (V c main_v8 : S100000x1x64.Idx → Elt F .f32) ((((cfg10 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg10 a).win 0).index t (0 : Fin 3) * 1 + 1 * 0 = r.val
    rw [inIdxRowA10 a t T hT, hr]
    generalize (T (ValueIdx.ix1 (slot10 a t))).toNat = n
    omega
  | ⟨1, _⟩ =>
    show ((cfg10 a).win 0).index t (1 : Fin 3) * 1 + 1 * 0 = 0
    rw [inIdxMidA10 a t]
  | ⟨2, _⟩ =>
    show ((cfg10 a).win 0).index t (2 : Fin 3) * 64 + 1 * k.val = k.val
    rw [inIdxLaneA10 a t]
    omega

/-- Input window 1's block at point `t` is row `r` of the point table, `r` the row its index word names there. -/
theorem rowBlkB10 (c : Dev nD) (t : Fin (cfg10 a).N) (T : S25000.Idx → BitVec 32) (hT : a.1 1 = T)
    (r : Fin 100000) (hr : r.val = (T (ValueIdx.ix1 (slot10 a t))).toNat) (k : Fin 64) :
    (iblk10 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk10
  show (V c main_v8 : S100000x1x64.Idx → Elt F .f32) ((((cfg10 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg10 a).win 1).index t (0 : Fin 3) * 1 + 1 * 0 = r.val
    rw [inIdxRowB10 a t T hT, hr]
    generalize (T (ValueIdx.ix1 (slot10 a t))).toNat = n
    omega
  | ⟨1, _⟩ =>
    show ((cfg10 a).win 1).index t (1 : Fin 3) * 1 + 1 * 0 = 0
    rw [inIdxMidB10 a t]
  | ⟨2, _⟩ =>
    show ((cfg10 a).win 1).index t (2 : Fin 3) * 64 + 1 * k.val = k.val
    rw [inIdxLaneB10 a t]
    omega

/-- Input window 2's block at point `t` is row `r` of the point table, `r` the row its index word names there. -/
theorem rowBlkC10 (c : Dev nD) (t : Fin (cfg10 a).N) (T : S25000.Idx → BitVec 32) (hT : a.1 2 = T)
    (r : Fin 100000) (hr : r.val = (T (ValueIdx.ix1 (slot10 a t))).toNat) (k : Fin 64) :
    (iblk10 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk10
  show (V c main_v8 : S100000x1x64.Idx → Elt F .f32) ((((cfg10 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg10 a).win 2).index t (0 : Fin 3) * 1 + 1 * 0 = r.val
    rw [inIdxRowC10 a t T hT, hr]
    generalize (T (ValueIdx.ix1 (slot10 a t))).toNat = n
    omega
  | ⟨1, _⟩ =>
    show ((cfg10 a).win 2).index t (1 : Fin 3) * 1 + 1 * 0 = 0
    rw [inIdxMidC10 a t]
  | ⟨2, _⟩ =>
    show ((cfg10 a).win 2).index t (2 : Fin 3) * 64 + 1 * k.val = k.val
    rw [inIdxLaneC10 a t]
    omega

/-- Input window 3's block at point `t` is row `r` of the point table, `r` the row its index word names there. -/
theorem rowBlkD10 (c : Dev nD) (t : Fin (cfg10 a).N) (T : S25000.Idx → BitVec 32) (hT : a.1 3 = T)
    (r : Fin 100000) (hr : r.val = (T (ValueIdx.ix1 (slot10 a t))).toNat) (k : Fin 64) :
    (iblk10 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk10
  show (V c main_v8 : S100000x1x64.Idx → Elt F .f32) ((((cfg10 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg10 a).win 3).index t (0 : Fin 3) * 1 + 1 * 0 = r.val
    rw [inIdxRowD10 a t T hT, hr]
    generalize (T (ValueIdx.ix1 (slot10 a t))).toNat = n
    omega
  | ⟨1, _⟩ =>
    show ((cfg10 a).win 3).index t (1 : Fin 3) * 1 + 1 * 0 = 0
    rw [inIdxMidD10 a t]
  | ⟨2, _⟩ =>
    show ((cfg10 a).win 3).index t (2 : Fin 3) * 64 + 1 * k.val = k.val
    rw [inIdxLaneD10 a t]
    omega

/-! ## The output window: every point writes its own row back -/

/-- Every point writes its output block back: the next point's block is another row. -/
theorem outFlush10 (t : Fin (cfg10 a).N) : ((cfg10 a).win 4).flush t = true := by
  unfold Window.flush
  have hout : ((cfg10 a).win 4).isOut = true := rfl
  rw [hout, Bool.true_and, Bool.or_eq_true, decide_eq_true_eq, decide_eq_true_eq]
  by_cases h : t.val + 1 = (cfg10 a).grid.N
  · exact Or.inl h
  · have hN : (cfg10 a).grid.N = 25000 := N_10
    have hN' := gridN10 a
    refine Or.inr ⟨by have := t.isLt; omega, fun e => ?_⟩
    have e0 := congrFun e (0 : Fin 3)
    rw [outIdxRow10, outIdxRow10] at e0
    exact absurd e0 (by simp)

set_option backward.isDefEq.respectTransparency.types false in
/-- An index of the result array is in point `t`'s block iff each coordinate is in the block's range on its axis. -/
theorem memOutBlk10 (t : Fin (cfg10 a).N) (i : S25000x1x2.Idx) :
    i ∈ (((cfg10 a).win 4).blk t).view.set ↔ ∀ ax : Fin 3, ((cfg10 a).win 4).index t ax * S1x1x2.size ax ≤ (i ax).val
      ∧ (i ax).val < ((cfg10 a).win 4).index t ax * S1x1x2.size ax + S1x1x2.size ax := by
  show i ∈ ((View.whole main_v63).slice (((cfg10 a).win 4).rect t)).set ↔ _
  rw [View.set_slice_whole]
  exact Rect.mem_set_unit

/-- What region 10 leaves in its result array, row by row: row `q` is the output block of the four table rows that
    the index words of point `q` name, position `e` of the block being edge `e`. -/
def rows10 (c : Dev nD) : S25000x1x2.Idx → Elt F .f32 := fun i =>
  outBlk10 (iblk10 V a c 0 (pt10 a ⟨(i 0).val, (i 0).isLt⟩)) (iblk10 V a c 1 (pt10 a ⟨(i 0).val, (i 0).isLt⟩))
    (iblk10 V a c 2 (pt10 a ⟨(i 0).val, (i 0).isLt⟩)) (iblk10 V a c 3 (pt10 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply10 (c : Dev nD) (t : Fin (cfg10 a).N) (e : Fin 2) (i : S25000x1x2.Idx)
    (h0 : (i 0).val = t.val) (h2 : (i 2).val = e.val) :
    rows10 V a c i
      = outBlk10 (iblk10 V a c 0 t) (iblk10 V a c 1 t) (iblk10 V a c 2 t) (iblk10 V a c 3 t) (ValueIdx.ix3 (0 : Fin 1) (0 : Fin 1) e) := by
  obtain rfl : t = pt10 a ⟨(i 0).val, (i 0).isLt⟩ := Fin.ext h0.symm
  obtain rfl : e = ⟨(i 2).val, (i 2).isLt⟩ := Fin.ext h2.symm
  rfl

/-- The same with the position given as an index of the block. -/
theorem rowsAt10 (c : Dev nD) (t : Fin (cfg10 a).N) (j : S1x1x2.Idx) (i : S25000x1x2.Idx)
    (h0 : (i 0).val = t.val) (h2 : (i 2).val = (j 2).val) :
    rows10 V a c i = outBlk10 (iblk10 V a c 0 t) (iblk10 V a c 1 t) (iblk10 V a c 2 t) (iblk10 V a c 3 t) j := by
  rw [rowsApply10 V a c t ⟨(j 2).val, (j 2).isLt⟩ i h0 h2]
  refine congrArg (outBlk10 (iblk10 V a c 0 t) (iblk10 V a c 1 t) (iblk10 V a c 2 t) (iblk10 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows10`. -/
theorem flushedRows10 (c : Dev nD) (t : Fin (cfg10 a).N) :
    (dat10 V a c).flushed 4 t = (((cfg10 a).win 4).blk t).view.read (Elt F) (rows10 V a c) := by
  show ((cfg10 a).win 4).cut ((cfg10 a).grid.coords t) ((dat10 V a c).after 4 t) = _
  rw [after10_4]
  funext j
  show outBlk10 (iblk10 V a c 0 t) (iblk10 V a c 1 t) (iblk10 V a c 2 t) (iblk10 V a c 3 t) (((cfg10 a).win 4).xinj ((cfg10 a).grid.coords t) j)
    = rows10 V a c ((((cfg10 a).win 4).blk t).view.emb j)
  refine (rowsAt10 V a c t _ _ ?_ ?_).symm
  · have hj : (j (0 : Fin 3)).val < 1 := (j (0 : Fin 3)).isLt
    show ((cfg10 a).win 4).index t (0 : Fin 3) * 1 + 1 * (j (0 : Fin 3)).val = t.val
    rw [outIdxRow10 a t]
    omega
  · show ((cfg10 a).win 4).index t (2 : Fin 3) * 2 + 1 * (j (2 : Fin 3)).val = (j (2 : Fin 3)).val
    rw [outIdxLane10 a t]
    omega

/-- After the run the result array holds `rows10`: row `q` was written by point `q`, and by no later point. -/
theorem arrRows10 (c : Dev nD) (q : Fin 25000) (e : Fin 2) :
    ((dat10 V a c).arrAt 4 (cfg10 a).N : S25000x1x2.Idx → Elt F .f32) (ValueIdx.ix3 q (0 : Fin 1) e)
      = rows10 V a c (ValueIdx.ix3 q (0 : Fin 1) e) := by
  refine (dat10 V a c).arrAt_apply_of_mem 4 (rows10 V a c) (fun t _ => flushedRows10 V a c t) (cfg10 a).N (pt10 a q)
    (ValueIdx.ix3 q (0 : Fin 1) e) (pt10 a q).isLt (outFlush10 a _) ((memOutBlk10 a _ _).mpr fun ax => ?_)
  match ax with
  | ⟨0, _⟩ =>
    show ((cfg10 a).win 4).index (pt10 a q) (0 : Fin 3) * 1 ≤ q.val ∧ q.val < ((cfg10 a).win 4).index (pt10 a q) (0 : Fin 3) * 1 + 1
    rw [outIdxRow10 a (pt10 a q)]
    show q.val * 1 ≤ q.val ∧ q.val < q.val * 1 + 1
    omega
  | ⟨1, _⟩ =>
    show ((cfg10 a).win 4).index (pt10 a q) (1 : Fin 3) * 1 ≤ 0 ∧ 0 < ((cfg10 a).win 4).index (pt10 a q) (1 : Fin 3) * 1 + 1
    rw [outIdxMid10 a (pt10 a q)]
    omega
  | ⟨2, _⟩ =>
    have he := e.isLt
    show ((cfg10 a).win 4).index (pt10 a q) (2 : Fin 3) * 2 ≤ e.val ∧ e.val < ((cfg10 a).win 4).index (pt10 a q) (2 : Fin 3) * 2 + 2
    rw [outIdxLane10 a (pt10 a q)]
    omega

/-! ## The value, over the extended reals -/

/-- Two blocks that are rows `r` and `s` of the table `X` have, as the body's payload, the distance between those rows. -/
theorem distOfRows10 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt10_apply (m : (ℓ : Loc nD τ sig) → Buf (Elt Ideal) ℓ) (a : (pcfg10 (F := Ideal)).Adm) (c : Dev nD)
    (ha0 : a.1 0 = tbl m c (10 : Fin 20) 0) (ha1 : a.1 1 = tbl m c (10 : Fin 20) 1)
    (ha2 : a.1 2 = tbl m c (10 : Fin 20) 2) (ha3 : a.1 3 = tbl m c (10 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat10 (F := Ideal) (fun c b => V1 m c b) a c).arrAt 4 (cfg10 a).N : S25000x1x2.Idx → EReal) (ValueIdx.ix3 q 0 e)
      = Cert.EdgeLengths.lengthAt (m ((c.tc : Thread nD τ).loc main_arg0)) (m ((c.tc : Thread nD τ).loc main_arg1))
          (genOf (10 : Fin 20) q) e := by
  refine (arrRows10 (fun c b => V1 m c b) a c q e).trans ?_
  refine (rowsApply10 (fun c b => V1 m c b) a c (pt10 a q) e _ rfl rfl).trans ?_
  -- the row each of the four index words of point `q` names is the vertex that word is
  have hv : ∀ j : Fin 4, (Cert.EdgeLengths.vtx (m ((c.tc : Thread nD τ).loc main_arg1)) (genOf (10 : Fin 20) q) j).val
      = (tbl m c (10 : Fin 20) j (ValueIdx.ix1 (slot10 a (pt10 a q)))).toNat :=
    fun j => Cert.EdgeLengths.vtx_val _ hR _ j
  match e with
  | ⟨0, _⟩ =>
    refine (outBlkBirth10 _ _ _ _).trans ?_
    refine (payBirth10 _ _ _).trans ?_
    exact distOfRows10 _ _ _ _ _
      (fun k => (rowBlkA10 (fun c b => V1 m c b) a c (pt10 a q) _ ha0 _ (hv 0) k).trans (hx _ k))
      (fun k => (rowBlkB10 (fun c b => V1 m c b) a c (pt10 a q) _ ha1 _ (hv 1) k).trans (hx _ k))
  | ⟨1, _⟩ =>
    refine (outBlkDeath10 _ _ _ _).trans ?_
    refine (payDeath10 _ _ _).trans ?_
    exact distOfRows10 _ _ _ _ _
      (fun k => (rowBlkC10 (fun c b => V1 m c b) a c (pt10 a q) _ ha2 _ (hv 2) k).trans (hx _ k))
      (fun k => (rowBlkD10 (fun c b => V1 m c b) a c (pt10 a q) _ ha3 _ (hv 3) k).trans (hx _ k))

end Cert.KernelIdeal.Gen

end
-- ==== Proof.KI.Value11.lean ====
/-
  The value region 11 of the gather-and-norm program leaves in its result array, over the extended reals.

  Region 11 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows11`), which each written-back
  block is a block of; and last, with the tables the four columns of the vertex words and every word in range, the
  row a word names is the vertex that word is, so the entry is the edge length of the specification.
-/
import proofs.«401090_j62775241999084_2_alg».proof.Proof.KI.Region11
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane11 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth11 (u v : Vec Ideal S1x1x64 .f32) (y : S1x1x1.Idx) :
    k11_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k11_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane11 k]
  rfl

/-- The death edge's payload: the same function of its two rows. -/
theorem payDeath11 (u v : Vec Ideal S1x1x64 .f32) (y : S1x1x1.Idx) :
    k11_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k11_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane11 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg11 (F := F)).Adm)

/-! ## The output block at its two positions -/

theorem hzThree11 : (![0, 0, 0] : Fin 3 → Nat) = fun _ => 0 := funext fun ax => by fin_cases ax <;> rfl

/-- Position 0 of the output block lies under the birth edge's store … -/
theorem embBirth11 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath11 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath11 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth11 (x0 x1 x2 x3 : Vec F S1x1x64 .f32) :
    outBlk11 x0 x1 x2 x3 (ValueIdx.ix3 (0 : Fin 1) (0 : Fin 1) (0 : Fin 2))
      = k11_pay1 x0 x1 (ValueIdx.ix3 (0 : Fin 1) (0 : Fin 1) (0 : Fin 1)) := by
  unfold outBlk11
  refine (View.canon_cons_of_not_mem
    (⟨outRectD, k11_pay2 (View.ld x2 rowRect) (View.ld x3 rowRect)⟩ : View.Piece (Elt F) S1x1x2 .f32)
    ([⟨outRectB, k11_pay1 (View.ld x0 rowRect) (View.ld x1 rowRect)⟩] : List (View.Piece (Elt F) S1x1x2 .f32)) notMemDeath11).trans ?_
  rw [← embBirth11]
  refine (View.canon_cons_emb (Val := Elt F) (e := .f32) outRectB (k11_pay1 (View.ld x0 rowRect) (View.ld x1 rowRect)) [] _).trans ?_
  rw [View.ld_unit_zero (S := S1x1x64) hzThree11, View.ld_unit_zero (S := S1x1x64) hzThree11]

/-- Position 1 holds the death edge's payload of the last two rows. -/
theorem outBlkDeath11 (x0 x1 x2 x3 : Vec F S1x1x64 .f32) :
    outBlk11 x0 x1 x2 x3 (ValueIdx.ix3 (0 : Fin 1) (0 : Fin 1) (1 : Fin 2))
      = k11_pay2 x2 x3 (ValueIdx.ix3 (0 : Fin 1) (0 : Fin 1) (0 : Fin 1)) := by
  unfold outBlk11
  rw [← embDeath11]
  refine (View.canon_cons_emb (Val := Elt F) (e := .f32) outRectD (k11_pay2 (View.ld x2 rowRect) (View.ld x3 rowRect))
    ([⟨outRectB, k11_pay1 (View.ld x0 rowRect) (View.ld x1 rowRect)⟩] : List (View.Piece (Elt F) S1x1x2 .f32)) _).trans ?_
  rw [View.ld_unit_zero (S := S1x1x64) hzThree11, View.ld_unit_zero (S := S1x1x64) hzThree11]

/-! ## The grid and the index maps, at any admissible contents of the index tables -/

/-- Region 11 has 25000 grid points, one per generator it handles. -/
theorem gridN11 : (cfg11 a).N = 25000 := N_11

/-- A point's one coordinate is the point's number. -/
theorem coords11 (t : Fin (cfg11 a).N) : (((cfg11 a).grid.coords t) 0).val = t.val := by
  have hN := gridN11 a
  have ht := t.isLt
  show t.val / 1 % 25000 = t.val
  omega

/-- The output window's block at point `t` is row `t` of the result: block index `(t, 0, 0)`. -/
theorem outIdxRow11 (t : Fin (cfg11 a).N) : ((cfg11 a).win 4).index t (0 : Fin 3) = t.val := by
  have hN := gridN11 a
  have ht := t.isLt
  show (BitVec.ofNat 32 (((cfg11 a).grid.coords t) 0).val).toNat = t.val
  rw [coords11 a t, BitVec.toNat_ofNat]
  omega
theorem outIdxMid11 (t : Fin (cfg11 a).N) : ((cfg11 a).win 4).index t (1 : Fin 3) = 0 := rfl
theorem outIdxLane11 (t : Fin (cfg11 a).N) : ((cfg11 a).win 4).index t (2 : Fin 3) = 0 := rfl

/-- The slot of an index table that point `t` reads: its own number. -/
abbrev slot11 (t : Fin (cfg11 a).N) : Fin 25000 := ⟨t.val, (gridN11 a) ▸ t.isLt⟩

/-- The grid point that writes row `q` of the result: point `q`. -/
abbrev pt11 (q : Fin 25000) : Fin (cfg11 a).N := ⟨q.val, (gridN11 a).symm ▸ q.isLt⟩

/-- Input window 0's block at point `t` is the table row that word `t` of index table 0 names: block index `(word, 0, 0)`. -/
theorem inIdxRowA11 (t : Fin (cfg11 a).N) (T : S25000.Idx → BitVec 32) (hT : a.1 0 = T) :
    ((cfg11 a).win 0).index t (0 : Fin 3) = (T (ValueIdx.ix1 (slot11 a t))).toNat := by
  subst hT
  show (a.1 0 _).toNat = (a.1 0 _).toNat
  refine congrArg BitVec.toNat (congrArg (a.1 0) ?_)
  funext d; apply Fin.ext
  match d with
  | ⟨0, _⟩ =>
    have hN := gridN11 a
    have ht := t.isLt
    show (BitVec.ofNat 32 (((cfg11 a).grid.coords t) 0).val).toNat + 1 * 0 = t.val
    rw [coords11 a t, BitVec.toNat_ofNat]
    omega
theorem inIdxMidA11 (t : Fin (cfg11 a).N) : ((cfg11 a).win 0).index t (1 : Fin 3) = 0 := rfl
theorem inIdxLaneA11 (t : Fin (cfg11 a).N) : ((cfg11 a).win 0).index t (2 : Fin 3) = 0 := rfl

/-- Input window 1's block at point `t` is the table row that word `t` of index table 1 names: block index `(word, 0, 0)`. -/
theorem inIdxRowB11 (t : Fin (cfg11 a).N) (T : S25000.Idx → BitVec 32) (hT : a.1 1 = T) :
    ((cfg11 a).win 1).index t (0 : Fin 3) = (T (ValueIdx.ix1 (slot11 a t))).toNat := by
  subst hT
  show (a.1 1 _).toNat = (a.1 1 _).toNat
  refine congrArg BitVec.toNat (congrArg (a.1 1) ?_)
  funext d; apply Fin.ext
  match d with
  | ⟨0, _⟩ =>
    have hN := gridN11 a
    have ht := t.isLt
    show (BitVec.ofNat 32 (((cfg11 a).grid.coords t) 0).val).toNat + 1 * 0 = t.val
    rw [coords11 a t, BitVec.toNat_ofNat]
    omega
theorem inIdxMidB11 (t : Fin (cfg11 a).N) : ((cfg11 a).win 1).index t (1 : Fin 3) = 0 := rfl
theorem inIdxLaneB11 (t : Fin (cfg11 a).N) : ((cfg11 a).win 1).index t (2 : Fin 3) = 0 := rfl

/-- Input window 2's block at point `t` is the table row that word `t` of index table 2 names: block index `(word, 0, 0)`. -/
theorem inIdxRowC11 (t : Fin (cfg11 a).N) (T : S25000.Idx → BitVec 32) (hT : a.1 2 = T) :
    ((cfg11 a).win 2).index t (0 : Fin 3) = (T (ValueIdx.ix1 (slot11 a t))).toNat := by
  subst hT
  show (a.1 2 _).toNat = (a.1 2 _).toNat
  refine congrArg BitVec.toNat (congrArg (a.1 2) ?_)
  funext d; apply Fin.ext
  match d with
  | ⟨0, _⟩ =>
    have hN := gridN11 a
    have ht := t.isLt
    show (BitVec.ofNat 32 (((cfg11 a).grid.coords t) 0).val).toNat + 1 * 0 = t.val
    rw [coords11 a t, BitVec.toNat_ofNat]
    omega
theorem inIdxMidC11 (t : Fin (cfg11 a).N) : ((cfg11 a).win 2).index t (1 : Fin 3) = 0 := rfl
theorem inIdxLaneC11 (t : Fin (cfg11 a).N) : ((cfg11 a).win 2).index t (2 : Fin 3) = 0 := rfl

/-- Input window 3's block at point `t` is the table row that word `t` of index table 3 names: block index `(word, 0, 0)`. -/
theorem inIdxRowD11 (t : Fin (cfg11 a).N) (T : S25000.Idx → BitVec 32) (hT : a.1 3 = T) :
    ((cfg11 a).win 3).index t (0 : Fin 3) = (T (ValueIdx.ix1 (slot11 a t))).toNat := by
  subst hT
  show (a.1 3 _).toNat = (a.1 3 _).toNat
  refine congrArg BitVec.toNat (congrArg (a.1 3) ?_)
  funext d; apply Fin.ext
  match d with
  | ⟨0, _⟩ =>
    have hN := gridN11 a
    have ht := t.isLt
    show (BitVec.ofNat 32 (((cfg11 a).grid.coords t) 0).val).toNat + 1 * 0 = t.val
    rw [coords11 a t, BitVec.toNat_ofNat]
    omega
theorem inIdxMidD11 (t : Fin (cfg11 a).N) : ((cfg11 a).win 3).index t (1 : Fin 3) = 0 := rfl
theorem inIdxLaneD11 (t : Fin (cfg11 a).N) : ((cfg11 a).win 3).index t (2 : Fin 3) = 0 := rfl

/-! ## The input blocks: rows of the point table -/

/-- Input window 0's block at point `t` is row `r` of the point table, `r` the row its index word names there. -/
theorem rowBlkA11 (c : Dev nD) (t : Fin (cfg11 a).N) (T : S25000.Idx → BitVec 32) (hT : a.1 0 = T)
    (r : Fin 100000) (hr : r.val = (T (ValueIdx.ix1 (slot11 a t))).toNat) (k : Fin 64) :
    (iblk11 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk11
  show (V c main_v8 : S100000x1x64.Idx → Elt F .f32) ((((cfg11 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg11 a).win 0).index t (0 : Fin 3) * 1 + 1 * 0 = r.val
    rw [inIdxRowA11 a t T hT, hr]
    generalize (T (ValueIdx.ix1 (slot11 a t))).toNat = n
    omega
  | ⟨1, _⟩ =>
    show ((cfg11 a).win 0).index t (1 : Fin 3) * 1 + 1 * 0 = 0
    rw [inIdxMidA11 a t]
  | ⟨2, _⟩ =>
    show ((cfg11 a).win 0).index t (2 : Fin 3) * 64 + 1 * k.val = k.val
    rw [inIdxLaneA11 a t]
    omega

/-- Input window 1's block at point `t` is row `r` of the point table, `r` the row its index word names there. -/
theorem rowBlkB11 (c : Dev nD) (t : Fin (cfg11 a).N) (T : S25000.Idx → BitVec 32) (hT : a.1 1 = T)
    (r : Fin 100000) (hr : r.val = (T (ValueIdx.ix1 (slot11 a t))).toNat) (k : Fin 64) :
    (iblk11 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk11
  show (V c main_v8 : S100000x1x64.Idx → Elt F .f32) ((((cfg11 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg11 a).win 1).index t (0 : Fin 3) * 1 + 1 * 0 = r.val
    rw [inIdxRowB11 a t T hT, hr]
    generalize (T (ValueIdx.ix1 (slot11 a t))).toNat = n
    omega
  | ⟨1, _⟩ =>
    show ((cfg11 a).win 1).index t (1 : Fin 3) * 1 + 1 * 0 = 0
    rw [inIdxMidB11 a t]
  | ⟨2, _⟩ =>
    show ((cfg11 a).win 1).index t (2 : Fin 3) * 64 + 1 * k.val = k.val
    rw [inIdxLaneB11 a t]
    omega

/-- Input window 2's block at point `t` is row `r` of the point table, `r` the row its index word names there. -/
theorem rowBlkC11 (c : Dev nD) (t : Fin (cfg11 a).N) (T : S25000.Idx → BitVec 32) (hT : a.1 2 = T)
    (r : Fin 100000) (hr : r.val = (T (ValueIdx.ix1 (slot11 a t))).toNat) (k : Fin 64) :
    (iblk11 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk11
  show (V c main_v8 : S100000x1x64.Idx → Elt F .f32) ((((cfg11 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg11 a).win 2).index t (0 : Fin 3) * 1 + 1 * 0 = r.val
    rw [inIdxRowC11 a t T hT, hr]
    generalize (T (ValueIdx.ix1 (slot11 a t))).toNat = n
    omega
  | ⟨1, _⟩ =>
    show ((cfg11 a).win 2).index t (1 : Fin 3) * 1 + 1 * 0 = 0
    rw [inIdxMidC11 a t]
  | ⟨2, _⟩ =>
    show ((cfg11 a).win 2).index t (2 : Fin 3) * 64 + 1 * k.val = k.val
    rw [inIdxLaneC11 a t]
    omega

/-- Input window 3's block at point `t` is row `r` of the point table, `r` the row its index word names there. -/
theorem rowBlkD11 (c : Dev nD) (t : Fin (cfg11 a).N) (T : S25000.Idx → BitVec 32) (hT : a.1 3 = T)
    (r : Fin 100000) (hr : r.val = (T (ValueIdx.ix1 (slot11 a t))).toNat) (k : Fin 64) :
    (iblk11 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk11
  show (V c main_v8 : S100000x1x64.Idx → Elt F .f32) ((((cfg11 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg11 a).win 3).index t (0 : Fin 3) * 1 + 1 * 0 = r.val
    rw [inIdxRowD11 a t T hT, hr]
    generalize (T (ValueIdx.ix1 (slot11 a t))).toNat = n
    omega
  | ⟨1, _⟩ =>
    show ((cfg11 a).win 3).index t (1 : Fin 3) * 1 + 1 * 0 = 0
    rw [inIdxMidD11 a t]
  | ⟨2, _⟩ =>
    show ((cfg11 a).win 3).index t (2 : Fin 3) * 64 + 1 * k.val = k.val
    rw [inIdxLaneD11 a t]
    omega

/-! ## The output window: every point writes its own row back -/

/-- Every point writes its output block back: the next point's block is another row. -/
theorem outFlush11 (t : Fin (cfg11 a).N) : ((cfg11 a).win 4).flush t = true := by
  unfold Window.flush
  have hout : ((cfg11 a).win 4).isOut = true := rfl
  rw [hout, Bool.true_and, Bool.or_eq_true, decide_eq_true_eq, decide_eq_true_eq]
  by_cases h : t.val + 1 = (cfg11 a).grid.N
  · exact Or.inl h
  · have hN : (cfg11 a).grid.N = 25000 := N_11
    have hN' := gridN11 a
    refine Or.inr ⟨by have := t.isLt; omega, fun e => ?_⟩
    have e0 := congrFun e (0 : Fin 3)
    rw [outIdxRow11, outIdxRow11] at e0
    exact absurd e0 (by simp)

set_option backward.isDefEq.respectTransparency.types false in
/-- An index of the result array is in point `t`'s block iff each coordinate is in the block's range on its axis. -/
theorem memOutBlk11 (t : Fin (cfg11 a).N) (i : S25000x1x2.Idx) :
    i ∈ (((cfg11 a).win 4).blk t).view.set ↔ ∀ ax : Fin 3, ((cfg11 a).win 4).index t ax * S1x1x2.size ax ≤ (i ax).val
      ∧ (i ax).val < ((cfg11 a).win 4).index t ax * S1x1x2.size ax + S1x1x2.size ax := by
  show i ∈ ((View.whole main_v68).slice (((cfg11 a).win 4).rect t)).set ↔ _
  rw [View.set_slice_whole]
  exact Rect.mem_set_unit

/-- What region 11 leaves in its result array, row by row: row `q` is the output block of the four table rows that
    the index words of point `q` name, position `e` of the block being edge `e`. -/
def rows11 (c : Dev nD) : S25000x1x2.Idx → Elt F .f32 := fun i =>
  outBlk11 (iblk11 V a c 0 (pt11 a ⟨(i 0).val, (i 0).isLt⟩)) (iblk11 V a c 1 (pt11 a ⟨(i 0).val, (i 0).isLt⟩))
    (iblk11 V a c 2 (pt11 a ⟨(i 0).val, (i 0).isLt⟩)) (iblk11 V a c 3 (pt11 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply11 (c : Dev nD) (t : Fin (cfg11 a).N) (e : Fin 2) (i : S25000x1x2.Idx)
    (h0 : (i 0).val = t.val) (h2 : (i 2).val = e.val) :
    rows11 V a c i
      = outBlk11 (iblk11 V a c 0 t) (iblk11 V a c 1 t) (iblk11 V a c 2 t) (iblk11 V a c 3 t) (ValueIdx.ix3 (0 : Fin 1) (0 : Fin 1) e) := by
  obtain rfl : t = pt11 a ⟨(i 0).val, (i 0).isLt⟩ := Fin.ext h0.symm
  obtain rfl : e = ⟨(i 2).val, (i 2).isLt⟩ := Fin.ext h2.symm
  rfl

/-- The same with the position given as an index of the block. -/
theorem rowsAt11 (c : Dev nD) (t : Fin (cfg11 a).N) (j : S1x1x2.Idx) (i : S25000x1x2.Idx)
    (h0 : (i 0).val = t.val) (h2 : (i 2).val = (j 2).val) :
    rows11 V a c i = outBlk11 (iblk11 V a c 0 t) (iblk11 V a c 1 t) (iblk11 V a c 2 t) (iblk11 V a c 3 t) j := by
  rw [rowsApply11 V a c t ⟨(j 2).val, (j 2).isLt⟩ i h0 h2]
  refine congrArg (outBlk11 (iblk11 V a c 0 t) (iblk11 V a c 1 t) (iblk11 V a c 2 t) (iblk11 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows11`. -/
theorem flushedRows11 (c : Dev nD) (t : Fin (cfg11 a).N) :
    (dat11 V a c).flushed 4 t = (((cfg11 a).win 4).blk t).view.read (Elt F) (rows11 V a c) := by
  show ((cfg11 a).win 4).cut ((cfg11 a).grid.coords t) ((dat11 V a c).after 4 t) = _
  rw [after11_4]
  funext j
  show outBlk11 (iblk11 V a c 0 t) (iblk11 V a c 1 t) (iblk11 V a c 2 t) (iblk11 V a c 3 t) (((cfg11 a).win 4).xinj ((cfg11 a).grid.coords t) j)
    = rows11 V a c ((((cfg11 a).win 4).blk t).view.emb j)
  refine (rowsAt11 V a c t _ _ ?_ ?_).symm
  · have hj : (j (0 : Fin 3)).val < 1 := (j (0 : Fin 3)).isLt
    show ((cfg11 a).win 4).index t (0 : Fin 3) * 1 + 1 * (j (0 : Fin 3)).val = t.val
    rw [outIdxRow11 a t]
    omega
  · show ((cfg11 a).win 4).index t (2 : Fin 3) * 2 + 1 * (j (2 : Fin 3)).val = (j (2 : Fin 3)).val
    rw [outIdxLane11 a t]
    omega

/-- After the run the result array holds `rows11`: row `q` was written by point `q`, and by no later point. -/
theorem arrRows11 (c : Dev nD) (q : Fin 25000) (e : Fin 2) :
    ((dat11 V a c).arrAt 4 (cfg11 a).N : S25000x1x2.Idx → Elt F .f32) (ValueIdx.ix3 q (0 : Fin 1) e)
      = rows11 V a c (ValueIdx.ix3 q (0 : Fin 1) e) := by
  refine (dat11 V a c).arrAt_apply_of_mem 4 (rows11 V a c) (fun t _ => flushedRows11 V a c t) (cfg11 a).N (pt11 a q)
    (ValueIdx.ix3 q (0 : Fin 1) e) (pt11 a q).isLt (outFlush11 a _) ((memOutBlk11 a _ _).mpr fun ax => ?_)
  match ax with
  | ⟨0, _⟩ =>
    show ((cfg11 a).win 4).index (pt11 a q) (0 : Fin 3) * 1 ≤ q.val ∧ q.val < ((cfg11 a).win 4).index (pt11 a q) (0 : Fin 3) * 1 + 1
    rw [outIdxRow11 a (pt11 a q)]
    show q.val * 1 ≤ q.val ∧ q.val < q.val * 1 + 1
    omega
  | ⟨1, _⟩ =>
    show ((cfg11 a).win 4).index (pt11 a q) (1 : Fin 3) * 1 ≤ 0 ∧ 0 < ((cfg11 a).win 4).index (pt11 a q) (1 : Fin 3) * 1 + 1
    rw [outIdxMid11 a (pt11 a q)]
    omega
  | ⟨2, _⟩ =>
    have he := e.isLt
    show ((cfg11 a).win 4).index (pt11 a q) (2 : Fin 3) * 2 ≤ e.val ∧ e.val < ((cfg11 a).win 4).index (pt11 a q) (2 : Fin 3) * 2 + 2
    rw [outIdxLane11 a (pt11 a q)]
    omega

/-! ## The value, over the extended reals -/

/-- Two blocks that are rows `r` and `s` of the table `X` have, as the body's payload, the distance between those rows. -/
theorem distOfRows11 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt11_apply (m : (ℓ : Loc nD τ sig) → Buf (Elt Ideal) ℓ) (a : (pcfg11 (F := Ideal)).Adm) (c : Dev nD)
    (ha0 : a.1 0 = tbl m c (11 : Fin 20) 0) (ha1 : a.1 1 = tbl m c (11 : Fin 20) 1)
    (ha2 : a.1 2 = tbl m c (11 : Fin 20) 2) (ha3 : a.1 3 = tbl m c (11 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat11 (F := Ideal) (fun c b => V1 m c b) a c).arrAt 4 (cfg11 a).N : S25000x1x2.Idx → EReal) (ValueIdx.ix3 q 0 e)
      = Cert.EdgeLengths.lengthAt (m ((c.tc : Thread nD τ).loc main_arg0)) (m ((c.tc : Thread nD τ).loc main_arg1))
          (genOf (11 : Fin 20) q) e := by
  refine (arrRows11 (fun c b => V1 m c b) a c q e).trans ?_
  refine (rowsApply11 (fun c b => V1 m c b) a c (pt11 a q) e _ rfl rfl).trans ?_
  -- the row each of the four index words of point `q` names is the vertex that word is
  have hv : ∀ j : Fin 4, (Cert.EdgeLengths.vtx (m ((c.tc : Thread nD τ).loc main_arg1)) (genOf (11 : Fin 20) q) j).val
      = (tbl m c (11 : Fin 20) j (ValueIdx.ix1 (slot11 a (pt11 a q)))).toNat :=
    fun j => Cert.EdgeLengths.vtx_val _ hR _ j
  match e with
  | ⟨0, _⟩ =>
    refine (outBlkBirth11 _ _ _ _).trans ?_
    refine (payBirth11 _ _ _).trans ?_
    exact distOfRows11 _ _ _ _ _
      (fun k => (rowBlkA11 (fun c b => V1 m c b) a c (pt11 a q) _ ha0 _ (hv 0) k).trans (hx _ k))
      (fun k => (rowBlkB11 (fun c b => V1 m c b) a c (pt11 a q) _ ha1 _ (hv 1) k).trans (hx _ k))
  | ⟨1, _⟩ =>
    refine (outBlkDeath11 _ _ _ _).trans ?_
    refine (payDeath11 _ _ _).trans ?_
    exact distOfRows11 _ _ _ _ _
      (fun k => (rowBlkC11 (fun c b => V1 m c b) a c (pt11 a q) _ ha2 _ (hv 2) k).trans (hx _ k))
      (fun k => (rowBlkD11 (fun c b => V1 m c b) a c (pt11 a q) _ ha3 _ (hv 3) k).trans (hx _ k))

end Cert.KernelIdeal.Gen

end
-- ==== Proof.KI.Value12.lean ====
/-
  The value region 12 of the gather-and-norm program leaves in its result array, over the extended reals.

  Region 12 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows12`), which each written-back
  block is a block of; and last, with the tables the four columns of the vertex words and every word in range, the
  row a word names is the vertex that word is, so the entry is the edge length of the specification.
-/
import proofs.«401090_j62775241999084_2_alg».proof.Proof.KI.Region12
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane12 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth12 (u v : Vec Ideal S1x1x64 .f32) (y : S1x1x1.Idx) :
    k12_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k12_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane12 k]
  rfl

/-- The death edge's payload: the same function of its two rows. -/
theorem payDeath12 (u v : Vec Ideal S1x1x64 .f32) (y : S1x1x1.Idx) :
    k12_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k12_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane12 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg12 (F := F)).Adm)

/-! ## The output block at its two positions -/

theorem hzThree12 : (![0, 0, 0] : Fin 3 → Nat) = fun _ => 0 := funext fun ax => by fin_cases ax <;> rfl

/-- Position 0 of the output block lies under the birth edge's store … -/
theorem embBirth12 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath12 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath12 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth12 (x0 x1 x2 x3 : Vec F S1x1x64 .f32) :
    outBlk12 x0 x1 x2 x3 (ValueIdx.ix3 (0 : Fin 1) (0 : Fin 1) (0 : Fin 2))
      = k12_pay1 x0 x1 (ValueIdx.ix3 (0 : Fin 1) (0 : Fin 1) (0 : Fin 1)) := by
  unfold outBlk12
  refine (View.canon_cons_of_not_mem
    (⟨outRectD, k12_pay2 (View.ld x2 rowRect) (View.ld x3 rowRect)⟩ : View.Piece (Elt F) S1x1x2 .f32)
    ([⟨outRectB, k12_pay1 (View.ld x0 rowRect) (View.ld x1 rowRect)⟩] : List (View.Piece (Elt F) S1x1x2 .f32)) notMemDeath12).trans ?_
  rw [← embBirth12]
  refine (View.canon_cons_emb (Val := Elt F) (e := .f32) outRectB (k12_pay1 (View.ld x0 rowRect) (View.ld x1 rowRect)) [] _).trans ?_
  rw [View.ld_unit_zero (S := S1x1x64) hzThree12, View.ld_unit_zero (S := S1x1x64) hzThree12]

/-- Position 1 holds the death edge's payload of the last two rows. -/
theorem outBlkDeath12 (x0 x1 x2 x3 : Vec F S1x1x64 .f32) :
    outBlk12 x0 x1 x2 x3 (ValueIdx.ix3 (0 : Fin 1) (0 : Fin 1) (1 : Fin 2))
      = k12_pay2 x2 x3 (ValueIdx.ix3 (0 : Fin 1) (0 : Fin 1) (0 : Fin 1)) := by
  unfold outBlk12
  rw [← embDeath12]
  refine (View.canon_cons_emb (Val := Elt F) (e := .f32) outRectD (k12_pay2 (View.ld x2 rowRect) (View.ld x3 rowRect))
    ([⟨outRectB, k12_pay1 (View.ld x0 rowRect) (View.ld x1 rowRect)⟩] : List (View.Piece (Elt F) S1x1x2 .f32)) _).trans ?_
  rw [View.ld_unit_zero (S := S1x1x64) hzThree12, View.ld_unit_zero (S := S1x1x64) hzThree12]

/-! ## The grid and the index maps, at any admissible contents of the index tables -/

/-- Region 12 has 25000 grid points, one per generator it handles. -/
theorem gridN12 : (cfg12 a).N = 25000 := N_12

/-- A point's one coordinate is the point's number. -/
theorem coords12 (t : Fin (cfg12 a).N) : (((cfg12 a).grid.coords t) 0).val = t.val := by
  have hN := gridN12 a
  have ht := t.isLt
  show t.val / 1 % 25000 = t.val
  omega

/-- The output window's block at point `t` is row `t` of the result: block index `(t, 0, 0)`. -/
theorem outIdxRow12 (t : Fin (cfg12 a).N) : ((cfg12 a).win 4).index t (0 : Fin 3) = t.val := by
  have hN := gridN12 a
  have ht := t.isLt
  show (BitVec.ofNat 32 (((cfg12 a).grid.coords t) 0).val).toNat = t.val
  rw [coords12 a t, BitVec.toNat_ofNat]
  omega
theorem outIdxMid12 (t : Fin (cfg12 a).N) : ((cfg12 a).win 4).index t (1 : Fin 3) = 0 := rfl
theorem outIdxLane12 (t : Fin (cfg12 a).N) : ((cfg12 a).win 4).index t (2 : Fin 3) = 0 := rfl

/-- The slot of an index table that point `t` reads: its own number. -/
abbrev slot12 (t : Fin (cfg12 a).N) : Fin 25000 := ⟨t.val, (gridN12 a) ▸ t.isLt⟩

/-- The grid point that writes row `q` of the result: point `q`. -/
abbrev pt12 (q : Fin 25000) : Fin (cfg12 a).N := ⟨q.val, (gridN12 a).symm ▸ q.isLt⟩

/-- Input window 0's block at point `t` is the table row that word `t` of index table 0 names: block index `(word, 0, 0)`. -/
theorem inIdxRowA12 (t : Fin (cfg12 a).N) (T : S25000.Idx → BitVec 32) (hT : a.1 0 = T) :
    ((cfg12 a).win 0).index t (0 : Fin 3) = (T (ValueIdx.ix1 (slot12 a t))).toNat := by
  subst hT
  show (a.1 0 _).toNat = (a.1 0 _).toNat
  refine congrArg BitVec.toNat (congrArg (a.1 0) ?_)
  funext d; apply Fin.ext
  match d with
  | ⟨0, _⟩ =>
    have hN := gridN12 a
    have ht := t.isLt
    show (BitVec.ofNat 32 (((cfg12 a).grid.coords t) 0).val).toNat + 1 * 0 = t.val
    rw [coords12 a t, BitVec.toNat_ofNat]
    omega
theorem inIdxMidA12 (t : Fin (cfg12 a).N) : ((cfg12 a).win 0).index t (1 : Fin 3) = 0 := rfl
theorem inIdxLaneA12 (t : Fin (cfg12 a).N) : ((cfg12 a).win 0).index t (2 : Fin 3) = 0 := rfl

/-- Input window 1's block at point `t` is the table row that word `t` of index table 1 names: block index `(word, 0, 0)`. -/
theorem inIdxRowB12 (t : Fin (cfg12 a).N) (T : S25000.Idx → BitVec 32) (hT : a.1 1 = T) :
    ((cfg12 a).win 1).index t (0 : Fin 3) = (T (ValueIdx.ix1 (slot12 a t))).toNat := by
  subst hT
  show (a.1 1 _).toNat = (a.1 1 _).toNat
  refine congrArg BitVec.toNat (congrArg (a.1 1) ?_)
  funext d; apply Fin.ext
  match d with
  | ⟨0, _⟩ =>
    have hN := gridN12 a
    have ht := t.isLt
    show (BitVec.ofNat 32 (((cfg12 a).grid.coords t) 0).val).toNat + 1 * 0 = t.val
    rw [coords12 a t, BitVec.toNat_ofNat]
    omega
theorem inIdxMidB12 (t : Fin (cfg12 a).N) : ((cfg12 a).win 1).index t (1 : Fin 3) = 0 := rfl
theorem inIdxLaneB12 (t : Fin (cfg12 a).N) : ((cfg12 a).win 1).index t (2 : Fin 3) = 0 := rfl

/-- Input window 2's block at point `t` is the table row that word `t` of index table 2 names: block index `(word, 0, 0)`. -/
theorem inIdxRowC12 (t : Fin (cfg12 a).N) (T : S25000.Idx → BitVec 32) (hT : a.1 2 = T) :
    ((cfg12 a).win 2).index t (0 : Fin 3) = (T (ValueIdx.ix1 (slot12 a t))).toNat := by
  subst hT
  show (a.1 2 _).toNat = (a.1 2 _).toNat
  refine congrArg BitVec.toNat (congrArg (a.1 2) ?_)
  funext d; apply Fin.ext
  match d with
  | ⟨0, _⟩ =>
    have hN := gridN12 a
    have ht := t.isLt
    show (BitVec.ofNat 32 (((cfg12 a).grid.coords t) 0).val).toNat + 1 * 0 = t.val
    rw [coords12 a t, BitVec.toNat_ofNat]
    omega
theorem inIdxMidC12 (t : Fin (cfg12 a).N) : ((cfg12 a).win 2).index t (1 : Fin 3) = 0 := rfl
theorem inIdxLaneC12 (t : Fin (cfg12 a).N) : ((cfg12 a).win 2).index t (2 : Fin 3) = 0 := rfl

/-- Input window 3's block at point `t` is the table row that word `t` of index table 3 names: block index `(word, 0, 0)`. -/
theorem inIdxRowD12 (t : Fin (cfg12 a).N) (T : S25000.Idx → BitVec 32) (hT : a.1 3 = T) :
    ((cfg12 a).win 3).index t (0 : Fin 3) = (T (ValueIdx.ix1 (slot12 a t))).toNat := by
  subst hT
  show (a.1 3 _).toNat = (a.1 3 _).toNat
  refine congrArg BitVec.toNat (congrArg (a.1 3) ?_)
  funext d; apply Fin.ext
  match d with
  | ⟨0, _⟩ =>
    have hN := gridN12 a
    have ht := t.isLt
    show (BitVec.ofNat 32 (((cfg12 a).grid.coords t) 0).val).toNat + 1 * 0 = t.val
    rw [coords12 a t, BitVec.toNat_ofNat]
    omega
theorem inIdxMidD12 (t : Fin (cfg12 a).N) : ((cfg12 a).win 3).index t (1 : Fin 3) = 0 := rfl
theorem inIdxLaneD12 (t : Fin (cfg12 a).N) : ((cfg12 a).win 3).index t (2 : Fin 3) = 0 := rfl

/-! ## The input blocks: rows of the point table -/

/-- Input window 0's block at point `t` is row `r` of the point table, `r` the row its index word names there. -/
theorem rowBlkA12 (c : Dev nD) (t : Fin (cfg12 a).N) (T : S25000.Idx → BitVec 32) (hT : a.1 0 = T)
    (r : Fin 100000) (hr : r.val = (T (ValueIdx.ix1 (slot12 a t))).toNat) (k : Fin 64) :
    (iblk12 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk12
  show (V c main_v8 : S100000x1x64.Idx → Elt F .f32) ((((cfg12 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg12 a).win 0).index t (0 : Fin 3) * 1 + 1 * 0 = r.val
    rw [inIdxRowA12 a t T hT, hr]
    generalize (T (ValueIdx.ix1 (slot12 a t))).toNat = n
    omega
  | ⟨1, _⟩ =>
    show ((cfg12 a).win 0).index t (1 : Fin 3) * 1 + 1 * 0 = 0
    rw [inIdxMidA12 a t]
  | ⟨2, _⟩ =>
    show ((cfg12 a).win 0).index t (2 : Fin 3) * 64 + 1 * k.val = k.val
    rw [inIdxLaneA12 a t]
    omega

/-- Input window 1's block at point `t` is row `r` of the point table, `r` the row its index word names there. -/
theorem rowBlkB12 (c : Dev nD) (t : Fin (cfg12 a).N) (T : S25000.Idx → BitVec 32) (hT : a.1 1 = T)
    (r : Fin 100000) (hr : r.val = (T (ValueIdx.ix1 (slot12 a t))).toNat) (k : Fin 64) :
    (iblk12 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk12
  show (V c main_v8 : S100000x1x64.Idx → Elt F .f32) ((((cfg12 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg12 a).win 1).index t (0 : Fin 3) * 1 + 1 * 0 = r.val
    rw [inIdxRowB12 a t T hT, hr]
    generalize (T (ValueIdx.ix1 (slot12 a t))).toNat = n
    omega
  | ⟨1, _⟩ =>
    show ((cfg12 a).win 1).index t (1 : Fin 3) * 1 + 1 * 0 = 0
    rw [inIdxMidB12 a t]
  | ⟨2, _⟩ =>
    show ((cfg12 a).win 1).index t (2 : Fin 3) * 64 + 1 * k.val = k.val
    rw [inIdxLaneB12 a t]
    omega

/-- Input window 2's block at point `t` is row `r` of the point table, `r` the row its index word names there. -/
theorem rowBlkC12 (c : Dev nD) (t : Fin (cfg12 a).N) (T : S25000.Idx → BitVec 32) (hT : a.1 2 = T)
    (r : Fin 100000) (hr : r.val = (T (ValueIdx.ix1 (slot12 a t))).toNat) (k : Fin 64) :
    (iblk12 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk12
  show (V c main_v8 : S100000x1x64.Idx → Elt F .f32) ((((cfg12 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg12 a).win 2).index t (0 : Fin 3) * 1 + 1 * 0 = r.val
    rw [inIdxRowC12 a t T hT, hr]
    generalize (T (ValueIdx.ix1 (slot12 a t))).toNat = n
    omega
  | ⟨1, _⟩ =>
    show ((cfg12 a).win 2).index t (1 : Fin 3) * 1 + 1 * 0 = 0
    rw [inIdxMidC12 a t]
  | ⟨2, _⟩ =>
    show ((cfg12 a).win 2).index t (2 : Fin 3) * 64 + 1 * k.val = k.val
    rw [inIdxLaneC12 a t]
    omega

/-- Input window 3's block at point `t` is row `r` of the point table, `r` the row its index word names there. -/
theorem rowBlkD12 (c : Dev nD) (t : Fin (cfg12 a).N) (T : S25000.Idx → BitVec 32) (hT : a.1 3 = T)
    (r : Fin 100000) (hr : r.val = (T (ValueIdx.ix1 (slot12 a t))).toNat) (k : Fin 64) :
    (iblk12 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk12
  show (V c main_v8 : S100000x1x64.Idx → Elt F .f32) ((((cfg12 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg12 a).win 3).index t (0 : Fin 3) * 1 + 1 * 0 = r.val
    rw [inIdxRowD12 a t T hT, hr]
    generalize (T (ValueIdx.ix1 (slot12 a t))).toNat = n
    omega
  | ⟨1, _⟩ =>
    show ((cfg12 a).win 3).index t (1 : Fin 3) * 1 + 1 * 0 = 0
    rw [inIdxMidD12 a t]
  | ⟨2, _⟩ =>
    show ((cfg12 a).win 3).index t (2 : Fin 3) * 64 + 1 * k.val = k.val
    rw [inIdxLaneD12 a t]
    omega

/-! ## The output window: every point writes its own row back -/

/-- Every point writes its output block back: the next point's block is another row. -/
theorem outFlush12 (t : Fin (cfg12 a).N) : ((cfg12 a).win 4).flush t = true := by
  unfold Window.flush
  have hout : ((cfg12 a).win 4).isOut = true := rfl
  rw [hout, Bool.true_and, Bool.or_eq_true, decide_eq_true_eq, decide_eq_true_eq]
  by_cases h : t.val + 1 = (cfg12 a).grid.N
  · exact Or.inl h
  · have hN : (cfg12 a).grid.N = 25000 := N_12
    have hN' := gridN12 a
    refine Or.inr ⟨by have := t.isLt; omega, fun e => ?_⟩
    have e0 := congrFun e (0 : Fin 3)
    rw [outIdxRow12, outIdxRow12] at e0
    exact absurd e0 (by simp)

set_option backward.isDefEq.respectTransparency.types false in
/-- An index of the result array is in point `t`'s block iff each coordinate is in the block's range on its axis. -/
theorem memOutBlk12 (t : Fin (cfg12 a).N) (i : S25000x1x2.Idx) :
    i ∈ (((cfg12 a).win 4).blk t).view.set ↔ ∀ ax : Fin 3, ((cfg12 a).win 4).index t ax * S1x1x2.size ax ≤ (i ax).val
      ∧ (i ax).val < ((cfg12 a).win 4).index t ax * S1x1x2.size ax + S1x1x2.size ax := by
  show i ∈ ((View.whole main_v73).slice (((cfg12 a).win 4).rect t)).set ↔ _
  rw [View.set_slice_whole]
  exact Rect.mem_set_unit

/-- What region 12 leaves in its result array, row by row: row `q` is the output block of the four table rows that
    the index words of point `q` name, position `e` of the block being edge `e`. -/
def rows12 (c : Dev nD) : S25000x1x2.Idx → Elt F .f32 := fun i =>
  outBlk12 (iblk12 V a c 0 (pt12 a ⟨(i 0).val, (i 0).isLt⟩)) (iblk12 V a c 1 (pt12 a ⟨(i 0).val, (i 0).isLt⟩))
    (iblk12 V a c 2 (pt12 a ⟨(i 0).val, (i 0).isLt⟩)) (iblk12 V a c 3 (pt12 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply12 (c : Dev nD) (t : Fin (cfg12 a).N) (e : Fin 2) (i : S25000x1x2.Idx)
    (h0 : (i 0).val = t.val) (h2 : (i 2).val = e.val) :
    rows12 V a c i
      = outBlk12 (iblk12 V a c 0 t) (iblk12 V a c 1 t) (iblk12 V a c 2 t) (iblk12 V a c 3 t) (ValueIdx.ix3 (0 : Fin 1) (0 : Fin 1) e) := by
  obtain rfl : t = pt12 a ⟨(i 0).val, (i 0).isLt⟩ := Fin.ext h0.symm
  obtain rfl : e = ⟨(i 2).val, (i 2).isLt⟩ := Fin.ext h2.symm
  rfl

/-- The same with the position given as an index of the block. -/
theorem rowsAt12 (c : Dev nD) (t : Fin (cfg12 a).N) (j : S1x1x2.Idx) (i : S25000x1x2.Idx)
    (h0 : (i 0).val = t.val) (h2 : (i 2).val = (j 2).val) :
    rows12 V a c i = outBlk12 (iblk12 V a c 0 t) (iblk12 V a c 1 t) (iblk12 V a c 2 t) (iblk12 V a c 3 t) j := by
  rw [rowsApply12 V a c t ⟨(j 2).val, (j 2).isLt⟩ i h0 h2]
  refine congrArg (outBlk12 (iblk12 V a c 0 t) (iblk12 V a c 1 t) (iblk12 V a c 2 t) (iblk12 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows12`. -/
theorem flushedRows12 (c : Dev nD) (t : Fin (cfg12 a).N) :
    (dat12 V a c).flushed 4 t = (((cfg12 a).win 4).blk t).view.read (Elt F) (rows12 V a c) := by
  show ((cfg12 a).win 4).cut ((cfg12 a).grid.coords t) ((dat12 V a c).after 4 t) = _
  rw [after12_4]
  funext j
  show outBlk12 (iblk12 V a c 0 t) (iblk12 V a c 1 t) (iblk12 V a c 2 t) (iblk12 V a c 3 t) (((cfg12 a).win 4).xinj ((cfg12 a).grid.coords t) j)
    = rows12 V a c ((((cfg12 a).win 4).blk t).view.emb j)
  refine (rowsAt12 V a c t _ _ ?_ ?_).symm
  · have hj : (j (0 : Fin 3)).val < 1 := (j (0 : Fin 3)).isLt
    show ((cfg12 a).win 4).index t (0 : Fin 3) * 1 + 1 * (j (0 : Fin 3)).val = t.val
    rw [outIdxRow12 a t]
    omega
  · show ((cfg12 a).win 4).index t (2 : Fin 3) * 2 + 1 * (j (2 : Fin 3)).val = (j (2 : Fin 3)).val
    rw [outIdxLane12 a t]
    omega

/-- After the run the result array holds `rows12`: row `q` was written by point `q`, and by no later point. -/
theorem arrRows12 (c : Dev nD) (q : Fin 25000) (e : Fin 2) :
    ((dat12 V a c).arrAt 4 (cfg12 a).N : S25000x1x2.Idx → Elt F .f32) (ValueIdx.ix3 q (0 : Fin 1) e)
      = rows12 V a c (ValueIdx.ix3 q (0 : Fin 1) e) := by
  refine (dat12 V a c).arrAt_apply_of_mem 4 (rows12 V a c) (fun t _ => flushedRows12 V a c t) (cfg12 a).N (pt12 a q)
    (ValueIdx.ix3 q (0 : Fin 1) e) (pt12 a q).isLt (outFlush12 a _) ((memOutBlk12 a _ _).mpr fun ax => ?_)
  match ax with
  | ⟨0, _⟩ =>
    show ((cfg12 a).win 4).index (pt12 a q) (0 : Fin 3) * 1 ≤ q.val ∧ q.val < ((cfg12 a).win 4).index (pt12 a q) (0 : Fin 3) * 1 + 1
    rw [outIdxRow12 a (pt12 a q)]
    show q.val * 1 ≤ q.val ∧ q.val < q.val * 1 + 1
    omega
  | ⟨1, _⟩ =>
    show ((cfg12 a).win 4).index (pt12 a q) (1 : Fin 3) * 1 ≤ 0 ∧ 0 < ((cfg12 a).win 4).index (pt12 a q) (1 : Fin 3) * 1 + 1
    rw [outIdxMid12 a (pt12 a q)]
    omega
  | ⟨2, _⟩ =>
    have he := e.isLt
    show ((cfg12 a).win 4).index (pt12 a q) (2 : Fin 3) * 2 ≤ e.val ∧ e.val < ((cfg12 a).win 4).index (pt12 a q) (2 : Fin 3) * 2 + 2
    rw [outIdxLane12 a (pt12 a q)]
    omega

/-! ## The value, over the extended reals -/

/-- Two blocks that are rows `r` and `s` of the table `X` have, as the body's payload, the distance between those rows. -/
theorem distOfRows12 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt12_apply (m : (ℓ : Loc nD τ sig) → Buf (Elt Ideal) ℓ) (a : (pcfg12 (F := Ideal)).Adm) (c : Dev nD)
    (ha0 : a.1 0 = tbl m c (12 : Fin 20) 0) (ha1 : a.1 1 = tbl m c (12 : Fin 20) 1)
    (ha2 : a.1 2 = tbl m c (12 : Fin 20) 2) (ha3 : a.1 3 = tbl m c (12 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat12 (F := Ideal) (fun c b => V1 m c b) a c).arrAt 4 (cfg12 a).N : S25000x1x2.Idx → EReal) (ValueIdx.ix3 q 0 e)
      = Cert.EdgeLengths.lengthAt (m ((c.tc : Thread nD τ).loc main_arg0)) (m ((c.tc : Thread nD τ).loc main_arg1))
          (genOf (12 : Fin 20) q) e := by
  refine (arrRows12 (fun c b => V1 m c b) a c q e).trans ?_
  refine (rowsApply12 (fun c b => V1 m c b) a c (pt12 a q) e _ rfl rfl).trans ?_
  -- the row each of the four index words of point `q` names is the vertex that word is
  have hv : ∀ j : Fin 4, (Cert.EdgeLengths.vtx (m ((c.tc : Thread nD τ).loc main_arg1)) (genOf (12 : Fin 20) q) j).val
      = (tbl m c (12 : Fin 20) j (ValueIdx.ix1 (slot12 a (pt12 a q)))).toNat :=
    fun j => Cert.EdgeLengths.vtx_val _ hR _ j
  match e with
  | ⟨0, _⟩ =>
    refine (outBlkBirth12 _ _ _ _).trans ?_
    refine (payBirth12 _ _ _).trans ?_
    exact distOfRows12 _ _ _ _ _
      (fun k => (rowBlkA12 (fun c b => V1 m c b) a c (pt12 a q) _ ha0 _ (hv 0) k).trans (hx _ k))
      (fun k => (rowBlkB12 (fun c b => V1 m c b) a c (pt12 a q) _ ha1 _ (hv 1) k).trans (hx _ k))
  | ⟨1, _⟩ =>
    refine (outBlkDeath12 _ _ _ _).trans ?_
    refine (payDeath12 _ _ _).trans ?_
    exact distOfRows12 _ _ _ _ _
      (fun k => (rowBlkC12 (fun c b => V1 m c b) a c (pt12 a q) _ ha2 _ (hv 2) k).trans (hx _ k))
      (fun k => (rowBlkD12 (fun c b => V1 m c b) a c (pt12 a q) _ ha3 _ (hv 3) k).trans (hx _ k))

end Cert.KernelIdeal.Gen

end
-- ==== Proof.KI.Value13.lean ====
/-
  The value region 13 of the gather-and-norm program leaves in its result array, over the extended reals.

  Region 13 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows13`), which each written-back
  block is a block of; and last, with the tables the four columns of the vertex words and every word in range, the
  row a word names is the vertex that word is, so the entry is the edge length of the specification.
-/
import proofs.«401090_j62775241999084_2_alg».proof.Proof.KI.Region13
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane13 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth13 (u v : Vec Ideal S1x1x64 .f32) (y : S1x1x1.Idx) :
    k13_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k13_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane13 k]
  rfl

/-- The death edge's payload: the same function of its two rows. -/
theorem payDeath13 (u v : Vec Ideal S1x1x64 .f32) (y : S1x1x1.Idx) :
    k13_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k13_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane13 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg13 (F := F)).Adm)

/-! ## The output block at its two positions -/

theorem hzThree13 : (![0, 0, 0] : Fin 3 → Nat) = fun _ => 0 := funext fun ax => by fin_cases ax <;> rfl

/-- Position 0 of the output block lies under the birth edge's store … -/
theorem embBirth13 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath13 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath13 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth13 (x0 x1 x2 x3 : Vec F S1x1x64 .f32) :
    outBlk13 x0 x1 x2 x3 (ValueIdx.ix3 (0 : Fin 1) (0 : Fin 1) (0 : Fin 2))
      = k13_pay1 x0 x1 (ValueIdx.ix3 (0 : Fin 1) (0 : Fin 1) (0 : Fin 1)) := by
  unfold outBlk13
  refine (View.canon_cons_of_not_mem
    (⟨outRectD, k13_pay2 (View.ld x2 rowRect) (View.ld x3 rowRect)⟩ : View.Piece (Elt F) S1x1x2 .f32)
    ([⟨outRectB, k13_pay1 (View.ld x0 rowRect) (View.ld x1 rowRect)⟩] : List (View.Piece (Elt F) S1x1x2 .f32)) notMemDeath13).trans ?_
  rw [← embBirth13]
  refine (View.canon_cons_emb (Val := Elt F) (e := .f32) outRectB (k13_pay1 (View.ld x0 rowRect) (View.ld x1 rowRect)) [] _).trans ?_
  rw [View.ld_unit_zero (S := S1x1x64) hzThree13, View.ld_unit_zero (S := S1x1x64) hzThree13]

/-- Position 1 holds the death edge's payload of the last two rows. -/
theorem outBlkDeath13 (x0 x1 x2 x3 : Vec F S1x1x64 .f32) :
    outBlk13 x0 x1 x2 x3 (ValueIdx.ix3 (0 : Fin 1) (0 : Fin 1) (1 : Fin 2))
      = k13_pay2 x2 x3 (ValueIdx.ix3 (0 : Fin 1) (0 : Fin 1) (0 : Fin 1)) := by
  unfold outBlk13
  rw [← embDeath13]
  refine (View.canon_cons_emb (Val := Elt F) (e := .f32) outRectD (k13_pay2 (View.ld x2 rowRect) (View.ld x3 rowRect))
    ([⟨outRectB, k13_pay1 (View.ld x0 rowRect) (View.ld x1 rowRect)⟩] : List (View.Piece (Elt F) S1x1x2 .f32)) _).trans ?_
  rw [View.ld_unit_zero (S := S1x1x64) hzThree13, View.ld_unit_zero (S := S1x1x64) hzThree13]

/-! ## The grid and the index maps, at any admissible contents of the index tables -/

/-- Region 13 has 25000 grid points, one per generator it handles. -/
theorem gridN13 : (cfg13 a).N = 25000 := N_13

/-- A point's one coordinate is the point's number. -/
theorem coords13 (t : Fin (cfg13 a).N) : (((cfg13 a).grid.coords t) 0).val = t.val := by
  have hN := gridN13 a
  have ht := t.isLt
  show t.val / 1 % 25000 = t.val
  omega

/-- The output window's block at point `t` is row `t` of the result: block index `(t, 0, 0)`. -/
theorem outIdxRow13 (t : Fin (cfg13 a).N) : ((cfg13 a).win 4).index t (0 : Fin 3) = t.val := by
  have hN := gridN13 a
  have ht := t.isLt
  show (BitVec.ofNat 32 (((cfg13 a).grid.coords t) 0).val).toNat = t.val
  rw [coords13 a t, BitVec.toNat_ofNat]
  omega
theorem outIdxMid13 (t : Fin (cfg13 a).N) : ((cfg13 a).win 4).index t (1 : Fin 3) = 0 := rfl
theorem outIdxLane13 (t : Fin (cfg13 a).N) : ((cfg13 a).win 4).index t (2 : Fin 3) = 0 := rfl

/-- The slot of an index table that point `t` reads: its own number. -/
abbrev slot13 (t : Fin (cfg13 a).N) : Fin 25000 := ⟨t.val, (gridN13 a) ▸ t.isLt⟩

/-- The grid point that writes row `q` of the result: point `q`. -/
abbrev pt13 (q : Fin 25000) : Fin (cfg13 a).N := ⟨q.val, (gridN13 a).symm ▸ q.isLt⟩

/-- Input window 0's block at point `t` is the table row that word `t` of index table 0 names: block index `(word, 0, 0)`. -/
theorem inIdxRowA13 (t : Fin (cfg13 a).N) (T : S25000.Idx → BitVec 32) (hT : a.1 0 = T) :
    ((cfg13 a).win 0).index t (0 : Fin 3) = (T (ValueIdx.ix1 (slot13 a t))).toNat := by
  subst hT
  show (a.1 0 _).toNat = (a.1 0 _).toNat
  refine congrArg BitVec.toNat (congrArg (a.1 0) ?_)
  funext d; apply Fin.ext
  match d with
  | ⟨0, _⟩ =>
    have hN := gridN13 a
    have ht := t.isLt
    show (BitVec.ofNat 32 (((cfg13 a).grid.coords t) 0).val).toNat + 1 * 0 = t.val
    rw [coords13 a t, BitVec.toNat_ofNat]
    omega
theorem inIdxMidA13 (t : Fin (cfg13 a).N) : ((cfg13 a).win 0).index t (1 : Fin 3) = 0 := rfl
theorem inIdxLaneA13 (t : Fin (cfg13 a).N) : ((cfg13 a).win 0).index t (2 : Fin 3) = 0 := rfl

/-- Input window 1's block at point `t` is the table row that word `t` of index table 1 names: block index `(word, 0, 0)`. -/
theorem inIdxRowB13 (t : Fin (cfg13 a).N) (T : S25000.Idx → BitVec 32) (hT : a.1 1 = T) :
    ((cfg13 a).win 1).index t (0 : Fin 3) = (T (ValueIdx.ix1 (slot13 a t))).toNat := by
  subst hT
  show (a.1 1 _).toNat = (a.1 1 _).toNat
  refine congrArg BitVec.toNat (congrArg (a.1 1) ?_)
  funext d; apply Fin.ext
  match d with
  | ⟨0, _⟩ =>
    have hN := gridN13 a
    have ht := t.isLt
    show (BitVec.ofNat 32 (((cfg13 a).grid.coords t) 0).val).toNat + 1 * 0 = t.val
    rw [coords13 a t, BitVec.toNat_ofNat]
    omega
theorem inIdxMidB13 (t : Fin (cfg13 a).N) : ((cfg13 a).win 1).index t (1 : Fin 3) = 0 := rfl
theorem inIdxLaneB13 (t : Fin (cfg13 a).N) : ((cfg13 a).win 1).index t (2 : Fin 3) = 0 := rfl

/-- Input window 2's block at point `t` is the table row that word `t` of index table 2 names: block index `(word, 0, 0)`. -/
theorem inIdxRowC13 (t : Fin (cfg13 a).N) (T : S25000.Idx → BitVec 32) (hT : a.1 2 = T) :
    ((cfg13 a).win 2).index t (0 : Fin 3) = (T (ValueIdx.ix1 (slot13 a t))).toNat := by
  subst hT
  show (a.1 2 _).toNat = (a.1 2 _).toNat
  refine congrArg BitVec.toNat (congrArg (a.1 2) ?_)
  funext d; apply Fin.ext
  match d with
  | ⟨0, _⟩ =>
    have hN := gridN13 a
    have ht := t.isLt
    show (BitVec.ofNat 32 (((cfg13 a).grid.coords t) 0).val).toNat + 1 * 0 = t.val
    rw [coords13 a t, BitVec.toNat_ofNat]
    omega
theorem inIdxMidC13 (t : Fin (cfg13 a).N) : ((cfg13 a).win 2).index t (1 : Fin 3) = 0 := rfl
theorem inIdxLaneC13 (t : Fin (cfg13 a).N) : ((cfg13 a).win 2).index t (2 : Fin 3) = 0 := rfl

/-- Input window 3's block at point `t` is the table row that word `t` of index table 3 names: block index `(word, 0, 0)`. -/
theorem inIdxRowD13 (t : Fin (cfg13 a).N) (T : S25000.Idx → BitVec 32) (hT : a.1 3 = T) :
    ((cfg13 a).win 3).index t (0 : Fin 3) = (T (ValueIdx.ix1 (slot13 a t))).toNat := by
  subst hT
  show (a.1 3 _).toNat = (a.1 3 _).toNat
  refine congrArg BitVec.toNat (congrArg (a.1 3) ?_)
  funext d; apply Fin.ext
  match d with
  | ⟨0, _⟩ =>
    have hN := gridN13 a
    have ht := t.isLt
    show (BitVec.ofNat 32 (((cfg13 a).grid.coords t) 0).val).toNat + 1 * 0 = t.val
    rw [coords13 a t, BitVec.toNat_ofNat]
    omega
theorem inIdxMidD13 (t : Fin (cfg13 a).N) : ((cfg13 a).win 3).index t (1 : Fin 3) = 0 := rfl
theorem inIdxLaneD13 (t : Fin (cfg13 a).N) : ((cfg13 a).win 3).index t (2 : Fin 3) = 0 := rfl

/-! ## The input blocks: rows of the point table -/

/-- Input window 0's block at point `t` is row `r` of the point table, `r` the row its index word names there. -/
theorem rowBlkA13 (c : Dev nD) (t : Fin (cfg13 a).N) (T : S25000.Idx → BitVec 32) (hT : a.1 0 = T)
    (r : Fin 100000) (hr : r.val = (T (ValueIdx.ix1 (slot13 a t))).toNat) (k : Fin 64) :
    (iblk13 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk13
  show (V c main_v8 : S100000x1x64.Idx → Elt F .f32) ((((cfg13 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg13 a).win 0).index t (0 : Fin 3) * 1 + 1 * 0 = r.val
    rw [inIdxRowA13 a t T hT, hr]
    generalize (T (ValueIdx.ix1 (slot13 a t))).toNat = n
    omega
  | ⟨1, _⟩ =>
    show ((cfg13 a).win 0).index t (1 : Fin 3) * 1 + 1 * 0 = 0
    rw [inIdxMidA13 a t]
  | ⟨2, _⟩ =>
    show ((cfg13 a).win 0).index t (2 : Fin 3) * 64 + 1 * k.val = k.val
    rw [inIdxLaneA13 a t]
    omega

/-- Input window 1's block at point `t` is row `r` of the point table, `r` the row its index word names there. -/
theorem rowBlkB13 (c : Dev nD) (t : Fin (cfg13 a).N) (T : S25000.Idx → BitVec 32) (hT : a.1 1 = T)
    (r : Fin 100000) (hr : r.val = (T (ValueIdx.ix1 (slot13 a t))).toNat) (k : Fin 64) :
    (iblk13 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk13
  show (V c main_v8 : S100000x1x64.Idx → Elt F .f32) ((((cfg13 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg13 a).win 1).index t (0 : Fin 3) * 1 + 1 * 0 = r.val
    rw [inIdxRowB13 a t T hT, hr]
    generalize (T (ValueIdx.ix1 (slot13 a t))).toNat = n
    omega
  | ⟨1, _⟩ =>
    show ((cfg13 a).win 1).index t (1 : Fin 3) * 1 + 1 * 0 = 0
    rw [inIdxMidB13 a t]
  | ⟨2, _⟩ =>
    show ((cfg13 a).win 1).index t (2 : Fin 3) * 64 + 1 * k.val = k.val
    rw [inIdxLaneB13 a t]
    omega

/-- Input window 2's block at point `t` is row `r` of the point table, `r` the row its index word names there. -/
theorem rowBlkC13 (c : Dev nD) (t : Fin (cfg13 a).N) (T : S25000.Idx → BitVec 32) (hT : a.1 2 = T)
    (r : Fin 100000) (hr : r.val = (T (ValueIdx.ix1 (slot13 a t))).toNat) (k : Fin 64) :
    (iblk13 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk13
  show (V c main_v8 : S100000x1x64.Idx → Elt F .f32) ((((cfg13 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg13 a).win 2).index t (0 : Fin 3) * 1 + 1 * 0 = r.val
    rw [inIdxRowC13 a t T hT, hr]
    generalize (T (ValueIdx.ix1 (slot13 a t))).toNat = n
    omega
  | ⟨1, _⟩ =>
    show ((cfg13 a).win 2).index t (1 : Fin 3) * 1 + 1 * 0 = 0
    rw [inIdxMidC13 a t]
  | ⟨2, _⟩ =>
    show ((cfg13 a).win 2).index t (2 : Fin 3) * 64 + 1 * k.val = k.val
    rw [inIdxLaneC13 a t]
    omega

/-- Input window 3's block at point `t` is row `r` of the point table, `r` the row its index word names there. -/
theorem rowBlkD13 (c : Dev nD) (t : Fin (cfg13 a).N) (T : S25000.Idx → BitVec 32) (hT : a.1 3 = T)
    (r : Fin 100000) (hr : r.val = (T (ValueIdx.ix1 (slot13 a t))).toNat) (k : Fin 64) :
    (iblk13 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk13
  show (V c main_v8 : S100000x1x64.Idx → Elt F .f32) ((((cfg13 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg13 a).win 3).index t (0 : Fin 3) * 1 + 1 * 0 = r.val
    rw [inIdxRowD13 a t T hT, hr]
    generalize (T (ValueIdx.ix1 (slot13 a t))).toNat = n
    omega
  | ⟨1, _⟩ =>
    show ((cfg13 a).win 3).index t (1 : Fin 3) * 1 + 1 * 0 = 0
    rw [inIdxMidD13 a t]
  | ⟨2, _⟩ =>
    show ((cfg13 a).win 3).index t (2 : Fin 3) * 64 + 1 * k.val = k.val
    rw [inIdxLaneD13 a t]
    omega

/-! ## The output window: every point writes its own row back -/

/-- Every point writes its output block back: the next point's block is another row. -/
theorem outFlush13 (t : Fin (cfg13 a).N) : ((cfg13 a).win 4).flush t = true := by
  unfold Window.flush
  have hout : ((cfg13 a).win 4).isOut = true := rfl
  rw [hout, Bool.true_and, Bool.or_eq_true, decide_eq_true_eq, decide_eq_true_eq]
  by_cases h : t.val + 1 = (cfg13 a).grid.N
  · exact Or.inl h
  · have hN : (cfg13 a).grid.N = 25000 := N_13
    have hN' := gridN13 a
    refine Or.inr ⟨by have := t.isLt; omega, fun e => ?_⟩
    have e0 := congrFun e (0 : Fin 3)
    rw [outIdxRow13, outIdxRow13] at e0
    exact absurd e0 (by simp)

set_option backward.isDefEq.respectTransparency.types false in
/-- An index of the result array is in point `t`'s block iff each coordinate is in the block's range on its axis. -/
theorem memOutBlk13 (t : Fin (cfg13 a).N) (i : S25000x1x2.Idx) :
    i ∈ (((cfg13 a).win 4).blk t).view.set ↔ ∀ ax : Fin 3, ((cfg13 a).win 4).index t ax * S1x1x2.size ax ≤ (i ax).val
      ∧ (i ax).val < ((cfg13 a).win 4).index t ax * S1x1x2.size ax + S1x1x2.size ax := by
  show i ∈ ((View.whole main_v78).slice (((cfg13 a).win 4).rect t)).set ↔ _
  rw [View.set_slice_whole]
  exact Rect.mem_set_unit

/-- What region 13 leaves in its result array, row by row: row `q` is the output block of the four table rows that
    the index words of point `q` name, position `e` of the block being edge `e`. -/
def rows13 (c : Dev nD) : S25000x1x2.Idx → Elt F .f32 := fun i =>
  outBlk13 (iblk13 V a c 0 (pt13 a ⟨(i 0).val, (i 0).isLt⟩)) (iblk13 V a c 1 (pt13 a ⟨(i 0).val, (i 0).isLt⟩))
    (iblk13 V a c 2 (pt13 a ⟨(i 0).val, (i 0).isLt⟩)) (iblk13 V a c 3 (pt13 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply13 (c : Dev nD) (t : Fin (cfg13 a).N) (e : Fin 2) (i : S25000x1x2.Idx)
    (h0 : (i 0).val = t.val) (h2 : (i 2).val = e.val) :
    rows13 V a c i
      = outBlk13 (iblk13 V a c 0 t) (iblk13 V a c 1 t) (iblk13 V a c 2 t) (iblk13 V a c 3 t) (ValueIdx.ix3 (0 : Fin 1) (0 : Fin 1) e) := by
  obtain rfl : t = pt13 a ⟨(i 0).val, (i 0).isLt⟩ := Fin.ext h0.symm
  obtain rfl : e = ⟨(i 2).val, (i 2).isLt⟩ := Fin.ext h2.symm
  rfl

/-- The same with the position given as an index of the block. -/
theorem rowsAt13 (c : Dev nD) (t : Fin (cfg13 a).N) (j : S1x1x2.Idx) (i : S25000x1x2.Idx)
    (h0 : (i 0).val = t.val) (h2 : (i 2).val = (j 2).val) :
    rows13 V a c i = outBlk13 (iblk13 V a c 0 t) (iblk13 V a c 1 t) (iblk13 V a c 2 t) (iblk13 V a c 3 t) j := by
  rw [rowsApply13 V a c t ⟨(j 2).val, (j 2).isLt⟩ i h0 h2]
  refine congrArg (outBlk13 (iblk13 V a c 0 t) (iblk13 V a c 1 t) (iblk13 V a c 2 t) (iblk13 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows13`. -/
theorem flushedRows13 (c : Dev nD) (t : Fin (cfg13 a).N) :
    (dat13 V a c).flushed 4 t = (((cfg13 a).win 4).blk t).view.read (Elt F) (rows13 V a c) := by
  show ((cfg13 a).win 4).cut ((cfg13 a).grid.coords t) ((dat13 V a c).after 4 t) = _
  rw [after13_4]
  funext j
  show outBlk13 (iblk13 V a c 0 t) (iblk13 V a c 1 t) (iblk13 V a c 2 t) (iblk13 V a c 3 t) (((cfg13 a).win 4).xinj ((cfg13 a).grid.coords t) j)
    = rows13 V a c ((((cfg13 a).win 4).blk t).view.emb j)
  refine (rowsAt13 V a c t _ _ ?_ ?_).symm
  · have hj : (j (0 : Fin 3)).val < 1 := (j (0 : Fin 3)).isLt
    show ((cfg13 a).win 4).index t (0 : Fin 3) * 1 + 1 * (j (0 : Fin 3)).val = t.val
    rw [outIdxRow13 a t]
    omega
  · show ((cfg13 a).win 4).index t (2 : Fin 3) * 2 + 1 * (j (2 : Fin 3)).val = (j (2 : Fin 3)).val
    rw [outIdxLane13 a t]
    omega

/-- After the run the result array holds `rows13`: row `q` was written by point `q`, and by no later point. -/
theorem arrRows13 (c : Dev nD) (q : Fin 25000) (e : Fin 2) :
    ((dat13 V a c).arrAt 4 (cfg13 a).N : S25000x1x2.Idx → Elt F .f32) (ValueIdx.ix3 q (0 : Fin 1) e)
      = rows13 V a c (ValueIdx.ix3 q (0 : Fin 1) e) := by
  refine (dat13 V a c).arrAt_apply_of_mem 4 (rows13 V a c) (fun t _ => flushedRows13 V a c t) (cfg13 a).N (pt13 a q)
    (ValueIdx.ix3 q (0 : Fin 1) e) (pt13 a q).isLt (outFlush13 a _) ((memOutBlk13 a _ _).mpr fun ax => ?_)
  match ax with
  | ⟨0, _⟩ =>
    show ((cfg13 a).win 4).index (pt13 a q) (0 : Fin 3) * 1 ≤ q.val ∧ q.val < ((cfg13 a).win 4).index (pt13 a q) (0 : Fin 3) * 1 + 1
    rw [outIdxRow13 a (pt13 a q)]
    show q.val * 1 ≤ q.val ∧ q.val < q.val * 1 + 1
    omega
  | ⟨1, _⟩ =>
    show ((cfg13 a).win 4).index (pt13 a q) (1 : Fin 3) * 1 ≤ 0 ∧ 0 < ((cfg13 a).win 4).index (pt13 a q) (1 : Fin 3) * 1 + 1
    rw [outIdxMid13 a (pt13 a q)]
    omega
  | ⟨2, _⟩ =>
    have he := e.isLt
    show ((cfg13 a).win 4).index (pt13 a q) (2 : Fin 3) * 2 ≤ e.val ∧ e.val < ((cfg13 a).win 4).index (pt13 a q) (2 : Fin 3) * 2 + 2
    rw [outIdxLane13 a (pt13 a q)]
    omega

/-! ## The value, over the extended reals -/

/-- Two blocks that are rows `r` and `s` of the table `X` have, as the body's payload, the distance between those rows. -/
theorem distOfRows13 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt13_apply (m : (ℓ : Loc nD τ sig) → Buf (Elt Ideal) ℓ) (a : (pcfg13 (F := Ideal)).Adm) (c : Dev nD)
    (ha0 : a.1 0 = tbl m c (13 : Fin 20) 0) (ha1 : a.1 1 = tbl m c (13 : Fin 20) 1)
    (ha2 : a.1 2 = tbl m c (13 : Fin 20) 2) (ha3 : a.1 3 = tbl m c (13 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat13 (F := Ideal) (fun c b => V1 m c b) a c).arrAt 4 (cfg13 a).N : S25000x1x2.Idx → EReal) (ValueIdx.ix3 q 0 e)
      = Cert.EdgeLengths.lengthAt (m ((c.tc : Thread nD τ).loc main_arg0)) (m ((c.tc : Thread nD τ).loc main_arg1))
          (genOf (13 : Fin 20) q) e := by
  refine (arrRows13 (fun c b => V1 m c b) a c q e).trans ?_
  refine (rowsApply13 (fun c b => V1 m c b) a c (pt13 a q) e _ rfl rfl).trans ?_
  -- the row each of the four index words of point `q` names is the vertex that word is
  have hv : ∀ j : Fin 4, (Cert.EdgeLengths.vtx (m ((c.tc : Thread nD τ).loc main_arg1)) (genOf (13 : Fin 20) q) j).val
      = (tbl m c (13 : Fin 20) j (ValueIdx.ix1 (slot13 a (pt13 a q)))).toNat :=
    fun j => Cert.EdgeLengths.vtx_val _ hR _ j
  match e with
  | ⟨0, _⟩ =>
    refine (outBlkBirth13 _ _ _ _).trans ?_
    refine (payBirth13 _ _ _).trans ?_
    exact distOfRows13 _ _ _ _ _
      (fun k => (rowBlkA13 (fun c b => V1 m c b) a c (pt13 a q) _ ha0 _ (hv 0) k).trans (hx _ k))
      (fun k => (rowBlkB13 (fun c b => V1 m c b) a c (pt13 a q) _ ha1 _ (hv 1) k).trans (hx _ k))
  | ⟨1, _⟩ =>
    refine (outBlkDeath13 _ _ _ _).trans ?_
    refine (payDeath13 _ _ _).trans ?_
    exact distOfRows13 _ _ _ _ _
      (fun k => (rowBlkC13 (fun c b => V1 m c b) a c (pt13 a q) _ ha2 _ (hv 2) k).trans (hx _ k))
      (fun k => (rowBlkD13 (fun c b => V1 m c b) a c (pt13 a q) _ ha3 _ (hv 3) k).trans (hx _ k))

end Cert.KernelIdeal.Gen

end
-- ==== Proof.KI.Value14.lean ====
/-
  The value region 14 of the gather-and-norm program leaves in its result array, over the extended reals.

  Region 14 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows14`), which each written-back
  block is a block of; and last, with the tables the four columns of the vertex words and every word in range, the
  row a word names is the vertex that word is, so the entry is the edge length of the specification.
-/
import proofs.«401090_j62775241999084_2_alg».proof.Proof.KI.Region14
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane14 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth14 (u v : Vec Ideal S1x1x64 .f32) (y : S1x1x1.Idx) :
    k14_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k14_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane14 k]
  rfl

/-- The death edge's payload: the same function of its two rows. -/
theorem payDeath14 (u v : Vec Ideal S1x1x64 .f32) (y : S1x1x1.Idx) :
    k14_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k14_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane14 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg14 (F := F)).Adm)

/-! ## The output block at its two positions -/

theorem hzThree14 : (![0, 0, 0] : Fin 3 → Nat) = fun _ => 0 := funext fun ax => by fin_cases ax <;> rfl

/-- Position 0 of the output block lies under the birth edge's store … -/
theorem embBirth14 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath14 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath14 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth14 (x0 x1 x2 x3 : Vec F S1x1x64 .f32) :
    outBlk14 x0 x1 x2 x3 (ValueIdx.ix3 (0 : Fin 1) (0 : Fin 1) (0 : Fin 2))
      = k14_pay1 x0 x1 (ValueIdx.ix3 (0 : Fin 1) (0 : Fin 1) (0 : Fin 1)) := by
  unfold outBlk14
  refine (View.canon_cons_of_not_mem
    (⟨outRectD, k14_pay2 (View.ld x2 rowRect) (View.ld x3 rowRect)⟩ : View.Piece (Elt F) S1x1x2 .f32)
    ([⟨outRectB, k14_pay1 (View.ld x0 rowRect) (View.ld x1 rowRect)⟩] : List (View.Piece (Elt F) S1x1x2 .f32)) notMemDeath14).trans ?_
  rw [← embBirth14]
  refine (View.canon_cons_emb (Val := Elt F) (e := .f32) outRectB (k14_pay1 (View.ld x0 rowRect) (View.ld x1 rowRect)) [] _).trans ?_
  rw [View.ld_unit_zero (S := S1x1x64) hzThree14, View.ld_unit_zero (S := S1x1x64) hzThree14]

/-- Position 1 holds the death edge's payload of the last two rows. -/
theorem outBlkDeath14 (x0 x1 x2 x3 : Vec F S1x1x64 .f32) :
    outBlk14 x0 x1 x2 x3 (ValueIdx.ix3 (0 : Fin 1) (0 : Fin 1) (1 : Fin 2))
      = k14_pay2 x2 x3 (ValueIdx.ix3 (0 : Fin 1) (0 : Fin 1) (0 : Fin 1)) := by
  unfold outBlk14
  rw [← embDeath14]
  refine (View.canon_cons_emb (Val := Elt F) (e := .f32) outRectD (k14_pay2 (View.ld x2 rowRect) (View.ld x3 rowRect))
    ([⟨outRectB, k14_pay1 (View.ld x0 rowRect) (View.ld x1 rowRect)⟩] : List (View.Piece (Elt F) S1x1x2 .f32)) _).trans ?_
  rw [View.ld_unit_zero (S := S1x1x64) hzThree14, View.ld_unit_zero (S := S1x1x64) hzThree14]

/-! ## The grid and the index maps, at any admissible contents of the index tables -/

/-- Region 14 has 25000 grid points, one per generator it handles. -/
theorem gridN14 : (cfg14 a).N = 25000 := N_14

/-- A point's one coordinate is the point's number. -/
theorem coords14 (t : Fin (cfg14 a).N) : (((cfg14 a).grid.coords t) 0).val = t.val := by
  have hN := gridN14 a
  have ht := t.isLt
  show t.val / 1 % 25000 = t.val
  omega

/-- The output window's block at point `t` is row `t` of the result: block index `(t, 0, 0)`. -/
theorem outIdxRow14 (t : Fin (cfg14 a).N) : ((cfg14 a).win 4).index t (0 : Fin 3) = t.val := by
  have hN := gridN14 a
  have ht := t.isLt
  show (BitVec.ofNat 32 (((cfg14 a).grid.coords t) 0).val).toNat = t.val
  rw [coords14 a t, BitVec.toNat_ofNat]
  omega
theorem outIdxMid14 (t : Fin (cfg14 a).N) : ((cfg14 a).win 4).index t (1 : Fin 3) = 0 := rfl
theorem outIdxLane14 (t : Fin (cfg14 a).N) : ((cfg14 a).win 4).index t (2 : Fin 3) = 0 := rfl

/-- The slot of an index table that point `t` reads: its own number. -/
abbrev slot14 (t : Fin (cfg14 a).N) : Fin 25000 := ⟨t.val, (gridN14 a) ▸ t.isLt⟩

/-- The grid point that writes row `q` of the result: point `q`. -/
abbrev pt14 (q : Fin 25000) : Fin (cfg14 a).N := ⟨q.val, (gridN14 a).symm ▸ q.isLt⟩

/-- Input window 0's block at point `t` is the table row that word `t` of index table 0 names: block index `(word, 0, 0)`. -/
theorem inIdxRowA14 (t : Fin (cfg14 a).N) (T : S25000.Idx → BitVec 32) (hT : a.1 0 = T) :
    ((cfg14 a).win 0).index t (0 : Fin 3) = (T (ValueIdx.ix1 (slot14 a t))).toNat := by
  subst hT
  show (a.1 0 _).toNat = (a.1 0 _).toNat
  refine congrArg BitVec.toNat (congrArg (a.1 0) ?_)
  funext d; apply Fin.ext
  match d with
  | ⟨0, _⟩ =>
    have hN := gridN14 a
    have ht := t.isLt
    show (BitVec.ofNat 32 (((cfg14 a).grid.coords t) 0).val).toNat + 1 * 0 = t.val
    rw [coords14 a t, BitVec.toNat_ofNat]
    omega
theorem inIdxMidA14 (t : Fin (cfg14 a).N) : ((cfg14 a).win 0).index t (1 : Fin 3) = 0 := rfl
theorem inIdxLaneA14 (t : Fin (cfg14 a).N) : ((cfg14 a).win 0).index t (2 : Fin 3) = 0 := rfl

/-- Input window 1's block at point `t` is the table row that word `t` of index table 1 names: block index `(word, 0, 0)`. -/
theorem inIdxRowB14 (t : Fin (cfg14 a).N) (T : S25000.Idx → BitVec 32) (hT : a.1 1 = T) :
    ((cfg14 a).win 1).index t (0 : Fin 3) = (T (ValueIdx.ix1 (slot14 a t))).toNat := by
  subst hT
  show (a.1 1 _).toNat = (a.1 1 _).toNat
  refine congrArg BitVec.toNat (congrArg (a.1 1) ?_)
  funext d; apply Fin.ext
  match d with
  | ⟨0, _⟩ =>
    have hN := gridN14 a
    have ht := t.isLt
    show (BitVec.ofNat 32 (((cfg14 a).grid.coords t) 0).val).toNat + 1 * 0 = t.val
    rw [coords14 a t, BitVec.toNat_ofNat]
    omega
theorem inIdxMidB14 (t : Fin (cfg14 a).N) : ((cfg14 a).win 1).index t (1 : Fin 3) = 0 := rfl
theorem inIdxLaneB14 (t : Fin (cfg14 a).N) : ((cfg14 a).win 1).index t (2 : Fin 3) = 0 := rfl

/-- Input window 2's block at point `t` is the table row that word `t` of index table 2 names: block index `(word, 0, 0)`. -/
theorem inIdxRowC14 (t : Fin (cfg14 a).N) (T : S25000.Idx → BitVec 32) (hT : a.1 2 = T) :
    ((cfg14 a).win 2).index t (0 : Fin 3) = (T (ValueIdx.ix1 (slot14 a t))).toNat := by
  subst hT
  show (a.1 2 _).toNat = (a.1 2 _).toNat
  refine congrArg BitVec.toNat (congrArg (a.1 2) ?_)
  funext d; apply Fin.ext
  match d with
  | ⟨0, _⟩ =>
    have hN := gridN14 a
    have ht := t.isLt
    show (BitVec.ofNat 32 (((cfg14 a).grid.coords t) 0).val).toNat + 1 * 0 = t.val
    rw [coords14 a t, BitVec.toNat_ofNat]
    omega
theorem inIdxMidC14 (t : Fin (cfg14 a).N) : ((cfg14 a).win 2).index t (1 : Fin 3) = 0 := rfl
theorem inIdxLaneC14 (t : Fin (cfg14 a).N) : ((cfg14 a).win 2).index t (2 : Fin 3) = 0 := rfl

/-- Input window 3's block at point `t` is the table row that word `t` of index table 3 names: block index `(word, 0, 0)`. -/
theorem inIdxRowD14 (t : Fin (cfg14 a).N) (T : S25000.Idx → BitVec 32) (hT : a.1 3 = T) :
    ((cfg14 a).win 3).index t (0 : Fin 3) = (T (ValueIdx.ix1 (slot14 a t))).toNat := by
  subst hT
  show (a.1 3 _).toNat = (a.1 3 _).toNat
  refine congrArg BitVec.toNat (congrArg (a.1 3) ?_)
  funext d; apply Fin.ext
  match d with
  | ⟨0, _⟩ =>
    have hN := gridN14 a
    have ht := t.isLt
    show (BitVec.ofNat 32 (((cfg14 a).grid.coords t) 0).val).toNat + 1 * 0 = t.val
    rw [coords14 a t, BitVec.toNat_ofNat]
    omega
theorem inIdxMidD14 (t : Fin (cfg14 a).N) : ((cfg14 a).win 3).index t (1 : Fin 3) = 0 := rfl
theorem inIdxLaneD14 (t : Fin (cfg14 a).N) : ((cfg14 a).win 3).index t (2 : Fin 3) = 0 := rfl

/-! ## The input blocks: rows of the point table -/

/-- Input window 0's block at point `t` is row `r` of the point table, `r` the row its index word names there. -/
theorem rowBlkA14 (c : Dev nD) (t : Fin (cfg14 a).N) (T : S25000.Idx → BitVec 32) (hT : a.1 0 = T)
    (r : Fin 100000) (hr : r.val = (T (ValueIdx.ix1 (slot14 a t))).toNat) (k : Fin 64) :
    (iblk14 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk14
  show (V c main_v8 : S100000x1x64.Idx → Elt F .f32) ((((cfg14 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg14 a).win 0).index t (0 : Fin 3) * 1 + 1 * 0 = r.val
    rw [inIdxRowA14 a t T hT, hr]
    generalize (T (ValueIdx.ix1 (slot14 a t))).toNat = n
    omega
  | ⟨1, _⟩ =>
    show ((cfg14 a).win 0).index t (1 : Fin 3) * 1 + 1 * 0 = 0
    rw [inIdxMidA14 a t]
  | ⟨2, _⟩ =>
    show ((cfg14 a).win 0).index t (2 : Fin 3) * 64 + 1 * k.val = k.val
    rw [inIdxLaneA14 a t]
    omega

/-- Input window 1's block at point `t` is row `r` of the point table, `r` the row its index word names there. -/
theorem rowBlkB14 (c : Dev nD) (t : Fin (cfg14 a).N) (T : S25000.Idx → BitVec 32) (hT : a.1 1 = T)
    (r : Fin 100000) (hr : r.val = (T (ValueIdx.ix1 (slot14 a t))).toNat) (k : Fin 64) :
    (iblk14 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk14
  show (V c main_v8 : S100000x1x64.Idx → Elt F .f32) ((((cfg14 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg14 a).win 1).index t (0 : Fin 3) * 1 + 1 * 0 = r.val
    rw [inIdxRowB14 a t T hT, hr]
    generalize (T (ValueIdx.ix1 (slot14 a t))).toNat = n
    omega
  | ⟨1, _⟩ =>
    show ((cfg14 a).win 1).index t (1 : Fin 3) * 1 + 1 * 0 = 0
    rw [inIdxMidB14 a t]
  | ⟨2, _⟩ =>
    show ((cfg14 a).win 1).index t (2 : Fin 3) * 64 + 1 * k.val = k.val
    rw [inIdxLaneB14 a t]
    omega

/-- Input window 2's block at point `t` is row `r` of the point table, `r` the row its index word names there. -/
theorem rowBlkC14 (c : Dev nD) (t : Fin (cfg14 a).N) (T : S25000.Idx → BitVec 32) (hT : a.1 2 = T)
    (r : Fin 100000) (hr : r.val = (T (ValueIdx.ix1 (slot14 a t))).toNat) (k : Fin 64) :
    (iblk14 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk14
  show (V c main_v8 : S100000x1x64.Idx → Elt F .f32) ((((cfg14 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg14 a).win 2).index t (0 : Fin 3) * 1 + 1 * 0 = r.val
    rw [inIdxRowC14 a t T hT, hr]
    generalize (T (ValueIdx.ix1 (slot14 a t))).toNat = n
    omega
  | ⟨1, _⟩ =>
    show ((cfg14 a).win 2).index t (1 : Fin 3) * 1 + 1 * 0 = 0
    rw [inIdxMidC14 a t]
  | ⟨2, _⟩ =>
    show ((cfg14 a).win 2).index t (2 : Fin 3) * 64 + 1 * k.val = k.val
    rw [inIdxLaneC14 a t]
    omega

/-- Input window 3's block at point `t` is row `r` of the point table, `r` the row its index word names there. -/
theorem rowBlkD14 (c : Dev nD) (t : Fin (cfg14 a).N) (T : S25000.Idx → BitVec 32) (hT : a.1 3 = T)
    (r : Fin 100000) (hr : r.val = (T (ValueIdx.ix1 (slot14 a t))).toNat) (k : Fin 64) :
    (iblk14 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk14
  show (V c main_v8 : S100000x1x64.Idx → Elt F .f32) ((((cfg14 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg14 a).win 3).index t (0 : Fin 3) * 1 + 1 * 0 = r.val
    rw [inIdxRowD14 a t T hT, hr]
    generalize (T (ValueIdx.ix1 (slot14 a t))).toNat = n
    omega
  | ⟨1, _⟩ =>
    show ((cfg14 a).win 3).index t (1 : Fin 3) * 1 + 1 * 0 = 0
    rw [inIdxMidD14 a t]
  | ⟨2, _⟩ =>
    show ((cfg14 a).win 3).index t (2 : Fin 3) * 64 + 1 * k.val = k.val
    rw [inIdxLaneD14 a t]
    omega

/-! ## The output window: every point writes its own row back -/

/-- Every point writes its output block back: the next point's block is another row. -/
theorem outFlush14 (t : Fin (cfg14 a).N) : ((cfg14 a).win 4).flush t = true := by
  unfold Window.flush
  have hout : ((cfg14 a).win 4).isOut = true := rfl
  rw [hout, Bool.true_and, Bool.or_eq_true, decide_eq_true_eq, decide_eq_true_eq]
  by_cases h : t.val + 1 = (cfg14 a).grid.N
  · exact Or.inl h
  · have hN : (cfg14 a).grid.N = 25000 := N_14
    have hN' := gridN14 a
    refine Or.inr ⟨by have := t.isLt; omega, fun e => ?_⟩
    have e0 := congrFun e (0 : Fin 3)
    rw [outIdxRow14, outIdxRow14] at e0
    exact absurd e0 (by simp)

set_option backward.isDefEq.respectTransparency.types false in
/-- An index of the result array is in point `t`'s block iff each coordinate is in the block's range on its axis. -/
theorem memOutBlk14 (t : Fin (cfg14 a).N) (i : S25000x1x2.Idx) :
    i ∈ (((cfg14 a).win 4).blk t).view.set ↔ ∀ ax : Fin 3, ((cfg14 a).win 4).index t ax * S1x1x2.size ax ≤ (i ax).val
      ∧ (i ax).val < ((cfg14 a).win 4).index t ax * S1x1x2.size ax + S1x1x2.size ax := by
  show i ∈ ((View.whole main_v83).slice (((cfg14 a).win 4).rect t)).set ↔ _
  rw [View.set_slice_whole]
  exact Rect.mem_set_unit

/-- What region 14 leaves in its result array, row by row: row `q` is the output block of the four table rows that
    the index words of point `q` name, position `e` of the block being edge `e`. -/
def rows14 (c : Dev nD) : S25000x1x2.Idx → Elt F .f32 := fun i =>
  outBlk14 (iblk14 V a c 0 (pt14 a ⟨(i 0).val, (i 0).isLt⟩)) (iblk14 V a c 1 (pt14 a ⟨(i 0).val, (i 0).isLt⟩))
    (iblk14 V a c 2 (pt14 a ⟨(i 0).val, (i 0).isLt⟩)) (iblk14 V a c 3 (pt14 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply14 (c : Dev nD) (t : Fin (cfg14 a).N) (e : Fin 2) (i : S25000x1x2.Idx)
    (h0 : (i 0).val = t.val) (h2 : (i 2).val = e.val) :
    rows14 V a c i
      = outBlk14 (iblk14 V a c 0 t) (iblk14 V a c 1 t) (iblk14 V a c 2 t) (iblk14 V a c 3 t) (ValueIdx.ix3 (0 : Fin 1) (0 : Fin 1) e) := by
  obtain rfl : t = pt14 a ⟨(i 0).val, (i 0).isLt⟩ := Fin.ext h0.symm
  obtain rfl : e = ⟨(i 2).val, (i 2).isLt⟩ := Fin.ext h2.symm
  rfl

/-- The same with the position given as an index of the block. -/
theorem rowsAt14 (c : Dev nD) (t : Fin (cfg14 a).N) (j : S1x1x2.Idx) (i : S25000x1x2.Idx)
    (h0 : (i 0).val = t.val) (h2 : (i 2).val = (j 2).val) :
    rows14 V a c i = outBlk14 (iblk14 V a c 0 t) (iblk14 V a c 1 t) (iblk14 V a c 2 t) (iblk14 V a c 3 t) j := by
  rw [rowsApply14 V a c t ⟨(j 2).val, (j 2).isLt⟩ i h0 h2]
  refine congrArg (outBlk14 (iblk14 V a c 0 t) (iblk14 V a c 1 t) (iblk14 V a c 2 t) (iblk14 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows14`. -/
theorem flushedRows14 (c : Dev nD) (t : Fin (cfg14 a).N) :
    (dat14 V a c).flushed 4 t = (((cfg14 a).win 4).blk t).view.read (Elt F) (rows14 V a c) := by
  show ((cfg14 a).win 4).cut ((cfg14 a).grid.coords t) ((dat14 V a c).after 4 t) = _
  rw [after14_4]
  funext j
  show outBlk14 (iblk14 V a c 0 t) (iblk14 V a c 1 t) (iblk14 V a c 2 t) (iblk14 V a c 3 t) (((cfg14 a).win 4).xinj ((cfg14 a).grid.coords t) j)
    = rows14 V a c ((((cfg14 a).win 4).blk t).view.emb j)
  refine (rowsAt14 V a c t _ _ ?_ ?_).symm
  · have hj : (j (0 : Fin 3)).val < 1 := (j (0 : Fin 3)).isLt
    show ((cfg14 a).win 4).index t (0 : Fin 3) * 1 + 1 * (j (0 : Fin 3)).val = t.val
    rw [outIdxRow14 a t]
    omega
  · show ((cfg14 a).win 4).index t (2 : Fin 3) * 2 + 1 * (j (2 : Fin 3)).val = (j (2 : Fin 3)).val
    rw [outIdxLane14 a t]
    omega

/-- After the run the result array holds `rows14`: row `q` was written by point `q`, and by no later point. -/
theorem arrRows14 (c : Dev nD) (q : Fin 25000) (e : Fin 2) :
    ((dat14 V a c).arrAt 4 (cfg14 a).N : S25000x1x2.Idx → Elt F .f32) (ValueIdx.ix3 q (0 : Fin 1) e)
      = rows14 V a c (ValueIdx.ix3 q (0 : Fin 1) e) := by
  refine (dat14 V a c).arrAt_apply_of_mem 4 (rows14 V a c) (fun t _ => flushedRows14 V a c t) (cfg14 a).N (pt14 a q)
    (ValueIdx.ix3 q (0 : Fin 1) e) (pt14 a q).isLt (outFlush14 a _) ((memOutBlk14 a _ _).mpr fun ax => ?_)
  match ax with
  | ⟨0, _⟩ =>
    show ((cfg14 a).win 4).index (pt14 a q) (0 : Fin 3) * 1 ≤ q.val ∧ q.val < ((cfg14 a).win 4).index (pt14 a q) (0 : Fin 3) * 1 + 1
    rw [outIdxRow14 a (pt14 a q)]
    show q.val * 1 ≤ q.val ∧ q.val < q.val * 1 + 1
    omega
  | ⟨1, _⟩ =>
    show ((cfg14 a).win 4).index (pt14 a q) (1 : Fin 3) * 1 ≤ 0 ∧ 0 < ((cfg14 a).win 4).index (pt14 a q) (1 : Fin 3) * 1 + 1
    rw [outIdxMid14 a (pt14 a q)]
    omega
  | ⟨2, _⟩ =>
    have he := e.isLt
    show ((cfg14 a).win 4).index (pt14 a q) (2 : Fin 3) * 2 ≤ e.val ∧ e.val < ((cfg14 a).win 4).index (pt14 a q) (2 : Fin 3) * 2 + 2
    rw [outIdxLane14 a (pt14 a q)]
    omega

/-! ## The value, over the extended reals -/

/-- Two blocks that are rows `r` and `s` of the table `X` have, as the body's payload, the distance between those rows. -/
theorem distOfRows14 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt14_apply (m : (ℓ : Loc nD τ sig) → Buf (Elt Ideal) ℓ) (a : (pcfg14 (F := Ideal)).Adm) (c : Dev nD)
    (ha0 : a.1 0 = tbl m c (14 : Fin 20) 0) (ha1 : a.1 1 = tbl m c (14 : Fin 20) 1)
    (ha2 : a.1 2 = tbl m c (14 : Fin 20) 2) (ha3 : a.1 3 = tbl m c (14 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat14 (F := Ideal) (fun c b => V1 m c b) a c).arrAt 4 (cfg14 a).N : S25000x1x2.Idx → EReal) (ValueIdx.ix3 q 0 e)
      = Cert.EdgeLengths.lengthAt (m ((c.tc : Thread nD τ).loc main_arg0)) (m ((c.tc : Thread nD τ).loc main_arg1))
          (genOf (14 : Fin 20) q) e := by
  refine (arrRows14 (fun c b => V1 m c b) a c q e).trans ?_
  refine (rowsApply14 (fun c b => V1 m c b) a c (pt14 a q) e _ rfl rfl).trans ?_
  -- the row each of the four index words of point `q` names is the vertex that word is
  have hv : ∀ j : Fin 4, (Cert.EdgeLengths.vtx (m ((c.tc : Thread nD τ).loc main_arg1)) (genOf (14 : Fin 20) q) j).val
      = (tbl m c (14 : Fin 20) j (ValueIdx.ix1 (slot14 a (pt14 a q)))).toNat :=
    fun j => Cert.EdgeLengths.vtx_val _ hR _ j
  match e with
  | ⟨0, _⟩ =>
    refine (outBlkBirth14 _ _ _ _).trans ?_
    refine (payBirth14 _ _ _).trans ?_
    exact distOfRows14 _ _ _ _ _
      (fun k => (rowBlkA14 (fun c b => V1 m c b) a c (pt14 a q) _ ha0 _ (hv 0) k).trans (hx _ k))
      (fun k => (rowBlkB14 (fun c b => V1 m c b) a c (pt14 a q) _ ha1 _ (hv 1) k).trans (hx _ k))
  | ⟨1, _⟩ =>
    refine (outBlkDeath14 _ _ _ _).trans ?_
    refine (payDeath14 _ _ _).trans ?_
    exact distOfRows14 _ _ _ _ _
      (fun k => (rowBlkC14 (fun c b => V1 m c b) a c (pt14 a q) _ ha2 _ (hv 2) k).trans (hx _ k))
      (fun k => (rowBlkD14 (fun c b => V1 m c b) a c (pt14 a q) _ ha3 _ (hv 3) k).trans (hx _ k))

end Cert.KernelIdeal.Gen

end
-- ==== Proof.KI.Value15.lean ====
/-
  The value region 15 of the gather-and-norm program leaves in its result array, over the extended reals.

  Region 15 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows15`), which each written-back
  block is a block of; and last, with the tables the four columns of the vertex words and every word in range, the
  row a word names is the vertex that word is, so the entry is the edge length of the specification.
-/
import proofs.«401090_j62775241999084_2_alg».proof.Proof.KI.Region15
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane15 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth15 (u v : Vec Ideal S1x1x64 .f32) (y : S1x1x1.Idx) :
    k15_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k15_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane15 k]
  rfl

/-- The death edge's payload: the same function of its two rows. -/
theorem payDeath15 (u v : Vec Ideal S1x1x64 .f32) (y : S1x1x1.Idx) :
    k15_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k15_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane15 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg15 (F := F)).Adm)

/-! ## The output block at its two positions -/

theorem hzThree15 : (![0, 0, 0] : Fin 3 → Nat) = fun _ => 0 := funext fun ax => by fin_cases ax <;> rfl

/-- Position 0 of the output block lies under the birth edge's store … -/
theorem embBirth15 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath15 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath15 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth15 (x0 x1 x2 x3 : Vec F S1x1x64 .f32) :
    outBlk15 x0 x1 x2 x3 (ValueIdx.ix3 (0 : Fin 1) (0 : Fin 1) (0 : Fin 2))
      = k15_pay1 x0 x1 (ValueIdx.ix3 (0 : Fin 1) (0 : Fin 1) (0 : Fin 1)) := by
  unfold outBlk15
  refine (View.canon_cons_of_not_mem
    (⟨outRectD, k15_pay2 (View.ld x2 rowRect) (View.ld x3 rowRect)⟩ : View.Piece (Elt F) S1x1x2 .f32)
    ([⟨outRectB, k15_pay1 (View.ld x0 rowRect) (View.ld x1 rowRect)⟩] : List (View.Piece (Elt F) S1x1x2 .f32)) notMemDeath15).trans ?_
  rw [← embBirth15]
  refine (View.canon_cons_emb (Val := Elt F) (e := .f32) outRectB (k15_pay1 (View.ld x0 rowRect) (View.ld x1 rowRect)) [] _).trans ?_
  rw [View.ld_unit_zero (S := S1x1x64) hzThree15, View.ld_unit_zero (S := S1x1x64) hzThree15]

/-- Position 1 holds the death edge's payload of the last two rows. -/
theorem outBlkDeath15 (x0 x1 x2 x3 : Vec F S1x1x64 .f32) :
    outBlk15 x0 x1 x2 x3 (ValueIdx.ix3 (0 : Fin 1) (0 : Fin 1) (1 : Fin 2))
      = k15_pay2 x2 x3 (ValueIdx.ix3 (0 : Fin 1) (0 : Fin 1) (0 : Fin 1)) := by
  unfold outBlk15
  rw [← embDeath15]
  refine (View.canon_cons_emb (Val := Elt F) (e := .f32) outRectD (k15_pay2 (View.ld x2 rowRect) (View.ld x3 rowRect))
    ([⟨outRectB, k15_pay1 (View.ld x0 rowRect) (View.ld x1 rowRect)⟩] : List (View.Piece (Elt F) S1x1x2 .f32)) _).trans ?_
  rw [View.ld_unit_zero (S := S1x1x64) hzThree15, View.ld_unit_zero (S := S1x1x64) hzThree15]

/-! ## The grid and the index maps, at any admissible contents of the index tables -/

/-- Region 15 has 25000 grid points, one per generator it handles. -/
theorem gridN15 : (cfg15 a).N = 25000 := N_15

/-- A point's one coordinate is the point's number. -/
theorem coords15 (t : Fin (cfg15 a).N) : (((cfg15 a).grid.coords t) 0).val = t.val := by
  have hN := gridN15 a
  have ht := t.isLt
  show t.val / 1 % 25000 = t.val
  omega

/-- The output window's block at point `t` is row `t` of the result: block index `(t, 0, 0)`. -/
theorem outIdxRow15 (t : Fin (cfg15 a).N) : ((cfg15 a).win 4).index t (0 : Fin 3) = t.val := by
  have hN := gridN15 a
  have ht := t.isLt
  show (BitVec.ofNat 32 (((cfg15 a).grid.coords t) 0).val).toNat = t.val
  rw [coords15 a t, BitVec.toNat_ofNat]
  omega
theorem outIdxMid15 (t : Fin (cfg15 a).N) : ((cfg15 a).win 4).index t (1 : Fin 3) = 0 := rfl
theorem outIdxLane15 (t : Fin (cfg15 a).N) : ((cfg15 a).win 4).index t (2 : Fin 3) = 0 := rfl

/-- The slot of an index table that point `t` reads: its own number. -/
abbrev slot15 (t : Fin (cfg15 a).N) : Fin 25000 := ⟨t.val, (gridN15 a) ▸ t.isLt⟩

/-- The grid point that writes row `q` of the result: point `q`. -/
abbrev pt15 (q : Fin 25000) : Fin (cfg15 a).N := ⟨q.val, (gridN15 a).symm ▸ q.isLt⟩

/-- Input window 0's block at point `t` is the table row that word `t` of index table 0 names: block index `(word, 0, 0)`. -/
theorem inIdxRowA15 (t : Fin (cfg15 a).N) (T : S25000.Idx → BitVec 32) (hT : a.1 0 = T) :
    ((cfg15 a).win 0).index t (0 : Fin 3) = (T (ValueIdx.ix1 (slot15 a t))).toNat := by
  subst hT
  show (a.1 0 _).toNat = (a.1 0 _).toNat
  refine congrArg BitVec.toNat (congrArg (a.1 0) ?_)
  funext d; apply Fin.ext
  match d with
  | ⟨0, _⟩ =>
    have hN := gridN15 a
    have ht := t.isLt
    show (BitVec.ofNat 32 (((cfg15 a).grid.coords t) 0).val).toNat + 1 * 0 = t.val
    rw [coords15 a t, BitVec.toNat_ofNat]
    omega
theorem inIdxMidA15 (t : Fin (cfg15 a).N) : ((cfg15 a).win 0).index t (1 : Fin 3) = 0 := rfl
theorem inIdxLaneA15 (t : Fin (cfg15 a).N) : ((cfg15 a).win 0).index t (2 : Fin 3) = 0 := rfl

/-- Input window 1's block at point `t` is the table row that word `t` of index table 1 names: block index `(word, 0, 0)`. -/
theorem inIdxRowB15 (t : Fin (cfg15 a).N) (T : S25000.Idx → BitVec 32) (hT : a.1 1 = T) :
    ((cfg15 a).win 1).index t (0 : Fin 3) = (T (ValueIdx.ix1 (slot15 a t))).toNat := by
  subst hT
  show (a.1 1 _).toNat = (a.1 1 _).toNat
  refine congrArg BitVec.toNat (congrArg (a.1 1) ?_)
  funext d; apply Fin.ext
  match d with
  | ⟨0, _⟩ =>
    have hN := gridN15 a
    have ht := t.isLt
    show (BitVec.ofNat 32 (((cfg15 a).grid.coords t) 0).val).toNat + 1 * 0 = t.val
    rw [coords15 a t, BitVec.toNat_ofNat]
    omega
theorem inIdxMidB15 (t : Fin (cfg15 a).N) : ((cfg15 a).win 1).index t (1 : Fin 3) = 0 := rfl
theorem inIdxLaneB15 (t : Fin (cfg15 a).N) : ((cfg15 a).win 1).index t (2 : Fin 3) = 0 := rfl

/-- Input window 2's block at point `t` is the table row that word `t` of index table 2 names: block index `(word, 0, 0)`. -/
theorem inIdxRowC15 (t : Fin (cfg15 a).N) (T : S25000.Idx → BitVec 32) (hT : a.1 2 = T) :
    ((cfg15 a).win 2).index t (0 : Fin 3) = (T (ValueIdx.ix1 (slot15 a t))).toNat := by
  subst hT
  show (a.1 2 _).toNat = (a.1 2 _).toNat
  refine congrArg BitVec.toNat (congrArg (a.1 2) ?_)
  funext d; apply Fin.ext
  match d with
  | ⟨0, _⟩ =>
    have hN := gridN15 a
    have ht := t.isLt
    show (BitVec.ofNat 32 (((cfg15 a).grid.coords t) 0).val).toNat + 1 * 0 = t.val
    rw [coords15 a t, BitVec.toNat_ofNat]
    omega
theorem inIdxMidC15 (t : Fin (cfg15 a).N) : ((cfg15 a).win 2).index t (1 : Fin 3) = 0 := rfl
theorem inIdxLaneC15 (t : Fin (cfg15 a).N) : ((cfg15 a).win 2).index t (2 : Fin 3) = 0 := rfl

/-- Input window 3's block at point `t` is the table row that word `t` of index table 3 names: block index `(word, 0, 0)`. -/
theorem inIdxRowD15 (t : Fin (cfg15 a).N) (T : S25000.Idx → BitVec 32) (hT : a.1 3 = T) :
    ((cfg15 a).win 3).index t (0 : Fin 3) = (T (ValueIdx.ix1 (slot15 a t))).toNat := by
  subst hT
  show (a.1 3 _).toNat = (a.1 3 _).toNat
  refine congrArg BitVec.toNat (congrArg (a.1 3) ?_)
  funext d; apply Fin.ext
  match d with
  | ⟨0, _⟩ =>
    have hN := gridN15 a
    have ht := t.isLt
    show (BitVec.ofNat 32 (((cfg15 a).grid.coords t) 0).val).toNat + 1 * 0 = t.val
    rw [coords15 a t, BitVec.toNat_ofNat]
    omega
theorem inIdxMidD15 (t : Fin (cfg15 a).N) : ((cfg15 a).win 3).index t (1 : Fin 3) = 0 := rfl
theorem inIdxLaneD15 (t : Fin (cfg15 a).N) : ((cfg15 a).win 3).index t (2 : Fin 3) = 0 := rfl

/-! ## The input blocks: rows of the point table -/

/-- Input window 0's block at point `t` is row `r` of the point table, `r` the row its index word names there. -/
theorem rowBlkA15 (c : Dev nD) (t : Fin (cfg15 a).N) (T : S25000.Idx → BitVec 32) (hT : a.1 0 = T)
    (r : Fin 100000) (hr : r.val = (T (ValueIdx.ix1 (slot15 a t))).toNat) (k : Fin 64) :
    (iblk15 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk15
  show (V c main_v8 : S100000x1x64.Idx → Elt F .f32) ((((cfg15 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg15 a).win 0).index t (0 : Fin 3) * 1 + 1 * 0 = r.val
    rw [inIdxRowA15 a t T hT, hr]
    generalize (T (ValueIdx.ix1 (slot15 a t))).toNat = n
    omega
  | ⟨1, _⟩ =>
    show ((cfg15 a).win 0).index t (1 : Fin 3) * 1 + 1 * 0 = 0
    rw [inIdxMidA15 a t]
  | ⟨2, _⟩ =>
    show ((cfg15 a).win 0).index t (2 : Fin 3) * 64 + 1 * k.val = k.val
    rw [inIdxLaneA15 a t]
    omega

/-- Input window 1's block at point `t` is row `r` of the point table, `r` the row its index word names there. -/
theorem rowBlkB15 (c : Dev nD) (t : Fin (cfg15 a).N) (T : S25000.Idx → BitVec 32) (hT : a.1 1 = T)
    (r : Fin 100000) (hr : r.val = (T (ValueIdx.ix1 (slot15 a t))).toNat) (k : Fin 64) :
    (iblk15 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk15
  show (V c main_v8 : S100000x1x64.Idx → Elt F .f32) ((((cfg15 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg15 a).win 1).index t (0 : Fin 3) * 1 + 1 * 0 = r.val
    rw [inIdxRowB15 a t T hT, hr]
    generalize (T (ValueIdx.ix1 (slot15 a t))).toNat = n
    omega
  | ⟨1, _⟩ =>
    show ((cfg15 a).win 1).index t (1 : Fin 3) * 1 + 1 * 0 = 0
    rw [inIdxMidB15 a t]
  | ⟨2, _⟩ =>
    show ((cfg15 a).win 1).index t (2 : Fin 3) * 64 + 1 * k.val = k.val
    rw [inIdxLaneB15 a t]
    omega

/-- Input window 2's block at point `t` is row `r` of the point table, `r` the row its index word names there. -/
theorem rowBlkC15 (c : Dev nD) (t : Fin (cfg15 a).N) (T : S25000.Idx → BitVec 32) (hT : a.1 2 = T)
    (r : Fin 100000) (hr : r.val = (T (ValueIdx.ix1 (slot15 a t))).toNat) (k : Fin 64) :
    (iblk15 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk15
  show (V c main_v8 : S100000x1x64.Idx → Elt F .f32) ((((cfg15 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg15 a).win 2).index t (0 : Fin 3) * 1 + 1 * 0 = r.val
    rw [inIdxRowC15 a t T hT, hr]
    generalize (T (ValueIdx.ix1 (slot15 a t))).toNat = n
    omega
  | ⟨1, _⟩ =>
    show ((cfg15 a).win 2).index t (1 : Fin 3) * 1 + 1 * 0 = 0
    rw [inIdxMidC15 a t]
  | ⟨2, _⟩ =>
    show ((cfg15 a).win 2).index t (2 : Fin 3) * 64 + 1 * k.val = k.val
    rw [inIdxLaneC15 a t]
    omega

/-- Input window 3's block at point `t` is row `r` of the point table, `r` the row its index word names there. -/
theorem rowBlkD15 (c : Dev nD) (t : Fin (cfg15 a).N) (T : S25000.Idx → BitVec 32) (hT : a.1 3 = T)
    (r : Fin 100000) (hr : r.val = (T (ValueIdx.ix1 (slot15 a t))).toNat) (k : Fin 64) :
    (iblk15 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk15
  show (V c main_v8 : S100000x1x64.Idx → Elt F .f32) ((((cfg15 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg15 a).win 3).index t (0 : Fin 3) * 1 + 1 * 0 = r.val
    rw [inIdxRowD15 a t T hT, hr]
    generalize (T (ValueIdx.ix1 (slot15 a t))).toNat = n
    omega
  | ⟨1, _⟩ =>
    show ((cfg15 a).win 3).index t (1 : Fin 3) * 1 + 1 * 0 = 0
    rw [inIdxMidD15 a t]
  | ⟨2, _⟩ =>
    show ((cfg15 a).win 3).index t (2 : Fin 3) * 64 + 1 * k.val = k.val
    rw [inIdxLaneD15 a t]
    omega

/-! ## The output window: every point writes its own row back -/

/-- Every point writes its output block back: the next point's block is another row. -/
theorem outFlush15 (t : Fin (cfg15 a).N) : ((cfg15 a).win 4).flush t = true := by
  unfold Window.flush
  have hout : ((cfg15 a).win 4).isOut = true := rfl
  rw [hout, Bool.true_and, Bool.or_eq_true, decide_eq_true_eq, decide_eq_true_eq]
  by_cases h : t.val + 1 = (cfg15 a).grid.N
  · exact Or.inl h
  · have hN : (cfg15 a).grid.N = 25000 := N_15
    have hN' := gridN15 a
    refine Or.inr ⟨by have := t.isLt; omega, fun e => ?_⟩
    have e0 := congrFun e (0 : Fin 3)
    rw [outIdxRow15, outIdxRow15] at e0
    exact absurd e0 (by simp)

set_option backward.isDefEq.respectTransparency.types false in
/-- An index of the result array is in point `t`'s block iff each coordinate is in the block's range on its axis. -/
theorem memOutBlk15 (t : Fin (cfg15 a).N) (i : S25000x1x2.Idx) :
    i ∈ (((cfg15 a).win 4).blk t).view.set ↔ ∀ ax : Fin 3, ((cfg15 a).win 4).index t ax * S1x1x2.size ax ≤ (i ax).val
      ∧ (i ax).val < ((cfg15 a).win 4).index t ax * S1x1x2.size ax + S1x1x2.size ax := by
  show i ∈ ((View.whole main_v88).slice (((cfg15 a).win 4).rect t)).set ↔ _
  rw [View.set_slice_whole]
  exact Rect.mem_set_unit

/-- What region 15 leaves in its result array, row by row: row `q` is the output block of the four table rows that
    the index words of point `q` name, position `e` of the block being edge `e`. -/
def rows15 (c : Dev nD) : S25000x1x2.Idx → Elt F .f32 := fun i =>
  outBlk15 (iblk15 V a c 0 (pt15 a ⟨(i 0).val, (i 0).isLt⟩)) (iblk15 V a c 1 (pt15 a ⟨(i 0).val, (i 0).isLt⟩))
    (iblk15 V a c 2 (pt15 a ⟨(i 0).val, (i 0).isLt⟩)) (iblk15 V a c 3 (pt15 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply15 (c : Dev nD) (t : Fin (cfg15 a).N) (e : Fin 2) (i : S25000x1x2.Idx)
    (h0 : (i 0).val = t.val) (h2 : (i 2).val = e.val) :
    rows15 V a c i
      = outBlk15 (iblk15 V a c 0 t) (iblk15 V a c 1 t) (iblk15 V a c 2 t) (iblk15 V a c 3 t) (ValueIdx.ix3 (0 : Fin 1) (0 : Fin 1) e) := by
  obtain rfl : t = pt15 a ⟨(i 0).val, (i 0).isLt⟩ := Fin.ext h0.symm
  obtain rfl : e = ⟨(i 2).val, (i 2).isLt⟩ := Fin.ext h2.symm
  rfl

/-- The same with the position given as an index of the block. -/
theorem rowsAt15 (c : Dev nD) (t : Fin (cfg15 a).N) (j : S1x1x2.Idx) (i : S25000x1x2.Idx)
    (h0 : (i 0).val = t.val) (h2 : (i 2).val = (j 2).val) :
    rows15 V a c i = outBlk15 (iblk15 V a c 0 t) (iblk15 V a c 1 t) (iblk15 V a c 2 t) (iblk15 V a c 3 t) j := by
  rw [rowsApply15 V a c t ⟨(j 2).val, (j 2).isLt⟩ i h0 h2]
  refine congrArg (outBlk15 (iblk15 V a c 0 t) (iblk15 V a c 1 t) (iblk15 V a c 2 t) (iblk15 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows15`. -/
theorem flushedRows15 (c : Dev nD) (t : Fin (cfg15 a).N) :
    (dat15 V a c).flushed 4 t = (((cfg15 a).win 4).blk t).view.read (Elt F) (rows15 V a c) := by
  show ((cfg15 a).win 4).cut ((cfg15 a).grid.coords t) ((dat15 V a c).after 4 t) = _
  rw [after15_4]
  funext j
  show outBlk15 (iblk15 V a c 0 t) (iblk15 V a c 1 t) (iblk15 V a c 2 t) (iblk15 V a c 3 t) (((cfg15 a).win 4).xinj ((cfg15 a).grid.coords t) j)
    = rows15 V a c ((((cfg15 a).win 4).blk t).view.emb j)
  refine (rowsAt15 V a c t _ _ ?_ ?_).symm
  · have hj : (j (0 : Fin 3)).val < 1 := (j (0 : Fin 3)).isLt
    show ((cfg15 a).win 4).index t (0 : Fin 3) * 1 + 1 * (j (0 : Fin 3)).val = t.val
    rw [outIdxRow15 a t]
    omega
  · show ((cfg15 a).win 4).index t (2 : Fin 3) * 2 + 1 * (j (2 : Fin 3)).val = (j (2 : Fin 3)).val
    rw [outIdxLane15 a t]
    omega

/-- After the run the result array holds `rows15`: row `q` was written by point `q`, and by no later point. -/
theorem arrRows15 (c : Dev nD) (q : Fin 25000) (e : Fin 2) :
    ((dat15 V a c).arrAt 4 (cfg15 a).N : S25000x1x2.Idx → Elt F .f32) (ValueIdx.ix3 q (0 : Fin 1) e)
      = rows15 V a c (ValueIdx.ix3 q (0 : Fin 1) e) := by
  refine (dat15 V a c).arrAt_apply_of_mem 4 (rows15 V a c) (fun t _ => flushedRows15 V a c t) (cfg15 a).N (pt15 a q)
    (ValueIdx.ix3 q (0 : Fin 1) e) (pt15 a q).isLt (outFlush15 a _) ((memOutBlk15 a _ _).mpr fun ax => ?_)
  match ax with
  | ⟨0, _⟩ =>
    show ((cfg15 a).win 4).index (pt15 a q) (0 : Fin 3) * 1 ≤ q.val ∧ q.val < ((cfg15 a).win 4).index (pt15 a q) (0 : Fin 3) * 1 + 1
    rw [outIdxRow15 a (pt15 a q)]
    show q.val * 1 ≤ q.val ∧ q.val < q.val * 1 + 1
    omega
  | ⟨1, _⟩ =>
    show ((cfg15 a).win 4).index (pt15 a q) (1 : Fin 3) * 1 ≤ 0 ∧ 0 < ((cfg15 a).win 4).index (pt15 a q) (1 : Fin 3) * 1 + 1
    rw [outIdxMid15 a (pt15 a q)]
    omega
  | ⟨2, _⟩ =>
    have he := e.isLt
    show ((cfg15 a).win 4).index (pt15 a q) (2 : Fin 3) * 2 ≤ e.val ∧ e.val < ((cfg15 a).win 4).index (pt15 a q) (2 : Fin 3) * 2 + 2
    rw [outIdxLane15 a (pt15 a q)]
    omega

/-! ## The value, over the extended reals -/

/-- Two blocks that are rows `r` and `s` of the table `X` have, as the body's payload, the distance between those rows. -/
theorem distOfRows15 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt15_apply (m : (ℓ : Loc nD τ sig) → Buf (Elt Ideal) ℓ) (a : (pcfg15 (F := Ideal)).Adm) (c : Dev nD)
    (ha0 : a.1 0 = tbl m c (15 : Fin 20) 0) (ha1 : a.1 1 = tbl m c (15 : Fin 20) 1)
    (ha2 : a.1 2 = tbl m c (15 : Fin 20) 2) (ha3 : a.1 3 = tbl m c (15 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat15 (F := Ideal) (fun c b => V1 m c b) a c).arrAt 4 (cfg15 a).N : S25000x1x2.Idx → EReal) (ValueIdx.ix3 q 0 e)
      = Cert.EdgeLengths.lengthAt (m ((c.tc : Thread nD τ).loc main_arg0)) (m ((c.tc : Thread nD τ).loc main_arg1))
          (genOf (15 : Fin 20) q) e := by
  refine (arrRows15 (fun c b => V1 m c b) a c q e).trans ?_
  refine (rowsApply15 (fun c b => V1 m c b) a c (pt15 a q) e _ rfl rfl).trans ?_
  -- the row each of the four index words of point `q` names is the vertex that word is
  have hv : ∀ j : Fin 4, (Cert.EdgeLengths.vtx (m ((c.tc : Thread nD τ).loc main_arg1)) (genOf (15 : Fin 20) q) j).val
      = (tbl m c (15 : Fin 20) j (ValueIdx.ix1 (slot15 a (pt15 a q)))).toNat :=
    fun j => Cert.EdgeLengths.vtx_val _ hR _ j
  match e with
  | ⟨0, _⟩ =>
    refine (outBlkBirth15 _ _ _ _).trans ?_
    refine (payBirth15 _ _ _).trans ?_
    exact distOfRows15 _ _ _ _ _
      (fun k => (rowBlkA15 (fun c b => V1 m c b) a c (pt15 a q) _ ha0 _ (hv 0) k).trans (hx _ k))
      (fun k => (rowBlkB15 (fun c b => V1 m c b) a c (pt15 a q) _ ha1 _ (hv 1) k).trans (hx _ k))
  | ⟨1, _⟩ =>
    refine (outBlkDeath15 _ _ _ _).trans ?_
    refine (payDeath15 _ _ _).trans ?_
    exact distOfRows15 _ _ _ _ _
      (fun k => (rowBlkC15 (fun c b => V1 m c b) a c (pt15 a q) _ ha2 _ (hv 2) k).trans (hx _ k))
      (fun k => (rowBlkD15 (fun c b => V1 m c b) a c (pt15 a q) _ ha3 _ (hv 3) k).trans (hx _ k))

end Cert.KernelIdeal.Gen

end
-- ==== Proof.KI.Value16.lean ====
/-
  The value region 16 of the gather-and-norm program leaves in its result array, over the extended reals.

  Region 16 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows16`), which each written-back
  block is a block of; and last, with the tables the four columns of the vertex words and every word in range, the
  row a word names is the vertex that word is, so the entry is the edge length of the specification.
-/
import proofs.«401090_j62775241999084_2_alg».proof.Proof.KI.Region16
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane16 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth16 (u v : Vec Ideal S1x1x64 .f32) (y : S1x1x1.Idx) :
    k16_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k16_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane16 k]
  rfl

/-- The death edge's payload: the same function of its two rows. -/
theorem payDeath16 (u v : Vec Ideal S1x1x64 .f32) (y : S1x1x1.Idx) :
    k16_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k16_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane16 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg16 (F := F)).Adm)

/-! ## The output block at its two positions -/

theorem hzThree16 : (![0, 0, 0] : Fin 3 → Nat) = fun _ => 0 := funext fun ax => by fin_cases ax <;> rfl

/-- Position 0 of the output block lies under the birth edge's store … -/
theorem embBirth16 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath16 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath16 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth16 (x0 x1 x2 x3 : Vec F S1x1x64 .f32) :
    outBlk16 x0 x1 x2 x3 (ValueIdx.ix3 (0 : Fin 1) (0 : Fin 1) (0 : Fin 2))
      = k16_pay1 x0 x1 (ValueIdx.ix3 (0 : Fin 1) (0 : Fin 1) (0 : Fin 1)) := by
  unfold outBlk16
  refine (View.canon_cons_of_not_mem
    (⟨outRectD, k16_pay2 (View.ld x2 rowRect) (View.ld x3 rowRect)⟩ : View.Piece (Elt F) S1x1x2 .f32)
    ([⟨outRectB, k16_pay1 (View.ld x0 rowRect) (View.ld x1 rowRect)⟩] : List (View.Piece (Elt F) S1x1x2 .f32)) notMemDeath16).trans ?_
  rw [← embBirth16]
  refine (View.canon_cons_emb (Val := Elt F) (e := .f32) outRectB (k16_pay1 (View.ld x0 rowRect) (View.ld x1 rowRect)) [] _).trans ?_
  rw [View.ld_unit_zero (S := S1x1x64) hzThree16, View.ld_unit_zero (S := S1x1x64) hzThree16]

/-- Position 1 holds the death edge's payload of the last two rows. -/
theorem outBlkDeath16 (x0 x1 x2 x3 : Vec F S1x1x64 .f32) :
    outBlk16 x0 x1 x2 x3 (ValueIdx.ix3 (0 : Fin 1) (0 : Fin 1) (1 : Fin 2))
      = k16_pay2 x2 x3 (ValueIdx.ix3 (0 : Fin 1) (0 : Fin 1) (0 : Fin 1)) := by
  unfold outBlk16
  rw [← embDeath16]
  refine (View.canon_cons_emb (Val := Elt F) (e := .f32) outRectD (k16_pay2 (View.ld x2 rowRect) (View.ld x3 rowRect))
    ([⟨outRectB, k16_pay1 (View.ld x0 rowRect) (View.ld x1 rowRect)⟩] : List (View.Piece (Elt F) S1x1x2 .f32)) _).trans ?_
  rw [View.ld_unit_zero (S := S1x1x64) hzThree16, View.ld_unit_zero (S := S1x1x64) hzThree16]

/-! ## The grid and the index maps, at any admissible contents of the index tables -/

/-- Region 16 has 25000 grid points, one per generator it handles. -/
theorem gridN16 : (cfg16 a).N = 25000 := N_16

/-- A point's one coordinate is the point's number. -/
theorem coords16 (t : Fin (cfg16 a).N) : (((cfg16 a).grid.coords t) 0).val = t.val := by
  have hN := gridN16 a
  have ht := t.isLt
  show t.val / 1 % 25000 = t.val
  omega

/-- The output window's block at point `t` is row `t` of the result: block index `(t, 0, 0)`. -/
theorem outIdxRow16 (t : Fin (cfg16 a).N) : ((cfg16 a).win 4).index t (0 : Fin 3) = t.val := by
  have hN := gridN16 a
  have ht := t.isLt
  show (BitVec.ofNat 32 (((cfg16 a).grid.coords t) 0).val).toNat = t.val
  rw [coords16 a t, BitVec.toNat_ofNat]
  omega
theorem outIdxMid16 (t : Fin (cfg16 a).N) : ((cfg16 a).win 4).index t (1 : Fin 3) = 0 := rfl
theorem outIdxLane16 (t : Fin (cfg16 a).N) : ((cfg16 a).win 4).index t (2 : Fin 3) = 0 := rfl

/-- The slot of an index table that point `t` reads: its own number. -/
abbrev slot16 (t : Fin (cfg16 a).N) : Fin 25000 := ⟨t.val, (gridN16 a) ▸ t.isLt⟩

/-- The grid point that writes row `q` of the result: point `q`. -/
abbrev pt16 (q : Fin 25000) : Fin (cfg16 a).N := ⟨q.val, (gridN16 a).symm ▸ q.isLt⟩

/-- Input window 0's block at point `t` is the table row that word `t` of index table 0 names: block index `(word, 0, 0)`. -/
theorem inIdxRowA16 (t : Fin (cfg16 a).N) (T : S25000.Idx → BitVec 32) (hT : a.1 0 = T) :
    ((cfg16 a).win 0).index t (0 : Fin 3) = (T (ValueIdx.ix1 (slot16 a t))).toNat := by
  subst hT
  show (a.1 0 _).toNat = (a.1 0 _).toNat
  refine congrArg BitVec.toNat (congrArg (a.1 0) ?_)
  funext d; apply Fin.ext
  match d with
  | ⟨0, _⟩ =>
    have hN := gridN16 a
    have ht := t.isLt
    show (BitVec.ofNat 32 (((cfg16 a).grid.coords t) 0).val).toNat + 1 * 0 = t.val
    rw [coords16 a t, BitVec.toNat_ofNat]
    omega
theorem inIdxMidA16 (t : Fin (cfg16 a).N) : ((cfg16 a).win 0).index t (1 : Fin 3) = 0 := rfl
theorem inIdxLaneA16 (t : Fin (cfg16 a).N) : ((cfg16 a).win 0).index t (2 : Fin 3) = 0 := rfl

/-- Input window 1's block at point `t` is the table row that word `t` of index table 1 names: block index `(word, 0, 0)`. -/
theorem inIdxRowB16 (t : Fin (cfg16 a).N) (T : S25000.Idx → BitVec 32) (hT : a.1 1 = T) :
    ((cfg16 a).win 1).index t (0 : Fin 3) = (T (ValueIdx.ix1 (slot16 a t))).toNat := by
  subst hT
  show (a.1 1 _).toNat = (a.1 1 _).toNat
  refine congrArg BitVec.toNat (congrArg (a.1 1) ?_)
  funext d; apply Fin.ext
  match d with
  | ⟨0, _⟩ =>
    have hN := gridN16 a
    have ht := t.isLt
    show (BitVec.ofNat 32 (((cfg16 a).grid.coords t) 0).val).toNat + 1 * 0 = t.val
    rw [coords16 a t, BitVec.toNat_ofNat]
    omega
theorem inIdxMidB16 (t : Fin (cfg16 a).N) : ((cfg16 a).win 1).index t (1 : Fin 3) = 0 := rfl
theorem inIdxLaneB16 (t : Fin (cfg16 a).N) : ((cfg16 a).win 1).index t (2 : Fin 3) = 0 := rfl

/-- Input window 2's block at point `t` is the table row that word `t` of index table 2 names: block index `(word, 0, 0)`. -/
theorem inIdxRowC16 (t : Fin (cfg16 a).N) (T : S25000.Idx → BitVec 32) (hT : a.1 2 = T) :
    ((cfg16 a).win 2).index t (0 : Fin 3) = (T (ValueIdx.ix1 (slot16 a t))).toNat := by
  subst hT
  show (a.1 2 _).toNat = (a.1 2 _).toNat
  refine congrArg BitVec.toNat (congrArg (a.1 2) ?_)
  funext d; apply Fin.ext
  match d with
  | ⟨0, _⟩ =>
    have hN := gridN16 a
    have ht := t.isLt
    show (BitVec.ofNat 32 (((cfg16 a).grid.coords t) 0).val).toNat + 1 * 0 = t.val
    rw [coords16 a t, BitVec.toNat_ofNat]
    omega
theorem inIdxMidC16 (t : Fin (cfg16 a).N) : ((cfg16 a).win 2).index t (1 : Fin 3) = 0 := rfl
theorem inIdxLaneC16 (t : Fin (cfg16 a).N) : ((cfg16 a).win 2).index t (2 : Fin 3) = 0 := rfl

/-- Input window 3's block at point `t` is the table row that word `t` of index table 3 names: block index `(word, 0, 0)`. -/
theorem inIdxRowD16 (t : Fin (cfg16 a).N) (T : S25000.Idx → BitVec 32) (hT : a.1 3 = T) :
    ((cfg16 a).win 3).index t (0 : Fin 3) = (T (ValueIdx.ix1 (slot16 a t))).toNat := by
  subst hT
  show (a.1 3 _).toNat = (a.1 3 _).toNat
  refine congrArg BitVec.toNat (congrArg (a.1 3) ?_)
  funext d; apply Fin.ext
  match d with
  | ⟨0, _⟩ =>
    have hN := gridN16 a
    have ht := t.isLt
    show (BitVec.ofNat 32 (((cfg16 a).grid.coords t) 0).val).toNat + 1 * 0 = t.val
    rw [coords16 a t, BitVec.toNat_ofNat]
    omega
theorem inIdxMidD16 (t : Fin (cfg16 a).N) : ((cfg16 a).win 3).index t (1 : Fin 3) = 0 := rfl
theorem inIdxLaneD16 (t : Fin (cfg16 a).N) : ((cfg16 a).win 3).index t (2 : Fin 3) = 0 := rfl

/-! ## The input blocks: rows of the point table -/

/-- Input window 0's block at point `t` is row `r` of the point table, `r` the row its index word names there. -/
theorem rowBlkA16 (c : Dev nD) (t : Fin (cfg16 a).N) (T : S25000.Idx → BitVec 32) (hT : a.1 0 = T)
    (r : Fin 100000) (hr : r.val = (T (ValueIdx.ix1 (slot16 a t))).toNat) (k : Fin 64) :
    (iblk16 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk16
  show (V c main_v8 : S100000x1x64.Idx → Elt F .f32) ((((cfg16 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg16 a).win 0).index t (0 : Fin 3) * 1 + 1 * 0 = r.val
    rw [inIdxRowA16 a t T hT, hr]
    generalize (T (ValueIdx.ix1 (slot16 a t))).toNat = n
    omega
  | ⟨1, _⟩ =>
    show ((cfg16 a).win 0).index t (1 : Fin 3) * 1 + 1 * 0 = 0
    rw [inIdxMidA16 a t]
  | ⟨2, _⟩ =>
    show ((cfg16 a).win 0).index t (2 : Fin 3) * 64 + 1 * k.val = k.val
    rw [inIdxLaneA16 a t]
    omega

/-- Input window 1's block at point `t` is row `r` of the point table, `r` the row its index word names there. -/
theorem rowBlkB16 (c : Dev nD) (t : Fin (cfg16 a).N) (T : S25000.Idx → BitVec 32) (hT : a.1 1 = T)
    (r : Fin 100000) (hr : r.val = (T (ValueIdx.ix1 (slot16 a t))).toNat) (k : Fin 64) :
    (iblk16 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk16
  show (V c main_v8 : S100000x1x64.Idx → Elt F .f32) ((((cfg16 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg16 a).win 1).index t (0 : Fin 3) * 1 + 1 * 0 = r.val
    rw [inIdxRowB16 a t T hT, hr]
    generalize (T (ValueIdx.ix1 (slot16 a t))).toNat = n
    omega
  | ⟨1, _⟩ =>
    show ((cfg16 a).win 1).index t (1 : Fin 3) * 1 + 1 * 0 = 0
    rw [inIdxMidB16 a t]
  | ⟨2, _⟩ =>
    show ((cfg16 a).win 1).index t (2 : Fin 3) * 64 + 1 * k.val = k.val
    rw [inIdxLaneB16 a t]
    omega

/-- Input window 2's block at point `t` is row `r` of the point table, `r` the row its index word names there. -/
theorem rowBlkC16 (c : Dev nD) (t : Fin (cfg16 a).N) (T : S25000.Idx → BitVec 32) (hT : a.1 2 = T)
    (r : Fin 100000) (hr : r.val = (T (ValueIdx.ix1 (slot16 a t))).toNat) (k : Fin 64) :
    (iblk16 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk16
  show (V c main_v8 : S100000x1x64.Idx → Elt F .f32) ((((cfg16 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg16 a).win 2).index t (0 : Fin 3) * 1 + 1 * 0 = r.val
    rw [inIdxRowC16 a t T hT, hr]
    generalize (T (ValueIdx.ix1 (slot16 a t))).toNat = n
    omega
  | ⟨1, _⟩ =>
    show ((cfg16 a).win 2).index t (1 : Fin 3) * 1 + 1 * 0 = 0
    rw [inIdxMidC16 a t]
  | ⟨2, _⟩ =>
    show ((cfg16 a).win 2).index t (2 : Fin 3) * 64 + 1 * k.val = k.val
    rw [inIdxLaneC16 a t]
    omega

/-- Input window 3's block at point `t` is row `r` of the point table, `r` the row its index word names there. -/
theorem rowBlkD16 (c : Dev nD) (t : Fin (cfg16 a).N) (T : S25000.Idx → BitVec 32) (hT : a.1 3 = T)
    (r : Fin 100000) (hr : r.val = (T (ValueIdx.ix1 (slot16 a t))).toNat) (k : Fin 64) :
    (iblk16 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk16
  show (V c main_v8 : S100000x1x64.Idx → Elt F .f32) ((((cfg16 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg16 a).win 3).index t (0 : Fin 3) * 1 + 1 * 0 = r.val
    rw [inIdxRowD16 a t T hT, hr]
    generalize (T (ValueIdx.ix1 (slot16 a t))).toNat = n
    omega
  | ⟨1, _⟩ =>
    show ((cfg16 a).win 3).index t (1 : Fin 3) * 1 + 1 * 0 = 0
    rw [inIdxMidD16 a t]
  | ⟨2, _⟩ =>
    show ((cfg16 a).win 3).index t (2 : Fin 3) * 64 + 1 * k.val = k.val
    rw [inIdxLaneD16 a t]
    omega

/-! ## The output window: every point writes its own row back -/

/-- Every point writes its output block back: the next point's block is another row. -/
theorem outFlush16 (t : Fin (cfg16 a).N) : ((cfg16 a).win 4).flush t = true := by
  unfold Window.flush
  have hout : ((cfg16 a).win 4).isOut = true := rfl
  rw [hout, Bool.true_and, Bool.or_eq_true, decide_eq_true_eq, decide_eq_true_eq]
  by_cases h : t.val + 1 = (cfg16 a).grid.N
  · exact Or.inl h
  · have hN : (cfg16 a).grid.N = 25000 := N_16
    have hN' := gridN16 a
    refine Or.inr ⟨by have := t.isLt; omega, fun e => ?_⟩
    have e0 := congrFun e (0 : Fin 3)
    rw [outIdxRow16, outIdxRow16] at e0
    exact absurd e0 (by simp)

set_option backward.isDefEq.respectTransparency.types false in
/-- An index of the result array is in point `t`'s block iff each coordinate is in the block's range on its axis. -/
theorem memOutBlk16 (t : Fin (cfg16 a).N) (i : S25000x1x2.Idx) :
    i ∈ (((cfg16 a).win 4).blk t).view.set ↔ ∀ ax : Fin 3, ((cfg16 a).win 4).index t ax * S1x1x2.size ax ≤ (i ax).val
      ∧ (i ax).val < ((cfg16 a).win 4).index t ax * S1x1x2.size ax + S1x1x2.size ax := by
  show i ∈ ((View.whole main_v93).slice (((cfg16 a).win 4).rect t)).set ↔ _
  rw [View.set_slice_whole]
  exact Rect.mem_set_unit

/-- What region 16 leaves in its result array, row by row: row `q` is the output block of the four table rows that
    the index words of point `q` name, position `e` of the block being edge `e`. -/
def rows16 (c : Dev nD) : S25000x1x2.Idx → Elt F .f32 := fun i =>
  outBlk16 (iblk16 V a c 0 (pt16 a ⟨(i 0).val, (i 0).isLt⟩)) (iblk16 V a c 1 (pt16 a ⟨(i 0).val, (i 0).isLt⟩))
    (iblk16 V a c 2 (pt16 a ⟨(i 0).val, (i 0).isLt⟩)) (iblk16 V a c 3 (pt16 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply16 (c : Dev nD) (t : Fin (cfg16 a).N) (e : Fin 2) (i : S25000x1x2.Idx)
    (h0 : (i 0).val = t.val) (h2 : (i 2).val = e.val) :
    rows16 V a c i
      = outBlk16 (iblk16 V a c 0 t) (iblk16 V a c 1 t) (iblk16 V a c 2 t) (iblk16 V a c 3 t) (ValueIdx.ix3 (0 : Fin 1) (0 : Fin 1) e) := by
  obtain rfl : t = pt16 a ⟨(i 0).val, (i 0).isLt⟩ := Fin.ext h0.symm
  obtain rfl : e = ⟨(i 2).val, (i 2).isLt⟩ := Fin.ext h2.symm
  rfl

/-- The same with the position given as an index of the block. -/
theorem rowsAt16 (c : Dev nD) (t : Fin (cfg16 a).N) (j : S1x1x2.Idx) (i : S25000x1x2.Idx)
    (h0 : (i 0).val = t.val) (h2 : (i 2).val = (j 2).val) :
    rows16 V a c i = outBlk16 (iblk16 V a c 0 t) (iblk16 V a c 1 t) (iblk16 V a c 2 t) (iblk16 V a c 3 t) j := by
  rw [rowsApply16 V a c t ⟨(j 2).val, (j 2).isLt⟩ i h0 h2]
  refine congrArg (outBlk16 (iblk16 V a c 0 t) (iblk16 V a c 1 t) (iblk16 V a c 2 t) (iblk16 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows16`. -/
theorem flushedRows16 (c : Dev nD) (t : Fin (cfg16 a).N) :
    (dat16 V a c).flushed 4 t = (((cfg16 a).win 4).blk t).view.read (Elt F) (rows16 V a c) := by
  show ((cfg16 a).win 4).cut ((cfg16 a).grid.coords t) ((dat16 V a c).after 4 t) = _
  rw [after16_4]
  funext j
  show outBlk16 (iblk16 V a c 0 t) (iblk16 V a c 1 t) (iblk16 V a c 2 t) (iblk16 V a c 3 t) (((cfg16 a).win 4).xinj ((cfg16 a).grid.coords t) j)
    = rows16 V a c ((((cfg16 a).win 4).blk t).view.emb j)
  refine (rowsAt16 V a c t _ _ ?_ ?_).symm
  · have hj : (j (0 : Fin 3)).val < 1 := (j (0 : Fin 3)).isLt
    show ((cfg16 a).win 4).index t (0 : Fin 3) * 1 + 1 * (j (0 : Fin 3)).val = t.val
    rw [outIdxRow16 a t]
    omega
  · show ((cfg16 a).win 4).index t (2 : Fin 3) * 2 + 1 * (j (2 : Fin 3)).val = (j (2 : Fin 3)).val
    rw [outIdxLane16 a t]
    omega

/-- After the run the result array holds `rows16`: row `q` was written by point `q`, and by no later point. -/
theorem arrRows16 (c : Dev nD) (q : Fin 25000) (e : Fin 2) :
    ((dat16 V a c).arrAt 4 (cfg16 a).N : S25000x1x2.Idx → Elt F .f32) (ValueIdx.ix3 q (0 : Fin 1) e)
      = rows16 V a c (ValueIdx.ix3 q (0 : Fin 1) e) := by
  refine (dat16 V a c).arrAt_apply_of_mem 4 (rows16 V a c) (fun t _ => flushedRows16 V a c t) (cfg16 a).N (pt16 a q)
    (ValueIdx.ix3 q (0 : Fin 1) e) (pt16 a q).isLt (outFlush16 a _) ((memOutBlk16 a _ _).mpr fun ax => ?_)
  match ax with
  | ⟨0, _⟩ =>
    show ((cfg16 a).win 4).index (pt16 a q) (0 : Fin 3) * 1 ≤ q.val ∧ q.val < ((cfg16 a).win 4).index (pt16 a q) (0 : Fin 3) * 1 + 1
    rw [outIdxRow16 a (pt16 a q)]
    show q.val * 1 ≤ q.val ∧ q.val < q.val * 1 + 1
    omega
  | ⟨1, _⟩ =>
    show ((cfg16 a).win 4).index (pt16 a q) (1 : Fin 3) * 1 ≤ 0 ∧ 0 < ((cfg16 a).win 4).index (pt16 a q) (1 : Fin 3) * 1 + 1
    rw [outIdxMid16 a (pt16 a q)]
    omega
  | ⟨2, _⟩ =>
    have he := e.isLt
    show ((cfg16 a).win 4).index (pt16 a q) (2 : Fin 3) * 2 ≤ e.val ∧ e.val < ((cfg16 a).win 4).index (pt16 a q) (2 : Fin 3) * 2 + 2
    rw [outIdxLane16 a (pt16 a q)]
    omega

/-! ## The value, over the extended reals -/

/-- Two blocks that are rows `r` and `s` of the table `X` have, as the body's payload, the distance between those rows. -/
theorem distOfRows16 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt16_apply (m : (ℓ : Loc nD τ sig) → Buf (Elt Ideal) ℓ) (a : (pcfg16 (F := Ideal)).Adm) (c : Dev nD)
    (ha0 : a.1 0 = tbl m c (16 : Fin 20) 0) (ha1 : a.1 1 = tbl m c (16 : Fin 20) 1)
    (ha2 : a.1 2 = tbl m c (16 : Fin 20) 2) (ha3 : a.1 3 = tbl m c (16 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat16 (F := Ideal) (fun c b => V1 m c b) a c).arrAt 4 (cfg16 a).N : S25000x1x2.Idx → EReal) (ValueIdx.ix3 q 0 e)
      = Cert.EdgeLengths.lengthAt (m ((c.tc : Thread nD τ).loc main_arg0)) (m ((c.tc : Thread nD τ).loc main_arg1))
          (genOf (16 : Fin 20) q) e := by
  refine (arrRows16 (fun c b => V1 m c b) a c q e).trans ?_
  refine (rowsApply16 (fun c b => V1 m c b) a c (pt16 a q) e _ rfl rfl).trans ?_
  -- the row each of the four index words of point `q` names is the vertex that word is
  have hv : ∀ j : Fin 4, (Cert.EdgeLengths.vtx (m ((c.tc : Thread nD τ).loc main_arg1)) (genOf (16 : Fin 20) q) j).val
      = (tbl m c (16 : Fin 20) j (ValueIdx.ix1 (slot16 a (pt16 a q)))).toNat :=
    fun j => Cert.EdgeLengths.vtx_val _ hR _ j
  match e with
  | ⟨0, _⟩ =>
    refine (outBlkBirth16 _ _ _ _).trans ?_
    refine (payBirth16 _ _ _).trans ?_
    exact distOfRows16 _ _ _ _ _
      (fun k => (rowBlkA16 (fun c b => V1 m c b) a c (pt16 a q) _ ha0 _ (hv 0) k).trans (hx _ k))
      (fun k => (rowBlkB16 (fun c b => V1 m c b) a c (pt16 a q) _ ha1 _ (hv 1) k).trans (hx _ k))
  | ⟨1, _⟩ =>
    refine (outBlkDeath16 _ _ _ _).trans ?_
    refine (payDeath16 _ _ _).trans ?_
    exact distOfRows16 _ _ _ _ _
      (fun k => (rowBlkC16 (fun c b => V1 m c b) a c (pt16 a q) _ ha2 _ (hv 2) k).trans (hx _ k))
      (fun k => (rowBlkD16 (fun c b => V1 m c b) a c (pt16 a q) _ ha3 _ (hv 3) k).trans (hx _ k))

end Cert.KernelIdeal.Gen

end
-- ==== Proof.KI.Value17.lean ====
/-
  The value region 17 of the gather-and-norm program leaves in its result array, over the extended reals.

  Region 17 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows17`), which each written-back
  block is a block of; and last, with the tables the four columns of the vertex words and every word in range, the
  row a word names is the vertex that word is, so the entry is the edge length of the specification.
-/
import proofs.«401090_j62775241999084_2_alg».proof.Proof.KI.Region17
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane17 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth17 (u v : Vec Ideal S1x1x64 .f32) (y : S1x1x1.Idx) :
    k17_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k17_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane17 k]
  rfl

/-- The death edge's payload: the same function of its two rows. -/
theorem payDeath17 (u v : Vec Ideal S1x1x64 .f32) (y : S1x1x1.Idx) :
    k17_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k17_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane17 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg17 (F := F)).Adm)

/-! ## The output block at its two positions -/

theorem hzThree17 : (![0, 0, 0] : Fin 3 → Nat) = fun _ => 0 := funext fun ax => by fin_cases ax <;> rfl

/-- Position 0 of the output block lies under the birth edge's store … -/
theorem embBirth17 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath17 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath17 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth17 (x0 x1 x2 x3 : Vec F S1x1x64 .f32) :
    outBlk17 x0 x1 x2 x3 (ValueIdx.ix3 (0 : Fin 1) (0 : Fin 1) (0 : Fin 2))
      = k17_pay1 x0 x1 (ValueIdx.ix3 (0 : Fin 1) (0 : Fin 1) (0 : Fin 1)) := by
  unfold outBlk17
  refine (View.canon_cons_of_not_mem
    (⟨outRectD, k17_pay2 (View.ld x2 rowRect) (View.ld x3 rowRect)⟩ : View.Piece (Elt F) S1x1x2 .f32)
    ([⟨outRectB, k17_pay1 (View.ld x0 rowRect) (View.ld x1 rowRect)⟩] : List (View.Piece (Elt F) S1x1x2 .f32)) notMemDeath17).trans ?_
  rw [← embBirth17]
  refine (View.canon_cons_emb (Val := Elt F) (e := .f32) outRectB (k17_pay1 (View.ld x0 rowRect) (View.ld x1 rowRect)) [] _).trans ?_
  rw [View.ld_unit_zero (S := S1x1x64) hzThree17, View.ld_unit_zero (S := S1x1x64) hzThree17]

/-- Position 1 holds the death edge's payload of the last two rows. -/
theorem outBlkDeath17 (x0 x1 x2 x3 : Vec F S1x1x64 .f32) :
    outBlk17 x0 x1 x2 x3 (ValueIdx.ix3 (0 : Fin 1) (0 : Fin 1) (1 : Fin 2))
      = k17_pay2 x2 x3 (ValueIdx.ix3 (0 : Fin 1) (0 : Fin 1) (0 : Fin 1)) := by
  unfold outBlk17
  rw [← embDeath17]
  refine (View.canon_cons_emb (Val := Elt F) (e := .f32) outRectD (k17_pay2 (View.ld x2 rowRect) (View.ld x3 rowRect))
    ([⟨outRectB, k17_pay1 (View.ld x0 rowRect) (View.ld x1 rowRect)⟩] : List (View.Piece (Elt F) S1x1x2 .f32)) _).trans ?_
  rw [View.ld_unit_zero (S := S1x1x64) hzThree17, View.ld_unit_zero (S := S1x1x64) hzThree17]

/-! ## The grid and the index maps, at any admissible contents of the index tables -/

/-- Region 17 has 25000 grid points, one per generator it handles. -/
theorem gridN17 : (cfg17 a).N = 25000 := N_17

/-- A point's one coordinate is the point's number. -/
theorem coords17 (t : Fin (cfg17 a).N) : (((cfg17 a).grid.coords t) 0).val = t.val := by
  have hN := gridN17 a
  have ht := t.isLt
  show t.val / 1 % 25000 = t.val
  omega

/-- The output window's block at point `t` is row `t` of the result: block index `(t, 0, 0)`. -/
theorem outIdxRow17 (t : Fin (cfg17 a).N) : ((cfg17 a).win 4).index t (0 : Fin 3) = t.val := by
  have hN := gridN17 a
  have ht := t.isLt
  show (BitVec.ofNat 32 (((cfg17 a).grid.coords t) 0).val).toNat = t.val
  rw [coords17 a t, BitVec.toNat_ofNat]
  omega
theorem outIdxMid17 (t : Fin (cfg17 a).N) : ((cfg17 a).win 4).index t (1 : Fin 3) = 0 := rfl
theorem outIdxLane17 (t : Fin (cfg17 a).N) : ((cfg17 a).win 4).index t (2 : Fin 3) = 0 := rfl

/-- The slot of an index table that point `t` reads: its own number. -/
abbrev slot17 (t : Fin (cfg17 a).N) : Fin 25000 := ⟨t.val, (gridN17 a) ▸ t.isLt⟩

/-- The grid point that writes row `q` of the result: point `q`. -/
abbrev pt17 (q : Fin 25000) : Fin (cfg17 a).N := ⟨q.val, (gridN17 a).symm ▸ q.isLt⟩

/-- Input window 0's block at point `t` is the table row that word `t` of index table 0 names: block index `(word, 0, 0)`. -/
theorem inIdxRowA17 (t : Fin (cfg17 a).N) (T : S25000.Idx → BitVec 32) (hT : a.1 0 = T) :
    ((cfg17 a).win 0).index t (0 : Fin 3) = (T (ValueIdx.ix1 (slot17 a t))).toNat := by
  subst hT
  show (a.1 0 _).toNat = (a.1 0 _).toNat
  refine congrArg BitVec.toNat (congrArg (a.1 0) ?_)
  funext d; apply Fin.ext
  match d with
  | ⟨0, _⟩ =>
    have hN := gridN17 a
    have ht := t.isLt
    show (BitVec.ofNat 32 (((cfg17 a).grid.coords t) 0).val).toNat + 1 * 0 = t.val
    rw [coords17 a t, BitVec.toNat_ofNat]
    omega
theorem inIdxMidA17 (t : Fin (cfg17 a).N) : ((cfg17 a).win 0).index t (1 : Fin 3) = 0 := rfl
theorem inIdxLaneA17 (t : Fin (cfg17 a).N) : ((cfg17 a).win 0).index t (2 : Fin 3) = 0 := rfl

/-- Input window 1's block at point `t` is the table row that word `t` of index table 1 names: block index `(word, 0, 0)`. -/
theorem inIdxRowB17 (t : Fin (cfg17 a).N) (T : S25000.Idx → BitVec 32) (hT : a.1 1 = T) :
    ((cfg17 a).win 1).index t (0 : Fin 3) = (T (ValueIdx.ix1 (slot17 a t))).toNat := by
  subst hT
  show (a.1 1 _).toNat = (a.1 1 _).toNat
  refine congrArg BitVec.toNat (congrArg (a.1 1) ?_)
  funext d; apply Fin.ext
  match d with
  | ⟨0, _⟩ =>
    have hN := gridN17 a
    have ht := t.isLt
    show (BitVec.ofNat 32 (((cfg17 a).grid.coords t) 0).val).toNat + 1 * 0 = t.val
    rw [coords17 a t, BitVec.toNat_ofNat]
    omega
theorem inIdxMidB17 (t : Fin (cfg17 a).N) : ((cfg17 a).win 1).index t (1 : Fin 3) = 0 := rfl
theorem inIdxLaneB17 (t : Fin (cfg17 a).N) : ((cfg17 a).win 1).index t (2 : Fin 3) = 0 := rfl

/-- Input window 2's block at point `t` is the table row that word `t` of index table 2 names: block index `(word, 0, 0)`. -/
theorem inIdxRowC17 (t : Fin (cfg17 a).N) (T : S25000.Idx → BitVec 32) (hT : a.1 2 = T) :
    ((cfg17 a).win 2).index t (0 : Fin 3) = (T (ValueIdx.ix1 (slot17 a t))).toNat := by
  subst hT
  show (a.1 2 _).toNat = (a.1 2 _).toNat
  refine congrArg BitVec.toNat (congrArg (a.1 2) ?_)
  funext d; apply Fin.ext
  match d with
  | ⟨0, _⟩ =>
    have hN := gridN17 a
    have ht := t.isLt
    show (BitVec.ofNat 32 (((cfg17 a).grid.coords t) 0).val).toNat + 1 * 0 = t.val
    rw [coords17 a t, BitVec.toNat_ofNat]
    omega
theorem inIdxMidC17 (t : Fin (cfg17 a).N) : ((cfg17 a).win 2).index t (1 : Fin 3) = 0 := rfl
theorem inIdxLaneC17 (t : Fin (cfg17 a).N) : ((cfg17 a).win 2).index t (2 : Fin 3) = 0 := rfl

/-- Input window 3's block at point `t` is the table row that word `t` of index table 3 names: block index `(word, 0, 0)`. -/
theorem inIdxRowD17 (t : Fin (cfg17 a).N) (T : S25000.Idx → BitVec 32) (hT : a.1 3 = T) :
    ((cfg17 a).win 3).index t (0 : Fin 3) = (T (ValueIdx.ix1 (slot17 a t))).toNat := by
  subst hT
  show (a.1 3 _).toNat = (a.1 3 _).toNat
  refine congrArg BitVec.toNat (congrArg (a.1 3) ?_)
  funext d; apply Fin.ext
  match d with
  | ⟨0, _⟩ =>
    have hN := gridN17 a
    have ht := t.isLt
    show (BitVec.ofNat 32 (((cfg17 a).grid.coords t) 0).val).toNat + 1 * 0 = t.val
    rw [coords17 a t, BitVec.toNat_ofNat]
    omega
theorem inIdxMidD17 (t : Fin (cfg17 a).N) : ((cfg17 a).win 3).index t (1 : Fin 3) = 0 := rfl
theorem inIdxLaneD17 (t : Fin (cfg17 a).N) : ((cfg17 a).win 3).index t (2 : Fin 3) = 0 := rfl

/-! ## The input blocks: rows of the point table -/

/-- Input window 0's block at point `t` is row `r` of the point table, `r` the row its index word names there. -/
theorem rowBlkA17 (c : Dev nD) (t : Fin (cfg17 a).N) (T : S25000.Idx → BitVec 32) (hT : a.1 0 = T)
    (r : Fin 100000) (hr : r.val = (T (ValueIdx.ix1 (slot17 a t))).toNat) (k : Fin 64) :
    (iblk17 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk17
  show (V c main_v8 : S100000x1x64.Idx → Elt F .f32) ((((cfg17 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg17 a).win 0).index t (0 : Fin 3) * 1 + 1 * 0 = r.val
    rw [inIdxRowA17 a t T hT, hr]
    generalize (T (ValueIdx.ix1 (slot17 a t))).toNat = n
    omega
  | ⟨1, _⟩ =>
    show ((cfg17 a).win 0).index t (1 : Fin 3) * 1 + 1 * 0 = 0
    rw [inIdxMidA17 a t]
  | ⟨2, _⟩ =>
    show ((cfg17 a).win 0).index t (2 : Fin 3) * 64 + 1 * k.val = k.val
    rw [inIdxLaneA17 a t]
    omega

/-- Input window 1's block at point `t` is row `r` of the point table, `r` the row its index word names there. -/
theorem rowBlkB17 (c : Dev nD) (t : Fin (cfg17 a).N) (T : S25000.Idx → BitVec 32) (hT : a.1 1 = T)
    (r : Fin 100000) (hr : r.val = (T (ValueIdx.ix1 (slot17 a t))).toNat) (k : Fin 64) :
    (iblk17 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk17
  show (V c main_v8 : S100000x1x64.Idx → Elt F .f32) ((((cfg17 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg17 a).win 1).index t (0 : Fin 3) * 1 + 1 * 0 = r.val
    rw [inIdxRowB17 a t T hT, hr]
    generalize (T (ValueIdx.ix1 (slot17 a t))).toNat = n
    omega
  | ⟨1, _⟩ =>
    show ((cfg17 a).win 1).index t (1 : Fin 3) * 1 + 1 * 0 = 0
    rw [inIdxMidB17 a t]
  | ⟨2, _⟩ =>
    show ((cfg17 a).win 1).index t (2 : Fin 3) * 64 + 1 * k.val = k.val
    rw [inIdxLaneB17 a t]
    omega

/-- Input window 2's block at point `t` is row `r` of the point table, `r` the row its index word names there. -/
theorem rowBlkC17 (c : Dev nD) (t : Fin (cfg17 a).N) (T : S25000.Idx → BitVec 32) (hT : a.1 2 = T)
    (r : Fin 100000) (hr : r.val = (T (ValueIdx.ix1 (slot17 a t))).toNat) (k : Fin 64) :
    (iblk17 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk17
  show (V c main_v8 : S100000x1x64.Idx → Elt F .f32) ((((cfg17 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg17 a).win 2).index t (0 : Fin 3) * 1 + 1 * 0 = r.val
    rw [inIdxRowC17 a t T hT, hr]
    generalize (T (ValueIdx.ix1 (slot17 a t))).toNat = n
    omega
  | ⟨1, _⟩ =>
    show ((cfg17 a).win 2).index t (1 : Fin 3) * 1 + 1 * 0 = 0
    rw [inIdxMidC17 a t]
  | ⟨2, _⟩ =>
    show ((cfg17 a).win 2).index t (2 : Fin 3) * 64 + 1 * k.val = k.val
    rw [inIdxLaneC17 a t]
    omega

/-- Input window 3's block at point `t` is row `r` of the point table, `r` the row its index word names there. -/
theorem rowBlkD17 (c : Dev nD) (t : Fin (cfg17 a).N) (T : S25000.Idx → BitVec 32) (hT : a.1 3 = T)
    (r : Fin 100000) (hr : r.val = (T (ValueIdx.ix1 (slot17 a t))).toNat) (k : Fin 64) :
    (iblk17 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk17
  show (V c main_v8 : S100000x1x64.Idx → Elt F .f32) ((((cfg17 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg17 a).win 3).index t (0 : Fin 3) * 1 + 1 * 0 = r.val
    rw [inIdxRowD17 a t T hT, hr]
    generalize (T (ValueIdx.ix1 (slot17 a t))).toNat = n
    omega
  | ⟨1, _⟩ =>
    show ((cfg17 a).win 3).index t (1 : Fin 3) * 1 + 1 * 0 = 0
    rw [inIdxMidD17 a t]
  | ⟨2, _⟩ =>
    show ((cfg17 a).win 3).index t (2 : Fin 3) * 64 + 1 * k.val = k.val
    rw [inIdxLaneD17 a t]
    omega

/-! ## The output window: every point writes its own row back -/

/-- Every point writes its output block back: the next point's block is another row. -/
theorem outFlush17 (t : Fin (cfg17 a).N) : ((cfg17 a).win 4).flush t = true := by
  unfold Window.flush
  have hout : ((cfg17 a).win 4).isOut = true := rfl
  rw [hout, Bool.true_and, Bool.or_eq_true, decide_eq_true_eq, decide_eq_true_eq]
  by_cases h : t.val + 1 = (cfg17 a).grid.N
  · exact Or.inl h
  · have hN : (cfg17 a).grid.N = 25000 := N_17
    have hN' := gridN17 a
    refine Or.inr ⟨by have := t.isLt; omega, fun e => ?_⟩
    have e0 := congrFun e (0 : Fin 3)
    rw [outIdxRow17, outIdxRow17] at e0
    exact absurd e0 (by simp)

set_option backward.isDefEq.respectTransparency.types false in
/-- An index of the result array is in point `t`'s block iff each coordinate is in the block's range on its axis. -/
theorem memOutBlk17 (t : Fin (cfg17 a).N) (i : S25000x1x2.Idx) :
    i ∈ (((cfg17 a).win 4).blk t).view.set ↔ ∀ ax : Fin 3, ((cfg17 a).win 4).index t ax * S1x1x2.size ax ≤ (i ax).val
      ∧ (i ax).val < ((cfg17 a).win 4).index t ax * S1x1x2.size ax + S1x1x2.size ax := by
  show i ∈ ((View.whole main_v98).slice (((cfg17 a).win 4).rect t)).set ↔ _
  rw [View.set_slice_whole]
  exact Rect.mem_set_unit

/-- What region 17 leaves in its result array, row by row: row `q` is the output block of the four table rows that
    the index words of point `q` name, position `e` of the block being edge `e`. -/
def rows17 (c : Dev nD) : S25000x1x2.Idx → Elt F .f32 := fun i =>
  outBlk17 (iblk17 V a c 0 (pt17 a ⟨(i 0).val, (i 0).isLt⟩)) (iblk17 V a c 1 (pt17 a ⟨(i 0).val, (i 0).isLt⟩))
    (iblk17 V a c 2 (pt17 a ⟨(i 0).val, (i 0).isLt⟩)) (iblk17 V a c 3 (pt17 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply17 (c : Dev nD) (t : Fin (cfg17 a).N) (e : Fin 2) (i : S25000x1x2.Idx)
    (h0 : (i 0).val = t.val) (h2 : (i 2).val = e.val) :
    rows17 V a c i
      = outBlk17 (iblk17 V a c 0 t) (iblk17 V a c 1 t) (iblk17 V a c 2 t) (iblk17 V a c 3 t) (ValueIdx.ix3 (0 : Fin 1) (0 : Fin 1) e) := by
  obtain rfl : t = pt17 a ⟨(i 0).val, (i 0).isLt⟩ := Fin.ext h0.symm
  obtain rfl : e = ⟨(i 2).val, (i 2).isLt⟩ := Fin.ext h2.symm
  rfl

/-- The same with the position given as an index of the block. -/
theorem rowsAt17 (c : Dev nD) (t : Fin (cfg17 a).N) (j : S1x1x2.Idx) (i : S25000x1x2.Idx)
    (h0 : (i 0).val = t.val) (h2 : (i 2).val = (j 2).val) :
    rows17 V a c i = outBlk17 (iblk17 V a c 0 t) (iblk17 V a c 1 t) (iblk17 V a c 2 t) (iblk17 V a c 3 t) j := by
  rw [rowsApply17 V a c t ⟨(j 2).val, (j 2).isLt⟩ i h0 h2]
  refine congrArg (outBlk17 (iblk17 V a c 0 t) (iblk17 V a c 1 t) (iblk17 V a c 2 t) (iblk17 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows17`. -/
theorem flushedRows17 (c : Dev nD) (t : Fin (cfg17 a).N) :
    (dat17 V a c).flushed 4 t = (((cfg17 a).win 4).blk t).view.read (Elt F) (rows17 V a c) := by
  show ((cfg17 a).win 4).cut ((cfg17 a).grid.coords t) ((dat17 V a c).after 4 t) = _
  rw [after17_4]
  funext j
  show outBlk17 (iblk17 V a c 0 t) (iblk17 V a c 1 t) (iblk17 V a c 2 t) (iblk17 V a c 3 t) (((cfg17 a).win 4).xinj ((cfg17 a).grid.coords t) j)
    = rows17 V a c ((((cfg17 a).win 4).blk t).view.emb j)
  refine (rowsAt17 V a c t _ _ ?_ ?_).symm
  · have hj : (j (0 : Fin 3)).val < 1 := (j (0 : Fin 3)).isLt
    show ((cfg17 a).win 4).index t (0 : Fin 3) * 1 + 1 * (j (0 : Fin 3)).val = t.val
    rw [outIdxRow17 a t]
    omega
  · show ((cfg17 a).win 4).index t (2 : Fin 3) * 2 + 1 * (j (2 : Fin 3)).val = (j (2 : Fin 3)).val
    rw [outIdxLane17 a t]
    omega

/-- After the run the result array holds `rows17`: row `q` was written by point `q`, and by no later point. -/
theorem arrRows17 (c : Dev nD) (q : Fin 25000) (e : Fin 2) :
    ((dat17 V a c).arrAt 4 (cfg17 a).N : S25000x1x2.Idx → Elt F .f32) (ValueIdx.ix3 q (0 : Fin 1) e)
      = rows17 V a c (ValueIdx.ix3 q (0 : Fin 1) e) := by
  refine (dat17 V a c).arrAt_apply_of_mem 4 (rows17 V a c) (fun t _ => flushedRows17 V a c t) (cfg17 a).N (pt17 a q)
    (ValueIdx.ix3 q (0 : Fin 1) e) (pt17 a q).isLt (outFlush17 a _) ((memOutBlk17 a _ _).mpr fun ax => ?_)
  match ax with
  | ⟨0, _⟩ =>
    show ((cfg17 a).win 4).index (pt17 a q) (0 : Fin 3) * 1 ≤ q.val ∧ q.val < ((cfg17 a).win 4).index (pt17 a q) (0 : Fin 3) * 1 + 1
    rw [outIdxRow17 a (pt17 a q)]
    show q.val * 1 ≤ q.val ∧ q.val < q.val * 1 + 1
    omega
  | ⟨1, _⟩ =>
    show ((cfg17 a).win 4).index (pt17 a q) (1 : Fin 3) * 1 ≤ 0 ∧ 0 < ((cfg17 a).win 4).index (pt17 a q) (1 : Fin 3) * 1 + 1
    rw [outIdxMid17 a (pt17 a q)]
    omega
  | ⟨2, _⟩ =>
    have he := e.isLt
    show ((cfg17 a).win 4).index (pt17 a q) (2 : Fin 3) * 2 ≤ e.val ∧ e.val < ((cfg17 a).win 4).index (pt17 a q) (2 : Fin 3) * 2 + 2
    rw [outIdxLane17 a (pt17 a q)]
    omega

/-! ## The value, over the extended reals -/

/-- Two blocks that are rows `r` and `s` of the table `X` have, as the body's payload, the distance between those rows. -/
theorem distOfRows17 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt17_apply (m : (ℓ : Loc nD τ sig) → Buf (Elt Ideal) ℓ) (a : (pcfg17 (F := Ideal)).Adm) (c : Dev nD)
    (ha0 : a.1 0 = tbl m c (17 : Fin 20) 0) (ha1 : a.1 1 = tbl m c (17 : Fin 20) 1)
    (ha2 : a.1 2 = tbl m c (17 : Fin 20) 2) (ha3 : a.1 3 = tbl m c (17 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat17 (F := Ideal) (fun c b => V1 m c b) a c).arrAt 4 (cfg17 a).N : S25000x1x2.Idx → EReal) (ValueIdx.ix3 q 0 e)
      = Cert.EdgeLengths.lengthAt (m ((c.tc : Thread nD τ).loc main_arg0)) (m ((c.tc : Thread nD τ).loc main_arg1))
          (genOf (17 : Fin 20) q) e := by
  refine (arrRows17 (fun c b => V1 m c b) a c q e).trans ?_
  refine (rowsApply17 (fun c b => V1 m c b) a c (pt17 a q) e _ rfl rfl).trans ?_
  -- the row each of the four index words of point `q` names is the vertex that word is
  have hv : ∀ j : Fin 4, (Cert.EdgeLengths.vtx (m ((c.tc : Thread nD τ).loc main_arg1)) (genOf (17 : Fin 20) q) j).val
      = (tbl m c (17 : Fin 20) j (ValueIdx.ix1 (slot17 a (pt17 a q)))).toNat :=
    fun j => Cert.EdgeLengths.vtx_val _ hR _ j
  match e with
  | ⟨0, _⟩ =>
    refine (outBlkBirth17 _ _ _ _).trans ?_
    refine (payBirth17 _ _ _).trans ?_
    exact distOfRows17 _ _ _ _ _
      (fun k => (rowBlkA17 (fun c b => V1 m c b) a c (pt17 a q) _ ha0 _ (hv 0) k).trans (hx _ k))
      (fun k => (rowBlkB17 (fun c b => V1 m c b) a c (pt17 a q) _ ha1 _ (hv 1) k).trans (hx _ k))
  | ⟨1, _⟩ =>
    refine (outBlkDeath17 _ _ _ _).trans ?_
    refine (payDeath17 _ _ _).trans ?_
    exact distOfRows17 _ _ _ _ _
      (fun k => (rowBlkC17 (fun c b => V1 m c b) a c (pt17 a q) _ ha2 _ (hv 2) k).trans (hx _ k))
      (fun k => (rowBlkD17 (fun c b => V1 m c b) a c (pt17 a q) _ ha3 _ (hv 3) k).trans (hx _ k))

end Cert.KernelIdeal.Gen

end
-- ==== Proof.KI.Value18.lean ====
/-
  The value region 18 of the gather-and-norm program leaves in its result array, over the extended reals.

  Region 18 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows18`), which each written-back
  block is a block of; and last, with the tables the four columns of the vertex words and every word in range, the
  row a word names is the vertex that word is, so the entry is the edge length of the specification.
-/
import proofs.«401090_j62775241999084_2_alg».proof.Proof.KI.Region18
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane18 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth18 (u v : Vec Ideal S1x1x64 .f32) (y : S1x1x1.Idx) :
    k18_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k18_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane18 k]
  rfl

/-- The death edge's payload: the same function of its two rows. -/
theorem payDeath18 (u v : Vec Ideal S1x1x64 .f32) (y : S1x1x1.Idx) :
    k18_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k18_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane18 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg18 (F := F)).Adm)

/-! ## The output block at its two positions -/

theorem hzThree18 : (![0, 0, 0] : Fin 3 → Nat) = fun _ => 0 := funext fun ax => by fin_cases ax <;> rfl

/-- Position 0 of the output block lies under the birth edge's store … -/
theorem embBirth18 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath18 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath18 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth18 (x0 x1 x2 x3 : Vec F S1x1x64 .f32) :
    outBlk18 x0 x1 x2 x3 (ValueIdx.ix3 (0 : Fin 1) (0 : Fin 1) (0 : Fin 2))
      = k18_pay1 x0 x1 (ValueIdx.ix3 (0 : Fin 1) (0 : Fin 1) (0 : Fin 1)) := by
  unfold outBlk18
  refine (View.canon_cons_of_not_mem
    (⟨outRectD, k18_pay2 (View.ld x2 rowRect) (View.ld x3 rowRect)⟩ : View.Piece (Elt F) S1x1x2 .f32)
    ([⟨outRectB, k18_pay1 (View.ld x0 rowRect) (View.ld x1 rowRect)⟩] : List (View.Piece (Elt F) S1x1x2 .f32)) notMemDeath18).trans ?_
  rw [← embBirth18]
  refine (View.canon_cons_emb (Val := Elt F) (e := .f32) outRectB (k18_pay1 (View.ld x0 rowRect) (View.ld x1 rowRect)) [] _).trans ?_
  rw [View.ld_unit_zero (S := S1x1x64) hzThree18, View.ld_unit_zero (S := S1x1x64) hzThree18]

/-- Position 1 holds the death edge's payload of the last two rows. -/
theorem outBlkDeath18 (x0 x1 x2 x3 : Vec F S1x1x64 .f32) :
    outBlk18 x0 x1 x2 x3 (ValueIdx.ix3 (0 : Fin 1) (0 : Fin 1) (1 : Fin 2))
      = k18_pay2 x2 x3 (ValueIdx.ix3 (0 : Fin 1) (0 : Fin 1) (0 : Fin 1)) := by
  unfold outBlk18
  rw [← embDeath18]
  refine (View.canon_cons_emb (Val := Elt F) (e := .f32) outRectD (k18_pay2 (View.ld x2 rowRect) (View.ld x3 rowRect))
    ([⟨outRectB, k18_pay1 (View.ld x0 rowRect) (View.ld x1 rowRect)⟩] : List (View.Piece (Elt F) S1x1x2 .f32)) _).trans ?_
  rw [View.ld_unit_zero (S := S1x1x64) hzThree18, View.ld_unit_zero (S := S1x1x64) hzThree18]

/-! ## The grid and the index maps, at any admissible contents of the index tables -/

/-- Region 18 has 25000 grid points, one per generator it handles. -/
theorem gridN18 : (cfg18 a).N = 25000 := N_18

/-- A point's one coordinate is the point's number. -/
theorem coords18 (t : Fin (cfg18 a).N) : (((cfg18 a).grid.coords t) 0).val = t.val := by
  have hN := gridN18 a
  have ht := t.isLt
  show t.val / 1 % 25000 = t.val
  omega

/-- The output window's block at point `t` is row `t` of the result: block index `(t, 0, 0)`. -/
theorem outIdxRow18 (t : Fin (cfg18 a).N) : ((cfg18 a).win 4).index t (0 : Fin 3) = t.val := by
  have hN := gridN18 a
  have ht := t.isLt
  show (BitVec.ofNat 32 (((cfg18 a).grid.coords t) 0).val).toNat = t.val
  rw [coords18 a t, BitVec.toNat_ofNat]
  omega
theorem outIdxMid18 (t : Fin (cfg18 a).N) : ((cfg18 a).win 4).index t (1 : Fin 3) = 0 := rfl
theorem outIdxLane18 (t : Fin (cfg18 a).N) : ((cfg18 a).win 4).index t (2 : Fin 3) = 0 := rfl

/-- The slot of an index table that point `t` reads: its own number. -/
abbrev slot18 (t : Fin (cfg18 a).N) : Fin 25000 := ⟨t.val, (gridN18 a) ▸ t.isLt⟩

/-- The grid point that writes row `q` of the result: point `q`. -/
abbrev pt18 (q : Fin 25000) : Fin (cfg18 a).N := ⟨q.val, (gridN18 a).symm ▸ q.isLt⟩

/-- Input window 0's block at point `t` is the table row that word `t` of index table 0 names: block index `(word, 0, 0)`. -/
theorem inIdxRowA18 (t : Fin (cfg18 a).N) (T : S25000.Idx → BitVec 32) (hT : a.1 0 = T) :
    ((cfg18 a).win 0).index t (0 : Fin 3) = (T (ValueIdx.ix1 (slot18 a t))).toNat := by
  subst hT
  show (a.1 0 _).toNat = (a.1 0 _).toNat
  refine congrArg BitVec.toNat (congrArg (a.1 0) ?_)
  funext d; apply Fin.ext
  match d with
  | ⟨0, _⟩ =>
    have hN := gridN18 a
    have ht := t.isLt
    show (BitVec.ofNat 32 (((cfg18 a).grid.coords t) 0).val).toNat + 1 * 0 = t.val
    rw [coords18 a t, BitVec.toNat_ofNat]
    omega
theorem inIdxMidA18 (t : Fin (cfg18 a).N) : ((cfg18 a).win 0).index t (1 : Fin 3) = 0 := rfl
theorem inIdxLaneA18 (t : Fin (cfg18 a).N) : ((cfg18 a).win 0).index t (2 : Fin 3) = 0 := rfl

/-- Input window 1's block at point `t` is the table row that word `t` of index table 1 names: block index `(word, 0, 0)`. -/
theorem inIdxRowB18 (t : Fin (cfg18 a).N) (T : S25000.Idx → BitVec 32) (hT : a.1 1 = T) :
    ((cfg18 a).win 1).index t (0 : Fin 3) = (T (ValueIdx.ix1 (slot18 a t))).toNat := by
  subst hT
  show (a.1 1 _).toNat = (a.1 1 _).toNat
  refine congrArg BitVec.toNat (congrArg (a.1 1) ?_)
  funext d; apply Fin.ext
  match d with
  | ⟨0, _⟩ =>
    have hN := gridN18 a
    have ht := t.isLt
    show (BitVec.ofNat 32 (((cfg18 a).grid.coords t) 0).val).toNat + 1 * 0 = t.val
    rw [coords18 a t, BitVec.toNat_ofNat]
    omega
theorem inIdxMidB18 (t : Fin (cfg18 a).N) : ((cfg18 a).win 1).index t (1 : Fin 3) = 0 := rfl
theorem inIdxLaneB18 (t : Fin (cfg18 a).N) : ((cfg18 a).win 1).index t (2 : Fin 3) = 0 := rfl

/-- Input window 2's block at point `t` is the table row that word `t` of index table 2 names: block index `(word, 0, 0)`. -/
theorem inIdxRowC18 (t : Fin (cfg18 a).N) (T : S25000.Idx → BitVec 32) (hT : a.1 2 = T) :
    ((cfg18 a).win 2).index t (0 : Fin 3) = (T (ValueIdx.ix1 (slot18 a t))).toNat := by
  subst hT
  show (a.1 2 _).toNat = (a.1 2 _).toNat
  refine congrArg BitVec.toNat (congrArg (a.1 2) ?_)
  funext d; apply Fin.ext
  match d with
  | ⟨0, _⟩ =>
    have hN := gridN18 a
    have ht := t.isLt
    show (BitVec.ofNat 32 (((cfg18 a).grid.coords t) 0).val).toNat + 1 * 0 = t.val
    rw [coords18 a t, BitVec.toNat_ofNat]
    omega
theorem inIdxMidC18 (t : Fin (cfg18 a).N) : ((cfg18 a).win 2).index t (1 : Fin 3) = 0 := rfl
theorem inIdxLaneC18 (t : Fin (cfg18 a).N) : ((cfg18 a).win 2).index t (2 : Fin 3) = 0 := rfl

/-- Input window 3's block at point `t` is the table row that word `t` of index table 3 names: block index `(word, 0, 0)`. -/
theorem inIdxRowD18 (t : Fin (cfg18 a).N) (T : S25000.Idx → BitVec 32) (hT : a.1 3 = T) :
    ((cfg18 a).win 3).index t (0 : Fin 3) = (T (ValueIdx.ix1 (slot18 a t))).toNat := by
  subst hT
  show (a.1 3 _).toNat = (a.1 3 _).toNat
  refine congrArg BitVec.toNat (congrArg (a.1 3) ?_)
  funext d; apply Fin.ext
  match d with
  | ⟨0, _⟩ =>
    have hN := gridN18 a
    have ht := t.isLt
    show (BitVec.ofNat 32 (((cfg18 a).grid.coords t) 0).val).toNat + 1 * 0 = t.val
    rw [coords18 a t, BitVec.toNat_ofNat]
    omega
theorem inIdxMidD18 (t : Fin (cfg18 a).N) : ((cfg18 a).win 3).index t (1 : Fin 3) = 0 := rfl
theorem inIdxLaneD18 (t : Fin (cfg18 a).N) : ((cfg18 a).win 3).index t (2 : Fin 3) = 0 := rfl

/-! ## The input blocks: rows of the point table -/

/-- Input window 0's block at point `t` is row `r` of the point table, `r` the row its index word names there. -/
theorem rowBlkA18 (c : Dev nD) (t : Fin (cfg18 a).N) (T : S25000.Idx → BitVec 32) (hT : a.1 0 = T)
    (r : Fin 100000) (hr : r.val = (T (ValueIdx.ix1 (slot18 a t))).toNat) (k : Fin 64) :
    (iblk18 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk18
  show (V c main_v8 : S100000x1x64.Idx → Elt F .f32) ((((cfg18 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg18 a).win 0).index t (0 : Fin 3) * 1 + 1 * 0 = r.val
    rw [inIdxRowA18 a t T hT, hr]
    generalize (T (ValueIdx.ix1 (slot18 a t))).toNat = n
    omega
  | ⟨1, _⟩ =>
    show ((cfg18 a).win 0).index t (1 : Fin 3) * 1 + 1 * 0 = 0
    rw [inIdxMidA18 a t]
  | ⟨2, _⟩ =>
    show ((cfg18 a).win 0).index t (2 : Fin 3) * 64 + 1 * k.val = k.val
    rw [inIdxLaneA18 a t]
    omega

/-- Input window 1's block at point `t` is row `r` of the point table, `r` the row its index word names there. -/
theorem rowBlkB18 (c : Dev nD) (t : Fin (cfg18 a).N) (T : S25000.Idx → BitVec 32) (hT : a.1 1 = T)
    (r : Fin 100000) (hr : r.val = (T (ValueIdx.ix1 (slot18 a t))).toNat) (k : Fin 64) :
    (iblk18 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk18
  show (V c main_v8 : S100000x1x64.Idx → Elt F .f32) ((((cfg18 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg18 a).win 1).index t (0 : Fin 3) * 1 + 1 * 0 = r.val
    rw [inIdxRowB18 a t T hT, hr]
    generalize (T (ValueIdx.ix1 (slot18 a t))).toNat = n
    omega
  | ⟨1, _⟩ =>
    show ((cfg18 a).win 1).index t (1 : Fin 3) * 1 + 1 * 0 = 0
    rw [inIdxMidB18 a t]
  | ⟨2, _⟩ =>
    show ((cfg18 a).win 1).index t (2 : Fin 3) * 64 + 1 * k.val = k.val
    rw [inIdxLaneB18 a t]
    omega

/-- Input window 2's block at point `t` is row `r` of the point table, `r` the row its index word names there. -/
theorem rowBlkC18 (c : Dev nD) (t : Fin (cfg18 a).N) (T : S25000.Idx → BitVec 32) (hT : a.1 2 = T)
    (r : Fin 100000) (hr : r.val = (T (ValueIdx.ix1 (slot18 a t))).toNat) (k : Fin 64) :
    (iblk18 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk18
  show (V c main_v8 : S100000x1x64.Idx → Elt F .f32) ((((cfg18 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg18 a).win 2).index t (0 : Fin 3) * 1 + 1 * 0 = r.val
    rw [inIdxRowC18 a t T hT, hr]
    generalize (T (ValueIdx.ix1 (slot18 a t))).toNat = n
    omega
  | ⟨1, _⟩ =>
    show ((cfg18 a).win 2).index t (1 : Fin 3) * 1 + 1 * 0 = 0
    rw [inIdxMidC18 a t]
  | ⟨2, _⟩ =>
    show ((cfg18 a).win 2).index t (2 : Fin 3) * 64 + 1 * k.val = k.val
    rw [inIdxLaneC18 a t]
    omega

/-- Input window 3's block at point `t` is row `r` of the point table, `r` the row its index word names there. -/
theorem rowBlkD18 (c : Dev nD) (t : Fin (cfg18 a).N) (T : S25000.Idx → BitVec 32) (hT : a.1 3 = T)
    (r : Fin 100000) (hr : r.val = (T (ValueIdx.ix1 (slot18 a t))).toNat) (k : Fin 64) :
    (iblk18 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk18
  show (V c main_v8 : S100000x1x64.Idx → Elt F .f32) ((((cfg18 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg18 a).win 3).index t (0 : Fin 3) * 1 + 1 * 0 = r.val
    rw [inIdxRowD18 a t T hT, hr]
    generalize (T (ValueIdx.ix1 (slot18 a t))).toNat = n
    omega
  | ⟨1, _⟩ =>
    show ((cfg18 a).win 3).index t (1 : Fin 3) * 1 + 1 * 0 = 0
    rw [inIdxMidD18 a t]
  | ⟨2, _⟩ =>
    show ((cfg18 a).win 3).index t (2 : Fin 3) * 64 + 1 * k.val = k.val
    rw [inIdxLaneD18 a t]
    omega

/-! ## The output window: every point writes its own row back -/

/-- Every point writes its output block back: the next point's block is another row. -/
theorem outFlush18 (t : Fin (cfg18 a).N) : ((cfg18 a).win 4).flush t = true := by
  unfold Window.flush
  have hout : ((cfg18 a).win 4).isOut = true := rfl
  rw [hout, Bool.true_and, Bool.or_eq_true, decide_eq_true_eq, decide_eq_true_eq]
  by_cases h : t.val + 1 = (cfg18 a).grid.N
  · exact Or.inl h
  · have hN : (cfg18 a).grid.N = 25000 := N_18
    have hN' := gridN18 a
    refine Or.inr ⟨by have := t.isLt; omega, fun e => ?_⟩
    have e0 := congrFun e (0 : Fin 3)
    rw [outIdxRow18, outIdxRow18] at e0
    exact absurd e0 (by simp)

set_option backward.isDefEq.respectTransparency.types false in
/-- An index of the result array is in point `t`'s block iff each coordinate is in the block's range on its axis. -/
theorem memOutBlk18 (t : Fin (cfg18 a).N) (i : S25000x1x2.Idx) :
    i ∈ (((cfg18 a).win 4).blk t).view.set ↔ ∀ ax : Fin 3, ((cfg18 a).win 4).index t ax * S1x1x2.size ax ≤ (i ax).val
      ∧ (i ax).val < ((cfg18 a).win 4).index t ax * S1x1x2.size ax + S1x1x2.size ax := by
  show i ∈ ((View.whole main_v103).slice (((cfg18 a).win 4).rect t)).set ↔ _
  rw [View.set_slice_whole]
  exact Rect.mem_set_unit

/-- What region 18 leaves in its result array, row by row: row `q` is the output block of the four table rows that
    the index words of point `q` name, position `e` of the block being edge `e`. -/
def rows18 (c : Dev nD) : S25000x1x2.Idx → Elt F .f32 := fun i =>
  outBlk18 (iblk18 V a c 0 (pt18 a ⟨(i 0).val, (i 0).isLt⟩)) (iblk18 V a c 1 (pt18 a ⟨(i 0).val, (i 0).isLt⟩))
    (iblk18 V a c 2 (pt18 a ⟨(i 0).val, (i 0).isLt⟩)) (iblk18 V a c 3 (pt18 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply18 (c : Dev nD) (t : Fin (cfg18 a).N) (e : Fin 2) (i : S25000x1x2.Idx)
    (h0 : (i 0).val = t.val) (h2 : (i 2).val = e.val) :
    rows18 V a c i
      = outBlk18 (iblk18 V a c 0 t) (iblk18 V a c 1 t) (iblk18 V a c 2 t) (iblk18 V a c 3 t) (ValueIdx.ix3 (0 : Fin 1) (0 : Fin 1) e) := by
  obtain rfl : t = pt18 a ⟨(i 0).val, (i 0).isLt⟩ := Fin.ext h0.symm
  obtain rfl : e = ⟨(i 2).val, (i 2).isLt⟩ := Fin.ext h2.symm
  rfl

/-- The same with the position given as an index of the block. -/
theorem rowsAt18 (c : Dev nD) (t : Fin (cfg18 a).N) (j : S1x1x2.Idx) (i : S25000x1x2.Idx)
    (h0 : (i 0).val = t.val) (h2 : (i 2).val = (j 2).val) :
    rows18 V a c i = outBlk18 (iblk18 V a c 0 t) (iblk18 V a c 1 t) (iblk18 V a c 2 t) (iblk18 V a c 3 t) j := by
  rw [rowsApply18 V a c t ⟨(j 2).val, (j 2).isLt⟩ i h0 h2]
  refine congrArg (outBlk18 (iblk18 V a c 0 t) (iblk18 V a c 1 t) (iblk18 V a c 2 t) (iblk18 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows18`. -/
theorem flushedRows18 (c : Dev nD) (t : Fin (cfg18 a).N) :
    (dat18 V a c).flushed 4 t = (((cfg18 a).win 4).blk t).view.read (Elt F) (rows18 V a c) := by
  show ((cfg18 a).win 4).cut ((cfg18 a).grid.coords t) ((dat18 V a c).after 4 t) = _
  rw [after18_4]
  funext j
  show outBlk18 (iblk18 V a c 0 t) (iblk18 V a c 1 t) (iblk18 V a c 2 t) (iblk18 V a c 3 t) (((cfg18 a).win 4).xinj ((cfg18 a).grid.coords t) j)
    = rows18 V a c ((((cfg18 a).win 4).blk t).view.emb j)
  refine (rowsAt18 V a c t _ _ ?_ ?_).symm
  · have hj : (j (0 : Fin 3)).val < 1 := (j (0 : Fin 3)).isLt
    show ((cfg18 a).win 4).index t (0 : Fin 3) * 1 + 1 * (j (0 : Fin 3)).val = t.val
    rw [outIdxRow18 a t]
    omega
  · show ((cfg18 a).win 4).index t (2 : Fin 3) * 2 + 1 * (j (2 : Fin 3)).val = (j (2 : Fin 3)).val
    rw [outIdxLane18 a t]
    omega

/-- After the run the result array holds `rows18`: row `q` was written by point `q`, and by no later point. -/
theorem arrRows18 (c : Dev nD) (q : Fin 25000) (e : Fin 2) :
    ((dat18 V a c).arrAt 4 (cfg18 a).N : S25000x1x2.Idx → Elt F .f32) (ValueIdx.ix3 q (0 : Fin 1) e)
      = rows18 V a c (ValueIdx.ix3 q (0 : Fin 1) e) := by
  refine (dat18 V a c).arrAt_apply_of_mem 4 (rows18 V a c) (fun t _ => flushedRows18 V a c t) (cfg18 a).N (pt18 a q)
    (ValueIdx.ix3 q (0 : Fin 1) e) (pt18 a q).isLt (outFlush18 a _) ((memOutBlk18 a _ _).mpr fun ax => ?_)
  match ax with
  | ⟨0, _⟩ =>
    show ((cfg18 a).win 4).index (pt18 a q) (0 : Fin 3) * 1 ≤ q.val ∧ q.val < ((cfg18 a).win 4).index (pt18 a q) (0 : Fin 3) * 1 + 1
    rw [outIdxRow18 a (pt18 a q)]
    show q.val * 1 ≤ q.val ∧ q.val < q.val * 1 + 1
    omega
  | ⟨1, _⟩ =>
    show ((cfg18 a).win 4).index (pt18 a q) (1 : Fin 3) * 1 ≤ 0 ∧ 0 < ((cfg18 a).win 4).index (pt18 a q) (1 : Fin 3) * 1 + 1
    rw [outIdxMid18 a (pt18 a q)]
    omega
  | ⟨2, _⟩ =>
    have he := e.isLt
    show ((cfg18 a).win 4).index (pt18 a q) (2 : Fin 3) * 2 ≤ e.val ∧ e.val < ((cfg18 a).win 4).index (pt18 a q) (2 : Fin 3) * 2 + 2
    rw [outIdxLane18 a (pt18 a q)]
    omega

/-! ## The value, over the extended reals -/

/-- Two blocks that are rows `r` and `s` of the table `X` have, as the body's payload, the distance between those rows. -/
theorem distOfRows18 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt18_apply (m : (ℓ : Loc nD τ sig) → Buf (Elt Ideal) ℓ) (a : (pcfg18 (F := Ideal)).Adm) (c : Dev nD)
    (ha0 : a.1 0 = tbl m c (18 : Fin 20) 0) (ha1 : a.1 1 = tbl m c (18 : Fin 20) 1)
    (ha2 : a.1 2 = tbl m c (18 : Fin 20) 2) (ha3 : a.1 3 = tbl m c (18 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat18 (F := Ideal) (fun c b => V1 m c b) a c).arrAt 4 (cfg18 a).N : S25000x1x2.Idx → EReal) (ValueIdx.ix3 q 0 e)
      = Cert.EdgeLengths.lengthAt (m ((c.tc : Thread nD τ).loc main_arg0)) (m ((c.tc : Thread nD τ).loc main_arg1))
          (genOf (18 : Fin 20) q) e := by
  refine (arrRows18 (fun c b => V1 m c b) a c q e).trans ?_
  refine (rowsApply18 (fun c b => V1 m c b) a c (pt18 a q) e _ rfl rfl).trans ?_
  -- the row each of the four index words of point `q` names is the vertex that word is
  have hv : ∀ j : Fin 4, (Cert.EdgeLengths.vtx (m ((c.tc : Thread nD τ).loc main_arg1)) (genOf (18 : Fin 20) q) j).val
      = (tbl m c (18 : Fin 20) j (ValueIdx.ix1 (slot18 a (pt18 a q)))).toNat :=
    fun j => Cert.EdgeLengths.vtx_val _ hR _ j
  match e with
  | ⟨0, _⟩ =>
    refine (outBlkBirth18 _ _ _ _).trans ?_
    refine (payBirth18 _ _ _).trans ?_
    exact distOfRows18 _ _ _ _ _
      (fun k => (rowBlkA18 (fun c b => V1 m c b) a c (pt18 a q) _ ha0 _ (hv 0) k).trans (hx _ k))
      (fun k => (rowBlkB18 (fun c b => V1 m c b) a c (pt18 a q) _ ha1 _ (hv 1) k).trans (hx _ k))
  | ⟨1, _⟩ =>
    refine (outBlkDeath18 _ _ _ _).trans ?_
    refine (payDeath18 _ _ _).trans ?_
    exact distOfRows18 _ _ _ _ _
      (fun k => (rowBlkC18 (fun c b => V1 m c b) a c (pt18 a q) _ ha2 _ (hv 2) k).trans (hx _ k))
      (fun k => (rowBlkD18 (fun c b => V1 m c b) a c (pt18 a q) _ ha3 _ (hv 3) k).trans (hx _ k))

end Cert.KernelIdeal.Gen

end
-- ==== Proof.KI.Value19.lean ====
/-
  The value region 19 of the gather-and-norm program leaves in its result array, over the extended reals.

  Region 19 runs its body once per generator q = 0 … 24999 of its share. At point q each of the four input windows
  holds one row of the point table: the row that word q of the window's index table names. The body writes the
  distance between the first two rows at position 0 of a two-element block and the distance between the last two at
  position 1, where d(u, v) = sqrt(Σ_k (u_k − v_k)²) over the 64 coordinates, and the block is written back to row q
  of the result array; no other point's block holds that row. So entry (q, 0, e) of the result is
  d(x[w(2e)], x[w(2e+1)]), w(0) … w(3) the four index words of point q.

  The steps, in order: the body's arithmetic read at an index (a lane sum, then a square root); the block's two
  one-element stores as its two positions; the grid and the index maps, with the tables' contents kept a variable
  (input window w's block at point t is the table row its word names, the output block at t is row t of the result);
  each input block as a row of the table; every point writes its block back, and an index lies in point t's block
  iff its coordinates are in range; the result array as ONE function of its index (`rows19`), which each written-back
  block is a block of; and last, with the tables the four columns of the vertex words and every word in range, the
  row a word names is the vertex that word is, so the entry is the edge length of the specification.
-/
import proofs.«401090_j62775241999084_2_alg».proof.Proof.KI.Region19
import proofs.«401090_j62775241999084_2_alg».proof.Proof.KI.Tables
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat Cfg Window)
open scoped BigOperators

/-! ## The body's arithmetic at an index, over the extended reals -/

/-- Dropping the lane axis of `(0, 0, k)` leaves `(0, 0)`; putting lane `k` back gives `(0, 0, k)`. -/
theorem liftLane19 (k : Fin 64) :
    reduces_S1x1x64_S1x1.lift (ValueIdx.ix2 (0 : Fin 1) (0 : Fin 1)) k = ValueIdx.ix3 (0 : Fin 1) (0 : Fin 1) k := by
  funext ax; apply Fin.ext
  match ax with
  | ⟨0, _⟩ => rfl
  | ⟨1, _⟩ => rfl
  | ⟨2, _⟩ => rfl

/-- The birth edge's payload: the square root of the sum over the 64 lanes of the squared differences of the two rows. -/
theorem payBirth19 (u v : Vec Ideal S1x1x64 .f32) (y : S1x1x1.Idx) :
    k19_pay1 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k19_pay1
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane19 k]
  rfl

/-- The death edge's payload: the same function of its two rows. -/
theorem payDeath19 (u v : Vec Ideal S1x1x64 .f32) (y : S1x1x1.Idx) :
    k19_pay2 (F := Ideal) u v y
      = Ideal.sqrt (∑ k : Fin 64, (u (ValueIdx.ix3 (0 : Fin 1) (0 : Fin 1) k) - v (ValueIdx.ix3 (0 : Fin 1) (0 : Fin 1) k))
          * (u (ValueIdx.ix3 (0 : Fin 1) (0 : Fin 1) k) - v (ValueIdx.ix3 (0 : Fin 1) (0 : Fin 1) k))) := by
  unfold k19_pay2
  simp only [shapeCast_self]
  show Ideal.sqrt (shapeCast S1x1x1 _ shapeCasts_S1x1_S1x1x1 y) = _
  refine congrArg Ideal.sqrt ?_
  refine (shapeCast_apply _ shapeCasts_S1x1_S1x1x1 y (ValueIdx.ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show (0 : Nat) * 1 + 0 = ((y 0).val * 1 + (y 1).val) * 1 + (y 2).val
    omega
  refine (Ideal.multiReduction_add_single _ _ reduces_S1x1x64_S1x1 _ _ (ValueIdx.ix2 (0 : Fin 1) (0 : Fin 1))).trans ?_
  refine Finset.sum_congr rfl fun k _ => ?_
  rw [liftLane19 k]
  rfl

variable {F : FTy → Type} [FloatOps F]

-- the buffers' contents when the region is entered, and the admissible contents of its four index tables: both
-- variables, so that nothing below can depend on what the tables hold
variable (V : (c : Dev nD) → (b : Ref sig .tc) → Buf (Elt F) ((c : Thread nD τ).loc b))
variable (a : (pcfg19 (F := F)).Adm)

/-! ## The output block at its two positions -/

theorem hzThree19 : (![0, 0, 0] : Fin 3 → Nat) = fun _ => 0 := funext fun ax => by fin_cases ax <;> rfl

/-- Position 0 of the output block lies under the birth edge's store … -/
theorem embBirth19 : outRectB.emb (ValueIdx.ix3 (0 : Fin 1) (0 : Fin 1) (0 : Fin 1)) = ValueIdx.ix3 (0 : Fin 1) (0 : Fin 1) (0 : Fin 2) := by
  funext ax; apply Fin.ext
  match ax with
  | ⟨0, _⟩ => rfl
  | ⟨1, _⟩ => rfl
  | ⟨2, _⟩ => rfl

/-- … position 1 under the death edge's store … -/
theorem embDeath19 : outRectD.emb (ValueIdx.ix3 (0 : Fin 1) (0 : Fin 1) (0 : Fin 1)) = ValueIdx.ix3 (0 : Fin 1) (0 : Fin 1) (1 : Fin 2) := by
  funext ax; apply Fin.ext
  match ax with
  | ⟨0, _⟩ => rfl
  | ⟨1, _⟩ => rfl
  | ⟨2, _⟩ => rfl

/-- … and position 0 is not under the death edge's store. -/
theorem notMemDeath19 : ValueIdx.ix3 (0 : Fin 1) (0 : Fin 1) (0 : Fin 2) ∉ outRectD.set := by
  rw [Rect.mem_set_unit]
  intro h
  exact absurd (h 2).1 (by decide)

/-- Position 0 of the output block holds the birth edge's payload of the first two rows. -/
theorem outBlkBirth19 (x0 x1 x2 x3 : Vec F S1x1x64 .f32) :
    outBlk19 x0 x1 x2 x3 (ValueIdx.ix3 (0 : Fin 1) (0 : Fin 1) (0 : Fin 2))
      = k19_pay1 x0 x1 (ValueIdx.ix3 (0 : Fin 1) (0 : Fin 1) (0 : Fin 1)) := by
  unfold outBlk19
  refine (View.canon_cons_of_not_mem
    (⟨outRectD, k19_pay2 (View.ld x2 rowRect) (View.ld x3 rowRect)⟩ : View.Piece (Elt F) S1x1x2 .f32)
    ([⟨outRectB, k19_pay1 (View.ld x0 rowRect) (View.ld x1 rowRect)⟩] : List (View.Piece (Elt F) S1x1x2 .f32)) notMemDeath19).trans ?_
  rw [← embBirth19]
  refine (View.canon_cons_emb (Val := Elt F) (e := .f32) outRectB (k19_pay1 (View.ld x0 rowRect) (View.ld x1 rowRect)) [] _).trans ?_
  rw [View.ld_unit_zero (S := S1x1x64) hzThree19, View.ld_unit_zero (S := S1x1x64) hzThree19]

/-- Position 1 holds the death edge's payload of the last two rows. -/
theorem outBlkDeath19 (x0 x1 x2 x3 : Vec F S1x1x64 .f32) :
    outBlk19 x0 x1 x2 x3 (ValueIdx.ix3 (0 : Fin 1) (0 : Fin 1) (1 : Fin 2))
      = k19_pay2 x2 x3 (ValueIdx.ix3 (0 : Fin 1) (0 : Fin 1) (0 : Fin 1)) := by
  unfold outBlk19
  rw [← embDeath19]
  refine (View.canon_cons_emb (Val := Elt F) (e := .f32) outRectD (k19_pay2 (View.ld x2 rowRect) (View.ld x3 rowRect))
    ([⟨outRectB, k19_pay1 (View.ld x0 rowRect) (View.ld x1 rowRect)⟩] : List (View.Piece (Elt F) S1x1x2 .f32)) _).trans ?_
  rw [View.ld_unit_zero (S := S1x1x64) hzThree19, View.ld_unit_zero (S := S1x1x64) hzThree19]

/-! ## The grid and the index maps, at any admissible contents of the index tables -/

/-- Region 19 has 25000 grid points, one per generator it handles. -/
theorem gridN19 : (cfg19 a).N = 25000 := N_19

/-- A point's one coordinate is the point's number. -/
theorem coords19 (t : Fin (cfg19 a).N) : (((cfg19 a).grid.coords t) 0).val = t.val := by
  have hN := gridN19 a
  have ht := t.isLt
  show t.val / 1 % 25000 = t.val
  omega

/-- The output window's block at point `t` is row `t` of the result: block index `(t, 0, 0)`. -/
theorem outIdxRow19 (t : Fin (cfg19 a).N) : ((cfg19 a).win 4).index t (0 : Fin 3) = t.val := by
  have hN := gridN19 a
  have ht := t.isLt
  show (BitVec.ofNat 32 (((cfg19 a).grid.coords t) 0).val).toNat = t.val
  rw [coords19 a t, BitVec.toNat_ofNat]
  omega
theorem outIdxMid19 (t : Fin (cfg19 a).N) : ((cfg19 a).win 4).index t (1 : Fin 3) = 0 := rfl
theorem outIdxLane19 (t : Fin (cfg19 a).N) : ((cfg19 a).win 4).index t (2 : Fin 3) = 0 := rfl

/-- The slot of an index table that point `t` reads: its own number. -/
abbrev slot19 (t : Fin (cfg19 a).N) : Fin 25000 := ⟨t.val, (gridN19 a) ▸ t.isLt⟩

/-- The grid point that writes row `q` of the result: point `q`. -/
abbrev pt19 (q : Fin 25000) : Fin (cfg19 a).N := ⟨q.val, (gridN19 a).symm ▸ q.isLt⟩

/-- Input window 0's block at point `t` is the table row that word `t` of index table 0 names: block index `(word, 0, 0)`. -/
theorem inIdxRowA19 (t : Fin (cfg19 a).N) (T : S25000.Idx → BitVec 32) (hT : a.1 0 = T) :
    ((cfg19 a).win 0).index t (0 : Fin 3) = (T (ValueIdx.ix1 (slot19 a t))).toNat := by
  subst hT
  show (a.1 0 _).toNat = (a.1 0 _).toNat
  refine congrArg BitVec.toNat (congrArg (a.1 0) ?_)
  funext d; apply Fin.ext
  match d with
  | ⟨0, _⟩ =>
    have hN := gridN19 a
    have ht := t.isLt
    show (BitVec.ofNat 32 (((cfg19 a).grid.coords t) 0).val).toNat + 1 * 0 = t.val
    rw [coords19 a t, BitVec.toNat_ofNat]
    omega
theorem inIdxMidA19 (t : Fin (cfg19 a).N) : ((cfg19 a).win 0).index t (1 : Fin 3) = 0 := rfl
theorem inIdxLaneA19 (t : Fin (cfg19 a).N) : ((cfg19 a).win 0).index t (2 : Fin 3) = 0 := rfl

/-- Input window 1's block at point `t` is the table row that word `t` of index table 1 names: block index `(word, 0, 0)`. -/
theorem inIdxRowB19 (t : Fin (cfg19 a).N) (T : S25000.Idx → BitVec 32) (hT : a.1 1 = T) :
    ((cfg19 a).win 1).index t (0 : Fin 3) = (T (ValueIdx.ix1 (slot19 a t))).toNat := by
  subst hT
  show (a.1 1 _).toNat = (a.1 1 _).toNat
  refine congrArg BitVec.toNat (congrArg (a.1 1) ?_)
  funext d; apply Fin.ext
  match d with
  | ⟨0, _⟩ =>
    have hN := gridN19 a
    have ht := t.isLt
    show (BitVec.ofNat 32 (((cfg19 a).grid.coords t) 0).val).toNat + 1 * 0 = t.val
    rw [coords19 a t, BitVec.toNat_ofNat]
    omega
theorem inIdxMidB19 (t : Fin (cfg19 a).N) : ((cfg19 a).win 1).index t (1 : Fin 3) = 0 := rfl
theorem inIdxLaneB19 (t : Fin (cfg19 a).N) : ((cfg19 a).win 1).index t (2 : Fin 3) = 0 := rfl

/-- Input window 2's block at point `t` is the table row that word `t` of index table 2 names: block index `(word, 0, 0)`. -/
theorem inIdxRowC19 (t : Fin (cfg19 a).N) (T : S25000.Idx → BitVec 32) (hT : a.1 2 = T) :
    ((cfg19 a).win 2).index t (0 : Fin 3) = (T (ValueIdx.ix1 (slot19 a t))).toNat := by
  subst hT
  show (a.1 2 _).toNat = (a.1 2 _).toNat
  refine congrArg BitVec.toNat (congrArg (a.1 2) ?_)
  funext d; apply Fin.ext
  match d with
  | ⟨0, _⟩ =>
    have hN := gridN19 a
    have ht := t.isLt
    show (BitVec.ofNat 32 (((cfg19 a).grid.coords t) 0).val).toNat + 1 * 0 = t.val
    rw [coords19 a t, BitVec.toNat_ofNat]
    omega
theorem inIdxMidC19 (t : Fin (cfg19 a).N) : ((cfg19 a).win 2).index t (1 : Fin 3) = 0 := rfl
theorem inIdxLaneC19 (t : Fin (cfg19 a).N) : ((cfg19 a).win 2).index t (2 : Fin 3) = 0 := rfl

/-- Input window 3's block at point `t` is the table row that word `t` of index table 3 names: block index `(word, 0, 0)`. -/
theorem inIdxRowD19 (t : Fin (cfg19 a).N) (T : S25000.Idx → BitVec 32) (hT : a.1 3 = T) :
    ((cfg19 a).win 3).index t (0 : Fin 3) = (T (ValueIdx.ix1 (slot19 a t))).toNat := by
  subst hT
  show (a.1 3 _).toNat = (a.1 3 _).toNat
  refine congrArg BitVec.toNat (congrArg (a.1 3) ?_)
  funext d; apply Fin.ext
  match d with
  | ⟨0, _⟩ =>
    have hN := gridN19 a
    have ht := t.isLt
    show (BitVec.ofNat 32 (((cfg19 a).grid.coords t) 0).val).toNat + 1 * 0 = t.val
    rw [coords19 a t, BitVec.toNat_ofNat]
    omega
theorem inIdxMidD19 (t : Fin (cfg19 a).N) : ((cfg19 a).win 3).index t (1 : Fin 3) = 0 := rfl
theorem inIdxLaneD19 (t : Fin (cfg19 a).N) : ((cfg19 a).win 3).index t (2 : Fin 3) = 0 := rfl

/-! ## The input blocks: rows of the point table -/

/-- Input window 0's block at point `t` is row `r` of the point table, `r` the row its index word names there. -/
theorem rowBlkA19 (c : Dev nD) (t : Fin (cfg19 a).N) (T : S25000.Idx → BitVec 32) (hT : a.1 0 = T)
    (r : Fin 100000) (hr : r.val = (T (ValueIdx.ix1 (slot19 a t))).toNat) (k : Fin 64) :
    (iblk19 V a c 0 t : Vec F S1x1x64 .f32) (ValueIdx.ix3 (0 : Fin 1) (0 : Fin 1) k)
      = (V c main_v8 : S100000x1x64.Idx → Elt F .f32) (ValueIdx.ix3 r (0 : Fin 1) k) := by
  unfold iblk19
  show (V c main_v8 : S100000x1x64.Idx → Elt F .f32) ((((cfg19 a).win 0).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg19 a).win 0).index t (0 : Fin 3) * 1 + 1 * 0 = r.val
    rw [inIdxRowA19 a t T hT, hr]
    generalize (T (ValueIdx.ix1 (slot19 a t))).toNat = n
    omega
  | ⟨1, _⟩ =>
    show ((cfg19 a).win 0).index t (1 : Fin 3) * 1 + 1 * 0 = 0
    rw [inIdxMidA19 a t]
  | ⟨2, _⟩ =>
    show ((cfg19 a).win 0).index t (2 : Fin 3) * 64 + 1 * k.val = k.val
    rw [inIdxLaneA19 a t]
    omega

/-- Input window 1's block at point `t` is row `r` of the point table, `r` the row its index word names there. -/
theorem rowBlkB19 (c : Dev nD) (t : Fin (cfg19 a).N) (T : S25000.Idx → BitVec 32) (hT : a.1 1 = T)
    (r : Fin 100000) (hr : r.val = (T (ValueIdx.ix1 (slot19 a t))).toNat) (k : Fin 64) :
    (iblk19 V a c 1 t : Vec F S1x1x64 .f32) (ValueIdx.ix3 (0 : Fin 1) (0 : Fin 1) k)
      = (V c main_v8 : S100000x1x64.Idx → Elt F .f32) (ValueIdx.ix3 r (0 : Fin 1) k) := by
  unfold iblk19
  show (V c main_v8 : S100000x1x64.Idx → Elt F .f32) ((((cfg19 a).win 1).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg19 a).win 1).index t (0 : Fin 3) * 1 + 1 * 0 = r.val
    rw [inIdxRowB19 a t T hT, hr]
    generalize (T (ValueIdx.ix1 (slot19 a t))).toNat = n
    omega
  | ⟨1, _⟩ =>
    show ((cfg19 a).win 1).index t (1 : Fin 3) * 1 + 1 * 0 = 0
    rw [inIdxMidB19 a t]
  | ⟨2, _⟩ =>
    show ((cfg19 a).win 1).index t (2 : Fin 3) * 64 + 1 * k.val = k.val
    rw [inIdxLaneB19 a t]
    omega

/-- Input window 2's block at point `t` is row `r` of the point table, `r` the row its index word names there. -/
theorem rowBlkC19 (c : Dev nD) (t : Fin (cfg19 a).N) (T : S25000.Idx → BitVec 32) (hT : a.1 2 = T)
    (r : Fin 100000) (hr : r.val = (T (ValueIdx.ix1 (slot19 a t))).toNat) (k : Fin 64) :
    (iblk19 V a c 2 t : Vec F S1x1x64 .f32) (ValueIdx.ix3 (0 : Fin 1) (0 : Fin 1) k)
      = (V c main_v8 : S100000x1x64.Idx → Elt F .f32) (ValueIdx.ix3 r (0 : Fin 1) k) := by
  unfold iblk19
  show (V c main_v8 : S100000x1x64.Idx → Elt F .f32) ((((cfg19 a).win 2).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg19 a).win 2).index t (0 : Fin 3) * 1 + 1 * 0 = r.val
    rw [inIdxRowC19 a t T hT, hr]
    generalize (T (ValueIdx.ix1 (slot19 a t))).toNat = n
    omega
  | ⟨1, _⟩ =>
    show ((cfg19 a).win 2).index t (1 : Fin 3) * 1 + 1 * 0 = 0
    rw [inIdxMidC19 a t]
  | ⟨2, _⟩ =>
    show ((cfg19 a).win 2).index t (2 : Fin 3) * 64 + 1 * k.val = k.val
    rw [inIdxLaneC19 a t]
    omega

/-- Input window 3's block at point `t` is row `r` of the point table, `r` the row its index word names there. -/
theorem rowBlkD19 (c : Dev nD) (t : Fin (cfg19 a).N) (T : S25000.Idx → BitVec 32) (hT : a.1 3 = T)
    (r : Fin 100000) (hr : r.val = (T (ValueIdx.ix1 (slot19 a t))).toNat) (k : Fin 64) :
    (iblk19 V a c 3 t : Vec F S1x1x64 .f32) (ValueIdx.ix3 (0 : Fin 1) (0 : Fin 1) k)
      = (V c main_v8 : S100000x1x64.Idx → Elt F .f32) (ValueIdx.ix3 r (0 : Fin 1) k) := by
  unfold iblk19
  show (V c main_v8 : S100000x1x64.Idx → Elt F .f32) ((((cfg19 a).win 3).blk t).view.emb (ValueIdx.ix3 (0 : Fin 1) (0 : Fin 1) k)) = _
  refine congrArg (V c main_v8 : S100000x1x64.Idx → Elt F .f32) ?_
  funext ax; apply Fin.ext
  match ax with
  | ⟨0, _⟩ =>
    show ((cfg19 a).win 3).index t (0 : Fin 3) * 1 + 1 * 0 = r.val
    rw [inIdxRowD19 a t T hT, hr]
    generalize (T (ValueIdx.ix1 (slot19 a t))).toNat = n
    omega
  | ⟨1, _⟩ =>
    show ((cfg19 a).win 3).index t (1 : Fin 3) * 1 + 1 * 0 = 0
    rw [inIdxMidD19 a t]
  | ⟨2, _⟩ =>
    show ((cfg19 a).win 3).index t (2 : Fin 3) * 64 + 1 * k.val = k.val
    rw [inIdxLaneD19 a t]
    omega

/-! ## The output window: every point writes its own row back -/

/-- Every point writes its output block back: the next point's block is another row. -/
theorem outFlush19 (t : Fin (cfg19 a).N) : ((cfg19 a).win 4).flush t = true := by
  unfold Window.flush
  have hout : ((cfg19 a).win 4).isOut = true := rfl
  rw [hout, Bool.true_and, Bool.or_eq_true, decide_eq_true_eq, decide_eq_true_eq]
  by_cases h : t.val + 1 = (cfg19 a).grid.N
  · exact Or.inl h
  · have hN : (cfg19 a).grid.N = 25000 := N_19
    have hN' := gridN19 a
    refine Or.inr ⟨by have := t.isLt; omega, fun e => ?_⟩
    have e0 := congrFun e (0 : Fin 3)
    rw [outIdxRow19, outIdxRow19] at e0
    exact absurd e0 (by simp)

set_option backward.isDefEq.respectTransparency.types false in
/-- An index of the result array is in point `t`'s block iff each coordinate is in the block's range on its axis. -/
theorem memOutBlk19 (t : Fin (cfg19 a).N) (i : S25000x1x2.Idx) :
    i ∈ (((cfg19 a).win 4).blk t).view.set ↔ ∀ ax : Fin 3, ((cfg19 a).win 4).index t ax * S1x1x2.size ax ≤ (i ax).val
      ∧ (i ax).val < ((cfg19 a).win 4).index t ax * S1x1x2.size ax + S1x1x2.size ax := by
  show i ∈ ((View.whole main_v108).slice (((cfg19 a).win 4).rect t)).set ↔ _
  rw [View.set_slice_whole]
  exact Rect.mem_set_unit

/-- What region 19 leaves in its result array, row by row: row `q` is the output block of the four table rows that
    the index words of point `q` name, position `e` of the block being edge `e`. -/
def rows19 (c : Dev nD) : S25000x1x2.Idx → Elt F .f32 := fun i =>
  outBlk19 (iblk19 V a c 0 (pt19 a ⟨(i 0).val, (i 0).isLt⟩)) (iblk19 V a c 1 (pt19 a ⟨(i 0).val, (i 0).isLt⟩))
    (iblk19 V a c 2 (pt19 a ⟨(i 0).val, (i 0).isLt⟩)) (iblk19 V a c 3 (pt19 a ⟨(i 0).val, (i 0).isLt⟩))
    (ValueIdx.ix3 (0 : Fin 1) (0 : Fin 1) ⟨(i 2).val, (i 2).isLt⟩)

/-- Row `t`, position `e`: the output block of point `t`'s four rows, at position `e`. -/
theorem rowsApply19 (c : Dev nD) (t : Fin (cfg19 a).N) (e : Fin 2) (i : S25000x1x2.Idx)
    (h0 : (i 0).val = t.val) (h2 : (i 2).val = e.val) :
    rows19 V a c i
      = outBlk19 (iblk19 V a c 0 t) (iblk19 V a c 1 t) (iblk19 V a c 2 t) (iblk19 V a c 3 t) (ValueIdx.ix3 (0 : Fin 1) (0 : Fin 1) e) := by
  obtain rfl : t = pt19 a ⟨(i 0).val, (i 0).isLt⟩ := Fin.ext h0.symm
  obtain rfl : e = ⟨(i 2).val, (i 2).isLt⟩ := Fin.ext h2.symm
  rfl

/-- The same with the position given as an index of the block. -/
theorem rowsAt19 (c : Dev nD) (t : Fin (cfg19 a).N) (j : S1x1x2.Idx) (i : S25000x1x2.Idx)
    (h0 : (i 0).val = t.val) (h2 : (i 2).val = (j 2).val) :
    rows19 V a c i = outBlk19 (iblk19 V a c 0 t) (iblk19 V a c 1 t) (iblk19 V a c 2 t) (iblk19 V a c 3 t) j := by
  rw [rowsApply19 V a c t ⟨(j 2).val, (j 2).isLt⟩ i h0 h2]
  refine congrArg (outBlk19 (iblk19 V a c 0 t) (iblk19 V a c 1 t) (iblk19 V a c 2 t) (iblk19 V a c 3 t)) ?_
  funext ax; apply Fin.ext
  match ax with
  | ⟨0, _⟩ => have : (j 0).val < 1 := (j 0).isLt; show (0 : Nat) = (j 0).val; omega
  | ⟨1, _⟩ => have : (j 1).val < 1 := (j 1).isLt; show (0 : Nat) = (j 1).val; omega
  | ⟨2, _⟩ => rfl

/-- What point `t` writes back is block `t` of `rows19`. -/
theorem flushedRows19 (c : Dev nD) (t : Fin (cfg19 a).N) :
    (dat19 V a c).flushed 4 t = (((cfg19 a).win 4).blk t).view.read (Elt F) (rows19 V a c) := by
  show ((cfg19 a).win 4).cut ((cfg19 a).grid.coords t) ((dat19 V a c).after 4 t) = _
  rw [after19_4]
  funext j
  show outBlk19 (iblk19 V a c 0 t) (iblk19 V a c 1 t) (iblk19 V a c 2 t) (iblk19 V a c 3 t) (((cfg19 a).win 4).xinj ((cfg19 a).grid.coords t) j)
    = rows19 V a c ((((cfg19 a).win 4).blk t).view.emb j)
  refine (rowsAt19 V a c t _ _ ?_ ?_).symm
  · have hj : (j (0 : Fin 3)).val < 1 := (j (0 : Fin 3)).isLt
    show ((cfg19 a).win 4).index t (0 : Fin 3) * 1 + 1 * (j (0 : Fin 3)).val = t.val
    rw [outIdxRow19 a t]
    omega
  · show ((cfg19 a).win 4).index t (2 : Fin 3) * 2 + 1 * (j (2 : Fin 3)).val = (j (2 : Fin 3)).val
    rw [outIdxLane19 a t]
    omega

/-- After the run the result array holds `rows19`: row `q` was written by point `q`, and by no later point. -/
theorem arrRows19 (c : Dev nD) (q : Fin 25000) (e : Fin 2) :
    ((dat19 V a c).arrAt 4 (cfg19 a).N : S25000x1x2.Idx → Elt F .f32) (ValueIdx.ix3 q (0 : Fin 1) e)
      = rows19 V a c (ValueIdx.ix3 q (0 : Fin 1) e) := by
  refine (dat19 V a c).arrAt_apply_of_mem 4 (rows19 V a c) (fun t _ => flushedRows19 V a c t) (cfg19 a).N (pt19 a q)
    (ValueIdx.ix3 q (0 : Fin 1) e) (pt19 a q).isLt (outFlush19 a _) ((memOutBlk19 a _ _).mpr fun ax => ?_)
  match ax with
  | ⟨0, _⟩ =>
    show ((cfg19 a).win 4).index (pt19 a q) (0 : Fin 3) * 1 ≤ q.val ∧ q.val < ((cfg19 a).win 4).index (pt19 a q) (0 : Fin 3) * 1 + 1
    rw [outIdxRow19 a (pt19 a q)]
    show q.val * 1 ≤ q.val ∧ q.val < q.val * 1 + 1
    omega
  | ⟨1, _⟩ =>
    show ((cfg19 a).win 4).index (pt19 a q) (1 : Fin 3) * 1 ≤ 0 ∧ 0 < ((cfg19 a).win 4).index (pt19 a q) (1 : Fin 3) * 1 + 1
    rw [outIdxMid19 a (pt19 a q)]
    omega
  | ⟨2, _⟩ =>
    have he := e.isLt
    show ((cfg19 a).win 4).index (pt19 a q) (2 : Fin 3) * 2 ≤ e.val ∧ e.val < ((cfg19 a).win 4).index (pt19 a q) (2 : Fin 3) * 2 + 2
    rw [outIdxLane19 a (pt19 a q)]
    omega

/-! ## The value, over the extended reals -/

/-- Two blocks that are rows `r` and `s` of the table `X` have, as the body's payload, the distance between those rows. -/
theorem distOfRows19 (x0 x1 : Vec Ideal S1x1x64 .f32) (X : Cert.EdgeLengths.SPts.Idx → EReal) (r s : Fin 100000)
    (h0 : ∀ k : Fin 64, x0 (ValueIdx.ix3 (0 : Fin 1) (0 : Fin 1) k) = X (ValueIdx.ix2 r k))
    (h1 : ∀ k : Fin 64, x1 (ValueIdx.ix3 (0 : Fin 1) (0 : Fin 1) k) = X (ValueIdx.ix2 s k)) :
    Ideal.sqrt (∑ k : Fin 64, (x0 (ValueIdx.ix3 (0 : Fin 1) (0 : Fin 1) k) - x1 (ValueIdx.ix3 (0 : Fin 1) (0 : Fin 1) k))
        * (x0 (ValueIdx.ix3 (0 : Fin 1) (0 : Fin 1) k) - x1 (ValueIdx.ix3 (0 : Fin 1) (0 : Fin 1) k)))
      = Cert.EdgeLengths.dist X r s := by
  unfold Cert.EdgeLengths.dist
  refine congrArg Ideal.sqrt (Finset.sum_congr rfl fun k _ => ?_)
  rw [h0 k, h1 k]

/-- THE VALUE REGION 0 LEAVES: entry `(q, 0, e)` of its result array is the length of edge `e` of generator `q` of the
    region — given that the region's four index tables are the four columns of the vertex words on its rows, that
    every vertex word names a row of the point table, and that the array the input windows read is the point table
    with a unit middle axis. -/
theorem arrAt19_apply (m : (ℓ : Loc nD τ sig) → Buf (Elt Ideal) ℓ) (a : (pcfg19 (F := Ideal)).Adm) (c : Dev nD)
    (ha0 : a.1 0 = tbl m c (19 : Fin 20) 0) (ha1 : a.1 1 = tbl m c (19 : Fin 20) 1)
    (ha2 : a.1 2 = tbl m c (19 : Fin 20) 2) (ha3 : a.1 3 = tbl m c (19 : Fin 20) 3)
    (hR : Cert.EdgeLengths.InRange (m ((c.tc : Thread nD τ).loc main_arg1)))
    (hx : ∀ (r : Fin 100000) (k : Fin 64), (V1 m c main_v8 : S100000x1x64.Idx → EReal) (ValueIdx.ix3 r 0 k)
      = (m ((c.tc : Thread nD τ).loc main_arg0) : S100000x64.Idx → EReal) (ValueIdx.ix2 r k))
    (q : Fin 25000) (e : Fin 2) :
    ((dat19 (F := Ideal) (fun c b => V1 m c b) a c).arrAt 4 (cfg19 a).N : S25000x1x2.Idx → EReal) (ValueIdx.ix3 q 0 e)
      = Cert.EdgeLengths.lengthAt (m ((c.tc : Thread nD τ).loc main_arg0)) (m ((c.tc : Thread nD τ).loc main_arg1))
          (genOf (19 : Fin 20) q) e := by
  refine (arrRows19 (fun c b => V1 m c b) a c q e).trans ?_
  refine (rowsApply19 (fun c b => V1 m c b) a c (pt19 a q) e _ rfl rfl).trans ?_
  -- the row each of the four index words of point `q` names is the vertex that word is
  have hv : ∀ j : Fin 4, (Cert.EdgeLengths.vtx (m ((c.tc : Thread nD τ).loc main_arg1)) (genOf (19 : Fin 20) q) j).val
      = (tbl m c (19 : Fin 20) j (ValueIdx.ix1 (slot19 a (pt19 a q)))).toNat :=
    fun j => Cert.EdgeLengths.vtx_val _ hR _ j
  match e with
  | ⟨0, _⟩ =>
    refine (outBlkBirth19 _ _ _ _).trans ?_
    refine (payBirth19 _ _ _).trans ?_
    exact distOfRows19 _ _ _ _ _
      (fun k => (rowBlkA19 (fun c b => V1 m c b) a c (pt19 a q) _ ha0 _ (hv 0) k).trans (hx _ k))
      (fun k => (rowBlkB19 (fun c b => V1 m c b) a c (pt19 a q) _ ha1 _ (hv 1) k).trans (hx _ k))
  | ⟨1, _⟩ =>
    refine (outBlkDeath19 _ _ _ _).trans ?_
    refine (payDeath19 _ _ _).trans ?_
    exact distOfRows19 _ _ _ _ _
      (fun k => (rowBlkC19 (fun c b => V1 m c b) a c (pt19 a q) _ ha2 _ (hv 2) k).trans (hx _ k))
      (fun k => (rowBlkD19 (fun c b => V1 m c b) a c (pt19 a q) _ ha3 _ (hv 3) k).trans (hx _ k))

end Cert.KernelIdeal.Gen

end
-- ==== Proof.KI.KernelValue.lean ====
/-
  The kernel program's result, row by row. Generator p lies in chunk K = p / 25000 at offset q = p % 25000. The last
  host stretch lays the 20 regions' outputs end to end, so row p of the result is row q of what region K left in its
  output array; that row is what grid point q of region K wrote back, the two edge lengths of generator 25000·K + q,
  read through the chunk's index tables, which hold the generator's four vertex words.
-/
import proofs.«401090_j62775241999084_2_alg».proof.Proof.KI.Entries
import proofs.«401090_j62775241999084_2_alg».proof.Proof.KI.XTab
import proofs.«401090_j62775241999084_2_alg».proof.Proof.KI.ResultRegionsA
import proofs.«401090_j62775241999084_2_alg».proof.Proof.KI.ResultRegionsB
import proofs.«401090_j62775241999084_2_alg».proof.Proof.KI.Value0
import proofs.«401090_j62775241999084_2_alg».proof.Proof.KI.Value1
import proofs.«401090_j62775241999084_2_alg».proof.Proof.KI.Value2
import proofs.«401090_j62775241999084_2_alg».proof.Proof.KI.Value3
import proofs.«401090_j62775241999084_2_alg».proof.Proof.KI.Value4
import proofs.«401090_j62775241999084_2_alg».proof.Proof.KI.Value5
import proofs.«401090_j62775241999084_2_alg».proof.Proof.KI.Value6
import proofs.«401090_j62775241999084_2_alg».proof.Proof.KI.Value7
import proofs.«401090_j62775241999084_2_alg».proof.Proof.KI.Value8
import proofs.«401090_j62775241999084_2_alg».proof.Proof.KI.Value9
import proofs.«401090_j62775241999084_2_alg».proof.Proof.KI.Value10
import proofs.«401090_j62775241999084_2_alg».proof.Proof.KI.Value11
import proofs.«401090_j62775241999084_2_alg».proof.Proof.KI.Value12
import proofs.«401090_j62775241999084_2_alg».proof.Proof.KI.Value13
import proofs.«401090_j62775241999084_2_alg».proof.Proof.KI.Value14
import proofs.«401090_j62775241999084_2_alg».proof.Proof.KI.Value15
import proofs.«401090_j62775241999084_2_alg».proof.Proof.KI.Value16
import proofs.«401090_j62775241999084_2_alg».proof.Proof.KI.Value17
import proofs.«401090_j62775241999084_2_alg».proof.Proof.KI.Value18
import proofs.«401090_j62775241999084_2_alg».proof.Proof.KI.Value19

set_option maxRecDepth 16384

noncomputable section

namespace Cert.KernelIdeal.Gen

open Idealize.ShloMosaic Idealize.ShloMosaic.TcCoe Idealize.SL Idealize.SL.Sem

variable (m : (ℓ : Loc nD τ sig) → Buf (Elt Ideal) ℓ)
variable (hR : ∀ c : Dev nD, Cert.EdgeLengths.InRange (m ((c.tc : Thread nD τ).loc main_arg1)))

/-- Chunk 0: row 25000·0 + q of the result is the two edge lengths of that generator. -/
theorem val_0 (c : Dev nD) (q : Fin 25000) (e : Fin 2) :
    (V41 m (outs m hR) c main_v112 : S500000x2.Idx → EReal) (ValueIdx.ix2 (genOf (0 : Fin 20) q) e)
      = Cert.EdgeLengths.lengthAt (m ((c.tc : Thread nD τ).loc main_arg0)) (m ((c.tc : Thread nD τ).loc main_arg1)) (genOf (0 : Fin 20) q) e := by
  obtain rfl := core_eq c
  refine (result_0 m (outs m hR) core0 q e).trans ?_
  refine (congrFun (outs_0 m hR core0) (ValueIdx.ix3 q 0 e)).trans ?_
  exact arrAt0_apply m (adm0 m core0 (hR core0)) core0 rfl rfl rfl rfl (hR core0) (xtab_apply m core0) q e

/-- Chunk 1: row 25000·1 + q of the result is the two edge lengths of that generator. -/
theorem val_1 (c : Dev nD) (q : Fin 25000) (e : Fin 2) :
    (V41 m (outs m hR) c main_v112 : S500000x2.Idx → EReal) (ValueIdx.ix2 (genOf (1 : Fin 20) q) e)
      = Cert.EdgeLengths.lengthAt (m ((c.tc : Thread nD τ).loc main_arg0)) (m ((c.tc : Thread nD τ).loc main_arg1)) (genOf (1 : Fin 20) q) e := by
  obtain rfl := core_eq c
  refine (result_1 m (outs m hR) core0 q e).trans ?_
  refine (congrFun (outs_1 m hR core0) (ValueIdx.ix3 q 0 e)).trans ?_
  exact arrAt1_apply m (adm1 m core0 (hR core0)) core0 rfl rfl rfl rfl (hR core0) (xtab_apply m core0) q e

/-- Chunk 2: row 25000·2 + q of the result is the two edge lengths of that generator. -/
theorem val_2 (c : Dev nD) (q : Fin 25000) (e : Fin 2) :
    (V41 m (outs m hR) c main_v112 : S500000x2.Idx → EReal) (ValueIdx.ix2 (genOf (2 : Fin 20) q) e)
      = Cert.EdgeLengths.lengthAt (m ((c.tc : Thread nD τ).loc main_arg0)) (m ((c.tc : Thread nD τ).loc main_arg1)) (genOf (2 : Fin 20) q) e := by
  obtain rfl := core_eq c
  refine (result_2 m (outs m hR) core0 q e).trans ?_
  refine (congrFun (outs_2 m hR core0) (ValueIdx.ix3 q 0 e)).trans ?_
  exact arrAt2_apply m (adm2 m core0 (hR core0)) core0 rfl rfl rfl rfl (hR core0) (xtab_apply m core0) q e

/-- Chunk 3: row 25000·3 + q of the result is the two edge lengths of that generator. -/
theorem val_3 (c : Dev nD) (q : Fin 25000) (e : Fin 2) :
    (V41 m (outs m hR) c main_v112 : S500000x2.Idx → EReal) (ValueIdx.ix2 (genOf (3 : Fin 20) q) e)
      = Cert.EdgeLengths.lengthAt (m ((c.tc : Thread nD τ).loc main_arg0)) (m ((c.tc : Thread nD τ).loc main_arg1)) (genOf (3 : Fin 20) q) e := by
  obtain rfl := core_eq c
  refine (result_3 m (outs m hR) core0 q e).trans ?_
  refine (congrFun (outs_3 m hR core0) (ValueIdx.ix3 q 0 e)).trans ?_
  exact arrAt3_apply m (adm3 m core0 (hR core0)) core0 rfl rfl rfl rfl (hR core0) (xtab_apply m core0) q e

/-- Chunk 4: row 25000·4 + q of the result is the two edge lengths of that generator. -/
theorem val_4 (c : Dev nD) (q : Fin 25000) (e : Fin 2) :
    (V41 m (outs m hR) c main_v112 : S500000x2.Idx → EReal) (ValueIdx.ix2 (genOf (4 : Fin 20) q) e)
      = Cert.EdgeLengths.lengthAt (m ((c.tc : Thread nD τ).loc main_arg0)) (m ((c.tc : Thread nD τ).loc main_arg1)) (genOf (4 : Fin 20) q) e := by
  obtain rfl := core_eq c
  refine (result_4 m (outs m hR) core0 q e).trans ?_
  refine (congrFun (outs_4 m hR core0) (ValueIdx.ix3 q 0 e)).trans ?_
  exact arrAt4_apply m (adm4 m core0 (hR core0)) core0 rfl rfl rfl rfl (hR core0) (xtab_apply m core0) q e

/-- Chunk 5: row 25000·5 + q of the result is the two edge lengths of that generator. -/
theorem val_5 (c : Dev nD) (q : Fin 25000) (e : Fin 2) :
    (V41 m (outs m hR) c main_v112 : S500000x2.Idx → EReal) (ValueIdx.ix2 (genOf (5 : Fin 20) q) e)
      = Cert.EdgeLengths.lengthAt (m ((c.tc : Thread nD τ).loc main_arg0)) (m ((c.tc : Thread nD τ).loc main_arg1)) (genOf (5 : Fin 20) q) e := by
  obtain rfl := core_eq c
  refine (result_5 m (outs m hR) core0 q e).trans ?_
  refine (congrFun (outs_5 m hR core0) (ValueIdx.ix3 q 0 e)).trans ?_
  exact arrAt5_apply m (adm5 m core0 (hR core0)) core0 rfl rfl rfl rfl (hR core0) (xtab_apply m core0) q e

/-- Chunk 6: row 25000·6 + q of the result is the two edge lengths of that generator. -/
theorem val_6 (c : Dev nD) (q : Fin 25000) (e : Fin 2) :
    (V41 m (outs m hR) c main_v112 : S500000x2.Idx → EReal) (ValueIdx.ix2 (genOf (6 : Fin 20) q) e)
      = Cert.EdgeLengths.lengthAt (m ((c.tc : Thread nD τ).loc main_arg0)) (m ((c.tc : Thread nD τ).loc main_arg1)) (genOf (6 : Fin 20) q) e := by
  obtain rfl := core_eq c
  refine (result_6 m (outs m hR) core0 q e).trans ?_
  refine (congrFun (outs_6 m hR core0) (ValueIdx.ix3 q 0 e)).trans ?_
  exact arrAt6_apply m (adm6 m core0 (hR core0)) core0 rfl rfl rfl rfl (hR core0) (xtab_apply m core0) q e

/-- Chunk 7: row 25000·7 + q of the result is the two edge lengths of that generator. -/
theorem val_7 (c : Dev nD) (q : Fin 25000) (e : Fin 2) :
    (V41 m (outs m hR) c main_v112 : S500000x2.Idx → EReal) (ValueIdx.ix2 (genOf (7 : Fin 20) q) e)
      = Cert.EdgeLengths.lengthAt (m ((c.tc : Thread nD τ).loc main_arg0)) (m ((c.tc : Thread nD τ).loc main_arg1)) (genOf (7 : Fin 20) q) e := by
  obtain rfl := core_eq c
  refine (result_7 m (outs m hR) core0 q e).trans ?_
  refine (congrFun (outs_7 m hR core0) (ValueIdx.ix3 q 0 e)).trans ?_
  exact arrAt7_apply m (adm7 m core0 (hR core0)) core0 rfl rfl rfl rfl (hR core0) (xtab_apply m core0) q e

/-- Chunk 8: row 25000·8 + q of the result is the two edge lengths of that generator. -/
theorem val_8 (c : Dev nD) (q : Fin 25000) (e : Fin 2) :
    (V41 m (outs m hR) c main_v112 : S500000x2.Idx → EReal) (ValueIdx.ix2 (genOf (8 : Fin 20) q) e)
      = Cert.EdgeLengths.lengthAt (m ((c.tc : Thread nD τ).loc main_arg0)) (m ((c.tc : Thread nD τ).loc main_arg1)) (genOf (8 : Fin 20) q) e := by
  obtain rfl := core_eq c
  refine (result_8 m (outs m hR) core0 q e).trans ?_
  refine (congrFun (outs_8 m hR core0) (ValueIdx.ix3 q 0 e)).trans ?_
  exact arrAt8_apply m (adm8 m core0 (hR core0)) core0 rfl rfl rfl rfl (hR core0) (xtab_apply m core0) q e

/-- Chunk 9: row 25000·9 + q of the result is the two edge lengths of that generator. -/
theorem val_9 (c : Dev nD) (q : Fin 25000) (e : Fin 2) :
    (V41 m (outs m hR) c main_v112 : S500000x2.Idx → EReal) (ValueIdx.ix2 (genOf (9 : Fin 20) q) e)
      = Cert.EdgeLengths.lengthAt (m ((c.tc : Thread nD τ).loc main_arg0)) (m ((c.tc : Thread nD τ).loc main_arg1)) (genOf (9 : Fin 20) q) e := by
  obtain rfl := core_eq c
  refine (result_9 m (outs m hR) core0 q e).trans ?_
  refine (congrFun (outs_9 m hR core0) (ValueIdx.ix3 q 0 e)).trans ?_
  exact arrAt9_apply m (adm9 m core0 (hR core0)) core0 rfl rfl rfl rfl (hR core0) (xtab_apply m core0) q e

/-- Chunk 10: row 25000·10 + q of the result is the two edge lengths of that generator. -/
theorem val_10 (c : Dev nD) (q : Fin 25000) (e : Fin 2) :
    (V41 m (outs m hR) c main_v112 : S500000x2.Idx → EReal) (ValueIdx.ix2 (genOf (10 : Fin 20) q) e)
      = Cert.EdgeLengths.lengthAt (m ((c.tc : Thread nD τ).loc main_arg0)) (m ((c.tc : Thread nD τ).loc main_arg1)) (genOf (10 : Fin 20) q) e := by
  obtain rfl := core_eq c
  refine (result_10 m (outs m hR) core0 q e).trans ?_
  refine (congrFun (outs_10 m hR core0) (ValueIdx.ix3 q 0 e)).trans ?_
  exact arrAt10_apply m (adm10 m core0 (hR core0)) core0 rfl rfl rfl rfl (hR core0) (xtab_apply m core0) q e

/-- Chunk 11: row 25000·11 + q of the result is the two edge lengths of that generator. -/
theorem val_11 (c : Dev nD) (q : Fin 25000) (e : Fin 2) :
    (V41 m (outs m hR) c main_v112 : S500000x2.Idx → EReal) (ValueIdx.ix2 (genOf (11 : Fin 20) q) e)
      = Cert.EdgeLengths.lengthAt (m ((c.tc : Thread nD τ).loc main_arg0)) (m ((c.tc : Thread nD τ).loc main_arg1)) (genOf (11 : Fin 20) q) e := by
  obtain rfl := core_eq c
  refine (result_11 m (outs m hR) core0 q e).trans ?_
  refine (congrFun (outs_11 m hR core0) (ValueIdx.ix3 q 0 e)).trans ?_
  exact arrAt11_apply m (adm11 m core0 (hR core0)) core0 rfl rfl rfl rfl (hR core0) (xtab_apply m core0) q e

/-- Chunk 12: row 25000·12 + q of the result is the two edge lengths of that generator. -/
theorem val_12 (c : Dev nD) (q : Fin 25000) (e : Fin 2) :
    (V41 m (outs m hR) c main_v112 : S500000x2.Idx → EReal) (ValueIdx.ix2 (genOf (12 : Fin 20) q) e)
      = Cert.EdgeLengths.lengthAt (m ((c.tc : Thread nD τ).loc main_arg0)) (m ((c.tc : Thread nD τ).loc main_arg1)) (genOf (12 : Fin 20) q) e := by
  obtain rfl := core_eq c
  refine (result_12 m (outs m hR) core0 q e).trans ?_
  refine (congrFun (outs_12 m hR core0) (ValueIdx.ix3 q 0 e)).trans ?_
  exact arrAt12_apply m (adm12 m core0 (hR core0)) core0 rfl rfl rfl rfl (hR core0) (xtab_apply m core0) q e

/-- Chunk 13: row 25000·13 + q of the result is the two edge lengths of that generator. -/
theorem val_13 (c : Dev nD) (q : Fin 25000) (e : Fin 2) :
    (V41 m (outs m hR) c main_v112 : S500000x2.Idx → EReal) (ValueIdx.ix2 (genOf (13 : Fin 20) q) e)
      = Cert.EdgeLengths.lengthAt (m ((c.tc : Thread nD τ).loc main_arg0)) (m ((c.tc : Thread nD τ).loc main_arg1)) (genOf (13 : Fin 20) q) e := by
  obtain rfl := core_eq c
  refine (result_13 m (outs m hR) core0 q e).trans ?_
  refine (congrFun (outs_13 m hR core0) (ValueIdx.ix3 q 0 e)).trans ?_
  exact arrAt13_apply m (adm13 m core0 (hR core0)) core0 rfl rfl rfl rfl (hR core0) (xtab_apply m core0) q e

/-- Chunk 14: row 25000·14 + q of the result is the two edge lengths of that generator. -/
theorem val_14 (c : Dev nD) (q : Fin 25000) (e : Fin 2) :
    (V41 m (outs m hR) c main_v112 : S500000x2.Idx → EReal) (ValueIdx.ix2 (genOf (14 : Fin 20) q) e)
      = Cert.EdgeLengths.lengthAt (m ((c.tc : Thread nD τ).loc main_arg0)) (m ((c.tc : Thread nD τ).loc main_arg1)) (genOf (14 : Fin 20) q) e := by
  obtain rfl := core_eq c
  refine (result_14 m (outs m hR) core0 q e).trans ?_
  refine (congrFun (outs_14 m hR core0) (ValueIdx.ix3 q 0 e)).trans ?_
  exact arrAt14_apply m (adm14 m core0 (hR core0)) core0 rfl rfl rfl rfl (hR core0) (xtab_apply m core0) q e

/-- Chunk 15: row 25000·15 + q of the result is the two edge lengths of that generator. -/
theorem val_15 (c : Dev nD) (q : Fin 25000) (e : Fin 2) :
    (V41 m (outs m hR) c main_v112 : S500000x2.Idx → EReal) (ValueIdx.ix2 (genOf (15 : Fin 20) q) e)
      = Cert.EdgeLengths.lengthAt (m ((c.tc : Thread nD τ).loc main_arg0)) (m ((c.tc : Thread nD τ).loc main_arg1)) (genOf (15 : Fin 20) q) e := by
  obtain rfl := core_eq c
  refine (result_15 m (outs m hR) core0 q e).trans ?_
  refine (congrFun (outs_15 m hR core0) (ValueIdx.ix3 q 0 e)).trans ?_
  exact arrAt15_apply m (adm15 m core0 (hR core0)) core0 rfl rfl rfl rfl (hR core0) (xtab_apply m core0) q e

/-- Chunk 16: row 25000·16 + q of the result is the two edge lengths of that generator. -/
theorem val_16 (c : Dev nD) (q : Fin 25000) (e : Fin 2) :
    (V41 m (outs m hR) c main_v112 : S500000x2.Idx → EReal) (ValueIdx.ix2 (genOf (16 : Fin 20) q) e)
      = Cert.EdgeLengths.lengthAt (m ((c.tc : Thread nD τ).loc main_arg0)) (m ((c.tc : Thread nD τ).loc main_arg1)) (genOf (16 : Fin 20) q) e := by
  obtain rfl := core_eq c
  refine (result_16 m (outs m hR) core0 q e).trans ?_
  refine (congrFun (outs_16 m hR core0) (ValueIdx.ix3 q 0 e)).trans ?_
  exact arrAt16_apply m (adm16 m core0 (hR core0)) core0 rfl rfl rfl rfl (hR core0) (xtab_apply m core0) q e

/-- Chunk 17: row 25000·17 + q of the result is the two edge lengths of that generator. -/
theorem val_17 (c : Dev nD) (q : Fin 25000) (e : Fin 2) :
    (V41 m (outs m hR) c main_v112 : S500000x2.Idx → EReal) (ValueIdx.ix2 (genOf (17 : Fin 20) q) e)
      = Cert.EdgeLengths.lengthAt (m ((c.tc : Thread nD τ).loc main_arg0)) (m ((c.tc : Thread nD τ).loc main_arg1)) (genOf (17 : Fin 20) q) e := by
  obtain rfl := core_eq c
  refine (result_17 m (outs m hR) core0 q e).trans ?_
  refine (congrFun (outs_17 m hR core0) (ValueIdx.ix3 q 0 e)).trans ?_
  exact arrAt17_apply m (adm17 m core0 (hR core0)) core0 rfl rfl rfl rfl (hR core0) (xtab_apply m core0) q e

/-- Chunk 18: row 25000·18 + q of the result is the two edge lengths of that generator. -/
theorem val_18 (c : Dev nD) (q : Fin 25000) (e : Fin 2) :
    (V41 m (outs m hR) c main_v112 : S500000x2.Idx → EReal) (ValueIdx.ix2 (genOf (18 : Fin 20) q) e)
      = Cert.EdgeLengths.lengthAt (m ((c.tc : Thread nD τ).loc main_arg0)) (m ((c.tc : Thread nD τ).loc main_arg1)) (genOf (18 : Fin 20) q) e := by
  obtain rfl := core_eq c
  refine (result_18 m (outs m hR) core0 q e).trans ?_
  refine (congrFun (outs_18 m hR core0) (ValueIdx.ix3 q 0 e)).trans ?_
  exact arrAt18_apply m (adm18 m core0 (hR core0)) core0 rfl rfl rfl rfl (hR core0) (xtab_apply m core0) q e

/-- Chunk 19: row 25000·19 + q of the result is the two edge lengths of that generator. -/
theorem val_19 (c : Dev nD) (q : Fin 25000) (e : Fin 2) :
    (V41 m (outs m hR) c main_v112 : S500000x2.Idx → EReal) (ValueIdx.ix2 (genOf (19 : Fin 20) q) e)
      = Cert.EdgeLengths.lengthAt (m ((c.tc : Thread nD τ).loc main_arg0)) (m ((c.tc : Thread nD τ).loc main_arg1)) (genOf (19 : Fin 20) q) e := by
  obtain rfl := core_eq c
  refine (result_19 m (outs m hR) core0 q e).trans ?_
  refine (congrFun (outs_19 m hR core0) (ValueIdx.ix3 q 0 e)).trans ?_
  exact arrAt19_apply m (adm19 m core0 (hR core0)) core0 rfl rfl rfl rfl (hR core0) (xtab_apply m core0) q e

/-- THE KERNEL PROGRAM'S VALUE: the result array under the last valuation is `lengths` of the arguments. -/
theorem kernel_value (c : Dev nD) :
    (V41 m (outs m hR) c main_v112 : S500000x2.Idx → EReal)
      = Cert.EdgeLengths.lengths (m ((c.tc : Thread nD τ).loc main_arg0)) (m ((c.tc : Thread nD τ).loc main_arg1)) := by
  funext j
  obtain ⟨p, e, rfl⟩ : ∃ (p : Fin 500000) (e : Fin 2), j = ValueIdx.ix2 p e := ⟨j 0, j 1, ValueIdx.eq_ix2 j⟩
  obtain ⟨K, q, rfl⟩ : ∃ (K : Fin 20) (q : Fin 25000), p = genOf K q :=
    ⟨⟨p.val / 25000, by have := p.isLt; omega⟩, ⟨p.val % 25000, Nat.mod_lt _ (by decide)⟩,
      Fin.ext (by show p.val = 25000 * (p.val / 25000) + p.val % 25000; omega)⟩
  rw [Cert.EdgeLengths.lengths_apply]
  match K with
  | ⟨0, _⟩ => exact val_0 m hR c q e
  | ⟨1, _⟩ => exact val_1 m hR c q e
  | ⟨2, _⟩ => exact val_2 m hR c q e
  | ⟨3, _⟩ => exact val_3 m hR c q e
  | ⟨4, _⟩ => exact val_4 m hR c q e
  | ⟨5, _⟩ => exact val_5 m hR c q e
  | ⟨6, _⟩ => exact val_6 m hR c q e
  | ⟨7, _⟩ => exact val_7 m hR c q e
  | ⟨8, _⟩ => exact val_8 m hR c q e
  | ⟨9, _⟩ => exact val_9 m hR c q e
  | ⟨10, _⟩ => exact val_10 m hR c q e
  | ⟨11, _⟩ => exact val_11 m hR c q e
  | ⟨12, _⟩ => exact val_12 m hR c q e
  | ⟨13, _⟩ => exact val_13 m hR c q e
  | ⟨14, _⟩ => exact val_14 m hR c q e
  | ⟨15, _⟩ => exact val_15 m hR c q e
  | ⟨16, _⟩ => exact val_16 m hR c q e
  | ⟨17, _⟩ => exact val_17 m hR c q e
  | ⟨18, _⟩ => exact val_18 m hR c q e
  | ⟨19, _⟩ => exact val_19 m hR c q e
  | ⟨_ + 20, h⟩ => exact absurd h (Nat.not_lt.2 (Nat.le_add_left _ _))

end Cert.KernelIdeal.Gen

end
-- ==== Proof.KW.BodyCommon.lean ====
/-
  What every region of the gather-and-norm program shares: the three rectangles its body reads and writes through,
  and how one array read by four input windows is dealt among them.
-/
import proofs.«401090_j62775241999084_2_alg».proof.Proof.RegionsKernel
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole input block: one row of the table. -/
abbrev rowRect : Rect S1x1x64 := Rect.unit (s := S1x1x64) ![0, 0, 0] S1x1x64.size inb_S1x1x64_S1x1x64_0_0_0
/-- Position 0 of the output block: the birth edge's length. -/
abbrev outRectB : Rect S1x1x2 := Rect.unit (s := S1x1x2) ![0, 0, 0] S1x1x1.size inb_S1x1x2_S1x1x1_0_0_0
/-- Position 1 of the output block: the death edge's length. -/
abbrev outRectD : Rect S1x1x2 := Rect.unit (s := S1x1x2) ![0, 0, 1] S1x1x1.size inb_S1x1x2_S1x1x1_0_0_1

/-- The four input windows read ONE array, the point table: each holds a quarter of it; the rest is not needed. -/
def inShare (w : Fin 5) : PosShare TreeShare :=
  if h : w.val < 4 then Transfers.shareTok fullShare 4 ⟨w.val, h⟩ else fullShare

end Cert.Kernel.Gen

end
-- ==== Proof.KW.Region0.lean ====
/-
  Region 0 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk0`),
  whatever it held before.

  The region's proof data then says: at every grid point each input window's buffer holds the table row its index
  table names there, and the output window's buffer is left at `outBlk0` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk0 (x0 x1 x2 x3 : Vec F S1x1x64 .f32) : Vec F S1x1x2 .f32 :=
  View.canon [⟨outRectD, k0_pay2 (View.ld x2 rowRect) (View.ld x3 rowRect)⟩,
              ⟨outRectB, k0_pay1 (View.ld x0 rowRect) (View.ld x1 rowRect)⟩]

/-- The two one-element stores tile the two-element block. -/
theorem outCover0 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk0` of the inputs. The index tables are not
    touched by the body (only the index maps read them), so nothing is asked of them. -/
theorem sound_kernel0 (c : Dev nD) (E : Set ℕ) (i : grid0.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk0 x0 x1 x2 x3)) -∗ K ⟨⟩))
      ⊢ wp frame (wpE (defs₀ (F := F)) Variants.none c none) E
          (cc0__gather_norm_kernel i a1 h1 a2 h2 a3 h3 a4 h4 a5 h5 a6 h6 a7 h7 a8 h8 a9 h9) K := by
  simp only [cc0__gather_norm_kernel_eq_skeleton]; unfold cc0__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover0 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg0 (F := F)).Adm)

/-- Window `w`'s block at point `t`, read off its array as the region finds it: for an input window the table row
    its index table names at `t`, for the output window the two-element row `t` of the result. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The proof data of region 0 on core `c`: the arrays as the region finds them; after the body at point `t` each
    input block as it was and the output block the two lengths; the invariant carries the untouched scoped
    buffers, the generator register and the four index tables, which only the index maps read. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => outBlk0 (iblk0 V a c 0 t) (iblk0 V a c 1 t) (iblk0 V a c 2 t) (iblk0 V a c 3 t)
  Φ _ := iprop(Pipeline.ΦA spec0 c ∗ Pipeline.prefHeld pre0 c (fun _ => fullShare) a.1)
  q w := inShare w
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after 0 t = iblk0 V a c 0 t := by dsimp only [dat0]; rfl
theorem after0_1 (c : Dev nD) (t : Fin (cfg0 a).N) : (dat0 V a c).after 1 t = iblk0 V a c 1 t := by dsimp only [dat0]; rfl
theorem after0_2 (c : Dev nD) (t : Fin (cfg0 a).N) : (dat0 V a c).after 2 t = iblk0 V a c 2 t := by dsimp only [dat0]; rfl
theorem after0_3 (c : Dev nD) (t : Fin (cfg0 a).N) : (dat0 V a c).after 3 t = iblk0 V a c 3 t := by dsimp only [dat0]; rfl
theorem after0_4 (c : Dev nD) (t : Fin (cfg0 a).N) : (dat0 V a c).after 4 t
    = outBlk0 (iblk0 V a c 0 t) (iblk0 V a c 1 t) (iblk0 V a c 2 t) (iblk0 V a c 3 t) := by dsimp only [dat0]; rfl

/-- Input window 0 holds its row at every point, fetched there or not: the body never writes an input block, the
    window is never idle and its blocks are whole rows. -/
theorem before0_0 (c : Dev nD) (t : Fin (cfg0 a).N) (d) : (dat0 V a c).before 0 t d = iblk0 V a c 0 t :=
  ((dat0 V a c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1 holds its row at every point, fetched there or not: the body never writes an input block, the
    window is never idle and its blocks are whole rows. -/
theorem before0_1 (c : Dev nD) (t : Fin (cfg0 a).N) (d) : (dat0 V a c).before 1 t d = iblk0 V a c 1 t :=
  ((dat0 V a c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2 holds its row at every point, fetched there or not: the body never writes an input block, the
    window is never idle and its blocks are whole rows. -/
theorem before0_2 (c : Dev nD) (t : Fin (cfg0 a).N) (d) : (dat0 V a c).before 2 t d = iblk0 V a c 2 t :=
  ((dat0 V a c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Input window 3 holds its row at every point, fetched there or not: the body never writes an input block, the
    window is never idle and its blocks are whole rows. -/
theorem before0_3 (c : Dev nD) (t : Fin (cfg0 a).N) (d) : (dat0 V a c).before 3 t d = iblk0 V a c 3 t :=
  ((dat0 V a c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The body at a generic point -/

/-- The kernel body as region 0 calls it at point `t`: the point's coordinates, the four index tables whole, and each
    window's current staging buffer. -/
abbrev bodyAt0 (t : Fin (cfg0 a).N) : Prog (TpuEff nD τ sig (Elt F) Λ₀ .tc) PUnit :=
  cc0__gather_norm_kernel (grid0.coords t) (Memref.whole main_v9) (Memref.isWhole_whole _) (Memref.whole main_v10) (Memref.isWhole_whole _)
    (Memref.whole main_v11) (Memref.isWhole_whole _) (Memref.whole main_v12) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))

/-- The body at any point: each input buffer holds its row (`before0_w`), so `sound_kernel0` applies; the invariant
    (with the index tables in it) and what the core owes pass through unread. -/
theorem sound_body0 (c : Dev nD) (t : Fin (cfg0 a).N) :
    iprop((dat0 V a c).Φ t.castSucc ∗ (dat0 V a c).owesAt () t.castSucc
      ∗ (∃ d, owns (c : Thread nD τ) (((cfg0 a).win 0).stage ((cfg0 a).slots t 0)) fullShare ((dat0 V a c).before 0 t d))
      ∗ (∃ d, owns (c : Thread nD τ) (((cfg0 a).win 1).stage ((cfg0 a).slots t 1)) fullShare ((dat0 V a c).before 1 t d))
      ∗ (∃ d, owns (c : Thread nD τ) (((cfg0 a).win 2).stage ((cfg0 a).slots t 2)) fullShare ((dat0 V a c).before 2 t d))
      ∗ (∃ d, owns (c : Thread nD τ) (((cfg0 a).win 3).stage ((cfg0 a).slots t 3)) fullShare ((dat0 V a c).before 3 t d))
      ∗ (∃ d, owns (c : Thread nD τ) (((cfg0 a).win 4).stage ((cfg0 a).slots t 4)) fullShare ((dat0 V a c).before 4 t d)))
    ⊢ wp frame (wpE (defs₀ (F := F)) Variants.none c none) Set.univ
        (bodyAt0 a t)
        (fun _ => iprop((dat0 V a c).Φ t.succ ∗ (dat0 V a c).owesAt () t.succ
          ∗ owns (c : Thread nD τ) (((cfg0 a).win 0).stage ((cfg0 a).slots t 0)) fullShare ((dat0 V a c).after 0 t)
          ∗ owns (c : Thread nD τ) (((cfg0 a).win 1).stage ((cfg0 a).slots t 1)) fullShare ((dat0 V a c).after 1 t)
          ∗ owns (c : Thread nD τ) (((cfg0 a).win 2).stage ((cfg0 a).slots t 2)) fullShare ((dat0 V a c).after 2 t)
          ∗ owns (c : Thread nD τ) (((cfg0 a).win 3).stage ((cfg0 a).slots t 3)) fullShare ((dat0 V a c).after 3 t)
          ∗ owns (c : Thread nD τ) (((cfg0 a).win 4).stage ((cfg0 a).slots t 4)) fullShare ((dat0 V a c).after 4 t))) := by
  simp only [before0_0, before0_1, before0_2, before0_3]
  rw [show (dat0 V a c).Φ t.succ = (dat0 V a c).Φ t.castSucc from rfl,
    show (dat0 V a c).owesAt () t.succ = (dat0 V a c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  unfold bodyAt0
  iapply (sound_kernel0 c Set.univ _ _ _ _ _ _ _ _ _ _ _ _ _ _ _ _ _ _ _ (iblk0 V a c 0 t) (iblk0 V a c 1 t) (iblk0 V a c 2 t) (iblk0 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 0, at every point. -/
theorem body_obligation0 (c : Dev nD) : BodyObligation (dat0 (F := F) V a c) (defs₀ (F := F)) Variants.none () Set.univ := fun t => by
  rw [bigSep_W0, bigSep_W0]
  exact sound_body0 V a c t

end Region0

end Cert.Kernel.Gen

end
-- ==== Proof.KW.Tables.lean ====
/-
  The index tables in closed form. Region K (K = 0 … 19) handles generators 25000·K … 25000·K + 24999, and its table j
  (j = 0 … 3) is column j of the vertex words restricted to those rows. Under the range hypothesis every table
  word names a row of the point table.
-/
import proofs.«401090_j62775241999084_2_alg».proof.Proof.Gen.Kernel
import proofs.«401090_j62775241999084_2_alg».proof.Proof.EdgeLengths

noncomputable section

namespace Cert.Kernel.Gen

open Idealize.ShloMosaic Idealize.ShloMosaic.TcCoe Idealize.SL.Sem

variable {F : FTy → Type} [FloatOps F]

/-- The generator that entry `i` of a table of region `K` belongs to. -/
def genOf (K : Fin 20) (i : Fin 25000) : Fin 500000 := ⟨25000 * K.val + i.val, by have := K.isLt; have := i.isLt; omega⟩

/-- Table `j` of region `K`, read off the launch memory `m` on core `c`: vertex word `j` of generator `25000·K + i`. -/
def tbl (m : (ℓ : Loc nD τ sig) → Buf (Elt F) ℓ) (c : Dev nD) (K : Fin 20) (j : Fin 4) : S25000.Idx → BitVec 32 :=
  fun i => (m ((c.tc : Thread nD τ).loc main_arg1) : S500000x4.Idx → BitVec 32) (ValueIdx.ix2 (genOf K (i 0)) j)

/-- In range, every table word names a row of the point table. -/
theorem tbl_lt (m : (ℓ : Loc nD τ sig) → Buf (Elt F) ℓ) (c : Dev nD)
    (hR : Cert.EdgeLengths.InRange (m ((c.tc : Thread nD τ).loc main_arg1))) (K : Fin 20) (j : Fin 4) (i : S25000.Idx) :
    (tbl m c K j i).toNat < 100000 := hR _

end Cert.Kernel.Gen

end
-- ==== Proof.KW.Ok0.lean ====
/-
  The index tables of region 0 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok0_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 0's side condition. -/
theorem ok0_of_lt (pf : pre0.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok0 pf := by
  unfold ok0
  refine ⟨fun i => ⟨?_, Or.inl rfl⟩, fun i => ⟨?_, Or.inl rfl⟩, fun i => ⟨?_, Or.inl rfl⟩, fun i => ⟨?_, Or.inl rfl⟩⟩
  · exact ok0_fits _ (h0 _)
  · exact ok0_fits _ (h1 _)
  · exact ok0_fits _ (h2 _)
  · exact ok0_fits _ (h3 _)

/-- The four index tables of region 0 as the launch memory holds them on core `c`. -/
def pf0 (m : (ℓ : Loc nD τ sig) → Buf (Elt F) ℓ) (c : Dev nD) : pre0.Contents (Elt F) :=
  fun | 0 => tbl m c (0 : Fin 20) 0 | 1 => tbl m c (0 : Fin 20) 1 | 2 => tbl m c (0 : Fin 20) 2 | 3 => tbl m c (0 : Fin 20) 3
      | ⟨_ + 4, h⟩ => absurd h (Nat.not_lt.2 (Nat.le_add_left _ _))

/-- In range, those tables are admissible contents of region 0's pipeline. -/
def adm0 (m : (ℓ : Loc nD τ sig) → Buf (Elt F) ℓ) (c : Dev nD)
    (hR : Cert.EdgeLengths.InRange (m ((c.tc : Thread nD τ).loc main_arg1))) : (pcfg0 (F := F)).Adm :=
  ⟨pf0 m c, ok0_of_lt _ (tbl_lt m c hR _ _) (tbl_lt m c hR _ _) (tbl_lt m c hR _ _) (tbl_lt m c hR _ _)⟩

theorem adm0_0 (m : (ℓ : Loc nD τ sig) → Buf (Elt F) ℓ) (c : Dev nD)
    (hR : Cert.EdgeLengths.InRange (m ((c.tc : Thread nD τ).loc main_arg1))) :
    (adm0 m c hR).1 0 = tbl m c (0 : Fin 20) 0 := rfl
theorem adm0_1 (m : (ℓ : Loc nD τ sig) → Buf (Elt F) ℓ) (c : Dev nD)
    (hR : Cert.EdgeLengths.InRange (m ((c.tc : Thread nD τ).loc main_arg1))) :
    (adm0 m c hR).1 1 = tbl m c (0 : Fin 20) 1 := rfl
theorem adm0_2 (m : (ℓ : Loc nD τ sig) → Buf (Elt F) ℓ) (c : Dev nD)
    (hR : Cert.EdgeLengths.InRange (m ((c.tc : Thread nD τ).loc main_arg1))) :
    (adm0 m c hR).1 2 = tbl m c (0 : Fin 20) 2 := rfl
theorem adm0_3 (m : (ℓ : Loc nD τ sig) → Buf (Elt F) ℓ) (c : Dev nD)
    (hR : Cert.EdgeLengths.InRange (m ((c.tc : Thread nD τ).loc main_arg1))) :
    (adm0 m c hR).1 3 = tbl m c (0 : Fin 20) 3 := rfl

end Cert.Kernel.Gen

end
-- ==== Proof.KW.Region1.lean ====
/-
  Region 1 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk1`),
  whatever it held before.

  The region's proof data then says: at every grid point each input window's buffer holds the table row its index
  table names there, and the output window's buffer is left at `outBlk1` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk1 (x0 x1 x2 x3 : Vec F S1x1x64 .f32) : Vec F S1x1x2 .f32 :=
  View.canon [⟨outRectD, k1_pay2 (View.ld x2 rowRect) (View.ld x3 rowRect)⟩,
              ⟨outRectB, k1_pay1 (View.ld x0 rowRect) (View.ld x1 rowRect)⟩]

/-- The two one-element stores tile the two-element block. -/
theorem outCover1 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk1` of the inputs. The index tables are not
    touched by the body (only the index maps read them), so nothing is asked of them. -/
theorem sound_kernel1 (c : Dev nD) (E : Set ℕ) (i : grid1.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk1 x0 x1 x2 x3)) -∗ K ⟨⟩))
      ⊢ wp frame (wpE (defs₀ (F := F)) Variants.none c none) E
          (cc1__gather_norm_kernel i a1 h1 a2 h2 a3 h3 a4 h4 a5 h5 a6 h6 a7 h7 a8 h8 a9 h9) K := by
  simp only [cc1__gather_norm_kernel_eq_skeleton]; unfold cc1__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover1 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg1 (F := F)).Adm)

/-- Window `w`'s block at point `t`, read off its array as the region finds it: for an input window the table row
    its index table names at `t`, for the output window the two-element row `t` of the result. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The proof data of region 1 on core `c`: the arrays as the region finds them; after the body at point `t` each
    input block as it was and the output block the two lengths; the invariant carries the untouched scoped
    buffers, the generator register and the four index tables, which only the index maps read. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => outBlk1 (iblk1 V a c 0 t) (iblk1 V a c 1 t) (iblk1 V a c 2 t) (iblk1 V a c 3 t)
  Φ _ := iprop(Pipeline.ΦA spec1 c ∗ Pipeline.prefHeld pre1 c (fun _ => fullShare) a.1)
  q w := inShare w
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = iblk1 V a c 1 t := by dsimp only [dat1]; rfl
theorem after1_2 (c : Dev nD) (t : Fin (cfg1 a).N) : (dat1 V a c).after 2 t = iblk1 V a c 2 t := by dsimp only [dat1]; rfl
theorem after1_3 (c : Dev nD) (t : Fin (cfg1 a).N) : (dat1 V a c).after 3 t = iblk1 V a c 3 t := by dsimp only [dat1]; rfl
theorem after1_4 (c : Dev nD) (t : Fin (cfg1 a).N) : (dat1 V a c).after 4 t
    = outBlk1 (iblk1 V a c 0 t) (iblk1 V a c 1 t) (iblk1 V a c 2 t) (iblk1 V a c 3 t) := by dsimp only [dat1]; rfl

/-- Input window 0 holds its row at every point, fetched there or not: the body never writes an input block, the
    window is never idle and its blocks are whole rows. -/
theorem before1_0 (c : Dev nD) (t : Fin (cfg1 a).N) (d) : (dat1 V a c).before 0 t d = iblk1 V a c 0 t :=
  ((dat1 V a c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Input window 1 holds its row at every point, fetched there or not: the body never writes an input block, the
    window is never idle and its blocks are whole rows. -/
theorem before1_1 (c : Dev nD) (t : Fin (cfg1 a).N) (d) : (dat1 V a c).before 1 t d = iblk1 V a c 1 t :=
  ((dat1 V a c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Input window 2 holds its row at every point, fetched there or not: the body never writes an input block, the
    window is never idle and its blocks are whole rows. -/
theorem before1_2 (c : Dev nD) (t : Fin (cfg1 a).N) (d) : (dat1 V a c).before 2 t d = iblk1 V a c 2 t :=
  ((dat1 V a c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- Input window 3 holds its row at every point, fetched there or not: the body never writes an input block, the
    window is never idle and its blocks are whole rows. -/
theorem before1_3 (c : Dev nD) (t : Fin (cfg1 a).N) (d) : (dat1 V a c).before 3 t d = iblk1 V a c 3 t :=
  ((dat1 V a c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body at a generic point -/

/-- The kernel body as region 1 calls it at point `t`: the point's coordinates, the four index tables whole, and each
    window's current staging buffer. -/
abbrev bodyAt1 (t : Fin (cfg1 a).N) : Prog (TpuEff nD τ sig (Elt F) Λ₀ .tc) PUnit :=
  cc1__gather_norm_kernel (grid1.coords t) (Memref.whole main_v14) (Memref.isWhole_whole _) (Memref.whole main_v15) (Memref.isWhole_whole _)
    (Memref.whole main_v16) (Memref.isWhole_whole _) (Memref.whole main_v17) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))

/-- The body at any point: each input buffer holds its row (`before1_w`), so `sound_kernel1` applies; the invariant
    (with the index tables in it) and what the core owes pass through unread. -/
theorem sound_body1 (c : Dev nD) (t : Fin (cfg1 a).N) :
    iprop((dat1 V a c).Φ t.castSucc ∗ (dat1 V a c).owesAt () t.castSucc
      ∗ (∃ d, owns (c : Thread nD τ) (((cfg1 a).win 0).stage ((cfg1 a).slots t 0)) fullShare ((dat1 V a c).before 0 t d))
      ∗ (∃ d, owns (c : Thread nD τ) (((cfg1 a).win 1).stage ((cfg1 a).slots t 1)) fullShare ((dat1 V a c).before 1 t d))
      ∗ (∃ d, owns (c : Thread nD τ) (((cfg1 a).win 2).stage ((cfg1 a).slots t 2)) fullShare ((dat1 V a c).before 2 t d))
      ∗ (∃ d, owns (c : Thread nD τ) (((cfg1 a).win 3).stage ((cfg1 a).slots t 3)) fullShare ((dat1 V a c).before 3 t d))
      ∗ (∃ d, owns (c : Thread nD τ) (((cfg1 a).win 4).stage ((cfg1 a).slots t 4)) fullShare ((dat1 V a c).before 4 t d)))
    ⊢ wp frame (wpE (defs₀ (F := F)) Variants.none c none) Set.univ
        (bodyAt1 a t)
        (fun _ => iprop((dat1 V a c).Φ t.succ ∗ (dat1 V a c).owesAt () t.succ
          ∗ owns (c : Thread nD τ) (((cfg1 a).win 0).stage ((cfg1 a).slots t 0)) fullShare ((dat1 V a c).after 0 t)
          ∗ owns (c : Thread nD τ) (((cfg1 a).win 1).stage ((cfg1 a).slots t 1)) fullShare ((dat1 V a c).after 1 t)
          ∗ owns (c : Thread nD τ) (((cfg1 a).win 2).stage ((cfg1 a).slots t 2)) fullShare ((dat1 V a c).after 2 t)
          ∗ owns (c : Thread nD τ) (((cfg1 a).win 3).stage ((cfg1 a).slots t 3)) fullShare ((dat1 V a c).after 3 t)
          ∗ owns (c : Thread nD τ) (((cfg1 a).win 4).stage ((cfg1 a).slots t 4)) fullShare ((dat1 V a c).after 4 t))) := by
  simp only [before1_0, before1_1, before1_2, before1_3]
  rw [show (dat1 V a c).Φ t.succ = (dat1 V a c).Φ t.castSucc from rfl,
    show (dat1 V a c).owesAt () t.succ = (dat1 V a c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  unfold bodyAt1
  iapply (sound_kernel1 c Set.univ _ _ _ _ _ _ _ _ _ _ _ _ _ _ _ _ _ _ _ (iblk1 V a c 0 t) (iblk1 V a c 1 t) (iblk1 V a c 2 t) (iblk1 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 1, at every point. -/
theorem body_obligation1 (c : Dev nD) : BodyObligation (dat1 (F := F) V a c) (defs₀ (F := F)) Variants.none () Set.univ := fun t => by
  rw [bigSep_W1, bigSep_W1]
  exact sound_body1 V a c t

end Region0

end Cert.Kernel.Gen

end
-- ==== Proof.KW.Ok1.lean ====
/-
  The index tables of region 1 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok1_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 1's side condition. -/
theorem ok1_of_lt (pf : pre1.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok1 pf := by
  unfold ok1
  refine ⟨fun i => ⟨?_, Or.inl rfl⟩, fun i => ⟨?_, Or.inl rfl⟩, fun i => ⟨?_, Or.inl rfl⟩, fun i => ⟨?_, Or.inl rfl⟩⟩
  · exact ok1_fits _ (h0 _)
  · exact ok1_fits _ (h1 _)
  · exact ok1_fits _ (h2 _)
  · exact ok1_fits _ (h3 _)

/-- The four index tables of region 1 as the launch memory holds them on core `c`. -/
def pf1 (m : (ℓ : Loc nD τ sig) → Buf (Elt F) ℓ) (c : Dev nD) : pre1.Contents (Elt F) :=
  fun | 0 => tbl m c (1 : Fin 20) 0 | 1 => tbl m c (1 : Fin 20) 1 | 2 => tbl m c (1 : Fin 20) 2 | 3 => tbl m c (1 : Fin 20) 3
      | ⟨_ + 4, h⟩ => absurd h (Nat.not_lt.2 (Nat.le_add_left _ _))

/-- In range, those tables are admissible contents of region 1's pipeline. -/
def adm1 (m : (ℓ : Loc nD τ sig) → Buf (Elt F) ℓ) (c : Dev nD)
    (hR : Cert.EdgeLengths.InRange (m ((c.tc : Thread nD τ).loc main_arg1))) : (pcfg1 (F := F)).Adm :=
  ⟨pf1 m c, ok1_of_lt _ (tbl_lt m c hR _ _) (tbl_lt m c hR _ _) (tbl_lt m c hR _ _) (tbl_lt m c hR _ _)⟩

theorem adm1_0 (m : (ℓ : Loc nD τ sig) → Buf (Elt F) ℓ) (c : Dev nD)
    (hR : Cert.EdgeLengths.InRange (m ((c.tc : Thread nD τ).loc main_arg1))) :
    (adm1 m c hR).1 0 = tbl m c (1 : Fin 20) 0 := rfl
theorem adm1_1 (m : (ℓ : Loc nD τ sig) → Buf (Elt F) ℓ) (c : Dev nD)
    (hR : Cert.EdgeLengths.InRange (m ((c.tc : Thread nD τ).loc main_arg1))) :
    (adm1 m c hR).1 1 = tbl m c (1 : Fin 20) 1 := rfl
theorem adm1_2 (m : (ℓ : Loc nD τ sig) → Buf (Elt F) ℓ) (c : Dev nD)
    (hR : Cert.EdgeLengths.InRange (m ((c.tc : Thread nD τ).loc main_arg1))) :
    (adm1 m c hR).1 2 = tbl m c (1 : Fin 20) 2 := rfl
theorem adm1_3 (m : (ℓ : Loc nD τ sig) → Buf (Elt F) ℓ) (c : Dev nD)
    (hR : Cert.EdgeLengths.InRange (m ((c.tc : Thread nD τ).loc main_arg1))) :
    (adm1 m c hR).1 3 = tbl m c (1 : Fin 20) 3 := rfl

end Cert.Kernel.Gen

end
-- ==== Proof.KW.Region2.lean ====
/-
  Region 2 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk2`),
  whatever it held before.

  The region's proof data then says: at every grid point each input window's buffer holds the table row its index
  table names there, and the output window's buffer is left at `outBlk2` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk2 (x0 x1 x2 x3 : Vec F S1x1x64 .f32) : Vec F S1x1x2 .f32 :=
  View.canon [⟨outRectD, k2_pay2 (View.ld x2 rowRect) (View.ld x3 rowRect)⟩,
              ⟨outRectB, k2_pay1 (View.ld x0 rowRect) (View.ld x1 rowRect)⟩]

/-- The two one-element stores tile the two-element block. -/
theorem outCover2 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk2` of the inputs. The index tables are not
    touched by the body (only the index maps read them), so nothing is asked of them. -/
theorem sound_kernel2 (c : Dev nD) (E : Set ℕ) (i : grid2.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk2 x0 x1 x2 x3)) -∗ K ⟨⟩))
      ⊢ wp frame (wpE (defs₀ (F := F)) Variants.none c none) E
          (cc2__gather_norm_kernel i a1 h1 a2 h2 a3 h3 a4 h4 a5 h5 a6 h6 a7 h7 a8 h8 a9 h9) K := by
  simp only [cc2__gather_norm_kernel_eq_skeleton]; unfold cc2__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover2 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg2 (F := F)).Adm)

/-- Window `w`'s block at point `t`, read off its array as the region finds it: for an input window the table row
    its index table names at `t`, for the output window the two-element row `t` of the result. -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- The proof data of region 2 on core `c`: the arrays as the region finds them; after the body at point `t` each
    input block as it was and the output block the two lengths; the invariant carries the untouched scoped
    buffers, the generator register and the four index tables, which only the index maps read. -/
def dat2 (c : Dev nD) : Dat τ (Elt F) Unit ℕ (UR sig nD τ) ℕ (cfg2 a) c where
  A w := V c (Pipeline.arrRef spec2 w)
  after w t := match w with
    | ⟨0, _⟩ => iblk2 V a c 0 t
    | ⟨1, _⟩ => iblk2 V a c 1 t
    | ⟨2, _⟩ => iblk2 V a c 2 t
    | ⟨3, _⟩ => iblk2 V a c 3 t
    | ⟨4, _⟩ => outBlk2 (iblk2 V a c 0 t) (iblk2 V a c 1 t) (iblk2 V a c 2 t) (iblk2 V a c 3 t)
  Φ _ := iprop(Pipeline.ΦA spec2 c ∗ Pipeline.prefHeld pre2 c (fun _ => fullShare) a.1)
  q w := inShare w
  owed _ := 0

theorem A_eq2 (c : Dev nD) (w : Fin (cfg2 a).W) : (dat2 V a c).A w = V c (Pipeline.arrRef spec2 w) := by
  dsimp only [dat2]

theorem after2_0 (c : Dev nD) (t : Fin (cfg2 a).N) : (dat2 V a c).after 0 t = iblk2 V a c 0 t := by dsimp only [dat2]; rfl
theorem after2_1 (c : Dev nD) (t : Fin (cfg2 a).N) : (dat2 V a c).after 1 t = iblk2 V a c 1 t := by dsimp only [dat2]; rfl
theorem after2_2 (c : Dev nD) (t : Fin (cfg2 a).N) : (dat2 V a c).after 2 t = iblk2 V a c 2 t := by dsimp only [dat2]; rfl
theorem after2_3 (c : Dev nD) (t : Fin (cfg2 a).N) : (dat2 V a c).after 3 t = iblk2 V a c 3 t := by dsimp only [dat2]; rfl
theorem after2_4 (c : Dev nD) (t : Fin (cfg2 a).N) : (dat2 V a c).after 4 t
    = outBlk2 (iblk2 V a c 0 t) (iblk2 V a c 1 t) (iblk2 V a c 2 t) (iblk2 V a c 3 t) := by dsimp only [dat2]; rfl

/-- Input window 0 holds its row at every point, fetched there or not: the body never writes an input block, the
    window is never idle and its blocks are whole rows. -/
theorem before2_0 (c : Dev nD) (t : Fin (cfg2 a).N) (d) : (dat2 V a c).before 0 t d = iblk2 V a c 0 t :=
  ((dat2 V a c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- Input window 1 holds its row at every point, fetched there or not: the body never writes an input block, the
    window is never idle and its blocks are whole rows. -/
theorem before2_1 (c : Dev nD) (t : Fin (cfg2 a).N) (d) : (dat2 V a c).before 1 t d = iblk2 V a c 1 t :=
  ((dat2 V a c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- Input window 2 holds its row at every point, fetched there or not: the body never writes an input block, the
    window is never idle and its blocks are whole rows. -/
theorem before2_2 (c : Dev nD) (t : Fin (cfg2 a).N) (d) : (dat2 V a c).before 2 t d = iblk2 V a c 2 t :=
  ((dat2 V a c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-- Input window 3 holds its row at every point, fetched there or not: the body never writes an input block, the
    window is never idle and its blocks are whole rows. -/
theorem before2_3 (c : Dev nD) (t : Fin (cfg2 a).N) (d) : (dat2 V a c).before 3 t d = iblk2 V a c 3 t :=
  ((dat2 V a c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-! ## The body at a generic point -/

/-- The kernel body as region 2 calls it at point `t`: the point's coordinates, the four index tables whole, and each
    window's current staging buffer. -/
abbrev bodyAt2 (t : Fin (cfg2 a).N) : Prog (TpuEff nD τ sig (Elt F) Λ₀ .tc) PUnit :=
  cc2__gather_norm_kernel (grid2.coords t) (Memref.whole main_v19) (Memref.isWhole_whole _) (Memref.whole main_v20) (Memref.isWhole_whole _)
    (Memref.whole main_v21) (Memref.isWhole_whole _) (Memref.whole main_v22) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))
    (spec2_3.stage ((cfg2 a).slots t 3)) (hstage2_3 (((cfg2 a).slots t 3).cast nbuf2_3))
    (spec2_4.stage ((cfg2 a).slots t 4)) (hstage2_4 (((cfg2 a).slots t 4).cast nbuf2_4))

/-- The body at any point: each input buffer holds its row (`before2_w`), so `sound_kernel2` applies; the invariant
    (with the index tables in it) and what the core owes pass through unread. -/
theorem sound_body2 (c : Dev nD) (t : Fin (cfg2 a).N) :
    iprop((dat2 V a c).Φ t.castSucc ∗ (dat2 V a c).owesAt () t.castSucc
      ∗ (∃ d, owns (c : Thread nD τ) (((cfg2 a).win 0).stage ((cfg2 a).slots t 0)) fullShare ((dat2 V a c).before 0 t d))
      ∗ (∃ d, owns (c : Thread nD τ) (((cfg2 a).win 1).stage ((cfg2 a).slots t 1)) fullShare ((dat2 V a c).before 1 t d))
      ∗ (∃ d, owns (c : Thread nD τ) (((cfg2 a).win 2).stage ((cfg2 a).slots t 2)) fullShare ((dat2 V a c).before 2 t d))
      ∗ (∃ d, owns (c : Thread nD τ) (((cfg2 a).win 3).stage ((cfg2 a).slots t 3)) fullShare ((dat2 V a c).before 3 t d))
      ∗ (∃ d, owns (c : Thread nD τ) (((cfg2 a).win 4).stage ((cfg2 a).slots t 4)) fullShare ((dat2 V a c).before 4 t d)))
    ⊢ wp frame (wpE (defs₀ (F := F)) Variants.none c none) Set.univ
        (bodyAt2 a t)
        (fun _ => iprop((dat2 V a c).Φ t.succ ∗ (dat2 V a c).owesAt () t.succ
          ∗ owns (c : Thread nD τ) (((cfg2 a).win 0).stage ((cfg2 a).slots t 0)) fullShare ((dat2 V a c).after 0 t)
          ∗ owns (c : Thread nD τ) (((cfg2 a).win 1).stage ((cfg2 a).slots t 1)) fullShare ((dat2 V a c).after 1 t)
          ∗ owns (c : Thread nD τ) (((cfg2 a).win 2).stage ((cfg2 a).slots t 2)) fullShare ((dat2 V a c).after 2 t)
          ∗ owns (c : Thread nD τ) (((cfg2 a).win 3).stage ((cfg2 a).slots t 3)) fullShare ((dat2 V a c).after 3 t)
          ∗ owns (c : Thread nD τ) (((cfg2 a).win 4).stage ((cfg2 a).slots t 4)) fullShare ((dat2 V a c).after 4 t))) := by
  simp only [before2_0, before2_1, before2_2, before2_3]
  rw [show (dat2 V a c).Φ t.succ = (dat2 V a c).Φ t.castSucc from rfl,
    show (dat2 V a c).owesAt () t.succ = (dat2 V a c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  unfold bodyAt2
  iapply (sound_kernel2 c Set.univ _ _ _ _ _ _ _ _ _ _ _ _ _ _ _ _ _ _ _ (iblk2 V a c 0 t) (iblk2 V a c 1 t) (iblk2 V a c 2 t) (iblk2 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 2, at every point. -/
theorem body_obligation2 (c : Dev nD) : BodyObligation (dat2 (F := F) V a c) (defs₀ (F := F)) Variants.none () Set.univ := fun t => by
  rw [bigSep_W2, bigSep_W2]
  exact sound_body2 V a c t

end Region0

end Cert.Kernel.Gen

end
-- ==== Proof.KW.Ok2.lean ====
/-
  The index tables of region 2 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok2_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 2's side condition. -/
theorem ok2_of_lt (pf : pre2.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok2 pf := by
  unfold ok2
  refine ⟨fun i => ⟨?_, Or.inl rfl⟩, fun i => ⟨?_, Or.inl rfl⟩, fun i => ⟨?_, Or.inl rfl⟩, fun i => ⟨?_, Or.inl rfl⟩⟩
  · exact ok2_fits _ (h0 _)
  · exact ok2_fits _ (h1 _)
  · exact ok2_fits _ (h2 _)
  · exact ok2_fits _ (h3 _)

/-- The four index tables of region 2 as the launch memory holds them on core `c`. -/
def pf2 (m : (ℓ : Loc nD τ sig) → Buf (Elt F) ℓ) (c : Dev nD) : pre2.Contents (Elt F) :=
  fun | 0 => tbl m c (2 : Fin 20) 0 | 1 => tbl m c (2 : Fin 20) 1 | 2 => tbl m c (2 : Fin 20) 2 | 3 => tbl m c (2 : Fin 20) 3
      | ⟨_ + 4, h⟩ => absurd h (Nat.not_lt.2 (Nat.le_add_left _ _))

/-- In range, those tables are admissible contents of region 2's pipeline. -/
def adm2 (m : (ℓ : Loc nD τ sig) → Buf (Elt F) ℓ) (c : Dev nD)
    (hR : Cert.EdgeLengths.InRange (m ((c.tc : Thread nD τ).loc main_arg1))) : (pcfg2 (F := F)).Adm :=
  ⟨pf2 m c, ok2_of_lt _ (tbl_lt m c hR _ _) (tbl_lt m c hR _ _) (tbl_lt m c hR _ _) (tbl_lt m c hR _ _)⟩

theorem adm2_0 (m : (ℓ : Loc nD τ sig) → Buf (Elt F) ℓ) (c : Dev nD)
    (hR : Cert.EdgeLengths.InRange (m ((c.tc : Thread nD τ).loc main_arg1))) :
    (adm2 m c hR).1 0 = tbl m c (2 : Fin 20) 0 := rfl
theorem adm2_1 (m : (ℓ : Loc nD τ sig) → Buf (Elt F) ℓ) (c : Dev nD)
    (hR : Cert.EdgeLengths.InRange (m ((c.tc : Thread nD τ).loc main_arg1))) :
    (adm2 m c hR).1 1 = tbl m c (2 : Fin 20) 1 := rfl
theorem adm2_2 (m : (ℓ : Loc nD τ sig) → Buf (Elt F) ℓ) (c : Dev nD)
    (hR : Cert.EdgeLengths.InRange (m ((c.tc : Thread nD τ).loc main_arg1))) :
    (adm2 m c hR).1 2 = tbl m c (2 : Fin 20) 2 := rfl
theorem adm2_3 (m : (ℓ : Loc nD τ sig) → Buf (Elt F) ℓ) (c : Dev nD)
    (hR : Cert.EdgeLengths.InRange (m ((c.tc : Thread nD τ).loc main_arg1))) :
    (adm2 m c hR).1 3 = tbl m c (2 : Fin 20) 3 := rfl

end Cert.Kernel.Gen

end
-- ==== Proof.KW.Region3.lean ====
/-
  Region 3 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk3`),
  whatever it held before.

  The region's proof data then says: at every grid point each input window's buffer holds the table row its index
  table names there, and the output window's buffer is left at `outBlk3` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk3 (x0 x1 x2 x3 : Vec F S1x1x64 .f32) : Vec F S1x1x2 .f32 :=
  View.canon [⟨outRectD, k3_pay2 (View.ld x2 rowRect) (View.ld x3 rowRect)⟩,
              ⟨outRectB, k3_pay1 (View.ld x0 rowRect) (View.ld x1 rowRect)⟩]

/-- The two one-element stores tile the two-element block. -/
theorem outCover3 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk3` of the inputs. The index tables are not
    touched by the body (only the index maps read them), so nothing is asked of them. -/
theorem sound_kernel3 (c : Dev nD) (E : Set ℕ) (i : grid3.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk3 x0 x1 x2 x3)) -∗ K ⟨⟩))
      ⊢ wp frame (wpE (defs₀ (F := F)) Variants.none c none) E
          (cc3__gather_norm_kernel i a1 h1 a2 h2 a3 h3 a4 h4 a5 h5 a6 h6 a7 h7 a8 h8 a9 h9) K := by
  simp only [cc3__gather_norm_kernel_eq_skeleton]; unfold cc3__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover3 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg3 (F := F)).Adm)

/-- Window `w`'s block at point `t`, read off its array as the region finds it: for an input window the table row
    its index table names at `t`, for the output window the two-element row `t` of the result. -/
def iblk3 (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-- The proof data of region 3 on core `c`: the arrays as the region finds them; after the body at point `t` each
    input block as it was and the output block the two lengths; the invariant carries the untouched scoped
    buffers, the generator register and the four index tables, which only the index maps read. -/
def dat3 (c : Dev nD) : Dat τ (Elt F) Unit ℕ (UR sig nD τ) ℕ (cfg3 a) c where
  A w := V c (Pipeline.arrRef spec3 w)
  after w t := match w with
    | ⟨0, _⟩ => iblk3 V a c 0 t
    | ⟨1, _⟩ => iblk3 V a c 1 t
    | ⟨2, _⟩ => iblk3 V a c 2 t
    | ⟨3, _⟩ => iblk3 V a c 3 t
    | ⟨4, _⟩ => outBlk3 (iblk3 V a c 0 t) (iblk3 V a c 1 t) (iblk3 V a c 2 t) (iblk3 V a c 3 t)
  Φ _ := iprop(Pipeline.ΦA spec3 c ∗ Pipeline.prefHeld pre3 c (fun _ => fullShare) a.1)
  q w := inShare w
  owed _ := 0

theorem A_eq3 (c : Dev nD) (w : Fin (cfg3 a).W) : (dat3 V a c).A w = V c (Pipeline.arrRef spec3 w) := by
  dsimp only [dat3]

theorem after3_0 (c : Dev nD) (t : Fin (cfg3 a).N) : (dat3 V a c).after 0 t = iblk3 V a c 0 t := by dsimp only [dat3]; rfl
theorem after3_1 (c : Dev nD) (t : Fin (cfg3 a).N) : (dat3 V a c).after 1 t = iblk3 V a c 1 t := by dsimp only [dat3]; rfl
theorem after3_2 (c : Dev nD) (t : Fin (cfg3 a).N) : (dat3 V a c).after 2 t = iblk3 V a c 2 t := by dsimp only [dat3]; rfl
theorem after3_3 (c : Dev nD) (t : Fin (cfg3 a).N) : (dat3 V a c).after 3 t = iblk3 V a c 3 t := by dsimp only [dat3]; rfl
theorem after3_4 (c : Dev nD) (t : Fin (cfg3 a).N) : (dat3 V a c).after 4 t
    = outBlk3 (iblk3 V a c 0 t) (iblk3 V a c 1 t) (iblk3 V a c 2 t) (iblk3 V a c 3 t) := by dsimp only [dat3]; rfl

/-- Input window 0 holds its row at every point, fetched there or not: the body never writes an input block, the
    window is never idle and its blocks are whole rows. -/
theorem before3_0 (c : Dev nD) (t : Fin (cfg3 a).N) (d) : (dat3 V a c).before 0 t d = iblk3 V a c 0 t :=
  ((dat3 V a c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- Input window 1 holds its row at every point, fetched there or not: the body never writes an input block, the
    window is never idle and its blocks are whole rows. -/
theorem before3_1 (c : Dev nD) (t : Fin (cfg3 a).N) (d) : (dat3 V a c).before 1 t d = iblk3 V a c 1 t :=
  ((dat3 V a c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-- Input window 2 holds its row at every point, fetched there or not: the body never writes an input block, the
    window is never idle and its blocks are whole rows. -/
theorem before3_2 (c : Dev nD) (t : Fin (cfg3 a).N) (d) : (dat3 V a c).before 2 t d = iblk3 V a c 2 t :=
  ((dat3 V a c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

/-- Input window 3 holds its row at every point, fetched there or not: the body never writes an input block, the
    window is never idle and its blocks are whole rows. -/
theorem before3_3 (c : Dev nD) (t : Fin (cfg3 a).N) (d) : (dat3 V a c).before 3 t d = iblk3 V a c 3 t :=
  ((dat3 V a c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)

/-! ## The body at a generic point -/

/-- The kernel body as region 3 calls it at point `t`: the point's coordinates, the four index tables whole, and each
    window's current staging buffer. -/
abbrev bodyAt3 (t : Fin (cfg3 a).N) : Prog (TpuEff nD τ sig (Elt F) Λ₀ .tc) PUnit :=
  cc3__gather_norm_kernel (grid3.coords t) (Memref.whole main_v24) (Memref.isWhole_whole _) (Memref.whole main_v25) (Memref.isWhole_whole _)
    (Memref.whole main_v26) (Memref.isWhole_whole _) (Memref.whole main_v27) (Memref.isWhole_whole _)
    (spec3_0.stage ((cfg3 a).slots t 0)) (hstage3_0 (((cfg3 a).slots t 0).cast nbuf3_0))
    (spec3_1.stage ((cfg3 a).slots t 1)) (hstage3_1 (((cfg3 a).slots t 1).cast nbuf3_1))
    (spec3_2.stage ((cfg3 a).slots t 2)) (hstage3_2 (((cfg3 a).slots t 2).cast nbuf3_2))
    (spec3_3.stage ((cfg3 a).slots t 3)) (hstage3_3 (((cfg3 a).slots t 3).cast nbuf3_3))
    (spec3_4.stage ((cfg3 a).slots t 4)) (hstage3_4 (((cfg3 a).slots t 4).cast nbuf3_4))

/-- The body at any point: each input buffer holds its row (`before3_w`), so `sound_kernel3` applies; the invariant
    (with the index tables in it) and what the core owes pass through unread. -/
theorem sound_body3 (c : Dev nD) (t : Fin (cfg3 a).N) :
    iprop((dat3 V a c).Φ t.castSucc ∗ (dat3 V a c).owesAt () t.castSucc
      ∗ (∃ d, owns (c : Thread nD τ) (((cfg3 a).win 0).stage ((cfg3 a).slots t 0)) fullShare ((dat3 V a c).before 0 t d))
      ∗ (∃ d, owns (c : Thread nD τ) (((cfg3 a).win 1).stage ((cfg3 a).slots t 1)) fullShare ((dat3 V a c).before 1 t d))
      ∗ (∃ d, owns (c : Thread nD τ) (((cfg3 a).win 2).stage ((cfg3 a).slots t 2)) fullShare ((dat3 V a c).before 2 t d))
      ∗ (∃ d, owns (c : Thread nD τ) (((cfg3 a).win 3).stage ((cfg3 a).slots t 3)) fullShare ((dat3 V a c).before 3 t d))
      ∗ (∃ d, owns (c : Thread nD τ) (((cfg3 a).win 4).stage ((cfg3 a).slots t 4)) fullShare ((dat3 V a c).before 4 t d)))
    ⊢ wp frame (wpE (defs₀ (F := F)) Variants.none c none) Set.univ
        (bodyAt3 a t)
        (fun _ => iprop((dat3 V a c).Φ t.succ ∗ (dat3 V a c).owesAt () t.succ
          ∗ owns (c : Thread nD τ) (((cfg3 a).win 0).stage ((cfg3 a).slots t 0)) fullShare ((dat3 V a c).after 0 t)
          ∗ owns (c : Thread nD τ) (((cfg3 a).win 1).stage ((cfg3 a).slots t 1)) fullShare ((dat3 V a c).after 1 t)
          ∗ owns (c : Thread nD τ) (((cfg3 a).win 2).stage ((cfg3 a).slots t 2)) fullShare ((dat3 V a c).after 2 t)
          ∗ owns (c : Thread nD τ) (((cfg3 a).win 3).stage ((cfg3 a).slots t 3)) fullShare ((dat3 V a c).after 3 t)
          ∗ owns (c : Thread nD τ) (((cfg3 a).win 4).stage ((cfg3 a).slots t 4)) fullShare ((dat3 V a c).after 4 t))) := by
  simp only [before3_0, before3_1, before3_2, before3_3]
  rw [show (dat3 V a c).Φ t.succ = (dat3 V a c).Φ t.castSucc from rfl,
    show (dat3 V a c).owesAt () t.succ = (dat3 V a c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  unfold bodyAt3
  iapply (sound_kernel3 c Set.univ _ _ _ _ _ _ _ _ _ _ _ _ _ _ _ _ _ _ _ (iblk3 V a c 0 t) (iblk3 V a c 1 t) (iblk3 V a c 2 t) (iblk3 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 3, at every point. -/
theorem body_obligation3 (c : Dev nD) : BodyObligation (dat3 (F := F) V a c) (defs₀ (F := F)) Variants.none () Set.univ := fun t => by
  rw [bigSep_W3, bigSep_W3]
  exact sound_body3 V a c t

end Region0

end Cert.Kernel.Gen

end
-- ==== Proof.KW.Ok3.lean ====
/-
  The index tables of region 3 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok3_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 3's side condition. -/
theorem ok3_of_lt (pf : pre3.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok3 pf := by
  unfold ok3
  refine ⟨fun i => ⟨?_, Or.inl rfl⟩, fun i => ⟨?_, Or.inl rfl⟩, fun i => ⟨?_, Or.inl rfl⟩, fun i => ⟨?_, Or.inl rfl⟩⟩
  · exact ok3_fits _ (h0 _)
  · exact ok3_fits _ (h1 _)
  · exact ok3_fits _ (h2 _)
  · exact ok3_fits _ (h3 _)

/-- The four index tables of region 3 as the launch memory holds them on core `c`. -/
def pf3 (m : (ℓ : Loc nD τ sig) → Buf (Elt F) ℓ) (c : Dev nD) : pre3.Contents (Elt F) :=
  fun | 0 => tbl m c (3 : Fin 20) 0 | 1 => tbl m c (3 : Fin 20) 1 | 2 => tbl m c (3 : Fin 20) 2 | 3 => tbl m c (3 : Fin 20) 3
      | ⟨_ + 4, h⟩ => absurd h (Nat.not_lt.2 (Nat.le_add_left _ _))

/-- In range, those tables are admissible contents of region 3's pipeline. -/
def adm3 (m : (ℓ : Loc nD τ sig) → Buf (Elt F) ℓ) (c : Dev nD)
    (hR : Cert.EdgeLengths.InRange (m ((c.tc : Thread nD τ).loc main_arg1))) : (pcfg3 (F := F)).Adm :=
  ⟨pf3 m c, ok3_of_lt _ (tbl_lt m c hR _ _) (tbl_lt m c hR _ _) (tbl_lt m c hR _ _) (tbl_lt m c hR _ _)⟩

theorem adm3_0 (m : (ℓ : Loc nD τ sig) → Buf (Elt F) ℓ) (c : Dev nD)
    (hR : Cert.EdgeLengths.InRange (m ((c.tc : Thread nD τ).loc main_arg1))) :
    (adm3 m c hR).1 0 = tbl m c (3 : Fin 20) 0 := rfl
theorem adm3_1 (m : (ℓ : Loc nD τ sig) → Buf (Elt F) ℓ) (c : Dev nD)
    (hR : Cert.EdgeLengths.InRange (m ((c.tc : Thread nD τ).loc main_arg1))) :
    (adm3 m c hR).1 1 = tbl m c (3 : Fin 20) 1 := rfl
theorem adm3_2 (m : (ℓ : Loc nD τ sig) → Buf (Elt F) ℓ) (c : Dev nD)
    (hR : Cert.EdgeLengths.InRange (m ((c.tc : Thread nD τ).loc main_arg1))) :
    (adm3 m c hR).1 2 = tbl m c (3 : Fin 20) 2 := rfl
theorem adm3_3 (m : (ℓ : Loc nD τ sig) → Buf (Elt F) ℓ) (c : Dev nD)
    (hR : Cert.EdgeLengths.InRange (m ((c.tc : Thread nD τ).loc main_arg1))) :
    (adm3 m c hR).1 3 = tbl m c (3 : Fin 20) 3 := rfl

end Cert.Kernel.Gen

end
-- ==== Proof.KW.Region4.lean ====
/-
  Region 4 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk4`),
  whatever it held before.

  The region's proof data then says: at every grid point each input window's buffer holds the table row its index
  table names there, and the output window's buffer is left at `outBlk4` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk4 (x0 x1 x2 x3 : Vec F S1x1x64 .f32) : Vec F S1x1x2 .f32 :=
  View.canon [⟨outRectD, k4_pay2 (View.ld x2 rowRect) (View.ld x3 rowRect)⟩,
              ⟨outRectB, k4_pay1 (View.ld x0 rowRect) (View.ld x1 rowRect)⟩]

/-- The two one-element stores tile the two-element block. -/
theorem outCover4 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk4` of the inputs. The index tables are not
    touched by the body (only the index maps read them), so nothing is asked of them. -/
theorem sound_kernel4 (c : Dev nD) (E : Set ℕ) (i : grid4.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk4 x0 x1 x2 x3)) -∗ K ⟨⟩))
      ⊢ wp frame (wpE (defs₀ (F := F)) Variants.none c none) E
          (cc4__gather_norm_kernel i a1 h1 a2 h2 a3 h3 a4 h4 a5 h5 a6 h6 a7 h7 a8 h8 a9 h9) K := by
  simp only [cc4__gather_norm_kernel_eq_skeleton]; unfold cc4__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover4 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg4 (F := F)).Adm)

/-- Window `w`'s block at point `t`, read off its array as the region finds it: for an input window the table row
    its index table names at `t`, for the output window the two-element row `t` of the result. -/
def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-- The proof data of region 4 on core `c`: the arrays as the region finds them; after the body at point `t` each
    input block as it was and the output block the two lengths; the invariant carries the untouched scoped
    buffers, the generator register and the four index tables, which only the index maps read. -/
def dat4 (c : Dev nD) : Dat τ (Elt F) Unit ℕ (UR sig nD τ) ℕ (cfg4 a) c where
  A w := V c (Pipeline.arrRef spec4 w)
  after w t := match w with
    | ⟨0, _⟩ => iblk4 V a c 0 t
    | ⟨1, _⟩ => iblk4 V a c 1 t
    | ⟨2, _⟩ => iblk4 V a c 2 t
    | ⟨3, _⟩ => iblk4 V a c 3 t
    | ⟨4, _⟩ => outBlk4 (iblk4 V a c 0 t) (iblk4 V a c 1 t) (iblk4 V a c 2 t) (iblk4 V a c 3 t)
  Φ _ := iprop(Pipeline.ΦA spec4 c ∗ Pipeline.prefHeld pre4 c (fun _ => fullShare) a.1)
  q w := inShare w
  owed _ := 0

theorem A_eq4 (c : Dev nD) (w : Fin (cfg4 a).W) : (dat4 V a c).A w = V c (Pipeline.arrRef spec4 w) := by
  dsimp only [dat4]

theorem after4_0 (c : Dev nD) (t : Fin (cfg4 a).N) : (dat4 V a c).after 0 t = iblk4 V a c 0 t := by dsimp only [dat4]; rfl
theorem after4_1 (c : Dev nD) (t : Fin (cfg4 a).N) : (dat4 V a c).after 1 t = iblk4 V a c 1 t := by dsimp only [dat4]; rfl
theorem after4_2 (c : Dev nD) (t : Fin (cfg4 a).N) : (dat4 V a c).after 2 t = iblk4 V a c 2 t := by dsimp only [dat4]; rfl
theorem after4_3 (c : Dev nD) (t : Fin (cfg4 a).N) : (dat4 V a c).after 3 t = iblk4 V a c 3 t := by dsimp only [dat4]; rfl
theorem after4_4 (c : Dev nD) (t : Fin (cfg4 a).N) : (dat4 V a c).after 4 t
    = outBlk4 (iblk4 V a c 0 t) (iblk4 V a c 1 t) (iblk4 V a c 2 t) (iblk4 V a c 3 t) := by dsimp only [dat4]; rfl

/-- Input window 0 holds its row at every point, fetched there or not: the body never writes an input block, the
    window is never idle and its blocks are whole rows. -/
theorem before4_0 (c : Dev nD) (t : Fin (cfg4 a).N) (d) : (dat4 V a c).before 0 t d = iblk4 V a c 0 t :=
  ((dat4 V a c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-- Input window 1 holds its row at every point, fetched there or not: the body never writes an input block, the
    window is never idle and its blocks are whole rows. -/
theorem before4_1 (c : Dev nD) (t : Fin (cfg4 a).N) (d) : (dat4 V a c).before 1 t d = iblk4 V a c 1 t :=
  ((dat4 V a c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-- Input window 2 holds its row at every point, fetched there or not: the body never writes an input block, the
    window is never idle and its blocks are whole rows. -/
theorem before4_2 (c : Dev nD) (t : Fin (cfg4 a).N) (d) : (dat4 V a c).before 2 t d = iblk4 V a c 2 t :=
  ((dat4 V a c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)

/-- Input window 3 holds its row at every point, fetched there or not: the body never writes an input block, the
    window is never idle and its blocks are whole rows. -/
theorem before4_3 (c : Dev nD) (t : Fin (cfg4 a).N) (d) : (dat4 V a c).before 3 t d = iblk4 V a c 3 t :=
  ((dat4 V a c).before_in_eq_fetched 3 rfl (fun _ => rfl) (fun _ _ _ => rfl)
      (fun t => by rw [after4_3]; unfold Dat.blockOf iblk4; rw [A_eq4]; try rfl) t d).trans
    (by unfold Dat.fetched Dat.blockOf iblk4; rw [A_eq4]; try rfl)

/-! ## The body at a generic point -/

/-- The kernel body as region 4 calls it at point `t`: the point's coordinates, the four index tables whole, and each
    window's current staging buffer. -/
abbrev bodyAt4 (t : Fin (cfg4 a).N) : Prog (TpuEff nD τ sig (Elt F) Λ₀ .tc) PUnit :=
  cc4__gather_norm_kernel (grid4.coords t) (Memref.whole main_v29) (Memref.isWhole_whole _) (Memref.whole main_v30) (Memref.isWhole_whole _)
    (Memref.whole main_v31) (Memref.isWhole_whole _) (Memref.whole main_v32) (Memref.isWhole_whole _)
    (spec4_0.stage ((cfg4 a).slots t 0)) (hstage4_0 (((cfg4 a).slots t 0).cast nbuf4_0))
    (spec4_1.stage ((cfg4 a).slots t 1)) (hstage4_1 (((cfg4 a).slots t 1).cast nbuf4_1))
    (spec4_2.stage ((cfg4 a).slots t 2)) (hstage4_2 (((cfg4 a).slots t 2).cast nbuf4_2))
    (spec4_3.stage ((cfg4 a).slots t 3)) (hstage4_3 (((cfg4 a).slots t 3).cast nbuf4_3))
    (spec4_4.stage ((cfg4 a).slots t 4)) (hstage4_4 (((cfg4 a).slots t 4).cast nbuf4_4))

/-- The body at any point: each input buffer holds its row (`before4_w`), so `sound_kernel4` applies; the invariant
    (with the index tables in it) and what the core owes pass through unread. -/
theorem sound_body4 (c : Dev nD) (t : Fin (cfg4 a).N) :
    iprop((dat4 V a c).Φ t.castSucc ∗ (dat4 V a c).owesAt () t.castSucc
      ∗ (∃ d, owns (c : Thread nD τ) (((cfg4 a).win 0).stage ((cfg4 a).slots t 0)) fullShare ((dat4 V a c).before 0 t d))
      ∗ (∃ d, owns (c : Thread nD τ) (((cfg4 a).win 1).stage ((cfg4 a).slots t 1)) fullShare ((dat4 V a c).before 1 t d))
      ∗ (∃ d, owns (c : Thread nD τ) (((cfg4 a).win 2).stage ((cfg4 a).slots t 2)) fullShare ((dat4 V a c).before 2 t d))
      ∗ (∃ d, owns (c : Thread nD τ) (((cfg4 a).win 3).stage ((cfg4 a).slots t 3)) fullShare ((dat4 V a c).before 3 t d))
      ∗ (∃ d, owns (c : Thread nD τ) (((cfg4 a).win 4).stage ((cfg4 a).slots t 4)) fullShare ((dat4 V a c).before 4 t d)))
    ⊢ wp frame (wpE (defs₀ (F := F)) Variants.none c none) Set.univ
        (bodyAt4 a t)
        (fun _ => iprop((dat4 V a c).Φ t.succ ∗ (dat4 V a c).owesAt () t.succ
          ∗ owns (c : Thread nD τ) (((cfg4 a).win 0).stage ((cfg4 a).slots t 0)) fullShare ((dat4 V a c).after 0 t)
          ∗ owns (c : Thread nD τ) (((cfg4 a).win 1).stage ((cfg4 a).slots t 1)) fullShare ((dat4 V a c).after 1 t)
          ∗ owns (c : Thread nD τ) (((cfg4 a).win 2).stage ((cfg4 a).slots t 2)) fullShare ((dat4 V a c).after 2 t)
          ∗ owns (c : Thread nD τ) (((cfg4 a).win 3).stage ((cfg4 a).slots t 3)) fullShare ((dat4 V a c).after 3 t)
          ∗ owns (c : Thread nD τ) (((cfg4 a).win 4).stage ((cfg4 a).slots t 4)) fullShare ((dat4 V a c).after 4 t))) := by
  simp only [before4_0, before4_1, before4_2, before4_3]
  rw [show (dat4 V a c).Φ t.succ = (dat4 V a c).Φ t.castSucc from rfl,
    show (dat4 V a c).owesAt () t.succ = (dat4 V a c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  unfold bodyAt4
  iapply (sound_kernel4 c Set.univ _ _ _ _ _ _ _ _ _ _ _ _ _ _ _ _ _ _ _ (iblk4 V a c 0 t) (iblk4 V a c 1 t) (iblk4 V a c 2 t) (iblk4 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 4, at every point. -/
theorem body_obligation4 (c : Dev nD) : BodyObligation (dat4 (F := F) V a c) (defs₀ (F := F)) Variants.none () Set.univ := fun t => by
  rw [bigSep_W4, bigSep_W4]
  exact sound_body4 V a c t

end Region0

end Cert.Kernel.Gen

end
-- ==== Proof.KW.Ok4.lean ====
/-
  The index tables of region 4 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok4_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 4's side condition. -/
theorem ok4_of_lt (pf : pre4.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok4 pf := by
  unfold ok4
  refine ⟨fun i => ⟨?_, Or.inl rfl⟩, fun i => ⟨?_, Or.inl rfl⟩, fun i => ⟨?_, Or.inl rfl⟩, fun i => ⟨?_, Or.inl rfl⟩⟩
  · exact ok4_fits _ (h0 _)
  · exact ok4_fits _ (h1 _)
  · exact ok4_fits _ (h2 _)
  · exact ok4_fits _ (h3 _)

/-- The four index tables of region 4 as the launch memory holds them on core `c`. -/
def pf4 (m : (ℓ : Loc nD τ sig) → Buf (Elt F) ℓ) (c : Dev nD) : pre4.Contents (Elt F) :=
  fun | 0 => tbl m c (4 : Fin 20) 0 | 1 => tbl m c (4 : Fin 20) 1 | 2 => tbl m c (4 : Fin 20) 2 | 3 => tbl m c (4 : Fin 20) 3
      | ⟨_ + 4, h⟩ => absurd h (Nat.not_lt.2 (Nat.le_add_left _ _))

/-- In range, those tables are admissible contents of region 4's pipeline. -/
def adm4 (m : (ℓ : Loc nD τ sig) → Buf (Elt F) ℓ) (c : Dev nD)
    (hR : Cert.EdgeLengths.InRange (m ((c.tc : Thread nD τ).loc main_arg1))) : (pcfg4 (F := F)).Adm :=
  ⟨pf4 m c, ok4_of_lt _ (tbl_lt m c hR _ _) (tbl_lt m c hR _ _) (tbl_lt m c hR _ _) (tbl_lt m c hR _ _)⟩

theorem adm4_0 (m : (ℓ : Loc nD τ sig) → Buf (Elt F) ℓ) (c : Dev nD)
    (hR : Cert.EdgeLengths.InRange (m ((c.tc : Thread nD τ).loc main_arg1))) :
    (adm4 m c hR).1 0 = tbl m c (4 : Fin 20) 0 := rfl
theorem adm4_1 (m : (ℓ : Loc nD τ sig) → Buf (Elt F) ℓ) (c : Dev nD)
    (hR : Cert.EdgeLengths.InRange (m ((c.tc : Thread nD τ).loc main_arg1))) :
    (adm4 m c hR).1 1 = tbl m c (4 : Fin 20) 1 := rfl
theorem adm4_2 (m : (ℓ : Loc nD τ sig) → Buf (Elt F) ℓ) (c : Dev nD)
    (hR : Cert.EdgeLengths.InRange (m ((c.tc : Thread nD τ).loc main_arg1))) :
    (adm4 m c hR).1 2 = tbl m c (4 : Fin 20) 2 := rfl
theorem adm4_3 (m : (ℓ : Loc nD τ sig) → Buf (Elt F) ℓ) (c : Dev nD)
    (hR : Cert.EdgeLengths.InRange (m ((c.tc : Thread nD τ).loc main_arg1))) :
    (adm4 m c hR).1 3 = tbl m c (4 : Fin 20) 3 := rfl

end Cert.Kernel.Gen

end
-- ==== Proof.KW.Region5.lean ====
/-
  Region 5 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk5`),
  whatever it held before.

  The region's proof data then says: at every grid point each input window's buffer holds the table row its index
  table names there, and the output window's buffer is left at `outBlk5` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk5 (x0 x1 x2 x3 : Vec F S1x1x64 .f32) : Vec F S1x1x2 .f32 :=
  View.canon [⟨outRectD, k5_pay2 (View.ld x2 rowRect) (View.ld x3 rowRect)⟩,
              ⟨outRectB, k5_pay1 (View.ld x0 rowRect) (View.ld x1 rowRect)⟩]

/-- The two one-element stores tile the two-element block. -/
theorem outCover5 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk5` of the inputs. The index tables are not
    touched by the body (only the index maps read them), so nothing is asked of them. -/
theorem sound_kernel5 (c : Dev nD) (E : Set ℕ) (i : grid5.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk5 x0 x1 x2 x3)) -∗ K ⟨⟩))
      ⊢ wp frame (wpE (defs₀ (F := F)) Variants.none c none) E
          (cc5__gather_norm_kernel i a1 h1 a2 h2 a3 h3 a4 h4 a5 h5 a6 h6 a7 h7 a8 h8 a9 h9) K := by
  simp only [cc5__gather_norm_kernel_eq_skeleton]; unfold cc5__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover5 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg5 (F := F)).Adm)

/-- Window `w`'s block at point `t`, read off its array as the region finds it: for an input window the table row
    its index table names at `t`, for the output window the two-element row `t` of the result. -/
def iblk5 (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

/-- The proof data of region 5 on core `c`: the arrays as the region finds them; after the body at point `t` each
    input block as it was and the output block the two lengths; the invariant carries the untouched scoped
    buffers, the generator register and the four index tables, which only the index maps read. -/
def dat5 (c : Dev nD) : Dat τ (Elt F) Unit ℕ (UR sig nD τ) ℕ (cfg5 a) c where
  A w := V c (Pipeline.arrRef spec5 w)
  after w t := match w with
    | ⟨0, _⟩ => iblk5 V a c 0 t
    | ⟨1, _⟩ => iblk5 V a c 1 t
    | ⟨2, _⟩ => iblk5 V a c 2 t
    | ⟨3, _⟩ => iblk5 V a c 3 t
    | ⟨4, _⟩ => outBlk5 (iblk5 V a c 0 t) (iblk5 V a c 1 t) (iblk5 V a c 2 t) (iblk5 V a c 3 t)
  Φ _ := iprop(Pipeline.ΦA spec5 c ∗ Pipeline.prefHeld pre5 c (fun _ => fullShare) a.1)
  q w := inShare w
  owed _ := 0

theorem A_eq5 (c : Dev nD) (w : Fin (cfg5 a).W) : (dat5 V a c).A w = V c (Pipeline.arrRef spec5 w) := by
  dsimp only [dat5]

theorem after5_0 (c : Dev nD) (t : Fin (cfg5 a).N) : (dat5 V a c).after 0 t = iblk5 V a c 0 t := by dsimp only [dat5]; rfl
theorem after5_1 (c : Dev nD) (t : Fin (cfg5 a).N) : (dat5 V a c).after 1 t = iblk5 V a c 1 t := by dsimp only [dat5]; rfl
theorem after5_2 (c : Dev nD) (t : Fin (cfg5 a).N) : (dat5 V a c).after 2 t = iblk5 V a c 2 t := by dsimp only [dat5]; rfl
theorem after5_3 (c : Dev nD) (t : Fin (cfg5 a).N) : (dat5 V a c).after 3 t = iblk5 V a c 3 t := by dsimp only [dat5]; rfl
theorem after5_4 (c : Dev nD) (t : Fin (cfg5 a).N) : (dat5 V a c).after 4 t
    = outBlk5 (iblk5 V a c 0 t) (iblk5 V a c 1 t) (iblk5 V a c 2 t) (iblk5 V a c 3 t) := by dsimp only [dat5]; rfl

/-- Input window 0 holds its row at every point, fetched there or not: the body never writes an input block, the
    window is never idle and its blocks are whole rows. -/
theorem before5_0 (c : Dev nD) (t : Fin (cfg5 a).N) (d) : (dat5 V a c).before 0 t d = iblk5 V a c 0 t :=
  ((dat5 V a c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)

/-- Input window 1 holds its row at every point, fetched there or not: the body never writes an input block, the
    window is never idle and its blocks are whole rows. -/
theorem before5_1 (c : Dev nD) (t : Fin (cfg5 a).N) (d) : (dat5 V a c).before 1 t d = iblk5 V a c 1 t :=
  ((dat5 V a c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

/-- Input window 2 holds its row at every point, fetched there or not: the body never writes an input block, the
    window is never idle and its blocks are whole rows. -/
theorem before5_2 (c : Dev nD) (t : Fin (cfg5 a).N) (d) : (dat5 V a c).before 2 t d = iblk5 V a c 2 t :=
  ((dat5 V a c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)

/-- Input window 3 holds its row at every point, fetched there or not: the body never writes an input block, the
    window is never idle and its blocks are whole rows. -/
theorem before5_3 (c : Dev nD) (t : Fin (cfg5 a).N) (d) : (dat5 V a c).before 3 t d = iblk5 V a c 3 t :=
  ((dat5 V a c).before_in_eq_fetched 3 rfl (fun _ => rfl) (fun _ _ _ => rfl)
      (fun t => by rw [after5_3]; unfold Dat.blockOf iblk5; rw [A_eq5]; try rfl) t d).trans
    (by unfold Dat.fetched Dat.blockOf iblk5; rw [A_eq5]; try rfl)

/-! ## The body at a generic point -/

/-- The kernel body as region 5 calls it at point `t`: the point's coordinates, the four index tables whole, and each
    window's current staging buffer. -/
abbrev bodyAt5 (t : Fin (cfg5 a).N) : Prog (TpuEff nD τ sig (Elt F) Λ₀ .tc) PUnit :=
  cc5__gather_norm_kernel (grid5.coords t) (Memref.whole main_v34) (Memref.isWhole_whole _) (Memref.whole main_v35) (Memref.isWhole_whole _)
    (Memref.whole main_v36) (Memref.isWhole_whole _) (Memref.whole main_v37) (Memref.isWhole_whole _)
    (spec5_0.stage ((cfg5 a).slots t 0)) (hstage5_0 (((cfg5 a).slots t 0).cast nbuf5_0))
    (spec5_1.stage ((cfg5 a).slots t 1)) (hstage5_1 (((cfg5 a).slots t 1).cast nbuf5_1))
    (spec5_2.stage ((cfg5 a).slots t 2)) (hstage5_2 (((cfg5 a).slots t 2).cast nbuf5_2))
    (spec5_3.stage ((cfg5 a).slots t 3)) (hstage5_3 (((cfg5 a).slots t 3).cast nbuf5_3))
    (spec5_4.stage ((cfg5 a).slots t 4)) (hstage5_4 (((cfg5 a).slots t 4).cast nbuf5_4))

/-- The body at any point: each input buffer holds its row (`before5_w`), so `sound_kernel5` applies; the invariant
    (with the index tables in it) and what the core owes pass through unread. -/
theorem sound_body5 (c : Dev nD) (t : Fin (cfg5 a).N) :
    iprop((dat5 V a c).Φ t.castSucc ∗ (dat5 V a c).owesAt () t.castSucc
      ∗ (∃ d, owns (c : Thread nD τ) (((cfg5 a).win 0).stage ((cfg5 a).slots t 0)) fullShare ((dat5 V a c).before 0 t d))
      ∗ (∃ d, owns (c : Thread nD τ) (((cfg5 a).win 1).stage ((cfg5 a).slots t 1)) fullShare ((dat5 V a c).before 1 t d))
      ∗ (∃ d, owns (c : Thread nD τ) (((cfg5 a).win 2).stage ((cfg5 a).slots t 2)) fullShare ((dat5 V a c).before 2 t d))
      ∗ (∃ d, owns (c : Thread nD τ) (((cfg5 a).win 3).stage ((cfg5 a).slots t 3)) fullShare ((dat5 V a c).before 3 t d))
      ∗ (∃ d, owns (c : Thread nD τ) (((cfg5 a).win 4).stage ((cfg5 a).slots t 4)) fullShare ((dat5 V a c).before 4 t d)))
    ⊢ wp frame (wpE (defs₀ (F := F)) Variants.none c none) Set.univ
        (bodyAt5 a t)
        (fun _ => iprop((dat5 V a c).Φ t.succ ∗ (dat5 V a c).owesAt () t.succ
          ∗ owns (c : Thread nD τ) (((cfg5 a).win 0).stage ((cfg5 a).slots t 0)) fullShare ((dat5 V a c).after 0 t)
          ∗ owns (c : Thread nD τ) (((cfg5 a).win 1).stage ((cfg5 a).slots t 1)) fullShare ((dat5 V a c).after 1 t)
          ∗ owns (c : Thread nD τ) (((cfg5 a).win 2).stage ((cfg5 a).slots t 2)) fullShare ((dat5 V a c).after 2 t)
          ∗ owns (c : Thread nD τ) (((cfg5 a).win 3).stage ((cfg5 a).slots t 3)) fullShare ((dat5 V a c).after 3 t)
          ∗ owns (c : Thread nD τ) (((cfg5 a).win 4).stage ((cfg5 a).slots t 4)) fullShare ((dat5 V a c).after 4 t))) := by
  simp only [before5_0, before5_1, before5_2, before5_3]
  rw [show (dat5 V a c).Φ t.succ = (dat5 V a c).Φ t.castSucc from rfl,
    show (dat5 V a c).owesAt () t.succ = (dat5 V a c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  unfold bodyAt5
  iapply (sound_kernel5 c Set.univ _ _ _ _ _ _ _ _ _ _ _ _ _ _ _ _ _ _ _ (iblk5 V a c 0 t) (iblk5 V a c 1 t) (iblk5 V a c 2 t) (iblk5 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 5, at every point. -/
theorem body_obligation5 (c : Dev nD) : BodyObligation (dat5 (F := F) V a c) (defs₀ (F := F)) Variants.none () Set.univ := fun t => by
  rw [bigSep_W5, bigSep_W5]
  exact sound_body5 V a c t

end Region0

end Cert.Kernel.Gen

end
-- ==== Proof.KW.Ok5.lean ====
/-
  The index tables of region 5 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok5_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 5's side condition. -/
theorem ok5_of_lt (pf : pre5.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok5 pf := by
  unfold ok5
  refine ⟨fun i => ⟨?_, Or.inl rfl⟩, fun i => ⟨?_, Or.inl rfl⟩, fun i => ⟨?_, Or.inl rfl⟩, fun i => ⟨?_, Or.inl rfl⟩⟩
  · exact ok5_fits _ (h0 _)
  · exact ok5_fits _ (h1 _)
  · exact ok5_fits _ (h2 _)
  · exact ok5_fits _ (h3 _)

/-- The four index tables of region 5 as the launch memory holds them on core `c`. -/
def pf5 (m : (ℓ : Loc nD τ sig) → Buf (Elt F) ℓ) (c : Dev nD) : pre5.Contents (Elt F) :=
  fun | 0 => tbl m c (5 : Fin 20) 0 | 1 => tbl m c (5 : Fin 20) 1 | 2 => tbl m c (5 : Fin 20) 2 | 3 => tbl m c (5 : Fin 20) 3
      | ⟨_ + 4, h⟩ => absurd h (Nat.not_lt.2 (Nat.le_add_left _ _))

/-- In range, those tables are admissible contents of region 5's pipeline. -/
def adm5 (m : (ℓ : Loc nD τ sig) → Buf (Elt F) ℓ) (c : Dev nD)
    (hR : Cert.EdgeLengths.InRange (m ((c.tc : Thread nD τ).loc main_arg1))) : (pcfg5 (F := F)).Adm :=
  ⟨pf5 m c, ok5_of_lt _ (tbl_lt m c hR _ _) (tbl_lt m c hR _ _) (tbl_lt m c hR _ _) (tbl_lt m c hR _ _)⟩

theorem adm5_0 (m : (ℓ : Loc nD τ sig) → Buf (Elt F) ℓ) (c : Dev nD)
    (hR : Cert.EdgeLengths.InRange (m ((c.tc : Thread nD τ).loc main_arg1))) :
    (adm5 m c hR).1 0 = tbl m c (5 : Fin 20) 0 := rfl
theorem adm5_1 (m : (ℓ : Loc nD τ sig) → Buf (Elt F) ℓ) (c : Dev nD)
    (hR : Cert.EdgeLengths.InRange (m ((c.tc : Thread nD τ).loc main_arg1))) :
    (adm5 m c hR).1 1 = tbl m c (5 : Fin 20) 1 := rfl
theorem adm5_2 (m : (ℓ : Loc nD τ sig) → Buf (Elt F) ℓ) (c : Dev nD)
    (hR : Cert.EdgeLengths.InRange (m ((c.tc : Thread nD τ).loc main_arg1))) :
    (adm5 m c hR).1 2 = tbl m c (5 : Fin 20) 2 := rfl
theorem adm5_3 (m : (ℓ : Loc nD τ sig) → Buf (Elt F) ℓ) (c : Dev nD)
    (hR : Cert.EdgeLengths.InRange (m ((c.tc : Thread nD τ).loc main_arg1))) :
    (adm5 m c hR).1 3 = tbl m c (5 : Fin 20) 3 := rfl

end Cert.Kernel.Gen

end
-- ==== Proof.KW.Region6.lean ====
/-
  Region 6 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk6`),
  whatever it held before.

  The region's proof data then says: at every grid point each input window's buffer holds the table row its index
  table names there, and the output window's buffer is left at `outBlk6` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk6 (x0 x1 x2 x3 : Vec F S1x1x64 .f32) : Vec F S1x1x2 .f32 :=
  View.canon [⟨outRectD, k6_pay2 (View.ld x2 rowRect) (View.ld x3 rowRect)⟩,
              ⟨outRectB, k6_pay1 (View.ld x0 rowRect) (View.ld x1 rowRect)⟩]

/-- The two one-element stores tile the two-element block. -/
theorem outCover6 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk6` of the inputs. The index tables are not
    touched by the body (only the index maps read them), so nothing is asked of them. -/
theorem sound_kernel6 (c : Dev nD) (E : Set ℕ) (i : grid6.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk6 x0 x1 x2 x3)) -∗ K ⟨⟩))
      ⊢ wp frame (wpE (defs₀ (F := F)) Variants.none c none) E
          (cc6__gather_norm_kernel i a1 h1 a2 h2 a3 h3 a4 h4 a5 h5 a6 h6 a7 h7 a8 h8 a9 h9) K := by
  simp only [cc6__gather_norm_kernel_eq_skeleton]; unfold cc6__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover6 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg6 (F := F)).Adm)

/-- Window `w`'s block at point `t`, read off its array as the region finds it: for an input window the table row
    its index table names at `t`, for the output window the two-element row `t` of the result. -/
def iblk6 (c : Dev nD) (w : Fin (cfg6 a).W) (t : Fin (cfg6 a).N) :
    (((cfg6 a).win w).xblock ((cfg6 a).grid.coords t)).Idx → Elt F ((cfg6 a).win w).elt :=
  (((cfg6 a).win w).blk t).view.read (Elt F) (V c (Pipeline.arrRef spec6 w))

/-- The proof data of region 6 on core `c`: the arrays as the region finds them; after the body at point `t` each
    input block as it was and the output block the two lengths; the invariant carries the untouched scoped
    buffers, the generator register and the four index tables, which only the index maps read. -/
def dat6 (c : Dev nD) : Dat τ (Elt F) Unit ℕ (UR sig nD τ) ℕ (cfg6 a) c where
  A w := V c (Pipeline.arrRef spec6 w)
  after w t := match w with
    | ⟨0, _⟩ => iblk6 V a c 0 t
    | ⟨1, _⟩ => iblk6 V a c 1 t
    | ⟨2, _⟩ => iblk6 V a c 2 t
    | ⟨3, _⟩ => iblk6 V a c 3 t
    | ⟨4, _⟩ => outBlk6 (iblk6 V a c 0 t) (iblk6 V a c 1 t) (iblk6 V a c 2 t) (iblk6 V a c 3 t)
  Φ _ := iprop(Pipeline.ΦA spec6 c ∗ Pipeline.prefHeld pre6 c (fun _ => fullShare) a.1)
  q w := inShare w
  owed _ := 0

theorem A_eq6 (c : Dev nD) (w : Fin (cfg6 a).W) : (dat6 V a c).A w = V c (Pipeline.arrRef spec6 w) := by
  dsimp only [dat6]

theorem after6_0 (c : Dev nD) (t : Fin (cfg6 a).N) : (dat6 V a c).after 0 t = iblk6 V a c 0 t := by dsimp only [dat6]; rfl
theorem after6_1 (c : Dev nD) (t : Fin (cfg6 a).N) : (dat6 V a c).after 1 t = iblk6 V a c 1 t := by dsimp only [dat6]; rfl
theorem after6_2 (c : Dev nD) (t : Fin (cfg6 a).N) : (dat6 V a c).after 2 t = iblk6 V a c 2 t := by dsimp only [dat6]; rfl
theorem after6_3 (c : Dev nD) (t : Fin (cfg6 a).N) : (dat6 V a c).after 3 t = iblk6 V a c 3 t := by dsimp only [dat6]; rfl
theorem after6_4 (c : Dev nD) (t : Fin (cfg6 a).N) : (dat6 V a c).after 4 t
    = outBlk6 (iblk6 V a c 0 t) (iblk6 V a c 1 t) (iblk6 V a c 2 t) (iblk6 V a c 3 t) := by dsimp only [dat6]; rfl

/-- Input window 0 holds its row at every point, fetched there or not: the body never writes an input block, the
    window is never idle and its blocks are whole rows. -/
theorem before6_0 (c : Dev nD) (t : Fin (cfg6 a).N) (d) : (dat6 V a c).before 0 t d = iblk6 V a c 0 t :=
  ((dat6 V a c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)

/-- Input window 1 holds its row at every point, fetched there or not: the body never writes an input block, the
    window is never idle and its blocks are whole rows. -/
theorem before6_1 (c : Dev nD) (t : Fin (cfg6 a).N) (d) : (dat6 V a c).before 1 t d = iblk6 V a c 1 t :=
  ((dat6 V a c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

/-- Input window 2 holds its row at every point, fetched there or not: the body never writes an input block, the
    window is never idle and its blocks are whole rows. -/
theorem before6_2 (c : Dev nD) (t : Fin (cfg6 a).N) (d) : (dat6 V a c).before 2 t d = iblk6 V a c 2 t :=
  ((dat6 V a c).before_in_eq_fetched 2 rfl (fun _ => rfl) (fun _ _ _ => rfl)
      (fun t => by rw [after6_2]; unfold Dat.blockOf iblk6; rw [A_eq6]; try rfl) t d).trans
    (by unfold Dat.fetched Dat.blockOf iblk6; rw [A_eq6]; try rfl)

/-- Input window 3 holds its row at every point, fetched there or not: the body never writes an input block, the
    window is never idle and its blocks are whole rows. -/
theorem before6_3 (c : Dev nD) (t : Fin (cfg6 a).N) (d) : (dat6 V a c).before 3 t d = iblk6 V a c 3 t :=
  ((dat6 V a c).before_in_eq_fetched 3 rfl (fun _ => rfl) (fun _ _ _ => rfl)
      (fun t => by rw [after6_3]; unfold Dat.blockOf iblk6; rw [A_eq6]; try rfl) t d).trans
    (by unfold Dat.fetched Dat.blockOf iblk6; rw [A_eq6]; try rfl)

/-! ## The body at a generic point -/

/-- The kernel body as region 6 calls it at point `t`: the point's coordinates, the four index tables whole, and each
    window's current staging buffer. -/
abbrev bodyAt6 (t : Fin (cfg6 a).N) : Prog (TpuEff nD τ sig (Elt F) Λ₀ .tc) PUnit :=
  cc6__gather_norm_kernel (grid6.coords t) (Memref.whole main_v39) (Memref.isWhole_whole _) (Memref.whole main_v40) (Memref.isWhole_whole _)
    (Memref.whole main_v41) (Memref.isWhole_whole _) (Memref.whole main_v42) (Memref.isWhole_whole _)
    (spec6_0.stage ((cfg6 a).slots t 0)) (hstage6_0 (((cfg6 a).slots t 0).cast nbuf6_0))
    (spec6_1.stage ((cfg6 a).slots t 1)) (hstage6_1 (((cfg6 a).slots t 1).cast nbuf6_1))
    (spec6_2.stage ((cfg6 a).slots t 2)) (hstage6_2 (((cfg6 a).slots t 2).cast nbuf6_2))
    (spec6_3.stage ((cfg6 a).slots t 3)) (hstage6_3 (((cfg6 a).slots t 3).cast nbuf6_3))
    (spec6_4.stage ((cfg6 a).slots t 4)) (hstage6_4 (((cfg6 a).slots t 4).cast nbuf6_4))

/-- The body at any point: each input buffer holds its row (`before6_w`), so `sound_kernel6` applies; the invariant
    (with the index tables in it) and what the core owes pass through unread. -/
theorem sound_body6 (c : Dev nD) (t : Fin (cfg6 a).N) :
    iprop((dat6 V a c).Φ t.castSucc ∗ (dat6 V a c).owesAt () t.castSucc
      ∗ (∃ d, owns (c : Thread nD τ) (((cfg6 a).win 0).stage ((cfg6 a).slots t 0)) fullShare ((dat6 V a c).before 0 t d))
      ∗ (∃ d, owns (c : Thread nD τ) (((cfg6 a).win 1).stage ((cfg6 a).slots t 1)) fullShare ((dat6 V a c).before 1 t d))
      ∗ (∃ d, owns (c : Thread nD τ) (((cfg6 a).win 2).stage ((cfg6 a).slots t 2)) fullShare ((dat6 V a c).before 2 t d))
      ∗ (∃ d, owns (c : Thread nD τ) (((cfg6 a).win 3).stage ((cfg6 a).slots t 3)) fullShare ((dat6 V a c).before 3 t d))
      ∗ (∃ d, owns (c : Thread nD τ) (((cfg6 a).win 4).stage ((cfg6 a).slots t 4)) fullShare ((dat6 V a c).before 4 t d)))
    ⊢ wp frame (wpE (defs₀ (F := F)) Variants.none c none) Set.univ
        (bodyAt6 a t)
        (fun _ => iprop((dat6 V a c).Φ t.succ ∗ (dat6 V a c).owesAt () t.succ
          ∗ owns (c : Thread nD τ) (((cfg6 a).win 0).stage ((cfg6 a).slots t 0)) fullShare ((dat6 V a c).after 0 t)
          ∗ owns (c : Thread nD τ) (((cfg6 a).win 1).stage ((cfg6 a).slots t 1)) fullShare ((dat6 V a c).after 1 t)
          ∗ owns (c : Thread nD τ) (((cfg6 a).win 2).stage ((cfg6 a).slots t 2)) fullShare ((dat6 V a c).after 2 t)
          ∗ owns (c : Thread nD τ) (((cfg6 a).win 3).stage ((cfg6 a).slots t 3)) fullShare ((dat6 V a c).after 3 t)
          ∗ owns (c : Thread nD τ) (((cfg6 a).win 4).stage ((cfg6 a).slots t 4)) fullShare ((dat6 V a c).after 4 t))) := by
  simp only [before6_0, before6_1, before6_2, before6_3]
  rw [show (dat6 V a c).Φ t.succ = (dat6 V a c).Φ t.castSucc from rfl,
    show (dat6 V a c).owesAt () t.succ = (dat6 V a c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  unfold bodyAt6
  iapply (sound_kernel6 c Set.univ _ _ _ _ _ _ _ _ _ _ _ _ _ _ _ _ _ _ _ (iblk6 V a c 0 t) (iblk6 V a c 1 t) (iblk6 V a c 2 t) (iblk6 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 6, at every point. -/
theorem body_obligation6 (c : Dev nD) : BodyObligation (dat6 (F := F) V a c) (defs₀ (F := F)) Variants.none () Set.univ := fun t => by
  rw [bigSep_W6, bigSep_W6]
  exact sound_body6 V a c t

end Region0

end Cert.Kernel.Gen

end
-- ==== Proof.KW.Ok6.lean ====
/-
  The index tables of region 6 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok6_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 6's side condition. -/
theorem ok6_of_lt (pf : pre6.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok6 pf := by
  unfold ok6
  refine ⟨fun i => ⟨?_, Or.inl rfl⟩, fun i => ⟨?_, Or.inl rfl⟩, fun i => ⟨?_, Or.inl rfl⟩, fun i => ⟨?_, Or.inl rfl⟩⟩
  · exact ok6_fits _ (h0 _)
  · exact ok6_fits _ (h1 _)
  · exact ok6_fits _ (h2 _)
  · exact ok6_fits _ (h3 _)

/-- The four index tables of region 6 as the launch memory holds them on core `c`. -/
def pf6 (m : (ℓ : Loc nD τ sig) → Buf (Elt F) ℓ) (c : Dev nD) : pre6.Contents (Elt F) :=
  fun | 0 => tbl m c (6 : Fin 20) 0 | 1 => tbl m c (6 : Fin 20) 1 | 2 => tbl m c (6 : Fin 20) 2 | 3 => tbl m c (6 : Fin 20) 3
      | ⟨_ + 4, h⟩ => absurd h (Nat.not_lt.2 (Nat.le_add_left _ _))

/-- In range, those tables are admissible contents of region 6's pipeline. -/
def adm6 (m : (ℓ : Loc nD τ sig) → Buf (Elt F) ℓ) (c : Dev nD)
    (hR : Cert.EdgeLengths.InRange (m ((c.tc : Thread nD τ).loc main_arg1))) : (pcfg6 (F := F)).Adm :=
  ⟨pf6 m c, ok6_of_lt _ (tbl_lt m c hR _ _) (tbl_lt m c hR _ _) (tbl_lt m c hR _ _) (tbl_lt m c hR _ _)⟩

theorem adm6_0 (m : (ℓ : Loc nD τ sig) → Buf (Elt F) ℓ) (c : Dev nD)
    (hR : Cert.EdgeLengths.InRange (m ((c.tc : Thread nD τ).loc main_arg1))) :
    (adm6 m c hR).1 0 = tbl m c (6 : Fin 20) 0 := rfl
theorem adm6_1 (m : (ℓ : Loc nD τ sig) → Buf (Elt F) ℓ) (c : Dev nD)
    (hR : Cert.EdgeLengths.InRange (m ((c.tc : Thread nD τ).loc main_arg1))) :
    (adm6 m c hR).1 1 = tbl m c (6 : Fin 20) 1 := rfl
theorem adm6_2 (m : (ℓ : Loc nD τ sig) → Buf (Elt F) ℓ) (c : Dev nD)
    (hR : Cert.EdgeLengths.InRange (m ((c.tc : Thread nD τ).loc main_arg1))) :
    (adm6 m c hR).1 2 = tbl m c (6 : Fin 20) 2 := rfl
theorem adm6_3 (m : (ℓ : Loc nD τ sig) → Buf (Elt F) ℓ) (c : Dev nD)
    (hR : Cert.EdgeLengths.InRange (m ((c.tc : Thread nD τ).loc main_arg1))) :
    (adm6 m c hR).1 3 = tbl m c (6 : Fin 20) 3 := rfl

end Cert.Kernel.Gen

end
-- ==== Proof.KW.Region7.lean ====
/-
  Region 7 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk7`),
  whatever it held before.

  The region's proof data then says: at every grid point each input window's buffer holds the table row its index
  table names there, and the output window's buffer is left at `outBlk7` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk7 (x0 x1 x2 x3 : Vec F S1x1x64 .f32) : Vec F S1x1x2 .f32 :=
  View.canon [⟨outRectD, k7_pay2 (View.ld x2 rowRect) (View.ld x3 rowRect)⟩,
              ⟨outRectB, k7_pay1 (View.ld x0 rowRect) (View.ld x1 rowRect)⟩]

/-- The two one-element stores tile the two-element block. -/
theorem outCover7 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk7` of the inputs. The index tables are not
    touched by the body (only the index maps read them), so nothing is asked of them. -/
theorem sound_kernel7 (c : Dev nD) (E : Set ℕ) (i : grid7.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk7 x0 x1 x2 x3)) -∗ K ⟨⟩))
      ⊢ wp frame (wpE (defs₀ (F := F)) Variants.none c none) E
          (cc7__gather_norm_kernel i a1 h1 a2 h2 a3 h3 a4 h4 a5 h5 a6 h6 a7 h7 a8 h8 a9 h9) K := by
  simp only [cc7__gather_norm_kernel_eq_skeleton]; unfold cc7__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover7 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg7 (F := F)).Adm)

/-- Window `w`'s block at point `t`, read off its array as the region finds it: for an input window the table row
    its index table names at `t`, for the output window the two-element row `t` of the result. -/
def iblk7 (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

/-- The proof data of region 7 on core `c`: the arrays as the region finds them; after the body at point `t` each
    input block as it was and the output block the two lengths; the invariant carries the untouched scoped
    buffers, the generator register and the four index tables, which only the index maps read. -/
def dat7 (c : Dev nD) : Dat τ (Elt F) Unit ℕ (UR sig nD τ) ℕ (cfg7 a) c where
  A w := V c (Pipeline.arrRef spec7 w)
  after w t := match w with
    | ⟨0, _⟩ => iblk7 V a c 0 t
    | ⟨1, _⟩ => iblk7 V a c 1 t
    | ⟨2, _⟩ => iblk7 V a c 2 t
    | ⟨3, _⟩ => iblk7 V a c 3 t
    | ⟨4, _⟩ => outBlk7 (iblk7 V a c 0 t) (iblk7 V a c 1 t) (iblk7 V a c 2 t) (iblk7 V a c 3 t)
  Φ _ := iprop(Pipeline.ΦA spec7 c ∗ Pipeline.prefHeld pre7 c (fun _ => fullShare) a.1)
  q w := inShare w
  owed _ := 0

theorem A_eq7 (c : Dev nD) (w : Fin (cfg7 a).W) : (dat7 V a c).A w = V c (Pipeline.arrRef spec7 w) := by
  dsimp only [dat7]

theorem after7_0 (c : Dev nD) (t : Fin (cfg7 a).N) : (dat7 V a c).after 0 t = iblk7 V a c 0 t := by dsimp only [dat7]; rfl
theorem after7_1 (c : Dev nD) (t : Fin (cfg7 a).N) : (dat7 V a c).after 1 t = iblk7 V a c 1 t := by dsimp only [dat7]; rfl
theorem after7_2 (c : Dev nD) (t : Fin (cfg7 a).N) : (dat7 V a c).after 2 t = iblk7 V a c 2 t := by dsimp only [dat7]; rfl
theorem after7_3 (c : Dev nD) (t : Fin (cfg7 a).N) : (dat7 V a c).after 3 t = iblk7 V a c 3 t := by dsimp only [dat7]; rfl
theorem after7_4 (c : Dev nD) (t : Fin (cfg7 a).N) : (dat7 V a c).after 4 t
    = outBlk7 (iblk7 V a c 0 t) (iblk7 V a c 1 t) (iblk7 V a c 2 t) (iblk7 V a c 3 t) := by dsimp only [dat7]; rfl

/-- Input window 0 holds its row at every point, fetched there or not: the body never writes an input block, the
    window is never idle and its blocks are whole rows. -/
theorem before7_0 (c : Dev nD) (t : Fin (cfg7 a).N) (d) : (dat7 V a c).before 0 t d = iblk7 V a c 0 t :=
  ((dat7 V a c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)

/-- Input window 1 holds its row at every point, fetched there or not: the body never writes an input block, the
    window is never idle and its blocks are whole rows. -/
theorem before7_1 (c : Dev nD) (t : Fin (cfg7 a).N) (d) : (dat7 V a c).before 1 t d = iblk7 V a c 1 t :=
  ((dat7 V a c).before_in_eq_fetched 1 rfl (fun _ => rfl) (fun _ _ _ => rfl)
      (fun t => by rw [after7_1]; unfold Dat.blockOf iblk7; rw [A_eq7]; try rfl) t d).trans
    (by unfold Dat.fetched Dat.blockOf iblk7; rw [A_eq7]; try rfl)

/-- Input window 2 holds its row at every point, fetched there or not: the body never writes an input block, the
    window is never idle and its blocks are whole rows. -/
theorem before7_2 (c : Dev nD) (t : Fin (cfg7 a).N) (d) : (dat7 V a c).before 2 t d = iblk7 V a c 2 t :=
  ((dat7 V a c).before_in_eq_fetched 2 rfl (fun _ => rfl) (fun _ _ _ => rfl)
      (fun t => by rw [after7_2]; unfold Dat.blockOf iblk7; rw [A_eq7]; try rfl) t d).trans
    (by unfold Dat.fetched Dat.blockOf iblk7; rw [A_eq7]; try rfl)

/-- Input window 3 holds its row at every point, fetched there or not: the body never writes an input block, the
    window is never idle and its blocks are whole rows. -/
theorem before7_3 (c : Dev nD) (t : Fin (cfg7 a).N) (d) : (dat7 V a c).before 3 t d = iblk7 V a c 3 t :=
  ((dat7 V a c).before_in_eq_fetched 3 rfl (fun _ => rfl) (fun _ _ _ => rfl)
      (fun t => by rw [after7_3]; unfold Dat.blockOf iblk7; rw [A_eq7]; try rfl) t d).trans
    (by unfold Dat.fetched Dat.blockOf iblk7; rw [A_eq7]; try rfl)

/-! ## The body at a generic point -/

/-- The kernel body as region 7 calls it at point `t`: the point's coordinates, the four index tables whole, and each
    window's current staging buffer. -/
abbrev bodyAt7 (t : Fin (cfg7 a).N) : Prog (TpuEff nD τ sig (Elt F) Λ₀ .tc) PUnit :=
  cc7__gather_norm_kernel (grid7.coords t) (Memref.whole main_v44) (Memref.isWhole_whole _) (Memref.whole main_v45) (Memref.isWhole_whole _)
    (Memref.whole main_v46) (Memref.isWhole_whole _) (Memref.whole main_v47) (Memref.isWhole_whole _)
    (spec7_0.stage ((cfg7 a).slots t 0)) (hstage7_0 (((cfg7 a).slots t 0).cast nbuf7_0))
    (spec7_1.stage ((cfg7 a).slots t 1)) (hstage7_1 (((cfg7 a).slots t 1).cast nbuf7_1))
    (spec7_2.stage ((cfg7 a).slots t 2)) (hstage7_2 (((cfg7 a).slots t 2).cast nbuf7_2))
    (spec7_3.stage ((cfg7 a).slots t 3)) (hstage7_3 (((cfg7 a).slots t 3).cast nbuf7_3))
    (spec7_4.stage ((cfg7 a).slots t 4)) (hstage7_4 (((cfg7 a).slots t 4).cast nbuf7_4))

/-- The body at any point: each input buffer holds its row (`before7_w`), so `sound_kernel7` applies; the invariant
    (with the index tables in it) and what the core owes pass through unread. -/
theorem sound_body7 (c : Dev nD) (t : Fin (cfg7 a).N) :
    iprop((dat7 V a c).Φ t.castSucc ∗ (dat7 V a c).owesAt () t.castSucc
      ∗ (∃ d, owns (c : Thread nD τ) (((cfg7 a).win 0).stage ((cfg7 a).slots t 0)) fullShare ((dat7 V a c).before 0 t d))
      ∗ (∃ d, owns (c : Thread nD τ) (((cfg7 a).win 1).stage ((cfg7 a).slots t 1)) fullShare ((dat7 V a c).before 1 t d))
      ∗ (∃ d, owns (c : Thread nD τ) (((cfg7 a).win 2).stage ((cfg7 a).slots t 2)) fullShare ((dat7 V a c).before 2 t d))
      ∗ (∃ d, owns (c : Thread nD τ) (((cfg7 a).win 3).stage ((cfg7 a).slots t 3)) fullShare ((dat7 V a c).before 3 t d))
      ∗ (∃ d, owns (c : Thread nD τ) (((cfg7 a).win 4).stage ((cfg7 a).slots t 4)) fullShare ((dat7 V a c).before 4 t d)))
    ⊢ wp frame (wpE (defs₀ (F := F)) Variants.none c none) Set.univ
        (bodyAt7 a t)
        (fun _ => iprop((dat7 V a c).Φ t.succ ∗ (dat7 V a c).owesAt () t.succ
          ∗ owns (c : Thread nD τ) (((cfg7 a).win 0).stage ((cfg7 a).slots t 0)) fullShare ((dat7 V a c).after 0 t)
          ∗ owns (c : Thread nD τ) (((cfg7 a).win 1).stage ((cfg7 a).slots t 1)) fullShare ((dat7 V a c).after 1 t)
          ∗ owns (c : Thread nD τ) (((cfg7 a).win 2).stage ((cfg7 a).slots t 2)) fullShare ((dat7 V a c).after 2 t)
          ∗ owns (c : Thread nD τ) (((cfg7 a).win 3).stage ((cfg7 a).slots t 3)) fullShare ((dat7 V a c).after 3 t)
          ∗ owns (c : Thread nD τ) (((cfg7 a).win 4).stage ((cfg7 a).slots t 4)) fullShare ((dat7 V a c).after 4 t))) := by
  simp only [before7_0, before7_1, before7_2, before7_3]
  rw [show (dat7 V a c).Φ t.succ = (dat7 V a c).Φ t.castSucc from rfl,
    show (dat7 V a c).owesAt () t.succ = (dat7 V a c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  unfold bodyAt7
  iapply (sound_kernel7 c Set.univ _ _ _ _ _ _ _ _ _ _ _ _ _ _ _ _ _ _ _ (iblk7 V a c 0 t) (iblk7 V a c 1 t) (iblk7 V a c 2 t) (iblk7 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 7, at every point. -/
theorem body_obligation7 (c : Dev nD) : BodyObligation (dat7 (F := F) V a c) (defs₀ (F := F)) Variants.none () Set.univ := fun t => by
  rw [bigSep_W7, bigSep_W7]
  exact sound_body7 V a c t

end Region0

end Cert.Kernel.Gen

end
-- ==== Proof.KW.Ok7.lean ====
/-
  The index tables of region 7 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok7_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 7's side condition. -/
theorem ok7_of_lt (pf : pre7.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok7 pf := by
  unfold ok7
  refine ⟨fun i => ⟨?_, Or.inl rfl⟩, fun i => ⟨?_, Or.inl rfl⟩, fun i => ⟨?_, Or.inl rfl⟩, fun i => ⟨?_, Or.inl rfl⟩⟩
  · exact ok7_fits _ (h0 _)
  · exact ok7_fits _ (h1 _)
  · exact ok7_fits _ (h2 _)
  · exact ok7_fits _ (h3 _)

/-- The four index tables of region 7 as the launch memory holds them on core `c`. -/
def pf7 (m : (ℓ : Loc nD τ sig) → Buf (Elt F) ℓ) (c : Dev nD) : pre7.Contents (Elt F) :=
  fun | 0 => tbl m c (7 : Fin 20) 0 | 1 => tbl m c (7 : Fin 20) 1 | 2 => tbl m c (7 : Fin 20) 2 | 3 => tbl m c (7 : Fin 20) 3
      | ⟨_ + 4, h⟩ => absurd h (Nat.not_lt.2 (Nat.le_add_left _ _))

/-- In range, those tables are admissible contents of region 7's pipeline. -/
def adm7 (m : (ℓ : Loc nD τ sig) → Buf (Elt F) ℓ) (c : Dev nD)
    (hR : Cert.EdgeLengths.InRange (m ((c.tc : Thread nD τ).loc main_arg1))) : (pcfg7 (F := F)).Adm :=
  ⟨pf7 m c, ok7_of_lt _ (tbl_lt m c hR _ _) (tbl_lt m c hR _ _) (tbl_lt m c hR _ _) (tbl_lt m c hR _ _)⟩

theorem adm7_0 (m : (ℓ : Loc nD τ sig) → Buf (Elt F) ℓ) (c : Dev nD)
    (hR : Cert.EdgeLengths.InRange (m ((c.tc : Thread nD τ).loc main_arg1))) :
    (adm7 m c hR).1 0 = tbl m c (7 : Fin 20) 0 := rfl
theorem adm7_1 (m : (ℓ : Loc nD τ sig) → Buf (Elt F) ℓ) (c : Dev nD)
    (hR : Cert.EdgeLengths.InRange (m ((c.tc : Thread nD τ).loc main_arg1))) :
    (adm7 m c hR).1 1 = tbl m c (7 : Fin 20) 1 := rfl
theorem adm7_2 (m : (ℓ : Loc nD τ sig) → Buf (Elt F) ℓ) (c : Dev nD)
    (hR : Cert.EdgeLengths.InRange (m ((c.tc : Thread nD τ).loc main_arg1))) :
    (adm7 m c hR).1 2 = tbl m c (7 : Fin 20) 2 := rfl
theorem adm7_3 (m : (ℓ : Loc nD τ sig) → Buf (Elt F) ℓ) (c : Dev nD)
    (hR : Cert.EdgeLengths.InRange (m ((c.tc : Thread nD τ).loc main_arg1))) :
    (adm7 m c hR).1 3 = tbl m c (7 : Fin 20) 3 := rfl

end Cert.Kernel.Gen

end
-- ==== Proof.KW.Region8.lean ====
/-
  Region 8 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk8`),
  whatever it held before.

  The region's proof data then says: at every grid point each input window's buffer holds the table row its index
  table names there, and the output window's buffer is left at `outBlk8` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk8 (x0 x1 x2 x3 : Vec F S1x1x64 .f32) : Vec F S1x1x2 .f32 :=
  View.canon [⟨outRectD, k8_pay2 (View.ld x2 rowRect) (View.ld x3 rowRect)⟩,
              ⟨outRectB, k8_pay1 (View.ld x0 rowRect) (View.ld x1 rowRect)⟩]

/-- The two one-element stores tile the two-element block. -/
theorem outCover8 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk8` of the inputs. The index tables are not
    touched by the body (only the index maps read them), so nothing is asked of them. -/
theorem sound_kernel8 (c : Dev nD) (E : Set ℕ) (i : grid8.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk8 x0 x1 x2 x3)) -∗ K ⟨⟩))
      ⊢ wp frame (wpE (defs₀ (F := F)) Variants.none c none) E
          (cc8__gather_norm_kernel i a1 h1 a2 h2 a3 h3 a4 h4 a5 h5 a6 h6 a7 h7 a8 h8 a9 h9) K := by
  simp only [cc8__gather_norm_kernel_eq_skeleton]; unfold cc8__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover8 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg8 (F := F)).Adm)

/-- Window `w`'s block at point `t`, read off its array as the region finds it: for an input window the table row
    its index table names at `t`, for the output window the two-element row `t` of the result. -/
def iblk8 (c : Dev nD) (w : Fin (cfg8 a).W) (t : Fin (cfg8 a).N) :
    (((cfg8 a).win w).xblock ((cfg8 a).grid.coords t)).Idx → Elt F ((cfg8 a).win w).elt :=
  (((cfg8 a).win w).blk t).view.read (Elt F) (V c (Pipeline.arrRef spec8 w))

/-- The proof data of region 8 on core `c`: the arrays as the region finds them; after the body at point `t` each
    input block as it was and the output block the two lengths; the invariant carries the untouched scoped
    buffers, the generator register and the four index tables, which only the index maps read. -/
def dat8 (c : Dev nD) : Dat τ (Elt F) Unit ℕ (UR sig nD τ) ℕ (cfg8 a) c where
  A w := V c (Pipeline.arrRef spec8 w)
  after w t := match w with
    | ⟨0, _⟩ => iblk8 V a c 0 t
    | ⟨1, _⟩ => iblk8 V a c 1 t
    | ⟨2, _⟩ => iblk8 V a c 2 t
    | ⟨3, _⟩ => iblk8 V a c 3 t
    | ⟨4, _⟩ => outBlk8 (iblk8 V a c 0 t) (iblk8 V a c 1 t) (iblk8 V a c 2 t) (iblk8 V a c 3 t)
  Φ _ := iprop(Pipeline.ΦA spec8 c ∗ Pipeline.prefHeld pre8 c (fun _ => fullShare) a.1)
  q w := inShare w
  owed _ := 0

theorem A_eq8 (c : Dev nD) (w : Fin (cfg8 a).W) : (dat8 V a c).A w = V c (Pipeline.arrRef spec8 w) := by
  dsimp only [dat8]

theorem after8_0 (c : Dev nD) (t : Fin (cfg8 a).N) : (dat8 V a c).after 0 t = iblk8 V a c 0 t := by dsimp only [dat8]; rfl
theorem after8_1 (c : Dev nD) (t : Fin (cfg8 a).N) : (dat8 V a c).after 1 t = iblk8 V a c 1 t := by dsimp only [dat8]; rfl
theorem after8_2 (c : Dev nD) (t : Fin (cfg8 a).N) : (dat8 V a c).after 2 t = iblk8 V a c 2 t := by dsimp only [dat8]; rfl
theorem after8_3 (c : Dev nD) (t : Fin (cfg8 a).N) : (dat8 V a c).after 3 t = iblk8 V a c 3 t := by dsimp only [dat8]; rfl
theorem after8_4 (c : Dev nD) (t : Fin (cfg8 a).N) : (dat8 V a c).after 4 t
    = outBlk8 (iblk8 V a c 0 t) (iblk8 V a c 1 t) (iblk8 V a c 2 t) (iblk8 V a c 3 t) := by dsimp only [dat8]; rfl

/-- Input window 0 holds its row at every point, fetched there or not: the body never writes an input block, the
    window is never idle and its blocks are whole rows. -/
theorem before8_0 (c : Dev nD) (t : Fin (cfg8 a).N) (d) : (dat8 V a c).before 0 t d = iblk8 V a c 0 t :=
  ((dat8 V a c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)

/-- Input window 1 holds its row at every point, fetched there or not: the body never writes an input block, the
    window is never idle and its blocks are whole rows. -/
theorem before8_1 (c : Dev nD) (t : Fin (cfg8 a).N) (d) : (dat8 V a c).before 1 t d = iblk8 V a c 1 t :=
  ((dat8 V a c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)

/-- Input window 2 holds its row at every point, fetched there or not: the body never writes an input block, the
    window is never idle and its blocks are whole rows. -/
theorem before8_2 (c : Dev nD) (t : Fin (cfg8 a).N) (d) : (dat8 V a c).before 2 t d = iblk8 V a c 2 t :=
  ((dat8 V a c).before_in_eq_fetched 2 rfl (fun _ => rfl) (fun _ _ _ => rfl)
      (fun t => by rw [after8_2]; unfold Dat.blockOf iblk8; rw [A_eq8]; try rfl) t d).trans
    (by unfold Dat.fetched Dat.blockOf iblk8; rw [A_eq8]; try rfl)

/-- Input window 3 holds its row at every point, fetched there or not: the body never writes an input block, the
    window is never idle and its blocks are whole rows. -/
theorem before8_3 (c : Dev nD) (t : Fin (cfg8 a).N) (d) : (dat8 V a c).before 3 t d = iblk8 V a c 3 t :=
  ((dat8 V a c).before_in_eq_fetched 3 rfl (fun _ => rfl) (fun _ _ _ => rfl)
      (fun t => by rw [after8_3]; unfold Dat.blockOf iblk8; rw [A_eq8]; try rfl) t d).trans
    (by unfold Dat.fetched Dat.blockOf iblk8; rw [A_eq8]; try rfl)

/-! ## The body at a generic point -/

/-- The kernel body as region 8 calls it at point `t`: the point's coordinates, the four index tables whole, and each
    window's current staging buffer. -/
abbrev bodyAt8 (t : Fin (cfg8 a).N) : Prog (TpuEff nD τ sig (Elt F) Λ₀ .tc) PUnit :=
  cc8__gather_norm_kernel (grid8.coords t) (Memref.whole main_v49) (Memref.isWhole_whole _) (Memref.whole main_v50) (Memref.isWhole_whole _)
    (Memref.whole main_v51) (Memref.isWhole_whole _) (Memref.whole main_v52) (Memref.isWhole_whole _)
    (spec8_0.stage ((cfg8 a).slots t 0)) (hstage8_0 (((cfg8 a).slots t 0).cast nbuf8_0))
    (spec8_1.stage ((cfg8 a).slots t 1)) (hstage8_1 (((cfg8 a).slots t 1).cast nbuf8_1))
    (spec8_2.stage ((cfg8 a).slots t 2)) (hstage8_2 (((cfg8 a).slots t 2).cast nbuf8_2))
    (spec8_3.stage ((cfg8 a).slots t 3)) (hstage8_3 (((cfg8 a).slots t 3).cast nbuf8_3))
    (spec8_4.stage ((cfg8 a).slots t 4)) (hstage8_4 (((cfg8 a).slots t 4).cast nbuf8_4))

/-- The body at any point: each input buffer holds its row (`before8_w`), so `sound_kernel8` applies; the invariant
    (with the index tables in it) and what the core owes pass through unread. -/
theorem sound_body8 (c : Dev nD) (t : Fin (cfg8 a).N) :
    iprop((dat8 V a c).Φ t.castSucc ∗ (dat8 V a c).owesAt () t.castSucc
      ∗ (∃ d, owns (c : Thread nD τ) (((cfg8 a).win 0).stage ((cfg8 a).slots t 0)) fullShare ((dat8 V a c).before 0 t d))
      ∗ (∃ d, owns (c : Thread nD τ) (((cfg8 a).win 1).stage ((cfg8 a).slots t 1)) fullShare ((dat8 V a c).before 1 t d))
      ∗ (∃ d, owns (c : Thread nD τ) (((cfg8 a).win 2).stage ((cfg8 a).slots t 2)) fullShare ((dat8 V a c).before 2 t d))
      ∗ (∃ d, owns (c : Thread nD τ) (((cfg8 a).win 3).stage ((cfg8 a).slots t 3)) fullShare ((dat8 V a c).before 3 t d))
      ∗ (∃ d, owns (c : Thread nD τ) (((cfg8 a).win 4).stage ((cfg8 a).slots t 4)) fullShare ((dat8 V a c).before 4 t d)))
    ⊢ wp frame (wpE (defs₀ (F := F)) Variants.none c none) Set.univ
        (bodyAt8 a t)
        (fun _ => iprop((dat8 V a c).Φ t.succ ∗ (dat8 V a c).owesAt () t.succ
          ∗ owns (c : Thread nD τ) (((cfg8 a).win 0).stage ((cfg8 a).slots t 0)) fullShare ((dat8 V a c).after 0 t)
          ∗ owns (c : Thread nD τ) (((cfg8 a).win 1).stage ((cfg8 a).slots t 1)) fullShare ((dat8 V a c).after 1 t)
          ∗ owns (c : Thread nD τ) (((cfg8 a).win 2).stage ((cfg8 a).slots t 2)) fullShare ((dat8 V a c).after 2 t)
          ∗ owns (c : Thread nD τ) (((cfg8 a).win 3).stage ((cfg8 a).slots t 3)) fullShare ((dat8 V a c).after 3 t)
          ∗ owns (c : Thread nD τ) (((cfg8 a).win 4).stage ((cfg8 a).slots t 4)) fullShare ((dat8 V a c).after 4 t))) := by
  simp only [before8_0, before8_1, before8_2, before8_3]
  rw [show (dat8 V a c).Φ t.succ = (dat8 V a c).Φ t.castSucc from rfl,
    show (dat8 V a c).owesAt () t.succ = (dat8 V a c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  unfold bodyAt8
  iapply (sound_kernel8 c Set.univ _ _ _ _ _ _ _ _ _ _ _ _ _ _ _ _ _ _ _ (iblk8 V a c 0 t) (iblk8 V a c 1 t) (iblk8 V a c 2 t) (iblk8 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 8, at every point. -/
theorem body_obligation8 (c : Dev nD) : BodyObligation (dat8 (F := F) V a c) (defs₀ (F := F)) Variants.none () Set.univ := fun t => by
  rw [bigSep_W8, bigSep_W8]
  exact sound_body8 V a c t

end Region0

end Cert.Kernel.Gen

end
-- ==== Proof.KW.Ok8.lean ====
/-
  The index tables of region 8 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok8_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 8's side condition. -/
theorem ok8_of_lt (pf : pre8.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok8 pf := by
  unfold ok8
  refine ⟨fun i => ⟨?_, Or.inl rfl⟩, fun i => ⟨?_, Or.inl rfl⟩, fun i => ⟨?_, Or.inl rfl⟩, fun i => ⟨?_, Or.inl rfl⟩⟩
  · exact ok8_fits _ (h0 _)
  · exact ok8_fits _ (h1 _)
  · exact ok8_fits _ (h2 _)
  · exact ok8_fits _ (h3 _)

/-- The four index tables of region 8 as the launch memory holds them on core `c`. -/
def pf8 (m : (ℓ : Loc nD τ sig) → Buf (Elt F) ℓ) (c : Dev nD) : pre8.Contents (Elt F) :=
  fun | 0 => tbl m c (8 : Fin 20) 0 | 1 => tbl m c (8 : Fin 20) 1 | 2 => tbl m c (8 : Fin 20) 2 | 3 => tbl m c (8 : Fin 20) 3
      | ⟨_ + 4, h⟩ => absurd h (Nat.not_lt.2 (Nat.le_add_left _ _))

/-- In range, those tables are admissible contents of region 8's pipeline. -/
def adm8 (m : (ℓ : Loc nD τ sig) → Buf (Elt F) ℓ) (c : Dev nD)
    (hR : Cert.EdgeLengths.InRange (m ((c.tc : Thread nD τ).loc main_arg1))) : (pcfg8 (F := F)).Adm :=
  ⟨pf8 m c, ok8_of_lt _ (tbl_lt m c hR _ _) (tbl_lt m c hR _ _) (tbl_lt m c hR _ _) (tbl_lt m c hR _ _)⟩

theorem adm8_0 (m : (ℓ : Loc nD τ sig) → Buf (Elt F) ℓ) (c : Dev nD)
    (hR : Cert.EdgeLengths.InRange (m ((c.tc : Thread nD τ).loc main_arg1))) :
    (adm8 m c hR).1 0 = tbl m c (8 : Fin 20) 0 := rfl
theorem adm8_1 (m : (ℓ : Loc nD τ sig) → Buf (Elt F) ℓ) (c : Dev nD)
    (hR : Cert.EdgeLengths.InRange (m ((c.tc : Thread nD τ).loc main_arg1))) :
    (adm8 m c hR).1 1 = tbl m c (8 : Fin 20) 1 := rfl
theorem adm8_2 (m : (ℓ : Loc nD τ sig) → Buf (Elt F) ℓ) (c : Dev nD)
    (hR : Cert.EdgeLengths.InRange (m ((c.tc : Thread nD τ).loc main_arg1))) :
    (adm8 m c hR).1 2 = tbl m c (8 : Fin 20) 2 := rfl
theorem adm8_3 (m : (ℓ : Loc nD τ sig) → Buf (Elt F) ℓ) (c : Dev nD)
    (hR : Cert.EdgeLengths.InRange (m ((c.tc : Thread nD τ).loc main_arg1))) :
    (adm8 m c hR).1 3 = tbl m c (8 : Fin 20) 3 := rfl

end Cert.Kernel.Gen

end
-- ==== Proof.KW.Region9.lean ====
/-
  Region 9 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk9`),
  whatever it held before.

  The region's proof data then says: at every grid point each input window's buffer holds the table row its index
  table names there, and the output window's buffer is left at `outBlk9` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk9 (x0 x1 x2 x3 : Vec F S1x1x64 .f32) : Vec F S1x1x2 .f32 :=
  View.canon [⟨outRectD, k9_pay2 (View.ld x2 rowRect) (View.ld x3 rowRect)⟩,
              ⟨outRectB, k9_pay1 (View.ld x0 rowRect) (View.ld x1 rowRect)⟩]

/-- The two one-element stores tile the two-element block. -/
theorem outCover9 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk9` of the inputs. The index tables are not
    touched by the body (only the index maps read them), so nothing is asked of them. -/
theorem sound_kernel9 (c : Dev nD) (E : Set ℕ) (i : grid9.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk9 x0 x1 x2 x3)) -∗ K ⟨⟩))
      ⊢ wp frame (wpE (defs₀ (F := F)) Variants.none c none) E
          (cc9__gather_norm_kernel i a1 h1 a2 h2 a3 h3 a4 h4 a5 h5 a6 h6 a7 h7 a8 h8 a9 h9) K := by
  simp only [cc9__gather_norm_kernel_eq_skeleton]; unfold cc9__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover9 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg9 (F := F)).Adm)

/-- Window `w`'s block at point `t`, read off its array as the region finds it: for an input window the table row
    its index table names at `t`, for the output window the two-element row `t` of the result. -/
def iblk9 (c : Dev nD) (w : Fin (cfg9 a).W) (t : Fin (cfg9 a).N) :
    (((cfg9 a).win w).xblock ((cfg9 a).grid.coords t)).Idx → Elt F ((cfg9 a).win w).elt :=
  (((cfg9 a).win w).blk t).view.read (Elt F) (V c (Pipeline.arrRef spec9 w))

/-- The proof data of region 9 on core `c`: the arrays as the region finds them; after the body at point `t` each
    input block as it was and the output block the two lengths; the invariant carries the untouched scoped
    buffers, the generator register and the four index tables, which only the index maps read. -/
def dat9 (c : Dev nD) : Dat τ (Elt F) Unit ℕ (UR sig nD τ) ℕ (cfg9 a) c where
  A w := V c (Pipeline.arrRef spec9 w)
  after w t := match w with
    | ⟨0, _⟩ => iblk9 V a c 0 t
    | ⟨1, _⟩ => iblk9 V a c 1 t
    | ⟨2, _⟩ => iblk9 V a c 2 t
    | ⟨3, _⟩ => iblk9 V a c 3 t
    | ⟨4, _⟩ => outBlk9 (iblk9 V a c 0 t) (iblk9 V a c 1 t) (iblk9 V a c 2 t) (iblk9 V a c 3 t)
  Φ _ := iprop(Pipeline.ΦA spec9 c ∗ Pipeline.prefHeld pre9 c (fun _ => fullShare) a.1)
  q w := inShare w
  owed _ := 0

theorem A_eq9 (c : Dev nD) (w : Fin (cfg9 a).W) : (dat9 V a c).A w = V c (Pipeline.arrRef spec9 w) := by
  dsimp only [dat9]

theorem after9_0 (c : Dev nD) (t : Fin (cfg9 a).N) : (dat9 V a c).after 0 t = iblk9 V a c 0 t := by dsimp only [dat9]; rfl
theorem after9_1 (c : Dev nD) (t : Fin (cfg9 a).N) : (dat9 V a c).after 1 t = iblk9 V a c 1 t := by dsimp only [dat9]; rfl
theorem after9_2 (c : Dev nD) (t : Fin (cfg9 a).N) : (dat9 V a c).after 2 t = iblk9 V a c 2 t := by dsimp only [dat9]; rfl
theorem after9_3 (c : Dev nD) (t : Fin (cfg9 a).N) : (dat9 V a c).after 3 t = iblk9 V a c 3 t := by dsimp only [dat9]; rfl
theorem after9_4 (c : Dev nD) (t : Fin (cfg9 a).N) : (dat9 V a c).after 4 t
    = outBlk9 (iblk9 V a c 0 t) (iblk9 V a c 1 t) (iblk9 V a c 2 t) (iblk9 V a c 3 t) := by dsimp only [dat9]; rfl

/-- Input window 0 holds its row at every point, fetched there or not: the body never writes an input block, the
    window is never idle and its blocks are whole rows. -/
theorem before9_0 (c : Dev nD) (t : Fin (cfg9 a).N) (d) : (dat9 V a c).before 0 t d = iblk9 V a c 0 t :=
  ((dat9 V a c).before_in_eq_fetched 0 rfl (fun _ => rfl) (fun _ _ _ => rfl)
      (fun t => by rw [after9_0]; unfold Dat.blockOf iblk9; rw [A_eq9]; try rfl) t d).trans
    (by unfold Dat.fetched Dat.blockOf iblk9; rw [A_eq9]; try rfl)

/-- Input window 1 holds its row at every point, fetched there or not: the body never writes an input block, the
    window is never idle and its blocks are whole rows. -/
theorem before9_1 (c : Dev nD) (t : Fin (cfg9 a).N) (d) : (dat9 V a c).before 1 t d = iblk9 V a c 1 t :=
  ((dat9 V a c).before_in_eq_fetched 1 rfl (fun _ => rfl) (fun _ _ _ => rfl)
      (fun t => by rw [after9_1]; unfold Dat.blockOf iblk9; rw [A_eq9]; try rfl) t d).trans
    (by unfold Dat.fetched Dat.blockOf iblk9; rw [A_eq9]; try rfl)

/-- Input window 2 holds its row at every point, fetched there or not: the body never writes an input block, the
    window is never idle and its blocks are whole rows. -/
theorem before9_2 (c : Dev nD) (t : Fin (cfg9 a).N) (d) : (dat9 V a c).before 2 t d = iblk9 V a c 2 t :=
  ((dat9 V a c).before_in_eq_fetched 2 rfl (fun _ => rfl) (fun _ _ _ => rfl)
      (fun t => by rw [after9_2]; unfold Dat.blockOf iblk9; rw [A_eq9]; try rfl) t d).trans
    (by unfold Dat.fetched Dat.blockOf iblk9; rw [A_eq9]; try rfl)

/-- Input window 3 holds its row at every point, fetched there or not: the body never writes an input block, the
    window is never idle and its blocks are whole rows. -/
theorem before9_3 (c : Dev nD) (t : Fin (cfg9 a).N) (d) : (dat9 V a c).before 3 t d = iblk9 V a c 3 t :=
  ((dat9 V a c).before_in_eq_fetched 3 rfl (fun _ => rfl) (fun _ _ _ => rfl)
      (fun t => by rw [after9_3]; unfold Dat.blockOf iblk9; rw [A_eq9]; try rfl) t d).trans
    (by unfold Dat.fetched Dat.blockOf iblk9; rw [A_eq9]; try rfl)

/-! ## The body at a generic point -/

/-- The kernel body as region 9 calls it at point `t`: the point's coordinates, the four index tables whole, and each
    window's current staging buffer. -/
abbrev bodyAt9 (t : Fin (cfg9 a).N) : Prog (TpuEff nD τ sig (Elt F) Λ₀ .tc) PUnit :=
  cc9__gather_norm_kernel (grid9.coords t) (Memref.whole main_v54) (Memref.isWhole_whole _) (Memref.whole main_v55) (Memref.isWhole_whole _)
    (Memref.whole main_v56) (Memref.isWhole_whole _) (Memref.whole main_v57) (Memref.isWhole_whole _)
    (spec9_0.stage ((cfg9 a).slots t 0)) (hstage9_0 (((cfg9 a).slots t 0).cast nbuf9_0))
    (spec9_1.stage ((cfg9 a).slots t 1)) (hstage9_1 (((cfg9 a).slots t 1).cast nbuf9_1))
    (spec9_2.stage ((cfg9 a).slots t 2)) (hstage9_2 (((cfg9 a).slots t 2).cast nbuf9_2))
    (spec9_3.stage ((cfg9 a).slots t 3)) (hstage9_3 (((cfg9 a).slots t 3).cast nbuf9_3))
    (spec9_4.stage ((cfg9 a).slots t 4)) (hstage9_4 (((cfg9 a).slots t 4).cast nbuf9_4))

/-- The body at any point: each input buffer holds its row (`before9_w`), so `sound_kernel9` applies; the invariant
    (with the index tables in it) and what the core owes pass through unread. -/
theorem sound_body9 (c : Dev nD) (t : Fin (cfg9 a).N) :
    iprop((dat9 V a c).Φ t.castSucc ∗ (dat9 V a c).owesAt () t.castSucc
      ∗ (∃ d, owns (c : Thread nD τ) (((cfg9 a).win 0).stage ((cfg9 a).slots t 0)) fullShare ((dat9 V a c).before 0 t d))
      ∗ (∃ d, owns (c : Thread nD τ) (((cfg9 a).win 1).stage ((cfg9 a).slots t 1)) fullShare ((dat9 V a c).before 1 t d))
      ∗ (∃ d, owns (c : Thread nD τ) (((cfg9 a).win 2).stage ((cfg9 a).slots t 2)) fullShare ((dat9 V a c).before 2 t d))
      ∗ (∃ d, owns (c : Thread nD τ) (((cfg9 a).win 3).stage ((cfg9 a).slots t 3)) fullShare ((dat9 V a c).before 3 t d))
      ∗ (∃ d, owns (c : Thread nD τ) (((cfg9 a).win 4).stage ((cfg9 a).slots t 4)) fullShare ((dat9 V a c).before 4 t d)))
    ⊢ wp frame (wpE (defs₀ (F := F)) Variants.none c none) Set.univ
        (bodyAt9 a t)
        (fun _ => iprop((dat9 V a c).Φ t.succ ∗ (dat9 V a c).owesAt () t.succ
          ∗ owns (c : Thread nD τ) (((cfg9 a).win 0).stage ((cfg9 a).slots t 0)) fullShare ((dat9 V a c).after 0 t)
          ∗ owns (c : Thread nD τ) (((cfg9 a).win 1).stage ((cfg9 a).slots t 1)) fullShare ((dat9 V a c).after 1 t)
          ∗ owns (c : Thread nD τ) (((cfg9 a).win 2).stage ((cfg9 a).slots t 2)) fullShare ((dat9 V a c).after 2 t)
          ∗ owns (c : Thread nD τ) (((cfg9 a).win 3).stage ((cfg9 a).slots t 3)) fullShare ((dat9 V a c).after 3 t)
          ∗ owns (c : Thread nD τ) (((cfg9 a).win 4).stage ((cfg9 a).slots t 4)) fullShare ((dat9 V a c).after 4 t))) := by
  simp only [before9_0, before9_1, before9_2, before9_3]
  rw [show (dat9 V a c).Φ t.succ = (dat9 V a c).Φ t.castSucc from rfl,
    show (dat9 V a c).owesAt () t.succ = (dat9 V a c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  unfold bodyAt9
  iapply (sound_kernel9 c Set.univ _ _ _ _ _ _ _ _ _ _ _ _ _ _ _ _ _ _ _ (iblk9 V a c 0 t) (iblk9 V a c 1 t) (iblk9 V a c 2 t) (iblk9 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 9, at every point. -/
theorem body_obligation9 (c : Dev nD) : BodyObligation (dat9 (F := F) V a c) (defs₀ (F := F)) Variants.none () Set.univ := fun t => by
  rw [bigSep_W9, bigSep_W9]
  exact sound_body9 V a c t

end Region0

end Cert.Kernel.Gen

end
-- ==== Proof.KW.Ok9.lean ====
/-
  The index tables of region 9 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok9_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 9's side condition. -/
theorem ok9_of_lt (pf : pre9.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok9 pf := by
  unfold ok9
  refine ⟨fun i => ⟨?_, Or.inl rfl⟩, fun i => ⟨?_, Or.inl rfl⟩, fun i => ⟨?_, Or.inl rfl⟩, fun i => ⟨?_, Or.inl rfl⟩⟩
  · exact ok9_fits _ (h0 _)
  · exact ok9_fits _ (h1 _)
  · exact ok9_fits _ (h2 _)
  · exact ok9_fits _ (h3 _)

/-- The four index tables of region 9 as the launch memory holds them on core `c`. -/
def pf9 (m : (ℓ : Loc nD τ sig) → Buf (Elt F) ℓ) (c : Dev nD) : pre9.Contents (Elt F) :=
  fun | 0 => tbl m c (9 : Fin 20) 0 | 1 => tbl m c (9 : Fin 20) 1 | 2 => tbl m c (9 : Fin 20) 2 | 3 => tbl m c (9 : Fin 20) 3
      | ⟨_ + 4, h⟩ => absurd h (Nat.not_lt.2 (Nat.le_add_left _ _))

/-- In range, those tables are admissible contents of region 9's pipeline. -/
def adm9 (m : (ℓ : Loc nD τ sig) → Buf (Elt F) ℓ) (c : Dev nD)
    (hR : Cert.EdgeLengths.InRange (m ((c.tc : Thread nD τ).loc main_arg1))) : (pcfg9 (F := F)).Adm :=
  ⟨pf9 m c, ok9_of_lt _ (tbl_lt m c hR _ _) (tbl_lt m c hR _ _) (tbl_lt m c hR _ _) (tbl_lt m c hR _ _)⟩

theorem adm9_0 (m : (ℓ : Loc nD τ sig) → Buf (Elt F) ℓ) (c : Dev nD)
    (hR : Cert.EdgeLengths.InRange (m ((c.tc : Thread nD τ).loc main_arg1))) :
    (adm9 m c hR).1 0 = tbl m c (9 : Fin 20) 0 := rfl
theorem adm9_1 (m : (ℓ : Loc nD τ sig) → Buf (Elt F) ℓ) (c : Dev nD)
    (hR : Cert.EdgeLengths.InRange (m ((c.tc : Thread nD τ).loc main_arg1))) :
    (adm9 m c hR).1 1 = tbl m c (9 : Fin 20) 1 := rfl
theorem adm9_2 (m : (ℓ : Loc nD τ sig) → Buf (Elt F) ℓ) (c : Dev nD)
    (hR : Cert.EdgeLengths.InRange (m ((c.tc : Thread nD τ).loc main_arg1))) :
    (adm9 m c hR).1 2 = tbl m c (9 : Fin 20) 2 := rfl
theorem adm9_3 (m : (ℓ : Loc nD τ sig) → Buf (Elt F) ℓ) (c : Dev nD)
    (hR : Cert.EdgeLengths.InRange (m ((c.tc : Thread nD τ).loc main_arg1))) :
    (adm9 m c hR).1 3 = tbl m c (9 : Fin 20) 3 := rfl

end Cert.Kernel.Gen

end
-- ==== Proof.KW.Region10.lean ====
/-
  Region 10 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk10`),
  whatever it held before.

  The region's proof data then says: at every grid point each input window's buffer holds the table row its index
  table names there, and the output window's buffer is left at `outBlk10` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk10 (x0 x1 x2 x3 : Vec F S1x1x64 .f32) : Vec F S1x1x2 .f32 :=
  View.canon [⟨outRectD, k10_pay2 (View.ld x2 rowRect) (View.ld x3 rowRect)⟩,
              ⟨outRectB, k10_pay1 (View.ld x0 rowRect) (View.ld x1 rowRect)⟩]

/-- The two one-element stores tile the two-element block. -/
theorem outCover10 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk10` of the inputs. The index tables are not
    touched by the body (only the index maps read them), so nothing is asked of them. -/
theorem sound_kernel10 (c : Dev nD) (E : Set ℕ) (i : grid10.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk10 x0 x1 x2 x3)) -∗ K ⟨⟩))
      ⊢ wp frame (wpE (defs₀ (F := F)) Variants.none c none) E
          (cc10__gather_norm_kernel i a1 h1 a2 h2 a3 h3 a4 h4 a5 h5 a6 h6 a7 h7 a8 h8 a9 h9) K := by
  simp only [cc10__gather_norm_kernel_eq_skeleton]; unfold cc10__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover10 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg10 (F := F)).Adm)

/-- Window `w`'s block at point `t`, read off its array as the region finds it: for an input window the table row
    its index table names at `t`, for the output window the two-element row `t` of the result. -/
def iblk10 (c : Dev nD) (w : Fin (cfg10 a).W) (t : Fin (cfg10 a).N) :
    (((cfg10 a).win w).xblock ((cfg10 a).grid.coords t)).Idx → Elt F ((cfg10 a).win w).elt :=
  (((cfg10 a).win w).blk t).view.read (Elt F) (V c (Pipeline.arrRef spec10 w))

/-- The proof data of region 10 on core `c`: the arrays as the region finds them; after the body at point `t` each
    input block as it was and the output block the two lengths; the invariant carries the untouched scoped
    buffers, the generator register and the four index tables, which only the index maps read. -/
def dat10 (c : Dev nD) : Dat τ (Elt F) Unit ℕ (UR sig nD τ) ℕ (cfg10 a) c where
  A w := V c (Pipeline.arrRef spec10 w)
  after w t := match w with
    | ⟨0, _⟩ => iblk10 V a c 0 t
    | ⟨1, _⟩ => iblk10 V a c 1 t
    | ⟨2, _⟩ => iblk10 V a c 2 t
    | ⟨3, _⟩ => iblk10 V a c 3 t
    | ⟨4, _⟩ => outBlk10 (iblk10 V a c 0 t) (iblk10 V a c 1 t) (iblk10 V a c 2 t) (iblk10 V a c 3 t)
  Φ _ := iprop(Pipeline.ΦA spec10 c ∗ Pipeline.prefHeld pre10 c (fun _ => fullShare) a.1)
  q w := inShare w
  owed _ := 0

theorem A_eq10 (c : Dev nD) (w : Fin (cfg10 a).W) : (dat10 V a c).A w = V c (Pipeline.arrRef spec10 w) := by
  dsimp only [dat10]

theorem after10_0 (c : Dev nD) (t : Fin (cfg10 a).N) : (dat10 V a c).after 0 t = iblk10 V a c 0 t := by dsimp only [dat10]; rfl
theorem after10_1 (c : Dev nD) (t : Fin (cfg10 a).N) : (dat10 V a c).after 1 t = iblk10 V a c 1 t := by dsimp only [dat10]; rfl
theorem after10_2 (c : Dev nD) (t : Fin (cfg10 a).N) : (dat10 V a c).after 2 t = iblk10 V a c 2 t := by dsimp only [dat10]; rfl
theorem after10_3 (c : Dev nD) (t : Fin (cfg10 a).N) : (dat10 V a c).after 3 t = iblk10 V a c 3 t := by dsimp only [dat10]; rfl
theorem after10_4 (c : Dev nD) (t : Fin (cfg10 a).N) : (dat10 V a c).after 4 t
    = outBlk10 (iblk10 V a c 0 t) (iblk10 V a c 1 t) (iblk10 V a c 2 t) (iblk10 V a c 3 t) := by dsimp only [dat10]; rfl

/-- Input window 0 holds its row at every point, fetched there or not: the body never writes an input block, the
    window is never idle and its blocks are whole rows. -/
theorem before10_0 (c : Dev nD) (t : Fin (cfg10 a).N) (d) : (dat10 V a c).before 0 t d = iblk10 V a c 0 t :=
  ((dat10 V a c).before_in_eq_fetched 0 rfl (fun _ => rfl) (fun _ _ _ => rfl)
      (fun t => by rw [after10_0]; unfold Dat.blockOf iblk10; rw [A_eq10]; try rfl) t d).trans
    (by unfold Dat.fetched Dat.blockOf iblk10; rw [A_eq10]; try rfl)

/-- Input window 1 holds its row at every point, fetched there or not: the body never writes an input block, the
    window is never idle and its blocks are whole rows. -/
theorem before10_1 (c : Dev nD) (t : Fin (cfg10 a).N) (d) : (dat10 V a c).before 1 t d = iblk10 V a c 1 t :=
  ((dat10 V a c).before_in_eq_fetched 1 rfl (fun _ => rfl) (fun _ _ _ => rfl)
      (fun t => by rw [after10_1]; unfold Dat.blockOf iblk10; rw [A_eq10]; try rfl) t d).trans
    (by unfold Dat.fetched Dat.blockOf iblk10; rw [A_eq10]; try rfl)

/-- Input window 2 holds its row at every point, fetched there or not: the body never writes an input block, the
    window is never idle and its blocks are whole rows. -/
theorem before10_2 (c : Dev nD) (t : Fin (cfg10 a).N) (d) : (dat10 V a c).before 2 t d = iblk10 V a c 2 t :=
  ((dat10 V a c).before_in_eq_fetched 2 rfl (fun _ => rfl) (fun _ _ _ => rfl)
      (fun t => by rw [after10_2]; unfold Dat.blockOf iblk10; rw [A_eq10]; try rfl) t d).trans
    (by unfold Dat.fetched Dat.blockOf iblk10; rw [A_eq10]; try rfl)

/-- Input window 3 holds its row at every point, fetched there or not: the body never writes an input block, the
    window is never idle and its blocks are whole rows. -/
theorem before10_3 (c : Dev nD) (t : Fin (cfg10 a).N) (d) : (dat10 V a c).before 3 t d = iblk10 V a c 3 t :=
  ((dat10 V a c).before_in_eq_fetched 3 rfl (fun _ => rfl) (fun _ _ _ => rfl)
      (fun t => by rw [after10_3]; unfold Dat.blockOf iblk10; rw [A_eq10]; try rfl) t d).trans
    (by unfold Dat.fetched Dat.blockOf iblk10; rw [A_eq10]; try rfl)

/-! ## The body at a generic point -/

/-- The kernel body as region 10 calls it at point `t`: the point's coordinates, the four index tables whole, and each
    window's current staging buffer. -/
abbrev bodyAt10 (t : Fin (cfg10 a).N) : Prog (TpuEff nD τ sig (Elt F) Λ₀ .tc) PUnit :=
  cc10__gather_norm_kernel (grid10.coords t) (Memref.whole main_v59) (Memref.isWhole_whole _) (Memref.whole main_v60) (Memref.isWhole_whole _)
    (Memref.whole main_v61) (Memref.isWhole_whole _) (Memref.whole main_v62) (Memref.isWhole_whole _)
    (spec10_0.stage ((cfg10 a).slots t 0)) (hstage10_0 (((cfg10 a).slots t 0).cast nbuf10_0))
    (spec10_1.stage ((cfg10 a).slots t 1)) (hstage10_1 (((cfg10 a).slots t 1).cast nbuf10_1))
    (spec10_2.stage ((cfg10 a).slots t 2)) (hstage10_2 (((cfg10 a).slots t 2).cast nbuf10_2))
    (spec10_3.stage ((cfg10 a).slots t 3)) (hstage10_3 (((cfg10 a).slots t 3).cast nbuf10_3))
    (spec10_4.stage ((cfg10 a).slots t 4)) (hstage10_4 (((cfg10 a).slots t 4).cast nbuf10_4))

/-- The body at any point: each input buffer holds its row (`before10_w`), so `sound_kernel10` applies; the invariant
    (with the index tables in it) and what the core owes pass through unread. -/
theorem sound_body10 (c : Dev nD) (t : Fin (cfg10 a).N) :
    iprop((dat10 V a c).Φ t.castSucc ∗ (dat10 V a c).owesAt () t.castSucc
      ∗ (∃ d, owns (c : Thread nD τ) (((cfg10 a).win 0).stage ((cfg10 a).slots t 0)) fullShare ((dat10 V a c).before 0 t d))
      ∗ (∃ d, owns (c : Thread nD τ) (((cfg10 a).win 1).stage ((cfg10 a).slots t 1)) fullShare ((dat10 V a c).before 1 t d))
      ∗ (∃ d, owns (c : Thread nD τ) (((cfg10 a).win 2).stage ((cfg10 a).slots t 2)) fullShare ((dat10 V a c).before 2 t d))
      ∗ (∃ d, owns (c : Thread nD τ) (((cfg10 a).win 3).stage ((cfg10 a).slots t 3)) fullShare ((dat10 V a c).before 3 t d))
      ∗ (∃ d, owns (c : Thread nD τ) (((cfg10 a).win 4).stage ((cfg10 a).slots t 4)) fullShare ((dat10 V a c).before 4 t d)))
    ⊢ wp frame (wpE (defs₀ (F := F)) Variants.none c none) Set.univ
        (bodyAt10 a t)
        (fun _ => iprop((dat10 V a c).Φ t.succ ∗ (dat10 V a c).owesAt () t.succ
          ∗ owns (c : Thread nD τ) (((cfg10 a).win 0).stage ((cfg10 a).slots t 0)) fullShare ((dat10 V a c).after 0 t)
          ∗ owns (c : Thread nD τ) (((cfg10 a).win 1).stage ((cfg10 a).slots t 1)) fullShare ((dat10 V a c).after 1 t)
          ∗ owns (c : Thread nD τ) (((cfg10 a).win 2).stage ((cfg10 a).slots t 2)) fullShare ((dat10 V a c).after 2 t)
          ∗ owns (c : Thread nD τ) (((cfg10 a).win 3).stage ((cfg10 a).slots t 3)) fullShare ((dat10 V a c).after 3 t)
          ∗ owns (c : Thread nD τ) (((cfg10 a).win 4).stage ((cfg10 a).slots t 4)) fullShare ((dat10 V a c).after 4 t))) := by
  simp only [before10_0, before10_1, before10_2, before10_3]
  rw [show (dat10 V a c).Φ t.succ = (dat10 V a c).Φ t.castSucc from rfl,
    show (dat10 V a c).owesAt () t.succ = (dat10 V a c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  unfold bodyAt10
  iapply (sound_kernel10 c Set.univ _ _ _ _ _ _ _ _ _ _ _ _ _ _ _ _ _ _ _ (iblk10 V a c 0 t) (iblk10 V a c 1 t) (iblk10 V a c 2 t) (iblk10 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 10, at every point. -/
theorem body_obligation10 (c : Dev nD) : BodyObligation (dat10 (F := F) V a c) (defs₀ (F := F)) Variants.none () Set.univ := fun t => by
  rw [bigSep_W10, bigSep_W10]
  exact sound_body10 V a c t

end Region0

end Cert.Kernel.Gen

end
-- ==== Proof.KW.Ok10.lean ====
/-
  The index tables of region 10 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok10_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 10's side condition. -/
theorem ok10_of_lt (pf : pre10.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok10 pf := by
  unfold ok10
  refine ⟨fun i => ⟨?_, Or.inl rfl⟩, fun i => ⟨?_, Or.inl rfl⟩, fun i => ⟨?_, Or.inl rfl⟩, fun i => ⟨?_, Or.inl rfl⟩⟩
  · exact ok10_fits _ (h0 _)
  · exact ok10_fits _ (h1 _)
  · exact ok10_fits _ (h2 _)
  · exact ok10_fits _ (h3 _)

/-- The four index tables of region 10 as the launch memory holds them on core `c`. -/
def pf10 (m : (ℓ : Loc nD τ sig) → Buf (Elt F) ℓ) (c : Dev nD) : pre10.Contents (Elt F) :=
  fun | 0 => tbl m c (10 : Fin 20) 0 | 1 => tbl m c (10 : Fin 20) 1 | 2 => tbl m c (10 : Fin 20) 2 | 3 => tbl m c (10 : Fin 20) 3
      | ⟨_ + 4, h⟩ => absurd h (Nat.not_lt.2 (Nat.le_add_left _ _))

/-- In range, those tables are admissible contents of region 10's pipeline. -/
def adm10 (m : (ℓ : Loc nD τ sig) → Buf (Elt F) ℓ) (c : Dev nD)
    (hR : Cert.EdgeLengths.InRange (m ((c.tc : Thread nD τ).loc main_arg1))) : (pcfg10 (F := F)).Adm :=
  ⟨pf10 m c, ok10_of_lt _ (tbl_lt m c hR _ _) (tbl_lt m c hR _ _) (tbl_lt m c hR _ _) (tbl_lt m c hR _ _)⟩

theorem adm10_0 (m : (ℓ : Loc nD τ sig) → Buf (Elt F) ℓ) (c : Dev nD)
    (hR : Cert.EdgeLengths.InRange (m ((c.tc : Thread nD τ).loc main_arg1))) :
    (adm10 m c hR).1 0 = tbl m c (10 : Fin 20) 0 := rfl
theorem adm10_1 (m : (ℓ : Loc nD τ sig) → Buf (Elt F) ℓ) (c : Dev nD)
    (hR : Cert.EdgeLengths.InRange (m ((c.tc : Thread nD τ).loc main_arg1))) :
    (adm10 m c hR).1 1 = tbl m c (10 : Fin 20) 1 := rfl
theorem adm10_2 (m : (ℓ : Loc nD τ sig) → Buf (Elt F) ℓ) (c : Dev nD)
    (hR : Cert.EdgeLengths.InRange (m ((c.tc : Thread nD τ).loc main_arg1))) :
    (adm10 m c hR).1 2 = tbl m c (10 : Fin 20) 2 := rfl
theorem adm10_3 (m : (ℓ : Loc nD τ sig) → Buf (Elt F) ℓ) (c : Dev nD)
    (hR : Cert.EdgeLengths.InRange (m ((c.tc : Thread nD τ).loc main_arg1))) :
    (adm10 m c hR).1 3 = tbl m c (10 : Fin 20) 3 := rfl

end Cert.Kernel.Gen

end
-- ==== Proof.KW.Region11.lean ====
/-
  Region 11 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk11`),
  whatever it held before.

  The region's proof data then says: at every grid point each input window's buffer holds the table row its index
  table names there, and the output window's buffer is left at `outBlk11` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk11 (x0 x1 x2 x3 : Vec F S1x1x64 .f32) : Vec F S1x1x2 .f32 :=
  View.canon [⟨outRectD, k11_pay2 (View.ld x2 rowRect) (View.ld x3 rowRect)⟩,
              ⟨outRectB, k11_pay1 (View.ld x0 rowRect) (View.ld x1 rowRect)⟩]

/-- The two one-element stores tile the two-element block. -/
theorem outCover11 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk11` of the inputs. The index tables are not
    touched by the body (only the index maps read them), so nothing is asked of them. -/
theorem sound_kernel11 (c : Dev nD) (E : Set ℕ) (i : grid11.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk11 x0 x1 x2 x3)) -∗ K ⟨⟩))
      ⊢ wp frame (wpE (defs₀ (F := F)) Variants.none c none) E
          (cc11__gather_norm_kernel i a1 h1 a2 h2 a3 h3 a4 h4 a5 h5 a6 h6 a7 h7 a8 h8 a9 h9) K := by
  simp only [cc11__gather_norm_kernel_eq_skeleton]; unfold cc11__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover11 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg11 (F := F)).Adm)

/-- Window `w`'s block at point `t`, read off its array as the region finds it: for an input window the table row
    its index table names at `t`, for the output window the two-element row `t` of the result. -/
def iblk11 (c : Dev nD) (w : Fin (cfg11 a).W) (t : Fin (cfg11 a).N) :
    (((cfg11 a).win w).xblock ((cfg11 a).grid.coords t)).Idx → Elt F ((cfg11 a).win w).elt :=
  (((cfg11 a).win w).blk t).view.read (Elt F) (V c (Pipeline.arrRef spec11 w))

/-- The proof data of region 11 on core `c`: the arrays as the region finds them; after the body at point `t` each
    input block as it was and the output block the two lengths; the invariant carries the untouched scoped
    buffers, the generator register and the four index tables, which only the index maps read. -/
def dat11 (c : Dev nD) : Dat τ (Elt F) Unit ℕ (UR sig nD τ) ℕ (cfg11 a) c where
  A w := V c (Pipeline.arrRef spec11 w)
  after w t := match w with
    | ⟨0, _⟩ => iblk11 V a c 0 t
    | ⟨1, _⟩ => iblk11 V a c 1 t
    | ⟨2, _⟩ => iblk11 V a c 2 t
    | ⟨3, _⟩ => iblk11 V a c 3 t
    | ⟨4, _⟩ => outBlk11 (iblk11 V a c 0 t) (iblk11 V a c 1 t) (iblk11 V a c 2 t) (iblk11 V a c 3 t)
  Φ _ := iprop(Pipeline.ΦA spec11 c ∗ Pipeline.prefHeld pre11 c (fun _ => fullShare) a.1)
  q w := inShare w
  owed _ := 0

theorem A_eq11 (c : Dev nD) (w : Fin (cfg11 a).W) : (dat11 V a c).A w = V c (Pipeline.arrRef spec11 w) := by
  dsimp only [dat11]

theorem after11_0 (c : Dev nD) (t : Fin (cfg11 a).N) : (dat11 V a c).after 0 t = iblk11 V a c 0 t := by dsimp only [dat11]; rfl
theorem after11_1 (c : Dev nD) (t : Fin (cfg11 a).N) : (dat11 V a c).after 1 t = iblk11 V a c 1 t := by dsimp only [dat11]; rfl
theorem after11_2 (c : Dev nD) (t : Fin (cfg11 a).N) : (dat11 V a c).after 2 t = iblk11 V a c 2 t := by dsimp only [dat11]; rfl
theorem after11_3 (c : Dev nD) (t : Fin (cfg11 a).N) : (dat11 V a c).after 3 t = iblk11 V a c 3 t := by dsimp only [dat11]; rfl
theorem after11_4 (c : Dev nD) (t : Fin (cfg11 a).N) : (dat11 V a c).after 4 t
    = outBlk11 (iblk11 V a c 0 t) (iblk11 V a c 1 t) (iblk11 V a c 2 t) (iblk11 V a c 3 t) := by dsimp only [dat11]; rfl

/-- Input window 0 holds its row at every point, fetched there or not: the body never writes an input block, the
    window is never idle and its blocks are whole rows. -/
theorem before11_0 (c : Dev nD) (t : Fin (cfg11 a).N) (d) : (dat11 V a c).before 0 t d = iblk11 V a c 0 t :=
  ((dat11 V a c).before_in_eq_fetched 0 rfl (fun _ => rfl) (fun _ _ _ => rfl)
      (fun t => by rw [after11_0]; unfold Dat.blockOf iblk11; rw [A_eq11]; try rfl) t d).trans
    (by unfold Dat.fetched Dat.blockOf iblk11; rw [A_eq11]; try rfl)

/-- Input window 1 holds its row at every point, fetched there or not: the body never writes an input block, the
    window is never idle and its blocks are whole rows. -/
theorem before11_1 (c : Dev nD) (t : Fin (cfg11 a).N) (d) : (dat11 V a c).before 1 t d = iblk11 V a c 1 t :=
  ((dat11 V a c).before_in_eq_fetched 1 rfl (fun _ => rfl) (fun _ _ _ => rfl)
      (fun t => by rw [after11_1]; unfold Dat.blockOf iblk11; rw [A_eq11]; try rfl) t d).trans
    (by unfold Dat.fetched Dat.blockOf iblk11; rw [A_eq11]; try rfl)

/-- Input window 2 holds its row at every point, fetched there or not: the body never writes an input block, the
    window is never idle and its blocks are whole rows. -/
theorem before11_2 (c : Dev nD) (t : Fin (cfg11 a).N) (d) : (dat11 V a c).before 2 t d = iblk11 V a c 2 t :=
  ((dat11 V a c).before_in_eq_fetched 2 rfl (fun _ => rfl) (fun _ _ _ => rfl)
      (fun t => by rw [after11_2]; unfold Dat.blockOf iblk11; rw [A_eq11]; try rfl) t d).trans
    (by unfold Dat.fetched Dat.blockOf iblk11; rw [A_eq11]; try rfl)

/-- Input window 3 holds its row at every point, fetched there or not: the body never writes an input block, the
    window is never idle and its blocks are whole rows. -/
theorem before11_3 (c : Dev nD) (t : Fin (cfg11 a).N) (d) : (dat11 V a c).before 3 t d = iblk11 V a c 3 t :=
  ((dat11 V a c).before_in_eq_fetched 3 rfl (fun _ => rfl) (fun _ _ _ => rfl)
      (fun t => by rw [after11_3]; unfold Dat.blockOf iblk11; rw [A_eq11]; try rfl) t d).trans
    (by unfold Dat.fetched Dat.blockOf iblk11; rw [A_eq11]; try rfl)

/-! ## The body at a generic point -/

/-- The kernel body as region 11 calls it at point `t`: the point's coordinates, the four index tables whole, and each
    window's current staging buffer. -/
abbrev bodyAt11 (t : Fin (cfg11 a).N) : Prog (TpuEff nD τ sig (Elt F) Λ₀ .tc) PUnit :=
  cc11__gather_norm_kernel (grid11.coords t) (Memref.whole main_v64) (Memref.isWhole_whole _) (Memref.whole main_v65) (Memref.isWhole_whole _)
    (Memref.whole main_v66) (Memref.isWhole_whole _) (Memref.whole main_v67) (Memref.isWhole_whole _)
    (spec11_0.stage ((cfg11 a).slots t 0)) (hstage11_0 (((cfg11 a).slots t 0).cast nbuf11_0))
    (spec11_1.stage ((cfg11 a).slots t 1)) (hstage11_1 (((cfg11 a).slots t 1).cast nbuf11_1))
    (spec11_2.stage ((cfg11 a).slots t 2)) (hstage11_2 (((cfg11 a).slots t 2).cast nbuf11_2))
    (spec11_3.stage ((cfg11 a).slots t 3)) (hstage11_3 (((cfg11 a).slots t 3).cast nbuf11_3))
    (spec11_4.stage ((cfg11 a).slots t 4)) (hstage11_4 (((cfg11 a).slots t 4).cast nbuf11_4))

/-- The body at any point: each input buffer holds its row (`before11_w`), so `sound_kernel11` applies; the invariant
    (with the index tables in it) and what the core owes pass through unread. -/
theorem sound_body11 (c : Dev nD) (t : Fin (cfg11 a).N) :
    iprop((dat11 V a c).Φ t.castSucc ∗ (dat11 V a c).owesAt () t.castSucc
      ∗ (∃ d, owns (c : Thread nD τ) (((cfg11 a).win 0).stage ((cfg11 a).slots t 0)) fullShare ((dat11 V a c).before 0 t d))
      ∗ (∃ d, owns (c : Thread nD τ) (((cfg11 a).win 1).stage ((cfg11 a).slots t 1)) fullShare ((dat11 V a c).before 1 t d))
      ∗ (∃ d, owns (c : Thread nD τ) (((cfg11 a).win 2).stage ((cfg11 a).slots t 2)) fullShare ((dat11 V a c).before 2 t d))
      ∗ (∃ d, owns (c : Thread nD τ) (((cfg11 a).win 3).stage ((cfg11 a).slots t 3)) fullShare ((dat11 V a c).before 3 t d))
      ∗ (∃ d, owns (c : Thread nD τ) (((cfg11 a).win 4).stage ((cfg11 a).slots t 4)) fullShare ((dat11 V a c).before 4 t d)))
    ⊢ wp frame (wpE (defs₀ (F := F)) Variants.none c none) Set.univ
        (bodyAt11 a t)
        (fun _ => iprop((dat11 V a c).Φ t.succ ∗ (dat11 V a c).owesAt () t.succ
          ∗ owns (c : Thread nD τ) (((cfg11 a).win 0).stage ((cfg11 a).slots t 0)) fullShare ((dat11 V a c).after 0 t)
          ∗ owns (c : Thread nD τ) (((cfg11 a).win 1).stage ((cfg11 a).slots t 1)) fullShare ((dat11 V a c).after 1 t)
          ∗ owns (c : Thread nD τ) (((cfg11 a).win 2).stage ((cfg11 a).slots t 2)) fullShare ((dat11 V a c).after 2 t)
          ∗ owns (c : Thread nD τ) (((cfg11 a).win 3).stage ((cfg11 a).slots t 3)) fullShare ((dat11 V a c).after 3 t)
          ∗ owns (c : Thread nD τ) (((cfg11 a).win 4).stage ((cfg11 a).slots t 4)) fullShare ((dat11 V a c).after 4 t))) := by
  simp only [before11_0, before11_1, before11_2, before11_3]
  rw [show (dat11 V a c).Φ t.succ = (dat11 V a c).Φ t.castSucc from rfl,
    show (dat11 V a c).owesAt () t.succ = (dat11 V a c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  unfold bodyAt11
  iapply (sound_kernel11 c Set.univ _ _ _ _ _ _ _ _ _ _ _ _ _ _ _ _ _ _ _ (iblk11 V a c 0 t) (iblk11 V a c 1 t) (iblk11 V a c 2 t) (iblk11 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 11, at every point. -/
theorem body_obligation11 (c : Dev nD) : BodyObligation (dat11 (F := F) V a c) (defs₀ (F := F)) Variants.none () Set.univ := fun t => by
  rw [bigSep_W11, bigSep_W11]
  exact sound_body11 V a c t

end Region0

end Cert.Kernel.Gen

end
-- ==== Proof.KW.Ok11.lean ====
/-
  The index tables of region 11 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok11_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 11's side condition. -/
theorem ok11_of_lt (pf : pre11.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok11 pf := by
  unfold ok11
  refine ⟨fun i => ⟨?_, Or.inl rfl⟩, fun i => ⟨?_, Or.inl rfl⟩, fun i => ⟨?_, Or.inl rfl⟩, fun i => ⟨?_, Or.inl rfl⟩⟩
  · exact ok11_fits _ (h0 _)
  · exact ok11_fits _ (h1 _)
  · exact ok11_fits _ (h2 _)
  · exact ok11_fits _ (h3 _)

/-- The four index tables of region 11 as the launch memory holds them on core `c`. -/
def pf11 (m : (ℓ : Loc nD τ sig) → Buf (Elt F) ℓ) (c : Dev nD) : pre11.Contents (Elt F) :=
  fun | 0 => tbl m c (11 : Fin 20) 0 | 1 => tbl m c (11 : Fin 20) 1 | 2 => tbl m c (11 : Fin 20) 2 | 3 => tbl m c (11 : Fin 20) 3
      | ⟨_ + 4, h⟩ => absurd h (Nat.not_lt.2 (Nat.le_add_left _ _))

/-- In range, those tables are admissible contents of region 11's pipeline. -/
def adm11 (m : (ℓ : Loc nD τ sig) → Buf (Elt F) ℓ) (c : Dev nD)
    (hR : Cert.EdgeLengths.InRange (m ((c.tc : Thread nD τ).loc main_arg1))) : (pcfg11 (F := F)).Adm :=
  ⟨pf11 m c, ok11_of_lt _ (tbl_lt m c hR _ _) (tbl_lt m c hR _ _) (tbl_lt m c hR _ _) (tbl_lt m c hR _ _)⟩

theorem adm11_0 (m : (ℓ : Loc nD τ sig) → Buf (Elt F) ℓ) (c : Dev nD)
    (hR : Cert.EdgeLengths.InRange (m ((c.tc : Thread nD τ).loc main_arg1))) :
    (adm11 m c hR).1 0 = tbl m c (11 : Fin 20) 0 := rfl
theorem adm11_1 (m : (ℓ : Loc nD τ sig) → Buf (Elt F) ℓ) (c : Dev nD)
    (hR : Cert.EdgeLengths.InRange (m ((c.tc : Thread nD τ).loc main_arg1))) :
    (adm11 m c hR).1 1 = tbl m c (11 : Fin 20) 1 := rfl
theorem adm11_2 (m : (ℓ : Loc nD τ sig) → Buf (Elt F) ℓ) (c : Dev nD)
    (hR : Cert.EdgeLengths.InRange (m ((c.tc : Thread nD τ).loc main_arg1))) :
    (adm11 m c hR).1 2 = tbl m c (11 : Fin 20) 2 := rfl
theorem adm11_3 (m : (ℓ : Loc nD τ sig) → Buf (Elt F) ℓ) (c : Dev nD)
    (hR : Cert.EdgeLengths.InRange (m ((c.tc : Thread nD τ).loc main_arg1))) :
    (adm11 m c hR).1 3 = tbl m c (11 : Fin 20) 3 := rfl

end Cert.Kernel.Gen

end
-- ==== Proof.KW.Region12.lean ====
/-
  Region 12 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk12`),
  whatever it held before.

  The region's proof data then says: at every grid point each input window's buffer holds the table row its index
  table names there, and the output window's buffer is left at `outBlk12` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk12 (x0 x1 x2 x3 : Vec F S1x1x64 .f32) : Vec F S1x1x2 .f32 :=
  View.canon [⟨outRectD, k12_pay2 (View.ld x2 rowRect) (View.ld x3 rowRect)⟩,
              ⟨outRectB, k12_pay1 (View.ld x0 rowRect) (View.ld x1 rowRect)⟩]

/-- The two one-element stores tile the two-element block. -/
theorem outCover12 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk12` of the inputs. The index tables are not
    touched by the body (only the index maps read them), so nothing is asked of them. -/
theorem sound_kernel12 (c : Dev nD) (E : Set ℕ) (i : grid12.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk12 x0 x1 x2 x3)) -∗ K ⟨⟩))
      ⊢ wp frame (wpE (defs₀ (F := F)) Variants.none c none) E
          (cc12__gather_norm_kernel i a1 h1 a2 h2 a3 h3 a4 h4 a5 h5 a6 h6 a7 h7 a8 h8 a9 h9) K := by
  simp only [cc12__gather_norm_kernel_eq_skeleton]; unfold cc12__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover12 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg12 (F := F)).Adm)

/-- Window `w`'s block at point `t`, read off its array as the region finds it: for an input window the table row
    its index table names at `t`, for the output window the two-element row `t` of the result. -/
def iblk12 (c : Dev nD) (w : Fin (cfg12 a).W) (t : Fin (cfg12 a).N) :
    (((cfg12 a).win w).xblock ((cfg12 a).grid.coords t)).Idx → Elt F ((cfg12 a).win w).elt :=
  (((cfg12 a).win w).blk t).view.read (Elt F) (V c (Pipeline.arrRef spec12 w))

/-- The proof data of region 12 on core `c`: the arrays as the region finds them; after the body at point `t` each
    input block as it was and the output block the two lengths; the invariant carries the untouched scoped
    buffers, the generator register and the four index tables, which only the index maps read. -/
def dat12 (c : Dev nD) : Dat τ (Elt F) Unit ℕ (UR sig nD τ) ℕ (cfg12 a) c where
  A w := V c (Pipeline.arrRef spec12 w)
  after w t := match w with
    | ⟨0, _⟩ => iblk12 V a c 0 t
    | ⟨1, _⟩ => iblk12 V a c 1 t
    | ⟨2, _⟩ => iblk12 V a c 2 t
    | ⟨3, _⟩ => iblk12 V a c 3 t
    | ⟨4, _⟩ => outBlk12 (iblk12 V a c 0 t) (iblk12 V a c 1 t) (iblk12 V a c 2 t) (iblk12 V a c 3 t)
  Φ _ := iprop(Pipeline.ΦA spec12 c ∗ Pipeline.prefHeld pre12 c (fun _ => fullShare) a.1)
  q w := inShare w
  owed _ := 0

theorem A_eq12 (c : Dev nD) (w : Fin (cfg12 a).W) : (dat12 V a c).A w = V c (Pipeline.arrRef spec12 w) := by
  dsimp only [dat12]

theorem after12_0 (c : Dev nD) (t : Fin (cfg12 a).N) : (dat12 V a c).after 0 t = iblk12 V a c 0 t := by dsimp only [dat12]; rfl
theorem after12_1 (c : Dev nD) (t : Fin (cfg12 a).N) : (dat12 V a c).after 1 t = iblk12 V a c 1 t := by dsimp only [dat12]; rfl
theorem after12_2 (c : Dev nD) (t : Fin (cfg12 a).N) : (dat12 V a c).after 2 t = iblk12 V a c 2 t := by dsimp only [dat12]; rfl
theorem after12_3 (c : Dev nD) (t : Fin (cfg12 a).N) : (dat12 V a c).after 3 t = iblk12 V a c 3 t := by dsimp only [dat12]; rfl
theorem after12_4 (c : Dev nD) (t : Fin (cfg12 a).N) : (dat12 V a c).after 4 t
    = outBlk12 (iblk12 V a c 0 t) (iblk12 V a c 1 t) (iblk12 V a c 2 t) (iblk12 V a c 3 t) := by dsimp only [dat12]; rfl

/-- Input window 0 holds its row at every point, fetched there or not: the body never writes an input block, the
    window is never idle and its blocks are whole rows. -/
theorem before12_0 (c : Dev nD) (t : Fin (cfg12 a).N) (d) : (dat12 V a c).before 0 t d = iblk12 V a c 0 t :=
  ((dat12 V a c).before_in_eq_fetched 0 rfl (fun _ => rfl) (fun _ _ _ => rfl)
      (fun t => by rw [after12_0]; unfold Dat.blockOf iblk12; rw [A_eq12]; try rfl) t d).trans
    (by unfold Dat.fetched Dat.blockOf iblk12; rw [A_eq12]; try rfl)

/-- Input window 1 holds its row at every point, fetched there or not: the body never writes an input block, the
    window is never idle and its blocks are whole rows. -/
theorem before12_1 (c : Dev nD) (t : Fin (cfg12 a).N) (d) : (dat12 V a c).before 1 t d = iblk12 V a c 1 t :=
  ((dat12 V a c).before_in_eq_fetched 1 rfl (fun _ => rfl) (fun _ _ _ => rfl)
      (fun t => by rw [after12_1]; unfold Dat.blockOf iblk12; rw [A_eq12]; try rfl) t d).trans
    (by unfold Dat.fetched Dat.blockOf iblk12; rw [A_eq12]; try rfl)

/-- Input window 2 holds its row at every point, fetched there or not: the body never writes an input block, the
    window is never idle and its blocks are whole rows. -/
theorem before12_2 (c : Dev nD) (t : Fin (cfg12 a).N) (d) : (dat12 V a c).before 2 t d = iblk12 V a c 2 t :=
  ((dat12 V a c).before_in_eq_fetched 2 rfl (fun _ => rfl) (fun _ _ _ => rfl)
      (fun t => by rw [after12_2]; unfold Dat.blockOf iblk12; rw [A_eq12]; try rfl) t d).trans
    (by unfold Dat.fetched Dat.blockOf iblk12; rw [A_eq12]; try rfl)

/-- Input window 3 holds its row at every point, fetched there or not: the body never writes an input block, the
    window is never idle and its blocks are whole rows. -/
theorem before12_3 (c : Dev nD) (t : Fin (cfg12 a).N) (d) : (dat12 V a c).before 3 t d = iblk12 V a c 3 t :=
  ((dat12 V a c).before_in_eq_fetched 3 rfl (fun _ => rfl) (fun _ _ _ => rfl)
      (fun t => by rw [after12_3]; unfold Dat.blockOf iblk12; rw [A_eq12]; try rfl) t d).trans
    (by unfold Dat.fetched Dat.blockOf iblk12; rw [A_eq12]; try rfl)

/-! ## The body at a generic point -/

/-- The kernel body as region 12 calls it at point `t`: the point's coordinates, the four index tables whole, and each
    window's current staging buffer. -/
abbrev bodyAt12 (t : Fin (cfg12 a).N) : Prog (TpuEff nD τ sig (Elt F) Λ₀ .tc) PUnit :=
  cc12__gather_norm_kernel (grid12.coords t) (Memref.whole main_v69) (Memref.isWhole_whole _) (Memref.whole main_v70) (Memref.isWhole_whole _)
    (Memref.whole main_v71) (Memref.isWhole_whole _) (Memref.whole main_v72) (Memref.isWhole_whole _)
    (spec12_0.stage ((cfg12 a).slots t 0)) (hstage12_0 (((cfg12 a).slots t 0).cast nbuf12_0))
    (spec12_1.stage ((cfg12 a).slots t 1)) (hstage12_1 (((cfg12 a).slots t 1).cast nbuf12_1))
    (spec12_2.stage ((cfg12 a).slots t 2)) (hstage12_2 (((cfg12 a).slots t 2).cast nbuf12_2))
    (spec12_3.stage ((cfg12 a).slots t 3)) (hstage12_3 (((cfg12 a).slots t 3).cast nbuf12_3))
    (spec12_4.stage ((cfg12 a).slots t 4)) (hstage12_4 (((cfg12 a).slots t 4).cast nbuf12_4))

/-- The body at any point: each input buffer holds its row (`before12_w`), so `sound_kernel12` applies; the invariant
    (with the index tables in it) and what the core owes pass through unread. -/
theorem sound_body12 (c : Dev nD) (t : Fin (cfg12 a).N) :
    iprop((dat12 V a c).Φ t.castSucc ∗ (dat12 V a c).owesAt () t.castSucc
      ∗ (∃ d, owns (c : Thread nD τ) (((cfg12 a).win 0).stage ((cfg12 a).slots t 0)) fullShare ((dat12 V a c).before 0 t d))
      ∗ (∃ d, owns (c : Thread nD τ) (((cfg12 a).win 1).stage ((cfg12 a).slots t 1)) fullShare ((dat12 V a c).before 1 t d))
      ∗ (∃ d, owns (c : Thread nD τ) (((cfg12 a).win 2).stage ((cfg12 a).slots t 2)) fullShare ((dat12 V a c).before 2 t d))
      ∗ (∃ d, owns (c : Thread nD τ) (((cfg12 a).win 3).stage ((cfg12 a).slots t 3)) fullShare ((dat12 V a c).before 3 t d))
      ∗ (∃ d, owns (c : Thread nD τ) (((cfg12 a).win 4).stage ((cfg12 a).slots t 4)) fullShare ((dat12 V a c).before 4 t d)))
    ⊢ wp frame (wpE (defs₀ (F := F)) Variants.none c none) Set.univ
        (bodyAt12 a t)
        (fun _ => iprop((dat12 V a c).Φ t.succ ∗ (dat12 V a c).owesAt () t.succ
          ∗ owns (c : Thread nD τ) (((cfg12 a).win 0).stage ((cfg12 a).slots t 0)) fullShare ((dat12 V a c).after 0 t)
          ∗ owns (c : Thread nD τ) (((cfg12 a).win 1).stage ((cfg12 a).slots t 1)) fullShare ((dat12 V a c).after 1 t)
          ∗ owns (c : Thread nD τ) (((cfg12 a).win 2).stage ((cfg12 a).slots t 2)) fullShare ((dat12 V a c).after 2 t)
          ∗ owns (c : Thread nD τ) (((cfg12 a).win 3).stage ((cfg12 a).slots t 3)) fullShare ((dat12 V a c).after 3 t)
          ∗ owns (c : Thread nD τ) (((cfg12 a).win 4).stage ((cfg12 a).slots t 4)) fullShare ((dat12 V a c).after 4 t))) := by
  simp only [before12_0, before12_1, before12_2, before12_3]
  rw [show (dat12 V a c).Φ t.succ = (dat12 V a c).Φ t.castSucc from rfl,
    show (dat12 V a c).owesAt () t.succ = (dat12 V a c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  unfold bodyAt12
  iapply (sound_kernel12 c Set.univ _ _ _ _ _ _ _ _ _ _ _ _ _ _ _ _ _ _ _ (iblk12 V a c 0 t) (iblk12 V a c 1 t) (iblk12 V a c 2 t) (iblk12 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 12, at every point. -/
theorem body_obligation12 (c : Dev nD) : BodyObligation (dat12 (F := F) V a c) (defs₀ (F := F)) Variants.none () Set.univ := fun t => by
  rw [bigSep_W12, bigSep_W12]
  exact sound_body12 V a c t

end Region0

end Cert.Kernel.Gen

end
-- ==== Proof.KW.Ok12.lean ====
/-
  The index tables of region 12 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok12_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 12's side condition. -/
theorem ok12_of_lt (pf : pre12.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok12 pf := by
  unfold ok12
  refine ⟨fun i => ⟨?_, Or.inl rfl⟩, fun i => ⟨?_, Or.inl rfl⟩, fun i => ⟨?_, Or.inl rfl⟩, fun i => ⟨?_, Or.inl rfl⟩⟩
  · exact ok12_fits _ (h0 _)
  · exact ok12_fits _ (h1 _)
  · exact ok12_fits _ (h2 _)
  · exact ok12_fits _ (h3 _)

/-- The four index tables of region 12 as the launch memory holds them on core `c`. -/
def pf12 (m : (ℓ : Loc nD τ sig) → Buf (Elt F) ℓ) (c : Dev nD) : pre12.Contents (Elt F) :=
  fun | 0 => tbl m c (12 : Fin 20) 0 | 1 => tbl m c (12 : Fin 20) 1 | 2 => tbl m c (12 : Fin 20) 2 | 3 => tbl m c (12 : Fin 20) 3
      | ⟨_ + 4, h⟩ => absurd h (Nat.not_lt.2 (Nat.le_add_left _ _))

/-- In range, those tables are admissible contents of region 12's pipeline. -/
def adm12 (m : (ℓ : Loc nD τ sig) → Buf (Elt F) ℓ) (c : Dev nD)
    (hR : Cert.EdgeLengths.InRange (m ((c.tc : Thread nD τ).loc main_arg1))) : (pcfg12 (F := F)).Adm :=
  ⟨pf12 m c, ok12_of_lt _ (tbl_lt m c hR _ _) (tbl_lt m c hR _ _) (tbl_lt m c hR _ _) (tbl_lt m c hR _ _)⟩

theorem adm12_0 (m : (ℓ : Loc nD τ sig) → Buf (Elt F) ℓ) (c : Dev nD)
    (hR : Cert.EdgeLengths.InRange (m ((c.tc : Thread nD τ).loc main_arg1))) :
    (adm12 m c hR).1 0 = tbl m c (12 : Fin 20) 0 := rfl
theorem adm12_1 (m : (ℓ : Loc nD τ sig) → Buf (Elt F) ℓ) (c : Dev nD)
    (hR : Cert.EdgeLengths.InRange (m ((c.tc : Thread nD τ).loc main_arg1))) :
    (adm12 m c hR).1 1 = tbl m c (12 : Fin 20) 1 := rfl
theorem adm12_2 (m : (ℓ : Loc nD τ sig) → Buf (Elt F) ℓ) (c : Dev nD)
    (hR : Cert.EdgeLengths.InRange (m ((c.tc : Thread nD τ).loc main_arg1))) :
    (adm12 m c hR).1 2 = tbl m c (12 : Fin 20) 2 := rfl
theorem adm12_3 (m : (ℓ : Loc nD τ sig) → Buf (Elt F) ℓ) (c : Dev nD)
    (hR : Cert.EdgeLengths.InRange (m ((c.tc : Thread nD τ).loc main_arg1))) :
    (adm12 m c hR).1 3 = tbl m c (12 : Fin 20) 3 := rfl

end Cert.Kernel.Gen

end
-- ==== Proof.KW.Region13.lean ====
/-
  Region 13 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk13`),
  whatever it held before.

  The region's proof data then says: at every grid point each input window's buffer holds the table row its index
  table names there, and the output window's buffer is left at `outBlk13` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk13 (x0 x1 x2 x3 : Vec F S1x1x64 .f32) : Vec F S1x1x2 .f32 :=
  View.canon [⟨outRectD, k13_pay2 (View.ld x2 rowRect) (View.ld x3 rowRect)⟩,
              ⟨outRectB, k13_pay1 (View.ld x0 rowRect) (View.ld x1 rowRect)⟩]

/-- The two one-element stores tile the two-element block. -/
theorem outCover13 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk13` of the inputs. The index tables are not
    touched by the body (only the index maps read them), so nothing is asked of them. -/
theorem sound_kernel13 (c : Dev nD) (E : Set ℕ) (i : grid13.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk13 x0 x1 x2 x3)) -∗ K ⟨⟩))
      ⊢ wp frame (wpE (defs₀ (F := F)) Variants.none c none) E
          (cc13__gather_norm_kernel i a1 h1 a2 h2 a3 h3 a4 h4 a5 h5 a6 h6 a7 h7 a8 h8 a9 h9) K := by
  simp only [cc13__gather_norm_kernel_eq_skeleton]; unfold cc13__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover13 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg13 (F := F)).Adm)

/-- Window `w`'s block at point `t`, read off its array as the region finds it: for an input window the table row
    its index table names at `t`, for the output window the two-element row `t` of the result. -/
def iblk13 (c : Dev nD) (w : Fin (cfg13 a).W) (t : Fin (cfg13 a).N) :
    (((cfg13 a).win w).xblock ((cfg13 a).grid.coords t)).Idx → Elt F ((cfg13 a).win w).elt :=
  (((cfg13 a).win w).blk t).view.read (Elt F) (V c (Pipeline.arrRef spec13 w))

/-- The proof data of region 13 on core `c`: the arrays as the region finds them; after the body at point `t` each
    input block as it was and the output block the two lengths; the invariant carries the untouched scoped
    buffers, the generator register and the four index tables, which only the index maps read. -/
def dat13 (c : Dev nD) : Dat τ (Elt F) Unit ℕ (UR sig nD τ) ℕ (cfg13 a) c where
  A w := V c (Pipeline.arrRef spec13 w)
  after w t := match w with
    | ⟨0, _⟩ => iblk13 V a c 0 t
    | ⟨1, _⟩ => iblk13 V a c 1 t
    | ⟨2, _⟩ => iblk13 V a c 2 t
    | ⟨3, _⟩ => iblk13 V a c 3 t
    | ⟨4, _⟩ => outBlk13 (iblk13 V a c 0 t) (iblk13 V a c 1 t) (iblk13 V a c 2 t) (iblk13 V a c 3 t)
  Φ _ := iprop(Pipeline.ΦA spec13 c ∗ Pipeline.prefHeld pre13 c (fun _ => fullShare) a.1)
  q w := inShare w
  owed _ := 0

theorem A_eq13 (c : Dev nD) (w : Fin (cfg13 a).W) : (dat13 V a c).A w = V c (Pipeline.arrRef spec13 w) := by
  dsimp only [dat13]

theorem after13_0 (c : Dev nD) (t : Fin (cfg13 a).N) : (dat13 V a c).after 0 t = iblk13 V a c 0 t := by dsimp only [dat13]; rfl
theorem after13_1 (c : Dev nD) (t : Fin (cfg13 a).N) : (dat13 V a c).after 1 t = iblk13 V a c 1 t := by dsimp only [dat13]; rfl
theorem after13_2 (c : Dev nD) (t : Fin (cfg13 a).N) : (dat13 V a c).after 2 t = iblk13 V a c 2 t := by dsimp only [dat13]; rfl
theorem after13_3 (c : Dev nD) (t : Fin (cfg13 a).N) : (dat13 V a c).after 3 t = iblk13 V a c 3 t := by dsimp only [dat13]; rfl
theorem after13_4 (c : Dev nD) (t : Fin (cfg13 a).N) : (dat13 V a c).after 4 t
    = outBlk13 (iblk13 V a c 0 t) (iblk13 V a c 1 t) (iblk13 V a c 2 t) (iblk13 V a c 3 t) := by dsimp only [dat13]; rfl

/-- Input window 0 holds its row at every point, fetched there or not: the body never writes an input block, the
    window is never idle and its blocks are whole rows. -/
theorem before13_0 (c : Dev nD) (t : Fin (cfg13 a).N) (d) : (dat13 V a c).before 0 t d = iblk13 V a c 0 t :=
  ((dat13 V a c).before_in_eq_fetched 0 rfl (fun _ => rfl) (fun _ _ _ => rfl)
      (fun t => by rw [after13_0]; unfold Dat.blockOf iblk13; rw [A_eq13]; try rfl) t d).trans
    (by unfold Dat.fetched Dat.blockOf iblk13; rw [A_eq13]; try rfl)

/-- Input window 1 holds its row at every point, fetched there or not: the body never writes an input block, the
    window is never idle and its blocks are whole rows. -/
theorem before13_1 (c : Dev nD) (t : Fin (cfg13 a).N) (d) : (dat13 V a c).before 1 t d = iblk13 V a c 1 t :=
  ((dat13 V a c).before_in_eq_fetched 1 rfl (fun _ => rfl) (fun _ _ _ => rfl)
      (fun t => by rw [after13_1]; unfold Dat.blockOf iblk13; rw [A_eq13]; try rfl) t d).trans
    (by unfold Dat.fetched Dat.blockOf iblk13; rw [A_eq13]; try rfl)

/-- Input window 2 holds its row at every point, fetched there or not: the body never writes an input block, the
    window is never idle and its blocks are whole rows. -/
theorem before13_2 (c : Dev nD) (t : Fin (cfg13 a).N) (d) : (dat13 V a c).before 2 t d = iblk13 V a c 2 t :=
  ((dat13 V a c).before_in_eq_fetched 2 rfl (fun _ => rfl) (fun _ _ _ => rfl)
      (fun t => by rw [after13_2]; unfold Dat.blockOf iblk13; rw [A_eq13]; try rfl) t d).trans
    (by unfold Dat.fetched Dat.blockOf iblk13; rw [A_eq13]; try rfl)

/-- Input window 3 holds its row at every point, fetched there or not: the body never writes an input block, the
    window is never idle and its blocks are whole rows. -/
theorem before13_3 (c : Dev nD) (t : Fin (cfg13 a).N) (d) : (dat13 V a c).before 3 t d = iblk13 V a c 3 t :=
  ((dat13 V a c).before_in_eq_fetched 3 rfl (fun _ => rfl) (fun _ _ _ => rfl)
      (fun t => by rw [after13_3]; unfold Dat.blockOf iblk13; rw [A_eq13]; try rfl) t d).trans
    (by unfold Dat.fetched Dat.blockOf iblk13; rw [A_eq13]; try rfl)

/-! ## The body at a generic point -/

/-- The kernel body as region 13 calls it at point `t`: the point's coordinates, the four index tables whole, and each
    window's current staging buffer. -/
abbrev bodyAt13 (t : Fin (cfg13 a).N) : Prog (TpuEff nD τ sig (Elt F) Λ₀ .tc) PUnit :=
  cc13__gather_norm_kernel (grid13.coords t) (Memref.whole main_v74) (Memref.isWhole_whole _) (Memref.whole main_v75) (Memref.isWhole_whole _)
    (Memref.whole main_v76) (Memref.isWhole_whole _) (Memref.whole main_v77) (Memref.isWhole_whole _)
    (spec13_0.stage ((cfg13 a).slots t 0)) (hstage13_0 (((cfg13 a).slots t 0).cast nbuf13_0))
    (spec13_1.stage ((cfg13 a).slots t 1)) (hstage13_1 (((cfg13 a).slots t 1).cast nbuf13_1))
    (spec13_2.stage ((cfg13 a).slots t 2)) (hstage13_2 (((cfg13 a).slots t 2).cast nbuf13_2))
    (spec13_3.stage ((cfg13 a).slots t 3)) (hstage13_3 (((cfg13 a).slots t 3).cast nbuf13_3))
    (spec13_4.stage ((cfg13 a).slots t 4)) (hstage13_4 (((cfg13 a).slots t 4).cast nbuf13_4))

/-- The body at any point: each input buffer holds its row (`before13_w`), so `sound_kernel13` applies; the invariant
    (with the index tables in it) and what the core owes pass through unread. -/
theorem sound_body13 (c : Dev nD) (t : Fin (cfg13 a).N) :
    iprop((dat13 V a c).Φ t.castSucc ∗ (dat13 V a c).owesAt () t.castSucc
      ∗ (∃ d, owns (c : Thread nD τ) (((cfg13 a).win 0).stage ((cfg13 a).slots t 0)) fullShare ((dat13 V a c).before 0 t d))
      ∗ (∃ d, owns (c : Thread nD τ) (((cfg13 a).win 1).stage ((cfg13 a).slots t 1)) fullShare ((dat13 V a c).before 1 t d))
      ∗ (∃ d, owns (c : Thread nD τ) (((cfg13 a).win 2).stage ((cfg13 a).slots t 2)) fullShare ((dat13 V a c).before 2 t d))
      ∗ (∃ d, owns (c : Thread nD τ) (((cfg13 a).win 3).stage ((cfg13 a).slots t 3)) fullShare ((dat13 V a c).before 3 t d))
      ∗ (∃ d, owns (c : Thread nD τ) (((cfg13 a).win 4).stage ((cfg13 a).slots t 4)) fullShare ((dat13 V a c).before 4 t d)))
    ⊢ wp frame (wpE (defs₀ (F := F)) Variants.none c none) Set.univ
        (bodyAt13 a t)
        (fun _ => iprop((dat13 V a c).Φ t.succ ∗ (dat13 V a c).owesAt () t.succ
          ∗ owns (c : Thread nD τ) (((cfg13 a).win 0).stage ((cfg13 a).slots t 0)) fullShare ((dat13 V a c).after 0 t)
          ∗ owns (c : Thread nD τ) (((cfg13 a).win 1).stage ((cfg13 a).slots t 1)) fullShare ((dat13 V a c).after 1 t)
          ∗ owns (c : Thread nD τ) (((cfg13 a).win 2).stage ((cfg13 a).slots t 2)) fullShare ((dat13 V a c).after 2 t)
          ∗ owns (c : Thread nD τ) (((cfg13 a).win 3).stage ((cfg13 a).slots t 3)) fullShare ((dat13 V a c).after 3 t)
          ∗ owns (c : Thread nD τ) (((cfg13 a).win 4).stage ((cfg13 a).slots t 4)) fullShare ((dat13 V a c).after 4 t))) := by
  simp only [before13_0, before13_1, before13_2, before13_3]
  rw [show (dat13 V a c).Φ t.succ = (dat13 V a c).Φ t.castSucc from rfl,
    show (dat13 V a c).owesAt () t.succ = (dat13 V a c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  unfold bodyAt13
  iapply (sound_kernel13 c Set.univ _ _ _ _ _ _ _ _ _ _ _ _ _ _ _ _ _ _ _ (iblk13 V a c 0 t) (iblk13 V a c 1 t) (iblk13 V a c 2 t) (iblk13 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 13, at every point. -/
theorem body_obligation13 (c : Dev nD) : BodyObligation (dat13 (F := F) V a c) (defs₀ (F := F)) Variants.none () Set.univ := fun t => by
  rw [bigSep_W13, bigSep_W13]
  exact sound_body13 V a c t

end Region0

end Cert.Kernel.Gen

end
-- ==== Proof.KW.Ok13.lean ====
/-
  The index tables of region 13 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok13_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 13's side condition. -/
theorem ok13_of_lt (pf : pre13.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok13 pf := by
  unfold ok13
  refine ⟨fun i => ⟨?_, Or.inl rfl⟩, fun i => ⟨?_, Or.inl rfl⟩, fun i => ⟨?_, Or.inl rfl⟩, fun i => ⟨?_, Or.inl rfl⟩⟩
  · exact ok13_fits _ (h0 _)
  · exact ok13_fits _ (h1 _)
  · exact ok13_fits _ (h2 _)
  · exact ok13_fits _ (h3 _)

/-- The four index tables of region 13 as the launch memory holds them on core `c`. -/
def pf13 (m : (ℓ : Loc nD τ sig) → Buf (Elt F) ℓ) (c : Dev nD) : pre13.Contents (Elt F) :=
  fun | 0 => tbl m c (13 : Fin 20) 0 | 1 => tbl m c (13 : Fin 20) 1 | 2 => tbl m c (13 : Fin 20) 2 | 3 => tbl m c (13 : Fin 20) 3
      | ⟨_ + 4, h⟩ => absurd h (Nat.not_lt.2 (Nat.le_add_left _ _))

/-- In range, those tables are admissible contents of region 13's pipeline. -/
def adm13 (m : (ℓ : Loc nD τ sig) → Buf (Elt F) ℓ) (c : Dev nD)
    (hR : Cert.EdgeLengths.InRange (m ((c.tc : Thread nD τ).loc main_arg1))) : (pcfg13 (F := F)).Adm :=
  ⟨pf13 m c, ok13_of_lt _ (tbl_lt m c hR _ _) (tbl_lt m c hR _ _) (tbl_lt m c hR _ _) (tbl_lt m c hR _ _)⟩

theorem adm13_0 (m : (ℓ : Loc nD τ sig) → Buf (Elt F) ℓ) (c : Dev nD)
    (hR : Cert.EdgeLengths.InRange (m ((c.tc : Thread nD τ).loc main_arg1))) :
    (adm13 m c hR).1 0 = tbl m c (13 : Fin 20) 0 := rfl
theorem adm13_1 (m : (ℓ : Loc nD τ sig) → Buf (Elt F) ℓ) (c : Dev nD)
    (hR : Cert.EdgeLengths.InRange (m ((c.tc : Thread nD τ).loc main_arg1))) :
    (adm13 m c hR).1 1 = tbl m c (13 : Fin 20) 1 := rfl
theorem adm13_2 (m : (ℓ : Loc nD τ sig) → Buf (Elt F) ℓ) (c : Dev nD)
    (hR : Cert.EdgeLengths.InRange (m ((c.tc : Thread nD τ).loc main_arg1))) :
    (adm13 m c hR).1 2 = tbl m c (13 : Fin 20) 2 := rfl
theorem adm13_3 (m : (ℓ : Loc nD τ sig) → Buf (Elt F) ℓ) (c : Dev nD)
    (hR : Cert.EdgeLengths.InRange (m ((c.tc : Thread nD τ).loc main_arg1))) :
    (adm13 m c hR).1 3 = tbl m c (13 : Fin 20) 3 := rfl

end Cert.Kernel.Gen

end
-- ==== Proof.KW.Region14.lean ====
/-
  Region 14 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk14`),
  whatever it held before.

  The region's proof data then says: at every grid point each input window's buffer holds the table row its index
  table names there, and the output window's buffer is left at `outBlk14` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk14 (x0 x1 x2 x3 : Vec F S1x1x64 .f32) : Vec F S1x1x2 .f32 :=
  View.canon [⟨outRectD, k14_pay2 (View.ld x2 rowRect) (View.ld x3 rowRect)⟩,
              ⟨outRectB, k14_pay1 (View.ld x0 rowRect) (View.ld x1 rowRect)⟩]

/-- The two one-element stores tile the two-element block. -/
theorem outCover14 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk14` of the inputs. The index tables are not
    touched by the body (only the index maps read them), so nothing is asked of them. -/
theorem sound_kernel14 (c : Dev nD) (E : Set ℕ) (i : grid14.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk14 x0 x1 x2 x3)) -∗ K ⟨⟩))
      ⊢ wp frame (wpE (defs₀ (F := F)) Variants.none c none) E
          (cc14__gather_norm_kernel i a1 h1 a2 h2 a3 h3 a4 h4 a5 h5 a6 h6 a7 h7 a8 h8 a9 h9) K := by
  simp only [cc14__gather_norm_kernel_eq_skeleton]; unfold cc14__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover14 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg14 (F := F)).Adm)

/-- Window `w`'s block at point `t`, read off its array as the region finds it: for an input window the table row
    its index table names at `t`, for the output window the two-element row `t` of the result. -/
def iblk14 (c : Dev nD) (w : Fin (cfg14 a).W) (t : Fin (cfg14 a).N) :
    (((cfg14 a).win w).xblock ((cfg14 a).grid.coords t)).Idx → Elt F ((cfg14 a).win w).elt :=
  (((cfg14 a).win w).blk t).view.read (Elt F) (V c (Pipeline.arrRef spec14 w))

/-- The proof data of region 14 on core `c`: the arrays as the region finds them; after the body at point `t` each
    input block as it was and the output block the two lengths; the invariant carries the untouched scoped
    buffers, the generator register and the four index tables, which only the index maps read. -/
def dat14 (c : Dev nD) : Dat τ (Elt F) Unit ℕ (UR sig nD τ) ℕ (cfg14 a) c where
  A w := V c (Pipeline.arrRef spec14 w)
  after w t := match w with
    | ⟨0, _⟩ => iblk14 V a c 0 t
    | ⟨1, _⟩ => iblk14 V a c 1 t
    | ⟨2, _⟩ => iblk14 V a c 2 t
    | ⟨3, _⟩ => iblk14 V a c 3 t
    | ⟨4, _⟩ => outBlk14 (iblk14 V a c 0 t) (iblk14 V a c 1 t) (iblk14 V a c 2 t) (iblk14 V a c 3 t)
  Φ _ := iprop(Pipeline.ΦA spec14 c ∗ Pipeline.prefHeld pre14 c (fun _ => fullShare) a.1)
  q w := inShare w
  owed _ := 0

theorem A_eq14 (c : Dev nD) (w : Fin (cfg14 a).W) : (dat14 V a c).A w = V c (Pipeline.arrRef spec14 w) := by
  dsimp only [dat14]

theorem after14_0 (c : Dev nD) (t : Fin (cfg14 a).N) : (dat14 V a c).after 0 t = iblk14 V a c 0 t := by dsimp only [dat14]; rfl
theorem after14_1 (c : Dev nD) (t : Fin (cfg14 a).N) : (dat14 V a c).after 1 t = iblk14 V a c 1 t := by dsimp only [dat14]; rfl
theorem after14_2 (c : Dev nD) (t : Fin (cfg14 a).N) : (dat14 V a c).after 2 t = iblk14 V a c 2 t := by dsimp only [dat14]; rfl
theorem after14_3 (c : Dev nD) (t : Fin (cfg14 a).N) : (dat14 V a c).after 3 t = iblk14 V a c 3 t := by dsimp only [dat14]; rfl
theorem after14_4 (c : Dev nD) (t : Fin (cfg14 a).N) : (dat14 V a c).after 4 t
    = outBlk14 (iblk14 V a c 0 t) (iblk14 V a c 1 t) (iblk14 V a c 2 t) (iblk14 V a c 3 t) := by dsimp only [dat14]; rfl

/-- Input window 0 holds its row at every point, fetched there or not: the body never writes an input block, the
    window is never idle and its blocks are whole rows. -/
theorem before14_0 (c : Dev nD) (t : Fin (cfg14 a).N) (d) : (dat14 V a c).before 0 t d = iblk14 V a c 0 t :=
  ((dat14 V a c).before_in_eq_fetched 0 rfl (fun _ => rfl) (fun _ _ _ => rfl)
      (fun t => by rw [after14_0]; unfold Dat.blockOf iblk14; rw [A_eq14]; try rfl) t d).trans
    (by unfold Dat.fetched Dat.blockOf iblk14; rw [A_eq14]; try rfl)

/-- Input window 1 holds its row at every point, fetched there or not: the body never writes an input block, the
    window is never idle and its blocks are whole rows. -/
theorem before14_1 (c : Dev nD) (t : Fin (cfg14 a).N) (d) : (dat14 V a c).before 1 t d = iblk14 V a c 1 t :=
  ((dat14 V a c).before_in_eq_fetched 1 rfl (fun _ => rfl) (fun _ _ _ => rfl)
      (fun t => by rw [after14_1]; unfold Dat.blockOf iblk14; rw [A_eq14]; try rfl) t d).trans
    (by unfold Dat.fetched Dat.blockOf iblk14; rw [A_eq14]; try rfl)

/-- Input window 2 holds its row at every point, fetched there or not: the body never writes an input block, the
    window is never idle and its blocks are whole rows. -/
theorem before14_2 (c : Dev nD) (t : Fin (cfg14 a).N) (d) : (dat14 V a c).before 2 t d = iblk14 V a c 2 t :=
  ((dat14 V a c).before_in_eq_fetched 2 rfl (fun _ => rfl) (fun _ _ _ => rfl)
      (fun t => by rw [after14_2]; unfold Dat.blockOf iblk14; rw [A_eq14]; try rfl) t d).trans
    (by unfold Dat.fetched Dat.blockOf iblk14; rw [A_eq14]; try rfl)

/-- Input window 3 holds its row at every point, fetched there or not: the body never writes an input block, the
    window is never idle and its blocks are whole rows. -/
theorem before14_3 (c : Dev nD) (t : Fin (cfg14 a).N) (d) : (dat14 V a c).before 3 t d = iblk14 V a c 3 t :=
  ((dat14 V a c).before_in_eq_fetched 3 rfl (fun _ => rfl) (fun _ _ _ => rfl)
      (fun t => by rw [after14_3]; unfold Dat.blockOf iblk14; rw [A_eq14]; try rfl) t d).trans
    (by unfold Dat.fetched Dat.blockOf iblk14; rw [A_eq14]; try rfl)

/-! ## The body at a generic point -/

/-- The kernel body as region 14 calls it at point `t`: the point's coordinates, the four index tables whole, and each
    window's current staging buffer. -/
abbrev bodyAt14 (t : Fin (cfg14 a).N) : Prog (TpuEff nD τ sig (Elt F) Λ₀ .tc) PUnit :=
  cc14__gather_norm_kernel (grid14.coords t) (Memref.whole main_v79) (Memref.isWhole_whole _) (Memref.whole main_v80) (Memref.isWhole_whole _)
    (Memref.whole main_v81) (Memref.isWhole_whole _) (Memref.whole main_v82) (Memref.isWhole_whole _)
    (spec14_0.stage ((cfg14 a).slots t 0)) (hstage14_0 (((cfg14 a).slots t 0).cast nbuf14_0))
    (spec14_1.stage ((cfg14 a).slots t 1)) (hstage14_1 (((cfg14 a).slots t 1).cast nbuf14_1))
    (spec14_2.stage ((cfg14 a).slots t 2)) (hstage14_2 (((cfg14 a).slots t 2).cast nbuf14_2))
    (spec14_3.stage ((cfg14 a).slots t 3)) (hstage14_3 (((cfg14 a).slots t 3).cast nbuf14_3))
    (spec14_4.stage ((cfg14 a).slots t 4)) (hstage14_4 (((cfg14 a).slots t 4).cast nbuf14_4))

/-- The body at any point: each input buffer holds its row (`before14_w`), so `sound_kernel14` applies; the invariant
    (with the index tables in it) and what the core owes pass through unread. -/
theorem sound_body14 (c : Dev nD) (t : Fin (cfg14 a).N) :
    iprop((dat14 V a c).Φ t.castSucc ∗ (dat14 V a c).owesAt () t.castSucc
      ∗ (∃ d, owns (c : Thread nD τ) (((cfg14 a).win 0).stage ((cfg14 a).slots t 0)) fullShare ((dat14 V a c).before 0 t d))
      ∗ (∃ d, owns (c : Thread nD τ) (((cfg14 a).win 1).stage ((cfg14 a).slots t 1)) fullShare ((dat14 V a c).before 1 t d))
      ∗ (∃ d, owns (c : Thread nD τ) (((cfg14 a).win 2).stage ((cfg14 a).slots t 2)) fullShare ((dat14 V a c).before 2 t d))
      ∗ (∃ d, owns (c : Thread nD τ) (((cfg14 a).win 3).stage ((cfg14 a).slots t 3)) fullShare ((dat14 V a c).before 3 t d))
      ∗ (∃ d, owns (c : Thread nD τ) (((cfg14 a).win 4).stage ((cfg14 a).slots t 4)) fullShare ((dat14 V a c).before 4 t d)))
    ⊢ wp frame (wpE (defs₀ (F := F)) Variants.none c none) Set.univ
        (bodyAt14 a t)
        (fun _ => iprop((dat14 V a c).Φ t.succ ∗ (dat14 V a c).owesAt () t.succ
          ∗ owns (c : Thread nD τ) (((cfg14 a).win 0).stage ((cfg14 a).slots t 0)) fullShare ((dat14 V a c).after 0 t)
          ∗ owns (c : Thread nD τ) (((cfg14 a).win 1).stage ((cfg14 a).slots t 1)) fullShare ((dat14 V a c).after 1 t)
          ∗ owns (c : Thread nD τ) (((cfg14 a).win 2).stage ((cfg14 a).slots t 2)) fullShare ((dat14 V a c).after 2 t)
          ∗ owns (c : Thread nD τ) (((cfg14 a).win 3).stage ((cfg14 a).slots t 3)) fullShare ((dat14 V a c).after 3 t)
          ∗ owns (c : Thread nD τ) (((cfg14 a).win 4).stage ((cfg14 a).slots t 4)) fullShare ((dat14 V a c).after 4 t))) := by
  simp only [before14_0, before14_1, before14_2, before14_3]
  rw [show (dat14 V a c).Φ t.succ = (dat14 V a c).Φ t.castSucc from rfl,
    show (dat14 V a c).owesAt () t.succ = (dat14 V a c).owesAt () t.castSucc from rfl,
    after14_0, after14_1, after14_2, after14_3, after14_4]
  iintro ⟨HΦ, Ho, ⟨%d0, H0⟩, ⟨%d1, H1⟩, ⟨%d2, H2⟩, ⟨%d3, H3⟩, ⟨%d4, H4⟩⟩
  unfold bodyAt14
  iapply (sound_kernel14 c Set.univ _ _ _ _ _ _ _ _ _ _ _ _ _ _ _ _ _ _ _ (iblk14 V a c 0 t) (iblk14 V a c 1 t) (iblk14 V a c 2 t) (iblk14 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 14, at every point. -/
theorem body_obligation14 (c : Dev nD) : BodyObligation (dat14 (F := F) V a c) (defs₀ (F := F)) Variants.none () Set.univ := fun t => by
  rw [bigSep_W14, bigSep_W14]
  exact sound_body14 V a c t

end Region0

end Cert.Kernel.Gen

end
-- ==== Proof.KW.Ok14.lean ====
/-
  The index tables of region 14 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok14_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 14's side condition. -/
theorem ok14_of_lt (pf : pre14.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok14 pf := by
  unfold ok14
  refine ⟨fun i => ⟨?_, Or.inl rfl⟩, fun i => ⟨?_, Or.inl rfl⟩, fun i => ⟨?_, Or.inl rfl⟩, fun i => ⟨?_, Or.inl rfl⟩⟩
  · exact ok14_fits _ (h0 _)
  · exact ok14_fits _ (h1 _)
  · exact ok14_fits _ (h2 _)
  · exact ok14_fits _ (h3 _)

/-- The four index tables of region 14 as the launch memory holds them on core `c`. -/
def pf14 (m : (ℓ : Loc nD τ sig) → Buf (Elt F) ℓ) (c : Dev nD) : pre14.Contents (Elt F) :=
  fun | 0 => tbl m c (14 : Fin 20) 0 | 1 => tbl m c (14 : Fin 20) 1 | 2 => tbl m c (14 : Fin 20) 2 | 3 => tbl m c (14 : Fin 20) 3
      | ⟨_ + 4, h⟩ => absurd h (Nat.not_lt.2 (Nat.le_add_left _ _))

/-- In range, those tables are admissible contents of region 14's pipeline. -/
def adm14 (m : (ℓ : Loc nD τ sig) → Buf (Elt F) ℓ) (c : Dev nD)
    (hR : Cert.EdgeLengths.InRange (m ((c.tc : Thread nD τ).loc main_arg1))) : (pcfg14 (F := F)).Adm :=
  ⟨pf14 m c, ok14_of_lt _ (tbl_lt m c hR _ _) (tbl_lt m c hR _ _) (tbl_lt m c hR _ _) (tbl_lt m c hR _ _)⟩

theorem adm14_0 (m : (ℓ : Loc nD τ sig) → Buf (Elt F) ℓ) (c : Dev nD)
    (hR : Cert.EdgeLengths.InRange (m ((c.tc : Thread nD τ).loc main_arg1))) :
    (adm14 m c hR).1 0 = tbl m c (14 : Fin 20) 0 := rfl
theorem adm14_1 (m : (ℓ : Loc nD τ sig) → Buf (Elt F) ℓ) (c : Dev nD)
    (hR : Cert.EdgeLengths.InRange (m ((c.tc : Thread nD τ).loc main_arg1))) :
    (adm14 m c hR).1 1 = tbl m c (14 : Fin 20) 1 := rfl
theorem adm14_2 (m : (ℓ : Loc nD τ sig) → Buf (Elt F) ℓ) (c : Dev nD)
    (hR : Cert.EdgeLengths.InRange (m ((c.tc : Thread nD τ).loc main_arg1))) :
    (adm14 m c hR).1 2 = tbl m c (14 : Fin 20) 2 := rfl
theorem adm14_3 (m : (ℓ : Loc nD τ sig) → Buf (Elt F) ℓ) (c : Dev nD)
    (hR : Cert.EdgeLengths.InRange (m ((c.tc : Thread nD τ).loc main_arg1))) :
    (adm14 m c hR).1 3 = tbl m c (14 : Fin 20) 3 := rfl

end Cert.Kernel.Gen

end
-- ==== Proof.KW.Region15.lean ====
/-
  Region 15 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk15`),
  whatever it held before.

  The region's proof data then says: at every grid point each input window's buffer holds the table row its index
  table names there, and the output window's buffer is left at `outBlk15` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk15 (x0 x1 x2 x3 : Vec F S1x1x64 .f32) : Vec F S1x1x2 .f32 :=
  View.canon [⟨outRectD, k15_pay2 (View.ld x2 rowRect) (View.ld x3 rowRect)⟩,
              ⟨outRectB, k15_pay1 (View.ld x0 rowRect) (View.ld x1 rowRect)⟩]

/-- The two one-element stores tile the two-element block. -/
theorem outCover15 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk15` of the inputs. The index tables are not
    touched by the body (only the index maps read them), so nothing is asked of them. -/
theorem sound_kernel15 (c : Dev nD) (E : Set ℕ) (i : grid15.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk15 x0 x1 x2 x3)) -∗ K ⟨⟩))
      ⊢ wp frame (wpE (defs₀ (F := F)) Variants.none c none) E
          (cc15__gather_norm_kernel i a1 h1 a2 h2 a3 h3 a4 h4 a5 h5 a6 h6 a7 h7 a8 h8 a9 h9) K := by
  simp only [cc15__gather_norm_kernel_eq_skeleton]; unfold cc15__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover15 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg15 (F := F)).Adm)

/-- Window `w`'s block at point `t`, read off its array as the region finds it: for an input window the table row
    its index table names at `t`, for the output window the two-element row `t` of the result. -/
def iblk15 (c : Dev nD) (w : Fin (cfg15 a).W) (t : Fin (cfg15 a).N) :
    (((cfg15 a).win w).xblock ((cfg15 a).grid.coords t)).Idx → Elt F ((cfg15 a).win w).elt :=
  (((cfg15 a).win w).blk t).view.read (Elt F) (V c (Pipeline.arrRef spec15 w))

/-- The proof data of region 15 on core `c`: the arrays as the region finds them; after the body at point `t` each
    input block as it was and the output block the two lengths; the invariant carries the untouched scoped
    buffers, the generator register and the four index tables, which only the index maps read. -/
def dat15 (c : Dev nD) : Dat τ (Elt F) Unit ℕ (UR sig nD τ) ℕ (cfg15 a) c where
  A w := V c (Pipeline.arrRef spec15 w)
  after w t := match w with
    | ⟨0, _⟩ => iblk15 V a c 0 t
    | ⟨1, _⟩ => iblk15 V a c 1 t
    | ⟨2, _⟩ => iblk15 V a c 2 t
    | ⟨3, _⟩ => iblk15 V a c 3 t
    | ⟨4, _⟩ => outBlk15 (iblk15 V a c 0 t) (iblk15 V a c 1 t) (iblk15 V a c 2 t) (iblk15 V a c 3 t)
  Φ _ := iprop(Pipeline.ΦA spec15 c ∗ Pipeline.prefHeld pre15 c (fun _ => fullShare) a.1)
  q w := inShare w
  owed _ := 0

theorem A_eq15 (c : Dev nD) (w : Fin (cfg15 a).W) : (dat15 V a c).A w = V c (Pipeline.arrRef spec15 w) := by
  dsimp only [dat15]

theorem after15_0 (c : Dev nD) (t : Fin (cfg15 a).N) : (dat15 V a c).after 0 t = iblk15 V a c 0 t := by dsimp only [dat15]; rfl
theorem after15_1 (c : Dev nD) (t : Fin (cfg15 a).N) : (dat15 V a c).after 1 t = iblk15 V a c 1 t := by dsimp only [dat15]; rfl
theorem after15_2 (c : Dev nD) (t : Fin (cfg15 a).N) : (dat15 V a c).after 2 t = iblk15 V a c 2 t := by dsimp only [dat15]; rfl
theorem after15_3 (c : Dev nD) (t : Fin (cfg15 a).N) : (dat15 V a c).after 3 t = iblk15 V a c 3 t := by dsimp only [dat15]; rfl
theorem after15_4 (c : Dev nD) (t : Fin (cfg15 a).N) : (dat15 V a c).after 4 t
    = outBlk15 (iblk15 V a c 0 t) (iblk15 V a c 1 t) (iblk15 V a c 2 t) (iblk15 V a c 3 t) := by dsimp only [dat15]; rfl

/-- Input window 0 holds its row at every point, fetched there or not: the body never writes an input block, the
    window is never idle and its blocks are whole rows. -/
theorem before15_0 (c : Dev nD) (t : Fin (cfg15 a).N) (d) : (dat15 V a c).before 0 t d = iblk15 V a c 0 t :=
  ((dat15 V a c).before_in_eq_fetched 0 rfl (fun _ => rfl) (fun _ _ _ => rfl)
      (fun t => by rw [after15_0]; unfold Dat.blockOf iblk15; rw [A_eq15]; try rfl) t d).trans
    (by unfold Dat.fetched Dat.blockOf iblk15; rw [A_eq15]; try rfl)

/-- Input window 1 holds its row at every point, fetched there or not: the body never writes an input block, the
    window is never idle and its blocks are whole rows. -/
theorem before15_1 (c : Dev nD) (t : Fin (cfg15 a).N) (d) : (dat15 V a c).before 1 t d = iblk15 V a c 1 t :=
  ((dat15 V a c).before_in_eq_fetched 1 rfl (fun _ => rfl) (fun _ _ _ => rfl)
      (fun t => by rw [after15_1]; unfold Dat.blockOf iblk15; rw [A_eq15]; try rfl) t d).trans
    (by unfold Dat.fetched Dat.blockOf iblk15; rw [A_eq15]; try rfl)

/-- Input window 2 holds its row at every point, fetched there or not: the body never writes an input block, the
    window is never idle and its blocks are whole rows. -/
theorem before15_2 (c : Dev nD) (t : Fin (cfg15 a).N) (d) : (dat15 V a c).before 2 t d = iblk15 V a c 2 t :=
  ((dat15 V a c).before_in_eq_fetched 2 rfl (fun _ => rfl) (fun _ _ _ => rfl)
      (fun t => by rw [after15_2]; unfold Dat.blockOf iblk15; rw [A_eq15]; try rfl) t d).trans
    (by unfold Dat.fetched Dat.blockOf iblk15; rw [A_eq15]; try rfl)

/-- Input window 3 holds its row at every point, fetched there or not: the body never writes an input block, the
    window is never idle and its blocks are whole rows. -/
theorem before15_3 (c : Dev nD) (t : Fin (cfg15 a).N) (d) : (dat15 V a c).before 3 t d = iblk15 V a c 3 t :=
  ((dat15 V a c).before_in_eq_fetched 3 rfl (fun _ => rfl) (fun _ _ _ => rfl)
      (fun t => by rw [after15_3]; unfold Dat.blockOf iblk15; rw [A_eq15]; try rfl) t d).trans
    (by unfold Dat.fetched Dat.blockOf iblk15; rw [A_eq15]; try rfl)

/-! ## The body at a generic point -/

/-- The kernel body as region 15 calls it at point `t`: the point's coordinates, the four index tables whole, and each
    window's current staging buffer. -/
abbrev bodyAt15 (t : Fin (cfg15 a).N) : Prog (TpuEff nD τ sig (Elt F) Λ₀ .tc) PUnit :=
  cc15__gather_norm_kernel (grid15.coords t) (Memref.whole main_v84) (Memref.isWhole_whole _) (Memref.whole main_v85) (Memref.isWhole_whole _)
    (Memref.whole main_v86) (Memref.isWhole_whole _) (Memref.whole main_v87) (Memref.isWhole_whole _)
    (spec15_0.stage ((cfg15 a).slots t 0)) (hstage15_0 (((cfg15 a).slots t 0).cast nbuf15_0))
    (spec15_1.stage ((cfg15 a).slots t 1)) (hstage15_1 (((cfg15 a).slots t 1).cast nbuf15_1))
    (spec15_2.stage ((cfg15 a).slots t 2)) (hstage15_2 (((cfg15 a).slots t 2).cast nbuf15_2))
    (spec15_3.stage ((cfg15 a).slots t 3)) (hstage15_3 (((cfg15 a).slots t 3).cast nbuf15_3))
    (spec15_4.stage ((cfg15 a).slots t 4)) (hstage15_4 (((cfg15 a).slots t 4).cast nbuf15_4))

/-- The body at any point: each input buffer holds its row (`before15_w`), so `sound_kernel15` applies; the invariant
    (with the index tables in it) and what the core owes pass through unread. -/
theorem sound_body15 (c : Dev nD) (t : Fin (cfg15 a).N) :
    iprop((dat15 V a c).Φ t.castSucc ∗ (dat15 V a c).owesAt () t.castSucc
      ∗ (∃ d, owns (c : Thread nD τ) (((cfg15 a).win 0).stage ((cfg15 a).slots t 0)) fullShare ((dat15 V a c).before 0 t d))
      ∗ (∃ d, owns (c : Thread nD τ) (((cfg15 a).win 1).stage ((cfg15 a).slots t 1)) fullShare ((dat15 V a c).before 1 t d))
      ∗ (∃ d, owns (c : Thread nD τ) (((cfg15 a).win 2).stage ((cfg15 a).slots t 2)) fullShare ((dat15 V a c).before 2 t d))
      ∗ (∃ d, owns (c : Thread nD τ) (((cfg15 a).win 3).stage ((cfg15 a).slots t 3)) fullShare ((dat15 V a c).before 3 t d))
      ∗ (∃ d, owns (c : Thread nD τ) (((cfg15 a).win 4).stage ((cfg15 a).slots t 4)) fullShare ((dat15 V a c).before 4 t d)))
    ⊢ wp frame (wpE (defs₀ (F := F)) Variants.none c none) Set.univ
        (bodyAt15 a t)
        (fun _ => iprop((dat15 V a c).Φ t.succ ∗ (dat15 V a c).owesAt () t.succ
          ∗ owns (c : Thread nD τ) (((cfg15 a).win 0).stage ((cfg15 a).slots t 0)) fullShare ((dat15 V a c).after 0 t)
          ∗ owns (c : Thread nD τ) (((cfg15 a).win 1).stage ((cfg15 a).slots t 1)) fullShare ((dat15 V a c).after 1 t)
          ∗ owns (c : Thread nD τ) (((cfg15 a).win 2).stage ((cfg15 a).slots t 2)) fullShare ((dat15 V a c).after 2 t)
          ∗ owns (c : Thread nD τ) (((cfg15 a).win 3).stage ((cfg15 a).slots t 3)) fullShare ((dat15 V a c).after 3 t)
          ∗ owns (c : Thread nD τ) (((cfg15 a).win 4).stage ((cfg15 a).slots t 4)) fullShare ((dat15 V a c).after 4 t))) := by
  simp only [before15_0, before15_1, before15_2, before15_3]
  rw [show (dat15 V a c).Φ t.succ = (dat15 V a c).Φ t.castSucc from rfl,
    show (dat15 V a c).owesAt () t.succ = (dat15 V a c).owesAt () t.castSucc from rfl,
    after15_0, after15_1, after15_2, after15_3, after15_4]
  iintro ⟨HΦ, Ho, ⟨%d0, H0⟩, ⟨%d1, H1⟩, ⟨%d2, H2⟩, ⟨%d3, H3⟩, ⟨%d4, H4⟩⟩
  unfold bodyAt15
  iapply (sound_kernel15 c Set.univ _ _ _ _ _ _ _ _ _ _ _ _ _ _ _ _ _ _ _ (iblk15 V a c 0 t) (iblk15 V a c 1 t) (iblk15 V a c 2 t) (iblk15 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 15, at every point. -/
theorem body_obligation15 (c : Dev nD) : BodyObligation (dat15 (F := F) V a c) (defs₀ (F := F)) Variants.none () Set.univ := fun t => by
  rw [bigSep_W15, bigSep_W15]
  exact sound_body15 V a c t

end Region0

end Cert.Kernel.Gen

end
-- ==== Proof.KW.Ok15.lean ====
/-
  The index tables of region 15 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok15_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 15's side condition. -/
theorem ok15_of_lt (pf : pre15.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok15 pf := by
  unfold ok15
  refine ⟨fun i => ⟨?_, Or.inl rfl⟩, fun i => ⟨?_, Or.inl rfl⟩, fun i => ⟨?_, Or.inl rfl⟩, fun i => ⟨?_, Or.inl rfl⟩⟩
  · exact ok15_fits _ (h0 _)
  · exact ok15_fits _ (h1 _)
  · exact ok15_fits _ (h2 _)
  · exact ok15_fits _ (h3 _)

/-- The four index tables of region 15 as the launch memory holds them on core `c`. -/
def pf15 (m : (ℓ : Loc nD τ sig) → Buf (Elt F) ℓ) (c : Dev nD) : pre15.Contents (Elt F) :=
  fun | 0 => tbl m c (15 : Fin 20) 0 | 1 => tbl m c (15 : Fin 20) 1 | 2 => tbl m c (15 : Fin 20) 2 | 3 => tbl m c (15 : Fin 20) 3
      | ⟨_ + 4, h⟩ => absurd h (Nat.not_lt.2 (Nat.le_add_left _ _))

/-- In range, those tables are admissible contents of region 15's pipeline. -/
def adm15 (m : (ℓ : Loc nD τ sig) → Buf (Elt F) ℓ) (c : Dev nD)
    (hR : Cert.EdgeLengths.InRange (m ((c.tc : Thread nD τ).loc main_arg1))) : (pcfg15 (F := F)).Adm :=
  ⟨pf15 m c, ok15_of_lt _ (tbl_lt m c hR _ _) (tbl_lt m c hR _ _) (tbl_lt m c hR _ _) (tbl_lt m c hR _ _)⟩

theorem adm15_0 (m : (ℓ : Loc nD τ sig) → Buf (Elt F) ℓ) (c : Dev nD)
    (hR : Cert.EdgeLengths.InRange (m ((c.tc : Thread nD τ).loc main_arg1))) :
    (adm15 m c hR).1 0 = tbl m c (15 : Fin 20) 0 := rfl
theorem adm15_1 (m : (ℓ : Loc nD τ sig) → Buf (Elt F) ℓ) (c : Dev nD)
    (hR : Cert.EdgeLengths.InRange (m ((c.tc : Thread nD τ).loc main_arg1))) :
    (adm15 m c hR).1 1 = tbl m c (15 : Fin 20) 1 := rfl
theorem adm15_2 (m : (ℓ : Loc nD τ sig) → Buf (Elt F) ℓ) (c : Dev nD)
    (hR : Cert.EdgeLengths.InRange (m ((c.tc : Thread nD τ).loc main_arg1))) :
    (adm15 m c hR).1 2 = tbl m c (15 : Fin 20) 2 := rfl
theorem adm15_3 (m : (ℓ : Loc nD τ sig) → Buf (Elt F) ℓ) (c : Dev nD)
    (hR : Cert.EdgeLengths.InRange (m ((c.tc : Thread nD τ).loc main_arg1))) :
    (adm15 m c hR).1 3 = tbl m c (15 : Fin 20) 3 := rfl

end Cert.Kernel.Gen

end
-- ==== Proof.KW.Region16.lean ====
/-
  Region 16 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk16`),
  whatever it held before.

  The region's proof data then says: at every grid point each input window's buffer holds the table row its index
  table names there, and the output window's buffer is left at `outBlk16` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk16 (x0 x1 x2 x3 : Vec F S1x1x64 .f32) : Vec F S1x1x2 .f32 :=
  View.canon [⟨outRectD, k16_pay2 (View.ld x2 rowRect) (View.ld x3 rowRect)⟩,
              ⟨outRectB, k16_pay1 (View.ld x0 rowRect) (View.ld x1 rowRect)⟩]

/-- The two one-element stores tile the two-element block. -/
theorem outCover16 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk16` of the inputs. The index tables are not
    touched by the body (only the index maps read them), so nothing is asked of them. -/
theorem sound_kernel16 (c : Dev nD) (E : Set ℕ) (i : grid16.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk16 x0 x1 x2 x3)) -∗ K ⟨⟩))
      ⊢ wp frame (wpE (defs₀ (F := F)) Variants.none c none) E
          (cc16__gather_norm_kernel i a1 h1 a2 h2 a3 h3 a4 h4 a5 h5 a6 h6 a7 h7 a8 h8 a9 h9) K := by
  simp only [cc16__gather_norm_kernel_eq_skeleton]; unfold cc16__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover16 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg16 (F := F)).Adm)

/-- Window `w`'s block at point `t`, read off its array as the region finds it: for an input window the table row
    its index table names at `t`, for the output window the two-element row `t` of the result. -/
def iblk16 (c : Dev nD) (w : Fin (cfg16 a).W) (t : Fin (cfg16 a).N) :
    (((cfg16 a).win w).xblock ((cfg16 a).grid.coords t)).Idx → Elt F ((cfg16 a).win w).elt :=
  (((cfg16 a).win w).blk t).view.read (Elt F) (V c (Pipeline.arrRef spec16 w))

/-- The proof data of region 16 on core `c`: the arrays as the region finds them; after the body at point `t` each
    input block as it was and the output block the two lengths; the invariant carries the untouched scoped
    buffers, the generator register and the four index tables, which only the index maps read. -/
def dat16 (c : Dev nD) : Dat τ (Elt F) Unit ℕ (UR sig nD τ) ℕ (cfg16 a) c where
  A w := V c (Pipeline.arrRef spec16 w)
  after w t := match w with
    | ⟨0, _⟩ => iblk16 V a c 0 t
    | ⟨1, _⟩ => iblk16 V a c 1 t
    | ⟨2, _⟩ => iblk16 V a c 2 t
    | ⟨3, _⟩ => iblk16 V a c 3 t
    | ⟨4, _⟩ => outBlk16 (iblk16 V a c 0 t) (iblk16 V a c 1 t) (iblk16 V a c 2 t) (iblk16 V a c 3 t)
  Φ _ := iprop(Pipeline.ΦA spec16 c ∗ Pipeline.prefHeld pre16 c (fun _ => fullShare) a.1)
  q w := inShare w
  owed _ := 0

theorem A_eq16 (c : Dev nD) (w : Fin (cfg16 a).W) : (dat16 V a c).A w = V c (Pipeline.arrRef spec16 w) := by
  dsimp only [dat16]

theorem after16_0 (c : Dev nD) (t : Fin (cfg16 a).N) : (dat16 V a c).after 0 t = iblk16 V a c 0 t := by dsimp only [dat16]; rfl
theorem after16_1 (c : Dev nD) (t : Fin (cfg16 a).N) : (dat16 V a c).after 1 t = iblk16 V a c 1 t := by dsimp only [dat16]; rfl
theorem after16_2 (c : Dev nD) (t : Fin (cfg16 a).N) : (dat16 V a c).after 2 t = iblk16 V a c 2 t := by dsimp only [dat16]; rfl
theorem after16_3 (c : Dev nD) (t : Fin (cfg16 a).N) : (dat16 V a c).after 3 t = iblk16 V a c 3 t := by dsimp only [dat16]; rfl
theorem after16_4 (c : Dev nD) (t : Fin (cfg16 a).N) : (dat16 V a c).after 4 t
    = outBlk16 (iblk16 V a c 0 t) (iblk16 V a c 1 t) (iblk16 V a c 2 t) (iblk16 V a c 3 t) := by dsimp only [dat16]; rfl

/-- Input window 0 holds its row at every point, fetched there or not: the body never writes an input block, the
    window is never idle and its blocks are whole rows. -/
theorem before16_0 (c : Dev nD) (t : Fin (cfg16 a).N) (d) : (dat16 V a c).before 0 t d = iblk16 V a c 0 t :=
  ((dat16 V a c).before_in_eq_fetched 0 rfl (fun _ => rfl) (fun _ _ _ => rfl)
      (fun t => by rw [after16_0]; unfold Dat.blockOf iblk16; rw [A_eq16]; try rfl) t d).trans
    (by unfold Dat.fetched Dat.blockOf iblk16; rw [A_eq16]; try rfl)

/-- Input window 1 holds its row at every point, fetched there or not: the body never writes an input block, the
    window is never idle and its blocks are whole rows. -/
theorem before16_1 (c : Dev nD) (t : Fin (cfg16 a).N) (d) : (dat16 V a c).before 1 t d = iblk16 V a c 1 t :=
  ((dat16 V a c).before_in_eq_fetched 1 rfl (fun _ => rfl) (fun _ _ _ => rfl)
      (fun t => by rw [after16_1]; unfold Dat.blockOf iblk16; rw [A_eq16]; try rfl) t d).trans
    (by unfold Dat.fetched Dat.blockOf iblk16; rw [A_eq16]; try rfl)

/-- Input window 2 holds its row at every point, fetched there or not: the body never writes an input block, the
    window is never idle and its blocks are whole rows. -/
theorem before16_2 (c : Dev nD) (t : Fin (cfg16 a).N) (d) : (dat16 V a c).before 2 t d = iblk16 V a c 2 t :=
  ((dat16 V a c).before_in_eq_fetched 2 rfl (fun _ => rfl) (fun _ _ _ => rfl)
      (fun t => by rw [after16_2]; unfold Dat.blockOf iblk16; rw [A_eq16]; try rfl) t d).trans
    (by unfold Dat.fetched Dat.blockOf iblk16; rw [A_eq16]; try rfl)

/-- Input window 3 holds its row at every point, fetched there or not: the body never writes an input block, the
    window is never idle and its blocks are whole rows. -/
theorem before16_3 (c : Dev nD) (t : Fin (cfg16 a).N) (d) : (dat16 V a c).before 3 t d = iblk16 V a c 3 t :=
  ((dat16 V a c).before_in_eq_fetched 3 rfl (fun _ => rfl) (fun _ _ _ => rfl)
      (fun t => by rw [after16_3]; unfold Dat.blockOf iblk16; rw [A_eq16]; try rfl) t d).trans
    (by unfold Dat.fetched Dat.blockOf iblk16; rw [A_eq16]; try rfl)

/-! ## The body at a generic point -/

/-- The kernel body as region 16 calls it at point `t`: the point's coordinates, the four index tables whole, and each
    window's current staging buffer. -/
abbrev bodyAt16 (t : Fin (cfg16 a).N) : Prog (TpuEff nD τ sig (Elt F) Λ₀ .tc) PUnit :=
  cc16__gather_norm_kernel (grid16.coords t) (Memref.whole main_v89) (Memref.isWhole_whole _) (Memref.whole main_v90) (Memref.isWhole_whole _)
    (Memref.whole main_v91) (Memref.isWhole_whole _) (Memref.whole main_v92) (Memref.isWhole_whole _)
    (spec16_0.stage ((cfg16 a).slots t 0)) (hstage16_0 (((cfg16 a).slots t 0).cast nbuf16_0))
    (spec16_1.stage ((cfg16 a).slots t 1)) (hstage16_1 (((cfg16 a).slots t 1).cast nbuf16_1))
    (spec16_2.stage ((cfg16 a).slots t 2)) (hstage16_2 (((cfg16 a).slots t 2).cast nbuf16_2))
    (spec16_3.stage ((cfg16 a).slots t 3)) (hstage16_3 (((cfg16 a).slots t 3).cast nbuf16_3))
    (spec16_4.stage ((cfg16 a).slots t 4)) (hstage16_4 (((cfg16 a).slots t 4).cast nbuf16_4))

/-- The body at any point: each input buffer holds its row (`before16_w`), so `sound_kernel16` applies; the invariant
    (with the index tables in it) and what the core owes pass through unread. -/
theorem sound_body16 (c : Dev nD) (t : Fin (cfg16 a).N) :
    iprop((dat16 V a c).Φ t.castSucc ∗ (dat16 V a c).owesAt () t.castSucc
      ∗ (∃ d, owns (c : Thread nD τ) (((cfg16 a).win 0).stage ((cfg16 a).slots t 0)) fullShare ((dat16 V a c).before 0 t d))
      ∗ (∃ d, owns (c : Thread nD τ) (((cfg16 a).win 1).stage ((cfg16 a).slots t 1)) fullShare ((dat16 V a c).before 1 t d))
      ∗ (∃ d, owns (c : Thread nD τ) (((cfg16 a).win 2).stage ((cfg16 a).slots t 2)) fullShare ((dat16 V a c).before 2 t d))
      ∗ (∃ d, owns (c : Thread nD τ) (((cfg16 a).win 3).stage ((cfg16 a).slots t 3)) fullShare ((dat16 V a c).before 3 t d))
      ∗ (∃ d, owns (c : Thread nD τ) (((cfg16 a).win 4).stage ((cfg16 a).slots t 4)) fullShare ((dat16 V a c).before 4 t d)))
    ⊢ wp frame (wpE (defs₀ (F := F)) Variants.none c none) Set.univ
        (bodyAt16 a t)
        (fun _ => iprop((dat16 V a c).Φ t.succ ∗ (dat16 V a c).owesAt () t.succ
          ∗ owns (c : Thread nD τ) (((cfg16 a).win 0).stage ((cfg16 a).slots t 0)) fullShare ((dat16 V a c).after 0 t)
          ∗ owns (c : Thread nD τ) (((cfg16 a).win 1).stage ((cfg16 a).slots t 1)) fullShare ((dat16 V a c).after 1 t)
          ∗ owns (c : Thread nD τ) (((cfg16 a).win 2).stage ((cfg16 a).slots t 2)) fullShare ((dat16 V a c).after 2 t)
          ∗ owns (c : Thread nD τ) (((cfg16 a).win 3).stage ((cfg16 a).slots t 3)) fullShare ((dat16 V a c).after 3 t)
          ∗ owns (c : Thread nD τ) (((cfg16 a).win 4).stage ((cfg16 a).slots t 4)) fullShare ((dat16 V a c).after 4 t))) := by
  simp only [before16_0, before16_1, before16_2, before16_3]
  rw [show (dat16 V a c).Φ t.succ = (dat16 V a c).Φ t.castSucc from rfl,
    show (dat16 V a c).owesAt () t.succ = (dat16 V a c).owesAt () t.castSucc from rfl,
    after16_0, after16_1, after16_2, after16_3, after16_4]
  iintro ⟨HΦ, Ho, ⟨%d0, H0⟩, ⟨%d1, H1⟩, ⟨%d2, H2⟩, ⟨%d3, H3⟩, ⟨%d4, H4⟩⟩
  unfold bodyAt16
  iapply (sound_kernel16 c Set.univ _ _ _ _ _ _ _ _ _ _ _ _ _ _ _ _ _ _ _ (iblk16 V a c 0 t) (iblk16 V a c 1 t) (iblk16 V a c 2 t) (iblk16 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 16, at every point. -/
theorem body_obligation16 (c : Dev nD) : BodyObligation (dat16 (F := F) V a c) (defs₀ (F := F)) Variants.none () Set.univ := fun t => by
  rw [bigSep_W16, bigSep_W16]
  exact sound_body16 V a c t

end Region0

end Cert.Kernel.Gen

end
-- ==== Proof.KW.Ok16.lean ====
/-
  The index tables of region 16 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok16_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 16's side condition. -/
theorem ok16_of_lt (pf : pre16.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok16 pf := by
  unfold ok16
  refine ⟨fun i => ⟨?_, Or.inl rfl⟩, fun i => ⟨?_, Or.inl rfl⟩, fun i => ⟨?_, Or.inl rfl⟩, fun i => ⟨?_, Or.inl rfl⟩⟩
  · exact ok16_fits _ (h0 _)
  · exact ok16_fits _ (h1 _)
  · exact ok16_fits _ (h2 _)
  · exact ok16_fits _ (h3 _)

/-- The four index tables of region 16 as the launch memory holds them on core `c`. -/
def pf16 (m : (ℓ : Loc nD τ sig) → Buf (Elt F) ℓ) (c : Dev nD) : pre16.Contents (Elt F) :=
  fun | 0 => tbl m c (16 : Fin 20) 0 | 1 => tbl m c (16 : Fin 20) 1 | 2 => tbl m c (16 : Fin 20) 2 | 3 => tbl m c (16 : Fin 20) 3
      | ⟨_ + 4, h⟩ => absurd h (Nat.not_lt.2 (Nat.le_add_left _ _))

/-- In range, those tables are admissible contents of region 16's pipeline. -/
def adm16 (m : (ℓ : Loc nD τ sig) → Buf (Elt F) ℓ) (c : Dev nD)
    (hR : Cert.EdgeLengths.InRange (m ((c.tc : Thread nD τ).loc main_arg1))) : (pcfg16 (F := F)).Adm :=
  ⟨pf16 m c, ok16_of_lt _ (tbl_lt m c hR _ _) (tbl_lt m c hR _ _) (tbl_lt m c hR _ _) (tbl_lt m c hR _ _)⟩

theorem adm16_0 (m : (ℓ : Loc nD τ sig) → Buf (Elt F) ℓ) (c : Dev nD)
    (hR : Cert.EdgeLengths.InRange (m ((c.tc : Thread nD τ).loc main_arg1))) :
    (adm16 m c hR).1 0 = tbl m c (16 : Fin 20) 0 := rfl
theorem adm16_1 (m : (ℓ : Loc nD τ sig) → Buf (Elt F) ℓ) (c : Dev nD)
    (hR : Cert.EdgeLengths.InRange (m ((c.tc : Thread nD τ).loc main_arg1))) :
    (adm16 m c hR).1 1 = tbl m c (16 : Fin 20) 1 := rfl
theorem adm16_2 (m : (ℓ : Loc nD τ sig) → Buf (Elt F) ℓ) (c : Dev nD)
    (hR : Cert.EdgeLengths.InRange (m ((c.tc : Thread nD τ).loc main_arg1))) :
    (adm16 m c hR).1 2 = tbl m c (16 : Fin 20) 2 := rfl
theorem adm16_3 (m : (ℓ : Loc nD τ sig) → Buf (Elt F) ℓ) (c : Dev nD)
    (hR : Cert.EdgeLengths.InRange (m ((c.tc : Thread nD τ).loc main_arg1))) :
    (adm16 m c hR).1 3 = tbl m c (16 : Fin 20) 3 := rfl

end Cert.Kernel.Gen

end
-- ==== Proof.KW.Region17.lean ====
/-
  Region 17 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk17`),
  whatever it held before.

  The region's proof data then says: at every grid point each input window's buffer holds the table row its index
  table names there, and the output window's buffer is left at `outBlk17` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk17 (x0 x1 x2 x3 : Vec F S1x1x64 .f32) : Vec F S1x1x2 .f32 :=
  View.canon [⟨outRectD, k17_pay2 (View.ld x2 rowRect) (View.ld x3 rowRect)⟩,
              ⟨outRectB, k17_pay1 (View.ld x0 rowRect) (View.ld x1 rowRect)⟩]

/-- The two one-element stores tile the two-element block. -/
theorem outCover17 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk17` of the inputs. The index tables are not
    touched by the body (only the index maps read them), so nothing is asked of them. -/
theorem sound_kernel17 (c : Dev nD) (E : Set ℕ) (i : grid17.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk17 x0 x1 x2 x3)) -∗ K ⟨⟩))
      ⊢ wp frame (wpE (defs₀ (F := F)) Variants.none c none) E
          (cc17__gather_norm_kernel i a1 h1 a2 h2 a3 h3 a4 h4 a5 h5 a6 h6 a7 h7 a8 h8 a9 h9) K := by
  simp only [cc17__gather_norm_kernel_eq_skeleton]; unfold cc17__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover17 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg17 (F := F)).Adm)

/-- Window `w`'s block at point `t`, read off its array as the region finds it: for an input window the table row
    its index table names at `t`, for the output window the two-element row `t` of the result. -/
def iblk17 (c : Dev nD) (w : Fin (cfg17 a).W) (t : Fin (cfg17 a).N) :
    (((cfg17 a).win w).xblock ((cfg17 a).grid.coords t)).Idx → Elt F ((cfg17 a).win w).elt :=
  (((cfg17 a).win w).blk t).view.read (Elt F) (V c (Pipeline.arrRef spec17 w))

/-- The proof data of region 17 on core `c`: the arrays as the region finds them; after the body at point `t` each
    input block as it was and the output block the two lengths; the invariant carries the untouched scoped
    buffers, the generator register and the four index tables, which only the index maps read. -/
def dat17 (c : Dev nD) : Dat τ (Elt F) Unit ℕ (UR sig nD τ) ℕ (cfg17 a) c where
  A w := V c (Pipeline.arrRef spec17 w)
  after w t := match w with
    | ⟨0, _⟩ => iblk17 V a c 0 t
    | ⟨1, _⟩ => iblk17 V a c 1 t
    | ⟨2, _⟩ => iblk17 V a c 2 t
    | ⟨3, _⟩ => iblk17 V a c 3 t
    | ⟨4, _⟩ => outBlk17 (iblk17 V a c 0 t) (iblk17 V a c 1 t) (iblk17 V a c 2 t) (iblk17 V a c 3 t)
  Φ _ := iprop(Pipeline.ΦA spec17 c ∗ Pipeline.prefHeld pre17 c (fun _ => fullShare) a.1)
  q w := inShare w
  owed _ := 0

theorem A_eq17 (c : Dev nD) (w : Fin (cfg17 a).W) : (dat17 V a c).A w = V c (Pipeline.arrRef spec17 w) := by
  dsimp only [dat17]

theorem after17_0 (c : Dev nD) (t : Fin (cfg17 a).N) : (dat17 V a c).after 0 t = iblk17 V a c 0 t := by dsimp only [dat17]; rfl
theorem after17_1 (c : Dev nD) (t : Fin (cfg17 a).N) : (dat17 V a c).after 1 t = iblk17 V a c 1 t := by dsimp only [dat17]; rfl
theorem after17_2 (c : Dev nD) (t : Fin (cfg17 a).N) : (dat17 V a c).after 2 t = iblk17 V a c 2 t := by dsimp only [dat17]; rfl
theorem after17_3 (c : Dev nD) (t : Fin (cfg17 a).N) : (dat17 V a c).after 3 t = iblk17 V a c 3 t := by dsimp only [dat17]; rfl
theorem after17_4 (c : Dev nD) (t : Fin (cfg17 a).N) : (dat17 V a c).after 4 t
    = outBlk17 (iblk17 V a c 0 t) (iblk17 V a c 1 t) (iblk17 V a c 2 t) (iblk17 V a c 3 t) := by dsimp only [dat17]; rfl

/-- Input window 0 holds its row at every point, fetched there or not: the body never writes an input block, the
    window is never idle and its blocks are whole rows. -/
theorem before17_0 (c : Dev nD) (t : Fin (cfg17 a).N) (d) : (dat17 V a c).before 0 t d = iblk17 V a c 0 t :=
  ((dat17 V a c).before_in_eq_fetched 0 rfl (fun _ => rfl) (fun _ _ _ => rfl)
      (fun t => by rw [after17_0]; unfold Dat.blockOf iblk17; rw [A_eq17]; try rfl) t d).trans
    (by unfold Dat.fetched Dat.blockOf iblk17; rw [A_eq17]; try rfl)

/-- Input window 1 holds its row at every point, fetched there or not: the body never writes an input block, the
    window is never idle and its blocks are whole rows. -/
theorem before17_1 (c : Dev nD) (t : Fin (cfg17 a).N) (d) : (dat17 V a c).before 1 t d = iblk17 V a c 1 t :=
  ((dat17 V a c).before_in_eq_fetched 1 rfl (fun _ => rfl) (fun _ _ _ => rfl)
      (fun t => by rw [after17_1]; unfold Dat.blockOf iblk17; rw [A_eq17]; try rfl) t d).trans
    (by unfold Dat.fetched Dat.blockOf iblk17; rw [A_eq17]; try rfl)

/-- Input window 2 holds its row at every point, fetched there or not: the body never writes an input block, the
    window is never idle and its blocks are whole rows. -/
theorem before17_2 (c : Dev nD) (t : Fin (cfg17 a).N) (d) : (dat17 V a c).before 2 t d = iblk17 V a c 2 t :=
  ((dat17 V a c).before_in_eq_fetched 2 rfl (fun _ => rfl) (fun _ _ _ => rfl)
      (fun t => by rw [after17_2]; unfold Dat.blockOf iblk17; rw [A_eq17]; try rfl) t d).trans
    (by unfold Dat.fetched Dat.blockOf iblk17; rw [A_eq17]; try rfl)

/-- Input window 3 holds its row at every point, fetched there or not: the body never writes an input block, the
    window is never idle and its blocks are whole rows. -/
theorem before17_3 (c : Dev nD) (t : Fin (cfg17 a).N) (d) : (dat17 V a c).before 3 t d = iblk17 V a c 3 t :=
  ((dat17 V a c).before_in_eq_fetched 3 rfl (fun _ => rfl) (fun _ _ _ => rfl)
      (fun t => by rw [after17_3]; unfold Dat.blockOf iblk17; rw [A_eq17]; try rfl) t d).trans
    (by unfold Dat.fetched Dat.blockOf iblk17; rw [A_eq17]; try rfl)

/-! ## The body at a generic point -/

/-- The kernel body as region 17 calls it at point `t`: the point's coordinates, the four index tables whole, and each
    window's current staging buffer. -/
abbrev bodyAt17 (t : Fin (cfg17 a).N) : Prog (TpuEff nD τ sig (Elt F) Λ₀ .tc) PUnit :=
  cc17__gather_norm_kernel (grid17.coords t) (Memref.whole main_v94) (Memref.isWhole_whole _) (Memref.whole main_v95) (Memref.isWhole_whole _)
    (Memref.whole main_v96) (Memref.isWhole_whole _) (Memref.whole main_v97) (Memref.isWhole_whole _)
    (spec17_0.stage ((cfg17 a).slots t 0)) (hstage17_0 (((cfg17 a).slots t 0).cast nbuf17_0))
    (spec17_1.stage ((cfg17 a).slots t 1)) (hstage17_1 (((cfg17 a).slots t 1).cast nbuf17_1))
    (spec17_2.stage ((cfg17 a).slots t 2)) (hstage17_2 (((cfg17 a).slots t 2).cast nbuf17_2))
    (spec17_3.stage ((cfg17 a).slots t 3)) (hstage17_3 (((cfg17 a).slots t 3).cast nbuf17_3))
    (spec17_4.stage ((cfg17 a).slots t 4)) (hstage17_4 (((cfg17 a).slots t 4).cast nbuf17_4))

/-- The body at any point: each input buffer holds its row (`before17_w`), so `sound_kernel17` applies; the invariant
    (with the index tables in it) and what the core owes pass through unread. -/
theorem sound_body17 (c : Dev nD) (t : Fin (cfg17 a).N) :
    iprop((dat17 V a c).Φ t.castSucc ∗ (dat17 V a c).owesAt () t.castSucc
      ∗ (∃ d, owns (c : Thread nD τ) (((cfg17 a).win 0).stage ((cfg17 a).slots t 0)) fullShare ((dat17 V a c).before 0 t d))
      ∗ (∃ d, owns (c : Thread nD τ) (((cfg17 a).win 1).stage ((cfg17 a).slots t 1)) fullShare ((dat17 V a c).before 1 t d))
      ∗ (∃ d, owns (c : Thread nD τ) (((cfg17 a).win 2).stage ((cfg17 a).slots t 2)) fullShare ((dat17 V a c).before 2 t d))
      ∗ (∃ d, owns (c : Thread nD τ) (((cfg17 a).win 3).stage ((cfg17 a).slots t 3)) fullShare ((dat17 V a c).before 3 t d))
      ∗ (∃ d, owns (c : Thread nD τ) (((cfg17 a).win 4).stage ((cfg17 a).slots t 4)) fullShare ((dat17 V a c).before 4 t d)))
    ⊢ wp frame (wpE (defs₀ (F := F)) Variants.none c none) Set.univ
        (bodyAt17 a t)
        (fun _ => iprop((dat17 V a c).Φ t.succ ∗ (dat17 V a c).owesAt () t.succ
          ∗ owns (c : Thread nD τ) (((cfg17 a).win 0).stage ((cfg17 a).slots t 0)) fullShare ((dat17 V a c).after 0 t)
          ∗ owns (c : Thread nD τ) (((cfg17 a).win 1).stage ((cfg17 a).slots t 1)) fullShare ((dat17 V a c).after 1 t)
          ∗ owns (c : Thread nD τ) (((cfg17 a).win 2).stage ((cfg17 a).slots t 2)) fullShare ((dat17 V a c).after 2 t)
          ∗ owns (c : Thread nD τ) (((cfg17 a).win 3).stage ((cfg17 a).slots t 3)) fullShare ((dat17 V a c).after 3 t)
          ∗ owns (c : Thread nD τ) (((cfg17 a).win 4).stage ((cfg17 a).slots t 4)) fullShare ((dat17 V a c).after 4 t))) := by
  simp only [before17_0, before17_1, before17_2, before17_3]
  rw [show (dat17 V a c).Φ t.succ = (dat17 V a c).Φ t.castSucc from rfl,
    show (dat17 V a c).owesAt () t.succ = (dat17 V a c).owesAt () t.castSucc from rfl,
    after17_0, after17_1, after17_2, after17_3, after17_4]
  iintro ⟨HΦ, Ho, ⟨%d0, H0⟩, ⟨%d1, H1⟩, ⟨%d2, H2⟩, ⟨%d3, H3⟩, ⟨%d4, H4⟩⟩
  unfold bodyAt17
  iapply (sound_kernel17 c Set.univ _ _ _ _ _ _ _ _ _ _ _ _ _ _ _ _ _ _ _ (iblk17 V a c 0 t) (iblk17 V a c 1 t) (iblk17 V a c 2 t) (iblk17 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 17, at every point. -/
theorem body_obligation17 (c : Dev nD) : BodyObligation (dat17 (F := F) V a c) (defs₀ (F := F)) Variants.none () Set.univ := fun t => by
  rw [bigSep_W17, bigSep_W17]
  exact sound_body17 V a c t

end Region0

end Cert.Kernel.Gen

end
-- ==== Proof.KW.Ok17.lean ====
/-
  The index tables of region 17 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok17_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 17's side condition. -/
theorem ok17_of_lt (pf : pre17.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok17 pf := by
  unfold ok17
  refine ⟨fun i => ⟨?_, Or.inl rfl⟩, fun i => ⟨?_, Or.inl rfl⟩, fun i => ⟨?_, Or.inl rfl⟩, fun i => ⟨?_, Or.inl rfl⟩⟩
  · exact ok17_fits _ (h0 _)
  · exact ok17_fits _ (h1 _)
  · exact ok17_fits _ (h2 _)
  · exact ok17_fits _ (h3 _)

/-- The four index tables of region 17 as the launch memory holds them on core `c`. -/
def pf17 (m : (ℓ : Loc nD τ sig) → Buf (Elt F) ℓ) (c : Dev nD) : pre17.Contents (Elt F) :=
  fun | 0 => tbl m c (17 : Fin 20) 0 | 1 => tbl m c (17 : Fin 20) 1 | 2 => tbl m c (17 : Fin 20) 2 | 3 => tbl m c (17 : Fin 20) 3
      | ⟨_ + 4, h⟩ => absurd h (Nat.not_lt.2 (Nat.le_add_left _ _))

/-- In range, those tables are admissible contents of region 17's pipeline. -/
def adm17 (m : (ℓ : Loc nD τ sig) → Buf (Elt F) ℓ) (c : Dev nD)
    (hR : Cert.EdgeLengths.InRange (m ((c.tc : Thread nD τ).loc main_arg1))) : (pcfg17 (F := F)).Adm :=
  ⟨pf17 m c, ok17_of_lt _ (tbl_lt m c hR _ _) (tbl_lt m c hR _ _) (tbl_lt m c hR _ _) (tbl_lt m c hR _ _)⟩

theorem adm17_0 (m : (ℓ : Loc nD τ sig) → Buf (Elt F) ℓ) (c : Dev nD)
    (hR : Cert.EdgeLengths.InRange (m ((c.tc : Thread nD τ).loc main_arg1))) :
    (adm17 m c hR).1 0 = tbl m c (17 : Fin 20) 0 := rfl
theorem adm17_1 (m : (ℓ : Loc nD τ sig) → Buf (Elt F) ℓ) (c : Dev nD)
    (hR : Cert.EdgeLengths.InRange (m ((c.tc : Thread nD τ).loc main_arg1))) :
    (adm17 m c hR).1 1 = tbl m c (17 : Fin 20) 1 := rfl
theorem adm17_2 (m : (ℓ : Loc nD τ sig) → Buf (Elt F) ℓ) (c : Dev nD)
    (hR : Cert.EdgeLengths.InRange (m ((c.tc : Thread nD τ).loc main_arg1))) :
    (adm17 m c hR).1 2 = tbl m c (17 : Fin 20) 2 := rfl
theorem adm17_3 (m : (ℓ : Loc nD τ sig) → Buf (Elt F) ℓ) (c : Dev nD)
    (hR : Cert.EdgeLengths.InRange (m ((c.tc : Thread nD τ).loc main_arg1))) :
    (adm17 m c hR).1 3 = tbl m c (17 : Fin 20) 3 := rfl

end Cert.Kernel.Gen

end
-- ==== Proof.KW.Region18.lean ====
/-
  Region 18 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk18`),
  whatever it held before.

  The region's proof data then says: at every grid point each input window's buffer holds the table row its index
  table names there, and the output window's buffer is left at `outBlk18` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk18 (x0 x1 x2 x3 : Vec F S1x1x64 .f32) : Vec F S1x1x2 .f32 :=
  View.canon [⟨outRectD, k18_pay2 (View.ld x2 rowRect) (View.ld x3 rowRect)⟩,
              ⟨outRectB, k18_pay1 (View.ld x0 rowRect) (View.ld x1 rowRect)⟩]

/-- The two one-element stores tile the two-element block. -/
theorem outCover18 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk18` of the inputs. The index tables are not
    touched by the body (only the index maps read them), so nothing is asked of them. -/
theorem sound_kernel18 (c : Dev nD) (E : Set ℕ) (i : grid18.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk18 x0 x1 x2 x3)) -∗ K ⟨⟩))
      ⊢ wp frame (wpE (defs₀ (F := F)) Variants.none c none) E
          (cc18__gather_norm_kernel i a1 h1 a2 h2 a3 h3 a4 h4 a5 h5 a6 h6 a7 h7 a8 h8 a9 h9) K := by
  simp only [cc18__gather_norm_kernel_eq_skeleton]; unfold cc18__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover18 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg18 (F := F)).Adm)

/-- Window `w`'s block at point `t`, read off its array as the region finds it: for an input window the table row
    its index table names at `t`, for the output window the two-element row `t` of the result. -/
def iblk18 (c : Dev nD) (w : Fin (cfg18 a).W) (t : Fin (cfg18 a).N) :
    (((cfg18 a).win w).xblock ((cfg18 a).grid.coords t)).Idx → Elt F ((cfg18 a).win w).elt :=
  (((cfg18 a).win w).blk t).view.read (Elt F) (V c (Pipeline.arrRef spec18 w))

/-- The proof data of region 18 on core `c`: the arrays as the region finds them; after the body at point `t` each
    input block as it was and the output block the two lengths; the invariant carries the untouched scoped
    buffers, the generator register and the four index tables, which only the index maps read. -/
def dat18 (c : Dev nD) : Dat τ (Elt F) Unit ℕ (UR sig nD τ) ℕ (cfg18 a) c where
  A w := V c (Pipeline.arrRef spec18 w)
  after w t := match w with
    | ⟨0, _⟩ => iblk18 V a c 0 t
    | ⟨1, _⟩ => iblk18 V a c 1 t
    | ⟨2, _⟩ => iblk18 V a c 2 t
    | ⟨3, _⟩ => iblk18 V a c 3 t
    | ⟨4, _⟩ => outBlk18 (iblk18 V a c 0 t) (iblk18 V a c 1 t) (iblk18 V a c 2 t) (iblk18 V a c 3 t)
  Φ _ := iprop(Pipeline.ΦA spec18 c ∗ Pipeline.prefHeld pre18 c (fun _ => fullShare) a.1)
  q w := inShare w
  owed _ := 0

theorem A_eq18 (c : Dev nD) (w : Fin (cfg18 a).W) : (dat18 V a c).A w = V c (Pipeline.arrRef spec18 w) := by
  dsimp only [dat18]

theorem after18_0 (c : Dev nD) (t : Fin (cfg18 a).N) : (dat18 V a c).after 0 t = iblk18 V a c 0 t := by dsimp only [dat18]; rfl
theorem after18_1 (c : Dev nD) (t : Fin (cfg18 a).N) : (dat18 V a c).after 1 t = iblk18 V a c 1 t := by dsimp only [dat18]; rfl
theorem after18_2 (c : Dev nD) (t : Fin (cfg18 a).N) : (dat18 V a c).after 2 t = iblk18 V a c 2 t := by dsimp only [dat18]; rfl
theorem after18_3 (c : Dev nD) (t : Fin (cfg18 a).N) : (dat18 V a c).after 3 t = iblk18 V a c 3 t := by dsimp only [dat18]; rfl
theorem after18_4 (c : Dev nD) (t : Fin (cfg18 a).N) : (dat18 V a c).after 4 t
    = outBlk18 (iblk18 V a c 0 t) (iblk18 V a c 1 t) (iblk18 V a c 2 t) (iblk18 V a c 3 t) := by dsimp only [dat18]; rfl

/-- Input window 0 holds its row at every point, fetched there or not: the body never writes an input block, the
    window is never idle and its blocks are whole rows. -/
theorem before18_0 (c : Dev nD) (t : Fin (cfg18 a).N) (d) : (dat18 V a c).before 0 t d = iblk18 V a c 0 t :=
  ((dat18 V a c).before_in_eq_fetched 0 rfl (fun _ => rfl) (fun _ _ _ => rfl)
      (fun t => by rw [after18_0]; unfold Dat.blockOf iblk18; rw [A_eq18]; try rfl) t d).trans
    (by unfold Dat.fetched Dat.blockOf iblk18; rw [A_eq18]; try rfl)

/-- Input window 1 holds its row at every point, fetched there or not: the body never writes an input block, the
    window is never idle and its blocks are whole rows. -/
theorem before18_1 (c : Dev nD) (t : Fin (cfg18 a).N) (d) : (dat18 V a c).before 1 t d = iblk18 V a c 1 t :=
  ((dat18 V a c).before_in_eq_fetched 1 rfl (fun _ => rfl) (fun _ _ _ => rfl)
      (fun t => by rw [after18_1]; unfold Dat.blockOf iblk18; rw [A_eq18]; try rfl) t d).trans
    (by unfold Dat.fetched Dat.blockOf iblk18; rw [A_eq18]; try rfl)

/-- Input window 2 holds its row at every point, fetched there or not: the body never writes an input block, the
    window is never idle and its blocks are whole rows. -/
theorem before18_2 (c : Dev nD) (t : Fin (cfg18 a).N) (d) : (dat18 V a c).before 2 t d = iblk18 V a c 2 t :=
  ((dat18 V a c).before_in_eq_fetched 2 rfl (fun _ => rfl) (fun _ _ _ => rfl)
      (fun t => by rw [after18_2]; unfold Dat.blockOf iblk18; rw [A_eq18]; try rfl) t d).trans
    (by unfold Dat.fetched Dat.blockOf iblk18; rw [A_eq18]; try rfl)

/-- Input window 3 holds its row at every point, fetched there or not: the body never writes an input block, the
    window is never idle and its blocks are whole rows. -/
theorem before18_3 (c : Dev nD) (t : Fin (cfg18 a).N) (d) : (dat18 V a c).before 3 t d = iblk18 V a c 3 t :=
  ((dat18 V a c).before_in_eq_fetched 3 rfl (fun _ => rfl) (fun _ _ _ => rfl)
      (fun t => by rw [after18_3]; unfold Dat.blockOf iblk18; rw [A_eq18]; try rfl) t d).trans
    (by unfold Dat.fetched Dat.blockOf iblk18; rw [A_eq18]; try rfl)

/-! ## The body at a generic point -/

/-- The kernel body as region 18 calls it at point `t`: the point's coordinates, the four index tables whole, and each
    window's current staging buffer. -/
abbrev bodyAt18 (t : Fin (cfg18 a).N) : Prog (TpuEff nD τ sig (Elt F) Λ₀ .tc) PUnit :=
  cc18__gather_norm_kernel (grid18.coords t) (Memref.whole main_v99) (Memref.isWhole_whole _) (Memref.whole main_v100) (Memref.isWhole_whole _)
    (Memref.whole main_v101) (Memref.isWhole_whole _) (Memref.whole main_v102) (Memref.isWhole_whole _)
    (spec18_0.stage ((cfg18 a).slots t 0)) (hstage18_0 (((cfg18 a).slots t 0).cast nbuf18_0))
    (spec18_1.stage ((cfg18 a).slots t 1)) (hstage18_1 (((cfg18 a).slots t 1).cast nbuf18_1))
    (spec18_2.stage ((cfg18 a).slots t 2)) (hstage18_2 (((cfg18 a).slots t 2).cast nbuf18_2))
    (spec18_3.stage ((cfg18 a).slots t 3)) (hstage18_3 (((cfg18 a).slots t 3).cast nbuf18_3))
    (spec18_4.stage ((cfg18 a).slots t 4)) (hstage18_4 (((cfg18 a).slots t 4).cast nbuf18_4))

/-- The body at any point: each input buffer holds its row (`before18_w`), so `sound_kernel18` applies; the invariant
    (with the index tables in it) and what the core owes pass through unread. -/
theorem sound_body18 (c : Dev nD) (t : Fin (cfg18 a).N) :
    iprop((dat18 V a c).Φ t.castSucc ∗ (dat18 V a c).owesAt () t.castSucc
      ∗ (∃ d, owns (c : Thread nD τ) (((cfg18 a).win 0).stage ((cfg18 a).slots t 0)) fullShare ((dat18 V a c).before 0 t d))
      ∗ (∃ d, owns (c : Thread nD τ) (((cfg18 a).win 1).stage ((cfg18 a).slots t 1)) fullShare ((dat18 V a c).before 1 t d))
      ∗ (∃ d, owns (c : Thread nD τ) (((cfg18 a).win 2).stage ((cfg18 a).slots t 2)) fullShare ((dat18 V a c).before 2 t d))
      ∗ (∃ d, owns (c : Thread nD τ) (((cfg18 a).win 3).stage ((cfg18 a).slots t 3)) fullShare ((dat18 V a c).before 3 t d))
      ∗ (∃ d, owns (c : Thread nD τ) (((cfg18 a).win 4).stage ((cfg18 a).slots t 4)) fullShare ((dat18 V a c).before 4 t d)))
    ⊢ wp frame (wpE (defs₀ (F := F)) Variants.none c none) Set.univ
        (bodyAt18 a t)
        (fun _ => iprop((dat18 V a c).Φ t.succ ∗ (dat18 V a c).owesAt () t.succ
          ∗ owns (c : Thread nD τ) (((cfg18 a).win 0).stage ((cfg18 a).slots t 0)) fullShare ((dat18 V a c).after 0 t)
          ∗ owns (c : Thread nD τ) (((cfg18 a).win 1).stage ((cfg18 a).slots t 1)) fullShare ((dat18 V a c).after 1 t)
          ∗ owns (c : Thread nD τ) (((cfg18 a).win 2).stage ((cfg18 a).slots t 2)) fullShare ((dat18 V a c).after 2 t)
          ∗ owns (c : Thread nD τ) (((cfg18 a).win 3).stage ((cfg18 a).slots t 3)) fullShare ((dat18 V a c).after 3 t)
          ∗ owns (c : Thread nD τ) (((cfg18 a).win 4).stage ((cfg18 a).slots t 4)) fullShare ((dat18 V a c).after 4 t))) := by
  simp only [before18_0, before18_1, before18_2, before18_3]
  rw [show (dat18 V a c).Φ t.succ = (dat18 V a c).Φ t.castSucc from rfl,
    show (dat18 V a c).owesAt () t.succ = (dat18 V a c).owesAt () t.castSucc from rfl,
    after18_0, after18_1, after18_2, after18_3, after18_4]
  iintro ⟨HΦ, Ho, ⟨%d0, H0⟩, ⟨%d1, H1⟩, ⟨%d2, H2⟩, ⟨%d3, H3⟩, ⟨%d4, H4⟩⟩
  unfold bodyAt18
  iapply (sound_kernel18 c Set.univ _ _ _ _ _ _ _ _ _ _ _ _ _ _ _ _ _ _ _ (iblk18 V a c 0 t) (iblk18 V a c 1 t) (iblk18 V a c 2 t) (iblk18 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 18, at every point. -/
theorem body_obligation18 (c : Dev nD) : BodyObligation (dat18 (F := F) V a c) (defs₀ (F := F)) Variants.none () Set.univ := fun t => by
  rw [bigSep_W18, bigSep_W18]
  exact sound_body18 V a c t

end Region0

end Cert.Kernel.Gen

end
-- ==== Proof.KW.Ok18.lean ====
/-
  The index tables of region 18 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok18_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 18's side condition. -/
theorem ok18_of_lt (pf : pre18.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok18 pf := by
  unfold ok18
  refine ⟨fun i => ⟨?_, Or.inl rfl⟩, fun i => ⟨?_, Or.inl rfl⟩, fun i => ⟨?_, Or.inl rfl⟩, fun i => ⟨?_, Or.inl rfl⟩⟩
  · exact ok18_fits _ (h0 _)
  · exact ok18_fits _ (h1 _)
  · exact ok18_fits _ (h2 _)
  · exact ok18_fits _ (h3 _)

/-- The four index tables of region 18 as the launch memory holds them on core `c`. -/
def pf18 (m : (ℓ : Loc nD τ sig) → Buf (Elt F) ℓ) (c : Dev nD) : pre18.Contents (Elt F) :=
  fun | 0 => tbl m c (18 : Fin 20) 0 | 1 => tbl m c (18 : Fin 20) 1 | 2 => tbl m c (18 : Fin 20) 2 | 3 => tbl m c (18 : Fin 20) 3
      | ⟨_ + 4, h⟩ => absurd h (Nat.not_lt.2 (Nat.le_add_left _ _))

/-- In range, those tables are admissible contents of region 18's pipeline. -/
def adm18 (m : (ℓ : Loc nD τ sig) → Buf (Elt F) ℓ) (c : Dev nD)
    (hR : Cert.EdgeLengths.InRange (m ((c.tc : Thread nD τ).loc main_arg1))) : (pcfg18 (F := F)).Adm :=
  ⟨pf18 m c, ok18_of_lt _ (tbl_lt m c hR _ _) (tbl_lt m c hR _ _) (tbl_lt m c hR _ _) (tbl_lt m c hR _ _)⟩

theorem adm18_0 (m : (ℓ : Loc nD τ sig) → Buf (Elt F) ℓ) (c : Dev nD)
    (hR : Cert.EdgeLengths.InRange (m ((c.tc : Thread nD τ).loc main_arg1))) :
    (adm18 m c hR).1 0 = tbl m c (18 : Fin 20) 0 := rfl
theorem adm18_1 (m : (ℓ : Loc nD τ sig) → Buf (Elt F) ℓ) (c : Dev nD)
    (hR : Cert.EdgeLengths.InRange (m ((c.tc : Thread nD τ).loc main_arg1))) :
    (adm18 m c hR).1 1 = tbl m c (18 : Fin 20) 1 := rfl
theorem adm18_2 (m : (ℓ : Loc nD τ sig) → Buf (Elt F) ℓ) (c : Dev nD)
    (hR : Cert.EdgeLengths.InRange (m ((c.tc : Thread nD τ).loc main_arg1))) :
    (adm18 m c hR).1 2 = tbl m c (18 : Fin 20) 2 := rfl
theorem adm18_3 (m : (ℓ : Loc nD τ sig) → Buf (Elt F) ℓ) (c : Dev nD)
    (hR : Cert.EdgeLengths.InRange (m ((c.tc : Thread nD τ).loc main_arg1))) :
    (adm18 m c hR).1 3 = tbl m c (18 : Fin 20) 3 := rfl

end Cert.Kernel.Gen

end
-- ==== Proof.KW.Region19.lean ====
/-
  Region 19 of the gather-and-norm program, first half: what one run of the kernel body does, and the region's proof data.

  The body is handed four input blocks, each one row of the point table (64 numbers), and a two-element
  output block. It computes d(x0, x1) and d(x2, x3), where d(u, v) = sqrt(Σ_k (u_k − v_k)²), and stores the
  first at position 0 and the second at position 1 of the output block. The two one-element stores tile the
  output block, so after the body the block is a function of the four input blocks alone (`outBlk19`),
  whatever it held before.

  The region's proof data then says: at every grid point each input window's buffer holds the table row its index
  table names there, and the output window's buffer is left at `outBlk19` of those four rows.
-/
import proofs.«401090_j62775241999084_2_alg».proof.Proof.KW.BodyCommon
import proofs.«401090_j62775241999084_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block after the body, from the four input blocks: its two stores as pieces, the later first. -/
def outBlk19 (x0 x1 x2 x3 : Vec F S1x1x64 .f32) : Vec F S1x1x2 .f32 :=
  View.canon [⟨outRectD, k19_pay2 (View.ld x2 rowRect) (View.ld x3 rowRect)⟩,
              ⟨outRectB, k19_pay1 (View.ld x0 rowRect) (View.ld x1 rowRect)⟩]

/-- The two one-element stores tile the two-element block. -/
theorem outCover19 (p1 p0 : Vec F S1x1x1 .f32) (y : S1x1x2.Idx) :
    ∃ pc ∈ ([⟨outRectD, p1⟩, ⟨outRectB, p0⟩] : List (View.Piece (Elt F) S1x1x2 .f32)), y ∈ pc.1.set :=
  View.cover_of_tiled [⟨outRectD, p1⟩, ⟨outRectB, p0⟩] S1x1x1.size (by rfl) y

set_option maxHeartbeats 1000000 in
/-- The body on whole staging memrefs: the inputs at contents `x0 … x3`, the output at anything. It runs to its
    continuation with the inputs as they were and the output at `outBlk19` of the inputs. The index tables are not
    touched by the body (only the index maps read them), so nothing is asked of them. -/
theorem sound_kernel19 (c : Dev nD) (E : Set ℕ) (i : grid19.Coords)
    (a1 : Memref sig .tc .smem S25000 .i32) (h1 : a1.IsWhole) (a2 : Memref sig .tc .smem S25000 .i32) (h2 : a2.IsWhole)
    (a3 : Memref sig .tc .smem S25000 .i32) (h3 : a3.IsWhole) (a4 : Memref sig .tc .smem S25000 .i32) (h4 : a4.IsWhole)
    (a5 : Memref sig .tc .vmem S1x1x64 .f32) (h5 : a5.IsWhole) (a6 : Memref sig .tc .vmem S1x1x64 .f32) (h6 : a6.IsWhole)
    (a7 : Memref sig .tc .vmem S1x1x64 .f32) (h7 : a7.IsWhole) (a8 : Memref sig .tc .vmem S1x1x64 .f32) (h8 : a8.IsWhole)
    (a9 : Memref sig .tc .vmem S1x1x2 .f32) (h9 : a9.IsWhole)
    (x0 x1 x2 x3 : Vec F S1x1x64 .f32) (K : PUnit → sProp 𝕄) :
    iprop(owns (c : Thread nD τ) a5 fullShare x0 ∗ owns (c : Thread nD τ) a6 fullShare x1
        ∗ owns (c : Thread nD τ) a7 fullShare x2 ∗ owns (c : Thread nD τ) a8 fullShare x3
        ∗ (∃ d, owns (c : Thread nD τ) a9 fullShare d)
        ∗ (iprop(owns (c : Thread nD τ) a5 fullShare x0 ∗ owns (c : Thread nD τ) a6 fullShare x1
            ∗ owns (c : Thread nD τ) a7 fullShare x2 ∗ owns (c : Thread nD τ) a8 fullShare x3
            ∗ owns (c : Thread nD τ) a9 fullShare (outBlk19 x0 x1 x2 x3)) -∗ K ⟨⟩))
      ⊢ wp frame (wpE (defs₀ (F := F)) Variants.none c none) E
          (cc19__gather_norm_kernel i a1 h1 a2 h2 a3 h3 a4 h4 a5 h5 a6 h6 a7 h7 a8 h8 a9 h9) K := by
  simp only [cc19__gather_norm_kernel_eq_skeleton]; unfold cc19__gather_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover19 _ _)

/-! ## The windows' blocks, the proof data -/

section Region0

-- the buffers' contents when the region is entered, and the admissible contents of its four index tables: both
-- variables here, so that nothing below can depend on what the tables hold
variable (V : (c : Dev nD) → (b : Ref sig .tc) → Buf (Elt F) ((c : Thread nD τ).loc b))
variable (a : (pcfg19 (F := F)).Adm)

/-- Window `w`'s block at point `t`, read off its array as the region finds it: for an input window the table row
    its index table names at `t`, for the output window the two-element row `t` of the result. -/
def iblk19 (c : Dev nD) (w : Fin (cfg19 a).W) (t : Fin (cfg19 a).N) :
    (((cfg19 a).win w).xblock ((cfg19 a).grid.coords t)).Idx → Elt F ((cfg19 a).win w).elt :=
  (((cfg19 a).win w).blk t).view.read (Elt F) (V c (Pipeline.arrRef spec19 w))

/-- The proof data of region 19 on core `c`: the arrays as the region finds them; after the body at point `t` each
    input block as it was and the output block the two lengths; the invariant carries the untouched scoped
    buffers, the generator register and the four index tables, which only the index maps read. -/
def dat19 (c : Dev nD) : Dat τ (Elt F) Unit ℕ (UR sig nD τ) ℕ (cfg19 a) c where
  A w := V c (Pipeline.arrRef spec19 w)
  after w t := match w with
    | ⟨0, _⟩ => iblk19 V a c 0 t
    | ⟨1, _⟩ => iblk19 V a c 1 t
    | ⟨2, _⟩ => iblk19 V a c 2 t
    | ⟨3, _⟩ => iblk19 V a c 3 t
    | ⟨4, _⟩ => outBlk19 (iblk19 V a c 0 t) (iblk19 V a c 1 t) (iblk19 V a c 2 t) (iblk19 V a c 3 t)
  Φ _ := iprop(Pipeline.ΦA spec19 c ∗ Pipeline.prefHeld pre19 c (fun _ => fullShare) a.1)
  q w := inShare w
  owed _ := 0

theorem A_eq19 (c : Dev nD) (w : Fin (cfg19 a).W) : (dat19 V a c).A w = V c (Pipeline.arrRef spec19 w) := by
  dsimp only [dat19]

theorem after19_0 (c : Dev nD) (t : Fin (cfg19 a).N) : (dat19 V a c).after 0 t = iblk19 V a c 0 t := by dsimp only [dat19]; rfl
theorem after19_1 (c : Dev nD) (t : Fin (cfg19 a).N) : (dat19 V a c).after 1 t = iblk19 V a c 1 t := by dsimp only [dat19]; rfl
theorem after19_2 (c : Dev nD) (t : Fin (cfg19 a).N) : (dat19 V a c).after 2 t = iblk19 V a c 2 t := by dsimp only [dat19]; rfl
theorem after19_3 (c : Dev nD) (t : Fin (cfg19 a).N) : (dat19 V a c).after 3 t = iblk19 V a c 3 t := by dsimp only [dat19]; rfl
theorem after19_4 (c : Dev nD) (t : Fin (cfg19 a).N) : (dat19 V a c).after 4 t
    = outBlk19 (iblk19 V a c 0 t) (iblk19 V a c 1 t) (iblk19 V a c 2 t) (iblk19 V a c 3 t) := by dsimp only [dat19]; rfl

/-- Input window 0 holds its row at every point, fetched there or not: the body never writes an input block, the
    window is never idle and its blocks are whole rows. -/
theorem before19_0 (c : Dev nD) (t : Fin (cfg19 a).N) (d) : (dat19 V a c).before 0 t d = iblk19 V a c 0 t :=
  ((dat19 V a c).before_in_eq_fetched 0 rfl (fun _ => rfl) (fun _ _ _ => rfl)
      (fun t => by rw [after19_0]; unfold Dat.blockOf iblk19; rw [A_eq19]; try rfl) t d).trans
    (by unfold Dat.fetched Dat.blockOf iblk19; rw [A_eq19]; try rfl)

/-- Input window 1 holds its row at every point, fetched there or not: the body never writes an input block, the
    window is never idle and its blocks are whole rows. -/
theorem before19_1 (c : Dev nD) (t : Fin (cfg19 a).N) (d) : (dat19 V a c).before 1 t d = iblk19 V a c 1 t :=
  ((dat19 V a c).before_in_eq_fetched 1 rfl (fun _ => rfl) (fun _ _ _ => rfl)
      (fun t => by rw [after19_1]; unfold Dat.blockOf iblk19; rw [A_eq19]; try rfl) t d).trans
    (by unfold Dat.fetched Dat.blockOf iblk19; rw [A_eq19]; try rfl)

/-- Input window 2 holds its row at every point, fetched there or not: the body never writes an input block, the
    window is never idle and its blocks are whole rows. -/
theorem before19_2 (c : Dev nD) (t : Fin (cfg19 a).N) (d) : (dat19 V a c).before 2 t d = iblk19 V a c 2 t :=
  ((dat19 V a c).before_in_eq_fetched 2 rfl (fun _ => rfl) (fun _ _ _ => rfl)
      (fun t => by rw [after19_2]; unfold Dat.blockOf iblk19; rw [A_eq19]; try rfl) t d).trans
    (by unfold Dat.fetched Dat.blockOf iblk19; rw [A_eq19]; try rfl)

/-- Input window 3 holds its row at every point, fetched there or not: the body never writes an input block, the
    window is never idle and its blocks are whole rows. -/
theorem before19_3 (c : Dev nD) (t : Fin (cfg19 a).N) (d) : (dat19 V a c).before 3 t d = iblk19 V a c 3 t :=
  ((dat19 V a c).before_in_eq_fetched 3 rfl (fun _ => rfl) (fun _ _ _ => rfl)
      (fun t => by rw [after19_3]; unfold Dat.blockOf iblk19; rw [A_eq19]; try rfl) t d).trans
    (by unfold Dat.fetched Dat.blockOf iblk19; rw [A_eq19]; try rfl)

/-! ## The body at a generic point -/

/-- The kernel body as region 19 calls it at point `t`: the point's coordinates, the four index tables whole, and each
    window's current staging buffer. -/
abbrev bodyAt19 (t : Fin (cfg19 a).N) : Prog (TpuEff nD τ sig (Elt F) Λ₀ .tc) PUnit :=
  cc19__gather_norm_kernel (grid19.coords t) (Memref.whole main_v104) (Memref.isWhole_whole _) (Memref.whole main_v105) (Memref.isWhole_whole _)
    (Memref.whole main_v106) (Memref.isWhole_whole _) (Memref.whole main_v107) (Memref.isWhole_whole _)
    (spec19_0.stage ((cfg19 a).slots t 0)) (hstage19_0 (((cfg19 a).slots t 0).cast nbuf19_0))
    (spec19_1.stage ((cfg19 a).slots t 1)) (hstage19_1 (((cfg19 a).slots t 1).cast nbuf19_1))
    (spec19_2.stage ((cfg19 a).slots t 2)) (hstage19_2 (((cfg19 a).slots t 2).cast nbuf19_2))
    (spec19_3.stage ((cfg19 a).slots t 3)) (hstage19_3 (((cfg19 a).slots t 3).cast nbuf19_3))
    (spec19_4.stage ((cfg19 a).slots t 4)) (hstage19_4 (((cfg19 a).slots t 4).cast nbuf19_4))

/-- The body at any point: each input buffer holds its row (`before19_w`), so `sound_kernel19` applies; the invariant
    (with the index tables in it) and what the core owes pass through unread. -/
theorem sound_body19 (c : Dev nD) (t : Fin (cfg19 a).N) :
    iprop((dat19 V a c).Φ t.castSucc ∗ (dat19 V a c).owesAt () t.castSucc
      ∗ (∃ d, owns (c : Thread nD τ) (((cfg19 a).win 0).stage ((cfg19 a).slots t 0)) fullShare ((dat19 V a c).before 0 t d))
      ∗ (∃ d, owns (c : Thread nD τ) (((cfg19 a).win 1).stage ((cfg19 a).slots t 1)) fullShare ((dat19 V a c).before 1 t d))
      ∗ (∃ d, owns (c : Thread nD τ) (((cfg19 a).win 2).stage ((cfg19 a).slots t 2)) fullShare ((dat19 V a c).before 2 t d))
      ∗ (∃ d, owns (c : Thread nD τ) (((cfg19 a).win 3).stage ((cfg19 a).slots t 3)) fullShare ((dat19 V a c).before 3 t d))
      ∗ (∃ d, owns (c : Thread nD τ) (((cfg19 a).win 4).stage ((cfg19 a).slots t 4)) fullShare ((dat19 V a c).before 4 t d)))
    ⊢ wp frame (wpE (defs₀ (F := F)) Variants.none c none) Set.univ
        (bodyAt19 a t)
        (fun _ => iprop((dat19 V a c).Φ t.succ ∗ (dat19 V a c).owesAt () t.succ
          ∗ owns (c : Thread nD τ) (((cfg19 a).win 0).stage ((cfg19 a).slots t 0)) fullShare ((dat19 V a c).after 0 t)
          ∗ owns (c : Thread nD τ) (((cfg19 a).win 1).stage ((cfg19 a).slots t 1)) fullShare ((dat19 V a c).after 1 t)
          ∗ owns (c : Thread nD τ) (((cfg19 a).win 2).stage ((cfg19 a).slots t 2)) fullShare ((dat19 V a c).after 2 t)
          ∗ owns (c : Thread nD τ) (((cfg19 a).win 3).stage ((cfg19 a).slots t 3)) fullShare ((dat19 V a c).after 3 t)
          ∗ owns (c : Thread nD τ) (((cfg19 a).win 4).stage ((cfg19 a).slots t 4)) fullShare ((dat19 V a c).after 4 t))) := by
  simp only [before19_0, before19_1, before19_2, before19_3]
  rw [show (dat19 V a c).Φ t.succ = (dat19 V a c).Φ t.castSucc from rfl,
    show (dat19 V a c).owesAt () t.succ = (dat19 V a c).owesAt () t.castSucc from rfl,
    after19_0, after19_1, after19_2, after19_3, after19_4]
  iintro ⟨HΦ, Ho, ⟨%d0, H0⟩, ⟨%d1, H1⟩, ⟨%d2, H2⟩, ⟨%d3, H3⟩, ⟨%d4, H4⟩⟩
  unfold bodyAt19
  iapply (sound_kernel19 c Set.univ _ _ _ _ _ _ _ _ _ _ _ _ _ _ _ _ _ _ _ (iblk19 V a c 0 t) (iblk19 V a c 1 t) (iblk19 V a c 2 t) (iblk19 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 19, at every point. -/
theorem body_obligation19 (c : Dev nD) : BodyObligation (dat19 (F := F) V a c) (defs₀ (F := F)) Variants.none () Set.univ := fun t => by
  rw [bigSep_W19, bigSep_W19]
  exact sound_body19 V a c t

end Region0

end Cert.Kernel.Gen

end
-- ==== Proof.KW.Ok19.lean ====
/-
  The index tables of region 19 are admissible when every word names a row.

  Each of the region's four input windows fetches, at grid point i, the one-row block of the [100000, 1, 64] point
  table whose block coordinates are (w, 0, 0), where w is word i of that window's index table read as a natural
  number. The block has extent (1, 1, 64), so it lies inside the table exactly when w + 1 ≤ 100000; the other two
  coordinates are the numeral 0 against extents that fill their axes. The elements are 32 bits wide, so every
  transfer ends on a word. Hence four tables whose words are all below 100000 satisfy the region's side condition;
  the tables the launch memory holds are of that kind under the range hypothesis on the vertex words.
-/
import proofs.«401090_j62775241999084_2_alg».proof.Proof.KW.Tables

noncomputable section

namespace Cert.Kernel.Gen

open Idealize.ShloMosaic Idealize.ShloMosaic.TcCoe Idealize.SL.Sem

variable {F : FTy → Type} [FloatOps F]

/-- The block with coordinates (r, 0, 0) and extent (1, 1, 64) lies inside the [100000, 1, 64] table when r < 100000. -/
theorem ok19_fits (r : Nat) (hr : r < 100000) :
    ∀ a, ((![r, (0#32 : BitVec 32).toNat, (0#32 : BitVec 32).toNat] : Fin 3 → Nat) a + 1) * S1x1x64.size a ≤ S100000x1x64.size a := by
  intro a
  fin_cases a
  · show (r + 1) * 1 ≤ 100000
    omega
  · show ((0#32 : BitVec 32).toNat + 1) * 1 ≤ 1
    decide
  · show ((0#32 : BitVec 32).toNat + 1) * 64 ≤ 64
    decide

/-- Four tables all of whose words are below 100000 satisfy region 19's side condition. -/
theorem ok19_of_lt (pf : pre19.Contents (Elt F)) (h0 : ∀ i, ((pf 0 i : BitVec 32)).toNat < 100000)
    (h1 : ∀ i, ((pf 1 i : BitVec 32)).toNat < 100000) (h2 : ∀ i, ((pf 2 i : BitVec 32)).toNat < 100000)
    (h3 : ∀ i, ((pf 3 i : BitVec 32)).toNat < 100000) : ok19 pf := by
  unfold ok19
  refine ⟨fun i => ⟨?_, Or.inl rfl⟩, fun i => ⟨?_, Or.inl rfl⟩, fun i => ⟨?_, Or.inl rfl⟩, fun i => ⟨?_, Or.inl rfl⟩⟩
  · exact ok19_fits _ (h0 _)
  · exact ok19_fits _ (h1 _)
  · exact ok19_fits _ (h2 _)
  · exact ok19_fits _ (h3 _)

/-- The four index tables of region 19 as the launch memory holds them on core `c`. -/
def pf19 (m : (ℓ : Loc nD τ sig) → Buf (Elt F) ℓ) (c : Dev nD) : pre19.Contents (Elt F) :=
  fun | 0 => tbl m c (19 : Fin 20) 0 | 1 => tbl m c (19 : Fin 20) 1 | 2 => tbl m c (19 : Fin 20) 2 | 3 => tbl m c (19 : Fin 20) 3
      | ⟨_ + 4, h⟩ => absurd h (Nat.not_lt.2 (Nat.le_add_left _ _))

/-- In range, those tables are admissible contents of region 19's pipeline. -/
def adm19 (m : (ℓ : Loc nD τ sig) → Buf (Elt F) ℓ) (c : Dev nD)
    (hR : Cert.EdgeLengths.InRange (m ((c.tc : Thread nD τ).loc main_arg1))) : (pcfg19 (F := F)).Adm :=
  ⟨pf19 m c, ok19_of_lt _ (tbl_lt m c hR _ _) (tbl_lt m c hR _ _) (tbl_lt m c hR _ _) (tbl_lt m c hR _ _)⟩

theorem adm19_0 (m : (ℓ : Loc nD τ sig) → Buf (Elt F) ℓ) (c : Dev nD)
    (hR : Cert.EdgeLengths.InRange (m ((c.tc : Thread nD τ).loc main_arg1))) :
    (adm19 m c hR).1 0 = tbl m c (19 : Fin 20) 0 := rfl
theorem adm19_1 (m : (ℓ : Loc nD τ sig) → Buf (Elt F) ℓ) (c : Dev nD)
    (hR : Cert.EdgeLengths.InRange (m ((c.tc : Thread nD τ).loc main_arg1))) :
    (adm19 m c hR).1 1 = tbl m c (19 : Fin 20) 1 := rfl
theorem adm19_2 (m : (ℓ : Loc nD τ sig) → Buf (Elt F) ℓ) (c : Dev nD)
    (hR : Cert.EdgeLengths.InRange (m ((c.tc : Thread nD τ).loc main_arg1))) :
    (adm19 m c hR).1 2 = tbl m c (19 : Fin 20) 2 := rfl
theorem adm19_3 (m : (ℓ : Loc nD τ sig) → Buf (Elt F) ℓ) (c : Dev nD)
    (hR : Cert.EdgeLengths.InRange (m ((c.tc : Thread nD τ).loc main_arg1))) :
    (adm19 m c hR).1 3 = tbl m c (19 : Fin 20) 3 := rfl

end Cert.Kernel.Gen

end
-- ==== Proof.KW.Families.lean ====
/-
  The 20 regions as families. Region K's index tables are read off the launch memory on the one core; its proof
  data take the buffers as the first host stretch leaves them (the point table is written there and never again, and
  an output array is untouched until its region); what region K leaves in its output array is the proof data's
  array after the last write-back; and the contents the regions leave, as one family over references, are the launch
  contents updated at the 20 output arrays.
-/
import proofs.«401090_j62775241999084_2_alg».proof.Proof.KW.Region0
import proofs.«401090_j62775241999084_2_alg».proof.Proof.KW.Ok0
import proofs.«401090_j62775241999084_2_alg».proof.Proof.KW.Region1
import proofs.«401090_j62775241999084_2_alg».proof.Proof.KW.Ok1
import proofs.«401090_j62775241999084_2_alg».proof.Proof.KW.Region2
import proofs.«401090_j62775241999084_2_alg».proof.Proof.KW.Ok2
import proofs.«401090_j62775241999084_2_alg».proof.Proof.KW.Region3
import proofs.«401090_j62775241999084_2_alg».proof.Proof.KW.Ok3
import proofs.«401090_j62775241999084_2_alg».proof.Proof.KW.Region4
import proofs.«401090_j62775241999084_2_alg».proof.Proof.KW.Ok4
import proofs.«401090_j62775241999084_2_alg».proof.Proof.KW.Region5
import proofs.«401090_j62775241999084_2_alg».proof.Proof.KW.Ok5
import proofs.«401090_j62775241999084_2_alg».proof.Proof.KW.Region6
import proofs.«401090_j62775241999084_2_alg».proof.Proof.KW.Ok6
import proofs.«401090_j62775241999084_2_alg».proof.Proof.KW.Region7
import proofs.«401090_j62775241999084_2_alg».proof.Proof.KW.Ok7
import proofs.«401090_j62775241999084_2_alg».proof.Proof.KW.Region8
import proofs.«401090_j62775241999084_2_alg».proof.Proof.KW.Ok8
import proofs.«401090_j62775241999084_2_alg».proof.Proof.KW.Region9
import proofs.«401090_j62775241999084_2_alg».proof.Proof.KW.Ok9
import proofs.«401090_j62775241999084_2_alg».proof.Proof.KW.Region10
import proofs.«401090_j62775241999084_2_alg».proof.Proof.KW.Ok10
import proofs.«401090_j62775241999084_2_alg».proof.Proof.KW.Region11
import proofs.«401090_j62775241999084_2_alg».proof.Proof.KW.Ok11
import proofs.«401090_j62775241999084_2_alg».proof.Proof.KW.Region12
import proofs.«401090_j62775241999084_2_alg».proof.Proof.KW.Ok12
import proofs.«401090_j62775241999084_2_alg».proof.Proof.KW.Region13
import proofs.«401090_j62775241999084_2_alg».proof.Proof.KW.Ok13
import proofs.«401090_j62775241999084_2_alg».proof.Proof.KW.Region14
import proofs.«401090_j62775241999084_2_alg».proof.Proof.KW.Ok14
import proofs.«401090_j62775241999084_2_alg».proof.Proof.KW.Region15
import proofs.«401090_j62775241999084_2_alg».proof.Proof.KW.Ok15
import proofs.«401090_j62775241999084_2_alg».proof.Proof.KW.Region16
import proofs.«401090_j62775241999084_2_alg».proof.Proof.KW.Ok16
import proofs.«401090_j62775241999084_2_alg».proof.Proof.KW.Region17
import proofs.«401090_j62775241999084_2_alg».proof.Proof.KW.Ok17
import proofs.«401090_j62775241999084_2_alg».proof.Proof.KW.Region18
import proofs.«401090_j62775241999084_2_alg».proof.Proof.KW.Ok18
import proofs.«401090_j62775241999084_2_alg».proof.Proof.KW.Region19
import proofs.«401090_j62775241999084_2_alg».proof.Proof.KW.Ok19

set_option maxRecDepth 16384

noncomputable section

namespace Cert.Kernel.Gen

open Idealize.ShloMosaic Idealize.ShloMosaic.TcCoe Idealize.SL Idealize.SL.Sem
open Idealize.ShloMosaic.Pipeline (Dat)

variable {F : FTy → Type} [FloatOps F]
variable (m : (ℓ : Loc nD τ sig) → Buf (Elt F) ℓ)
variable (hR : ∀ c : Dev nD, Cert.EdgeLengths.InRange (m ((c.tc : Thread nD τ).loc main_arg1)))

/-- The one core of the mesh. -/
abbrev core0 : Dev nD := ⟨0, by decide⟩
theorem core_eq (c : Dev nD) : c = core0 := Fin.ext (by have h : c.val < 1 := c.isLt; show c.val = 0; omega)

/-- The buffers as the first host stretch leaves them: what every region's proof data read their arrays off. -/
abbrev Vfirst : (c : Dev nD) → (b : Ref sig .tc) → Buf (Elt F) ((c : Thread nD τ).loc b) := fun c b => V1 m c b

/-- Every region's admissible tables. -/
def adm : (p : Fin 20) → (pcfgs (F := F) p).Adm
  | ⟨0, _⟩ => adm0 m core0 (hR core0)
  | ⟨1, _⟩ => adm1 m core0 (hR core0)
  | ⟨2, _⟩ => adm2 m core0 (hR core0)
  | ⟨3, _⟩ => adm3 m core0 (hR core0)
  | ⟨4, _⟩ => adm4 m core0 (hR core0)
  | ⟨5, _⟩ => adm5 m core0 (hR core0)
  | ⟨6, _⟩ => adm6 m core0 (hR core0)
  | ⟨7, _⟩ => adm7 m core0 (hR core0)
  | ⟨8, _⟩ => adm8 m core0 (hR core0)
  | ⟨9, _⟩ => adm9 m core0 (hR core0)
  | ⟨10, _⟩ => adm10 m core0 (hR core0)
  | ⟨11, _⟩ => adm11 m core0 (hR core0)
  | ⟨12, _⟩ => adm12 m core0 (hR core0)
  | ⟨13, _⟩ => adm13 m core0 (hR core0)
  | ⟨14, _⟩ => adm14 m core0 (hR core0)
  | ⟨15, _⟩ => adm15 m core0 (hR core0)
  | ⟨16, _⟩ => adm16 m core0 (hR core0)
  | ⟨17, _⟩ => adm17 m core0 (hR core0)
  | ⟨18, _⟩ => adm18 m core0 (hR core0)
  | ⟨19, _⟩ => adm19 m core0 (hR core0)
  | ⟨_ + 20, h⟩ => absurd h (Nat.not_lt.2 (Nat.le_add_left _ _))

/-- Every region's proof data. -/
def pdats : (p : Fin 20) → (c : Dev nD) → Dat τ (Elt F) Unit ℕ (UR sig nD τ) ℕ (Pipeline.pin (pcfgs (F := F)) (adm m hR) p) c
  | ⟨0, _⟩ => fun c => dat0 (Vfirst m) (adm0 m core0 (hR core0)) c
  | ⟨1, _⟩ => fun c => dat1 (Vfirst m) (adm1 m core0 (hR core0)) c
  | ⟨2, _⟩ => fun c => dat2 (Vfirst m) (adm2 m core0 (hR core0)) c
  | ⟨3, _⟩ => fun c => dat3 (Vfirst m) (adm3 m core0 (hR core0)) c
  | ⟨4, _⟩ => fun c => dat4 (Vfirst m) (adm4 m core0 (hR core0)) c
  | ⟨5, _⟩ => fun c => dat5 (Vfirst m) (adm5 m core0 (hR core0)) c
  | ⟨6, _⟩ => fun c => dat6 (Vfirst m) (adm6 m core0 (hR core0)) c
  | ⟨7, _⟩ => fun c => dat7 (Vfirst m) (adm7 m core0 (hR core0)) c
  | ⟨8, _⟩ => fun c => dat8 (Vfirst m) (adm8 m core0 (hR core0)) c
  | ⟨9, _⟩ => fun c => dat9 (Vfirst m) (adm9 m core0 (hR core0)) c
  | ⟨10, _⟩ => fun c => dat10 (Vfirst m) (adm10 m core0 (hR core0)) c
  | ⟨11, _⟩ => fun c => dat11 (Vfirst m) (adm11 m core0 (hR core0)) c
  | ⟨12, _⟩ => fun c => dat12 (Vfirst m) (adm12 m core0 (hR core0)) c
  | ⟨13, _⟩ => fun c => dat13 (Vfirst m) (adm13 m core0 (hR core0)) c
  | ⟨14, _⟩ => fun c => dat14 (Vfirst m) (adm14 m core0 (hR core0)) c
  | ⟨15, _⟩ => fun c => dat15 (Vfirst m) (adm15 m core0 (hR core0)) c
  | ⟨16, _⟩ => fun c => dat16 (Vfirst m) (adm16 m core0 (hR core0)) c
  | ⟨17, _⟩ => fun c => dat17 (Vfirst m) (adm17 m core0 (hR core0)) c
  | ⟨18, _⟩ => fun c => dat18 (Vfirst m) (adm18 m core0 (hR core0)) c
  | ⟨19, _⟩ => fun c => dat19 (Vfirst m) (adm19 m core0 (hR core0)) c
  | ⟨_ + 20, h⟩ => absurd h (Nat.not_lt.2 (Nat.le_add_left _ _))

/-- What region 0 leaves in its output array. -/
abbrev res0 (c : Dev nD) : Buf (Elt F) ((c : Thread nD τ).loc main_v13) :=
  (dat0 (Vfirst m) (adm0 m core0 (hR core0)) c).arrAt 4 (cfg0 (adm0 (F := F) m core0 (hR core0))).N
/-- What region 1 leaves in its output array. -/
abbrev res1 (c : Dev nD) : Buf (Elt F) ((c : Thread nD τ).loc main_v18) :=
  (dat1 (Vfirst m) (adm1 m core0 (hR core0)) c).arrAt 4 (cfg1 (adm1 (F := F) m core0 (hR core0))).N
/-- What region 2 leaves in its output array. -/
abbrev res2 (c : Dev nD) : Buf (Elt F) ((c : Thread nD τ).loc main_v23) :=
  (dat2 (Vfirst m) (adm2 m core0 (hR core0)) c).arrAt 4 (cfg2 (adm2 (F := F) m core0 (hR core0))).N
/-- What region 3 leaves in its output array. -/
abbrev res3 (c : Dev nD) : Buf (Elt F) ((c : Thread nD τ).loc main_v28) :=
  (dat3 (Vfirst m) (adm3 m core0 (hR core0)) c).arrAt 4 (cfg3 (adm3 (F := F) m core0 (hR core0))).N
/-- What region 4 leaves in its output array. -/
abbrev res4 (c : Dev nD) : Buf (Elt F) ((c : Thread nD τ).loc main_v33) :=
  (dat4 (Vfirst m) (adm4 m core0 (hR core0)) c).arrAt 4 (cfg4 (adm4 (F := F) m core0 (hR core0))).N
/-- What region 5 leaves in its output array. -/
abbrev res5 (c : Dev nD) : Buf (Elt F) ((c : Thread nD τ).loc main_v38) :=
  (dat5 (Vfirst m) (adm5 m core0 (hR core0)) c).arrAt 4 (cfg5 (adm5 (F := F) m core0 (hR core0))).N
/-- What region 6 leaves in its output array. -/
abbrev res6 (c : Dev nD) : Buf (Elt F) ((c : Thread nD τ).loc main_v43) :=
  (dat6 (Vfirst m) (adm6 m core0 (hR core0)) c).arrAt 4 (cfg6 (adm6 (F := F) m core0 (hR core0))).N
/-- What region 7 leaves in its output array. -/
abbrev res7 (c : Dev nD) : Buf (Elt F) ((c : Thread nD τ).loc main_v48) :=
  (dat7 (Vfirst m) (adm7 m core0 (hR core0)) c).arrAt 4 (cfg7 (adm7 (F := F) m core0 (hR core0))).N
/-- What region 8 leaves in its output array. -/
abbrev res8 (c : Dev nD) : Buf (Elt F) ((c : Thread nD τ).loc main_v53) :=
  (dat8 (Vfirst m) (adm8 m core0 (hR core0)) c).arrAt 4 (cfg8 (adm8 (F := F) m core0 (hR core0))).N
/-- What region 9 leaves in its output array. -/
abbrev res9 (c : Dev nD) : Buf (Elt F) ((c : Thread nD τ).loc main_v58) :=
  (dat9 (Vfirst m) (adm9 m core0 (hR core0)) c).arrAt 4 (cfg9 (adm9 (F := F) m core0 (hR core0))).N
/-- What region 10 leaves in its output array. -/
abbrev res10 (c : Dev nD) : Buf (Elt F) ((c : Thread nD τ).loc main_v63) :=
  (dat10 (Vfirst m) (adm10 m core0 (hR core0)) c).arrAt 4 (cfg10 (adm10 (F := F) m core0 (hR core0))).N
/-- What region 11 leaves in its output array. -/
abbrev res11 (c : Dev nD) : Buf (Elt F) ((c : Thread nD τ).loc main_v68) :=
  (dat11 (Vfirst m) (adm11 m core0 (hR core0)) c).arrAt 4 (cfg11 (adm11 (F := F) m core0 (hR core0))).N
/-- What region 12 leaves in its output array. -/
abbrev res12 (c : Dev nD) : Buf (Elt F) ((c : Thread nD τ).loc main_v73) :=
  (dat12 (Vfirst m) (adm12 m core0 (hR core0)) c).arrAt 4 (cfg12 (adm12 (F := F) m core0 (hR core0))).N
/-- What region 13 leaves in its output array. -/
abbrev res13 (c : Dev nD) : Buf (Elt F) ((c : Thread nD τ).loc main_v78) :=
  (dat13 (Vfirst m) (adm13 m core0 (hR core0)) c).arrAt 4 (cfg13 (adm13 (F := F) m core0 (hR core0))).N
/-- What region 14 leaves in its output array. -/
abbrev res14 (c : Dev nD) : Buf (Elt F) ((c : Thread nD τ).loc main_v83) :=
  (dat14 (Vfirst m) (adm14 m core0 (hR core0)) c).arrAt 4 (cfg14 (adm14 (F := F) m core0 (hR core0))).N
/-- What region 15 leaves in its output array. -/
abbrev res15 (c : Dev nD) : Buf (Elt F) ((c : Thread nD τ).loc main_v88) :=
  (dat15 (Vfirst m) (adm15 m core0 (hR core0)) c).arrAt 4 (cfg15 (adm15 (F := F) m core0 (hR core0))).N
/-- What region 16 leaves in its output array. -/
abbrev res16 (c : Dev nD) : Buf (Elt F) ((c : Thread nD τ).loc main_v93) :=
  (dat16 (Vfirst m) (adm16 m core0 (hR core0)) c).arrAt 4 (cfg16 (adm16 (F := F) m core0 (hR core0))).N
/-- What region 17 leaves in its output array. -/
abbrev res17 (c : Dev nD) : Buf (Elt F) ((c : Thread nD τ).loc main_v98) :=
  (dat17 (Vfirst m) (adm17 m core0 (hR core0)) c).arrAt 4 (cfg17 (adm17 (F := F) m core0 (hR core0))).N
/-- What region 18 leaves in its output array. -/
abbrev res18 (c : Dev nD) : Buf (Elt F) ((c : Thread nD τ).loc main_v103) :=
  (dat18 (Vfirst m) (adm18 m core0 (hR core0)) c).arrAt 4 (cfg18 (adm18 (F := F) m core0 (hR core0))).N
/-- What region 19 leaves in its output array. -/
abbrev res19 (c : Dev nD) : Buf (Elt F) ((c : Thread nD τ).loc main_v108) :=
  (dat19 (Vfirst m) (adm19 m core0 (hR core0)) c).arrAt 4 (cfg19 (adm19 (F := F) m core0 (hR core0))).N

/-- The launch contents updated at the 20 output arrays. -/
def outsAll (c : Dev nD) : (r : Ref sig .tc) → Buf (Elt F) ((c : Thread nD τ).loc r) :=
  (Function.update (Function.update (Function.update (Function.update (Function.update (Function.update (Function.update (Function.update (Function.update (Function.update (Function.update (Function.update (Function.update (Function.update (Function.update (Function.update (Function.update (Function.update (Function.update (Function.update (fun r => m ((c : Thread nD τ).loc r)) main_v13 (res0 m hR c)) main_v18 (res1 m hR c)) main_v23 (res2 m hR c)) main_v28 (res3 m hR c)) main_v33 (res4 m hR c)) main_v38 (res5 m hR c)) main_v43 (res6 m hR c)) main_v48 (res7 m hR c)) main_v53 (res8 m hR c)) main_v58 (res9 m hR c)) main_v63 (res10 m hR c)) main_v68 (res11 m hR c)) main_v73 (res12 m hR c)) main_v78 (res13 m hR c)) main_v83 (res14 m hR c)) main_v88 (res15 m hR c)) main_v93 (res16 m hR c)) main_v98 (res17 m hR c)) main_v103 (res18 m hR c)) main_v108 (res19 m hR c))

/-- The contents the regions leave, in the form the program's valuations take them. -/
def outs : Outs (F := F) := fun _ r c => outsAll m hR c r

theorem outs_0 (c : Dev nD) : outs m hR 2 main_v13 c = res0 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_1 (c : Dev nD) : outs m hR 4 main_v18 c = res1 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_2 (c : Dev nD) : outs m hR 6 main_v23 c = res2 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_3 (c : Dev nD) : outs m hR 8 main_v28 c = res3 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_4 (c : Dev nD) : outs m hR 10 main_v33 c = res4 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_5 (c : Dev nD) : outs m hR 12 main_v38 c = res5 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_6 (c : Dev nD) : outs m hR 14 main_v43 c = res6 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_7 (c : Dev nD) : outs m hR 16 main_v48 c = res7 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_8 (c : Dev nD) : outs m hR 18 main_v53 c = res8 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_9 (c : Dev nD) : outs m hR 20 main_v58 c = res9 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_10 (c : Dev nD) : outs m hR 22 main_v63 c = res10 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_11 (c : Dev nD) : outs m hR 24 main_v68 c = res11 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_of_ne (by decide), Function.update_self]
theorem outs_12 (c : Dev nD) : outs m hR 26 main_v73 c = res12 m hR c := by
  unfold outs outsAll; rw [Function.update_of_ne (by decide), Function.update_of_ne (by decide), Function.update_of_ne (by decide), Function.update_of_ne (by decide), Function.update_of_ne (by decide), Function.update_of_ne (by decide), Function.update_of_ne (by decide), Function.update_self]
theorem outs_13 (c : Dev nD) : outs m hR 28 main_v78 c = res13 m hR c := by
  unfold outs outsAll; rw [Function.update_of_ne (by decide), Function.update_of_ne (by decide), Function.update_of_ne (by decide), Function.update_of_ne (by decide), Function.update_of_ne (by decide), Function.update_of_ne (by decide), Function.update_self]
theorem outs_14 (c : Dev nD) : outs m hR 30 main_v83 c = res14 m hR c := by
  unfold outs outsAll; rw [Function.update_of_ne (by decide), Function.update_of_ne (by decide), Function.update_of_ne (by decide), Function.update_of_ne (by decide), Function.update_of_ne (by decide), Function.update_self]
theorem outs_15 (c : Dev nD) : outs m hR 32 main_v88 c = res15 m hR c := by
  unfold outs outsAll; rw [Function.update_of_ne (by decide), Function.update_of_ne (by decide), Function.update_of_ne (by decide), Function.update_of_ne (by decide), Function.update_self]
theorem outs_16 (c : Dev nD) : outs m hR 34 main_v93 c = res16 m hR c := by
  unfold outs outsAll; rw [Function.update_of_ne (by decide), Function.update_of_ne (by decide), Function.update_of_ne (by decide), Function.update_self]
theorem outs_17 (c : Dev nD) : outs m hR 36 main_v98 c = res17 m hR c := by
  unfold outs outsAll; rw [Function.update_of_ne (by decide), Function.update_of_ne (by decide), Function.update_self]
theorem outs_18 (c : Dev nD) : outs m hR 38 main_v103 c = res18 m hR c := by
  unfold outs outsAll; rw [Function.update_of_ne (by decide), Function.update_self]
theorem outs_19 (c : Dev nD) : outs m hR 40 main_v108 c = res19 m hR c := by
  unfold outs outsAll; rw [Function.update_self]

/-- The buffers as region 0 finds them, and as it leaves them. -/
abbrev VE0 (m : (ℓ : Loc nD τ sig) → Buf (Elt F) ℓ) (hR : ∀ c : Dev nD, Cert.EdgeLengths.InRange (m ((c.tc : Thread nD τ).loc main_arg1))) (c : Dev nD) : Valuation τ sig (Elt F) := V1 m c
abbrev VX0 (m : (ℓ : Loc nD τ sig) → Buf (Elt F) ℓ) (hR : ∀ c : Dev nD, Cert.EdgeLengths.InRange (m ((c.tc : Thread nD τ).loc main_arg1))) (c : Dev nD) : Valuation τ sig (Elt F) := V2 m (outs m hR) c
/-- The buffers as region 1 finds them, and as it leaves them. -/
abbrev VE1 (m : (ℓ : Loc nD τ sig) → Buf (Elt F) ℓ) (hR : ∀ c : Dev nD, Cert.EdgeLengths.InRange (m ((c.tc : Thread nD τ).loc main_arg1))) (c : Dev nD) : Valuation τ sig (Elt F) := V3 m (outs m hR) c
abbrev VX1 (m : (ℓ : Loc nD τ sig) → Buf (Elt F) ℓ) (hR : ∀ c : Dev nD, Cert.EdgeLengths.InRange (m ((c.tc : Thread nD τ).loc main_arg1))) (c : Dev nD) : Valuation τ sig (Elt F) := V4 m (outs m hR) c
/-- The buffers as region 2 finds them, and as it leaves them. -/
abbrev VE2 (m : (ℓ : Loc nD τ sig) → Buf (Elt F) ℓ) (hR : ∀ c : Dev nD, Cert.EdgeLengths.InRange (m ((c.tc : Thread nD τ).loc main_arg1))) (c : Dev nD) : Valuation τ sig (Elt F) := V5 m (outs m hR) c
abbrev VX2 (m : (ℓ : Loc nD τ sig) → Buf (Elt F) ℓ) (hR : ∀ c : Dev nD, Cert.EdgeLengths.InRange (m ((c.tc : Thread nD τ).loc main_arg1))) (c : Dev nD) : Valuation τ sig (Elt F) := V6 m (outs m hR) c
/-- The buffers as region 3 finds them, and as it leaves them. -/
abbrev VE3 (m : (ℓ : Loc nD τ sig) → Buf (Elt F) ℓ) (hR : ∀ c : Dev nD, Cert.EdgeLengths.InRange (m ((c.tc : Thread nD τ).loc main_arg1))) (c : Dev nD) : Valuation τ sig (Elt F) := V7 m (outs m hR) c
abbrev VX3 (m : (ℓ : Loc nD τ sig) → Buf (Elt F) ℓ) (hR : ∀ c : Dev nD, Cert.EdgeLengths.InRange (m ((c.tc : Thread nD τ).loc main_arg1))) (c : Dev nD) : Valuation τ sig (Elt F) := V8 m (outs m hR) c
/-- The buffers as region 4 finds them, and as it leaves them. -/
abbrev VE4 (m : (ℓ : Loc nD τ sig) → Buf (Elt F) ℓ) (hR : ∀ c : Dev nD, Cert.EdgeLengths.InRange (m ((c.tc : Thread nD τ).loc main_arg1))) (c : Dev nD) : Valuation τ sig (Elt F) := V9 m (outs m hR) c
abbrev VX4 (m : (ℓ : Loc nD τ sig) → Buf (Elt F) ℓ) (hR : ∀ c : Dev nD, Cert.EdgeLengths.InRange (m ((c.tc : Thread nD τ).loc main_arg1))) (c : Dev nD) : Valuation τ sig (Elt F) := V10 m (outs m hR) c
/-- The buffers as region 5 finds them, and as it leaves them. -/
abbrev VE5 (m : (ℓ : Loc nD τ sig) → Buf (Elt F) ℓ) (hR : ∀ c : Dev nD, Cert.EdgeLengths.InRange (m ((c.tc : Thread nD τ).loc main_arg1))) (c : Dev nD) : Valuation τ sig (Elt F) := V11 m (outs m hR) c
abbrev VX5 (m : (ℓ : Loc nD τ sig) → Buf (Elt F) ℓ) (hR : ∀ c : Dev nD, Cert.EdgeLengths.InRange (m ((c.tc : Thread nD τ).loc main_arg1))) (c : Dev nD) : Valuation τ sig (Elt F) := V12 m (outs m hR) c
/-- The buffers as region 6 finds them, and as it leaves them. -/
abbrev VE6 (m : (ℓ : Loc nD τ sig) → Buf (Elt F) ℓ) (hR : ∀ c : Dev nD, Cert.EdgeLengths.InRange (m ((c.tc : Thread nD τ).loc main_arg1))) (c : Dev nD) : Valuation τ sig (Elt F) := V13 m (outs m hR) c
abbrev VX6 (m : (ℓ : Loc nD τ sig) → Buf (Elt F) ℓ) (hR : ∀ c : Dev nD, Cert.EdgeLengths.InRange (m ((c.tc : Thread nD τ).loc main_arg1))) (c : Dev nD) : Valuation τ sig (Elt F) := V14 m (outs m hR) c
/-- The buffers as region 7 finds them, and as it leaves them. -/
abbrev VE7 (m : (ℓ : Loc nD τ sig) → Buf (Elt F) ℓ) (hR : ∀ c : Dev nD, Cert.EdgeLengths.InRange (m ((c.tc : Thread nD τ).loc main_arg1))) (c : Dev nD) : Valuation τ sig (Elt F) := V15 m (outs m hR) c
abbrev VX7 (m : (ℓ : Loc nD τ sig) → Buf (Elt F) ℓ) (hR : ∀ c : Dev nD, Cert.EdgeLengths.InRange (m ((c.tc : Thread nD τ).loc main_arg1))) (c : Dev nD) : Valuation τ sig (Elt F) := V16 m (outs m hR) c
/-- The buffers as region 8 finds them, and as it leaves them. -/
abbrev VE8 (m : (ℓ : Loc nD τ sig) → Buf (Elt F) ℓ) (hR : ∀ c : Dev nD, Cert.EdgeLengths.InRange (m ((c.tc : Thread nD τ).loc main_arg1))) (c : Dev nD) : Valuation τ sig (Elt F) := V17 m (outs m hR) c
abbrev VX8 (m : (ℓ : Loc nD τ sig) → Buf (Elt F) ℓ) (hR : ∀ c : Dev nD, Cert.EdgeLengths.InRange (m ((c.tc : Thread nD τ).loc main_arg1))) (c : Dev nD) : Valuation τ sig (Elt F) := V18 m (outs m hR) c
/-- The buffers as region 9 finds them, and as it leaves them. -/
abbrev VE9 (m : (ℓ : Loc nD τ sig) → Buf (Elt F) ℓ) (hR : ∀ c : Dev nD, Cert.EdgeLengths.InRange (m ((c.tc : Thread nD τ).loc main_arg1))) (c : Dev nD) : Valuation τ sig (Elt F) := V19 m (outs m hR) c
abbrev VX9 (m : (ℓ : Loc nD τ sig) → Buf (Elt F) ℓ) (hR : ∀ c : Dev nD, Cert.EdgeLengths.InRange (m ((c.tc : Thread nD τ).loc main_arg1))) (c : Dev nD) : Valuation τ sig (Elt F) := V20 m (outs m hR) c
/-- The buffers as region 10 finds them, and as it leaves them. -/
abbrev VE10 (m : (ℓ : Loc nD τ sig) → Buf (Elt F) ℓ) (hR : ∀ c : Dev nD, Cert.EdgeLengths.InRange (m ((c.tc : Thread nD τ).loc main_arg1))) (c : Dev nD) : Valuation τ sig (Elt F) := V21 m (outs m hR) c
abbrev VX10 (m : (ℓ : Loc nD τ sig) → Buf (Elt F) ℓ) (hR : ∀ c : Dev nD, Cert.EdgeLengths.InRange (m ((c.tc : Thread nD τ).loc main_arg1))) (c : Dev nD) : Valuation τ sig (Elt F) := V22 m (outs m hR) c
/-- The buffers as region 11 finds them, and as it leaves them. -/
abbrev VE11 (m : (ℓ : Loc nD τ sig) → Buf (Elt F) ℓ) (hR : ∀ c : Dev nD, Cert.EdgeLengths.InRange (m ((c.tc : Thread nD τ).loc main_arg1))) (c : Dev nD) : Valuation τ sig (Elt F) := V23 m (outs m hR) c
abbrev VX11 (m : (ℓ : Loc nD τ sig) → Buf (Elt F) ℓ) (hR : ∀ c : Dev nD, Cert.EdgeLengths.InRange (m ((c.tc : Thread nD τ).loc main_arg1))) (c : Dev nD) : Valuation τ sig (Elt F) := V24 m (outs m hR) c
/-- The buffers as region 12 finds them, and as it leaves them. -/
abbrev VE12 (m : (ℓ : Loc nD τ sig) → Buf (Elt F) ℓ) (hR : ∀ c : Dev nD, Cert.EdgeLengths.InRange (m ((c.tc : Thread nD τ).loc main_arg1))) (c : Dev nD) : Valuation τ sig (Elt F) := V25 m (outs m hR) c
abbrev VX12 (m : (ℓ : Loc nD τ sig) → Buf (Elt F) ℓ) (hR : ∀ c : Dev nD, Cert.EdgeLengths.InRange (m ((c.tc : Thread nD τ).loc main_arg1))) (c : Dev nD) : Valuation τ sig (Elt F) := V26 m (outs m hR) c
/-- The buffers as region 13 finds them, and as it leaves them. -/
abbrev VE13 (m : (ℓ : Loc nD τ sig) → Buf (Elt F) ℓ) (hR : ∀ c : Dev nD, Cert.EdgeLengths.InRange (m ((c.tc : Thread nD τ).loc main_arg1))) (c : Dev nD) : Valuation τ sig (Elt F) := V27 m (outs m hR) c
abbrev VX13 (m : (ℓ : Loc nD τ sig) → Buf (Elt F) ℓ) (hR : ∀ c : Dev nD, Cert.EdgeLengths.InRange (m ((c.tc : Thread nD τ).loc main_arg1))) (c : Dev nD) : Valuation τ sig (Elt F) := V28 m (outs m hR) c
/-- The buffers as region 14 finds them, and as it leaves them. -/
abbrev VE14 (m : (ℓ : Loc nD τ sig) → Buf (Elt F) ℓ) (hR : ∀ c : Dev nD, Cert.EdgeLengths.InRange (m ((c.tc : Thread nD τ).loc main_arg1))) (c : Dev nD) : Valuation τ sig (Elt F) := V29 m (outs m hR) c
abbrev VX14 (m : (ℓ : Loc nD τ sig) → Buf (Elt F) ℓ) (hR : ∀ c : Dev nD, Cert.EdgeLengths.InRange (m ((c.tc : Thread nD τ).loc main_arg1))) (c : Dev nD) : Valuation τ sig (Elt F) := V30 m (outs m hR) c
/-- The buffers as region 15 finds them, and as it leaves them. -/
abbrev VE15 (m : (ℓ : Loc nD τ sig) → Buf (Elt F) ℓ) (hR : ∀ c : Dev nD, Cert.EdgeLengths.InRange (m ((c.tc : Thread nD τ).loc main_arg1))) (c : Dev nD) : Valuation τ sig (Elt F) := V31 m (outs m hR) c
abbrev VX15 (m : (ℓ : Loc nD τ sig) → Buf (Elt F) ℓ) (hR : ∀ c : Dev nD, Cert.EdgeLengths.InRange (m ((c.tc : Thread nD τ).loc main_arg1))) (c : Dev nD) : Valuation τ sig (Elt F) := V32 m (outs m hR) c
/-- The buffers as region 16 finds them, and as it leaves them. -/
abbrev VE16 (m : (ℓ : Loc nD τ sig) → Buf (Elt F) ℓ) (hR : ∀ c : Dev nD, Cert.EdgeLengths.InRange (m ((c.tc : Thread nD τ).loc main_arg1))) (c : Dev nD) : Valuation τ sig (Elt F) := V33 m (outs m hR) c
abbrev VX16 (m : (ℓ : Loc nD τ sig) → Buf (Elt F) ℓ) (hR : ∀ c : Dev nD, Cert.EdgeLengths.InRange (m ((c.tc : Thread nD τ).loc main_arg1))) (c : Dev nD) : Valuation τ sig (Elt F) := V34 m (outs m hR) c
/-- The buffers as region 17 finds them, and as it leaves them. -/
abbrev VE17 (m : (ℓ : Loc nD τ sig) → Buf (Elt F) ℓ) (hR : ∀ c : Dev nD, Cert.EdgeLengths.InRange (m ((c.tc : Thread nD τ).loc main_arg1))) (c : Dev nD) : Valuation τ sig (Elt F) := V35 m (outs m hR) c
abbrev VX17 (m : (ℓ : Loc nD τ sig) → Buf (Elt F) ℓ) (hR : ∀ c : Dev nD, Cert.EdgeLengths.InRange (m ((c.tc : Thread nD τ).loc main_arg1))) (c : Dev nD) : Valuation τ sig (Elt F) := V36 m (outs m hR) c
/-- The buffers as region 18 finds them, and as it leaves them. -/
abbrev VE18 (m : (ℓ : Loc nD τ sig) → Buf (Elt F) ℓ) (hR : ∀ c : Dev nD, Cert.EdgeLengths.InRange (m ((c.tc : Thread nD τ).loc main_arg1))) (c : Dev nD) : Valuation τ sig (Elt F) := V37 m (outs m hR) c
abbrev VX18 (m : (ℓ : Loc nD τ sig) → Buf (Elt F) ℓ) (hR : ∀ c : Dev nD, Cert.EdgeLengths.InRange (m ((c.tc : Thread nD τ).loc main_arg1))) (c : Dev nD) : Valuation τ sig (Elt F) := V38 m (outs m hR) c
/-- The buffers as region 19 finds them, and as it leaves them. -/
abbrev VE19 (m : (ℓ : Loc nD τ sig) → Buf (Elt F) ℓ) (hR : ∀ c : Dev nD, Cert.EdgeLengths.InRange (m ((c.tc : Thread nD τ).loc main_arg1))) (c : Dev nD) : Valuation τ sig (Elt F) := V39 m (outs m hR) c
abbrev VX19 (m : (ℓ : Loc nD τ sig) → Buf (Elt F) ℓ) (hR : ∀ c : Dev nD, Cert.EdgeLengths.InRange (m ((c.tc : Thread nD τ).loc main_arg1))) (c : Dev nD) : Valuation τ sig (Elt F) := V40 m (outs m hR) c

end Cert.Kernel.Gen

end
-- ==== Proof.KW.Cols.lean ====
/-
  The four columns of the vertex words. Before the first region column j (j = 0 … 3) of the [500000, 4] array of vertex
  words is cut out as a [500000, 1] slice and reshaped to a vector of 500000 words; no later item writes these four
  vectors. Entry p of column j is vertex word j of generator p. Table j of region K is the run of 25000 entries of
  column j that starts at entry 25000·K.
-/
import proofs.«401090_j62775241999084_2_alg».proof.Proof.RegionsKernel
import proofs.«401090_j62775241999084_2_alg».proof.Proof.KW.Tables
import Idealize.ShloMosaic.Lib.StableHlo.Run
import Idealize.ShloMosaic.Lib.Pipeline.Value
import Idealize.ShloMosaic.Lib.ValueIdx

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

/-- A width-one slice at column j of a [500000, 4] array, reshaped to a vector, read at p: the array at (p, j). The
    reshape keeps the row-major position p·1 + 0 = p; the slice shifts the column by j. -/
theorem col_read (x : S500000x4.Idx → BitVec 32) (j : Fin 4) (hs : S500000x4.Slices ![0, j.val] S500000x1)
    (hc : S500000x1.ShapeCasts S500000) (p : Fin 500000) :
    shapeCast S500000 (extractStridedSlice S500000x1 ![0, j.val] x hs) hc (ValueIdx.ix1 p) = x (ValueIdx.ix2 p j) := by
  refine (shapeCast_apply _ hc (ValueIdx.ix1 p) (ValueIdx.ix2 p (0 : Fin 1)) ?_).trans ?_
  · show (S500000x1.rowMajor (ValueIdx.ix2 p (0 : Fin 1))).val = (S500000.rowMajor (ValueIdx.ix1 p)).val
    rw [Shape.rowMajor_val_two, Shape.rowMajor_val_one]
    show p.val * 1 + 0 = p.val
    omega
  · exact extractStridedSlice_apply _ x hs (ValueIdx.ix2 p (0 : Fin 1)) (ValueIdx.ix2 p j) (fun a =>
      match a with
      | ⟨0, _⟩ => by show p.val = 0 + p.val; omega
      | ⟨1, _⟩ => by show j.val = j.val + 0; omega)

variable (m : (ℓ : Loc nD τ sig) → Buf (Elt F) ℓ)

/-- Column 0 of the vertex words as the first host stretch leaves it: a slice of width one, reshaped to a vector. -/
theorem col0_eq (c : Dev nD) :
    (V1 m c main_v1 : S500000.Idx → BitVec 32)
      = shapeCast S500000
          (extractStridedSlice S500000x1 ![0, 0] (m ((c.tc : Thread nD τ).loc main_arg1) : S500000x4.Idx → BitVec 32)
            slices_S500000x4_S500000x1_0_0)
          shapeCasts_S500000x1_S500000 := by
  show StableHlo.after hostOps0 _ (Proc.devRef .tc main_v1) = _
  after_results
  rfl

/-- Entry p of column 0 is vertex word 0 of generator p. -/
theorem col0_apply (c : Dev nD) (p : Fin 500000) :
    (V1 m c main_v1 : S500000.Idx → BitVec 32) (ValueIdx.ix1 p)
      = (m ((c.tc : Thread nD τ).loc main_arg1) : S500000x4.Idx → BitVec 32) (ValueIdx.ix2 p 0) := by
  rw [col0_eq]
  exact col_read _ 0 _ _ p

/-- Column 1 of the vertex words as the first host stretch leaves it: a slice of width one, reshaped to a vector. -/
theorem col1_eq (c : Dev nD) :
    (V1 m c main_v3 : S500000.Idx → BitVec 32)
      = shapeCast S500000
          (extractStridedSlice S500000x1 ![0, 1] (m ((c.tc : Thread nD τ).loc main_arg1) : S500000x4.Idx → BitVec 32)
            slices_S500000x4_S500000x1_0_1)
          shapeCasts_S500000x1_S500000 := by
  show StableHlo.after hostOps0 _ (Proc.devRef .tc main_v3) = _
  after_results
  rfl

/-- Entry p of column 1 is vertex word 1 of generator p. -/
theorem col1_apply (c : Dev nD) (p : Fin 500000) :
    (V1 m c main_v3 : S500000.Idx → BitVec 32) (ValueIdx.ix1 p)
      = (m ((c.tc : Thread nD τ).loc main_arg1) : S500000x4.Idx → BitVec 32) (ValueIdx.ix2 p 1) := by
  rw [col1_eq]
  exact col_read _ 1 _ _ p

/-- Column 2 of the vertex words as the first host stretch leaves it: a slice of width one, reshaped to a vector. -/
theorem col2_eq (c : Dev nD) :
    (V1 m c main_v5 : S500000.Idx → BitVec 32)
      = shapeCast S500000
          (extractStridedSlice S500000x1 ![0, 2] (m ((c.tc : Thread nD τ).loc main_arg1) : S500000x4.Idx → BitVec 32)
            slices_S500000x4_S500000x1_0_2)
          shapeCasts_S500000x1_S500000 := by
  show StableHlo.after hostOps0 _ (Proc.devRef .tc main_v5) = _
  after_results
  rfl

/-- Entry p of column 2 is vertex word 2 of generator p. -/
theorem col2_apply (c : Dev nD) (p : Fin 500000) :
    (V1 m c main_v5 : S500000.Idx → BitVec 32) (ValueIdx.ix1 p)
      = (m ((c.tc : Thread nD τ).loc main_arg1) : S500000x4.Idx → BitVec 32) (ValueIdx.ix2 p 2) := by
  rw [col2_eq]
  exact col_read _ 2 _ _ p

/-- Column 3 of the vertex words as the first host stretch leaves it: a slice of width one, reshaped to a vector. -/
theorem col3_eq (c : Dev nD) :
    (V1 m c main_v7 : S500000.Idx → BitVec 32)
      = shapeCast S500000
          (extractStridedSlice S500000x1 ![0, 3] (m ((c.tc : Thread nD τ).loc main_arg1) : S500000x4.Idx → BitVec 32)
            slices_S500000x4_S500000x1_0_3)
          shapeCasts_S500000x1_S500000 := by
  show StableHlo.after hostOps0 _ (Proc.devRef .tc main_v7) = _
  after_results
  rfl

/-- Entry p of column 3 is vertex word 3 of generator p. -/
theorem col3_apply (c : Dev nD) (p : Fin 500000) :
    (V1 m c main_v7 : S500000.Idx → BitVec 32) (ValueIdx.ix1 p)
      = (m ((c.tc : Thread nD τ).loc main_arg1) : S500000x4.Idx → BitVec 32) (ValueIdx.ix2 p 3) := by
  rw [col3_eq]
  exact col_read _ 3 _ _ p

/-- The run of 25000 entries of column j that starts at 25000·K is table j of region K: entry i of the run is entry
    25000·K + i of the column, vertex word j of generator 25000·K + i. -/
theorem tbl_of_col (c : Dev nD) (K : Fin 20) (j : Fin 4) (col : S500000.Idx → BitVec 32)
    (hcol : ∀ p : Fin 500000, col (ValueIdx.ix1 p)
      = (m ((c.tc : Thread nD τ).loc main_arg1) : S500000x4.Idx → BitVec 32) (ValueIdx.ix2 p j))
    (off : ℕ) (hoff : off = 25000 * K.val) (hs : S500000.Slices ![off] S25000) :
    extractStridedSlice S25000 ![off] col hs = tbl m c K j := by
  funext i
  refine (extractStridedSlice_apply _ col hs i (ValueIdx.ix1 (genOf K (i 0))) (fun a =>
    match a with
    | ⟨0, _⟩ => by show 25000 * K.val + (i 0).val = off + (i 0).val; omega)).trans ?_
  exact hcol _

end Cert.Kernel.Gen

end
-- ==== Proof.KW.Entry0.lean ====
/-
  What region 0 finds when it is entered: only the first host stretch has run. That stretch reshapes the point table,
  cuts the four columns of the vertex words and, out of each column, entries 0 … 24999: region 0's four index tables,
  the vertex words of generators 0 … 24999. It does not write region 0's output array, which still holds its launch
  contents.
-/
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left: region 0 is entered right after it. -/
theorem entry_xtab0 (c : Dev nD) : V1 m c main_v8 = V1 m c main_v8 := rfl

/-- The first host stretch does not write the output array: it still holds its launch contents. -/
theorem entry_out0 (c : Dev nD) : V1 m c main_v13 = V0 m c main_v13 :=
  V1_of m c main_v13 (by decide)

/-- Table 0 holds vertex word 0 of generators 0 … 24999. -/
theorem entry_tbl0_0 (c : Dev nD) : (V1 m c main_v9 : S25000.Idx → BitVec 32) = tbl m c (0 : Fin 20) 0 := by
  have cut : (V1 m c main_v9 : S25000.Idx → BitVec 32)
      = extractStridedSlice S25000 ![0] (V1 m c main_v1 : S500000.Idx → BitVec 32) slices_S500000_S25000_0 := by
    rw [col0_eq]
    show StableHlo.after hostOps0 _ (Proc.devRef .tc main_v9) = _
    after_results
    rfl
  rw [cut]
  exact tbl_of_col m c (0 : Fin 20) 0 _ (col0_apply m c) 0 (by decide) _

/-- Table 1 holds vertex word 1 of generators 0 … 24999. -/
theorem entry_tbl0_1 (c : Dev nD) : (V1 m c main_v10 : S25000.Idx → BitVec 32) = tbl m c (0 : Fin 20) 1 := by
  have cut : (V1 m c main_v10 : S25000.Idx → BitVec 32)
      = extractStridedSlice S25000 ![0] (V1 m c main_v3 : S500000.Idx → BitVec 32) slices_S500000_S25000_0 := by
    rw [col1_eq]
    show StableHlo.after hostOps0 _ (Proc.devRef .tc main_v10) = _
    after_results
    rfl
  rw [cut]
  exact tbl_of_col m c (0 : Fin 20) 1 _ (col1_apply m c) 0 (by decide) _

/-- Table 2 holds vertex word 2 of generators 0 … 24999. -/
theorem entry_tbl0_2 (c : Dev nD) : (V1 m c main_v11 : S25000.Idx → BitVec 32) = tbl m c (0 : Fin 20) 2 := by
  have cut : (V1 m c main_v11 : S25000.Idx → BitVec 32)
      = extractStridedSlice S25000 ![0] (V1 m c main_v5 : S500000.Idx → BitVec 32) slices_S500000_S25000_0 := by
    rw [col2_eq]
    show StableHlo.after hostOps0 _ (Proc.devRef .tc main_v11) = _
    after_results
    rfl
  rw [cut]
  exact tbl_of_col m c (0 : Fin 20) 2 _ (col2_apply m c) 0 (by decide) _

/-- Table 3 holds vertex word 3 of generators 0 … 24999. -/
theorem entry_tbl0_3 (c : Dev nD) : (V1 m c main_v12 : S25000.Idx → BitVec 32) = tbl m c (0 : Fin 20) 3 := by
  have cut : (V1 m c main_v12 : S25000.Idx → BitVec 32)
      = extractStridedSlice S25000 ![0] (V1 m c main_v7 : S500000.Idx → BitVec 32) slices_S500000_S25000_0 := by
    rw [col3_eq]
    show StableHlo.after hostOps0 _ (Proc.devRef .tc main_v12) = _
    after_results
    rfl
  rw [cut]
  exact tbl_of_col m c (0 : Fin 20) 3 _ (col3_apply m c) 0 (by decide) _

end Cert.Kernel.Gen

end
-- ==== Proof.KW.Keep.lean ====
/-
  After the first host stretch every item of the program writes only arrays of its own: a region writes its output
  array, and the host stretch before a region writes that region's four index tables (the last stretch writes the
  assembled result). So an array that none of the items up to some point writes holds, at that point, what the first
  host stretch left in it. The tactic below walks a valuation back item by item, for one named array.
-/
import proofs.«401090_j62775241999084_2_alg».proof.Proof.RegionsKernel

namespace Cert.Kernel.Gen

open Idealize.ShloMosaic

/-- `unwritten m outs c r`: in the goal, the contents of array `r` after an item become its contents before that item,
    for every item (latest first) that does not write `r`, down to the valuation the first host stretch leaves. It stops
    at the first item that writes `r`. Whether an item writes `r` is decided on the item's list of written arrays. -/
macro "unwritten " m:term:max ppSpace outs:term:max ppSpace c:term:max ppSpace r:term:max : tactic => `(tactic| (
  try rw [V41_of $m $outs $c $r (by decide)]
  try rw [V40_of $m $outs $c $r (by decide)]
  try rw [V39_of $m $outs $c $r (by decide)]
  try rw [V38_of $m $outs $c $r (by decide)]
  try rw [V37_of $m $outs $c $r (by decide)]
  try rw [V36_of $m $outs $c $r (by decide)]
  try rw [V35_of $m $outs $c $r (by decide)]
  try rw [V34_of $m $outs $c $r (by decide)]
  try rw [V33_of $m $outs $c $r (by decide)]
  try rw [V32_of $m $outs $c $r (by decide)]
  try rw [V31_of $m $outs $c $r (by decide)]
  try rw [V30_of $m $outs $c $r (by decide)]
  try rw [V29_of $m $outs $c $r (by decide)]
  try rw [V28_of $m $outs $c $r (by decide)]
  try rw [V27_of $m $outs $c $r (by decide)]
  try rw [V26_of $m $outs $c $r (by decide)]
  try rw [V25_of $m $outs $c $r (by decide)]
  try rw [V24_of $m $outs $c $r (by decide)]
  try rw [V23_of $m $outs $c $r (by decide)]
  try rw [V22_of $m $outs $c $r (by decide)]
  try rw [V21_of $m $outs $c $r (by decide)]
  try rw [V20_of $m $outs $c $r (by decide)]
  try rw [V19_of $m $outs $c $r (by decide)]
  try rw [V18_of $m $outs $c $r (by decide)]
  try rw [V17_of $m $outs $c $r (by decide)]
  try rw [V16_of $m $outs $c $r (by decide)]
  try rw [V15_of $m $outs $c $r (by decide)]
  try rw [V14_of $m $outs $c $r (by decide)]
  try rw [V13_of $m $outs $c $r (by decide)]
  try rw [V12_of $m $outs $c $r (by decide)]
  try rw [V11_of $m $outs $c $r (by decide)]
  try rw [V10_of $m $outs $c $r (by decide)]
  try rw [V9_of $m $outs $c $r (by decide)]
  try rw [V8_of $m $outs $c $r (by decide)]
  try rw [V7_of $m $outs $c $r (by decide)]
  try rw [V6_of $m $outs $c $r (by decide)]
  try rw [V5_of $m $outs $c $r (by decide)]
  try rw [V4_of $m $outs $c $r (by decide)]
  try rw [V3_of $m $outs $c $r (by decide)]
  try rw [V2_of $m $outs $c $r (by decide)]))

end Cert.Kernel.Gen
-- ==== Proof.KW.Entry1.lean ====
/-
  What region 1 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab1 (c : Dev nD) : V3 m outs c main_v8 = V1 m c main_v8 := by
  unwritten m outs c main_v8

/-- The output array still holds what it held after the first host stretch. -/
theorem entry_out1 (c : Dev nD) : V3 m outs c main_v18 = V1 m c main_v18 := by
  unwritten m outs c main_v18

/-- Table 0 holds vertex word 0 of this region's generators. -/
theorem entry_tbl1_0 (c : Dev nD) : (V3 m outs c main_v14 : S25000.Idx → BitVec 32) = tbl m c (1 : Fin 20) 0 := by
  have cut : (V3 m outs c main_v14 : S25000.Idx → BitVec 32)
      = extractStridedSlice S25000 ![25000] (V2 m outs c main_v1 : S500000.Idx → BitVec 32) slices_S500000_S25000_25000 := by
    show StableHlo.after hostOps1 _ (Proc.devRef .tc main_v14) = _
    after_results
  have col : V2 m outs c main_v1 = V1 m c main_v1 := by
    unwritten m outs c main_v1
  rw [cut, col]
  exact tbl_of_col m c (1 : Fin 20) 0 _ (col0_apply m c) 25000 (by decide) _

/-- Table 1 holds vertex word 1 of this region's generators. -/
theorem entry_tbl1_1 (c : Dev nD) : (V3 m outs c main_v15 : S25000.Idx → BitVec 32) = tbl m c (1 : Fin 20) 1 := by
  have cut : (V3 m outs c main_v15 : S25000.Idx → BitVec 32)
      = extractStridedSlice S25000 ![25000] (V2 m outs c main_v3 : S500000.Idx → BitVec 32) slices_S500000_S25000_25000 := by
    show StableHlo.after hostOps1 _ (Proc.devRef .tc main_v15) = _
    after_results
  have col : V2 m outs c main_v3 = V1 m c main_v3 := by
    unwritten m outs c main_v3
  rw [cut, col]
  exact tbl_of_col m c (1 : Fin 20) 1 _ (col1_apply m c) 25000 (by decide) _

/-- Table 2 holds vertex word 2 of this region's generators. -/
theorem entry_tbl1_2 (c : Dev nD) : (V3 m outs c main_v16 : S25000.Idx → BitVec 32) = tbl m c (1 : Fin 20) 2 := by
  have cut : (V3 m outs c main_v16 : S25000.Idx → BitVec 32)
      = extractStridedSlice S25000 ![25000] (V2 m outs c main_v5 : S500000.Idx → BitVec 32) slices_S500000_S25000_25000 := by
    show StableHlo.after hostOps1 _ (Proc.devRef .tc main_v16) = _
    after_results
  have col : V2 m outs c main_v5 = V1 m c main_v5 := by
    unwritten m outs c main_v5
  rw [cut, col]
  exact tbl_of_col m c (1 : Fin 20) 2 _ (col2_apply m c) 25000 (by decide) _

/-- Table 3 holds vertex word 3 of this region's generators. -/
theorem entry_tbl1_3 (c : Dev nD) : (V3 m outs c main_v17 : S25000.Idx → BitVec 32) = tbl m c (1 : Fin 20) 3 := by
  have cut : (V3 m outs c main_v17 : S25000.Idx → BitVec 32)
      = extractStridedSlice S25000 ![25000] (V2 m outs c main_v7 : S500000.Idx → BitVec 32) slices_S500000_S25000_25000 := by
    show StableHlo.after hostOps1 _ (Proc.devRef .tc main_v17) = _
    after_results
  have col : V2 m outs c main_v7 = V1 m c main_v7 := by
    unwritten m outs c main_v7
  rw [cut, col]
  exact tbl_of_col m c (1 : Fin 20) 3 _ (col3_apply m c) 25000 (by decide) _

end Cert.Kernel.Gen

end
-- ==== Proof.KW.Entry2.lean ====
/-
  What region 2 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab2 (c : Dev nD) : V5 m outs c main_v8 = V1 m c main_v8 := by
  unwritten m outs c main_v8

/-- The output array still holds what it held after the first host stretch. -/
theorem entry_out2 (c : Dev nD) : V5 m outs c main_v23 = V1 m c main_v23 := by
  unwritten m outs c main_v23

/-- Table 0 holds vertex word 0 of this region's generators. -/
theorem entry_tbl2_0 (c : Dev nD) : (V5 m outs c main_v19 : S25000.Idx → BitVec 32) = tbl m c (2 : Fin 20) 0 := by
  have cut : (V5 m outs c main_v19 : S25000.Idx → BitVec 32)
      = extractStridedSlice S25000 ![50000] (V4 m outs c main_v1 : S500000.Idx → BitVec 32) slices_S500000_S25000_50000 := by
    show StableHlo.after hostOps2 _ (Proc.devRef .tc main_v19) = _
    after_results
  have col : V4 m outs c main_v1 = V1 m c main_v1 := by
    unwritten m outs c main_v1
  rw [cut, col]
  exact tbl_of_col m c (2 : Fin 20) 0 _ (col0_apply m c) 50000 (by decide) _

/-- Table 1 holds vertex word 1 of this region's generators. -/
theorem entry_tbl2_1 (c : Dev nD) : (V5 m outs c main_v20 : S25000.Idx → BitVec 32) = tbl m c (2 : Fin 20) 1 := by
  have cut : (V5 m outs c main_v20 : S25000.Idx → BitVec 32)
      = extractStridedSlice S25000 ![50000] (V4 m outs c main_v3 : S500000.Idx → BitVec 32) slices_S500000_S25000_50000 := by
    show StableHlo.after hostOps2 _ (Proc.devRef .tc main_v20) = _
    after_results
  have col : V4 m outs c main_v3 = V1 m c main_v3 := by
    unwritten m outs c main_v3
  rw [cut, col]
  exact tbl_of_col m c (2 : Fin 20) 1 _ (col1_apply m c) 50000 (by decide) _

/-- Table 2 holds vertex word 2 of this region's generators. -/
theorem entry_tbl2_2 (c : Dev nD) : (V5 m outs c main_v21 : S25000.Idx → BitVec 32) = tbl m c (2 : Fin 20) 2 := by
  have cut : (V5 m outs c main_v21 : S25000.Idx → BitVec 32)
      = extractStridedSlice S25000 ![50000] (V4 m outs c main_v5 : S500000.Idx → BitVec 32) slices_S500000_S25000_50000 := by
    show StableHlo.after hostOps2 _ (Proc.devRef .tc main_v21) = _
    after_results
  have col : V4 m outs c main_v5 = V1 m c main_v5 := by
    unwritten m outs c main_v5
  rw [cut, col]
  exact tbl_of_col m c (2 : Fin 20) 2 _ (col2_apply m c) 50000 (by decide) _

/-- Table 3 holds vertex word 3 of this region's generators. -/
theorem entry_tbl2_3 (c : Dev nD) : (V5 m outs c main_v22 : S25000.Idx → BitVec 32) = tbl m c (2 : Fin 20) 3 := by
  have cut : (V5 m outs c main_v22 : S25000.Idx → BitVec 32)
      = extractStridedSlice S25000 ![50000] (V4 m outs c main_v7 : S500000.Idx → BitVec 32) slices_S500000_S25000_50000 := by
    show StableHlo.after hostOps2 _ (Proc.devRef .tc main_v22) = _
    after_results
  have col : V4 m outs c main_v7 = V1 m c main_v7 := by
    unwritten m outs c main_v7
  rw [cut, col]
  exact tbl_of_col m c (2 : Fin 20) 3 _ (col3_apply m c) 50000 (by decide) _

end Cert.Kernel.Gen

end
-- ==== Proof.KW.Entry3.lean ====
/-
  What region 3 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab3 (c : Dev nD) : V7 m outs c main_v8 = V1 m c main_v8 := by
  unwritten m outs c main_v8

/-- The output array still holds what it held after the first host stretch. -/
theorem entry_out3 (c : Dev nD) : V7 m outs c main_v28 = V1 m c main_v28 := by
  unwritten m outs c main_v28

/-- Table 0 holds vertex word 0 of this region's generators. -/
theorem entry_tbl3_0 (c : Dev nD) : (V7 m outs c main_v24 : S25000.Idx → BitVec 32) = tbl m c (3 : Fin 20) 0 := by
  have cut : (V7 m outs c main_v24 : S25000.Idx → BitVec 32)
      = extractStridedSlice S25000 ![75000] (V6 m outs c main_v1 : S500000.Idx → BitVec 32) slices_S500000_S25000_75000 := by
    show StableHlo.after hostOps3 _ (Proc.devRef .tc main_v24) = _
    after_results
  have col : V6 m outs c main_v1 = V1 m c main_v1 := by
    unwritten m outs c main_v1
  rw [cut, col]
  exact tbl_of_col m c (3 : Fin 20) 0 _ (col0_apply m c) 75000 (by decide) _

/-- Table 1 holds vertex word 1 of this region's generators. -/
theorem entry_tbl3_1 (c : Dev nD) : (V7 m outs c main_v25 : S25000.Idx → BitVec 32) = tbl m c (3 : Fin 20) 1 := by
  have cut : (V7 m outs c main_v25 : S25000.Idx → BitVec 32)
      = extractStridedSlice S25000 ![75000] (V6 m outs c main_v3 : S500000.Idx → BitVec 32) slices_S500000_S25000_75000 := by
    show StableHlo.after hostOps3 _ (Proc.devRef .tc main_v25) = _
    after_results
  have col : V6 m outs c main_v3 = V1 m c main_v3 := by
    unwritten m outs c main_v3
  rw [cut, col]
  exact tbl_of_col m c (3 : Fin 20) 1 _ (col1_apply m c) 75000 (by decide) _

/-- Table 2 holds vertex word 2 of this region's generators. -/
theorem entry_tbl3_2 (c : Dev nD) : (V7 m outs c main_v26 : S25000.Idx → BitVec 32) = tbl m c (3 : Fin 20) 2 := by
  have cut : (V7 m outs c main_v26 : S25000.Idx → BitVec 32)
      = extractStridedSlice S25000 ![75000] (V6 m outs c main_v5 : S500000.Idx → BitVec 32) slices_S500000_S25000_75000 := by
    show StableHlo.after hostOps3 _ (Proc.devRef .tc main_v26) = _
    after_results
  have col : V6 m outs c main_v5 = V1 m c main_v5 := by
    unwritten m outs c main_v5
  rw [cut, col]
  exact tbl_of_col m c (3 : Fin 20) 2 _ (col2_apply m c) 75000 (by decide) _

/-- Table 3 holds vertex word 3 of this region's generators. -/
theorem entry_tbl3_3 (c : Dev nD) : (V7 m outs c main_v27 : S25000.Idx → BitVec 32) = tbl m c (3 : Fin 20) 3 := by
  have cut : (V7 m outs c main_v27 : S25000.Idx → BitVec 32)
      = extractStridedSlice S25000 ![75000] (V6 m outs c main_v7 : S500000.Idx → BitVec 32) slices_S500000_S25000_75000 := by
    show StableHlo.after hostOps3 _ (Proc.devRef .tc main_v27) = _
    after_results
  have col : V6 m outs c main_v7 = V1 m c main_v7 := by
    unwritten m outs c main_v7
  rw [cut, col]
  exact tbl_of_col m c (3 : Fin 20) 3 _ (col3_apply m c) 75000 (by decide) _

end Cert.Kernel.Gen

end
-- ==== Proof.KW.Entry4.lean ====
/-
  What region 4 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab4 (c : Dev nD) : V9 m outs c main_v8 = V1 m c main_v8 := by
  unwritten m outs c main_v8

/-- The output array still holds what it held after the first host stretch. -/
theorem entry_out4 (c : Dev nD) : V9 m outs c main_v33 = V1 m c main_v33 := by
  unwritten m outs c main_v33

/-- Table 0 holds vertex word 0 of this region's generators. -/
theorem entry_tbl4_0 (c : Dev nD) : (V9 m outs c main_v29 : S25000.Idx → BitVec 32) = tbl m c (4 : Fin 20) 0 := by
  have cut : (V9 m outs c main_v29 : S25000.Idx → BitVec 32)
      = extractStridedSlice S25000 ![100000] (V8 m outs c main_v1 : S500000.Idx → BitVec 32) slices_S500000_S25000_100000 := by
    show StableHlo.after hostOps4 _ (Proc.devRef .tc main_v29) = _
    after_results
  have col : V8 m outs c main_v1 = V1 m c main_v1 := by
    unwritten m outs c main_v1
  rw [cut, col]
  exact tbl_of_col m c (4 : Fin 20) 0 _ (col0_apply m c) 100000 (by decide) _

/-- Table 1 holds vertex word 1 of this region's generators. -/
theorem entry_tbl4_1 (c : Dev nD) : (V9 m outs c main_v30 : S25000.Idx → BitVec 32) = tbl m c (4 : Fin 20) 1 := by
  have cut : (V9 m outs c main_v30 : S25000.Idx → BitVec 32)
      = extractStridedSlice S25000 ![100000] (V8 m outs c main_v3 : S500000.Idx → BitVec 32) slices_S500000_S25000_100000 := by
    show StableHlo.after hostOps4 _ (Proc.devRef .tc main_v30) = _
    after_results
  have col : V8 m outs c main_v3 = V1 m c main_v3 := by
    unwritten m outs c main_v3
  rw [cut, col]
  exact tbl_of_col m c (4 : Fin 20) 1 _ (col1_apply m c) 100000 (by decide) _

/-- Table 2 holds vertex word 2 of this region's generators. -/
theorem entry_tbl4_2 (c : Dev nD) : (V9 m outs c main_v31 : S25000.Idx → BitVec 32) = tbl m c (4 : Fin 20) 2 := by
  have cut : (V9 m outs c main_v31 : S25000.Idx → BitVec 32)
      = extractStridedSlice S25000 ![100000] (V8 m outs c main_v5 : S500000.Idx → BitVec 32) slices_S500000_S25000_100000 := by
    show StableHlo.after hostOps4 _ (Proc.devRef .tc main_v31) = _
    after_results
  have col : V8 m outs c main_v5 = V1 m c main_v5 := by
    unwritten m outs c main_v5
  rw [cut, col]
  exact tbl_of_col m c (4 : Fin 20) 2 _ (col2_apply m c) 100000 (by decide) _

/-- Table 3 holds vertex word 3 of this region's generators. -/
theorem entry_tbl4_3 (c : Dev nD) : (V9 m outs c main_v32 : S25000.Idx → BitVec 32) = tbl m c (4 : Fin 20) 3 := by
  have cut : (V9 m outs c main_v32 : S25000.Idx → BitVec 32)
      = extractStridedSlice S25000 ![100000] (V8 m outs c main_v7 : S500000.Idx → BitVec 32) slices_S500000_S25000_100000 := by
    show StableHlo.after hostOps4 _ (Proc.devRef .tc main_v32) = _
    after_results
  have col : V8 m outs c main_v7 = V1 m c main_v7 := by
    unwritten m outs c main_v7
  rw [cut, col]
  exact tbl_of_col m c (4 : Fin 20) 3 _ (col3_apply m c) 100000 (by decide) _

end Cert.Kernel.Gen

end
-- ==== Proof.KW.Entry5.lean ====
/-
  What region 5 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab5 (c : Dev nD) : V11 m outs c main_v8 = V1 m c main_v8 := by
  unwritten m outs c main_v8

/-- The output array still holds what it held after the first host stretch. -/
theorem entry_out5 (c : Dev nD) : V11 m outs c main_v38 = V1 m c main_v38 := by
  unwritten m outs c main_v38

/-- Table 0 holds vertex word 0 of this region's generators. -/
theorem entry_tbl5_0 (c : Dev nD) : (V11 m outs c main_v34 : S25000.Idx → BitVec 32) = tbl m c (5 : Fin 20) 0 := by
  have cut : (V11 m outs c main_v34 : S25000.Idx → BitVec 32)
      = extractStridedSlice S25000 ![125000] (V10 m outs c main_v1 : S500000.Idx → BitVec 32) slices_S500000_S25000_125000 := by
    show StableHlo.after hostOps5 _ (Proc.devRef .tc main_v34) = _
    after_results
  have col : V10 m outs c main_v1 = V1 m c main_v1 := by
    unwritten m outs c main_v1
  rw [cut, col]
  exact tbl_of_col m c (5 : Fin 20) 0 _ (col0_apply m c) 125000 (by decide) _

/-- Table 1 holds vertex word 1 of this region's generators. -/
theorem entry_tbl5_1 (c : Dev nD) : (V11 m outs c main_v35 : S25000.Idx → BitVec 32) = tbl m c (5 : Fin 20) 1 := by
  have cut : (V11 m outs c main_v35 : S25000.Idx → BitVec 32)
      = extractStridedSlice S25000 ![125000] (V10 m outs c main_v3 : S500000.Idx → BitVec 32) slices_S500000_S25000_125000 := by
    show StableHlo.after hostOps5 _ (Proc.devRef .tc main_v35) = _
    after_results
  have col : V10 m outs c main_v3 = V1 m c main_v3 := by
    unwritten m outs c main_v3
  rw [cut, col]
  exact tbl_of_col m c (5 : Fin 20) 1 _ (col1_apply m c) 125000 (by decide) _

/-- Table 2 holds vertex word 2 of this region's generators. -/
theorem entry_tbl5_2 (c : Dev nD) : (V11 m outs c main_v36 : S25000.Idx → BitVec 32) = tbl m c (5 : Fin 20) 2 := by
  have cut : (V11 m outs c main_v36 : S25000.Idx → BitVec 32)
      = extractStridedSlice S25000 ![125000] (V10 m outs c main_v5 : S500000.Idx → BitVec 32) slices_S500000_S25000_125000 := by
    show StableHlo.after hostOps5 _ (Proc.devRef .tc main_v36) = _
    after_results
  have col : V10 m outs c main_v5 = V1 m c main_v5 := by
    unwritten m outs c main_v5
  rw [cut, col]
  exact tbl_of_col m c (5 : Fin 20) 2 _ (col2_apply m c) 125000 (by decide) _

/-- Table 3 holds vertex word 3 of this region's generators. -/
theorem entry_tbl5_3 (c : Dev nD) : (V11 m outs c main_v37 : S25000.Idx → BitVec 32) = tbl m c (5 : Fin 20) 3 := by
  have cut : (V11 m outs c main_v37 : S25000.Idx → BitVec 32)
      = extractStridedSlice S25000 ![125000] (V10 m outs c main_v7 : S500000.Idx → BitVec 32) slices_S500000_S25000_125000 := by
    show StableHlo.after hostOps5 _ (Proc.devRef .tc main_v37) = _
    after_results
  have col : V10 m outs c main_v7 = V1 m c main_v7 := by
    unwritten m outs c main_v7
  rw [cut, col]
  exact tbl_of_col m c (5 : Fin 20) 3 _ (col3_apply m c) 125000 (by decide) _

end Cert.Kernel.Gen

end
-- ==== Proof.KW.Entry6.lean ====
/-
  What region 6 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab6 (c : Dev nD) : V13 m outs c main_v8 = V1 m c main_v8 := by
  unwritten m outs c main_v8

/-- The output array still holds what it held after the first host stretch. -/
theorem entry_out6 (c : Dev nD) : V13 m outs c main_v43 = V1 m c main_v43 := by
  unwritten m outs c main_v43

/-- Table 0 holds vertex word 0 of this region's generators. -/
theorem entry_tbl6_0 (c : Dev nD) : (V13 m outs c main_v39 : S25000.Idx → BitVec 32) = tbl m c (6 : Fin 20) 0 := by
  have cut : (V13 m outs c main_v39 : S25000.Idx → BitVec 32)
      = extractStridedSlice S25000 ![150000] (V12 m outs c main_v1 : S500000.Idx → BitVec 32) slices_S500000_S25000_150000 := by
    show StableHlo.after hostOps6 _ (Proc.devRef .tc main_v39) = _
    after_results
  have col : V12 m outs c main_v1 = V1 m c main_v1 := by
    unwritten m outs c main_v1
  rw [cut, col]
  exact tbl_of_col m c (6 : Fin 20) 0 _ (col0_apply m c) 150000 (by decide) _

/-- Table 1 holds vertex word 1 of this region's generators. -/
theorem entry_tbl6_1 (c : Dev nD) : (V13 m outs c main_v40 : S25000.Idx → BitVec 32) = tbl m c (6 : Fin 20) 1 := by
  have cut : (V13 m outs c main_v40 : S25000.Idx → BitVec 32)
      = extractStridedSlice S25000 ![150000] (V12 m outs c main_v3 : S500000.Idx → BitVec 32) slices_S500000_S25000_150000 := by
    show StableHlo.after hostOps6 _ (Proc.devRef .tc main_v40) = _
    after_results
  have col : V12 m outs c main_v3 = V1 m c main_v3 := by
    unwritten m outs c main_v3
  rw [cut, col]
  exact tbl_of_col m c (6 : Fin 20) 1 _ (col1_apply m c) 150000 (by decide) _

/-- Table 2 holds vertex word 2 of this region's generators. -/
theorem entry_tbl6_2 (c : Dev nD) : (V13 m outs c main_v41 : S25000.Idx → BitVec 32) = tbl m c (6 : Fin 20) 2 := by
  have cut : (V13 m outs c main_v41 : S25000.Idx → BitVec 32)
      = extractStridedSlice S25000 ![150000] (V12 m outs c main_v5 : S500000.Idx → BitVec 32) slices_S500000_S25000_150000 := by
    show StableHlo.after hostOps6 _ (Proc.devRef .tc main_v41) = _
    after_results
  have col : V12 m outs c main_v5 = V1 m c main_v5 := by
    unwritten m outs c main_v5
  rw [cut, col]
  exact tbl_of_col m c (6 : Fin 20) 2 _ (col2_apply m c) 150000 (by decide) _

/-- Table 3 holds vertex word 3 of this region's generators. -/
theorem entry_tbl6_3 (c : Dev nD) : (V13 m outs c main_v42 : S25000.Idx → BitVec 32) = tbl m c (6 : Fin 20) 3 := by
  have cut : (V13 m outs c main_v42 : S25000.Idx → BitVec 32)
      = extractStridedSlice S25000 ![150000] (V12 m outs c main_v7 : S500000.Idx → BitVec 32) slices_S500000_S25000_150000 := by
    show StableHlo.after hostOps6 _ (Proc.devRef .tc main_v42) = _
    after_results
  have col : V12 m outs c main_v7 = V1 m c main_v7 := by
    unwritten m outs c main_v7
  rw [cut, col]
  exact tbl_of_col m c (6 : Fin 20) 3 _ (col3_apply m c) 150000 (by decide) _

end Cert.Kernel.Gen

end
-- ==== Proof.KW.Entry7.lean ====
/-
  What region 7 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab7 (c : Dev nD) : V15 m outs c main_v8 = V1 m c main_v8 := by
  unwritten m outs c main_v8

/-- The output array still holds what it held after the first host stretch. -/
theorem entry_out7 (c : Dev nD) : V15 m outs c main_v48 = V1 m c main_v48 := by
  unwritten m outs c main_v48

/-- Table 0 holds vertex word 0 of this region's generators. -/
theorem entry_tbl7_0 (c : Dev nD) : (V15 m outs c main_v44 : S25000.Idx → BitVec 32) = tbl m c (7 : Fin 20) 0 := by
  have cut : (V15 m outs c main_v44 : S25000.Idx → BitVec 32)
      = extractStridedSlice S25000 ![175000] (V14 m outs c main_v1 : S500000.Idx → BitVec 32) slices_S500000_S25000_175000 := by
    show StableHlo.after hostOps7 _ (Proc.devRef .tc main_v44) = _
    after_results
  have col : V14 m outs c main_v1 = V1 m c main_v1 := by
    unwritten m outs c main_v1
  rw [cut, col]
  exact tbl_of_col m c (7 : Fin 20) 0 _ (col0_apply m c) 175000 (by decide) _

/-- Table 1 holds vertex word 1 of this region's generators. -/
theorem entry_tbl7_1 (c : Dev nD) : (V15 m outs c main_v45 : S25000.Idx → BitVec 32) = tbl m c (7 : Fin 20) 1 := by
  have cut : (V15 m outs c main_v45 : S25000.Idx → BitVec 32)
      = extractStridedSlice S25000 ![175000] (V14 m outs c main_v3 : S500000.Idx → BitVec 32) slices_S500000_S25000_175000 := by
    show StableHlo.after hostOps7 _ (Proc.devRef .tc main_v45) = _
    after_results
  have col : V14 m outs c main_v3 = V1 m c main_v3 := by
    unwritten m outs c main_v3
  rw [cut, col]
  exact tbl_of_col m c (7 : Fin 20) 1 _ (col1_apply m c) 175000 (by decide) _

/-- Table 2 holds vertex word 2 of this region's generators. -/
theorem entry_tbl7_2 (c : Dev nD) : (V15 m outs c main_v46 : S25000.Idx → BitVec 32) = tbl m c (7 : Fin 20) 2 := by
  have cut : (V15 m outs c main_v46 : S25000.Idx → BitVec 32)
      = extractStridedSlice S25000 ![175000] (V14 m outs c main_v5 : S500000.Idx → BitVec 32) slices_S500000_S25000_175000 := by
    show StableHlo.after hostOps7 _ (Proc.devRef .tc main_v46) = _
    after_results
  have col : V14 m outs c main_v5 = V1 m c main_v5 := by
    unwritten m outs c main_v5
  rw [cut, col]
  exact tbl_of_col m c (7 : Fin 20) 2 _ (col2_apply m c) 175000 (by decide) _

/-- Table 3 holds vertex word 3 of this region's generators. -/
theorem entry_tbl7_3 (c : Dev nD) : (V15 m outs c main_v47 : S25000.Idx → BitVec 32) = tbl m c (7 : Fin 20) 3 := by
  have cut : (V15 m outs c main_v47 : S25000.Idx → BitVec 32)
      = extractStridedSlice S25000 ![175000] (V14 m outs c main_v7 : S500000.Idx → BitVec 32) slices_S500000_S25000_175000 := by
    show StableHlo.after hostOps7 _ (Proc.devRef .tc main_v47) = _
    after_results
  have col : V14 m outs c main_v7 = V1 m c main_v7 := by
    unwritten m outs c main_v7
  rw [cut, col]
  exact tbl_of_col m c (7 : Fin 20) 3 _ (col3_apply m c) 175000 (by decide) _

end Cert.Kernel.Gen

end
-- ==== Proof.KW.Entry8.lean ====
/-
  What region 8 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab8 (c : Dev nD) : V17 m outs c main_v8 = V1 m c main_v8 := by
  unwritten m outs c main_v8

/-- The output array still holds what it held after the first host stretch. -/
theorem entry_out8 (c : Dev nD) : V17 m outs c main_v53 = V1 m c main_v53 := by
  unwritten m outs c main_v53

/-- Table 0 holds vertex word 0 of this region's generators. -/
theorem entry_tbl8_0 (c : Dev nD) : (V17 m outs c main_v49 : S25000.Idx → BitVec 32) = tbl m c (8 : Fin 20) 0 := by
  have cut : (V17 m outs c main_v49 : S25000.Idx → BitVec 32)
      = extractStridedSlice S25000 ![200000] (V16 m outs c main_v1 : S500000.Idx → BitVec 32) slices_S500000_S25000_200000 := by
    show StableHlo.after hostOps8 _ (Proc.devRef .tc main_v49) = _
    after_results
  have col : V16 m outs c main_v1 = V1 m c main_v1 := by
    unwritten m outs c main_v1
  rw [cut, col]
  exact tbl_of_col m c (8 : Fin 20) 0 _ (col0_apply m c) 200000 (by decide) _

/-- Table 1 holds vertex word 1 of this region's generators. -/
theorem entry_tbl8_1 (c : Dev nD) : (V17 m outs c main_v50 : S25000.Idx → BitVec 32) = tbl m c (8 : Fin 20) 1 := by
  have cut : (V17 m outs c main_v50 : S25000.Idx → BitVec 32)
      = extractStridedSlice S25000 ![200000] (V16 m outs c main_v3 : S500000.Idx → BitVec 32) slices_S500000_S25000_200000 := by
    show StableHlo.after hostOps8 _ (Proc.devRef .tc main_v50) = _
    after_results
  have col : V16 m outs c main_v3 = V1 m c main_v3 := by
    unwritten m outs c main_v3
  rw [cut, col]
  exact tbl_of_col m c (8 : Fin 20) 1 _ (col1_apply m c) 200000 (by decide) _

/-- Table 2 holds vertex word 2 of this region's generators. -/
theorem entry_tbl8_2 (c : Dev nD) : (V17 m outs c main_v51 : S25000.Idx → BitVec 32) = tbl m c (8 : Fin 20) 2 := by
  have cut : (V17 m outs c main_v51 : S25000.Idx → BitVec 32)
      = extractStridedSlice S25000 ![200000] (V16 m outs c main_v5 : S500000.Idx → BitVec 32) slices_S500000_S25000_200000 := by
    show StableHlo.after hostOps8 _ (Proc.devRef .tc main_v51) = _
    after_results
  have col : V16 m outs c main_v5 = V1 m c main_v5 := by
    unwritten m outs c main_v5
  rw [cut, col]
  exact tbl_of_col m c (8 : Fin 20) 2 _ (col2_apply m c) 200000 (by decide) _

/-- Table 3 holds vertex word 3 of this region's generators. -/
theorem entry_tbl8_3 (c : Dev nD) : (V17 m outs c main_v52 : S25000.Idx → BitVec 32) = tbl m c (8 : Fin 20) 3 := by
  have cut : (V17 m outs c main_v52 : S25000.Idx → BitVec 32)
      = extractStridedSlice S25000 ![200000] (V16 m outs c main_v7 : S500000.Idx → BitVec 32) slices_S500000_S25000_200000 := by
    show StableHlo.after hostOps8 _ (Proc.devRef .tc main_v52) = _
    after_results
  have col : V16 m outs c main_v7 = V1 m c main_v7 := by
    unwritten m outs c main_v7
  rw [cut, col]
  exact tbl_of_col m c (8 : Fin 20) 3 _ (col3_apply m c) 200000 (by decide) _

end Cert.Kernel.Gen

end
-- ==== Proof.KW.Entry9.lean ====
/-
  What region 9 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab9 (c : Dev nD) : V19 m outs c main_v8 = V1 m c main_v8 := by
  unwritten m outs c main_v8

/-- The output array still holds what it held after the first host stretch. -/
theorem entry_out9 (c : Dev nD) : V19 m outs c main_v58 = V1 m c main_v58 := by
  unwritten m outs c main_v58

/-- Table 0 holds vertex word 0 of this region's generators. -/
theorem entry_tbl9_0 (c : Dev nD) : (V19 m outs c main_v54 : S25000.Idx → BitVec 32) = tbl m c (9 : Fin 20) 0 := by
  have cut : (V19 m outs c main_v54 : S25000.Idx → BitVec 32)
      = extractStridedSlice S25000 ![225000] (V18 m outs c main_v1 : S500000.Idx → BitVec 32) slices_S500000_S25000_225000 := by
    show StableHlo.after hostOps9 _ (Proc.devRef .tc main_v54) = _
    after_results
  have col : V18 m outs c main_v1 = V1 m c main_v1 := by
    unwritten m outs c main_v1
  rw [cut, col]
  exact tbl_of_col m c (9 : Fin 20) 0 _ (col0_apply m c) 225000 (by decide) _

/-- Table 1 holds vertex word 1 of this region's generators. -/
theorem entry_tbl9_1 (c : Dev nD) : (V19 m outs c main_v55 : S25000.Idx → BitVec 32) = tbl m c (9 : Fin 20) 1 := by
  have cut : (V19 m outs c main_v55 : S25000.Idx → BitVec 32)
      = extractStridedSlice S25000 ![225000] (V18 m outs c main_v3 : S500000.Idx → BitVec 32) slices_S500000_S25000_225000 := by
    show StableHlo.after hostOps9 _ (Proc.devRef .tc main_v55) = _
    after_results
  have col : V18 m outs c main_v3 = V1 m c main_v3 := by
    unwritten m outs c main_v3
  rw [cut, col]
  exact tbl_of_col m c (9 : Fin 20) 1 _ (col1_apply m c) 225000 (by decide) _

/-- Table 2 holds vertex word 2 of this region's generators. -/
theorem entry_tbl9_2 (c : Dev nD) : (V19 m outs c main_v56 : S25000.Idx → BitVec 32) = tbl m c (9 : Fin 20) 2 := by
  have cut : (V19 m outs c main_v56 : S25000.Idx → BitVec 32)
      = extractStridedSlice S25000 ![225000] (V18 m outs c main_v5 : S500000.Idx → BitVec 32) slices_S500000_S25000_225000 := by
    show StableHlo.after hostOps9 _ (Proc.devRef .tc main_v56) = _
    after_results
  have col : V18 m outs c main_v5 = V1 m c main_v5 := by
    unwritten m outs c main_v5
  rw [cut, col]
  exact tbl_of_col m c (9 : Fin 20) 2 _ (col2_apply m c) 225000 (by decide) _

/-- Table 3 holds vertex word 3 of this region's generators. -/
theorem entry_tbl9_3 (c : Dev nD) : (V19 m outs c main_v57 : S25000.Idx → BitVec 32) = tbl m c (9 : Fin 20) 3 := by
  have cut : (V19 m outs c main_v57 : S25000.Idx → BitVec 32)
      = extractStridedSlice S25000 ![225000] (V18 m outs c main_v7 : S500000.Idx → BitVec 32) slices_S500000_S25000_225000 := by
    show StableHlo.after hostOps9 _ (Proc.devRef .tc main_v57) = _
    after_results
  have col : V18 m outs c main_v7 = V1 m c main_v7 := by
    unwritten m outs c main_v7
  rw [cut, col]
  exact tbl_of_col m c (9 : Fin 20) 3 _ (col3_apply m c) 225000 (by decide) _

end Cert.Kernel.Gen

end
-- ==== Proof.KW.Entry10.lean ====
/-
  What region 10 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab10 (c : Dev nD) : V21 m outs c main_v8 = V1 m c main_v8 := by
  unwritten m outs c main_v8

/-- The output array still holds what it held after the first host stretch. -/
theorem entry_out10 (c : Dev nD) : V21 m outs c main_v63 = V1 m c main_v63 := by
  unwritten m outs c main_v63

/-- Table 0 holds vertex word 0 of this region's generators. -/
theorem entry_tbl10_0 (c : Dev nD) : (V21 m outs c main_v59 : S25000.Idx → BitVec 32) = tbl m c (10 : Fin 20) 0 := by
  have cut : (V21 m outs c main_v59 : S25000.Idx → BitVec 32)
      = extractStridedSlice S25000 ![250000] (V20 m outs c main_v1 : S500000.Idx → BitVec 32) slices_S500000_S25000_250000 := by
    show StableHlo.after hostOps10 _ (Proc.devRef .tc main_v59) = _
    after_results
  have col : V20 m outs c main_v1 = V1 m c main_v1 := by
    unwritten m outs c main_v1
  rw [cut, col]
  exact tbl_of_col m c (10 : Fin 20) 0 _ (col0_apply m c) 250000 (by decide) _

/-- Table 1 holds vertex word 1 of this region's generators. -/
theorem entry_tbl10_1 (c : Dev nD) : (V21 m outs c main_v60 : S25000.Idx → BitVec 32) = tbl m c (10 : Fin 20) 1 := by
  have cut : (V21 m outs c main_v60 : S25000.Idx → BitVec 32)
      = extractStridedSlice S25000 ![250000] (V20 m outs c main_v3 : S500000.Idx → BitVec 32) slices_S500000_S25000_250000 := by
    show StableHlo.after hostOps10 _ (Proc.devRef .tc main_v60) = _
    after_results
  have col : V20 m outs c main_v3 = V1 m c main_v3 := by
    unwritten m outs c main_v3
  rw [cut, col]
  exact tbl_of_col m c (10 : Fin 20) 1 _ (col1_apply m c) 250000 (by decide) _

/-- Table 2 holds vertex word 2 of this region's generators. -/
theorem entry_tbl10_2 (c : Dev nD) : (V21 m outs c main_v61 : S25000.Idx → BitVec 32) = tbl m c (10 : Fin 20) 2 := by
  have cut : (V21 m outs c main_v61 : S25000.Idx → BitVec 32)
      = extractStridedSlice S25000 ![250000] (V20 m outs c main_v5 : S500000.Idx → BitVec 32) slices_S500000_S25000_250000 := by
    show StableHlo.after hostOps10 _ (Proc.devRef .tc main_v61) = _
    after_results
  have col : V20 m outs c main_v5 = V1 m c main_v5 := by
    unwritten m outs c main_v5
  rw [cut, col]
  exact tbl_of_col m c (10 : Fin 20) 2 _ (col2_apply m c) 250000 (by decide) _

/-- Table 3 holds vertex word 3 of this region's generators. -/
theorem entry_tbl10_3 (c : Dev nD) : (V21 m outs c main_v62 : S25000.Idx → BitVec 32) = tbl m c (10 : Fin 20) 3 := by
  have cut : (V21 m outs c main_v62 : S25000.Idx → BitVec 32)
      = extractStridedSlice S25000 ![250000] (V20 m outs c main_v7 : S500000.Idx → BitVec 32) slices_S500000_S25000_250000 := by
    show StableHlo.after hostOps10 _ (Proc.devRef .tc main_v62) = _
    after_results
  have col : V20 m outs c main_v7 = V1 m c main_v7 := by
    unwritten m outs c main_v7
  rw [cut, col]
  exact tbl_of_col m c (10 : Fin 20) 3 _ (col3_apply m c) 250000 (by decide) _

end Cert.Kernel.Gen

end
-- ==== Proof.KW.Entry11.lean ====
/-
  What region 11 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab11 (c : Dev nD) : V23 m outs c main_v8 = V1 m c main_v8 := by
  unwritten m outs c main_v8

/-- The output array still holds what it held after the first host stretch. -/
theorem entry_out11 (c : Dev nD) : V23 m outs c main_v68 = V1 m c main_v68 := by
  unwritten m outs c main_v68

/-- Table 0 holds vertex word 0 of this region's generators. -/
theorem entry_tbl11_0 (c : Dev nD) : (V23 m outs c main_v64 : S25000.Idx → BitVec 32) = tbl m c (11 : Fin 20) 0 := by
  have cut : (V23 m outs c main_v64 : S25000.Idx → BitVec 32)
      = extractStridedSlice S25000 ![275000] (V22 m outs c main_v1 : S500000.Idx → BitVec 32) slices_S500000_S25000_275000 := by
    show StableHlo.after hostOps11 _ (Proc.devRef .tc main_v64) = _
    after_results
  have col : V22 m outs c main_v1 = V1 m c main_v1 := by
    unwritten m outs c main_v1
  rw [cut, col]
  exact tbl_of_col m c (11 : Fin 20) 0 _ (col0_apply m c) 275000 (by decide) _

/-- Table 1 holds vertex word 1 of this region's generators. -/
theorem entry_tbl11_1 (c : Dev nD) : (V23 m outs c main_v65 : S25000.Idx → BitVec 32) = tbl m c (11 : Fin 20) 1 := by
  have cut : (V23 m outs c main_v65 : S25000.Idx → BitVec 32)
      = extractStridedSlice S25000 ![275000] (V22 m outs c main_v3 : S500000.Idx → BitVec 32) slices_S500000_S25000_275000 := by
    show StableHlo.after hostOps11 _ (Proc.devRef .tc main_v65) = _
    after_results
  have col : V22 m outs c main_v3 = V1 m c main_v3 := by
    unwritten m outs c main_v3
  rw [cut, col]
  exact tbl_of_col m c (11 : Fin 20) 1 _ (col1_apply m c) 275000 (by decide) _

/-- Table 2 holds vertex word 2 of this region's generators. -/
theorem entry_tbl11_2 (c : Dev nD) : (V23 m outs c main_v66 : S25000.Idx → BitVec 32) = tbl m c (11 : Fin 20) 2 := by
  have cut : (V23 m outs c main_v66 : S25000.Idx → BitVec 32)
      = extractStridedSlice S25000 ![275000] (V22 m outs c main_v5 : S500000.Idx → BitVec 32) slices_S500000_S25000_275000 := by
    show StableHlo.after hostOps11 _ (Proc.devRef .tc main_v66) = _
    after_results
  have col : V22 m outs c main_v5 = V1 m c main_v5 := by
    unwritten m outs c main_v5
  rw [cut, col]
  exact tbl_of_col m c (11 : Fin 20) 2 _ (col2_apply m c) 275000 (by decide) _

/-- Table 3 holds vertex word 3 of this region's generators. -/
theorem entry_tbl11_3 (c : Dev nD) : (V23 m outs c main_v67 : S25000.Idx → BitVec 32) = tbl m c (11 : Fin 20) 3 := by
  have cut : (V23 m outs c main_v67 : S25000.Idx → BitVec 32)
      = extractStridedSlice S25000 ![275000] (V22 m outs c main_v7 : S500000.Idx → BitVec 32) slices_S500000_S25000_275000 := by
    show StableHlo.after hostOps11 _ (Proc.devRef .tc main_v67) = _
    after_results
  have col : V22 m outs c main_v7 = V1 m c main_v7 := by
    unwritten m outs c main_v7
  rw [cut, col]
  exact tbl_of_col m c (11 : Fin 20) 3 _ (col3_apply m c) 275000 (by decide) _

end Cert.Kernel.Gen

end
-- ==== Proof.KW.Entry12.lean ====
/-
  What region 12 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab12 (c : Dev nD) : V25 m outs c main_v8 = V1 m c main_v8 := by
  unwritten m outs c main_v8

/-- The output array still holds what it held after the first host stretch. -/
theorem entry_out12 (c : Dev nD) : V25 m outs c main_v73 = V1 m c main_v73 := by
  unwritten m outs c main_v73

/-- Table 0 holds vertex word 0 of this region's generators. -/
theorem entry_tbl12_0 (c : Dev nD) : (V25 m outs c main_v69 : S25000.Idx → BitVec 32) = tbl m c (12 : Fin 20) 0 := by
  have cut : (V25 m outs c main_v69 : S25000.Idx → BitVec 32)
      = extractStridedSlice S25000 ![300000] (V24 m outs c main_v1 : S500000.Idx → BitVec 32) slices_S500000_S25000_300000 := by
    show StableHlo.after hostOps12 _ (Proc.devRef .tc main_v69) = _
    after_results
  have col : V24 m outs c main_v1 = V1 m c main_v1 := by
    unwritten m outs c main_v1
  rw [cut, col]
  exact tbl_of_col m c (12 : Fin 20) 0 _ (col0_apply m c) 300000 (by decide) _

/-- Table 1 holds vertex word 1 of this region's generators. -/
theorem entry_tbl12_1 (c : Dev nD) : (V25 m outs c main_v70 : S25000.Idx → BitVec 32) = tbl m c (12 : Fin 20) 1 := by
  have cut : (V25 m outs c main_v70 : S25000.Idx → BitVec 32)
      = extractStridedSlice S25000 ![300000] (V24 m outs c main_v3 : S500000.Idx → BitVec 32) slices_S500000_S25000_300000 := by
    show StableHlo.after hostOps12 _ (Proc.devRef .tc main_v70) = _
    after_results
  have col : V24 m outs c main_v3 = V1 m c main_v3 := by
    unwritten m outs c main_v3
  rw [cut, col]
  exact tbl_of_col m c (12 : Fin 20) 1 _ (col1_apply m c) 300000 (by decide) _

/-- Table 2 holds vertex word 2 of this region's generators. -/
theorem entry_tbl12_2 (c : Dev nD) : (V25 m outs c main_v71 : S25000.Idx → BitVec 32) = tbl m c (12 : Fin 20) 2 := by
  have cut : (V25 m outs c main_v71 : S25000.Idx → BitVec 32)
      = extractStridedSlice S25000 ![300000] (V24 m outs c main_v5 : S500000.Idx → BitVec 32) slices_S500000_S25000_300000 := by
    show StableHlo.after hostOps12 _ (Proc.devRef .tc main_v71) = _
    after_results
  have col : V24 m outs c main_v5 = V1 m c main_v5 := by
    unwritten m outs c main_v5
  rw [cut, col]
  exact tbl_of_col m c (12 : Fin 20) 2 _ (col2_apply m c) 300000 (by decide) _

/-- Table 3 holds vertex word 3 of this region's generators. -/
theorem entry_tbl12_3 (c : Dev nD) : (V25 m outs c main_v72 : S25000.Idx → BitVec 32) = tbl m c (12 : Fin 20) 3 := by
  have cut : (V25 m outs c main_v72 : S25000.Idx → BitVec 32)
      = extractStridedSlice S25000 ![300000] (V24 m outs c main_v7 : S500000.Idx → BitVec 32) slices_S500000_S25000_300000 := by
    show StableHlo.after hostOps12 _ (Proc.devRef .tc main_v72) = _
    after_results
  have col : V24 m outs c main_v7 = V1 m c main_v7 := by
    unwritten m outs c main_v7
  rw [cut, col]
  exact tbl_of_col m c (12 : Fin 20) 3 _ (col3_apply m c) 300000 (by decide) _

end Cert.Kernel.Gen

end
-- ==== Proof.KW.Entry13.lean ====
/-
  What region 13 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab13 (c : Dev nD) : V27 m outs c main_v8 = V1 m c main_v8 := by
  unwritten m outs c main_v8

/-- The output array still holds what it held after the first host stretch. -/
theorem entry_out13 (c : Dev nD) : V27 m outs c main_v78 = V1 m c main_v78 := by
  unwritten m outs c main_v78

/-- Table 0 holds vertex word 0 of this region's generators. -/
theorem entry_tbl13_0 (c : Dev nD) : (V27 m outs c main_v74 : S25000.Idx → BitVec 32) = tbl m c (13 : Fin 20) 0 := by
  have cut : (V27 m outs c main_v74 : S25000.Idx → BitVec 32)
      = extractStridedSlice S25000 ![325000] (V26 m outs c main_v1 : S500000.Idx → BitVec 32) slices_S500000_S25000_325000 := by
    show StableHlo.after hostOps13 _ (Proc.devRef .tc main_v74) = _
    after_results
  have col : V26 m outs c main_v1 = V1 m c main_v1 := by
    unwritten m outs c main_v1
  rw [cut, col]
  exact tbl_of_col m c (13 : Fin 20) 0 _ (col0_apply m c) 325000 (by decide) _

/-- Table 1 holds vertex word 1 of this region's generators. -/
theorem entry_tbl13_1 (c : Dev nD) : (V27 m outs c main_v75 : S25000.Idx → BitVec 32) = tbl m c (13 : Fin 20) 1 := by
  have cut : (V27 m outs c main_v75 : S25000.Idx → BitVec 32)
      = extractStridedSlice S25000 ![325000] (V26 m outs c main_v3 : S500000.Idx → BitVec 32) slices_S500000_S25000_325000 := by
    show StableHlo.after hostOps13 _ (Proc.devRef .tc main_v75) = _
    after_results
  have col : V26 m outs c main_v3 = V1 m c main_v3 := by
    unwritten m outs c main_v3
  rw [cut, col]
  exact tbl_of_col m c (13 : Fin 20) 1 _ (col1_apply m c) 325000 (by decide) _

/-- Table 2 holds vertex word 2 of this region's generators. -/
theorem entry_tbl13_2 (c : Dev nD) : (V27 m outs c main_v76 : S25000.Idx → BitVec 32) = tbl m c (13 : Fin 20) 2 := by
  have cut : (V27 m outs c main_v76 : S25000.Idx → BitVec 32)
      = extractStridedSlice S25000 ![325000] (V26 m outs c main_v5 : S500000.Idx → BitVec 32) slices_S500000_S25000_325000 := by
    show StableHlo.after hostOps13 _ (Proc.devRef .tc main_v76) = _
    after_results
  have col : V26 m outs c main_v5 = V1 m c main_v5 := by
    unwritten m outs c main_v5
  rw [cut, col]
  exact tbl_of_col m c (13 : Fin 20) 2 _ (col2_apply m c) 325000 (by decide) _

/-- Table 3 holds vertex word 3 of this region's generators. -/
theorem entry_tbl13_3 (c : Dev nD) : (V27 m outs c main_v77 : S25000.Idx → BitVec 32) = tbl m c (13 : Fin 20) 3 := by
  have cut : (V27 m outs c main_v77 : S25000.Idx → BitVec 32)
      = extractStridedSlice S25000 ![325000] (V26 m outs c main_v7 : S500000.Idx → BitVec 32) slices_S500000_S25000_325000 := by
    show StableHlo.after hostOps13 _ (Proc.devRef .tc main_v77) = _
    after_results
  have col : V26 m outs c main_v7 = V1 m c main_v7 := by
    unwritten m outs c main_v7
  rw [cut, col]
  exact tbl_of_col m c (13 : Fin 20) 3 _ (col3_apply m c) 325000 (by decide) _

end Cert.Kernel.Gen

end
-- ==== Proof.KW.Entry14.lean ====
/-
  What region 14 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab14 (c : Dev nD) : V29 m outs c main_v8 = V1 m c main_v8 := by
  unwritten m outs c main_v8

/-- The output array still holds what it held after the first host stretch. -/
theorem entry_out14 (c : Dev nD) : V29 m outs c main_v83 = V1 m c main_v83 := by
  unwritten m outs c main_v83

/-- Table 0 holds vertex word 0 of this region's generators. -/
theorem entry_tbl14_0 (c : Dev nD) : (V29 m outs c main_v79 : S25000.Idx → BitVec 32) = tbl m c (14 : Fin 20) 0 := by
  have cut : (V29 m outs c main_v79 : S25000.Idx → BitVec 32)
      = extractStridedSlice S25000 ![350000] (V28 m outs c main_v1 : S500000.Idx → BitVec 32) slices_S500000_S25000_350000 := by
    show StableHlo.after hostOps14 _ (Proc.devRef .tc main_v79) = _
    after_results
  have col : V28 m outs c main_v1 = V1 m c main_v1 := by
    unwritten m outs c main_v1
  rw [cut, col]
  exact tbl_of_col m c (14 : Fin 20) 0 _ (col0_apply m c) 350000 (by decide) _

/-- Table 1 holds vertex word 1 of this region's generators. -/
theorem entry_tbl14_1 (c : Dev nD) : (V29 m outs c main_v80 : S25000.Idx → BitVec 32) = tbl m c (14 : Fin 20) 1 := by
  have cut : (V29 m outs c main_v80 : S25000.Idx → BitVec 32)
      = extractStridedSlice S25000 ![350000] (V28 m outs c main_v3 : S500000.Idx → BitVec 32) slices_S500000_S25000_350000 := by
    show StableHlo.after hostOps14 _ (Proc.devRef .tc main_v80) = _
    after_results
  have col : V28 m outs c main_v3 = V1 m c main_v3 := by
    unwritten m outs c main_v3
  rw [cut, col]
  exact tbl_of_col m c (14 : Fin 20) 1 _ (col1_apply m c) 350000 (by decide) _

/-- Table 2 holds vertex word 2 of this region's generators. -/
theorem entry_tbl14_2 (c : Dev nD) : (V29 m outs c main_v81 : S25000.Idx → BitVec 32) = tbl m c (14 : Fin 20) 2 := by
  have cut : (V29 m outs c main_v81 : S25000.Idx → BitVec 32)
      = extractStridedSlice S25000 ![350000] (V28 m outs c main_v5 : S500000.Idx → BitVec 32) slices_S500000_S25000_350000 := by
    show StableHlo.after hostOps14 _ (Proc.devRef .tc main_v81) = _
    after_results
  have col : V28 m outs c main_v5 = V1 m c main_v5 := by
    unwritten m outs c main_v5
  rw [cut, col]
  exact tbl_of_col m c (14 : Fin 20) 2 _ (col2_apply m c) 350000 (by decide) _

/-- Table 3 holds vertex word 3 of this region's generators. -/
theorem entry_tbl14_3 (c : Dev nD) : (V29 m outs c main_v82 : S25000.Idx → BitVec 32) = tbl m c (14 : Fin 20) 3 := by
  have cut : (V29 m outs c main_v82 : S25000.Idx → BitVec 32)
      = extractStridedSlice S25000 ![350000] (V28 m outs c main_v7 : S500000.Idx → BitVec 32) slices_S500000_S25000_350000 := by
    show StableHlo.after hostOps14 _ (Proc.devRef .tc main_v82) = _
    after_results
  have col : V28 m outs c main_v7 = V1 m c main_v7 := by
    unwritten m outs c main_v7
  rw [cut, col]
  exact tbl_of_col m c (14 : Fin 20) 3 _ (col3_apply m c) 350000 (by decide) _

end Cert.Kernel.Gen

end
-- ==== Proof.KW.Entry15.lean ====
/-
  What region 15 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab15 (c : Dev nD) : V31 m outs c main_v8 = V1 m c main_v8 := by
  unwritten m outs c main_v8

/-- The output array still holds what it held after the first host stretch. -/
theorem entry_out15 (c : Dev nD) : V31 m outs c main_v88 = V1 m c main_v88 := by
  unwritten m outs c main_v88

/-- Table 0 holds vertex word 0 of this region's generators. -/
theorem entry_tbl15_0 (c : Dev nD) : (V31 m outs c main_v84 : S25000.Idx → BitVec 32) = tbl m c (15 : Fin 20) 0 := by
  have cut : (V31 m outs c main_v84 : S25000.Idx → BitVec 32)
      = extractStridedSlice S25000 ![375000] (V30 m outs c main_v1 : S500000.Idx → BitVec 32) slices_S500000_S25000_375000 := by
    show StableHlo.after hostOps15 _ (Proc.devRef .tc main_v84) = _
    after_results
  have col : V30 m outs c main_v1 = V1 m c main_v1 := by
    unwritten m outs c main_v1
  rw [cut, col]
  exact tbl_of_col m c (15 : Fin 20) 0 _ (col0_apply m c) 375000 (by decide) _

/-- Table 1 holds vertex word 1 of this region's generators. -/
theorem entry_tbl15_1 (c : Dev nD) : (V31 m outs c main_v85 : S25000.Idx → BitVec 32) = tbl m c (15 : Fin 20) 1 := by
  have cut : (V31 m outs c main_v85 : S25000.Idx → BitVec 32)
      = extractStridedSlice S25000 ![375000] (V30 m outs c main_v3 : S500000.Idx → BitVec 32) slices_S500000_S25000_375000 := by
    show StableHlo.after hostOps15 _ (Proc.devRef .tc main_v85) = _
    after_results
  have col : V30 m outs c main_v3 = V1 m c main_v3 := by
    unwritten m outs c main_v3
  rw [cut, col]
  exact tbl_of_col m c (15 : Fin 20) 1 _ (col1_apply m c) 375000 (by decide) _

/-- Table 2 holds vertex word 2 of this region's generators. -/
theorem entry_tbl15_2 (c : Dev nD) : (V31 m outs c main_v86 : S25000.Idx → BitVec 32) = tbl m c (15 : Fin 20) 2 := by
  have cut : (V31 m outs c main_v86 : S25000.Idx → BitVec 32)
      = extractStridedSlice S25000 ![375000] (V30 m outs c main_v5 : S500000.Idx → BitVec 32) slices_S500000_S25000_375000 := by
    show StableHlo.after hostOps15 _ (Proc.devRef .tc main_v86) = _
    after_results
  have col : V30 m outs c main_v5 = V1 m c main_v5 := by
    unwritten m outs c main_v5
  rw [cut, col]
  exact tbl_of_col m c (15 : Fin 20) 2 _ (col2_apply m c) 375000 (by decide) _

/-- Table 3 holds vertex word 3 of this region's generators. -/
theorem entry_tbl15_3 (c : Dev nD) : (V31 m outs c main_v87 : S25000.Idx → BitVec 32) = tbl m c (15 : Fin 20) 3 := by
  have cut : (V31 m outs c main_v87 : S25000.Idx → BitVec 32)
      = extractStridedSlice S25000 ![375000] (V30 m outs c main_v7 : S500000.Idx → BitVec 32) slices_S500000_S25000_375000 := by
    show StableHlo.after hostOps15 _ (Proc.devRef .tc main_v87) = _
    after_results
  have col : V30 m outs c main_v7 = V1 m c main_v7 := by
    unwritten m outs c main_v7
  rw [cut, col]
  exact tbl_of_col m c (15 : Fin 20) 3 _ (col3_apply m c) 375000 (by decide) _

end Cert.Kernel.Gen

end
-- ==== Proof.KW.Entry16.lean ====
/-
  What region 16 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab16 (c : Dev nD) : V33 m outs c main_v8 = V1 m c main_v8 := by
  unwritten m outs c main_v8

/-- The output array still holds what it held after the first host stretch. -/
theorem entry_out16 (c : Dev nD) : V33 m outs c main_v93 = V1 m c main_v93 := by
  unwritten m outs c main_v93

/-- Table 0 holds vertex word 0 of this region's generators. -/
theorem entry_tbl16_0 (c : Dev nD) : (V33 m outs c main_v89 : S25000.Idx → BitVec 32) = tbl m c (16 : Fin 20) 0 := by
  have cut : (V33 m outs c main_v89 : S25000.Idx → BitVec 32)
      = extractStridedSlice S25000 ![400000] (V32 m outs c main_v1 : S500000.Idx → BitVec 32) slices_S500000_S25000_400000 := by
    show StableHlo.after hostOps16 _ (Proc.devRef .tc main_v89) = _
    after_results
  have col : V32 m outs c main_v1 = V1 m c main_v1 := by
    unwritten m outs c main_v1
  rw [cut, col]
  exact tbl_of_col m c (16 : Fin 20) 0 _ (col0_apply m c) 400000 (by decide) _

/-- Table 1 holds vertex word 1 of this region's generators. -/
theorem entry_tbl16_1 (c : Dev nD) : (V33 m outs c main_v90 : S25000.Idx → BitVec 32) = tbl m c (16 : Fin 20) 1 := by
  have cut : (V33 m outs c main_v90 : S25000.Idx → BitVec 32)
      = extractStridedSlice S25000 ![400000] (V32 m outs c main_v3 : S500000.Idx → BitVec 32) slices_S500000_S25000_400000 := by
    show StableHlo.after hostOps16 _ (Proc.devRef .tc main_v90) = _
    after_results
  have col : V32 m outs c main_v3 = V1 m c main_v3 := by
    unwritten m outs c main_v3
  rw [cut, col]
  exact tbl_of_col m c (16 : Fin 20) 1 _ (col1_apply m c) 400000 (by decide) _

/-- Table 2 holds vertex word 2 of this region's generators. -/
theorem entry_tbl16_2 (c : Dev nD) : (V33 m outs c main_v91 : S25000.Idx → BitVec 32) = tbl m c (16 : Fin 20) 2 := by
  have cut : (V33 m outs c main_v91 : S25000.Idx → BitVec 32)
      = extractStridedSlice S25000 ![400000] (V32 m outs c main_v5 : S500000.Idx → BitVec 32) slices_S500000_S25000_400000 := by
    show StableHlo.after hostOps16 _ (Proc.devRef .tc main_v91) = _
    after_results
  have col : V32 m outs c main_v5 = V1 m c main_v5 := by
    unwritten m outs c main_v5
  rw [cut, col]
  exact tbl_of_col m c (16 : Fin 20) 2 _ (col2_apply m c) 400000 (by decide) _

/-- Table 3 holds vertex word 3 of this region's generators. -/
theorem entry_tbl16_3 (c : Dev nD) : (V33 m outs c main_v92 : S25000.Idx → BitVec 32) = tbl m c (16 : Fin 20) 3 := by
  have cut : (V33 m outs c main_v92 : S25000.Idx → BitVec 32)
      = extractStridedSlice S25000 ![400000] (V32 m outs c main_v7 : S500000.Idx → BitVec 32) slices_S500000_S25000_400000 := by
    show StableHlo.after hostOps16 _ (Proc.devRef .tc main_v92) = _
    after_results
  have col : V32 m outs c main_v7 = V1 m c main_v7 := by
    unwritten m outs c main_v7
  rw [cut, col]
  exact tbl_of_col m c (16 : Fin 20) 3 _ (col3_apply m c) 400000 (by decide) _

end Cert.Kernel.Gen

end
-- ==== Proof.KW.Entry17.lean ====
/-
  What region 17 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab17 (c : Dev nD) : V35 m outs c main_v8 = V1 m c main_v8 := by
  unwritten m outs c main_v8

/-- The output array still holds what it held after the first host stretch. -/
theorem entry_out17 (c : Dev nD) : V35 m outs c main_v98 = V1 m c main_v98 := by
  unwritten m outs c main_v98

/-- Table 0 holds vertex word 0 of this region's generators. -/
theorem entry_tbl17_0 (c : Dev nD) : (V35 m outs c main_v94 : S25000.Idx → BitVec 32) = tbl m c (17 : Fin 20) 0 := by
  have cut : (V35 m outs c main_v94 : S25000.Idx → BitVec 32)
      = extractStridedSlice S25000 ![425000] (V34 m outs c main_v1 : S500000.Idx → BitVec 32) slices_S500000_S25000_425000 := by
    show StableHlo.after hostOps17 _ (Proc.devRef .tc main_v94) = _
    after_results
  have col : V34 m outs c main_v1 = V1 m c main_v1 := by
    unwritten m outs c main_v1
  rw [cut, col]
  exact tbl_of_col m c (17 : Fin 20) 0 _ (col0_apply m c) 425000 (by decide) _

/-- Table 1 holds vertex word 1 of this region's generators. -/
theorem entry_tbl17_1 (c : Dev nD) : (V35 m outs c main_v95 : S25000.Idx → BitVec 32) = tbl m c (17 : Fin 20) 1 := by
  have cut : (V35 m outs c main_v95 : S25000.Idx → BitVec 32)
      = extractStridedSlice S25000 ![425000] (V34 m outs c main_v3 : S500000.Idx → BitVec 32) slices_S500000_S25000_425000 := by
    show StableHlo.after hostOps17 _ (Proc.devRef .tc main_v95) = _
    after_results
  have col : V34 m outs c main_v3 = V1 m c main_v3 := by
    unwritten m outs c main_v3
  rw [cut, col]
  exact tbl_of_col m c (17 : Fin 20) 1 _ (col1_apply m c) 425000 (by decide) _

/-- Table 2 holds vertex word 2 of this region's generators. -/
theorem entry_tbl17_2 (c : Dev nD) : (V35 m outs c main_v96 : S25000.Idx → BitVec 32) = tbl m c (17 : Fin 20) 2 := by
  have cut : (V35 m outs c main_v96 : S25000.Idx → BitVec 32)
      = extractStridedSlice S25000 ![425000] (V34 m outs c main_v5 : S500000.Idx → BitVec 32) slices_S500000_S25000_425000 := by
    show StableHlo.after hostOps17 _ (Proc.devRef .tc main_v96) = _
    after_results
  have col : V34 m outs c main_v5 = V1 m c main_v5 := by
    unwritten m outs c main_v5
  rw [cut, col]
  exact tbl_of_col m c (17 : Fin 20) 2 _ (col2_apply m c) 425000 (by decide) _

/-- Table 3 holds vertex word 3 of this region's generators. -/
theorem entry_tbl17_3 (c : Dev nD) : (V35 m outs c main_v97 : S25000.Idx → BitVec 32) = tbl m c (17 : Fin 20) 3 := by
  have cut : (V35 m outs c main_v97 : S25000.Idx → BitVec 32)
      = extractStridedSlice S25000 ![425000] (V34 m outs c main_v7 : S500000.Idx → BitVec 32) slices_S500000_S25000_425000 := by
    show StableHlo.after hostOps17 _ (Proc.devRef .tc main_v97) = _
    after_results
  have col : V34 m outs c main_v7 = V1 m c main_v7 := by
    unwritten m outs c main_v7
  rw [cut, col]
  exact tbl_of_col m c (17 : Fin 20) 3 _ (col3_apply m c) 425000 (by decide) _

end Cert.Kernel.Gen

end
-- ==== Proof.KW.Entry18.lean ====
/-
  What region 18 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab18 (c : Dev nD) : V37 m outs c main_v8 = V1 m c main_v8 := by
  unwritten m outs c main_v8

/-- The output array still holds what it held after the first host stretch. -/
theorem entry_out18 (c : Dev nD) : V37 m outs c main_v103 = V1 m c main_v103 := by
  unwritten m outs c main_v103

/-- Table 0 holds vertex word 0 of this region's generators. -/
theorem entry_tbl18_0 (c : Dev nD) : (V37 m outs c main_v99 : S25000.Idx → BitVec 32) = tbl m c (18 : Fin 20) 0 := by
  have cut : (V37 m outs c main_v99 : S25000.Idx → BitVec 32)
      = extractStridedSlice S25000 ![450000] (V36 m outs c main_v1 : S500000.Idx → BitVec 32) slices_S500000_S25000_450000 := by
    show StableHlo.after hostOps18 _ (Proc.devRef .tc main_v99) = _
    after_results
  have col : V36 m outs c main_v1 = V1 m c main_v1 := by
    unwritten m outs c main_v1
  rw [cut, col]
  exact tbl_of_col m c (18 : Fin 20) 0 _ (col0_apply m c) 450000 (by decide) _

/-- Table 1 holds vertex word 1 of this region's generators. -/
theorem entry_tbl18_1 (c : Dev nD) : (V37 m outs c main_v100 : S25000.Idx → BitVec 32) = tbl m c (18 : Fin 20) 1 := by
  have cut : (V37 m outs c main_v100 : S25000.Idx → BitVec 32)
      = extractStridedSlice S25000 ![450000] (V36 m outs c main_v3 : S500000.Idx → BitVec 32) slices_S500000_S25000_450000 := by
    show StableHlo.after hostOps18 _ (Proc.devRef .tc main_v100) = _
    after_results
  have col : V36 m outs c main_v3 = V1 m c main_v3 := by
    unwritten m outs c main_v3
  rw [cut, col]
  exact tbl_of_col m c (18 : Fin 20) 1 _ (col1_apply m c) 450000 (by decide) _

/-- Table 2 holds vertex word 2 of this region's generators. -/
theorem entry_tbl18_2 (c : Dev nD) : (V37 m outs c main_v101 : S25000.Idx → BitVec 32) = tbl m c (18 : Fin 20) 2 := by
  have cut : (V37 m outs c main_v101 : S25000.Idx → BitVec 32)
      = extractStridedSlice S25000 ![450000] (V36 m outs c main_v5 : S500000.Idx → BitVec 32) slices_S500000_S25000_450000 := by
    show StableHlo.after hostOps18 _ (Proc.devRef .tc main_v101) = _
    after_results
  have col : V36 m outs c main_v5 = V1 m c main_v5 := by
    unwritten m outs c main_v5
  rw [cut, col]
  exact tbl_of_col m c (18 : Fin 20) 2 _ (col2_apply m c) 450000 (by decide) _

/-- Table 3 holds vertex word 3 of this region's generators. -/
theorem entry_tbl18_3 (c : Dev nD) : (V37 m outs c main_v102 : S25000.Idx → BitVec 32) = tbl m c (18 : Fin 20) 3 := by
  have cut : (V37 m outs c main_v102 : S25000.Idx → BitVec 32)
      = extractStridedSlice S25000 ![450000] (V36 m outs c main_v7 : S500000.Idx → BitVec 32) slices_S500000_S25000_450000 := by
    show StableHlo.after hostOps18 _ (Proc.devRef .tc main_v102) = _
    after_results
  have col : V36 m outs c main_v7 = V1 m c main_v7 := by
    unwritten m outs c main_v7
  rw [cut, col]
  exact tbl_of_col m c (18 : Fin 20) 3 _ (col3_apply m c) 450000 (by decide) _

end Cert.Kernel.Gen

end
-- ==== Proof.KW.Entry19.lean ====
/-
  What region 19 finds when it is entered. Every item between the first host stretch and this region is an earlier
  region, which writes its own output array, or a host stretch, which cuts the next region's four index tables. None of
  them writes the reshaped point table or this region's output array: both hold what the first host stretch left. The
  host stretch just before this region cuts its four tables out of the four columns of the vertex words, a run of
  consecutive entries that starts at the region's first generator: table j holds vertex word j of the region's generators.
-/
import proofs.«401090_j62775241999084_2_alg».proof.Proof.KW.Keep
import proofs.«401090_j62775241999084_2_alg».proof.Proof.KW.Cols

set_option maxRecDepth 16384

noncomputable section

namespace Cert.Kernel.Gen

open Idealize.ShloMosaic Idealize.ShloMosaic.TcCoe Idealize.SL.Sem
open Idealize.ShloMosaic.StableHlo (after_cons after_nil)

variable {F : FTy → Type} [FloatOps F]

variable (m : (ℓ : Loc nD τ sig) → Buf (Elt F) ℓ) (outs : Outs (F := F))

/-- The reshaped point table is what the first host stretch left. -/
theorem entry_xtab19 (c : Dev nD) : V39 m outs c main_v8 = V1 m c main_v8 := by
  unwritten m outs c main_v8

/-- The output array still holds what it held after the first host stretch. -/
theorem entry_out19 (c : Dev nD) : V39 m outs c main_v108 = V1 m c main_v108 := by
  unwritten m outs c main_v108

/-- Table 0 holds vertex word 0 of this region's generators. -/
theorem entry_tbl19_0 (c : Dev nD) : (V39 m outs c main_v104 : S25000.Idx → BitVec 32) = tbl m c (19 : Fin 20) 0 := by
  have cut : (V39 m outs c main_v104 : S25000.Idx → BitVec 32)
      = extractStridedSlice S25000 ![475000] (V38 m outs c main_v1 : S500000.Idx → BitVec 32) slices_S500000_S25000_475000 := by
    show StableHlo.after hostOps19 _ (Proc.devRef .tc main_v104) = _
    after_results
  have col : V38 m outs c main_v1 = V1 m c main_v1 := by
    unwritten m outs c main_v1
  rw [cut, col]
  exact tbl_of_col m c (19 : Fin 20) 0 _ (col0_apply m c) 475000 (by decide) _

/-- Table 1 holds vertex word 1 of this region's generators. -/
theorem entry_tbl19_1 (c : Dev nD) : (V39 m outs c main_v105 : S25000.Idx → BitVec 32) = tbl m c (19 : Fin 20) 1 := by
  have cut : (V39 m outs c main_v105 : S25000.Idx → BitVec 32)
      = extractStridedSlice S25000 ![475000] (V38 m outs c main_v3 : S500000.Idx → BitVec 32) slices_S500000_S25000_475000 := by
    show StableHlo.after hostOps19 _ (Proc.devRef .tc main_v105) = _
    after_results
  have col : V38 m outs c main_v3 = V1 m c main_v3 := by
    unwritten m outs c main_v3
  rw [cut, col]
  exact tbl_of_col m c (19 : Fin 20) 1 _ (col1_apply m c) 475000 (by decide) _

/-- Table 2 holds vertex word 2 of this region's generators. -/
theorem entry_tbl19_2 (c : Dev nD) : (V39 m outs c main_v106 : S25000.Idx → BitVec 32) = tbl m c (19 : Fin 20) 2 := by
  have cut : (V39 m outs c main_v106 : S25000.Idx → BitVec 32)
      = extractStridedSlice S25000 ![475000] (V38 m outs c main_v5 : S500000.Idx → BitVec 32) slices_S500000_S25000_475000 := by
    show StableHlo.after hostOps19 _ (Proc.devRef .tc main_v106) = _
    after_results
  have col : V38 m outs c main_v5 = V1 m c main_v5 := by
    unwritten m outs c main_v5
  rw [cut, col]
  exact tbl_of_col m c (19 : Fin 20) 2 _ (col2_apply m c) 475000 (by decide) _

/-- Table 3 holds vertex word 3 of this region's generators. -/
theorem entry_tbl19_3 (c : Dev nD) : (V39 m outs c main_v107 : S25000.Idx → BitVec 32) = tbl m c (19 : Fin 20) 3 := by
  have cut : (V39 m outs c main_v107 : S25000.Idx → BitVec 32)
      = extractStridedSlice S25000 ![475000] (V38 m outs c main_v7 : S500000.Idx → BitVec 32) slices_S500000_S25000_475000 := by
    show StableHlo.after hostOps19 _ (Proc.devRef .tc main_v107) = _
    after_results
  have col : V38 m outs c main_v7 = V1 m c main_v7 := by
    unwritten m outs c main_v7
  rw [cut, col]
  exact tbl_of_col m c (19 : Fin 20) 3 _ (col3_apply m c) 475000 (by decide) _

end Cert.Kernel.Gen

end
-- ==== Proof.KW.Entries.lean ====
/-
  Per region K: at ENTRY the point table is as the first host stretch left it, the region's output array holds what that
  stretch left there, and the four index tables hold the admissible contents; at EXIT the valuation is the entry one
  updated at the output array alone, so the point table and the tables are as at entry, the output array is what the
  region left, and every other buffer is untouched.
-/
import proofs.«401090_j62775241999084_2_alg».proof.Proof.KW.Families
import proofs.«401090_j62775241999084_2_alg».proof.Proof.KW.Entry0
import proofs.«401090_j62775241999084_2_alg».proof.Proof.KW.Entry1
import proofs.«401090_j62775241999084_2_alg».proof.Proof.KW.Entry2
import proofs.«401090_j62775241999084_2_alg».proof.Proof.KW.Entry3
import proofs.«401090_j62775241999084_2_alg».proof.Proof.KW.Entry4
import proofs.«401090_j62775241999084_2_alg».proof.Proof.KW.Entry5
import proofs.«401090_j62775241999084_2_alg».proof.Proof.KW.Entry6
import proofs.«401090_j62775241999084_2_alg».proof.Proof.KW.Entry7
import proofs.«401090_j62775241999084_2_alg».proof.Proof.KW.Entry8
import proofs.«401090_j62775241999084_2_alg».proof.Proof.KW.Entry9
import proofs.«401090_j62775241999084_2_alg».proof.Proof.KW.Entry10
import proofs.«401090_j62775241999084_2_alg».proof.Proof.KW.Entry11
import proofs.«401090_j62775241999084_2_alg».proof.Proof.KW.Entry12
import proofs.«401090_j62775241999084_2_alg».proof.Proof.KW.Entry13
import proofs.«401090_j62775241999084_2_alg».proof.Proof.KW.Entry14
import proofs.«401090_j62775241999084_2_alg».proof.Proof.KW.Entry15
import proofs.«401090_j62775241999084_2_alg».proof.Proof.KW.Entry16
import proofs.«401090_j62775241999084_2_alg».proof.Proof.KW.Entry17
import proofs.«401090_j62775241999084_2_alg».proof.Proof.KW.Entry18
import proofs.«401090_j62775241999084_2_alg».proof.Proof.KW.Entry19

set_option maxRecDepth 16384

noncomputable section

namespace Cert.Kernel.Gen

open Idealize.ShloMosaic Idealize.ShloMosaic.TcCoe Idealize.SL Idealize.SL.Sem

variable {F : FTy → Type} [FloatOps F]
variable (m : (ℓ : Loc nD τ sig) → Buf (Elt F) ℓ)
variable (hR : ∀ c : Dev nD, Cert.EdgeLengths.InRange (m ((c.tc : Thread nD τ).loc main_arg1)))

/-! ## Region 0 -/
theorem ent_xtab0 (c : Dev nD) : VE0 m hR c main_v8 = Vfirst m c main_v8 := rfl
theorem ent_out0 (c : Dev nD) : VE0 m hR c main_v13 = Vfirst m c main_v13 := rfl
theorem ent_pf0 (c : Dev nD) : ∀ k, VE0 m hR c (pre0.ref k) = (adm0 (F := F) m core0 (hR core0)).1 k := by
  obtain rfl := core_eq c
  intro k
  match k with
  | ⟨0, _⟩ => exact entry_tbl0_0 m core0
  | ⟨1, _⟩ => exact entry_tbl0_1 m core0
  | ⟨2, _⟩ => exact entry_tbl0_2 m core0
  | ⟨3, _⟩ => exact entry_tbl0_3 m core0
theorem ext_xtab0 (c : Dev nD) : VX0 m hR c main_v8 = VE0 m hR c main_v8 := V2_of m (outs m hR) c main_v8 (by decide)
theorem ext_out0 (c : Dev nD) : VX0 m hR c main_v13 = res0 m hR c := by
  show Function.update _ _ _ _ = _
  rw [Function.update_self]; exact outs_0 m hR c
theorem ext_pf0 (c : Dev nD) : ∀ k, VX0 m hR c (pre0.ref k) = (adm0 (F := F) m core0 (hR core0)).1 k := fun k =>
  (V2_of m (outs m hR) c (pre0.ref k) ((by decide : ∀ k : Fin 4, pre0.ref k ∉ ([main_v13] : List (Ref sig .tc))) k)).trans (ent_pf0 m hR c k)
theorem ext_rest0 (c : Dev nD) : ∀ b : Ref sig .tc, b ≠ main_v13 → VX0 m hR c b = VE0 m hR c b := fun b hb =>
  V2_of m (outs m hR) c b (fun h => hb (List.mem_singleton.mp h))

/-! ## Region 1 -/
theorem ent_xtab1 (c : Dev nD) : VE1 m hR c main_v8 = Vfirst m c main_v8 := entry_xtab1 m (outs m hR) c
theorem ent_out1 (c : Dev nD) : VE1 m hR c main_v18 = Vfirst m c main_v18 := entry_out1 m (outs m hR) c
theorem ent_pf1 (c : Dev nD) : ∀ k, VE1 m hR c (pre1.ref k) = (adm1 (F := F) m core0 (hR core0)).1 k := by
  obtain rfl := core_eq c
  intro k
  match k with
  | ⟨0, _⟩ => exact entry_tbl1_0 m (outs m hR) core0
  | ⟨1, _⟩ => exact entry_tbl1_1 m (outs m hR) core0
  | ⟨2, _⟩ => exact entry_tbl1_2 m (outs m hR) core0
  | ⟨3, _⟩ => exact entry_tbl1_3 m (outs m hR) core0
theorem ext_xtab1 (c : Dev nD) : VX1 m hR c main_v8 = VE1 m hR c main_v8 := V4_of m (outs m hR) c main_v8 (by decide)
theorem ext_out1 (c : Dev nD) : VX1 m hR c main_v18 = res1 m hR c := by
  show Function.update _ _ _ _ = _
  rw [Function.update_self]; exact outs_1 m hR c
theorem ext_pf1 (c : Dev nD) : ∀ k, VX1 m hR c (pre1.ref k) = (adm1 (F := F) m core0 (hR core0)).1 k := fun k =>
  (V4_of m (outs m hR) c (pre1.ref k) ((by decide : ∀ k : Fin 4, pre1.ref k ∉ ([main_v18] : List (Ref sig .tc))) k)).trans (ent_pf1 m hR c k)
theorem ext_rest1 (c : Dev nD) : ∀ b : Ref sig .tc, b ≠ main_v18 → VX1 m hR c b = VE1 m hR c b := fun b hb =>
  V4_of m (outs m hR) c b (fun h => hb (List.mem_singleton.mp h))

/-! ## Region 2 -/
theorem ent_xtab2 (c : Dev nD) : VE2 m hR c main_v8 = Vfirst m c main_v8 := entry_xtab2 m (outs m hR) c
theorem ent_out2 (c : Dev nD) : VE2 m hR c main_v23 = Vfirst m c main_v23 := entry_out2 m (outs m hR) c
theorem ent_pf2 (c : Dev nD) : ∀ k, VE2 m hR c (pre2.ref k) = (adm2 (F := F) m core0 (hR core0)).1 k := by
  obtain rfl := core_eq c
  intro k
  match k with
  | ⟨0, _⟩ => exact entry_tbl2_0 m (outs m hR) core0
  | ⟨1, _⟩ => exact entry_tbl2_1 m (outs m hR) core0
  | ⟨2, _⟩ => exact entry_tbl2_2 m (outs m hR) core0
  | ⟨3, _⟩ => exact entry_tbl2_3 m (outs m hR) core0
theorem ext_xtab2 (c : Dev nD) : VX2 m hR c main_v8 = VE2 m hR c main_v8 := V6_of m (outs m hR) c main_v8 (by decide)
theorem ext_out2 (c : Dev nD) : VX2 m hR c main_v23 = res2 m hR c := by
  show Function.update _ _ _ _ = _
  rw [Function.update_self]; exact outs_2 m hR c
theorem ext_pf2 (c : Dev nD) : ∀ k, VX2 m hR c (pre2.ref k) = (adm2 (F := F) m core0 (hR core0)).1 k := fun k =>
  (V6_of m (outs m hR) c (pre2.ref k) ((by decide : ∀ k : Fin 4, pre2.ref k ∉ ([main_v23] : List (Ref sig .tc))) k)).trans (ent_pf2 m hR c k)
theorem ext_rest2 (c : Dev nD) : ∀ b : Ref sig .tc, b ≠ main_v23 → VX2 m hR c b = VE2 m hR c b := fun b hb =>
  V6_of m (outs m hR) c b (fun h => hb (List.mem_singleton.mp h))

/-! ## Region 3 -/
theorem ent_xtab3 (c : Dev nD) : VE3 m hR c main_v8 = Vfirst m c main_v8 := entry_xtab3 m (outs m hR) c
theorem ent_out3 (c : Dev nD) : VE3 m hR c main_v28 = Vfirst m c main_v28 := entry_out3 m (outs m hR) c
theorem ent_pf3 (c : Dev nD) : ∀ k, VE3 m hR c (pre3.ref k) = (adm3 (F := F) m core0 (hR core0)).1 k := by
  obtain rfl := core_eq c
  intro k
  match k with
  | ⟨0, _⟩ => exact entry_tbl3_0 m (outs m hR) core0
  | ⟨1, _⟩ => exact entry_tbl3_1 m (outs m hR) core0
  | ⟨2, _⟩ => exact entry_tbl3_2 m (outs m hR) core0
  | ⟨3, _⟩ => exact entry_tbl3_3 m (outs m hR) core0
theorem ext_xtab3 (c : Dev nD) : VX3 m hR c main_v8 = VE3 m hR c main_v8 := V8_of m (outs m hR) c main_v8 (by decide)
theorem ext_out3 (c : Dev nD) : VX3 m hR c main_v28 = res3 m hR c := by
  show Function.update _ _ _ _ = _
  rw [Function.update_self]; exact outs_3 m hR c
theorem ext_pf3 (c : Dev nD) : ∀ k, VX3 m hR c (pre3.ref k) = (adm3 (F := F) m core0 (hR core0)).1 k := fun k =>
  (V8_of m (outs m hR) c (pre3.ref k) ((by decide : ∀ k : Fin 4, pre3.ref k ∉ ([main_v28] : List (Ref sig .tc))) k)).trans (ent_pf3 m hR c k)
theorem ext_rest3 (c : Dev nD) : ∀ b : Ref sig .tc, b ≠ main_v28 → VX3 m hR c b = VE3 m hR c b := fun b hb =>
  V8_of m (outs m hR) c b (fun h => hb (List.mem_singleton.mp h))

/-! ## Region 4 -/
theorem ent_xtab4 (c : Dev nD) : VE4 m hR c main_v8 = Vfirst m c main_v8 := entry_xtab4 m (outs m hR) c
theorem ent_out4 (c : Dev nD) : VE4 m hR c main_v33 = Vfirst m c main_v33 := entry_out4 m (outs m hR) c
theorem ent_pf4 (c : Dev nD) : ∀ k, VE4 m hR c (pre4.ref k) = (adm4 (F := F) m core0 (hR core0)).1 k := by
  obtain rfl := core_eq c
  intro k
  match k with
  | ⟨0, _⟩ => exact entry_tbl4_0 m (outs m hR) core0
  | ⟨1, _⟩ => exact entry_tbl4_1 m (outs m hR) core0
  | ⟨2, _⟩ => exact entry_tbl4_2 m (outs m hR) core0
  | ⟨3, _⟩ => exact entry_tbl4_3 m (outs m hR) core0
theorem ext_xtab4 (c : Dev nD) : VX4 m hR c main_v8 = VE4 m hR c main_v8 := V10_of m (outs m hR) c main_v8 (by decide)
theorem ext_out4 (c : Dev nD) : VX4 m hR c main_v33 = res4 m hR c := by
  show Function.update _ _ _ _ = _
  rw [Function.update_self]; exact outs_4 m hR c
theorem ext_pf4 (c : Dev nD) : ∀ k, VX4 m hR c (pre4.ref k) = (adm4 (F := F) m core0 (hR core0)).1 k := fun k =>
  (V10_of m (outs m hR) c (pre4.ref k) ((by decide : ∀ k : Fin 4, pre4.ref k ∉ ([main_v33] : List (Ref sig .tc))) k)).trans (ent_pf4 m hR c k)
theorem ext_rest4 (c : Dev nD) : ∀ b : Ref sig .tc, b ≠ main_v33 → VX4 m hR c b = VE4 m hR c b := fun b hb =>
  V10_of m (outs m hR) c b (fun h => hb (List.mem_singleton.mp h))

/-! ## Region 5 -/
theorem ent_xtab5 (c : Dev nD) : VE5 m hR c main_v8 = Vfirst m c main_v8 := entry_xtab5 m (outs m hR) c
theorem ent_out5 (c : Dev nD) : VE5 m hR c main_v38 = Vfirst m c main_v38 := entry_out5 m (outs m hR) c
theorem ent_pf5 (c : Dev nD) : ∀ k, VE5 m hR c (pre5.ref k) = (adm5 (F := F) m core0 (hR core0)).1 k := by
  obtain rfl := core_eq c
  intro k
  match k with
  | ⟨0, _⟩ => exact entry_tbl5_0 m (outs m hR) core0
  | ⟨1, _⟩ => exact entry_tbl5_1 m (outs m hR) core0
  | ⟨2, _⟩ => exact entry_tbl5_2 m (outs m hR) core0
  | ⟨3, _⟩ => exact entry_tbl5_3 m (outs m hR) core0
theorem ext_xtab5 (c : Dev nD) : VX5 m hR c main_v8 = VE5 m hR c main_v8 := V12_of m (outs m hR) c main_v8 (by decide)
theorem ext_out5 (c : Dev nD) : VX5 m hR c main_v38 = res5 m hR c := by
  show Function.update _ _ _ _ = _
  rw [Function.update_self]; exact outs_5 m hR c
theorem ext_pf5 (c : Dev nD) : ∀ k, VX5 m hR c (pre5.ref k) = (adm5 (F := F) m core0 (hR core0)).1 k := fun k =>
  (V12_of m (outs m hR) c (pre5.ref k) ((by decide : ∀ k : Fin 4, pre5.ref k ∉ ([main_v38] : List (Ref sig .tc))) k)).trans (ent_pf5 m hR c k)
theorem ext_rest5 (c : Dev nD) : ∀ b : Ref sig .tc, b ≠ main_v38 → VX5 m hR c b = VE5 m hR c b := fun b hb =>
  V12_of m (outs m hR) c b (fun h => hb (List.mem_singleton.mp h))

/-! ## Region 6 -/
theorem ent_xtab6 (c : Dev nD) : VE6 m hR c main_v8 = Vfirst m c main_v8 := entry_xtab6 m (outs m hR) c
theorem ent_out6 (c : Dev nD) : VE6 m hR c main_v43 = Vfirst m c main_v43 := entry_out6 m (outs m hR) c
theorem ent_pf6 (c : Dev nD) : ∀ k, VE6 m hR c (pre6.ref k) = (adm6 (F := F) m core0 (hR core0)).1 k := by
  obtain rfl := core_eq c
  intro k
  match k with
  | ⟨0, _⟩ => exact entry_tbl6_0 m (outs m hR) core0
  | ⟨1, _⟩ => exact entry_tbl6_1 m (outs m hR) core0
  | ⟨2, _⟩ => exact entry_tbl6_2 m (outs m hR) core0
  | ⟨3, _⟩ => exact entry_tbl6_3 m (outs m hR) core0
theorem ext_xtab6 (c : Dev nD) : VX6 m hR c main_v8 = VE6 m hR c main_v8 := V14_of m (outs m hR) c main_v8 (by decide)
theorem ext_out6 (c : Dev nD) : VX6 m hR c main_v43 = res6 m hR c := by
  show Function.update _ _ _ _ = _
  rw [Function.update_self]; exact outs_6 m hR c
theorem ext_pf6 (c : Dev nD) : ∀ k, VX6 m hR c (pre6.ref k) = (adm6 (F := F) m core0 (hR core0)).1 k := fun k =>
  (V14_of m (outs m hR) c (pre6.ref k) ((by decide : ∀ k : Fin 4, pre6.ref k ∉ ([main_v43] : List (Ref sig .tc))) k)).trans (ent_pf6 m hR c k)
theorem ext_rest6 (c : Dev nD) : ∀ b : Ref sig .tc, b ≠ main_v43 → VX6 m hR c b = VE6 m hR c b := fun b hb =>
  V14_of m (outs m hR) c b (fun h => hb (List.mem_singleton.mp h))

/-! ## Region 7 -/
theorem ent_xtab7 (c : Dev nD) : VE7 m hR c main_v8 = Vfirst m c main_v8 := entry_xtab7 m (outs m hR) c
theorem ent_out7 (c : Dev nD) : VE7 m hR c main_v48 = Vfirst m c main_v48 := entry_out7 m (outs m hR) c
theorem ent_pf7 (c : Dev nD) : ∀ k, VE7 m hR c (pre7.ref k) = (adm7 (F := F) m core0 (hR core0)).1 k := by
  obtain rfl := core_eq c
  intro k
  match k with
  | ⟨0, _⟩ => exact entry_tbl7_0 m (outs m hR) core0
  | ⟨1, _⟩ => exact entry_tbl7_1 m (outs m hR) core0
  | ⟨2, _⟩ => exact entry_tbl7_2 m (outs m hR) core0
  | ⟨3, _⟩ => exact entry_tbl7_3 m (outs m hR) core0
theorem ext_xtab7 (c : Dev nD) : VX7 m hR c main_v8 = VE7 m hR c main_v8 := V16_of m (outs m hR) c main_v8 (by decide)
theorem ext_out7 (c : Dev nD) : VX7 m hR c main_v48 = res7 m hR c := by
  show Function.update _ _ _ _ = _
  rw [Function.update_self]; exact outs_7 m hR c
theorem ext_pf7 (c : Dev nD) : ∀ k, VX7 m hR c (pre7.ref k) = (adm7 (F := F) m core0 (hR core0)).1 k := fun k =>
  (V16_of m (outs m hR) c (pre7.ref k) ((by decide : ∀ k : Fin 4, pre7.ref k ∉ ([main_v48] : List (Ref sig .tc))) k)).trans (ent_pf7 m hR c k)
theorem ext_rest7 (c : Dev nD) : ∀ b : Ref sig .tc, b ≠ main_v48 → VX7 m hR c b = VE7 m hR c b := fun b hb =>
  V16_of m (outs m hR) c b (fun h => hb (List.mem_singleton.mp h))

/-! ## Region 8 -/
theorem ent_xtab8 (c : Dev nD) : VE8 m hR c main_v8 = Vfirst m c main_v8 := entry_xtab8 m (outs m hR) c
theorem ent_out8 (c : Dev nD) : VE8 m hR c main_v53 = Vfirst m c main_v53 := entry_out8 m (outs m hR) c
theorem ent_pf8 (c : Dev nD) : ∀ k, VE8 m hR c (pre8.ref k) = (adm8 (F := F) m core0 (hR core0)).1 k := by
  obtain rfl := core_eq c
  intro k
  match k with
  | ⟨0, _⟩ => exact entry_tbl8_0 m (outs m hR) core0
  | ⟨1, _⟩ => exact entry_tbl8_1 m (outs m hR) core0
  | ⟨2, _⟩ => exact entry_tbl8_2 m (outs m hR) core0
  | ⟨3, _⟩ => exact entry_tbl8_3 m (outs m hR) core0
theorem ext_xtab8 (c : Dev nD) : VX8 m hR c main_v8 = VE8 m hR c main_v8 := V18_of m (outs m hR) c main_v8 (by decide)
theorem ext_out8 (c : Dev nD) : VX8 m hR c main_v53 = res8 m hR c := by
  show Function.update _ _ _ _ = _
  rw [Function.update_self]; exact outs_8 m hR c
theorem ext_pf8 (c : Dev nD) : ∀ k, VX8 m hR c (pre8.ref k) = (adm8 (F := F) m core0 (hR core0)).1 k := fun k =>
  (V18_of m (outs m hR) c (pre8.ref k) ((by decide : ∀ k : Fin 4, pre8.ref k ∉ ([main_v53] : List (Ref sig .tc))) k)).trans (ent_pf8 m hR c k)
theorem ext_rest8 (c : Dev nD) : ∀ b : Ref sig .tc, b ≠ main_v53 → VX8 m hR c b = VE8 m hR c b := fun b hb =>
  V18_of m (outs m hR) c b (fun h => hb (List.mem_singleton.mp h))

/-! ## Region 9 -/
theorem ent_xtab9 (c : Dev nD) : VE9 m hR c main_v8 = Vfirst m c main_v8 := entry_xtab9 m (outs m hR) c
theorem ent_out9 (c : Dev nD) : VE9 m hR c main_v58 = Vfirst m c main_v58 := entry_out9 m (outs m hR) c
theorem ent_pf9 (c : Dev nD) : ∀ k, VE9 m hR c (pre9.ref k) = (adm9 (F := F) m core0 (hR core0)).1 k := by
  obtain rfl := core_eq c
  intro k
  match k with
  | ⟨0, _⟩ => exact entry_tbl9_0 m (outs m hR) core0
  | ⟨1, _⟩ => exact entry_tbl9_1 m (outs m hR) core0
  | ⟨2, _⟩ => exact entry_tbl9_2 m (outs m hR) core0
  | ⟨3, _⟩ => exact entry_tbl9_3 m (outs m hR) core0
theorem ext_xtab9 (c : Dev nD) : VX9 m hR c main_v8 = VE9 m hR c main_v8 := V20_of m (outs m hR) c main_v8 (by decide)
theorem ext_out9 (c : Dev nD) : VX9 m hR c main_v58 = res9 m hR c := by
  show Function.update _ _ _ _ = _
  rw [Function.update_self]; exact outs_9 m hR c
theorem ext_pf9 (c : Dev nD) : ∀ k, VX9 m hR c (pre9.ref k) = (adm9 (F := F) m core0 (hR core0)).1 k := fun k =>
  (V20_of m (outs m hR) c (pre9.ref k) ((by decide : ∀ k : Fin 4, pre9.ref k ∉ ([main_v58] : List (Ref sig .tc))) k)).trans (ent_pf9 m hR c k)
theorem ext_rest9 (c : Dev nD) : ∀ b : Ref sig .tc, b ≠ main_v58 → VX9 m hR c b = VE9 m hR c b := fun b hb =>
  V20_of m (outs m hR) c b (fun h => hb (List.mem_singleton.mp h))

/-! ## Region 10 -/
theorem ent_xtab10 (c : Dev nD) : VE10 m hR c main_v8 = Vfirst m c main_v8 := entry_xtab10 m (outs m hR) c
theorem ent_out10 (c : Dev nD) : VE10 m hR c main_v63 = Vfirst m c main_v63 := entry_out10 m (outs m hR) c
theorem ent_pf10 (c : Dev nD) : ∀ k, VE10 m hR c (pre10.ref k) = (adm10 (F := F) m core0 (hR core0)).1 k := by
  obtain rfl := core_eq c
  intro k
  match k with
  | ⟨0, _⟩ => exact entry_tbl10_0 m (outs m hR) core0
  | ⟨1, _⟩ => exact entry_tbl10_1 m (outs m hR) core0
  | ⟨2, _⟩ => exact entry_tbl10_2 m (outs m hR) core0
  | ⟨3, _⟩ => exact entry_tbl10_3 m (outs m hR) core0
theorem ext_xtab10 (c : Dev nD) : VX10 m hR c main_v8 = VE10 m hR c main_v8 := V22_of m (outs m hR) c main_v8 (by decide)
theorem ext_out10 (c : Dev nD) : VX10 m hR c main_v63 = res10 m hR c := by
  show Function.update _ _ _ _ = _
  rw [Function.update_self]; exact outs_10 m hR c
theorem ext_pf10 (c : Dev nD) : ∀ k, VX10 m hR c (pre10.ref k) = (adm10 (F := F) m core0 (hR core0)).1 k := fun k =>
  (V22_of m (outs m hR) c (pre10.ref k) ((by decide : ∀ k : Fin 4, pre10.ref k ∉ ([main_v63] : List (Ref sig .tc))) k)).trans (ent_pf10 m hR c k)
theorem ext_rest10 (c : Dev nD) : ∀ b : Ref sig .tc, b ≠ main_v63 → VX10 m hR c b = VE10 m hR c b := fun b hb =>
  V22_of m (outs m hR) c b (fun h => hb (List.mem_singleton.mp h))

/-! ## Region 11 -/
theorem ent_xtab11 (c : Dev nD) : VE11 m hR c main_v8 = Vfirst m c main_v8 := entry_xtab11 m (outs m hR) c
theorem ent_out11 (c : Dev nD) : VE11 m hR c main_v68 = Vfirst m c main_v68 := entry_out11 m (outs m hR) c
theorem ent_pf11 (c : Dev nD) : ∀ k, VE11 m hR c (pre11.ref k) = (adm11 (F := F) m core0 (hR core0)).1 k := by
  obtain rfl := core_eq c
  intro k
  match k with
  | ⟨0, _⟩ => exact entry_tbl11_0 m (outs m hR) core0
  | ⟨1, _⟩ => exact entry_tbl11_1 m (outs m hR) core0
  | ⟨2, _⟩ => exact entry_tbl11_2 m (outs m hR) core0
  | ⟨3, _⟩ => exact entry_tbl11_3 m (outs m hR) core0
theorem ext_xtab11 (c : Dev nD) : VX11 m hR c main_v8 = VE11 m hR c main_v8 := V24_of m (outs m hR) c main_v8 (by decide)
theorem ext_out11 (c : Dev nD) : VX11 m hR c main_v68 = res11 m hR c := by
  show Function.update _ _ _ _ = _
  rw [Function.update_self]; exact outs_11 m hR c
theorem ext_pf11 (c : Dev nD) : ∀ k, VX11 m hR c (pre11.ref k) = (adm11 (F := F) m core0 (hR core0)).1 k := fun k =>
  (V24_of m (outs m hR) c (pre11.ref k) ((by decide : ∀ k : Fin 4, pre11.ref k ∉ ([main_v68] : List (Ref sig .tc))) k)).trans (ent_pf11 m hR c k)
theorem ext_rest11 (c : Dev nD) : ∀ b : Ref sig .tc, b ≠ main_v68 → VX11 m hR c b = VE11 m hR c b := fun b hb =>
  V24_of m (outs m hR) c b (fun h => hb (List.mem_singleton.mp h))

/-! ## Region 12 -/
theorem ent_xtab12 (c : Dev nD) : VE12 m hR c main_v8 = Vfirst m c main_v8 := entry_xtab12 m (outs m hR) c
theorem ent_out12 (c : Dev nD) : VE12 m hR c main_v73 = Vfirst m c main_v73 := entry_out12 m (outs m hR) c
theorem ent_pf12 (c : Dev nD) : ∀ k, VE12 m hR c (pre12.ref k) = (adm12 (F := F) m core0 (hR core0)).1 k := by
  obtain rfl := core_eq c
  intro k
  match k with
  | ⟨0, _⟩ => exact entry_tbl12_0 m (outs m hR) core0
  | ⟨1, _⟩ => exact entry_tbl12_1 m (outs m hR) core0
  | ⟨2, _⟩ => exact entry_tbl12_2 m (outs m hR) core0
  | ⟨3, _⟩ => exact entry_tbl12_3 m (outs m hR) core0
theorem ext_xtab12 (c : Dev nD) : VX12 m hR c main_v8 = VE12 m hR c main_v8 := V26_of m (outs m hR) c main_v8 (by decide)
theorem ext_out12 (c : Dev nD) : VX12 m hR c main_v73 = res12 m hR c := by
  show Function.update _ _ _ _ = _
  rw [Function.update_self]; exact outs_12 m hR c
theorem ext_pf12 (c : Dev nD) : ∀ k, VX12 m hR c (pre12.ref k) = (adm12 (F := F) m core0 (hR core0)).1 k := fun k =>
  (V26_of m (outs m hR) c (pre12.ref k) ((by decide : ∀ k : Fin 4, pre12.ref k ∉ ([main_v73] : List (Ref sig .tc))) k)).trans (ent_pf12 m hR c k)
theorem ext_rest12 (c : Dev nD) : ∀ b : Ref sig .tc, b ≠ main_v73 → VX12 m hR c b = VE12 m hR c b := fun b hb =>
  V26_of m (outs m hR) c b (fun h => hb (List.mem_singleton.mp h))

/-! ## Region 13 -/
theorem ent_xtab13 (c : Dev nD) : VE13 m hR c main_v8 = Vfirst m c main_v8 := entry_xtab13 m (outs m hR) c
theorem ent_out13 (c : Dev nD) : VE13 m hR c main_v78 = Vfirst m c main_v78 := entry_out13 m (outs m hR) c
theorem ent_pf13 (c : Dev nD) : ∀ k, VE13 m hR c (pre13.ref k) = (adm13 (F := F) m core0 (hR core0)).1 k := by
  obtain rfl := core_eq c
  intro k
  match k with
  | ⟨0, _⟩ => exact entry_tbl13_0 m (outs m hR) core0
  | ⟨1, _⟩ => exact entry_tbl13_1 m (outs m hR) core0
  | ⟨2, _⟩ => exact entry_tbl13_2 m (outs m hR) core0
  | ⟨3, _⟩ => exact entry_tbl13_3 m (outs m hR) core0
theorem ext_xtab13 (c : Dev nD) : VX13 m hR c main_v8 = VE13 m hR c main_v8 := V28_of m (outs m hR) c main_v8 (by decide)
theorem ext_out13 (c : Dev nD) : VX13 m hR c main_v78 = res13 m hR c := by
  show Function.update _ _ _ _ = _
  rw [Function.update_self]; exact outs_13 m hR c
theorem ext_pf13 (c : Dev nD) : ∀ k, VX13 m hR c (pre13.ref k) = (adm13 (F := F) m core0 (hR core0)).1 k := fun k =>
  (V28_of m (outs m hR) c (pre13.ref k) ((by decide : ∀ k : Fin 4, pre13.ref k ∉ ([main_v78] : List (Ref sig .tc))) k)).trans (ent_pf13 m hR c k)
theorem ext_rest13 (c : Dev nD) : ∀ b : Ref sig .tc, b ≠ main_v78 → VX13 m hR c b = VE13 m hR c b := fun b hb =>
  V28_of m (outs m hR) c b (fun h => hb (List.mem_singleton.mp h))

/-! ## Region 14 -/
theorem ent_xtab14 (c : Dev nD) : VE14 m hR c main_v8 = Vfirst m c main_v8 := entry_xtab14 m (outs m hR) c
theorem ent_out14 (c : Dev nD) : VE14 m hR c main_v83 = Vfirst m c main_v83 := entry_out14 m (outs m hR) c
theorem ent_pf14 (c : Dev nD) : ∀ k, VE14 m hR c (pre14.ref k) = (adm14 (F := F) m core0 (hR core0)).1 k := by
  obtain rfl := core_eq c
  intro k
  match k with
  | ⟨0, _⟩ => exact entry_tbl14_0 m (outs m hR) core0
  | ⟨1, _⟩ => exact entry_tbl14_1 m (outs m hR) core0
  | ⟨2, _⟩ => exact entry_tbl14_2 m (outs m hR) core0
  | ⟨3, _⟩ => exact entry_tbl14_3 m (outs m hR) core0
theorem ext_xtab14 (c : Dev nD) : VX14 m hR c main_v8 = VE14 m hR c main_v8 := V30_of m (outs m hR) c main_v8 (by decide)
theorem ext_out14 (c : Dev nD) : VX14 m hR c main_v83 = res14 m hR c := by
  show Function.update _ _ _ _ = _
  rw [Function.update_self]; exact outs_14 m hR c
theorem ext_pf14 (c : Dev nD) : ∀ k, VX14 m hR c (pre14.ref k) = (adm14 (F := F) m core0 (hR core0)).1 k := fun k =>
  (V30_of m (outs m hR) c (pre14.ref k) ((by decide : ∀ k : Fin 4, pre14.ref k ∉ ([main_v83] : List (Ref sig .tc))) k)).trans (ent_pf14 m hR c k)
theorem ext_rest14 (c : Dev nD) : ∀ b : Ref sig .tc, b ≠ main_v83 → VX14 m hR c b = VE14 m hR c b := fun b hb =>
  V30_of m (outs m hR) c b (fun h => hb (List.mem_singleton.mp h))

/-! ## Region 15 -/
theorem ent_xtab15 (c : Dev nD) : VE15 m hR c main_v8 = Vfirst m c main_v8 := entry_xtab15 m (outs m hR) c
theorem ent_out15 (c : Dev nD) : VE15 m hR c main_v88 = Vfirst m c main_v88 := entry_out15 m (outs m hR) c
theorem ent_pf15 (c : Dev nD) : ∀ k, VE15 m hR c (pre15.ref k) = (adm15 (F := F) m core0 (hR core0)).1 k := by
  obtain rfl := core_eq c
  intro k
  match k with
  | ⟨0, _⟩ => exact entry_tbl15_0 m (outs m hR) core0
  | ⟨1, _⟩ => exact entry_tbl15_1 m (outs m hR) core0
  | ⟨2, _⟩ => exact entry_tbl15_2 m (outs m hR) core0
  | ⟨3, _⟩ => exact entry_tbl15_3 m (outs m hR) core0
theorem ext_xtab15 (c : Dev nD) : VX15 m hR c main_v8 = VE15 m hR c main_v8 := V32_of m (outs m hR) c main_v8 (by decide)
theorem ext_out15 (c : Dev nD) : VX15 m hR c main_v88 = res15 m hR c := by
  show Function.update _ _ _ _ = _
  rw [Function.update_self]; exact outs_15 m hR c
theorem ext_pf15 (c : Dev nD) : ∀ k, VX15 m hR c (pre15.ref k) = (adm15 (F := F) m core0 (hR core0)).1 k := fun k =>
  (V32_of m (outs m hR) c (pre15.ref k) ((by decide : ∀ k : Fin 4, pre15.ref k ∉ ([main_v88] : List (Ref sig .tc))) k)).trans (ent_pf15 m hR c k)
theorem ext_rest15 (c : Dev nD) : ∀ b : Ref sig .tc, b ≠ main_v88 → VX15 m hR c b = VE15 m hR c b := fun b hb =>
  V32_of m (outs m hR) c b (fun h => hb (List.mem_singleton.mp h))

/-! ## Region 16 -/
theorem ent_xtab16 (c : Dev nD) : VE16 m hR c main_v8 = Vfirst m c main_v8 := entry_xtab16 m (outs m hR) c
theorem ent_out16 (c : Dev nD) : VE16 m hR c main_v93 = Vfirst m c main_v93 := entry_out16 m (outs m hR) c
theorem ent_pf16 (c : Dev nD) : ∀ k, VE16 m hR c (pre16.ref k) = (adm16 (F := F) m core0 (hR core0)).1 k := by
  obtain rfl := core_eq c
  intro k
  match k with
  | ⟨0, _⟩ => exact entry_tbl16_0 m (outs m hR) core0
  | ⟨1, _⟩ => exact entry_tbl16_1 m (outs m hR) core0
  | ⟨2, _⟩ => exact entry_tbl16_2 m (outs m hR) core0
  | ⟨3, _⟩ => exact entry_tbl16_3 m (outs m hR) core0
theorem ext_xtab16 (c : Dev nD) : VX16 m hR c main_v8 = VE16 m hR c main_v8 := V34_of m (outs m hR) c main_v8 (by decide)
theorem ext_out16 (c : Dev nD) : VX16 m hR c main_v93 = res16 m hR c := by
  show Function.update _ _ _ _ = _
  rw [Function.update_self]; exact outs_16 m hR c
theorem ext_pf16 (c : Dev nD) : ∀ k, VX16 m hR c (pre16.ref k) = (adm16 (F := F) m core0 (hR core0)).1 k := fun k =>
  (V34_of m (outs m hR) c (pre16.ref k) ((by decide : ∀ k : Fin 4, pre16.ref k ∉ ([main_v93] : List (Ref sig .tc))) k)).trans (ent_pf16 m hR c k)
theorem ext_rest16 (c : Dev nD) : ∀ b : Ref sig .tc, b ≠ main_v93 → VX16 m hR c b = VE16 m hR c b := fun b hb =>
  V34_of m (outs m hR) c b (fun h => hb (List.mem_singleton.mp h))

/-! ## Region 17 -/
theorem ent_xtab17 (c : Dev nD) : VE17 m hR c main_v8 = Vfirst m c main_v8 := entry_xtab17 m (outs m hR) c
theorem ent_out17 (c : Dev nD) : VE17 m hR c main_v98 = Vfirst m c main_v98 := entry_out17 m (outs m hR) c
theorem ent_pf17 (c : Dev nD) : ∀ k, VE17 m hR c (pre17.ref k) = (adm17 (F := F) m core0 (hR core0)).1 k := by
  obtain rfl := core_eq c
  intro k
  match k with
  | ⟨0, _⟩ => exact entry_tbl17_0 m (outs m hR) core0
  | ⟨1, _⟩ => exact entry_tbl17_1 m (outs m hR) core0
  | ⟨2, _⟩ => exact entry_tbl17_2 m (outs m hR) core0
  | ⟨3, _⟩ => exact entry_tbl17_3 m (outs m hR) core0
theorem ext_xtab17 (c : Dev nD) : VX17 m hR c main_v8 = VE17 m hR c main_v8 := V36_of m (outs m hR) c main_v8 (by decide)
theorem ext_out17 (c : Dev nD) : VX17 m hR c main_v98 = res17 m hR c := by
  show Function.update _ _ _ _ = _
  rw [Function.update_self]; exact outs_17 m hR c
theorem ext_pf17 (c : Dev nD) : ∀ k, VX17 m hR c (pre17.ref k) = (adm17 (F := F) m core0 (hR core0)).1 k := fun k =>
  (V36_of m (outs m hR) c (pre17.ref k) ((by decide : ∀ k : Fin 4, pre17.ref k ∉ ([main_v98] : List (Ref sig .tc))) k)).trans (ent_pf17 m hR c k)
theorem ext_rest17 (c : Dev nD) : ∀ b : Ref sig .tc, b ≠ main_v98 → VX17 m hR c b = VE17 m hR c b := fun b hb =>
  V36_of m (outs m hR) c b (fun h => hb (List.mem_singleton.mp h))

/-! ## Region 18 -/
theorem ent_xtab18 (c : Dev nD) : VE18 m hR c main_v8 = Vfirst m c main_v8 := entry_xtab18 m (outs m hR) c
theorem ent_out18 (c : Dev nD) : VE18 m hR c main_v103 = Vfirst m c main_v103 := entry_out18 m (outs m hR) c
theorem ent_pf18 (c : Dev nD) : ∀ k, VE18 m hR c (pre18.ref k) = (adm18 (F := F) m core0 (hR core0)).1 k := by
  obtain rfl := core_eq c
  intro k
  match k with
  | ⟨0, _⟩ => exact entry_tbl18_0 m (outs m hR) core0
  | ⟨1, _⟩ => exact entry_tbl18_1 m (outs m hR) core0
  | ⟨2, _⟩ => exact entry_tbl18_2 m (outs m hR) core0
  | ⟨3, _⟩ => exact entry_tbl18_3 m (outs m hR) core0
theorem ext_xtab18 (c : Dev nD) : VX18 m hR c main_v8 = VE18 m hR c main_v8 := V38_of m (outs m hR) c main_v8 (by decide)
theorem ext_out18 (c : Dev nD) : VX18 m hR c main_v103 = res18 m hR c := by
  show Function.update _ _ _ _ = _
  rw [Function.update_self]; exact outs_18 m hR c
theorem ext_pf18 (c : Dev nD) : ∀ k, VX18 m hR c (pre18.ref k) = (adm18 (F := F) m core0 (hR core0)).1 k := fun k =>
  (V38_of m (outs m hR) c (pre18.ref k) ((by decide : ∀ k : Fin 4, pre18.ref k ∉ ([main_v103] : List (Ref sig .tc))) k)).trans (ent_pf18 m hR c k)
theorem ext_rest18 (c : Dev nD) : ∀ b : Ref sig .tc, b ≠ main_v103 → VX18 m hR c b = VE18 m hR c b := fun b hb =>
  V38_of m (outs m hR) c b (fun h => hb (List.mem_singleton.mp h))

/-! ## Region 19 -/
theorem ent_xtab19 (c : Dev nD) : VE19 m hR c main_v8 = Vfirst m c main_v8 := entry_xtab19 m (outs m hR) c
theorem ent_out19 (c : Dev nD) : VE19 m hR c main_v108 = Vfirst m c main_v108 := entry_out19 m (outs m hR) c
theorem ent_pf19 (c : Dev nD) : ∀ k, VE19 m hR c (pre19.ref k) = (adm19 (F := F) m core0 (hR core0)).1 k := by
  obtain rfl := core_eq c
  intro k
  match k with
  | ⟨0, _⟩ => exact entry_tbl19_0 m (outs m hR) core0
  | ⟨1, _⟩ => exact entry_tbl19_1 m (outs m hR) core0
  | ⟨2, _⟩ => exact entry_tbl19_2 m (outs m hR) core0
  | ⟨3, _⟩ => exact entry_tbl19_3 m (outs m hR) core0
theorem ext_xtab19 (c : Dev nD) : VX19 m hR c main_v8 = VE19 m hR c main_v8 := V40_of m (outs m hR) c main_v8 (by decide)
theorem ext_out19 (c : Dev nD) : VX19 m hR c main_v108 = res19 m hR c := by
  show Function.update _ _ _ _ = _
  rw [Function.update_self]; exact outs_19 m hR c
theorem ext_pf19 (c : Dev nD) : ∀ k, VX19 m hR c (pre19.ref k) = (adm19 (F := F) m core0 (hR core0)).1 k := fun k =>
  (V40_of m (outs m hR) c (pre19.ref k) ((by decide : ∀ k : Fin 4, pre19.ref k ∉ ([main_v108] : List (Ref sig .tc))) k)).trans (ent_pf19 m hR c k)
theorem ext_rest19 (c : Dev nD) : ∀ b : Ref sig .tc, b ≠ main_v108 → VX19 m hR c b = VE19 m hR c b := fun b hb =>
  V40_of m (outs m hR) c b (fun h => hb (List.mem_singleton.mp h))

end Cert.Kernel.Gen

end
-- ==== Proof.KW.SegCommon.lean ====
/-
  What every region's entry and exit share: what rides beside the buffers from segment to segment, and two ways of
  writing a finite conjunction out.
-/
import proofs.«401090_j62775241999084_2_alg».proof.Proof.KW.BodyCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What rides beside the buffers through every segment: the generator register at some state, nothing owed. -/
abbrev Rside (c : Dev nD) : sProp 𝕄 :=
  iprop((∃ r, prngReg c r) ∗ ∃ W, owes (c : Thread nD τ) (0 : CellTallies nD τ sig Unit) W)

/-- Four-way conjunction over the four input windows. -/
theorem bigSep_F4 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-- A conjunction over two distinct buffers. -/
theorem bigSep_pair {M : Type} [URA M] (x y : Ref sig .tc) (h : x ∉ ({y} : Finset (Ref sig .tc))) (Φ : Ref sig .tc → sProp M) :
    bigSep ({x, y} : Finset (Ref sig .tc)) Φ = iprop(Φ x ∗ Φ y) := by
  rw [bigSep_insert h, bigSep_singleton]; rfl

end Cert.Kernel.Gen

end
-- ==== Proof.KW.Seg0.lean ====
/-
  Region 0 of the gather-and-norm program, second half: how the region is entered and left.

  Between two segments of the program a core holds every unscoped buffer whole. Region 0 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region0
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg0 (F := F)).Adm)

/-- What bypasses region 0: every unscoped buffer that is neither one of its two arrays nor one of its four tables,
    and the part of the point table's share the four input windows do not need. -/
def Zrest0 (c : Dev nD) : sProp 𝕄 :=
  iprop(Pipeline.unscopedRestP (Ix := Unit) (Name := ℕ) (U := UR sig nD τ) (Lvl := ℕ) pre0 spec0 c (fun b => Vact c b)
    ∗ (((c.tc : Thread nD τ).loc main_v8) ↦{Transfers.shareDrop fullShare 4} Vact c main_v8))

/-- Region 0's arrays, window by window: the point table four times, at the four quarter shares, and the output
    array whole. -/
theorem arrays_eq0 (c : Dev nD)
    (G : (w : Fin (cfg0 a).W) → Buf (Elt F) (((cfg0 a).win w).arr.view.loc (c.tc : Thread nD τ))) :
    (dat0 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v13) ↦{fullShare} G 4)) : sProp 𝕄) := by
  unfold Dat.arrays
  rw [show (bigSep Finset.univ fun w : Fin (cfg0 a).W =>
          ((((cfg0 a).win w).arr.view.loc (c.tc : Thread nD τ)) ↦[((cfg0 a).win w).arr.view.set]{(dat0 V a c).share w} G w : sProp 𝕄))
        = bigSep Finset.univ fun w : Fin (cfg0 a).W =>
          ((((c.tc : Thread nD τ).loc (Pipeline.arrRef spec0 w)) ↦{(dat0 V a c).share w} G w : sProp 𝕄))
      from bigSep_congr fun w _ => by rw [(arr_whole0 w).set_eq_univ]]
  rw [bigSep_W0]
  have hs0 : (dat0 V a c).share 0 = Transfers.shareTok fullShare 4 0 := rfl
  have hs1 : (dat0 V a c).share 1 = Transfers.shareTok fullShare 4 1 := rfl
  have hs2 : (dat0 V a c).share 2 = Transfers.shareTok fullShare 4 2 := rfl
  have hs3 : (dat0 V a c).share 3 = Transfers.shareTok fullShare 4 3 := rfl
  have hs4 : (dat0 V a c).share 4 = fullShare := rfl
  rw [hs0, hs1, hs2, hs3, hs4]

theorem hentry0 (c : Dev nD) (L : GSem nD τ sig → Finset Unit) (lv : GSem nD τ sig → Unit → ℕ)
    (h8 : Vact c main_v8 = V c main_v8) (h13 : Vact c main_v13 = V c main_v13)
    (hpf : ∀ k, Vact c (pre0.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat0 V a c).arrays ((dat0 V a c).arrAt · 0)
          ∗ Pipeline.prefHeld pre0 c (fun _ => fullShare) a.1
          ∗ (dat0 V a c).owesAt () 0 ∗ (∃ r, prngReg c r) ∗ Zrest0 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec0 c (fun b => Vact c b) ∗ Pipeline.unscopedRest spec0 c (fun b => Vact c b)) :=
    Pipeline.PerCore.unscopedBufs_split₀ (fun (_ : Dev nD) (_ : Fin 1) => cfg0 a) (0 : Fin 1) c winFacts₀0.arr_unscoped _
  rw [e2, Pipeline.unscopedRest_split preFacts0 c _]
  have hImg : (Finset.univ.image (Pipeline.arrRef spec0) : Finset (Ref sig .tc)) = {main_v8, main_v13} := by decide
  unfold Pipeline.arrBufs
  rw [hImg, bigSep_pair main_v8 main_v13 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq0]
  have hA0 : (dat0 V a c).arrAt 0 0 = Vact c main_v8 := h8.symm
  have hA1 : (dat0 V a c).arrAt 1 0 = Vact c main_v8 := h8.symm
  have hA2 : (dat0 V a c).arrAt 2 0 = Vact c main_v8 := h8.symm
  have hA3 : (dat0 V a c).arrAt 3 0 = Vact c main_v8 := h8.symm
  have hA4 : (dat0 V a c).arrAt 4 0 = Vact c main_v13 := h13.symm
  rw [hA0, hA1, hA2, hA3, hA4]
  have hP : (fun k => Vact c (pre0.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest0
  isplitl [Hrest]; · iexact Hrest
  iexact Hdrop

/-- The invariant at the first point: the scoped buffers no window stages, the generator register, the four tables. -/
theorem hin0 (c : Dev nD) :
    iprop((∃ r, prngReg c r) ∗ Pipeline.prefHeld pre0 c (fun _ => fullShare) a.1
        ∗ Pipeline.scopedRest (Ix := Unit) (Name := ℕ) (U := UR sig nD τ) (Lvl := ℕ) (Val := Elt F) spec0 c)
      ⊢ ((dat0 V a c).Φ 0 : sProp 𝕄) := by
  rw [show (dat0 V a c).Φ 0 = iprop(Pipeline.ΦA spec0 c ∗ Pipeline.prefHeld pre0 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep0 (c : Dev nD) : sProp 𝕄 :=
  iprop((∃ r, prngReg c r) ∗ Pipeline.prefHeld pre0 c (fun _ => fullShare) a.1)

theorem hout0 (c : Dev nD) :
    ((dat0 V a c).Φ (Fin.last (cfg0 a).N) : sProp 𝕄)
      ⊢ iprop(Ykeep0 a c ∗ Pipeline.ownSems0 (fun k : PEmpty => k.elim) c
          ∗ Pipeline.scopedRest (Ix := Unit) (Name := ℕ) (U := UR sig nD τ) (Lvl := ℕ) (Val := Elt F) spec0 c) := by
  rw [Pipeline.ownSems0_none,
    show (dat0 V a c).Φ (Fin.last (cfg0 a).N) = iprop(Pipeline.ΦA spec0 c ∗ Pipeline.prefHeld pre0 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit0 (c : Dev nD) (Vact' : Dev nD → Valuation τ sig (Elt F))
    (h8 : Vact c main_v8 = V c main_v8)
    (h8' : Vact' c main_v8 = Vact c main_v8) (h13' : Vact' c main_v13 = (dat0 V a c).arrAt 4 (cfg0 a).N)
    (hpf : ∀ k, Vact' c (pre0.ref k) = a.1 k)
    (hrest : ∀ b : Ref sig .tc, b ≠ main_v13 → Vact' c b = Vact c b) :
    iprop((dat0 V a c).arrays ((dat0 V a c).arrAt · (cfg0 a).N) ∗ (dat0 V a c).owesAt () (Fin.last (cfg0 a).N)
        ∗ Ykeep0 a c ∗ Zrest0 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec0 c (fun b => Vact' c b) ∗ Pipeline.unscopedRest spec0 c (fun b => Vact' c b)) :=
    Pipeline.PerCore.unscopedBufs_split₀ (fun (_ : Dev nD) (_ : Fin 1) => cfg0 a) (0 : Fin 1) c winFacts₀0.arr_unscoped _
  rw [e2, Pipeline.unscopedRest_split preFacts0 c _]
  have hImg : (Finset.univ.image (Pipeline.arrRef spec0) : Finset (Ref sig .tc)) = {main_v8, main_v13} := by decide
  unfold Pipeline.arrBufs
  rw [hImg, bigSep_pair main_v8 main_v13 (by decide)]
  have hRP : (Pipeline.unscopedRestP (Ix := Unit) (Name := ℕ) (U := UR sig nD τ) (Lvl := ℕ) pre0 spec0 c (fun b => Vact' c b) : sProp 𝕄)
      = Pipeline.unscopedRestP pre0 spec0 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre0.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq0]
  have hB0 : (dat0 V a c).arrAt 0 (cfg0 a).N = Vact c main_v8 := ((dat0 V a c).arrAt_in 0 rfl _).trans h8.symm
  have hB1 : (dat0 V a c).arrAt 1 (cfg0 a).N = Vact c main_v8 := ((dat0 V a c).arrAt_in 1 rfl _).trans h8.symm
  have hB2 : (dat0 V a c).arrAt 2 (cfg0 a).N = Vact c main_v8 := ((dat0 V a c).arrAt_in 2 rfl _).trans h8.symm
  have hB3 : (dat0 V a c).arrAt 3 (cfg0 a).N = Vact c main_v8 := ((dat0 V a c).arrAt_in 3 rfl _).trans h8.symm
  rw [hB0, hB1, hB2, hB3, hRP]
  unfold Zrest0
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v13 = (dat0 V a c).arrAt 4 (cfg0 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Levels.lean ====
/-
  No core of this program ever owes another anything, so no level is assigned to any cell.
-/
import proofs.«401090_j62775241999084_2_alg».proof.Proof.Gen.Kernel

noncomputable section

namespace Cert.Kernel.Gen

open Idealize.ShloMosaic Idealize.SL.Sem

abbrev Lnone : GSem nD τ sig → Finset Unit := fun _ => ∅
abbrev lvnone : GSem nD τ sig → Unit → ℕ := fun _ _ => 0

end Cert.Kernel.Gen

end
-- ==== Proof.KW.Reg0.lean ====
/-
  Region 0 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg0
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 0 over the thread state. -/
def reg0 : Pipeline.RegionSeg (pcfgs (F := F)) (adm m hR) (pdats m hR) () defs₀ Variants.none Lnone lvnone (0 : Fin 20) where
  win := winFacts₀0
  block_pos := block_pos0
  stage_whole := stage_whole0
  K := PEmpty
  osem k := k.elim
  ho := Pipeline.OwnSemFacts.none _
  hbody c := (body_obligation0 (Vfirst m) (adm0 m core0 (hR core0)) c).loose
  hwaits := Pipeline.hwaits_of_owed_zero _ _ _ _ Lnone lvnone (0 : Fin 20) fun _ _ => rfl
  pre c := iprop(StableHlo.held (c : Thread nD τ) (Pipeline.ucRefs τ sig) (VE0 m hR c) ∗ Rside c)
  post c := iprop(StableHlo.held (c : Thread nD τ) (Pipeline.ucRefs τ sig) (VX0 m hR c) ∗ Rside c)
  X c := iprop(∃ r, prngReg c r)
  Y c := Ykeep0 (adm0 m core0 (hR core0)) c
  Z c := Zrest0 (VE0 m hR) c
  hentry c := hentry0 (VE0 m hR) (Vfirst m) (adm0 m core0 (hR core0)) c Lnone lvnone (ent_xtab0 m hR c) (ent_out0 m hR c) (ent_pf0 m hR c)
  hin c := hin0 (Vfirst m) (adm0 m core0 (hR core0)) c
  hout c := hout0 (Vfirst m) (adm0 m core0 (hR core0)) c
  hexit c := hexit0 (VE0 m hR) (Vfirst m) (adm0 m core0 (hR core0)) c (VX0 m hR) (ent_xtab0 m hR c) (ext_xtab0 m hR c) (ext_out0 m hR c)
    (ext_pf0 m hR c) (ext_rest0 m hR c)

end Cert.Kernel.Gen

end
-- ==== Proof.KW.Seg1.lean ====
/-
  Region 1 of the gather-and-norm program, second half: how the region is entered and left.

  Between two segments of the program a core holds every unscoped buffer whole. Region 1 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region1
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg1 (F := F)).Adm)

/-- What bypasses region 1: every unscoped buffer that is neither one of its two arrays nor one of its four tables,
    and the part of the point table's share the four input windows do not need. -/
def Zrest1 (c : Dev nD) : sProp 𝕄 :=
  iprop(Pipeline.unscopedRestP (Ix := Unit) (Name := ℕ) (U := UR sig nD τ) (Lvl := ℕ) pre1 spec1 c (fun b => Vact c b)
    ∗ (((c.tc : Thread nD τ).loc main_v8) ↦{Transfers.shareDrop fullShare 4} Vact c main_v8))

/-- Region 1's arrays, window by window: the point table four times, at the four quarter shares, and the output
    array whole. -/
theorem arrays_eq1 (c : Dev nD)
    (G : (w : Fin (cfg1 a).W) → Buf (Elt F) (((cfg1 a).win w).arr.view.loc (c.tc : Thread nD τ))) :
    (dat1 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v18) ↦{fullShare} G 4)) : sProp 𝕄) := by
  unfold Dat.arrays
  rw [show (bigSep Finset.univ fun w : Fin (cfg1 a).W =>
          ((((cfg1 a).win w).arr.view.loc (c.tc : Thread nD τ)) ↦[((cfg1 a).win w).arr.view.set]{(dat1 V a c).share w} G w : sProp 𝕄))
        = bigSep Finset.univ fun w : Fin (cfg1 a).W =>
          ((((c.tc : Thread nD τ).loc (Pipeline.arrRef spec1 w)) ↦{(dat1 V a c).share w} G w : sProp 𝕄))
      from bigSep_congr fun w _ => by rw [(arr_whole1 w).set_eq_univ]]
  rw [bigSep_W1]
  have hs0 : (dat1 V a c).share 0 = Transfers.shareTok fullShare 4 0 := rfl
  have hs1 : (dat1 V a c).share 1 = Transfers.shareTok fullShare 4 1 := rfl
  have hs2 : (dat1 V a c).share 2 = Transfers.shareTok fullShare 4 2 := rfl
  have hs3 : (dat1 V a c).share 3 = Transfers.shareTok fullShare 4 3 := rfl
  have hs4 : (dat1 V a c).share 4 = fullShare := rfl
  rw [hs0, hs1, hs2, hs3, hs4]

theorem hentry1 (c : Dev nD) (L : GSem nD τ sig → Finset Unit) (lv : GSem nD τ sig → Unit → ℕ)
    (h8 : Vact c main_v8 = V c main_v8) (h13 : Vact c main_v18 = V c main_v18)
    (hpf : ∀ k, Vact c (pre1.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat1 V a c).arrays ((dat1 V a c).arrAt · 0)
          ∗ Pipeline.prefHeld pre1 c (fun _ => fullShare) a.1
          ∗ (dat1 V a c).owesAt () 0 ∗ (∃ r, prngReg c r) ∗ Zrest1 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec1 c (fun b => Vact c b) ∗ Pipeline.unscopedRest spec1 c (fun b => Vact c b)) :=
    Pipeline.PerCore.unscopedBufs_split₀ (fun (_ : Dev nD) (_ : Fin 1) => cfg1 a) (0 : Fin 1) c winFacts₀1.arr_unscoped _
  rw [e2, Pipeline.unscopedRest_split preFacts1 c _]
  have hImg : (Finset.univ.image (Pipeline.arrRef spec1) : Finset (Ref sig .tc)) = {main_v8, main_v18} := by decide
  unfold Pipeline.arrBufs
  rw [hImg, bigSep_pair main_v8 main_v18 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq1]
  have hA0 : (dat1 V a c).arrAt 0 0 = Vact c main_v8 := h8.symm
  have hA1 : (dat1 V a c).arrAt 1 0 = Vact c main_v8 := h8.symm
  have hA2 : (dat1 V a c).arrAt 2 0 = Vact c main_v8 := h8.symm
  have hA3 : (dat1 V a c).arrAt 3 0 = Vact c main_v8 := h8.symm
  have hA4 : (dat1 V a c).arrAt 4 0 = Vact c main_v18 := h13.symm
  rw [hA0, hA1, hA2, hA3, hA4]
  have hP : (fun k => Vact c (pre1.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest1
  isplitl [Hrest]; · iexact Hrest
  iexact Hdrop

/-- The invariant at the first point: the scoped buffers no window stages, the generator register, the four tables. -/
theorem hin1 (c : Dev nD) :
    iprop((∃ r, prngReg c r) ∗ Pipeline.prefHeld pre1 c (fun _ => fullShare) a.1
        ∗ Pipeline.scopedRest (Ix := Unit) (Name := ℕ) (U := UR sig nD τ) (Lvl := ℕ) (Val := Elt F) spec1 c)
      ⊢ ((dat1 V a c).Φ 0 : sProp 𝕄) := by
  rw [show (dat1 V a c).Φ 0 = iprop(Pipeline.ΦA spec1 c ∗ Pipeline.prefHeld pre1 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep1 (c : Dev nD) : sProp 𝕄 :=
  iprop((∃ r, prngReg c r) ∗ Pipeline.prefHeld pre1 c (fun _ => fullShare) a.1)

theorem hout1 (c : Dev nD) :
    ((dat1 V a c).Φ (Fin.last (cfg1 a).N) : sProp 𝕄)
      ⊢ iprop(Ykeep1 a c ∗ Pipeline.ownSems0 (fun k : PEmpty => k.elim) c
          ∗ Pipeline.scopedRest (Ix := Unit) (Name := ℕ) (U := UR sig nD τ) (Lvl := ℕ) (Val := Elt F) spec1 c) := by
  rw [Pipeline.ownSems0_none,
    show (dat1 V a c).Φ (Fin.last (cfg1 a).N) = iprop(Pipeline.ΦA spec1 c ∗ Pipeline.prefHeld pre1 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit1 (c : Dev nD) (Vact' : Dev nD → Valuation τ sig (Elt F))
    (h8 : Vact c main_v8 = V c main_v8)
    (h8' : Vact' c main_v8 = Vact c main_v8) (h13' : Vact' c main_v18 = (dat1 V a c).arrAt 4 (cfg1 a).N)
    (hpf : ∀ k, Vact' c (pre1.ref k) = a.1 k)
    (hrest : ∀ b : Ref sig .tc, b ≠ main_v18 → Vact' c b = Vact c b) :
    iprop((dat1 V a c).arrays ((dat1 V a c).arrAt · (cfg1 a).N) ∗ (dat1 V a c).owesAt () (Fin.last (cfg1 a).N)
        ∗ Ykeep1 a c ∗ Zrest1 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec1 c (fun b => Vact' c b) ∗ Pipeline.unscopedRest spec1 c (fun b => Vact' c b)) :=
    Pipeline.PerCore.unscopedBufs_split₀ (fun (_ : Dev nD) (_ : Fin 1) => cfg1 a) (0 : Fin 1) c winFacts₀1.arr_unscoped _
  rw [e2, Pipeline.unscopedRest_split preFacts1 c _]
  have hImg : (Finset.univ.image (Pipeline.arrRef spec1) : Finset (Ref sig .tc)) = {main_v8, main_v18} := by decide
  unfold Pipeline.arrBufs
  rw [hImg, bigSep_pair main_v8 main_v18 (by decide)]
  have hRP : (Pipeline.unscopedRestP (Ix := Unit) (Name := ℕ) (U := UR sig nD τ) (Lvl := ℕ) pre1 spec1 c (fun b => Vact' c b) : sProp 𝕄)
      = Pipeline.unscopedRestP pre1 spec1 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre1.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq1]
  have hB0 : (dat1 V a c).arrAt 0 (cfg1 a).N = Vact c main_v8 := ((dat1 V a c).arrAt_in 0 rfl _).trans h8.symm
  have hB1 : (dat1 V a c).arrAt 1 (cfg1 a).N = Vact c main_v8 := ((dat1 V a c).arrAt_in 1 rfl _).trans h8.symm
  have hB2 : (dat1 V a c).arrAt 2 (cfg1 a).N = Vact c main_v8 := ((dat1 V a c).arrAt_in 2 rfl _).trans h8.symm
  have hB3 : (dat1 V a c).arrAt 3 (cfg1 a).N = Vact c main_v8 := ((dat1 V a c).arrAt_in 3 rfl _).trans h8.symm
  rw [hB0, hB1, hB2, hB3, hRP]
  unfold Zrest1
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v18 = (dat1 V a c).arrAt 4 (cfg1 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg1.lean ====
/-
  Region 1 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg1
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 1 over the thread state. -/
def reg1 : Pipeline.RegionSeg (pcfgs (F := F)) (adm m hR) (pdats m hR) () defs₀ Variants.none Lnone lvnone (1 : Fin 20) where
  win := winFacts₀1
  block_pos := block_pos1
  stage_whole := stage_whole1
  K := PEmpty
  osem k := k.elim
  ho := Pipeline.OwnSemFacts.none _
  hbody c := (body_obligation1 (Vfirst m) (adm1 m core0 (hR core0)) c).loose
  hwaits := Pipeline.hwaits_of_owed_zero _ _ _ _ Lnone lvnone (1 : Fin 20) fun _ _ => rfl
  pre c := iprop(StableHlo.held (c : Thread nD τ) (Pipeline.ucRefs τ sig) (VE1 m hR c) ∗ Rside c)
  post c := iprop(StableHlo.held (c : Thread nD τ) (Pipeline.ucRefs τ sig) (VX1 m hR c) ∗ Rside c)
  X c := iprop(∃ r, prngReg c r)
  Y c := Ykeep1 (adm1 m core0 (hR core0)) c
  Z c := Zrest1 (VE1 m hR) c
  hentry c := hentry1 (VE1 m hR) (Vfirst m) (adm1 m core0 (hR core0)) c Lnone lvnone (ent_xtab1 m hR c) (ent_out1 m hR c) (ent_pf1 m hR c)
  hin c := hin1 (Vfirst m) (adm1 m core0 (hR core0)) c
  hout c := hout1 (Vfirst m) (adm1 m core0 (hR core0)) c
  hexit c := hexit1 (VE1 m hR) (Vfirst m) (adm1 m core0 (hR core0)) c (VX1 m hR) (ent_xtab1 m hR c) (ext_xtab1 m hR c) (ext_out1 m hR c)
    (ext_pf1 m hR c) (ext_rest1 m hR c)

end Cert.Kernel.Gen

end
-- ==== Proof.KW.Seg2.lean ====
/-
  Region 2 of the gather-and-norm program, second half: how the region is entered and left.

  Between two segments of the program a core holds every unscoped buffer whole. Region 2 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region2
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg2 (F := F)).Adm)

/-- What bypasses region 2: every unscoped buffer that is neither one of its two arrays nor one of its four tables,
    and the part of the point table's share the four input windows do not need. -/
def Zrest2 (c : Dev nD) : sProp 𝕄 :=
  iprop(Pipeline.unscopedRestP (Ix := Unit) (Name := ℕ) (U := UR sig nD τ) (Lvl := ℕ) pre2 spec2 c (fun b => Vact c b)
    ∗ (((c.tc : Thread nD τ).loc main_v8) ↦{Transfers.shareDrop fullShare 4} Vact c main_v8))

/-- Region 2's arrays, window by window: the point table four times, at the four quarter shares, and the output
    array whole. -/
theorem arrays_eq2 (c : Dev nD)
    (G : (w : Fin (cfg2 a).W) → Buf (Elt F) (((cfg2 a).win w).arr.view.loc (c.tc : Thread nD τ))) :
    (dat2 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v23) ↦{fullShare} G 4)) : sProp 𝕄) := by
  unfold Dat.arrays
  rw [show (bigSep Finset.univ fun w : Fin (cfg2 a).W =>
          ((((cfg2 a).win w).arr.view.loc (c.tc : Thread nD τ)) ↦[((cfg2 a).win w).arr.view.set]{(dat2 V a c).share w} G w : sProp 𝕄))
        = bigSep Finset.univ fun w : Fin (cfg2 a).W =>
          ((((c.tc : Thread nD τ).loc (Pipeline.arrRef spec2 w)) ↦{(dat2 V a c).share w} G w : sProp 𝕄))
      from bigSep_congr fun w _ => by rw [(arr_whole2 w).set_eq_univ]]
  rw [bigSep_W2]
  have hs0 : (dat2 V a c).share 0 = Transfers.shareTok fullShare 4 0 := rfl
  have hs1 : (dat2 V a c).share 1 = Transfers.shareTok fullShare 4 1 := rfl
  have hs2 : (dat2 V a c).share 2 = Transfers.shareTok fullShare 4 2 := rfl
  have hs3 : (dat2 V a c).share 3 = Transfers.shareTok fullShare 4 3 := rfl
  have hs4 : (dat2 V a c).share 4 = fullShare := rfl
  rw [hs0, hs1, hs2, hs3, hs4]

theorem hentry2 (c : Dev nD) (L : GSem nD τ sig → Finset Unit) (lv : GSem nD τ sig → Unit → ℕ)
    (h8 : Vact c main_v8 = V c main_v8) (h13 : Vact c main_v23 = V c main_v23)
    (hpf : ∀ k, Vact c (pre2.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat2 V a c).arrays ((dat2 V a c).arrAt · 0)
          ∗ Pipeline.prefHeld pre2 c (fun _ => fullShare) a.1
          ∗ (dat2 V a c).owesAt () 0 ∗ (∃ r, prngReg c r) ∗ Zrest2 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec2 c (fun b => Vact c b) ∗ Pipeline.unscopedRest spec2 c (fun b => Vact c b)) :=
    Pipeline.PerCore.unscopedBufs_split₀ (fun (_ : Dev nD) (_ : Fin 1) => cfg2 a) (0 : Fin 1) c winFacts₀2.arr_unscoped _
  rw [e2, Pipeline.unscopedRest_split preFacts2 c _]
  have hImg : (Finset.univ.image (Pipeline.arrRef spec2) : Finset (Ref sig .tc)) = {main_v8, main_v23} := by decide
  unfold Pipeline.arrBufs
  rw [hImg, bigSep_pair main_v8 main_v23 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq2]
  have hA0 : (dat2 V a c).arrAt 0 0 = Vact c main_v8 := h8.symm
  have hA1 : (dat2 V a c).arrAt 1 0 = Vact c main_v8 := h8.symm
  have hA2 : (dat2 V a c).arrAt 2 0 = Vact c main_v8 := h8.symm
  have hA3 : (dat2 V a c).arrAt 3 0 = Vact c main_v8 := h8.symm
  have hA4 : (dat2 V a c).arrAt 4 0 = Vact c main_v23 := h13.symm
  rw [hA0, hA1, hA2, hA3, hA4]
  have hP : (fun k => Vact c (pre2.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest2
  isplitl [Hrest]; · iexact Hrest
  iexact Hdrop

/-- The invariant at the first point: the scoped buffers no window stages, the generator register, the four tables. -/
theorem hin2 (c : Dev nD) :
    iprop((∃ r, prngReg c r) ∗ Pipeline.prefHeld pre2 c (fun _ => fullShare) a.1
        ∗ Pipeline.scopedRest (Ix := Unit) (Name := ℕ) (U := UR sig nD τ) (Lvl := ℕ) (Val := Elt F) spec2 c)
      ⊢ ((dat2 V a c).Φ 0 : sProp 𝕄) := by
  rw [show (dat2 V a c).Φ 0 = iprop(Pipeline.ΦA spec2 c ∗ Pipeline.prefHeld pre2 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep2 (c : Dev nD) : sProp 𝕄 :=
  iprop((∃ r, prngReg c r) ∗ Pipeline.prefHeld pre2 c (fun _ => fullShare) a.1)

theorem hout2 (c : Dev nD) :
    ((dat2 V a c).Φ (Fin.last (cfg2 a).N) : sProp 𝕄)
      ⊢ iprop(Ykeep2 a c ∗ Pipeline.ownSems0 (fun k : PEmpty => k.elim) c
          ∗ Pipeline.scopedRest (Ix := Unit) (Name := ℕ) (U := UR sig nD τ) (Lvl := ℕ) (Val := Elt F) spec2 c) := by
  rw [Pipeline.ownSems0_none,
    show (dat2 V a c).Φ (Fin.last (cfg2 a).N) = iprop(Pipeline.ΦA spec2 c ∗ Pipeline.prefHeld pre2 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit2 (c : Dev nD) (Vact' : Dev nD → Valuation τ sig (Elt F))
    (h8 : Vact c main_v8 = V c main_v8)
    (h8' : Vact' c main_v8 = Vact c main_v8) (h13' : Vact' c main_v23 = (dat2 V a c).arrAt 4 (cfg2 a).N)
    (hpf : ∀ k, Vact' c (pre2.ref k) = a.1 k)
    (hrest : ∀ b : Ref sig .tc, b ≠ main_v23 → Vact' c b = Vact c b) :
    iprop((dat2 V a c).arrays ((dat2 V a c).arrAt · (cfg2 a).N) ∗ (dat2 V a c).owesAt () (Fin.last (cfg2 a).N)
        ∗ Ykeep2 a c ∗ Zrest2 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec2 c (fun b => Vact' c b) ∗ Pipeline.unscopedRest spec2 c (fun b => Vact' c b)) :=
    Pipeline.PerCore.unscopedBufs_split₀ (fun (_ : Dev nD) (_ : Fin 1) => cfg2 a) (0 : Fin 1) c winFacts₀2.arr_unscoped _
  rw [e2, Pipeline.unscopedRest_split preFacts2 c _]
  have hImg : (Finset.univ.image (Pipeline.arrRef spec2) : Finset (Ref sig .tc)) = {main_v8, main_v23} := by decide
  unfold Pipeline.arrBufs
  rw [hImg, bigSep_pair main_v8 main_v23 (by decide)]
  have hRP : (Pipeline.unscopedRestP (Ix := Unit) (Name := ℕ) (U := UR sig nD τ) (Lvl := ℕ) pre2 spec2 c (fun b => Vact' c b) : sProp 𝕄)
      = Pipeline.unscopedRestP pre2 spec2 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre2.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq2]
  have hB0 : (dat2 V a c).arrAt 0 (cfg2 a).N = Vact c main_v8 := ((dat2 V a c).arrAt_in 0 rfl _).trans h8.symm
  have hB1 : (dat2 V a c).arrAt 1 (cfg2 a).N = Vact c main_v8 := ((dat2 V a c).arrAt_in 1 rfl _).trans h8.symm
  have hB2 : (dat2 V a c).arrAt 2 (cfg2 a).N = Vact c main_v8 := ((dat2 V a c).arrAt_in 2 rfl _).trans h8.symm
  have hB3 : (dat2 V a c).arrAt 3 (cfg2 a).N = Vact c main_v8 := ((dat2 V a c).arrAt_in 3 rfl _).trans h8.symm
  rw [hB0, hB1, hB2, hB3, hRP]
  unfold Zrest2
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v23 = (dat2 V a c).arrAt 4 (cfg2 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg2.lean ====
/-
  Region 2 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg2
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 2 over the thread state. -/
def reg2 : Pipeline.RegionSeg (pcfgs (F := F)) (adm m hR) (pdats m hR) () defs₀ Variants.none Lnone lvnone (2 : Fin 20) where
  win := winFacts₀2
  block_pos := block_pos2
  stage_whole := stage_whole2
  K := PEmpty
  osem k := k.elim
  ho := Pipeline.OwnSemFacts.none _
  hbody c := (body_obligation2 (Vfirst m) (adm2 m core0 (hR core0)) c).loose
  hwaits := Pipeline.hwaits_of_owed_zero _ _ _ _ Lnone lvnone (2 : Fin 20) fun _ _ => rfl
  pre c := iprop(StableHlo.held (c : Thread nD τ) (Pipeline.ucRefs τ sig) (VE2 m hR c) ∗ Rside c)
  post c := iprop(StableHlo.held (c : Thread nD τ) (Pipeline.ucRefs τ sig) (VX2 m hR c) ∗ Rside c)
  X c := iprop(∃ r, prngReg c r)
  Y c := Ykeep2 (adm2 m core0 (hR core0)) c
  Z c := Zrest2 (VE2 m hR) c
  hentry c := hentry2 (VE2 m hR) (Vfirst m) (adm2 m core0 (hR core0)) c Lnone lvnone (ent_xtab2 m hR c) (ent_out2 m hR c) (ent_pf2 m hR c)
  hin c := hin2 (Vfirst m) (adm2 m core0 (hR core0)) c
  hout c := hout2 (Vfirst m) (adm2 m core0 (hR core0)) c
  hexit c := hexit2 (VE2 m hR) (Vfirst m) (adm2 m core0 (hR core0)) c (VX2 m hR) (ent_xtab2 m hR c) (ext_xtab2 m hR c) (ext_out2 m hR c)
    (ext_pf2 m hR c) (ext_rest2 m hR c)

end Cert.Kernel.Gen

end
-- ==== Proof.KW.Seg3.lean ====
/-
  Region 3 of the gather-and-norm program, second half: how the region is entered and left.

  Between two segments of the program a core holds every unscoped buffer whole. Region 3 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region3
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg3 (F := F)).Adm)

/-- What bypasses region 3: every unscoped buffer that is neither one of its two arrays nor one of its four tables,
    and the part of the point table's share the four input windows do not need. -/
def Zrest3 (c : Dev nD) : sProp 𝕄 :=
  iprop(Pipeline.unscopedRestP (Ix := Unit) (Name := ℕ) (U := UR sig nD τ) (Lvl := ℕ) pre3 spec3 c (fun b => Vact c b)
    ∗ (((c.tc : Thread nD τ).loc main_v8) ↦{Transfers.shareDrop fullShare 4} Vact c main_v8))

/-- Region 3's arrays, window by window: the point table four times, at the four quarter shares, and the output
    array whole. -/
theorem arrays_eq3 (c : Dev nD)
    (G : (w : Fin (cfg3 a).W) → Buf (Elt F) (((cfg3 a).win w).arr.view.loc (c.tc : Thread nD τ))) :
    (dat3 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v28) ↦{fullShare} G 4)) : sProp 𝕄) := by
  unfold Dat.arrays
  rw [show (bigSep Finset.univ fun w : Fin (cfg3 a).W =>
          ((((cfg3 a).win w).arr.view.loc (c.tc : Thread nD τ)) ↦[((cfg3 a).win w).arr.view.set]{(dat3 V a c).share w} G w : sProp 𝕄))
        = bigSep Finset.univ fun w : Fin (cfg3 a).W =>
          ((((c.tc : Thread nD τ).loc (Pipeline.arrRef spec3 w)) ↦{(dat3 V a c).share w} G w : sProp 𝕄))
      from bigSep_congr fun w _ => by rw [(arr_whole3 w).set_eq_univ]]
  rw [bigSep_W3]
  have hs0 : (dat3 V a c).share 0 = Transfers.shareTok fullShare 4 0 := rfl
  have hs1 : (dat3 V a c).share 1 = Transfers.shareTok fullShare 4 1 := rfl
  have hs2 : (dat3 V a c).share 2 = Transfers.shareTok fullShare 4 2 := rfl
  have hs3 : (dat3 V a c).share 3 = Transfers.shareTok fullShare 4 3 := rfl
  have hs4 : (dat3 V a c).share 4 = fullShare := rfl
  rw [hs0, hs1, hs2, hs3, hs4]

theorem hentry3 (c : Dev nD) (L : GSem nD τ sig → Finset Unit) (lv : GSem nD τ sig → Unit → ℕ)
    (h8 : Vact c main_v8 = V c main_v8) (h13 : Vact c main_v28 = V c main_v28)
    (hpf : ∀ k, Vact c (pre3.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat3 V a c).arrays ((dat3 V a c).arrAt · 0)
          ∗ Pipeline.prefHeld pre3 c (fun _ => fullShare) a.1
          ∗ (dat3 V a c).owesAt () 0 ∗ (∃ r, prngReg c r) ∗ Zrest3 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec3 c (fun b => Vact c b) ∗ Pipeline.unscopedRest spec3 c (fun b => Vact c b)) :=
    Pipeline.PerCore.unscopedBufs_split₀ (fun (_ : Dev nD) (_ : Fin 1) => cfg3 a) (0 : Fin 1) c winFacts₀3.arr_unscoped _
  rw [e2, Pipeline.unscopedRest_split preFacts3 c _]
  have hImg : (Finset.univ.image (Pipeline.arrRef spec3) : Finset (Ref sig .tc)) = {main_v8, main_v28} := by decide
  unfold Pipeline.arrBufs
  rw [hImg, bigSep_pair main_v8 main_v28 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq3]
  have hA0 : (dat3 V a c).arrAt 0 0 = Vact c main_v8 := h8.symm
  have hA1 : (dat3 V a c).arrAt 1 0 = Vact c main_v8 := h8.symm
  have hA2 : (dat3 V a c).arrAt 2 0 = Vact c main_v8 := h8.symm
  have hA3 : (dat3 V a c).arrAt 3 0 = Vact c main_v8 := h8.symm
  have hA4 : (dat3 V a c).arrAt 4 0 = Vact c main_v28 := h13.symm
  rw [hA0, hA1, hA2, hA3, hA4]
  have hP : (fun k => Vact c (pre3.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest3
  isplitl [Hrest]; · iexact Hrest
  iexact Hdrop

/-- The invariant at the first point: the scoped buffers no window stages, the generator register, the four tables. -/
theorem hin3 (c : Dev nD) :
    iprop((∃ r, prngReg c r) ∗ Pipeline.prefHeld pre3 c (fun _ => fullShare) a.1
        ∗ Pipeline.scopedRest (Ix := Unit) (Name := ℕ) (U := UR sig nD τ) (Lvl := ℕ) (Val := Elt F) spec3 c)
      ⊢ ((dat3 V a c).Φ 0 : sProp 𝕄) := by
  rw [show (dat3 V a c).Φ 0 = iprop(Pipeline.ΦA spec3 c ∗ Pipeline.prefHeld pre3 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep3 (c : Dev nD) : sProp 𝕄 :=
  iprop((∃ r, prngReg c r) ∗ Pipeline.prefHeld pre3 c (fun _ => fullShare) a.1)

theorem hout3 (c : Dev nD) :
    ((dat3 V a c).Φ (Fin.last (cfg3 a).N) : sProp 𝕄)
      ⊢ iprop(Ykeep3 a c ∗ Pipeline.ownSems0 (fun k : PEmpty => k.elim) c
          ∗ Pipeline.scopedRest (Ix := Unit) (Name := ℕ) (U := UR sig nD τ) (Lvl := ℕ) (Val := Elt F) spec3 c) := by
  rw [Pipeline.ownSems0_none,
    show (dat3 V a c).Φ (Fin.last (cfg3 a).N) = iprop(Pipeline.ΦA spec3 c ∗ Pipeline.prefHeld pre3 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit3 (c : Dev nD) (Vact' : Dev nD → Valuation τ sig (Elt F))
    (h8 : Vact c main_v8 = V c main_v8)
    (h8' : Vact' c main_v8 = Vact c main_v8) (h13' : Vact' c main_v28 = (dat3 V a c).arrAt 4 (cfg3 a).N)
    (hpf : ∀ k, Vact' c (pre3.ref k) = a.1 k)
    (hrest : ∀ b : Ref sig .tc, b ≠ main_v28 → Vact' c b = Vact c b) :
    iprop((dat3 V a c).arrays ((dat3 V a c).arrAt · (cfg3 a).N) ∗ (dat3 V a c).owesAt () (Fin.last (cfg3 a).N)
        ∗ Ykeep3 a c ∗ Zrest3 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec3 c (fun b => Vact' c b) ∗ Pipeline.unscopedRest spec3 c (fun b => Vact' c b)) :=
    Pipeline.PerCore.unscopedBufs_split₀ (fun (_ : Dev nD) (_ : Fin 1) => cfg3 a) (0 : Fin 1) c winFacts₀3.arr_unscoped _
  rw [e2, Pipeline.unscopedRest_split preFacts3 c _]
  have hImg : (Finset.univ.image (Pipeline.arrRef spec3) : Finset (Ref sig .tc)) = {main_v8, main_v28} := by decide
  unfold Pipeline.arrBufs
  rw [hImg, bigSep_pair main_v8 main_v28 (by decide)]
  have hRP : (Pipeline.unscopedRestP (Ix := Unit) (Name := ℕ) (U := UR sig nD τ) (Lvl := ℕ) pre3 spec3 c (fun b => Vact' c b) : sProp 𝕄)
      = Pipeline.unscopedRestP pre3 spec3 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre3.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq3]
  have hB0 : (dat3 V a c).arrAt 0 (cfg3 a).N = Vact c main_v8 := ((dat3 V a c).arrAt_in 0 rfl _).trans h8.symm
  have hB1 : (dat3 V a c).arrAt 1 (cfg3 a).N = Vact c main_v8 := ((dat3 V a c).arrAt_in 1 rfl _).trans h8.symm
  have hB2 : (dat3 V a c).arrAt 2 (cfg3 a).N = Vact c main_v8 := ((dat3 V a c).arrAt_in 2 rfl _).trans h8.symm
  have hB3 : (dat3 V a c).arrAt 3 (cfg3 a).N = Vact c main_v8 := ((dat3 V a c).arrAt_in 3 rfl _).trans h8.symm
  rw [hB0, hB1, hB2, hB3, hRP]
  unfold Zrest3
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v28 = (dat3 V a c).arrAt 4 (cfg3 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg3.lean ====
/-
  Region 3 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg3
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 3 over the thread state. -/
def reg3 : Pipeline.RegionSeg (pcfgs (F := F)) (adm m hR) (pdats m hR) () defs₀ Variants.none Lnone lvnone (3 : Fin 20) where
  win := winFacts₀3
  block_pos := block_pos3
  stage_whole := stage_whole3
  K := PEmpty
  osem k := k.elim
  ho := Pipeline.OwnSemFacts.none _
  hbody c := (body_obligation3 (Vfirst m) (adm3 m core0 (hR core0)) c).loose
  hwaits := Pipeline.hwaits_of_owed_zero _ _ _ _ Lnone lvnone (3 : Fin 20) fun _ _ => rfl
  pre c := iprop(StableHlo.held (c : Thread nD τ) (Pipeline.ucRefs τ sig) (VE3 m hR c) ∗ Rside c)
  post c := iprop(StableHlo.held (c : Thread nD τ) (Pipeline.ucRefs τ sig) (VX3 m hR c) ∗ Rside c)
  X c := iprop(∃ r, prngReg c r)
  Y c := Ykeep3 (adm3 m core0 (hR core0)) c
  Z c := Zrest3 (VE3 m hR) c
  hentry c := hentry3 (VE3 m hR) (Vfirst m) (adm3 m core0 (hR core0)) c Lnone lvnone (ent_xtab3 m hR c) (ent_out3 m hR c) (ent_pf3 m hR c)
  hin c := hin3 (Vfirst m) (adm3 m core0 (hR core0)) c
  hout c := hout3 (Vfirst m) (adm3 m core0 (hR core0)) c
  hexit c := hexit3 (VE3 m hR) (Vfirst m) (adm3 m core0 (hR core0)) c (VX3 m hR) (ent_xtab3 m hR c) (ext_xtab3 m hR c) (ext_out3 m hR c)
    (ext_pf3 m hR c) (ext_rest3 m hR c)

end Cert.Kernel.Gen

end
-- ==== Proof.KW.Seg4.lean ====
/-
  Region 4 of the gather-and-norm program, second half: how the region is entered and left.

  Between two segments of the program a core holds every unscoped buffer whole. Region 4 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region4
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg4 (F := F)).Adm)

/-- What bypasses region 4: every unscoped buffer that is neither one of its two arrays nor one of its four tables,
    and the part of the point table's share the four input windows do not need. -/
def Zrest4 (c : Dev nD) : sProp 𝕄 :=
  iprop(Pipeline.unscopedRestP (Ix := Unit) (Name := ℕ) (U := UR sig nD τ) (Lvl := ℕ) pre4 spec4 c (fun b => Vact c b)
    ∗ (((c.tc : Thread nD τ).loc main_v8) ↦{Transfers.shareDrop fullShare 4} Vact c main_v8))

/-- Region 4's arrays, window by window: the point table four times, at the four quarter shares, and the output
    array whole. -/
theorem arrays_eq4 (c : Dev nD)
    (G : (w : Fin (cfg4 a).W) → Buf (Elt F) (((cfg4 a).win w).arr.view.loc (c.tc : Thread nD τ))) :
    (dat4 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v33) ↦{fullShare} G 4)) : sProp 𝕄) := by
  unfold Dat.arrays
  rw [show (bigSep Finset.univ fun w : Fin (cfg4 a).W =>
          ((((cfg4 a).win w).arr.view.loc (c.tc : Thread nD τ)) ↦[((cfg4 a).win w).arr.view.set]{(dat4 V a c).share w} G w : sProp 𝕄))
        = bigSep Finset.univ fun w : Fin (cfg4 a).W =>
          ((((c.tc : Thread nD τ).loc (Pipeline.arrRef spec4 w)) ↦{(dat4 V a c).share w} G w : sProp 𝕄))
      from bigSep_congr fun w _ => by rw [(arr_whole4 w).set_eq_univ]]
  rw [bigSep_W4]
  have hs0 : (dat4 V a c).share 0 = Transfers.shareTok fullShare 4 0 := rfl
  have hs1 : (dat4 V a c).share 1 = Transfers.shareTok fullShare 4 1 := rfl
  have hs2 : (dat4 V a c).share 2 = Transfers.shareTok fullShare 4 2 := rfl
  have hs3 : (dat4 V a c).share 3 = Transfers.shareTok fullShare 4 3 := rfl
  have hs4 : (dat4 V a c).share 4 = fullShare := rfl
  rw [hs0, hs1, hs2, hs3, hs4]

theorem hentry4 (c : Dev nD) (L : GSem nD τ sig → Finset Unit) (lv : GSem nD τ sig → Unit → ℕ)
    (h8 : Vact c main_v8 = V c main_v8) (h13 : Vact c main_v33 = V c main_v33)
    (hpf : ∀ k, Vact c (pre4.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat4 V a c).arrays ((dat4 V a c).arrAt · 0)
          ∗ Pipeline.prefHeld pre4 c (fun _ => fullShare) a.1
          ∗ (dat4 V a c).owesAt () 0 ∗ (∃ r, prngReg c r) ∗ Zrest4 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec4 c (fun b => Vact c b) ∗ Pipeline.unscopedRest spec4 c (fun b => Vact c b)) :=
    Pipeline.PerCore.unscopedBufs_split₀ (fun (_ : Dev nD) (_ : Fin 1) => cfg4 a) (0 : Fin 1) c winFacts₀4.arr_unscoped _
  rw [e2, Pipeline.unscopedRest_split preFacts4 c _]
  have hImg : (Finset.univ.image (Pipeline.arrRef spec4) : Finset (Ref sig .tc)) = {main_v8, main_v33} := by decide
  unfold Pipeline.arrBufs
  rw [hImg, bigSep_pair main_v8 main_v33 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq4]
  have hA0 : (dat4 V a c).arrAt 0 0 = Vact c main_v8 := h8.symm
  have hA1 : (dat4 V a c).arrAt 1 0 = Vact c main_v8 := h8.symm
  have hA2 : (dat4 V a c).arrAt 2 0 = Vact c main_v8 := h8.symm
  have hA3 : (dat4 V a c).arrAt 3 0 = Vact c main_v8 := h8.symm
  have hA4 : (dat4 V a c).arrAt 4 0 = Vact c main_v33 := h13.symm
  rw [hA0, hA1, hA2, hA3, hA4]
  have hP : (fun k => Vact c (pre4.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest4
  isplitl [Hrest]; · iexact Hrest
  iexact Hdrop

/-- The invariant at the first point: the scoped buffers no window stages, the generator register, the four tables. -/
theorem hin4 (c : Dev nD) :
    iprop((∃ r, prngReg c r) ∗ Pipeline.prefHeld pre4 c (fun _ => fullShare) a.1
        ∗ Pipeline.scopedRest (Ix := Unit) (Name := ℕ) (U := UR sig nD τ) (Lvl := ℕ) (Val := Elt F) spec4 c)
      ⊢ ((dat4 V a c).Φ 0 : sProp 𝕄) := by
  rw [show (dat4 V a c).Φ 0 = iprop(Pipeline.ΦA spec4 c ∗ Pipeline.prefHeld pre4 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep4 (c : Dev nD) : sProp 𝕄 :=
  iprop((∃ r, prngReg c r) ∗ Pipeline.prefHeld pre4 c (fun _ => fullShare) a.1)

theorem hout4 (c : Dev nD) :
    ((dat4 V a c).Φ (Fin.last (cfg4 a).N) : sProp 𝕄)
      ⊢ iprop(Ykeep4 a c ∗ Pipeline.ownSems0 (fun k : PEmpty => k.elim) c
          ∗ Pipeline.scopedRest (Ix := Unit) (Name := ℕ) (U := UR sig nD τ) (Lvl := ℕ) (Val := Elt F) spec4 c) := by
  rw [Pipeline.ownSems0_none,
    show (dat4 V a c).Φ (Fin.last (cfg4 a).N) = iprop(Pipeline.ΦA spec4 c ∗ Pipeline.prefHeld pre4 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit4 (c : Dev nD) (Vact' : Dev nD → Valuation τ sig (Elt F))
    (h8 : Vact c main_v8 = V c main_v8)
    (h8' : Vact' c main_v8 = Vact c main_v8) (h13' : Vact' c main_v33 = (dat4 V a c).arrAt 4 (cfg4 a).N)
    (hpf : ∀ k, Vact' c (pre4.ref k) = a.1 k)
    (hrest : ∀ b : Ref sig .tc, b ≠ main_v33 → Vact' c b = Vact c b) :
    iprop((dat4 V a c).arrays ((dat4 V a c).arrAt · (cfg4 a).N) ∗ (dat4 V a c).owesAt () (Fin.last (cfg4 a).N)
        ∗ Ykeep4 a c ∗ Zrest4 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec4 c (fun b => Vact' c b) ∗ Pipeline.unscopedRest spec4 c (fun b => Vact' c b)) :=
    Pipeline.PerCore.unscopedBufs_split₀ (fun (_ : Dev nD) (_ : Fin 1) => cfg4 a) (0 : Fin 1) c winFacts₀4.arr_unscoped _
  rw [e2, Pipeline.unscopedRest_split preFacts4 c _]
  have hImg : (Finset.univ.image (Pipeline.arrRef spec4) : Finset (Ref sig .tc)) = {main_v8, main_v33} := by decide
  unfold Pipeline.arrBufs
  rw [hImg, bigSep_pair main_v8 main_v33 (by decide)]
  have hRP : (Pipeline.unscopedRestP (Ix := Unit) (Name := ℕ) (U := UR sig nD τ) (Lvl := ℕ) pre4 spec4 c (fun b => Vact' c b) : sProp 𝕄)
      = Pipeline.unscopedRestP pre4 spec4 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre4.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq4]
  have hB0 : (dat4 V a c).arrAt 0 (cfg4 a).N = Vact c main_v8 := ((dat4 V a c).arrAt_in 0 rfl _).trans h8.symm
  have hB1 : (dat4 V a c).arrAt 1 (cfg4 a).N = Vact c main_v8 := ((dat4 V a c).arrAt_in 1 rfl _).trans h8.symm
  have hB2 : (dat4 V a c).arrAt 2 (cfg4 a).N = Vact c main_v8 := ((dat4 V a c).arrAt_in 2 rfl _).trans h8.symm
  have hB3 : (dat4 V a c).arrAt 3 (cfg4 a).N = Vact c main_v8 := ((dat4 V a c).arrAt_in 3 rfl _).trans h8.symm
  rw [hB0, hB1, hB2, hB3, hRP]
  unfold Zrest4
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v33 = (dat4 V a c).arrAt 4 (cfg4 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg4.lean ====
/-
  Region 4 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg4
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 4 over the thread state. -/
def reg4 : Pipeline.RegionSeg (pcfgs (F := F)) (adm m hR) (pdats m hR) () defs₀ Variants.none Lnone lvnone (4 : Fin 20) where
  win := winFacts₀4
  block_pos := block_pos4
  stage_whole := stage_whole4
  K := PEmpty
  osem k := k.elim
  ho := Pipeline.OwnSemFacts.none _
  hbody c := (body_obligation4 (Vfirst m) (adm4 m core0 (hR core0)) c).loose
  hwaits := Pipeline.hwaits_of_owed_zero _ _ _ _ Lnone lvnone (4 : Fin 20) fun _ _ => rfl
  pre c := iprop(StableHlo.held (c : Thread nD τ) (Pipeline.ucRefs τ sig) (VE4 m hR c) ∗ Rside c)
  post c := iprop(StableHlo.held (c : Thread nD τ) (Pipeline.ucRefs τ sig) (VX4 m hR c) ∗ Rside c)
  X c := iprop(∃ r, prngReg c r)
  Y c := Ykeep4 (adm4 m core0 (hR core0)) c
  Z c := Zrest4 (VE4 m hR) c
  hentry c := hentry4 (VE4 m hR) (Vfirst m) (adm4 m core0 (hR core0)) c Lnone lvnone (ent_xtab4 m hR c) (ent_out4 m hR c) (ent_pf4 m hR c)
  hin c := hin4 (Vfirst m) (adm4 m core0 (hR core0)) c
  hout c := hout4 (Vfirst m) (adm4 m core0 (hR core0)) c
  hexit c := hexit4 (VE4 m hR) (Vfirst m) (adm4 m core0 (hR core0)) c (VX4 m hR) (ent_xtab4 m hR c) (ext_xtab4 m hR c) (ext_out4 m hR c)
    (ext_pf4 m hR c) (ext_rest4 m hR c)

end Cert.Kernel.Gen

end
-- ==== Proof.KW.Seg5.lean ====
/-
  Region 5 of the gather-and-norm program, second half: how the region is entered and left.

  Between two segments of the program a core holds every unscoped buffer whole. Region 5 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region5
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg5 (F := F)).Adm)

/-- What bypasses region 5: every unscoped buffer that is neither one of its two arrays nor one of its four tables,
    and the part of the point table's share the four input windows do not need. -/
def Zrest5 (c : Dev nD) : sProp 𝕄 :=
  iprop(Pipeline.unscopedRestP (Ix := Unit) (Name := ℕ) (U := UR sig nD τ) (Lvl := ℕ) pre5 spec5 c (fun b => Vact c b)
    ∗ (((c.tc : Thread nD τ).loc main_v8) ↦{Transfers.shareDrop fullShare 4} Vact c main_v8))

/-- Region 5's arrays, window by window: the point table four times, at the four quarter shares, and the output
    array whole. -/
theorem arrays_eq5 (c : Dev nD)
    (G : (w : Fin (cfg5 a).W) → Buf (Elt F) (((cfg5 a).win w).arr.view.loc (c.tc : Thread nD τ))) :
    (dat5 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v38) ↦{fullShare} G 4)) : sProp 𝕄) := by
  unfold Dat.arrays
  rw [show (bigSep Finset.univ fun w : Fin (cfg5 a).W =>
          ((((cfg5 a).win w).arr.view.loc (c.tc : Thread nD τ)) ↦[((cfg5 a).win w).arr.view.set]{(dat5 V a c).share w} G w : sProp 𝕄))
        = bigSep Finset.univ fun w : Fin (cfg5 a).W =>
          ((((c.tc : Thread nD τ).loc (Pipeline.arrRef spec5 w)) ↦{(dat5 V a c).share w} G w : sProp 𝕄))
      from bigSep_congr fun w _ => by rw [(arr_whole5 w).set_eq_univ]]
  rw [bigSep_W5]
  have hs0 : (dat5 V a c).share 0 = Transfers.shareTok fullShare 4 0 := rfl
  have hs1 : (dat5 V a c).share 1 = Transfers.shareTok fullShare 4 1 := rfl
  have hs2 : (dat5 V a c).share 2 = Transfers.shareTok fullShare 4 2 := rfl
  have hs3 : (dat5 V a c).share 3 = Transfers.shareTok fullShare 4 3 := rfl
  have hs4 : (dat5 V a c).share 4 = fullShare := rfl
  rw [hs0, hs1, hs2, hs3, hs4]

theorem hentry5 (c : Dev nD) (L : GSem nD τ sig → Finset Unit) (lv : GSem nD τ sig → Unit → ℕ)
    (h8 : Vact c main_v8 = V c main_v8) (h13 : Vact c main_v38 = V c main_v38)
    (hpf : ∀ k, Vact c (pre5.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat5 V a c).arrays ((dat5 V a c).arrAt · 0)
          ∗ Pipeline.prefHeld pre5 c (fun _ => fullShare) a.1
          ∗ (dat5 V a c).owesAt () 0 ∗ (∃ r, prngReg c r) ∗ Zrest5 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec5 c (fun b => Vact c b) ∗ Pipeline.unscopedRest spec5 c (fun b => Vact c b)) :=
    Pipeline.PerCore.unscopedBufs_split₀ (fun (_ : Dev nD) (_ : Fin 1) => cfg5 a) (0 : Fin 1) c winFacts₀5.arr_unscoped _
  rw [e2, Pipeline.unscopedRest_split preFacts5 c _]
  have hImg : (Finset.univ.image (Pipeline.arrRef spec5) : Finset (Ref sig .tc)) = {main_v8, main_v38} := by decide
  unfold Pipeline.arrBufs
  rw [hImg, bigSep_pair main_v8 main_v38 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq5]
  have hA0 : (dat5 V a c).arrAt 0 0 = Vact c main_v8 := h8.symm
  have hA1 : (dat5 V a c).arrAt 1 0 = Vact c main_v8 := h8.symm
  have hA2 : (dat5 V a c).arrAt 2 0 = Vact c main_v8 := h8.symm
  have hA3 : (dat5 V a c).arrAt 3 0 = Vact c main_v8 := h8.symm
  have hA4 : (dat5 V a c).arrAt 4 0 = Vact c main_v38 := h13.symm
  rw [hA0, hA1, hA2, hA3, hA4]
  have hP : (fun k => Vact c (pre5.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest5
  isplitl [Hrest]; · iexact Hrest
  iexact Hdrop

/-- The invariant at the first point: the scoped buffers no window stages, the generator register, the four tables. -/
theorem hin5 (c : Dev nD) :
    iprop((∃ r, prngReg c r) ∗ Pipeline.prefHeld pre5 c (fun _ => fullShare) a.1
        ∗ Pipeline.scopedRest (Ix := Unit) (Name := ℕ) (U := UR sig nD τ) (Lvl := ℕ) (Val := Elt F) spec5 c)
      ⊢ ((dat5 V a c).Φ 0 : sProp 𝕄) := by
  rw [show (dat5 V a c).Φ 0 = iprop(Pipeline.ΦA spec5 c ∗ Pipeline.prefHeld pre5 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep5 (c : Dev nD) : sProp 𝕄 :=
  iprop((∃ r, prngReg c r) ∗ Pipeline.prefHeld pre5 c (fun _ => fullShare) a.1)

theorem hout5 (c : Dev nD) :
    ((dat5 V a c).Φ (Fin.last (cfg5 a).N) : sProp 𝕄)
      ⊢ iprop(Ykeep5 a c ∗ Pipeline.ownSems0 (fun k : PEmpty => k.elim) c
          ∗ Pipeline.scopedRest (Ix := Unit) (Name := ℕ) (U := UR sig nD τ) (Lvl := ℕ) (Val := Elt F) spec5 c) := by
  rw [Pipeline.ownSems0_none,
    show (dat5 V a c).Φ (Fin.last (cfg5 a).N) = iprop(Pipeline.ΦA spec5 c ∗ Pipeline.prefHeld pre5 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit5 (c : Dev nD) (Vact' : Dev nD → Valuation τ sig (Elt F))
    (h8 : Vact c main_v8 = V c main_v8)
    (h8' : Vact' c main_v8 = Vact c main_v8) (h13' : Vact' c main_v38 = (dat5 V a c).arrAt 4 (cfg5 a).N)
    (hpf : ∀ k, Vact' c (pre5.ref k) = a.1 k)
    (hrest : ∀ b : Ref sig .tc, b ≠ main_v38 → Vact' c b = Vact c b) :
    iprop((dat5 V a c).arrays ((dat5 V a c).arrAt · (cfg5 a).N) ∗ (dat5 V a c).owesAt () (Fin.last (cfg5 a).N)
        ∗ Ykeep5 a c ∗ Zrest5 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec5 c (fun b => Vact' c b) ∗ Pipeline.unscopedRest spec5 c (fun b => Vact' c b)) :=
    Pipeline.PerCore.unscopedBufs_split₀ (fun (_ : Dev nD) (_ : Fin 1) => cfg5 a) (0 : Fin 1) c winFacts₀5.arr_unscoped _
  rw [e2, Pipeline.unscopedRest_split preFacts5 c _]
  have hImg : (Finset.univ.image (Pipeline.arrRef spec5) : Finset (Ref sig .tc)) = {main_v8, main_v38} := by decide
  unfold Pipeline.arrBufs
  rw [hImg, bigSep_pair main_v8 main_v38 (by decide)]
  have hRP : (Pipeline.unscopedRestP (Ix := Unit) (Name := ℕ) (U := UR sig nD τ) (Lvl := ℕ) pre5 spec5 c (fun b => Vact' c b) : sProp 𝕄)
      = Pipeline.unscopedRestP pre5 spec5 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre5.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq5]
  have hB0 : (dat5 V a c).arrAt 0 (cfg5 a).N = Vact c main_v8 := ((dat5 V a c).arrAt_in 0 rfl _).trans h8.symm
  have hB1 : (dat5 V a c).arrAt 1 (cfg5 a).N = Vact c main_v8 := ((dat5 V a c).arrAt_in 1 rfl _).trans h8.symm
  have hB2 : (dat5 V a c).arrAt 2 (cfg5 a).N = Vact c main_v8 := ((dat5 V a c).arrAt_in 2 rfl _).trans h8.symm
  have hB3 : (dat5 V a c).arrAt 3 (cfg5 a).N = Vact c main_v8 := ((dat5 V a c).arrAt_in 3 rfl _).trans h8.symm
  rw [hB0, hB1, hB2, hB3, hRP]
  unfold Zrest5
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v38 = (dat5 V a c).arrAt 4 (cfg5 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg5.lean ====
/-
  Region 5 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg5
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 5 over the thread state. -/
def reg5 : Pipeline.RegionSeg (pcfgs (F := F)) (adm m hR) (pdats m hR) () defs₀ Variants.none Lnone lvnone (5 : Fin 20) where
  win := winFacts₀5
  block_pos := block_pos5
  stage_whole := stage_whole5
  K := PEmpty
  osem k := k.elim
  ho := Pipeline.OwnSemFacts.none _
  hbody c := (body_obligation5 (Vfirst m) (adm5 m core0 (hR core0)) c).loose
  hwaits := Pipeline.hwaits_of_owed_zero _ _ _ _ Lnone lvnone (5 : Fin 20) fun _ _ => rfl
  pre c := iprop(StableHlo.held (c : Thread nD τ) (Pipeline.ucRefs τ sig) (VE5 m hR c) ∗ Rside c)
  post c := iprop(StableHlo.held (c : Thread nD τ) (Pipeline.ucRefs τ sig) (VX5 m hR c) ∗ Rside c)
  X c := iprop(∃ r, prngReg c r)
  Y c := Ykeep5 (adm5 m core0 (hR core0)) c
  Z c := Zrest5 (VE5 m hR) c
  hentry c := hentry5 (VE5 m hR) (Vfirst m) (adm5 m core0 (hR core0)) c Lnone lvnone (ent_xtab5 m hR c) (ent_out5 m hR c) (ent_pf5 m hR c)
  hin c := hin5 (Vfirst m) (adm5 m core0 (hR core0)) c
  hout c := hout5 (Vfirst m) (adm5 m core0 (hR core0)) c
  hexit c := hexit5 (VE5 m hR) (Vfirst m) (adm5 m core0 (hR core0)) c (VX5 m hR) (ent_xtab5 m hR c) (ext_xtab5 m hR c) (ext_out5 m hR c)
    (ext_pf5 m hR c) (ext_rest5 m hR c)

end Cert.Kernel.Gen

end
-- ==== Proof.KW.Seg6.lean ====
/-
  Region 6 of the gather-and-norm program, second half: how the region is entered and left.

  Between two segments of the program a core holds every unscoped buffer whole. Region 6 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region6
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg6 (F := F)).Adm)

/-- What bypasses region 6: every unscoped buffer that is neither one of its two arrays nor one of its four tables,
    and the part of the point table's share the four input windows do not need. -/
def Zrest6 (c : Dev nD) : sProp 𝕄 :=
  iprop(Pipeline.unscopedRestP (Ix := Unit) (Name := ℕ) (U := UR sig nD τ) (Lvl := ℕ) pre6 spec6 c (fun b => Vact c b)
    ∗ (((c.tc : Thread nD τ).loc main_v8) ↦{Transfers.shareDrop fullShare 4} Vact c main_v8))

/-- Region 6's arrays, window by window: the point table four times, at the four quarter shares, and the output
    array whole. -/
theorem arrays_eq6 (c : Dev nD)
    (G : (w : Fin (cfg6 a).W) → Buf (Elt F) (((cfg6 a).win w).arr.view.loc (c.tc : Thread nD τ))) :
    (dat6 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v43) ↦{fullShare} G 4)) : sProp 𝕄) := by
  unfold Dat.arrays
  rw [show (bigSep Finset.univ fun w : Fin (cfg6 a).W =>
          ((((cfg6 a).win w).arr.view.loc (c.tc : Thread nD τ)) ↦[((cfg6 a).win w).arr.view.set]{(dat6 V a c).share w} G w : sProp 𝕄))
        = bigSep Finset.univ fun w : Fin (cfg6 a).W =>
          ((((c.tc : Thread nD τ).loc (Pipeline.arrRef spec6 w)) ↦{(dat6 V a c).share w} G w : sProp 𝕄))
      from bigSep_congr fun w _ => by rw [(arr_whole6 w).set_eq_univ]]
  rw [bigSep_W6]
  have hs0 : (dat6 V a c).share 0 = Transfers.shareTok fullShare 4 0 := rfl
  have hs1 : (dat6 V a c).share 1 = Transfers.shareTok fullShare 4 1 := rfl
  have hs2 : (dat6 V a c).share 2 = Transfers.shareTok fullShare 4 2 := rfl
  have hs3 : (dat6 V a c).share 3 = Transfers.shareTok fullShare 4 3 := rfl
  have hs4 : (dat6 V a c).share 4 = fullShare := rfl
  rw [hs0, hs1, hs2, hs3, hs4]

theorem hentry6 (c : Dev nD) (L : GSem nD τ sig → Finset Unit) (lv : GSem nD τ sig → Unit → ℕ)
    (h8 : Vact c main_v8 = V c main_v8) (h13 : Vact c main_v43 = V c main_v43)
    (hpf : ∀ k, Vact c (pre6.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat6 V a c).arrays ((dat6 V a c).arrAt · 0)
          ∗ Pipeline.prefHeld pre6 c (fun _ => fullShare) a.1
          ∗ (dat6 V a c).owesAt () 0 ∗ (∃ r, prngReg c r) ∗ Zrest6 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec6 c (fun b => Vact c b) ∗ Pipeline.unscopedRest spec6 c (fun b => Vact c b)) :=
    Pipeline.PerCore.unscopedBufs_split₀ (fun (_ : Dev nD) (_ : Fin 1) => cfg6 a) (0 : Fin 1) c winFacts₀6.arr_unscoped _
  rw [e2, Pipeline.unscopedRest_split preFacts6 c _]
  have hImg : (Finset.univ.image (Pipeline.arrRef spec6) : Finset (Ref sig .tc)) = {main_v8, main_v43} := by decide
  unfold Pipeline.arrBufs
  rw [hImg, bigSep_pair main_v8 main_v43 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq6]
  have hA0 : (dat6 V a c).arrAt 0 0 = Vact c main_v8 := h8.symm
  have hA1 : (dat6 V a c).arrAt 1 0 = Vact c main_v8 := h8.symm
  have hA2 : (dat6 V a c).arrAt 2 0 = Vact c main_v8 := h8.symm
  have hA3 : (dat6 V a c).arrAt 3 0 = Vact c main_v8 := h8.symm
  have hA4 : (dat6 V a c).arrAt 4 0 = Vact c main_v43 := h13.symm
  rw [hA0, hA1, hA2, hA3, hA4]
  have hP : (fun k => Vact c (pre6.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest6
  isplitl [Hrest]; · iexact Hrest
  iexact Hdrop

/-- The invariant at the first point: the scoped buffers no window stages, the generator register, the four tables. -/
theorem hin6 (c : Dev nD) :
    iprop((∃ r, prngReg c r) ∗ Pipeline.prefHeld pre6 c (fun _ => fullShare) a.1
        ∗ Pipeline.scopedRest (Ix := Unit) (Name := ℕ) (U := UR sig nD τ) (Lvl := ℕ) (Val := Elt F) spec6 c)
      ⊢ ((dat6 V a c).Φ 0 : sProp 𝕄) := by
  rw [show (dat6 V a c).Φ 0 = iprop(Pipeline.ΦA spec6 c ∗ Pipeline.prefHeld pre6 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep6 (c : Dev nD) : sProp 𝕄 :=
  iprop((∃ r, prngReg c r) ∗ Pipeline.prefHeld pre6 c (fun _ => fullShare) a.1)

theorem hout6 (c : Dev nD) :
    ((dat6 V a c).Φ (Fin.last (cfg6 a).N) : sProp 𝕄)
      ⊢ iprop(Ykeep6 a c ∗ Pipeline.ownSems0 (fun k : PEmpty => k.elim) c
          ∗ Pipeline.scopedRest (Ix := Unit) (Name := ℕ) (U := UR sig nD τ) (Lvl := ℕ) (Val := Elt F) spec6 c) := by
  rw [Pipeline.ownSems0_none,
    show (dat6 V a c).Φ (Fin.last (cfg6 a).N) = iprop(Pipeline.ΦA spec6 c ∗ Pipeline.prefHeld pre6 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit6 (c : Dev nD) (Vact' : Dev nD → Valuation τ sig (Elt F))
    (h8 : Vact c main_v8 = V c main_v8)
    (h8' : Vact' c main_v8 = Vact c main_v8) (h13' : Vact' c main_v43 = (dat6 V a c).arrAt 4 (cfg6 a).N)
    (hpf : ∀ k, Vact' c (pre6.ref k) = a.1 k)
    (hrest : ∀ b : Ref sig .tc, b ≠ main_v43 → Vact' c b = Vact c b) :
    iprop((dat6 V a c).arrays ((dat6 V a c).arrAt · (cfg6 a).N) ∗ (dat6 V a c).owesAt () (Fin.last (cfg6 a).N)
        ∗ Ykeep6 a c ∗ Zrest6 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec6 c (fun b => Vact' c b) ∗ Pipeline.unscopedRest spec6 c (fun b => Vact' c b)) :=
    Pipeline.PerCore.unscopedBufs_split₀ (fun (_ : Dev nD) (_ : Fin 1) => cfg6 a) (0 : Fin 1) c winFacts₀6.arr_unscoped _
  rw [e2, Pipeline.unscopedRest_split preFacts6 c _]
  have hImg : (Finset.univ.image (Pipeline.arrRef spec6) : Finset (Ref sig .tc)) = {main_v8, main_v43} := by decide
  unfold Pipeline.arrBufs
  rw [hImg, bigSep_pair main_v8 main_v43 (by decide)]
  have hRP : (Pipeline.unscopedRestP (Ix := Unit) (Name := ℕ) (U := UR sig nD τ) (Lvl := ℕ) pre6 spec6 c (fun b => Vact' c b) : sProp 𝕄)
      = Pipeline.unscopedRestP pre6 spec6 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre6.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq6]
  have hB0 : (dat6 V a c).arrAt 0 (cfg6 a).N = Vact c main_v8 := ((dat6 V a c).arrAt_in 0 rfl _).trans h8.symm
  have hB1 : (dat6 V a c).arrAt 1 (cfg6 a).N = Vact c main_v8 := ((dat6 V a c).arrAt_in 1 rfl _).trans h8.symm
  have hB2 : (dat6 V a c).arrAt 2 (cfg6 a).N = Vact c main_v8 := ((dat6 V a c).arrAt_in 2 rfl _).trans h8.symm
  have hB3 : (dat6 V a c).arrAt 3 (cfg6 a).N = Vact c main_v8 := ((dat6 V a c).arrAt_in 3 rfl _).trans h8.symm
  rw [hB0, hB1, hB2, hB3, hRP]
  unfold Zrest6
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v43 = (dat6 V a c).arrAt 4 (cfg6 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg6.lean ====
/-
  Region 6 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg6
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 6 over the thread state. -/
def reg6 : Pipeline.RegionSeg (pcfgs (F := F)) (adm m hR) (pdats m hR) () defs₀ Variants.none Lnone lvnone (6 : Fin 20) where
  win := winFacts₀6
  block_pos := block_pos6
  stage_whole := stage_whole6
  K := PEmpty
  osem k := k.elim
  ho := Pipeline.OwnSemFacts.none _
  hbody c := (body_obligation6 (Vfirst m) (adm6 m core0 (hR core0)) c).loose
  hwaits := Pipeline.hwaits_of_owed_zero _ _ _ _ Lnone lvnone (6 : Fin 20) fun _ _ => rfl
  pre c := iprop(StableHlo.held (c : Thread nD τ) (Pipeline.ucRefs τ sig) (VE6 m hR c) ∗ Rside c)
  post c := iprop(StableHlo.held (c : Thread nD τ) (Pipeline.ucRefs τ sig) (VX6 m hR c) ∗ Rside c)
  X c := iprop(∃ r, prngReg c r)
  Y c := Ykeep6 (adm6 m core0 (hR core0)) c
  Z c := Zrest6 (VE6 m hR) c
  hentry c := hentry6 (VE6 m hR) (Vfirst m) (adm6 m core0 (hR core0)) c Lnone lvnone (ent_xtab6 m hR c) (ent_out6 m hR c) (ent_pf6 m hR c)
  hin c := hin6 (Vfirst m) (adm6 m core0 (hR core0)) c
  hout c := hout6 (Vfirst m) (adm6 m core0 (hR core0)) c
  hexit c := hexit6 (VE6 m hR) (Vfirst m) (adm6 m core0 (hR core0)) c (VX6 m hR) (ent_xtab6 m hR c) (ext_xtab6 m hR c) (ext_out6 m hR c)
    (ext_pf6 m hR c) (ext_rest6 m hR c)

end Cert.Kernel.Gen

end
-- ==== Proof.KW.Seg7.lean ====
/-
  Region 7 of the gather-and-norm program, second half: how the region is entered and left.

  Between two segments of the program a core holds every unscoped buffer whole. Region 7 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region7
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg7 (F := F)).Adm)

/-- What bypasses region 7: every unscoped buffer that is neither one of its two arrays nor one of its four tables,
    and the part of the point table's share the four input windows do not need. -/
def Zrest7 (c : Dev nD) : sProp 𝕄 :=
  iprop(Pipeline.unscopedRestP (Ix := Unit) (Name := ℕ) (U := UR sig nD τ) (Lvl := ℕ) pre7 spec7 c (fun b => Vact c b)
    ∗ (((c.tc : Thread nD τ).loc main_v8) ↦{Transfers.shareDrop fullShare 4} Vact c main_v8))

/-- Region 7's arrays, window by window: the point table four times, at the four quarter shares, and the output
    array whole. -/
theorem arrays_eq7 (c : Dev nD)
    (G : (w : Fin (cfg7 a).W) → Buf (Elt F) (((cfg7 a).win w).arr.view.loc (c.tc : Thread nD τ))) :
    (dat7 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v48) ↦{fullShare} G 4)) : sProp 𝕄) := by
  unfold Dat.arrays
  rw [show (bigSep Finset.univ fun w : Fin (cfg7 a).W =>
          ((((cfg7 a).win w).arr.view.loc (c.tc : Thread nD τ)) ↦[((cfg7 a).win w).arr.view.set]{(dat7 V a c).share w} G w : sProp 𝕄))
        = bigSep Finset.univ fun w : Fin (cfg7 a).W =>
          ((((c.tc : Thread nD τ).loc (Pipeline.arrRef spec7 w)) ↦{(dat7 V a c).share w} G w : sProp 𝕄))
      from bigSep_congr fun w _ => by rw [(arr_whole7 w).set_eq_univ]]
  rw [bigSep_W7]
  have hs0 : (dat7 V a c).share 0 = Transfers.shareTok fullShare 4 0 := rfl
  have hs1 : (dat7 V a c).share 1 = Transfers.shareTok fullShare 4 1 := rfl
  have hs2 : (dat7 V a c).share 2 = Transfers.shareTok fullShare 4 2 := rfl
  have hs3 : (dat7 V a c).share 3 = Transfers.shareTok fullShare 4 3 := rfl
  have hs4 : (dat7 V a c).share 4 = fullShare := rfl
  rw [hs0, hs1, hs2, hs3, hs4]

theorem hentry7 (c : Dev nD) (L : GSem nD τ sig → Finset Unit) (lv : GSem nD τ sig → Unit → ℕ)
    (h8 : Vact c main_v8 = V c main_v8) (h13 : Vact c main_v48 = V c main_v48)
    (hpf : ∀ k, Vact c (pre7.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat7 V a c).arrays ((dat7 V a c).arrAt · 0)
          ∗ Pipeline.prefHeld pre7 c (fun _ => fullShare) a.1
          ∗ (dat7 V a c).owesAt () 0 ∗ (∃ r, prngReg c r) ∗ Zrest7 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec7 c (fun b => Vact c b) ∗ Pipeline.unscopedRest spec7 c (fun b => Vact c b)) :=
    Pipeline.PerCore.unscopedBufs_split₀ (fun (_ : Dev nD) (_ : Fin 1) => cfg7 a) (0 : Fin 1) c winFacts₀7.arr_unscoped _
  rw [e2, Pipeline.unscopedRest_split preFacts7 c _]
  have hImg : (Finset.univ.image (Pipeline.arrRef spec7) : Finset (Ref sig .tc)) = {main_v8, main_v48} := by decide
  unfold Pipeline.arrBufs
  rw [hImg, bigSep_pair main_v8 main_v48 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq7]
  have hA0 : (dat7 V a c).arrAt 0 0 = Vact c main_v8 := h8.symm
  have hA1 : (dat7 V a c).arrAt 1 0 = Vact c main_v8 := h8.symm
  have hA2 : (dat7 V a c).arrAt 2 0 = Vact c main_v8 := h8.symm
  have hA3 : (dat7 V a c).arrAt 3 0 = Vact c main_v8 := h8.symm
  have hA4 : (dat7 V a c).arrAt 4 0 = Vact c main_v48 := h13.symm
  rw [hA0, hA1, hA2, hA3, hA4]
  have hP : (fun k => Vact c (pre7.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest7
  isplitl [Hrest]; · iexact Hrest
  iexact Hdrop

/-- The invariant at the first point: the scoped buffers no window stages, the generator register, the four tables. -/
theorem hin7 (c : Dev nD) :
    iprop((∃ r, prngReg c r) ∗ Pipeline.prefHeld pre7 c (fun _ => fullShare) a.1
        ∗ Pipeline.scopedRest (Ix := Unit) (Name := ℕ) (U := UR sig nD τ) (Lvl := ℕ) (Val := Elt F) spec7 c)
      ⊢ ((dat7 V a c).Φ 0 : sProp 𝕄) := by
  rw [show (dat7 V a c).Φ 0 = iprop(Pipeline.ΦA spec7 c ∗ Pipeline.prefHeld pre7 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep7 (c : Dev nD) : sProp 𝕄 :=
  iprop((∃ r, prngReg c r) ∗ Pipeline.prefHeld pre7 c (fun _ => fullShare) a.1)

theorem hout7 (c : Dev nD) :
    ((dat7 V a c).Φ (Fin.last (cfg7 a).N) : sProp 𝕄)
      ⊢ iprop(Ykeep7 a c ∗ Pipeline.ownSems0 (fun k : PEmpty => k.elim) c
          ∗ Pipeline.scopedRest (Ix := Unit) (Name := ℕ) (U := UR sig nD τ) (Lvl := ℕ) (Val := Elt F) spec7 c) := by
  rw [Pipeline.ownSems0_none,
    show (dat7 V a c).Φ (Fin.last (cfg7 a).N) = iprop(Pipeline.ΦA spec7 c ∗ Pipeline.prefHeld pre7 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit7 (c : Dev nD) (Vact' : Dev nD → Valuation τ sig (Elt F))
    (h8 : Vact c main_v8 = V c main_v8)
    (h8' : Vact' c main_v8 = Vact c main_v8) (h13' : Vact' c main_v48 = (dat7 V a c).arrAt 4 (cfg7 a).N)
    (hpf : ∀ k, Vact' c (pre7.ref k) = a.1 k)
    (hrest : ∀ b : Ref sig .tc, b ≠ main_v48 → Vact' c b = Vact c b) :
    iprop((dat7 V a c).arrays ((dat7 V a c).arrAt · (cfg7 a).N) ∗ (dat7 V a c).owesAt () (Fin.last (cfg7 a).N)
        ∗ Ykeep7 a c ∗ Zrest7 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec7 c (fun b => Vact' c b) ∗ Pipeline.unscopedRest spec7 c (fun b => Vact' c b)) :=
    Pipeline.PerCore.unscopedBufs_split₀ (fun (_ : Dev nD) (_ : Fin 1) => cfg7 a) (0 : Fin 1) c winFacts₀7.arr_unscoped _
  rw [e2, Pipeline.unscopedRest_split preFacts7 c _]
  have hImg : (Finset.univ.image (Pipeline.arrRef spec7) : Finset (Ref sig .tc)) = {main_v8, main_v48} := by decide
  unfold Pipeline.arrBufs
  rw [hImg, bigSep_pair main_v8 main_v48 (by decide)]
  have hRP : (Pipeline.unscopedRestP (Ix := Unit) (Name := ℕ) (U := UR sig nD τ) (Lvl := ℕ) pre7 spec7 c (fun b => Vact' c b) : sProp 𝕄)
      = Pipeline.unscopedRestP pre7 spec7 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre7.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq7]
  have hB0 : (dat7 V a c).arrAt 0 (cfg7 a).N = Vact c main_v8 := ((dat7 V a c).arrAt_in 0 rfl _).trans h8.symm
  have hB1 : (dat7 V a c).arrAt 1 (cfg7 a).N = Vact c main_v8 := ((dat7 V a c).arrAt_in 1 rfl _).trans h8.symm
  have hB2 : (dat7 V a c).arrAt 2 (cfg7 a).N = Vact c main_v8 := ((dat7 V a c).arrAt_in 2 rfl _).trans h8.symm
  have hB3 : (dat7 V a c).arrAt 3 (cfg7 a).N = Vact c main_v8 := ((dat7 V a c).arrAt_in 3 rfl _).trans h8.symm
  rw [hB0, hB1, hB2, hB3, hRP]
  unfold Zrest7
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v48 = (dat7 V a c).arrAt 4 (cfg7 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg7.lean ====
/-
  Region 7 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg7
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 7 over the thread state. -/
def reg7 : Pipeline.RegionSeg (pcfgs (F := F)) (adm m hR) (pdats m hR) () defs₀ Variants.none Lnone lvnone (7 : Fin 20) where
  win := winFacts₀7
  block_pos := block_pos7
  stage_whole := stage_whole7
  K := PEmpty
  osem k := k.elim
  ho := Pipeline.OwnSemFacts.none _
  hbody c := (body_obligation7 (Vfirst m) (adm7 m core0 (hR core0)) c).loose
  hwaits := Pipeline.hwaits_of_owed_zero _ _ _ _ Lnone lvnone (7 : Fin 20) fun _ _ => rfl
  pre c := iprop(StableHlo.held (c : Thread nD τ) (Pipeline.ucRefs τ sig) (VE7 m hR c) ∗ Rside c)
  post c := iprop(StableHlo.held (c : Thread nD τ) (Pipeline.ucRefs τ sig) (VX7 m hR c) ∗ Rside c)
  X c := iprop(∃ r, prngReg c r)
  Y c := Ykeep7 (adm7 m core0 (hR core0)) c
  Z c := Zrest7 (VE7 m hR) c
  hentry c := hentry7 (VE7 m hR) (Vfirst m) (adm7 m core0 (hR core0)) c Lnone lvnone (ent_xtab7 m hR c) (ent_out7 m hR c) (ent_pf7 m hR c)
  hin c := hin7 (Vfirst m) (adm7 m core0 (hR core0)) c
  hout c := hout7 (Vfirst m) (adm7 m core0 (hR core0)) c
  hexit c := hexit7 (VE7 m hR) (Vfirst m) (adm7 m core0 (hR core0)) c (VX7 m hR) (ent_xtab7 m hR c) (ext_xtab7 m hR c) (ext_out7 m hR c)
    (ext_pf7 m hR c) (ext_rest7 m hR c)

end Cert.Kernel.Gen

end
-- ==== Proof.KW.Seg8.lean ====
/-
  Region 8 of the gather-and-norm program, second half: how the region is entered and left.

  Between two segments of the program a core holds every unscoped buffer whole. Region 8 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region8
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg8 (F := F)).Adm)

/-- What bypasses region 8: every unscoped buffer that is neither one of its two arrays nor one of its four tables,
    and the part of the point table's share the four input windows do not need. -/
def Zrest8 (c : Dev nD) : sProp 𝕄 :=
  iprop(Pipeline.unscopedRestP (Ix := Unit) (Name := ℕ) (U := UR sig nD τ) (Lvl := ℕ) pre8 spec8 c (fun b => Vact c b)
    ∗ (((c.tc : Thread nD τ).loc main_v8) ↦{Transfers.shareDrop fullShare 4} Vact c main_v8))

/-- Region 8's arrays, window by window: the point table four times, at the four quarter shares, and the output
    array whole. -/
theorem arrays_eq8 (c : Dev nD)
    (G : (w : Fin (cfg8 a).W) → Buf (Elt F) (((cfg8 a).win w).arr.view.loc (c.tc : Thread nD τ))) :
    (dat8 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v53) ↦{fullShare} G 4)) : sProp 𝕄) := by
  unfold Dat.arrays
  rw [show (bigSep Finset.univ fun w : Fin (cfg8 a).W =>
          ((((cfg8 a).win w).arr.view.loc (c.tc : Thread nD τ)) ↦[((cfg8 a).win w).arr.view.set]{(dat8 V a c).share w} G w : sProp 𝕄))
        = bigSep Finset.univ fun w : Fin (cfg8 a).W =>
          ((((c.tc : Thread nD τ).loc (Pipeline.arrRef spec8 w)) ↦{(dat8 V a c).share w} G w : sProp 𝕄))
      from bigSep_congr fun w _ => by rw [(arr_whole8 w).set_eq_univ]]
  rw [bigSep_W8]
  have hs0 : (dat8 V a c).share 0 = Transfers.shareTok fullShare 4 0 := rfl
  have hs1 : (dat8 V a c).share 1 = Transfers.shareTok fullShare 4 1 := rfl
  have hs2 : (dat8 V a c).share 2 = Transfers.shareTok fullShare 4 2 := rfl
  have hs3 : (dat8 V a c).share 3 = Transfers.shareTok fullShare 4 3 := rfl
  have hs4 : (dat8 V a c).share 4 = fullShare := rfl
  rw [hs0, hs1, hs2, hs3, hs4]

theorem hentry8 (c : Dev nD) (L : GSem nD τ sig → Finset Unit) (lv : GSem nD τ sig → Unit → ℕ)
    (h8 : Vact c main_v8 = V c main_v8) (h13 : Vact c main_v53 = V c main_v53)
    (hpf : ∀ k, Vact c (pre8.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat8 V a c).arrays ((dat8 V a c).arrAt · 0)
          ∗ Pipeline.prefHeld pre8 c (fun _ => fullShare) a.1
          ∗ (dat8 V a c).owesAt () 0 ∗ (∃ r, prngReg c r) ∗ Zrest8 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec8 c (fun b => Vact c b) ∗ Pipeline.unscopedRest spec8 c (fun b => Vact c b)) :=
    Pipeline.PerCore.unscopedBufs_split₀ (fun (_ : Dev nD) (_ : Fin 1) => cfg8 a) (0 : Fin 1) c winFacts₀8.arr_unscoped _
  rw [e2, Pipeline.unscopedRest_split preFacts8 c _]
  have hImg : (Finset.univ.image (Pipeline.arrRef spec8) : Finset (Ref sig .tc)) = {main_v8, main_v53} := by decide
  unfold Pipeline.arrBufs
  rw [hImg, bigSep_pair main_v8 main_v53 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq8]
  have hA0 : (dat8 V a c).arrAt 0 0 = Vact c main_v8 := h8.symm
  have hA1 : (dat8 V a c).arrAt 1 0 = Vact c main_v8 := h8.symm
  have hA2 : (dat8 V a c).arrAt 2 0 = Vact c main_v8 := h8.symm
  have hA3 : (dat8 V a c).arrAt 3 0 = Vact c main_v8 := h8.symm
  have hA4 : (dat8 V a c).arrAt 4 0 = Vact c main_v53 := h13.symm
  rw [hA0, hA1, hA2, hA3, hA4]
  have hP : (fun k => Vact c (pre8.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest8
  isplitl [Hrest]; · iexact Hrest
  iexact Hdrop

/-- The invariant at the first point: the scoped buffers no window stages, the generator register, the four tables. -/
theorem hin8 (c : Dev nD) :
    iprop((∃ r, prngReg c r) ∗ Pipeline.prefHeld pre8 c (fun _ => fullShare) a.1
        ∗ Pipeline.scopedRest (Ix := Unit) (Name := ℕ) (U := UR sig nD τ) (Lvl := ℕ) (Val := Elt F) spec8 c)
      ⊢ ((dat8 V a c).Φ 0 : sProp 𝕄) := by
  rw [show (dat8 V a c).Φ 0 = iprop(Pipeline.ΦA spec8 c ∗ Pipeline.prefHeld pre8 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep8 (c : Dev nD) : sProp 𝕄 :=
  iprop((∃ r, prngReg c r) ∗ Pipeline.prefHeld pre8 c (fun _ => fullShare) a.1)

theorem hout8 (c : Dev nD) :
    ((dat8 V a c).Φ (Fin.last (cfg8 a).N) : sProp 𝕄)
      ⊢ iprop(Ykeep8 a c ∗ Pipeline.ownSems0 (fun k : PEmpty => k.elim) c
          ∗ Pipeline.scopedRest (Ix := Unit) (Name := ℕ) (U := UR sig nD τ) (Lvl := ℕ) (Val := Elt F) spec8 c) := by
  rw [Pipeline.ownSems0_none,
    show (dat8 V a c).Φ (Fin.last (cfg8 a).N) = iprop(Pipeline.ΦA spec8 c ∗ Pipeline.prefHeld pre8 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit8 (c : Dev nD) (Vact' : Dev nD → Valuation τ sig (Elt F))
    (h8 : Vact c main_v8 = V c main_v8)
    (h8' : Vact' c main_v8 = Vact c main_v8) (h13' : Vact' c main_v53 = (dat8 V a c).arrAt 4 (cfg8 a).N)
    (hpf : ∀ k, Vact' c (pre8.ref k) = a.1 k)
    (hrest : ∀ b : Ref sig .tc, b ≠ main_v53 → Vact' c b = Vact c b) :
    iprop((dat8 V a c).arrays ((dat8 V a c).arrAt · (cfg8 a).N) ∗ (dat8 V a c).owesAt () (Fin.last (cfg8 a).N)
        ∗ Ykeep8 a c ∗ Zrest8 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec8 c (fun b => Vact' c b) ∗ Pipeline.unscopedRest spec8 c (fun b => Vact' c b)) :=
    Pipeline.PerCore.unscopedBufs_split₀ (fun (_ : Dev nD) (_ : Fin 1) => cfg8 a) (0 : Fin 1) c winFacts₀8.arr_unscoped _
  rw [e2, Pipeline.unscopedRest_split preFacts8 c _]
  have hImg : (Finset.univ.image (Pipeline.arrRef spec8) : Finset (Ref sig .tc)) = {main_v8, main_v53} := by decide
  unfold Pipeline.arrBufs
  rw [hImg, bigSep_pair main_v8 main_v53 (by decide)]
  have hRP : (Pipeline.unscopedRestP (Ix := Unit) (Name := ℕ) (U := UR sig nD τ) (Lvl := ℕ) pre8 spec8 c (fun b => Vact' c b) : sProp 𝕄)
      = Pipeline.unscopedRestP pre8 spec8 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre8.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq8]
  have hB0 : (dat8 V a c).arrAt 0 (cfg8 a).N = Vact c main_v8 := ((dat8 V a c).arrAt_in 0 rfl _).trans h8.symm
  have hB1 : (dat8 V a c).arrAt 1 (cfg8 a).N = Vact c main_v8 := ((dat8 V a c).arrAt_in 1 rfl _).trans h8.symm
  have hB2 : (dat8 V a c).arrAt 2 (cfg8 a).N = Vact c main_v8 := ((dat8 V a c).arrAt_in 2 rfl _).trans h8.symm
  have hB3 : (dat8 V a c).arrAt 3 (cfg8 a).N = Vact c main_v8 := ((dat8 V a c).arrAt_in 3 rfl _).trans h8.symm
  rw [hB0, hB1, hB2, hB3, hRP]
  unfold Zrest8
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v53 = (dat8 V a c).arrAt 4 (cfg8 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg8.lean ====
/-
  Region 8 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg8
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 8 over the thread state. -/
def reg8 : Pipeline.RegionSeg (pcfgs (F := F)) (adm m hR) (pdats m hR) () defs₀ Variants.none Lnone lvnone (8 : Fin 20) where
  win := winFacts₀8
  block_pos := block_pos8
  stage_whole := stage_whole8
  K := PEmpty
  osem k := k.elim
  ho := Pipeline.OwnSemFacts.none _
  hbody c := (body_obligation8 (Vfirst m) (adm8 m core0 (hR core0)) c).loose
  hwaits := Pipeline.hwaits_of_owed_zero _ _ _ _ Lnone lvnone (8 : Fin 20) fun _ _ => rfl
  pre c := iprop(StableHlo.held (c : Thread nD τ) (Pipeline.ucRefs τ sig) (VE8 m hR c) ∗ Rside c)
  post c := iprop(StableHlo.held (c : Thread nD τ) (Pipeline.ucRefs τ sig) (VX8 m hR c) ∗ Rside c)
  X c := iprop(∃ r, prngReg c r)
  Y c := Ykeep8 (adm8 m core0 (hR core0)) c
  Z c := Zrest8 (VE8 m hR) c
  hentry c := hentry8 (VE8 m hR) (Vfirst m) (adm8 m core0 (hR core0)) c Lnone lvnone (ent_xtab8 m hR c) (ent_out8 m hR c) (ent_pf8 m hR c)
  hin c := hin8 (Vfirst m) (adm8 m core0 (hR core0)) c
  hout c := hout8 (Vfirst m) (adm8 m core0 (hR core0)) c
  hexit c := hexit8 (VE8 m hR) (Vfirst m) (adm8 m core0 (hR core0)) c (VX8 m hR) (ent_xtab8 m hR c) (ext_xtab8 m hR c) (ext_out8 m hR c)
    (ext_pf8 m hR c) (ext_rest8 m hR c)

end Cert.Kernel.Gen

end
-- ==== Proof.KW.Seg9.lean ====
/-
  Region 9 of the gather-and-norm program, second half: how the region is entered and left.

  Between two segments of the program a core holds every unscoped buffer whole. Region 9 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region9
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg9 (F := F)).Adm)

/-- What bypasses region 9: every unscoped buffer that is neither one of its two arrays nor one of its four tables,
    and the part of the point table's share the four input windows do not need. -/
def Zrest9 (c : Dev nD) : sProp 𝕄 :=
  iprop(Pipeline.unscopedRestP (Ix := Unit) (Name := ℕ) (U := UR sig nD τ) (Lvl := ℕ) pre9 spec9 c (fun b => Vact c b)
    ∗ (((c.tc : Thread nD τ).loc main_v8) ↦{Transfers.shareDrop fullShare 4} Vact c main_v8))

/-- Region 9's arrays, window by window: the point table four times, at the four quarter shares, and the output
    array whole. -/
theorem arrays_eq9 (c : Dev nD)
    (G : (w : Fin (cfg9 a).W) → Buf (Elt F) (((cfg9 a).win w).arr.view.loc (c.tc : Thread nD τ))) :
    (dat9 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v58) ↦{fullShare} G 4)) : sProp 𝕄) := by
  unfold Dat.arrays
  rw [show (bigSep Finset.univ fun w : Fin (cfg9 a).W =>
          ((((cfg9 a).win w).arr.view.loc (c.tc : Thread nD τ)) ↦[((cfg9 a).win w).arr.view.set]{(dat9 V a c).share w} G w : sProp 𝕄))
        = bigSep Finset.univ fun w : Fin (cfg9 a).W =>
          ((((c.tc : Thread nD τ).loc (Pipeline.arrRef spec9 w)) ↦{(dat9 V a c).share w} G w : sProp 𝕄))
      from bigSep_congr fun w _ => by rw [(arr_whole9 w).set_eq_univ]]
  rw [bigSep_W9]
  have hs0 : (dat9 V a c).share 0 = Transfers.shareTok fullShare 4 0 := rfl
  have hs1 : (dat9 V a c).share 1 = Transfers.shareTok fullShare 4 1 := rfl
  have hs2 : (dat9 V a c).share 2 = Transfers.shareTok fullShare 4 2 := rfl
  have hs3 : (dat9 V a c).share 3 = Transfers.shareTok fullShare 4 3 := rfl
  have hs4 : (dat9 V a c).share 4 = fullShare := rfl
  rw [hs0, hs1, hs2, hs3, hs4]

theorem hentry9 (c : Dev nD) (L : GSem nD τ sig → Finset Unit) (lv : GSem nD τ sig → Unit → ℕ)
    (h8 : Vact c main_v8 = V c main_v8) (h13 : Vact c main_v58 = V c main_v58)
    (hpf : ∀ k, Vact c (pre9.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat9 V a c).arrays ((dat9 V a c).arrAt · 0)
          ∗ Pipeline.prefHeld pre9 c (fun _ => fullShare) a.1
          ∗ (dat9 V a c).owesAt () 0 ∗ (∃ r, prngReg c r) ∗ Zrest9 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec9 c (fun b => Vact c b) ∗ Pipeline.unscopedRest spec9 c (fun b => Vact c b)) :=
    Pipeline.PerCore.unscopedBufs_split₀ (fun (_ : Dev nD) (_ : Fin 1) => cfg9 a) (0 : Fin 1) c winFacts₀9.arr_unscoped _
  rw [e2, Pipeline.unscopedRest_split preFacts9 c _]
  have hImg : (Finset.univ.image (Pipeline.arrRef spec9) : Finset (Ref sig .tc)) = {main_v8, main_v58} := by decide
  unfold Pipeline.arrBufs
  rw [hImg, bigSep_pair main_v8 main_v58 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq9]
  have hA0 : (dat9 V a c).arrAt 0 0 = Vact c main_v8 := h8.symm
  have hA1 : (dat9 V a c).arrAt 1 0 = Vact c main_v8 := h8.symm
  have hA2 : (dat9 V a c).arrAt 2 0 = Vact c main_v8 := h8.symm
  have hA3 : (dat9 V a c).arrAt 3 0 = Vact c main_v8 := h8.symm
  have hA4 : (dat9 V a c).arrAt 4 0 = Vact c main_v58 := h13.symm
  rw [hA0, hA1, hA2, hA3, hA4]
  have hP : (fun k => Vact c (pre9.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest9
  isplitl [Hrest]; · iexact Hrest
  iexact Hdrop

/-- The invariant at the first point: the scoped buffers no window stages, the generator register, the four tables. -/
theorem hin9 (c : Dev nD) :
    iprop((∃ r, prngReg c r) ∗ Pipeline.prefHeld pre9 c (fun _ => fullShare) a.1
        ∗ Pipeline.scopedRest (Ix := Unit) (Name := ℕ) (U := UR sig nD τ) (Lvl := ℕ) (Val := Elt F) spec9 c)
      ⊢ ((dat9 V a c).Φ 0 : sProp 𝕄) := by
  rw [show (dat9 V a c).Φ 0 = iprop(Pipeline.ΦA spec9 c ∗ Pipeline.prefHeld pre9 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep9 (c : Dev nD) : sProp 𝕄 :=
  iprop((∃ r, prngReg c r) ∗ Pipeline.prefHeld pre9 c (fun _ => fullShare) a.1)

theorem hout9 (c : Dev nD) :
    ((dat9 V a c).Φ (Fin.last (cfg9 a).N) : sProp 𝕄)
      ⊢ iprop(Ykeep9 a c ∗ Pipeline.ownSems0 (fun k : PEmpty => k.elim) c
          ∗ Pipeline.scopedRest (Ix := Unit) (Name := ℕ) (U := UR sig nD τ) (Lvl := ℕ) (Val := Elt F) spec9 c) := by
  rw [Pipeline.ownSems0_none,
    show (dat9 V a c).Φ (Fin.last (cfg9 a).N) = iprop(Pipeline.ΦA spec9 c ∗ Pipeline.prefHeld pre9 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit9 (c : Dev nD) (Vact' : Dev nD → Valuation τ sig (Elt F))
    (h8 : Vact c main_v8 = V c main_v8)
    (h8' : Vact' c main_v8 = Vact c main_v8) (h13' : Vact' c main_v58 = (dat9 V a c).arrAt 4 (cfg9 a).N)
    (hpf : ∀ k, Vact' c (pre9.ref k) = a.1 k)
    (hrest : ∀ b : Ref sig .tc, b ≠ main_v58 → Vact' c b = Vact c b) :
    iprop((dat9 V a c).arrays ((dat9 V a c).arrAt · (cfg9 a).N) ∗ (dat9 V a c).owesAt () (Fin.last (cfg9 a).N)
        ∗ Ykeep9 a c ∗ Zrest9 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec9 c (fun b => Vact' c b) ∗ Pipeline.unscopedRest spec9 c (fun b => Vact' c b)) :=
    Pipeline.PerCore.unscopedBufs_split₀ (fun (_ : Dev nD) (_ : Fin 1) => cfg9 a) (0 : Fin 1) c winFacts₀9.arr_unscoped _
  rw [e2, Pipeline.unscopedRest_split preFacts9 c _]
  have hImg : (Finset.univ.image (Pipeline.arrRef spec9) : Finset (Ref sig .tc)) = {main_v8, main_v58} := by decide
  unfold Pipeline.arrBufs
  rw [hImg, bigSep_pair main_v8 main_v58 (by decide)]
  have hRP : (Pipeline.unscopedRestP (Ix := Unit) (Name := ℕ) (U := UR sig nD τ) (Lvl := ℕ) pre9 spec9 c (fun b => Vact' c b) : sProp 𝕄)
      = Pipeline.unscopedRestP pre9 spec9 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre9.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq9]
  have hB0 : (dat9 V a c).arrAt 0 (cfg9 a).N = Vact c main_v8 := ((dat9 V a c).arrAt_in 0 rfl _).trans h8.symm
  have hB1 : (dat9 V a c).arrAt 1 (cfg9 a).N = Vact c main_v8 := ((dat9 V a c).arrAt_in 1 rfl _).trans h8.symm
  have hB2 : (dat9 V a c).arrAt 2 (cfg9 a).N = Vact c main_v8 := ((dat9 V a c).arrAt_in 2 rfl _).trans h8.symm
  have hB3 : (dat9 V a c).arrAt 3 (cfg9 a).N = Vact c main_v8 := ((dat9 V a c).arrAt_in 3 rfl _).trans h8.symm
  rw [hB0, hB1, hB2, hB3, hRP]
  unfold Zrest9
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v58 = (dat9 V a c).arrAt 4 (cfg9 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg9.lean ====
/-
  Region 9 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg9
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 9 over the thread state. -/
def reg9 : Pipeline.RegionSeg (pcfgs (F := F)) (adm m hR) (pdats m hR) () defs₀ Variants.none Lnone lvnone (9 : Fin 20) where
  win := winFacts₀9
  block_pos := block_pos9
  stage_whole := stage_whole9
  K := PEmpty
  osem k := k.elim
  ho := Pipeline.OwnSemFacts.none _
  hbody c := (body_obligation9 (Vfirst m) (adm9 m core0 (hR core0)) c).loose
  hwaits := Pipeline.hwaits_of_owed_zero _ _ _ _ Lnone lvnone (9 : Fin 20) fun _ _ => rfl
  pre c := iprop(StableHlo.held (c : Thread nD τ) (Pipeline.ucRefs τ sig) (VE9 m hR c) ∗ Rside c)
  post c := iprop(StableHlo.held (c : Thread nD τ) (Pipeline.ucRefs τ sig) (VX9 m hR c) ∗ Rside c)
  X c := iprop(∃ r, prngReg c r)
  Y c := Ykeep9 (adm9 m core0 (hR core0)) c
  Z c := Zrest9 (VE9 m hR) c
  hentry c := hentry9 (VE9 m hR) (Vfirst m) (adm9 m core0 (hR core0)) c Lnone lvnone (ent_xtab9 m hR c) (ent_out9 m hR c) (ent_pf9 m hR c)
  hin c := hin9 (Vfirst m) (adm9 m core0 (hR core0)) c
  hout c := hout9 (Vfirst m) (adm9 m core0 (hR core0)) c
  hexit c := hexit9 (VE9 m hR) (Vfirst m) (adm9 m core0 (hR core0)) c (VX9 m hR) (ent_xtab9 m hR c) (ext_xtab9 m hR c) (ext_out9 m hR c)
    (ext_pf9 m hR c) (ext_rest9 m hR c)

end Cert.Kernel.Gen

end
-- ==== Proof.KW.Seg10.lean ====
/-
  Region 10 of the gather-and-norm program, second half: how the region is entered and left.

  Between two segments of the program a core holds every unscoped buffer whole. Region 10 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region10
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg10 (F := F)).Adm)

/-- What bypasses region 10: every unscoped buffer that is neither one of its two arrays nor one of its four tables,
    and the part of the point table's share the four input windows do not need. -/
def Zrest10 (c : Dev nD) : sProp 𝕄 :=
  iprop(Pipeline.unscopedRestP (Ix := Unit) (Name := ℕ) (U := UR sig nD τ) (Lvl := ℕ) pre10 spec10 c (fun b => Vact c b)
    ∗ (((c.tc : Thread nD τ).loc main_v8) ↦{Transfers.shareDrop fullShare 4} Vact c main_v8))

/-- Region 10's arrays, window by window: the point table four times, at the four quarter shares, and the output
    array whole. -/
theorem arrays_eq10 (c : Dev nD)
    (G : (w : Fin (cfg10 a).W) → Buf (Elt F) (((cfg10 a).win w).arr.view.loc (c.tc : Thread nD τ))) :
    (dat10 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v63) ↦{fullShare} G 4)) : sProp 𝕄) := by
  unfold Dat.arrays
  rw [show (bigSep Finset.univ fun w : Fin (cfg10 a).W =>
          ((((cfg10 a).win w).arr.view.loc (c.tc : Thread nD τ)) ↦[((cfg10 a).win w).arr.view.set]{(dat10 V a c).share w} G w : sProp 𝕄))
        = bigSep Finset.univ fun w : Fin (cfg10 a).W =>
          ((((c.tc : Thread nD τ).loc (Pipeline.arrRef spec10 w)) ↦{(dat10 V a c).share w} G w : sProp 𝕄))
      from bigSep_congr fun w _ => by rw [(arr_whole10 w).set_eq_univ]]
  rw [bigSep_W10]
  have hs0 : (dat10 V a c).share 0 = Transfers.shareTok fullShare 4 0 := rfl
  have hs1 : (dat10 V a c).share 1 = Transfers.shareTok fullShare 4 1 := rfl
  have hs2 : (dat10 V a c).share 2 = Transfers.shareTok fullShare 4 2 := rfl
  have hs3 : (dat10 V a c).share 3 = Transfers.shareTok fullShare 4 3 := rfl
  have hs4 : (dat10 V a c).share 4 = fullShare := rfl
  rw [hs0, hs1, hs2, hs3, hs4]

theorem hentry10 (c : Dev nD) (L : GSem nD τ sig → Finset Unit) (lv : GSem nD τ sig → Unit → ℕ)
    (h8 : Vact c main_v8 = V c main_v8) (h13 : Vact c main_v63 = V c main_v63)
    (hpf : ∀ k, Vact c (pre10.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat10 V a c).arrays ((dat10 V a c).arrAt · 0)
          ∗ Pipeline.prefHeld pre10 c (fun _ => fullShare) a.1
          ∗ (dat10 V a c).owesAt () 0 ∗ (∃ r, prngReg c r) ∗ Zrest10 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec10 c (fun b => Vact c b) ∗ Pipeline.unscopedRest spec10 c (fun b => Vact c b)) :=
    Pipeline.PerCore.unscopedBufs_split₀ (fun (_ : Dev nD) (_ : Fin 1) => cfg10 a) (0 : Fin 1) c winFacts₀10.arr_unscoped _
  rw [e2, Pipeline.unscopedRest_split preFacts10 c _]
  have hImg : (Finset.univ.image (Pipeline.arrRef spec10) : Finset (Ref sig .tc)) = {main_v8, main_v63} := by decide
  unfold Pipeline.arrBufs
  rw [hImg, bigSep_pair main_v8 main_v63 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq10]
  have hA0 : (dat10 V a c).arrAt 0 0 = Vact c main_v8 := h8.symm
  have hA1 : (dat10 V a c).arrAt 1 0 = Vact c main_v8 := h8.symm
  have hA2 : (dat10 V a c).arrAt 2 0 = Vact c main_v8 := h8.symm
  have hA3 : (dat10 V a c).arrAt 3 0 = Vact c main_v8 := h8.symm
  have hA4 : (dat10 V a c).arrAt 4 0 = Vact c main_v63 := h13.symm
  rw [hA0, hA1, hA2, hA3, hA4]
  have hP : (fun k => Vact c (pre10.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest10
  isplitl [Hrest]; · iexact Hrest
  iexact Hdrop

/-- The invariant at the first point: the scoped buffers no window stages, the generator register, the four tables. -/
theorem hin10 (c : Dev nD) :
    iprop((∃ r, prngReg c r) ∗ Pipeline.prefHeld pre10 c (fun _ => fullShare) a.1
        ∗ Pipeline.scopedRest (Ix := Unit) (Name := ℕ) (U := UR sig nD τ) (Lvl := ℕ) (Val := Elt F) spec10 c)
      ⊢ ((dat10 V a c).Φ 0 : sProp 𝕄) := by
  rw [show (dat10 V a c).Φ 0 = iprop(Pipeline.ΦA spec10 c ∗ Pipeline.prefHeld pre10 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep10 (c : Dev nD) : sProp 𝕄 :=
  iprop((∃ r, prngReg c r) ∗ Pipeline.prefHeld pre10 c (fun _ => fullShare) a.1)

theorem hout10 (c : Dev nD) :
    ((dat10 V a c).Φ (Fin.last (cfg10 a).N) : sProp 𝕄)
      ⊢ iprop(Ykeep10 a c ∗ Pipeline.ownSems0 (fun k : PEmpty => k.elim) c
          ∗ Pipeline.scopedRest (Ix := Unit) (Name := ℕ) (U := UR sig nD τ) (Lvl := ℕ) (Val := Elt F) spec10 c) := by
  rw [Pipeline.ownSems0_none,
    show (dat10 V a c).Φ (Fin.last (cfg10 a).N) = iprop(Pipeline.ΦA spec10 c ∗ Pipeline.prefHeld pre10 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit10 (c : Dev nD) (Vact' : Dev nD → Valuation τ sig (Elt F))
    (h8 : Vact c main_v8 = V c main_v8)
    (h8' : Vact' c main_v8 = Vact c main_v8) (h13' : Vact' c main_v63 = (dat10 V a c).arrAt 4 (cfg10 a).N)
    (hpf : ∀ k, Vact' c (pre10.ref k) = a.1 k)
    (hrest : ∀ b : Ref sig .tc, b ≠ main_v63 → Vact' c b = Vact c b) :
    iprop((dat10 V a c).arrays ((dat10 V a c).arrAt · (cfg10 a).N) ∗ (dat10 V a c).owesAt () (Fin.last (cfg10 a).N)
        ∗ Ykeep10 a c ∗ Zrest10 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec10 c (fun b => Vact' c b) ∗ Pipeline.unscopedRest spec10 c (fun b => Vact' c b)) :=
    Pipeline.PerCore.unscopedBufs_split₀ (fun (_ : Dev nD) (_ : Fin 1) => cfg10 a) (0 : Fin 1) c winFacts₀10.arr_unscoped _
  rw [e2, Pipeline.unscopedRest_split preFacts10 c _]
  have hImg : (Finset.univ.image (Pipeline.arrRef spec10) : Finset (Ref sig .tc)) = {main_v8, main_v63} := by decide
  unfold Pipeline.arrBufs
  rw [hImg, bigSep_pair main_v8 main_v63 (by decide)]
  have hRP : (Pipeline.unscopedRestP (Ix := Unit) (Name := ℕ) (U := UR sig nD τ) (Lvl := ℕ) pre10 spec10 c (fun b => Vact' c b) : sProp 𝕄)
      = Pipeline.unscopedRestP pre10 spec10 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre10.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq10]
  have hB0 : (dat10 V a c).arrAt 0 (cfg10 a).N = Vact c main_v8 := ((dat10 V a c).arrAt_in 0 rfl _).trans h8.symm
  have hB1 : (dat10 V a c).arrAt 1 (cfg10 a).N = Vact c main_v8 := ((dat10 V a c).arrAt_in 1 rfl _).trans h8.symm
  have hB2 : (dat10 V a c).arrAt 2 (cfg10 a).N = Vact c main_v8 := ((dat10 V a c).arrAt_in 2 rfl _).trans h8.symm
  have hB3 : (dat10 V a c).arrAt 3 (cfg10 a).N = Vact c main_v8 := ((dat10 V a c).arrAt_in 3 rfl _).trans h8.symm
  rw [hB0, hB1, hB2, hB3, hRP]
  unfold Zrest10
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v63 = (dat10 V a c).arrAt 4 (cfg10 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg10.lean ====
/-
  Region 10 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg10
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 10 over the thread state. -/
def reg10 : Pipeline.RegionSeg (pcfgs (F := F)) (adm m hR) (pdats m hR) () defs₀ Variants.none Lnone lvnone (10 : Fin 20) where
  win := winFacts₀10
  block_pos := block_pos10
  stage_whole := stage_whole10
  K := PEmpty
  osem k := k.elim
  ho := Pipeline.OwnSemFacts.none _
  hbody c := (body_obligation10 (Vfirst m) (adm10 m core0 (hR core0)) c).loose
  hwaits := Pipeline.hwaits_of_owed_zero _ _ _ _ Lnone lvnone (10 : Fin 20) fun _ _ => rfl
  pre c := iprop(StableHlo.held (c : Thread nD τ) (Pipeline.ucRefs τ sig) (VE10 m hR c) ∗ Rside c)
  post c := iprop(StableHlo.held (c : Thread nD τ) (Pipeline.ucRefs τ sig) (VX10 m hR c) ∗ Rside c)
  X c := iprop(∃ r, prngReg c r)
  Y c := Ykeep10 (adm10 m core0 (hR core0)) c
  Z c := Zrest10 (VE10 m hR) c
  hentry c := hentry10 (VE10 m hR) (Vfirst m) (adm10 m core0 (hR core0)) c Lnone lvnone (ent_xtab10 m hR c) (ent_out10 m hR c) (ent_pf10 m hR c)
  hin c := hin10 (Vfirst m) (adm10 m core0 (hR core0)) c
  hout c := hout10 (Vfirst m) (adm10 m core0 (hR core0)) c
  hexit c := hexit10 (VE10 m hR) (Vfirst m) (adm10 m core0 (hR core0)) c (VX10 m hR) (ent_xtab10 m hR c) (ext_xtab10 m hR c) (ext_out10 m hR c)
    (ext_pf10 m hR c) (ext_rest10 m hR c)

end Cert.Kernel.Gen

end
-- ==== Proof.KW.Seg11.lean ====
/-
  Region 11 of the gather-and-norm program, second half: how the region is entered and left.

  Between two segments of the program a core holds every unscoped buffer whole. Region 11 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region11
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg11 (F := F)).Adm)

/-- What bypasses region 11: every unscoped buffer that is neither one of its two arrays nor one of its four tables,
    and the part of the point table's share the four input windows do not need. -/
def Zrest11 (c : Dev nD) : sProp 𝕄 :=
  iprop(Pipeline.unscopedRestP (Ix := Unit) (Name := ℕ) (U := UR sig nD τ) (Lvl := ℕ) pre11 spec11 c (fun b => Vact c b)
    ∗ (((c.tc : Thread nD τ).loc main_v8) ↦{Transfers.shareDrop fullShare 4} Vact c main_v8))

/-- Region 11's arrays, window by window: the point table four times, at the four quarter shares, and the output
    array whole. -/
theorem arrays_eq11 (c : Dev nD)
    (G : (w : Fin (cfg11 a).W) → Buf (Elt F) (((cfg11 a).win w).arr.view.loc (c.tc : Thread nD τ))) :
    (dat11 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v68) ↦{fullShare} G 4)) : sProp 𝕄) := by
  unfold Dat.arrays
  rw [show (bigSep Finset.univ fun w : Fin (cfg11 a).W =>
          ((((cfg11 a).win w).arr.view.loc (c.tc : Thread nD τ)) ↦[((cfg11 a).win w).arr.view.set]{(dat11 V a c).share w} G w : sProp 𝕄))
        = bigSep Finset.univ fun w : Fin (cfg11 a).W =>
          ((((c.tc : Thread nD τ).loc (Pipeline.arrRef spec11 w)) ↦{(dat11 V a c).share w} G w : sProp 𝕄))
      from bigSep_congr fun w _ => by rw [(arr_whole11 w).set_eq_univ]]
  rw [bigSep_W11]
  have hs0 : (dat11 V a c).share 0 = Transfers.shareTok fullShare 4 0 := rfl
  have hs1 : (dat11 V a c).share 1 = Transfers.shareTok fullShare 4 1 := rfl
  have hs2 : (dat11 V a c).share 2 = Transfers.shareTok fullShare 4 2 := rfl
  have hs3 : (dat11 V a c).share 3 = Transfers.shareTok fullShare 4 3 := rfl
  have hs4 : (dat11 V a c).share 4 = fullShare := rfl
  rw [hs0, hs1, hs2, hs3, hs4]

theorem hentry11 (c : Dev nD) (L : GSem nD τ sig → Finset Unit) (lv : GSem nD τ sig → Unit → ℕ)
    (h8 : Vact c main_v8 = V c main_v8) (h13 : Vact c main_v68 = V c main_v68)
    (hpf : ∀ k, Vact c (pre11.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat11 V a c).arrays ((dat11 V a c).arrAt · 0)
          ∗ Pipeline.prefHeld pre11 c (fun _ => fullShare) a.1
          ∗ (dat11 V a c).owesAt () 0 ∗ (∃ r, prngReg c r) ∗ Zrest11 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec11 c (fun b => Vact c b) ∗ Pipeline.unscopedRest spec11 c (fun b => Vact c b)) :=
    Pipeline.PerCore.unscopedBufs_split₀ (fun (_ : Dev nD) (_ : Fin 1) => cfg11 a) (0 : Fin 1) c winFacts₀11.arr_unscoped _
  rw [e2, Pipeline.unscopedRest_split preFacts11 c _]
  have hImg : (Finset.univ.image (Pipeline.arrRef spec11) : Finset (Ref sig .tc)) = {main_v8, main_v68} := by decide
  unfold Pipeline.arrBufs
  rw [hImg, bigSep_pair main_v8 main_v68 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq11]
  have hA0 : (dat11 V a c).arrAt 0 0 = Vact c main_v8 := h8.symm
  have hA1 : (dat11 V a c).arrAt 1 0 = Vact c main_v8 := h8.symm
  have hA2 : (dat11 V a c).arrAt 2 0 = Vact c main_v8 := h8.symm
  have hA3 : (dat11 V a c).arrAt 3 0 = Vact c main_v8 := h8.symm
  have hA4 : (dat11 V a c).arrAt 4 0 = Vact c main_v68 := h13.symm
  rw [hA0, hA1, hA2, hA3, hA4]
  have hP : (fun k => Vact c (pre11.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest11
  isplitl [Hrest]; · iexact Hrest
  iexact Hdrop

/-- The invariant at the first point: the scoped buffers no window stages, the generator register, the four tables. -/
theorem hin11 (c : Dev nD) :
    iprop((∃ r, prngReg c r) ∗ Pipeline.prefHeld pre11 c (fun _ => fullShare) a.1
        ∗ Pipeline.scopedRest (Ix := Unit) (Name := ℕ) (U := UR sig nD τ) (Lvl := ℕ) (Val := Elt F) spec11 c)
      ⊢ ((dat11 V a c).Φ 0 : sProp 𝕄) := by
  rw [show (dat11 V a c).Φ 0 = iprop(Pipeline.ΦA spec11 c ∗ Pipeline.prefHeld pre11 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep11 (c : Dev nD) : sProp 𝕄 :=
  iprop((∃ r, prngReg c r) ∗ Pipeline.prefHeld pre11 c (fun _ => fullShare) a.1)

theorem hout11 (c : Dev nD) :
    ((dat11 V a c).Φ (Fin.last (cfg11 a).N) : sProp 𝕄)
      ⊢ iprop(Ykeep11 a c ∗ Pipeline.ownSems0 (fun k : PEmpty => k.elim) c
          ∗ Pipeline.scopedRest (Ix := Unit) (Name := ℕ) (U := UR sig nD τ) (Lvl := ℕ) (Val := Elt F) spec11 c) := by
  rw [Pipeline.ownSems0_none,
    show (dat11 V a c).Φ (Fin.last (cfg11 a).N) = iprop(Pipeline.ΦA spec11 c ∗ Pipeline.prefHeld pre11 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit11 (c : Dev nD) (Vact' : Dev nD → Valuation τ sig (Elt F))
    (h8 : Vact c main_v8 = V c main_v8)
    (h8' : Vact' c main_v8 = Vact c main_v8) (h13' : Vact' c main_v68 = (dat11 V a c).arrAt 4 (cfg11 a).N)
    (hpf : ∀ k, Vact' c (pre11.ref k) = a.1 k)
    (hrest : ∀ b : Ref sig .tc, b ≠ main_v68 → Vact' c b = Vact c b) :
    iprop((dat11 V a c).arrays ((dat11 V a c).arrAt · (cfg11 a).N) ∗ (dat11 V a c).owesAt () (Fin.last (cfg11 a).N)
        ∗ Ykeep11 a c ∗ Zrest11 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec11 c (fun b => Vact' c b) ∗ Pipeline.unscopedRest spec11 c (fun b => Vact' c b)) :=
    Pipeline.PerCore.unscopedBufs_split₀ (fun (_ : Dev nD) (_ : Fin 1) => cfg11 a) (0 : Fin 1) c winFacts₀11.arr_unscoped _
  rw [e2, Pipeline.unscopedRest_split preFacts11 c _]
  have hImg : (Finset.univ.image (Pipeline.arrRef spec11) : Finset (Ref sig .tc)) = {main_v8, main_v68} := by decide
  unfold Pipeline.arrBufs
  rw [hImg, bigSep_pair main_v8 main_v68 (by decide)]
  have hRP : (Pipeline.unscopedRestP (Ix := Unit) (Name := ℕ) (U := UR sig nD τ) (Lvl := ℕ) pre11 spec11 c (fun b => Vact' c b) : sProp 𝕄)
      = Pipeline.unscopedRestP pre11 spec11 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre11.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq11]
  have hB0 : (dat11 V a c).arrAt 0 (cfg11 a).N = Vact c main_v8 := ((dat11 V a c).arrAt_in 0 rfl _).trans h8.symm
  have hB1 : (dat11 V a c).arrAt 1 (cfg11 a).N = Vact c main_v8 := ((dat11 V a c).arrAt_in 1 rfl _).trans h8.symm
  have hB2 : (dat11 V a c).arrAt 2 (cfg11 a).N = Vact c main_v8 := ((dat11 V a c).arrAt_in 2 rfl _).trans h8.symm
  have hB3 : (dat11 V a c).arrAt 3 (cfg11 a).N = Vact c main_v8 := ((dat11 V a c).arrAt_in 3 rfl _).trans h8.symm
  rw [hB0, hB1, hB2, hB3, hRP]
  unfold Zrest11
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v68 = (dat11 V a c).arrAt 4 (cfg11 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg11.lean ====
/-
  Region 11 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg11
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 11 over the thread state. -/
def reg11 : Pipeline.RegionSeg (pcfgs (F := F)) (adm m hR) (pdats m hR) () defs₀ Variants.none Lnone lvnone (11 : Fin 20) where
  win := winFacts₀11
  block_pos := block_pos11
  stage_whole := stage_whole11
  K := PEmpty
  osem k := k.elim
  ho := Pipeline.OwnSemFacts.none _
  hbody c := (body_obligation11 (Vfirst m) (adm11 m core0 (hR core0)) c).loose
  hwaits := Pipeline.hwaits_of_owed_zero _ _ _ _ Lnone lvnone (11 : Fin 20) fun _ _ => rfl
  pre c := iprop(StableHlo.held (c : Thread nD τ) (Pipeline.ucRefs τ sig) (VE11 m hR c) ∗ Rside c)
  post c := iprop(StableHlo.held (c : Thread nD τ) (Pipeline.ucRefs τ sig) (VX11 m hR c) ∗ Rside c)
  X c := iprop(∃ r, prngReg c r)
  Y c := Ykeep11 (adm11 m core0 (hR core0)) c
  Z c := Zrest11 (VE11 m hR) c
  hentry c := hentry11 (VE11 m hR) (Vfirst m) (adm11 m core0 (hR core0)) c Lnone lvnone (ent_xtab11 m hR c) (ent_out11 m hR c) (ent_pf11 m hR c)
  hin c := hin11 (Vfirst m) (adm11 m core0 (hR core0)) c
  hout c := hout11 (Vfirst m) (adm11 m core0 (hR core0)) c
  hexit c := hexit11 (VE11 m hR) (Vfirst m) (adm11 m core0 (hR core0)) c (VX11 m hR) (ent_xtab11 m hR c) (ext_xtab11 m hR c) (ext_out11 m hR c)
    (ext_pf11 m hR c) (ext_rest11 m hR c)

end Cert.Kernel.Gen

end
-- ==== Proof.KW.Seg12.lean ====
/-
  Region 12 of the gather-and-norm program, second half: how the region is entered and left.

  Between two segments of the program a core holds every unscoped buffer whole. Region 12 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region12
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg12 (F := F)).Adm)

/-- What bypasses region 12: every unscoped buffer that is neither one of its two arrays nor one of its four tables,
    and the part of the point table's share the four input windows do not need. -/
def Zrest12 (c : Dev nD) : sProp 𝕄 :=
  iprop(Pipeline.unscopedRestP (Ix := Unit) (Name := ℕ) (U := UR sig nD τ) (Lvl := ℕ) pre12 spec12 c (fun b => Vact c b)
    ∗ (((c.tc : Thread nD τ).loc main_v8) ↦{Transfers.shareDrop fullShare 4} Vact c main_v8))

/-- Region 12's arrays, window by window: the point table four times, at the four quarter shares, and the output
    array whole. -/
theorem arrays_eq12 (c : Dev nD)
    (G : (w : Fin (cfg12 a).W) → Buf (Elt F) (((cfg12 a).win w).arr.view.loc (c.tc : Thread nD τ))) :
    (dat12 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v73) ↦{fullShare} G 4)) : sProp 𝕄) := by
  unfold Dat.arrays
  rw [show (bigSep Finset.univ fun w : Fin (cfg12 a).W =>
          ((((cfg12 a).win w).arr.view.loc (c.tc : Thread nD τ)) ↦[((cfg12 a).win w).arr.view.set]{(dat12 V a c).share w} G w : sProp 𝕄))
        = bigSep Finset.univ fun w : Fin (cfg12 a).W =>
          ((((c.tc : Thread nD τ).loc (Pipeline.arrRef spec12 w)) ↦{(dat12 V a c).share w} G w : sProp 𝕄))
      from bigSep_congr fun w _ => by rw [(arr_whole12 w).set_eq_univ]]
  rw [bigSep_W12]
  have hs0 : (dat12 V a c).share 0 = Transfers.shareTok fullShare 4 0 := rfl
  have hs1 : (dat12 V a c).share 1 = Transfers.shareTok fullShare 4 1 := rfl
  have hs2 : (dat12 V a c).share 2 = Transfers.shareTok fullShare 4 2 := rfl
  have hs3 : (dat12 V a c).share 3 = Transfers.shareTok fullShare 4 3 := rfl
  have hs4 : (dat12 V a c).share 4 = fullShare := rfl
  rw [hs0, hs1, hs2, hs3, hs4]

theorem hentry12 (c : Dev nD) (L : GSem nD τ sig → Finset Unit) (lv : GSem nD τ sig → Unit → ℕ)
    (h8 : Vact c main_v8 = V c main_v8) (h13 : Vact c main_v73 = V c main_v73)
    (hpf : ∀ k, Vact c (pre12.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat12 V a c).arrays ((dat12 V a c).arrAt · 0)
          ∗ Pipeline.prefHeld pre12 c (fun _ => fullShare) a.1
          ∗ (dat12 V a c).owesAt () 0 ∗ (∃ r, prngReg c r) ∗ Zrest12 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec12 c (fun b => Vact c b) ∗ Pipeline.unscopedRest spec12 c (fun b => Vact c b)) :=
    Pipeline.PerCore.unscopedBufs_split₀ (fun (_ : Dev nD) (_ : Fin 1) => cfg12 a) (0 : Fin 1) c winFacts₀12.arr_unscoped _
  rw [e2, Pipeline.unscopedRest_split preFacts12 c _]
  have hImg : (Finset.univ.image (Pipeline.arrRef spec12) : Finset (Ref sig .tc)) = {main_v8, main_v73} := by decide
  unfold Pipeline.arrBufs
  rw [hImg, bigSep_pair main_v8 main_v73 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq12]
  have hA0 : (dat12 V a c).arrAt 0 0 = Vact c main_v8 := h8.symm
  have hA1 : (dat12 V a c).arrAt 1 0 = Vact c main_v8 := h8.symm
  have hA2 : (dat12 V a c).arrAt 2 0 = Vact c main_v8 := h8.symm
  have hA3 : (dat12 V a c).arrAt 3 0 = Vact c main_v8 := h8.symm
  have hA4 : (dat12 V a c).arrAt 4 0 = Vact c main_v73 := h13.symm
  rw [hA0, hA1, hA2, hA3, hA4]
  have hP : (fun k => Vact c (pre12.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest12
  isplitl [Hrest]; · iexact Hrest
  iexact Hdrop

/-- The invariant at the first point: the scoped buffers no window stages, the generator register, the four tables. -/
theorem hin12 (c : Dev nD) :
    iprop((∃ r, prngReg c r) ∗ Pipeline.prefHeld pre12 c (fun _ => fullShare) a.1
        ∗ Pipeline.scopedRest (Ix := Unit) (Name := ℕ) (U := UR sig nD τ) (Lvl := ℕ) (Val := Elt F) spec12 c)
      ⊢ ((dat12 V a c).Φ 0 : sProp 𝕄) := by
  rw [show (dat12 V a c).Φ 0 = iprop(Pipeline.ΦA spec12 c ∗ Pipeline.prefHeld pre12 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep12 (c : Dev nD) : sProp 𝕄 :=
  iprop((∃ r, prngReg c r) ∗ Pipeline.prefHeld pre12 c (fun _ => fullShare) a.1)

theorem hout12 (c : Dev nD) :
    ((dat12 V a c).Φ (Fin.last (cfg12 a).N) : sProp 𝕄)
      ⊢ iprop(Ykeep12 a c ∗ Pipeline.ownSems0 (fun k : PEmpty => k.elim) c
          ∗ Pipeline.scopedRest (Ix := Unit) (Name := ℕ) (U := UR sig nD τ) (Lvl := ℕ) (Val := Elt F) spec12 c) := by
  rw [Pipeline.ownSems0_none,
    show (dat12 V a c).Φ (Fin.last (cfg12 a).N) = iprop(Pipeline.ΦA spec12 c ∗ Pipeline.prefHeld pre12 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit12 (c : Dev nD) (Vact' : Dev nD → Valuation τ sig (Elt F))
    (h8 : Vact c main_v8 = V c main_v8)
    (h8' : Vact' c main_v8 = Vact c main_v8) (h13' : Vact' c main_v73 = (dat12 V a c).arrAt 4 (cfg12 a).N)
    (hpf : ∀ k, Vact' c (pre12.ref k) = a.1 k)
    (hrest : ∀ b : Ref sig .tc, b ≠ main_v73 → Vact' c b = Vact c b) :
    iprop((dat12 V a c).arrays ((dat12 V a c).arrAt · (cfg12 a).N) ∗ (dat12 V a c).owesAt () (Fin.last (cfg12 a).N)
        ∗ Ykeep12 a c ∗ Zrest12 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec12 c (fun b => Vact' c b) ∗ Pipeline.unscopedRest spec12 c (fun b => Vact' c b)) :=
    Pipeline.PerCore.unscopedBufs_split₀ (fun (_ : Dev nD) (_ : Fin 1) => cfg12 a) (0 : Fin 1) c winFacts₀12.arr_unscoped _
  rw [e2, Pipeline.unscopedRest_split preFacts12 c _]
  have hImg : (Finset.univ.image (Pipeline.arrRef spec12) : Finset (Ref sig .tc)) = {main_v8, main_v73} := by decide
  unfold Pipeline.arrBufs
  rw [hImg, bigSep_pair main_v8 main_v73 (by decide)]
  have hRP : (Pipeline.unscopedRestP (Ix := Unit) (Name := ℕ) (U := UR sig nD τ) (Lvl := ℕ) pre12 spec12 c (fun b => Vact' c b) : sProp 𝕄)
      = Pipeline.unscopedRestP pre12 spec12 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre12.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq12]
  have hB0 : (dat12 V a c).arrAt 0 (cfg12 a).N = Vact c main_v8 := ((dat12 V a c).arrAt_in 0 rfl _).trans h8.symm
  have hB1 : (dat12 V a c).arrAt 1 (cfg12 a).N = Vact c main_v8 := ((dat12 V a c).arrAt_in 1 rfl _).trans h8.symm
  have hB2 : (dat12 V a c).arrAt 2 (cfg12 a).N = Vact c main_v8 := ((dat12 V a c).arrAt_in 2 rfl _).trans h8.symm
  have hB3 : (dat12 V a c).arrAt 3 (cfg12 a).N = Vact c main_v8 := ((dat12 V a c).arrAt_in 3 rfl _).trans h8.symm
  rw [hB0, hB1, hB2, hB3, hRP]
  unfold Zrest12
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v73 = (dat12 V a c).arrAt 4 (cfg12 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg12.lean ====
/-
  Region 12 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg12
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 12 over the thread state. -/
def reg12 : Pipeline.RegionSeg (pcfgs (F := F)) (adm m hR) (pdats m hR) () defs₀ Variants.none Lnone lvnone (12 : Fin 20) where
  win := winFacts₀12
  block_pos := block_pos12
  stage_whole := stage_whole12
  K := PEmpty
  osem k := k.elim
  ho := Pipeline.OwnSemFacts.none _
  hbody c := (body_obligation12 (Vfirst m) (adm12 m core0 (hR core0)) c).loose
  hwaits := Pipeline.hwaits_of_owed_zero _ _ _ _ Lnone lvnone (12 : Fin 20) fun _ _ => rfl
  pre c := iprop(StableHlo.held (c : Thread nD τ) (Pipeline.ucRefs τ sig) (VE12 m hR c) ∗ Rside c)
  post c := iprop(StableHlo.held (c : Thread nD τ) (Pipeline.ucRefs τ sig) (VX12 m hR c) ∗ Rside c)
  X c := iprop(∃ r, prngReg c r)
  Y c := Ykeep12 (adm12 m core0 (hR core0)) c
  Z c := Zrest12 (VE12 m hR) c
  hentry c := hentry12 (VE12 m hR) (Vfirst m) (adm12 m core0 (hR core0)) c Lnone lvnone (ent_xtab12 m hR c) (ent_out12 m hR c) (ent_pf12 m hR c)
  hin c := hin12 (Vfirst m) (adm12 m core0 (hR core0)) c
  hout c := hout12 (Vfirst m) (adm12 m core0 (hR core0)) c
  hexit c := hexit12 (VE12 m hR) (Vfirst m) (adm12 m core0 (hR core0)) c (VX12 m hR) (ent_xtab12 m hR c) (ext_xtab12 m hR c) (ext_out12 m hR c)
    (ext_pf12 m hR c) (ext_rest12 m hR c)

end Cert.Kernel.Gen

end
-- ==== Proof.KW.Seg13.lean ====
/-
  Region 13 of the gather-and-norm program, second half: how the region is entered and left.

  Between two segments of the program a core holds every unscoped buffer whole. Region 13 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region13
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg13 (F := F)).Adm)

/-- What bypasses region 13: every unscoped buffer that is neither one of its two arrays nor one of its four tables,
    and the part of the point table's share the four input windows do not need. -/
def Zrest13 (c : Dev nD) : sProp 𝕄 :=
  iprop(Pipeline.unscopedRestP (Ix := Unit) (Name := ℕ) (U := UR sig nD τ) (Lvl := ℕ) pre13 spec13 c (fun b => Vact c b)
    ∗ (((c.tc : Thread nD τ).loc main_v8) ↦{Transfers.shareDrop fullShare 4} Vact c main_v8))

/-- Region 13's arrays, window by window: the point table four times, at the four quarter shares, and the output
    array whole. -/
theorem arrays_eq13 (c : Dev nD)
    (G : (w : Fin (cfg13 a).W) → Buf (Elt F) (((cfg13 a).win w).arr.view.loc (c.tc : Thread nD τ))) :
    (dat13 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v78) ↦{fullShare} G 4)) : sProp 𝕄) := by
  unfold Dat.arrays
  rw [show (bigSep Finset.univ fun w : Fin (cfg13 a).W =>
          ((((cfg13 a).win w).arr.view.loc (c.tc : Thread nD τ)) ↦[((cfg13 a).win w).arr.view.set]{(dat13 V a c).share w} G w : sProp 𝕄))
        = bigSep Finset.univ fun w : Fin (cfg13 a).W =>
          ((((c.tc : Thread nD τ).loc (Pipeline.arrRef spec13 w)) ↦{(dat13 V a c).share w} G w : sProp 𝕄))
      from bigSep_congr fun w _ => by rw [(arr_whole13 w).set_eq_univ]]
  rw [bigSep_W13]
  have hs0 : (dat13 V a c).share 0 = Transfers.shareTok fullShare 4 0 := rfl
  have hs1 : (dat13 V a c).share 1 = Transfers.shareTok fullShare 4 1 := rfl
  have hs2 : (dat13 V a c).share 2 = Transfers.shareTok fullShare 4 2 := rfl
  have hs3 : (dat13 V a c).share 3 = Transfers.shareTok fullShare 4 3 := rfl
  have hs4 : (dat13 V a c).share 4 = fullShare := rfl
  rw [hs0, hs1, hs2, hs3, hs4]

theorem hentry13 (c : Dev nD) (L : GSem nD τ sig → Finset Unit) (lv : GSem nD τ sig → Unit → ℕ)
    (h8 : Vact c main_v8 = V c main_v8) (h13 : Vact c main_v78 = V c main_v78)
    (hpf : ∀ k, Vact c (pre13.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat13 V a c).arrays ((dat13 V a c).arrAt · 0)
          ∗ Pipeline.prefHeld pre13 c (fun _ => fullShare) a.1
          ∗ (dat13 V a c).owesAt () 0 ∗ (∃ r, prngReg c r) ∗ Zrest13 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec13 c (fun b => Vact c b) ∗ Pipeline.unscopedRest spec13 c (fun b => Vact c b)) :=
    Pipeline.PerCore.unscopedBufs_split₀ (fun (_ : Dev nD) (_ : Fin 1) => cfg13 a) (0 : Fin 1) c winFacts₀13.arr_unscoped _
  rw [e2, Pipeline.unscopedRest_split preFacts13 c _]
  have hImg : (Finset.univ.image (Pipeline.arrRef spec13) : Finset (Ref sig .tc)) = {main_v8, main_v78} := by decide
  unfold Pipeline.arrBufs
  rw [hImg, bigSep_pair main_v8 main_v78 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq13]
  have hA0 : (dat13 V a c).arrAt 0 0 = Vact c main_v8 := h8.symm
  have hA1 : (dat13 V a c).arrAt 1 0 = Vact c main_v8 := h8.symm
  have hA2 : (dat13 V a c).arrAt 2 0 = Vact c main_v8 := h8.symm
  have hA3 : (dat13 V a c).arrAt 3 0 = Vact c main_v8 := h8.symm
  have hA4 : (dat13 V a c).arrAt 4 0 = Vact c main_v78 := h13.symm
  rw [hA0, hA1, hA2, hA3, hA4]
  have hP : (fun k => Vact c (pre13.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest13
  isplitl [Hrest]; · iexact Hrest
  iexact Hdrop

/-- The invariant at the first point: the scoped buffers no window stages, the generator register, the four tables. -/
theorem hin13 (c : Dev nD) :
    iprop((∃ r, prngReg c r) ∗ Pipeline.prefHeld pre13 c (fun _ => fullShare) a.1
        ∗ Pipeline.scopedRest (Ix := Unit) (Name := ℕ) (U := UR sig nD τ) (Lvl := ℕ) (Val := Elt F) spec13 c)
      ⊢ ((dat13 V a c).Φ 0 : sProp 𝕄) := by
  rw [show (dat13 V a c).Φ 0 = iprop(Pipeline.ΦA spec13 c ∗ Pipeline.prefHeld pre13 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep13 (c : Dev nD) : sProp 𝕄 :=
  iprop((∃ r, prngReg c r) ∗ Pipeline.prefHeld pre13 c (fun _ => fullShare) a.1)

theorem hout13 (c : Dev nD) :
    ((dat13 V a c).Φ (Fin.last (cfg13 a).N) : sProp 𝕄)
      ⊢ iprop(Ykeep13 a c ∗ Pipeline.ownSems0 (fun k : PEmpty => k.elim) c
          ∗ Pipeline.scopedRest (Ix := Unit) (Name := ℕ) (U := UR sig nD τ) (Lvl := ℕ) (Val := Elt F) spec13 c) := by
  rw [Pipeline.ownSems0_none,
    show (dat13 V a c).Φ (Fin.last (cfg13 a).N) = iprop(Pipeline.ΦA spec13 c ∗ Pipeline.prefHeld pre13 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit13 (c : Dev nD) (Vact' : Dev nD → Valuation τ sig (Elt F))
    (h8 : Vact c main_v8 = V c main_v8)
    (h8' : Vact' c main_v8 = Vact c main_v8) (h13' : Vact' c main_v78 = (dat13 V a c).arrAt 4 (cfg13 a).N)
    (hpf : ∀ k, Vact' c (pre13.ref k) = a.1 k)
    (hrest : ∀ b : Ref sig .tc, b ≠ main_v78 → Vact' c b = Vact c b) :
    iprop((dat13 V a c).arrays ((dat13 V a c).arrAt · (cfg13 a).N) ∗ (dat13 V a c).owesAt () (Fin.last (cfg13 a).N)
        ∗ Ykeep13 a c ∗ Zrest13 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec13 c (fun b => Vact' c b) ∗ Pipeline.unscopedRest spec13 c (fun b => Vact' c b)) :=
    Pipeline.PerCore.unscopedBufs_split₀ (fun (_ : Dev nD) (_ : Fin 1) => cfg13 a) (0 : Fin 1) c winFacts₀13.arr_unscoped _
  rw [e2, Pipeline.unscopedRest_split preFacts13 c _]
  have hImg : (Finset.univ.image (Pipeline.arrRef spec13) : Finset (Ref sig .tc)) = {main_v8, main_v78} := by decide
  unfold Pipeline.arrBufs
  rw [hImg, bigSep_pair main_v8 main_v78 (by decide)]
  have hRP : (Pipeline.unscopedRestP (Ix := Unit) (Name := ℕ) (U := UR sig nD τ) (Lvl := ℕ) pre13 spec13 c (fun b => Vact' c b) : sProp 𝕄)
      = Pipeline.unscopedRestP pre13 spec13 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre13.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq13]
  have hB0 : (dat13 V a c).arrAt 0 (cfg13 a).N = Vact c main_v8 := ((dat13 V a c).arrAt_in 0 rfl _).trans h8.symm
  have hB1 : (dat13 V a c).arrAt 1 (cfg13 a).N = Vact c main_v8 := ((dat13 V a c).arrAt_in 1 rfl _).trans h8.symm
  have hB2 : (dat13 V a c).arrAt 2 (cfg13 a).N = Vact c main_v8 := ((dat13 V a c).arrAt_in 2 rfl _).trans h8.symm
  have hB3 : (dat13 V a c).arrAt 3 (cfg13 a).N = Vact c main_v8 := ((dat13 V a c).arrAt_in 3 rfl _).trans h8.symm
  rw [hB0, hB1, hB2, hB3, hRP]
  unfold Zrest13
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v78 = (dat13 V a c).arrAt 4 (cfg13 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg13.lean ====
/-
  Region 13 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg13
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 13 over the thread state. -/
def reg13 : Pipeline.RegionSeg (pcfgs (F := F)) (adm m hR) (pdats m hR) () defs₀ Variants.none Lnone lvnone (13 : Fin 20) where
  win := winFacts₀13
  block_pos := block_pos13
  stage_whole := stage_whole13
  K := PEmpty
  osem k := k.elim
  ho := Pipeline.OwnSemFacts.none _
  hbody c := (body_obligation13 (Vfirst m) (adm13 m core0 (hR core0)) c).loose
  hwaits := Pipeline.hwaits_of_owed_zero _ _ _ _ Lnone lvnone (13 : Fin 20) fun _ _ => rfl
  pre c := iprop(StableHlo.held (c : Thread nD τ) (Pipeline.ucRefs τ sig) (VE13 m hR c) ∗ Rside c)
  post c := iprop(StableHlo.held (c : Thread nD τ) (Pipeline.ucRefs τ sig) (VX13 m hR c) ∗ Rside c)
  X c := iprop(∃ r, prngReg c r)
  Y c := Ykeep13 (adm13 m core0 (hR core0)) c
  Z c := Zrest13 (VE13 m hR) c
  hentry c := hentry13 (VE13 m hR) (Vfirst m) (adm13 m core0 (hR core0)) c Lnone lvnone (ent_xtab13 m hR c) (ent_out13 m hR c) (ent_pf13 m hR c)
  hin c := hin13 (Vfirst m) (adm13 m core0 (hR core0)) c
  hout c := hout13 (Vfirst m) (adm13 m core0 (hR core0)) c
  hexit c := hexit13 (VE13 m hR) (Vfirst m) (adm13 m core0 (hR core0)) c (VX13 m hR) (ent_xtab13 m hR c) (ext_xtab13 m hR c) (ext_out13 m hR c)
    (ext_pf13 m hR c) (ext_rest13 m hR c)

end Cert.Kernel.Gen

end
-- ==== Proof.KW.Seg14.lean ====
/-
  Region 14 of the gather-and-norm program, second half: how the region is entered and left.

  Between two segments of the program a core holds every unscoped buffer whole. Region 14 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region14
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg14 (F := F)).Adm)

/-- What bypasses region 14: every unscoped buffer that is neither one of its two arrays nor one of its four tables,
    and the part of the point table's share the four input windows do not need. -/
def Zrest14 (c : Dev nD) : sProp 𝕄 :=
  iprop(Pipeline.unscopedRestP (Ix := Unit) (Name := ℕ) (U := UR sig nD τ) (Lvl := ℕ) pre14 spec14 c (fun b => Vact c b)
    ∗ (((c.tc : Thread nD τ).loc main_v8) ↦{Transfers.shareDrop fullShare 4} Vact c main_v8))

/-- Region 14's arrays, window by window: the point table four times, at the four quarter shares, and the output
    array whole. -/
theorem arrays_eq14 (c : Dev nD)
    (G : (w : Fin (cfg14 a).W) → Buf (Elt F) (((cfg14 a).win w).arr.view.loc (c.tc : Thread nD τ))) :
    (dat14 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v83) ↦{fullShare} G 4)) : sProp 𝕄) := by
  unfold Dat.arrays
  rw [show (bigSep Finset.univ fun w : Fin (cfg14 a).W =>
          ((((cfg14 a).win w).arr.view.loc (c.tc : Thread nD τ)) ↦[((cfg14 a).win w).arr.view.set]{(dat14 V a c).share w} G w : sProp 𝕄))
        = bigSep Finset.univ fun w : Fin (cfg14 a).W =>
          ((((c.tc : Thread nD τ).loc (Pipeline.arrRef spec14 w)) ↦{(dat14 V a c).share w} G w : sProp 𝕄))
      from bigSep_congr fun w _ => by rw [(arr_whole14 w).set_eq_univ]]
  rw [bigSep_W14]
  have hs0 : (dat14 V a c).share 0 = Transfers.shareTok fullShare 4 0 := rfl
  have hs1 : (dat14 V a c).share 1 = Transfers.shareTok fullShare 4 1 := rfl
  have hs2 : (dat14 V a c).share 2 = Transfers.shareTok fullShare 4 2 := rfl
  have hs3 : (dat14 V a c).share 3 = Transfers.shareTok fullShare 4 3 := rfl
  have hs4 : (dat14 V a c).share 4 = fullShare := rfl
  rw [hs0, hs1, hs2, hs3, hs4]

theorem hentry14 (c : Dev nD) (L : GSem nD τ sig → Finset Unit) (lv : GSem nD τ sig → Unit → ℕ)
    (h8 : Vact c main_v8 = V c main_v8) (h13 : Vact c main_v83 = V c main_v83)
    (hpf : ∀ k, Vact c (pre14.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat14 V a c).arrays ((dat14 V a c).arrAt · 0)
          ∗ Pipeline.prefHeld pre14 c (fun _ => fullShare) a.1
          ∗ (dat14 V a c).owesAt () 0 ∗ (∃ r, prngReg c r) ∗ Zrest14 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec14 c (fun b => Vact c b) ∗ Pipeline.unscopedRest spec14 c (fun b => Vact c b)) :=
    Pipeline.PerCore.unscopedBufs_split₀ (fun (_ : Dev nD) (_ : Fin 1) => cfg14 a) (0 : Fin 1) c winFacts₀14.arr_unscoped _
  rw [e2, Pipeline.unscopedRest_split preFacts14 c _]
  have hImg : (Finset.univ.image (Pipeline.arrRef spec14) : Finset (Ref sig .tc)) = {main_v8, main_v83} := by decide
  unfold Pipeline.arrBufs
  rw [hImg, bigSep_pair main_v8 main_v83 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq14]
  have hA0 : (dat14 V a c).arrAt 0 0 = Vact c main_v8 := h8.symm
  have hA1 : (dat14 V a c).arrAt 1 0 = Vact c main_v8 := h8.symm
  have hA2 : (dat14 V a c).arrAt 2 0 = Vact c main_v8 := h8.symm
  have hA3 : (dat14 V a c).arrAt 3 0 = Vact c main_v8 := h8.symm
  have hA4 : (dat14 V a c).arrAt 4 0 = Vact c main_v83 := h13.symm
  rw [hA0, hA1, hA2, hA3, hA4]
  have hP : (fun k => Vact c (pre14.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest14
  isplitl [Hrest]; · iexact Hrest
  iexact Hdrop

/-- The invariant at the first point: the scoped buffers no window stages, the generator register, the four tables. -/
theorem hin14 (c : Dev nD) :
    iprop((∃ r, prngReg c r) ∗ Pipeline.prefHeld pre14 c (fun _ => fullShare) a.1
        ∗ Pipeline.scopedRest (Ix := Unit) (Name := ℕ) (U := UR sig nD τ) (Lvl := ℕ) (Val := Elt F) spec14 c)
      ⊢ ((dat14 V a c).Φ 0 : sProp 𝕄) := by
  rw [show (dat14 V a c).Φ 0 = iprop(Pipeline.ΦA spec14 c ∗ Pipeline.prefHeld pre14 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep14 (c : Dev nD) : sProp 𝕄 :=
  iprop((∃ r, prngReg c r) ∗ Pipeline.prefHeld pre14 c (fun _ => fullShare) a.1)

theorem hout14 (c : Dev nD) :
    ((dat14 V a c).Φ (Fin.last (cfg14 a).N) : sProp 𝕄)
      ⊢ iprop(Ykeep14 a c ∗ Pipeline.ownSems0 (fun k : PEmpty => k.elim) c
          ∗ Pipeline.scopedRest (Ix := Unit) (Name := ℕ) (U := UR sig nD τ) (Lvl := ℕ) (Val := Elt F) spec14 c) := by
  rw [Pipeline.ownSems0_none,
    show (dat14 V a c).Φ (Fin.last (cfg14 a).N) = iprop(Pipeline.ΦA spec14 c ∗ Pipeline.prefHeld pre14 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit14 (c : Dev nD) (Vact' : Dev nD → Valuation τ sig (Elt F))
    (h8 : Vact c main_v8 = V c main_v8)
    (h8' : Vact' c main_v8 = Vact c main_v8) (h13' : Vact' c main_v83 = (dat14 V a c).arrAt 4 (cfg14 a).N)
    (hpf : ∀ k, Vact' c (pre14.ref k) = a.1 k)
    (hrest : ∀ b : Ref sig .tc, b ≠ main_v83 → Vact' c b = Vact c b) :
    iprop((dat14 V a c).arrays ((dat14 V a c).arrAt · (cfg14 a).N) ∗ (dat14 V a c).owesAt () (Fin.last (cfg14 a).N)
        ∗ Ykeep14 a c ∗ Zrest14 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec14 c (fun b => Vact' c b) ∗ Pipeline.unscopedRest spec14 c (fun b => Vact' c b)) :=
    Pipeline.PerCore.unscopedBufs_split₀ (fun (_ : Dev nD) (_ : Fin 1) => cfg14 a) (0 : Fin 1) c winFacts₀14.arr_unscoped _
  rw [e2, Pipeline.unscopedRest_split preFacts14 c _]
  have hImg : (Finset.univ.image (Pipeline.arrRef spec14) : Finset (Ref sig .tc)) = {main_v8, main_v83} := by decide
  unfold Pipeline.arrBufs
  rw [hImg, bigSep_pair main_v8 main_v83 (by decide)]
  have hRP : (Pipeline.unscopedRestP (Ix := Unit) (Name := ℕ) (U := UR sig nD τ) (Lvl := ℕ) pre14 spec14 c (fun b => Vact' c b) : sProp 𝕄)
      = Pipeline.unscopedRestP pre14 spec14 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre14.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq14]
  have hB0 : (dat14 V a c).arrAt 0 (cfg14 a).N = Vact c main_v8 := ((dat14 V a c).arrAt_in 0 rfl _).trans h8.symm
  have hB1 : (dat14 V a c).arrAt 1 (cfg14 a).N = Vact c main_v8 := ((dat14 V a c).arrAt_in 1 rfl _).trans h8.symm
  have hB2 : (dat14 V a c).arrAt 2 (cfg14 a).N = Vact c main_v8 := ((dat14 V a c).arrAt_in 2 rfl _).trans h8.symm
  have hB3 : (dat14 V a c).arrAt 3 (cfg14 a).N = Vact c main_v8 := ((dat14 V a c).arrAt_in 3 rfl _).trans h8.symm
  rw [hB0, hB1, hB2, hB3, hRP]
  unfold Zrest14
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v83 = (dat14 V a c).arrAt 4 (cfg14 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg14.lean ====
/-
  Region 14 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg14
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 14 over the thread state. -/
def reg14 : Pipeline.RegionSeg (pcfgs (F := F)) (adm m hR) (pdats m hR) () defs₀ Variants.none Lnone lvnone (14 : Fin 20) where
  win := winFacts₀14
  block_pos := block_pos14
  stage_whole := stage_whole14
  K := PEmpty
  osem k := k.elim
  ho := Pipeline.OwnSemFacts.none _
  hbody c := (body_obligation14 (Vfirst m) (adm14 m core0 (hR core0)) c).loose
  hwaits := Pipeline.hwaits_of_owed_zero _ _ _ _ Lnone lvnone (14 : Fin 20) fun _ _ => rfl
  pre c := iprop(StableHlo.held (c : Thread nD τ) (Pipeline.ucRefs τ sig) (VE14 m hR c) ∗ Rside c)
  post c := iprop(StableHlo.held (c : Thread nD τ) (Pipeline.ucRefs τ sig) (VX14 m hR c) ∗ Rside c)
  X c := iprop(∃ r, prngReg c r)
  Y c := Ykeep14 (adm14 m core0 (hR core0)) c
  Z c := Zrest14 (VE14 m hR) c
  hentry c := hentry14 (VE14 m hR) (Vfirst m) (adm14 m core0 (hR core0)) c Lnone lvnone (ent_xtab14 m hR c) (ent_out14 m hR c) (ent_pf14 m hR c)
  hin c := hin14 (Vfirst m) (adm14 m core0 (hR core0)) c
  hout c := hout14 (Vfirst m) (adm14 m core0 (hR core0)) c
  hexit c := hexit14 (VE14 m hR) (Vfirst m) (adm14 m core0 (hR core0)) c (VX14 m hR) (ent_xtab14 m hR c) (ext_xtab14 m hR c) (ext_out14 m hR c)
    (ext_pf14 m hR c) (ext_rest14 m hR c)

end Cert.Kernel.Gen

end
-- ==== Proof.KW.Seg15.lean ====
/-
  Region 15 of the gather-and-norm program, second half: how the region is entered and left.

  Between two segments of the program a core holds every unscoped buffer whole. Region 15 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region15
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg15 (F := F)).Adm)

/-- What bypasses region 15: every unscoped buffer that is neither one of its two arrays nor one of its four tables,
    and the part of the point table's share the four input windows do not need. -/
def Zrest15 (c : Dev nD) : sProp 𝕄 :=
  iprop(Pipeline.unscopedRestP (Ix := Unit) (Name := ℕ) (U := UR sig nD τ) (Lvl := ℕ) pre15 spec15 c (fun b => Vact c b)
    ∗ (((c.tc : Thread nD τ).loc main_v8) ↦{Transfers.shareDrop fullShare 4} Vact c main_v8))

/-- Region 15's arrays, window by window: the point table four times, at the four quarter shares, and the output
    array whole. -/
theorem arrays_eq15 (c : Dev nD)
    (G : (w : Fin (cfg15 a).W) → Buf (Elt F) (((cfg15 a).win w).arr.view.loc (c.tc : Thread nD τ))) :
    (dat15 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v88) ↦{fullShare} G 4)) : sProp 𝕄) := by
  unfold Dat.arrays
  rw [show (bigSep Finset.univ fun w : Fin (cfg15 a).W =>
          ((((cfg15 a).win w).arr.view.loc (c.tc : Thread nD τ)) ↦[((cfg15 a).win w).arr.view.set]{(dat15 V a c).share w} G w : sProp 𝕄))
        = bigSep Finset.univ fun w : Fin (cfg15 a).W =>
          ((((c.tc : Thread nD τ).loc (Pipeline.arrRef spec15 w)) ↦{(dat15 V a c).share w} G w : sProp 𝕄))
      from bigSep_congr fun w _ => by rw [(arr_whole15 w).set_eq_univ]]
  rw [bigSep_W15]
  have hs0 : (dat15 V a c).share 0 = Transfers.shareTok fullShare 4 0 := rfl
  have hs1 : (dat15 V a c).share 1 = Transfers.shareTok fullShare 4 1 := rfl
  have hs2 : (dat15 V a c).share 2 = Transfers.shareTok fullShare 4 2 := rfl
  have hs3 : (dat15 V a c).share 3 = Transfers.shareTok fullShare 4 3 := rfl
  have hs4 : (dat15 V a c).share 4 = fullShare := rfl
  rw [hs0, hs1, hs2, hs3, hs4]

theorem hentry15 (c : Dev nD) (L : GSem nD τ sig → Finset Unit) (lv : GSem nD τ sig → Unit → ℕ)
    (h8 : Vact c main_v8 = V c main_v8) (h13 : Vact c main_v88 = V c main_v88)
    (hpf : ∀ k, Vact c (pre15.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat15 V a c).arrays ((dat15 V a c).arrAt · 0)
          ∗ Pipeline.prefHeld pre15 c (fun _ => fullShare) a.1
          ∗ (dat15 V a c).owesAt () 0 ∗ (∃ r, prngReg c r) ∗ Zrest15 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec15 c (fun b => Vact c b) ∗ Pipeline.unscopedRest spec15 c (fun b => Vact c b)) :=
    Pipeline.PerCore.unscopedBufs_split₀ (fun (_ : Dev nD) (_ : Fin 1) => cfg15 a) (0 : Fin 1) c winFacts₀15.arr_unscoped _
  rw [e2, Pipeline.unscopedRest_split preFacts15 c _]
  have hImg : (Finset.univ.image (Pipeline.arrRef spec15) : Finset (Ref sig .tc)) = {main_v8, main_v88} := by decide
  unfold Pipeline.arrBufs
  rw [hImg, bigSep_pair main_v8 main_v88 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq15]
  have hA0 : (dat15 V a c).arrAt 0 0 = Vact c main_v8 := h8.symm
  have hA1 : (dat15 V a c).arrAt 1 0 = Vact c main_v8 := h8.symm
  have hA2 : (dat15 V a c).arrAt 2 0 = Vact c main_v8 := h8.symm
  have hA3 : (dat15 V a c).arrAt 3 0 = Vact c main_v8 := h8.symm
  have hA4 : (dat15 V a c).arrAt 4 0 = Vact c main_v88 := h13.symm
  rw [hA0, hA1, hA2, hA3, hA4]
  have hP : (fun k => Vact c (pre15.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest15
  isplitl [Hrest]; · iexact Hrest
  iexact Hdrop

/-- The invariant at the first point: the scoped buffers no window stages, the generator register, the four tables. -/
theorem hin15 (c : Dev nD) :
    iprop((∃ r, prngReg c r) ∗ Pipeline.prefHeld pre15 c (fun _ => fullShare) a.1
        ∗ Pipeline.scopedRest (Ix := Unit) (Name := ℕ) (U := UR sig nD τ) (Lvl := ℕ) (Val := Elt F) spec15 c)
      ⊢ ((dat15 V a c).Φ 0 : sProp 𝕄) := by
  rw [show (dat15 V a c).Φ 0 = iprop(Pipeline.ΦA spec15 c ∗ Pipeline.prefHeld pre15 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep15 (c : Dev nD) : sProp 𝕄 :=
  iprop((∃ r, prngReg c r) ∗ Pipeline.prefHeld pre15 c (fun _ => fullShare) a.1)

theorem hout15 (c : Dev nD) :
    ((dat15 V a c).Φ (Fin.last (cfg15 a).N) : sProp 𝕄)
      ⊢ iprop(Ykeep15 a c ∗ Pipeline.ownSems0 (fun k : PEmpty => k.elim) c
          ∗ Pipeline.scopedRest (Ix := Unit) (Name := ℕ) (U := UR sig nD τ) (Lvl := ℕ) (Val := Elt F) spec15 c) := by
  rw [Pipeline.ownSems0_none,
    show (dat15 V a c).Φ (Fin.last (cfg15 a).N) = iprop(Pipeline.ΦA spec15 c ∗ Pipeline.prefHeld pre15 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit15 (c : Dev nD) (Vact' : Dev nD → Valuation τ sig (Elt F))
    (h8 : Vact c main_v8 = V c main_v8)
    (h8' : Vact' c main_v8 = Vact c main_v8) (h13' : Vact' c main_v88 = (dat15 V a c).arrAt 4 (cfg15 a).N)
    (hpf : ∀ k, Vact' c (pre15.ref k) = a.1 k)
    (hrest : ∀ b : Ref sig .tc, b ≠ main_v88 → Vact' c b = Vact c b) :
    iprop((dat15 V a c).arrays ((dat15 V a c).arrAt · (cfg15 a).N) ∗ (dat15 V a c).owesAt () (Fin.last (cfg15 a).N)
        ∗ Ykeep15 a c ∗ Zrest15 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec15 c (fun b => Vact' c b) ∗ Pipeline.unscopedRest spec15 c (fun b => Vact' c b)) :=
    Pipeline.PerCore.unscopedBufs_split₀ (fun (_ : Dev nD) (_ : Fin 1) => cfg15 a) (0 : Fin 1) c winFacts₀15.arr_unscoped _
  rw [e2, Pipeline.unscopedRest_split preFacts15 c _]
  have hImg : (Finset.univ.image (Pipeline.arrRef spec15) : Finset (Ref sig .tc)) = {main_v8, main_v88} := by decide
  unfold Pipeline.arrBufs
  rw [hImg, bigSep_pair main_v8 main_v88 (by decide)]
  have hRP : (Pipeline.unscopedRestP (Ix := Unit) (Name := ℕ) (U := UR sig nD τ) (Lvl := ℕ) pre15 spec15 c (fun b => Vact' c b) : sProp 𝕄)
      = Pipeline.unscopedRestP pre15 spec15 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre15.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq15]
  have hB0 : (dat15 V a c).arrAt 0 (cfg15 a).N = Vact c main_v8 := ((dat15 V a c).arrAt_in 0 rfl _).trans h8.symm
  have hB1 : (dat15 V a c).arrAt 1 (cfg15 a).N = Vact c main_v8 := ((dat15 V a c).arrAt_in 1 rfl _).trans h8.symm
  have hB2 : (dat15 V a c).arrAt 2 (cfg15 a).N = Vact c main_v8 := ((dat15 V a c).arrAt_in 2 rfl _).trans h8.symm
  have hB3 : (dat15 V a c).arrAt 3 (cfg15 a).N = Vact c main_v8 := ((dat15 V a c).arrAt_in 3 rfl _).trans h8.symm
  rw [hB0, hB1, hB2, hB3, hRP]
  unfold Zrest15
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v88 = (dat15 V a c).arrAt 4 (cfg15 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg15.lean ====
/-
  Region 15 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg15
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 15 over the thread state. -/
def reg15 : Pipeline.RegionSeg (pcfgs (F := F)) (adm m hR) (pdats m hR) () defs₀ Variants.none Lnone lvnone (15 : Fin 20) where
  win := winFacts₀15
  block_pos := block_pos15
  stage_whole := stage_whole15
  K := PEmpty
  osem k := k.elim
  ho := Pipeline.OwnSemFacts.none _
  hbody c := (body_obligation15 (Vfirst m) (adm15 m core0 (hR core0)) c).loose
  hwaits := Pipeline.hwaits_of_owed_zero _ _ _ _ Lnone lvnone (15 : Fin 20) fun _ _ => rfl
  pre c := iprop(StableHlo.held (c : Thread nD τ) (Pipeline.ucRefs τ sig) (VE15 m hR c) ∗ Rside c)
  post c := iprop(StableHlo.held (c : Thread nD τ) (Pipeline.ucRefs τ sig) (VX15 m hR c) ∗ Rside c)
  X c := iprop(∃ r, prngReg c r)
  Y c := Ykeep15 (adm15 m core0 (hR core0)) c
  Z c := Zrest15 (VE15 m hR) c
  hentry c := hentry15 (VE15 m hR) (Vfirst m) (adm15 m core0 (hR core0)) c Lnone lvnone (ent_xtab15 m hR c) (ent_out15 m hR c) (ent_pf15 m hR c)
  hin c := hin15 (Vfirst m) (adm15 m core0 (hR core0)) c
  hout c := hout15 (Vfirst m) (adm15 m core0 (hR core0)) c
  hexit c := hexit15 (VE15 m hR) (Vfirst m) (adm15 m core0 (hR core0)) c (VX15 m hR) (ent_xtab15 m hR c) (ext_xtab15 m hR c) (ext_out15 m hR c)
    (ext_pf15 m hR c) (ext_rest15 m hR c)

end Cert.Kernel.Gen

end
-- ==== Proof.KW.Seg16.lean ====
/-
  Region 16 of the gather-and-norm program, second half: how the region is entered and left.

  Between two segments of the program a core holds every unscoped buffer whole. Region 16 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region16
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg16 (F := F)).Adm)

/-- What bypasses region 16: every unscoped buffer that is neither one of its two arrays nor one of its four tables,
    and the part of the point table's share the four input windows do not need. -/
def Zrest16 (c : Dev nD) : sProp 𝕄 :=
  iprop(Pipeline.unscopedRestP (Ix := Unit) (Name := ℕ) (U := UR sig nD τ) (Lvl := ℕ) pre16 spec16 c (fun b => Vact c b)
    ∗ (((c.tc : Thread nD τ).loc main_v8) ↦{Transfers.shareDrop fullShare 4} Vact c main_v8))

/-- Region 16's arrays, window by window: the point table four times, at the four quarter shares, and the output
    array whole. -/
theorem arrays_eq16 (c : Dev nD)
    (G : (w : Fin (cfg16 a).W) → Buf (Elt F) (((cfg16 a).win w).arr.view.loc (c.tc : Thread nD τ))) :
    (dat16 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v93) ↦{fullShare} G 4)) : sProp 𝕄) := by
  unfold Dat.arrays
  rw [show (bigSep Finset.univ fun w : Fin (cfg16 a).W =>
          ((((cfg16 a).win w).arr.view.loc (c.tc : Thread nD τ)) ↦[((cfg16 a).win w).arr.view.set]{(dat16 V a c).share w} G w : sProp 𝕄))
        = bigSep Finset.univ fun w : Fin (cfg16 a).W =>
          ((((c.tc : Thread nD τ).loc (Pipeline.arrRef spec16 w)) ↦{(dat16 V a c).share w} G w : sProp 𝕄))
      from bigSep_congr fun w _ => by rw [(arr_whole16 w).set_eq_univ]]
  rw [bigSep_W16]
  have hs0 : (dat16 V a c).share 0 = Transfers.shareTok fullShare 4 0 := rfl
  have hs1 : (dat16 V a c).share 1 = Transfers.shareTok fullShare 4 1 := rfl
  have hs2 : (dat16 V a c).share 2 = Transfers.shareTok fullShare 4 2 := rfl
  have hs3 : (dat16 V a c).share 3 = Transfers.shareTok fullShare 4 3 := rfl
  have hs4 : (dat16 V a c).share 4 = fullShare := rfl
  rw [hs0, hs1, hs2, hs3, hs4]

theorem hentry16 (c : Dev nD) (L : GSem nD τ sig → Finset Unit) (lv : GSem nD τ sig → Unit → ℕ)
    (h8 : Vact c main_v8 = V c main_v8) (h13 : Vact c main_v93 = V c main_v93)
    (hpf : ∀ k, Vact c (pre16.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat16 V a c).arrays ((dat16 V a c).arrAt · 0)
          ∗ Pipeline.prefHeld pre16 c (fun _ => fullShare) a.1
          ∗ (dat16 V a c).owesAt () 0 ∗ (∃ r, prngReg c r) ∗ Zrest16 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec16 c (fun b => Vact c b) ∗ Pipeline.unscopedRest spec16 c (fun b => Vact c b)) :=
    Pipeline.PerCore.unscopedBufs_split₀ (fun (_ : Dev nD) (_ : Fin 1) => cfg16 a) (0 : Fin 1) c winFacts₀16.arr_unscoped _
  rw [e2, Pipeline.unscopedRest_split preFacts16 c _]
  have hImg : (Finset.univ.image (Pipeline.arrRef spec16) : Finset (Ref sig .tc)) = {main_v8, main_v93} := by decide
  unfold Pipeline.arrBufs
  rw [hImg, bigSep_pair main_v8 main_v93 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq16]
  have hA0 : (dat16 V a c).arrAt 0 0 = Vact c main_v8 := h8.symm
  have hA1 : (dat16 V a c).arrAt 1 0 = Vact c main_v8 := h8.symm
  have hA2 : (dat16 V a c).arrAt 2 0 = Vact c main_v8 := h8.symm
  have hA3 : (dat16 V a c).arrAt 3 0 = Vact c main_v8 := h8.symm
  have hA4 : (dat16 V a c).arrAt 4 0 = Vact c main_v93 := h13.symm
  rw [hA0, hA1, hA2, hA3, hA4]
  have hP : (fun k => Vact c (pre16.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest16
  isplitl [Hrest]; · iexact Hrest
  iexact Hdrop

/-- The invariant at the first point: the scoped buffers no window stages, the generator register, the four tables. -/
theorem hin16 (c : Dev nD) :
    iprop((∃ r, prngReg c r) ∗ Pipeline.prefHeld pre16 c (fun _ => fullShare) a.1
        ∗ Pipeline.scopedRest (Ix := Unit) (Name := ℕ) (U := UR sig nD τ) (Lvl := ℕ) (Val := Elt F) spec16 c)
      ⊢ ((dat16 V a c).Φ 0 : sProp 𝕄) := by
  rw [show (dat16 V a c).Φ 0 = iprop(Pipeline.ΦA spec16 c ∗ Pipeline.prefHeld pre16 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep16 (c : Dev nD) : sProp 𝕄 :=
  iprop((∃ r, prngReg c r) ∗ Pipeline.prefHeld pre16 c (fun _ => fullShare) a.1)

theorem hout16 (c : Dev nD) :
    ((dat16 V a c).Φ (Fin.last (cfg16 a).N) : sProp 𝕄)
      ⊢ iprop(Ykeep16 a c ∗ Pipeline.ownSems0 (fun k : PEmpty => k.elim) c
          ∗ Pipeline.scopedRest (Ix := Unit) (Name := ℕ) (U := UR sig nD τ) (Lvl := ℕ) (Val := Elt F) spec16 c) := by
  rw [Pipeline.ownSems0_none,
    show (dat16 V a c).Φ (Fin.last (cfg16 a).N) = iprop(Pipeline.ΦA spec16 c ∗ Pipeline.prefHeld pre16 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit16 (c : Dev nD) (Vact' : Dev nD → Valuation τ sig (Elt F))
    (h8 : Vact c main_v8 = V c main_v8)
    (h8' : Vact' c main_v8 = Vact c main_v8) (h13' : Vact' c main_v93 = (dat16 V a c).arrAt 4 (cfg16 a).N)
    (hpf : ∀ k, Vact' c (pre16.ref k) = a.1 k)
    (hrest : ∀ b : Ref sig .tc, b ≠ main_v93 → Vact' c b = Vact c b) :
    iprop((dat16 V a c).arrays ((dat16 V a c).arrAt · (cfg16 a).N) ∗ (dat16 V a c).owesAt () (Fin.last (cfg16 a).N)
        ∗ Ykeep16 a c ∗ Zrest16 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec16 c (fun b => Vact' c b) ∗ Pipeline.unscopedRest spec16 c (fun b => Vact' c b)) :=
    Pipeline.PerCore.unscopedBufs_split₀ (fun (_ : Dev nD) (_ : Fin 1) => cfg16 a) (0 : Fin 1) c winFacts₀16.arr_unscoped _
  rw [e2, Pipeline.unscopedRest_split preFacts16 c _]
  have hImg : (Finset.univ.image (Pipeline.arrRef spec16) : Finset (Ref sig .tc)) = {main_v8, main_v93} := by decide
  unfold Pipeline.arrBufs
  rw [hImg, bigSep_pair main_v8 main_v93 (by decide)]
  have hRP : (Pipeline.unscopedRestP (Ix := Unit) (Name := ℕ) (U := UR sig nD τ) (Lvl := ℕ) pre16 spec16 c (fun b => Vact' c b) : sProp 𝕄)
      = Pipeline.unscopedRestP pre16 spec16 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre16.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq16]
  have hB0 : (dat16 V a c).arrAt 0 (cfg16 a).N = Vact c main_v8 := ((dat16 V a c).arrAt_in 0 rfl _).trans h8.symm
  have hB1 : (dat16 V a c).arrAt 1 (cfg16 a).N = Vact c main_v8 := ((dat16 V a c).arrAt_in 1 rfl _).trans h8.symm
  have hB2 : (dat16 V a c).arrAt 2 (cfg16 a).N = Vact c main_v8 := ((dat16 V a c).arrAt_in 2 rfl _).trans h8.symm
  have hB3 : (dat16 V a c).arrAt 3 (cfg16 a).N = Vact c main_v8 := ((dat16 V a c).arrAt_in 3 rfl _).trans h8.symm
  rw [hB0, hB1, hB2, hB3, hRP]
  unfold Zrest16
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v93 = (dat16 V a c).arrAt 4 (cfg16 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg16.lean ====
/-
  Region 16 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg16
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 16 over the thread state. -/
def reg16 : Pipeline.RegionSeg (pcfgs (F := F)) (adm m hR) (pdats m hR) () defs₀ Variants.none Lnone lvnone (16 : Fin 20) where
  win := winFacts₀16
  block_pos := block_pos16
  stage_whole := stage_whole16
  K := PEmpty
  osem k := k.elim
  ho := Pipeline.OwnSemFacts.none _
  hbody c := (body_obligation16 (Vfirst m) (adm16 m core0 (hR core0)) c).loose
  hwaits := Pipeline.hwaits_of_owed_zero _ _ _ _ Lnone lvnone (16 : Fin 20) fun _ _ => rfl
  pre c := iprop(StableHlo.held (c : Thread nD τ) (Pipeline.ucRefs τ sig) (VE16 m hR c) ∗ Rside c)
  post c := iprop(StableHlo.held (c : Thread nD τ) (Pipeline.ucRefs τ sig) (VX16 m hR c) ∗ Rside c)
  X c := iprop(∃ r, prngReg c r)
  Y c := Ykeep16 (adm16 m core0 (hR core0)) c
  Z c := Zrest16 (VE16 m hR) c
  hentry c := hentry16 (VE16 m hR) (Vfirst m) (adm16 m core0 (hR core0)) c Lnone lvnone (ent_xtab16 m hR c) (ent_out16 m hR c) (ent_pf16 m hR c)
  hin c := hin16 (Vfirst m) (adm16 m core0 (hR core0)) c
  hout c := hout16 (Vfirst m) (adm16 m core0 (hR core0)) c
  hexit c := hexit16 (VE16 m hR) (Vfirst m) (adm16 m core0 (hR core0)) c (VX16 m hR) (ent_xtab16 m hR c) (ext_xtab16 m hR c) (ext_out16 m hR c)
    (ext_pf16 m hR c) (ext_rest16 m hR c)

end Cert.Kernel.Gen

end
-- ==== Proof.KW.Seg17.lean ====
/-
  Region 17 of the gather-and-norm program, second half: how the region is entered and left.

  Between two segments of the program a core holds every unscoped buffer whole. Region 17 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region17
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg17 (F := F)).Adm)

/-- What bypasses region 17: every unscoped buffer that is neither one of its two arrays nor one of its four tables,
    and the part of the point table's share the four input windows do not need. -/
def Zrest17 (c : Dev nD) : sProp 𝕄 :=
  iprop(Pipeline.unscopedRestP (Ix := Unit) (Name := ℕ) (U := UR sig nD τ) (Lvl := ℕ) pre17 spec17 c (fun b => Vact c b)
    ∗ (((c.tc : Thread nD τ).loc main_v8) ↦{Transfers.shareDrop fullShare 4} Vact c main_v8))

/-- Region 17's arrays, window by window: the point table four times, at the four quarter shares, and the output
    array whole. -/
theorem arrays_eq17 (c : Dev nD)
    (G : (w : Fin (cfg17 a).W) → Buf (Elt F) (((cfg17 a).win w).arr.view.loc (c.tc : Thread nD τ))) :
    (dat17 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v98) ↦{fullShare} G 4)) : sProp 𝕄) := by
  unfold Dat.arrays
  rw [show (bigSep Finset.univ fun w : Fin (cfg17 a).W =>
          ((((cfg17 a).win w).arr.view.loc (c.tc : Thread nD τ)) ↦[((cfg17 a).win w).arr.view.set]{(dat17 V a c).share w} G w : sProp 𝕄))
        = bigSep Finset.univ fun w : Fin (cfg17 a).W =>
          ((((c.tc : Thread nD τ).loc (Pipeline.arrRef spec17 w)) ↦{(dat17 V a c).share w} G w : sProp 𝕄))
      from bigSep_congr fun w _ => by rw [(arr_whole17 w).set_eq_univ]]
  rw [bigSep_W17]
  have hs0 : (dat17 V a c).share 0 = Transfers.shareTok fullShare 4 0 := rfl
  have hs1 : (dat17 V a c).share 1 = Transfers.shareTok fullShare 4 1 := rfl
  have hs2 : (dat17 V a c).share 2 = Transfers.shareTok fullShare 4 2 := rfl
  have hs3 : (dat17 V a c).share 3 = Transfers.shareTok fullShare 4 3 := rfl
  have hs4 : (dat17 V a c).share 4 = fullShare := rfl
  rw [hs0, hs1, hs2, hs3, hs4]

theorem hentry17 (c : Dev nD) (L : GSem nD τ sig → Finset Unit) (lv : GSem nD τ sig → Unit → ℕ)
    (h8 : Vact c main_v8 = V c main_v8) (h13 : Vact c main_v98 = V c main_v98)
    (hpf : ∀ k, Vact c (pre17.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat17 V a c).arrays ((dat17 V a c).arrAt · 0)
          ∗ Pipeline.prefHeld pre17 c (fun _ => fullShare) a.1
          ∗ (dat17 V a c).owesAt () 0 ∗ (∃ r, prngReg c r) ∗ Zrest17 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec17 c (fun b => Vact c b) ∗ Pipeline.unscopedRest spec17 c (fun b => Vact c b)) :=
    Pipeline.PerCore.unscopedBufs_split₀ (fun (_ : Dev nD) (_ : Fin 1) => cfg17 a) (0 : Fin 1) c winFacts₀17.arr_unscoped _
  rw [e2, Pipeline.unscopedRest_split preFacts17 c _]
  have hImg : (Finset.univ.image (Pipeline.arrRef spec17) : Finset (Ref sig .tc)) = {main_v8, main_v98} := by decide
  unfold Pipeline.arrBufs
  rw [hImg, bigSep_pair main_v8 main_v98 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq17]
  have hA0 : (dat17 V a c).arrAt 0 0 = Vact c main_v8 := h8.symm
  have hA1 : (dat17 V a c).arrAt 1 0 = Vact c main_v8 := h8.symm
  have hA2 : (dat17 V a c).arrAt 2 0 = Vact c main_v8 := h8.symm
  have hA3 : (dat17 V a c).arrAt 3 0 = Vact c main_v8 := h8.symm
  have hA4 : (dat17 V a c).arrAt 4 0 = Vact c main_v98 := h13.symm
  rw [hA0, hA1, hA2, hA3, hA4]
  have hP : (fun k => Vact c (pre17.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest17
  isplitl [Hrest]; · iexact Hrest
  iexact Hdrop

/-- The invariant at the first point: the scoped buffers no window stages, the generator register, the four tables. -/
theorem hin17 (c : Dev nD) :
    iprop((∃ r, prngReg c r) ∗ Pipeline.prefHeld pre17 c (fun _ => fullShare) a.1
        ∗ Pipeline.scopedRest (Ix := Unit) (Name := ℕ) (U := UR sig nD τ) (Lvl := ℕ) (Val := Elt F) spec17 c)
      ⊢ ((dat17 V a c).Φ 0 : sProp 𝕄) := by
  rw [show (dat17 V a c).Φ 0 = iprop(Pipeline.ΦA spec17 c ∗ Pipeline.prefHeld pre17 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep17 (c : Dev nD) : sProp 𝕄 :=
  iprop((∃ r, prngReg c r) ∗ Pipeline.prefHeld pre17 c (fun _ => fullShare) a.1)

theorem hout17 (c : Dev nD) :
    ((dat17 V a c).Φ (Fin.last (cfg17 a).N) : sProp 𝕄)
      ⊢ iprop(Ykeep17 a c ∗ Pipeline.ownSems0 (fun k : PEmpty => k.elim) c
          ∗ Pipeline.scopedRest (Ix := Unit) (Name := ℕ) (U := UR sig nD τ) (Lvl := ℕ) (Val := Elt F) spec17 c) := by
  rw [Pipeline.ownSems0_none,
    show (dat17 V a c).Φ (Fin.last (cfg17 a).N) = iprop(Pipeline.ΦA spec17 c ∗ Pipeline.prefHeld pre17 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit17 (c : Dev nD) (Vact' : Dev nD → Valuation τ sig (Elt F))
    (h8 : Vact c main_v8 = V c main_v8)
    (h8' : Vact' c main_v8 = Vact c main_v8) (h13' : Vact' c main_v98 = (dat17 V a c).arrAt 4 (cfg17 a).N)
    (hpf : ∀ k, Vact' c (pre17.ref k) = a.1 k)
    (hrest : ∀ b : Ref sig .tc, b ≠ main_v98 → Vact' c b = Vact c b) :
    iprop((dat17 V a c).arrays ((dat17 V a c).arrAt · (cfg17 a).N) ∗ (dat17 V a c).owesAt () (Fin.last (cfg17 a).N)
        ∗ Ykeep17 a c ∗ Zrest17 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec17 c (fun b => Vact' c b) ∗ Pipeline.unscopedRest spec17 c (fun b => Vact' c b)) :=
    Pipeline.PerCore.unscopedBufs_split₀ (fun (_ : Dev nD) (_ : Fin 1) => cfg17 a) (0 : Fin 1) c winFacts₀17.arr_unscoped _
  rw [e2, Pipeline.unscopedRest_split preFacts17 c _]
  have hImg : (Finset.univ.image (Pipeline.arrRef spec17) : Finset (Ref sig .tc)) = {main_v8, main_v98} := by decide
  unfold Pipeline.arrBufs
  rw [hImg, bigSep_pair main_v8 main_v98 (by decide)]
  have hRP : (Pipeline.unscopedRestP (Ix := Unit) (Name := ℕ) (U := UR sig nD τ) (Lvl := ℕ) pre17 spec17 c (fun b => Vact' c b) : sProp 𝕄)
      = Pipeline.unscopedRestP pre17 spec17 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre17.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq17]
  have hB0 : (dat17 V a c).arrAt 0 (cfg17 a).N = Vact c main_v8 := ((dat17 V a c).arrAt_in 0 rfl _).trans h8.symm
  have hB1 : (dat17 V a c).arrAt 1 (cfg17 a).N = Vact c main_v8 := ((dat17 V a c).arrAt_in 1 rfl _).trans h8.symm
  have hB2 : (dat17 V a c).arrAt 2 (cfg17 a).N = Vact c main_v8 := ((dat17 V a c).arrAt_in 2 rfl _).trans h8.symm
  have hB3 : (dat17 V a c).arrAt 3 (cfg17 a).N = Vact c main_v8 := ((dat17 V a c).arrAt_in 3 rfl _).trans h8.symm
  rw [hB0, hB1, hB2, hB3, hRP]
  unfold Zrest17
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v98 = (dat17 V a c).arrAt 4 (cfg17 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg17.lean ====
/-
  Region 17 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg17
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 17 over the thread state. -/
def reg17 : Pipeline.RegionSeg (pcfgs (F := F)) (adm m hR) (pdats m hR) () defs₀ Variants.none Lnone lvnone (17 : Fin 20) where
  win := winFacts₀17
  block_pos := block_pos17
  stage_whole := stage_whole17
  K := PEmpty
  osem k := k.elim
  ho := Pipeline.OwnSemFacts.none _
  hbody c := (body_obligation17 (Vfirst m) (adm17 m core0 (hR core0)) c).loose
  hwaits := Pipeline.hwaits_of_owed_zero _ _ _ _ Lnone lvnone (17 : Fin 20) fun _ _ => rfl
  pre c := iprop(StableHlo.held (c : Thread nD τ) (Pipeline.ucRefs τ sig) (VE17 m hR c) ∗ Rside c)
  post c := iprop(StableHlo.held (c : Thread nD τ) (Pipeline.ucRefs τ sig) (VX17 m hR c) ∗ Rside c)
  X c := iprop(∃ r, prngReg c r)
  Y c := Ykeep17 (adm17 m core0 (hR core0)) c
  Z c := Zrest17 (VE17 m hR) c
  hentry c := hentry17 (VE17 m hR) (Vfirst m) (adm17 m core0 (hR core0)) c Lnone lvnone (ent_xtab17 m hR c) (ent_out17 m hR c) (ent_pf17 m hR c)
  hin c := hin17 (Vfirst m) (adm17 m core0 (hR core0)) c
  hout c := hout17 (Vfirst m) (adm17 m core0 (hR core0)) c
  hexit c := hexit17 (VE17 m hR) (Vfirst m) (adm17 m core0 (hR core0)) c (VX17 m hR) (ent_xtab17 m hR c) (ext_xtab17 m hR c) (ext_out17 m hR c)
    (ext_pf17 m hR c) (ext_rest17 m hR c)

end Cert.Kernel.Gen

end
-- ==== Proof.KW.Seg18.lean ====
/-
  Region 18 of the gather-and-norm program, second half: how the region is entered and left.

  Between two segments of the program a core holds every unscoped buffer whole. Region 18 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region18
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg18 (F := F)).Adm)

/-- What bypasses region 18: every unscoped buffer that is neither one of its two arrays nor one of its four tables,
    and the part of the point table's share the four input windows do not need. -/
def Zrest18 (c : Dev nD) : sProp 𝕄 :=
  iprop(Pipeline.unscopedRestP (Ix := Unit) (Name := ℕ) (U := UR sig nD τ) (Lvl := ℕ) pre18 spec18 c (fun b => Vact c b)
    ∗ (((c.tc : Thread nD τ).loc main_v8) ↦{Transfers.shareDrop fullShare 4} Vact c main_v8))

/-- Region 18's arrays, window by window: the point table four times, at the four quarter shares, and the output
    array whole. -/
theorem arrays_eq18 (c : Dev nD)
    (G : (w : Fin (cfg18 a).W) → Buf (Elt F) (((cfg18 a).win w).arr.view.loc (c.tc : Thread nD τ))) :
    (dat18 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v103) ↦{fullShare} G 4)) : sProp 𝕄) := by
  unfold Dat.arrays
  rw [show (bigSep Finset.univ fun w : Fin (cfg18 a).W =>
          ((((cfg18 a).win w).arr.view.loc (c.tc : Thread nD τ)) ↦[((cfg18 a).win w).arr.view.set]{(dat18 V a c).share w} G w : sProp 𝕄))
        = bigSep Finset.univ fun w : Fin (cfg18 a).W =>
          ((((c.tc : Thread nD τ).loc (Pipeline.arrRef spec18 w)) ↦{(dat18 V a c).share w} G w : sProp 𝕄))
      from bigSep_congr fun w _ => by rw [(arr_whole18 w).set_eq_univ]]
  rw [bigSep_W18]
  have hs0 : (dat18 V a c).share 0 = Transfers.shareTok fullShare 4 0 := rfl
  have hs1 : (dat18 V a c).share 1 = Transfers.shareTok fullShare 4 1 := rfl
  have hs2 : (dat18 V a c).share 2 = Transfers.shareTok fullShare 4 2 := rfl
  have hs3 : (dat18 V a c).share 3 = Transfers.shareTok fullShare 4 3 := rfl
  have hs4 : (dat18 V a c).share 4 = fullShare := rfl
  rw [hs0, hs1, hs2, hs3, hs4]

theorem hentry18 (c : Dev nD) (L : GSem nD τ sig → Finset Unit) (lv : GSem nD τ sig → Unit → ℕ)
    (h8 : Vact c main_v8 = V c main_v8) (h13 : Vact c main_v103 = V c main_v103)
    (hpf : ∀ k, Vact c (pre18.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat18 V a c).arrays ((dat18 V a c).arrAt · 0)
          ∗ Pipeline.prefHeld pre18 c (fun _ => fullShare) a.1
          ∗ (dat18 V a c).owesAt () 0 ∗ (∃ r, prngReg c r) ∗ Zrest18 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec18 c (fun b => Vact c b) ∗ Pipeline.unscopedRest spec18 c (fun b => Vact c b)) :=
    Pipeline.PerCore.unscopedBufs_split₀ (fun (_ : Dev nD) (_ : Fin 1) => cfg18 a) (0 : Fin 1) c winFacts₀18.arr_unscoped _
  rw [e2, Pipeline.unscopedRest_split preFacts18 c _]
  have hImg : (Finset.univ.image (Pipeline.arrRef spec18) : Finset (Ref sig .tc)) = {main_v8, main_v103} := by decide
  unfold Pipeline.arrBufs
  rw [hImg, bigSep_pair main_v8 main_v103 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq18]
  have hA0 : (dat18 V a c).arrAt 0 0 = Vact c main_v8 := h8.symm
  have hA1 : (dat18 V a c).arrAt 1 0 = Vact c main_v8 := h8.symm
  have hA2 : (dat18 V a c).arrAt 2 0 = Vact c main_v8 := h8.symm
  have hA3 : (dat18 V a c).arrAt 3 0 = Vact c main_v8 := h8.symm
  have hA4 : (dat18 V a c).arrAt 4 0 = Vact c main_v103 := h13.symm
  rw [hA0, hA1, hA2, hA3, hA4]
  have hP : (fun k => Vact c (pre18.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest18
  isplitl [Hrest]; · iexact Hrest
  iexact Hdrop

/-- The invariant at the first point: the scoped buffers no window stages, the generator register, the four tables. -/
theorem hin18 (c : Dev nD) :
    iprop((∃ r, prngReg c r) ∗ Pipeline.prefHeld pre18 c (fun _ => fullShare) a.1
        ∗ Pipeline.scopedRest (Ix := Unit) (Name := ℕ) (U := UR sig nD τ) (Lvl := ℕ) (Val := Elt F) spec18 c)
      ⊢ ((dat18 V a c).Φ 0 : sProp 𝕄) := by
  rw [show (dat18 V a c).Φ 0 = iprop(Pipeline.ΦA spec18 c ∗ Pipeline.prefHeld pre18 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep18 (c : Dev nD) : sProp 𝕄 :=
  iprop((∃ r, prngReg c r) ∗ Pipeline.prefHeld pre18 c (fun _ => fullShare) a.1)

theorem hout18 (c : Dev nD) :
    ((dat18 V a c).Φ (Fin.last (cfg18 a).N) : sProp 𝕄)
      ⊢ iprop(Ykeep18 a c ∗ Pipeline.ownSems0 (fun k : PEmpty => k.elim) c
          ∗ Pipeline.scopedRest (Ix := Unit) (Name := ℕ) (U := UR sig nD τ) (Lvl := ℕ) (Val := Elt F) spec18 c) := by
  rw [Pipeline.ownSems0_none,
    show (dat18 V a c).Φ (Fin.last (cfg18 a).N) = iprop(Pipeline.ΦA spec18 c ∗ Pipeline.prefHeld pre18 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit18 (c : Dev nD) (Vact' : Dev nD → Valuation τ sig (Elt F))
    (h8 : Vact c main_v8 = V c main_v8)
    (h8' : Vact' c main_v8 = Vact c main_v8) (h13' : Vact' c main_v103 = (dat18 V a c).arrAt 4 (cfg18 a).N)
    (hpf : ∀ k, Vact' c (pre18.ref k) = a.1 k)
    (hrest : ∀ b : Ref sig .tc, b ≠ main_v103 → Vact' c b = Vact c b) :
    iprop((dat18 V a c).arrays ((dat18 V a c).arrAt · (cfg18 a).N) ∗ (dat18 V a c).owesAt () (Fin.last (cfg18 a).N)
        ∗ Ykeep18 a c ∗ Zrest18 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec18 c (fun b => Vact' c b) ∗ Pipeline.unscopedRest spec18 c (fun b => Vact' c b)) :=
    Pipeline.PerCore.unscopedBufs_split₀ (fun (_ : Dev nD) (_ : Fin 1) => cfg18 a) (0 : Fin 1) c winFacts₀18.arr_unscoped _
  rw [e2, Pipeline.unscopedRest_split preFacts18 c _]
  have hImg : (Finset.univ.image (Pipeline.arrRef spec18) : Finset (Ref sig .tc)) = {main_v8, main_v103} := by decide
  unfold Pipeline.arrBufs
  rw [hImg, bigSep_pair main_v8 main_v103 (by decide)]
  have hRP : (Pipeline.unscopedRestP (Ix := Unit) (Name := ℕ) (U := UR sig nD τ) (Lvl := ℕ) pre18 spec18 c (fun b => Vact' c b) : sProp 𝕄)
      = Pipeline.unscopedRestP pre18 spec18 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre18.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq18]
  have hB0 : (dat18 V a c).arrAt 0 (cfg18 a).N = Vact c main_v8 := ((dat18 V a c).arrAt_in 0 rfl _).trans h8.symm
  have hB1 : (dat18 V a c).arrAt 1 (cfg18 a).N = Vact c main_v8 := ((dat18 V a c).arrAt_in 1 rfl _).trans h8.symm
  have hB2 : (dat18 V a c).arrAt 2 (cfg18 a).N = Vact c main_v8 := ((dat18 V a c).arrAt_in 2 rfl _).trans h8.symm
  have hB3 : (dat18 V a c).arrAt 3 (cfg18 a).N = Vact c main_v8 := ((dat18 V a c).arrAt_in 3 rfl _).trans h8.symm
  rw [hB0, hB1, hB2, hB3, hRP]
  unfold Zrest18
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v103 = (dat18 V a c).arrAt 4 (cfg18 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg18.lean ====
/-
  Region 18 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg18
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 18 over the thread state. -/
def reg18 : Pipeline.RegionSeg (pcfgs (F := F)) (adm m hR) (pdats m hR) () defs₀ Variants.none Lnone lvnone (18 : Fin 20) where
  win := winFacts₀18
  block_pos := block_pos18
  stage_whole := stage_whole18
  K := PEmpty
  osem k := k.elim
  ho := Pipeline.OwnSemFacts.none _
  hbody c := (body_obligation18 (Vfirst m) (adm18 m core0 (hR core0)) c).loose
  hwaits := Pipeline.hwaits_of_owed_zero _ _ _ _ Lnone lvnone (18 : Fin 20) fun _ _ => rfl
  pre c := iprop(StableHlo.held (c : Thread nD τ) (Pipeline.ucRefs τ sig) (VE18 m hR c) ∗ Rside c)
  post c := iprop(StableHlo.held (c : Thread nD τ) (Pipeline.ucRefs τ sig) (VX18 m hR c) ∗ Rside c)
  X c := iprop(∃ r, prngReg c r)
  Y c := Ykeep18 (adm18 m core0 (hR core0)) c
  Z c := Zrest18 (VE18 m hR) c
  hentry c := hentry18 (VE18 m hR) (Vfirst m) (adm18 m core0 (hR core0)) c Lnone lvnone (ent_xtab18 m hR c) (ent_out18 m hR c) (ent_pf18 m hR c)
  hin c := hin18 (Vfirst m) (adm18 m core0 (hR core0)) c
  hout c := hout18 (Vfirst m) (adm18 m core0 (hR core0)) c
  hexit c := hexit18 (VE18 m hR) (Vfirst m) (adm18 m core0 (hR core0)) c (VX18 m hR) (ent_xtab18 m hR c) (ext_xtab18 m hR c) (ext_out18 m hR c)
    (ext_pf18 m hR c) (ext_rest18 m hR c)

end Cert.Kernel.Gen

end
-- ==== Proof.KW.Seg19.lean ====
/-
  Region 19 of the gather-and-norm program, second half: how the region is entered and left.

  Between two segments of the program a core holds every unscoped buffer whole. Region 19 needs, of those: its two
  arrays — the point table, read by FOUR input windows, and its output array — and its four index tables. At ENTRY
  the point table's full share is dealt into four quarters, one per input window, and a remainder that bypasses the
  region; the output array goes in whole; the tables go into the region's invariant, which the index maps read them
  from. At EXIT the quarters and the remainder rejoin (an input array is never written), the output array comes back
  holding what the write-backs left, the tables come back unchanged, and every other buffer is as it was.
-/
import proofs.«401090_j62775241999084_2_alg».proof.Proof.KW.Region19
import proofs.«401090_j62775241999084_2_alg».proof.Proof.KW.SegCommon

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg0

variable (Vact : Dev nD → Valuation τ sig (Elt F))
variable (V : (c : Dev nD) → (b : Ref sig .tc) → Buf (Elt F) ((c : Thread nD τ).loc b))
variable (a : (pcfg19 (F := F)).Adm)

/-- What bypasses region 19: every unscoped buffer that is neither one of its two arrays nor one of its four tables,
    and the part of the point table's share the four input windows do not need. -/
def Zrest19 (c : Dev nD) : sProp 𝕄 :=
  iprop(Pipeline.unscopedRestP (Ix := Unit) (Name := ℕ) (U := UR sig nD τ) (Lvl := ℕ) pre19 spec19 c (fun b => Vact c b)
    ∗ (((c.tc : Thread nD τ).loc main_v8) ↦{Transfers.shareDrop fullShare 4} Vact c main_v8))

/-- Region 19's arrays, window by window: the point table four times, at the four quarter shares, and the output
    array whole. -/
theorem arrays_eq19 (c : Dev nD)
    (G : (w : Fin (cfg19 a).W) → Buf (Elt F) (((cfg19 a).win w).arr.view.loc (c.tc : Thread nD τ))) :
    (dat19 V a c).arrays G
      = (iprop((((c.tc : Thread nD τ).loc main_v8) ↦{Transfers.shareTok fullShare 4 0} G 0)
          ∗ (((c.tc : Thread nD τ).loc main_v8) ↦{Transfers.shareTok fullShare 4 1} G 1)
          ∗ (((c.tc : Thread nD τ).loc main_v8) ↦{Transfers.shareTok fullShare 4 2} G 2)
          ∗ (((c.tc : Thread nD τ).loc main_v8) ↦{Transfers.shareTok fullShare 4 3} G 3)
          ∗ (((c.tc : Thread nD τ).loc main_v108) ↦{fullShare} G 4)) : sProp 𝕄) := by
  unfold Dat.arrays
  rw [show (bigSep Finset.univ fun w : Fin (cfg19 a).W =>
          ((((cfg19 a).win w).arr.view.loc (c.tc : Thread nD τ)) ↦[((cfg19 a).win w).arr.view.set]{(dat19 V a c).share w} G w : sProp 𝕄))
        = bigSep Finset.univ fun w : Fin (cfg19 a).W =>
          ((((c.tc : Thread nD τ).loc (Pipeline.arrRef spec19 w)) ↦{(dat19 V a c).share w} G w : sProp 𝕄))
      from bigSep_congr fun w _ => by rw [(arr_whole19 w).set_eq_univ]]
  rw [bigSep_W19]
  have hs0 : (dat19 V a c).share 0 = Transfers.shareTok fullShare 4 0 := rfl
  have hs1 : (dat19 V a c).share 1 = Transfers.shareTok fullShare 4 1 := rfl
  have hs2 : (dat19 V a c).share 2 = Transfers.shareTok fullShare 4 2 := rfl
  have hs3 : (dat19 V a c).share 3 = Transfers.shareTok fullShare 4 3 := rfl
  have hs4 : (dat19 V a c).share 4 = fullShare := rfl
  rw [hs0, hs1, hs2, hs3, hs4]

theorem hentry19 (c : Dev nD) (L : GSem nD τ sig → Finset Unit) (lv : GSem nD τ sig → Unit → ℕ)
    (h8 : Vact c main_v8 = V c main_v8) (h13 : Vact c main_v108 = V c main_v108)
    (hpf : ∀ k, Vact c (pre19.ref k) = a.1 k) :
    iprop((StableHlo.held (c : Thread nD τ) (Pipeline.ucRefs τ sig) (Vact c) ∗ Rside (F := F) c)
        ∗ Pipeline.ownSems0 (fun k : PEmpty => k.elim) c ∗ levAts L lv)
      ⊢ (|={Set.univ}=> iprop((dat19 V a c).arrays ((dat19 V a c).arrAt · 0)
          ∗ Pipeline.prefHeld pre19 c (fun _ => fullShare) a.1
          ∗ (dat19 V a c).owesAt () 0 ∗ (∃ r, prngReg c r) ∗ Zrest19 Vact c) : sProp 𝕄) := by
  rw [Pipeline.ownSems0_none, ← Pipeline.unscopedBufs_held (Ix := Unit) (Name := ℕ) (U := UR sig nD τ) (Lvl := ℕ) c (Vact c)]
  have e2 : (unscopedBufs c (fun b => Vact c b) : sProp 𝕄)
      = iprop(Pipeline.arrBufs spec19 c (fun b => Vact c b) ∗ Pipeline.unscopedRest spec19 c (fun b => Vact c b)) :=
    Pipeline.PerCore.unscopedBufs_split₀ (fun (_ : Dev nD) (_ : Fin 1) => cfg19 a) (0 : Fin 1) c winFacts₀19.arr_unscoped _
  rw [e2, Pipeline.unscopedRest_split preFacts19 c _]
  have hImg : (Finset.univ.image (Pipeline.arrRef spec19) : Finset (Ref sig .tc)) = {main_v8, main_v108} := by decide
  unfold Pipeline.arrBufs
  rw [hImg, bigSep_pair main_v8 main_v108 (by decide)]
  have hdeal := Transfers.pointsTo_toks_split (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hdeal
  rw [arrays_eq19]
  have hA0 : (dat19 V a c).arrAt 0 0 = Vact c main_v8 := h8.symm
  have hA1 : (dat19 V a c).arrAt 1 0 = Vact c main_v8 := h8.symm
  have hA2 : (dat19 V a c).arrAt 2 0 = Vact c main_v8 := h8.symm
  have hA3 : (dat19 V a c).arrAt 3 0 = Vact c main_v8 := h8.symm
  have hA4 : (dat19 V a c).arrAt 4 0 = Vact c main_v108 := h13.symm
  rw [hA0, hA1, hA2, hA3, hA4]
  have hP : (fun k => Vact c (pre19.ref k)) = a.1 := funext hpf
  iintro ⟨⟨⟨⟨H8, H13⟩, Hpf, Hrest⟩, Hp, HO⟩, -, -⟩
  ihave Hd := hdeal $$ H8
  icases Hd with ⟨Hdrop, Ht0, Ht1, Ht2, Ht3⟩
  imodintro
  isplitl [Ht0 Ht1 Ht2 Ht3 H13]
  · isplitl [Ht0]; · iexact Ht0
    isplitl [Ht1]; · iexact Ht1
    isplitl [Ht2]; · iexact Ht2
    isplitl [Ht3]; · iexact Ht3
    iexact H13
  isplitl [Hpf]
  · rw [← hP]; iexact Hpf
  isplitl [HO]
  · unfold Pipeline.Dat.owesAt Pipeline.owesWithin
    icases HO with ⟨%W, HO⟩; iexists W; isplitr; · ipureintro; exact fun _ _ => Or.inl trivial
    iexact HO
  isplitl [Hp]; · iexact Hp
  unfold Zrest19
  isplitl [Hrest]; · iexact Hrest
  iexact Hdrop

/-- The invariant at the first point: the scoped buffers no window stages, the generator register, the four tables. -/
theorem hin19 (c : Dev nD) :
    iprop((∃ r, prngReg c r) ∗ Pipeline.prefHeld pre19 c (fun _ => fullShare) a.1
        ∗ Pipeline.scopedRest (Ix := Unit) (Name := ℕ) (U := UR sig nD τ) (Lvl := ℕ) (Val := Elt F) spec19 c)
      ⊢ ((dat19 V a c).Φ 0 : sProp 𝕄) := by
  rw [show (dat19 V a c).Φ 0 = iprop(Pipeline.ΦA spec19 c ∗ Pipeline.prefHeld pre19 c (fun _ => fullShare) a.1) from rfl]
  unfold Pipeline.ΦA
  iintro ⟨Hp, Hpf, Hr⟩
  isplitl [Hr Hp]
  · isplitl [Hr]; · iexact Hr
    iexact Hp
  iexact Hpf

/-- What the invariant hands back at the last point beside the scoped buffers: the generator register and the tables. -/
abbrev Ykeep19 (c : Dev nD) : sProp 𝕄 :=
  iprop((∃ r, prngReg c r) ∗ Pipeline.prefHeld pre19 c (fun _ => fullShare) a.1)

theorem hout19 (c : Dev nD) :
    ((dat19 V a c).Φ (Fin.last (cfg19 a).N) : sProp 𝕄)
      ⊢ iprop(Ykeep19 a c ∗ Pipeline.ownSems0 (fun k : PEmpty => k.elim) c
          ∗ Pipeline.scopedRest (Ix := Unit) (Name := ℕ) (U := UR sig nD τ) (Lvl := ℕ) (Val := Elt F) spec19 c) := by
  rw [Pipeline.ownSems0_none,
    show (dat19 V a c).Φ (Fin.last (cfg19 a).N) = iprop(Pipeline.ΦA spec19 c ∗ Pipeline.prefHeld pre19 c (fun _ => fullShare) a.1) from rfl]
  unfold Pipeline.ΦA
  iintro ⟨⟨Hr, Hp⟩, Hpf⟩
  isplitl [Hp Hpf]
  · isplitl [Hp]; · iexact Hp
    iexact Hpf
  isplitr; · iempintro
  iexact Hr

/-- EXIT: the four quarter shares of the point table rejoin the rest of its share (an input array is never written),
    the output array is what the write-backs left, and every other buffer is as it was: together the unscoped
    buffers at any valuation `Vact'` that has the output array at those contents and agrees with `Vact` elsewhere. -/
theorem hexit19 (c : Dev nD) (Vact' : Dev nD → Valuation τ sig (Elt F))
    (h8 : Vact c main_v8 = V c main_v8)
    (h8' : Vact' c main_v8 = Vact c main_v8) (h13' : Vact' c main_v108 = (dat19 V a c).arrAt 4 (cfg19 a).N)
    (hpf : ∀ k, Vact' c (pre19.ref k) = a.1 k)
    (hrest : ∀ b : Ref sig .tc, b ≠ main_v108 → Vact' c b = Vact c b) :
    iprop((dat19 V a c).arrays ((dat19 V a c).arrAt · (cfg19 a).N) ∗ (dat19 V a c).owesAt () (Fin.last (cfg19 a).N)
        ∗ Ykeep19 a c ∗ Zrest19 Vact c)
      ⊢ (|={Set.univ}=> iprop(StableHlo.held (c : Thread nD τ) (Pipeline.ucRefs τ sig) (Vact' c) ∗ Rside (F := F) c) : sProp 𝕄) := by
  rw [← Pipeline.unscopedBufs_held (Ix := Unit) (Name := ℕ) (U := UR sig nD τ) (Lvl := ℕ) c (Vact' c)]
  have e2 : (unscopedBufs c (fun b => Vact' c b) : sProp 𝕄)
      = iprop(Pipeline.arrBufs spec19 c (fun b => Vact' c b) ∗ Pipeline.unscopedRest spec19 c (fun b => Vact' c b)) :=
    Pipeline.PerCore.unscopedBufs_split₀ (fun (_ : Dev nD) (_ : Fin 1) => cfg19 a) (0 : Fin 1) c winFacts₀19.arr_unscoped _
  rw [e2, Pipeline.unscopedRest_split preFacts19 c _]
  have hImg : (Finset.univ.image (Pipeline.arrRef spec19) : Finset (Ref sig .tc)) = {main_v8, main_v108} := by decide
  unfold Pipeline.arrBufs
  rw [hImg, bigSep_pair main_v8 main_v108 (by decide)]
  have hRP : (Pipeline.unscopedRestP (Ix := Unit) (Name := ℕ) (U := UR sig nD τ) (Lvl := ℕ) pre19 spec19 c (fun b => Vact' c b) : sProp 𝕄)
      = Pipeline.unscopedRestP pre19 spec19 c (fun b => Vact c b) := by
    unfold Pipeline.unscopedRestP
    exact bigSep_congr fun b hb => by
      beta_reduce
      rw [hrest b fun e => (Finset.mem_sdiff.mp (Finset.mem_sdiff.mp hb).1).2
        (Finset.mem_image.mpr ⟨(4 : Fin 5), Finset.mem_univ _, e.symm⟩)]
  have hP : (fun k => Vact' c (pre19.ref k)) = a.1 := funext hpf
  have hjoin := Transfers.pointsTo_toks_join (nD := nD) (τ := τ) (sig := sig) (Ix := Unit) (Val := Elt F) (Name := ℕ) (U := UR sig nD τ) (Lvl := ℕ)
    (ℓ := (c.tc : Thread nD τ).loc main_v8) (S := Finset.univ) (f := Vact c main_v8) fullShare 4
  rw [bigSep_F4] at hjoin
  rw [arrays_eq19]
  have hB0 : (dat19 V a c).arrAt 0 (cfg19 a).N = Vact c main_v8 := ((dat19 V a c).arrAt_in 0 rfl _).trans h8.symm
  have hB1 : (dat19 V a c).arrAt 1 (cfg19 a).N = Vact c main_v8 := ((dat19 V a c).arrAt_in 1 rfl _).trans h8.symm
  have hB2 : (dat19 V a c).arrAt 2 (cfg19 a).N = Vact c main_v8 := ((dat19 V a c).arrAt_in 2 rfl _).trans h8.symm
  have hB3 : (dat19 V a c).arrAt 3 (cfg19 a).N = Vact c main_v8 := ((dat19 V a c).arrAt_in 3 rfl _).trans h8.symm
  rw [hB0, hB1, hB2, hB3, hRP]
  unfold Zrest19
  iintro ⟨⟨Ht0, Ht1, Ht2, Ht3, H13⟩, HO, ⟨Hp, Hpf⟩, ⟨Hrest, Hdrop⟩⟩
  ihave H8 := hjoin $$ [Hdrop Ht0 Ht1 Ht2 Ht3]
  · isplitl [Hdrop]; · iexact Hdrop
    isplitl [Ht0]; · iexact Ht0
    isplitl [Ht1]; · iexact Ht1
    isplitl [Ht2]; · iexact Ht2
    iexact Ht3
  imodintro
  isplitr [Hp HO]
  · isplitl [H8 H13]
    · isplitl [H8]
      · rw [show (fun b => Vact' c (Proc.devRef .tc b)) main_v8 = Vact c main_v8 from h8']; iexact H8
      rw [show (fun b => Vact' c (Proc.devRef .tc b)) main_v108 = (dat19 V a c).arrAt 4 (cfg19 a).N from h13']; iexact H13
    isplitl [Hpf]
    · rw [hP]; iexact Hpf
    iexact Hrest
  isplitl [Hp]; · iexact Hp
  unfold Pipeline.Dat.owesAt Pipeline.owesWithin
  icases HO with ⟨%W, -, HO⟩; iexists W; iexact HO

end Seg0

end Cert.Kernel.Gen

end
-- ==== Proof.KW.Reg19.lean ====
/-
  Region 19 of the gather-and-norm program as a segment of the program's run: the layout the launch decides, the body
  obligation at every grid point, and the four entailments around the thread state "every unscoped buffer whole at the
  current valuation, the generator register at some state, nothing owed" — entered at the valuation the host stretch
  before it leaves, left at that valuation updated at the region's output array.
-/
import proofs.«401090_j62775241999084_2_alg».proof.Proof.KW.Entries
import proofs.«401090_j62775241999084_2_alg».proof.Proof.KW.Seg19
import proofs.«401090_j62775241999084_2_alg».proof.Proof.KW.Levels

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (hR : ∀ c : Dev nD, Cert.EdgeLengths.InRange (m ((c.tc : Thread nD τ).loc main_arg1)))

local notation "𝕄" => MT nD τ sig Unit (Elt F) ℕ (UR sig nD τ) ℕ

-- a library lemma stated over the pinned configuration unifies with the printed one only when unification may unfold
-- plain definitions in a metavariable's type
set_option backward.isDefEq.respectTransparency.types false in
/-- Region 19 over the thread state. -/
def reg19 : Pipeline.RegionSeg (pcfgs (F := F)) (adm m hR) (pdats m hR) () defs₀ Variants.none Lnone lvnone (19 : Fin 20) where
  win := winFacts₀19
  block_pos := block_pos19
  stage_whole := stage_whole19
  K := PEmpty
  osem k := k.elim
  ho := Pipeline.OwnSemFacts.none _
  hbody c := (body_obligation19 (Vfirst m) (adm19 m core0 (hR core0)) c).loose
  hwaits := Pipeline.hwaits_of_owed_zero _ _ _ _ Lnone lvnone (19 : Fin 20) fun _ _ => rfl
  pre c := iprop(StableHlo.held (c : Thread nD τ) (Pipeline.ucRefs τ sig) (VE19 m hR c) ∗ Rside c)
  post c := iprop(StableHlo.held (c : Thread nD τ) (Pipeline.ucRefs τ sig) (VX19 m hR c) ∗ Rside c)
  X c := iprop(∃ r, prngReg c r)
  Y c := Ykeep19 (adm19 m core0 (hR core0)) c
  Z c := Zrest19 (VE19 m hR) c
  hentry c := hentry19 (VE19 m hR) (Vfirst m) (adm19 m core0 (hR core0)) c Lnone lvnone (ent_xtab19 m hR c) (ent_out19 m hR c) (ent_pf19 m hR c)
  hin c := hin19 (Vfirst m) (adm19 m core0 (hR core0)) c
  hout c := hout19 (Vfirst m) (adm19 m core0 (hR core0)) c
  hexit c := hexit19 (VE19 m hR) (Vfirst m) (adm19 m core0 (hR core0)) c (VX19 m hR) (ent_xtab19 m hR c) (ext_xtab19 m hR c) (ext_out19 m hR c)
    (ext_pf19 m hR c) (ext_rest19 m hR c)

end Cert.Kernel.Gen

end
-- ==== Proof.KW.ValueCond.lean ====
/-
  The program's run with its RESULT, conditional on the regions' segment records.

  The program is 21 host stretches alternating with 20 kernel regions. Between two items a core holds every unscoped
  buffer whole at a valuation: the launch contents, then each host stretch's operations applied, then each region's
  output array updated. Given a segment record per region that is entered and left at those valuations, the whole run
  terminates and the final memory agrees with the last valuation at the result array and holds the arguments unchanged.
-/
import proofs.«401090_j62775241999084_2_alg».proof.Proof.RegionsKernel
import Idealize.ShloMosaic.Lib.Pipeline.Frame
import Idealize.ShloMosaic.Lib.Pipeline.Regions

-- decided memberships and the launch kit's enumerations over 315 references recurse past the default depth
set_option maxRecDepth 1772

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE CONDITIONAL RUN WITH ITS RESULT. Under the same hypotheses as the conditional frame — per region a segment record
    entered from the thread state before it and left at the one after it — every weakly fair execution of the program
    from memory `m` with zero counters terminates, and every final memory holds the result array at what the LAST
    valuation has there (the host stretches' operations applied to what the regions left) and each argument as launched. -/
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 20) → (pcfgs (F := F) p).Adm)
    (pdats : (p : Fin 20) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 21 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE20 : ∀ c : Dev nD, E 20 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) a pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) a pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) a pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) a pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) a pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) a pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) a pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) a pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c))
    (R13 : RegionSeg (pcfgs (F := F)) a pdats ι defs₀ 𝒱₀ L lv 13)
    (hpre13 : ∀ c : Dev nD, iprop(StableHlo.held (c : Thread nD τ) (Pipeline.ucRefs τ sig) (V27 m outs c) ∗ E 13 c) ⊢ R13.pre c)
    (hpost13 : ∀ c : Dev nD, R13.post c ⊢ iprop(StableHlo.held (c : Thread nD τ) (Pipeline.ucRefs τ sig) (V28 m outs c) ∗ E 14 c))
    (R14 : RegionSeg (pcfgs (F := F)) a pdats ι defs₀ 𝒱₀ L lv 14)
    (hpre14 : ∀ c : Dev nD, iprop(StableHlo.held (c : Thread nD τ) (Pipeline.ucRefs τ sig) (V29 m outs c) ∗ E 14 c) ⊢ R14.pre c)
    (hpost14 : ∀ c : Dev nD, R14.post c ⊢ iprop(StableHlo.held (c : Thread nD τ) (Pipeline.ucRefs τ sig) (V30 m outs c) ∗ E 15 c))
    (R15 : RegionSeg (pcfgs (F := F)) a pdats ι defs₀ 𝒱₀ L lv 15)
    (hpre15 : ∀ c : Dev nD, iprop(StableHlo.held (c : Thread nD τ) (Pipeline.ucRefs τ sig) (V31 m outs c) ∗ E 15 c) ⊢ R15.pre c)
    (hpost15 : ∀ c : Dev nD, R15.post c ⊢ iprop(StableHlo.held (c : Thread nD τ) (Pipeline.ucRefs τ sig) (V32 m outs c) ∗ E 16 c))
    (R16 : RegionSeg (pcfgs (F := F)) a pdats ι defs₀ 𝒱₀ L lv 16)
    (hpre16 : ∀ c : Dev nD, iprop(StableHlo.held (c : Thread nD τ) (Pipeline.ucRefs τ sig) (V33 m outs c) ∗ E 16 c) ⊢ R16.pre c)
    (hpost16 : ∀ c : Dev nD, R16.post c ⊢ iprop(StableHlo.held (c : Thread nD τ) (Pipeline.ucRefs τ sig) (V34 m outs c) ∗ E 17 c))
    (R17 : RegionSeg (pcfgs (F := F)) a pdats ι defs₀ 𝒱₀ L lv 17)
    (hpre17 : ∀ c : Dev nD, iprop(StableHlo.held (c : Thread nD τ) (Pipeline.ucRefs τ sig) (V35 m outs c) ∗ E 17 c) ⊢ R17.pre c)
    (hpost17 : ∀ c : Dev nD, R17.post c ⊢ iprop(StableHlo.held (c : Thread nD τ) (Pipeline.ucRefs τ sig) (V36 m outs c) ∗ E 18 c))
    (R18 : RegionSeg (pcfgs (F := F)) a pdats ι defs₀ 𝒱₀ L lv 18)
    (hpre18 : ∀ c : Dev nD, iprop(StableHlo.held (c : Thread nD τ) (Pipeline.ucRefs τ sig) (V37 m outs c) ∗ E 18 c) ⊢ R18.pre c)
    (hpost18 : ∀ c : Dev nD, R18.post c ⊢ iprop(StableHlo.held (c : Thread nD τ) (Pipeline.ucRefs τ sig) (V38 m outs c) ∗ E 19 c))
    (R19 : RegionSeg (pcfgs (F := F)) a pdats ι defs₀ 𝒱₀ L lv 19)
    (hpre19 : ∀ c : Dev nD, iprop(StableHlo.held (c : Thread nD τ) (Pipeline.ucRefs τ sig) (V39 m outs c) ∗ E 19 c) ⊢ R19.pre c)
    (hpost19 : ∀ c : Dev nD, R19.post c ⊢ iprop(StableHlo.held (c : Thread nD τ) (Pipeline.ucRefs τ sig) (V40 m outs c) ∗ E 20 c)) :
    θ_run defs (onTc (τ := τ) (main (F := F))) ⟨m, fun _ => 0, ρ⟩ (fun r => ∀ c : Dev nD,
      r.2.mem ((c.tc : Thread nD τ).loc main_v112) = V41 m outs c main_v112
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) a pdats ι (cellOf_inj a) EP defs₀ 𝒱₀ L lv m ρ main
    (segs m outs 𝒱₀ L lv E ι a pdats R0 R1 R2 R3 R4 R5 R6 R7 R8 R9 R10 R11 R12 R13 R14 R15 R16 R17 R18 R19)
    (fun c Q => by
      rewrite [main_chain c, Seg.run_eq_chain,
        show (segs m outs 𝒱₀ L lv E ι a pdats R0 R1 R2 R3 R4 R5 R6 R7 R8 R9 R10 R11 R12 R13 R14 R15 R16 R17 R18 R19 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          Prog.lift (.customCall (Pipeline.entry 19) ()),
          StableHlo.seq hostOps20 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V41 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, hpost14 c, hpre15 c, hpost15 c, hpre16 c, hpost16 c, hpre17 c, hpost17 c, hpre18 c, hpost18 c, hpre19 c, hpost19 c, sep_mono .rfl (hE20 c)⟩)
    (hinit := ?_) (QY := fun c s => s.mem ((c.tc : Thread nD τ).loc main_v112) = V41 m outs c main_v112 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V41 m outs c) s') $$ [Hh HSI]
    · isplitl [Hh] <;> iassumption
    icases Hr with ⟨%h, HSI⟩
    imodintro
    isplitr
    · ipureintro
      exact ⟨h (Proc.devRef .tc main_v112) (Finset.mem_filter.mpr ⟨StableHlo.devRef_mem_tcRefs main_v112, by decide⟩),
        (h (Proc.devRef .tc main_arg0) (Finset.mem_filter.mpr ⟨StableHlo.devRef_mem_tcRefs main_arg0, by decide⟩)).trans (V41_main_arg0 m outs c),
        (h (Proc.devRef .tc main_arg1) (Finset.mem_filter.mpr ⟨StableHlo.devRef_mem_tcRefs main_arg1, by decide⟩)).trans (V41_main_arg1 m outs c)⟩
    · iexact HSI

end Cert.Kernel.Gen

end
-- ==== Proof.KW.Run.lean ====
/-
  The gather-and-norm program's run: every weakly fair execution from a memory whose vertex words are in range
  terminates, nothing faulting, with both arguments unchanged and the result array at what the last valuation has there.

  The twenty regions' segment records are the hypotheses of the conditional run; what is left is the launch: the
  pipelines' cells are allocated from the launch's ghost state, every core starts with its generator register and
  nothing owed, which is what rides beside the buffers through every segment, and ends owing nothing.
-/
import proofs.«401090_j62775241999084_2_alg».proof.Proof.KW.Reg0
import proofs.«401090_j62775241999084_2_alg».proof.Proof.KW.Reg1
import proofs.«401090_j62775241999084_2_alg».proof.Proof.KW.Reg2
import proofs.«401090_j62775241999084_2_alg».proof.Proof.KW.Reg3
import proofs.«401090_j62775241999084_2_alg».proof.Proof.KW.Reg4
import proofs.«401090_j62775241999084_2_alg».proof.Proof.KW.Reg5
import proofs.«401090_j62775241999084_2_alg».proof.Proof.KW.Reg6
import proofs.«401090_j62775241999084_2_alg».proof.Proof.KW.Reg7
import proofs.«401090_j62775241999084_2_alg».proof.Proof.KW.Reg8
import proofs.«401090_j62775241999084_2_alg».proof.Proof.KW.Reg9
import proofs.«401090_j62775241999084_2_alg».proof.Proof.KW.Reg10
import proofs.«401090_j62775241999084_2_alg».proof.Proof.KW.Reg11
import proofs.«401090_j62775241999084_2_alg».proof.Proof.KW.Reg12
import proofs.«401090_j62775241999084_2_alg».proof.Proof.KW.Reg13
import proofs.«401090_j62775241999084_2_alg».proof.Proof.KW.Reg14
import proofs.«401090_j62775241999084_2_alg».proof.Proof.KW.Reg15
import proofs.«401090_j62775241999084_2_alg».proof.Proof.KW.Reg16
import proofs.«401090_j62775241999084_2_alg».proof.Proof.KW.Reg17
import proofs.«401090_j62775241999084_2_alg».proof.Proof.KW.Reg18
import proofs.«401090_j62775241999084_2_alg».proof.Proof.KW.Reg19
import proofs.«401090_j62775241999084_2_alg».proof.Proof.KW.ValueCond
import Idealize.ShloMosaic.Lib.Pipeline.Kit

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)
variable (hR : ∀ c : Dev nD, Cert.EdgeLengths.InRange (m ((c.tc : Thread nD τ).loc main_arg1)))

local notation "𝕄" => MT nD τ sig Unit (Elt F) ℕ (UR sig nD τ) ℕ

/-- The launch's ghost state: the twenty pipelines' cells and their launch tokens. -/
abbrev launchU : UR sig nD τ :=
  initOf (Pipeline.cells (Pipeline.pin (pcfgs (F := F)) (adm m hR)) (cellOf_inj (adm m hR)))
    (Pipeline.launchToks (Pipeline.pin (pcfgs (F := F)) (adm m hR)) (cellOf_inj (adm m hR)))

theorem launchU_own :
    (ownU (launchU m hR) : sProp 𝕄) ⊢ |={Set.univ}=> iprop(BI.own (emb₁ (launchU m hR)) ∗ bigSep Finset.univ fun _ : Dev nD => (BI.emp : sProp 𝕄)) := by
  iintro Hu; imodintro
  isplitl [Hu]
  · iapply (show (ownU (launchU m hR) : sProp 𝕄) ⊢ BI.own (emb₁ (launchU m hR)) from .rfl)
    iexact Hu
  iapply (show (BI.emp : sProp 𝕄) ⊢ bigSep Finset.univ (fun _ : Dev nD => (BI.emp : sProp 𝕄)) from by rw [BI.bigSep_emp_const])
  iempintro

/-- Every core starts with its generator register and nothing owed. -/
theorem start_side :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄))) ∗ levAts Lnone lvnone)
      ⊢ (|={Set.univ}=> bigSep Finset.univ (fun c : Dev nD => Rside (F := F) c) : sProp 𝕄) :=
  Pipeline.initEach Lnone lvnone fun c => by
    iintro ⟨⟨-, HO, -, Hp, -⟩, -⟩
    imodintro
    isplitl [Hp]; · iexists _; iexact Hp
    iexists ∅; iexact HO

/-- and ends owing nothing. -/
theorem end_side (c : Dev nD) : (Rside (F := F) c : sProp 𝕄) ⊢ iprop(∃ W, owes (c : Thread nD τ) (0 : CellTallies nD τ sig Unit) W) := by
  iintro ⟨-, HO⟩; iexact HO

/-- THE RUN WITH ITS RESULT. -/
theorem run_val : θ_run defs (onTc (τ := τ) (main (F := F))) ⟨m, fun _ => 0, ρ⟩ (fun r => ∀ c : Dev nD,
      r.2.mem ((c.tc : Thread nD τ).loc main_v112) = V41 m (outs m hR) c main_v112
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  value_cond m emb₁ () Variants.none Lnone lvnone (fun _ _ => rfl) ρ (outs m hR) (adm m hR) (pdats m hR)
    (fun _ => 0) (fun _ => iprop(emp)) (launchU m hR) (launchU_own m hR) (fun _ c => Rside c) (start_side ρ) (fun c => end_side c)
    (reg0 m hR) (fun _ => .rfl) (fun _ => .rfl)
    (reg1 m hR) (fun _ => .rfl) (fun _ => .rfl)
    (reg2 m hR) (fun _ => .rfl) (fun _ => .rfl)
    (reg3 m hR) (fun _ => .rfl) (fun _ => .rfl)
    (reg4 m hR) (fun _ => .rfl) (fun _ => .rfl)
    (reg5 m hR) (fun _ => .rfl) (fun _ => .rfl)
    (reg6 m hR) (fun _ => .rfl) (fun _ => .rfl)
    (reg7 m hR) (fun _ => .rfl) (fun _ => .rfl)
    (reg8 m hR) (fun _ => .rfl) (fun _ => .rfl)
    (reg9 m hR) (fun _ => .rfl) (fun _ => .rfl)
    (reg10 m hR) (fun _ => .rfl) (fun _ => .rfl)
    (reg11 m hR) (fun _ => .rfl) (fun _ => .rfl)
    (reg12 m hR) (fun _ => .rfl) (fun _ => .rfl)
    (reg13 m hR) (fun _ => .rfl) (fun _ => .rfl)
    (reg14 m hR) (fun _ => .rfl) (fun _ => .rfl)
    (reg15 m hR) (fun _ => .rfl) (fun _ => .rfl)
    (reg16 m hR) (fun _ => .rfl) (fun _ => .rfl)
    (reg17 m hR) (fun _ => .rfl) (fun _ => .rfl)
    (reg18 m hR) (fun _ => .rfl) (fun _ => .rfl)
    (reg19 m hR) (fun _ => .rfl) (fun _ => .rfl)

include hR in
/-- THE FRAME: the same run, keeping only that the arguments end unchanged. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_val m ρ hR)

end Cert.Kernel.Gen

end
-- ==== Proof.lean ====
/-
  Two edge lengths per generator, computed two ways.

  A point table x has 100000 rows of 64 coordinates; each of 500000 generators carries four vertex words
  (b0, b1, d0, d1). Both programs return, for every generator, the Euclidean lengths ‖x[b0] − x[b1]‖ and
  ‖x[d0] − x[d1]‖. The reference gathers the four rows of every generator at once, subtracts, squares, sums
  over the 64 coordinates and takes the square root. The kernel program cuts the generators into 20 chunks of
  25000; in chunk K the grid point q fetches the four rows that generator 25000·K + q names (the rows are chosen
  by the chunk's four index tables, which are columns of the vertex words), computes the same two lengths and
  writes them to row q of the chunk's output; the chunks' outputs are then laid end to end. Over the extended
  reals both are the one function `Cert.EdgeLengths.lengths` of the two argument arrays: no rounding, and the
  sum over the coordinates does not depend on its order.

  A vertex word picks a row of the table only when it lies in 0 ≤ w < 100000; the precondition says so of every
  vertex word (`Cert.PreRange.inRange_of_pre`), and that is what keeps every fetched block inside the table, for
  the word-level program and for the idealized one alike. The ideal pass rewrote nothing, so `preserves` asks
  nothing.
-/
import proofs.«401090_j62775241999084_2_alg».proof.Defs
import proofs.«401090_j62775241999084_2_alg».proof.Proof.Gen.Kernel
import proofs.«401090_j62775241999084_2_alg».proof.Proof.Gen.KernelIdeal
import proofs.«401090_j62775241999084_2_alg».proof.Proof.Gen.ReferenceIdeal
import proofs.«401090_j62775241999084_2_alg».proof.Proof.Gen.Pre_finite_inputs
import proofs.«401090_j62775241999084_2_alg».proof.Proof.PreRange
import proofs.«401090_j62775241999084_2_alg».proof.Proof.RefValue
import proofs.«401090_j62775241999084_2_alg».proof.Proof.KI.Run
import proofs.«401090_j62775241999084_2_alg».proof.Proof.KI.KernelValue
import proofs.«401090_j62775241999084_2_alg».proof.Proof.KW.Run

noncomputable section

namespace Cert.Proof

open Idealize.ShloMosaic Idealize.SL.Sem

/-- The word-level program runs to the end, faults nowhere and leaves both arguments as they were: the vertex words
    are in range by the precondition. -/
theorem frame_kernel : Cert.frame_Kernel := fun m ρ hpre =>
  Cert.Kernel.Gen.run_frame (F := Bits) m ρ (fun c => Cert.PreRange.inRange_of_pre _ _ (hpre c))

/-- The same of the program read over the extended reals. -/
theorem frame_kernelIdeal : Cert.frame_KernelIdeal := fun m ρ hpre =>
  Cert.KernelIdeal.Gen.run_frame (F := Ideal) m ρ (fun c => Cert.PreRange.inRange_of_pre _ _ (hpre c))

/-- The reference's run with its result dropped. -/
theorem frame_reference : Cert.frame_ReferenceIdeal := fun m ρ hpre =>
  (θ_run (Cert.ReferenceIdeal.defs (F := Ideal)) _ _).mono (fun _ h c => (h c).2)
    (Cert.ReferenceIdeal.RefValue.run m ρ (fun c => Cert.PreRange.inRange_of_pre _ _ (hpre c)))

/-- From memories that agree on the point table and on the vertex words, both programs end with the array of edge
    lengths of those two arguments. -/
theorem algebraic : Cert.algebraic_KernelIdeal_ReferenceIdeal := by
  intro m ρ m' ρ' hpre hagree
  have hR : ∀ c : Dev Cert.KernelIdeal.nD, Cert.EdgeLengths.InRange
      (m ((c.tc : Thread Cert.KernelIdeal.nD Cert.KernelIdeal.τ).loc Cert.KernelIdeal.main_arg1)) :=
    fun c => Cert.PreRange.inRange_of_pre _ _ (hpre c)
  have hR' : ∀ c : Dev Cert.ReferenceIdeal.nD, Cert.EdgeLengths.InRange
      (m' ((c.tc : Thread Cert.ReferenceIdeal.nD Cert.ReferenceIdeal.τ).loc Cert.ReferenceIdeal.main_arg1)) :=
    fun c => by rw [(hagree c).2]; exact hR c
  refine ⟨fun c => Cert.EdgeLengths.lengths
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (Cert.KernelIdeal.Gen.kernel_value m hR c), (h c).2⟩)
      (Cert.KernelIdeal.Gen.run_val (F := Ideal) m ρ hR)
  · refine (θ_run (Cert.ReferenceIdeal.defs (F := Ideal)) _ _).mono (fun _ h c => ⟨(h c).1.trans ?_, (h c).2⟩)
      (Cert.ReferenceIdeal.RefValue.run m' ρ' hR')
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
